-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x24x10000 : Shape := ⟨3, ![128, 24, 10000]⟩
abbrev S10000x10000 : Shape := ⟨2, ![10000, 10000]⟩
abbrev S128x24 : Shape := ⟨2, ![128, 24]⟩
abbrev S_ : Shape := ⟨0, ![]⟩

class Facts : Prop where
  bcast_S_S128x24x10000 : S_.BroadcastsInDim S128x24x10000 (![] : Fin 0 → Fin S128x24x10000.rank)
  reducesTo_S128x24x10000_S_d0_1_2 : S128x24x10000.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x24 : S_.BroadcastsInDim S128x24 (![] : Fin 0 → Fin S128x24.rank)
  reducesTo_S128x24_S_d0_1 : S128x24.ReducesTo [0, 1] S_

variable [Facts]

def fn_part1 {F : FTy → Type} [FloatOps F] (main_arg2 : IVec S128x24 32) (main_v13 : IVec S_ 1) (main_v15 : IVec S128x24 1) (main_c_5 : IVec S_ 32) : IVec S_ 1 :=
  let main_v16 : IVec S128x24 32 := broadcastInDim S128x24 ![] bcast_S_S128x24 main_c_5
  let main_v17 : IVec S128x24 1 := cmpi .slt main_arg2 main_v16
  let main_v18 : IVec S128x24 1 := andi main_v15 main_v17
  let main_c_6 : IVec S_ 1 := constantI S_ 1 1#1
  let main_v19 : IVec S_ 1 := (fun x v => Host.reduce IntOp.andi x v reducesTo_S128x24_S_d0_1 h_S_) main_v18 main_c_6
  let main_v20 : IVec S_ 1 := andi main_v13 main_v19
  main_v20

def fn {F : FTy → Type} [FloatOps F] (main_arg0 : FVec F S128x24x10000 .f32) (main_arg1 : FVec F S10000x10000 .f32) (main_arg2 : IVec S128x24 32) (main_arg3 : FVec F S128x24 .f32) : IVec S_ 1 :=
  let main_v0 : FVec F S128x24x10000 .f32 := Host.absf main_arg0
  let main_cst : FVec F S_ .f32 := constant S_ .f32 0x7F800000#32
  let main_v1 : FVec F S128x24x10000 .f32 := broadcastInDim S128x24x10000 ![] bcast_S_S128x24x10000 main_cst
  let main_v2 : IVec S128x24x10000 1 := cmpf .olt main_v0 main_v1
  let main_c : IVec S_ 1 := constantI S_ 1 1#1
  let main_v3 : IVec S_ 1 := (fun x v => Host.reduce IntOp.andi x v reducesTo_S128x24x10000_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x24 .f32 := Host.absf main_arg3
  let main_cst_2 : FVec F S_ .f32 := constant S_ .f32 0x7F800000#32
  let main_v10 : FVec F S128x24 .f32 := broadcastInDim S128x24 ![] bcast_S_S128x24 main_cst_2
  let main_v11 : IVec S128x24 1 := cmpf .olt main_v9 main_v10
  let main_c_3 : IVec S_ 1 := constantI S_ 1 1#1
  let main_v12 : IVec S_ 1 := (fun x v => Host.reduce IntOp.andi x v reducesTo_S128x24_S_d0_1 h_S_) main_v11 main_c_3
  let main_v13 : IVec S_ 1 := andi main_v8 main_v12
  let main_c_4 : IVec S_ 32 := constantI S_ 32 0#32
  let main_v14 : IVec S128x24 32 := broadcastInDim S128x24 ![] bcast_S_S128x24 main_c_4
  let main_v15 : IVec S128x24 1 := cmpi .sge main_arg2 main_v14
  let main_c_5 : IVec S_ 32 := constantI S_ 32 10000#32
  fn_part1 (F := F) main_arg2 main_v13 main_v15 main_c_5
-- ==== Kernel.lean ====
abbrev S128x24x10000 : Shape := ⟨3, ![128, 24, 10000]⟩
abbrev S10000x10000 : Shape := ⟨2, ![10000, 10000]⟩
abbrev S128x24 : Shape := ⟨2, ![128, 24]⟩
abbrev S3072x10000 : Shape := ⟨2, ![3072, 10000]⟩
abbrev S3072x1 : Shape := ⟨2, ![3072, 1]⟩
abbrev S3072 : Shape := ⟨1, ![3072]⟩
abbrev S1x1 : Shape := ⟨2, ![1, 1]⟩
abbrev S64x10000 : Shape := ⟨2, ![64, 10000]⟩
abbrev S64x1 : Shape := ⟨2, ![64, 1]⟩
abbrev S1x10000 : Shape := ⟨2, ![1, 10000]⟩
abbrev S2 : Shape := ⟨1, ![2]⟩
abbrev S1 : Shape := ⟨1, ![1]⟩
abbrev S_ : Shape := ⟨0, ![]⟩

abbrev nBuf : Space → Nat
  | .hbm => 14
  | .vmem => 16
  | .smem => 1
  | _ => 0

abbrev bufTy : (tb : Table) → Fin (tcTables nBuf tb) → BufTy
  | .hbm, ⟨0, _⟩ => ⟨S128x24x10000, .f32⟩
  | .hbm, ⟨1, _⟩ => ⟨S10000x10000, .f32⟩
  | .hbm, ⟨2, _⟩ => ⟨S128x24, .i32⟩
  | .hbm, ⟨3, _⟩ => ⟨S128x24, .f32⟩
  | .hbm, ⟨4, _⟩ => ⟨S3072x10000, .f32⟩
  | .hbm, ⟨5, _⟩ => ⟨S3072x1, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S64x10000, .f32⟩
  | .local _ .vmem, ⟨1, _⟩ => ⟨S64x10000, .f32⟩
  | .local _ .vmem, ⟨2, _⟩ => ⟨S64x1, .f32⟩
  | .local _ .vmem, ⟨3, _⟩ => ⟨S64x1, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1x10000, .f32⟩
  | .local _ .vmem, ⟨9, _⟩ => ⟨S1x10000, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | .local _ .smem, ⟨0, _⟩ => ⟨S3072, .i32⟩
  | _, _ => ⟨S128x24x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![48], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c64_i32 : BitVec 32 := 64#32
  let v3 : BitVec 32 := Scalar.muli arg0 c64_i32
  let c0_i32_1 : BitVec 32 := 0#32
  let v4 : BitVec 32 := Scalar.addi v3 c0_i32_1
  let v5 : Index := Scalar.indexCast v4
  ![v5.toNat]
def k0_off2 (v6 : BitVec 32) : Fin 2 → Nat :=
  let c0_i32_3 : BitVec 32 := 0#32
  ![v6.toNat, 0]

def k0_chk1 (v6 : BitVec 32) : Prop :=
  (∀ a, (k0_off2 v6) a + S1x10000.size a ≤ S10000x10000.size a)
instance k0_chk1.dec : ∀ (v6 : BitVec 32), Decidable (k0_chk1 v6) := fun v6 => decidable_of_iff' _ (Iff.of_eq (k0_chk1.eq_1 v6))
theorem k0_off2_inb : ∀ (v6 : BitVec 32) (k0_hw1 : k0_chk1 v6), ∀ a, (k0_off2 v6) a + S1x10000.size a ≤ S10000x10000.size a := fun v6 k0_hw1 => k0_hw1

def k0_off3 (i : grid0.Coords) : Fin 1 → Nat :=
  let arg0 : BitVec 32 := BitVec.ofNat 32 (i 0).val
  let c64_i32 : BitVec 32 := 64#32
  let v3 : BitVec 32 := Scalar.muli arg0 c64_i32
  let c1_i32 : BitVec 32 := 1#32
  let v13 : BitVec 32 := Scalar.addi v3 c1_i32
  let v14 : Index := Scalar.indexCast v13
  ![v14.toNat]
def k0_off4 (v15 : BitVec 32) : Fin 2 → Nat :=
  let c0_i32_8 : BitVec 32 := 0#32
  ![v15.toNat, 0]

def k0_chk2 (v15 : BitVec 32) : Prop :=
  (∀ a, (k0_off4 v15) a + S1x10000.size a ≤ S10000x10000.size a)
instance k0_chk2.dec : ∀ (v15 : BitVec 32), Decidable (k0_chk2 v15) := fun v15 => decidable_of_iff' _ (Iff.of_eq (k0_chk2.eq_1 v15))
theorem k0_off4_inb : ∀ (v15 : BitVec 32) (k0_hw2 : k0_chk2 v15), ∀ a, (k0_off4 v15) a + S1x10000.size a ≤ S10000x10000.size a := fun v15 k0_hw2 => k0_hw2

def k0_off5 (i : grid0.Coords) (c0_i32_14 : BitVec 32) : Fin 1 → Nat :=
  let arg0 : BitVec 32 := BitVec.ofNat 32 (i 0).val
  let c64_i32 : BitVec 32 := 64#32
  let v3 : BitVec 32 := Scalar.muli arg0 c64_i32
  let v24 : BitVec 32 := Scalar.addi v3 c0_i32_14
  let v25 : Index := Scalar.indexCast v24
  ![v25.toNat]
def k0_off6 (v100 : BitVec 32) : Fin 2 → Nat :=
  let c0_i32_52 : BitVec 32 := 0#32
  ![v100.toNat, 0]

def k0_chk3 (v100 : BitVec 32) : Prop :=
  (∀ a, (k0_off6 v100) a + S1x10000.size a ≤ S10000x10000.size a)
instance k0_chk3.dec : ∀ (v100 : BitVec 32), Decidable (k0_chk3 v100) := fun v100 => decidable_of_iff' _ (Iff.of_eq (k0_chk3.eq_1 v100))
theorem k0_off6_inb : ∀ (v100 : BitVec 32) (k0_hw3 : k0_chk3 v100), ∀ a, (k0_off6 v100) a + S1x10000.size a ≤ S10000x10000.size a := fun v100 k0_hw3 => k0_hw3

def k0_off7 (i : grid0.Coords) (c1_i32_58 : BitVec 32) : Fin 1 → Nat :=
  let arg0 : BitVec 32 := BitVec.ofNat 32 (i 0).val
  let c64_i32 : BitVec 32 := 64#32
  let v3 : BitVec 32 := Scalar.muli arg0 c64_i32
  let v109 : BitVec 32 := Scalar.addi v3 c1_i32_58
  let v110 : Index := Scalar.indexCast v109
  ![v110.toNat]
def k0_off8 (v185 : BitVec 32) : Fin 2 → Nat :=
  let c0_i32_97 : BitVec 32 := 0#32
  ![v185.toNat, 0]

def k0_chk4 (v185 : BitVec 32) : Prop :=
  (∀ a, (k0_off8 v185) a + S1x10000.size a ≤ S10000x10000.size a)
instance k0_chk4.dec : ∀ (v185 : BitVec 32), Decidable (k0_chk4 v185) := fun v185 => decidable_of_iff' _ (Iff.of_eq (k0_chk4.eq_1 v185))
theorem k0_off8_inb : ∀ (v185 : BitVec 32) (k0_hw4 : k0_chk4 v185), ∀ a, (k0_off8 v185) a + S1x10000.size a ≤ S10000x10000.size a := fun v185 k0_hw4 => k0_hw4

def k0_off9 (i : grid0.Coords) (c2_i32_103 : BitVec 32) : Fin 1 → Nat :=
  let arg0 : BitVec 32 := BitVec.ofNat 32 (i 0).val
  let c64_i32 : BitVec 32 := 64#32
  let v3 : BitVec 32 := Scalar.muli arg0 c64_i32
  let v194 : BitVec 32 := Scalar.addi v3 c2_i32_103
  let v195 : Index := Scalar.indexCast v194
  ![v195.toNat]
def k0_off10 (v270 : BitVec 32) : Fin 2 → Nat :=
  let c0_i32_142 : BitVec 32 := 0#32
  ![v270.toNat, 0]

def k0_chk5 (v270 : BitVec 32) : Prop :=
  (∀ a, (k0_off10 v270) a + S1x10000.size a ≤ S10000x10000.size a)
instance k0_chk5.dec : ∀ (v270 : BitVec 32), Decidable (k0_chk5 v270) := fun v270 => decidable_of_iff' _ (Iff.of_eq (k0_chk5.eq_1 v270))
theorem k0_off10_inb : ∀ (v270 : BitVec 32) (k0_hw5 : k0_chk5 v270), ∀ a, (k0_off10 v270) a + S1x10000.size a ≤ S10000x10000.size a := fun v270 k0_hw5 => k0_hw5

def k0_off11 (i : grid0.Coords) (c3_i32_148 : BitVec 32) : Fin 1 → Nat :=
  let arg0 : BitVec 32 := BitVec.ofNat 32 (i 0).val
  let c64_i32 : BitVec 32 := 64#32
  let v3 : BitVec 32 := Scalar.muli arg0 c64_i32
  let v279 : BitVec 32 := Scalar.addi v3 c3_i32_148
  let v280 : Index := Scalar.indexCast v279
  ![v280.toNat]
def k0_off12 (v355 : BitVec 32) : Fin 2 → Nat :=
  let c0_i32_187 : BitVec 32 := 0#32
  ![v355.toNat, 0]

def k0_chk6 (v355 : BitVec 32) : Prop :=
  (∀ a, (k0_off12 v355) a + S1x10000.size a ≤ S10000x10000.size a)
instance k0_chk6.dec : ∀ (v355 : BitVec 32), Decidable (k0_chk6 v355) := fun v355 => decidable_of_iff' _ (Iff.of_eq (k0_chk6.eq_1 v355))
theorem k0_off12_inb : ∀ (v355 : BitVec 32) (k0_hw6 : k0_chk6 v355), ∀ a, (k0_off12 v355) a + S1x10000.size a ≤ S10000x10000.size a := fun v355 k0_hw6 => k0_hw6

def k0_off13 (i : grid0.Coords) (c4_i32_193 : BitVec 32) : Fin 1 → Nat :=
  let arg0 : BitVec 32 := BitVec.ofNat 32 (i 0).val
  let c64_i32 : BitVec 32 := 64#32
  let v3 : BitVec 32 := Scalar.muli arg0 c64_i32
  let v364 : BitVec 32 := Scalar.addi v3 c4_i32_193
  let v365 : Index := Scalar.indexCast v364
  ![v365.toNat]
def k0_off14 (v440 : BitVec 32) : Fin 2 → Nat :=
  let c0_i32_232 : BitVec 32 := 0#32
  ![v440.toNat, 0]

def k0_chk7 (v440 : BitVec 32) : Prop :=
  (∀ a, (k0_off14 v440) a + S1x10000.size a ≤ S10000x10000.size a)
instance k0_chk7.dec : ∀ (v440 : BitVec 32), Decidable (k0_chk7 v440) := fun v440 => decidable_of_iff' _ (Iff.of_eq (k0_chk7.eq_1 v440))
theorem k0_off14_inb : ∀ (v440 : BitVec 32) (k0_hw7 : k0_chk7 v440), ∀ a, (k0_off14 v440) a + S1x10000.size a ≤ S10000x10000.size a := fun v440 k0_hw7 => k0_hw7

def k0_off15 (i : grid0.Coords) (c5_i32_238 : BitVec 32) : Fin 1 → Nat :=
  let arg0 : BitVec 32 := BitVec.ofNat 32 (i 0).val
  let c64_i32 : BitVec 32 := 64#32
  let v3 : BitVec 32 := Scalar.muli arg0 c64_i32
  let v449 : BitVec 32 := Scalar.addi v3 c5_i32_238
  let v450 : Index := Scalar.indexCast v449
  ![v450.toNat]
def k0_off16 (v525 : BitVec 32) : Fin 2 → Nat :=
  let c0_i32_277 : BitVec 32 := 0#32
  ![v525.toNat, 0]

def k0_chk8 (v525 : BitVec 32) : Prop :=
  (∀ a, (k0_off16 v525) a + S1x10000.size a ≤ S10000x10000.size a)
instance k0_chk8.dec : ∀ (v525 : BitVec 32), Decidable (k0_chk8 v525) := fun v525 => decidable_of_iff' _ (Iff.of_eq (k0_chk8.eq_1 v525))
theorem k0_off16_inb : ∀ (v525 : BitVec 32) (k0_hw8 : k0_chk8 v525), ∀ a, (k0_off16 v525) a + S1x10000.size a ≤ S10000x10000.size a := fun v525 k0_hw8 => k0_hw8

def k0_off17 (i : grid0.Coords) (c6_i32_283 : BitVec 32) : Fin 1 → Nat :=
  let arg0 : BitVec 32 := BitVec.ofNat 32 (i 0).val
  let c64_i32 : BitVec 32 := 64#32
  let v3 : BitVec 32 := Scalar.muli arg0 c64_i32
  let v534 : BitVec 32 := Scalar.addi v3 c6_i32_283
  let v535 : Index := Scalar.indexCast v534
  ![v535.toNat]
def k0_off18 (v610 : BitVec 32) : Fin 2 → Nat :=
  let c0_i32_322 : BitVec 32 := 0#32
  ![v610.toNat, 0]

def k0_chk9 (v610 : BitVec 32) : Prop :=
  (∀ a, (k0_off18 v610) a + S1x10000.size a ≤ S10000x10000.size a)
instance k0_chk9.dec : ∀ (v610 : BitVec 32), Decidable (k0_chk9 v610) := fun v610 => decidable_of_iff' _ (Iff.of_eq (k0_chk9.eq_1 v610))
theorem k0_off18_inb : ∀ (v610 : BitVec 32) (k0_hw9 : k0_chk9 v610), ∀ a, (k0_off18 v610) a + S1x10000.size a ≤ S10000x10000.size a := fun v610 k0_hw9 => k0_hw9

def k0_off19 (i : grid0.Coords) (c7_i32_328 : BitVec 32) : Fin 1 → Nat :=
  let arg0 : BitVec 32 := BitVec.ofNat 32 (i 0).val
  let c64_i32 : BitVec 32 := 64#32
  let v3 : BitVec 32 := Scalar.muli arg0 c64_i32
  let v619 : BitVec 32 := Scalar.addi v3 c7_i32_328
  let v620 : Index := Scalar.indexCast v619
  ![v620.toNat]
def k0_off20 (v695 : BitVec 32) : Fin 2 → Nat :=
  let c0_i32_367 : BitVec 32 := 0#32
  ![v695.toNat, 0]

def k0_chk10 (v695 : BitVec 32) : Prop :=
  (∀ a, (k0_off20 v695) a + S1x10000.size a ≤ S10000x10000.size a)
instance k0_chk10.dec : ∀ (v695 : BitVec 32), Decidable (k0_chk10 v695) := fun v695 => decidable_of_iff' _ (Iff.of_eq (k0_chk10.eq_1 v695))
theorem k0_off20_inb : ∀ (v695 : BitVec 32) (k0_hw10 : k0_chk10 v695), ∀ a, (k0_off20 v695) a + S1x10000.size a ≤ S10000x10000.size a := fun v695 k0_hw10 => k0_hw10

def k0_off21 (i : grid0.Coords) (c8_i32_373 : BitVec 32) : Fin 1 → Nat :=
  let arg0 : BitVec 32 := BitVec.ofNat 32 (i 0).val
  let c64_i32 : BitVec 32 := 64#32
  let v3 : BitVec 32 := Scalar.muli arg0 c64_i32
  let v704 : BitVec 32 := Scalar.addi v3 c8_i32_373
  let v705 : Index := Scalar.indexCast v704
  ![v705.toNat]
def k0_off22 (v780 : BitVec 32) : Fin 2 → Nat :=
  let c0_i32_412 : BitVec 32 := 0#32
  ![v780.toNat, 0]

def k0_chk11 (v780 : BitVec 32) : Prop :=
  (∀ a, (k0_off22 v780) a + S1x10000.size a ≤ S10000x10000.size a)
instance k0_chk11.dec : ∀ (v780 : BitVec 32), Decidable (k0_chk11 v780) := fun v780 => decidable_of_iff' _ (Iff.of_eq (k0_chk11.eq_1 v780))
theorem k0_off22_inb : ∀ (v780 : BitVec 32) (k0_hw11 : k0_chk11 v780), ∀ a, (k0_off22 v780) a + S1x10000.size a ≤ S10000x10000.size a := fun v780 k0_hw11 => k0_hw11

def k0_off23 (i : grid0.Coords) (c9_i32_418 : BitVec 32) : Fin 1 → Nat :=
  let arg0 : BitVec 32 := BitVec.ofNat 32 (i 0).val
  let c64_i32 : BitVec 32 := 64#32
  let v3 : BitVec 32 := Scalar.muli arg0 c64_i32
  let v789 : BitVec 32 := Scalar.addi v3 c9_i32_418
  let v790 : Index := Scalar.indexCast v789
  ![v790.toNat]
def k0_off24 (v865 : BitVec 32) : Fin 2 → Nat :=
  let c0_i32_457 : BitVec 32 := 0#32
  ![v865.toNat, 0]

def k0_chk12 (v865 : BitVec 32) : Prop :=
  (∀ a, (k0_off24 v865) a + S1x10000.size a ≤ S10000x10000.size a)
instance k0_chk12.dec : ∀ (v865 : BitVec 32), Decidable (k0_chk12 v865) := fun v865 => decidable_of_iff' _ (Iff.of_eq (k0_chk12.eq_1 v865))
theorem k0_off24_inb : ∀ (v865 : BitVec 32) (k0_hw12 : k0_chk12 v865), ∀ a, (k0_off24 v865) a + S1x10000.size a ≤ S10000x10000.size a := fun v865 k0_hw12 => k0_hw12

def k0_off25 (i : grid0.Coords) (c10_i32_463 : BitVec 32) : Fin 1 → Nat :=
  let arg0 : BitVec 32 := BitVec.ofNat 32 (i 0).val
  let c64_i32 : BitVec 32 := 64#32
  let v3 : BitVec 32 := Scalar.muli arg0 c64_i32
  let v874 : BitVec 32 := Scalar.addi v3 c10_i32_463
  let v875 : Index := Scalar.indexCast v874
  ![v875.toNat]
def k0_off26 (v950 : BitVec 32) : Fin 2 → Nat :=
  let c0_i32_502 : BitVec 32 := 0#32
  ![v950.toNat, 0]

def k0_chk13 (v950 : BitVec 32) : Prop :=
  (∀ a, (k0_off26 v950) a + S1x10000.size a ≤ S10000x10000.size a)
instance k0_chk13.dec : ∀ (v950 : BitVec 32), Decidable (k0_chk13 v950) := fun v950 => decidable_of_iff' _ (Iff.of_eq (k0_chk13.eq_1 v950))
theorem k0_off26_inb : ∀ (v950 : BitVec 32) (k0_hw13 : k0_chk13 v950), ∀ a, (k0_off26 v950) a + S1x10000.size a ≤ S10000x10000.size a := fun v950 k0_hw13 => k0_hw13

def k0_off27 (i : grid0.Coords) (c11_i32_508 : BitVec 32) : Fin 1 → Nat :=
  let arg0 : BitVec 32 := BitVec.ofNat 32 (i 0).val
  let c64_i32 : BitVec 32 := 64#32
  let v3 : BitVec 32 := Scalar.muli arg0 c64_i32
  let v959 : BitVec 32 := Scalar.addi v3 c11_i32_508
  let v960 : Index := Scalar.indexCast v959
  ![v960.toNat]
def k0_off28 (v1035 : BitVec 32) : Fin 2 → Nat :=
  let c0_i32_547 : BitVec 32 := 0#32
  ![v1035.toNat, 0]

def k0_chk14 (v1035 : BitVec 32) : Prop :=
  (∀ a, (k0_off28 v1035) a + S1x10000.size a ≤ S10000x10000.size a)
instance k0_chk14.dec : ∀ (v1035 : BitVec 32), Decidable (k0_chk14 v1035) := fun v1035 => decidable_of_iff' _ (Iff.of_eq (k0_chk14.eq_1 v1035))
theorem k0_off28_inb : ∀ (v1035 : BitVec 32) (k0_hw14 : k0_chk14 v1035), ∀ a, (k0_off28 v1035) a + S1x10000.size a ≤ S10000x10000.size a := fun v1035 k0_hw14 => k0_hw14

def k0_off29 (i : grid0.Coords) (c12_i32_553 : BitVec 32) : Fin 1 → Nat :=
  let arg0 : BitVec 32 := BitVec.ofNat 32 (i 0).val
  let c64_i32 : BitVec 32 := 64#32
  let v3 : BitVec 32 := Scalar.muli arg0 c64_i32
  let v1044 : BitVec 32 := Scalar.addi v3 c12_i32_553
  let v1045 : Index := Scalar.indexCast v1044
  ![v1045.toNat]
def k0_off30 (v1120 : BitVec 32) : Fin 2 → Nat :=
  let c0_i32_592 : BitVec 32 := 0#32
  ![v1120.toNat, 0]

def k0_chk15 (v1120 : BitVec 32) : Prop :=
  (∀ a, (k0_off30 v1120) a + S1x10000.size a ≤ S10000x10000.size a)
instance k0_chk15.dec : ∀ (v1120 : BitVec 32), Decidable (k0_chk15 v1120) := fun v1120 => decidable_of_iff' _ (Iff.of_eq (k0_chk15.eq_1 v1120))
theorem k0_off30_inb : ∀ (v1120 : BitVec 32) (k0_hw15 : k0_chk15 v1120), ∀ a, (k0_off30 v1120) a + S1x10000.size a ≤ S10000x10000.size a := fun v1120 k0_hw15 => k0_hw15

def k0_off31 (i : grid0.Coords) (c13_i32_598 : BitVec 32) : Fin 1 → Nat :=
  let arg0 : BitVec 32 := BitVec.ofNat 32 (i 0).val
  let c64_i32 : BitVec 32 := 64#32
  let v3 : BitVec 32 := Scalar.muli arg0 c64_i32
  let v1129 : BitVec 32 := Scalar.addi v3 c13_i32_598
  let v1130 : Index := Scalar.indexCast v1129
  ![v1130.toNat]
def k0_off32 (v1205 : BitVec 32) : Fin 2 → Nat :=
  let c0_i32_637 : BitVec 32 := 0#32
  ![v1205.toNat, 0]

def k0_chk16 (v1205 : BitVec 32) : Prop :=
  (∀ a, (k0_off32 v1205) a + S1x10000.size a ≤ S10000x10000.size a)
instance k0_chk16.dec : ∀ (v1205 : BitVec 32), Decidable (k0_chk16 v1205) := fun v1205 => decidable_of_iff' _ (Iff.of_eq (k0_chk16.eq_1 v1205))
theorem k0_off32_inb : ∀ (v1205 : BitVec 32) (k0_hw16 : k0_chk16 v1205), ∀ a, (k0_off32 v1205) a + S1x10000.size a ≤ S10000x10000.size a := fun v1205 k0_hw16 => k0_hw16

def k0_off33 (i : grid0.Coords) (c14_i32_643 : BitVec 32) : Fin 1 → Nat :=
  let arg0 : BitVec 32 := BitVec.ofNat 32 (i 0).val
  let c64_i32 : BitVec 32 := 64#32
  let v3 : BitVec 32 := Scalar.muli arg0 c64_i32
  let v1214 : BitVec 32 := Scalar.addi v3 c14_i32_643
  let v1215 : Index := Scalar.indexCast v1214
  ![v1215.toNat]
def k0_off34 (v1290 : BitVec 32) : Fin 2 → Nat :=
  let c0_i32_682 : BitVec 32 := 0#32
  ![v1290.toNat, 0]

def k0_chk17 (v1290 : BitVec 32) : Prop :=
  (∀ a, (k0_off34 v1290) a + S1x10000.size a ≤ S10000x10000.size a)
instance k0_chk17.dec : ∀ (v1290 : BitVec 32), Decidable (k0_chk17 v1290) := fun v1290 => decidable_of_iff' _ (Iff.of_eq (k0_chk17.eq_1 v1290))
theorem k0_off34_inb : ∀ (v1290 : BitVec 32) (k0_hw17 : k0_chk17 v1290), ∀ a, (k0_off34 v1290) a + S1x10000.size a ≤ S10000x10000.size a := fun v1290 k0_hw17 => k0_hw17

def k0_off35 (i : grid0.Coords) (c15_i32_688 : BitVec 32) : Fin 1 → Nat :=
  let arg0 : BitVec 32 := BitVec.ofNat 32 (i 0).val
  let c64_i32 : BitVec 32 := 64#32
  let v3 : BitVec 32 := Scalar.muli arg0 c64_i32
  let v1299 : BitVec 32 := Scalar.addi v3 c15_i32_688
  let v1300 : Index := Scalar.indexCast v1299
  ![v1300.toNat]
def k0_off36 (v1375 : BitVec 32) : Fin 2 → Nat :=
  let c0_i32_727 : BitVec 32 := 0#32
  ![v1375.toNat, 0]

def k0_chk18 (v1375 : BitVec 32) : Prop :=
  (∀ a, (k0_off36 v1375) a + S1x10000.size a ≤ S10000x10000.size a)
instance k0_chk18.dec : ∀ (v1375 : BitVec 32), Decidable (k0_chk18 v1375) := fun v1375 => decidable_of_iff' _ (Iff.of_eq (k0_chk18.eq_1 v1375))
theorem k0_off36_inb : ∀ (v1375 : BitVec 32) (k0_hw18 : k0_chk18 v1375), ∀ a, (k0_off36 v1375) a + S1x10000.size a ≤ S10000x10000.size a := fun v1375 k0_hw18 => k0_hw18

def k0_off37 (i : grid0.Coords) (c16_i32_733 : BitVec 32) : Fin 1 → Nat :=
  let arg0 : BitVec 32 := BitVec.ofNat 32 (i 0).val
  let c64_i32 : BitVec 32 := 64#32
  let v3 : BitVec 32 := Scalar.muli arg0 c64_i32
  let v1384 : BitVec 32 := Scalar.addi v3 c16_i32_733
  let v1385 : Index := Scalar.indexCast v1384
  ![v1385.toNat]
def k0_off38 (v1460 : BitVec 32) : Fin 2 → Nat :=
  let c0_i32_772 : BitVec 32 := 0#32
  ![v1460.toNat, 0]

def k0_chk19 (v1460 : BitVec 32) : Prop :=
  (∀ a, (k0_off38 v1460) a + S1x10000.size a ≤ S10000x10000.size a)
instance k0_chk19.dec : ∀ (v1460 : BitVec 32), Decidable (k0_chk19 v1460) := fun v1460 => decidable_of_iff' _ (Iff.of_eq (k0_chk19.eq_1 v1460))
theorem k0_off38_inb : ∀ (v1460 : BitVec 32) (k0_hw19 : k0_chk19 v1460), ∀ a, (k0_off38 v1460) a + S1x10000.size a ≤ S10000x10000.size a := fun v1460 k0_hw19 => k0_hw19

def k0_off39 (i : grid0.Coords) (c17_i32_778 : BitVec 32) : Fin 1 → Nat :=
  let arg0 : BitVec 32 := BitVec.ofNat 32 (i 0).val
  let c64_i32 : BitVec 32 := 64#32
  let v3 : BitVec 32 := Scalar.muli arg0 c64_i32
  let v1469 : BitVec 32 := Scalar.addi v3 c17_i32_778
  let v1470 : Index := Scalar.indexCast v1469
  ![v1470.toNat]
def k0_off40 (v1545 : BitVec 32) : Fin 2 → Nat :=
  let c0_i32_817 : BitVec 32 := 0#32
  ![v1545.toNat, 0]

def k0_chk20 (v1545 : BitVec 32) : Prop :=
  (∀ a, (k0_off40 v1545) a + S1x10000.size a ≤ S10000x10000.size a)
instance k0_chk20.dec : ∀ (v1545 : BitVec 32), Decidable (k0_chk20 v1545) := fun v1545 => decidable_of_iff' _ (Iff.of_eq (k0_chk20.eq_1 v1545))
theorem k0_off40_inb : ∀ (v1545 : BitVec 32) (k0_hw20 : k0_chk20 v1545), ∀ a, (k0_off40 v1545) a + S1x10000.size a ≤ S10000x10000.size a := fun v1545 k0_hw20 => k0_hw20

def k0_off41 (i : grid0.Coords) (c18_i32_823 : BitVec 32) : Fin 1 → Nat :=
  let arg0 : BitVec 32 := BitVec.ofNat 32 (i 0).val
  let c64_i32 : BitVec 32 := 64#32
  let v3 : BitVec 32 := Scalar.muli arg0 c64_i32
  let v1554 : BitVec 32 := Scalar.addi v3 c18_i32_823
  let v1555 : Index := Scalar.indexCast v1554
  ![v1555.toNat]
def k0_off42 (v1630 : BitVec 32) : Fin 2 → Nat :=
  let c0_i32_862 : BitVec 32 := 0#32
  ![v1630.toNat, 0]

def k0_chk21 (v1630 : BitVec 32) : Prop :=
  (∀ a, (k0_off42 v1630) a + S1x10000.size a ≤ S10000x10000.size a)
instance k0_chk21.dec : ∀ (v1630 : BitVec 32), Decidable (k0_chk21 v1630) := fun v1630 => decidable_of_iff' _ (Iff.of_eq (k0_chk21.eq_1 v1630))
theorem k0_off42_inb : ∀ (v1630 : BitVec 32) (k0_hw21 : k0_chk21 v1630), ∀ a, (k0_off42 v1630) a + S1x10000.size a ≤ S10000x10000.size a := fun v1630 k0_hw21 => k0_hw21

def k0_off43 (i : grid0.Coords) (c19_i32_868 : BitVec 32) : Fin 1 → Nat :=
  let arg0 : BitVec 32 := BitVec.ofNat 32 (i 0).val
  let c64_i32 : BitVec 32 := 64#32
  let v3 : BitVec 32 := Scalar.muli arg0 c64_i32
  let v1639 : BitVec 32 := Scalar.addi v3 c19_i32_868
  let v1640 : Index := Scalar.indexCast v1639
  ![v1640.toNat]
def k0_off44 (v1715 : BitVec 32) : Fin 2 → Nat :=
  let c0_i32_907 : BitVec 32 := 0#32
  ![v1715.toNat, 0]

def k0_chk22 (v1715 : BitVec 32) : Prop :=
  (∀ a, (k0_off44 v1715) a + S1x10000.size a ≤ S10000x10000.size a)
instance k0_chk22.dec : ∀ (v1715 : BitVec 32), Decidable (k0_chk22 v1715) := fun v1715 => decidable_of_iff' _ (Iff.of_eq (k0_chk22.eq_1 v1715))
theorem k0_off44_inb : ∀ (v1715 : BitVec 32) (k0_hw22 : k0_chk22 v1715), ∀ a, (k0_off44 v1715) a + S1x10000.size a ≤ S10000x10000.size a := fun v1715 k0_hw22 => k0_hw22

def k0_off45 (i : grid0.Coords) (c20_i32_913 : BitVec 32) : Fin 1 → Nat :=
  let arg0 : BitVec 32 := BitVec.ofNat 32 (i 0).val
  let c64_i32 : BitVec 32 := 64#32
  let v3 : BitVec 32 := Scalar.muli arg0 c64_i32
  let v1724 : BitVec 32 := Scalar.addi v3 c20_i32_913
  let v1725 : Index := Scalar.indexCast v1724
  ![v1725.toNat]
def k0_off46 (v1800 : BitVec 32) : Fin 2 → Nat :=
  let c0_i32_952 : BitVec 32 := 0#32
  ![v1800.toNat, 0]

def k0_chk23 (v1800 : BitVec 32) : Prop :=
  (∀ a, (k0_off46 v1800) a + S1x10000.size a ≤ S10000x10000.size a)
instance k0_chk23.dec : ∀ (v1800 : BitVec 32), Decidable (k0_chk23 v1800) := fun v1800 => decidable_of_iff' _ (Iff.of_eq (k0_chk23.eq_1 v1800))
theorem k0_off46_inb : ∀ (v1800 : BitVec 32) (k0_hw23 : k0_chk23 v1800), ∀ a, (k0_off46 v1800) a + S1x10000.size a ≤ S10000x10000.size a := fun v1800 k0_hw23 => k0_hw23

def k0_off47 (i : grid0.Coords) (c21_i32_958 : BitVec 32) : Fin 1 → Nat :=
  let arg0 : BitVec 32 := BitVec.ofNat 32 (i 0).val
  let c64_i32 : BitVec 32 := 64#32
  let v3 : BitVec 32 := Scalar.muli arg0 c64_i32
  let v1809 : BitVec 32 := Scalar.addi v3 c21_i32_958
  let v1810 : Index := Scalar.indexCast v1809
  ![v1810.toNat]
def k0_off48 (v1885 : BitVec 32) : Fin 2 → Nat :=
  let c0_i32_997 : BitVec 32 := 0#32
  ![v1885.toNat, 0]

def k0_chk24 (v1885 : BitVec 32) : Prop :=
  (∀ a, (k0_off48 v1885) a + S1x10000.size a ≤ S10000x10000.size a)
instance k0_chk24.dec : ∀ (v1885 : BitVec 32), Decidable (k0_chk24 v1885) := fun v1885 => decidable_of_iff' _ (Iff.of_eq (k0_chk24.eq_1 v1885))
theorem k0_off48_inb : ∀ (v1885 : BitVec 32) (k0_hw24 : k0_chk24 v1885), ∀ a, (k0_off48 v1885) a + S1x10000.size a ≤ S10000x10000.size a := fun v1885 k0_hw24 => k0_hw24

def k0_off49 (i : grid0.Coords) (c22_i32_1003 : BitVec 32) : Fin 1 → Nat :=
  let arg0 : BitVec 32 := BitVec.ofNat 32 (i 0).val
  let c64_i32 : BitVec 32 := 64#32
  let v3 : BitVec 32 := Scalar.muli arg0 c64_i32
  let v1894 : BitVec 32 := Scalar.addi v3 c22_i32_1003
  let v1895 : Index := Scalar.indexCast v1894
  ![v1895.toNat]
def k0_off50 (v1970 : BitVec 32) : Fin 2 → Nat :=
  let c0_i32_1042 : BitVec 32 := 0#32
  ![v1970.toNat, 0]

def k0_chk25 (v1970 : BitVec 32) : Prop :=
  (∀ a, (k0_off50 v1970) a + S1x10000.size a ≤ S10000x10000.size a)
instance k0_chk25.dec : ∀ (v1970 : BitVec 32), Decidable (k0_chk25 v1970) := fun v1970 => decidable_of_iff' _ (Iff.of_eq (k0_chk25.eq_1 v1970))
theorem k0_off50_inb : ∀ (v1970 : BitVec 32) (k0_hw25 : k0_chk25 v1970), ∀ a, (k0_off50 v1970) a + S1x10000.size a ≤ S10000x10000.size a := fun v1970 k0_hw25 => k0_hw25

def k0_off51 (i : grid0.Coords) (c23_i32_1048 : BitVec 32) : Fin 1 → Nat :=
  let arg0 : BitVec 32 := BitVec.ofNat 32 (i 0).val
  let c64_i32 : BitVec 32 := 64#32
  let v3 : BitVec 32 := Scalar.muli arg0 c64_i32
  let v1979 : BitVec 32 := Scalar.addi v3 c23_i32_1048
  let v1980 : Index := Scalar.indexCast v1979
  ![v1980.toNat]
def k0_off52 (v2055 : BitVec 32) : Fin 2 → Nat :=
  let c0_i32_1087 : BitVec 32 := 0#32
  ![v2055.toNat, 0]

def k0_chk26 (v2055 : BitVec 32) : Prop :=
  (∀ a, (k0_off52 v2055) a + S1x10000.size a ≤ S10000x10000.size a)
instance k0_chk26.dec : ∀ (v2055 : BitVec 32), Decidable (k0_chk26 v2055) := fun v2055 => decidable_of_iff' _ (Iff.of_eq (k0_chk26.eq_1 v2055))
theorem k0_off52_inb : ∀ (v2055 : BitVec 32) (k0_hw26 : k0_chk26 v2055), ∀ a, (k0_off52 v2055) a + S1x10000.size a ≤ S10000x10000.size a := fun v2055 k0_hw26 => k0_hw26

def k0_off53 (i : grid0.Coords) (c24_i32_1093 : BitVec 32) : Fin 1 → Nat :=
  let arg0 : BitVec 32 := BitVec.ofNat 32 (i 0).val
  let c64_i32 : BitVec 32 := 64#32
  let v3 : BitVec 32 := Scalar.muli arg0 c64_i32
  let v2064 : BitVec 32 := Scalar.addi v3 c24_i32_1093
  let v2065 : Index := Scalar.indexCast v2064
  ![v2065.toNat]
def k0_off54 (v2140 : BitVec 32) : Fin 2 → Nat :=
  let c0_i32_1132 : BitVec 32 := 0#32
  ![v2140.toNat, 0]

def k0_chk27 (v2140 : BitVec 32) : Prop :=
  (∀ a, (k0_off54 v2140) a + S1x10000.size a ≤ S10000x10000.size a)
instance k0_chk27.dec : ∀ (v2140 : BitVec 32), Decidable (k0_chk27 v2140) := fun v2140 => decidable_of_iff' _ (Iff.of_eq (k0_chk27.eq_1 v2140))
theorem k0_off54_inb : ∀ (v2140 : BitVec 32) (k0_hw27 : k0_chk27 v2140), ∀ a, (k0_off54 v2140) a + S1x10000.size a ≤ S10000x10000.size a := fun v2140 k0_hw27 => k0_hw27

def k0_off55 (i : grid0.Coords) (c25_i32_1138 : BitVec 32) : Fin 1 → Nat :=
  let arg0 : BitVec 32 := BitVec.ofNat 32 (i 0).val
  let c64_i32 : BitVec 32 := 64#32
  let v3 : BitVec 32 := Scalar.muli arg0 c64_i32
  let v2149 : BitVec 32 := Scalar.addi v3 c25_i32_1138
  let v2150 : Index := Scalar.indexCast v2149
  ![v2150.toNat]
def k0_off56 (v2225 : BitVec 32) : Fin 2 → Nat :=
  let c0_i32_1177 : BitVec 32 := 0#32
  ![v2225.toNat, 0]

def k0_chk28 (v2225 : BitVec 32) : Prop :=
  (∀ a, (k0_off56 v2225) a + S1x10000.size a ≤ S10000x10000.size a)
instance k0_chk28.dec : ∀ (v2225 : BitVec 32), Decidable (k0_chk28 v2225) := fun v2225 => decidable_of_iff' _ (Iff.of_eq (k0_chk28.eq_1 v2225))
theorem k0_off56_inb : ∀ (v2225 : BitVec 32) (k0_hw28 : k0_chk28 v2225), ∀ a, (k0_off56 v2225) a + S1x10000.size a ≤ S10000x10000.size a := fun v2225 k0_hw28 => k0_hw28

def k0_off57 (i : grid0.Coords) (c26_i32_1183 : BitVec 32) : Fin 1 → Nat :=
  let arg0 : BitVec 32 := BitVec.ofNat 32 (i 0).val
  let c64_i32 : BitVec 32 := 64#32
  let v3 : BitVec 32 := Scalar.muli arg0 c64_i32
  let v2234 : BitVec 32 := Scalar.addi v3 c26_i32_1183
  let v2235 : Index := Scalar.indexCast v2234
  ![v2235.toNat]
def k0_off58 (v2310 : BitVec 32) : Fin 2 → Nat :=
  let c0_i32_1222 : BitVec 32 := 0#32
  ![v2310.toNat, 0]

def k0_chk29 (v2310 : BitVec 32) : Prop :=
  (∀ a, (k0_off58 v2310) a + S1x10000.size a ≤ S10000x10000.size a)
instance k0_chk29.dec : ∀ (v2310 : BitVec 32), Decidable (k0_chk29 v2310) := fun v2310 => decidable_of_iff' _ (Iff.of_eq (k0_chk29.eq_1 v2310))
theorem k0_off58_inb : ∀ (v2310 : BitVec 32) (k0_hw29 : k0_chk29 v2310), ∀ a, (k0_off58 v2310) a + S1x10000.size a ≤ S10000x10000.size a := fun v2310 k0_hw29 => k0_hw29

def k0_off59 (i : grid0.Coords) (c27_i32_1228 : BitVec 32) : Fin 1 → Nat :=
  let arg0 : BitVec 32 := BitVec.ofNat 32 (i 0).val
  let c64_i32 : BitVec 32 := 64#32
  let v3 : BitVec 32 := Scalar.muli arg0 c64_i32
  let v2319 : BitVec 32 := Scalar.addi v3 c27_i32_1228
  let v2320 : Index := Scalar.indexCast v2319
  ![v2320.toNat]
def k0_off60 (v2395 : BitVec 32) : Fin 2 → Nat :=
  let c0_i32_1267 : BitVec 32 := 0#32
  ![v2395.toNat, 0]

def k0_chk30 (v2395 : BitVec 32) : Prop :=
  (∀ a, (k0_off60 v2395) a + S1x10000.size a ≤ S10000x10000.size a)
instance k0_chk30.dec : ∀ (v2395 : BitVec 32), Decidable (k0_chk30 v2395) := fun v2395 => decidable_of_iff' _ (Iff.of_eq (k0_chk30.eq_1 v2395))
theorem k0_off60_inb : ∀ (v2395 : BitVec 32) (k0_hw30 : k0_chk30 v2395), ∀ a, (k0_off60 v2395) a + S1x10000.size a ≤ S10000x10000.size a := fun v2395 k0_hw30 => k0_hw30

def k0_off61 (i : grid0.Coords) (c28_i32_1273 : BitVec 32) : Fin 1 → Nat :=
  let arg0 : BitVec 32 := BitVec.ofNat 32 (i 0).val
  let c64_i32 : BitVec 32 := 64#32
  let v3 : BitVec 32 := Scalar.muli arg0 c64_i32
  let v2404 : BitVec 32 := Scalar.addi v3 c28_i32_1273
  let v2405 : Index := Scalar.indexCast v2404
  ![v2405.toNat]
def k0_off62 (v2480 : BitVec 32) : Fin 2 → Nat :=
  let c0_i32_1312 : BitVec 32 := 0#32
  ![v2480.toNat, 0]

def k0_chk31 (v2480 : BitVec 32) : Prop :=
  (∀ a, (k0_off62 v2480) a + S1x10000.size a ≤ S10000x10000.size a)
instance k0_chk31.dec : ∀ (v2480 : BitVec 32), Decidable (k0_chk31 v2480) := fun v2480 => decidable_of_iff' _ (Iff.of_eq (k0_chk31.eq_1 v2480))
theorem k0_off62_inb : ∀ (v2480 : BitVec 32) (k0_hw31 : k0_chk31 v2480), ∀ a, (k0_off62 v2480) a + S1x10000.size a ≤ S10000x10000.size a := fun v2480 k0_hw31 => k0_hw31

def k0_off63 (i : grid0.Coords) (c29_i32_1318 : BitVec 32) : Fin 1 → Nat :=
  let arg0 : BitVec 32 := BitVec.ofNat 32 (i 0).val
  let c64_i32 : BitVec 32 := 64#32
  let v3 : BitVec 32 := Scalar.muli arg0 c64_i32
  let v2489 : BitVec 32 := Scalar.addi v3 c29_i32_1318
  let v2490 : Index := Scalar.indexCast v2489
  ![v2490.toNat]
def k0_off64 (v2565 : BitVec 32) : Fin 2 → Nat :=
  let c0_i32_1357 : BitVec 32 := 0#32
  ![v2565.toNat, 0]

def k0_chk32 (v2565 : BitVec 32) : Prop :=
  (∀ a, (k0_off64 v2565) a + S1x10000.size a ≤ S10000x10000.size a)
instance k0_chk32.dec : ∀ (v2565 : BitVec 32), Decidable (k0_chk32 v2565) := fun v2565 => decidable_of_iff' _ (Iff.of_eq (k0_chk32.eq_1 v2565))
theorem k0_off64_inb : ∀ (v2565 : BitVec 32) (k0_hw32 : k0_chk32 v2565), ∀ a, (k0_off64 v2565) a + S1x10000.size a ≤ S10000x10000.size a := fun v2565 k0_hw32 => k0_hw32

def k0_off65 (i : grid0.Coords) (c30_i32_1363 : BitVec 32) : Fin 1 → Nat :=
  let arg0 : BitVec 32 := BitVec.ofNat 32 (i 0).val
  let c64_i32 : BitVec 32 := 64#32
  let v3 : BitVec 32 := Scalar.muli arg0 c64_i32
  let v2574 : BitVec 32 := Scalar.addi v3 c30_i32_1363
  let v2575 : Index := Scalar.indexCast v2574
  ![v2575.toNat]
def k0_off66 (v2650 : BitVec 32) : Fin 2 → Nat :=
  let c0_i32_1402 : BitVec 32 := 0#32
  ![v2650.toNat, 0]

def k0_chk33 (v2650 : BitVec 32) : Prop :=
  (∀ a, (k0_off66 v2650) a + S1x10000.size a ≤ S10000x10000.size a)
instance k0_chk33.dec : ∀ (v2650 : BitVec 32), Decidable (k0_chk33 v2650) := fun v2650 => decidable_of_iff' _ (Iff.of_eq (k0_chk33.eq_1 v2650))
theorem k0_off66_inb : ∀ (v2650 : BitVec 32) (k0_hw33 : k0_chk33 v2650), ∀ a, (k0_off66 v2650) a + S1x10000.size a ≤ S10000x10000.size a := fun v2650 k0_hw33 => k0_hw33

def k0_off67 (i : grid0.Coords) (c31_i32_1408 : BitVec 32) : Fin 1 → Nat :=
  let arg0 : BitVec 32 := BitVec.ofNat 32 (i 0).val
  let c64_i32 : BitVec 32 := 64#32
  let v3 : BitVec 32 := Scalar.muli arg0 c64_i32
  let v2659 : BitVec 32 := Scalar.addi v3 c31_i32_1408
  let v2660 : Index := Scalar.indexCast v2659
  ![v2660.toNat]
def k0_off68 (v2735 : BitVec 32) : Fin 2 → Nat :=
  let c0_i32_1447 : BitVec 32 := 0#32
  ![v2735.toNat, 0]

def k0_chk34 (v2735 : BitVec 32) : Prop :=
  (∀ a, (k0_off68 v2735) a + S1x10000.size a ≤ S10000x10000.size a)
instance k0_chk34.dec : ∀ (v2735 : BitVec 32), Decidable (k0_chk34 v2735) := fun v2735 => decidable_of_iff' _ (Iff.of_eq (k0_chk34.eq_1 v2735))
theorem k0_off68_inb : ∀ (v2735 : BitVec 32) (k0_hw34 : k0_chk34 v2735), ∀ a, (k0_off68 v2735) a + S1x10000.size a ≤ S10000x10000.size a := fun v2735 k0_hw34 => k0_hw34

def k0_off69 (i : grid0.Coords) (c32_i32_1453 : BitVec 32) : Fin 1 → Nat :=
  let arg0 : BitVec 32 := BitVec.ofNat 32 (i 0).val
  let c64_i32 : BitVec 32 := 64#32
  let v3 : BitVec 32 := Scalar.muli arg0 c64_i32
  let v2744 : BitVec 32 := Scalar.addi v3 c32_i32_1453
  let v2745 : Index := Scalar.indexCast v2744
  ![v2745.toNat]
def k0_off70 (v2820 : BitVec 32) : Fin 2 → Nat :=
  let c0_i32_1492 : BitVec 32 := 0#32
  ![v2820.toNat, 0]

def k0_chk35 (v2820 : BitVec 32) : Prop :=
  (∀ a, (k0_off70 v2820) a + S1x10000.size a ≤ S10000x10000.size a)
instance k0_chk35.dec : ∀ (v2820 : BitVec 32), Decidable (k0_chk35 v2820) := fun v2820 => decidable_of_iff' _ (Iff.of_eq (k0_chk35.eq_1 v2820))
theorem k0_off70_inb : ∀ (v2820 : BitVec 32) (k0_hw35 : k0_chk35 v2820), ∀ a, (k0_off70 v2820) a + S1x10000.size a ≤ S10000x10000.size a := fun v2820 k0_hw35 => k0_hw35

def k0_off71 (i : grid0.Coords) (c33_i32_1498 : BitVec 32) : Fin 1 → Nat :=
  let arg0 : BitVec 32 := BitVec.ofNat 32 (i 0).val
  let c64_i32 : BitVec 32 := 64#32
  let v3 : BitVec 32 := Scalar.muli arg0 c64_i32
  let v2829 : BitVec 32 := Scalar.addi v3 c33_i32_1498
  let v2830 : Index := Scalar.indexCast v2829
  ![v2830.toNat]
def k0_off72 (v2905 : BitVec 32) : Fin 2 → Nat :=
  let c0_i32_1537 : BitVec 32 := 0#32
  ![v2905.toNat, 0]

def k0_chk36 (v2905 : BitVec 32) : Prop :=
  (∀ a, (k0_off72 v2905) a + S1x10000.size a ≤ S10000x10000.size a)
instance k0_chk36.dec : ∀ (v2905 : BitVec 32), Decidable (k0_chk36 v2905) := fun v2905 => decidable_of_iff' _ (Iff.of_eq (k0_chk36.eq_1 v2905))
theorem k0_off72_inb : ∀ (v2905 : BitVec 32) (k0_hw36 : k0_chk36 v2905), ∀ a, (k0_off72 v2905) a + S1x10000.size a ≤ S10000x10000.size a := fun v2905 k0_hw36 => k0_hw36

def k0_off73 (i : grid0.Coords) (c34_i32_1543 : BitVec 32) : Fin 1 → Nat :=
  let arg0 : BitVec 32 := BitVec.ofNat 32 (i 0).val
  let c64_i32 : BitVec 32 := 64#32
  let v3 : BitVec 32 := Scalar.muli arg0 c64_i32
  let v2914 : BitVec 32 := Scalar.addi v3 c34_i32_1543
  let v2915 : Index := Scalar.indexCast v2914
  ![v2915.toNat]
def k0_off74 (v2990 : BitVec 32) : Fin 2 → Nat :=
  let c0_i32_1582 : BitVec 32 := 0#32
  ![v2990.toNat, 0]

def k0_chk37 (v2990 : BitVec 32) : Prop :=
  (∀ a, (k0_off74 v2990) a + S1x10000.size a ≤ S10000x10000.size a)
instance k0_chk37.dec : ∀ (v2990 : BitVec 32), Decidable (k0_chk37 v2990) := fun v2990 => decidable_of_iff' _ (Iff.of_eq (k0_chk37.eq_1 v2990))
theorem k0_off74_inb : ∀ (v2990 : BitVec 32) (k0_hw37 : k0_chk37 v2990), ∀ a, (k0_off74 v2990) a + S1x10000.size a ≤ S10000x10000.size a := fun v2990 k0_hw37 => k0_hw37

def k0_off75 (i : grid0.Coords) (c35_i32_1588 : BitVec 32) : Fin 1 → Nat :=
  let arg0 : BitVec 32 := BitVec.ofNat 32 (i 0).val
  let c64_i32 : BitVec 32 := 64#32
  let v3 : BitVec 32 := Scalar.muli arg0 c64_i32
  let v2999 : BitVec 32 := Scalar.addi v3 c35_i32_1588
  let v3000 : Index := Scalar.indexCast v2999
  ![v3000.toNat]
def k0_off76 (v3075 : BitVec 32) : Fin 2 → Nat :=
  let c0_i32_1627 : BitVec 32 := 0#32
  ![v3075.toNat, 0]

def k0_chk38 (v3075 : BitVec 32) : Prop :=
  (∀ a, (k0_off76 v3075) a + S1x10000.size a ≤ S10000x10000.size a)
instance k0_chk38.dec : ∀ (v3075 : BitVec 32), Decidable (k0_chk38 v3075) := fun v3075 => decidable_of_iff' _ (Iff.of_eq (k0_chk38.eq_1 v3075))
theorem k0_off76_inb : ∀ (v3075 : BitVec 32) (k0_hw38 : k0_chk38 v3075), ∀ a, (k0_off76 v3075) a + S1x10000.size a ≤ S10000x10000.size a := fun v3075 k0_hw38 => k0_hw38

def k0_off77 (i : grid0.Coords) (c36_i32_1633 : BitVec 32) : Fin 1 → Nat :=
  let arg0 : BitVec 32 := BitVec.ofNat 32 (i 0).val
  let c64_i32 : BitVec 32 := 64#32
  let v3 : BitVec 32 := Scalar.muli arg0 c64_i32
  let v3084 : BitVec 32 := Scalar.addi v3 c36_i32_1633
  let v3085 : Index := Scalar.indexCast v3084
  ![v3085.toNat]
def k0_off78 (v3160 : BitVec 32) : Fin 2 → Nat :=
  let c0_i32_1672 : BitVec 32 := 0#32
  ![v3160.toNat, 0]

def k0_chk39 (v3160 : BitVec 32) : Prop :=
  (∀ a, (k0_off78 v3160) a + S1x10000.size a ≤ S10000x10000.size a)
instance k0_chk39.dec : ∀ (v3160 : BitVec 32), Decidable (k0_chk39 v3160) := fun v3160 => decidable_of_iff' _ (Iff.of_eq (k0_chk39.eq_1 v3160))
theorem k0_off78_inb : ∀ (v3160 : BitVec 32) (k0_hw39 : k0_chk39 v3160), ∀ a, (k0_off78 v3160) a + S1x10000.size a ≤ S10000x10000.size a := fun v3160 k0_hw39 => k0_hw39

def k0_off79 (i : grid0.Coords) (c37_i32_1678 : BitVec 32) : Fin 1 → Nat :=
  let arg0 : BitVec 32 := BitVec.ofNat 32 (i 0).val
  let c64_i32 : BitVec 32 := 64#32
  let v3 : BitVec 32 := Scalar.muli arg0 c64_i32
  let v3169 : BitVec 32 := Scalar.addi v3 c37_i32_1678
  let v3170 : Index := Scalar.indexCast v3169
  ![v3170.toNat]
def k0_off80 (v3245 : BitVec 32) : Fin 2 → Nat :=
  let c0_i32_1717 : BitVec 32 := 0#32
  ![v3245.toNat, 0]

def k0_chk40 (v3245 : BitVec 32) : Prop :=
  (∀ a, (k0_off80 v3245) a + S1x10000.size a ≤ S10000x10000.size a)
instance k0_chk40.dec : ∀ (v3245 : BitVec 32), Decidable (k0_chk40 v3245) := fun v3245 => decidable_of_iff' _ (Iff.of_eq (k0_chk40.eq_1 v3245))
theorem k0_off80_inb : ∀ (v3245 : BitVec 32) (k0_hw40 : k0_chk40 v3245), ∀ a, (k0_off80 v3245) a + S1x10000.size a ≤ S10000x10000.size a := fun v3245 k0_hw40 => k0_hw40

def k0_off81 (i : grid0.Coords) (c38_i32_1723 : BitVec 32) : Fin 1 → Nat :=
  let arg0 : BitVec 32 := BitVec.ofNat 32 (i 0).val
  let c64_i32 : BitVec 32 := 64#32
  let v3 : BitVec 32 := Scalar.muli arg0 c64_i32
  let v3254 : BitVec 32 := Scalar.addi v3 c38_i32_1723
  let v3255 : Index := Scalar.indexCast v3254
  ![v3255.toNat]
def k0_off82 (v3330 : BitVec 32) : Fin 2 → Nat :=
  let c0_i32_1762 : BitVec 32 := 0#32
  ![v3330.toNat, 0]

def k0_chk41 (v3330 : BitVec 32) : Prop :=
  (∀ a, (k0_off82 v3330) a + S1x10000.size a ≤ S10000x10000.size a)
instance k0_chk41.dec : ∀ (v3330 : BitVec 32), Decidable (k0_chk41 v3330) := fun v3330 => decidable_of_iff' _ (Iff.of_eq (k0_chk41.eq_1 v3330))
theorem k0_off82_inb : ∀ (v3330 : BitVec 32) (k0_hw41 : k0_chk41 v3330), ∀ a, (k0_off82 v3330) a + S1x10000.size a ≤ S10000x10000.size a := fun v3330 k0_hw41 => k0_hw41

def k0_off83 (i : grid0.Coords) (c39_i32_1768 : BitVec 32) : Fin 1 → Nat :=
  let arg0 : BitVec 32 := BitVec.ofNat 32 (i 0).val
  let c64_i32 : BitVec 32 := 64#32
  let v3 : BitVec 32 := Scalar.muli arg0 c64_i32
  let v3339 : BitVec 32 := Scalar.addi v3 c39_i32_1768
  let v3340 : Index := Scalar.indexCast v3339
  ![v3340.toNat]
def k0_off84 (v3415 : BitVec 32) : Fin 2 → Nat :=
  let c0_i32_1807 : BitVec 32 := 0#32
  ![v3415.toNat, 0]

def k0_chk42 (v3415 : BitVec 32) : Prop :=
  (∀ a, (k0_off84 v3415) a + S1x10000.size a ≤ S10000x10000.size a)
instance k0_chk42.dec : ∀ (v3415 : BitVec 32), Decidable (k0_chk42 v3415) := fun v3415 => decidable_of_iff' _ (Iff.of_eq (k0_chk42.eq_1 v3415))
theorem k0_off84_inb : ∀ (v3415 : BitVec 32) (k0_hw42 : k0_chk42 v3415), ∀ a, (k0_off84 v3415) a + S1x10000.size a ≤ S10000x10000.size a := fun v3415 k0_hw42 => k0_hw42

def k0_off85 (i : grid0.Coords) (c40_i32_1813 : BitVec 32) : Fin 1 → Nat :=
  let arg0 : BitVec 32 := BitVec.ofNat 32 (i 0).val
  let c64_i32 : BitVec 32 := 64#32
  let v3 : BitVec 32 := Scalar.muli arg0 c64_i32
  let v3424 : BitVec 32 := Scalar.addi v3 c40_i32_1813
  let v3425 : Index := Scalar.indexCast v3424
  ![v3425.toNat]
def k0_off86 (v3500 : BitVec 32) : Fin 2 → Nat :=
  let c0_i32_1852 : BitVec 32 := 0#32
  ![v3500.toNat, 0]

def k0_chk43 (v3500 : BitVec 32) : Prop :=
  (∀ a, (k0_off86 v3500) a + S1x10000.size a ≤ S10000x10000.size a)
instance k0_chk43.dec : ∀ (v3500 : BitVec 32), Decidable (k0_chk43 v3500) := fun v3500 => decidable_of_iff' _ (Iff.of_eq (k0_chk43.eq_1 v3500))
theorem k0_off86_inb : ∀ (v3500 : BitVec 32) (k0_hw43 : k0_chk43 v3500), ∀ a, (k0_off86 v3500) a + S1x10000.size a ≤ S10000x10000.size a := fun v3500 k0_hw43 => k0_hw43

def k0_off87 (i : grid0.Coords) (c41_i32_1858 : BitVec 32) : Fin 1 → Nat :=
  let arg0 : BitVec 32 := BitVec.ofNat 32 (i 0).val
  let c64_i32 : BitVec 32 := 64#32
  let v3 : BitVec 32 := Scalar.muli arg0 c64_i32
  let v3509 : BitVec 32 := Scalar.addi v3 c41_i32_1858
  let v3510 : Index := Scalar.indexCast v3509
  ![v3510.toNat]
def k0_off88 (v3585 : BitVec 32) : Fin 2 → Nat :=
  let c0_i32_1897 : BitVec 32 := 0#32
  ![v3585.toNat, 0]

def k0_chk44 (v3585 : BitVec 32) : Prop :=
  (∀ a, (k0_off88 v3585) a + S1x10000.size a ≤ S10000x10000.size a)
instance k0_chk44.dec : ∀ (v3585 : BitVec 32), Decidable (k0_chk44 v3585) := fun v3585 => decidable_of_iff' _ (Iff.of_eq (k0_chk44.eq_1 v3585))
theorem k0_off88_inb : ∀ (v3585 : BitVec 32) (k0_hw44 : k0_chk44 v3585), ∀ a, (k0_off88 v3585) a + S1x10000.size a ≤ S10000x10000.size a := fun v3585 k0_hw44 => k0_hw44

def k0_off89 (i : grid0.Coords) (c42_i32_1903 : BitVec 32) : Fin 1 → Nat :=
  let arg0 : BitVec 32 := BitVec.ofNat 32 (i 0).val
  let c64_i32 : BitVec 32 := 64#32
  let v3 : BitVec 32 := Scalar.muli arg0 c64_i32
  let v3594 : BitVec 32 := Scalar.addi v3 c42_i32_1903
  let v3595 : Index := Scalar.indexCast v3594
  ![v3595.toNat]
def k0_off90 (v3670 : BitVec 32) : Fin 2 → Nat :=
  let c0_i32_1942 : BitVec 32 := 0#32
  ![v3670.toNat, 0]

def k0_chk45 (v3670 : BitVec 32) : Prop :=
  (∀ a, (k0_off90 v3670) a + S1x10000.size a ≤ S10000x10000.size a)
instance k0_chk45.dec : ∀ (v3670 : BitVec 32), Decidable (k0_chk45 v3670) := fun v3670 => decidable_of_iff' _ (Iff.of_eq (k0_chk45.eq_1 v3670))
theorem k0_off90_inb : ∀ (v3670 : BitVec 32) (k0_hw45 : k0_chk45 v3670), ∀ a, (k0_off90 v3670) a + S1x10000.size a ≤ S10000x10000.size a := fun v3670 k0_hw45 => k0_hw45

def k0_off91 (i : grid0.Coords) (c43_i32_1948 : BitVec 32) : Fin 1 → Nat :=
  let arg0 : BitVec 32 := BitVec.ofNat 32 (i 0).val
  let c64_i32 : BitVec 32 := 64#32
  let v3 : BitVec 32 := Scalar.muli arg0 c64_i32
  let v3679 : BitVec 32 := Scalar.addi v3 c43_i32_1948
  let v3680 : Index := Scalar.indexCast v3679
  ![v3680.toNat]
def k0_off92 (v3755 : BitVec 32) : Fin 2 → Nat :=
  let c0_i32_1987 : BitVec 32 := 0#32
  ![v3755.toNat, 0]

def k0_chk46 (v3755 : BitVec 32) : Prop :=
  (∀ a, (k0_off92 v3755) a + S1x10000.size a ≤ S10000x10000.size a)
instance k0_chk46.dec : ∀ (v3755 : BitVec 32), Decidable (k0_chk46 v3755) := fun v3755 => decidable_of_iff' _ (Iff.of_eq (k0_chk46.eq_1 v3755))
theorem k0_off92_inb : ∀ (v3755 : BitVec 32) (k0_hw46 : k0_chk46 v3755), ∀ a, (k0_off92 v3755) a + S1x10000.size a ≤ S10000x10000.size a := fun v3755 k0_hw46 => k0_hw46

def k0_off93 (i : grid0.Coords) (c44_i32_1993 : BitVec 32) : Fin 1 → Nat :=
  let arg0 : BitVec 32 := BitVec.ofNat 32 (i 0).val
  let c64_i32 : BitVec 32 := 64#32
  let v3 : BitVec 32 := Scalar.muli arg0 c64_i32
  let v3764 : BitVec 32 := Scalar.addi v3 c44_i32_1993
  let v3765 : Index := Scalar.indexCast v3764
  ![v3765.toNat]
def k0_off94 (v3840 : BitVec 32) : Fin 2 → Nat :=
  let c0_i32_2032 : BitVec 32 := 0#32
  ![v3840.toNat, 0]

def k0_chk47 (v3840 : BitVec 32) : Prop :=
  (∀ a, (k0_off94 v3840) a + S1x10000.size a ≤ S10000x10000.size a)
instance k0_chk47.dec : ∀ (v3840 : BitVec 32), Decidable (k0_chk47 v3840) := fun v3840 => decidable_of_iff' _ (Iff.of_eq (k0_chk47.eq_1 v3840))
theorem k0_off94_inb : ∀ (v3840 : BitVec 32) (k0_hw47 : k0_chk47 v3840), ∀ a, (k0_off94 v3840) a + S1x10000.size a ≤ S10000x10000.size a := fun v3840 k0_hw47 => k0_hw47

def k0_off95 (i : grid0.Coords) (c45_i32_2038 : BitVec 32) : Fin 1 → Nat :=
  let arg0 : BitVec 32 := BitVec.ofNat 32 (i 0).val
  let c64_i32 : BitVec 32 := 64#32
  let v3 : BitVec 32 := Scalar.muli arg0 c64_i32
  let v3849 : BitVec 32 := Scalar.addi v3 c45_i32_2038
  let v3850 : Index := Scalar.indexCast v3849
  ![v3850.toNat]
def k0_off96 (v3925 : BitVec 32) : Fin 2 → Nat :=
  let c0_i32_2077 : BitVec 32 := 0#32
  ![v3925.toNat, 0]

def k0_chk48 (v3925 : BitVec 32) : Prop :=
  (∀ a, (k0_off96 v3925) a + S1x10000.size a ≤ S10000x10000.size a)
instance k0_chk48.dec : ∀ (v3925 : BitVec 32), Decidable (k0_chk48 v3925) := fun v3925 => decidable_of_iff' _ (Iff.of_eq (k0_chk48.eq_1 v3925))
theorem k0_off96_inb : ∀ (v3925 : BitVec 32) (k0_hw48 : k0_chk48 v3925), ∀ a, (k0_off96 v3925) a + S1x10000.size a ≤ S10000x10000.size a := fun v3925 k0_hw48 => k0_hw48

def k0_off97 (i : grid0.Coords) (c46_i32_2083 : BitVec 32) : Fin 1 → Nat :=
  let arg0 : BitVec 32 := BitVec.ofNat 32 (i 0).val
  let c64_i32 : BitVec 32 := 64#32
  let v3 : BitVec 32 := Scalar.muli arg0 c64_i32
  let v3934 : BitVec 32 := Scalar.addi v3 c46_i32_2083
  let v3935 : Index := Scalar.indexCast v3934
  ![v3935.toNat]
def k0_off98 (v4010 : BitVec 32) : Fin 2 → Nat :=
  let c0_i32_2122 : BitVec 32 := 0#32
  ![v4010.toNat, 0]

def k0_chk49 (v4010 : BitVec 32) : Prop :=
  (∀ a, (k0_off98 v4010) a + S1x10000.size a ≤ S10000x10000.size a)
instance k0_chk49.dec : ∀ (v4010 : BitVec 32), Decidable (k0_chk49 v4010) := fun v4010 => decidable_of_iff' _ (Iff.of_eq (k0_chk49.eq_1 v4010))
theorem k0_off98_inb : ∀ (v4010 : BitVec 32) (k0_hw49 : k0_chk49 v4010), ∀ a, (k0_off98 v4010) a + S1x10000.size a ≤ S10000x10000.size a := fun v4010 k0_hw49 => k0_hw49

def k0_off99 (i : grid0.Coords) (c47_i32_2128 : BitVec 32) : Fin 1 → Nat :=
  let arg0 : BitVec 32 := BitVec.ofNat 32 (i 0).val
  let c64_i32 : BitVec 32 := 64#32
  let v3 : BitVec 32 := Scalar.muli arg0 c64_i32
  let v4019 : BitVec 32 := Scalar.addi v3 c47_i32_2128
  let v4020 : Index := Scalar.indexCast v4019
  ![v4020.toNat]
def k0_off100 (v4095 : BitVec 32) : Fin 2 → Nat :=
  let c0_i32_2167 : BitVec 32 := 0#32
  ![v4095.toNat, 0]

def k0_chk50 (v4095 : BitVec 32) : Prop :=
  (∀ a, (k0_off100 v4095) a + S1x10000.size a ≤ S10000x10000.size a)
instance k0_chk50.dec : ∀ (v4095 : BitVec 32), Decidable (k0_chk50 v4095) := fun v4095 => decidable_of_iff' _ (Iff.of_eq (k0_chk50.eq_1 v4095))
theorem k0_off100_inb : ∀ (v4095 : BitVec 32) (k0_hw50 : k0_chk50 v4095), ∀ a, (k0_off100 v4095) a + S1x10000.size a ≤ S10000x10000.size a := fun v4095 k0_hw50 => k0_hw50

def k0_off101 (i : grid0.Coords) (c48_i32_2173 : BitVec 32) : Fin 1 → Nat :=
  let arg0 : BitVec 32 := BitVec.ofNat 32 (i 0).val
  let c64_i32 : BitVec 32 := 64#32
  let v3 : BitVec 32 := Scalar.muli arg0 c64_i32
  let v4104 : BitVec 32 := Scalar.addi v3 c48_i32_2173
  let v4105 : Index := Scalar.indexCast v4104
  ![v4105.toNat]
def k0_off102 (v4180 : BitVec 32) : Fin 2 → Nat :=
  let c0_i32_2212 : BitVec 32 := 0#32
  ![v4180.toNat, 0]

def k0_chk51 (v4180 : BitVec 32) : Prop :=
  (∀ a, (k0_off102 v4180) a + S1x10000.size a ≤ S10000x10000.size a)
instance k0_chk51.dec : ∀ (v4180 : BitVec 32), Decidable (k0_chk51 v4180) := fun v4180 => decidable_of_iff' _ (Iff.of_eq (k0_chk51.eq_1 v4180))
theorem k0_off102_inb : ∀ (v4180 : BitVec 32) (k0_hw51 : k0_chk51 v4180), ∀ a, (k0_off102 v4180) a + S1x10000.size a ≤ S10000x10000.size a := fun v4180 k0_hw51 => k0_hw51

def k0_off103 (i : grid0.Coords) (c49_i32_2218 : BitVec 32) : Fin 1 → Nat :=
  let arg0 : BitVec 32 := BitVec.ofNat 32 (i 0).val
  let c64_i32 : BitVec 32 := 64#32
  let v3 : BitVec 32 := Scalar.muli arg0 c64_i32
  let v4189 : BitVec 32 := Scalar.addi v3 c49_i32_2218
  let v4190 : Index := Scalar.indexCast v4189
  ![v4190.toNat]
def k0_off104 (v4265 : BitVec 32) : Fin 2 → Nat :=
  let c0_i32_2257 : BitVec 32 := 0#32
  ![v4265.toNat, 0]

def k0_chk52 (v4265 : BitVec 32) : Prop :=
  (∀ a, (k0_off104 v4265) a + S1x10000.size a ≤ S10000x10000.size a)
instance k0_chk52.dec : ∀ (v4265 : BitVec 32), Decidable (k0_chk52 v4265) := fun v4265 => decidable_of_iff' _ (Iff.of_eq (k0_chk52.eq_1 v4265))
theorem k0_off104_inb : ∀ (v4265 : BitVec 32) (k0_hw52 : k0_chk52 v4265), ∀ a, (k0_off104 v4265) a + S1x10000.size a ≤ S10000x10000.size a := fun v4265 k0_hw52 => k0_hw52

def k0_off105 (i : grid0.Coords) (c50_i32_2263 : BitVec 32) : Fin 1 → Nat :=
  let arg0 : BitVec 32 := BitVec.ofNat 32 (i 0).val
  let c64_i32 : BitVec 32 := 64#32
  let v3 : BitVec 32 := Scalar.muli arg0 c64_i32
  let v4274 : BitVec 32 := Scalar.addi v3 c50_i32_2263
  let v4275 : Index := Scalar.indexCast v4274
  ![v4275.toNat]
def k0_off106 (v4350 : BitVec 32) : Fin 2 → Nat :=
  let c0_i32_2302 : BitVec 32 := 0#32
  ![v4350.toNat, 0]

def k0_chk53 (v4350 : BitVec 32) : Prop :=
  (∀ a, (k0_off106 v4350) a + S1x10000.size a ≤ S10000x10000.size a)
instance k0_chk53.dec : ∀ (v4350 : BitVec 32), Decidable (k0_chk53 v4350) := fun v4350 => decidable_of_iff' _ (Iff.of_eq (k0_chk53.eq_1 v4350))
theorem k0_off106_inb : ∀ (v4350 : BitVec 32) (k0_hw53 : k0_chk53 v4350), ∀ a, (k0_off106 v4350) a + S1x10000.size a ≤ S10000x10000.size a := fun v4350 k0_hw53 => k0_hw53

def k0_off107 (i : grid0.Coords) (c51_i32_2308 : BitVec 32) : Fin 1 → Nat :=
  let arg0 : BitVec 32 := BitVec.ofNat 32 (i 0).val
  let c64_i32 : BitVec 32 := 64#32
  let v3 : BitVec 32 := Scalar.muli arg0 c64_i32
  let v4359 : BitVec 32 := Scalar.addi v3 c51_i32_2308
  let v4360 : Index := Scalar.indexCast v4359
  ![v4360.toNat]
def k0_off108 (v4435 : BitVec 32) : Fin 2 → Nat :=
  let c0_i32_2347 : BitVec 32 := 0#32
  ![v4435.toNat, 0]

def k0_chk54 (v4435 : BitVec 32) : Prop :=
  (∀ a, (k0_off108 v4435) a + S1x10000.size a ≤ S10000x10000.size a)
instance k0_chk54.dec : ∀ (v4435 : BitVec 32), Decidable (k0_chk54 v4435) := fun v4435 => decidable_of_iff' _ (Iff.of_eq (k0_chk54.eq_1 v4435))
theorem k0_off108_inb : ∀ (v4435 : BitVec 32) (k0_hw54 : k0_chk54 v4435), ∀ a, (k0_off108 v4435) a + S1x10000.size a ≤ S10000x10000.size a := fun v4435 k0_hw54 => k0_hw54

def k0_off109 (i : grid0.Coords) (c52_i32_2353 : BitVec 32) : Fin 1 → Nat :=
  let arg0 : BitVec 32 := BitVec.ofNat 32 (i 0).val
  let c64_i32 : BitVec 32 := 64#32
  let v3 : BitVec 32 := Scalar.muli arg0 c64_i32
  let v4444 : BitVec 32 := Scalar.addi v3 c52_i32_2353
  let v4445 : Index := Scalar.indexCast v4444
  ![v4445.toNat]
def k0_off110 (v4520 : BitVec 32) : Fin 2 → Nat :=
  let c0_i32_2392 : BitVec 32 := 0#32
  ![v4520.toNat, 0]

def k0_chk55 (v4520 : BitVec 32) : Prop :=
  (∀ a, (k0_off110 v4520) a + S1x10000.size a ≤ S10000x10000.size a)
instance k0_chk55.dec : ∀ (v4520 : BitVec 32), Decidable (k0_chk55 v4520) := fun v4520 => decidable_of_iff' _ (Iff.of_eq (k0_chk55.eq_1 v4520))
theorem k0_off110_inb : ∀ (v4520 : BitVec 32) (k0_hw55 : k0_chk55 v4520), ∀ a, (k0_off110 v4520) a + S1x10000.size a ≤ S10000x10000.size a := fun v4520 k0_hw55 => k0_hw55

def k0_off111 (i : grid0.Coords) (c53_i32_2398 : BitVec 32) : Fin 1 → Nat :=
  let arg0 : BitVec 32 := BitVec.ofNat 32 (i 0).val
  let c64_i32 : BitVec 32 := 64#32
  let v3 : BitVec 32 := Scalar.muli arg0 c64_i32
  let v4529 : BitVec 32 := Scalar.addi v3 c53_i32_2398
  let v4530 : Index := Scalar.indexCast v4529
  ![v4530.toNat]
def k0_off112 (v4605 : BitVec 32) : Fin 2 → Nat :=
  let c0_i32_2437 : BitVec 32 := 0#32
  ![v4605.toNat, 0]

def k0_chk56 (v4605 : BitVec 32) : Prop :=
  (∀ a, (k0_off112 v4605) a + S1x10000.size a ≤ S10000x10000.size a)
instance k0_chk56.dec : ∀ (v4605 : BitVec 32), Decidable (k0_chk56 v4605) := fun v4605 => decidable_of_iff' _ (Iff.of_eq (k0_chk56.eq_1 v4605))
theorem k0_off112_inb : ∀ (v4605 : BitVec 32) (k0_hw56 : k0_chk56 v4605), ∀ a, (k0_off112 v4605) a + S1x10000.size a ≤ S10000x10000.size a := fun v4605 k0_hw56 => k0_hw56

def k0_off113 (i : grid0.Coords) (c54_i32_2443 : BitVec 32) : Fin 1 → Nat :=
  let arg0 : BitVec 32 := BitVec.ofNat 32 (i 0).val
  let c64_i32 : BitVec 32 := 64#32
  let v3 : BitVec 32 := Scalar.muli arg0 c64_i32
  let v4614 : BitVec 32 := Scalar.addi v3 c54_i32_2443
  let v4615 : Index := Scalar.indexCast v4614
  ![v4615.toNat]
def k0_off114 (v4690 : BitVec 32) : Fin 2 → Nat :=
  let c0_i32_2482 : BitVec 32 := 0#32
  ![v4690.toNat, 0]

def k0_chk57 (v4690 : BitVec 32) : Prop :=
  (∀ a, (k0_off114 v4690) a + S1x10000.size a ≤ S10000x10000.size a)
instance k0_chk57.dec : ∀ (v4690 : BitVec 32), Decidable (k0_chk57 v4690) := fun v4690 => decidable_of_iff' _ (Iff.of_eq (k0_chk57.eq_1 v4690))
theorem k0_off114_inb : ∀ (v4690 : BitVec 32) (k0_hw57 : k0_chk57 v4690), ∀ a, (k0_off114 v4690) a + S1x10000.size a ≤ S10000x10000.size a := fun v4690 k0_hw57 => k0_hw57

def k0_off115 (i : grid0.Coords) (c55_i32_2488 : BitVec 32) : Fin 1 → Nat :=
  let arg0 : BitVec 32 := BitVec.ofNat 32 (i 0).val
  let c64_i32 : BitVec 32 := 64#32
  let v3 : BitVec 32 := Scalar.muli arg0 c64_i32
  let v4699 : BitVec 32 := Scalar.addi v3 c55_i32_2488
  let v4700 : Index := Scalar.indexCast v4699
  ![v4700.toNat]
def k0_off116 (v4775 : BitVec 32) : Fin 2 → Nat :=
  let c0_i32_2527 : BitVec 32 := 0#32
  ![v4775.toNat, 0]

def k0_chk58 (v4775 : BitVec 32) : Prop :=
  (∀ a, (k0_off116 v4775) a + S1x10000.size a ≤ S10000x10000.size a)
instance k0_chk58.dec : ∀ (v4775 : BitVec 32), Decidable (k0_chk58 v4775) := fun v4775 => decidable_of_iff' _ (Iff.of_eq (k0_chk58.eq_1 v4775))
theorem k0_off116_inb : ∀ (v4775 : BitVec 32) (k0_hw58 : k0_chk58 v4775), ∀ a, (k0_off116 v4775) a + S1x10000.size a ≤ S10000x10000.size a := fun v4775 k0_hw58 => k0_hw58

def k0_off117 (i : grid0.Coords) (c56_i32_2533 : BitVec 32) : Fin 1 → Nat :=
  let arg0 : BitVec 32 := BitVec.ofNat 32 (i 0).val
  let c64_i32 : BitVec 32 := 64#32
  let v3 : BitVec 32 := Scalar.muli arg0 c64_i32
  let v4784 : BitVec 32 := Scalar.addi v3 c56_i32_2533
  let v4785 : Index := Scalar.indexCast v4784
  ![v4785.toNat]
def k0_off118 (v4860 : BitVec 32) : Fin 2 → Nat :=
  let c0_i32_2572 : BitVec 32 := 0#32
  ![v4860.toNat, 0]

def k0_chk59 (v4860 : BitVec 32) : Prop :=
  (∀ a, (k0_off118 v4860) a + S1x10000.size a ≤ S10000x10000.size a)
instance k0_chk59.dec : ∀ (v4860 : BitVec 32), Decidable (k0_chk59 v4860) := fun v4860 => decidable_of_iff' _ (Iff.of_eq (k0_chk59.eq_1 v4860))
theorem k0_off118_inb : ∀ (v4860 : BitVec 32) (k0_hw59 : k0_chk59 v4860), ∀ a, (k0_off118 v4860) a + S1x10000.size a ≤ S10000x10000.size a := fun v4860 k0_hw59 => k0_hw59

def k0_off119 (i : grid0.Coords) (c57_i32_2578 : BitVec 32) : Fin 1 → Nat :=
  let arg0 : BitVec 32 := BitVec.ofNat 32 (i 0).val
  let c64_i32 : BitVec 32 := 64#32
  let v3 : BitVec 32 := Scalar.muli arg0 c64_i32
  let v4869 : BitVec 32 := Scalar.addi v3 c57_i32_2578
  let v4870 : Index := Scalar.indexCast v4869
  ![v4870.toNat]
def k0_off120 (v4945 : BitVec 32) : Fin 2 → Nat :=
  let c0_i32_2617 : BitVec 32 := 0#32
  ![v4945.toNat, 0]

def k0_chk60 (v4945 : BitVec 32) : Prop :=
  (∀ a, (k0_off120 v4945) a + S1x10000.size a ≤ S10000x10000.size a)
instance k0_chk60.dec : ∀ (v4945 : BitVec 32), Decidable (k0_chk60 v4945) := fun v4945 => decidable_of_iff' _ (Iff.of_eq (k0_chk60.eq_1 v4945))
theorem k0_off120_inb : ∀ (v4945 : BitVec 32) (k0_hw60 : k0_chk60 v4945), ∀ a, (k0_off120 v4945) a + S1x10000.size a ≤ S10000x10000.size a := fun v4945 k0_hw60 => k0_hw60

def k0_off121 (i : grid0.Coords) (c58_i32_2623 : BitVec 32) : Fin 1 → Nat :=
  let arg0 : BitVec 32 := BitVec.ofNat 32 (i 0).val
  let c64_i32 : BitVec 32 := 64#32
  let v3 : BitVec 32 := Scalar.muli arg0 c64_i32
  let v4954 : BitVec 32 := Scalar.addi v3 c58_i32_2623
  let v4955 : Index := Scalar.indexCast v4954
  ![v4955.toNat]
def k0_off122 (v5030 : BitVec 32) : Fin 2 → Nat :=
  let c0_i32_2662 : BitVec 32 := 0#32
  ![v5030.toNat, 0]

def k0_chk61 (v5030 : BitVec 32) : Prop :=
  (∀ a, (k0_off122 v5030) a + S1x10000.size a ≤ S10000x10000.size a)
instance k0_chk61.dec : ∀ (v5030 : BitVec 32), Decidable (k0_chk61 v5030) := fun v5030 => decidable_of_iff' _ (Iff.of_eq (k0_chk61.eq_1 v5030))
theorem k0_off122_inb : ∀ (v5030 : BitVec 32) (k0_hw61 : k0_chk61 v5030), ∀ a, (k0_off122 v5030) a + S1x10000.size a ≤ S10000x10000.size a := fun v5030 k0_hw61 => k0_hw61

def k0_off123 (i : grid0.Coords) (c59_i32_2668 : BitVec 32) : Fin 1 → Nat :=
  let arg0 : BitVec 32 := BitVec.ofNat 32 (i 0).val
  let c64_i32 : BitVec 32 := 64#32
  let v3 : BitVec 32 := Scalar.muli arg0 c64_i32
  let v5039 : BitVec 32 := Scalar.addi v3 c59_i32_2668
  let v5040 : Index := Scalar.indexCast v5039
  ![v5040.toNat]
def k0_off124 (v5115 : BitVec 32) : Fin 2 → Nat :=
  let c0_i32_2707 : BitVec 32 := 0#32
  ![v5115.toNat, 0]

def k0_chk62 (v5115 : BitVec 32) : Prop :=
  (∀ a, (k0_off124 v5115) a + S1x10000.size a ≤ S10000x10000.size a)
instance k0_chk62.dec : ∀ (v5115 : BitVec 32), Decidable (k0_chk62 v5115) := fun v5115 => decidable_of_iff' _ (Iff.of_eq (k0_chk62.eq_1 v5115))
theorem k0_off124_inb : ∀ (v5115 : BitVec 32) (k0_hw62 : k0_chk62 v5115), ∀ a, (k0_off124 v5115) a + S1x10000.size a ≤ S10000x10000.size a := fun v5115 k0_hw62 => k0_hw62

def k0_off125 (i : grid0.Coords) (c60_i32_2713 : BitVec 32) : Fin 1 → Nat :=
  let arg0 : BitVec 32 := BitVec.ofNat 32 (i 0).val
  let c64_i32 : BitVec 32 := 64#32
  let v3 : BitVec 32 := Scalar.muli arg0 c64_i32
  let v5124 : BitVec 32 := Scalar.addi v3 c60_i32_2713
  let v5125 : Index := Scalar.indexCast v5124
  ![v5125.toNat]
def k0_off126 (v5200 : BitVec 32) : Fin 2 → Nat :=
  let c0_i32_2752 : BitVec 32 := 0#32
  ![v5200.toNat, 0]

def k0_chk63 (v5200 : BitVec 32) : Prop :=
  (∀ a, (k0_off126 v5200) a + S1x10000.size a ≤ S10000x10000.size a)
instance k0_chk63.dec : ∀ (v5200 : BitVec 32), Decidable (k0_chk63 v5200) := fun v5200 => decidable_of_iff' _ (Iff.of_eq (k0_chk63.eq_1 v5200))
theorem k0_off126_inb : ∀ (v5200 : BitVec 32) (k0_hw63 : k0_chk63 v5200), ∀ a, (k0_off126 v5200) a + S1x10000.size a ≤ S10000x10000.size a := fun v5200 k0_hw63 => k0_hw63

def k0_off127 (i : grid0.Coords) (c61_i32_2758 : BitVec 32) : Fin 1 → Nat :=
  let arg0 : BitVec 32 := BitVec.ofNat 32 (i 0).val
  let c64_i32 : BitVec 32 := 64#32
  let v3 : BitVec 32 := Scalar.muli arg0 c64_i32
  let v5209 : BitVec 32 := Scalar.addi v3 c61_i32_2758
  let v5210 : Index := Scalar.indexCast v5209
  ![v5210.toNat]
def k0_off128 (v5285 : BitVec 32) : Fin 2 → Nat :=
  let c0_i32_2797 : BitVec 32 := 0#32
  ![v5285.toNat, 0]

def k0_chk64 (v5285 : BitVec 32) : Prop :=
  (∀ a, (k0_off128 v5285) a + S1x10000.size a ≤ S10000x10000.size a)
instance k0_chk64.dec : ∀ (v5285 : BitVec 32), Decidable (k0_chk64 v5285) := fun v5285 => decidable_of_iff' _ (Iff.of_eq (k0_chk64.eq_1 v5285))
theorem k0_off128_inb : ∀ (v5285 : BitVec 32) (k0_hw64 : k0_chk64 v5285), ∀ a, (k0_off128 v5285) a + S1x10000.size a ≤ S10000x10000.size a := fun v5285 k0_hw64 => k0_hw64

def k0_off129 (i : grid0.Coords) (c62_i32_2803 : BitVec 32) : Fin 1 → Nat :=
  let arg0 : BitVec 32 := BitVec.ofNat 32 (i 0).val
  let c64_i32 : BitVec 32 := 64#32
  let v3 : BitVec 32 := Scalar.muli arg0 c64_i32
  let v5294 : BitVec 32 := Scalar.addi v3 c62_i32_2803
  let v5295 : Index := Scalar.indexCast v5294
  ![v5295.toNat]
def k0_cond2 (i : grid0.Coords) : BitVec 1 :=
  let arg0 : BitVec 32 := BitVec.ofNat 32 (i 0).val
  let c47_i32_2881 : BitVec 32 := 47#32
  let v5444 : BitVec 1 := Scalar.cmpi .eq arg0 c47_i32_2881
  let v5445 : BitVec 32 := Scalar.extui v5444
  let c0_i32_2882 : BitVec 32 := 0#32
  let v5446 : BitVec 1 := Scalar.cmpi .ne v5445 c0_i32_2882
  v5446

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S128x24x10000_S3072x10000 : S128x24x10000.ShapeCasts S3072x10000
  shapeCasts_S128x24_S3072x1 : S128x24.ShapeCasts S3072x1
  shapeCasts_S128x24_S3072 : S128x24.ShapeCasts S3072
  inb_S1x1_S1x1_0_0 : ∀ a, (![0, 0] : Fin 2 → Nat) a + S1x1.size a ≤ S1x1.size a
  h_S1x1 : 0 < S1x1.numel
  shapeCasts_S1x1_S1x1 : S1x1.ShapeCasts S1x1
  numel1_S1 : S1.numel = 1
  inb_S2_S1_0 : ∀ a, (![0] : Fin 1 → Nat) a + S1.size a ≤ S2.size a
  squeezes_S1_S_ : S1.Squeezes S_
  inb_S10000x10000_S1x10000_0_0 : ∀ a, (![0, 0] : Fin 2 → Nat) a + S1x10000.size a ≤ S10000x10000.size a
  inb_S2_S1_1 : ∀ a, (![1] : Fin 1 → Nat) a + S1.size a ≤ S2.size a
  inb_S1x10000_S1x10000_0_0 : ∀ a, (![0, 0] : Fin 2 → Nat) a + S1x10000.size a ≤ S1x10000.size a
  h_S1x10000 : 0 < S1x10000.numel
  inb_S64x10000_S1x10000_0_0 : ∀ a, (![0, 0] : Fin 2 → Nat) a + S1x10000.size a ≤ S64x10000.size a
  shapeCasts_S1x10000_S1x10000 : S1x10000.ShapeCasts S1x10000
  inb_S64x1_S1x1_0_0 : ∀ a, (![0, 0] : Fin 2 → Nat) a + S1x1.size a ≤ S64x1.size a
  natLt_1_32 : 1 < 32
  broadcasts_S1x1_S1x10000 : S1x1.Broadcasts S1x10000
  reduces_S1x10000_S1 : S1x10000.Reduces [1] S1
  shapeCasts_S1_S1x1 : S1.ShapeCasts S1x1
  iota_S1x10000_d1_w32 : S1x10000.Iotas .tc 32 [1]
  inb_S64x10000_S1x10000_1_0 : ∀ a, (![1, 0] : Fin 2 → Nat) a + S1x10000.size a ≤ S64x10000.size a
  inb_S64x1_S1x1_1_0 : ∀ a, (![1, 0] : Fin 2 → Nat) a + S1x1.size a ≤ S64x1.size a
  inb_S64x10000_S1x10000_2_0 : ∀ a, (![2, 0] : Fin 2 → Nat) a + S1x10000.size a ≤ S64x10000.size a
  inb_S64x1_S1x1_2_0 : ∀ a, (![2, 0] : Fin 2 → Nat) a + S1x1.size a ≤ S64x1.size a
  inb_S64x10000_S1x10000_3_0 : ∀ a, (![3, 0] : Fin 2 → Nat) a + S1x10000.size a ≤ S64x10000.size a
  inb_S64x1_S1x1_3_0 : ∀ a, (![3, 0] : Fin 2 → Nat) a + S1x1.size a ≤ S64x1.size a
  inb_S64x10000_S1x10000_4_0 : ∀ a, (![4, 0] : Fin 2 → Nat) a + S1x10000.size a ≤ S64x10000.size a
  inb_S64x1_S1x1_4_0 : ∀ a, (![4, 0] : Fin 2 → Nat) a + S1x1.size a ≤ S64x1.size a
  inb_S64x10000_S1x10000_5_0 : ∀ a, (![5, 0] : Fin 2 → Nat) a + S1x10000.size a ≤ S64x10000.size a
  inb_S64x1_S1x1_5_0 : ∀ a, (![5, 0] : Fin 2 → Nat) a + S1x1.size a ≤ S64x1.size a
  inb_S64x10000_S1x10000_6_0 : ∀ a, (![6, 0] : Fin 2 → Nat) a + S1x10000.size a ≤ S64x10000.size a
  inb_S64x1_S1x1_6_0 : ∀ a, (![6, 0] : Fin 2 → Nat) a + S1x1.size a ≤ S64x1.size a
  inb_S64x10000_S1x10000_7_0 : ∀ a, (![7, 0] : Fin 2 → Nat) a + S1x10000.size a ≤ S64x10000.size a
  inb_S64x1_S1x1_7_0 : ∀ a, (![7, 0] : Fin 2 → Nat) a + S1x1.size a ≤ S64x1.size a
  inb_S64x10000_S1x10000_8_0 : ∀ a, (![8, 0] : Fin 2 → Nat) a + S1x10000.size a ≤ S64x10000.size a
  inb_S64x1_S1x1_8_0 : ∀ a, (![8, 0] : Fin 2 → Nat) a + S1x1.size a ≤ S64x1.size a
  inb_S64x10000_S1x10000_9_0 : ∀ a, (![9, 0] : Fin 2 → Nat) a + S1x10000.size a ≤ S64x10000.size a
  inb_S64x1_S1x1_9_0 : ∀ a, (![9, 0] : Fin 2 → Nat) a + S1x1.size a ≤ S64x1.size a
  inb_S64x10000_S1x10000_10_0 : ∀ a, (![10, 0] : Fin 2 → Nat) a + S1x10000.size a ≤ S64x10000.size a
  inb_S64x1_S1x1_10_0 : ∀ a, (![10, 0] : Fin 2 → Nat) a + S1x1.size a ≤ S64x1.size a
  inb_S64x10000_S1x10000_11_0 : ∀ a, (![11, 0] : Fin 2 → Nat) a + S1x10000.size a ≤ S64x10000.size a
  inb_S64x1_S1x1_11_0 : ∀ a, (![11, 0] : Fin 2 → Nat) a + S1x1.size a ≤ S64x1.size a
  inb_S64x10000_S1x10000_12_0 : ∀ a, (![12, 0] : Fin 2 → Nat) a + S1x10000.size a ≤ S64x10000.size a
  inb_S64x1_S1x1_12_0 : ∀ a, (![12, 0] : Fin 2 → Nat) a + S1x1.size a ≤ S64x1.size a
  inb_S64x10000_S1x10000_13_0 : ∀ a, (![13, 0] : Fin 2 → Nat) a + S1x10000.size a ≤ S64x10000.size a
  inb_S64x1_S1x1_13_0 : ∀ a, (![13, 0] : Fin 2 → Nat) a + S1x1.size a ≤ S64x1.size a
  inb_S64x10000_S1x10000_14_0 : ∀ a, (![14, 0] : Fin 2 → Nat) a + S1x10000.size a ≤ S64x10000.size a
  inb_S64x1_S1x1_14_0 : ∀ a, (![14, 0] : Fin 2 → Nat) a + S1x1.size a ≤ S64x1.size a
  inb_S64x10000_S1x10000_15_0 : ∀ a, (![15, 0] : Fin 2 → Nat) a + S1x10000.size a ≤ S64x10000.size a
  inb_S64x1_S1x1_15_0 : ∀ a, (![15, 0] : Fin 2 → Nat) a + S1x1.size a ≤ S64x1.size a
  inb_S64x10000_S1x10000_16_0 : ∀ a, (![16, 0] : Fin 2 → Nat) a + S1x10000.size a ≤ S64x10000.size a
  inb_S64x1_S1x1_16_0 : ∀ a, (![16, 0] : Fin 2 → Nat) a + S1x1.size a ≤ S64x1.size a
  inb_S64x10000_S1x10000_17_0 : ∀ a, (![17, 0] : Fin 2 → Nat) a + S1x10000.size a ≤ S64x10000.size a
  inb_S64x1_S1x1_17_0 : ∀ a, (![17, 0] : Fin 2 → Nat) a + S1x1.size a ≤ S64x1.size a
  inb_S64x10000_S1x10000_18_0 : ∀ a, (![18, 0] : Fin 2 → Nat) a + S1x10000.size a ≤ S64x10000.size a
  inb_S64x1_S1x1_18_0 : ∀ a, (![18, 0] : Fin 2 → Nat) a + S1x1.size a ≤ S64x1.size a
  inb_S64x10000_S1x10000_19_0 : ∀ a, (![19, 0] : Fin 2 → Nat) a + S1x10000.size a ≤ S64x10000.size a
  inb_S64x1_S1x1_19_0 : ∀ a, (![19, 0] : Fin 2 → Nat) a + S1x1.size a ≤ S64x1.size a
  inb_S64x10000_S1x10000_20_0 : ∀ a, (![20, 0] : Fin 2 → Nat) a + S1x10000.size a ≤ S64x10000.size a
  inb_S64x1_S1x1_20_0 : ∀ a, (![20, 0] : Fin 2 → Nat) a + S1x1.size a ≤ S64x1.size a
  inb_S64x10000_S1x10000_21_0 : ∀ a, (![21, 0] : Fin 2 → Nat) a + S1x10000.size a ≤ S64x10000.size a
  inb_S64x1_S1x1_21_0 : ∀ a, (![21, 0] : Fin 2 → Nat) a + S1x1.size a ≤ S64x1.size a
  inb_S64x10000_S1x10000_22_0 : ∀ a, (![22, 0] : Fin 2 → Nat) a + S1x10000.size a ≤ S64x10000.size a
  inb_S64x1_S1x1_22_0 : ∀ a, (![22, 0] : Fin 2 → Nat) a + S1x1.size a ≤ S64x1.size a
  inb_S64x10000_S1x10000_23_0 : ∀ a, (![23, 0] : Fin 2 → Nat) a + S1x10000.size a ≤ S64x10000.size a
  inb_S64x1_S1x1_23_0 : ∀ a, (![23, 0] : Fin 2 → Nat) a + S1x1.size a ≤ S64x1.size a
  inb_S64x10000_S1x10000_24_0 : ∀ a, (![24, 0] : Fin 2 → Nat) a + S1x10000.size a ≤ S64x10000.size a
  inb_S64x1_S1x1_24_0 : ∀ a, (![24, 0] : Fin 2 → Nat) a + S1x1.size a ≤ S64x1.size a
  inb_S64x10000_S1x10000_25_0 : ∀ a, (![25, 0] : Fin 2 → Nat) a + S1x10000.size a ≤ S64x10000.size a
  inb_S64x1_S1x1_25_0 : ∀ a, (![25, 0] : Fin 2 → Nat) a + S1x1.size a ≤ S64x1.size a
  inb_S64x10000_S1x10000_26_0 : ∀ a, (![26, 0] : Fin 2 → Nat) a + S1x10000.size a ≤ S64x10000.size a
  inb_S64x1_S1x1_26_0 : ∀ a, (![26, 0] : Fin 2 → Nat) a + S1x1.size a ≤ S64x1.size a
  inb_S64x10000_S1x10000_27_0 : ∀ a, (![27, 0] : Fin 2 → Nat) a + S1x10000.size a ≤ S64x10000.size a
  inb_S64x1_S1x1_27_0 : ∀ a, (![27, 0] : Fin 2 → Nat) a + S1x1.size a ≤ S64x1.size a
  inb_S64x10000_S1x10000_28_0 : ∀ a, (![28, 0] : Fin 2 → Nat) a + S1x10000.size a ≤ S64x10000.size a
  inb_S64x1_S1x1_28_0 : ∀ a, (![28, 0] : Fin 2 → Nat) a + S1x1.size a ≤ S64x1.size a
  inb_S64x10000_S1x10000_29_0 : ∀ a, (![29, 0] : Fin 2 → Nat) a + S1x10000.size a ≤ S64x10000.size a
  inb_S64x1_S1x1_29_0 : ∀ a, (![29, 0] : Fin 2 → Nat) a + S1x1.size a ≤ S64x1.size a
  inb_S64x10000_S1x10000_30_0 : ∀ a, (![30, 0] : Fin 2 → Nat) a + S1x10000.size a ≤ S64x10000.size a
  inb_S64x1_S1x1_30_0 : ∀ a, (![30, 0] : Fin 2 → Nat) a + S1x1.size a ≤ S64x1.size a
  inb_S64x10000_S1x10000_31_0 : ∀ a, (![31, 0] : Fin 2 → Nat) a + S1x10000.size a ≤ S64x10000.size a
  inb_S64x1_S1x1_31_0 : ∀ a, (![31, 0] : Fin 2 → Nat) a + S1x1.size a ≤ S64x1.size a
  inb_S64x10000_S1x10000_32_0 : ∀ a, (![32, 0] : Fin 2 → Nat) a + S1x10000.size a ≤ S64x10000.size a
  inb_S64x1_S1x1_32_0 : ∀ a, (![32, 0] : Fin 2 → Nat) a + S1x1.size a ≤ S64x1.size a
  inb_S64x10000_S1x10000_33_0 : ∀ a, (![33, 0] : Fin 2 → Nat) a + S1x10000.size a ≤ S64x10000.size a
  inb_S64x1_S1x1_33_0 : ∀ a, (![33, 0] : Fin 2 → Nat) a + S1x1.size a ≤ S64x1.size a
  inb_S64x10000_S1x10000_34_0 : ∀ a, (![34, 0] : Fin 2 → Nat) a + S1x10000.size a ≤ S64x10000.size a
  inb_S64x1_S1x1_34_0 : ∀ a, (![34, 0] : Fin 2 → Nat) a + S1x1.size a ≤ S64x1.size a
  inb_S64x10000_S1x10000_35_0 : ∀ a, (![35, 0] : Fin 2 → Nat) a + S1x10000.size a ≤ S64x10000.size a
  inb_S64x1_S1x1_35_0 : ∀ a, (![35, 0] : Fin 2 → Nat) a + S1x1.size a ≤ S64x1.size a
  inb_S64x10000_S1x10000_36_0 : ∀ a, (![36, 0] : Fin 2 → Nat) a + S1x10000.size a ≤ S64x10000.size a
  inb_S64x1_S1x1_36_0 : ∀ a, (![36, 0] : Fin 2 → Nat) a + S1x1.size a ≤ S64x1.size a
  inb_S64x10000_S1x10000_37_0 : ∀ a, (![37, 0] : Fin 2 → Nat) a + S1x10000.size a ≤ S64x10000.size a
  inb_S64x1_S1x1_37_0 : ∀ a, (![37, 0] : Fin 2 → Nat) a + S1x1.size a ≤ S64x1.size a
  inb_S64x10000_S1x10000_38_0 : ∀ a, (![38, 0] : Fin 2 → Nat) a + S1x10000.size a ≤ S64x10000.size a
  inb_S64x1_S1x1_38_0 : ∀ a, (![38, 0] : Fin 2 → Nat) a + S1x1.size a ≤ S64x1.size a
  inb_S64x10000_S1x10000_39_0 : ∀ a, (![39, 0] : Fin 2 → Nat) a + S1x10000.size a ≤ S64x10000.size a
  inb_S64x1_S1x1_39_0 : ∀ a, (![39, 0] : Fin 2 → Nat) a + S1x1.size a ≤ S64x1.size a
  inb_S64x10000_S1x10000_40_0 : ∀ a, (![40, 0] : Fin 2 → Nat) a + S1x10000.size a ≤ S64x10000.size a
  inb_S64x1_S1x1_40_0 : ∀ a, (![40, 0] : Fin 2 → Nat) a + S1x1.size a ≤ S64x1.size a
  inb_S64x10000_S1x10000_41_0 : ∀ a, (![41, 0] : Fin 2 → Nat) a + S1x10000.size a ≤ S64x10000.size a
  inb_S64x1_S1x1_41_0 : ∀ a, (![41, 0] : Fin 2 → Nat) a + S1x1.size a ≤ S64x1.size a
  inb_S64x10000_S1x10000_42_0 : ∀ a, (![42, 0] : Fin 2 → Nat) a + S1x10000.size a ≤ S64x10000.size a
  inb_S64x1_S1x1_42_0 : ∀ a, (![42, 0] : Fin 2 → Nat) a + S1x1.size a ≤ S64x1.size a
  inb_S64x10000_S1x10000_43_0 : ∀ a, (![43, 0] : Fin 2 → Nat) a + S1x10000.size a ≤ S64x10000.size a
  inb_S64x1_S1x1_43_0 : ∀ a, (![43, 0] : Fin 2 → Nat) a + S1x1.size a ≤ S64x1.size a
  inb_S64x10000_S1x10000_44_0 : ∀ a, (![44, 0] : Fin 2 → Nat) a + S1x10000.size a ≤ S64x10000.size a
  inb_S64x1_S1x1_44_0 : ∀ a, (![44, 0] : Fin 2 → Nat) a + S1x1.size a ≤ S64x1.size a
  inb_S64x10000_S1x10000_45_0 : ∀ a, (![45, 0] : Fin 2 → Nat) a + S1x10000.size a ≤ S64x10000.size a
  inb_S64x1_S1x1_45_0 : ∀ a, (![45, 0] : Fin 2 → Nat) a + S1x1.size a ≤ S64x1.size a
  inb_S64x10000_S1x10000_46_0 : ∀ a, (![46, 0] : Fin 2 → Nat) a + S1x10000.size a ≤ S64x10000.size a
  inb_S64x1_S1x1_46_0 : ∀ a, (![46, 0] : Fin 2 → Nat) a + S1x1.size a ≤ S64x1.size a
  inb_S64x10000_S1x10000_47_0 : ∀ a, (![47, 0] : Fin 2 → Nat) a + S1x10000.size a ≤ S64x10000.size a
  inb_S64x1_S1x1_47_0 : ∀ a, (![47, 0] : Fin 2 → Nat) a + S1x1.size a ≤ S64x1.size a
  inb_S64x10000_S1x10000_48_0 : ∀ a, (![48, 0] : Fin 2 → Nat) a + S1x10000.size a ≤ S64x10000.size a
  inb_S64x1_S1x1_48_0 : ∀ a, (![48, 0] : Fin 2 → Nat) a + S1x1.size a ≤ S64x1.size a
  inb_S64x10000_S1x10000_49_0 : ∀ a, (![49, 0] : Fin 2 → Nat) a + S1x10000.size a ≤ S64x10000.size a
  inb_S64x1_S1x1_49_0 : ∀ a, (![49, 0] : Fin 2 → Nat) a + S1x1.size a ≤ S64x1.size a
  inb_S64x10000_S1x10000_50_0 : ∀ a, (![50, 0] : Fin 2 → Nat) a + S1x10000.size a ≤ S64x10000.size a
  inb_S64x1_S1x1_50_0 : ∀ a, (![50, 0] : Fin 2 → Nat) a + S1x1.size a ≤ S64x1.size a
  inb_S64x10000_S1x10000_51_0 : ∀ a, (![51, 0] : Fin 2 → Nat) a + S1x10000.size a ≤ S64x10000.size a
  inb_S64x1_S1x1_51_0 : ∀ a, (![51, 0] : Fin 2 → Nat) a + S1x1.size a ≤ S64x1.size a
  inb_S64x10000_S1x10000_52_0 : ∀ a, (![52, 0] : Fin 2 → Nat) a + S1x10000.size a ≤ S64x10000.size a
  inb_S64x1_S1x1_52_0 : ∀ a, (![52, 0] : Fin 2 → Nat) a + S1x1.size a ≤ S64x1.size a
  inb_S64x10000_S1x10000_53_0 : ∀ a, (![53, 0] : Fin 2 → Nat) a + S1x10000.size a ≤ S64x10000.size a
  inb_S64x1_S1x1_53_0 : ∀ a, (![53, 0] : Fin 2 → Nat) a + S1x1.size a ≤ S64x1.size a
  inb_S64x10000_S1x10000_54_0 : ∀ a, (![54, 0] : Fin 2 → Nat) a + S1x10000.size a ≤ S64x10000.size a
  inb_S64x1_S1x1_54_0 : ∀ a, (![54, 0] : Fin 2 → Nat) a + S1x1.size a ≤ S64x1.size a
  inb_S64x10000_S1x10000_55_0 : ∀ a, (![55, 0] : Fin 2 → Nat) a + S1x10000.size a ≤ S64x10000.size a
  inb_S64x1_S1x1_55_0 : ∀ a, (![55, 0] : Fin 2 → Nat) a + S1x1.size a ≤ S64x1.size a
  inb_S64x10000_S1x10000_56_0 : ∀ a, (![56, 0] : Fin 2 → Nat) a + S1x10000.size a ≤ S64x10000.size a
  inb_S64x1_S1x1_56_0 : ∀ a, (![56, 0] : Fin 2 → Nat) a + S1x1.size a ≤ S64x1.size a
  inb_S64x10000_S1x10000_57_0 : ∀ a, (![57, 0] : Fin 2 → Nat) a + S1x10000.size a ≤ S64x10000.size a
  inb_S64x1_S1x1_57_0 : ∀ a, (![57, 0] : Fin 2 → Nat) a + S1x1.size a ≤ S64x1.size a
  inb_S64x10000_S1x10000_58_0 : ∀ a, (![58, 0] : Fin 2 → Nat) a + S1x10000.size a ≤ S64x10000.size a
  inb_S64x1_S1x1_58_0 : ∀ a, (![58, 0] : Fin 2 → Nat) a + S1x1.size a ≤ S64x1.size a
  inb_S64x10000_S1x10000_59_0 : ∀ a, (![59, 0] : Fin 2 → Nat) a + S1x10000.size a ≤ S64x10000.size a
  inb_S64x1_S1x1_59_0 : ∀ a, (![59, 0] : Fin 2 → Nat) a + S1x1.size a ≤ S64x1.size a
  inb_S64x10000_S1x10000_60_0 : ∀ a, (![60, 0] : Fin 2 → Nat) a + S1x10000.size a ≤ S64x10000.size a
  inb_S64x1_S1x1_60_0 : ∀ a, (![60, 0] : Fin 2 → Nat) a + S1x1.size a ≤ S64x1.size a
  inb_S64x10000_S1x10000_61_0 : ∀ a, (![61, 0] : Fin 2 → Nat) a + S1x10000.size a ≤ S64x10000.size a
  inb_S64x1_S1x1_61_0 : ∀ a, (![61, 0] : Fin 2 → Nat) a + S1x1.size a ≤ S64x1.size a
  inb_S64x10000_S1x10000_62_0 : ∀ a, (![62, 0] : Fin 2 → Nat) a + S1x10000.size a ≤ S64x10000.size a
  inb_S64x1_S1x1_62_0 : ∀ a, (![62, 0] : Fin 2 → Nat) a + S1x1.size a ≤ S64x1.size a
  inb_S64x10000_S1x10000_63_0 : ∀ a, (![63, 0] : Fin 2 → Nat) a + S1x10000.size a ≤ S64x10000.size a
  inb_S64x1_S1x1_63_0 : ∀ a, (![63, 0] : Fin 2 → Nat) a + S1x1.size a ≤ S64x1.size a
  shapeCasts_S1x1_S_ : S1x1.ShapeCasts S_
  hcc0_scratch2 : 8 + S2.numel ≤ 10
  hrank0 : 0 < grid0.rank
  k0_off1_inb : ∀ i : grid0.Coords, ∀ a, (k0_off1 i) a + S1.size a ≤ S3072.size a
  k0_off3_inb : ∀ i : grid0.Coords, ∀ a, (k0_off3 i) a + S1.size a ≤ S3072.size a
  k0_off5_inb : ∀ i : grid0.Coords, ∀ (r : Fin 2), ∀ a, (k0_off5 i (BitVec.ofNat 32 (2 * r.val))) a + S1.size a ≤ S3072.size a
  k0_off7_inb : ∀ i : grid0.Coords, ∀ (r : Fin 2), ∀ a, (k0_off7 i (BitVec.ofNat 32 (1 + 2 * r.val))) a + S1.size a ≤ S3072.size a
  k0_off9_inb : ∀ i : grid0.Coords, ∀ (r : Fin 2), ∀ a, (k0_off9 i (BitVec.ofNat 32 (2 + 2 * r.val))) a + S1.size a ≤ S3072.size a
  k0_off11_inb : ∀ i : grid0.Coords, ∀ (r : Fin 2), ∀ a, (k0_off11 i (BitVec.ofNat 32 (3 + 2 * r.val))) a + S1.size a ≤ S3072.size a
  k0_off13_inb : ∀ i : grid0.Coords, ∀ (r : Fin 2), ∀ a, (k0_off13 i (BitVec.ofNat 32 (4 + 2 * r.val))) a + S1.size a ≤ S3072.size a
  k0_off15_inb : ∀ i : grid0.Coords, ∀ (r : Fin 2), ∀ a, (k0_off15 i (BitVec.ofNat 32 (5 + 2 * r.val))) a + S1.size a ≤ S3072.size a
  k0_off17_inb : ∀ i : grid0.Coords, ∀ (r : Fin 2), ∀ a, (k0_off17 i (BitVec.ofNat 32 (6 + 2 * r.val))) a + S1.size a ≤ S3072.size a
  k0_off19_inb : ∀ i : grid0.Coords, ∀ (r : Fin 2), ∀ a, (k0_off19 i (BitVec.ofNat 32 (7 + 2 * r.val))) a + S1.size a ≤ S3072.size a
  k0_off21_inb : ∀ i : grid0.Coords, ∀ (r : Fin 2), ∀ a, (k0_off21 i (BitVec.ofNat 32 (8 + 2 * r.val))) a + S1.size a ≤ S3072.size a
  k0_off23_inb : ∀ i : grid0.Coords, ∀ (r : Fin 2), ∀ a, (k0_off23 i (BitVec.ofNat 32 (9 + 2 * r.val))) a + S1.size a ≤ S3072.size a
  k0_off25_inb : ∀ i : grid0.Coords, ∀ (r : Fin 2), ∀ a, (k0_off25 i (BitVec.ofNat 32 (10 + 2 * r.val))) a + S1.size a ≤ S3072.size a
  k0_off27_inb : ∀ i : grid0.Coords, ∀ (r : Fin 2), ∀ a, (k0_off27 i (BitVec.ofNat 32 (11 + 2 * r.val))) a + S1.size a ≤ S3072.size a
  k0_off29_inb : ∀ i : grid0.Coords, ∀ (r : Fin 2), ∀ a, (k0_off29 i (BitVec.ofNat 32 (12 + 2 * r.val))) a + S1.size a ≤ S3072.size a
  k0_off31_inb : ∀ i : grid0.Coords, ∀ (r : Fin 2), ∀ a, (k0_off31 i (BitVec.ofNat 32 (13 + 2 * r.val))) a + S1.size a ≤ S3072.size a
  k0_off33_inb : ∀ i : grid0.Coords, ∀ (r : Fin 2), ∀ a, (k0_off33 i (BitVec.ofNat 32 (14 + 2 * r.val))) a + S1.size a ≤ S3072.size a
  k0_off35_inb : ∀ i : grid0.Coords, ∀ (r : Fin 2), ∀ a, (k0_off35 i (BitVec.ofNat 32 (15 + 2 * r.val))) a + S1.size a ≤ S3072.size a
  k0_off37_inb : ∀ i : grid0.Coords, ∀ (r : Fin 2), ∀ a, (k0_off37 i (BitVec.ofNat 32 (16 + 2 * r.val))) a + S1.size a ≤ S3072.size a
  k0_off39_inb : ∀ i : grid0.Coords, ∀ (r : Fin 2), ∀ a, (k0_off39 i (BitVec.ofNat 32 (17 + 2 * r.val))) a + S1.size a ≤ S3072.size a
  k0_off41_inb : ∀ i : grid0.Coords, ∀ (r : Fin 2), ∀ a, (k0_off41 i (BitVec.ofNat 32 (18 + 2 * r.val))) a + S1.size a ≤ S3072.size a
  k0_off43_inb : ∀ i : grid0.Coords, ∀ (r : Fin 2), ∀ a, (k0_off43 i (BitVec.ofNat 32 (19 + 2 * r.val))) a + S1.size a ≤ S3072.size a
  k0_off45_inb : ∀ i : grid0.Coords, ∀ (r : Fin 2), ∀ a, (k0_off45 i (BitVec.ofNat 32 (20 + 2 * r.val))) a + S1.size a ≤ S3072.size a
  k0_off47_inb : ∀ i : grid0.Coords, ∀ (r : Fin 2), ∀ a, (k0_off47 i (BitVec.ofNat 32 (21 + 2 * r.val))) a + S1.size a ≤ S3072.size a
  k0_off49_inb : ∀ i : grid0.Coords, ∀ (r : Fin 2), ∀ a, (k0_off49 i (BitVec.ofNat 32 (22 + 2 * r.val))) a + S1.size a ≤ S3072.size a
  k0_off51_inb : ∀ i : grid0.Coords, ∀ (r : Fin 2), ∀ a, (k0_off51 i (BitVec.ofNat 32 (23 + 2 * r.val))) a + S1.size a ≤ S3072.size a
  k0_off53_inb : ∀ i : grid0.Coords, ∀ (r : Fin 2), ∀ a, (k0_off53 i (BitVec.ofNat 32 (24 + 2 * r.val))) a + S1.size a ≤ S3072.size a
  k0_off55_inb : ∀ i : grid0.Coords, ∀ (r : Fin 2), ∀ a, (k0_off55 i (BitVec.ofNat 32 (25 + 2 * r.val))) a + S1.size a ≤ S3072.size a
  k0_off57_inb : ∀ i : grid0.Coords, ∀ (r : Fin 2), ∀ a, (k0_off57 i (BitVec.ofNat 32 (26 + 2 * r.val))) a + S1.size a ≤ S3072.size a
  k0_off59_inb : ∀ i : grid0.Coords, ∀ (r : Fin 2), ∀ a, (k0_off59 i (BitVec.ofNat 32 (27 + 2 * r.val))) a + S1.size a ≤ S3072.size a
  k0_off61_inb : ∀ i : grid0.Coords, ∀ (r : Fin 2), ∀ a, (k0_off61 i (BitVec.ofNat 32 (28 + 2 * r.val))) a + S1.size a ≤ S3072.size a
  k0_off63_inb : ∀ i : grid0.Coords, ∀ (r : Fin 2), ∀ a, (k0_off63 i (BitVec.ofNat 32 (29 + 2 * r.val))) a + S1.size a ≤ S3072.size a
  k0_off65_inb : ∀ i : grid0.Coords, ∀ (r : Fin 2), ∀ a, (k0_off65 i (BitVec.ofNat 32 (30 + 2 * r.val))) a + S1.size a ≤ S3072.size a
  k0_off67_inb : ∀ i : grid0.Coords, ∀ (r : Fin 2), ∀ a, (k0_off67 i (BitVec.ofNat 32 (31 + 2 * r.val))) a + S1.size a ≤ S3072.size a
  k0_off69_inb : ∀ i : grid0.Coords, ∀ (r : Fin 2), ∀ a, (k0_off69 i (BitVec.ofNat 32 (32 + 2 * r.val))) a + S1.size a ≤ S3072.size a
  k0_off71_inb : ∀ i : grid0.Coords, ∀ (r : Fin 2), ∀ a, (k0_off71 i (BitVec.ofNat 32 (33 + 2 * r.val))) a + S1.size a ≤ S3072.size a
  k0_off73_inb : ∀ i : grid0.Coords, ∀ (r : Fin 2), ∀ a, (k0_off73 i (BitVec.ofNat 32 (34 + 2 * r.val))) a + S1.size a ≤ S3072.size a
  k0_off75_inb : ∀ i : grid0.Coords, ∀ (r : Fin 2), ∀ a, (k0_off75 i (BitVec.ofNat 32 (35 + 2 * r.val))) a + S1.size a ≤ S3072.size a
  k0_off77_inb : ∀ i : grid0.Coords, ∀ (r : Fin 2), ∀ a, (k0_off77 i (BitVec.ofNat 32 (36 + 2 * r.val))) a + S1.size a ≤ S3072.size a
  k0_off79_inb : ∀ i : grid0.Coords, ∀ (r : Fin 2), ∀ a, (k0_off79 i (BitVec.ofNat 32 (37 + 2 * r.val))) a + S1.size a ≤ S3072.size a
  k0_off81_inb : ∀ i : grid0.Coords, ∀ (r : Fin 2), ∀ a, (k0_off81 i (BitVec.ofNat 32 (38 + 2 * r.val))) a + S1.size a ≤ S3072.size a
  k0_off83_inb : ∀ i : grid0.Coords, ∀ (r : Fin 2), ∀ a, (k0_off83 i (BitVec.ofNat 32 (39 + 2 * r.val))) a + S1.size a ≤ S3072.size a
  k0_off85_inb : ∀ i : grid0.Coords, ∀ (r : Fin 2), ∀ a, (k0_off85 i (BitVec.ofNat 32 (40 + 2 * r.val))) a + S1.size a ≤ S3072.size a
  k0_off87_inb : ∀ i : grid0.Coords, ∀ (r : Fin 2), ∀ a, (k0_off87 i (BitVec.ofNat 32 (41 + 2 * r.val))) a + S1.size a ≤ S3072.size a
  k0_off89_inb : ∀ i : grid0.Coords, ∀ (r : Fin 2), ∀ a, (k0_off89 i (BitVec.ofNat 32 (42 + 2 * r.val))) a + S1.size a ≤ S3072.size a
  k0_off91_inb : ∀ i : grid0.Coords, ∀ (r : Fin 2), ∀ a, (k0_off91 i (BitVec.ofNat 32 (43 + 2 * r.val))) a + S1.size a ≤ S3072.size a
  k0_off93_inb : ∀ i : grid0.Coords, ∀ (r : Fin 2), ∀ a, (k0_off93 i (BitVec.ofNat 32 (44 + 2 * r.val))) a + S1.size a ≤ S3072.size a
  k0_off95_inb : ∀ i : grid0.Coords, ∀ (r : Fin 2), ∀ a, (k0_off95 i (BitVec.ofNat 32 (45 + 2 * r.val))) a + S1.size a ≤ S3072.size a
  k0_off97_inb : ∀ i : grid0.Coords, ∀ (r : Fin 2), ∀ a, (k0_off97 i (BitVec.ofNat 32 (46 + 2 * r.val))) a + S1.size a ≤ S3072.size a
  k0_off99_inb : ∀ i : grid0.Coords, ∀ (r : Fin 2), ∀ a, (k0_off99 i (BitVec.ofNat 32 (47 + 2 * r.val))) a + S1.size a ≤ S3072.size a
  k0_off101_inb : ∀ i : grid0.Coords, ∀ (r : Fin 2), ∀ a, (k0_off101 i (BitVec.ofNat 32 (48 + 2 * r.val))) a + S1.size a ≤ S3072.size a
  k0_off103_inb : ∀ i : grid0.Coords, ∀ (r : Fin 2), ∀ a, (k0_off103 i (BitVec.ofNat 32 (49 + 2 * r.val))) a + S1.size a ≤ S3072.size a
  k0_off105_inb : ∀ i : grid0.Coords, ∀ (r : Fin 2), ∀ a, (k0_off105 i (BitVec.ofNat 32 (50 + 2 * r.val))) a + S1.size a ≤ S3072.size a
  k0_off107_inb : ∀ i : grid0.Coords, ∀ (r : Fin 2), ∀ a, (k0_off107 i (BitVec.ofNat 32 (51 + 2 * r.val))) a + S1.size a ≤ S3072.size a
  k0_off109_inb : ∀ i : grid0.Coords, ∀ (r : Fin 2), ∀ a, (k0_off109 i (BitVec.ofNat 32 (52 + 2 * r.val))) a + S1.size a ≤ S3072.size a
  k0_off111_inb : ∀ i : grid0.Coords, ∀ (r : Fin 2), ∀ a, (k0_off111 i (BitVec.ofNat 32 (53 + 2 * r.val))) a + S1.size a ≤ S3072.size a
  k0_off113_inb : ∀ i : grid0.Coords, ∀ (r : Fin 2), ∀ a, (k0_off113 i (BitVec.ofNat 32 (54 + 2 * r.val))) a + S1.size a ≤ S3072.size a
  k0_off115_inb : ∀ i : grid0.Coords, ∀ (r : Fin 2), ∀ a, (k0_off115 i (BitVec.ofNat 32 (55 + 2 * r.val))) a + S1.size a ≤ S3072.size a
  k0_off117_inb : ∀ i : grid0.Coords, ∀ (r : Fin 2), ∀ a, (k0_off117 i (BitVec.ofNat 32 (56 + 2 * r.val))) a + S1.size a ≤ S3072.size a
  k0_off119_inb : ∀ i : grid0.Coords, ∀ (r : Fin 2), ∀ a, (k0_off119 i (BitVec.ofNat 32 (57 + 2 * r.val))) a + S1.size a ≤ S3072.size a
  k0_off121_inb : ∀ i : grid0.Coords, ∀ (r : Fin 2), ∀ a, (k0_off121 i (BitVec.ofNat 32 (58 + 2 * r.val))) a + S1.size a ≤ S3072.size a
  k0_off123_inb : ∀ i : grid0.Coords, ∀ (r : Fin 2), ∀ a, (k0_off123 i (BitVec.ofNat 32 (59 + 2 * r.val))) a + S1.size a ≤ S3072.size a
  k0_off125_inb : ∀ i : grid0.Coords, ∀ (r : Fin 2), ∀ a, (k0_off125 i (BitVec.ofNat 32 (60 + 2 * r.val))) a + S1.size a ≤ S3072.size a
  k0_off127_inb : ∀ i : grid0.Coords, ∀ (r : Fin 2), ∀ a, (k0_off127 i (BitVec.ofNat 32 (61 + 2 * r.val))) a + S1.size a ≤ S3072.size a
  k0_off129_inb : ∀ i : grid0.Coords, ∀ (r : Fin 2), ∀ a, (k0_off129 i (BitVec.ofNat 32 (62 + r.val))) a + S1.size a ≤ S3072.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x10000.size a ≤ S3072x10000.size a
  hwx0_0 : ∀ i : grid0.Coords, EltTy.bits .f32 = 32 ∨ (Rect.block (s := S3072x10000) S64x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S3072x1.size a
  hwx0_1 : ∀ i : grid0.Coords, EltTy.bits .f32 = 32 ∨ (Rect.block (s := S3072x1) S64x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S1x1.size a ≤ S1x1.size a
  hwx0_2 : ∀ i : grid0.Coords, EltTy.bits .f32 = 32 ∨ (Rect.block (s := S1x1) S1x1.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S1x1.size a ≤ S1x1.size a
  hwx0_3 : ∀ i : grid0.Coords, EltTy.bits .f32 = 32 ∨ (Rect.block (s := S1x1) S1x1.size (cc0_transform_4 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_5 i = cc0_transform_5 i'
  hinb0_4 : ∀ (i : grid0.Coords) a, (cc0_transform_5 i a + 1) * S1x1.size a ≤ S1x1.size a
  hwx0_4 : ∀ i : grid0.Coords, EltTy.bits .f32 = 32 ∨ (Rect.block (s := S1x1) S1x1.size (cc0_transform_5 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_6 i = cc0_transform_6 i'
  hinb0_5 : ∀ (i : grid0.Coords) a, (cc0_transform_6 i a + 1) * S1x1.size a ≤ S1x1.size a
  hwx0_5 : ∀ i : grid0.Coords, EltTy.bits .f32 = 32 ∨ (Rect.block (s := S1x1) S1x1.size (cc0_transform_6 i) (hinb0_5 i)).WholeWords (EltTy.packing .f32)

variable [Facts₀]

abbrev cc0_scratch2 : DmaSems sig S2 := SemArray.consecutive 8 S2 hcc0_scratch2

abbrev spec0_0 : Pipeline.WinSpec sig grid0.rank :=
  Pipeline.WinSpec.ofSpec (Memref.whole main_v0) S64x10000.size reads0_0 false false 2 stage0_0 sem0_0 nbuf0_0 hstage0_0

abbrev spec0_1 : Pipeline.WinSpec sig grid0.rank :=
  Pipeline.WinSpec.ofSpec (Memref.whole main_v1) S64x1.size reads0_1 false false 2 stage0_1 sem0_1 nbuf0_1 hstage0_1

abbrev spec0_2 : Pipeline.WinSpec sig grid0.rank :=
  Pipeline.WinSpec.ofSpec (Memref.whole main_v3_0) S1x1.size reads0_2 true true 1 stage0_2 sem0_2 nbuf0_2 hstage0_2

abbrev spec0_3 : Pipeline.WinSpec sig grid0.rank :=
  Pipeline.WinSpec.ofSpec (Memref.whole main_v3_1) S1x1.size reads0_3 true true 1 stage0_3 sem0_3 nbuf0_3 hstage0_3

abbrev spec0_4 : Pipeline.WinSpec sig grid0.rank :=
  Pipeline.WinSpec.ofSpec (Memref.whole main_v3_2) S1x1.size reads0_4 true true 1 stage0_4 sem0_4 nbuf0_4 hstage0_4

abbrev spec0_5 : Pipeline.WinSpec sig grid0.rank :=
  Pipeline.WinSpec.ofSpec (Memref.whole main_v3_3) S1x1.size reads0_5 true true 1 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_3 | 3 => cc0_transform_4 | 4 => cc0_transform_5 | 5 => cc0_transform_6 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))
abbrev idle0 : Fin 6 → grid0.Coords → Bool := fun | 0 => fun _ => false | 1 => fun _ => false | 2 => fun i => !(k0_cond2 i == 1#1) | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S128x24x10000 : Shape := ⟨3, ![128, 24, 10000]⟩
abbrev S10000x10000 : Shape := ⟨2, ![10000, 10000]⟩
abbrev S128x24 : Shape := ⟨2, ![128, 24]⟩
abbrev S3072x10000 : Shape := ⟨2, ![3072, 10000]⟩
abbrev S3072 : Shape := ⟨1, ![3072]⟩
abbrev S3072x1 : Shape := ⟨2, ![3072, 1]⟩
abbrev S_ : Shape := ⟨0, ![]⟩
abbrev S3072x1x1 : Shape := ⟨3, ![3072, 1, 1]⟩
abbrev S1 : Shape := ⟨1, ![1]⟩
abbrev S1x1x1 : Shape := ⟨3, ![1, 1, 1]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S128x24x10000, .f32⟩
  | .hbm, ⟨1, _⟩ => ⟨S10000x10000, .f32⟩
  | .hbm, ⟨2, _⟩ => ⟨S128x24, .i32⟩
  | .hbm, ⟨3, _⟩ => ⟨S128x24, .f32⟩
  | .hbm, ⟨4, _⟩ => ⟨S3072x10000, .f32⟩
  | .hbm, ⟨5, _⟩ => ⟨S3072, .i32⟩
  | .hbm, ⟨6, _⟩ => ⟨S3072, .f32⟩
  | .hbm, ⟨7, _⟩ => ⟨S3072x1, .i32⟩
  | .hbm, ⟨8, _⟩ => ⟨S_, .i32⟩
  | .hbm, ⟨9, _⟩ => ⟨S3072x1, .i32⟩
  | .hbm, ⟨10, _⟩ => ⟨S3072x1, .i1⟩
  | .hbm, ⟨11, _⟩ => ⟨S_, .i32⟩
  | .hbm, ⟨12, _⟩ => ⟨S3072x1, .i32⟩
  | .hbm, ⟨13, _⟩ => ⟨S3072x1, .i32⟩
  | .hbm, ⟨14, _⟩ => ⟨S3072x1, .i32⟩
  | .hbm, ⟨15, _⟩ => ⟨S3072x1x1, .i32⟩
  | .hbm, ⟨16, _⟩ => ⟨S1, .i32⟩
  | .hbm, ⟨17, _⟩ => ⟨S_, .i32⟩
  | .hbm, ⟨18, _⟩ => ⟨S3072x1x1, .i32⟩
  | .hbm, ⟨19, _⟩ => ⟨S3072x1x1, .i1⟩
  | .hbm, ⟨20, _⟩ => ⟨S1x1x1, .i32⟩
  | .hbm, ⟨21, _⟩ => ⟨S3072x1x1, .i32⟩
  | .hbm, ⟨22, _⟩ => ⟨S3072x1x1, .i1⟩
  | .hbm, ⟨23, _⟩ => ⟨S3072x1x1, .i1⟩
  | .hbm, ⟨24, _⟩ => ⟨S_, .i1⟩
  | .hbm, ⟨25, _⟩ => ⟨S3072x1, .i1⟩
  | .hbm, ⟨26, _⟩ => ⟨S3072x1, .f32⟩
  | .hbm, ⟨27, _⟩ => ⟨S_, .f32⟩
  | .hbm, ⟨28, _⟩ => ⟨S3072x1, .f32⟩
  | .hbm, ⟨29, _⟩ => ⟨S3072x1, .f32⟩
  | .hbm, ⟨30, _⟩ => ⟨S3072, .f32⟩
  | .hbm, ⟨31, _⟩ => ⟨S3072, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .i32⟩
  | .hbm, ⟨39, _⟩ => ⟨S3072, .i32⟩
  | .hbm, ⟨40, _⟩ => ⟨S3072, .i1⟩
  | .hbm, ⟨41, _⟩ => ⟨S_, .i32⟩
  | .hbm, ⟨42, _⟩ => ⟨S3072, .i32⟩
  | .hbm, ⟨43, _⟩ => ⟨S3072, .i32⟩
  | .hbm, ⟨44, _⟩ => ⟨S3072, .i32⟩
  | .hbm, ⟨45, _⟩ => ⟨S3072x1, .i32⟩
  | .hbm, ⟨46, _⟩ => ⟨S3072x10000, .f32⟩
  | .hbm, ⟨47, _⟩ => ⟨S_, .f32⟩
  | .hbm, ⟨48, _⟩ => ⟨S3072x10000, .f32⟩
  | .hbm, ⟨49, _⟩ => ⟨S3072x10000, .i1⟩
  | .hbm, ⟨50, _⟩ => ⟨S3072x10000, .f32⟩
  | .hbm, ⟨51, _⟩ => ⟨S3072x10000, .f32⟩
  | .hbm, ⟨52, _⟩ => ⟨S_, .f32⟩
  | .hbm, ⟨53, _⟩ => ⟨S3072x10000, .f32⟩
  | .hbm, ⟨54, _⟩ => ⟨S3072x10000, .f32⟩
  | .hbm, ⟨55, _⟩ => ⟨S_, .f32⟩
  | .hbm, ⟨56, _⟩ => ⟨S3072x10000, .f32⟩
  | .hbm, ⟨57, _⟩ => ⟨S3072x10000, .f32⟩
  | .hbm, ⟨58, _⟩ => ⟨S3072x10000, .f32⟩
  | .hbm, ⟨59, _⟩ => ⟨S_, .f32⟩
  | .hbm, ⟨60, _⟩ => ⟨S3072x10000, .f32⟩
  | .hbm, ⟨61, _⟩ => ⟨S3072x10000, .i1⟩
  | .hbm, ⟨62, _⟩ => ⟨S3072x10000, .f32⟩
  | .hbm, ⟨63, _⟩ => ⟨S3072x10000, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .i32⟩
  | .hbm, ⟨69, _⟩ => ⟨S_, .f32⟩
  | .hbm, ⟨70, _⟩ => ⟨S_, .f32⟩
  | .hbm, ⟨71, _⟩ => ⟨S1x1, .f32⟩
  | .hbm, ⟨72, _⟩ => ⟨S_, .f32⟩
  | .hbm, ⟨73, _⟩ => ⟨S1x1, .f32⟩
  | .hbm, ⟨74, _⟩ => ⟨S1x1, .f32⟩
  | .hbm, ⟨75, _⟩ => ⟨S3072x10000, .f32⟩
  | .hbm, ⟨76, _⟩ => ⟨S3072x10000, .f32⟩
  | .hbm, ⟨77, _⟩ => ⟨S3072x10000, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S3072x1, .f32⟩
  | .hbm, ⟨91, _⟩ => ⟨S3072x10000, .f32⟩
  | .hbm, ⟨92, _⟩ => ⟨S3072x10000, .f32⟩
  | .hbm, ⟨93, _⟩ => ⟨S_, .f32⟩
  | .hbm, ⟨94, _⟩ => ⟨S_, .f32⟩
  | .hbm, ⟨95, _⟩ => ⟨S3072x10000, .f32⟩
  | .hbm, ⟨96, _⟩ => ⟨S3072x10000, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | _, _ => ⟨S128x24x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_c : Ref sig .tc := ⟨.hbm, 38, rfl⟩
abbrev main_v11 : Ref sig .tc := ⟨.hbm, 39, rfl⟩
abbrev main_v12 : Ref sig .tc := ⟨.hbm, 40, rfl⟩
abbrev main_c_1 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_3 : Ref sig .tc := ⟨.hbm, 52, rfl⟩
abbrev main_v22 : Ref sig .tc := ⟨.hbm, 53, rfl⟩
abbrev main_v23 : Ref sig .tc := ⟨.hbm, 54, rfl⟩
abbrev main_cst_4 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_6 : Ref sig .tc := ⟨.hbm, 64, rfl⟩
abbrev main_v31 : Ref sig .tc := ⟨.hbm, 65, rfl⟩
abbrev main_cst_7 : Ref sig .tc := ⟨.hbm, 66, rfl⟩
abbrev main_v32 : Ref sig .tc := ⟨.hbm, 67, rfl⟩
abbrev main_c_8 : Ref sig .tc := ⟨.hbm, 68, rfl⟩
abbrev main_call1_call0_cst : Ref sig .tc := ⟨.hbm, 69, rfl⟩
abbrev main_call1_call0_v0 : Ref sig .tc := ⟨.hbm, 70, rfl⟩
abbrev main_call1_call0_v1 : Ref sig .tc := ⟨.hbm, 71, rfl⟩
abbrev main_call1_call0_cst_0 : Ref sig .tc := ⟨.hbm, 72, rfl⟩
abbrev main_call1_call0_v2 : Ref sig .tc := ⟨.hbm, 73, rfl⟩
abbrev main_call1_call0_v3 : Ref sig .tc := ⟨.hbm, 74, rfl⟩
abbrev main_call1_call0_v4 : Ref sig .tc := ⟨.hbm, 75, rfl⟩
abbrev main_call1_call0_v5 : Ref sig .tc := ⟨.hbm, 76, rfl⟩
abbrev main_call1_call0_v6 : Ref sig .tc := ⟨.hbm, 77, rfl⟩
abbrev main_call1_call0_v7 : Ref sig .tc := ⟨.hbm, 78, rfl⟩
abbrev main_call1_call0_cst_1 : Ref sig .tc := ⟨.hbm, 79, rfl⟩
abbrev main_call1_call0_v8 : Ref sig .tc := ⟨.hbm, 80, rfl⟩
abbrev main_call1_call0_cst_2 : Ref sig .tc := ⟨.hbm, 81, rfl⟩
abbrev main_call1_call0_v9 : Ref sig .tc := ⟨.hbm, 82, rfl⟩
abbrev main_call1_call0_v10 : Ref sig .tc := ⟨.hbm, 83, rfl⟩
abbrev main_call1_call0_cst_3 : Ref sig .tc := ⟨.hbm, 84, rfl⟩
abbrev main_call1_call0_v11 : Ref sig .tc := ⟨.hbm, 85, rfl⟩
abbrev main_call1_call0_cst_4 : Ref sig .tc := ⟨.hbm, 86, rfl⟩
abbrev main_call1_call0_call0_v0 : Ref sig .tc := ⟨.hbm, 87, rfl⟩
abbrev main_call1_v0 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_cst_9 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_cst_10 : Ref sig .tc := ⟨.hbm, 97, rfl⟩
abbrev main_v40 : Ref sig .tc := ⟨.hbm, 98, rfl⟩
abbrev main_v41 : Ref sig .tc := ⟨.hbm, 99, rfl⟩
abbrev main_cst_11 : Ref sig .tc := ⟨.hbm, 100, rfl⟩
abbrev main_v42 : Ref sig .tc := ⟨.hbm, 101, rfl⟩
abbrev main_cst_12 : Ref sig .tc := ⟨.hbm, 102, rfl⟩
abbrev main_v43 : Ref sig .tc := ⟨.hbm, 103, rfl⟩
abbrev main_v44 : Ref sig .tc := ⟨.hbm, 104, rfl⟩

abbrev nD : Nat := 1
abbrev τ : Topo := Topo.v7x

variable {F : FTy → Type} [FloatOps F]

class Facts₀ : Prop where
  shapeCasts_S128x24x10000_S3072x10000 : S128x24x10000.ShapeCasts S3072x10000
  shapeCasts_S128x24_S3072 : S128x24.ShapeCasts S3072
  bcast_S3072_S3072x1_0 : S3072.BroadcastsInDim S3072x1 (![0] : Fin 1 → Fin S3072x1.rank)
  bcast_S_S3072x1 : S_.BroadcastsInDim S3072x1 (![] : Fin 0 → Fin S3072x1.rank)
  shapeCasts_S3072x1_S3072x1x1 : S3072x1.ShapeCasts S3072x1x1
  bcast_S_S3072x1x1 : S_.BroadcastsInDim S3072x1x1 (![] : Fin 0 → Fin S3072x1x1.rank)
  bcast_S1_S1x1x1_2 : S1.BroadcastsInDim S1x1x1 (![2] : Fin 1 → Fin S1x1x1.rank)
  bcast_S1x1x1_S3072x1x1_0_1_2 : S1x1x1.BroadcastsInDim S3072x1x1 (![0, 1, 2] : Fin 3 → Fin S3072x1x1.rank)
  reducesTo_S3072x1x1_S3072x1_d2 : S3072x1x1.ReducesTo [2] S3072x1
  h_S_ : 0 < S_.numel
  shapeCasts_S3072x1_S3072 : S3072x1.ShapeCasts S3072
  reducesTo_S3072_S_d0 : S3072.ReducesTo [0] S_
  bcast_S_S3072 : S_.BroadcastsInDim S3072 (![] : Fin 0 → Fin S3072.rank)
  bcast_S_S3072x10000 : S_.BroadcastsInDim S3072x10000 (![] : Fin 0 → Fin S3072x10000.rank)
  reducesTo_S3072x10000_S_d0_1 : S3072x10000.ReducesTo [0, 1] S_
  bcast_S_S1x1 : S_.BroadcastsInDim S1x1 (![] : Fin 0 → Fin S1x1.rank)
  bcast_S1x1_S3072x10000_0_1 : S1x1.BroadcastsInDim S3072x10000 (![0, 1] : Fin 2 → Fin S3072x10000.rank)
  bcast_S3072x1_S3072x10000_0_1 : S3072x1.BroadcastsInDim S3072x10000 (![0, 1] : Fin 2 → Fin S3072x10000.rank)
  gather_S3072x10000_S3072x1x1_S3072x1_n_1_0_0_1_2_11_wf : GatherDims.WF S3072x10000 S3072x1x1 S3072x1 [] [1] [0] [1] [0] 2 ![1, 1]
  gather_S10000x10000_S3072x1_S3072x10000_1_0_n_n_0_1_110000_wf : GatherDims.WF S10000x10000 S3072x1 S3072x10000 [1] [0] [] [0] [] 1 ![1, 10000]

variable [Facts₀]

def gather_S3072x10000_S3072x1x1_S3072x1_n_1_0_0_1_2_11 : GatherDims S3072x10000 S3072x1x1 S3072x1 where
  offsetDims := []
  collapsedSliceDims := [1]
  operandBatchingDims := [0]
  startIndicesBatchingDims := [0]
  startIndexMap := [1]
  indexVectorDim := 2
  sliceSizes := ![1, 1]
  wf := gather_S3072x10000_S3072x1x1_S3072x1_n_1_0_0_1_2_11_wf
def gather_S10000x10000_S3072x1_S3072x10000_1_0_n_n_0_1_110000 : GatherDims S10000x10000 S3072x1 S3072x10000 where
  offsetDims := [1]
  collapsedSliceDims := [0]
  operandBatchingDims := []
  startIndicesBatchingDims := []
  startIndexMap := [0]
  indexVectorDim := 1
  sliceSizes := ![1, 10000]
  wf := gather_S10000x10000_S3072x1_S3072x10000_1_0_n_n_0_1_110000_wf

class Facts : Prop extends Facts₀ where

variable [Facts]
-- ==== Proof.GDefs.lean ====
/-
  The four results in closed form, over the extended reals. The 128 × 24 positions are flattened to
  3072 rows g (position (g / 24, g % 24)); v ranges over the 10000 classes. Per row: the logit
  `flatAt a0 g v`, the target class `tgtAt a2 g`, the mask weight `maskAt a3 g`. The table entry
  `simAt a1 r c` at the row's target class r is thresholded at one half (`clipE`) and smoothed
  (`smoothE`: exp ((s − 1) / τ) where the thresholded entry s is below one, zero elsewhere). Then
    Gml    = −(Σ_g logit at the target · mask) / Σ_g mask,
    Gmean  = (Σ_{g,v} smooth) / N,
    Gstd   = sqrt ((Σ_{g,v} (smooth − Gmean)²) / N),
    Gtotal = c₇ · ((Σ_{g,v} (−logit) · (mask · smooth)) / Σ_{g,v} mask · smooth) + τ · Gml,
  with N = 30720000, τ and c₇ the single-precision words nearest 0.3 and 0.7.
-/
import Idealize.ShloMosaic.PureOps.Ideal
import Idealize.ShloMosaic.Lib.ValueIdx

noncomputable section

open scoped BigOperators

namespace Cert.GSpec

open Idealize.ShloMosaic Idealize.ShloMosaic.ValueIdx

/-! ## Rows and their positions -/

/-- The first coordinate of row `g`'s position. -/
def rowHi (g : Fin 3072) : Fin 128 := ⟨g.val / 24, by have := g.isLt; omega⟩
/-- The second coordinate of row `g`'s position. -/
def rowLo (g : Fin 3072) : Fin 24 := ⟨g.val % 24, Nat.mod_lt _ (by decide)⟩

/-- The logit of row `g` at class `v`. -/
def flatAt (a0 : FVec Ideal ⟨3, ![128, 24, 10000]⟩ .f32) (g : Fin 3072) (v : Fin 10000) : EReal :=
  a0 (ix3 (rowHi g) (rowLo g) v)
/-- The target word of row `g`. -/
def tgtAt (a2 : IVec ⟨2, ![128, 24]⟩ 32) (g : Fin 3072) : BitVec 32 := a2 (ix2 (rowHi g) (rowLo g))
/-- The mask weight of row `g`. -/
def maskAt (a3 : FVec Ideal ⟨2, ![128, 24]⟩ .f32) (g : Fin 3072) : EReal := a3 (ix2 (rowHi g) (rowLo g))
/-- The table's entry at row `r`, column `c`. -/
def simAt (a1 : FVec Ideal ⟨2, ![10000, 10000]⟩ .f32) (r c : Fin 10000) : EReal := a1 (ix2 r c)
/-- The target class of row `g`, when every target word is below the class count. -/
def tgtFin (a2 : IVec ⟨2, ![128, 24]⟩ 32) (hT : ∀ j, (a2 j).toNat < 10000) (g : Fin 3072) : Fin 10000 :=
  ⟨(tgtAt a2 g).toNat, hT _⟩

/-! ## The constants -/

/-- One half. -/
def halfE : EReal := Ideal.ofBits .f32 0x3F000000#32
/-- One. -/
def oneE : EReal := Ideal.ofBits .f32 0x3F800000#32
/-- The temperature τ (the word nearest 0.3). -/
def tauE : EReal := Ideal.ofBits .f32 0x3E99999A#32
/-- The mixing weight c₇ (the word nearest 0.7). -/
def alphaE : EReal := Ideal.ofBits .f32 0x3F333333#32
/-- The count N = 3072 · 10000. -/
def countE : EReal := Ideal.ofBits .f32 0x4BEA6000#32

/-- The count's word denotes 30720000. -/
theorem countE_eq : countE = ((30720000 : ℝ) : EReal) := by
  unfold countE
  simp [Ideal.ofBits, Ideal.ieee]
  rw [← EReal.coe_mul]
  norm_num

/-! ## Thresholding and smoothing one table entry -/

/-- A one-bit condition as the number 0 or 1. -/
def bitE (b : BitVec 1) : EReal := ((b.toNat : ℝ) : EReal)

theorem bitE_one : bitE 1#1 = 1 := by simp [bitE]
theorem bitE_zero : bitE 0#1 = 0 := by simp [bitE]

/-- The entry kept where it is at least one half, zero elsewhere. -/
def clipE (s : EReal) : EReal := s * bitE (Ideal.cmp .oge s halfE)

/-- `exp ((clip s − 1) / τ)` where the thresholded entry is below one, zero elsewhere. -/
def smoothE (s : EReal) : EReal :=
  Ideal.exp (Ideal.div (clipE s - oneE) tauE) * bitE (Ideal.cmp .olt (clipE s) oneE)

theorem clipE_of_le {s : EReal} (h : halfE ≤ s) : clipE s = s := by
  unfold clipE Ideal.cmp
  simp [h, bitE]

theorem clipE_of_lt {s : EReal} (h : s < halfE) : clipE s = 0 := by
  unfold clipE Ideal.cmp
  simp [not_le.mpr h, bitE]

/-- The smoothed weight of row `g` at class `v`. -/
def smoothAt (a1 : FVec Ideal ⟨2, ![10000, 10000]⟩ .f32) (a2 : IVec ⟨2, ![128, 24]⟩ 32)
    (hT : ∀ j, (a2 j).toNat < 10000) (g : Fin 3072) (v : Fin 10000) : EReal :=
  smoothE (simAt a1 (tgtFin a2 hT g) v)

/-! ## The four results -/

-- every result takes all four arrays, read or not

/-- Minus the masked sum of each row's logit at its target, over the mask's sum. -/
def Gml (a0 : FVec Ideal ⟨3, ![128, 24, 10000]⟩ .f32) (a1 : FVec Ideal ⟨2, ![10000, 10000]⟩ .f32)
    (a2 : IVec ⟨2, ![128, 24]⟩ 32) (a3 : FVec Ideal ⟨2, ![128, 24]⟩ .f32) (hT : ∀ j, (a2 j).toNat < 10000) : EReal :=
  Ideal.div (-(∑ g : Fin 3072, flatAt a0 g (tgtFin a2 hT g) * maskAt a3 g)) (∑ g : Fin 3072, maskAt a3 g)

/-- The mean of the smoothed weights. -/
def Gmean (a0 : FVec Ideal ⟨3, ![128, 24, 10000]⟩ .f32) (a1 : FVec Ideal ⟨2, ![10000, 10000]⟩ .f32)
    (a2 : IVec ⟨2, ![128, 24]⟩ 32) (a3 : FVec Ideal ⟨2, ![128, 24]⟩ .f32) (hT : ∀ j, (a2 j).toNat < 10000) : EReal :=
  Ideal.div (∑ g : Fin 3072, ∑ v : Fin 10000, smoothAt a1 a2 hT g v) countE

/-- Their standard deviation: the root of the mean squared deviation from `Gmean`. -/
def Gstd (a0 : FVec Ideal ⟨3, ![128, 24, 10000]⟩ .f32) (a1 : FVec Ideal ⟨2, ![10000, 10000]⟩ .f32)
    (a2 : IVec ⟨2, ![128, 24]⟩ 32) (a3 : FVec Ideal ⟨2, ![128, 24]⟩ .f32) (hT : ∀ j, (a2 j).toNat < 10000) : EReal :=
  Ideal.sqrt (Ideal.div
    (∑ g : Fin 3072, ∑ v : Fin 10000,
      (smoothAt a1 a2 hT g v - Gmean a0 a1 a2 a3 hT) * (smoothAt a1 a2 hT g v - Gmean a0 a1 a2 a3 hT)) countE)

/-- The weighted loss: the negated logits weighted by mask times smoothed weight, over the weights' sum. -/
def Gweighted (a0 : FVec Ideal ⟨3, ![128, 24, 10000]⟩ .f32) (a1 : FVec Ideal ⟨2, ![10000, 10000]⟩ .f32)
    (a2 : IVec ⟨2, ![128, 24]⟩ 32) (a3 : FVec Ideal ⟨2, ![128, 24]⟩ .f32) (hT : ∀ j, (a2 j).toNat < 10000) : EReal :=
  Ideal.div (∑ g : Fin 3072, ∑ v : Fin 10000, -(flatAt a0 g v) * (maskAt a3 g * smoothAt a1 a2 hT g v))
    (∑ g : Fin 3072, ∑ v : Fin 10000, maskAt a3 g * smoothAt a1 a2 hT g v)

/-- c₇ of the weighted loss plus τ of `Gml`. -/
def Gtotal (a0 : FVec Ideal ⟨3, ![128, 24, 10000]⟩ .f32) (a1 : FVec Ideal ⟨2, ![10000, 10000]⟩ .f32)
    (a2 : IVec ⟨2, ![128, 24]⟩ 32) (a3 : FVec Ideal ⟨2, ![128, 24]⟩ .f32) (hT : ∀ j, (a2 j).toNat < 10000) : EReal :=
  alphaE * Gweighted a0 a1 a2 a3 hT + tauE * Gml a0 a1 a2 a3 hT

end Cert.GSpec

end
-- ==== Proof.PreFacts.lean ====
/-
  What the printed precondition `Pre_finite_inputs` says, read back. The printed function is a conjunction of four
  "everywhere" statements, each a reduction by `and` of an array of one-bit words down to a single word:
    |arg0| < +∞ everywhere,  |arg1| < +∞ everywhere,  |arg3| < +∞ everywhere,  0 ≤ arg2 < 10000 (signed) everywhere.
  When the function's value is the word 1, every conjunct is 1, and a reduction by `and` that is 1 met only 1s; so each
  element-wise comparison holds at every index (`conjuncts`, for any float instance). From the integer comparisons a
  32-bit word that is ≥ 0 and < 10000 read signed is < 10000 read unsigned (`target_lt`). At the extended-real instance
  |x| is max x (-x) and the pattern 0x7F800000 denotes ⊤, so max x (-x) < ⊤ excludes x = ⊤ and x = ⊥: x is a real
  (`finite_arg0`, `finite_arg1`, `finite_arg3`).
-/
import proofs.«419560_j5755256177164_3_alg».proof.Pre_finite_inputs
import proofs.«419560_j5755256177164_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal
import Mathlib.Data.EReal.Basic

noncomputable section

namespace Cert.PreFacts

open Idealize.ShloMosaic Cert.Pre_finite_inputs

attribute [local instance] Cert.Pre_finite_inputs.Gen.facts

/-- The rank-0 shape has one index. -/
instance : Subsingleton S_.Idx := ⟨fun a b => funext fun d => d.elim0⟩

/-- The pattern of +∞ as the float instance reads it. -/
abbrev inf (F : FTy → Type) [FloatOps F] : F .f32 := FloatOps.ofBits .f32 0x7F800000#32

/-- The function's value 1 gives every element-wise comparison it folds, at every index. -/
theorem conjuncts {F : FTy → Type} [FloatOps F] (a0 : FVec F S128x24x10000 .f32) (a1 : FVec F S10000x10000 .f32)
    (a2 : IVec S128x24 32) (a3 : FVec F S128x24 .f32)
    (h : Cert.Pre_finite_inputs.fn (F := F) a0 a1 a2 a3 = fun _ => 1#1) :
    (∀ i, FloatOps.cmpf .olt (FloatOps.hostAbsf (a0 i)) (inf F) = 1#1)
    ∧ (∀ i, FloatOps.cmpf .olt (FloatOps.hostAbsf (a1 i)) (inf F) = 1#1)
    ∧ (∀ i, FloatOps.cmpf .olt (FloatOps.hostAbsf (a3 i)) (inf F) = 1#1)
    ∧ (∀ j, IntOp.cmpi .sge (a2 j) 0#32 = 1#1 ∧ IntOp.cmpi .slt (a2 j) 10000#32 = 1#1) := by
  have e := congrFun h ValueIdx.ix0
  dsimp only [Cert.Pre_finite_inputs.fn, Cert.Pre_finite_inputs.fn_part1] at e
  obtain ⟨e013, e2⟩ := IntOp.andi_eq_one.1 e
  obtain ⟨e01, e3⟩ := IntOp.andi_eq_one.1 e013
  obtain ⟨e0, e1⟩ := IntOp.andi_eq_one.1 e01
  refine ⟨fun i => ?_, fun i => ?_, fun i => ?_, fun j => ?_⟩
  · exact Host.reduce_andi_all _ _ _ _ _ e0 i
  · exact Host.reduce_andi_all _ _ _ _ _ e1 i
  · exact Host.reduce_andi_all _ _ _ _ _ e3 i
  · exact IntOp.andi_eq_one.1 (Host.reduce_andi_all _ _ _ _ _ e2 j)

/-- A 32-bit word that is ≥ 0 and < 10000 read signed is < 10000 read unsigned. -/
theorem toNat_lt_of_signed (w : BitVec 32) (h0 : IntOp.cmpi .sge w 0#32 = 1#1) (h1 : IntOp.cmpi .slt w 10000#32 = 1#1) :
    w.toNat < 10000 := by
  have hw : 2 * w.toNat < 2 ^ 32 := (Scalar.nonneg_iff w).1 h0
  have hlt : w.toNat < (10000#32 : BitVec 32).toNat :=
    (StableHlo.Predicate.slt_iff_toNat (a := w) (b := 10000#32) (by omega) (by decide)).1 h1
  simpa using hlt

/-- Every index word of `arg2` is below 10000, at any float instance: only the integer conjunct is used. -/
theorem target_lt {F : FTy → Type} [FloatOps F] (a0 : FVec F Cert.Pre_finite_inputs.S128x24x10000 .f32)
    (a1 : FVec F Cert.Pre_finite_inputs.S10000x10000 .f32) (a2 : IVec Cert.Pre_finite_inputs.S128x24 32)
    (a3 : FVec F Cert.Pre_finite_inputs.S128x24 .f32)
    (h : Cert.Pre_finite_inputs.fn (F := F) a0 a1 a2 a3 = fun _ => 1#1) :
    ∀ j : Cert.Pre_finite_inputs.S128x24.Idx, (a2 j).toNat < 10000 := fun j =>
  let c := (conjuncts a0 a1 a2 a3 h).2.2.2 j
  toNat_lt_of_signed (a2 j) c.1 c.2

/-- An extended real whose absolute value max x (-x) is below the value of the pattern of +∞, which is ⊤, is a real. -/
theorem real_of_abs_lt (x : EReal)
    (hx : FloatOps.cmpf (F := Ideal) (φ := .f32) .olt (FloatOps.hostAbsf (F := Ideal) (φ := .f32) x) (inf Ideal) = 1#1) :
    ∃ r : ℝ, x = ((r : ℝ) : EReal) := by
  have htop : inf Ideal = (⊤ : EReal) := by simp [inf, Ideal.ofBits, Ideal.ieee]
  rw [htop] at hx
  change Ideal.cmp .olt (max x (-x)) ⊤ = 1#1 at hx
  simp only [Ideal.cmp, StableHlo.Predicate.ofBool_eq_one_iff, decide_eq_true_eq] at hx
  induction x using EReal.rec with
  | bot => simp at hx
  | coe r => exact ⟨r, rfl⟩
  | top => simp at hx

variable (a0 : FVec Ideal Cert.Pre_finite_inputs.S128x24x10000 .f32) (a1 : FVec Ideal Cert.Pre_finite_inputs.S10000x10000 .f32)
  (a2 : IVec Cert.Pre_finite_inputs.S128x24 32) (a3 : FVec Ideal Cert.Pre_finite_inputs.S128x24 .f32)

/-- Every entry of `arg0` is a real. -/
theorem finite_arg0 (h : Cert.Pre_finite_inputs.fn (F := Ideal) a0 a1 a2 a3 = fun _ => 1#1) :
    ∀ i, ∃ x : ℝ, a0 i = ((x : ℝ) : EReal) := fun i =>
  real_of_abs_lt (a0 i) ((conjuncts a0 a1 a2 a3 h).1 i)

/-- Every entry of `arg1` is a real. -/
theorem finite_arg1 (h : Cert.Pre_finite_inputs.fn (F := Ideal) a0 a1 a2 a3 = fun _ => 1#1) :
    ∀ i, ∃ x : ℝ, a1 i = ((x : ℝ) : EReal) := fun i =>
  real_of_abs_lt (a1 i) ((conjuncts a0 a1 a2 a3 h).2.1 i)

/-- Every entry of `arg3` is a real. -/
theorem finite_arg3 (h : Cert.Pre_finite_inputs.fn (F := Ideal) a0 a1 a2 a3 = fun _ => 1#1) :
    ∀ i, ∃ x : ℝ, a3 i = ((x : ℝ) : EReal) := fun i =>
  real_of_abs_lt (a3 i) ((conjuncts a0 a1 a2 a3 h).2.2.1 i)

end Cert.PreFacts

end
-- ==== Proof.RefTerms.lean ====
/-
  The reference's values as functions of its four arguments (logits a0 : 128 × 24 × 10000, the
  table a1 : 10000 × 10000, targets a2 : 128 × 24, mask a3 : 128 × 24), over the extended reals,
  with the 128 × 24 positions flattened to 3072 rows. The four results are `refMl` (minus the
  masked sum of each row's logit at its target, over the mask's sum), `refMean` and `refStd` (mean
  and standard deviation of the smoothed weights over all rows and classes) and `refTotal`
  (0.7 of the weighted loss plus 0.3 of `refMl`).
-/
import proofs.«419560_j5755256177164_3_alg».proof.ReferenceIdeal
import proofs.«419560_j5755256177164_3_alg».proof.Proof.Gen.ReferenceIdeal
import Idealize.ShloMosaic.PureOps.Ideal

noncomputable section

namespace Cert.RefSide

open Cert.ReferenceIdeal Cert.ReferenceIdeal.Facts₀ Idealize.ShloMosaic

/-! ## The arguments flattened to 3072 rows -/

/-- The logits as 3072 rows of 10000 classes. -/
def logitsFlat (a0 : FVec Ideal S128x24x10000 .f32) : FVec Ideal S3072x10000 .f32 :=
  shapeCast S3072x10000 a0 shapeCasts_S128x24x10000_S3072x10000

/-- The target class of each row. -/
def targetFlat (a2 : IVec S128x24 32) : IVec S3072 32 :=
  shapeCast S3072 a2 shapeCasts_S128x24_S3072

/-- The mask weight of each row. -/
def maskFlat (a3 : FVec Ideal S128x24 .f32) : FVec Ideal S3072 .f32 :=
  shapeCast S3072 a3 shapeCasts_S128x24_S3072

/-- The targets as a column. -/
def targetCol (a2 : IVec S128x24 32) : IVec S3072x1 32 :=
  broadcastInDim S3072x1 ![0] bcast_S3072_S3072x1_0 (targetFlat a2)

/-! ## Picking each row's logit at its target (take along the class axis) -/

/-- The column of targets with a negative one moved up by the class count. -/
def takeIdx (a2 : IVec S128x24 32) : IVec S3072x1 32 :=
  select (cmpi .slt (targetCol a2) (broadcastInDim S3072x1 ![] bcast_S_S3072x1 (constantI S_ 32 0#32)))
    (addi (targetCol a2) (broadcastInDim S3072x1 ![] bcast_S_S3072x1 (constantI S_ 32 10000#32)))
    (targetCol a2)

/-- The same with a trailing unit axis: the gather's start indices. -/
def takeIdx3 (a2 : IVec S128x24 32) : IVec S3072x1x1 32 :=
  shapeCast S3072x1x1 (takeIdx a2) shapeCasts_S3072x1_S3072x1x1

/-- Per row, whether the start index lies in `[0, 9999]`. -/
def takeInBounds (a2 : IVec S128x24 32) : IVec S3072x1 1 :=
  Host.reduce IntOp.andi
    (andi (cmpi .sge (takeIdx3 a2) (broadcastInDim S3072x1x1 ![] bcast_S_S3072x1x1 (constantI S_ 32 0#32)))
      (cmpi .sle (takeIdx3 a2)
        (broadcastInDim S3072x1x1 ![0, 1, 2] bcast_S1x1x1_S3072x1x1_0_1_2
          (broadcastInDim S1x1x1 ![2] bcast_S1_S1x1x1_2 (constantI S1 32 9999#32)))))
    (constantI S_ 1 1#1) reducesTo_S3072x1x1_S3072x1_d2 h_S_

/-- Per row, the logit gathered at the start index. -/
def takeGathered (a0 : FVec Ideal S128x24x10000 .f32) (a2 : IVec S128x24 32) : FVec Ideal S3072x1 .f32 :=
  Host.gather gather_S3072x10000_S3072x1x1_S3072x1_n_1_0_0_1_2_11 (logitsFlat a0) (takeIdx3 a2)

/-- Per row, the gathered logit where the index is in bounds and the fill value elsewhere. -/
def picked (a0 : FVec Ideal S128x24x10000 .f32) (a2 : IVec S128x24 32) : FVec Ideal S3072x1 .f32 :=
  select (takeInBounds a2) (takeGathered a0 a2)
    (broadcastInDim S3072x1 ![] bcast_S_S3072x1 (constant S_ .f32 0x7FC00000#32))

/-- The picked logits as a vector over the rows. -/
def pickedFlat (a0 : FVec Ideal S128x24x10000 .f32) (a2 : IVec S128x24 32) : FVec Ideal S3072 .f32 :=
  shapeCast S3072 (picked a0 a2) shapeCasts_S3072x1_S3072

/-! ## The masked likelihood term -/

/-- The sum over rows of picked logit times mask. -/
def pickedMaskedSum (a0 : FVec Ideal S128x24x10000 .f32) (a2 : IVec S128x24 32) (a3 : FVec Ideal S128x24 .f32) :
    FVec Ideal S_ .f32 :=
  Host.reduceAdd (mulf (pickedFlat a0 a2) (maskFlat a3)) (constant S_ .f32 0x00000000#32) reducesTo_S3072_S_d0 h_S_

/-- The sum of the mask. -/
def maskSum (a3 : FVec Ideal S128x24 .f32) : FVec Ideal S_ .f32 :=
  Host.reduceAdd (maskFlat a3) (constant S_ .f32 0x00000000#32) reducesTo_S3072_S_d0 h_S_

/-- Result 0: minus the masked sum of picked logits, over the mask's sum. -/
def refMl (a0 : FVec Ideal S128x24x10000 .f32) (a1 : FVec Ideal S10000x10000 .f32) (a2 : IVec S128x24 32)
    (a3 : FVec Ideal S128x24 .f32) : FVec Ideal S_ .f32 :=
  Host.divf (Host.negf (pickedMaskedSum a0 a2 a3)) (maskSum a3)

/-! ## The smoothed weights: a row of the table per target, thresholded and exponentiated -/

/-- The targets with a negative one moved up by the class count: the table's row of each row. -/
def rowIdx (a2 : IVec S128x24 32) : IVec S3072 32 :=
  select (cmpi .slt (targetFlat a2) (broadcastInDim S3072 ![] bcast_S_S3072 (constantI S_ 32 0#32)))
    (addi (targetFlat a2) (broadcastInDim S3072 ![] bcast_S_S3072 (constantI S_ 32 10000#32)))
    (targetFlat a2)

/-- The table's rows gathered at the targets. -/
def gatheredRows (a1 : FVec Ideal S10000x10000 .f32) (a2 : IVec S128x24 32) : FVec Ideal S3072x10000 .f32 :=
  Host.gather gather_S10000x10000_S3072x1_S3072x10000_1_0_n_n_0_1_110000 a1
    (broadcastInDim S3072x1 ![0] bcast_S3072_S3072x1_0 (rowIdx a2))

/-- The gathered rows with every entry below one half set to zero. -/
def thresholded (a1 : FVec Ideal S10000x10000 .f32) (a2 : IVec S128x24 32) : FVec Ideal S3072x10000 .f32 :=
  mulf (gatheredRows a1 a2)
    (uitofp .f32 (cmpf .oge (gatheredRows a1 a2)
      (broadcastInDim S3072x10000 ![] bcast_S_S3072x10000 (constant S_ .f32 0x3F000000#32))))

/-- `exp ((t - 1) / 0.3)` of the thresholded entries. -/
def expScaled (a1 : FVec Ideal S10000x10000 .f32) (a2 : IVec S128x24 32) : FVec Ideal S3072x10000 .f32 :=
  Host.exp (Host.divf
    (subf (thresholded a1 a2) (broadcastInDim S3072x10000 ![] bcast_S_S3072x10000 (constant S_ .f32 0x3F800000#32)))
    (broadcastInDim S3072x10000 ![] bcast_S_S3072x10000 (constant S_ .f32 0x3E99999A#32)))

/-- The smoothed weights: that exponential where the thresholded entry is below one, zero elsewhere. -/
def smooth (a1 : FVec Ideal S10000x10000 .f32) (a2 : IVec S128x24 32) : FVec Ideal S3072x10000 .f32 :=
  mulf (expScaled a1 a2)
    (uitofp .f32 (cmpf .olt (thresholded a1 a2)
      (broadcastInDim S3072x10000 ![] bcast_S_S3072x10000 (constant S_ .f32 0x3F800000#32))))

/-- The sum of all smoothed weights. -/
def smoothSum (a1 : FVec Ideal S10000x10000 .f32) (a2 : IVec S128x24 32) : FVec Ideal S_ .f32 :=
  Host.reduceAdd (smooth a1 a2) (constant S_ .f32 0x00000000#32) reducesTo_S3072x10000_S_d0_1 h_S_

/-- Result 2: the mean of the smoothed weights (their sum over 3072 · 10000). -/
def refMean (a0 : FVec Ideal S128x24x10000 .f32) (a1 : FVec Ideal S10000x10000 .f32) (a2 : IVec S128x24 32)
    (a3 : FVec Ideal S128x24 .f32) : FVec Ideal S_ .f32 :=
  Host.divf (smoothSum a1 a2) (constant S_ .f32 0x4BEA6000#32)

/-! ## Their standard deviation -/

/-- The mean of the smoothed weights, broadcast over rows and classes. -/
def smoothMeanBc (a1 : FVec Ideal S10000x10000 .f32) (a2 : IVec S128x24 32) : FVec Ideal S3072x10000 .f32 :=
  broadcastInDim S3072x10000 ![0, 1] bcast_S1x1_S3072x10000_0_1
    (Host.divf (broadcastInDim S1x1 ![] bcast_S_S1x1 (smoothSum a1 a2))
      (broadcastInDim S1x1 ![] bcast_S_S1x1 (constant S_ .f32 0x4BEA6000#32)))

/-- The smoothed weights minus their mean. -/
def centered (a1 : FVec Ideal S10000x10000 .f32) (a2 : IVec S128x24 32) : FVec Ideal S3072x10000 .f32 :=
  subf (smooth a1 a2) (smoothMeanBc a1 a2)

/-- The sum of the squared deviations. -/
def sqDevSum (a1 : FVec Ideal S10000x10000 .f32) (a2 : IVec S128x24 32) : FVec Ideal S_ .f32 :=
  Host.reduceAdd (mulf (centered a1 a2) (centered a1 a2)) (constant S_ .f32 0x00000000#32)
    reducesTo_S3072x10000_S_d0_1 h_S_

/-- The variance's divisor: the count 3072 · 10000 minus the correction (zero). -/
def varDenom : FVec Ideal S_ .f32 :=
  subf (constant S_ .f32 0x4BEA6000#32) (sitofp .f32 (constantI S_ 32 0#32))

/-- The variance: the squared deviations' sum over the divisor where that is positive, the fill value otherwise. -/
def variance (a1 : FVec Ideal S10000x10000 .f32) (a2 : IVec S128x24 32) : FVec Ideal S_ .f32 :=
  select (cmpf .ogt varDenom (constant S_ .f32 0x00000000#32))
    (Host.divf (sqDevSum a1 a2) varDenom)
    (id (constant S_ .f32 0x7FC00000#32))

/-- Result 3: the standard deviation of the smoothed weights. -/
def refStd (a0 : FVec Ideal S128x24x10000 .f32) (a1 : FVec Ideal S10000x10000 .f32) (a2 : IVec S128x24 32)
    (a3 : FVec Ideal S128x24 .f32) : FVec Ideal S_ .f32 :=
  Host.sqrt (variance a1 a2)

/-! ## The weighted loss and the total -/

/-- The weights: each row's smoothed weights times the row's mask. -/
def weights (a1 : FVec Ideal S10000x10000 .f32) (a2 : IVec S128x24 32) (a3 : FVec Ideal S128x24 .f32) :
    FVec Ideal S3072x10000 .f32 :=
  mulf
    (broadcastInDim S3072x10000 ![0, 1] bcast_S3072x1_S3072x10000_0_1
      (broadcastInDim S3072x1 ![0] bcast_S3072_S3072x1_0 (maskFlat a3)))
    (smooth a1 a2)

/-- The sum of the weights. -/
def weightSum (a1 : FVec Ideal S10000x10000 .f32) (a2 : IVec S128x24 32) (a3 : FVec Ideal S128x24 .f32) :
    FVec Ideal S_ .f32 :=
  Host.reduceAdd (weights a1 a2 a3) (constant S_ .f32 0x00000000#32) reducesTo_S3072x10000_S_d0_1 h_S_

/-- The sum of the negated logits times the weights. -/
def weightedNegSum (a0 : FVec Ideal S128x24x10000 .f32) (a1 : FVec Ideal S10000x10000 .f32) (a2 : IVec S128x24 32)
    (a3 : FVec Ideal S128x24 .f32) : FVec Ideal S_ .f32 :=
  Host.reduceAdd (mulf (Host.negf (logitsFlat a0)) (weights a1 a2 a3)) (constant S_ .f32 0x00000000#32)
    reducesTo_S3072x10000_S_d0_1 h_S_

/-- The weighted loss: that sum over the weights' sum. -/
def weightedLoss (a0 : FVec Ideal S128x24x10000 .f32) (a1 : FVec Ideal S10000x10000 .f32) (a2 : IVec S128x24 32)
    (a3 : FVec Ideal S128x24 .f32) : FVec Ideal S_ .f32 :=
  Host.divf (weightedNegSum a0 a1 a2 a3) (weightSum a1 a2 a3)

/-- Result 1: 0.7 of the weighted loss plus 0.3 of result 0. -/
def refTotal (a0 : FVec Ideal S128x24x10000 .f32) (a1 : FVec Ideal S10000x10000 .f32) (a2 : IVec S128x24 32)
    (a3 : FVec Ideal S128x24 .f32) : FVec Ideal S_ .f32 :=
  addf (mulf (constant S_ .f32 0x3F333333#32) (weightedLoss a0 a1 a2 a3))
    (mulf (constant S_ .f32 0x3E99999A#32) (refMl a0 a1 a2 a3))

end Cert.RefSide

end
-- ==== Proof.RefRun.lean ====
/-
  The reference's run: its @main is one straight line of 101 host operations (the four functions'
  bodies standing in place of their calls), so from any memory with zero counters every weakly
  fair execution terminates with each buffer at the fold of the operations' results over the launch
  contents; read at the four result buffers the fold is `refMl`, `refTotal`, `refMean`, `refStd`
  of the arguments, and at the argument buffers it is the arguments themselves.
-/
import proofs.«419560_j5755256177164_3_alg».proof.Proof.RefTerms
import Idealize.ShloMosaic.Lib.StableHlo.Run
import Idealize.ShloMosaic.Lib.Pipeline.Regions

noncomputable section

namespace Cert.RefSide

open Cert.ReferenceIdeal Cert.ReferenceIdeal.Facts₀ Idealize.ShloMosaic Idealize.ShloMosaic.TcCoe Idealize.SL.Sem Idealize.ShloMosaic.StableHlo

section
variable {F : FTy → Type} [FloatOps F]

/-- The reference's operations in order, the functions' bodies in place of their calls. -/
abbrev ops : List (HloOp τ sig (Elt F)) :=
  [ StableHlo.reshape main_arg0 main_v0 rfl shapeCasts_S128x24x10000_S3072x10000,
    StableHlo.reshape main_arg2 main_v1 rfl shapeCasts_S128x24_S3072,
    StableHlo.reshape main_arg3 main_v2 rfl shapeCasts_S128x24_S3072,
    StableHlo.unary main_v1 main_v3 (broadcastInDim S3072x1 ![0] bcast_S3072_S3072x1_0 : (⟨S3072, .i32⟩ : BufTy).Contents (Elt F) → (⟨S3072x1, .i32⟩ : BufTy).Contents (Elt F)),
    StableHlo.TRef.nullary main_call0.c (constantI S_ 32 0#32),
    StableHlo.TRef.unary main_call0.c main_call0.v0 (broadcastInDim S3072x1 ![] bcast_S_S3072x1),
    StableHlo.TRef.binary (StableHlo.TRef.of main_v3 : StableHlo.TRef sig ⟨S3072x1, .i32⟩) main_call0.v0 main_call0.v1 (cmpi .slt),
    StableHlo.TRef.nullary main_call0.c_0 (constantI S_ 32 10000#32),
    StableHlo.TRef.unary main_call0.c_0 main_call0.v2 (broadcastInDim S3072x1 ![] bcast_S_S3072x1),
    StableHlo.TRef.binary (StableHlo.TRef.of main_v3 : StableHlo.TRef sig ⟨S3072x1, .i32⟩) main_call0.v2 main_call0.v3 addi,
    StableHlo.TRef.ternary main_call0.v1 main_call0.v3 (StableHlo.TRef.of main_v3 : StableHlo.TRef sig ⟨S3072x1, .i32⟩) main_call0.v4 select,
    StableHlo.TRef.reshape main_call0.v4 main_call0.v5 rfl shapeCasts_S3072x1_S3072x1x1,
    StableHlo.TRef.nullary main_call0.c_1 (constantI S1 32 9999#32),
    StableHlo.TRef.nullary main_call0.c_2 (constantI S_ 32 0#32),
    StableHlo.TRef.unary main_call0.c_2 main_call0.v6 (broadcastInDim S3072x1x1 ![] bcast_S_S3072x1x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S3072x1x1 ![0, 1, 2] bcast_S1x1x1_S3072x1x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S3072x1x1_S3072x1_d2 h_S_),
    StableHlo.TRef.binary (StableHlo.TRef.of main_v0 : StableHlo.TRef sig ⟨S3072x10000, .f32⟩) main_call0.v5 main_call0.v13 (fun x i => Host.gather gather_S3072x10000_S3072x1x1_S3072x1_n_1_0_0_1_2_11 x i),
    StableHlo.TRef.nullary main_call0.cst (constant S_ .f32 0x7FC00000#32),
    StableHlo.TRef.unary main_call0.cst main_call0.v14 (broadcastInDim S3072x1 ![] bcast_S_S3072x1),
    StableHlo.TRef.ternary main_call0.v12 main_call0.v13 main_call0.v14 main_call0.v15 select,
    StableHlo.reshape main_v4 main_v5 rfl shapeCasts_S3072x1_S3072,
    StableHlo.binary main_v5 main_v2 main_v6 (mulf : (⟨S3072, .f32⟩ : BufTy).Contents (Elt F) → (⟨S3072, .f32⟩ : BufTy).Contents (Elt F) → (⟨S3072, .f32⟩ : BufTy).Contents (Elt F)),
    StableHlo.nullary main_cst (constant S_ .f32 0x00000000#32),
    StableHlo.binary main_v6 main_cst main_v7 ((fun x v => Host.reduceAdd x v reducesTo_S3072_S_d0 h_S_) : (⟨S3072, .f32⟩ : BufTy).Contents (Elt F) → (⟨S_, .f32⟩ : BufTy).Contents (Elt F) → (⟨S_, .f32⟩ : BufTy).Contents (Elt F)),
    StableHlo.unary main_v7 main_v8 (Host.negf : (⟨S_, .f32⟩ : BufTy).Contents (Elt F) → (⟨S_, .f32⟩ : BufTy).Contents (Elt F)),
    StableHlo.nullary main_cst_0 (constant S_ .f32 0x00000000#32),
    StableHlo.binary main_v2 main_cst_0 main_v9 ((fun x v => Host.reduceAdd x v reducesTo_S3072_S_d0 h_S_) : (⟨S3072, .f32⟩ : BufTy).Contents (Elt F) → (⟨S_, .f32⟩ : BufTy).Contents (Elt F) → (⟨S_, .f32⟩ : BufTy).Contents (Elt F)),
    StableHlo.binary main_v8 main_v9 main_v10 (Host.divf : (⟨S_, .f32⟩ : BufTy).Contents (Elt F) → (⟨S_, .f32⟩ : BufTy).Contents (Elt F) → (⟨S_, .f32⟩ : BufTy).Contents (Elt F)),
    StableHlo.nullary main_c (constantI S_ 32 0#32),
    StableHlo.unary main_c main_v11 (broadcastInDim S3072 ![] bcast_S_S3072 : (⟨S_, .i32⟩ : BufTy).Contents (Elt F) → (⟨S3072, .i32⟩ : BufTy).Contents (Elt F)),
    StableHlo.binary main_v1 main_v11 main_v12 (cmpi .slt : (⟨S3072, .i32⟩ : BufTy).Contents (Elt F) → (⟨S3072, .i32⟩ : BufTy).Contents (Elt F) → (⟨S3072, .i1⟩ : BufTy).Contents (Elt F)),
    StableHlo.nullary main_c_1 (constantI S_ 32 10000#32),
    StableHlo.unary main_c_1 main_v13 (broadcastInDim S3072 ![] bcast_S_S3072 : (⟨S_, .i32⟩ : BufTy).Contents (Elt F) → (⟨S3072, .i32⟩ : BufTy).Contents (Elt F)),
    StableHlo.binary main_v1 main_v13 main_v14 (addi : (⟨S3072, .i32⟩ : BufTy).Contents (Elt F) → (⟨S3072, .i32⟩ : BufTy).Contents (Elt F) → (⟨S3072, .i32⟩ : BufTy).Contents (Elt F)),
    StableHlo.ternary main_v12 main_v14 main_v1 main_v15 (select : (⟨S3072, .i1⟩ : BufTy).Contents (Elt F) → (⟨S3072, .i32⟩ : BufTy).Contents (Elt F) → (⟨S3072, .i32⟩ : BufTy).Contents (Elt F) → (⟨S3072, .i32⟩ : BufTy).Contents (Elt F)),
    StableHlo.unary main_v15 main_v16 (broadcastInDim S3072x1 ![0] bcast_S3072_S3072x1_0 : (⟨S3072, .i32⟩ : BufTy).Contents (Elt F) → (⟨S3072x1, .i32⟩ : BufTy).Contents (Elt F)),
    StableHlo.binary main_arg1 main_v16 main_v17 ((fun x i => Host.gather gather_S10000x10000_S3072x1_S3072x10000_1_0_n_n_0_1_110000 x i) : (⟨S10000x10000, .f32⟩ : BufTy).Contents (Elt F) → (⟨S3072x1, .i32⟩ : BufTy).Contents (Elt F) → (⟨S3072x10000, .f32⟩ : BufTy).Contents (Elt F)),
    StableHlo.nullary main_cst_2 (constant S_ .f32 0x3F000000#32),
    StableHlo.unary main_cst_2 main_v18 (broadcastInDim S3072x10000 ![] bcast_S_S3072x10000 : (⟨S_, .f32⟩ : BufTy).Contents (Elt F) → (⟨S3072x10000, .f32⟩ : BufTy).Contents (Elt F)),
    StableHlo.binary main_v17 main_v18 main_v19 (cmpf .oge : (⟨S3072x10000, .f32⟩ : BufTy).Contents (Elt F) → (⟨S3072x10000, .f32⟩ : BufTy).Contents (Elt F) → (⟨S3072x10000, .i1⟩ : BufTy).Contents (Elt F)),
    StableHlo.unary main_v19 main_v20 (uitofp .f32 : (⟨S3072x10000, .i1⟩ : BufTy).Contents (Elt F) → (⟨S3072x10000, .f32⟩ : BufTy).Contents (Elt F)),
    StableHlo.binary main_v17 main_v20 main_v21 (mulf : (⟨S3072x10000, .f32⟩ : BufTy).Contents (Elt F) → (⟨S3072x10000, .f32⟩ : BufTy).Contents (Elt F) → (⟨S3072x10000, .f32⟩ : BufTy).Contents (Elt F)),
    StableHlo.nullary main_cst_3 (constant S_ .f32 0x3F800000#32),
    StableHlo.unary main_cst_3 main_v22 (broadcastInDim S3072x10000 ![] bcast_S_S3072x10000 : (⟨S_, .f32⟩ : BufTy).Contents (Elt F) → (⟨S3072x10000, .f32⟩ : BufTy).Contents (Elt F)),
    StableHlo.binary main_v21 main_v22 main_v23 (subf : (⟨S3072x10000, .f32⟩ : BufTy).Contents (Elt F) → (⟨S3072x10000, .f32⟩ : BufTy).Contents (Elt F) → (⟨S3072x10000, .f32⟩ : BufTy).Contents (Elt F)),
    StableHlo.nullary main_cst_4 (constant S_ .f32 0x3E99999A#32),
    StableHlo.unary main_cst_4 main_v24 (broadcastInDim S3072x10000 ![] bcast_S_S3072x10000 : (⟨S_, .f32⟩ : BufTy).Contents (Elt F) → (⟨S3072x10000, .f32⟩ : BufTy).Contents (Elt F)),
    StableHlo.binary main_v23 main_v24 main_v25 (Host.divf : (⟨S3072x10000, .f32⟩ : BufTy).Contents (Elt F) → (⟨S3072x10000, .f32⟩ : BufTy).Contents (Elt F) → (⟨S3072x10000, .f32⟩ : BufTy).Contents (Elt F)),
    StableHlo.unary main_v25 main_v26 (Host.exp : (⟨S3072x10000, .f32⟩ : BufTy).Contents (Elt F) → (⟨S3072x10000, .f32⟩ : BufTy).Contents (Elt F)),
    StableHlo.nullary main_cst_5 (constant S_ .f32 0x3F800000#32),
    StableHlo.unary main_cst_5 main_v27 (broadcastInDim S3072x10000 ![] bcast_S_S3072x10000 : (⟨S_, .f32⟩ : BufTy).Contents (Elt F) → (⟨S3072x10000, .f32⟩ : BufTy).Contents (Elt F)),
    StableHlo.binary main_v21 main_v27 main_v28 (cmpf .olt : (⟨S3072x10000, .f32⟩ : BufTy).Contents (Elt F) → (⟨S3072x10000, .f32⟩ : BufTy).Contents (Elt F) → (⟨S3072x10000, .i1⟩ : BufTy).Contents (Elt F)),
    StableHlo.unary main_v28 main_v29 (uitofp .f32 : (⟨S3072x10000, .i1⟩ : BufTy).Contents (Elt F) → (⟨S3072x10000, .f32⟩ : BufTy).Contents (Elt F)),
    StableHlo.binary main_v26 main_v29 main_v30 (mulf : (⟨S3072x10000, .f32⟩ : BufTy).Contents (Elt F) → (⟨S3072x10000, .f32⟩ : BufTy).Contents (Elt F) → (⟨S3072x10000, .f32⟩ : BufTy).Contents (Elt F)),
    StableHlo.nullary main_cst_6 (constant S_ .f32 0x00000000#32),
    StableHlo.binary main_v30 main_cst_6 main_v31 ((fun x v => Host.reduceAdd x v reducesTo_S3072x10000_S_d0_1 h_S_) : (⟨S3072x10000, .f32⟩ : BufTy).Contents (Elt F) → (⟨S_, .f32⟩ : BufTy).Contents (Elt F) → (⟨S_, .f32⟩ : BufTy).Contents (Elt F)),
    StableHlo.nullary main_cst_7 (constant S_ .f32 0x4BEA6000#32),
    StableHlo.binary main_v31 main_cst_7 main_v32 (Host.divf : (⟨S_, .f32⟩ : BufTy).Contents (Elt F) → (⟨S_, .f32⟩ : BufTy).Contents (Elt F) → (⟨S_, .f32⟩ : BufTy).Contents (Elt F)),
    StableHlo.nullary main_c_8 (constantI S_ 32 0#32),
    StableHlo.TRef.nullary main_call1.call0.cst (constant S_ .f32 0x00000000#32),
    StableHlo.TRef.binary (StableHlo.TRef.of main_v30 : StableHlo.TRef sig ⟨S3072x10000, .f32⟩) main_call1.call0.cst main_call1.call0.v0 (fun x v => Host.reduceAdd x v reducesTo_S3072x10000_S_d0_1 h_S_),
    StableHlo.TRef.unary main_call1.call0.v0 main_call1.call0.v1 (broadcastInDim S1x1 ![] bcast_S_S1x1),
    StableHlo.TRef.nullary main_call1.call0.cst_0 (constant S_ .f32 0x4BEA6000#32),
    StableHlo.TRef.unary main_call1.call0.cst_0 main_call1.call0.v2 (broadcastInDim S1x1 ![] bcast_S_S1x1),
    StableHlo.TRef.binary main_call1.call0.v1 main_call1.call0.v2 main_call1.call0.v3 Host.divf,
    StableHlo.TRef.unary main_call1.call0.v3 main_call1.call0.v4 (broadcastInDim S3072x10000 ![0, 1] bcast_S1x1_S3072x10000_0_1),
    StableHlo.TRef.binary (StableHlo.TRef.of main_v30 : StableHlo.TRef sig ⟨S3072x10000, .f32⟩) main_call1.call0.v4 main_call1.call0.v5 subf,
    StableHlo.TRef.binary main_call1.call0.v5 main_call1.call0.v5 main_call1.call0.v6 mulf,
    StableHlo.TRef.unary (StableHlo.TRef.of main_c_8 : StableHlo.TRef sig ⟨S_, .i32⟩) main_call1.call0.v7 (sitofp .f32),
    StableHlo.TRef.nullary main_call1.call0.cst_1 (constant S_ .f32 0x4BEA6000#32),
    StableHlo.TRef.binary main_call1.call0.cst_1 main_call1.call0.v7 main_call1.call0.v8 subf,
    StableHlo.TRef.nullary main_call1.call0.cst_2 (constant S_ .f32 0x00000000#32),
    StableHlo.TRef.binary main_call1.call0.v6 main_call1.call0.cst_2 main_call1.call0.v9 (fun x v => Host.reduceAdd x v reducesTo_S3072x10000_S_d0_1 h_S_),
    StableHlo.TRef.binary main_call1.call0.v9 main_call1.call0.v8 main_call1.call0.v10 Host.divf,
    StableHlo.TRef.nullary main_call1.call0.cst_3 (constant S_ .f32 0x00000000#32),
    StableHlo.TRef.binary main_call1.call0.v8 main_call1.call0.cst_3 main_call1.call0.v11 (cmpf .ogt),
    StableHlo.TRef.nullary main_call1.call0.cst_4 (constant S_ .f32 0x7FC00000#32),
    StableHlo.TRef.unary main_call1.call0.cst_4 main_call1.call0.call0.v0 id,
    StableHlo.TRef.ternary main_call1.call0.v11 main_call1.call0.v10 main_call1.call0.call0.v0 main_call1.call0.call0.v1 select,
    StableHlo.TRef.unary main_call1.call0.call0.v1 main_call1.v1 Host.sqrt,
    StableHlo.unary main_v2 main_v34 (broadcastInDim S3072x1 ![0] bcast_S3072_S3072x1_0 : (⟨S3072, .f32⟩ : BufTy).Contents (Elt F) → (⟨S3072x1, .f32⟩ : BufTy).Contents (Elt F)),
    StableHlo.unary main_v34 main_v35 (broadcastInDim S3072x10000 ![0, 1] bcast_S3072x1_S3072x10000_0_1 : (⟨S3072x1, .f32⟩ : BufTy).Contents (Elt F) → (⟨S3072x10000, .f32⟩ : BufTy).Contents (Elt F)),
    StableHlo.binary main_v35 main_v30 main_v36 (mulf : (⟨S3072x10000, .f32⟩ : BufTy).Contents (Elt F) → (⟨S3072x10000, .f32⟩ : BufTy).Contents (Elt F) → (⟨S3072x10000, .f32⟩ : BufTy).Contents (Elt F)),
    StableHlo.nullary main_cst_9 (constant S_ .f32 0x00000000#32),
    StableHlo.binary main_v36 main_cst_9 main_v37 ((fun x v => Host.reduceAdd x v reducesTo_S3072x10000_S_d0_1 h_S_) : (⟨S3072x10000, .f32⟩ : BufTy).Contents (Elt F) → (⟨S_, .f32⟩ : BufTy).Contents (Elt F) → (⟨S_, .f32⟩ : BufTy).Contents (Elt F)),
    StableHlo.unary main_v0 main_v38 (Host.negf : (⟨S3072x10000, .f32⟩ : BufTy).Contents (Elt F) → (⟨S3072x10000, .f32⟩ : BufTy).Contents (Elt F)),
    StableHlo.binary main_v38 main_v36 main_v39 (mulf : (⟨S3072x10000, .f32⟩ : BufTy).Contents (Elt F) → (⟨S3072x10000, .f32⟩ : BufTy).Contents (Elt F) → (⟨S3072x10000, .f32⟩ : BufTy).Contents (Elt F)),
    StableHlo.nullary main_cst_10 (constant S_ .f32 0x00000000#32),
    StableHlo.binary main_v39 main_cst_10 main_v40 ((fun x v => Host.reduceAdd x v reducesTo_S3072x10000_S_d0_1 h_S_) : (⟨S3072x10000, .f32⟩ : BufTy).Contents (Elt F) → (⟨S_, .f32⟩ : BufTy).Contents (Elt F) → (⟨S_, .f32⟩ : BufTy).Contents (Elt F)),
    StableHlo.binary main_v40 main_v37 main_v41 (Host.divf : (⟨S_, .f32⟩ : BufTy).Contents (Elt F) → (⟨S_, .f32⟩ : BufTy).Contents (Elt F) → (⟨S_, .f32⟩ : BufTy).Contents (Elt F)),
    StableHlo.nullary main_cst_11 (constant S_ .f32 0x3F333333#32),
    StableHlo.binary main_cst_11 main_v41 main_v42 (mulf : (⟨S_, .f32⟩ : BufTy).Contents (Elt F) → (⟨S_, .f32⟩ : BufTy).Contents (Elt F) → (⟨S_, .f32⟩ : BufTy).Contents (Elt F)),
    StableHlo.nullary main_cst_12 (constant S_ .f32 0x3E99999A#32),
    StableHlo.binary main_cst_12 main_v10 main_v43 (mulf : (⟨S_, .f32⟩ : BufTy).Contents (Elt F) → (⟨S_, .f32⟩ : BufTy).Contents (Elt F) → (⟨S_, .f32⟩ : BufTy).Contents (Elt F)),
    StableHlo.binary main_v42 main_v43 main_v44 (addf : (⟨S_, .f32⟩ : BufTy).Contents (Elt F) → (⟨S_, .f32⟩ : BufTy).Contents (Elt F) → (⟨S_, .f32⟩ : BufTy).Contents (Elt F)) ]

theorem main_eq (c : Dev nD) : main (F := F) c = seq ops := by chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., reshape_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub .., nullary_bufs_sub .., binary_bufs_sub .., unary_bufs_sub .., nullary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., nullary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., unary_bufs_sub .., unary_bufs_sub .., binary_bufs_sub .., nullary_bufs_sub .., binary_bufs_sub .., unary_bufs_sub .., binary_bufs_sub .., nullary_bufs_sub .., binary_bufs_sub .., binary_bufs_sub .., nullary_bufs_sub .., binary_bufs_sub .., nullary_bufs_sub .., binary_bufs_sub .., binary_bufs_sub ..⟩

theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
end

set_option maxHeartbeats 2000000 in
theorem after_ml (V : Valuation τ sig (Elt Ideal)) :
    after ops V (main_v10 : DevRef τ sig) = refMl (V (main_arg0 : DevRef τ sig)) (V (main_arg1 : DevRef τ sig)) (V (main_arg2 : DevRef τ sig)) (V (main_arg3 : DevRef τ sig)) := by
  after_results_simp
  simp only [TRef.ofBuf, TRef.toBuf, cast_eq]
  rfl

set_option maxHeartbeats 2000000 in
theorem after_total (V : Valuation τ sig (Elt Ideal)) :
    after ops V (main_v44 : DevRef τ sig) = refTotal (V (main_arg0 : DevRef τ sig)) (V (main_arg1 : DevRef τ sig)) (V (main_arg2 : DevRef τ sig)) (V (main_arg3 : DevRef τ sig)) := by
  after_results_simp
  simp only [TRef.ofBuf, TRef.toBuf, cast_eq]
  rfl

set_option maxHeartbeats 2000000 in
theorem after_mean (V : Valuation τ sig (Elt Ideal)) :
    after ops V (main_v32 : DevRef τ sig) = refMean (V (main_arg0 : DevRef τ sig)) (V (main_arg1 : DevRef τ sig)) (V (main_arg2 : DevRef τ sig)) (V (main_arg3 : DevRef τ sig)) := by
  after_results_simp
  rfl

set_option maxHeartbeats 2000000 in
theorem after_std (V : Valuation τ sig (Elt Ideal)) :
    after ops V (main_v33 : DevRef τ sig) = refStd (V (main_arg0 : DevRef τ sig)) (V (main_arg1 : DevRef τ sig)) (V (main_arg2 : DevRef τ sig)) (V (main_arg3 : DevRef τ sig)) := by
  after_results_simp
  simp only [TRef.ofBuf, TRef.toBuf, cast_eq]
  rfl

theorem after_arg0 (V : Valuation τ sig (Elt Ideal)) :
    after ops V (main_arg0 : DevRef τ sig) = V (main_arg0 : DevRef τ sig) := by
  after_results_simp

theorem after_arg1 (V : Valuation τ sig (Elt Ideal)) :
    after ops V (main_arg1 : DevRef τ sig) = V (main_arg1 : DevRef τ sig) := by
  after_results_simp

theorem after_arg2 (V : Valuation τ sig (Elt Ideal)) :
    after ops V (main_arg2 : DevRef τ sig) = V (main_arg2 : DevRef τ sig) := by
  after_results_simp

theorem after_arg3 (V : Valuation τ sig (Elt Ideal)) :
    after ops V (main_arg3 : DevRef τ sig) = V (main_arg3 : DevRef τ sig) := by
  after_results_simp

/-- From any memory with zero counters, every weakly fair execution of the reference terminates, with its four
    results at `refMl`, `refTotal`, `refMean`, `refStd` of the arguments' launch contents and the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread nD τ).loc main_v10) = refMl (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v44) = refTotal (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v32) = refMean (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v33) = refStd (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono
    (fun _ h c => ⟨(h c main_v10).trans (after_ml _), (h c main_v44).trans (after_total _),
      (h c main_v32).trans (after_mean _), (h c main_v33).trans (after_std _),
      (h c main_arg0).trans (after_arg0 _), (h c main_arg1).trans (after_arg1 _),
      (h c main_arg2).trans (after_arg2 _), (h c main_arg3).trans (after_arg3 _)⟩)
    (run_seq scopedRefs_eq scopedSems_eq defs main (fun _ => ops) main_eq (fun _ => ops_sub) m ρ
      (fun _ => List.forall_iff_forall_mem.1 ops_fresh))

end Cert.RefSide

end
-- ==== Proof.RefValue.lean ====
/-
  The reference's four results are the closed forms of `Cert.GSpec`, when every target word is below the class
  count 10000. Each operation of the reference is read at an index: the two sums over everything as sums over rows
  (and classes), the reshapes by row-major position (row g is position (g / 24, g % 24)), the broadcasts by
  coordinates, the two gathers by their start index — a target in range is neither moved up by the class count nor
  clamped, and passes the range test of the take along the class axis — and the elementwise arithmetic on the
  extended reals. The variance's divisor is the count 30720000 minus zero, which is positive, so the guarded
  quotient is the plain one. No finiteness of the arrays' entries is used.
-/
import proofs.«419560_j5755256177164_3_alg».proof.Proof.RefTerms
import proofs.«419560_j5755256177164_3_alg».proof.Proof.GDefs
import Idealize.ShloMosaic.Lib.ValueIdx
import Idealize.ShloMosaic.Lib.Pipeline.Value
import Idealize.ShloMosaic.PureOps.Ideal.Laws
import Idealize.ShloMosaic.PureOps.Reduce

noncomputable section
open scoped BigOperators
namespace Cert.RefSide
open Cert.ReferenceIdeal Cert.ReferenceIdeal.Facts₀ Idealize.ShloMosaic Idealize.ShloMosaic.ValueIdx Cert.GSpec

/-! ## Index sets as coordinate ranges -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The two sums over everything -/

/-- The sum of a vector over the 3072 rows, from zero. -/
theorem sumRows_apply (x : FVec Ideal S3072 .f32) (j : S_.Idx) :
    Host.reduceAdd x (constant S_ .f32 0x00000000#32) reducesTo_S3072_S_d0 h_S_ j = ∑ g : Fin 3072, x (ix1 g) := by
  show Ideal.hostReduceAdd reducesTo_S3072_S_d0 x (Ideal.ofBits .f32 0x00000000#32) j = _
  rw [Ideal.hostReduceAdd_total _ (fun b => b.elim0), Ideal.ofBits_zero_f32, zero_add, sum_idx1]

/-- The sum of an array over the 3072 rows and 10000 classes, from zero. -/
theorem sumAll_apply (x : FVec Ideal S3072x10000 .f32) (j : S_.Idx) :
    Host.reduceAdd x (constant S_ .f32 0x00000000#32) reducesTo_S3072x10000_S_d0_1 h_S_ j
      = ∑ g : Fin 3072, ∑ v : Fin 10000, x (ix2 g v) := by
  show Ideal.hostReduceAdd reducesTo_S3072x10000_S_d0_1 x (Ideal.ofBits .f32 0x00000000#32) j = _
  rw [Ideal.hostReduceAdd_total _ (fun b => b.elim0), Ideal.ofBits_zero_f32, zero_add, sum_idx2]

/-! ## The two gathers read at an index -/

/-- The table's rows gathered at a column of start indices: row `g`, class `v` reads the table at the start index of
    `g` (read signed, clamped into the table) and `v`. -/
theorem gatherRows_apply (x : FVec Ideal S10000x10000 .f32) (idx : IVec S3072x1 32) (g : Fin 3072) (v : Fin 10000) :
    Host.gather gather_S10000x10000_S3072x1_S3072x10000_1_0_n_n_0_1_110000 x idx (ix2 g v)
      = x (ix2 ⟨min (idx (ix2 g ⟨0, Nat.one_pos⟩)).toInt.toNat (10000 - 1), by omega⟩ v) := by
  unfold Host.gather
  congr 1
  funext a
  refine Fin.ext ?_
  match a with
  | ⟨0, _⟩ =>
    show GatherDims.start _ _ _ _ + GatherDims.batchCoord _ _ _ + GatherDims.offCoord _ _ _ = _
    have h1 : GatherDims.batchCoord gather_S10000x10000_S3072x1_S3072x10000_1_0_n_n_0_1_110000 (ix2 g v) ⟨0, by decide⟩ = 0 := rfl
    have h2 : GatherDims.offCoord gather_S10000x10000_S3072x1_S3072x10000_1_0_n_n_0_1_110000 (ix2 g v) ⟨0, by decide⟩ = 0 := rfl
    have h3 : GatherDims.start gather_S10000x10000_S3072x1_S3072x10000_1_0_n_n_0_1_110000 (ix2 g v) idx ⟨0, by decide⟩
      = min (idx (ix2 g ⟨0, Nat.one_pos⟩)).toInt.toNat (10000 - 1) := by
      unfold GatherDims.start
      rw [dif_pos (show (⟨0, by decide⟩ : Fin S10000x10000.rank) ∈ gather_S10000x10000_S3072x1_S3072x10000_1_0_n_n_0_1_110000.startIndexMap from List.mem_singleton.mpr rfl)]
      have hsi : gather_S10000x10000_S3072x1_S3072x10000_1_0_n_n_0_1_110000.siIdx (ix2 g v) ⟨List.idxOf (⟨0, by decide⟩ : Fin S10000x10000.rank) gather_S10000x10000_S3072x1_S3072x10000_1_0_n_n_0_1_110000.startIndexMap,
          List.idxOf_lt_length_iff.2 (List.mem_singleton.mpr rfl)⟩ = ix2 g ⟨0, Nat.one_pos⟩ := by
        funext b; refine Fin.ext ?_
        match b with
        | ⟨0, _⟩ => rfl
        | ⟨1, _⟩ => rfl
      rw [hsi]
      rfl
    rw [h1, h2, h3]
    rfl
  | ⟨1, _⟩ =>
    show GatherDims.start _ _ _ _ + GatherDims.batchCoord _ _ _ + GatherDims.offCoord _ _ _ = _
    have h1 : GatherDims.batchCoord gather_S10000x10000_S3072x1_S3072x10000_1_0_n_n_0_1_110000 (ix2 g v) ⟨1, by decide⟩ = 0 := rfl
    have h2 : GatherDims.offCoord gather_S10000x10000_S3072x1_S3072x10000_1_0_n_n_0_1_110000 (ix2 g v) ⟨1, by decide⟩ = v.val := rfl
    have h3 : GatherDims.start gather_S10000x10000_S3072x1_S3072x10000_1_0_n_n_0_1_110000 (ix2 g v) idx ⟨1, by decide⟩ = 0 := rfl
    rw [h1, h2, h3]
    exact Nat.zero_add _

/-- Each row's entry gathered at its own start index: row `g` reads the row's entry at the start index of `g` (read
    signed, clamped into the row). -/
theorem gatherTake_apply (x : FVec Ideal S3072x10000 .f32) (idx : IVec S3072x1x1 32) (g : Fin 3072) :
    Host.gather gather_S3072x10000_S3072x1x1_S3072x1_n_1_0_0_1_2_11 x idx (ix2 g ⟨0, Nat.one_pos⟩)
      = x (ix2 g ⟨min (idx (ix3 g ⟨0, Nat.one_pos⟩ ⟨0, Nat.one_pos⟩)).toInt.toNat (10000 - 1), by omega⟩) := by
  unfold Host.gather
  congr 1
  funext a
  refine Fin.ext ?_
  match a with
  | ⟨0, _⟩ =>
    show GatherDims.start _ _ _ _ + GatherDims.batchCoord _ _ _ + GatherDims.offCoord _ _ _ = _
    have h1 : GatherDims.batchCoord gather_S3072x10000_S3072x1x1_S3072x1_n_1_0_0_1_2_11 (ix2 g (⟨0, Nat.one_pos⟩ : Fin 1)) ⟨0, by decide⟩ = g.val := rfl
    have h2 : GatherDims.offCoord gather_S3072x10000_S3072x1x1_S3072x1_n_1_0_0_1_2_11 (ix2 g (⟨0, Nat.one_pos⟩ : Fin 1)) ⟨0, by decide⟩ = 0 := rfl
    have h3 : GatherDims.start gather_S3072x10000_S3072x1x1_S3072x1_n_1_0_0_1_2_11 (ix2 g (⟨0, Nat.one_pos⟩ : Fin 1)) idx ⟨0, by decide⟩ = 0 := rfl
    rw [h1, h2, h3]
    exact Nat.zero_add _
  | ⟨1, _⟩ =>
    show GatherDims.start _ _ _ _ + GatherDims.batchCoord _ _ _ + GatherDims.offCoord _ _ _ = _
    have h1 : GatherDims.batchCoord gather_S3072x10000_S3072x1x1_S3072x1_n_1_0_0_1_2_11 (ix2 g (⟨0, Nat.one_pos⟩ : Fin 1)) ⟨1, by decide⟩ = 0 := rfl
    have h2 : GatherDims.offCoord gather_S3072x10000_S3072x1x1_S3072x1_n_1_0_0_1_2_11 (ix2 g (⟨0, Nat.one_pos⟩ : Fin 1)) ⟨1, by decide⟩ = 0 := rfl
    have h3 : GatherDims.start gather_S3072x10000_S3072x1x1_S3072x1_n_1_0_0_1_2_11 (ix2 g (⟨0, Nat.one_pos⟩ : Fin 1)) idx ⟨1, by decide⟩
      = min (idx (ix3 g ⟨0, Nat.one_pos⟩ ⟨0, Nat.one_pos⟩)).toInt.toNat (10000 - 1) := by
      unfold GatherDims.start
      rw [dif_pos (show (⟨1, by decide⟩ : Fin S3072x10000.rank) ∈ gather_S3072x10000_S3072x1x1_S3072x1_n_1_0_0_1_2_11.startIndexMap from List.mem_singleton.mpr rfl)]
      have hsi : gather_S3072x10000_S3072x1x1_S3072x1_n_1_0_0_1_2_11.siIdx (ix2 g (⟨0, Nat.one_pos⟩ : Fin 1)) ⟨List.idxOf (⟨1, by decide⟩ : Fin S3072x10000.rank) gather_S3072x10000_S3072x1x1_S3072x1_n_1_0_0_1_2_11.startIndexMap,
          List.idxOf_lt_length_iff.2 (List.mem_singleton.mpr rfl)⟩ = ix3 g ⟨0, Nat.one_pos⟩ ⟨0, Nat.one_pos⟩ := by
        funext b; refine Fin.ext ?_
        match b with
        | ⟨0, _⟩ => rfl
        | ⟨1, _⟩ => rfl
        | ⟨2, _⟩ => rfl
      rw [hsi]
      rfl
    rw [h1, h2, h3]
    rfl

/-! ## The reshapes read at an index -/

/-- Row `g` is position `(g / 24, g % 24)`. -/
theorem flatten3_apply {α : Type} (x : S128x24x10000.Idx → α) (g : Fin 3072) (v : Fin 10000)
    (p : Fin 128) (q : Fin 24) (hp : p.val = g.val / 24) (hq : q.val = g.val % 24) :
    shapeCast S3072x10000 x shapeCasts_S128x24x10000_S3072x10000 (ix2 g v) = x (ix3 p q v) := by
  refine shapeCast_apply x _ _ _ ?_
  rw [Shape.rowMajor_val_three, Shape.rowMajor_val_two]
  show (p.val * 24 + q.val) * 10000 + v.val = g.val * 10000 + v.val
  omega

theorem flatten2_apply {α : Type} (x : S128x24.Idx → α) (g : Fin 3072)
    (p : Fin 128) (q : Fin 24) (hp : p.val = g.val / 24) (hq : q.val = g.val % 24) :
    shapeCast S3072 x shapeCasts_S128x24_S3072 (ix1 g) = x (ix2 p q) := by
  refine shapeCast_apply x _ _ _ ?_
  rw [Shape.rowMajor_val_two, Shape.rowMajor_val_one]
  show p.val * 24 + q.val = g.val
  omega

/-- A column read as a vector. -/
theorem dropCol_apply {α : Type} (x : S3072x1.Idx → α) (g : Fin 3072) :
    shapeCast S3072 x shapeCasts_S3072x1_S3072 (ix1 g) = x (ix2 g ⟨0, Nat.one_pos⟩) := by
  refine shapeCast_apply x _ _ _ ?_
  rw [Shape.rowMajor_val_two, Shape.rowMajor_val_one]
  show g.val * 1 + 0 = g.val
  omega

/-- A column with one more unit axis. -/
theorem addUnit_apply {α : Type} (x : S3072x1.Idx → α) (g : Fin 3072) :
    shapeCast S3072x1x1 x shapeCasts_S3072x1_S3072x1x1 (ix3 g ⟨0, Nat.one_pos⟩ ⟨0, Nat.one_pos⟩) = x (ix2 g ⟨0, Nat.one_pos⟩) := by
  refine shapeCast_apply x _ _ _ ?_
  rw [Shape.rowMajor_val_two, Shape.rowMajor_val_three]
  show g.val * 1 + 0 = (g.val * 1 + 0) * 1 + 0
  omega

/-! ## The broadcasts read at an index -/

/-- A vector over the rows as a column. -/
theorem toCol_apply {α : Type} (x : S3072.Idx → α) (g : Fin 3072) :
    broadcastInDim S3072x1 ![0] bcast_S3072_S3072x1_0 x (ix2 g ⟨0, Nat.one_pos⟩) = x (ix1 g) := by
  refine broadcastInDim_apply _ _ x _ _ fun a => ?_
  match a with
  | ⟨0, _⟩ => rfl

/-- A column broadcast along the classes. -/
theorem colBcast_apply {α : Type} (x : S3072x1.Idx → α) (g : Fin 3072) (v : Fin 10000) :
    broadcastInDim S3072x10000 ![0, 1] bcast_S3072x1_S3072x10000_0_1 x (ix2 g v) = x (ix2 g ⟨0, Nat.one_pos⟩) := by
  refine broadcastInDim_apply _ _ x _ _ fun a => ?_
  match a with
  | ⟨0, _⟩ => rfl
  | ⟨1, _⟩ => rfl

/-- A 1 × 1 array broadcast over rows and classes. -/
theorem unitBcast_apply {α : Type} (x : S1x1.Idx → α) (i : S3072x10000.Idx) :
    broadcastInDim S3072x10000 ![0, 1] bcast_S1x1_S3072x10000_0_1 x i = x (ix2 ⟨0, Nat.one_pos⟩ ⟨0, Nat.one_pos⟩) := by
  refine broadcastInDim_apply _ _ x _ _ fun a => ?_
  match a with
  | ⟨0, _⟩ => rfl
  | ⟨1, _⟩ => rfl

/-- The scalar shape has one index. -/
theorem scalar_idx (x : S_.Idx → EReal) (i j : S_.Idx) : x i = x j := congrArg x (funext fun a => a.elim0)

/-! ## Target words below the class count -/

section Words
variable (w : BitVec 32) (h : w.toNat < 10000)
include h

theorem word_toInt : w.toInt = (w.toNat : Int) := by
  rw [BitVec.toInt_eq_toNat_cond]; split <;> omega

theorem word_not_slt_zero : IntOp.cmpi .slt w 0#32 = 0#1 := by
  have e := word_toInt w h
  have hn : ¬((w.toNat : Int) < 0) := by omega
  simp [IntOp.cmpi, BitVec.slt, e, hn]

theorem word_sge_zero : IntOp.cmpi .sge w 0#32 = 1#1 := by
  have := word_toInt w h
  simp [IntOp.cmpi, BitVec.sle, this]

theorem word_sle_max : IntOp.cmpi .sle w 9999#32 = 1#1 := by
  have e := word_toInt w h
  have e2 : (9999#32 : BitVec 32).toInt = 9999 := by decide
  have hle : (w.toNat : Int) ≤ 9999 := by omega
  simp [IntOp.cmpi, BitVec.sle, e, e2, hle]

/-- A negative word is moved up by the class count; one in range is kept. -/
theorem word_wrap : Scalar.select (IntOp.cmpi .slt w 0#32) (IntOp.addi w 10000#32) w = w := by
  rw [word_not_slt_zero w h, select_zero]

/-- Read signed and clamped into the table, a word in range is itself. -/
theorem word_clamp : min w.toInt.toNat (10000 - 1) = w.toNat := by
  rw [word_toInt w h]
  simp
  omega

end Words

/-! ## A reduction by `and` of all-ones -/

theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

/-- A reduction by `and`, from 1, of an array of ones is 1 everywhere. -/
theorem reduceAnd_of_all {s t : Shape} {axes : List (Fin s.rank)} (x : s.Idx → BitVec 1) (h : s.ReducesTo axes t)
    (hx : ∀ i, x i = 1#1) (j : t.Idx) : Host.reduce IntOp.andi x (constantI S_ 1 1#1) h h_S_ j = 1#1 := by
  rw [Host.reduce_eq_foldl]
  exact foldl_andi_one x _ fun n _ => hx n

/-! ## The rows' targets through the reference's index arithmetic -/

section Targets
variable (a2 : IVec S128x24 32) (hT : ∀ j, (a2 j).toNat < 10000)

theorem targetFlat_apply (g : Fin 3072) : targetFlat a2 (ix1 g) = tgtAt a2 g :=
  flatten2_apply a2 g (rowHi g) (rowLo g) rfl rfl

theorem targetCol_apply (g : Fin 3072) : targetCol a2 (ix2 g ⟨0, Nat.one_pos⟩) = tgtAt a2 g := by
  unfold targetCol
  rw [toCol_apply, targetFlat_apply]

include hT

theorem tgtAt_lt (g : Fin 3072) : (tgtAt a2 g).toNat < 10000 := hT _

theorem takeIdx_apply (g : Fin 3072) : takeIdx a2 (ix2 g ⟨0, Nat.one_pos⟩) = tgtAt a2 g := by
  show Scalar.select (IntOp.cmpi .slt (targetCol a2 (ix2 g ⟨0, Nat.one_pos⟩)) 0#32)
    (IntOp.addi (targetCol a2 (ix2 g ⟨0, Nat.one_pos⟩)) 10000#32) (targetCol a2 (ix2 g ⟨0, Nat.one_pos⟩)) = _
  rw [targetCol_apply]
  exact word_wrap _ (tgtAt_lt a2 hT g)

theorem takeIdx3_apply (g : Fin 3072) : takeIdx3 a2 (ix3 g ⟨0, Nat.one_pos⟩ ⟨0, Nat.one_pos⟩) = tgtAt a2 g := by
  unfold takeIdx3
  rw [addUnit_apply, takeIdx_apply a2 hT]

theorem takeInBounds_apply (i : S3072x1.Idx) : takeInBounds a2 i = 1#1 := by
  unfold takeInBounds
  refine reduceAnd_of_all _ _ (fun k => ?_) i
  obtain ⟨g, b, c, rfl⟩ : ∃ (g : Fin 3072) (b c : Fin 1), k = ix3 g b c := ⟨k 0, k 1, k 2, eq_ix3 k⟩
  obtain rfl : b = ⟨0, Nat.one_pos⟩ := Subsingleton.elim _ _
  obtain rfl : c = ⟨0, Nat.one_pos⟩ := Subsingleton.elim _ _
  show IntOp.andi (IntOp.cmpi .sge (takeIdx3 a2 (ix3 g ⟨0, Nat.one_pos⟩ ⟨0, Nat.one_pos⟩)) 0#32)
    (IntOp.cmpi .sle (takeIdx3 a2 (ix3 g ⟨0, Nat.one_pos⟩ ⟨0, Nat.one_pos⟩)) 9999#32) = 1#1
  rw [takeIdx3_apply a2 hT, word_sge_zero _ (tgtAt_lt a2 hT g), word_sle_max _ (tgtAt_lt a2 hT g)]
  rfl

theorem rowIdx_apply (g : Fin 3072) : rowIdx a2 (ix1 g) = tgtAt a2 g := by
  show Scalar.select (IntOp.cmpi .slt (targetFlat a2 (ix1 g)) 0#32)
    (IntOp.addi (targetFlat a2 (ix1 g)) 10000#32) (targetFlat a2 (ix1 g)) = _
  rw [targetFlat_apply]
  exact word_wrap _ (tgtAt_lt a2 hT g)

end Targets

/-! ## The reference's arrays read at an index -/

section Values
variable (a0 : FVec Ideal S128x24x10000 .f32) (a1 : FVec Ideal S10000x10000 .f32) (a2 : IVec S128x24 32)
  (a3 : FVec Ideal S128x24 .f32) (hT : ∀ j, (a2 j).toNat < 10000)

theorem logitsFlat_apply (g : Fin 3072) (v : Fin 10000) : logitsFlat a0 (ix2 g v) = flatAt a0 g v :=
  flatten3_apply a0 g v (rowHi g) (rowLo g) rfl rfl

theorem maskFlat_apply (g : Fin 3072) : maskFlat a3 (ix1 g) = maskAt a3 g :=
  flatten2_apply a3 g (rowHi g) (rowLo g) rfl rfl

theorem maskSum_apply (j : S_.Idx) : maskSum a3 j = ∑ g : Fin 3072, maskAt a3 g := by
  unfold maskSum
  rw [sumRows_apply]
  exact Finset.sum_congr rfl fun g _ => maskFlat_apply a3 g

include hT

/-- With every target in range, the picked logit of a row is its logit at the target class. -/
theorem pickedFlat_apply (g : Fin 3072) : pickedFlat a0 a2 (ix1 g) = flatAt a0 g (tgtFin a2 hT g) := by
  unfold pickedFlat
  rw [dropCol_apply]
  show Scalar.select (takeInBounds a2 (ix2 g ⟨0, Nat.one_pos⟩)) (takeGathered a0 a2 (ix2 g ⟨0, Nat.one_pos⟩)) _ = _
  rw [takeInBounds_apply a2 hT, select_one]
  unfold takeGathered
  rw [gatherTake_apply]
  refine (congrArg (fun c => logitsFlat a0 (ix2 g c)) (Fin.ext ?_)).trans (logitsFlat_apply a0 g (tgtFin a2 hT g))
  show min (takeIdx3 a2 (ix3 g ⟨0, Nat.one_pos⟩ ⟨0, Nat.one_pos⟩)).toInt.toNat (10000 - 1) = (tgtAt a2 g).toNat
  rw [takeIdx3_apply a2 hT]
  exact word_clamp _ (tgtAt_lt a2 hT g)

theorem pickedMaskedSum_apply (j : S_.Idx) :
    pickedMaskedSum a0 a2 a3 j = ∑ g : Fin 3072, flatAt a0 g (tgtFin a2 hT g) * maskAt a3 g := by
  unfold pickedMaskedSum
  rw [sumRows_apply]
  refine Finset.sum_congr rfl fun g _ => ?_
  show pickedFlat a0 a2 (ix1 g) * maskFlat a3 (ix1 g) = _
  rw [pickedFlat_apply a0 a2 hT, maskFlat_apply]

/-- With every target in range, a gathered row is the table's row at the target class. -/
theorem gatheredRows_apply (g : Fin 3072) (v : Fin 10000) :
    gatheredRows a1 a2 (ix2 g v) = simAt a1 (tgtFin a2 hT g) v := by
  unfold gatheredRows
  rw [gatherRows_apply]
  refine congrArg (fun c => a1 (ix2 c v)) (Fin.ext ?_)
  show min (broadcastInDim S3072x1 ![0] bcast_S3072_S3072x1_0 (rowIdx a2) (ix2 g ⟨0, Nat.one_pos⟩)).toInt.toNat (10000 - 1)
    = (tgtAt a2 g).toNat
  rw [toCol_apply, rowIdx_apply a2 hT]
  exact word_clamp _ (tgtAt_lt a2 hT g)

theorem smooth_apply (g : Fin 3072) (v : Fin 10000) : smooth a1 a2 (ix2 g v) = smoothAt a1 a2 hT g v := by
  show smoothE (gatheredRows a1 a2 (ix2 g v)) = _
  rw [gatheredRows_apply a1 a2 hT]
  rfl

theorem smoothSum_apply (j : S_.Idx) :
    smoothSum a1 a2 j = ∑ g : Fin 3072, ∑ v : Fin 10000, smoothAt a1 a2 hT g v := by
  unfold smoothSum
  rw [sumAll_apply]
  exact Finset.sum_congr rfl fun g _ => Finset.sum_congr rfl fun v _ => smooth_apply a1 a2 hT g v

theorem smoothMeanBc_apply (i : S3072x10000.Idx) : smoothMeanBc a1 a2 i = Gmean a0 a1 a2 a3 hT := by
  unfold smoothMeanBc
  rw [unitBcast_apply]
  show Ideal.div (smoothSum a1 a2 _) (Ideal.ofBits .f32 0x4BEA6000#32) = _
  rw [smoothSum_apply a1 a2 hT]
  rfl

theorem sqDevSum_apply (j : S_.Idx) :
    sqDevSum a1 a2 j = ∑ g : Fin 3072, ∑ v : Fin 10000,
      (smoothAt a1 a2 hT g v - Gmean a0 a1 a2 a3 hT) * (smoothAt a1 a2 hT g v - Gmean a0 a1 a2 a3 hT) := by
  unfold sqDevSum
  rw [sumAll_apply]
  refine Finset.sum_congr rfl fun g _ => Finset.sum_congr rfl fun v _ => ?_
  show (smooth a1 a2 (ix2 g v) - smoothMeanBc a1 a2 (ix2 g v)) * (smooth a1 a2 (ix2 g v) - smoothMeanBc a1 a2 (ix2 g v)) = _
  rw [smooth_apply a1 a2 hT, smoothMeanBc_apply a0 a1 a2 a3 hT]

theorem weights_apply (g : Fin 3072) (v : Fin 10000) :
    weights a1 a2 a3 (ix2 g v) = maskAt a3 g * smoothAt a1 a2 hT g v := by
  show broadcastInDim S3072x10000 ![0, 1] bcast_S3072x1_S3072x10000_0_1
      (broadcastInDim S3072x1 ![0] bcast_S3072_S3072x1_0 (maskFlat a3)) (ix2 g v) * smooth a1 a2 (ix2 g v) = _
  rw [colBcast_apply, toCol_apply, maskFlat_apply, smooth_apply a1 a2 hT]

theorem weightSum_apply (j : S_.Idx) :
    weightSum a1 a2 a3 j = ∑ g : Fin 3072, ∑ v : Fin 10000, maskAt a3 g * smoothAt a1 a2 hT g v := by
  unfold weightSum
  rw [sumAll_apply]
  exact Finset.sum_congr rfl fun g _ => Finset.sum_congr rfl fun v _ => weights_apply a1 a2 a3 hT g v

theorem weightedNegSum_apply (j : S_.Idx) :
    weightedNegSum a0 a1 a2 a3 j
      = ∑ g : Fin 3072, ∑ v : Fin 10000, -(flatAt a0 g v) * (maskAt a3 g * smoothAt a1 a2 hT g v) := by
  unfold weightedNegSum
  rw [sumAll_apply]
  refine Finset.sum_congr rfl fun g _ => Finset.sum_congr rfl fun v _ => ?_
  show -(logitsFlat a0 (ix2 g v)) * weights a1 a2 a3 (ix2 g v) = _
  rw [logitsFlat_apply, weights_apply a1 a2 a3 hT]

/-! ## The variance's divisor and its guard -/

omit hT in
theorem varDenom_apply (j : S_.Idx) : varDenom j = countE := by
  show Ideal.ofBits .f32 0x4BEA6000#32 - (((0#32 : BitVec 32).toInt : ℝ) : EReal) = _
  simp [countE]

omit hT in
theorem count_pos : Ideal.cmp .ogt countE 0 = 1#1 := by
  rw [countE_eq]
  have : (0 : EReal) < ((30720000 : ℝ) : EReal) := by exact_mod_cast (by norm_num : (0 : ℝ) < 30720000)
  simp [Ideal.cmp, this]

theorem variance_apply (j : S_.Idx) :
    variance a1 a2 j = Ideal.div (∑ g : Fin 3072, ∑ v : Fin 10000,
      (smoothAt a1 a2 hT g v - Gmean a0 a1 a2 a3 hT) * (smoothAt a1 a2 hT g v - Gmean a0 a1 a2 a3 hT)) countE := by
  show Scalar.select (Ideal.cmp .ogt (varDenom j) (Ideal.ofBits .f32 0x00000000#32))
    (Ideal.div (sqDevSum a1 a2 j) (varDenom j)) _ = _
  rw [varDenom_apply, Ideal.ofBits_zero_f32, count_pos, select_one, sqDevSum_apply a0 a1 a2 a3 hT]

/-! ## The four results -/

/-- Result 0 in closed form. -/
theorem refMl_eq : refMl a0 a1 a2 a3 = fun _ => Gml a0 a1 a2 a3 hT := by
  funext j
  show Ideal.div (-(pickedMaskedSum a0 a2 a3 j)) (maskSum a3 j) = _
  rw [pickedMaskedSum_apply a0 a2 a3 hT, maskSum_apply]
  rfl

/-- Result 2 in closed form. -/
theorem refMean_eq : refMean a0 a1 a2 a3 = fun _ => Gmean a0 a1 a2 a3 hT := by
  funext j
  show Ideal.div (smoothSum a1 a2 j) (Ideal.ofBits .f32 0x4BEA6000#32) = _
  rw [smoothSum_apply a1 a2 hT]
  rfl

/-- Result 3 in closed form. -/
theorem refStd_eq : refStd a0 a1 a2 a3 = fun _ => Gstd a0 a1 a2 a3 hT := by
  funext j
  show Ideal.sqrt (variance a1 a2 j) = _
  rw [variance_apply a0 a1 a2 a3 hT]
  rfl

/-- Result 1 in closed form. -/
theorem refTotal_eq : refTotal a0 a1 a2 a3 = fun _ => Gtotal a0 a1 a2 a3 hT := by
  funext j
  show Ideal.ofBits .f32 0x3F333333#32 * Ideal.div (weightedNegSum a0 a1 a2 a3 j) (weightSum a1 a2 a3 j)
    + Ideal.ofBits .f32 0x3E99999A#32 * refMl a0 a1 a2 a3 j = _
  rw [weightedNegSum_apply a0 a1 a2 a3 hT, weightSum_apply a1 a2 a3 hT, refMl_eq a0 a1 a2 a3 hT]
  rfl

end Values

end Cert.RefSide

end
-- ==== Proof.KIRunDefs.lean ====
/-
  Shared spellings for the kernel body's runs: the resource algebra (the pipeline library's, beside the counters the
  row copies' invariants draw their tokens from), a whole buffer held at given contents, the two DMA semaphore cells
  of the kernel's own, the two branch conditions of the body (first grid point; last grid point), and the in-range
  fact every row copy's source slice needs of the target word it is addressed by.
-/
import proofs.«419560_j5755256177164_3_alg».proof.Proof.Gen.KernelIdeal
import Idealize.ShloMosaic.Lib.Pipeline.Kit
import Idealize.ShloMosaic.Lib.Tactic

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

/-- The resource algebra: the rounds library's for the pipeline's staging cells, beside the transfers' counters. -/
abbrev UU (nD : Nat) (τ : Topo) : Type := UR sig nD τ × Counters

local notation "𝕄" => MT nD τ sig Unit (Elt F) ℕ (UU nD τ) ℕ

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's own two DMA semaphore cells (the two-cell scratch array: cells 8 and 9 of the pool). -/
abbrev osem : Fin 2 → SemLoc sig := fun | 0 => .dma 8 | 1 => .dma 9
/-- Both counters at zero: what every row copy starts from and every wait restores. -/
abbrev sems0 (c : Dev nD) : sProp 𝕄 :=
  iprop(semVal ((c : Thread nD τ), osem 0) 0 ∗ semVal ((c : Thread nD τ), osem 1) 0)

/-- "This is the first grid point", as the body computes it, and "this is the last one". -/
abbrev C1 (i : grid0.Coords) : Prop := Scalar.cmpi .ne (Scalar.extui (Scalar.cmpi .eq (BitVec.ofNat 32 (i 0).val) 0#32)) 0#32 = 1#1
abbrev C2 (i : grid0.Coords) : Prop := k0_cond2 i = 1#1

/-- A target word below 10000 addresses a whole row of the 10000 × 10000 matrix: the row's one-row slice lies inside. -/
theorem chkOfLt (v : BitVec 32) (h : v.toNat < 10000) : ∀ a : Fin 2, (![v.toNat, 0] : Fin 2 → ℕ) a + S1x10000.size a ≤ S10000x10000.size a := by
  intro a; fin_cases a
  · show v.toNat + 1 ≤ 10000; omega
  · show 0 + 10000 ≤ 10000; omega

/-- The body called on the table, two staged input blocks, the matrix, four output blocks and the scratch operands. -/
abbrev bodyAt (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole) :
    Prog (TpuEff nD τ sig (Elt F) Λ₀ .tc) PUnit :=
  cc0__word_smooth_kernel i (Memref.whole main_v2) (Memref.isWhole_whole _) M2 hM2 M3 hM3 (Memref.whole main_arg1) (Memref.isWhole_whole _)
    M5 hM5 M6 hM6 M7 hM7 M8 hM8 (Memref.whole cc0_scratch0) (Memref.isWhole_whole _) (Memref.whole cc0_scratch1) (Memref.isWhole_whole _) cc0_scratch2
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)

/-- The accumulator memrefs, in the body's order: mask sum, masked log-probability, weights, weighted negative
    log-probabilities, smoothed similarities, their squares. -/
abbrev accM (k : Fin 6) : Memref sig .tc .vmem S1x1 .f32 :=
  match k with
  | 0 => Memref.whole cc0_scratch3 | 1 => Memref.whole cc0_scratch4 | 2 => Memref.whole cc0_scratch5
  | 3 => Memref.whole cc0_scratch6 | 4 => Memref.whole cc0_scratch7 | 5 => Memref.whole cc0_scratch8

end Cert.Proof.KI

end
-- ==== Proof.KIStepSpec.lean ====
/-
  The clean per-row, per-point and final steps of the word-smoothing kernel, as pure functions of
  the values a grid point reads, generic in the float instance.

  The kernel walks 3072 rows in 48 grid points of 64 rows. For a row with similarity row `s`,
  input row `x`, mask entry `m` and target word `w` it forms
    clip   = s · [s ≥ 1/2],
    smooth = exp ((clip − 1) / 0.3) · [clip < 1],
  and adds six one-by-one quantities into six running sums:
    m,   (Σ_v x_v · [v = w]) · m,   Σ_v m · smooth_v,   Σ_v (0 − x_v) · (m · smooth_v),
    Σ_v smooth_v,   Σ_v smooth_v².
  The last grid point turns the six sums into the four results
    ml    = (0 − logp) / m,
    total = 0.7 · (nf / w) + 0.3 · ml,
    mean  = s / 30720000,
    std   = sqrt (max (q / 30720000 − mean · mean, 0)).
  Every definition below is written with the same vector operations, in the same order and with
  the same shape side conditions as the printed program's payloads, so that each payload is one of
  these functions by unfolding; the lemmas at the end record that.
-/
import proofs.«419560_j5755256177164_3_alg».proof.KernelIdeal
import proofs.«419560_j5755256177164_3_alg».proof.Proof.Gen.KernelIdeal
import proofs.«419560_j5755256177164_3_alg».proof.Proof.Gen.KernelIdeal.Skeleton

noncomputable section

namespace Cert.Proof.KI

open Idealize.ShloMosaic Idealize.SL.Sem
open Cert.KernelIdeal Cert.KernelIdeal.Gen

/-- The six running sums a grid point carries to the next, in the kernel's order:
    mask, masked log-probability, weight, negated weighted input, smoothing weight and its
    square. Each is a one-by-one vector. -/
structure Acc (F : FTy → Type) [FloatOps F] where
  m : Vec F S1x1 .f32
  logp : Vec F S1x1 .f32
  w : Vec F S1x1 .f32
  nf : Vec F S1x1 .f32
  s : Vec F S1x1 .f32
  q : Vec F S1x1 .f32

/-- The four results the last grid point writes. -/
structure Out4 (F : FTy → Type) [FloatOps F] where
  ml : Vec F S1x1 .f32
  total : Vec F S1x1 .f32
  mean : Vec F S1x1 .f32
  std : Vec F S1x1 .f32

variable {F : FTy → Type} [FloatOps F]

/-! ## One row -/

/-- `clip = s · [s ≥ 1/2]`, entrywise: the indicator is the comparison's bit, widened to a word
    and converted to a float. -/
def clipRow (s : Vec F S1x10000 .f32) : FVec F S1x10000 .f32 :=
  have half : F .f32 := Scalar.ofBits .f32 0x3F000000#32
  have vhalf : FVec F S1x10000 .f32 := broadcast S1x10000 half
  have ge : IVec S1x10000 1 := cmpf .oge s vhalf
  have geW : IVec S1x10000 32 := extui 32 ge natLt_1_32
  have geF : FVec F S1x10000 .f32 := sitofp .f32 geW
  have clip : FVec F S1x10000 .f32 := mulf s geF
  clip

/-- `smooth = exp ((clip − 1) / 0.3) · [clip < 1]`, entrywise, with `clip = s · [s ≥ 1/2]`. -/
def smoothRow (s : Vec F S1x10000 .f32) : FVec F S1x10000 .f32 :=
  have half : F .f32 := Scalar.ofBits .f32 0x3F000000#32
  have vhalf : FVec F S1x10000 .f32 := broadcast S1x10000 half
  have ge : IVec S1x10000 1 := cmpf .oge s vhalf
  have geW : IVec S1x10000 32 := extui 32 ge natLt_1_32
  have geF : FVec F S1x10000 .f32 := sitofp .f32 geW
  have clip : FVec F S1x10000 .f32 := mulf s geF
  have one : F .f32 := Scalar.ofBits .f32 0x3F800000#32
  have vone : FVec F S1x10000 .f32 := broadcast S1x10000 one
  have d : FVec F S1x10000 .f32 := subf clip vone
  have tau : F .f32 := Scalar.ofBits .f32 0x3E99999A#32
  have vtau : FVec F S1x10000 .f32 := broadcast S1x10000 tau
  have r : FVec F S1x10000 .f32 := divf d vtau
  have e : FVec F S1x10000 .f32 := exp r
  have one' : F .f32 := Scalar.ofBits .f32 0x3F800000#32
  have vone' : FVec F S1x10000 .f32 := broadcast S1x10000 one'
  have lt : IVec S1x10000 1 := cmpf .olt clip vone'
  have ltW : IVec S1x10000 32 := extui 32 lt natLt_1_32
  have ltF : FVec F S1x10000 .f32 := sitofp .f32 ltW
  have smooth : FVec F S1x10000 .f32 := mulf e ltF
  smooth

/-- The same weights read off the clipped row: `smoothRow s` is this function of `clipRow s`. -/
theorem smoothRow_eq_clip (s : Vec F S1x10000 .f32) :
    smoothRow s =
      mulf (exp (divf (subf (clipRow s) (broadcast S1x10000 (Scalar.ofBits .f32 0x3F800000#32 : F .f32)))
              (broadcast S1x10000 (Scalar.ofBits .f32 0x3E99999A#32 : F .f32))))
        (sitofp .f32 (extui 32 (cmpf .olt (clipRow s)
          (broadcast S1x10000 (Scalar.ofBits .f32 0x3F800000#32 : F .f32))) natLt_1_32)) := rfl

/-- The input row as the kernel uses it (a reshape to the same shape). -/
def xRow (x : Vec F S1x10000 .f32) : FVec F S1x10000 .f32 :=
  shapeCast S1x10000 x shapeCasts_S1x10000_S1x10000

/-- The mask entry as the kernel uses it (a reshape to the same shape): the row's addend to the
    mask sum. -/
def dM (m : Vec F S1x1 .f32) : FVec F S1x1 .f32 :=
  shapeCast S1x1 m shapeCasts_S1x1_S1x1

/-- `m · smooth`, entrywise, the mask entry spread along the row. -/
def wRow (s : Vec F S1x10000 .f32) (m : Vec F S1x1 .f32) : FVec F S1x10000 .f32 :=
  have mB : FVec F S1x10000 .f32 := broadcastTo S1x10000 (dM m) broadcasts_S1x1_S1x10000
  have wr : FVec F S1x10000 .f32 := mulf mB (smoothRow s)
  wr

/-- `Σ_v x_v · [v = w]`: the input row against the one-hot row of the target word, summed. -/
def oneHotSum (x : Vec F S1x10000 .f32) (w : BitVec 32) : FVec F S1x1 .f32 :=
  have io : IVec S1x10000 32 := iota .tc S1x10000 32 [1] iota_S1x10000_d1_w32
  have wB : IVec S1x10000 32 := broadcast S1x10000 w
  have eq : IVec S1x10000 1 := cmpi .eq io wB
  have eqW : IVec S1x10000 32 := extui 32 eq natLt_1_32
  have eqF : FVec F S1x10000 .f32 := sitofp .f32 eqW
  have pr : FVec F S1x10000 .f32 := mulf (xRow x) eqF
  have sm : FVec F S1 .f32 := multiReduction .add [1] S1 pr 0x00000000#32 reduces_S1x10000_S1 (.inl rfl) rfl
  have sm11 : FVec F S1x1 .f32 := shapeCast S1x1 sm shapeCasts_S1_S1x1
  sm11

/-- The row's addend to the log-probability sum: `(Σ_v x_v · [v = w]) · m`. -/
def dLogp (x : Vec F S1x10000 .f32) (w : BitVec 32) (m : Vec F S1x1 .f32) : FVec F S1x1 .f32 :=
  mulf (oneHotSum x w) (dM m)

/-- The row's addend to the weight sum: `Σ_v m · smooth_v`. -/
def dW (s : Vec F S1x10000 .f32) (m : Vec F S1x1 .f32) : FVec F S1x1 .f32 :=
  have sm : FVec F S1 .f32 := multiReduction .add [1] S1 (wRow s m) 0x00000000#32 reduces_S1x10000_S1 (.inl rfl) rfl
  have sm11 : FVec F S1x1 .f32 := shapeCast S1x1 sm shapeCasts_S1_S1x1
  sm11

/-- The row's addend to the negated weighted input sum: `Σ_v (0 − x_v) · (m · smooth_v)`. -/
def dNF (s x : Vec F S1x10000 .f32) (m : Vec F S1x1 .f32) : FVec F S1x1 .f32 :=
  have zero : F .f32 := Scalar.ofBits .f32 0x00000000#32
  have vzero : FVec F S1x10000 .f32 := broadcast S1x10000 zero
  have nx : FVec F S1x10000 .f32 := subf vzero (xRow x)
  have pr : FVec F S1x10000 .f32 := mulf nx (wRow s m)
  have sm : FVec F S1 .f32 := multiReduction .add [1] S1 pr 0x00000000#32 reduces_S1x10000_S1 (.inl rfl) rfl
  have sm11 : FVec F S1x1 .f32 := shapeCast S1x1 sm shapeCasts_S1_S1x1
  sm11

/-- The row's addend to the smoothing-weight sum: `Σ_v smooth_v`. -/
def dS (s : Vec F S1x10000 .f32) : FVec F S1x1 .f32 :=
  have sm : FVec F S1 .f32 := multiReduction .add [1] S1 (smoothRow s) 0x00000000#32 reduces_S1x10000_S1 (.inl rfl) rfl
  have sm11 : FVec F S1x1 .f32 := shapeCast S1x1 sm shapeCasts_S1_S1x1
  sm11

/-- `Σ_v smooth_v²` as a one-entry vector, before its reshape to one-by-one. -/
def sqSum (s : Vec F S1x10000 .f32) : FVec F S1 .f32 :=
  have sq : FVec F S1x10000 .f32 := mulf (smoothRow s) (smoothRow s)
  have sm : FVec F S1 .f32 := multiReduction .add [1] S1 sq 0x00000000#32 reduces_S1x10000_S1 (.inl rfl) rfl
  sm

/-- The row's addend to the squared smoothing-weight sum: `Σ_v smooth_v²`. -/
def dQ (s : Vec F S1x10000 .f32) : FVec F S1x1 .f32 :=
  shapeCast S1x1 (sqSum s) shapeCasts_S1_S1x1

/-- One running sum takes one addend: the running sum is the FIRST operand of the addition, and
    the result passes a reshape to the same shape. -/
def accAdd (a : Vec F S1x1 .f32) (d : FVec F S1x1 .f32) : FVec F S1x1 .f32 :=
  shapeCast S1x1 (addf a d) shapeCasts_S1x1_S1x1

/-- One row's effect on the six running sums. -/
def rowStep (s x : Vec F S1x10000 .f32) (m : Vec F S1x1 .f32) (w : BitVec 32) (a : Acc F) : Acc F where
  m := accAdd a.m (dM m)
  logp := accAdd a.logp (dLogp x w m)
  w := accAdd a.w (dW s m)
  nf := accAdd a.nf (dNF s x m)
  s := accAdd a.s (dS s)
  q := accAdd a.q (dQ s)

/-- Each running sum after a row, by its field. -/
theorem rowStep_m (s x : Vec F S1x10000 .f32) (m : Vec F S1x1 .f32) (w : BitVec 32) (a : Acc F) :
    (rowStep s x m w a).m = accAdd a.m (dM m) := rfl
theorem rowStep_logp (s x : Vec F S1x10000 .f32) (m : Vec F S1x1 .f32) (w : BitVec 32) (a : Acc F) :
    (rowStep s x m w a).logp = accAdd a.logp (dLogp x w m) := rfl
theorem rowStep_w (s x : Vec F S1x10000 .f32) (m : Vec F S1x1 .f32) (w : BitVec 32) (a : Acc F) :
    (rowStep s x m w a).w = accAdd a.w (dW s m) := rfl
theorem rowStep_nf (s x : Vec F S1x10000 .f32) (m : Vec F S1x1 .f32) (w : BitVec 32) (a : Acc F) :
    (rowStep s x m w a).nf = accAdd a.nf (dNF s x m) := rfl
theorem rowStep_s (s x : Vec F S1x10000 .f32) (m : Vec F S1x1 .f32) (w : BitVec 32) (a : Acc F) :
    (rowStep s x m w a).s = accAdd a.s (dS s) := rfl
theorem rowStep_q (s x : Vec F S1x10000 .f32) (m : Vec F S1x1 .f32) (w : BitVec 32) (a : Acc F) :
    (rowStep s x m w a).q = accAdd a.q (dQ s) := rfl

/-! ## The first grid point's reset, a grid point's 64 rows, and the last grid point's results -/

/-- A running sum's reset value: zero, spread to one-by-one, through a reshape to the same
    shape. -/
def zeroCell : FVec F S1x1 .f32 :=
  have zero : F .f32 := Scalar.ofBits .f32 0x00000000#32
  have vzero : FVec F S1x1 .f32 := broadcast S1x1 zero
  have c : FVec F S1x1 .f32 := shapeCast S1x1 vzero shapeCasts_S1x1_S1x1
  c

/-- The six running sums as the first grid point resets them. -/
def zeroAcc : Acc F where
  m := zeroCell
  logp := zeroCell
  w := zeroCell
  nf := zeroCell
  s := zeroCell
  q := zeroCell

/-- A grid point's effect on the running sums: its 64 rows in order. -/
def pointStep (S X : Fin 64 → Vec F S1x10000 .f32) (M : Fin 64 → Vec F S1x1 .f32)
    (W : Fin 64 → BitVec 32) (a : Acc F) : Acc F :=
  (List.finRange 64).foldl (fun a r => rowStep (S r) (X r) (M r) (W r) a) a

/-- `ml = (0 − logp) / m`. -/
def finMl (logp m : Vec F S1x1 .f32) : FVec F S1x1 .f32 :=
  have zero : F .f32 := Scalar.ofBits .f32 0x00000000#32
  have vzero : FVec F S1x1 .f32 := broadcast S1x1 zero
  have neg : FVec F S1x1 .f32 := subf vzero logp
  have ml : FVec F S1x1 .f32 := divf neg m
  ml

/-- `total = 0.7 · (nf / w) + 0.3 · ml`. -/
def finTotal (logp m nf w : Vec F S1x1 .f32) : FVec F S1x1 .f32 :=
  have out : FVec F S1x1 .f32 := divf nf w
  have alpha : F .f32 := Scalar.ofBits .f32 0x3F333333#32
  have valpha : FVec F S1x1 .f32 := broadcast S1x1 alpha
  have t1 : FVec F S1x1 .f32 := mulf valpha out
  have beta : F .f32 := Scalar.ofBits .f32 0x3E99999A#32
  have vbeta : FVec F S1x1 .f32 := broadcast S1x1 beta
  have t2 : FVec F S1x1 .f32 := mulf vbeta (finMl logp m)
  have total : FVec F S1x1 .f32 := addf t1 t2
  total

/-- `mean = s / 30720000`. -/
def finMean (s : Vec F S1x1 .f32) : FVec F S1x1 .f32 :=
  have n : F .f32 := Scalar.ofBits .f32 0x4BEA6000#32
  have vn : FVec F S1x1 .f32 := broadcast S1x1 n
  have mean : FVec F S1x1 .f32 := divf s vn
  mean

/-- `std = sqrt (max (q / 30720000 − mean · mean, 0))`. -/
def finStd (s q : Vec F S1x1 .f32) : FVec F S1x1 .f32 :=
  have n : F .f32 := Scalar.ofBits .f32 0x4BEA6000#32
  have vn : FVec F S1x1 .f32 := broadcast S1x1 n
  have msq : FVec F S1x1 .f32 := divf q vn
  have mm : FVec F S1x1 .f32 := mulf (finMean s) (finMean s)
  have var : FVec F S1x1 .f32 := subf msq mm
  have zero : F .f32 := Scalar.ofBits .f32 0x00000000#32
  have vzero : FVec F S1x1 .f32 := broadcast S1x1 zero
  have var0 : FVec F S1x1 .f32 := maximumf var vzero
  have std : FVec F S1x1 .f32 := sqrt var0
  std

/-- The four results from the six running sums. -/
def finalize (a : Acc F) : Out4 F where
  ml := finMl a.logp a.m
  total := finTotal a.logp a.m a.nf a.w
  mean := finMean a.s
  std := finStd a.s a.q

/-! ## The printed payloads are these functions

  The second unrolled row's payloads, the first grid point's resets and the last grid point's
  results, each against its clean function, by unfolding. -/

theorem pay27_eq (x : Vec F S1x10000 .f32) : k0_pay27 x = xRow x := rfl
theorem pay28_eq (m : Vec F S1x1 .f32) : k0_pay28 m = dM m := rfl
theorem pay29_eq (s : Vec F S1x10000 .f32) : k0_pay29 s = smoothRow s := rfl
theorem pay30_eq (s : Vec F S1x10000 .f32) (m : Vec F S1x1 .f32) : k0_pay30 s m = wRow s m := rfl
theorem pay31_eq (s : Vec F S1x10000 .f32) (m : Vec F S1x1 .f32) : k0_pay31 s m = dW s m := rfl
theorem pay32_eq (s x : Vec F S1x10000 .f32) (m : Vec F S1x1 .f32) : k0_pay32 s x m = dNF s x m := rfl
theorem pay33_eq (x : Vec F S1x10000 .f32) (w : BitVec 32) : k0_pay33 x w = oneHotSum x w := rfl
theorem pay34_eq (s : Vec F S1x10000 .f32) : k0_pay34 s = dS s := rfl
theorem pay35_eq (s : Vec F S1x10000 .f32) : k0_pay35 s = sqSum s := rfl

theorem pay36_eq (m a : Vec F S1x1 .f32) : k0_pay36 (dM m) a = accAdd a (dM m) := rfl
theorem pay37_eq (x : Vec F S1x10000 .f32) (w : BitVec 32) (m a : Vec F S1x1 .f32) :
    k0_pay37 (k0_pay28 m) (k0_pay33 x w) a = accAdd a (dLogp x w m) := rfl
theorem pay38_eq (s : Vec F S1x10000 .f32) (m a : Vec F S1x1 .f32) :
    k0_pay38 (k0_pay31 s m) a = accAdd a (dW s m) := rfl
theorem pay39_eq (s x : Vec F S1x10000 .f32) (m a : Vec F S1x1 .f32) :
    k0_pay39 (k0_pay32 s x m) a = accAdd a (dNF s x m) := rfl
theorem pay40_eq (s : Vec F S1x10000 .f32) (a : Vec F S1x1 .f32) :
    k0_pay40 (k0_pay34 s) a = accAdd a (dS s) := rfl
/-- The sixth sum's update is printed in two pieces: the addition, then the reshape. -/
theorem pay42_pay41_eq (s : Vec F S1x10000 .f32) (a : Vec F S1x1 .f32) :
    k0_pay42 (k0_pay41 (k0_pay35 s) a) = accAdd a (dQ s) := rfl

/-- The first unrolled row prints the clipped row on its own and the weights as a function of it
    and of the constant one. -/
theorem pay14_eq (s : Vec F S1x10000 .f32) : k0_pay14 s = clipRow s := rfl
theorem pay15_eq (s : Vec F S1x10000 .f32) :
    k0_pay15 (k0_pay14 s) (Scalar.ofBits .f32 0x3F800000#32) = smoothRow s := rfl

theorem pay6_eq : (k0_pay6 : FVec F S1x1 .f32) = (zeroAcc (F := F)).m := rfl
theorem pay7_eq : (k0_pay7 : FVec F S1x1 .f32) = (zeroAcc (F := F)).logp := rfl
theorem pay8_eq : (k0_pay8 : FVec F S1x1 .f32) = (zeroAcc (F := F)).w := rfl
theorem pay9_eq : (k0_pay9 : FVec F S1x1 .f32) = (zeroAcc (F := F)).nf := rfl
theorem pay10_eq : (k0_pay10 : FVec F S1x1 .f32) = (zeroAcc (F := F)).s := rfl
theorem pay11_eq : (k0_pay11 : FVec F S1x1 .f32) = (zeroAcc (F := F)).q := rfl

theorem pay2_eq (a : Acc F) : k0_pay2 a.logp a.m = (finalize a).ml := rfl
theorem pay3_eq (a : Acc F) : k0_pay3 a.logp a.m a.nf a.w = (finalize a).total := rfl
theorem pay4_eq (a : Acc F) : k0_pay4 a.s = (finalize a).mean := rfl
theorem pay5_eq (a : Acc F) : k0_pay5 a.s a.q = (finalize a).std := rfl
/-- The last row's sixth sum reaches its memory through one more reshape to the same shape. -/
theorem pay1_eq (d : FVec F S1x1 .f32) : k0_pay1 d = shapeCast S1x1 d shapeCasts_S1x1_S1x1 := rfl

end Cert.Proof.KI

end
-- ==== Proof.KIPointData.lean ====
/-
  The data one grid point of the kernel works on, as plain functions of what the point is given:
  the target word of a row (the table word at 64·i + r), the matrix row a target word addresses,
  the row of the staged input block and the entry of the staged mask block a row reads, the six
  running sums as one record of what the six accumulator buffers hold, and the point's effect on
  that record: the sixty-four row steps on the point's rows, in order.
-/
import proofs.«419560_j5755256177164_3_alg».proof.Proof.KIRunDefs
import proofs.«419560_j5755256177164_3_alg».proof.Proof.KIStepSpec
import Idealize.ShloMosaic.Lib.Pipeline.FrameBody

noncomputable section

namespace Cert.Proof.KI

open Cert.KernelIdeal Cert.KernelIdeal.Gen
open Idealize.ShloMosaic Idealize.ShloMosaic.TcCoe
open Idealize.SL Idealize.SL.Sem

variable {F : FTy → Type} [FloatOps F]

/-- Row `r` of grid point `i` has its target word at position 64·i + r of the table of 3072 words. -/
theorem wordInb (i : grid0.Coords) (r : Fin 64) :
    ∀ a : Fin 1, (![64 * (i 0).val + r.val] : Fin 1 → ℕ) a + S1.size a ≤ S3072.size a := by
  intro a
  have hi : (i 0).val < 48 := (i 0).isLt
  have hr : r.val < 64 := r.isLt
  fin_cases a
  show 64 * (i 0).val + r.val + 1 ≤ 3072
  omega

/-- The target word of row `r` of grid point `i`: the table's word at 64·i + r. -/
def wordAt (c : Dev nD) (tbl : Bf (F := F) c (Memref.whole main_v2)) (i : grid0.Coords) (r : Fin 64) : BitVec 32 :=
  View.readAt (Elt F) (Memref.whole main_v2).view
    (Rect.unit (s := S3072) ![64 * (i 0).val + r.val] S1.size (wordInb i r)).toLoadRect tbl (Shape.Idx.first (by show 0 < S1.numel; decide))

/-- Row `w` of the 10000 × 10000 similarity matrix, for a word below 10000 (any value otherwise: the
    kernel never reads such a row). -/
def simRow (c : Dev nD) (sim : Bf (F := F) c (Memref.whole main_arg1)) (w : BitVec 32) : Vec F S1x10000 .f32 :=
  if h : w.toNat < 10000 then
    View.ld ((Memref.whole main_arg1).view.read (Elt F) sim) (Rect.unit (s := S10000x10000) ![w.toNat, 0] S1x10000.size (chkOfLt w h))
  else fun _ => (Elt.inhabited F .f32).default

theorem inRowInb (r : Fin 64) : ∀ a : Fin 2, (![r.val, 0] : Fin 2 → ℕ) a + S1x10000.size a ≤ S64x10000.size a := by
  intro a
  have hr : r.val < 64 := r.isLt
  fin_cases a
  · show r.val + 1 ≤ 64; omega
  · show 0 + 10000 ≤ 10000; omega

theorem mkRowInb (r : Fin 64) : ∀ a : Fin 2, (![r.val, 0] : Fin 2 → ℕ) a + S1x1.size a ≤ S64x1.size a := by
  intro a
  have hr : r.val < 64 := r.isLt
  fin_cases a
  · show r.val + 1 ≤ 64; omega
  · show 0 + 1 ≤ 1; omega

/-- Row `r` of the staged block of inputs. -/
def inRow (x2 : Vec F S64x10000 .f32) (r : Fin 64) : Vec F S1x10000 .f32 :=
  View.ld x2 (Rect.unit (s := S64x10000) ![r.val, 0] S1x10000.size (inRowInb r))

/-- Entry `r` of the staged block of the mask. -/
def mkRow (x3 : Vec F S64x1 .f32) (r : Fin 64) : Vec F S1x1 .f32 :=
  View.ld x3 (Rect.unit (s := S64x1) ![r.val, 0] S1x1.size (mkRowInb r))

/-- The six running sums, read off the six accumulator buffers. -/
def accOf (c : Dev nD) (a12 : Bf (F := F) c (Memref.whole cc0_scratch3)) (a13 : Bf (F := F) c (Memref.whole cc0_scratch4))
    (a14 : Bf (F := F) c (Memref.whole cc0_scratch5)) (a15 : Bf (F := F) c (Memref.whole cc0_scratch6))
    (a16 : Bf (F := F) c (Memref.whole cc0_scratch7)) (a17 : Bf (F := F) c (Memref.whole cc0_scratch8)) : Acc F where
  m := View.readAt (Elt F) (Memref.whole cc0_scratch3).view (Rect.unit ![0, 0] S1x1.size inb_S1x1_S1x1_0_0).toLoadRect a12
  logp := View.readAt (Elt F) (Memref.whole cc0_scratch4).view (Rect.unit ![0, 0] S1x1.size inb_S1x1_S1x1_0_0).toLoadRect a13
  w := View.readAt (Elt F) (Memref.whole cc0_scratch5).view (Rect.unit ![0, 0] S1x1.size inb_S1x1_S1x1_0_0).toLoadRect a14
  nf := View.readAt (Elt F) (Memref.whole cc0_scratch6).view (Rect.unit ![0, 0] S1x1.size inb_S1x1_S1x1_0_0).toLoadRect a15
  s := View.readAt (Elt F) (Memref.whole cc0_scratch7).view (Rect.unit ![0, 0] S1x1.size inb_S1x1_S1x1_0_0).toLoadRect a16
  q := View.readAt (Elt F) (Memref.whole cc0_scratch8).view (Rect.unit ![0, 0] S1x1.size inb_S1x1_S1x1_0_0).toLoadRect a17

/-- A grid point's effect on the six running sums: the row steps of its sixty-four rows, each on the
    matrix row its target word addresses, its input row, its mask entry and its target word. -/
def pointOf (c : Dev nD) (tbl : Bf (F := F) c (Memref.whole main_v2)) (i : grid0.Coords)
    (sim : Bf (F := F) c (Memref.whole main_arg1)) (x2 : Vec F S64x10000 .f32) (x3 : Vec F S64x1 .f32) (a : Acc F) : Acc F :=
  pointStep (fun r => simRow c sim (wordAt c tbl i r)) (inRow x2) (mkRow x3) (wordAt c tbl i) a

end Cert.Proof.KI

end
-- ==== Proof.KIData.lean ====
/-
  The proof data of the kernel region. The region is entered after three reshapes: the log-probabilities as 3072 rows
  of 10000, the mask as 3072 rows of one, the target words as a table of 3072 placed in scalar memory. Two windows
  stage a block of 64 rows of the first two at each of the 48 grid points; four more hold the (1,1) results and are
  written back once, after the last point. Between points the kernel carries six (1,1) accumulators: the first point
  resets them, every point adds its 64 rows' contributions, the last point finalizes them into the four results.
  The similarity matrix is staged by no window (the body copies rows out of it itself) and the table is read in
  place: both sit in the invariant at the contents the region finds. This file fixes those contents, the blocks, the
  accumulators after each point, the invariant, and the facts about them that need no run of the body: what each
  input window's buffer holds when the body runs, which of the body's two conditions holds where on the grid, and
  where the output windows are idle.
-/
import proofs.«419560_j5755256177164_3_alg».proof.Proof.KIPointData
import proofs.«419560_j5755256177164_3_alg».proof.Proof.Gen.KernelIdeal.Launch
import Idealize.ShloMosaic.Lib.Pipeline.Regions
import Idealize.ShloMosaic.Lib.Pipeline.FrameBody

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

variable (m : (ℓ : Loc nD τ sig) → Buf (Elt F) ℓ)

/-- Core `c`'s buffer contents when the region is entered: the three reshapes before it have run. -/
abbrev V0 (c : Dev nD) : Valuation τ sig (Elt F) := StableHlo.after hostOps0 (fun b => m (c, b))
/-- The same read at a reference of the core. -/
abbrev V (c : Dev nD) (b : Ref sig .tc) : Buf (Elt F) ((c : Thread nD τ).loc b) := V0 m c (Proc.devRef .tc b)

/-- The table of target words as the region finds it, and the similarity matrix. -/
def tblOf (c : Dev nD) : Bf (F := F) c (Memref.whole main_v2) := V m c main_v2
def simOf (c : Dev nD) : Bf (F := F) c (Memref.whole main_arg1) := V m c main_arg1

/-- The admissible contents of the one prefetched table: the table as the region finds it (one core). -/
def adm : (p : Fin 1) → (pcfgs (F := F) p).Adm := fun _ => ⟨fun | 0 => tblOf m 0 | ⟨_ + 1, h⟩ => absurd h (Nat.not_lt.2 (Nat.le_add_left _ _)), trivial⟩

abbrev cfgOf : Cfg sig Λ₀ := Pipeline.pin (pcfgs (F := F)) (adm m) 0

/-- The blocks of the two input windows at point `t`, read off their arrays as the region finds them. -/
def blk0 (c : Dev nD) (t : Fin (cfgOf m).N) : Vec F S64x10000 .f32 :=
  (((cfgOf m).win 0).blk t).view.read (Elt F) (V m c (Pipeline.arrRef spec0 0))
def blk1 (c : Dev nD) (t : Fin (cfgOf m).N) : Vec F S64x1 .f32 :=
  (((cfgOf m).win 1).blk t).view.read (Elt F) (V m c (Pipeline.arrRef spec0 1))

/-- The grid point numbered `n` (numbers past the grid wrap round: they are never read). -/
def ptAt (n : ℕ) : Fin (cfgOf m).N := ⟨n % 48, Nat.mod_lt _ (by decide)⟩

theorem ptAt_val (t : Fin (cfgOf m).N) : ptAt m t.val = t := Fin.ext (Nat.mod_eq_of_lt t.isLt)

/-- The accumulators after point `n`: the first point starts from zero, every later one from the point before. -/
def accAfter (c : Dev nD) : ℕ → Acc F
  | 0 => pointOf c (tblOf m c) (grid0.coords (ptAt m 0)) (simOf m c) (blk0 m c (ptAt m 0)) (blk1 m c (ptAt m 0)) zeroAcc
  | n + 1 => pointOf c (tblOf m c) (grid0.coords (ptAt m (n + 1))) (simOf m c) (blk0 m c (ptAt m (n + 1))) (blk1 m c (ptAt m (n + 1))) (accAfter c n)

/-- The four results: the last point's accumulators finalized. -/
def outs (c : Dev nD) : Out4 F := finalize (accAfter m c 47)

/-- The six accumulators between points: before the first point at anything (it resets them), afterwards at what
    the point before left. -/
def accsHeld (c : Dev nD) (t : Fin (48 + 1)) : sProp 𝕄 :=
  match t.val with
  | 0 => iprop((∃ f, pt c (Memref.whole cc0_scratch3) f) ∗ (∃ f, pt c (Memref.whole cc0_scratch4) f) ∗ (∃ f, pt c (Memref.whole cc0_scratch5) f)
      ∗ (∃ f, pt c (Memref.whole cc0_scratch6) f) ∗ (∃ f, pt c (Memref.whole cc0_scratch7) f) ∗ (∃ f, pt c (Memref.whole cc0_scratch8) f))
  | n + 1 => iprop(pt c (Memref.whole cc0_scratch3) (accAfter m c n).m ∗ pt c (Memref.whole cc0_scratch4) (accAfter m c n).logp
      ∗ pt c (Memref.whole cc0_scratch5) (accAfter m c n).w ∗ pt c (Memref.whole cc0_scratch6) (accAfter m c n).nf
      ∗ pt c (Memref.whole cc0_scratch7) (accAfter m c n).s ∗ pt c (Memref.whole cc0_scratch8) (accAfter m c n).q)

/-- The invariant between points: the matrix and the table at their fixed contents, both cells at zero, the two row
    buffers at anything, the accumulators. -/
def Φ (c : Dev nD) (t : Fin (48 + 1)) : sProp 𝕄 :=
  iprop(pt c (Memref.whole main_arg1) (simOf m c) ∗ pt c (Memref.whole main_v2) (tblOf m c) ∗ sems0 c
    ∗ (∃ f, pt c (Memref.whole cc0_scratch0) f) ∗ (∃ f, pt c (Memref.whole cc0_scratch1) f) ∗ accsHeld m c t)

/-- The proof data on core `c`. -/
def dats (p : Fin 1) (c : Dev nD) : Dat τ (Elt F) Unit ℕ (UU nD τ) ℕ (Pipeline.pin (pcfgs (F := F)) (adm m) p) c where
  A w := V m c (Pipeline.arrRef spec0 w)
  after w t := match w with
    | ⟨0, _⟩ => blk0 m c t
    | ⟨1, _⟩ => blk1 m c t
    | ⟨2, _⟩ => (outs m c).ml
    | ⟨3, _⟩ => (outs m c).total
    | ⟨4, _⟩ => (outs m c).mean
    | ⟨5, _⟩ => (outs m c).std
  Φ t := Φ m c t
  q _ := fullShare
  owed _ := 0

/-! ## Facts that need no run -/

/-- On the one core the admissible table is the table the region finds. -/
theorem adm_tbl (c : Dev nD) : (adm m 0).1 0 = tblOf m c := by
  obtain rfl : c = 0 := Subsingleton.elim _ _
  rfl

theorem A_eq (c : Dev nD) (w : Fin (cfgOf m).W) : (dats m 0 c).A w = V m c (Pipeline.arrRef spec0 w) := by
  dsimp only [dats]

theorem after0 (c : Dev nD) (t : Fin (cfgOf m).N) : (dats m 0 c).after 0 t = blk0 m c t := by dsimp only [dats]; rfl
theorem after1 (c : Dev nD) (t : Fin (cfgOf m).N) : (dats m 0 c).after 1 t = blk1 m c t := by dsimp only [dats]; rfl
theorem after2 (c : Dev nD) (t : Fin (cfgOf m).N) : (dats m 0 c).after 2 t = (outs m c).ml := by dsimp only [dats]; rfl
theorem after3 (c : Dev nD) (t : Fin (cfgOf m).N) : (dats m 0 c).after 3 t = (outs m c).total := by dsimp only [dats]; rfl
theorem after4 (c : Dev nD) (t : Fin (cfgOf m).N) : (dats m 0 c).after 4 t = (outs m c).mean := by dsimp only [dats]; rfl
theorem after5 (c : Dev nD) (t : Fin (cfgOf m).N) : (dats m 0 c).after 5 t = (outs m c).std := by dsimp only [dats]; rfl

/-- Each input window's current staging buffer holds its block at every point, fetched there or not. -/
theorem before0 (c : Dev nD) (t : Fin (cfgOf m).N) (d) : (dats m 0 c).before 0 t d = blk0 m c t :=
  ((dats m 0 c).before_in_eq_fetched 0 rfl (fun _ => rfl) (fun _ _ _ => rfl)
      (fun t => by rw [after0]; unfold Dat.blockOf blk0; rw [A_eq]; try rfl) t d).trans
    (by unfold Dat.fetched Dat.blockOf blk0; rw [A_eq]; try rfl)
theorem before1 (c : Dev nD) (t : Fin (cfgOf m).N) (d) : (dats m 0 c).before 1 t d = blk1 m c t :=
  ((dats m 0 c).before_in_eq_fetched 1 rfl (fun _ => rfl) (fun _ _ _ => rfl)
      (fun t => by rw [after1]; unfold Dat.blockOf blk1; rw [A_eq]; try rfl) t d).trans
    (by unfold Dat.fetched Dat.blockOf blk1; rw [A_eq]; try rfl)

/-! ## The recursion of the accumulators, point by point -/

theorem accAfter_zero (c : Dev nD) :
    accAfter m c 0 = pointOf c (tblOf m c) (grid0.coords (ptAt m 0)) (simOf m c) (blk0 m c (ptAt m 0)) (blk1 m c (ptAt m 0)) zeroAcc := rfl

theorem accAfter_succ (c : Dev nD) (n : ℕ) :
    accAfter m c (n + 1) = pointOf c (tblOf m c) (grid0.coords (ptAt m (n + 1))) (simOf m c) (blk0 m c (ptAt m (n + 1))) (blk1 m c (ptAt m (n + 1))) (accAfter m c n) := rfl

/-- At the first point of the grid the accumulators are the point's step from zero; -/
theorem accAfter_first (c : Dev nD) (t : Fin (cfgOf m).N) (h : t.val = 0) :
    accAfter m c t.val = pointOf c (tblOf m c) (grid0.coords t) (simOf m c) (blk0 m c t) (blk1 m c t) zeroAcc := by
  rw [h, accAfter_zero, show ptAt m 0 = t from h ▸ ptAt_val m t]

/-- at a later one its step from the point before. -/
theorem accAfter_later (c : Dev nD) (t : Fin (cfgOf m).N) (n : ℕ) (h : t.val = n + 1) :
    accAfter m c t.val = pointOf c (tblOf m c) (grid0.coords t) (simOf m c) (blk0 m c t) (blk1 m c t) (accAfter m c n) := by
  rw [h, accAfter_succ, show ptAt m (n + 1) = t from h ▸ ptAt_val m t]

/-! ## The invariant, point by point -/

theorem accsHeld_first (c : Dev nD) (t : Fin (48 + 1)) (h : t.val = 0) :
    accsHeld m c t = iprop((∃ f, pt c (Memref.whole cc0_scratch3) f) ∗ (∃ f, pt c (Memref.whole cc0_scratch4) f) ∗ (∃ f, pt c (Memref.whole cc0_scratch5) f)
      ∗ (∃ f, pt c (Memref.whole cc0_scratch6) f) ∗ (∃ f, pt c (Memref.whole cc0_scratch7) f) ∗ (∃ f, pt c (Memref.whole cc0_scratch8) f)) := by
  unfold accsHeld; rw [h]

theorem accsHeld_later (c : Dev nD) (t : Fin (48 + 1)) (n : ℕ) (h : t.val = n + 1) :
    accsHeld m c t = iprop(pt c (Memref.whole cc0_scratch3) (accAfter m c n).m ∗ pt c (Memref.whole cc0_scratch4) (accAfter m c n).logp
      ∗ pt c (Memref.whole cc0_scratch5) (accAfter m c n).w ∗ pt c (Memref.whole cc0_scratch6) (accAfter m c n).nf
      ∗ pt c (Memref.whole cc0_scratch7) (accAfter m c n).s ∗ pt c (Memref.whole cc0_scratch8) (accAfter m c n).q) := by
  unfold accsHeld; rw [h]

/-- The proof data's invariant is `Φ`. -/
theorem Φ_eq (c : Dev nD) (t : Fin ((cfgOf m).N + 1)) : (dats m 0 c).Φ t = Φ m c t := by dsimp only [dats]

/-! ## The body's two conditions and the windows' idle points, over the grid -/

/-- The body's first condition holds at the first point only, its second at the last only. -/
theorem hC1 : ∀ t : Fin grid0.N, C1 (grid0.coords t) ↔ t.val = 0 := by decide +kernel
theorem hC2 : ∀ t : Fin grid0.N, C2 (grid0.coords t) ↔ t.val = 47 := by decide +kernel

/-- The input windows are never idle; the four output windows are idle, and not written back, at every point but
    the last, where the body stores them. -/
theorem liveAt_in (a : (pcfg0 (F := F)).Adm) : ∀ t : Fin grid0.N,
    (pcfg0.at a).idle 0 (grid0.coords t) = false ∧ (pcfg0.at a).idle 1 (grid0.coords t) = false := of_decide_eq_true rfl
theorem idleAt_out (a : (pcfg0 (F := F)).Adm) : ∀ t : Fin grid0.N, t.val ≠ 47 →
    (pcfg0.at a).idle 2 (grid0.coords t) = true ∧ (pcfg0.at a).idle 3 (grid0.coords t) = true
      ∧ (pcfg0.at a).idle 4 (grid0.coords t) = true ∧ (pcfg0.at a).idle 5 (grid0.coords t) = true := of_decide_eq_true rfl
theorem noFlush_out (a : (pcfg0 (F := F)).Adm) : ∀ t : Fin grid0.N, t.val ≠ 47 →
    ((pcfg0.at a).win 2).flush t = false ∧ ((pcfg0.at a).win 3).flush t = false
      ∧ ((pcfg0.at a).win 4).flush t = false ∧ ((pcfg0.at a).win 5).flush t = false := of_decide_eq_true rfl
theorem liveAt_last (a : (pcfg0 (F := F)).Adm) : ∀ t : Fin grid0.N, t.val = 47 →
    (pcfg0.at a).idle 2 (grid0.coords t) = false ∧ (pcfg0.at a).idle 3 (grid0.coords t) = false
      ∧ (pcfg0.at a).idle 4 (grid0.coords t) = false ∧ (pcfg0.at a).idle 5 (grid0.coords t) = false := of_decide_eq_true rfl

end Cert.Proof.KI

end
-- ==== Proof.KIRunA.lean ====
/-
  The kernel body at one grid point, case A: from the prefetched table of target words (every word below 10000), the
  staged blocks of the log-probabilities and of the mask, the similarity matrix left in HBM, the two row buffers, the two
  DMA semaphore cells at zero and the six (1,1) accumulators, the body runs to its return: sixty-four row copies are
  issued on the two cells alternately, each waited before its buffer is read and before the next copy into that buffer
  is issued, and every accumulator is overwritten sixty-four times by its old value plus the row's contribution.
  What each accumulator (and, at the last point, each output block) ends with is the list of pieces the run finds.
-/
import proofs.«419560_j5755256177164_3_alg».proof.Proof.Gen.KernelIdeal
import proofs.«419560_j5755256177164_3_alg».proof.Proof.Gen.KernelIdeal.Skeleton
import proofs.«419560_j5755256177164_3_alg».proof.Proof.Gen.KernelIdeal.Launch
import proofs.«419560_j5755256177164_3_alg».proof.Proof.KIRunDefs
import Idealize.ShloMosaic.Lib.Writes
import Idealize.ShloMosaic.Lib.Pipeline.FrameBody
import Idealize.ShloMosaic.Lib.Pipeline.Kit
import Idealize.ShloMosaic.Lib.Tactic

set_option maxRecDepth 65536

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

set_option maxHeartbeats 4000000 in
/-- The pieces each accumulator ends with at a point of case A, with the proof that the body runs there to its return handing
    back the table, the two input blocks and the matrix as they were, the output blocks untouched, the two row
    buffers at some contents, each accumulator with its pieces written, both cells at zero, and the core owing nothing. -/
noncomputable def kernelRunA (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))
    (h1 : C1 i) (h2 : ¬ C2 i) :
    Σ' (L12 : List (View.Piece (Elt F) S1x1 .f32)) (L13 : List (View.Piece (Elt F) S1x1 .f32)) (L14 : List (View.Piece (Elt F) S1x1 .f32)) (L15 : List (View.Piece (Elt F) S1x1 .f32)) (L16 : List (View.Piece (Elt F) S1x1 .f32)), { L17 : List (View.Piece (Elt F) S1x1 .f32) //
      ∀ (O : sProp 𝕄) (W : Waits sig Unit) (Q : PUnit → sProp 𝕄),
        iprop(pt c (Memref.whole main_v2) tbl ∗ owns (c : Thread nD τ) M2 fullShare x2 ∗ owns (c : Thread nD τ) M3 fullShare x3
            ∗ pt c (Memref.whole main_arg1) sim ∗ O
            ∗ pt c (Memref.whole cc0_scratch0) b9 ∗ pt c (Memref.whole cc0_scratch1) b10
            ∗ pt c (Memref.whole cc0_scratch3) a12 ∗ pt c (Memref.whole cc0_scratch4) a13 ∗ pt c (Memref.whole cc0_scratch5) a14 ∗ pt c (Memref.whole cc0_scratch6) a15 ∗ pt c (Memref.whole cc0_scratch7) a16 ∗ pt c (Memref.whole cc0_scratch8) a17
            ∗ sems0 c ∗ owes (c : Thread nD τ) 0 W
            ∗ (iprop(pt c (Memref.whole main_v2) tbl ∗ owns (c : Thread nD τ) M2 fullShare x2 ∗ owns (c : Thread nD τ) M3 fullShare x3
              ∗ pt c (Memref.whole main_arg1) sim ∗ O
              ∗ (∃ f, pt c (Memref.whole cc0_scratch0) f) ∗ (∃ f, pt c (Memref.whole cc0_scratch1) f)
              ∗ pt c (Memref.whole cc0_scratch3) ((Memref.whole cc0_scratch3).view.writes (Elt F) a12 L12)
              ∗ pt c (Memref.whole cc0_scratch4) ((Memref.whole cc0_scratch4).view.writes (Elt F) a13 L13)
              ∗ pt c (Memref.whole cc0_scratch5) ((Memref.whole cc0_scratch5).view.writes (Elt F) a14 L14)
              ∗ pt c (Memref.whole cc0_scratch6) ((Memref.whole cc0_scratch6).view.writes (Elt F) a15 L15)
              ∗ pt c (Memref.whole cc0_scratch7) ((Memref.whole cc0_scratch7).view.writes (Elt F) a16 L16)
              ∗ pt c (Memref.whole cc0_scratch8) ((Memref.whole cc0_scratch8).view.writes (Elt F) a17 L17)
              ∗ sems0 c ∗ ∃ W', owes (c : Thread nD τ) 0 W') -∗ Q ⟨⟩))
          ⊢ wp frame (wpE (defs₀ (F := F)) Variants.none c none) Set.univ (bodyAt i M2 hM2 M3 hM3 M5 hM5 M6 hM6 M7 hM7 M8 hM8) Q } := by
  refine ⟨?_, ?_, ?_, ?_, ?_, ?_, fun O W Q => ?run⟩
  case run =>
    unfold owns bodyAt
    iintro ⟨Ht, ⟨%f2, %hf2, H2⟩, ⟨%f3, %hf3, H3⟩, Hsim, HO, H9, H10, H12, H13, H14, H15, H16, H17, ⟨Hd0, Hd1⟩, HOw, Hk⟩
    obtain rfl := hM2.eq_unread hf2; obtain rfl := hM3.eq_unread hf3
    sl_exec_parts (disch := first | exact h1 | exact h2 | exact chkOfLt _ (hT _))
    sl_step
    iapply Hk
    isplitl [Ht]; · iexact Ht
    isplitl [H2]
    · iexists _; isplitr; · ipureintro; exact hM2.read_unread _
      iexact H2
    isplitl [H3]
    · iexists _; isplitr; · ipureintro; exact hM3.read_unread _
      iexact H3
    isplitl [Hsim]; · iexact Hsim
    isplitl [HO]; · iexact HO
    isplitl [H9]; · iexists _; iexact H9
    isplitl [H10]; · iexists _; iexact H10
    isplitl [H12]; · iexact H12
    isplitl [H13]; · iexact H13
    isplitl [H14]; · iexact H14
    isplitl [H15]; · iexact H15
    isplitl [H16]; · iexact H16
    isplitl [H17]; · iexact H17
    isplitl [Hd0 Hd1]
    · isplitl [Hd0]; · iexact Hd0
      iexact Hd1
    iexists _; iexact HOw

end Cert.Proof.KI

end
-- ==== Proof.KIRunB.lean ====
/-
  The kernel body at one grid point, case B: from the prefetched table of target words (every word below 10000), the
  staged blocks of the log-probabilities and of the mask, the similarity matrix left in HBM, the two row buffers, the two
  DMA semaphore cells at zero and the six (1,1) accumulators, the body runs to its return: sixty-four row copies are
  issued on the two cells alternately, each waited before its buffer is read and before the next copy into that buffer
  is issued, and every accumulator is overwritten sixty-four times by its old value plus the row's contribution.
  What each accumulator (and, at the last point, each output block) ends with is the list of pieces the run finds.
-/
import proofs.«419560_j5755256177164_3_alg».proof.Proof.Gen.KernelIdeal
import proofs.«419560_j5755256177164_3_alg».proof.Proof.Gen.KernelIdeal.Skeleton
import proofs.«419560_j5755256177164_3_alg».proof.Proof.Gen.KernelIdeal.Launch
import proofs.«419560_j5755256177164_3_alg».proof.Proof.KIRunDefs
import Idealize.ShloMosaic.Lib.Writes
import Idealize.ShloMosaic.Lib.Pipeline.FrameBody
import Idealize.ShloMosaic.Lib.Pipeline.Kit
import Idealize.ShloMosaic.Lib.Tactic

set_option maxRecDepth 65536

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

set_option maxHeartbeats 4000000 in
/-- The pieces each accumulator ends with at a point of case B, with the proof that the body runs there to its return handing
    back the table, the two input blocks and the matrix as they were, the output blocks untouched, the two row
    buffers at some contents, each accumulator with its pieces written, both cells at zero, and the core owing nothing. -/
noncomputable def kernelRunB (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))
    (h1 : ¬ C1 i) (h2 : ¬ C2 i) :
    Σ' (L12 : List (View.Piece (Elt F) S1x1 .f32)) (L13 : List (View.Piece (Elt F) S1x1 .f32)) (L14 : List (View.Piece (Elt F) S1x1 .f32)) (L15 : List (View.Piece (Elt F) S1x1 .f32)) (L16 : List (View.Piece (Elt F) S1x1 .f32)), { L17 : List (View.Piece (Elt F) S1x1 .f32) //
      ∀ (O : sProp 𝕄) (W : Waits sig Unit) (Q : PUnit → sProp 𝕄),
        iprop(pt c (Memref.whole main_v2) tbl ∗ owns (c : Thread nD τ) M2 fullShare x2 ∗ owns (c : Thread nD τ) M3 fullShare x3
            ∗ pt c (Memref.whole main_arg1) sim ∗ O
            ∗ pt c (Memref.whole cc0_scratch0) b9 ∗ pt c (Memref.whole cc0_scratch1) b10
            ∗ pt c (Memref.whole cc0_scratch3) a12 ∗ pt c (Memref.whole cc0_scratch4) a13 ∗ pt c (Memref.whole cc0_scratch5) a14 ∗ pt c (Memref.whole cc0_scratch6) a15 ∗ pt c (Memref.whole cc0_scratch7) a16 ∗ pt c (Memref.whole cc0_scratch8) a17
            ∗ sems0 c ∗ owes (c : Thread nD τ) 0 W
            ∗ (iprop(pt c (Memref.whole main_v2) tbl ∗ owns (c : Thread nD τ) M2 fullShare x2 ∗ owns (c : Thread nD τ) M3 fullShare x3
              ∗ pt c (Memref.whole main_arg1) sim ∗ O
              ∗ (∃ f, pt c (Memref.whole cc0_scratch0) f) ∗ (∃ f, pt c (Memref.whole cc0_scratch1) f)
              ∗ pt c (Memref.whole cc0_scratch3) ((Memref.whole cc0_scratch3).view.writes (Elt F) a12 L12)
              ∗ pt c (Memref.whole cc0_scratch4) ((Memref.whole cc0_scratch4).view.writes (Elt F) a13 L13)
              ∗ pt c (Memref.whole cc0_scratch5) ((Memref.whole cc0_scratch5).view.writes (Elt F) a14 L14)
              ∗ pt c (Memref.whole cc0_scratch6) ((Memref.whole cc0_scratch6).view.writes (Elt F) a15 L15)
              ∗ pt c (Memref.whole cc0_scratch7) ((Memref.whole cc0_scratch7).view.writes (Elt F) a16 L16)
              ∗ pt c (Memref.whole cc0_scratch8) ((Memref.whole cc0_scratch8).view.writes (Elt F) a17 L17)
              ∗ sems0 c ∗ ∃ W', owes (c : Thread nD τ) 0 W') -∗ Q ⟨⟩))
          ⊢ wp frame (wpE (defs₀ (F := F)) Variants.none c none) Set.univ (bodyAt i M2 hM2 M3 hM3 M5 hM5 M6 hM6 M7 hM7 M8 hM8) Q } := by
  refine ⟨?_, ?_, ?_, ?_, ?_, ?_, fun O W Q => ?run⟩
  case run =>
    unfold owns bodyAt
    iintro ⟨Ht, ⟨%f2, %hf2, H2⟩, ⟨%f3, %hf3, H3⟩, Hsim, HO, H9, H10, H12, H13, H14, H15, H16, H17, ⟨Hd0, Hd1⟩, HOw, Hk⟩
    obtain rfl := hM2.eq_unread hf2; obtain rfl := hM3.eq_unread hf3
    sl_exec_parts (disch := first | exact h1 | exact h2 | exact chkOfLt _ (hT _))
    sl_step
    iapply Hk
    isplitl [Ht]; · iexact Ht
    isplitl [H2]
    · iexists _; isplitr; · ipureintro; exact hM2.read_unread _
      iexact H2
    isplitl [H3]
    · iexists _; isplitr; · ipureintro; exact hM3.read_unread _
      iexact H3
    isplitl [Hsim]; · iexact Hsim
    isplitl [HO]; · iexact HO
    isplitl [H9]; · iexists _; iexact H9
    isplitl [H10]; · iexists _; iexact H10
    isplitl [H12]; · iexact H12
    isplitl [H13]; · iexact H13
    isplitl [H14]; · iexact H14
    isplitl [H15]; · iexact H15
    isplitl [H16]; · iexact H16
    isplitl [H17]; · iexact H17
    isplitl [Hd0 Hd1]
    · isplitl [Hd0]; · iexact Hd0
      iexact Hd1
    iexists _; iexact HOw

end Cert.Proof.KI

end
-- ==== Proof.KIRunC.lean ====
/-
  The kernel body at one grid point, case C: from the prefetched table of target words (every word below 10000), the
  staged blocks of the log-probabilities and of the mask, the similarity matrix left in HBM, the two row buffers, the two
  DMA semaphore cells at zero and the six (1,1) accumulators, the body runs to its return: sixty-four row copies are
  issued on the two cells alternately, each waited before its buffer is read and before the next copy into that buffer
  is issued, and every accumulator is overwritten sixty-four times by its old value plus the row's contribution.
  What each accumulator (and, at the last point, each output block) ends with is the list of pieces the run finds.
-/
import proofs.«419560_j5755256177164_3_alg».proof.Proof.Gen.KernelIdeal
import proofs.«419560_j5755256177164_3_alg».proof.Proof.Gen.KernelIdeal.Skeleton
import proofs.«419560_j5755256177164_3_alg».proof.Proof.Gen.KernelIdeal.Launch
import proofs.«419560_j5755256177164_3_alg».proof.Proof.KIRunDefs
import Idealize.ShloMosaic.Lib.Writes
import Idealize.ShloMosaic.Lib.Pipeline.FrameBody
import Idealize.ShloMosaic.Lib.Pipeline.Kit
import Idealize.ShloMosaic.Lib.Tactic

set_option maxRecDepth 65536

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

set_option maxHeartbeats 4000000 in
/-- The pieces each accumulator and each output block ends with at a point of case C, with the proof that the body runs there to its return handing
    back the table, the two input blocks and the matrix as they were, each output block with its pieces written, the two row
    buffers at some contents, each accumulator with its pieces written, both cells at zero, and the core owing nothing. -/
noncomputable def kernelRunC (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))
    (h1 : ¬ C1 i) (h2 : C2 i) :
    Σ' (L5 : List (View.Piece (Elt F) S1x1 .f32)) (L6 : List (View.Piece (Elt F) S1x1 .f32)) (L7 : List (View.Piece (Elt F) S1x1 .f32)) (L8 : List (View.Piece (Elt F) S1x1 .f32)) (L12 : List (View.Piece (Elt F) S1x1 .f32)) (L13 : List (View.Piece (Elt F) S1x1 .f32)) (L14 : List (View.Piece (Elt F) S1x1 .f32)) (L15 : List (View.Piece (Elt F) S1x1 .f32)) (L16 : List (View.Piece (Elt F) S1x1 .f32)), { L17 : List (View.Piece (Elt F) S1x1 .f32) //
      ∀ (W : Waits sig Unit) (Q : PUnit → sProp 𝕄),
        iprop(pt c (Memref.whole main_v2) tbl ∗ owns (c : Thread nD τ) M2 fullShare x2 ∗ owns (c : Thread nD τ) M3 fullShare x3
            ∗ pt c (Memref.whole main_arg1) sim ∗ (∃ d, owns (c : Thread nD τ) M5 fullShare d) ∗ (∃ d, owns (c : Thread nD τ) M6 fullShare d) ∗ (∃ d, owns (c : Thread nD τ) M7 fullShare d) ∗ (∃ d, owns (c : Thread nD τ) M8 fullShare d)
            ∗ pt c (Memref.whole cc0_scratch0) b9 ∗ pt c (Memref.whole cc0_scratch1) b10
            ∗ pt c (Memref.whole cc0_scratch3) a12 ∗ pt c (Memref.whole cc0_scratch4) a13 ∗ pt c (Memref.whole cc0_scratch5) a14 ∗ pt c (Memref.whole cc0_scratch6) a15 ∗ pt c (Memref.whole cc0_scratch7) a16 ∗ pt c (Memref.whole cc0_scratch8) a17
            ∗ sems0 c ∗ owes (c : Thread nD τ) 0 W
            ∗ (iprop(pt c (Memref.whole main_v2) tbl ∗ owns (c : Thread nD τ) M2 fullShare x2 ∗ owns (c : Thread nD τ) M3 fullShare x3
              ∗ pt c (Memref.whole main_arg1) sim ∗ (∃ f, M5.view.loc (c : Thread nD τ) ↦[M5.view.set]{fullShare} M5.view.writes (Elt F) f L5) ∗ (∃ f, M6.view.loc (c : Thread nD τ) ↦[M6.view.set]{fullShare} M6.view.writes (Elt F) f L6) ∗ (∃ f, M7.view.loc (c : Thread nD τ) ↦[M7.view.set]{fullShare} M7.view.writes (Elt F) f L7) ∗ (∃ f, M8.view.loc (c : Thread nD τ) ↦[M8.view.set]{fullShare} M8.view.writes (Elt F) f L8)
              ∗ (∃ f, pt c (Memref.whole cc0_scratch0) f) ∗ (∃ f, pt c (Memref.whole cc0_scratch1) f)
              ∗ pt c (Memref.whole cc0_scratch3) ((Memref.whole cc0_scratch3).view.writes (Elt F) a12 L12)
              ∗ pt c (Memref.whole cc0_scratch4) ((Memref.whole cc0_scratch4).view.writes (Elt F) a13 L13)
              ∗ pt c (Memref.whole cc0_scratch5) ((Memref.whole cc0_scratch5).view.writes (Elt F) a14 L14)
              ∗ pt c (Memref.whole cc0_scratch6) ((Memref.whole cc0_scratch6).view.writes (Elt F) a15 L15)
              ∗ pt c (Memref.whole cc0_scratch7) ((Memref.whole cc0_scratch7).view.writes (Elt F) a16 L16)
              ∗ pt c (Memref.whole cc0_scratch8) ((Memref.whole cc0_scratch8).view.writes (Elt F) a17 L17)
              ∗ sems0 c ∗ ∃ W', owes (c : Thread nD τ) 0 W') -∗ Q ⟨⟩))
          ⊢ wp frame (wpE (defs₀ (F := F)) Variants.none c none) Set.univ (bodyAt i M2 hM2 M3 hM3 M5 hM5 M6 hM6 M7 hM7 M8 hM8) Q } := by
  refine ⟨?_, ?_, ?_, ?_, ?_, ?_, ?_, ?_, ?_, ?_, fun W Q => ?run⟩
  case run =>
    unfold owns bodyAt
    iintro ⟨Ht, ⟨%f2, %hf2, H2⟩, ⟨%f3, %hf3, H3⟩, Hsim, ⟨%d5, %f5, %hf5, H5⟩, ⟨%d6, %f6, %hf6, H6⟩, ⟨%d7, %f7, %hf7, H7⟩, ⟨%d8, %f8, %hf8, H8⟩, H9, H10, H12, H13, H14, H15, H16, H17, ⟨Hd0, Hd1⟩, HOw, Hk⟩
    obtain rfl := hM2.eq_unread hf2; obtain rfl := hM3.eq_unread hf3
    obtain rfl := hM5.eq_unread hf5; obtain rfl := hM6.eq_unread hf6; obtain rfl := hM7.eq_unread hf7; obtain rfl := hM8.eq_unread hf8
    sl_exec_parts (disch := first | exact h1 | exact h2 | exact chkOfLt _ (hT _))
    sl_step
    iapply Hk
    isplitl [Ht]; · iexact Ht
    isplitl [H2]
    · iexists _; isplitr; · ipureintro; exact hM2.read_unread _
      iexact H2
    isplitl [H3]
    · iexists _; isplitr; · ipureintro; exact hM3.read_unread _
      iexact H3
    isplitl [Hsim]; · iexact Hsim
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H12]; · iexact H12
    isplitl [H13]; · iexact H13
    isplitl [H14]; · iexact H14
    isplitl [H15]; · iexact H15
    isplitl [H16]; · iexact H16
    isplitl [H17]; · iexact H17
    isplitl [Hd0 Hd1]
    · isplitl [Hd0]; · iexact Hd0
      iexact Hd1
    iexists _; iexact HOw

end Cert.Proof.KI

end
-- ==== Proof.KIStepLib.lean ====
/-
  What one grid point's run found, read piece by piece: the generic facts.

  A running sum's buffer is one-by-one and every write to it goes through the whole buffer, so a load after a
  list of writes reads the last write's payload, whatever came before; a row buffer is filled whole by a row
  copy, so a load after the copy reads what the copy read of the matrix, and that is the matrix row the copy's
  target word addresses; a table word read at an offset whose closed form is 64·i + r is row r's target word;
  a load of a row of a staged block reads the block's row. The sixty-four row steps of a point are taken one
  at a time: `rowsUpTo … n` is the record of running sums after the first n rows, `rowsUpTo … 64` is the
  point's step.
-/
import proofs.«419560_j5755256177164_3_alg».proof.Proof.KIPointData
import Idealize.ShloMosaic.Lib.Writes
import Idealize.ShloMosaic.Lib.Pipeline.FrameBody
import Idealize.ShloMosaic.Lib.Pipeline.Value

noncomputable section

namespace Cert.Proof.KI

open Cert.KernelIdeal Cert.KernelIdeal.Gen
open Idealize.ShloMosaic Idealize.ShloMosaic.TcCoe
open Idealize.SL Idealize.SL.Sem

variable {F : FTy → Type} [FloatOps F]

/-! ## Loads -/

/-- A table word read at an offset whose closed form is 64·i + r is row r's target word. -/
theorem word_of_off (c : Dev nD) (tbl : Bf (F := F) c (Memref.whole main_v2)) (i : grid0.Coords) (r : Fin 64)
    (off : Fin 1 → ℕ) (inb : ∀ a, off a + S1.size a ≤ S3072.size a) (h0)
    (h : off = ![64 * (i 0).val + r.val]) :
    View.readAt (Elt F) (Memref.whole main_v2).view (Rect.unit (s := S3072) off S1.size inb).toLoadRect tbl (Shape.Idx.first h0)
      = wordAt c tbl i r := by
  subst h; rfl

/-- A load of a whole buffer just after an unmasked write through the whole buffer reads what was written. -/
theorem load_after_fill {sig : RefSig} {κ : Kind} (b : Ref sig κ) (g : b.ty.Contents (Elt F)) (w : b.ty.shape.Idx → Elt F b.ty.elt)
    {off : Fin b.ty.shape.rank → ℕ} (hz : off = fun _ => 0) (inb : ∀ a, off a + b.ty.shape.size a ≤ b.ty.shape.size a) :
    View.readAt (Elt F) (Memref.whole b).view (Rect.unit off b.ty.shape.size inb).toLoadRect
      (View.write (Elt F) (Memref.whole b).view g w Finset.univ) = w := by
  rw [View.readAt_eq_ld, View.read_write_univ, View.ld_unit_zero hz]

/-- What a row copy reads of the matrix, for a word below 10000, is the matrix row the word addresses. -/
theorem copy_eq_simRow (c : Dev nD) (sim : Bf (F := F) c (Memref.whole main_arg1)) (w : BitVec 32) (h : w.toNat < 10000)
    (off : Fin 2 → ℕ) (ho : off = ![w.toNat, 0]) (inb : ∀ a, off a + S1x10000.size a ≤ S10000x10000.size a) (hs) :
    ReadAs.same.apply (View.read (Elt F) ((Memref.whole main_arg1).slice (Rect.unit (s := S10000x10000) off S1x10000.size inb) hs).view sim)
      = simRow c sim w := by
  subst ho
  unfold simRow; rw [dif_pos h]; rfl

/-- A load of row k of the staged input block, held whole at `x2`, reads `x2`'s row k. -/
theorem in_read (M2 : Memref sig .tc .vmem S64x10000 .f32) (hM2 : M2.IsWhole) (x2 : Vec F S64x10000 .f32) (k : ℕ) (hk : k < 64)
    (inb : ∀ a : Fin 2, (![k, 0] : Fin 2 → ℕ) a + S1x10000.size a ≤ S64x10000.size a) :
    View.readAt (Elt F) M2.view (Rect.unit (s := S64x10000) ![k, 0] S1x10000.size inb).toLoadRect (hM2.unread x2) = inRow x2 ⟨k, hk⟩ := by
  rw [View.readAt_eq_ld, hM2.read_unread]; rfl

/-- A load of entry k of the staged mask block, held whole at `x3`, reads `x3`'s entry k. -/
theorem mk_read (M3 : Memref sig .tc .vmem S64x1 .f32) (hM3 : M3.IsWhole) (x3 : Vec F S64x1 .f32) (k : ℕ) (hk : k < 64)
    (inb : ∀ a : Fin 2, (![k, 0] : Fin 2 → ℕ) a + S1x1.size a ≤ S64x1.size a) :
    View.readAt (Elt F) M3.view (Rect.unit (s := S64x1) ![k, 0] S1x1.size inb).toLoadRect (hM3.unread x3) = mkRow x3 ⟨k, hk⟩ := by
  rw [View.readAt_eq_ld, hM3.read_unread]; rfl

/-- A load through the last write's own rectangle, of the contents a list of writes left, reads that write's
    payload. -/
theorem read_last_write {sig : RefSig} {κ : Kind} {sp : Space} {s : Shape} {e : EltTy} (v : View sig κ sp s e)
    (f : v.ty.Contents (Elt F)) (r : Rect s) (w : r.shape.Idx → Elt F e) (L : List (View.Piece (Elt F) s e)) :
    v.readAt (Elt F) r.toLoadRect (v.writes (Elt F) f (⟨r, w⟩ :: L)) = w :=
  funext fun x => View.read_writes_cons_emb v f r w L x

/-! ## The rows of a point, one at a time -/

section Rows

variable (S X : Fin 64 → Vec F S1x10000 .f32) (M : Fin 64 → Vec F S1x1 .f32) (W : Fin 64 → BitVec 32) (a : Acc F)

/-- The running sums after the first `n` rows of a point (all sixty-four from `n = 64` on). -/
def rowsUpTo : ℕ → Acc F
  | 0 => a
  | n + 1 => if h : n < 64 then rowStep (S ⟨n, h⟩) (X ⟨n, h⟩) (M ⟨n, h⟩) (W ⟨n, h⟩) (rowsUpTo n) else rowsUpTo n

theorem rowsUpTo_zero : rowsUpTo S X M W a 0 = a := rfl

theorem rowsUpTo_succ (n : ℕ) (h : n < 64) :
    rowsUpTo S X M W a (n + 1) = rowStep (S ⟨n, h⟩) (X ⟨n, h⟩) (M ⟨n, h⟩) (W ⟨n, h⟩) (rowsUpTo S X M W a n) := by
  show (if h : n < 64 then _ else _) = _
  rw [dif_pos h]

/-- Folding over the first `n` indices of `Fin 64`, in order. -/
theorem foldl_finRange_take (n : ℕ) (hn : n ≤ 64) :
    ((List.finRange 64).take n).foldl (fun a r => rowStep (S r) (X r) (M r) (W r) a) a = rowsUpTo S X M W a n := by
  induction n with
  | zero => rfl
  | succ n ih =>
    have hlt : n < 64 := hn
    have hlen : n < (List.finRange 64).length := by rw [List.length_finRange]; exact hlt
    rw [List.take_succ_eq_append_getElem hlen, List.foldl_append, ih (Nat.le_of_lt hlt), rowsUpTo_succ S X M W a n hlt]
    simp only [List.foldl_cons, List.foldl_nil, List.getElem_finRange, Fin.cast_mk]

/-- A point's step is its sixty-four rows, one at a time. -/
theorem pointStep_eq_rowsUpTo : pointStep S X M W a = rowsUpTo S X M W a 64 := by
  have h := foldl_finRange_take S X M W a 64 (Nat.le_refl _)
  rw [List.take_of_length_le (by rw [List.length_finRange])] at h
  exact h

end Rows

/-- Two records of running sums with the same six fields are the same. -/
theorem Acc.ext6 {a b : Acc F} (h1 : a.m = b.m) (h2 : a.logp = b.logp) (h3 : a.w = b.w) (h4 : a.nf = b.nf)
    (h5 : a.s = b.s) (h6 : a.q = b.q) : a = b := by
  cases a; cases b; cases h1; cases h2; cases h3; cases h4; cases h5; cases h6; rfl

/-! ## The running sums of a point after its first n rows, from the point's data -/

/-- The running sums after the first `n` rows of grid point `i`, started from `a`. -/
def rowsOf (c : Dev nD) (tbl : Bf (F := F) c (Memref.whole main_v2)) (i : grid0.Coords)
    (sim : Bf (F := F) c (Memref.whole main_arg1)) (x2 : Vec F S64x10000 .f32) (x3 : Vec F S64x1 .f32) (a : Acc F) (n : ℕ) : Acc F :=
  rowsUpTo (fun r => simRow c sim (wordAt c tbl i r)) (inRow x2) (mkRow x3) (wordAt c tbl i) a n

section RowsOf

variable (c : Dev nD) (tbl : Bf (F := F) c (Memref.whole main_v2)) (i : grid0.Coords)
  (sim : Bf (F := F) c (Memref.whole main_arg1)) (x2 : Vec F S64x10000 .f32) (x3 : Vec F S64x1 .f32) (a : Acc F)

theorem pointOf_eq_rowsOf : pointOf c tbl i sim x2 x3 a = rowsOf c tbl i sim x2 x3 a 64 :=
  pointStep_eq_rowsUpTo _ _ _ _ _

theorem rowsOf_zero : rowsOf c tbl i sim x2 x3 a 0 = a := rfl

theorem rowsOf_succ (n : ℕ) (h : n < 64) :
    rowsOf c tbl i sim x2 x3 a (n + 1) =
      rowStep (simRow c sim (wordAt c tbl i ⟨n, h⟩)) (inRow x2 ⟨n, h⟩) (mkRow x3 ⟨n, h⟩) (wordAt c tbl i ⟨n, h⟩) (rowsOf c tbl i sim x2 x3 a n) :=
  rowsUpTo_succ _ _ _ _ _ n h

theorem rowsOf_m (n : ℕ) (h : n < 64) :
    (rowsOf c tbl i sim x2 x3 a (n + 1)).m = accAdd (rowsOf c tbl i sim x2 x3 a n).m (dM (mkRow x3 ⟨n, h⟩)) := by
  rw [rowsOf_succ c tbl i sim x2 x3 a n h]; rfl
theorem rowsOf_logp (n : ℕ) (h : n < 64) :
    (rowsOf c tbl i sim x2 x3 a (n + 1)).logp = accAdd (rowsOf c tbl i sim x2 x3 a n).logp (dLogp (inRow x2 ⟨n, h⟩) (wordAt c tbl i ⟨n, h⟩) (mkRow x3 ⟨n, h⟩)) := by
  rw [rowsOf_succ c tbl i sim x2 x3 a n h]; rfl
theorem rowsOf_w (n : ℕ) (h : n < 64) :
    (rowsOf c tbl i sim x2 x3 a (n + 1)).w = accAdd (rowsOf c tbl i sim x2 x3 a n).w (dW (simRow c sim (wordAt c tbl i ⟨n, h⟩)) (mkRow x3 ⟨n, h⟩)) := by
  rw [rowsOf_succ c tbl i sim x2 x3 a n h]; rfl
theorem rowsOf_nf (n : ℕ) (h : n < 64) :
    (rowsOf c tbl i sim x2 x3 a (n + 1)).nf = accAdd (rowsOf c tbl i sim x2 x3 a n).nf (dNF (simRow c sim (wordAt c tbl i ⟨n, h⟩)) (inRow x2 ⟨n, h⟩) (mkRow x3 ⟨n, h⟩)) := by
  rw [rowsOf_succ c tbl i sim x2 x3 a n h]; rfl
theorem rowsOf_s (n : ℕ) (h : n < 64) :
    (rowsOf c tbl i sim x2 x3 a (n + 1)).s = accAdd (rowsOf c tbl i sim x2 x3 a n).s (dS (simRow c sim (wordAt c tbl i ⟨n, h⟩))) := by
  rw [rowsOf_succ c tbl i sim x2 x3 a n h]; rfl
theorem rowsOf_q (n : ℕ) (h : n < 64) :
    (rowsOf c tbl i sim x2 x3 a (n + 1)).q = accAdd (rowsOf c tbl i sim x2 x3 a n).q (dQ (simRow c sim (wordAt c tbl i ⟨n, h⟩))) := by
  rw [rowsOf_succ c tbl i sim x2 x3 a n h]; rfl

end RowsOf

end Cert.Proof.KI

end
-- ==== Proof.KIStepATabW.lean ====
import proofs.«419560_j5755256177164_3_alg».proof.Proof.KIRunA
import proofs.«419560_j5755256177164_3_alg».proof.Proof.KIStepLib

/-!
  The table of case A: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.KI

open Cert.KernelIdeal Cert.KernelIdeal.Gen
open Idealize.ShloMosaic Idealize.ShloMosaic.TcCoe
open Idealize.SL Idealize.SL.Sem

variable {F : FTy → Type} [FloatOps F]

namespace TabA

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

theorem W_r : kernelRunA.sl.r c i tbl = wordAt c tbl i ⟨0, by decide⟩ := by
  unfold kernelRunA.sl.r; exact word_of_off c tbl i ⟨0, by decide⟩ _ _ _ (k0_off1_eq i)
theorem W_r_2 : kernelRunA.sl.r_2 c i tbl = wordAt c tbl i ⟨0, by decide⟩ := by
  unfold kernelRunA.sl.r_2; exact word_of_off c tbl i ⟨0, by decide⟩ _ _ _ (k0_off5_eq i ⟨0, by decide⟩)
theorem W_r_1 : kernelRunA.sl.r_1 c i tbl = wordAt c tbl i ⟨1, by decide⟩ := by
  unfold kernelRunA.sl.r_1; exact word_of_off c tbl i ⟨1, by decide⟩ _ _ _ (k0_off3_eq i)
theorem W_r_12 : kernelRunA.sl.r_12 c i tbl = wordAt c tbl i ⟨1, by decide⟩ := by
  unfold kernelRunA.sl.r_12; exact word_of_off c tbl i ⟨1, by decide⟩ _ _ _ (k0_off7_eq i ⟨0, by decide⟩)
theorem W_r_11 : kernelRunA.sl.r_11 c i tbl = wordAt c tbl i ⟨2, by decide⟩ := by
  unfold kernelRunA.sl.r_11; exact word_of_off c tbl i ⟨2, by decide⟩ _ _ _ (k0_off5_eq i ⟨1, by decide⟩)
theorem W_r_21 : kernelRunA.sl.r_21 c i tbl = wordAt c tbl i ⟨2, by decide⟩ := by
  unfold kernelRunA.sl.r_21; exact word_of_off c tbl i ⟨2, by decide⟩ _ _ _ (k0_off9_eq i ⟨0, by decide⟩)
theorem W_r_20 : kernelRunA.sl.r_20 c i tbl = wordAt c tbl i ⟨3, by decide⟩ := by
  unfold kernelRunA.sl.r_20; exact word_of_off c tbl i ⟨3, by decide⟩ _ _ _ (k0_off7_eq i ⟨1, by decide⟩)
theorem W_r_31 : kernelRunA.sl.r_31 c i tbl = wordAt c tbl i ⟨3, by decide⟩ := by
  unfold kernelRunA.sl.r_31; exact word_of_off c tbl i ⟨3, by decide⟩ _ _ _ (k0_off11_eq i ⟨0, by decide⟩)
theorem W_r_30 : kernelRunA.sl.r_30 c i tbl = wordAt c tbl i ⟨4, by decide⟩ := by
  unfold kernelRunA.sl.r_30; exact word_of_off c tbl i ⟨4, by decide⟩ _ _ _ (k0_off9_eq i ⟨1, by decide⟩)
theorem W_r_41 : kernelRunA.sl.r_41 c i tbl = wordAt c tbl i ⟨4, by decide⟩ := by
  unfold kernelRunA.sl.r_41; exact word_of_off c tbl i ⟨4, by decide⟩ _ _ _ (k0_off13_eq i ⟨0, by decide⟩)
theorem W_r_40 : kernelRunA.sl.r_40 c i tbl = wordAt c tbl i ⟨5, by decide⟩ := by
  unfold kernelRunA.sl.r_40; exact word_of_off c tbl i ⟨5, by decide⟩ _ _ _ (k0_off11_eq i ⟨1, by decide⟩)
theorem W_r_50 : kernelRunA.sl.r_50 c i tbl = wordAt c tbl i ⟨5, by decide⟩ := by
  unfold kernelRunA.sl.r_50; exact word_of_off c tbl i ⟨5, by decide⟩ _ _ _ (k0_off15_eq i ⟨0, by decide⟩)
theorem W_r_49 : kernelRunA.sl.r_49 c i tbl = wordAt c tbl i ⟨6, by decide⟩ := by
  unfold kernelRunA.sl.r_49; exact word_of_off c tbl i ⟨6, by decide⟩ _ _ _ (k0_off13_eq i ⟨1, by decide⟩)
theorem W_r_59 : kernelRunA.sl.r_59 c i tbl = wordAt c tbl i ⟨6, by decide⟩ := by
  unfold kernelRunA.sl.r_59; exact word_of_off c tbl i ⟨6, by decide⟩ _ _ _ (k0_off17_eq i ⟨0, by decide⟩)
theorem W_r_58 : kernelRunA.sl.r_58 c i tbl = wordAt c tbl i ⟨7, by decide⟩ := by
  unfold kernelRunA.sl.r_58; exact word_of_off c tbl i ⟨7, by decide⟩ _ _ _ (k0_off15_eq i ⟨1, by decide⟩)
theorem W_r_68 : kernelRunA.sl.r_68 c i tbl = wordAt c tbl i ⟨7, by decide⟩ := by
  unfold kernelRunA.sl.r_68; exact word_of_off c tbl i ⟨7, by decide⟩ _ _ _ (k0_off19_eq i ⟨0, by decide⟩)
theorem W_r_67 : kernelRunA.sl.r_67 c i tbl = wordAt c tbl i ⟨8, by decide⟩ := by
  unfold kernelRunA.sl.r_67; exact word_of_off c tbl i ⟨8, by decide⟩ _ _ _ (k0_off17_eq i ⟨1, by decide⟩)
theorem W_r_76 : kernelRunA.sl.r_76 c i tbl = wordAt c tbl i ⟨8, by decide⟩ := by
  unfold kernelRunA.sl.r_76; exact word_of_off c tbl i ⟨8, by decide⟩ _ _ _ (k0_off21_eq i ⟨0, by decide⟩)
theorem W_r_75 : kernelRunA.sl.r_75 c i tbl = wordAt c tbl i ⟨9, by decide⟩ := by
  unfold kernelRunA.sl.r_75; exact word_of_off c tbl i ⟨9, by decide⟩ _ _ _ (k0_off19_eq i ⟨1, by decide⟩)
theorem W_r_86 : kernelRunA.sl.r_86 c i tbl = wordAt c tbl i ⟨9, by decide⟩ := by
  unfold kernelRunA.sl.r_86; exact word_of_off c tbl i ⟨9, by decide⟩ _ _ _ (k0_off23_eq i ⟨0, by decide⟩)
theorem W_r_83 : kernelRunA.sl.r_83 c i tbl = wordAt c tbl i ⟨10, by decide⟩ := by
  unfold kernelRunA.sl.r_83; exact word_of_off c tbl i ⟨10, by decide⟩ _ _ _ (k0_off21_eq i ⟨1, by decide⟩)
theorem W_r_93 : kernelRunA.sl.r_93 c i tbl = wordAt c tbl i ⟨10, by decide⟩ := by
  unfold kernelRunA.sl.r_93; exact word_of_off c tbl i ⟨10, by decide⟩ _ _ _ (k0_off25_eq i ⟨0, by decide⟩)
theorem W_r_102 : kernelRunA.sl.r_102 c i tbl = wordAt c tbl i ⟨11, by decide⟩ := by
  unfold kernelRunA.sl.r_102; exact word_of_off c tbl i ⟨11, by decide⟩ _ _ _ (k0_off27_eq i ⟨0, by decide⟩)
theorem W_r_92 : kernelRunA.sl.r_92 c i tbl = wordAt c tbl i ⟨11, by decide⟩ := by
  unfold kernelRunA.sl.r_92; exact word_of_off c tbl i ⟨11, by decide⟩ _ _ _ (k0_off23_eq i ⟨1, by decide⟩)
theorem W_r_101 : kernelRunA.sl.r_101 c i tbl = wordAt c tbl i ⟨12, by decide⟩ := by
  unfold kernelRunA.sl.r_101; exact word_of_off c tbl i ⟨12, by decide⟩ _ _ _ (k0_off25_eq i ⟨1, by decide⟩)
theorem W_r_114 : kernelRunA.sl.r_114 c i tbl = wordAt c tbl i ⟨12, by decide⟩ := by
  unfold kernelRunA.sl.r_114; exact word_of_off c tbl i ⟨12, by decide⟩ _ _ _ (k0_off29_eq i ⟨0, by decide⟩)
theorem W_r_111 : kernelRunA.sl.r_111 c i tbl = wordAt c tbl i ⟨13, by decide⟩ := by
  unfold kernelRunA.sl.r_111; exact word_of_off c tbl i ⟨13, by decide⟩ _ _ _ (k0_off27_eq i ⟨1, by decide⟩)
theorem W_r_123 : kernelRunA.sl.r_123 c i tbl = wordAt c tbl i ⟨13, by decide⟩ := by
  unfold kernelRunA.sl.r_123; exact word_of_off c tbl i ⟨13, by decide⟩ _ _ _ (k0_off31_eq i ⟨0, by decide⟩)
theorem W_r_122 : kernelRunA.sl.r_122 c i tbl = wordAt c tbl i ⟨14, by decide⟩ := by
  unfold kernelRunA.sl.r_122; exact word_of_off c tbl i ⟨14, by decide⟩ _ _ _ (k0_off29_eq i ⟨1, by decide⟩)
theorem W_r_133 : kernelRunA.sl.r_133 c i tbl = wordAt c tbl i ⟨14, by decide⟩ := by
  unfold kernelRunA.sl.r_133; exact word_of_off c tbl i ⟨14, by decide⟩ _ _ _ (k0_off33_eq i ⟨0, by decide⟩)
theorem W_r_132 : kernelRunA.sl.r_132 c i tbl = wordAt c tbl i ⟨15, by decide⟩ := by
  unfold kernelRunA.sl.r_132; exact word_of_off c tbl i ⟨15, by decide⟩ _ _ _ (k0_off31_eq i ⟨1, by decide⟩)
theorem W_r_144 : kernelRunA.sl.r_144 c i tbl = wordAt c tbl i ⟨15, by decide⟩ := by
  unfold kernelRunA.sl.r_144; exact word_of_off c tbl i ⟨15, by decide⟩ _ _ _ (k0_off35_eq i ⟨0, by decide⟩)
theorem W_r_142 : kernelRunA.sl.r_142 c i tbl = wordAt c tbl i ⟨16, by decide⟩ := by
  unfold kernelRunA.sl.r_142; exact word_of_off c tbl i ⟨16, by decide⟩ _ _ _ (k0_off33_eq i ⟨1, by decide⟩)
theorem W_r_153 : kernelRunA.sl.r_153 c i tbl = wordAt c tbl i ⟨16, by decide⟩ := by
  unfold kernelRunA.sl.r_153; exact word_of_off c tbl i ⟨16, by decide⟩ _ _ _ (k0_off37_eq i ⟨0, by decide⟩)
theorem W_r_152 : kernelRunA.sl.r_152 c i tbl = wordAt c tbl i ⟨17, by decide⟩ := by
  unfold kernelRunA.sl.r_152; exact word_of_off c tbl i ⟨17, by decide⟩ _ _ _ (k0_off35_eq i ⟨1, by decide⟩)
theorem W_r_162 : kernelRunA.sl.r_162 c i tbl = wordAt c tbl i ⟨17, by decide⟩ := by
  unfold kernelRunA.sl.r_162; exact word_of_off c tbl i ⟨17, by decide⟩ _ _ _ (k0_off39_eq i ⟨0, by decide⟩)
theorem W_r_161 : kernelRunA.sl.r_161 c i tbl = wordAt c tbl i ⟨18, by decide⟩ := by
  unfold kernelRunA.sl.r_161; exact word_of_off c tbl i ⟨18, by decide⟩ _ _ _ (k0_off37_eq i ⟨1, by decide⟩)
theorem W_r_172 : kernelRunA.sl.r_172 c i tbl = wordAt c tbl i ⟨18, by decide⟩ := by
  unfold kernelRunA.sl.r_172; exact word_of_off c tbl i ⟨18, by decide⟩ _ _ _ (k0_off41_eq i ⟨0, by decide⟩)
theorem W_r_171 : kernelRunA.sl.r_171 c i tbl = wordAt c tbl i ⟨19, by decide⟩ := by
  unfold kernelRunA.sl.r_171; exact word_of_off c tbl i ⟨19, by decide⟩ _ _ _ (k0_off39_eq i ⟨1, by decide⟩)
theorem W_r_180 : kernelRunA.sl.r_180 c i tbl = wordAt c tbl i ⟨19, by decide⟩ := by
  unfold kernelRunA.sl.r_180; exact word_of_off c tbl i ⟨19, by decide⟩ _ _ _ (k0_off43_eq i ⟨0, by decide⟩)
theorem W_r_179 : kernelRunA.sl.r_179 c i tbl = wordAt c tbl i ⟨20, by decide⟩ := by
  unfold kernelRunA.sl.r_179; exact word_of_off c tbl i ⟨20, by decide⟩ _ _ _ (k0_off41_eq i ⟨1, by decide⟩)
theorem W_r_189 : kernelRunA.sl.r_189 c i tbl = wordAt c tbl i ⟨20, by decide⟩ := by
  unfold kernelRunA.sl.r_189; exact word_of_off c tbl i ⟨20, by decide⟩ _ _ _ (k0_off45_eq i ⟨0, by decide⟩)
theorem W_r_188 : kernelRunA.sl.r_188 c i tbl = wordAt c tbl i ⟨21, by decide⟩ := by
  unfold kernelRunA.sl.r_188; exact word_of_off c tbl i ⟨21, by decide⟩ _ _ _ (k0_off43_eq i ⟨1, by decide⟩)
theorem W_r_199 : kernelRunA.sl.r_199 c i tbl = wordAt c tbl i ⟨21, by decide⟩ := by
  unfold kernelRunA.sl.r_199; exact word_of_off c tbl i ⟨21, by decide⟩ _ _ _ (k0_off47_eq i ⟨0, by decide⟩)
theorem W_r_198 : kernelRunA.sl.r_198 c i tbl = wordAt c tbl i ⟨22, by decide⟩ := by
  unfold kernelRunA.sl.r_198; exact word_of_off c tbl i ⟨22, by decide⟩ _ _ _ (k0_off45_eq i ⟨1, by decide⟩)
theorem W_r_208 : kernelRunA.sl.r_208 c i tbl = wordAt c tbl i ⟨22, by decide⟩ := by
  unfold kernelRunA.sl.r_208; exact word_of_off c tbl i ⟨22, by decide⟩ _ _ _ (k0_off49_eq i ⟨0, by decide⟩)
theorem W_r_207 : kernelRunA.sl.r_207 c i tbl = wordAt c tbl i ⟨23, by decide⟩ := by
  unfold kernelRunA.sl.r_207; exact word_of_off c tbl i ⟨23, by decide⟩ _ _ _ (k0_off47_eq i ⟨1, by decide⟩)
theorem W_r_218 : kernelRunA.sl.r_218 c i tbl = wordAt c tbl i ⟨23, by decide⟩ := by
  unfold kernelRunA.sl.r_218; exact word_of_off c tbl i ⟨23, by decide⟩ _ _ _ (k0_off51_eq i ⟨0, by decide⟩)
theorem W_r_217 : kernelRunA.sl.r_217 c i tbl = wordAt c tbl i ⟨24, by decide⟩ := by
  unfold kernelRunA.sl.r_217; exact word_of_off c tbl i ⟨24, by decide⟩ _ _ _ (k0_off49_eq i ⟨1, by decide⟩)
theorem W_r_228 : kernelRunA.sl.r_228 c i tbl = wordAt c tbl i ⟨24, by decide⟩ := by
  unfold kernelRunA.sl.r_228; exact word_of_off c tbl i ⟨24, by decide⟩ _ _ _ (k0_off53_eq i ⟨0, by decide⟩)
theorem W_r_227 : kernelRunA.sl.r_227 c i tbl = wordAt c tbl i ⟨25, by decide⟩ := by
  unfold kernelRunA.sl.r_227; exact word_of_off c tbl i ⟨25, by decide⟩ _ _ _ (k0_off51_eq i ⟨1, by decide⟩)
theorem W_r_237 : kernelRunA.sl.r_237 c i tbl = wordAt c tbl i ⟨25, by decide⟩ := by
  unfold kernelRunA.sl.r_237; exact word_of_off c tbl i ⟨25, by decide⟩ _ _ _ (k0_off55_eq i ⟨0, by decide⟩)
theorem W_r_236 : kernelRunA.sl.r_236 c i tbl = wordAt c tbl i ⟨26, by decide⟩ := by
  unfold kernelRunA.sl.r_236; exact word_of_off c tbl i ⟨26, by decide⟩ _ _ _ (k0_off53_eq i ⟨1, by decide⟩)
theorem W_r_246 : kernelRunA.sl.r_246 c i tbl = wordAt c tbl i ⟨26, by decide⟩ := by
  unfold kernelRunA.sl.r_246; exact word_of_off c tbl i ⟨26, by decide⟩ _ _ _ (k0_off57_eq i ⟨0, by decide⟩)
theorem W_r_245 : kernelRunA.sl.r_245 c i tbl = wordAt c tbl i ⟨27, by decide⟩ := by
  unfold kernelRunA.sl.r_245; exact word_of_off c tbl i ⟨27, by decide⟩ _ _ _ (k0_off55_eq i ⟨1, by decide⟩)
theorem W_r_255 : kernelRunA.sl.r_255 c i tbl = wordAt c tbl i ⟨27, by decide⟩ := by
  unfold kernelRunA.sl.r_255; exact word_of_off c tbl i ⟨27, by decide⟩ _ _ _ (k0_off59_eq i ⟨0, by decide⟩)
theorem W_r_254 : kernelRunA.sl.r_254 c i tbl = wordAt c tbl i ⟨28, by decide⟩ := by
  unfold kernelRunA.sl.r_254; exact word_of_off c tbl i ⟨28, by decide⟩ _ _ _ (k0_off57_eq i ⟨1, by decide⟩)
theorem W_r_263 : kernelRunA.sl.r_263 c i tbl = wordAt c tbl i ⟨28, by decide⟩ := by
  unfold kernelRunA.sl.r_263; exact word_of_off c tbl i ⟨28, by decide⟩ _ _ _ (k0_off61_eq i ⟨0, by decide⟩)
theorem W_r_262 : kernelRunA.sl.r_262 c i tbl = wordAt c tbl i ⟨29, by decide⟩ := by
  unfold kernelRunA.sl.r_262; exact word_of_off c tbl i ⟨29, by decide⟩ _ _ _ (k0_off59_eq i ⟨1, by decide⟩)
theorem W_r_273 : kernelRunA.sl.r_273 c i tbl = wordAt c tbl i ⟨29, by decide⟩ := by
  unfold kernelRunA.sl.r_273; exact word_of_off c tbl i ⟨29, by decide⟩ _ _ _ (k0_off63_eq i ⟨0, by decide⟩)
theorem W_r_270 : kernelRunA.sl.r_270 c i tbl = wordAt c tbl i ⟨30, by decide⟩ := by
  unfold kernelRunA.sl.r_270; exact word_of_off c tbl i ⟨30, by decide⟩ _ _ _ (k0_off61_eq i ⟨1, by decide⟩)
theorem W_r_280 : kernelRunA.sl.r_280 c i tbl = wordAt c tbl i ⟨30, by decide⟩ := by
  unfold kernelRunA.sl.r_280; exact word_of_off c tbl i ⟨30, by decide⟩ _ _ _ (k0_off65_eq i ⟨0, by decide⟩)
theorem W_r_279 : kernelRunA.sl.r_279 c i tbl = wordAt c tbl i ⟨31, by decide⟩ := by
  unfold kernelRunA.sl.r_279; exact word_of_off c tbl i ⟨31, by decide⟩ _ _ _ (k0_off63_eq i ⟨1, by decide⟩)
theorem W_r_289 : kernelRunA.sl.r_289 c i tbl = wordAt c tbl i ⟨31, by decide⟩ := by
  unfold kernelRunA.sl.r_289; exact word_of_off c tbl i ⟨31, by decide⟩ _ _ _ (k0_off67_eq i ⟨0, by decide⟩)
theorem W_r_288 : kernelRunA.sl.r_288 c i tbl = wordAt c tbl i ⟨32, by decide⟩ := by
  unfold kernelRunA.sl.r_288; exact word_of_off c tbl i ⟨32, by decide⟩ _ _ _ (k0_off65_eq i ⟨1, by decide⟩)
theorem W_r_301 : kernelRunA.sl.r_301 c i tbl = wordAt c tbl i ⟨32, by decide⟩ := by
  unfold kernelRunA.sl.r_301; exact word_of_off c tbl i ⟨32, by decide⟩ _ _ _ (k0_off69_eq i ⟨0, by decide⟩)
theorem W_r_298 : kernelRunA.sl.r_298 c i tbl = wordAt c tbl i ⟨33, by decide⟩ := by
  unfold kernelRunA.sl.r_298; exact word_of_off c tbl i ⟨33, by decide⟩ _ _ _ (k0_off67_eq i ⟨1, by decide⟩)
theorem W_r_310 : kernelRunA.sl.r_310 c i tbl = wordAt c tbl i ⟨33, by decide⟩ := by
  unfold kernelRunA.sl.r_310; exact word_of_off c tbl i ⟨33, by decide⟩ _ _ _ (k0_off71_eq i ⟨0, by decide⟩)
theorem W_r_309 : kernelRunA.sl.r_309 c i tbl = wordAt c tbl i ⟨34, by decide⟩ := by
  unfold kernelRunA.sl.r_309; exact word_of_off c tbl i ⟨34, by decide⟩ _ _ _ (k0_off69_eq i ⟨1, by decide⟩)
theorem W_r_320 : kernelRunA.sl.r_320 c i tbl = wordAt c tbl i ⟨34, by decide⟩ := by
  unfold kernelRunA.sl.r_320; exact word_of_off c tbl i ⟨34, by decide⟩ _ _ _ (k0_off73_eq i ⟨0, by decide⟩)
theorem W_r_319 : kernelRunA.sl.r_319 c i tbl = wordAt c tbl i ⟨35, by decide⟩ := by
  unfold kernelRunA.sl.r_319; exact word_of_off c tbl i ⟨35, by decide⟩ _ _ _ (k0_off71_eq i ⟨1, by decide⟩)
theorem W_r_331 : kernelRunA.sl.r_331 c i tbl = wordAt c tbl i ⟨35, by decide⟩ := by
  unfold kernelRunA.sl.r_331; exact word_of_off c tbl i ⟨35, by decide⟩ _ _ _ (k0_off75_eq i ⟨0, by decide⟩)
theorem W_r_329 : kernelRunA.sl.r_329 c i tbl = wordAt c tbl i ⟨36, by decide⟩ := by
  unfold kernelRunA.sl.r_329; exact word_of_off c tbl i ⟨36, by decide⟩ _ _ _ (k0_off73_eq i ⟨1, by decide⟩)
theorem W_r_340 : kernelRunA.sl.r_340 c i tbl = wordAt c tbl i ⟨36, by decide⟩ := by
  unfold kernelRunA.sl.r_340; exact word_of_off c tbl i ⟨36, by decide⟩ _ _ _ (k0_off77_eq i ⟨0, by decide⟩)
theorem W_r_339 : kernelRunA.sl.r_339 c i tbl = wordAt c tbl i ⟨37, by decide⟩ := by
  unfold kernelRunA.sl.r_339; exact word_of_off c tbl i ⟨37, by decide⟩ _ _ _ (k0_off75_eq i ⟨1, by decide⟩)
theorem W_r_349 : kernelRunA.sl.r_349 c i tbl = wordAt c tbl i ⟨37, by decide⟩ := by
  unfold kernelRunA.sl.r_349; exact word_of_off c tbl i ⟨37, by decide⟩ _ _ _ (k0_off79_eq i ⟨0, by decide⟩)
theorem W_r_348 : kernelRunA.sl.r_348 c i tbl = wordAt c tbl i ⟨38, by decide⟩ := by
  unfold kernelRunA.sl.r_348; exact word_of_off c tbl i ⟨38, by decide⟩ _ _ _ (k0_off77_eq i ⟨1, by decide⟩)
theorem W_r_359 : kernelRunA.sl.r_359 c i tbl = wordAt c tbl i ⟨38, by decide⟩ := by
  unfold kernelRunA.sl.r_359; exact word_of_off c tbl i ⟨38, by decide⟩ _ _ _ (k0_off81_eq i ⟨0, by decide⟩)
theorem W_r_358 : kernelRunA.sl.r_358 c i tbl = wordAt c tbl i ⟨39, by decide⟩ := by
  unfold kernelRunA.sl.r_358; exact word_of_off c tbl i ⟨39, by decide⟩ _ _ _ (k0_off79_eq i ⟨1, by decide⟩)
theorem W_r_367 : kernelRunA.sl.r_367 c i tbl = wordAt c tbl i ⟨39, by decide⟩ := by
  unfold kernelRunA.sl.r_367; exact word_of_off c tbl i ⟨39, by decide⟩ _ _ _ (k0_off83_eq i ⟨0, by decide⟩)
theorem W_r_366 : kernelRunA.sl.r_366 c i tbl = wordAt c tbl i ⟨40, by decide⟩ := by
  unfold kernelRunA.sl.r_366; exact word_of_off c tbl i ⟨40, by decide⟩ _ _ _ (k0_off81_eq i ⟨1, by decide⟩)
theorem W_r_376 : kernelRunA.sl.r_376 c i tbl = wordAt c tbl i ⟨40, by decide⟩ := by
  unfold kernelRunA.sl.r_376; exact word_of_off c tbl i ⟨40, by decide⟩ _ _ _ (k0_off85_eq i ⟨0, by decide⟩)
theorem W_r_375 : kernelRunA.sl.r_375 c i tbl = wordAt c tbl i ⟨41, by decide⟩ := by
  unfold kernelRunA.sl.r_375; exact word_of_off c tbl i ⟨41, by decide⟩ _ _ _ (k0_off83_eq i ⟨1, by decide⟩)
theorem W_r_386 : kernelRunA.sl.r_386 c i tbl = wordAt c tbl i ⟨41, by decide⟩ := by
  unfold kernelRunA.sl.r_386; exact word_of_off c tbl i ⟨41, by decide⟩ _ _ _ (k0_off87_eq i ⟨0, by decide⟩)
theorem W_r_385 : kernelRunA.sl.r_385 c i tbl = wordAt c tbl i ⟨42, by decide⟩ := by
  unfold kernelRunA.sl.r_385; exact word_of_off c tbl i ⟨42, by decide⟩ _ _ _ (k0_off85_eq i ⟨1, by decide⟩)
theorem W_r_395 : kernelRunA.sl.r_395 c i tbl = wordAt c tbl i ⟨42, by decide⟩ := by
  unfold kernelRunA.sl.r_395; exact word_of_off c tbl i ⟨42, by decide⟩ _ _ _ (k0_off89_eq i ⟨0, by decide⟩)
theorem W_r_394 : kernelRunA.sl.r_394 c i tbl = wordAt c tbl i ⟨43, by decide⟩ := by
  unfold kernelRunA.sl.r_394; exact word_of_off c tbl i ⟨43, by decide⟩ _ _ _ (k0_off87_eq i ⟨1, by decide⟩)
theorem W_r_405 : kernelRunA.sl.r_405 c i tbl = wordAt c tbl i ⟨43, by decide⟩ := by
  unfold kernelRunA.sl.r_405; exact word_of_off c tbl i ⟨43, by decide⟩ _ _ _ (k0_off91_eq i ⟨0, by decide⟩)
theorem W_r_404 : kernelRunA.sl.r_404 c i tbl = wordAt c tbl i ⟨44, by decide⟩ := by
  unfold kernelRunA.sl.r_404; exact word_of_off c tbl i ⟨44, by decide⟩ _ _ _ (k0_off89_eq i ⟨1, by decide⟩)
theorem W_r_415 : kernelRunA.sl.r_415 c i tbl = wordAt c tbl i ⟨44, by decide⟩ := by
  unfold kernelRunA.sl.r_415; exact word_of_off c tbl i ⟨44, by decide⟩ _ _ _ (k0_off93_eq i ⟨0, by decide⟩)
theorem W_r_414 : kernelRunA.sl.r_414 c i tbl = wordAt c tbl i ⟨45, by decide⟩ := by
  unfold kernelRunA.sl.r_414; exact word_of_off c tbl i ⟨45, by decide⟩ _ _ _ (k0_off91_eq i ⟨1, by decide⟩)
theorem W_r_424 : kernelRunA.sl.r_424 c i tbl = wordAt c tbl i ⟨45, by decide⟩ := by
  unfold kernelRunA.sl.r_424; exact word_of_off c tbl i ⟨45, by decide⟩ _ _ _ (k0_off95_eq i ⟨0, by decide⟩)
theorem W_r_423 : kernelRunA.sl.r_423 c i tbl = wordAt c tbl i ⟨46, by decide⟩ := by
  unfold kernelRunA.sl.r_423; exact word_of_off c tbl i ⟨46, by decide⟩ _ _ _ (k0_off93_eq i ⟨1, by decide⟩)
theorem W_r_433 : kernelRunA.sl.r_433 c i tbl = wordAt c tbl i ⟨46, by decide⟩ := by
  unfold kernelRunA.sl.r_433; exact word_of_off c tbl i ⟨46, by decide⟩ _ _ _ (k0_off97_eq i ⟨0, by decide⟩)
theorem W_r_432 : kernelRunA.sl.r_432 c i tbl = wordAt c tbl i ⟨47, by decide⟩ := by
  unfold kernelRunA.sl.r_432; exact word_of_off c tbl i ⟨47, by decide⟩ _ _ _ (k0_off95_eq i ⟨1, by decide⟩)
theorem W_r_442 : kernelRunA.sl.r_442 c i tbl = wordAt c tbl i ⟨47, by decide⟩ := by
  unfold kernelRunA.sl.r_442; exact word_of_off c tbl i ⟨47, by decide⟩ _ _ _ (k0_off99_eq i ⟨0, by decide⟩)
theorem W_r_441 : kernelRunA.sl.r_441 c i tbl = wordAt c tbl i ⟨48, by decide⟩ := by
  unfold kernelRunA.sl.r_441; exact word_of_off c tbl i ⟨48, by decide⟩ _ _ _ (k0_off97_eq i ⟨1, by decide⟩)
theorem W_r_450 : kernelRunA.sl.r_450 c i tbl = wordAt c tbl i ⟨48, by decide⟩ := by
  unfold kernelRunA.sl.r_450; exact word_of_off c tbl i ⟨48, by decide⟩ _ _ _ (k0_off101_eq i ⟨0, by decide⟩)
theorem W_r_449 : kernelRunA.sl.r_449 c i tbl = wordAt c tbl i ⟨49, by decide⟩ := by
  unfold kernelRunA.sl.r_449; exact word_of_off c tbl i ⟨49, by decide⟩ _ _ _ (k0_off99_eq i ⟨1, by decide⟩)
theorem W_r_460 : kernelRunA.sl.r_460 c i tbl = wordAt c tbl i ⟨49, by decide⟩ := by
  unfold kernelRunA.sl.r_460; exact word_of_off c tbl i ⟨49, by decide⟩ _ _ _ (k0_off103_eq i ⟨0, by decide⟩)
theorem W_r_457 : kernelRunA.sl.r_457 c i tbl = wordAt c tbl i ⟨50, by decide⟩ := by
  unfold kernelRunA.sl.r_457; exact word_of_off c tbl i ⟨50, by decide⟩ _ _ _ (k0_off101_eq i ⟨1, by decide⟩)
theorem W_r_467 : kernelRunA.sl.r_467 c i tbl = wordAt c tbl i ⟨50, by decide⟩ := by
  unfold kernelRunA.sl.r_467; exact word_of_off c tbl i ⟨50, by decide⟩ _ _ _ (k0_off105_eq i ⟨0, by decide⟩)
theorem W_r_466 : kernelRunA.sl.r_466 c i tbl = wordAt c tbl i ⟨51, by decide⟩ := by
  unfold kernelRunA.sl.r_466; exact word_of_off c tbl i ⟨51, by decide⟩ _ _ _ (k0_off103_eq i ⟨1, by decide⟩)
theorem W_r_476 : kernelRunA.sl.r_476 c i tbl = wordAt c tbl i ⟨51, by decide⟩ := by
  unfold kernelRunA.sl.r_476; exact word_of_off c tbl i ⟨51, by decide⟩ _ _ _ (k0_off107_eq i ⟨0, by decide⟩)
theorem W_r_475 : kernelRunA.sl.r_475 c i tbl = wordAt c tbl i ⟨52, by decide⟩ := by
  unfold kernelRunA.sl.r_475; exact word_of_off c tbl i ⟨52, by decide⟩ _ _ _ (k0_off105_eq i ⟨1, by decide⟩)
theorem W_r_488 : kernelRunA.sl.r_488 c i tbl = wordAt c tbl i ⟨52, by decide⟩ := by
  unfold kernelRunA.sl.r_488; exact word_of_off c tbl i ⟨52, by decide⟩ _ _ _ (k0_off109_eq i ⟨0, by decide⟩)
theorem W_r_485 : kernelRunA.sl.r_485 c i tbl = wordAt c tbl i ⟨53, by decide⟩ := by
  unfold kernelRunA.sl.r_485; exact word_of_off c tbl i ⟨53, by decide⟩ _ _ _ (k0_off107_eq i ⟨1, by decide⟩)
theorem W_r_497 : kernelRunA.sl.r_497 c i tbl = wordAt c tbl i ⟨53, by decide⟩ := by
  unfold kernelRunA.sl.r_497; exact word_of_off c tbl i ⟨53, by decide⟩ _ _ _ (k0_off111_eq i ⟨0, by decide⟩)
theorem W_r_496 : kernelRunA.sl.r_496 c i tbl = wordAt c tbl i ⟨54, by decide⟩ := by
  unfold kernelRunA.sl.r_496; exact word_of_off c tbl i ⟨54, by decide⟩ _ _ _ (k0_off109_eq i ⟨1, by decide⟩)
theorem W_r_507 : kernelRunA.sl.r_507 c i tbl = wordAt c tbl i ⟨54, by decide⟩ := by
  unfold kernelRunA.sl.r_507; exact word_of_off c tbl i ⟨54, by decide⟩ _ _ _ (k0_off113_eq i ⟨0, by decide⟩)
theorem W_r_506 : kernelRunA.sl.r_506 c i tbl = wordAt c tbl i ⟨55, by decide⟩ := by
  unfold kernelRunA.sl.r_506; exact word_of_off c tbl i ⟨55, by decide⟩ _ _ _ (k0_off111_eq i ⟨1, by decide⟩)
theorem W_r_518 : kernelRunA.sl.r_518 c i tbl = wordAt c tbl i ⟨55, by decide⟩ := by
  unfold kernelRunA.sl.r_518; exact word_of_off c tbl i ⟨55, by decide⟩ _ _ _ (k0_off115_eq i ⟨0, by decide⟩)
theorem W_r_516 : kernelRunA.sl.r_516 c i tbl = wordAt c tbl i ⟨56, by decide⟩ := by
  unfold kernelRunA.sl.r_516; exact word_of_off c tbl i ⟨56, by decide⟩ _ _ _ (k0_off113_eq i ⟨1, by decide⟩)
theorem W_r_527 : kernelRunA.sl.r_527 c i tbl = wordAt c tbl i ⟨56, by decide⟩ := by
  unfold kernelRunA.sl.r_527; exact word_of_off c tbl i ⟨56, by decide⟩ _ _ _ (k0_off117_eq i ⟨0, by decide⟩)
theorem W_r_526 : kernelRunA.sl.r_526 c i tbl = wordAt c tbl i ⟨57, by decide⟩ := by
  unfold kernelRunA.sl.r_526; exact word_of_off c tbl i ⟨57, by decide⟩ _ _ _ (k0_off115_eq i ⟨1, by decide⟩)
theorem W_r_536 : kernelRunA.sl.r_536 c i tbl = wordAt c tbl i ⟨57, by decide⟩ := by
  unfold kernelRunA.sl.r_536; exact word_of_off c tbl i ⟨57, by decide⟩ _ _ _ (k0_off119_eq i ⟨0, by decide⟩)
theorem W_r_535 : kernelRunA.sl.r_535 c i tbl = wordAt c tbl i ⟨58, by decide⟩ := by
  unfold kernelRunA.sl.r_535; exact word_of_off c tbl i ⟨58, by decide⟩ _ _ _ (k0_off117_eq i ⟨1, by decide⟩)
theorem W_r_546 : kernelRunA.sl.r_546 c i tbl = wordAt c tbl i ⟨58, by decide⟩ := by
  unfold kernelRunA.sl.r_546; exact word_of_off c tbl i ⟨58, by decide⟩ _ _ _ (k0_off121_eq i ⟨0, by decide⟩)
theorem W_r_545 : kernelRunA.sl.r_545 c i tbl = wordAt c tbl i ⟨59, by decide⟩ := by
  unfold kernelRunA.sl.r_545; exact word_of_off c tbl i ⟨59, by decide⟩ _ _ _ (k0_off119_eq i ⟨1, by decide⟩)
theorem W_r_554 : kernelRunA.sl.r_554 c i tbl = wordAt c tbl i ⟨59, by decide⟩ := by
  unfold kernelRunA.sl.r_554; exact word_of_off c tbl i ⟨59, by decide⟩ _ _ _ (k0_off123_eq i ⟨0, by decide⟩)
theorem W_r_553 : kernelRunA.sl.r_553 c i tbl = wordAt c tbl i ⟨60, by decide⟩ := by
  unfold kernelRunA.sl.r_553; exact word_of_off c tbl i ⟨60, by decide⟩ _ _ _ (k0_off121_eq i ⟨1, by decide⟩)
theorem W_r_563 : kernelRunA.sl.r_563 c i tbl = wordAt c tbl i ⟨60, by decide⟩ := by
  unfold kernelRunA.sl.r_563; exact word_of_off c tbl i ⟨60, by decide⟩ _ _ _ (k0_off125_eq i ⟨0, by decide⟩)
theorem W_r_562 : kernelRunA.sl.r_562 c i tbl = wordAt c tbl i ⟨61, by decide⟩ := by
  unfold kernelRunA.sl.r_562; exact word_of_off c tbl i ⟨61, by decide⟩ _ _ _ (k0_off123_eq i ⟨1, by decide⟩)
theorem W_r_573 : kernelRunA.sl.r_573 c i tbl = wordAt c tbl i ⟨61, by decide⟩ := by
  unfold kernelRunA.sl.r_573; exact word_of_off c tbl i ⟨61, by decide⟩ _ _ _ (k0_off127_eq i ⟨0, by decide⟩)
theorem W_r_572 : kernelRunA.sl.r_572 c i tbl = wordAt c tbl i ⟨62, by decide⟩ := by
  unfold kernelRunA.sl.r_572; exact word_of_off c tbl i ⟨62, by decide⟩ _ _ _ (k0_off125_eq i ⟨1, by decide⟩)
theorem W_r_582 : kernelRunA.sl.r_582 c i tbl = wordAt c tbl i ⟨62, by decide⟩ := by
  unfold kernelRunA.sl.r_582; exact word_of_off c tbl i ⟨62, by decide⟩ _ _ _ (k0_off129_eq i ⟨0, by decide⟩)
theorem W_r_581 : kernelRunA.sl.r_581 c i tbl = wordAt c tbl i ⟨63, by decide⟩ := by
  unfold kernelRunA.sl.r_581; exact word_of_off c tbl i ⟨63, by decide⟩ _ _ _ (k0_off127_eq i ⟨1, by decide⟩)
theorem W_r_591 : kernelRunA.sl.r_591 c i tbl = wordAt c tbl i ⟨63, by decide⟩ := by
  unfold kernelRunA.sl.r_591; exact word_of_off c tbl i ⟨63, by decide⟩ _ _ _ (k0_off129_eq i ⟨1, by decide⟩)
theorem D_dma13 : kernelRunA.sl.dma13 c i tbl hT sim = simRow c sim (wordAt c tbl i ⟨0, by decide⟩) := by
  unfold kernelRunA.sl.dma13; exact (copy_eq_simRow c sim (kernelRunA.sl.r c i tbl) (hT _) _ rfl _ _).trans (congrArg (simRow c sim) (W_r c i tbl))
theorem D_dma14 : kernelRunA.sl.dma14 c i tbl hT sim = simRow c sim (wordAt c tbl i ⟨1, by decide⟩) := by
  unfold kernelRunA.sl.dma14; exact (copy_eq_simRow c sim (kernelRunA.sl.r_1 c i tbl) (hT _) _ rfl _ _).trans (congrArg (simRow c sim) (W_r_1 c i tbl))
theorem D_dma37 : kernelRunA.sl.dma37 c i tbl hT sim = simRow c sim (wordAt c tbl i ⟨2, by decide⟩) := by
  unfold kernelRunA.sl.dma37; exact (copy_eq_simRow c sim (kernelRunA.sl.r_11 c i tbl) (hT _) _ rfl _ _).trans (congrArg (simRow c sim) (W_r_11 c i tbl))
theorem D_dma60 : kernelRunA.sl.dma60 c i tbl hT sim = simRow c sim (wordAt c tbl i ⟨3, by decide⟩) := by
  unfold kernelRunA.sl.dma60; exact (copy_eq_simRow c sim (kernelRunA.sl.r_20 c i tbl) (hT _) _ rfl _ _).trans (congrArg (simRow c sim) (W_r_20 c i tbl))
theorem D_dma83 : kernelRunA.sl.dma83 c i tbl hT sim = simRow c sim (wordAt c tbl i ⟨4, by decide⟩) := by
  unfold kernelRunA.sl.dma83; exact (copy_eq_simRow c sim (kernelRunA.sl.r_30 c i tbl) (hT _) _ rfl _ _).trans (congrArg (simRow c sim) (W_r_30 c i tbl))
theorem D_dma106 : kernelRunA.sl.dma106 c i tbl hT sim = simRow c sim (wordAt c tbl i ⟨5, by decide⟩) := by
  unfold kernelRunA.sl.dma106; exact (copy_eq_simRow c sim (kernelRunA.sl.r_40 c i tbl) (hT _) _ rfl _ _).trans (congrArg (simRow c sim) (W_r_40 c i tbl))
theorem D_dma129 : kernelRunA.sl.dma129 c i tbl hT sim = simRow c sim (wordAt c tbl i ⟨6, by decide⟩) := by
  unfold kernelRunA.sl.dma129; exact (copy_eq_simRow c sim (kernelRunA.sl.r_49 c i tbl) (hT _) _ rfl _ _).trans (congrArg (simRow c sim) (W_r_49 c i tbl))
theorem D_dma152 : kernelRunA.sl.dma152 c i tbl hT sim = simRow c sim (wordAt c tbl i ⟨7, by decide⟩) := by
  unfold kernelRunA.sl.dma152; exact (copy_eq_simRow c sim (kernelRunA.sl.r_58 c i tbl) (hT _) _ rfl _ _).trans (congrArg (simRow c sim) (W_r_58 c i tbl))
theorem D_dma175 : kernelRunA.sl.dma175 c i tbl hT sim = simRow c sim (wordAt c tbl i ⟨8, by decide⟩) := by
  unfold kernelRunA.sl.dma175; exact (copy_eq_simRow c sim (kernelRunA.sl.r_67 c i tbl) (hT _) _ rfl _ _).trans (congrArg (simRow c sim) (W_r_67 c i tbl))
theorem D_dma198 : kernelRunA.sl.dma198 c i tbl hT sim = simRow c sim (wordAt c tbl i ⟨9, by decide⟩) := by
  unfold kernelRunA.sl.dma198; exact (copy_eq_simRow c sim (kernelRunA.sl.r_75 c i tbl) (hT _) _ rfl _ _).trans (congrArg (simRow c sim) (W_r_75 c i tbl))
theorem D_dma221 : kernelRunA.sl.dma221 c i tbl hT sim = simRow c sim (wordAt c tbl i ⟨10, by decide⟩) := by
  unfold kernelRunA.sl.dma221; exact (copy_eq_simRow c sim (kernelRunA.sl.r_83 c i tbl) (hT _) _ rfl _ _).trans (congrArg (simRow c sim) (W_r_83 c i tbl))
theorem D_dma244 : kernelRunA.sl.dma244 c i tbl hT sim = simRow c sim (wordAt c tbl i ⟨11, by decide⟩) := by
  unfold kernelRunA.sl.dma244; exact (copy_eq_simRow c sim (kernelRunA.sl.r_92 c i tbl) (hT _) _ rfl _ _).trans (congrArg (simRow c sim) (W_r_92 c i tbl))
theorem D_dma267 : kernelRunA.sl.dma267 c i tbl hT sim = simRow c sim (wordAt c tbl i ⟨12, by decide⟩) := by
  unfold kernelRunA.sl.dma267; exact (copy_eq_simRow c sim (kernelRunA.sl.r_101 c i tbl) (hT _) _ rfl _ _).trans (congrArg (simRow c sim) (W_r_101 c i tbl))
theorem D_dma290 : kernelRunA.sl.dma290 c i tbl hT sim = simRow c sim (wordAt c tbl i ⟨13, by decide⟩) := by
  unfold kernelRunA.sl.dma290; exact (copy_eq_simRow c sim (kernelRunA.sl.r_111 c i tbl) (hT _) _ rfl _ _).trans (congrArg (simRow c sim) (W_r_111 c i tbl))
theorem D_dma313 : kernelRunA.sl.dma313 c i tbl hT sim = simRow c sim (wordAt c tbl i ⟨14, by decide⟩) := by
  unfold kernelRunA.sl.dma313; exact (copy_eq_simRow c sim (kernelRunA.sl.r_122 c i tbl) (hT _) _ rfl _ _).trans (congrArg (simRow c sim) (W_r_122 c i tbl))
theorem D_dma336 : kernelRunA.sl.dma336 c i tbl hT sim = simRow c sim (wordAt c tbl i ⟨15, by decide⟩) := by
  unfold kernelRunA.sl.dma336; exact (copy_eq_simRow c sim (kernelRunA.sl.r_132 c i tbl) (hT _) _ rfl _ _).trans (congrArg (simRow c sim) (W_r_132 c i tbl))
theorem D_dma359 : kernelRunA.sl.dma359 c i tbl hT sim = simRow c sim (wordAt c tbl i ⟨16, by decide⟩) := by
  unfold kernelRunA.sl.dma359; exact (copy_eq_simRow c sim (kernelRunA.sl.r_142 c i tbl) (hT _) _ rfl _ _).trans (congrArg (simRow c sim) (W_r_142 c i tbl))
theorem D_dma382 : kernelRunA.sl.dma382 c i tbl hT sim = simRow c sim (wordAt c tbl i ⟨17, by decide⟩) := by
  unfold kernelRunA.sl.dma382; exact (copy_eq_simRow c sim (kernelRunA.sl.r_152 c i tbl) (hT _) _ rfl _ _).trans (congrArg (simRow c sim) (W_r_152 c i tbl))
theorem D_dma405 : kernelRunA.sl.dma405 c i tbl hT sim = simRow c sim (wordAt c tbl i ⟨18, by decide⟩) := by
  unfold kernelRunA.sl.dma405; exact (copy_eq_simRow c sim (kernelRunA.sl.r_161 c i tbl) (hT _) _ rfl _ _).trans (congrArg (simRow c sim) (W_r_161 c i tbl))
theorem D_dma428 : kernelRunA.sl.dma428 c i tbl hT sim = simRow c sim (wordAt c tbl i ⟨19, by decide⟩) := by
  unfold kernelRunA.sl.dma428; exact (copy_eq_simRow c sim (kernelRunA.sl.r_171 c i tbl) (hT _) _ rfl _ _).trans (congrArg (simRow c sim) (W_r_171 c i tbl))
theorem D_dma451 : kernelRunA.sl.dma451 c i tbl hT sim = simRow c sim (wordAt c tbl i ⟨20, by decide⟩) := by
  unfold kernelRunA.sl.dma451; exact (copy_eq_simRow c sim (kernelRunA.sl.r_179 c i tbl) (hT _) _ rfl _ _).trans (congrArg (simRow c sim) (W_r_179 c i tbl))
theorem D_dma474 : kernelRunA.sl.dma474 c i tbl hT sim = simRow c sim (wordAt c tbl i ⟨21, by decide⟩) := by
  unfold kernelRunA.sl.dma474; exact (copy_eq_simRow c sim (kernelRunA.sl.r_188 c i tbl) (hT _) _ rfl _ _).trans (congrArg (simRow c sim) (W_r_188 c i tbl))
theorem D_dma497 : kernelRunA.sl.dma497 c i tbl hT sim = simRow c sim (wordAt c tbl i ⟨22, by decide⟩) := by
  unfold kernelRunA.sl.dma497; exact (copy_eq_simRow c sim (kernelRunA.sl.r_198 c i tbl) (hT _) _ rfl _ _).trans (congrArg (simRow c sim) (W_r_198 c i tbl))
theorem D_dma520 : kernelRunA.sl.dma520 c i tbl hT sim = simRow c sim (wordAt c tbl i ⟨23, by decide⟩) := by
  unfold kernelRunA.sl.dma520; exact (copy_eq_simRow c sim (kernelRunA.sl.r_207 c i tbl) (hT _) _ rfl _ _).trans (congrArg (simRow c sim) (W_r_207 c i tbl))
theorem D_dma543 : kernelRunA.sl.dma543 c i tbl hT sim = simRow c sim (wordAt c tbl i ⟨24, by decide⟩) := by
  unfold kernelRunA.sl.dma543; exact (copy_eq_simRow c sim (kernelRunA.sl.r_217 c i tbl) (hT _) _ rfl _ _).trans (congrArg (simRow c sim) (W_r_217 c i tbl))
theorem D_dma566 : kernelRunA.sl.dma566 c i tbl hT sim = simRow c sim (wordAt c tbl i ⟨25, by decide⟩) := by
  unfold kernelRunA.sl.dma566; exact (copy_eq_simRow c sim (kernelRunA.sl.r_227 c i tbl) (hT _) _ rfl _ _).trans (congrArg (simRow c sim) (W_r_227 c i tbl))
theorem D_dma589 : kernelRunA.sl.dma589 c i tbl hT sim = simRow c sim (wordAt c tbl i ⟨26, by decide⟩) := by
  unfold kernelRunA.sl.dma589; exact (copy_eq_simRow c sim (kernelRunA.sl.r_236 c i tbl) (hT _) _ rfl _ _).trans (congrArg (simRow c sim) (W_r_236 c i tbl))
theorem D_dma612 : kernelRunA.sl.dma612 c i tbl hT sim = simRow c sim (wordAt c tbl i ⟨27, by decide⟩) := by
  unfold kernelRunA.sl.dma612; exact (copy_eq_simRow c sim (kernelRunA.sl.r_245 c i tbl) (hT _) _ rfl _ _).trans (congrArg (simRow c sim) (W_r_245 c i tbl))
theorem D_dma635 : kernelRunA.sl.dma635 c i tbl hT sim = simRow c sim (wordAt c tbl i ⟨28, by decide⟩) := by
  unfold kernelRunA.sl.dma635; exact (copy_eq_simRow c sim (kernelRunA.sl.r_254 c i tbl) (hT _) _ rfl _ _).trans (congrArg (simRow c sim) (W_r_254 c i tbl))
theorem D_dma658 : kernelRunA.sl.dma658 c i tbl hT sim = simRow c sim (wordAt c tbl i ⟨29, by decide⟩) := by
  unfold kernelRunA.sl.dma658; exact (copy_eq_simRow c sim (kernelRunA.sl.r_262 c i tbl) (hT _) _ rfl _ _).trans (congrArg (simRow c sim) (W_r_262 c i tbl))
theorem D_dma681 : kernelRunA.sl.dma681 c i tbl hT sim = simRow c sim (wordAt c tbl i ⟨30, by decide⟩) := by
  unfold kernelRunA.sl.dma681; exact (copy_eq_simRow c sim (kernelRunA.sl.r_270 c i tbl) (hT _) _ rfl _ _).trans (congrArg (simRow c sim) (W_r_270 c i tbl))
theorem D_dma704 : kernelRunA.sl.dma704 c i tbl hT sim = simRow c sim (wordAt c tbl i ⟨31, by decide⟩) := by
  unfold kernelRunA.sl.dma704; exact (copy_eq_simRow c sim (kernelRunA.sl.r_279 c i tbl) (hT _) _ rfl _ _).trans (congrArg (simRow c sim) (W_r_279 c i tbl))
theorem D_dma727 : kernelRunA.sl.dma727 c i tbl hT sim = simRow c sim (wordAt c tbl i ⟨32, by decide⟩) := by
  unfold kernelRunA.sl.dma727; exact (copy_eq_simRow c sim (kernelRunA.sl.r_288 c i tbl) (hT _) _ rfl _ _).trans (congrArg (simRow c sim) (W_r_288 c i tbl))
theorem D_dma750 : kernelRunA.sl.dma750 c i tbl hT sim = simRow c sim (wordAt c tbl i ⟨33, by decide⟩) := by
  unfold kernelRunA.sl.dma750; exact (copy_eq_simRow c sim (kernelRunA.sl.r_298 c i tbl) (hT _) _ rfl _ _).trans (congrArg (simRow c sim) (W_r_298 c i tbl))
theorem D_dma773 : kernelRunA.sl.dma773 c i tbl hT sim = simRow c sim (wordAt c tbl i ⟨34, by decide⟩) := by
  unfold kernelRunA.sl.dma773; exact (copy_eq_simRow c sim (kernelRunA.sl.r_309 c i tbl) (hT _) _ rfl _ _).trans (congrArg (simRow c sim) (W_r_309 c i tbl))
theorem D_dma796 : kernelRunA.sl.dma796 c i tbl hT sim = simRow c sim (wordAt c tbl i ⟨35, by decide⟩) := by
  unfold kernelRunA.sl.dma796; exact (copy_eq_simRow c sim (kernelRunA.sl.r_319 c i tbl) (hT _) _ rfl _ _).trans (congrArg (simRow c sim) (W_r_319 c i tbl))
theorem D_dma819 : kernelRunA.sl.dma819 c i tbl hT sim = simRow c sim (wordAt c tbl i ⟨36, by decide⟩) := by
  unfold kernelRunA.sl.dma819; exact (copy_eq_simRow c sim (kernelRunA.sl.r_329 c i tbl) (hT _) _ rfl _ _).trans (congrArg (simRow c sim) (W_r_329 c i tbl))
theorem D_dma842 : kernelRunA.sl.dma842 c i tbl hT sim = simRow c sim (wordAt c tbl i ⟨37, by decide⟩) := by
  unfold kernelRunA.sl.dma842; exact (copy_eq_simRow c sim (kernelRunA.sl.r_339 c i tbl) (hT _) _ rfl _ _).trans (congrArg (simRow c sim) (W_r_339 c i tbl))
theorem D_dma865 : kernelRunA.sl.dma865 c i tbl hT sim = simRow c sim (wordAt c tbl i ⟨38, by decide⟩) := by
  unfold kernelRunA.sl.dma865; exact (copy_eq_simRow c sim (kernelRunA.sl.r_348 c i tbl) (hT _) _ rfl _ _).trans (congrArg (simRow c sim) (W_r_348 c i tbl))
theorem D_dma888 : kernelRunA.sl.dma888 c i tbl hT sim = simRow c sim (wordAt c tbl i ⟨39, by decide⟩) := by
  unfold kernelRunA.sl.dma888; exact (copy_eq_simRow c sim (kernelRunA.sl.r_358 c i tbl) (hT _) _ rfl _ _).trans (congrArg (simRow c sim) (W_r_358 c i tbl))
theorem D_dma911 : kernelRunA.sl.dma911 c i tbl hT sim = simRow c sim (wordAt c tbl i ⟨40, by decide⟩) := by
  unfold kernelRunA.sl.dma911; exact (copy_eq_simRow c sim (kernelRunA.sl.r_366 c i tbl) (hT _) _ rfl _ _).trans (congrArg (simRow c sim) (W_r_366 c i tbl))
theorem D_dma934 : kernelRunA.sl.dma934 c i tbl hT sim = simRow c sim (wordAt c tbl i ⟨41, by decide⟩) := by
  unfold kernelRunA.sl.dma934; exact (copy_eq_simRow c sim (kernelRunA.sl.r_375 c i tbl) (hT _) _ rfl _ _).trans (congrArg (simRow c sim) (W_r_375 c i tbl))
theorem D_dma957 : kernelRunA.sl.dma957 c i tbl hT sim = simRow c sim (wordAt c tbl i ⟨42, by decide⟩) := by
  unfold kernelRunA.sl.dma957; exact (copy_eq_simRow c sim (kernelRunA.sl.r_385 c i tbl) (hT _) _ rfl _ _).trans (congrArg (simRow c sim) (W_r_385 c i tbl))
theorem D_dma980 : kernelRunA.sl.dma980 c i tbl hT sim = simRow c sim (wordAt c tbl i ⟨43, by decide⟩) := by
  unfold kernelRunA.sl.dma980; exact (copy_eq_simRow c sim (kernelRunA.sl.r_394 c i tbl) (hT _) _ rfl _ _).trans (congrArg (simRow c sim) (W_r_394 c i tbl))
theorem D_dma1003 : kernelRunA.sl.dma1003 c i tbl hT sim = simRow c sim (wordAt c tbl i ⟨44, by decide⟩) := by
  unfold kernelRunA.sl.dma1003; exact (copy_eq_simRow c sim (kernelRunA.sl.r_404 c i tbl) (hT _) _ rfl _ _).trans (congrArg (simRow c sim) (W_r_404 c i tbl))
theorem D_dma1026 : kernelRunA.sl.dma1026 c i tbl hT sim = simRow c sim (wordAt c tbl i ⟨45, by decide⟩) := by
  unfold kernelRunA.sl.dma1026; exact (copy_eq_simRow c sim (kernelRunA.sl.r_414 c i tbl) (hT _) _ rfl _ _).trans (congrArg (simRow c sim) (W_r_414 c i tbl))
theorem D_dma1049 : kernelRunA.sl.dma1049 c i tbl hT sim = simRow c sim (wordAt c tbl i ⟨46, by decide⟩) := by
  unfold kernelRunA.sl.dma1049; exact (copy_eq_simRow c sim (kernelRunA.sl.r_423 c i tbl) (hT _) _ rfl _ _).trans (congrArg (simRow c sim) (W_r_423 c i tbl))
theorem D_dma1072 : kernelRunA.sl.dma1072 c i tbl hT sim = simRow c sim (wordAt c tbl i ⟨47, by decide⟩) := by
  unfold kernelRunA.sl.dma1072; exact (copy_eq_simRow c sim (kernelRunA.sl.r_432 c i tbl) (hT _) _ rfl _ _).trans (congrArg (simRow c sim) (W_r_432 c i tbl))
theorem D_dma1095 : kernelRunA.sl.dma1095 c i tbl hT sim = simRow c sim (wordAt c tbl i ⟨48, by decide⟩) := by
  unfold kernelRunA.sl.dma1095; exact (copy_eq_simRow c sim (kernelRunA.sl.r_441 c i tbl) (hT _) _ rfl _ _).trans (congrArg (simRow c sim) (W_r_441 c i tbl))
theorem D_dma1118 : kernelRunA.sl.dma1118 c i tbl hT sim = simRow c sim (wordAt c tbl i ⟨49, by decide⟩) := by
  unfold kernelRunA.sl.dma1118; exact (copy_eq_simRow c sim (kernelRunA.sl.r_449 c i tbl) (hT _) _ rfl _ _).trans (congrArg (simRow c sim) (W_r_449 c i tbl))
theorem D_dma1141 : kernelRunA.sl.dma1141 c i tbl hT sim = simRow c sim (wordAt c tbl i ⟨50, by decide⟩) := by
  unfold kernelRunA.sl.dma1141; exact (copy_eq_simRow c sim (kernelRunA.sl.r_457 c i tbl) (hT _) _ rfl _ _).trans (congrArg (simRow c sim) (W_r_457 c i tbl))
theorem D_dma1164 : kernelRunA.sl.dma1164 c i tbl hT sim = simRow c sim (wordAt c tbl i ⟨51, by decide⟩) := by
  unfold kernelRunA.sl.dma1164; exact (copy_eq_simRow c sim (kernelRunA.sl.r_466 c i tbl) (hT _) _ rfl _ _).trans (congrArg (simRow c sim) (W_r_466 c i tbl))
theorem D_dma1187 : kernelRunA.sl.dma1187 c i tbl hT sim = simRow c sim (wordAt c tbl i ⟨52, by decide⟩) := by
  unfold kernelRunA.sl.dma1187; exact (copy_eq_simRow c sim (kernelRunA.sl.r_475 c i tbl) (hT _) _ rfl _ _).trans (congrArg (simRow c sim) (W_r_475 c i tbl))
theorem D_dma1210 : kernelRunA.sl.dma1210 c i tbl hT sim = simRow c sim (wordAt c tbl i ⟨53, by decide⟩) := by
  unfold kernelRunA.sl.dma1210; exact (copy_eq_simRow c sim (kernelRunA.sl.r_485 c i tbl) (hT _) _ rfl _ _).trans (congrArg (simRow c sim) (W_r_485 c i tbl))
theorem D_dma1233 : kernelRunA.sl.dma1233 c i tbl hT sim = simRow c sim (wordAt c tbl i ⟨54, by decide⟩) := by
  unfold kernelRunA.sl.dma1233; exact (copy_eq_simRow c sim (kernelRunA.sl.r_496 c i tbl) (hT _) _ rfl _ _).trans (congrArg (simRow c sim) (W_r_496 c i tbl))
theorem D_dma1256 : kernelRunA.sl.dma1256 c i tbl hT sim = simRow c sim (wordAt c tbl i ⟨55, by decide⟩) := by
  unfold kernelRunA.sl.dma1256; exact (copy_eq_simRow c sim (kernelRunA.sl.r_506 c i tbl) (hT _) _ rfl _ _).trans (congrArg (simRow c sim) (W_r_506 c i tbl))
theorem D_dma1279 : kernelRunA.sl.dma1279 c i tbl hT sim = simRow c sim (wordAt c tbl i ⟨56, by decide⟩) := by
  unfold kernelRunA.sl.dma1279; exact (copy_eq_simRow c sim (kernelRunA.sl.r_516 c i tbl) (hT _) _ rfl _ _).trans (congrArg (simRow c sim) (W_r_516 c i tbl))
theorem D_dma1302 : kernelRunA.sl.dma1302 c i tbl hT sim = simRow c sim (wordAt c tbl i ⟨57, by decide⟩) := by
  unfold kernelRunA.sl.dma1302; exact (copy_eq_simRow c sim (kernelRunA.sl.r_526 c i tbl) (hT _) _ rfl _ _).trans (congrArg (simRow c sim) (W_r_526 c i tbl))
theorem D_dma1325 : kernelRunA.sl.dma1325 c i tbl hT sim = simRow c sim (wordAt c tbl i ⟨58, by decide⟩) := by
  unfold kernelRunA.sl.dma1325; exact (copy_eq_simRow c sim (kernelRunA.sl.r_535 c i tbl) (hT _) _ rfl _ _).trans (congrArg (simRow c sim) (W_r_535 c i tbl))
theorem D_dma1348 : kernelRunA.sl.dma1348 c i tbl hT sim = simRow c sim (wordAt c tbl i ⟨59, by decide⟩) := by
  unfold kernelRunA.sl.dma1348; exact (copy_eq_simRow c sim (kernelRunA.sl.r_545 c i tbl) (hT _) _ rfl _ _).trans (congrArg (simRow c sim) (W_r_545 c i tbl))
theorem D_dma1371 : kernelRunA.sl.dma1371 c i tbl hT sim = simRow c sim (wordAt c tbl i ⟨60, by decide⟩) := by
  unfold kernelRunA.sl.dma1371; exact (copy_eq_simRow c sim (kernelRunA.sl.r_553 c i tbl) (hT _) _ rfl _ _).trans (congrArg (simRow c sim) (W_r_553 c i tbl))
theorem D_dma1394 : kernelRunA.sl.dma1394 c i tbl hT sim = simRow c sim (wordAt c tbl i ⟨61, by decide⟩) := by
  unfold kernelRunA.sl.dma1394; exact (copy_eq_simRow c sim (kernelRunA.sl.r_562 c i tbl) (hT _) _ rfl _ _).trans (congrArg (simRow c sim) (W_r_562 c i tbl))
theorem D_dma1417 : kernelRunA.sl.dma1417 c i tbl hT sim = simRow c sim (wordAt c tbl i ⟨62, by decide⟩) := by
  unfold kernelRunA.sl.dma1417; exact (copy_eq_simRow c sim (kernelRunA.sl.r_572 c i tbl) (hT _) _ rfl _ _).trans (congrArg (simRow c sim) (W_r_572 c i tbl))
theorem D_dma1440 : kernelRunA.sl.dma1440 c i tbl hT sim = simRow c sim (wordAt c tbl i ⟨63, by decide⟩) := by
  unfold kernelRunA.sl.dma1440; exact (copy_eq_simRow c sim (kernelRunA.sl.r_581 c i tbl) (hT _) _ rfl _ _).trans (congrArg (simRow c sim) (W_r_581 c i tbl))
theorem S_v19 : kernelRunA.sl.v19 c i tbl hT sim b9 = simRow c sim (wordAt c tbl i ⟨0, by decide⟩) := by
  unfold kernelRunA.sl.v19; exact (load_after_fill cc0_scratch0 _ _ (by decide) _).trans (D_dma13 c i tbl hT sim)
theorem S_v104 : kernelRunA.sl.v104 c i tbl hT sim b10 = simRow c sim (wordAt c tbl i ⟨1, by decide⟩) := by
  unfold kernelRunA.sl.v104; exact (load_after_fill cc0_scratch1 _ _ (by decide) _).trans (D_dma14 c i tbl hT sim)
theorem S_v189 : kernelRunA.sl.v189 c i tbl hT sim b9 = simRow c sim (wordAt c tbl i ⟨2, by decide⟩) := by
  unfold kernelRunA.sl.v189; exact (load_after_fill cc0_scratch0 _ _ (by decide) _).trans (D_dma37 c i tbl hT sim)
theorem S_v274 : kernelRunA.sl.v274 c i tbl hT sim b10 = simRow c sim (wordAt c tbl i ⟨3, by decide⟩) := by
  unfold kernelRunA.sl.v274; exact (load_after_fill cc0_scratch1 _ _ (by decide) _).trans (D_dma60 c i tbl hT sim)
theorem S_v359 : kernelRunA.sl.v359 c i tbl hT sim b9 = simRow c sim (wordAt c tbl i ⟨4, by decide⟩) := by
  unfold kernelRunA.sl.v359; exact (load_after_fill cc0_scratch0 _ _ (by decide) _).trans (D_dma83 c i tbl hT sim)
theorem S_v444 : kernelRunA.sl.v444 c i tbl hT sim b10 = simRow c sim (wordAt c tbl i ⟨5, by decide⟩) := by
  unfold kernelRunA.sl.v444; exact (load_after_fill cc0_scratch1 _ _ (by decide) _).trans (D_dma106 c i tbl hT sim)
theorem S_v529 : kernelRunA.sl.v529 c i tbl hT sim b9 = simRow c sim (wordAt c tbl i ⟨6, by decide⟩) := by
  unfold kernelRunA.sl.v529; exact (load_after_fill cc0_scratch0 _ _ (by decide) _).trans (D_dma129 c i tbl hT sim)
theorem S_v614 : kernelRunA.sl.v614 c i tbl hT sim b10 = simRow c sim (wordAt c tbl i ⟨7, by decide⟩) := by
  unfold kernelRunA.sl.v614; exact (load_after_fill cc0_scratch1 _ _ (by decide) _).trans (D_dma152 c i tbl hT sim)
theorem S_v699 : kernelRunA.sl.v699 c i tbl hT sim b9 = simRow c sim (wordAt c tbl i ⟨8, by decide⟩) := by
  unfold kernelRunA.sl.v699; exact (load_after_fill cc0_scratch0 _ _ (by decide) _).trans (D_dma175 c i tbl hT sim)
theorem S_v784 : kernelRunA.sl.v784 c i tbl hT sim b10 = simRow c sim (wordAt c tbl i ⟨9, by decide⟩) := by
  unfold kernelRunA.sl.v784; exact (load_after_fill cc0_scratch1 _ _ (by decide) _).trans (D_dma198 c i tbl hT sim)
theorem S_v869 : kernelRunA.sl.v869 c i tbl hT sim b9 = simRow c sim (wordAt c tbl i ⟨10, by decide⟩) := by
  unfold kernelRunA.sl.v869; exact (load_after_fill cc0_scratch0 _ _ (by decide) _).trans (D_dma221 c i tbl hT sim)
theorem S_v954 : kernelRunA.sl.v954 c i tbl hT sim b10 = simRow c sim (wordAt c tbl i ⟨11, by decide⟩) := by
  unfold kernelRunA.sl.v954; exact (load_after_fill cc0_scratch1 _ _ (by decide) _).trans (D_dma244 c i tbl hT sim)
theorem S_v1039 : kernelRunA.sl.v1039 c i tbl hT sim b9 = simRow c sim (wordAt c tbl i ⟨12, by decide⟩) := by
  unfold kernelRunA.sl.v1039; exact (load_after_fill cc0_scratch0 _ _ (by decide) _).trans (D_dma267 c i tbl hT sim)
theorem S_v1124 : kernelRunA.sl.v1124 c i tbl hT sim b10 = simRow c sim (wordAt c tbl i ⟨13, by decide⟩) := by
  unfold kernelRunA.sl.v1124; exact (load_after_fill cc0_scratch1 _ _ (by decide) _).trans (D_dma290 c i tbl hT sim)
theorem S_v1209 : kernelRunA.sl.v1209 c i tbl hT sim b9 = simRow c sim (wordAt c tbl i ⟨14, by decide⟩) := by
  unfold kernelRunA.sl.v1209; exact (load_after_fill cc0_scratch0 _ _ (by decide) _).trans (D_dma313 c i tbl hT sim)
theorem S_v1294 : kernelRunA.sl.v1294 c i tbl hT sim b10 = simRow c sim (wordAt c tbl i ⟨15, by decide⟩) := by
  unfold kernelRunA.sl.v1294; exact (load_after_fill cc0_scratch1 _ _ (by decide) _).trans (D_dma336 c i tbl hT sim)
theorem S_v1379 : kernelRunA.sl.v1379 c i tbl hT sim b9 = simRow c sim (wordAt c tbl i ⟨16, by decide⟩) := by
  unfold kernelRunA.sl.v1379; exact (load_after_fill cc0_scratch0 _ _ (by decide) _).trans (D_dma359 c i tbl hT sim)
theorem S_v1464 : kernelRunA.sl.v1464 c i tbl hT sim b10 = simRow c sim (wordAt c tbl i ⟨17, by decide⟩) := by
  unfold kernelRunA.sl.v1464; exact (load_after_fill cc0_scratch1 _ _ (by decide) _).trans (D_dma382 c i tbl hT sim)
theorem S_v : kernelRunA.sl.v c i tbl hT sim b9 = simRow c sim (wordAt c tbl i ⟨18, by decide⟩) := by
  unfold kernelRunA.sl.v; exact (load_after_fill cc0_scratch0 _ _ (by decide) _).trans (D_dma405 c i tbl hT sim)
theorem S_v1634 : kernelRunA.sl.v1634 c i tbl hT sim b10 = simRow c sim (wordAt c tbl i ⟨19, by decide⟩) := by
  unfold kernelRunA.sl.v1634; exact (load_after_fill cc0_scratch1 _ _ (by decide) _).trans (D_dma428 c i tbl hT sim)
theorem S_v1719 : kernelRunA.sl.v1719 c i tbl hT sim b9 = simRow c sim (wordAt c tbl i ⟨20, by decide⟩) := by
  unfold kernelRunA.sl.v1719; exact (load_after_fill cc0_scratch0 _ _ (by decide) _).trans (D_dma451 c i tbl hT sim)
theorem S_v1804 : kernelRunA.sl.v1804 c i tbl hT sim b10 = simRow c sim (wordAt c tbl i ⟨21, by decide⟩) := by
  unfold kernelRunA.sl.v1804; exact (load_after_fill cc0_scratch1 _ _ (by decide) _).trans (D_dma474 c i tbl hT sim)
theorem S_v1889 : kernelRunA.sl.v1889 c i tbl hT sim b9 = simRow c sim (wordAt c tbl i ⟨22, by decide⟩) := by
  unfold kernelRunA.sl.v1889; exact (load_after_fill cc0_scratch0 _ _ (by decide) _).trans (D_dma497 c i tbl hT sim)
theorem S_v1974 : kernelRunA.sl.v1974 c i tbl hT sim b10 = simRow c sim (wordAt c tbl i ⟨23, by decide⟩) := by
  unfold kernelRunA.sl.v1974; exact (load_after_fill cc0_scratch1 _ _ (by decide) _).trans (D_dma520 c i tbl hT sim)
theorem S_v2059 : kernelRunA.sl.v2059 c i tbl hT sim b9 = simRow c sim (wordAt c tbl i ⟨24, by decide⟩) := by
  unfold kernelRunA.sl.v2059; exact (load_after_fill cc0_scratch0 _ _ (by decide) _).trans (D_dma543 c i tbl hT sim)
theorem S_v2144 : kernelRunA.sl.v2144 c i tbl hT sim b10 = simRow c sim (wordAt c tbl i ⟨25, by decide⟩) := by
  unfold kernelRunA.sl.v2144; exact (load_after_fill cc0_scratch1 _ _ (by decide) _).trans (D_dma566 c i tbl hT sim)
theorem S_v2229 : kernelRunA.sl.v2229 c i tbl hT sim b9 = simRow c sim (wordAt c tbl i ⟨26, by decide⟩) := by
  unfold kernelRunA.sl.v2229; exact (load_after_fill cc0_scratch0 _ _ (by decide) _).trans (D_dma589 c i tbl hT sim)
theorem S_v2314 : kernelRunA.sl.v2314 c i tbl hT sim b10 = simRow c sim (wordAt c tbl i ⟨27, by decide⟩) := by
  unfold kernelRunA.sl.v2314; exact (load_after_fill cc0_scratch1 _ _ (by decide) _).trans (D_dma612 c i tbl hT sim)
theorem S_v2399 : kernelRunA.sl.v2399 c i tbl hT sim b9 = simRow c sim (wordAt c tbl i ⟨28, by decide⟩) := by
  unfold kernelRunA.sl.v2399; exact (load_after_fill cc0_scratch0 _ _ (by decide) _).trans (D_dma635 c i tbl hT sim)
theorem S_v2484 : kernelRunA.sl.v2484 c i tbl hT sim b10 = simRow c sim (wordAt c tbl i ⟨29, by decide⟩) := by
  unfold kernelRunA.sl.v2484; exact (load_after_fill cc0_scratch1 _ _ (by decide) _).trans (D_dma658 c i tbl hT sim)
theorem S_v2569 : kernelRunA.sl.v2569 c i tbl hT sim b9 = simRow c sim (wordAt c tbl i ⟨30, by decide⟩) := by
  unfold kernelRunA.sl.v2569; exact (load_after_fill cc0_scratch0 _ _ (by decide) _).trans (D_dma681 c i tbl hT sim)
theorem S_v2654 : kernelRunA.sl.v2654 c i tbl hT sim b10 = simRow c sim (wordAt c tbl i ⟨31, by decide⟩) := by
  unfold kernelRunA.sl.v2654; exact (load_after_fill cc0_scratch1 _ _ (by decide) _).trans (D_dma704 c i tbl hT sim)
theorem S_v2739 : kernelRunA.sl.v2739 c i tbl hT sim b9 = simRow c sim (wordAt c tbl i ⟨32, by decide⟩) := by
  unfold kernelRunA.sl.v2739; exact (load_after_fill cc0_scratch0 _ _ (by decide) _).trans (D_dma727 c i tbl hT sim)
theorem S_v2824 : kernelRunA.sl.v2824 c i tbl hT sim b10 = simRow c sim (wordAt c tbl i ⟨33, by decide⟩) := by
  unfold kernelRunA.sl.v2824; exact (load_after_fill cc0_scratch1 _ _ (by decide) _).trans (D_dma750 c i tbl hT sim)
theorem S_v2909 : kernelRunA.sl.v2909 c i tbl hT sim b9 = simRow c sim (wordAt c tbl i ⟨34, by decide⟩) := by
  unfold kernelRunA.sl.v2909; exact (load_after_fill cc0_scratch0 _ _ (by decide) _).trans (D_dma773 c i tbl hT sim)
theorem S_v2994 : kernelRunA.sl.v2994 c i tbl hT sim b10 = simRow c sim (wordAt c tbl i ⟨35, by decide⟩) := by
  unfold kernelRunA.sl.v2994; exact (load_after_fill cc0_scratch1 _ _ (by decide) _).trans (D_dma796 c i tbl hT sim)
theorem S_v3079 : kernelRunA.sl.v3079 c i tbl hT sim b9 = simRow c sim (wordAt c tbl i ⟨36, by decide⟩) := by
  unfold kernelRunA.sl.v3079; exact (load_after_fill cc0_scratch0 _ _ (by decide) _).trans (D_dma819 c i tbl hT sim)
theorem S_v3164 : kernelRunA.sl.v3164 c i tbl hT sim b10 = simRow c sim (wordAt c tbl i ⟨37, by decide⟩) := by
  unfold kernelRunA.sl.v3164; exact (load_after_fill cc0_scratch1 _ _ (by decide) _).trans (D_dma842 c i tbl hT sim)
theorem S_v_1 : kernelRunA.sl.v_1 c i tbl hT sim b9 = simRow c sim (wordAt c tbl i ⟨38, by decide⟩) := by
  unfold kernelRunA.sl.v_1; exact (load_after_fill cc0_scratch0 _ _ (by decide) _).trans (D_dma865 c i tbl hT sim)
theorem S_v3334 : kernelRunA.sl.v3334 c i tbl hT sim b10 = simRow c sim (wordAt c tbl i ⟨39, by decide⟩) := by
  unfold kernelRunA.sl.v3334; exact (load_after_fill cc0_scratch1 _ _ (by decide) _).trans (D_dma888 c i tbl hT sim)
theorem S_v3419 : kernelRunA.sl.v3419 c i tbl hT sim b9 = simRow c sim (wordAt c tbl i ⟨40, by decide⟩) := by
  unfold kernelRunA.sl.v3419; exact (load_after_fill cc0_scratch0 _ _ (by decide) _).trans (D_dma911 c i tbl hT sim)
theorem S_v3504 : kernelRunA.sl.v3504 c i tbl hT sim b10 = simRow c sim (wordAt c tbl i ⟨41, by decide⟩) := by
  unfold kernelRunA.sl.v3504; exact (load_after_fill cc0_scratch1 _ _ (by decide) _).trans (D_dma934 c i tbl hT sim)
theorem S_v3589 : kernelRunA.sl.v3589 c i tbl hT sim b9 = simRow c sim (wordAt c tbl i ⟨42, by decide⟩) := by
  unfold kernelRunA.sl.v3589; exact (load_after_fill cc0_scratch0 _ _ (by decide) _).trans (D_dma957 c i tbl hT sim)
theorem S_v3674 : kernelRunA.sl.v3674 c i tbl hT sim b10 = simRow c sim (wordAt c tbl i ⟨43, by decide⟩) := by
  unfold kernelRunA.sl.v3674; exact (load_after_fill cc0_scratch1 _ _ (by decide) _).trans (D_dma980 c i tbl hT sim)
theorem S_v3759 : kernelRunA.sl.v3759 c i tbl hT sim b9 = simRow c sim (wordAt c tbl i ⟨44, by decide⟩) := by
  unfold kernelRunA.sl.v3759; exact (load_after_fill cc0_scratch0 _ _ (by decide) _).trans (D_dma1003 c i tbl hT sim)
theorem S_v3844 : kernelRunA.sl.v3844 c i tbl hT sim b10 = simRow c sim (wordAt c tbl i ⟨45, by decide⟩) := by
  unfold kernelRunA.sl.v3844; exact (load_after_fill cc0_scratch1 _ _ (by decide) _).trans (D_dma1026 c i tbl hT sim)
theorem S_v3929 : kernelRunA.sl.v3929 c i tbl hT sim b9 = simRow c sim (wordAt c tbl i ⟨46, by decide⟩) := by
  unfold kernelRunA.sl.v3929; exact (load_after_fill cc0_scratch0 _ _ (by decide) _).trans (D_dma1049 c i tbl hT sim)
theorem S_v4014 : kernelRunA.sl.v4014 c i tbl hT sim b10 = simRow c sim (wordAt c tbl i ⟨47, by decide⟩) := by
  unfold kernelRunA.sl.v4014; exact (load_after_fill cc0_scratch1 _ _ (by decide) _).trans (D_dma1072 c i tbl hT sim)
theorem S_v4099 : kernelRunA.sl.v4099 c i tbl hT sim b9 = simRow c sim (wordAt c tbl i ⟨48, by decide⟩) := by
  unfold kernelRunA.sl.v4099; exact (load_after_fill cc0_scratch0 _ _ (by decide) _).trans (D_dma1095 c i tbl hT sim)
theorem S_v4184 : kernelRunA.sl.v4184 c i tbl hT sim b10 = simRow c sim (wordAt c tbl i ⟨49, by decide⟩) := by
  unfold kernelRunA.sl.v4184; exact (load_after_fill cc0_scratch1 _ _ (by decide) _).trans (D_dma1118 c i tbl hT sim)
theorem S_v4269 : kernelRunA.sl.v4269 c i tbl hT sim b9 = simRow c sim (wordAt c tbl i ⟨50, by decide⟩) := by
  unfold kernelRunA.sl.v4269; exact (load_after_fill cc0_scratch0 _ _ (by decide) _).trans (D_dma1141 c i tbl hT sim)
theorem S_v4354 : kernelRunA.sl.v4354 c i tbl hT sim b10 = simRow c sim (wordAt c tbl i ⟨51, by decide⟩) := by
  unfold kernelRunA.sl.v4354; exact (load_after_fill cc0_scratch1 _ _ (by decide) _).trans (D_dma1164 c i tbl hT sim)
theorem S_v4439 : kernelRunA.sl.v4439 c i tbl hT sim b9 = simRow c sim (wordAt c tbl i ⟨52, by decide⟩) := by
  unfold kernelRunA.sl.v4439; exact (load_after_fill cc0_scratch0 _ _ (by decide) _).trans (D_dma1187 c i tbl hT sim)
theorem S_v4524 : kernelRunA.sl.v4524 c i tbl hT sim b10 = simRow c sim (wordAt c tbl i ⟨53, by decide⟩) := by
  unfold kernelRunA.sl.v4524; exact (load_after_fill cc0_scratch1 _ _ (by decide) _).trans (D_dma1210 c i tbl hT sim)
theorem S_v4609 : kernelRunA.sl.v4609 c i tbl hT sim b9 = simRow c sim (wordAt c tbl i ⟨54, by decide⟩) := by
  unfold kernelRunA.sl.v4609; exact (load_after_fill cc0_scratch0 _ _ (by decide) _).trans (D_dma1233 c i tbl hT sim)
theorem S_v4694 : kernelRunA.sl.v4694 c i tbl hT sim b10 = simRow c sim (wordAt c tbl i ⟨55, by decide⟩) := by
  unfold kernelRunA.sl.v4694; exact (load_after_fill cc0_scratch1 _ _ (by decide) _).trans (D_dma1256 c i tbl hT sim)
theorem S_v4779 : kernelRunA.sl.v4779 c i tbl hT sim b9 = simRow c sim (wordAt c tbl i ⟨56, by decide⟩) := by
  unfold kernelRunA.sl.v4779; exact (load_after_fill cc0_scratch0 _ _ (by decide) _).trans (D_dma1279 c i tbl hT sim)
theorem S_v4864 : kernelRunA.sl.v4864 c i tbl hT sim b10 = simRow c sim (wordAt c tbl i ⟨57, by decide⟩) := by
  unfold kernelRunA.sl.v4864; exact (load_after_fill cc0_scratch1 _ _ (by decide) _).trans (D_dma1302 c i tbl hT sim)
theorem S_v_2 : kernelRunA.sl.v_2 c i tbl hT sim b9 = simRow c sim (wordAt c tbl i ⟨58, by decide⟩) := by
  unfold kernelRunA.sl.v_2; exact (load_after_fill cc0_scratch0 _ _ (by decide) _).trans (D_dma1325 c i tbl hT sim)
theorem S_v5034 : kernelRunA.sl.v5034 c i tbl hT sim b10 = simRow c sim (wordAt c tbl i ⟨59, by decide⟩) := by
  unfold kernelRunA.sl.v5034; exact (load_after_fill cc0_scratch1 _ _ (by decide) _).trans (D_dma1348 c i tbl hT sim)
theorem S_v5119 : kernelRunA.sl.v5119 c i tbl hT sim b9 = simRow c sim (wordAt c tbl i ⟨60, by decide⟩) := by
  unfold kernelRunA.sl.v5119; exact (load_after_fill cc0_scratch0 _ _ (by decide) _).trans (D_dma1371 c i tbl hT sim)
theorem S_v5204 : kernelRunA.sl.v5204 c i tbl hT sim b10 = simRow c sim (wordAt c tbl i ⟨61, by decide⟩) := by
  unfold kernelRunA.sl.v5204; exact (load_after_fill cc0_scratch1 _ _ (by decide) _).trans (D_dma1394 c i tbl hT sim)
theorem S_v5289 : kernelRunA.sl.v5289 c i tbl hT sim b9 = simRow c sim (wordAt c tbl i ⟨62, by decide⟩) := by
  unfold kernelRunA.sl.v5289; exact (load_after_fill cc0_scratch0 _ _ (by decide) _).trans (D_dma1417 c i tbl hT sim)
theorem S_v5368 : kernelRunA.sl.v5368 c i tbl hT sim b10 = simRow c sim (wordAt c tbl i ⟨63, by decide⟩) := by
  unfold kernelRunA.sl.v5368; exact (load_after_fill cc0_scratch1 _ _ (by decide) _).trans (D_dma1440 c i tbl hT sim)
end TabA

end Cert.Proof.KI

end
-- ==== Proof.KIStepATabV1.lean ====
import proofs.«419560_j5755256177164_3_alg».proof.Proof.KIStepATabW

/-!
  The table of case A: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.KI

open Cert.KernelIdeal Cert.KernelIdeal.Gen
open Idealize.ShloMosaic Idealize.ShloMosaic.TcCoe
open Idealize.SL Idealize.SL.Sem

variable {F : FTy → Type} [FloatOps F]

namespace TabA

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

include c i M2 hM2 M3 hM3 tbl hT sim x2 x3 b9 b10 a12 a13 a14 a15 a16 a17

theorem V12_0 : kernelRunA.sl.v64  = (rowsOf c tbl i sim x2 x3 (zeroAcc) 0).m := by
  unfold kernelRunA.sl.v64 kernelRunA.sl.H12_1
  rw [View.readCov_cons_toLoadRect]
  rfl
theorem V13_0 : kernelRunA.sl.v69  = (rowsOf c tbl i sim x2 x3 (zeroAcc) 0).logp := by
  unfold kernelRunA.sl.v69 kernelRunA.sl.H13_1
  rw [View.readCov_cons_toLoadRect]
  rfl
theorem V14_0 : kernelRunA.sl.v75  = (rowsOf c tbl i sim x2 x3 (zeroAcc) 0).w := by
  unfold kernelRunA.sl.v75 kernelRunA.sl.H14_1
  rw [View.readCov_cons_toLoadRect]
  rfl
theorem V12_1 : kernelRunA.sl.v149 c M3 hM3 x3 = (rowsOf c tbl i sim x2 x3 (zeroAcc) 1).m := by
  unfold kernelRunA.sl.v149 kernelRunA.sl.H12_2
  rw [View.readCov_cons_toLoadRect]
  refine Eq.trans ?_ (rowsOf_m c tbl i sim x2 x3 (zeroAcc) 0 (by decide)).symm
  unfold kernelRunA.sl.r_4
  simp only [V12_0 c i M2 hM2 M3 hM3 tbl hT sim x2 x3 b9 b10 a12 a13 a14 a15 a16 a17, mk_read M3 hM3 x3 0 (by decide)]
  try rfl
theorem V13_1 : kernelRunA.sl.v154 c i M2 hM2 M3 hM3 tbl x2 x3 = (rowsOf c tbl i sim x2 x3 (zeroAcc) 1).logp := by
  unfold kernelRunA.sl.v154 kernelRunA.sl.H13_2
  rw [View.readCov_cons_toLoadRect]
  refine Eq.trans ?_ (rowsOf_logp c tbl i sim x2 x3 (zeroAcc) 0 (by decide)).symm
  unfold kernelRunA.sl.r_10 kernelRunA.sl.r_3 kernelRunA.sl.r_4
  simp only [W_r_2 c i tbl, V13_0 c i M2 hM2 M3 hM3 tbl hT sim x2 x3 b9 b10 a12 a13 a14 a15 a16 a17, in_read M2 hM2 x2 0 (by decide), mk_read M3 hM3 x3 0 (by decide)]
  try rfl
theorem V14_1 : kernelRunA.sl.v160 c i M3 hM3 tbl hT sim x3 b9 = (rowsOf c tbl i sim x2 x3 (zeroAcc) 1).w := by
  unfold kernelRunA.sl.v160 kernelRunA.sl.H14_2
  rw [View.readCov_cons_toLoadRect]
  refine Eq.trans ?_ (rowsOf_w c tbl i sim x2 x3 (zeroAcc) 0 (by decide)).symm
  unfold kernelRunA.sl.r_6 kernelRunA.sl.r_4 kernelRunA.sl.r_5 kernelRunA.sl.cst_15
  simp only [S_v19 c i tbl hT sim b9, V14_0 c i M2 hM2 M3 hM3 tbl hT sim x2 x3 b9 b10 a12 a13 a14 a15 a16 a17, mk_read M3 hM3 x3 0 (by decide)]
  try rfl
theorem V12_2 : kernelRunA.sl.v234 c M3 hM3 x3 = (rowsOf c tbl i sim x2 x3 (zeroAcc) 2).m := by
  unfold kernelRunA.sl.v234 kernelRunA.sl.H12_3
  rw [View.readCov_cons_toLoadRect]
  refine Eq.trans ?_ (rowsOf_m c tbl i sim x2 x3 (zeroAcc) 1 (by decide)).symm
  unfold kernelRunA.sl.r_13
  simp only [V12_1 c i M2 hM2 M3 hM3 tbl hT sim x2 x3 b9 b10 a12 a13 a14 a15 a16 a17, mk_read M3 hM3 x3 1 (by decide)]
  try rfl
theorem V13_2 : kernelRunA.sl.v239 c i M2 hM2 M3 hM3 tbl x2 x3 = (rowsOf c tbl i sim x2 x3 (zeroAcc) 2).logp := by
  unfold kernelRunA.sl.v239 kernelRunA.sl.H13_3
  rw [View.readCov_cons_toLoadRect]
  refine Eq.trans ?_ (rowsOf_logp c tbl i sim x2 x3 (zeroAcc) 1 (by decide)).symm
  unfold kernelRunA.sl.r_13 kernelRunA.sl.r_16
  simp only [W_r_12 c i tbl, V13_1 c i M2 hM2 M3 hM3 tbl hT sim x2 x3 b9 b10 a12 a13 a14 a15 a16 a17, in_read M2 hM2 x2 1 (by decide), mk_read M3 hM3 x3 1 (by decide)]
  try rfl
theorem V14_2 : kernelRunA.sl.v245 c i M3 hM3 tbl hT sim x3 b9 b10 = (rowsOf c tbl i sim x2 x3 (zeroAcc) 2).w := by
  unfold kernelRunA.sl.v245 kernelRunA.sl.H14_3
  rw [View.readCov_cons_toLoadRect]
  refine Eq.trans ?_ (rowsOf_w c tbl i sim x2 x3 (zeroAcc) 1 (by decide)).symm
  unfold kernelRunA.sl.r_14
  simp only [S_v104 c i tbl hT sim b10, V14_1 c i M2 hM2 M3 hM3 tbl hT sim x2 x3 b9 b10 a12 a13 a14 a15 a16 a17, mk_read M3 hM3 x3 1 (by decide)]
  try rfl
theorem V12_3 : kernelRunA.sl.v319 c M3 hM3 x3 = (rowsOf c tbl i sim x2 x3 (zeroAcc) 3).m := by
  unfold kernelRunA.sl.v319 kernelRunA.sl.H12_4
  rw [View.readCov_cons_toLoadRect]
  refine Eq.trans ?_ (rowsOf_m c tbl i sim x2 x3 (zeroAcc) 2 (by decide)).symm
  unfold kernelRunA.sl.r_23
  simp only [V12_2 c i M2 hM2 M3 hM3 tbl hT sim x2 x3 b9 b10 a12 a13 a14 a15 a16 a17, mk_read M3 hM3 x3 2 (by decide)]
  try rfl
theorem V13_3 : kernelRunA.sl.v324 c i M2 hM2 M3 hM3 tbl x2 x3 = (rowsOf c tbl i sim x2 x3 (zeroAcc) 3).logp := by
  unfold kernelRunA.sl.v324 kernelRunA.sl.H13_4
  rw [View.readCov_cons_toLoadRect]
  refine Eq.trans ?_ (rowsOf_logp c tbl i sim x2 x3 (zeroAcc) 2 (by decide)).symm
  unfold kernelRunA.sl.r_22 kernelRunA.sl.r_23
  simp only [W_r_21 c i tbl, V13_2 c i M2 hM2 M3 hM3 tbl hT sim x2 x3 b9 b10 a12 a13 a14 a15 a16 a17, in_read M2 hM2 x2 2 (by decide), mk_read M3 hM3 x3 2 (by decide)]
  try rfl
theorem V14_3 : kernelRunA.sl.v330 c i M3 hM3 tbl hT sim x3 b9 b10 = (rowsOf c tbl i sim x2 x3 (zeroAcc) 3).w := by
  unfold kernelRunA.sl.v330 kernelRunA.sl.H14_4
  rw [View.readCov_cons_toLoadRect]
  refine Eq.trans ?_ (rowsOf_w c tbl i sim x2 x3 (zeroAcc) 2 (by decide)).symm
  unfold kernelRunA.sl.r_26
  simp only [S_v189 c i tbl hT sim b9, V14_2 c i M2 hM2 M3 hM3 tbl hT sim x2 x3 b9 b10 a12 a13 a14 a15 a16 a17, mk_read M3 hM3 x3 2 (by decide)]
  try rfl
theorem V12_4 : kernelRunA.sl.v404 c M3 hM3 x3 = (rowsOf c tbl i sim x2 x3 (zeroAcc) 4).m := by
  unfold kernelRunA.sl.v404 kernelRunA.sl.H12_5
  rw [View.readCov_cons_toLoadRect]
  refine Eq.trans ?_ (rowsOf_m c tbl i sim x2 x3 (zeroAcc) 3 (by decide)).symm
  unfold kernelRunA.sl.r_33
  simp only [V12_3 c i M2 hM2 M3 hM3 tbl hT sim x2 x3 b9 b10 a12 a13 a14 a15 a16 a17, mk_read M3 hM3 x3 3 (by decide)]
  try rfl
theorem V13_4 : kernelRunA.sl.v409 c i M2 hM2 M3 hM3 tbl x2 x3 = (rowsOf c tbl i sim x2 x3 (zeroAcc) 4).logp := by
  unfold kernelRunA.sl.v409 kernelRunA.sl.H13_5
  rw [View.readCov_cons_toLoadRect]
  refine Eq.trans ?_ (rowsOf_logp c tbl i sim x2 x3 (zeroAcc) 3 (by decide)).symm
  unfold kernelRunA.sl.r_39 kernelRunA.sl.r_32 kernelRunA.sl.r_33
  simp only [W_r_31 c i tbl, V13_3 c i M2 hM2 M3 hM3 tbl hT sim x2 x3 b9 b10 a12 a13 a14 a15 a16 a17, in_read M2 hM2 x2 3 (by decide), mk_read M3 hM3 x3 3 (by decide)]
  try rfl
theorem V14_4 : kernelRunA.sl.v415 c i M3 hM3 tbl hT sim x3 b9 b10 = (rowsOf c tbl i sim x2 x3 (zeroAcc) 4).w := by
  unfold kernelRunA.sl.v415 kernelRunA.sl.H14_5
  rw [View.readCov_cons_toLoadRect]
  refine Eq.trans ?_ (rowsOf_w c tbl i sim x2 x3 (zeroAcc) 3 (by decide)).symm
  unfold kernelRunA.sl.r_35 kernelRunA.sl.r_33 kernelRunA.sl.r_34
  simp only [S_v274 c i tbl hT sim b10, V14_3 c i M2 hM2 M3 hM3 tbl hT sim x2 x3 b9 b10 a12 a13 a14 a15 a16 a17, mk_read M3 hM3 x3 3 (by decide)]
  try rfl
theorem V12_5 : kernelRunA.sl.v489 c M3 hM3 x3 = (rowsOf c tbl i sim x2 x3 (zeroAcc) 5).m := by
  unfold kernelRunA.sl.v489 kernelRunA.sl.H12_6
  rw [View.readCov_cons_toLoadRect]
  refine Eq.trans ?_ (rowsOf_m c tbl i sim x2 x3 (zeroAcc) 4 (by decide)).symm
  unfold kernelRunA.sl.r_42
  simp only [V12_4 c i M2 hM2 M3 hM3 tbl hT sim x2 x3 b9 b10 a12 a13 a14 a15 a16 a17, mk_read M3 hM3 x3 4 (by decide)]
  try rfl
theorem V13_5 : kernelRunA.sl.v494 c i M2 hM2 M3 hM3 tbl x2 x3 = (rowsOf c tbl i sim x2 x3 (zeroAcc) 5).logp := by
  unfold kernelRunA.sl.v494 kernelRunA.sl.H13_6
  rw [View.readCov_cons_toLoadRect]
  refine Eq.trans ?_ (rowsOf_logp c tbl i sim x2 x3 (zeroAcc) 4 (by decide)).symm
  unfold kernelRunA.sl.r_42 kernelRunA.sl.r_46
  simp only [W_r_41 c i tbl, V13_4 c i M2 hM2 M3 hM3 tbl hT sim x2 x3 b9 b10 a12 a13 a14 a15 a16 a17, in_read M2 hM2 x2 4 (by decide), mk_read M3 hM3 x3 4 (by decide)]
  try rfl
theorem V14_5 : kernelRunA.sl.v500 c i M3 hM3 tbl hT sim x3 b9 b10 = (rowsOf c tbl i sim x2 x3 (zeroAcc) 5).w := by
  unfold kernelRunA.sl.v500 kernelRunA.sl.H14_6
  rw [View.readCov_cons_toLoadRect]
  refine Eq.trans ?_ (rowsOf_w c tbl i sim x2 x3 (zeroAcc) 4 (by decide)).symm
  unfold kernelRunA.sl.r_44
  simp only [S_v359 c i tbl hT sim b9, V14_4 c i M2 hM2 M3 hM3 tbl hT sim x2 x3 b9 b10 a12 a13 a14 a15 a16 a17, mk_read M3 hM3 x3 4 (by decide)]
  try rfl
theorem V12_6 : kernelRunA.sl.v574 c M3 hM3 x3 = (rowsOf c tbl i sim x2 x3 (zeroAcc) 6).m := by
  unfold kernelRunA.sl.v574 kernelRunA.sl.H12_7
  rw [View.readCov_cons_toLoadRect]
  refine Eq.trans ?_ (rowsOf_m c tbl i sim x2 x3 (zeroAcc) 5 (by decide)).symm
  unfold kernelRunA.sl.r_52
  simp only [V12_5 c i M2 hM2 M3 hM3 tbl hT sim x2 x3 b9 b10 a12 a13 a14 a15 a16 a17, mk_read M3 hM3 x3 5 (by decide)]
  try rfl
theorem V13_6 : kernelRunA.sl.v579 c i M2 hM2 M3 hM3 tbl x2 x3 = (rowsOf c tbl i sim x2 x3 (zeroAcc) 6).logp := by
  unfold kernelRunA.sl.v579 kernelRunA.sl.H13_7
  rw [View.readCov_cons_toLoadRect]
  refine Eq.trans ?_ (rowsOf_logp c tbl i sim x2 x3 (zeroAcc) 5 (by decide)).symm
  unfold kernelRunA.sl.r_51 kernelRunA.sl.r_52
  simp only [W_r_50 c i tbl, V13_5 c i M2 hM2 M3 hM3 tbl hT sim x2 x3 b9 b10 a12 a13 a14 a15 a16 a17, in_read M2 hM2 x2 5 (by decide), mk_read M3 hM3 x3 5 (by decide)]
  try rfl
theorem V14_6 : kernelRunA.sl.v585 c i M3 hM3 tbl hT sim x3 b9 b10 = (rowsOf c tbl i sim x2 x3 (zeroAcc) 6).w := by
  unfold kernelRunA.sl.v585 kernelRunA.sl.H14_7
  rw [View.readCov_cons_toLoadRect]
  refine Eq.trans ?_ (rowsOf_w c tbl i sim x2 x3 (zeroAcc) 5 (by decide)).symm
  unfold kernelRunA.sl.r_54
  simp only [S_v444 c i tbl hT sim b10, V14_5 c i M2 hM2 M3 hM3 tbl hT sim x2 x3 b9 b10 a12 a13 a14 a15 a16 a17, mk_read M3 hM3 x3 5 (by decide)]
  try rfl
theorem V12_7 : kernelRunA.sl.v659 c M3 hM3 x3 = (rowsOf c tbl i sim x2 x3 (zeroAcc) 7).m := by
  unfold kernelRunA.sl.v659 kernelRunA.sl.H12_8
  rw [View.readCov_cons_toLoadRect]
  refine Eq.trans ?_ (rowsOf_m c tbl i sim x2 x3 (zeroAcc) 6 (by decide)).symm
  unfold kernelRunA.sl.r_61
  simp only [V12_6 c i M2 hM2 M3 hM3 tbl hT sim x2 x3 b9 b10 a12 a13 a14 a15 a16 a17, mk_read M3 hM3 x3 6 (by decide)]
  try rfl
theorem V13_7 : kernelRunA.sl.v664 c i M2 hM2 M3 hM3 tbl x2 x3 = (rowsOf c tbl i sim x2 x3 (zeroAcc) 7).logp := by
  unfold kernelRunA.sl.v664 kernelRunA.sl.H13_8
  rw [View.readCov_cons_toLoadRect]
  refine Eq.trans ?_ (rowsOf_logp c tbl i sim x2 x3 (zeroAcc) 6 (by decide)).symm
  unfold kernelRunA.sl.r_66 kernelRunA.sl.r_60 kernelRunA.sl.r_61
  simp only [W_r_59 c i tbl, V13_6 c i M2 hM2 M3 hM3 tbl hT sim x2 x3 b9 b10 a12 a13 a14 a15 a16 a17, in_read M2 hM2 x2 6 (by decide), mk_read M3 hM3 x3 6 (by decide)]
  try rfl
theorem V14_7 : kernelRunA.sl.v670 c i M3 hM3 tbl hT sim x3 b9 b10 = (rowsOf c tbl i sim x2 x3 (zeroAcc) 7).w := by
  unfold kernelRunA.sl.v670 kernelRunA.sl.H14_8
  rw [View.readCov_cons_toLoadRect]
  refine Eq.trans ?_ (rowsOf_w c tbl i sim x2 x3 (zeroAcc) 6 (by decide)).symm
  unfold kernelRunA.sl.r_62 kernelRunA.sl.r_61 kernelRunA.sl.cst_284
  simp only [S_v529 c i tbl hT sim b9, V14_6 c i M2 hM2 M3 hM3 tbl hT sim x2 x3 b9 b10 a12 a13 a14 a15 a16 a17, mk_read M3 hM3 x3 6 (by decide)]
  try rfl
theorem V12_8 : kernelRunA.sl.v744 c M3 hM3 x3 = (rowsOf c tbl i sim x2 x3 (zeroAcc) 8).m := by
  unfold kernelRunA.sl.v744 kernelRunA.sl.H12_9
  rw [View.readCov_cons_toLoadRect]
  refine Eq.trans ?_ (rowsOf_m c tbl i sim x2 x3 (zeroAcc) 7 (by decide)).symm
  unfold kernelRunA.sl.r_69
  simp only [V12_7 c i M2 hM2 M3 hM3 tbl hT sim x2 x3 b9 b10 a12 a13 a14 a15 a16 a17, mk_read M3 hM3 x3 7 (by decide)]
  try rfl
theorem V13_8 : kernelRunA.sl.v749 c i M2 hM2 M3 hM3 tbl x2 x3 = (rowsOf c tbl i sim x2 x3 (zeroAcc) 8).logp := by
  unfold kernelRunA.sl.v749 kernelRunA.sl.H13_9
  rw [View.readCov_cons_toLoadRect]
  refine Eq.trans ?_ (rowsOf_logp c tbl i sim x2 x3 (zeroAcc) 7 (by decide)).symm
  unfold kernelRunA.sl.r_69 kernelRunA.sl.r_73
  simp only [W_r_68 c i tbl, V13_7 c i M2 hM2 M3 hM3 tbl hT sim x2 x3 b9 b10 a12 a13 a14 a15 a16 a17, in_read M2 hM2 x2 7 (by decide), mk_read M3 hM3 x3 7 (by decide)]
  try rfl
theorem V14_8 : kernelRunA.sl.v755 c i M3 hM3 tbl hT sim x3 b9 b10 = (rowsOf c tbl i sim x2 x3 (zeroAcc) 8).w := by
  unfold kernelRunA.sl.v755 kernelRunA.sl.H14_9
  rw [View.readCov_cons_toLoadRect]
  refine Eq.trans ?_ (rowsOf_w c tbl i sim x2 x3 (zeroAcc) 7 (by decide)).symm
  unfold kernelRunA.sl.r_71
  simp only [S_v614 c i tbl hT sim b10, V14_7 c i M2 hM2 M3 hM3 tbl hT sim x2 x3 b9 b10 a12 a13 a14 a15 a16 a17, mk_read M3 hM3 x3 7 (by decide)]
  try rfl
theorem V12_9 : kernelRunA.sl.v829 c M3 hM3 x3 = (rowsOf c tbl i sim x2 x3 (zeroAcc) 9).m := by
  unfold kernelRunA.sl.v829 kernelRunA.sl.H12_10
  rw [View.readCov_cons_toLoadRect]
  refine Eq.trans ?_ (rowsOf_m c tbl i sim x2 x3 (zeroAcc) 8 (by decide)).symm
  unfold kernelRunA.sl.r_78
  simp only [V12_8 c i M2 hM2 M3 hM3 tbl hT sim x2 x3 b9 b10 a12 a13 a14 a15 a16 a17, mk_read M3 hM3 x3 8 (by decide)]
  try rfl
theorem V13_9 : kernelRunA.sl.v834 c i M2 hM2 M3 hM3 tbl x2 x3 = (rowsOf c tbl i sim x2 x3 (zeroAcc) 9).logp := by
  unfold kernelRunA.sl.v834 kernelRunA.sl.H13_10
  rw [View.readCov_cons_toLoadRect]
  refine Eq.trans ?_ (rowsOf_logp c tbl i sim x2 x3 (zeroAcc) 8 (by decide)).symm
  unfold kernelRunA.sl.r_77 kernelRunA.sl.r_78
  simp only [W_r_76 c i tbl, V13_8 c i M2 hM2 M3 hM3 tbl hT sim x2 x3 b9 b10 a12 a13 a14 a15 a16 a17, in_read M2 hM2 x2 8 (by decide), mk_read M3 hM3 x3 8 (by decide)]
  try rfl
theorem V14_9 : kernelRunA.sl.v840 c i M3 hM3 tbl hT sim x3 b9 b10 = (rowsOf c tbl i sim x2 x3 (zeroAcc) 9).w := by
  unfold kernelRunA.sl.v840 kernelRunA.sl.H14_10
  rw [View.readCov_cons_toLoadRect]
  refine Eq.trans ?_ (rowsOf_w c tbl i sim x2 x3 (zeroAcc) 8 (by decide)).symm
  unfold kernelRunA.sl.r_78 kernelRunA.sl.r_79
  simp only [S_v699 c i tbl hT sim b9, V14_8 c i M2 hM2 M3 hM3 tbl hT sim x2 x3 b9 b10 a12 a13 a14 a15 a16 a17, mk_read M3 hM3 x3 8 (by decide)]
  try rfl
theorem V12_10 : kernelRunA.sl.v914 c M3 hM3 x3 = (rowsOf c tbl i sim x2 x3 (zeroAcc) 10).m := by
  unfold kernelRunA.sl.v914 kernelRunA.sl.H12_11
  rw [View.readCov_cons_toLoadRect]
  refine Eq.trans ?_ (rowsOf_m c tbl i sim x2 x3 (zeroAcc) 9 (by decide)).symm
  unfold kernelRunA.sl.r_85
  simp only [V12_9 c i M2 hM2 M3 hM3 tbl hT sim x2 x3 b9 b10 a12 a13 a14 a15 a16 a17, mk_read M3 hM3 x3 9 (by decide)]
  try rfl
theorem V13_10 : kernelRunA.sl.v919 c i M2 hM2 M3 hM3 tbl x2 x3 = (rowsOf c tbl i sim x2 x3 (zeroAcc) 10).logp := by
  unfold kernelRunA.sl.v919 kernelRunA.sl.H13_11
  rw [View.readCov_cons_toLoadRect]
  refine Eq.trans ?_ (rowsOf_logp c tbl i sim x2 x3 (zeroAcc) 9 (by decide)).symm
  unfold kernelRunA.sl.r_85 kernelRunA.sl.r_89 kernelRunA.sl.r_84
  simp only [W_r_86 c i tbl, V13_9 c i M2 hM2 M3 hM3 tbl hT sim x2 x3 b9 b10 a12 a13 a14 a15 a16 a17, in_read M2 hM2 x2 9 (by decide), mk_read M3 hM3 x3 9 (by decide)]
  try rfl
theorem V14_10 : kernelRunA.sl.v925 c i M3 hM3 tbl hT sim x3 b9 b10 = (rowsOf c tbl i sim x2 x3 (zeroAcc) 10).w := by
  unfold kernelRunA.sl.v925 kernelRunA.sl.H14_11
  rw [View.readCov_cons_toLoadRect]
  refine Eq.trans ?_ (rowsOf_w c tbl i sim x2 x3 (zeroAcc) 9 (by decide)).symm
  unfold kernelRunA.sl.r_87 kernelRunA.sl.r_85
  simp only [S_v784 c i tbl hT sim b10, V14_9 c i M2 hM2 M3 hM3 tbl hT sim x2 x3 b9 b10 a12 a13 a14 a15 a16 a17, mk_read M3 hM3 x3 9 (by decide)]
  try rfl
theorem V12_11 : kernelRunA.sl.v999 c M3 hM3 x3 = (rowsOf c tbl i sim x2 x3 (zeroAcc) 11).m := by
  unfold kernelRunA.sl.v999 kernelRunA.sl.H12_12
  rw [View.readCov_cons_toLoadRect]
  refine Eq.trans ?_ (rowsOf_m c tbl i sim x2 x3 (zeroAcc) 10 (by decide)).symm
  unfold kernelRunA.sl.r_94
  simp only [V12_10 c i M2 hM2 M3 hM3 tbl hT sim x2 x3 b9 b10 a12 a13 a14 a15 a16 a17, mk_read M3 hM3 x3 10 (by decide)]
  try rfl
theorem V13_11 : kernelRunA.sl.v1004 c i M2 hM2 M3 hM3 tbl x2 x3 = (rowsOf c tbl i sim x2 x3 (zeroAcc) 11).logp := by
  unfold kernelRunA.sl.v1004 kernelRunA.sl.H13_12
  rw [View.readCov_cons_toLoadRect]
  refine Eq.trans ?_ (rowsOf_logp c tbl i sim x2 x3 (zeroAcc) 10 (by decide)).symm
  unfold kernelRunA.sl.r_94 kernelRunA.sl.r_98
  simp only [W_r_93 c i tbl, V13_10 c i M2 hM2 M3 hM3 tbl hT sim x2 x3 b9 b10 a12 a13 a14 a15 a16 a17, in_read M2 hM2 x2 10 (by decide), mk_read M3 hM3 x3 10 (by decide)]
  try rfl
theorem V14_11 : kernelRunA.sl.v1010 c i M3 hM3 tbl hT sim x3 b9 b10 = (rowsOf c tbl i sim x2 x3 (zeroAcc) 11).w := by
  unfold kernelRunA.sl.v1010 kernelRunA.sl.H14_12
  rw [View.readCov_cons_toLoadRect]
  refine Eq.trans ?_ (rowsOf_w c tbl i sim x2 x3 (zeroAcc) 10 (by decide)).symm
  unfold kernelRunA.sl.r_96
  simp only [S_v869 c i tbl hT sim b9, V14_10 c i M2 hM2 M3 hM3 tbl hT sim x2 x3 b9 b10 a12 a13 a14 a15 a16 a17, mk_read M3 hM3 x3 10 (by decide)]
  try rfl
theorem V12_12 : kernelRunA.sl.v1084 c M3 hM3 x3 = (rowsOf c tbl i sim x2 x3 (zeroAcc) 12).m := by
  unfold kernelRunA.sl.v1084 kernelRunA.sl.H12_13
  rw [View.readCov_cons_toLoadRect]
  refine Eq.trans ?_ (rowsOf_m c tbl i sim x2 x3 (zeroAcc) 11 (by decide)).symm
  unfold kernelRunA.sl.r_104
  simp only [V12_11 c i M2 hM2 M3 hM3 tbl hT sim x2 x3 b9 b10 a12 a13 a14 a15 a16 a17, mk_read M3 hM3 x3 11 (by decide)]
  try rfl
theorem V13_12 : kernelRunA.sl.v1089 c i M2 hM2 M3 hM3 tbl x2 x3 = (rowsOf c tbl i sim x2 x3 (zeroAcc) 12).logp := by
  unfold kernelRunA.sl.v1089 kernelRunA.sl.H13_13
  rw [View.readCov_cons_toLoadRect]
  refine Eq.trans ?_ (rowsOf_logp c tbl i sim x2 x3 (zeroAcc) 11 (by decide)).symm
  unfold kernelRunA.sl.r_103 kernelRunA.sl.r_104
  simp only [W_r_102 c i tbl, V13_11 c i M2 hM2 M3 hM3 tbl hT sim x2 x3 b9 b10 a12 a13 a14 a15 a16 a17, in_read M2 hM2 x2 11 (by decide), mk_read M3 hM3 x3 11 (by decide)]
  try rfl
theorem V14_12 : kernelRunA.sl.v1095 c i M3 hM3 tbl hT sim x3 b9 b10 = (rowsOf c tbl i sim x2 x3 (zeroAcc) 12).w := by
  unfold kernelRunA.sl.v1095 kernelRunA.sl.H14_13
  rw [View.readCov_cons_toLoadRect]
  refine Eq.trans ?_ (rowsOf_w c tbl i sim x2 x3 (zeroAcc) 11 (by decide)).symm
  unfold kernelRunA.sl.r_110 kernelRunA.sl.r_104 kernelRunA.sl.r_105 kernelRunA.sl.r_106
  simp only [V14_11 c i M2 hM2 M3 hM3 tbl hT sim x2 x3 b9 b10 a12 a13 a14 a15 a16 a17, S_v954 c i tbl hT sim b10, mk_read M3 hM3 x3 11 (by decide)]
  try rfl
theorem V12_13 : kernelRunA.sl.v1169 c M3 hM3 x3 = (rowsOf c tbl i sim x2 x3 (zeroAcc) 13).m := by
  unfold kernelRunA.sl.v1169 kernelRunA.sl.H12_14
  rw [View.readCov_cons_toLoadRect]
  refine Eq.trans ?_ (rowsOf_m c tbl i sim x2 x3 (zeroAcc) 12 (by decide)).symm
  unfold kernelRunA.sl.r_121 kernelRunA.sl.r_113
  simp only [V12_12 c i M2 hM2 M3 hM3 tbl hT sim x2 x3 b9 b10 a12 a13 a14 a15 a16 a17, mk_read M3 hM3 x3 12 (by decide)]
  try rfl
theorem V13_13 : kernelRunA.sl.v1174 c i M2 hM2 M3 hM3 tbl x2 x3 = (rowsOf c tbl i sim x2 x3 (zeroAcc) 13).logp := by
  unfold kernelRunA.sl.v1174 kernelRunA.sl.H13_14
  rw [View.readCov_cons_toLoadRect]
  refine Eq.trans ?_ (rowsOf_logp c tbl i sim x2 x3 (zeroAcc) 12 (by decide)).symm
  unfold kernelRunA.sl.r_115 kernelRunA.sl.r_118 kernelRunA.sl.r_113 kernelRunA.sl.r_112
  simp only [W_r_114 c i tbl, V13_12 c i M2 hM2 M3 hM3 tbl hT sim x2 x3 b9 b10 a12 a13 a14 a15 a16 a17, in_read M2 hM2 x2 12 (by decide), mk_read M3 hM3 x3 12 (by decide)]
  try rfl
theorem V14_13 : kernelRunA.sl.v1180 c i M3 hM3 tbl hT sim x3 b9 b10 = (rowsOf c tbl i sim x2 x3 (zeroAcc) 13).w := by
  unfold kernelRunA.sl.v1180 kernelRunA.sl.H14_14
  rw [View.readCov_cons_toLoadRect]
  refine Eq.trans ?_ (rowsOf_w c tbl i sim x2 x3 (zeroAcc) 12 (by decide)).symm
  unfold kernelRunA.sl.r_116 kernelRunA.sl.r_113
  simp only [S_v1039 c i tbl hT sim b9, V14_12 c i M2 hM2 M3 hM3 tbl hT sim x2 x3 b9 b10 a12 a13 a14 a15 a16 a17, mk_read M3 hM3 x3 12 (by decide)]
  try rfl
theorem V12_14 : kernelRunA.sl.v1254 c M3 hM3 x3 = (rowsOf c tbl i sim x2 x3 (zeroAcc) 14).m := by
  unfold kernelRunA.sl.v1254 kernelRunA.sl.H12_15
  rw [View.readCov_cons_toLoadRect]
  refine Eq.trans ?_ (rowsOf_m c tbl i sim x2 x3 (zeroAcc) 13 (by decide)).symm
  unfold kernelRunA.sl.r_125
  simp only [V12_13 c i M2 hM2 M3 hM3 tbl hT sim x2 x3 b9 b10 a12 a13 a14 a15 a16 a17, mk_read M3 hM3 x3 13 (by decide)]
  try rfl
theorem V13_14 : kernelRunA.sl.v1259 c i M2 hM2 M3 hM3 tbl x2 x3 = (rowsOf c tbl i sim x2 x3 (zeroAcc) 14).logp := by
  unfold kernelRunA.sl.v1259 kernelRunA.sl.H13_15
  rw [View.readCov_cons_toLoadRect]
  refine Eq.trans ?_ (rowsOf_logp c tbl i sim x2 x3 (zeroAcc) 13 (by decide)).symm
  unfold kernelRunA.sl.r_124 kernelRunA.sl.r_125 kernelRunA.sl.r_129
  simp only [W_r_123 c i tbl, V13_13 c i M2 hM2 M3 hM3 tbl hT sim x2 x3 b9 b10 a12 a13 a14 a15 a16 a17, in_read M2 hM2 x2 13 (by decide), mk_read M3 hM3 x3 13 (by decide)]
  try rfl
theorem V14_14 : kernelRunA.sl.v1265 c i M3 hM3 tbl hT sim x3 b9 b10 = (rowsOf c tbl i sim x2 x3 (zeroAcc) 14).w := by
  unfold kernelRunA.sl.v1265 kernelRunA.sl.H14_15
  rw [View.readCov_cons_toLoadRect]
  refine Eq.trans ?_ (rowsOf_w c tbl i sim x2 x3 (zeroAcc) 13 (by decide)).symm
  unfold kernelRunA.sl.r_127
  simp only [S_v1124 c i tbl hT sim b10, V14_13 c i M2 hM2 M3 hM3 tbl hT sim x2 x3 b9 b10 a12 a13 a14 a15 a16 a17, mk_read M3 hM3 x3 13 (by decide)]
  try rfl
theorem V12_15 : kernelRunA.sl.v1339 c M3 hM3 x3 = (rowsOf c tbl i sim x2 x3 (zeroAcc) 15).m := by
  unfold kernelRunA.sl.v1339 kernelRunA.sl.H12_16
  rw [View.readCov_cons_toLoadRect]
  refine Eq.trans ?_ (rowsOf_m c tbl i sim x2 x3 (zeroAcc) 14 (by decide)).symm
  unfold kernelRunA.sl.r_135
  simp only [V12_14 c i M2 hM2 M3 hM3 tbl hT sim x2 x3 b9 b10 a12 a13 a14 a15 a16 a17, mk_read M3 hM3 x3 14 (by decide)]
  try rfl
theorem V13_15 : kernelRunA.sl.v1344 c i M2 hM2 M3 hM3 tbl x2 x3 = (rowsOf c tbl i sim x2 x3 (zeroAcc) 15).logp := by
  unfold kernelRunA.sl.v1344 kernelRunA.sl.H13_16
  rw [View.readCov_cons_toLoadRect]
  refine Eq.trans ?_ (rowsOf_logp c tbl i sim x2 x3 (zeroAcc) 14 (by decide)).symm
  unfold kernelRunA.sl.r_134 kernelRunA.sl.r_135
  simp only [W_r_133 c i tbl, V13_14 c i M2 hM2 M3 hM3 tbl hT sim x2 x3 b9 b10 a12 a13 a14 a15 a16 a17, in_read M2 hM2 x2 14 (by decide), mk_read M3 hM3 x3 14 (by decide)]
  try rfl
theorem V14_15 : kernelRunA.sl.v1350 c i M3 hM3 tbl hT sim x3 b9 b10 = (rowsOf c tbl i sim x2 x3 (zeroAcc) 15).w := by
  unfold kernelRunA.sl.v1350 kernelRunA.sl.H14_16
  rw [View.readCov_cons_toLoadRect]
  refine Eq.trans ?_ (rowsOf_w c tbl i sim x2 x3 (zeroAcc) 14 (by decide)).symm
  unfold kernelRunA.sl.r_141 kernelRunA.sl.r_135 kernelRunA.sl.r_136 kernelRunA.sl.r_137
  simp only [S_v1209 c i tbl hT sim b9, V14_14 c i M2 hM2 M3 hM3 tbl hT sim x2 x3 b9 b10 a12 a13 a14 a15 a16 a17, mk_read M3 hM3 x3 14 (by decide)]
  try rfl
theorem V12_16 : kernelRunA.sl.v1424 c M3 hM3 x3 = (rowsOf c tbl i sim x2 x3 (zeroAcc) 16).m := by
  unfold kernelRunA.sl.v1424 kernelRunA.sl.H12_17
  rw [View.readCov_cons_toLoadRect]
  refine Eq.trans ?_ (rowsOf_m c tbl i sim x2 x3 (zeroAcc) 15 (by decide)).symm
  unfold kernelRunA.sl.r_151
  simp only [V12_15 c i M2 hM2 M3 hM3 tbl hT sim x2 x3 b9 b10 a12 a13 a14 a15 a16 a17, mk_read M3 hM3 x3 15 (by decide)]
  try rfl
theorem V13_16 : kernelRunA.sl.v1429 c i M2 hM2 M3 hM3 tbl x2 x3 = (rowsOf c tbl i sim x2 x3 (zeroAcc) 16).logp := by
  unfold kernelRunA.sl.v1429 kernelRunA.sl.H13_17
  rw [View.readCov_cons_toLoadRect]
  refine Eq.trans ?_ (rowsOf_logp c tbl i sim x2 x3 (zeroAcc) 15 (by decide)).symm
  unfold kernelRunA.sl.r_145 kernelRunA.sl.r_148 kernelRunA.sl.r_143
  simp only [W_r_144 c i tbl, V13_15 c i M2 hM2 M3 hM3 tbl hT sim x2 x3 b9 b10 a12 a13 a14 a15 a16 a17, in_read M2 hM2 x2 15 (by decide), mk_read M3 hM3 x3 15 (by decide)]
  try rfl
theorem V14_16 : kernelRunA.sl.v1435 c i M3 hM3 tbl hT sim x3 b9 b10 = (rowsOf c tbl i sim x2 x3 (zeroAcc) 16).w := by
  unfold kernelRunA.sl.v1435 kernelRunA.sl.H14_17
  rw [View.readCov_cons_toLoadRect]
  refine Eq.trans ?_ (rowsOf_w c tbl i sim x2 x3 (zeroAcc) 15 (by decide)).symm
  unfold kernelRunA.sl.r_146
  simp only [S_v1294 c i tbl hT sim b10, V14_15 c i M2 hM2 M3 hM3 tbl hT sim x2 x3 b9 b10 a12 a13 a14 a15 a16 a17, mk_read M3 hM3 x3 15 (by decide)]
  try rfl
theorem V12_17 : kernelRunA.sl.v1509 c M3 hM3 x3 = (rowsOf c tbl i sim x2 x3 (zeroAcc) 17).m := by
  unfold kernelRunA.sl.v1509 kernelRunA.sl.H12_18
  rw [View.readCov_cons_toLoadRect]
  refine Eq.trans ?_ (rowsOf_m c tbl i sim x2 x3 (zeroAcc) 16 (by decide)).symm
  unfold kernelRunA.sl.r_155
  simp only [V12_16 c i M2 hM2 M3 hM3 tbl hT sim x2 x3 b9 b10 a12 a13 a14 a15 a16 a17, mk_read M3 hM3 x3 16 (by decide)]
  try rfl
theorem V13_17 : kernelRunA.sl.v1514 c i M2 hM2 M3 hM3 tbl x2 x3 = (rowsOf c tbl i sim x2 x3 (zeroAcc) 17).logp := by
  unfold kernelRunA.sl.v1514 kernelRunA.sl.H13_18
  rw [View.readCov_cons_toLoadRect]
  refine Eq.trans ?_ (rowsOf_logp c tbl i sim x2 x3 (zeroAcc) 16 (by decide)).symm
  unfold kernelRunA.sl.r_154 kernelRunA.sl.r_155
  simp only [W_r_153 c i tbl, V13_16 c i M2 hM2 M3 hM3 tbl hT sim x2 x3 b9 b10 a12 a13 a14 a15 a16 a17, in_read M2 hM2 x2 16 (by decide), mk_read M3 hM3 x3 16 (by decide)]
  try rfl
theorem V14_17 : kernelRunA.sl.v1520 c i M3 hM3 tbl hT sim x3 b9 b10 = (rowsOf c tbl i sim x2 x3 (zeroAcc) 17).w := by
  unfold kernelRunA.sl.v1520 kernelRunA.sl.H14_18
  rw [View.readCov_cons_toLoadRect]
  refine Eq.trans ?_ (rowsOf_w c tbl i sim x2 x3 (zeroAcc) 16 (by decide)).symm
  unfold kernelRunA.sl.r_157
  simp only [S_v1379 c i tbl hT sim b9, V14_16 c i M2 hM2 M3 hM3 tbl hT sim x2 x3 b9 b10 a12 a13 a14 a15 a16 a17, mk_read M3 hM3 x3 16 (by decide)]
  try rfl
theorem V12_18 : kernelRunA.sl.v1594 c M3 hM3 x3 = (rowsOf c tbl i sim x2 x3 (zeroAcc) 18).m := by
  unfold kernelRunA.sl.v1594 kernelRunA.sl.H12_19
  rw [View.readCov_cons_toLoadRect]
  refine Eq.trans ?_ (rowsOf_m c tbl i sim x2 x3 (zeroAcc) 17 (by decide)).symm
  unfold kernelRunA.sl.r_164
  simp only [V12_17 c i M2 hM2 M3 hM3 tbl hT sim x2 x3 b9 b10 a12 a13 a14 a15 a16 a17, mk_read M3 hM3 x3 17 (by decide)]
  try rfl
theorem V13_18 : kernelRunA.sl.v1599 c i M2 hM2 M3 hM3 tbl x2 x3 = (rowsOf c tbl i sim x2 x3 (zeroAcc) 18).logp := by
  unfold kernelRunA.sl.v1599 kernelRunA.sl.H13_19
  rw [View.readCov_cons_toLoadRect]
  refine Eq.trans ?_ (rowsOf_logp c tbl i sim x2 x3 (zeroAcc) 17 (by decide)).symm
  unfold kernelRunA.sl.r_163 kernelRunA.sl.r_164
  simp only [W_r_162 c i tbl, V13_17 c i M2 hM2 M3 hM3 tbl hT sim x2 x3 b9 b10 a12 a13 a14 a15 a16 a17, in_read M2 hM2 x2 17 (by decide), mk_read M3 hM3 x3 17 (by decide)]
  try rfl
theorem V14_18 : kernelRunA.sl.v1605 c i M3 hM3 tbl hT sim x3 b9 b10 = (rowsOf c tbl i sim x2 x3 (zeroAcc) 18).w := by
  unfold kernelRunA.sl.v1605 kernelRunA.sl.H14_19
  rw [View.readCov_cons_toLoadRect]
  refine Eq.trans ?_ (rowsOf_w c tbl i sim x2 x3 (zeroAcc) 17 (by decide)).symm
  unfold kernelRunA.sl.r_167 kernelRunA.sl.r_164 kernelRunA.sl.r_165 kernelRunA.sl.r_166 kernelRunA.sl.cst_781
  simp only [S_v1464 c i tbl hT sim b10, V14_17 c i M2 hM2 M3 hM3 tbl hT sim x2 x3 b9 b10 a12 a13 a14 a15 a16 a17, mk_read M3 hM3 x3 17 (by decide)]
  try rfl
theorem V12_19 : kernelRunA.sl.v1679 c M3 hM3 x3 = (rowsOf c tbl i sim x2 x3 (zeroAcc) 19).m := by
  unfold kernelRunA.sl.v1679 kernelRunA.sl.H12_20
  rw [View.readCov_cons_toLoadRect]
  refine Eq.trans ?_ (rowsOf_m c tbl i sim x2 x3 (zeroAcc) 18 (by decide)).symm
  unfold kernelRunA.sl.r_173
  simp only [V12_18 c i M2 hM2 M3 hM3 tbl hT sim x2 x3 b9 b10 a12 a13 a14 a15 a16 a17, mk_read M3 hM3 x3 18 (by decide)]
  try rfl
theorem V13_19 : kernelRunA.sl.v1684 c i M2 hM2 M3 hM3 tbl x2 x3 = (rowsOf c tbl i sim x2 x3 (zeroAcc) 19).logp := by
  unfold kernelRunA.sl.v1684 kernelRunA.sl.H13_20
  rw [View.readCov_cons_toLoadRect]
  refine Eq.trans ?_ (rowsOf_logp c tbl i sim x2 x3 (zeroAcc) 18 (by decide)).symm
  unfold kernelRunA.sl.r_173 kernelRunA.sl.r_176
  simp only [W_r_172 c i tbl, V13_18 c i M2 hM2 M3 hM3 tbl hT sim x2 x3 b9 b10 a12 a13 a14 a15 a16 a17, in_read M2 hM2 x2 18 (by decide), mk_read M3 hM3 x3 18 (by decide)]
  try rfl
theorem V14_19 : kernelRunA.sl.v1690 c i M3 hM3 tbl hT sim x3 b9 b10 = (rowsOf c tbl i sim x2 x3 (zeroAcc) 19).w := by
  unfold kernelRunA.sl.v1690 kernelRunA.sl.H14_20
  rw [View.readCov_cons_toLoadRect]
  refine Eq.trans ?_ (rowsOf_w c tbl i sim x2 x3 (zeroAcc) 18 (by decide)).symm
  unfold kernelRunA.sl.r_174
  simp only [S_v c i tbl hT sim b9, V14_18 c i M2 hM2 M3 hM3 tbl hT sim x2 x3 b9 b10 a12 a13 a14 a15 a16 a17, mk_read M3 hM3 x3 18 (by decide)]
  try rfl
theorem V12_20 : kernelRunA.sl.v1764 c M3 hM3 x3 = (rowsOf c tbl i sim x2 x3 (zeroAcc) 20).m := by
  unfold kernelRunA.sl.v1764 kernelRunA.sl.H12_21
  rw [View.readCov_cons_toLoadRect]
  refine Eq.trans ?_ (rowsOf_m c tbl i sim x2 x3 (zeroAcc) 19 (by decide)).symm
  unfold kernelRunA.sl.r_182
  simp only [V12_19 c i M2 hM2 M3 hM3 tbl hT sim x2 x3 b9 b10 a12 a13 a14 a15 a16 a17, mk_read M3 hM3 x3 19 (by decide)]
  try rfl
theorem V13_20 : kernelRunA.sl.v1769 c i M2 hM2 M3 hM3 tbl x2 x3 = (rowsOf c tbl i sim x2 x3 (zeroAcc) 20).logp := by
  unfold kernelRunA.sl.v1769 kernelRunA.sl.H13_21
  rw [View.readCov_cons_toLoadRect]
  refine Eq.trans ?_ (rowsOf_logp c tbl i sim x2 x3 (zeroAcc) 19 (by decide)).symm
  unfold kernelRunA.sl.r_181 kernelRunA.sl.r_182
  simp only [W_r_180 c i tbl, V13_19 c i M2 hM2 M3 hM3 tbl hT sim x2 x3 b9 b10 a12 a13 a14 a15 a16 a17, in_read M2 hM2 x2 19 (by decide), mk_read M3 hM3 x3 19 (by decide)]
  try rfl
theorem V14_20 : kernelRunA.sl.v1775 c i M3 hM3 tbl hT sim x3 b9 b10 = (rowsOf c tbl i sim x2 x3 (zeroAcc) 20).w := by
  unfold kernelRunA.sl.v1775 kernelRunA.sl.H14_21
  rw [View.readCov_cons_toLoadRect]
  refine Eq.trans ?_ (rowsOf_w c tbl i sim x2 x3 (zeroAcc) 19 (by decide)).symm
  unfold kernelRunA.sl.r_184
  simp only [S_v1634 c i tbl hT sim b10, V14_19 c i M2 hM2 M3 hM3 tbl hT sim x2 x3 b9 b10 a12 a13 a14 a15 a16 a17, mk_read M3 hM3 x3 19 (by decide)]
  try rfl
theorem V12_21 : kernelRunA.sl.v1849 c M3 hM3 x3 = (rowsOf c tbl i sim x2 x3 (zeroAcc) 21).m := by
  unfold kernelRunA.sl.v1849 kernelRunA.sl.H12_22
  rw [View.readCov_cons_toLoadRect]
  refine Eq.trans ?_ (rowsOf_m c tbl i sim x2 x3 (zeroAcc) 20 (by decide)).symm
  unfold kernelRunA.sl.r_191
  simp only [V12_20 c i M2 hM2 M3 hM3 tbl hT sim x2 x3 b9 b10 a12 a13 a14 a15 a16 a17, mk_read M3 hM3 x3 20 (by decide)]
  try rfl
theorem V13_21 : kernelRunA.sl.v1854 c i M2 hM2 M3 hM3 tbl x2 x3 = (rowsOf c tbl i sim x2 x3 (zeroAcc) 21).logp := by
  unfold kernelRunA.sl.v1854 kernelRunA.sl.H13_22
  rw [View.readCov_cons_toLoadRect]
  refine Eq.trans ?_ (rowsOf_logp c tbl i sim x2 x3 (zeroAcc) 20 (by decide)).symm
  unfold kernelRunA.sl.r_197 kernelRunA.sl.r_190 kernelRunA.sl.r_191
  simp only [W_r_189 c i tbl, V13_20 c i M2 hM2 M3 hM3 tbl hT sim x2 x3 b9 b10 a12 a13 a14 a15 a16 a17, in_read M2 hM2 x2 20 (by decide), mk_read M3 hM3 x3 20 (by decide)]
  try rfl
theorem V14_21 : kernelRunA.sl.v1860 c i M3 hM3 tbl hT sim x3 b9 b10 = (rowsOf c tbl i sim x2 x3 (zeroAcc) 21).w := by
  unfold kernelRunA.sl.v1860 kernelRunA.sl.H14_22
  rw [View.readCov_cons_toLoadRect]
  refine Eq.trans ?_ (rowsOf_w c tbl i sim x2 x3 (zeroAcc) 20 (by decide)).symm
  unfold kernelRunA.sl.r_193 kernelRunA.sl.r_191 kernelRunA.sl.r_192 kernelRunA.sl.cst_15
  simp only [S_v1719 c i tbl hT sim b9, V14_20 c i M2 hM2 M3 hM3 tbl hT sim x2 x3 b9 b10 a12 a13 a14 a15 a16 a17, mk_read M3 hM3 x3 20 (by decide)]
  try rfl
theorem V12_22 : kernelRunA.sl.v1934 c M3 hM3 x3 = (rowsOf c tbl i sim x2 x3 (zeroAcc) 22).m := by
  unfold kernelRunA.sl.v1934 kernelRunA.sl.H12_23
  rw [View.readCov_cons_toLoadRect]
  refine Eq.trans ?_ (rowsOf_m c tbl i sim x2 x3 (zeroAcc) 21 (by decide)).symm
  unfold kernelRunA.sl.r_200
  simp only [V12_21 c i M2 hM2 M3 hM3 tbl hT sim x2 x3 b9 b10 a12 a13 a14 a15 a16 a17, mk_read M3 hM3 x3 21 (by decide)]
  try rfl
theorem V13_22 : kernelRunA.sl.v1939 c i M2 hM2 M3 hM3 tbl x2 x3 = (rowsOf c tbl i sim x2 x3 (zeroAcc) 22).logp := by
  unfold kernelRunA.sl.v1939 kernelRunA.sl.H13_23
  rw [View.readCov_cons_toLoadRect]
  refine Eq.trans ?_ (rowsOf_logp c tbl i sim x2 x3 (zeroAcc) 21 (by decide)).symm
  unfold kernelRunA.sl.r_200 kernelRunA.sl.r_203
  simp only [W_r_199 c i tbl, V13_21 c i M2 hM2 M3 hM3 tbl hT sim x2 x3 b9 b10 a12 a13 a14 a15 a16 a17, in_read M2 hM2 x2 21 (by decide), mk_read M3 hM3 x3 21 (by decide)]
  try rfl
theorem V14_22 : kernelRunA.sl.v1945 c i M3 hM3 tbl hT sim x3 b9 b10 = (rowsOf c tbl i sim x2 x3 (zeroAcc) 22).w := by
  unfold kernelRunA.sl.v1945 kernelRunA.sl.H14_23
  rw [View.readCov_cons_toLoadRect]
  refine Eq.trans ?_ (rowsOf_w c tbl i sim x2 x3 (zeroAcc) 21 (by decide)).symm
  unfold kernelRunA.sl.r_201
  simp only [S_v1804 c i tbl hT sim b10, V14_21 c i M2 hM2 M3 hM3 tbl hT sim x2 x3 b9 b10 a12 a13 a14 a15 a16 a17, mk_read M3 hM3 x3 21 (by decide)]
  try rfl
theorem V12_23 : kernelRunA.sl.v2019 c M3 hM3 x3 = (rowsOf c tbl i sim x2 x3 (zeroAcc) 23).m := by
  unfold kernelRunA.sl.v2019 kernelRunA.sl.H12_24
  rw [View.readCov_cons_toLoadRect]
  refine Eq.trans ?_ (rowsOf_m c tbl i sim x2 x3 (zeroAcc) 22 (by decide)).symm
  unfold kernelRunA.sl.r_210
  simp only [V12_22 c i M2 hM2 M3 hM3 tbl hT sim x2 x3 b9 b10 a12 a13 a14 a15 a16 a17, mk_read M3 hM3 x3 22 (by decide)]
  try rfl
theorem V13_23 : kernelRunA.sl.v2024 c i M2 hM2 M3 hM3 tbl x2 x3 = (rowsOf c tbl i sim x2 x3 (zeroAcc) 23).logp := by
  unfold kernelRunA.sl.v2024 kernelRunA.sl.H13_24
  rw [View.readCov_cons_toLoadRect]
  refine Eq.trans ?_ (rowsOf_logp c tbl i sim x2 x3 (zeroAcc) 22 (by decide)).symm
  unfold kernelRunA.sl.r_209 kernelRunA.sl.r_210
  simp only [W_r_208 c i tbl, V13_22 c i M2 hM2 M3 hM3 tbl hT sim x2 x3 b9 b10 a12 a13 a14 a15 a16 a17, in_read M2 hM2 x2 22 (by decide), mk_read M3 hM3 x3 22 (by decide)]
  try rfl
theorem V14_23 : kernelRunA.sl.v2030 c i M3 hM3 tbl hT sim x3 b9 b10 = (rowsOf c tbl i sim x2 x3 (zeroAcc) 23).w := by
  unfold kernelRunA.sl.v2030 kernelRunA.sl.H14_24
  rw [View.readCov_cons_toLoadRect]
  refine Eq.trans ?_ (rowsOf_w c tbl i sim x2 x3 (zeroAcc) 22 (by decide)).symm
  unfold kernelRunA.sl.r_213
  simp only [S_v1889 c i tbl hT sim b9, V14_22 c i M2 hM2 M3 hM3 tbl hT sim x2 x3 b9 b10 a12 a13 a14 a15 a16 a17, mk_read M3 hM3 x3 22 (by decide)]
  try rfl
theorem V12_24 : kernelRunA.sl.v2104 c M3 hM3 x3 = (rowsOf c tbl i sim x2 x3 (zeroAcc) 24).m := by
  unfold kernelRunA.sl.v2104 kernelRunA.sl.H12_25
  rw [View.readCov_cons_toLoadRect]
  refine Eq.trans ?_ (rowsOf_m c tbl i sim x2 x3 (zeroAcc) 23 (by decide)).symm
  unfold kernelRunA.sl.r_220
  simp only [V12_23 c i M2 hM2 M3 hM3 tbl hT sim x2 x3 b9 b10 a12 a13 a14 a15 a16 a17, mk_read M3 hM3 x3 23 (by decide)]
  try rfl
theorem V13_24 : kernelRunA.sl.v2109 c i M2 hM2 M3 hM3 tbl x2 x3 = (rowsOf c tbl i sim x2 x3 (zeroAcc) 24).logp := by
  unfold kernelRunA.sl.v2109 kernelRunA.sl.H13_25
  rw [View.readCov_cons_toLoadRect]
  refine Eq.trans ?_ (rowsOf_logp c tbl i sim x2 x3 (zeroAcc) 23 (by decide)).symm
  unfold kernelRunA.sl.r_226 kernelRunA.sl.r_219 kernelRunA.sl.r_220
  simp only [W_r_218 c i tbl, V13_23 c i M2 hM2 M3 hM3 tbl hT sim x2 x3 b9 b10 a12 a13 a14 a15 a16 a17, in_read M2 hM2 x2 23 (by decide), mk_read M3 hM3 x3 23 (by decide)]
  try rfl
theorem V14_24 : kernelRunA.sl.v2115 c i M3 hM3 tbl hT sim x3 b9 b10 = (rowsOf c tbl i sim x2 x3 (zeroAcc) 24).w := by
  unfold kernelRunA.sl.v2115 kernelRunA.sl.H14_25
  rw [View.readCov_cons_toLoadRect]
  refine Eq.trans ?_ (rowsOf_w c tbl i sim x2 x3 (zeroAcc) 23 (by decide)).symm
  unfold kernelRunA.sl.r_222 kernelRunA.sl.r_220 kernelRunA.sl.r_221
  simp only [S_v1974 c i tbl hT sim b10, V14_23 c i M2 hM2 M3 hM3 tbl hT sim x2 x3 b9 b10 a12 a13 a14 a15 a16 a17, mk_read M3 hM3 x3 23 (by decide)]
  try rfl
theorem V12_25 : kernelRunA.sl.v2189 c M3 hM3 x3 = (rowsOf c tbl i sim x2 x3 (zeroAcc) 25).m := by
  unfold kernelRunA.sl.v2189 kernelRunA.sl.H12_26
  rw [View.readCov_cons_toLoadRect]
  refine Eq.trans ?_ (rowsOf_m c tbl i sim x2 x3 (zeroAcc) 24 (by decide)).symm
  unfold kernelRunA.sl.r_229
  simp only [V12_24 c i M2 hM2 M3 hM3 tbl hT sim x2 x3 b9 b10 a12 a13 a14 a15 a16 a17, mk_read M3 hM3 x3 24 (by decide)]
  try rfl
theorem V13_25 : kernelRunA.sl.v2194 c i M2 hM2 M3 hM3 tbl x2 x3 = (rowsOf c tbl i sim x2 x3 (zeroAcc) 25).logp := by
  unfold kernelRunA.sl.v2194 kernelRunA.sl.H13_26
  rw [View.readCov_cons_toLoadRect]
  refine Eq.trans ?_ (rowsOf_logp c tbl i sim x2 x3 (zeroAcc) 24 (by decide)).symm
  unfold kernelRunA.sl.r_229 kernelRunA.sl.r_233
  simp only [W_r_228 c i tbl, V13_24 c i M2 hM2 M3 hM3 tbl hT sim x2 x3 b9 b10 a12 a13 a14 a15 a16 a17, in_read M2 hM2 x2 24 (by decide), mk_read M3 hM3 x3 24 (by decide)]
  try rfl
theorem V14_25 : kernelRunA.sl.v2200 c i M3 hM3 tbl hT sim x3 b9 b10 = (rowsOf c tbl i sim x2 x3 (zeroAcc) 25).w := by
  unfold kernelRunA.sl.v2200 kernelRunA.sl.H14_26
  rw [View.readCov_cons_toLoadRect]
  refine Eq.trans ?_ (rowsOf_w c tbl i sim x2 x3 (zeroAcc) 24 (by decide)).symm
  unfold kernelRunA.sl.r_231
  simp only [S_v2059 c i tbl hT sim b9, V14_24 c i M2 hM2 M3 hM3 tbl hT sim x2 x3 b9 b10 a12 a13 a14 a15 a16 a17, mk_read M3 hM3 x3 24 (by decide)]
  try rfl
theorem V12_26 : kernelRunA.sl.v2274 c M3 hM3 x3 = (rowsOf c tbl i sim x2 x3 (zeroAcc) 26).m := by
  unfold kernelRunA.sl.v2274 kernelRunA.sl.H12_27
  rw [View.readCov_cons_toLoadRect]
  refine Eq.trans ?_ (rowsOf_m c tbl i sim x2 x3 (zeroAcc) 25 (by decide)).symm
  unfold kernelRunA.sl.r_239
  simp only [V12_25 c i M2 hM2 M3 hM3 tbl hT sim x2 x3 b9 b10 a12 a13 a14 a15 a16 a17, mk_read M3 hM3 x3 25 (by decide)]
  try rfl
theorem V13_26 : kernelRunA.sl.v2279 c i M2 hM2 M3 hM3 tbl x2 x3 = (rowsOf c tbl i sim x2 x3 (zeroAcc) 26).logp := by
  unfold kernelRunA.sl.v2279 kernelRunA.sl.H13_27
  rw [View.readCov_cons_toLoadRect]
  refine Eq.trans ?_ (rowsOf_logp c tbl i sim x2 x3 (zeroAcc) 25 (by decide)).symm
  unfold kernelRunA.sl.r_238 kernelRunA.sl.r_239
  simp only [W_r_237 c i tbl, V13_25 c i M2 hM2 M3 hM3 tbl hT sim x2 x3 b9 b10 a12 a13 a14 a15 a16 a17, in_read M2 hM2 x2 25 (by decide), mk_read M3 hM3 x3 25 (by decide)]
  try rfl
theorem V14_26 : kernelRunA.sl.v2285 c i M3 hM3 tbl hT sim x3 b9 b10 = (rowsOf c tbl i sim x2 x3 (zeroAcc) 26).w := by
  unfold kernelRunA.sl.v2285 kernelRunA.sl.H14_27
  rw [View.readCov_cons_toLoadRect]
  refine Eq.trans ?_ (rowsOf_w c tbl i sim x2 x3 (zeroAcc) 25 (by decide)).symm
  unfold kernelRunA.sl.r_241
  simp only [S_v2144 c i tbl hT sim b10, V14_25 c i M2 hM2 M3 hM3 tbl hT sim x2 x3 b9 b10 a12 a13 a14 a15 a16 a17, mk_read M3 hM3 x3 25 (by decide)]
  try rfl
theorem V12_27 : kernelRunA.sl.v2359 c M3 hM3 x3 = (rowsOf c tbl i sim x2 x3 (zeroAcc) 27).m := by
  unfold kernelRunA.sl.v2359 kernelRunA.sl.H12_28
  rw [View.readCov_cons_toLoadRect]
  refine Eq.trans ?_ (rowsOf_m c tbl i sim x2 x3 (zeroAcc) 26 (by decide)).symm
  unfold kernelRunA.sl.r_248
  simp only [V12_26 c i M2 hM2 M3 hM3 tbl hT sim x2 x3 b9 b10 a12 a13 a14 a15 a16 a17, mk_read M3 hM3 x3 26 (by decide)]
  try rfl
theorem V13_27 : kernelRunA.sl.v2364 c i M2 hM2 M3 hM3 tbl x2 x3 = (rowsOf c tbl i sim x2 x3 (zeroAcc) 27).logp := by
  unfold kernelRunA.sl.v2364 kernelRunA.sl.H13_28
  rw [View.readCov_cons_toLoadRect]
  refine Eq.trans ?_ (rowsOf_logp c tbl i sim x2 x3 (zeroAcc) 26 (by decide)).symm
  unfold kernelRunA.sl.r_253 kernelRunA.sl.r_247 kernelRunA.sl.r_248
  simp only [W_r_246 c i tbl, V13_26 c i M2 hM2 M3 hM3 tbl hT sim x2 x3 b9 b10 a12 a13 a14 a15 a16 a17, in_read M2 hM2 x2 26 (by decide), mk_read M3 hM3 x3 26 (by decide)]
  try rfl
theorem V14_27 : kernelRunA.sl.v2370 c i M3 hM3 tbl hT sim x3 b9 b10 = (rowsOf c tbl i sim x2 x3 (zeroAcc) 27).w := by
  unfold kernelRunA.sl.v2370 kernelRunA.sl.H14_28
  rw [View.readCov_cons_toLoadRect]
  refine Eq.trans ?_ (rowsOf_w c tbl i sim x2 x3 (zeroAcc) 26 (by decide)).symm
  unfold kernelRunA.sl.r_249 kernelRunA.sl.r_248 kernelRunA.sl.cst_284
  simp only [S_v2229 c i tbl hT sim b9, V14_26 c i M2 hM2 M3 hM3 tbl hT sim x2 x3 b9 b10 a12 a13 a14 a15 a16 a17, mk_read M3 hM3 x3 26 (by decide)]
  try rfl
theorem V12_28 : kernelRunA.sl.v2444 c M3 hM3 x3 = (rowsOf c tbl i sim x2 x3 (zeroAcc) 28).m := by
  unfold kernelRunA.sl.v2444 kernelRunA.sl.H12_29
  rw [View.readCov_cons_toLoadRect]
  refine Eq.trans ?_ (rowsOf_m c tbl i sim x2 x3 (zeroAcc) 27 (by decide)).symm
  unfold kernelRunA.sl.r_256
  simp only [V12_27 c i M2 hM2 M3 hM3 tbl hT sim x2 x3 b9 b10 a12 a13 a14 a15 a16 a17, mk_read M3 hM3 x3 27 (by decide)]
  try rfl
theorem V13_28 : kernelRunA.sl.v2449 c i M2 hM2 M3 hM3 tbl x2 x3 = (rowsOf c tbl i sim x2 x3 (zeroAcc) 28).logp := by
  unfold kernelRunA.sl.v2449 kernelRunA.sl.H13_29
  rw [View.readCov_cons_toLoadRect]
  refine Eq.trans ?_ (rowsOf_logp c tbl i sim x2 x3 (zeroAcc) 27 (by decide)).symm
  unfold kernelRunA.sl.r_256 kernelRunA.sl.r_260
  simp only [W_r_255 c i tbl, V13_27 c i M2 hM2 M3 hM3 tbl hT sim x2 x3 b9 b10 a12 a13 a14 a15 a16 a17, in_read M2 hM2 x2 27 (by decide), mk_read M3 hM3 x3 27 (by decide)]
  try rfl
theorem V14_28 : kernelRunA.sl.v2455 c i M3 hM3 tbl hT sim x3 b9 b10 = (rowsOf c tbl i sim x2 x3 (zeroAcc) 28).w := by
  unfold kernelRunA.sl.v2455 kernelRunA.sl.H14_29
  rw [View.readCov_cons_toLoadRect]
  refine Eq.trans ?_ (rowsOf_w c tbl i sim x2 x3 (zeroAcc) 27 (by decide)).symm
  unfold kernelRunA.sl.r_258
  simp only [S_v2314 c i tbl hT sim b10, V14_27 c i M2 hM2 M3 hM3 tbl hT sim x2 x3 b9 b10 a12 a13 a14 a15 a16 a17, mk_read M3 hM3 x3 27 (by decide)]
  try rfl
theorem V12_29 : kernelRunA.sl.v2529 c M3 hM3 x3 = (rowsOf c tbl i sim x2 x3 (zeroAcc) 29).m := by
  unfold kernelRunA.sl.v2529 kernelRunA.sl.H12_30
  rw [View.readCov_cons_toLoadRect]
  refine Eq.trans ?_ (rowsOf_m c tbl i sim x2 x3 (zeroAcc) 28 (by decide)).symm
  unfold kernelRunA.sl.r_265
  simp only [V12_28 c i M2 hM2 M3 hM3 tbl hT sim x2 x3 b9 b10 a12 a13 a14 a15 a16 a17, mk_read M3 hM3 x3 28 (by decide)]
  try rfl
theorem V13_29 : kernelRunA.sl.v2534 c i M2 hM2 M3 hM3 tbl x2 x3 = (rowsOf c tbl i sim x2 x3 (zeroAcc) 29).logp := by
  unfold kernelRunA.sl.v2534 kernelRunA.sl.H13_30
  rw [View.readCov_cons_toLoadRect]
  refine Eq.trans ?_ (rowsOf_logp c tbl i sim x2 x3 (zeroAcc) 28 (by decide)).symm
  unfold kernelRunA.sl.r_264 kernelRunA.sl.r_265
  simp only [W_r_263 c i tbl, V13_28 c i M2 hM2 M3 hM3 tbl hT sim x2 x3 b9 b10 a12 a13 a14 a15 a16 a17, in_read M2 hM2 x2 28 (by decide), mk_read M3 hM3 x3 28 (by decide)]
  try rfl
theorem V14_29 : kernelRunA.sl.v2540 c i M3 hM3 tbl hT sim x3 b9 b10 = (rowsOf c tbl i sim x2 x3 (zeroAcc) 29).w := by
  unfold kernelRunA.sl.v2540 kernelRunA.sl.H14_30
  rw [View.readCov_cons_toLoadRect]
  refine Eq.trans ?_ (rowsOf_w c tbl i sim x2 x3 (zeroAcc) 28 (by decide)).symm
  unfold kernelRunA.sl.r_265 kernelRunA.sl.r_266
  simp only [S_v2399 c i tbl hT sim b9, V14_28 c i M2 hM2 M3 hM3 tbl hT sim x2 x3 b9 b10 a12 a13 a14 a15 a16 a17, mk_read M3 hM3 x3 28 (by decide)]
  try rfl
theorem V12_30 : kernelRunA.sl.v2614 c M3 hM3 x3 = (rowsOf c tbl i sim x2 x3 (zeroAcc) 30).m := by
  unfold kernelRunA.sl.v2614 kernelRunA.sl.H12_31
  rw [View.readCov_cons_toLoadRect]
  refine Eq.trans ?_ (rowsOf_m c tbl i sim x2 x3 (zeroAcc) 29 (by decide)).symm
  unfold kernelRunA.sl.r_272
  simp only [V12_29 c i M2 hM2 M3 hM3 tbl hT sim x2 x3 b9 b10 a12 a13 a14 a15 a16 a17, mk_read M3 hM3 x3 29 (by decide)]
  try rfl
theorem V13_30 : kernelRunA.sl.v2619 c i M2 hM2 M3 hM3 tbl x2 x3 = (rowsOf c tbl i sim x2 x3 (zeroAcc) 30).logp := by
  unfold kernelRunA.sl.v2619 kernelRunA.sl.H13_31
  rw [View.readCov_cons_toLoadRect]
  refine Eq.trans ?_ (rowsOf_logp c tbl i sim x2 x3 (zeroAcc) 29 (by decide)).symm
  unfold kernelRunA.sl.r_272 kernelRunA.sl.r_276 kernelRunA.sl.r_271
  simp only [W_r_273 c i tbl, V13_29 c i M2 hM2 M3 hM3 tbl hT sim x2 x3 b9 b10 a12 a13 a14 a15 a16 a17, in_read M2 hM2 x2 29 (by decide), mk_read M3 hM3 x3 29 (by decide)]
  try rfl
theorem V14_30 : kernelRunA.sl.v2625 c i M3 hM3 tbl hT sim x3 b9 b10 = (rowsOf c tbl i sim x2 x3 (zeroAcc) 30).w := by
  unfold kernelRunA.sl.v2625 kernelRunA.sl.H14_31
  rw [View.readCov_cons_toLoadRect]
  refine Eq.trans ?_ (rowsOf_w c tbl i sim x2 x3 (zeroAcc) 29 (by decide)).symm
  unfold kernelRunA.sl.r_274 kernelRunA.sl.r_272
  simp only [S_v2484 c i tbl hT sim b10, V14_29 c i M2 hM2 M3 hM3 tbl hT sim x2 x3 b9 b10 a12 a13 a14 a15 a16 a17, mk_read M3 hM3 x3 29 (by decide)]
  try rfl
theorem V12_31 : kernelRunA.sl.v2699 c M3 hM3 x3 = (rowsOf c tbl i sim x2 x3 (zeroAcc) 31).m := by
  unfold kernelRunA.sl.v2699 kernelRunA.sl.H12_32
  rw [View.readCov_cons_toLoadRect]
  refine Eq.trans ?_ (rowsOf_m c tbl i sim x2 x3 (zeroAcc) 30 (by decide)).symm
  unfold kernelRunA.sl.r_281
  simp only [V12_30 c i M2 hM2 M3 hM3 tbl hT sim x2 x3 b9 b10 a12 a13 a14 a15 a16 a17, mk_read M3 hM3 x3 30 (by decide)]
  try rfl
theorem V13_31 : kernelRunA.sl.v2704 c i M2 hM2 M3 hM3 tbl x2 x3 = (rowsOf c tbl i sim x2 x3 (zeroAcc) 31).logp := by
  unfold kernelRunA.sl.v2704 kernelRunA.sl.H13_32
  rw [View.readCov_cons_toLoadRect]
  refine Eq.trans ?_ (rowsOf_logp c tbl i sim x2 x3 (zeroAcc) 30 (by decide)).symm
  unfold kernelRunA.sl.r_281 kernelRunA.sl.r_285
  simp only [W_r_280 c i tbl, V13_30 c i M2 hM2 M3 hM3 tbl hT sim x2 x3 b9 b10 a12 a13 a14 a15 a16 a17, in_read M2 hM2 x2 30 (by decide), mk_read M3 hM3 x3 30 (by decide)]
  try rfl
theorem V14_31 : kernelRunA.sl.v2710 c i M3 hM3 tbl hT sim x3 b9 b10 = (rowsOf c tbl i sim x2 x3 (zeroAcc) 31).w := by
  unfold kernelRunA.sl.v2710 kernelRunA.sl.H14_32
  rw [View.readCov_cons_toLoadRect]
  refine Eq.trans ?_ (rowsOf_w c tbl i sim x2 x3 (zeroAcc) 30 (by decide)).symm
  unfold kernelRunA.sl.r_283
  simp only [S_v2569 c i tbl hT sim b9, V14_30 c i M2 hM2 M3 hM3 tbl hT sim x2 x3 b9 b10 a12 a13 a14 a15 a16 a17, mk_read M3 hM3 x3 30 (by decide)]
  try rfl
theorem V12_32 : kernelRunA.sl.v2784 c M3 hM3 x3 = (rowsOf c tbl i sim x2 x3 (zeroAcc) 32).m := by
  unfold kernelRunA.sl.v2784 kernelRunA.sl.H12_33
  rw [View.readCov_cons_toLoadRect]
  refine Eq.trans ?_ (rowsOf_m c tbl i sim x2 x3 (zeroAcc) 31 (by decide)).symm
  unfold kernelRunA.sl.r_291
  simp only [V12_31 c i M2 hM2 M3 hM3 tbl hT sim x2 x3 b9 b10 a12 a13 a14 a15 a16 a17, mk_read M3 hM3 x3 31 (by decide)]
  try rfl
theorem V13_32 : kernelRunA.sl.v2789 c i M2 hM2 M3 hM3 tbl x2 x3 = (rowsOf c tbl i sim x2 x3 (zeroAcc) 32).logp := by
  unfold kernelRunA.sl.v2789 kernelRunA.sl.H13_33
  rw [View.readCov_cons_toLoadRect]
  refine Eq.trans ?_ (rowsOf_logp c tbl i sim x2 x3 (zeroAcc) 31 (by decide)).symm
  unfold kernelRunA.sl.r_290 kernelRunA.sl.r_291
  simp only [W_r_289 c i tbl, V13_31 c i M2 hM2 M3 hM3 tbl hT sim x2 x3 b9 b10 a12 a13 a14 a15 a16 a17, in_read M2 hM2 x2 31 (by decide), mk_read M3 hM3 x3 31 (by decide)]
  try rfl
theorem V14_32 : kernelRunA.sl.v2795 c i M3 hM3 tbl hT sim x3 b9 b10 = (rowsOf c tbl i sim x2 x3 (zeroAcc) 32).w := by
  unfold kernelRunA.sl.v2795 kernelRunA.sl.H14_33
  rw [View.readCov_cons_toLoadRect]
  refine Eq.trans ?_ (rowsOf_w c tbl i sim x2 x3 (zeroAcc) 31 (by decide)).symm
  unfold kernelRunA.sl.r_297 kernelRunA.sl.r_291 kernelRunA.sl.r_292 kernelRunA.sl.r_293
  simp only [S_v2654 c i tbl hT sim b10, V14_31 c i M2 hM2 M3 hM3 tbl hT sim x2 x3 b9 b10 a12 a13 a14 a15 a16 a17, mk_read M3 hM3 x3 31 (by decide)]
  try rfl
theorem V12_33 : kernelRunA.sl.v2869 c M3 hM3 x3 = (rowsOf c tbl i sim x2 x3 (zeroAcc) 33).m := by
  unfold kernelRunA.sl.v2869 kernelRunA.sl.H12_34
  rw [View.readCov_cons_toLoadRect]
  refine Eq.trans ?_ (rowsOf_m c tbl i sim x2 x3 (zeroAcc) 32 (by decide)).symm
  unfold kernelRunA.sl.r_308 kernelRunA.sl.r_300
  simp only [V12_32 c i M2 hM2 M3 hM3 tbl hT sim x2 x3 b9 b10 a12 a13 a14 a15 a16 a17, mk_read M3 hM3 x3 32 (by decide)]
  try rfl
theorem V13_33 : kernelRunA.sl.v2874 c i M2 hM2 M3 hM3 tbl x2 x3 = (rowsOf c tbl i sim x2 x3 (zeroAcc) 33).logp := by
  unfold kernelRunA.sl.v2874 kernelRunA.sl.H13_34
  rw [View.readCov_cons_toLoadRect]
  refine Eq.trans ?_ (rowsOf_logp c tbl i sim x2 x3 (zeroAcc) 32 (by decide)).symm
  unfold kernelRunA.sl.r_302 kernelRunA.sl.r_305 kernelRunA.sl.r_300 kernelRunA.sl.r_299
  simp only [W_r_301 c i tbl, V13_32 c i M2 hM2 M3 hM3 tbl hT sim x2 x3 b9 b10 a12 a13 a14 a15 a16 a17, in_read M2 hM2 x2 32 (by decide), mk_read M3 hM3 x3 32 (by decide)]
  try rfl
theorem V14_33 : kernelRunA.sl.v2880 c i M3 hM3 tbl hT sim x3 b9 b10 = (rowsOf c tbl i sim x2 x3 (zeroAcc) 33).w := by
  unfold kernelRunA.sl.v2880 kernelRunA.sl.H14_34
  rw [View.readCov_cons_toLoadRect]
  refine Eq.trans ?_ (rowsOf_w c tbl i sim x2 x3 (zeroAcc) 32 (by decide)).symm
  unfold kernelRunA.sl.r_303 kernelRunA.sl.r_300
  simp only [S_v2739 c i tbl hT sim b9, V14_32 c i M2 hM2 M3 hM3 tbl hT sim x2 x3 b9 b10 a12 a13 a14 a15 a16 a17, mk_read M3 hM3 x3 32 (by decide)]
  try rfl
theorem V12_34 : kernelRunA.sl.v2954 c M3 hM3 x3 = (rowsOf c tbl i sim x2 x3 (zeroAcc) 34).m := by
  unfold kernelRunA.sl.v2954 kernelRunA.sl.H12_35
  rw [View.readCov_cons_toLoadRect]
  refine Eq.trans ?_ (rowsOf_m c tbl i sim x2 x3 (zeroAcc) 33 (by decide)).symm
  unfold kernelRunA.sl.r_312
  simp only [V12_33 c i M2 hM2 M3 hM3 tbl hT sim x2 x3 b9 b10 a12 a13 a14 a15 a16 a17, mk_read M3 hM3 x3 33 (by decide)]
  try rfl
theorem V13_34 : kernelRunA.sl.v2959 c i M2 hM2 M3 hM3 tbl x2 x3 = (rowsOf c tbl i sim x2 x3 (zeroAcc) 34).logp := by
  unfold kernelRunA.sl.v2959 kernelRunA.sl.H13_35
  rw [View.readCov_cons_toLoadRect]
  refine Eq.trans ?_ (rowsOf_logp c tbl i sim x2 x3 (zeroAcc) 33 (by decide)).symm
  unfold kernelRunA.sl.r_311 kernelRunA.sl.r_312 kernelRunA.sl.r_316
  simp only [W_r_310 c i tbl, V13_33 c i M2 hM2 M3 hM3 tbl hT sim x2 x3 b9 b10 a12 a13 a14 a15 a16 a17, in_read M2 hM2 x2 33 (by decide), mk_read M3 hM3 x3 33 (by decide)]
  try rfl
theorem V14_34 : kernelRunA.sl.v2965 c i M3 hM3 tbl hT sim x3 b9 b10 = (rowsOf c tbl i sim x2 x3 (zeroAcc) 34).w := by
  unfold kernelRunA.sl.v2965 kernelRunA.sl.H14_35
  rw [View.readCov_cons_toLoadRect]
  refine Eq.trans ?_ (rowsOf_w c tbl i sim x2 x3 (zeroAcc) 33 (by decide)).symm
  unfold kernelRunA.sl.r_314
  simp only [S_v2824 c i tbl hT sim b10, V14_33 c i M2 hM2 M3 hM3 tbl hT sim x2 x3 b9 b10 a12 a13 a14 a15 a16 a17, mk_read M3 hM3 x3 33 (by decide)]
  try rfl
theorem V12_35 : kernelRunA.sl.v3039 c M3 hM3 x3 = (rowsOf c tbl i sim x2 x3 (zeroAcc) 35).m := by
  unfold kernelRunA.sl.v3039 kernelRunA.sl.H12_36
  rw [View.readCov_cons_toLoadRect]
  refine Eq.trans ?_ (rowsOf_m c tbl i sim x2 x3 (zeroAcc) 34 (by decide)).symm
  unfold kernelRunA.sl.r_322
  simp only [V12_34 c i M2 hM2 M3 hM3 tbl hT sim x2 x3 b9 b10 a12 a13 a14 a15 a16 a17, mk_read M3 hM3 x3 34 (by decide)]
  try rfl
theorem V13_35 : kernelRunA.sl.v3044 c i M2 hM2 M3 hM3 tbl x2 x3 = (rowsOf c tbl i sim x2 x3 (zeroAcc) 35).logp := by
  unfold kernelRunA.sl.v3044 kernelRunA.sl.H13_36
  rw [View.readCov_cons_toLoadRect]
  refine Eq.trans ?_ (rowsOf_logp c tbl i sim x2 x3 (zeroAcc) 34 (by decide)).symm
  unfold kernelRunA.sl.r_321 kernelRunA.sl.r_322
  simp only [W_r_320 c i tbl, V13_34 c i M2 hM2 M3 hM3 tbl hT sim x2 x3 b9 b10 a12 a13 a14 a15 a16 a17, in_read M2 hM2 x2 34 (by decide), mk_read M3 hM3 x3 34 (by decide)]
  try rfl
theorem V14_35 : kernelRunA.sl.v3050 c i M3 hM3 tbl hT sim x3 b9 b10 = (rowsOf c tbl i sim x2 x3 (zeroAcc) 35).w := by
  unfold kernelRunA.sl.v3050 kernelRunA.sl.H14_36
  rw [View.readCov_cons_toLoadRect]
  refine Eq.trans ?_ (rowsOf_w c tbl i sim x2 x3 (zeroAcc) 34 (by decide)).symm
  unfold kernelRunA.sl.r_328 kernelRunA.sl.r_322 kernelRunA.sl.r_323 kernelRunA.sl.r_324
  simp only [S_v2909 c i tbl hT sim b9, V14_34 c i M2 hM2 M3 hM3 tbl hT sim x2 x3 b9 b10 a12 a13 a14 a15 a16 a17, mk_read M3 hM3 x3 34 (by decide)]
  try rfl
theorem V12_36 : kernelRunA.sl.v3124 c M3 hM3 x3 = (rowsOf c tbl i sim x2 x3 (zeroAcc) 36).m := by
  unfold kernelRunA.sl.v3124 kernelRunA.sl.H12_37
  rw [View.readCov_cons_toLoadRect]
  refine Eq.trans ?_ (rowsOf_m c tbl i sim x2 x3 (zeroAcc) 35 (by decide)).symm
  unfold kernelRunA.sl.r_338
  simp only [V12_35 c i M2 hM2 M3 hM3 tbl hT sim x2 x3 b9 b10 a12 a13 a14 a15 a16 a17, mk_read M3 hM3 x3 35 (by decide)]
  try rfl
theorem V13_36 : kernelRunA.sl.v3129 c i M2 hM2 M3 hM3 tbl x2 x3 = (rowsOf c tbl i sim x2 x3 (zeroAcc) 36).logp := by
  unfold kernelRunA.sl.v3129 kernelRunA.sl.H13_37
  rw [View.readCov_cons_toLoadRect]
  refine Eq.trans ?_ (rowsOf_logp c tbl i sim x2 x3 (zeroAcc) 35 (by decide)).symm
  unfold kernelRunA.sl.r_332 kernelRunA.sl.r_335 kernelRunA.sl.r_330
  simp only [W_r_331 c i tbl, V13_35 c i M2 hM2 M3 hM3 tbl hT sim x2 x3 b9 b10 a12 a13 a14 a15 a16 a17, in_read M2 hM2 x2 35 (by decide), mk_read M3 hM3 x3 35 (by decide)]
  try rfl
theorem V14_36 : kernelRunA.sl.v3135 c i M3 hM3 tbl hT sim x3 b9 b10 = (rowsOf c tbl i sim x2 x3 (zeroAcc) 36).w := by
  unfold kernelRunA.sl.v3135 kernelRunA.sl.H14_37
  rw [View.readCov_cons_toLoadRect]
  refine Eq.trans ?_ (rowsOf_w c tbl i sim x2 x3 (zeroAcc) 35 (by decide)).symm
  unfold kernelRunA.sl.r_333
  simp only [S_v2994 c i tbl hT sim b10, V14_35 c i M2 hM2 M3 hM3 tbl hT sim x2 x3 b9 b10 a12 a13 a14 a15 a16 a17, mk_read M3 hM3 x3 35 (by decide)]
  try rfl
theorem V12_37 : kernelRunA.sl.v3209 c M3 hM3 x3 = (rowsOf c tbl i sim x2 x3 (zeroAcc) 37).m := by
  unfold kernelRunA.sl.v3209 kernelRunA.sl.H12_38
  rw [View.readCov_cons_toLoadRect]
  refine Eq.trans ?_ (rowsOf_m c tbl i sim x2 x3 (zeroAcc) 36 (by decide)).symm
  unfold kernelRunA.sl.r_342
  simp only [V12_36 c i M2 hM2 M3 hM3 tbl hT sim x2 x3 b9 b10 a12 a13 a14 a15 a16 a17, mk_read M3 hM3 x3 36 (by decide)]
  try rfl
theorem V13_37 : kernelRunA.sl.v3214 c i M2 hM2 M3 hM3 tbl x2 x3 = (rowsOf c tbl i sim x2 x3 (zeroAcc) 37).logp := by
  unfold kernelRunA.sl.v3214 kernelRunA.sl.H13_38
  rw [View.readCov_cons_toLoadRect]
  refine Eq.trans ?_ (rowsOf_logp c tbl i sim x2 x3 (zeroAcc) 36 (by decide)).symm
  unfold kernelRunA.sl.r_341 kernelRunA.sl.r_342
  simp only [W_r_340 c i tbl, V13_36 c i M2 hM2 M3 hM3 tbl hT sim x2 x3 b9 b10 a12 a13 a14 a15 a16 a17, in_read M2 hM2 x2 36 (by decide), mk_read M3 hM3 x3 36 (by decide)]
  try rfl
theorem V14_37 : kernelRunA.sl.v3220 c i M3 hM3 tbl hT sim x3 b9 b10 = (rowsOf c tbl i sim x2 x3 (zeroAcc) 37).w := by
  unfold kernelRunA.sl.v3220 kernelRunA.sl.H14_38
  rw [View.readCov_cons_toLoadRect]
  refine Eq.trans ?_ (rowsOf_w c tbl i sim x2 x3 (zeroAcc) 36 (by decide)).symm
  unfold kernelRunA.sl.r_344
  simp only [S_v3079 c i tbl hT sim b9, V14_36 c i M2 hM2 M3 hM3 tbl hT sim x2 x3 b9 b10 a12 a13 a14 a15 a16 a17, mk_read M3 hM3 x3 36 (by decide)]
  try rfl
theorem V12_38 : kernelRunA.sl.v3294 c M3 hM3 x3 = (rowsOf c tbl i sim x2 x3 (zeroAcc) 38).m := by
  unfold kernelRunA.sl.v3294 kernelRunA.sl.H12_39
  rw [View.readCov_cons_toLoadRect]
  refine Eq.trans ?_ (rowsOf_m c tbl i sim x2 x3 (zeroAcc) 37 (by decide)).symm
  unfold kernelRunA.sl.r_351
  simp only [V12_37 c i M2 hM2 M3 hM3 tbl hT sim x2 x3 b9 b10 a12 a13 a14 a15 a16 a17, mk_read M3 hM3 x3 37 (by decide)]
  try rfl
theorem V13_38 : kernelRunA.sl.v3299 c i M2 hM2 M3 hM3 tbl x2 x3 = (rowsOf c tbl i sim x2 x3 (zeroAcc) 38).logp := by
  unfold kernelRunA.sl.v3299 kernelRunA.sl.H13_39
  rw [View.readCov_cons_toLoadRect]
  refine Eq.trans ?_ (rowsOf_logp c tbl i sim x2 x3 (zeroAcc) 37 (by decide)).symm
  unfold kernelRunA.sl.r_350 kernelRunA.sl.r_351
  simp only [W_r_349 c i tbl, V13_37 c i M2 hM2 M3 hM3 tbl hT sim x2 x3 b9 b10 a12 a13 a14 a15 a16 a17, in_read M2 hM2 x2 37 (by decide), mk_read M3 hM3 x3 37 (by decide)]
  try rfl
theorem V14_38 : kernelRunA.sl.v3305 c i M3 hM3 tbl hT sim x3 b9 b10 = (rowsOf c tbl i sim x2 x3 (zeroAcc) 38).w := by
  unfold kernelRunA.sl.v3305 kernelRunA.sl.H14_39
  rw [View.readCov_cons_toLoadRect]
  refine Eq.trans ?_ (rowsOf_w c tbl i sim x2 x3 (zeroAcc) 37 (by decide)).symm
  unfold kernelRunA.sl.r_354 kernelRunA.sl.r_351 kernelRunA.sl.r_352 kernelRunA.sl.r_353 kernelRunA.sl.cst_781
  simp only [S_v3164 c i tbl hT sim b10, V14_37 c i M2 hM2 M3 hM3 tbl hT sim x2 x3 b9 b10 a12 a13 a14 a15 a16 a17, mk_read M3 hM3 x3 37 (by decide)]
  try rfl
theorem V12_39 : kernelRunA.sl.v3379 c M3 hM3 x3 = (rowsOf c tbl i sim x2 x3 (zeroAcc) 39).m := by
  unfold kernelRunA.sl.v3379 kernelRunA.sl.H12_40
  rw [View.readCov_cons_toLoadRect]
  refine Eq.trans ?_ (rowsOf_m c tbl i sim x2 x3 (zeroAcc) 38 (by decide)).symm
  unfold kernelRunA.sl.r_360
  simp only [V12_38 c i M2 hM2 M3 hM3 tbl hT sim x2 x3 b9 b10 a12 a13 a14 a15 a16 a17, mk_read M3 hM3 x3 38 (by decide)]
  try rfl
theorem V13_39 : kernelRunA.sl.v3384 c i M2 hM2 M3 hM3 tbl x2 x3 = (rowsOf c tbl i sim x2 x3 (zeroAcc) 39).logp := by
  unfold kernelRunA.sl.v3384 kernelRunA.sl.H13_40
  rw [View.readCov_cons_toLoadRect]
  refine Eq.trans ?_ (rowsOf_logp c tbl i sim x2 x3 (zeroAcc) 38 (by decide)).symm
  unfold kernelRunA.sl.r_360 kernelRunA.sl.r_363
  simp only [W_r_359 c i tbl, V13_38 c i M2 hM2 M3 hM3 tbl hT sim x2 x3 b9 b10 a12 a13 a14 a15 a16 a17, in_read M2 hM2 x2 38 (by decide), mk_read M3 hM3 x3 38 (by decide)]
  try rfl
theorem V14_39 : kernelRunA.sl.v3390 c i M3 hM3 tbl hT sim x3 b9 b10 = (rowsOf c tbl i sim x2 x3 (zeroAcc) 39).w := by
  unfold kernelRunA.sl.v3390 kernelRunA.sl.H14_40
  rw [View.readCov_cons_toLoadRect]
  refine Eq.trans ?_ (rowsOf_w c tbl i sim x2 x3 (zeroAcc) 38 (by decide)).symm
  unfold kernelRunA.sl.r_361
  simp only [V14_38 c i M2 hM2 M3 hM3 tbl hT sim x2 x3 b9 b10 a12 a13 a14 a15 a16 a17, S_v_1 c i tbl hT sim b9, mk_read M3 hM3 x3 38 (by decide)]
  try rfl
theorem V12_40 : kernelRunA.sl.v3464 c M3 hM3 x3 = (rowsOf c tbl i sim x2 x3 (zeroAcc) 40).m := by
  unfold kernelRunA.sl.v3464 kernelRunA.sl.H12_41
  rw [View.readCov_cons_toLoadRect]
  refine Eq.trans ?_ (rowsOf_m c tbl i sim x2 x3 (zeroAcc) 39 (by decide)).symm
  unfold kernelRunA.sl.r_369
  simp only [V12_39 c i M2 hM2 M3 hM3 tbl hT sim x2 x3 b9 b10 a12 a13 a14 a15 a16 a17, mk_read M3 hM3 x3 39 (by decide)]
  try rfl
theorem V13_40 : kernelRunA.sl.v3469 c i M2 hM2 M3 hM3 tbl x2 x3 = (rowsOf c tbl i sim x2 x3 (zeroAcc) 40).logp := by
  unfold kernelRunA.sl.v3469 kernelRunA.sl.H13_41
  rw [View.readCov_cons_toLoadRect]
  refine Eq.trans ?_ (rowsOf_logp c tbl i sim x2 x3 (zeroAcc) 39 (by decide)).symm
  unfold kernelRunA.sl.r_368 kernelRunA.sl.r_369
  simp only [W_r_367 c i tbl, V13_39 c i M2 hM2 M3 hM3 tbl hT sim x2 x3 b9 b10 a12 a13 a14 a15 a16 a17, in_read M2 hM2 x2 39 (by decide), mk_read M3 hM3 x3 39 (by decide)]
  try rfl
theorem V14_40 : kernelRunA.sl.v3475 c i M3 hM3 tbl hT sim x3 b9 b10 = (rowsOf c tbl i sim x2 x3 (zeroAcc) 40).w := by
  unfold kernelRunA.sl.v3475 kernelRunA.sl.H14_41
  rw [View.readCov_cons_toLoadRect]
  refine Eq.trans ?_ (rowsOf_w c tbl i sim x2 x3 (zeroAcc) 39 (by decide)).symm
  unfold kernelRunA.sl.r_371
  simp only [S_v3334 c i tbl hT sim b10, V14_39 c i M2 hM2 M3 hM3 tbl hT sim x2 x3 b9 b10 a12 a13 a14 a15 a16 a17, mk_read M3 hM3 x3 39 (by decide)]
  try rfl
theorem V12_41 : kernelRunA.sl.v3549 c M3 hM3 x3 = (rowsOf c tbl i sim x2 x3 (zeroAcc) 41).m := by
  unfold kernelRunA.sl.v3549 kernelRunA.sl.H12_42
  rw [View.readCov_cons_toLoadRect]
  refine Eq.trans ?_ (rowsOf_m c tbl i sim x2 x3 (zeroAcc) 40 (by decide)).symm
  unfold kernelRunA.sl.r_378
  simp only [V12_40 c i M2 hM2 M3 hM3 tbl hT sim x2 x3 b9 b10 a12 a13 a14 a15 a16 a17, mk_read M3 hM3 x3 40 (by decide)]
  try rfl
theorem V13_41 : kernelRunA.sl.v3554 c i M2 hM2 M3 hM3 tbl x2 x3 = (rowsOf c tbl i sim x2 x3 (zeroAcc) 41).logp := by
  unfold kernelRunA.sl.v3554 kernelRunA.sl.H13_42
  rw [View.readCov_cons_toLoadRect]
  refine Eq.trans ?_ (rowsOf_logp c tbl i sim x2 x3 (zeroAcc) 40 (by decide)).symm
  unfold kernelRunA.sl.r_384 kernelRunA.sl.r_377 kernelRunA.sl.r_378
  simp only [W_r_376 c i tbl, V13_40 c i M2 hM2 M3 hM3 tbl hT sim x2 x3 b9 b10 a12 a13 a14 a15 a16 a17, in_read M2 hM2 x2 40 (by decide), mk_read M3 hM3 x3 40 (by decide)]
  try rfl
theorem V14_41 : kernelRunA.sl.v3560 c i M3 hM3 tbl hT sim x3 b9 b10 = (rowsOf c tbl i sim x2 x3 (zeroAcc) 41).w := by
  unfold kernelRunA.sl.v3560 kernelRunA.sl.H14_42
  rw [View.readCov_cons_toLoadRect]
  refine Eq.trans ?_ (rowsOf_w c tbl i sim x2 x3 (zeroAcc) 40 (by decide)).symm
  unfold kernelRunA.sl.r_380 kernelRunA.sl.r_378 kernelRunA.sl.r_379 kernelRunA.sl.cst_15
  simp only [S_v3419 c i tbl hT sim b9, V14_40 c i M2 hM2 M3 hM3 tbl hT sim x2 x3 b9 b10 a12 a13 a14 a15 a16 a17, mk_read M3 hM3 x3 40 (by decide)]
  try rfl
theorem V12_42 : kernelRunA.sl.v3634 c M3 hM3 x3 = (rowsOf c tbl i sim x2 x3 (zeroAcc) 42).m := by
  unfold kernelRunA.sl.v3634 kernelRunA.sl.H12_43
  rw [View.readCov_cons_toLoadRect]
  refine Eq.trans ?_ (rowsOf_m c tbl i sim x2 x3 (zeroAcc) 41 (by decide)).symm
  unfold kernelRunA.sl.r_387
  simp only [V12_41 c i M2 hM2 M3 hM3 tbl hT sim x2 x3 b9 b10 a12 a13 a14 a15 a16 a17, mk_read M3 hM3 x3 41 (by decide)]
  try rfl
theorem V13_42 : kernelRunA.sl.v3639 c i M2 hM2 M3 hM3 tbl x2 x3 = (rowsOf c tbl i sim x2 x3 (zeroAcc) 42).logp := by
  unfold kernelRunA.sl.v3639 kernelRunA.sl.H13_43
  rw [View.readCov_cons_toLoadRect]
  refine Eq.trans ?_ (rowsOf_logp c tbl i sim x2 x3 (zeroAcc) 41 (by decide)).symm
  unfold kernelRunA.sl.r_387 kernelRunA.sl.r_390
  simp only [W_r_386 c i tbl, V13_41 c i M2 hM2 M3 hM3 tbl hT sim x2 x3 b9 b10 a12 a13 a14 a15 a16 a17, in_read M2 hM2 x2 41 (by decide), mk_read M3 hM3 x3 41 (by decide)]
  try rfl
theorem V14_42 : kernelRunA.sl.v3645 c i M3 hM3 tbl hT sim x3 b9 b10 = (rowsOf c tbl i sim x2 x3 (zeroAcc) 42).w := by
  unfold kernelRunA.sl.v3645 kernelRunA.sl.H14_43
  rw [View.readCov_cons_toLoadRect]
  refine Eq.trans ?_ (rowsOf_w c tbl i sim x2 x3 (zeroAcc) 41 (by decide)).symm
  unfold kernelRunA.sl.r_388
  simp only [S_v3504 c i tbl hT sim b10, V14_41 c i M2 hM2 M3 hM3 tbl hT sim x2 x3 b9 b10 a12 a13 a14 a15 a16 a17, mk_read M3 hM3 x3 41 (by decide)]
  try rfl
theorem V12_43 : kernelRunA.sl.v3719 c M3 hM3 x3 = (rowsOf c tbl i sim x2 x3 (zeroAcc) 43).m := by
  unfold kernelRunA.sl.v3719 kernelRunA.sl.H12_44
  rw [View.readCov_cons_toLoadRect]
  refine Eq.trans ?_ (rowsOf_m c tbl i sim x2 x3 (zeroAcc) 42 (by decide)).symm
  unfold kernelRunA.sl.r_397
  simp only [V12_42 c i M2 hM2 M3 hM3 tbl hT sim x2 x3 b9 b10 a12 a13 a14 a15 a16 a17, mk_read M3 hM3 x3 42 (by decide)]
  try rfl
theorem V13_43 : kernelRunA.sl.v3724 c i M2 hM2 M3 hM3 tbl x2 x3 = (rowsOf c tbl i sim x2 x3 (zeroAcc) 43).logp := by
  unfold kernelRunA.sl.v3724 kernelRunA.sl.H13_44
  rw [View.readCov_cons_toLoadRect]
  refine Eq.trans ?_ (rowsOf_logp c tbl i sim x2 x3 (zeroAcc) 42 (by decide)).symm
  unfold kernelRunA.sl.r_396 kernelRunA.sl.r_397
  simp only [W_r_395 c i tbl, V13_42 c i M2 hM2 M3 hM3 tbl hT sim x2 x3 b9 b10 a12 a13 a14 a15 a16 a17, in_read M2 hM2 x2 42 (by decide), mk_read M3 hM3 x3 42 (by decide)]
  try rfl
theorem V14_43 : kernelRunA.sl.v3730 c i M3 hM3 tbl hT sim x3 b9 b10 = (rowsOf c tbl i sim x2 x3 (zeroAcc) 43).w := by
  unfold kernelRunA.sl.v3730 kernelRunA.sl.H14_44
  rw [View.readCov_cons_toLoadRect]
  refine Eq.trans ?_ (rowsOf_w c tbl i sim x2 x3 (zeroAcc) 42 (by decide)).symm
  unfold kernelRunA.sl.r_400
  simp only [S_v3589 c i tbl hT sim b9, V14_42 c i M2 hM2 M3 hM3 tbl hT sim x2 x3 b9 b10 a12 a13 a14 a15 a16 a17, mk_read M3 hM3 x3 42 (by decide)]
  try rfl
theorem V12_44 : kernelRunA.sl.v3804 c M3 hM3 x3 = (rowsOf c tbl i sim x2 x3 (zeroAcc) 44).m := by
  unfold kernelRunA.sl.v3804 kernelRunA.sl.H12_45
  rw [View.readCov_cons_toLoadRect]
  refine Eq.trans ?_ (rowsOf_m c tbl i sim x2 x3 (zeroAcc) 43 (by decide)).symm
  unfold kernelRunA.sl.r_407
  simp only [V12_43 c i M2 hM2 M3 hM3 tbl hT sim x2 x3 b9 b10 a12 a13 a14 a15 a16 a17, mk_read M3 hM3 x3 43 (by decide)]
  try rfl
theorem V13_44 : kernelRunA.sl.v3809 c i M2 hM2 M3 hM3 tbl x2 x3 = (rowsOf c tbl i sim x2 x3 (zeroAcc) 44).logp := by
  unfold kernelRunA.sl.v3809 kernelRunA.sl.H13_45
  rw [View.readCov_cons_toLoadRect]
  refine Eq.trans ?_ (rowsOf_logp c tbl i sim x2 x3 (zeroAcc) 43 (by decide)).symm
  unfold kernelRunA.sl.r_413 kernelRunA.sl.r_406 kernelRunA.sl.r_407
  simp only [W_r_405 c i tbl, V13_43 c i M2 hM2 M3 hM3 tbl hT sim x2 x3 b9 b10 a12 a13 a14 a15 a16 a17, in_read M2 hM2 x2 43 (by decide), mk_read M3 hM3 x3 43 (by decide)]
  try rfl
theorem V14_44 : kernelRunA.sl.v3815 c i M3 hM3 tbl hT sim x3 b9 b10 = (rowsOf c tbl i sim x2 x3 (zeroAcc) 44).w := by
  unfold kernelRunA.sl.v3815 kernelRunA.sl.H14_45
  rw [View.readCov_cons_toLoadRect]
  refine Eq.trans ?_ (rowsOf_w c tbl i sim x2 x3 (zeroAcc) 43 (by decide)).symm
  unfold kernelRunA.sl.r_409 kernelRunA.sl.r_407 kernelRunA.sl.r_408
  simp only [S_v3674 c i tbl hT sim b10, V14_43 c i M2 hM2 M3 hM3 tbl hT sim x2 x3 b9 b10 a12 a13 a14 a15 a16 a17, mk_read M3 hM3 x3 43 (by decide)]
  try rfl
theorem V12_45 : kernelRunA.sl.v3889 c M3 hM3 x3 = (rowsOf c tbl i sim x2 x3 (zeroAcc) 45).m := by
  unfold kernelRunA.sl.v3889 kernelRunA.sl.H12_46
  rw [View.readCov_cons_toLoadRect]
  refine Eq.trans ?_ (rowsOf_m c tbl i sim x2 x3 (zeroAcc) 44 (by decide)).symm
  unfold kernelRunA.sl.r_416
  simp only [V12_44 c i M2 hM2 M3 hM3 tbl hT sim x2 x3 b9 b10 a12 a13 a14 a15 a16 a17, mk_read M3 hM3 x3 44 (by decide)]
  try rfl
theorem V13_45 : kernelRunA.sl.v3894 c i M2 hM2 M3 hM3 tbl x2 x3 = (rowsOf c tbl i sim x2 x3 (zeroAcc) 45).logp := by
  unfold kernelRunA.sl.v3894 kernelRunA.sl.H13_46
  rw [View.readCov_cons_toLoadRect]
  refine Eq.trans ?_ (rowsOf_logp c tbl i sim x2 x3 (zeroAcc) 44 (by decide)).symm
  unfold kernelRunA.sl.r_416 kernelRunA.sl.r_420
  simp only [W_r_415 c i tbl, V13_44 c i M2 hM2 M3 hM3 tbl hT sim x2 x3 b9 b10 a12 a13 a14 a15 a16 a17, in_read M2 hM2 x2 44 (by decide), mk_read M3 hM3 x3 44 (by decide)]
  try rfl
theorem V14_45 : kernelRunA.sl.v3900 c i M3 hM3 tbl hT sim x3 b9 b10 = (rowsOf c tbl i sim x2 x3 (zeroAcc) 45).w := by
  unfold kernelRunA.sl.v3900 kernelRunA.sl.H14_46
  rw [View.readCov_cons_toLoadRect]
  refine Eq.trans ?_ (rowsOf_w c tbl i sim x2 x3 (zeroAcc) 44 (by decide)).symm
  unfold kernelRunA.sl.r_418
  simp only [S_v3759 c i tbl hT sim b9, V14_44 c i M2 hM2 M3 hM3 tbl hT sim x2 x3 b9 b10 a12 a13 a14 a15 a16 a17, mk_read M3 hM3 x3 44 (by decide)]
  try rfl
theorem V12_46 : kernelRunA.sl.v3974 c M3 hM3 x3 = (rowsOf c tbl i sim x2 x3 (zeroAcc) 46).m := by
  unfold kernelRunA.sl.v3974 kernelRunA.sl.H12_47
  rw [View.readCov_cons_toLoadRect]
  refine Eq.trans ?_ (rowsOf_m c tbl i sim x2 x3 (zeroAcc) 45 (by decide)).symm
  unfold kernelRunA.sl.r_426
  simp only [V12_45 c i M2 hM2 M3 hM3 tbl hT sim x2 x3 b9 b10 a12 a13 a14 a15 a16 a17, mk_read M3 hM3 x3 45 (by decide)]
  try rfl
theorem V13_46 : kernelRunA.sl.v3979 c i M2 hM2 M3 hM3 tbl x2 x3 = (rowsOf c tbl i sim x2 x3 (zeroAcc) 46).logp := by
  unfold kernelRunA.sl.v3979 kernelRunA.sl.H13_47
  rw [View.readCov_cons_toLoadRect]
  refine Eq.trans ?_ (rowsOf_logp c tbl i sim x2 x3 (zeroAcc) 45 (by decide)).symm
  unfold kernelRunA.sl.r_425 kernelRunA.sl.r_426
  simp only [W_r_424 c i tbl, V13_45 c i M2 hM2 M3 hM3 tbl hT sim x2 x3 b9 b10 a12 a13 a14 a15 a16 a17, in_read M2 hM2 x2 45 (by decide), mk_read M3 hM3 x3 45 (by decide)]
  try rfl
theorem V14_46 : kernelRunA.sl.v3985 c i M3 hM3 tbl hT sim x3 b9 b10 = (rowsOf c tbl i sim x2 x3 (zeroAcc) 46).w := by
  unfold kernelRunA.sl.v3985 kernelRunA.sl.H14_47
  rw [View.readCov_cons_toLoadRect]
  refine Eq.trans ?_ (rowsOf_w c tbl i sim x2 x3 (zeroAcc) 45 (by decide)).symm
  unfold kernelRunA.sl.r_428
  simp only [S_v3844 c i tbl hT sim b10, V14_45 c i M2 hM2 M3 hM3 tbl hT sim x2 x3 b9 b10 a12 a13 a14 a15 a16 a17, mk_read M3 hM3 x3 45 (by decide)]
  try rfl
theorem V12_47 : kernelRunA.sl.v4059 c M3 hM3 x3 = (rowsOf c tbl i sim x2 x3 (zeroAcc) 47).m := by
  unfold kernelRunA.sl.v4059 kernelRunA.sl.H12_48
  rw [View.readCov_cons_toLoadRect]
  refine Eq.trans ?_ (rowsOf_m c tbl i sim x2 x3 (zeroAcc) 46 (by decide)).symm
  unfold kernelRunA.sl.r_435
  simp only [V12_46 c i M2 hM2 M3 hM3 tbl hT sim x2 x3 b9 b10 a12 a13 a14 a15 a16 a17, mk_read M3 hM3 x3 46 (by decide)]
  try rfl
theorem V13_47 : kernelRunA.sl.v4064 c i M2 hM2 M3 hM3 tbl x2 x3 = (rowsOf c tbl i sim x2 x3 (zeroAcc) 47).logp := by
  unfold kernelRunA.sl.v4064 kernelRunA.sl.H13_48
  rw [View.readCov_cons_toLoadRect]
  refine Eq.trans ?_ (rowsOf_logp c tbl i sim x2 x3 (zeroAcc) 46 (by decide)).symm
  unfold kernelRunA.sl.r_440 kernelRunA.sl.r_434 kernelRunA.sl.r_435
  simp only [W_r_433 c i tbl, V13_46 c i M2 hM2 M3 hM3 tbl hT sim x2 x3 b9 b10 a12 a13 a14 a15 a16 a17, in_read M2 hM2 x2 46 (by decide), mk_read M3 hM3 x3 46 (by decide)]
  try rfl
theorem V14_47 : kernelRunA.sl.v4070 c i M3 hM3 tbl hT sim x3 b9 b10 = (rowsOf c tbl i sim x2 x3 (zeroAcc) 47).w := by
  unfold kernelRunA.sl.v4070 kernelRunA.sl.H14_48
  rw [View.readCov_cons_toLoadRect]
  refine Eq.trans ?_ (rowsOf_w c tbl i sim x2 x3 (zeroAcc) 46 (by decide)).symm
  unfold kernelRunA.sl.r_436 kernelRunA.sl.r_435 kernelRunA.sl.cst_284
  simp only [S_v3929 c i tbl hT sim b9, V14_46 c i M2 hM2 M3 hM3 tbl hT sim x2 x3 b9 b10 a12 a13 a14 a15 a16 a17, mk_read M3 hM3 x3 46 (by decide)]
  try rfl
theorem V12_48 : kernelRunA.sl.v4144 c M3 hM3 x3 = (rowsOf c tbl i sim x2 x3 (zeroAcc) 48).m := by
  unfold kernelRunA.sl.v4144 kernelRunA.sl.H12_49
  rw [View.readCov_cons_toLoadRect]
  refine Eq.trans ?_ (rowsOf_m c tbl i sim x2 x3 (zeroAcc) 47 (by decide)).symm
  unfold kernelRunA.sl.r_443
  simp only [V12_47 c i M2 hM2 M3 hM3 tbl hT sim x2 x3 b9 b10 a12 a13 a14 a15 a16 a17, mk_read M3 hM3 x3 47 (by decide)]
  try rfl
theorem V13_48 : kernelRunA.sl.v4149 c i M2 hM2 M3 hM3 tbl x2 x3 = (rowsOf c tbl i sim x2 x3 (zeroAcc) 48).logp := by
  unfold kernelRunA.sl.v4149 kernelRunA.sl.H13_49
  rw [View.readCov_cons_toLoadRect]
  refine Eq.trans ?_ (rowsOf_logp c tbl i sim x2 x3 (zeroAcc) 47 (by decide)).symm
  unfold kernelRunA.sl.r_443 kernelRunA.sl.r_447
  simp only [W_r_442 c i tbl, V13_47 c i M2 hM2 M3 hM3 tbl hT sim x2 x3 b9 b10 a12 a13 a14 a15 a16 a17, in_read M2 hM2 x2 47 (by decide), mk_read M3 hM3 x3 47 (by decide)]
  try rfl
theorem V14_48 : kernelRunA.sl.v4155 c i M3 hM3 tbl hT sim x3 b9 b10 = (rowsOf c tbl i sim x2 x3 (zeroAcc) 48).w := by
  unfold kernelRunA.sl.v4155 kernelRunA.sl.H14_49
  rw [View.readCov_cons_toLoadRect]
  refine Eq.trans ?_ (rowsOf_w c tbl i sim x2 x3 (zeroAcc) 47 (by decide)).symm
  unfold kernelRunA.sl.r_445
  simp only [S_v4014 c i tbl hT sim b10, V14_47 c i M2 hM2 M3 hM3 tbl hT sim x2 x3 b9 b10 a12 a13 a14 a15 a16 a17, mk_read M3 hM3 x3 47 (by decide)]
  try rfl
theorem V12_49 : kernelRunA.sl.v4229 c M3 hM3 x3 = (rowsOf c tbl i sim x2 x3 (zeroAcc) 49).m := by
  unfold kernelRunA.sl.v4229 kernelRunA.sl.H12_50
  rw [View.readCov_cons_toLoadRect]
  refine Eq.trans ?_ (rowsOf_m c tbl i sim x2 x3 (zeroAcc) 48 (by decide)).symm
  unfold kernelRunA.sl.r_452
  simp only [V12_48 c i M2 hM2 M3 hM3 tbl hT sim x2 x3 b9 b10 a12 a13 a14 a15 a16 a17, mk_read M3 hM3 x3 48 (by decide)]
  try rfl
theorem V13_49 : kernelRunA.sl.v4234 c i M2 hM2 M3 hM3 tbl x2 x3 = (rowsOf c tbl i sim x2 x3 (zeroAcc) 49).logp := by
  unfold kernelRunA.sl.v4234 kernelRunA.sl.H13_50
  rw [View.readCov_cons_toLoadRect]
  refine Eq.trans ?_ (rowsOf_logp c tbl i sim x2 x3 (zeroAcc) 48 (by decide)).symm
  unfold kernelRunA.sl.r_451 kernelRunA.sl.r_452
  simp only [W_r_450 c i tbl, V13_48 c i M2 hM2 M3 hM3 tbl hT sim x2 x3 b9 b10 a12 a13 a14 a15 a16 a17, in_read M2 hM2 x2 48 (by decide), mk_read M3 hM3 x3 48 (by decide)]
  try rfl
theorem V14_49 : kernelRunA.sl.v4240 c i M3 hM3 tbl hT sim x3 b9 b10 = (rowsOf c tbl i sim x2 x3 (zeroAcc) 49).w := by
  unfold kernelRunA.sl.v4240 kernelRunA.sl.H14_50
  rw [View.readCov_cons_toLoadRect]
  refine Eq.trans ?_ (rowsOf_w c tbl i sim x2 x3 (zeroAcc) 48 (by decide)).symm
  unfold kernelRunA.sl.r_452 kernelRunA.sl.r_453
  simp only [S_v4099 c i tbl hT sim b9, V14_48 c i M2 hM2 M3 hM3 tbl hT sim x2 x3 b9 b10 a12 a13 a14 a15 a16 a17, mk_read M3 hM3 x3 48 (by decide)]
  try rfl
theorem V12_50 : kernelRunA.sl.v4314 c M3 hM3 x3 = (rowsOf c tbl i sim x2 x3 (zeroAcc) 50).m := by
  unfold kernelRunA.sl.v4314 kernelRunA.sl.H12_51
  rw [View.readCov_cons_toLoadRect]
  refine Eq.trans ?_ (rowsOf_m c tbl i sim x2 x3 (zeroAcc) 49 (by decide)).symm
  unfold kernelRunA.sl.r_459
  simp only [V12_49 c i M2 hM2 M3 hM3 tbl hT sim x2 x3 b9 b10 a12 a13 a14 a15 a16 a17, mk_read M3 hM3 x3 49 (by decide)]
  try rfl
theorem V13_50 : kernelRunA.sl.v4319 c i M2 hM2 M3 hM3 tbl x2 x3 = (rowsOf c tbl i sim x2 x3 (zeroAcc) 50).logp := by
  unfold kernelRunA.sl.v4319 kernelRunA.sl.H13_51
  rw [View.readCov_cons_toLoadRect]
  refine Eq.trans ?_ (rowsOf_logp c tbl i sim x2 x3 (zeroAcc) 49 (by decide)).symm
  unfold kernelRunA.sl.r_459 kernelRunA.sl.r_463 kernelRunA.sl.r_458
  simp only [W_r_460 c i tbl, V13_49 c i M2 hM2 M3 hM3 tbl hT sim x2 x3 b9 b10 a12 a13 a14 a15 a16 a17, in_read M2 hM2 x2 49 (by decide), mk_read M3 hM3 x3 49 (by decide)]
  try rfl
theorem V14_50 : kernelRunA.sl.v4325 c i M3 hM3 tbl hT sim x3 b9 b10 = (rowsOf c tbl i sim x2 x3 (zeroAcc) 50).w := by
  unfold kernelRunA.sl.v4325 kernelRunA.sl.H14_51
  rw [View.readCov_cons_toLoadRect]
  refine Eq.trans ?_ (rowsOf_w c tbl i sim x2 x3 (zeroAcc) 49 (by decide)).symm
  unfold kernelRunA.sl.r_461 kernelRunA.sl.r_459
  simp only [S_v4184 c i tbl hT sim b10, V14_49 c i M2 hM2 M3 hM3 tbl hT sim x2 x3 b9 b10 a12 a13 a14 a15 a16 a17, mk_read M3 hM3 x3 49 (by decide)]
  try rfl
theorem V12_51 : kernelRunA.sl.v4399 c M3 hM3 x3 = (rowsOf c tbl i sim x2 x3 (zeroAcc) 51).m := by
  unfold kernelRunA.sl.v4399 kernelRunA.sl.H12_52
  rw [View.readCov_cons_toLoadRect]
  refine Eq.trans ?_ (rowsOf_m c tbl i sim x2 x3 (zeroAcc) 50 (by decide)).symm
  unfold kernelRunA.sl.r_468
  simp only [V12_50 c i M2 hM2 M3 hM3 tbl hT sim x2 x3 b9 b10 a12 a13 a14 a15 a16 a17, mk_read M3 hM3 x3 50 (by decide)]
  try rfl
theorem V13_51 : kernelRunA.sl.v4404 c i M2 hM2 M3 hM3 tbl x2 x3 = (rowsOf c tbl i sim x2 x3 (zeroAcc) 51).logp := by
  unfold kernelRunA.sl.v4404 kernelRunA.sl.H13_52
  rw [View.readCov_cons_toLoadRect]
  refine Eq.trans ?_ (rowsOf_logp c tbl i sim x2 x3 (zeroAcc) 50 (by decide)).symm
  unfold kernelRunA.sl.r_468 kernelRunA.sl.r_472
  simp only [W_r_467 c i tbl, V13_50 c i M2 hM2 M3 hM3 tbl hT sim x2 x3 b9 b10 a12 a13 a14 a15 a16 a17, in_read M2 hM2 x2 50 (by decide), mk_read M3 hM3 x3 50 (by decide)]
  try rfl
theorem V14_51 : kernelRunA.sl.v4410 c i M3 hM3 tbl hT sim x3 b9 b10 = (rowsOf c tbl i sim x2 x3 (zeroAcc) 51).w := by
  unfold kernelRunA.sl.v4410 kernelRunA.sl.H14_52
  rw [View.readCov_cons_toLoadRect]
  refine Eq.trans ?_ (rowsOf_w c tbl i sim x2 x3 (zeroAcc) 50 (by decide)).symm
  unfold kernelRunA.sl.r_470
  simp only [S_v4269 c i tbl hT sim b9, V14_50 c i M2 hM2 M3 hM3 tbl hT sim x2 x3 b9 b10 a12 a13 a14 a15 a16 a17, mk_read M3 hM3 x3 50 (by decide)]
  try rfl
theorem V12_52 : kernelRunA.sl.v4484 c M3 hM3 x3 = (rowsOf c tbl i sim x2 x3 (zeroAcc) 52).m := by
  unfold kernelRunA.sl.v4484 kernelRunA.sl.H12_53
  rw [View.readCov_cons_toLoadRect]
  refine Eq.trans ?_ (rowsOf_m c tbl i sim x2 x3 (zeroAcc) 51 (by decide)).symm
  unfold kernelRunA.sl.r_478
  simp only [V12_51 c i M2 hM2 M3 hM3 tbl hT sim x2 x3 b9 b10 a12 a13 a14 a15 a16 a17, mk_read M3 hM3 x3 51 (by decide)]
  try rfl
theorem V13_52 : kernelRunA.sl.v4489 c i M2 hM2 M3 hM3 tbl x2 x3 = (rowsOf c tbl i sim x2 x3 (zeroAcc) 52).logp := by
  unfold kernelRunA.sl.v4489 kernelRunA.sl.H13_53
  rw [View.readCov_cons_toLoadRect]
  refine Eq.trans ?_ (rowsOf_logp c tbl i sim x2 x3 (zeroAcc) 51 (by decide)).symm
  unfold kernelRunA.sl.r_477 kernelRunA.sl.r_478
  simp only [W_r_476 c i tbl, V13_51 c i M2 hM2 M3 hM3 tbl hT sim x2 x3 b9 b10 a12 a13 a14 a15 a16 a17, in_read M2 hM2 x2 51 (by decide), mk_read M3 hM3 x3 51 (by decide)]
  try rfl
theorem V14_52 : kernelRunA.sl.v4495 c i M3 hM3 tbl hT sim x3 b9 b10 = (rowsOf c tbl i sim x2 x3 (zeroAcc) 52).w := by
  unfold kernelRunA.sl.v4495 kernelRunA.sl.H14_53
  rw [View.readCov_cons_toLoadRect]
  refine Eq.trans ?_ (rowsOf_w c tbl i sim x2 x3 (zeroAcc) 51 (by decide)).symm
  unfold kernelRunA.sl.r_484 kernelRunA.sl.r_478 kernelRunA.sl.r_479 kernelRunA.sl.r_480
  simp only [S_v4354 c i tbl hT sim b10, V14_51 c i M2 hM2 M3 hM3 tbl hT sim x2 x3 b9 b10 a12 a13 a14 a15 a16 a17, mk_read M3 hM3 x3 51 (by decide)]
  try rfl
theorem V12_53 : kernelRunA.sl.v4569 c M3 hM3 x3 = (rowsOf c tbl i sim x2 x3 (zeroAcc) 53).m := by
  unfold kernelRunA.sl.v4569 kernelRunA.sl.H12_54
  rw [View.readCov_cons_toLoadRect]
  refine Eq.trans ?_ (rowsOf_m c tbl i sim x2 x3 (zeroAcc) 52 (by decide)).symm
  unfold kernelRunA.sl.r_495 kernelRunA.sl.r_487
  simp only [V12_52 c i M2 hM2 M3 hM3 tbl hT sim x2 x3 b9 b10 a12 a13 a14 a15 a16 a17, mk_read M3 hM3 x3 52 (by decide)]
  try rfl
theorem V13_53 : kernelRunA.sl.v4574 c i M2 hM2 M3 hM3 tbl x2 x3 = (rowsOf c tbl i sim x2 x3 (zeroAcc) 53).logp := by
  unfold kernelRunA.sl.v4574 kernelRunA.sl.H13_54
  rw [View.readCov_cons_toLoadRect]
  refine Eq.trans ?_ (rowsOf_logp c tbl i sim x2 x3 (zeroAcc) 52 (by decide)).symm
  unfold kernelRunA.sl.r_489 kernelRunA.sl.r_492 kernelRunA.sl.r_487 kernelRunA.sl.r_486
  simp only [W_r_488 c i tbl, V13_52 c i M2 hM2 M3 hM3 tbl hT sim x2 x3 b9 b10 a12 a13 a14 a15 a16 a17, in_read M2 hM2 x2 52 (by decide), mk_read M3 hM3 x3 52 (by decide)]
  try rfl
theorem V14_53 : kernelRunA.sl.v4580 c i M3 hM3 tbl hT sim x3 b9 b10 = (rowsOf c tbl i sim x2 x3 (zeroAcc) 53).w := by
  unfold kernelRunA.sl.v4580 kernelRunA.sl.H14_54
  rw [View.readCov_cons_toLoadRect]
  refine Eq.trans ?_ (rowsOf_w c tbl i sim x2 x3 (zeroAcc) 52 (by decide)).symm
  unfold kernelRunA.sl.r_490 kernelRunA.sl.r_487
  simp only [S_v4439 c i tbl hT sim b9, V14_52 c i M2 hM2 M3 hM3 tbl hT sim x2 x3 b9 b10 a12 a13 a14 a15 a16 a17, mk_read M3 hM3 x3 52 (by decide)]
  try rfl
theorem V12_54 : kernelRunA.sl.v4654 c M3 hM3 x3 = (rowsOf c tbl i sim x2 x3 (zeroAcc) 54).m := by
  unfold kernelRunA.sl.v4654 kernelRunA.sl.H12_55
  rw [View.readCov_cons_toLoadRect]
  refine Eq.trans ?_ (rowsOf_m c tbl i sim x2 x3 (zeroAcc) 53 (by decide)).symm
  unfold kernelRunA.sl.r_499
  simp only [V12_53 c i M2 hM2 M3 hM3 tbl hT sim x2 x3 b9 b10 a12 a13 a14 a15 a16 a17, mk_read M3 hM3 x3 53 (by decide)]
  try rfl
theorem V13_54 : kernelRunA.sl.v4659 c i M2 hM2 M3 hM3 tbl x2 x3 = (rowsOf c tbl i sim x2 x3 (zeroAcc) 54).logp := by
  unfold kernelRunA.sl.v4659 kernelRunA.sl.H13_55
  rw [View.readCov_cons_toLoadRect]
  refine Eq.trans ?_ (rowsOf_logp c tbl i sim x2 x3 (zeroAcc) 53 (by decide)).symm
  unfold kernelRunA.sl.r_498 kernelRunA.sl.r_499 kernelRunA.sl.r_503
  simp only [W_r_497 c i tbl, V13_53 c i M2 hM2 M3 hM3 tbl hT sim x2 x3 b9 b10 a12 a13 a14 a15 a16 a17, in_read M2 hM2 x2 53 (by decide), mk_read M3 hM3 x3 53 (by decide)]
  try rfl
theorem V14_54 : kernelRunA.sl.v4665 c i M3 hM3 tbl hT sim x3 b9 b10 = (rowsOf c tbl i sim x2 x3 (zeroAcc) 54).w := by
  unfold kernelRunA.sl.v4665 kernelRunA.sl.H14_55
  rw [View.readCov_cons_toLoadRect]
  refine Eq.trans ?_ (rowsOf_w c tbl i sim x2 x3 (zeroAcc) 53 (by decide)).symm
  unfold kernelRunA.sl.r_501
  simp only [S_v4524 c i tbl hT sim b10, V14_53 c i M2 hM2 M3 hM3 tbl hT sim x2 x3 b9 b10 a12 a13 a14 a15 a16 a17, mk_read M3 hM3 x3 53 (by decide)]
  try rfl
theorem V12_55 : kernelRunA.sl.v4739 c M3 hM3 x3 = (rowsOf c tbl i sim x2 x3 (zeroAcc) 55).m := by
  unfold kernelRunA.sl.v4739 kernelRunA.sl.H12_56
  rw [View.readCov_cons_toLoadRect]
  refine Eq.trans ?_ (rowsOf_m c tbl i sim x2 x3 (zeroAcc) 54 (by decide)).symm
  unfold kernelRunA.sl.r_509
  simp only [V12_54 c i M2 hM2 M3 hM3 tbl hT sim x2 x3 b9 b10 a12 a13 a14 a15 a16 a17, mk_read M3 hM3 x3 54 (by decide)]
  try rfl
theorem V13_55 : kernelRunA.sl.v4744 c i M2 hM2 M3 hM3 tbl x2 x3 = (rowsOf c tbl i sim x2 x3 (zeroAcc) 55).logp := by
  unfold kernelRunA.sl.v4744 kernelRunA.sl.H13_56
  rw [View.readCov_cons_toLoadRect]
  refine Eq.trans ?_ (rowsOf_logp c tbl i sim x2 x3 (zeroAcc) 54 (by decide)).symm
  unfold kernelRunA.sl.r_508 kernelRunA.sl.r_509
  simp only [W_r_507 c i tbl, V13_54 c i M2 hM2 M3 hM3 tbl hT sim x2 x3 b9 b10 a12 a13 a14 a15 a16 a17, in_read M2 hM2 x2 54 (by decide), mk_read M3 hM3 x3 54 (by decide)]
  try rfl
theorem V14_55 : kernelRunA.sl.v4750 c i M3 hM3 tbl hT sim x3 b9 b10 = (rowsOf c tbl i sim x2 x3 (zeroAcc) 55).w := by
  unfold kernelRunA.sl.v4750 kernelRunA.sl.H14_56
  rw [View.readCov_cons_toLoadRect]
  refine Eq.trans ?_ (rowsOf_w c tbl i sim x2 x3 (zeroAcc) 54 (by decide)).symm
  unfold kernelRunA.sl.r_515 kernelRunA.sl.r_509 kernelRunA.sl.r_510 kernelRunA.sl.r_511
  simp only [S_v4609 c i tbl hT sim b9, V14_54 c i M2 hM2 M3 hM3 tbl hT sim x2 x3 b9 b10 a12 a13 a14 a15 a16 a17, mk_read M3 hM3 x3 54 (by decide)]
  try rfl
theorem V12_56 : kernelRunA.sl.v4824 c M3 hM3 x3 = (rowsOf c tbl i sim x2 x3 (zeroAcc) 56).m := by
  unfold kernelRunA.sl.v4824 kernelRunA.sl.H12_57
  rw [View.readCov_cons_toLoadRect]
  refine Eq.trans ?_ (rowsOf_m c tbl i sim x2 x3 (zeroAcc) 55 (by decide)).symm
  unfold kernelRunA.sl.r_525
  simp only [V12_55 c i M2 hM2 M3 hM3 tbl hT sim x2 x3 b9 b10 a12 a13 a14 a15 a16 a17, mk_read M3 hM3 x3 55 (by decide)]
  try rfl
theorem V13_56 : kernelRunA.sl.v4829 c i M2 hM2 M3 hM3 tbl x2 x3 = (rowsOf c tbl i sim x2 x3 (zeroAcc) 56).logp := by
  unfold kernelRunA.sl.v4829 kernelRunA.sl.H13_57
  rw [View.readCov_cons_toLoadRect]
  refine Eq.trans ?_ (rowsOf_logp c tbl i sim x2 x3 (zeroAcc) 55 (by decide)).symm
  unfold kernelRunA.sl.r_519 kernelRunA.sl.r_522 kernelRunA.sl.r_517
  simp only [W_r_518 c i tbl, V13_55 c i M2 hM2 M3 hM3 tbl hT sim x2 x3 b9 b10 a12 a13 a14 a15 a16 a17, in_read M2 hM2 x2 55 (by decide), mk_read M3 hM3 x3 55 (by decide)]
  try rfl
theorem V14_56 : kernelRunA.sl.v4835 c i M3 hM3 tbl hT sim x3 b9 b10 = (rowsOf c tbl i sim x2 x3 (zeroAcc) 56).w := by
  unfold kernelRunA.sl.v4835 kernelRunA.sl.H14_57
  rw [View.readCov_cons_toLoadRect]
  refine Eq.trans ?_ (rowsOf_w c tbl i sim x2 x3 (zeroAcc) 55 (by decide)).symm
  unfold kernelRunA.sl.r_520
  simp only [S_v4694 c i tbl hT sim b10, V14_55 c i M2 hM2 M3 hM3 tbl hT sim x2 x3 b9 b10 a12 a13 a14 a15 a16 a17, mk_read M3 hM3 x3 55 (by decide)]
  try rfl
theorem V12_57 : kernelRunA.sl.v4909 c M3 hM3 x3 = (rowsOf c tbl i sim x2 x3 (zeroAcc) 57).m := by
  unfold kernelRunA.sl.v4909 kernelRunA.sl.H12_58
  rw [View.readCov_cons_toLoadRect]
  refine Eq.trans ?_ (rowsOf_m c tbl i sim x2 x3 (zeroAcc) 56 (by decide)).symm
  unfold kernelRunA.sl.r_529
  simp only [V12_56 c i M2 hM2 M3 hM3 tbl hT sim x2 x3 b9 b10 a12 a13 a14 a15 a16 a17, mk_read M3 hM3 x3 56 (by decide)]
  try rfl
theorem V13_57 : kernelRunA.sl.v4914 c i M2 hM2 M3 hM3 tbl x2 x3 = (rowsOf c tbl i sim x2 x3 (zeroAcc) 57).logp := by
  unfold kernelRunA.sl.v4914 kernelRunA.sl.H13_58
  rw [View.readCov_cons_toLoadRect]
  refine Eq.trans ?_ (rowsOf_logp c tbl i sim x2 x3 (zeroAcc) 56 (by decide)).symm
  unfold kernelRunA.sl.r_528 kernelRunA.sl.r_529
  simp only [W_r_527 c i tbl, V13_56 c i M2 hM2 M3 hM3 tbl hT sim x2 x3 b9 b10 a12 a13 a14 a15 a16 a17, in_read M2 hM2 x2 56 (by decide), mk_read M3 hM3 x3 56 (by decide)]
  try rfl
theorem V14_57 : kernelRunA.sl.v4920 c i M3 hM3 tbl hT sim x3 b9 b10 = (rowsOf c tbl i sim x2 x3 (zeroAcc) 57).w := by
  unfold kernelRunA.sl.v4920 kernelRunA.sl.H14_58
  rw [View.readCov_cons_toLoadRect]
  refine Eq.trans ?_ (rowsOf_w c tbl i sim x2 x3 (zeroAcc) 56 (by decide)).symm
  unfold kernelRunA.sl.r_531
  simp only [S_v4779 c i tbl hT sim b9, V14_56 c i M2 hM2 M3 hM3 tbl hT sim x2 x3 b9 b10 a12 a13 a14 a15 a16 a17, mk_read M3 hM3 x3 56 (by decide)]
  try rfl
theorem V12_58 : kernelRunA.sl.v4994 c M3 hM3 x3 = (rowsOf c tbl i sim x2 x3 (zeroAcc) 58).m := by
  unfold kernelRunA.sl.v4994 kernelRunA.sl.H12_59
  rw [View.readCov_cons_toLoadRect]
  refine Eq.trans ?_ (rowsOf_m c tbl i sim x2 x3 (zeroAcc) 57 (by decide)).symm
  unfold kernelRunA.sl.r_538
  simp only [V12_57 c i M2 hM2 M3 hM3 tbl hT sim x2 x3 b9 b10 a12 a13 a14 a15 a16 a17, mk_read M3 hM3 x3 57 (by decide)]
  try rfl
theorem V13_58 : kernelRunA.sl.v4999 c i M2 hM2 M3 hM3 tbl x2 x3 = (rowsOf c tbl i sim x2 x3 (zeroAcc) 58).logp := by
  unfold kernelRunA.sl.v4999 kernelRunA.sl.H13_59
  rw [View.readCov_cons_toLoadRect]
  refine Eq.trans ?_ (rowsOf_logp c tbl i sim x2 x3 (zeroAcc) 57 (by decide)).symm
  unfold kernelRunA.sl.r_537 kernelRunA.sl.r_538
  simp only [W_r_536 c i tbl, V13_57 c i M2 hM2 M3 hM3 tbl hT sim x2 x3 b9 b10 a12 a13 a14 a15 a16 a17, in_read M2 hM2 x2 57 (by decide), mk_read M3 hM3 x3 57 (by decide)]
  try rfl
theorem V14_58 : kernelRunA.sl.v5005 c i M3 hM3 tbl hT sim x3 b9 b10 = (rowsOf c tbl i sim x2 x3 (zeroAcc) 58).w := by
  unfold kernelRunA.sl.v5005 kernelRunA.sl.H14_59
  rw [View.readCov_cons_toLoadRect]
  refine Eq.trans ?_ (rowsOf_w c tbl i sim x2 x3 (zeroAcc) 57 (by decide)).symm
  unfold kernelRunA.sl.r_541 kernelRunA.sl.r_538 kernelRunA.sl.r_539 kernelRunA.sl.r_540 kernelRunA.sl.cst_781
  simp only [S_v4864 c i tbl hT sim b10, V14_57 c i M2 hM2 M3 hM3 tbl hT sim x2 x3 b9 b10 a12 a13 a14 a15 a16 a17, mk_read M3 hM3 x3 57 (by decide)]
  try rfl
theorem V12_59 : kernelRunA.sl.v5079 c M3 hM3 x3 = (rowsOf c tbl i sim x2 x3 (zeroAcc) 59).m := by
  unfold kernelRunA.sl.v5079 kernelRunA.sl.H12_60
  rw [View.readCov_cons_toLoadRect]
  refine Eq.trans ?_ (rowsOf_m c tbl i sim x2 x3 (zeroAcc) 58 (by decide)).symm
  unfold kernelRunA.sl.r_547
  simp only [V12_58 c i M2 hM2 M3 hM3 tbl hT sim x2 x3 b9 b10 a12 a13 a14 a15 a16 a17, mk_read M3 hM3 x3 58 (by decide)]
  try rfl
theorem V13_59 : kernelRunA.sl.v5084 c i M2 hM2 M3 hM3 tbl x2 x3 = (rowsOf c tbl i sim x2 x3 (zeroAcc) 59).logp := by
  unfold kernelRunA.sl.v5084 kernelRunA.sl.H13_60
  rw [View.readCov_cons_toLoadRect]
  refine Eq.trans ?_ (rowsOf_logp c tbl i sim x2 x3 (zeroAcc) 58 (by decide)).symm
  unfold kernelRunA.sl.r_547 kernelRunA.sl.r_550
  simp only [W_r_546 c i tbl, V13_58 c i M2 hM2 M3 hM3 tbl hT sim x2 x3 b9 b10 a12 a13 a14 a15 a16 a17, in_read M2 hM2 x2 58 (by decide), mk_read M3 hM3 x3 58 (by decide)]
  try rfl
theorem V14_59 : kernelRunA.sl.v5090 c i M3 hM3 tbl hT sim x3 b9 b10 = (rowsOf c tbl i sim x2 x3 (zeroAcc) 59).w := by
  unfold kernelRunA.sl.v5090 kernelRunA.sl.H14_60
  rw [View.readCov_cons_toLoadRect]
  refine Eq.trans ?_ (rowsOf_w c tbl i sim x2 x3 (zeroAcc) 58 (by decide)).symm
  unfold kernelRunA.sl.r_548
  simp only [V14_58 c i M2 hM2 M3 hM3 tbl hT sim x2 x3 b9 b10 a12 a13 a14 a15 a16 a17, S_v_2 c i tbl hT sim b9, mk_read M3 hM3 x3 58 (by decide)]
  try rfl
theorem V12_60 : kernelRunA.sl.v5164 c M3 hM3 x3 = (rowsOf c tbl i sim x2 x3 (zeroAcc) 60).m := by
  unfold kernelRunA.sl.v5164 kernelRunA.sl.H12_61
  rw [View.readCov_cons_toLoadRect]
  refine Eq.trans ?_ (rowsOf_m c tbl i sim x2 x3 (zeroAcc) 59 (by decide)).symm
  unfold kernelRunA.sl.r_556
  simp only [V12_59 c i M2 hM2 M3 hM3 tbl hT sim x2 x3 b9 b10 a12 a13 a14 a15 a16 a17, mk_read M3 hM3 x3 59 (by decide)]
  try rfl
theorem V13_60 : kernelRunA.sl.v5169 c i M2 hM2 M3 hM3 tbl x2 x3 = (rowsOf c tbl i sim x2 x3 (zeroAcc) 60).logp := by
  unfold kernelRunA.sl.v5169 kernelRunA.sl.H13_61
  rw [View.readCov_cons_toLoadRect]
  refine Eq.trans ?_ (rowsOf_logp c tbl i sim x2 x3 (zeroAcc) 59 (by decide)).symm
  unfold kernelRunA.sl.r_555 kernelRunA.sl.r_556
  simp only [W_r_554 c i tbl, V13_59 c i M2 hM2 M3 hM3 tbl hT sim x2 x3 b9 b10 a12 a13 a14 a15 a16 a17, in_read M2 hM2 x2 59 (by decide), mk_read M3 hM3 x3 59 (by decide)]
  try rfl
theorem V14_60 : kernelRunA.sl.v5175 c i M3 hM3 tbl hT sim x3 b9 b10 = (rowsOf c tbl i sim x2 x3 (zeroAcc) 60).w := by
  unfold kernelRunA.sl.v5175 kernelRunA.sl.H14_61
  rw [View.readCov_cons_toLoadRect]
  refine Eq.trans ?_ (rowsOf_w c tbl i sim x2 x3 (zeroAcc) 59 (by decide)).symm
  unfold kernelRunA.sl.r_558
  simp only [S_v5034 c i tbl hT sim b10, V14_59 c i M2 hM2 M3 hM3 tbl hT sim x2 x3 b9 b10 a12 a13 a14 a15 a16 a17, mk_read M3 hM3 x3 59 (by decide)]
  try rfl
theorem V12_61 : kernelRunA.sl.v5249 c M3 hM3 x3 = (rowsOf c tbl i sim x2 x3 (zeroAcc) 61).m := by
  unfold kernelRunA.sl.v5249 kernelRunA.sl.H12_62
  rw [View.readCov_cons_toLoadRect]
  refine Eq.trans ?_ (rowsOf_m c tbl i sim x2 x3 (zeroAcc) 60 (by decide)).symm
  unfold kernelRunA.sl.r_565
  simp only [V12_60 c i M2 hM2 M3 hM3 tbl hT sim x2 x3 b9 b10 a12 a13 a14 a15 a16 a17, mk_read M3 hM3 x3 60 (by decide)]
  try rfl
theorem V13_61 : kernelRunA.sl.v5254 c i M2 hM2 M3 hM3 tbl x2 x3 = (rowsOf c tbl i sim x2 x3 (zeroAcc) 61).logp := by
  unfold kernelRunA.sl.v5254 kernelRunA.sl.H13_62
  rw [View.readCov_cons_toLoadRect]
  refine Eq.trans ?_ (rowsOf_logp c tbl i sim x2 x3 (zeroAcc) 60 (by decide)).symm
  unfold kernelRunA.sl.r_571 kernelRunA.sl.r_564 kernelRunA.sl.r_565
  simp only [W_r_563 c i tbl, V13_60 c i M2 hM2 M3 hM3 tbl hT sim x2 x3 b9 b10 a12 a13 a14 a15 a16 a17, in_read M2 hM2 x2 60 (by decide), mk_read M3 hM3 x3 60 (by decide)]
  try rfl
theorem V14_61 : kernelRunA.sl.v5260 c i M3 hM3 tbl hT sim x3 b9 b10 = (rowsOf c tbl i sim x2 x3 (zeroAcc) 61).w := by
  unfold kernelRunA.sl.v5260 kernelRunA.sl.H14_62
  rw [View.readCov_cons_toLoadRect]
  refine Eq.trans ?_ (rowsOf_w c tbl i sim x2 x3 (zeroAcc) 60 (by decide)).symm
  unfold kernelRunA.sl.r_567 kernelRunA.sl.r_565 kernelRunA.sl.r_566 kernelRunA.sl.cst_15
  simp only [S_v5119 c i tbl hT sim b9, V14_60 c i M2 hM2 M3 hM3 tbl hT sim x2 x3 b9 b10 a12 a13 a14 a15 a16 a17, mk_read M3 hM3 x3 60 (by decide)]
  try rfl
theorem V12_62 : kernelRunA.sl.v5334 c M3 hM3 x3 = (rowsOf c tbl i sim x2 x3 (zeroAcc) 62).m := by
  unfold kernelRunA.sl.v5334 kernelRunA.sl.H12_63
  rw [View.readCov_cons_toLoadRect]
  refine Eq.trans ?_ (rowsOf_m c tbl i sim x2 x3 (zeroAcc) 61 (by decide)).symm
  unfold kernelRunA.sl.r_574
  simp only [V12_61 c i M2 hM2 M3 hM3 tbl hT sim x2 x3 b9 b10 a12 a13 a14 a15 a16 a17, mk_read M3 hM3 x3 61 (by decide)]
  try rfl
theorem V13_62 : kernelRunA.sl.v5339 c i M2 hM2 M3 hM3 tbl x2 x3 = (rowsOf c tbl i sim x2 x3 (zeroAcc) 62).logp := by
  unfold kernelRunA.sl.v5339 kernelRunA.sl.H13_63
  rw [View.readCov_cons_toLoadRect]
  refine Eq.trans ?_ (rowsOf_logp c tbl i sim x2 x3 (zeroAcc) 61 (by decide)).symm
  unfold kernelRunA.sl.r_574 kernelRunA.sl.r_577
  simp only [W_r_573 c i tbl, V13_61 c i M2 hM2 M3 hM3 tbl hT sim x2 x3 b9 b10 a12 a13 a14 a15 a16 a17, in_read M2 hM2 x2 61 (by decide), mk_read M3 hM3 x3 61 (by decide)]
  try rfl
theorem V14_62 : kernelRunA.sl.v5345 c i M3 hM3 tbl hT sim x3 b9 b10 = (rowsOf c tbl i sim x2 x3 (zeroAcc) 62).w := by
  unfold kernelRunA.sl.v5345 kernelRunA.sl.H14_63
  rw [View.readCov_cons_toLoadRect]
  refine Eq.trans ?_ (rowsOf_w c tbl i sim x2 x3 (zeroAcc) 61 (by decide)).symm
  unfold kernelRunA.sl.r_575
  simp only [S_v5204 c i tbl hT sim b10, V14_61 c i M2 hM2 M3 hM3 tbl hT sim x2 x3 b9 b10 a12 a13 a14 a15 a16 a17, mk_read M3 hM3 x3 61 (by decide)]
  try rfl
theorem V12_63 : kernelRunA.sl.v5413 c M3 hM3 x3 = (rowsOf c tbl i sim x2 x3 (zeroAcc) 63).m := by
  unfold kernelRunA.sl.v5413 kernelRunA.sl.H12_64
  rw [View.readCov_cons_toLoadRect]
  refine Eq.trans ?_ (rowsOf_m c tbl i sim x2 x3 (zeroAcc) 62 (by decide)).symm
  unfold kernelRunA.sl.r_584
  simp only [V12_62 c i M2 hM2 M3 hM3 tbl hT sim x2 x3 b9 b10 a12 a13 a14 a15 a16 a17, mk_read M3 hM3 x3 62 (by decide)]
  try rfl
theorem V13_63 : kernelRunA.sl.v5418 c i M2 hM2 M3 hM3 tbl x2 x3 = (rowsOf c tbl i sim x2 x3 (zeroAcc) 63).logp := by
  unfold kernelRunA.sl.v5418 kernelRunA.sl.H13_64
  rw [View.readCov_cons_toLoadRect]
  refine Eq.trans ?_ (rowsOf_logp c tbl i sim x2 x3 (zeroAcc) 62 (by decide)).symm
  unfold kernelRunA.sl.r_583 kernelRunA.sl.r_584
  simp only [W_r_582 c i tbl, V13_62 c i M2 hM2 M3 hM3 tbl hT sim x2 x3 b9 b10 a12 a13 a14 a15 a16 a17, in_read M2 hM2 x2 62 (by decide), mk_read M3 hM3 x3 62 (by decide)]
  try rfl
theorem V14_63 : kernelRunA.sl.v5424 c i M3 hM3 tbl hT sim x3 b9 b10 = (rowsOf c tbl i sim x2 x3 (zeroAcc) 63).w := by
  unfold kernelRunA.sl.v5424 kernelRunA.sl.H14_64
  rw [View.readCov_cons_toLoadRect]
  refine Eq.trans ?_ (rowsOf_w c tbl i sim x2 x3 (zeroAcc) 62 (by decide)).symm
  unfold kernelRunA.sl.r_587
  simp only [S_v5289 c i tbl hT sim b9, V14_62 c i M2 hM2 M3 hM3 tbl hT sim x2 x3 b9 b10 a12 a13 a14 a15 a16 a17, mk_read M3 hM3 x3 62 (by decide)]
  try rfl
theorem L12_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : C1 i) (h2 : ¬ C2 i) : (kernelRunA c i M2 hM2 M3 hM3 M5 hM5 M6 hM6 M7 hM7 M8 hM8 tbl hT sim x2 x3 b9 b10 a12 a13 a14 a15 a16 a17 h1 h2).1 = ⟨Rect.unit ![0, 0] S1x1.size inb_S1x1_S1x1_0_0, k0_pay964 (kernelRunA.sl.r_593 c M3 hM3 x3) (kernelRunA.sl.v5413 c M3 hM3 x3)⟩ :: kernelRunA.sl.H12_64 c M3 hM3 x3 := rfl
theorem V12_64 : View.readAt (Elt F) (Memref.whole cc0_scratch3).view (Rect.unit ![0, 0] S1x1.size inb_S1x1_S1x1_0_0).toLoadRect ((Memref.whole cc0_scratch3).view.writes (Elt F) a12 (⟨Rect.unit ![0, 0] S1x1.size inb_S1x1_S1x1_0_0, k0_pay964 (kernelRunA.sl.r_593 c M3 hM3 x3) (kernelRunA.sl.v5413 c M3 hM3 x3)⟩ :: kernelRunA.sl.H12_64 c M3 hM3 x3)) = (rowsOf c tbl i sim x2 x3 (zeroAcc) 64).m := by
  rw [read_last_write]
  refine Eq.trans ?_ (rowsOf_m c tbl i sim x2 x3 (zeroAcc) 63 (by decide)).symm
  unfold kernelRunA.sl.r_593
  simp only [V12_63 c i M2 hM2 M3 hM3 tbl hT sim x2 x3 b9 b10 a12 a13 a14 a15 a16 a17, mk_read M3 hM3 x3 63 (by decide)]
  try rfl
theorem L13_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : C1 i) (h2 : ¬ C2 i) : (kernelRunA c i M2 hM2 M3 hM3 M5 hM5 M6 hM6 M7 hM7 M8 hM8 tbl hT sim x2 x3 b9 b10 a12 a13 a14 a15 a16 a17 h1 h2).2.1 = ⟨Rect.unit ![0, 0] S1x1.size inb_S1x1_S1x1_0_0, k0_pay965 (kernelRunA.sl.r_592 c M2 hM2 x2) (kernelRunA.sl.r_593 c M3 hM3 x3) (kernelRunA.sl.r_591 c i tbl) (kernelRunA.sl.v5418 c i M2 hM2 M3 hM3 tbl x2 x3)⟩ :: kernelRunA.sl.H13_64 c i M2 hM2 M3 hM3 tbl x2 x3 := rfl
theorem V13_64 : View.readAt (Elt F) (Memref.whole cc0_scratch4).view (Rect.unit ![0, 0] S1x1.size inb_S1x1_S1x1_0_0).toLoadRect ((Memref.whole cc0_scratch4).view.writes (Elt F) a13 (⟨Rect.unit ![0, 0] S1x1.size inb_S1x1_S1x1_0_0, k0_pay965 (kernelRunA.sl.r_592 c M2 hM2 x2) (kernelRunA.sl.r_593 c M3 hM3 x3) (kernelRunA.sl.r_591 c i tbl) (kernelRunA.sl.v5418 c i M2 hM2 M3 hM3 tbl x2 x3)⟩ :: kernelRunA.sl.H13_64 c i M2 hM2 M3 hM3 tbl x2 x3)) = (rowsOf c tbl i sim x2 x3 (zeroAcc) 64).logp := by
  rw [read_last_write]
  refine Eq.trans ?_ (rowsOf_logp c tbl i sim x2 x3 (zeroAcc) 63 (by decide)).symm
  unfold kernelRunA.sl.r_592 kernelRunA.sl.r_593
  simp only [W_r_591 c i tbl, V13_63 c i M2 hM2 M3 hM3 tbl hT sim x2 x3 b9 b10 a12 a13 a14 a15 a16 a17, in_read M2 hM2 x2 63 (by decide), mk_read M3 hM3 x3 63 (by decide)]
  try rfl
theorem L14_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : C1 i) (h2 : ¬ C2 i) : (kernelRunA c i M2 hM2 M3 hM3 M5 hM5 M6 hM6 M7 hM7 M8 hM8 tbl hT sim x2 x3 b9 b10 a12 a13 a14 a15 a16 a17 h1 h2).2.2.1 = ⟨Rect.unit ![0, 0] S1x1.size inb_S1x1_S1x1_0_0, k0_pay967 (kernelRunA.sl.r_599 c i M3 hM3 tbl hT sim x3 b9 b10)⟩ :: kernelRunA.sl.H14_64 c i M3 hM3 tbl hT sim x3 b9 b10 := rfl
theorem V14_64 : View.readAt (Elt F) (Memref.whole cc0_scratch5).view (Rect.unit ![0, 0] S1x1.size inb_S1x1_S1x1_0_0).toLoadRect ((Memref.whole cc0_scratch5).view.writes (Elt F) a14 (⟨Rect.unit ![0, 0] S1x1.size inb_S1x1_S1x1_0_0, k0_pay967 (kernelRunA.sl.r_599 c i M3 hM3 tbl hT sim x3 b9 b10)⟩ :: kernelRunA.sl.H14_64 c i M3 hM3 tbl hT sim x3 b9 b10)) = (rowsOf c tbl i sim x2 x3 (zeroAcc) 64).w := by
  rw [read_last_write]
  refine Eq.trans ?_ (rowsOf_w c tbl i sim x2 x3 (zeroAcc) 63 (by decide)).symm
  unfold kernelRunA.sl.r_599 kernelRunA.sl.r_593 kernelRunA.sl.r_594 kernelRunA.sl.r_595
  simp only [S_v5368 c i tbl hT sim b10, V14_63 c i M2 hM2 M3 hM3 tbl hT sim x2 x3 b9 b10 a12 a13 a14 a15 a16 a17, mk_read M3 hM3 x3 63 (by decide)]
  try rfl
end TabA

end Cert.Proof.KI

end
-- ==== Proof.KIStepATabV2.lean ====
import proofs.«419560_j5755256177164_3_alg».proof.Proof.KIStepATabW

/-!
  The table of case A: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.KI

open Cert.KernelIdeal Cert.KernelIdeal.Gen
open Idealize.ShloMosaic Idealize.ShloMosaic.TcCoe
open Idealize.SL Idealize.SL.Sem

variable {F : FTy → Type} [FloatOps F]

namespace TabA

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

include c i M2 hM2 M3 hM3 tbl hT sim x2 x3 b9 b10 a12 a13 a14 a15 a16 a17

theorem V15_0 : kernelRunA.sl.v80  = (rowsOf c tbl i sim x2 x3 (zeroAcc) 0).nf := by
  unfold kernelRunA.sl.v80 kernelRunA.sl.H15_1
  rw [View.readCov_cons_toLoadRect]
  rfl
theorem V16_0 : kernelRunA.sl.v85  = (rowsOf c tbl i sim x2 x3 (zeroAcc) 0).s := by
  unfold kernelRunA.sl.v85 kernelRunA.sl.H16_1
  rw [View.readCov_cons_toLoadRect]
  rfl
theorem V17_0 : kernelRunA.sl.v90  = (rowsOf c tbl i sim x2 x3 (zeroAcc) 0).q := by
  unfold kernelRunA.sl.v90 kernelRunA.sl.H17_1
  rw [View.readCov_cons_toLoadRect]
  rfl
theorem V15_1 : kernelRunA.sl.v165 c i M2 hM2 M3 hM3 tbl hT sim x2 x3 b9 = (rowsOf c tbl i sim x2 x3 (zeroAcc) 1).nf := by
  unfold kernelRunA.sl.v165 kernelRunA.sl.H15_2
  rw [View.readCov_cons_toLoadRect]
  refine Eq.trans ?_ (rowsOf_nf c tbl i sim x2 x3 (zeroAcc) 0 (by decide)).symm
  unfold kernelRunA.sl.r_7 kernelRunA.sl.r_3 kernelRunA.sl.r_4 kernelRunA.sl.r_5 kernelRunA.sl.cst_15
  simp only [S_v19 c i tbl hT sim b9, V15_0 c i M2 hM2 M3 hM3 tbl hT sim x2 x3 b9 b10 a12 a13 a14 a15 a16 a17, in_read M2 hM2 x2 0 (by decide), mk_read M3 hM3 x3 0 (by decide)]
  try rfl
theorem V16_1 : kernelRunA.sl.v170 c i tbl hT sim b9 = (rowsOf c tbl i sim x2 x3 (zeroAcc) 1).s := by
  unfold kernelRunA.sl.v170 kernelRunA.sl.H16_2
  rw [View.readCov_cons_toLoadRect]
  refine Eq.trans ?_ (rowsOf_s c tbl i sim x2 x3 (zeroAcc) 0 (by decide)).symm
  unfold kernelRunA.sl.r_8 kernelRunA.sl.r_5 kernelRunA.sl.cst_15
  simp only [S_v19 c i tbl hT sim b9, V16_0 c i M2 hM2 M3 hM3 tbl hT sim x2 x3 b9 b10 a12 a13 a14 a15 a16 a17]
  try rfl
theorem V17_1 : kernelRunA.sl.v175 c i tbl hT sim b9 = (rowsOf c tbl i sim x2 x3 (zeroAcc) 1).q := by
  unfold kernelRunA.sl.v175 kernelRunA.sl.H17_2
  rw [View.readCov_cons_toLoadRect]
  refine Eq.trans ?_ (rowsOf_q c tbl i sim x2 x3 (zeroAcc) 0 (by decide)).symm
  unfold kernelRunA.sl.r_9 kernelRunA.sl.r_5 kernelRunA.sl.cst_15
  simp only [S_v19 c i tbl hT sim b9, V17_0 c i M2 hM2 M3 hM3 tbl hT sim x2 x3 b9 b10 a12 a13 a14 a15 a16 a17]
  try rfl
theorem V15_2 : kernelRunA.sl.v250 c i M2 hM2 M3 hM3 tbl hT sim x2 x3 b9 b10 = (rowsOf c tbl i sim x2 x3 (zeroAcc) 2).nf := by
  unfold kernelRunA.sl.v250 kernelRunA.sl.H15_3
  rw [View.readCov_cons_toLoadRect]
  refine Eq.trans ?_ (rowsOf_nf c tbl i sim x2 x3 (zeroAcc) 1 (by decide)).symm
  unfold kernelRunA.sl.r_15
  simp only [S_v104 c i tbl hT sim b10, V15_1 c i M2 hM2 M3 hM3 tbl hT sim x2 x3 b9 b10 a12 a13 a14 a15 a16 a17, in_read M2 hM2 x2 1 (by decide), mk_read M3 hM3 x3 1 (by decide)]
  try rfl
theorem V16_2 : kernelRunA.sl.v255 c i tbl hT sim b9 b10 = (rowsOf c tbl i sim x2 x3 (zeroAcc) 2).s := by
  unfold kernelRunA.sl.v255 kernelRunA.sl.H16_3
  rw [View.readCov_cons_toLoadRect]
  refine Eq.trans ?_ (rowsOf_s c tbl i sim x2 x3 (zeroAcc) 1 (by decide)).symm
  unfold kernelRunA.sl.r_17
  simp only [S_v104 c i tbl hT sim b10, V16_1 c i M2 hM2 M3 hM3 tbl hT sim x2 x3 b9 b10 a12 a13 a14 a15 a16 a17]
  try rfl
theorem V17_2 : kernelRunA.sl.v260 c i tbl hT sim b9 b10 = (rowsOf c tbl i sim x2 x3 (zeroAcc) 2).q := by
  unfold kernelRunA.sl.v260 kernelRunA.sl.H17_3
  rw [View.readCov_cons_toLoadRect]
  refine Eq.trans ?_ (rowsOf_q c tbl i sim x2 x3 (zeroAcc) 1 (by decide)).symm
  unfold kernelRunA.sl.r_19 kernelRunA.sl.r_18
  simp only [S_v104 c i tbl hT sim b10, V17_1 c i M2 hM2 M3 hM3 tbl hT sim x2 x3 b9 b10 a12 a13 a14 a15 a16 a17]
  try rfl
theorem V15_3 : kernelRunA.sl.v335 c i M2 hM2 M3 hM3 tbl hT sim x2 x3 b9 b10 = (rowsOf c tbl i sim x2 x3 (zeroAcc) 3).nf := by
  unfold kernelRunA.sl.v335 kernelRunA.sl.H15_4
  rw [View.readCov_cons_toLoadRect]
  refine Eq.trans ?_ (rowsOf_nf c tbl i sim x2 x3 (zeroAcc) 2 (by decide)).symm
  unfold kernelRunA.sl.r_29 kernelRunA.sl.r_22 kernelRunA.sl.r_25 kernelRunA.sl.cst_109
  simp only [S_v189 c i tbl hT sim b9, V15_2 c i M2 hM2 M3 hM3 tbl hT sim x2 x3 b9 b10 a12 a13 a14 a15 a16 a17, in_read M2 hM2 x2 2 (by decide), mk_read M3 hM3 x3 2 (by decide)]
  try rfl
theorem V16_3 : kernelRunA.sl.v340 c i tbl hT sim b9 b10 = (rowsOf c tbl i sim x2 x3 (zeroAcc) 3).s := by
  unfold kernelRunA.sl.v340 kernelRunA.sl.H16_4
  rw [View.readCov_cons_toLoadRect]
  refine Eq.trans ?_ (rowsOf_s c tbl i sim x2 x3 (zeroAcc) 2 (by decide)).symm
  unfold kernelRunA.sl.r_27 kernelRunA.sl.r_24
  simp only [S_v189 c i tbl hT sim b9, V16_2 c i M2 hM2 M3 hM3 tbl hT sim x2 x3 b9 b10 a12 a13 a14 a15 a16 a17]
  try rfl
theorem V17_3 : kernelRunA.sl.v345 c i tbl hT sim b9 b10 = (rowsOf c tbl i sim x2 x3 (zeroAcc) 3).q := by
  unfold kernelRunA.sl.v345 kernelRunA.sl.H17_4
  rw [View.readCov_cons_toLoadRect]
  refine Eq.trans ?_ (rowsOf_q c tbl i sim x2 x3 (zeroAcc) 2 (by decide)).symm
  unfold kernelRunA.sl.r_28 kernelRunA.sl.r_24
  simp only [S_v189 c i tbl hT sim b9, V17_2 c i M2 hM2 M3 hM3 tbl hT sim x2 x3 b9 b10 a12 a13 a14 a15 a16 a17]
  try rfl
theorem V15_4 : kernelRunA.sl.v420 c i M2 hM2 M3 hM3 tbl hT sim x2 x3 b9 b10 = (rowsOf c tbl i sim x2 x3 (zeroAcc) 4).nf := by
  unfold kernelRunA.sl.v420 kernelRunA.sl.H15_5
  rw [View.readCov_cons_toLoadRect]
  refine Eq.trans ?_ (rowsOf_nf c tbl i sim x2 x3 (zeroAcc) 3 (by decide)).symm
  unfold kernelRunA.sl.r_36 kernelRunA.sl.r_32 kernelRunA.sl.r_33 kernelRunA.sl.r_34
  simp only [S_v274 c i tbl hT sim b10, V15_3 c i M2 hM2 M3 hM3 tbl hT sim x2 x3 b9 b10 a12 a13 a14 a15 a16 a17, in_read M2 hM2 x2 3 (by decide), mk_read M3 hM3 x3 3 (by decide)]
  try rfl
theorem V16_4 : kernelRunA.sl.v425 c i tbl hT sim b9 b10 = (rowsOf c tbl i sim x2 x3 (zeroAcc) 4).s := by
  unfold kernelRunA.sl.v425 kernelRunA.sl.H16_5
  rw [View.readCov_cons_toLoadRect]
  refine Eq.trans ?_ (rowsOf_s c tbl i sim x2 x3 (zeroAcc) 3 (by decide)).symm
  unfold kernelRunA.sl.r_37 kernelRunA.sl.r_34
  simp only [S_v274 c i tbl hT sim b10, V16_3 c i M2 hM2 M3 hM3 tbl hT sim x2 x3 b9 b10 a12 a13 a14 a15 a16 a17]
  try rfl
theorem V17_4 : kernelRunA.sl.v430 c i tbl hT sim b9 b10 = (rowsOf c tbl i sim x2 x3 (zeroAcc) 4).q := by
  unfold kernelRunA.sl.v430 kernelRunA.sl.H17_5
  rw [View.readCov_cons_toLoadRect]
  refine Eq.trans ?_ (rowsOf_q c tbl i sim x2 x3 (zeroAcc) 3 (by decide)).symm
  unfold kernelRunA.sl.r_38 kernelRunA.sl.r_34
  simp only [S_v274 c i tbl hT sim b10, V17_3 c i M2 hM2 M3 hM3 tbl hT sim x2 x3 b9 b10 a12 a13 a14 a15 a16 a17]
  try rfl
theorem V15_5 : kernelRunA.sl.v505 c i M2 hM2 M3 hM3 tbl hT sim x2 x3 b9 b10 = (rowsOf c tbl i sim x2 x3 (zeroAcc) 5).nf := by
  unfold kernelRunA.sl.v505 kernelRunA.sl.H15_6
  rw [View.readCov_cons_toLoadRect]
  refine Eq.trans ?_ (rowsOf_nf c tbl i sim x2 x3 (zeroAcc) 4 (by decide)).symm
  unfold kernelRunA.sl.r_45
  simp only [S_v359 c i tbl hT sim b9, V15_4 c i M2 hM2 M3 hM3 tbl hT sim x2 x3 b9 b10 a12 a13 a14 a15 a16 a17, in_read M2 hM2 x2 4 (by decide), mk_read M3 hM3 x3 4 (by decide)]
  try rfl
theorem V16_5 : kernelRunA.sl.v510 c i tbl hT sim b9 b10 = (rowsOf c tbl i sim x2 x3 (zeroAcc) 5).s := by
  unfold kernelRunA.sl.v510 kernelRunA.sl.H16_6
  rw [View.readCov_cons_toLoadRect]
  refine Eq.trans ?_ (rowsOf_s c tbl i sim x2 x3 (zeroAcc) 4 (by decide)).symm
  unfold kernelRunA.sl.r_47
  simp only [S_v359 c i tbl hT sim b9, V16_4 c i M2 hM2 M3 hM3 tbl hT sim x2 x3 b9 b10 a12 a13 a14 a15 a16 a17]
  try rfl
theorem V17_5 : kernelRunA.sl.v515 c i tbl hT sim b9 b10 = (rowsOf c tbl i sim x2 x3 (zeroAcc) 5).q := by
  unfold kernelRunA.sl.v515 kernelRunA.sl.H17_6
  rw [View.readCov_cons_toLoadRect]
  refine Eq.trans ?_ (rowsOf_q c tbl i sim x2 x3 (zeroAcc) 4 (by decide)).symm
  unfold kernelRunA.sl.r_48 kernelRunA.sl.r_43
  simp only [S_v359 c i tbl hT sim b9, V17_4 c i M2 hM2 M3 hM3 tbl hT sim x2 x3 b9 b10 a12 a13 a14 a15 a16 a17]
  try rfl
theorem V15_6 : kernelRunA.sl.v590 c i M2 hM2 M3 hM3 tbl hT sim x2 x3 b9 b10 = (rowsOf c tbl i sim x2 x3 (zeroAcc) 6).nf := by
  unfold kernelRunA.sl.v590 kernelRunA.sl.H15_7
  rw [View.readCov_cons_toLoadRect]
  refine Eq.trans ?_ (rowsOf_nf c tbl i sim x2 x3 (zeroAcc) 5 (by decide)).symm
  unfold kernelRunA.sl.r_57 kernelRunA.sl.r_51 kernelRunA.sl.r_54
  simp only [S_v444 c i tbl hT sim b10, V15_5 c i M2 hM2 M3 hM3 tbl hT sim x2 x3 b9 b10 a12 a13 a14 a15 a16 a17, in_read M2 hM2 x2 5 (by decide), mk_read M3 hM3 x3 5 (by decide)]
  try rfl
theorem V16_6 : kernelRunA.sl.v595 c i tbl hT sim b9 b10 = (rowsOf c tbl i sim x2 x3 (zeroAcc) 6).s := by
  unfold kernelRunA.sl.v595 kernelRunA.sl.H16_7
  rw [View.readCov_cons_toLoadRect]
  refine Eq.trans ?_ (rowsOf_s c tbl i sim x2 x3 (zeroAcc) 5 (by decide)).symm
  unfold kernelRunA.sl.r_55 kernelRunA.sl.r_53
  simp only [S_v444 c i tbl hT sim b10, V16_5 c i M2 hM2 M3 hM3 tbl hT sim x2 x3 b9 b10 a12 a13 a14 a15 a16 a17]
  try rfl
theorem V17_6 : kernelRunA.sl.v600 c i tbl hT sim b9 b10 = (rowsOf c tbl i sim x2 x3 (zeroAcc) 6).q := by
  unfold kernelRunA.sl.v600 kernelRunA.sl.H17_7
  rw [View.readCov_cons_toLoadRect]
  refine Eq.trans ?_ (rowsOf_q c tbl i sim x2 x3 (zeroAcc) 5 (by decide)).symm
  unfold kernelRunA.sl.r_56 kernelRunA.sl.r_53
  simp only [S_v444 c i tbl hT sim b10, V17_5 c i M2 hM2 M3 hM3 tbl hT sim x2 x3 b9 b10 a12 a13 a14 a15 a16 a17]
  try rfl
theorem V15_7 : kernelRunA.sl.v675 c i M2 hM2 M3 hM3 tbl hT sim x2 x3 b9 b10 = (rowsOf c tbl i sim x2 x3 (zeroAcc) 7).nf := by
  unfold kernelRunA.sl.v675 kernelRunA.sl.H15_8
  rw [View.readCov_cons_toLoadRect]
  refine Eq.trans ?_ (rowsOf_nf c tbl i sim x2 x3 (zeroAcc) 6 (by decide)).symm
  unfold kernelRunA.sl.r_63 kernelRunA.sl.r_60 kernelRunA.sl.r_61 kernelRunA.sl.cst_284
  simp only [S_v529 c i tbl hT sim b9, V15_6 c i M2 hM2 M3 hM3 tbl hT sim x2 x3 b9 b10 a12 a13 a14 a15 a16 a17, in_read M2 hM2 x2 6 (by decide), mk_read M3 hM3 x3 6 (by decide)]
  try rfl
theorem V16_7 : kernelRunA.sl.v680 c i tbl hT sim b9 b10 = (rowsOf c tbl i sim x2 x3 (zeroAcc) 7).s := by
  unfold kernelRunA.sl.v680 kernelRunA.sl.H16_8
  rw [View.readCov_cons_toLoadRect]
  refine Eq.trans ?_ (rowsOf_s c tbl i sim x2 x3 (zeroAcc) 6 (by decide)).symm
  unfold kernelRunA.sl.r_64 kernelRunA.sl.cst_284
  simp only [S_v529 c i tbl hT sim b9, V16_6 c i M2 hM2 M3 hM3 tbl hT sim x2 x3 b9 b10 a12 a13 a14 a15 a16 a17]
  try rfl
theorem V17_7 : kernelRunA.sl.v685 c i tbl hT sim b9 b10 = (rowsOf c tbl i sim x2 x3 (zeroAcc) 7).q := by
  unfold kernelRunA.sl.v685 kernelRunA.sl.H17_8
  rw [View.readCov_cons_toLoadRect]
  refine Eq.trans ?_ (rowsOf_q c tbl i sim x2 x3 (zeroAcc) 6 (by decide)).symm
  unfold kernelRunA.sl.r_65 kernelRunA.sl.cst_284
  simp only [S_v529 c i tbl hT sim b9, V17_6 c i M2 hM2 M3 hM3 tbl hT sim x2 x3 b9 b10 a12 a13 a14 a15 a16 a17]
  try rfl
theorem V15_8 : kernelRunA.sl.v760 c i M2 hM2 M3 hM3 tbl hT sim x2 x3 b9 b10 = (rowsOf c tbl i sim x2 x3 (zeroAcc) 8).nf := by
  unfold kernelRunA.sl.v760 kernelRunA.sl.H15_9
  rw [View.readCov_cons_toLoadRect]
  refine Eq.trans ?_ (rowsOf_nf c tbl i sim x2 x3 (zeroAcc) 7 (by decide)).symm
  unfold kernelRunA.sl.r_72
  simp only [S_v614 c i tbl hT sim b10, V15_7 c i M2 hM2 M3 hM3 tbl hT sim x2 x3 b9 b10 a12 a13 a14 a15 a16 a17, in_read M2 hM2 x2 7 (by decide), mk_read M3 hM3 x3 7 (by decide)]
  try rfl
theorem V16_8 : kernelRunA.sl.v765 c i tbl hT sim b9 b10 = (rowsOf c tbl i sim x2 x3 (zeroAcc) 8).s := by
  unfold kernelRunA.sl.v765 kernelRunA.sl.H16_9
  rw [View.readCov_cons_toLoadRect]
  refine Eq.trans ?_ (rowsOf_s c tbl i sim x2 x3 (zeroAcc) 7 (by decide)).symm
  unfold kernelRunA.sl.r_70
  simp only [S_v614 c i tbl hT sim b10, V16_7 c i M2 hM2 M3 hM3 tbl hT sim x2 x3 b9 b10 a12 a13 a14 a15 a16 a17]
  try rfl
theorem V17_8 : kernelRunA.sl.v770 c i tbl hT sim b9 b10 = (rowsOf c tbl i sim x2 x3 (zeroAcc) 8).q := by
  unfold kernelRunA.sl.v770 kernelRunA.sl.H17_9
  rw [View.readCov_cons_toLoadRect]
  refine Eq.trans ?_ (rowsOf_q c tbl i sim x2 x3 (zeroAcc) 7 (by decide)).symm
  unfold kernelRunA.sl.r_74 kernelRunA.sl.r_70
  simp only [S_v614 c i tbl hT sim b10, V17_7 c i M2 hM2 M3 hM3 tbl hT sim x2 x3 b9 b10 a12 a13 a14 a15 a16 a17]
  try rfl
theorem V15_9 : kernelRunA.sl.v845 c i M2 hM2 M3 hM3 tbl hT sim x2 x3 b9 b10 = (rowsOf c tbl i sim x2 x3 (zeroAcc) 9).nf := by
  unfold kernelRunA.sl.v845 kernelRunA.sl.H15_10
  rw [View.readCov_cons_toLoadRect]
  refine Eq.trans ?_ (rowsOf_nf c tbl i sim x2 x3 (zeroAcc) 8 (by decide)).symm
  unfold kernelRunA.sl.r_80 kernelRunA.sl.r_77 kernelRunA.sl.r_78 kernelRunA.sl.r_79
  simp only [S_v699 c i tbl hT sim b9, V15_8 c i M2 hM2 M3 hM3 tbl hT sim x2 x3 b9 b10 a12 a13 a14 a15 a16 a17, in_read M2 hM2 x2 8 (by decide), mk_read M3 hM3 x3 8 (by decide)]
  try rfl
theorem V16_9 : kernelRunA.sl.v850 c i tbl hT sim b9 b10 = (rowsOf c tbl i sim x2 x3 (zeroAcc) 9).s := by
  unfold kernelRunA.sl.v850 kernelRunA.sl.H16_10
  rw [View.readCov_cons_toLoadRect]
  refine Eq.trans ?_ (rowsOf_s c tbl i sim x2 x3 (zeroAcc) 8 (by decide)).symm
  unfold kernelRunA.sl.r_81 kernelRunA.sl.r_79
  simp only [S_v699 c i tbl hT sim b9, V16_8 c i M2 hM2 M3 hM3 tbl hT sim x2 x3 b9 b10 a12 a13 a14 a15 a16 a17]
  try rfl
theorem V17_9 : kernelRunA.sl.v855 c i tbl hT sim b9 b10 = (rowsOf c tbl i sim x2 x3 (zeroAcc) 9).q := by
  unfold kernelRunA.sl.v855 kernelRunA.sl.H17_10
  rw [View.readCov_cons_toLoadRect]
  refine Eq.trans ?_ (rowsOf_q c tbl i sim x2 x3 (zeroAcc) 8 (by decide)).symm
  unfold kernelRunA.sl.r_82 kernelRunA.sl.r_79
  simp only [S_v699 c i tbl hT sim b9, V17_8 c i M2 hM2 M3 hM3 tbl hT sim x2 x3 b9 b10 a12 a13 a14 a15 a16 a17]
  try rfl
theorem V15_10 : kernelRunA.sl.v930 c i M2 hM2 M3 hM3 tbl hT sim x2 x3 b9 b10 = (rowsOf c tbl i sim x2 x3 (zeroAcc) 10).nf := by
  unfold kernelRunA.sl.v930 kernelRunA.sl.H15_11
  rw [View.readCov_cons_toLoadRect]
  refine Eq.trans ?_ (rowsOf_nf c tbl i sim x2 x3 (zeroAcc) 9 (by decide)).symm
  unfold kernelRunA.sl.r_88 kernelRunA.sl.r_84 kernelRunA.sl.r_85
  simp only [S_v784 c i tbl hT sim b10, V15_9 c i M2 hM2 M3 hM3 tbl hT sim x2 x3 b9 b10 a12 a13 a14 a15 a16 a17, in_read M2 hM2 x2 9 (by decide), mk_read M3 hM3 x3 9 (by decide)]
  try rfl
theorem V16_10 : kernelRunA.sl.v935 c i tbl hT sim b9 b10 = (rowsOf c tbl i sim x2 x3 (zeroAcc) 10).s := by
  unfold kernelRunA.sl.v935 kernelRunA.sl.H16_11
  rw [View.readCov_cons_toLoadRect]
  refine Eq.trans ?_ (rowsOf_s c tbl i sim x2 x3 (zeroAcc) 9 (by decide)).symm
  unfold kernelRunA.sl.r_90
  simp only [S_v784 c i tbl hT sim b10, V16_9 c i M2 hM2 M3 hM3 tbl hT sim x2 x3 b9 b10 a12 a13 a14 a15 a16 a17]
  try rfl
theorem V17_10 : kernelRunA.sl.v940 c i tbl hT sim b9 b10 = (rowsOf c tbl i sim x2 x3 (zeroAcc) 10).q := by
  unfold kernelRunA.sl.v940 kernelRunA.sl.H17_11
  rw [View.readCov_cons_toLoadRect]
  refine Eq.trans ?_ (rowsOf_q c tbl i sim x2 x3 (zeroAcc) 9 (by decide)).symm
  unfold kernelRunA.sl.r_91
  simp only [S_v784 c i tbl hT sim b10, V17_9 c i M2 hM2 M3 hM3 tbl hT sim x2 x3 b9 b10 a12 a13 a14 a15 a16 a17]
  try rfl
theorem V15_11 : kernelRunA.sl.v1015 c i M2 hM2 M3 hM3 tbl hT sim x2 x3 b9 b10 = (rowsOf c tbl i sim x2 x3 (zeroAcc) 11).nf := by
  unfold kernelRunA.sl.v1015 kernelRunA.sl.H15_12
  rw [View.readCov_cons_toLoadRect]
  refine Eq.trans ?_ (rowsOf_nf c tbl i sim x2 x3 (zeroAcc) 10 (by decide)).symm
  unfold kernelRunA.sl.r_97
  simp only [S_v869 c i tbl hT sim b9, V15_10 c i M2 hM2 M3 hM3 tbl hT sim x2 x3 b9 b10 a12 a13 a14 a15 a16 a17, in_read M2 hM2 x2 10 (by decide), mk_read M3 hM3 x3 10 (by decide)]
  try rfl
theorem V16_11 : kernelRunA.sl.v1020 c i tbl hT sim b9 b10 = (rowsOf c tbl i sim x2 x3 (zeroAcc) 11).s := by
  unfold kernelRunA.sl.v1020 kernelRunA.sl.H16_12
  rw [View.readCov_cons_toLoadRect]
  refine Eq.trans ?_ (rowsOf_s c tbl i sim x2 x3 (zeroAcc) 10 (by decide)).symm
  unfold kernelRunA.sl.r_100 kernelRunA.sl.r_95
  simp only [S_v869 c i tbl hT sim b9, V16_10 c i M2 hM2 M3 hM3 tbl hT sim x2 x3 b9 b10 a12 a13 a14 a15 a16 a17]
  try rfl
theorem V17_11 : kernelRunA.sl.v1025 c i tbl hT sim b9 b10 = (rowsOf c tbl i sim x2 x3 (zeroAcc) 11).q := by
  unfold kernelRunA.sl.v1025 kernelRunA.sl.H17_12
  rw [View.readCov_cons_toLoadRect]
  refine Eq.trans ?_ (rowsOf_q c tbl i sim x2 x3 (zeroAcc) 10 (by decide)).symm
  unfold kernelRunA.sl.r_99 kernelRunA.sl.r_95
  simp only [S_v869 c i tbl hT sim b9, V17_10 c i M2 hM2 M3 hM3 tbl hT sim x2 x3 b9 b10 a12 a13 a14 a15 a16 a17]
  try rfl
theorem V15_12 : kernelRunA.sl.v1100 c i M2 hM2 M3 hM3 tbl hT sim x2 x3 b9 b10 = (rowsOf c tbl i sim x2 x3 (zeroAcc) 12).nf := by
  unfold kernelRunA.sl.v1100 kernelRunA.sl.H15_13
  rw [View.readCov_cons_toLoadRect]
  refine Eq.trans ?_ (rowsOf_nf c tbl i sim x2 x3 (zeroAcc) 11 (by decide)).symm
  unfold kernelRunA.sl.r_107 kernelRunA.sl.r_103 kernelRunA.sl.r_104 kernelRunA.sl.r_105 kernelRunA.sl.r_106
  simp only [V15_11 c i M2 hM2 M3 hM3 tbl hT sim x2 x3 b9 b10 a12 a13 a14 a15 a16 a17, S_v954 c i tbl hT sim b10, in_read M2 hM2 x2 11 (by decide), mk_read M3 hM3 x3 11 (by decide)]
  try rfl
theorem V16_12 : kernelRunA.sl.v1105 c i tbl hT sim b9 b10 = (rowsOf c tbl i sim x2 x3 (zeroAcc) 12).s := by
  unfold kernelRunA.sl.v1105 kernelRunA.sl.H16_13
  rw [View.readCov_cons_toLoadRect]
  refine Eq.trans ?_ (rowsOf_s c tbl i sim x2 x3 (zeroAcc) 11 (by decide)).symm
  unfold kernelRunA.sl.r_108 kernelRunA.sl.r_105 kernelRunA.sl.r_106
  simp only [V16_11 c i M2 hM2 M3 hM3 tbl hT sim x2 x3 b9 b10 a12 a13 a14 a15 a16 a17, S_v954 c i tbl hT sim b10]
  try rfl
theorem V17_12 : kernelRunA.sl.v1110 c i tbl hT sim b9 b10 = (rowsOf c tbl i sim x2 x3 (zeroAcc) 12).q := by
  unfold kernelRunA.sl.v1110 kernelRunA.sl.H17_13
  rw [View.readCov_cons_toLoadRect]
  refine Eq.trans ?_ (rowsOf_q c tbl i sim x2 x3 (zeroAcc) 11 (by decide)).symm
  unfold kernelRunA.sl.r_109 kernelRunA.sl.r_105 kernelRunA.sl.r_106
  simp only [V17_11 c i M2 hM2 M3 hM3 tbl hT sim x2 x3 b9 b10 a12 a13 a14 a15 a16 a17, S_v954 c i tbl hT sim b10]
  try rfl
theorem V15_13 : kernelRunA.sl.v1185 c i M2 hM2 M3 hM3 tbl hT sim x2 x3 b9 b10 = (rowsOf c tbl i sim x2 x3 (zeroAcc) 13).nf := by
  unfold kernelRunA.sl.v1185 kernelRunA.sl.H15_14
  rw [View.readCov_cons_toLoadRect]
  refine Eq.trans ?_ (rowsOf_nf c tbl i sim x2 x3 (zeroAcc) 12 (by decide)).symm
  unfold kernelRunA.sl.r_117 kernelRunA.sl.r_112 kernelRunA.sl.r_113
  simp only [S_v1039 c i tbl hT sim b9, V15_12 c i M2 hM2 M3 hM3 tbl hT sim x2 x3 b9 b10 a12 a13 a14 a15 a16 a17, in_read M2 hM2 x2 12 (by decide), mk_read M3 hM3 x3 12 (by decide)]
  try rfl
theorem V16_13 : kernelRunA.sl.v1190 c i tbl hT sim b9 b10 = (rowsOf c tbl i sim x2 x3 (zeroAcc) 13).s := by
  unfold kernelRunA.sl.v1190 kernelRunA.sl.H16_14
  rw [View.readCov_cons_toLoadRect]
  refine Eq.trans ?_ (rowsOf_s c tbl i sim x2 x3 (zeroAcc) 12 (by decide)).symm
  unfold kernelRunA.sl.r_119
  simp only [S_v1039 c i tbl hT sim b9, V16_12 c i M2 hM2 M3 hM3 tbl hT sim x2 x3 b9 b10 a12 a13 a14 a15 a16 a17]
  try rfl
theorem V17_13 : kernelRunA.sl.v1195 c i tbl hT sim b9 b10 = (rowsOf c tbl i sim x2 x3 (zeroAcc) 13).q := by
  unfold kernelRunA.sl.v1195 kernelRunA.sl.H17_14
  rw [View.readCov_cons_toLoadRect]
  refine Eq.trans ?_ (rowsOf_q c tbl i sim x2 x3 (zeroAcc) 12 (by decide)).symm
  unfold kernelRunA.sl.r_120
  simp only [S_v1039 c i tbl hT sim b9, V17_12 c i M2 hM2 M3 hM3 tbl hT sim x2 x3 b9 b10 a12 a13 a14 a15 a16 a17]
  try rfl
theorem V15_14 : kernelRunA.sl.v1270 c i M2 hM2 M3 hM3 tbl hT sim x2 x3 b9 b10 = (rowsOf c tbl i sim x2 x3 (zeroAcc) 14).nf := by
  unfold kernelRunA.sl.v1270 kernelRunA.sl.H15_15
  rw [View.readCov_cons_toLoadRect]
  refine Eq.trans ?_ (rowsOf_nf c tbl i sim x2 x3 (zeroAcc) 13 (by decide)).symm
  unfold kernelRunA.sl.r_128
  simp only [S_v1124 c i tbl hT sim b10, V15_13 c i M2 hM2 M3 hM3 tbl hT sim x2 x3 b9 b10 a12 a13 a14 a15 a16 a17, in_read M2 hM2 x2 13 (by decide), mk_read M3 hM3 x3 13 (by decide)]
  try rfl
theorem V16_14 : kernelRunA.sl.v1275 c i tbl hT sim b9 b10 = (rowsOf c tbl i sim x2 x3 (zeroAcc) 14).s := by
  unfold kernelRunA.sl.v1275 kernelRunA.sl.H16_15
  rw [View.readCov_cons_toLoadRect]
  refine Eq.trans ?_ (rowsOf_s c tbl i sim x2 x3 (zeroAcc) 13 (by decide)).symm
  unfold kernelRunA.sl.r_131 kernelRunA.sl.r_126
  simp only [S_v1124 c i tbl hT sim b10, V16_13 c i M2 hM2 M3 hM3 tbl hT sim x2 x3 b9 b10 a12 a13 a14 a15 a16 a17]
  try rfl
theorem V17_14 : kernelRunA.sl.v1280 c i tbl hT sim b9 b10 = (rowsOf c tbl i sim x2 x3 (zeroAcc) 14).q := by
  unfold kernelRunA.sl.v1280 kernelRunA.sl.H17_15
  rw [View.readCov_cons_toLoadRect]
  refine Eq.trans ?_ (rowsOf_q c tbl i sim x2 x3 (zeroAcc) 13 (by decide)).symm
  unfold kernelRunA.sl.r_130 kernelRunA.sl.r_126
  simp only [S_v1124 c i tbl hT sim b10, V17_13 c i M2 hM2 M3 hM3 tbl hT sim x2 x3 b9 b10 a12 a13 a14 a15 a16 a17]
  try rfl
theorem V15_15 : kernelRunA.sl.v1355 c i M2 hM2 M3 hM3 tbl hT sim x2 x3 b9 b10 = (rowsOf c tbl i sim x2 x3 (zeroAcc) 15).nf := by
  unfold kernelRunA.sl.v1355 kernelRunA.sl.H15_16
  rw [View.readCov_cons_toLoadRect]
  refine Eq.trans ?_ (rowsOf_nf c tbl i sim x2 x3 (zeroAcc) 14 (by decide)).symm
  unfold kernelRunA.sl.r_138 kernelRunA.sl.r_134 kernelRunA.sl.r_135 kernelRunA.sl.r_136 kernelRunA.sl.r_137
  simp only [S_v1209 c i tbl hT sim b9, V15_14 c i M2 hM2 M3 hM3 tbl hT sim x2 x3 b9 b10 a12 a13 a14 a15 a16 a17, in_read M2 hM2 x2 14 (by decide), mk_read M3 hM3 x3 14 (by decide)]
  try rfl
theorem V16_15 : kernelRunA.sl.v1360 c i tbl hT sim b9 b10 = (rowsOf c tbl i sim x2 x3 (zeroAcc) 15).s := by
  unfold kernelRunA.sl.v1360 kernelRunA.sl.H16_16
  rw [View.readCov_cons_toLoadRect]
  refine Eq.trans ?_ (rowsOf_s c tbl i sim x2 x3 (zeroAcc) 14 (by decide)).symm
  unfold kernelRunA.sl.r_139 kernelRunA.sl.r_136 kernelRunA.sl.r_137
  simp only [S_v1209 c i tbl hT sim b9, V16_14 c i M2 hM2 M3 hM3 tbl hT sim x2 x3 b9 b10 a12 a13 a14 a15 a16 a17]
  try rfl
theorem V17_15 : kernelRunA.sl.v1365 c i tbl hT sim b9 b10 = (rowsOf c tbl i sim x2 x3 (zeroAcc) 15).q := by
  unfold kernelRunA.sl.v1365 kernelRunA.sl.H17_16
  rw [View.readCov_cons_toLoadRect]
  refine Eq.trans ?_ (rowsOf_q c tbl i sim x2 x3 (zeroAcc) 14 (by decide)).symm
  unfold kernelRunA.sl.r_140 kernelRunA.sl.r_136 kernelRunA.sl.r_137
  simp only [S_v1209 c i tbl hT sim b9, V17_14 c i M2 hM2 M3 hM3 tbl hT sim x2 x3 b9 b10 a12 a13 a14 a15 a16 a17]
  try rfl
theorem V15_16 : kernelRunA.sl.v1440 c i M2 hM2 M3 hM3 tbl hT sim x2 x3 b9 b10 = (rowsOf c tbl i sim x2 x3 (zeroAcc) 16).nf := by
  unfold kernelRunA.sl.v1440 kernelRunA.sl.H15_17
  rw [View.readCov_cons_toLoadRect]
  refine Eq.trans ?_ (rowsOf_nf c tbl i sim x2 x3 (zeroAcc) 15 (by decide)).symm
  unfold kernelRunA.sl.r_147 kernelRunA.sl.r_143
  simp only [S_v1294 c i tbl hT sim b10, V15_15 c i M2 hM2 M3 hM3 tbl hT sim x2 x3 b9 b10 a12 a13 a14 a15 a16 a17, in_read M2 hM2 x2 15 (by decide), mk_read M3 hM3 x3 15 (by decide)]
  try rfl
theorem V16_16 : kernelRunA.sl.v1445 c i tbl hT sim b9 b10 = (rowsOf c tbl i sim x2 x3 (zeroAcc) 16).s := by
  unfold kernelRunA.sl.v1445 kernelRunA.sl.H16_17
  rw [View.readCov_cons_toLoadRect]
  refine Eq.trans ?_ (rowsOf_s c tbl i sim x2 x3 (zeroAcc) 15 (by decide)).symm
  unfold kernelRunA.sl.r_149
  simp only [S_v1294 c i tbl hT sim b10, V16_15 c i M2 hM2 M3 hM3 tbl hT sim x2 x3 b9 b10 a12 a13 a14 a15 a16 a17]
  try rfl
theorem V17_16 : kernelRunA.sl.v1450 c i tbl hT sim b9 b10 = (rowsOf c tbl i sim x2 x3 (zeroAcc) 16).q := by
  unfold kernelRunA.sl.v1450 kernelRunA.sl.H17_17
  rw [View.readCov_cons_toLoadRect]
  refine Eq.trans ?_ (rowsOf_q c tbl i sim x2 x3 (zeroAcc) 15 (by decide)).symm
  unfold kernelRunA.sl.r_150
  simp only [S_v1294 c i tbl hT sim b10, V17_15 c i M2 hM2 M3 hM3 tbl hT sim x2 x3 b9 b10 a12 a13 a14 a15 a16 a17]
  try rfl
theorem V15_17 : kernelRunA.sl.v1525 c i M2 hM2 M3 hM3 tbl hT sim x2 x3 b9 b10 = (rowsOf c tbl i sim x2 x3 (zeroAcc) 17).nf := by
  unfold kernelRunA.sl.v1525 kernelRunA.sl.H15_18
  rw [View.readCov_cons_toLoadRect]
  refine Eq.trans ?_ (rowsOf_nf c tbl i sim x2 x3 (zeroAcc) 16 (by decide)).symm
  unfold kernelRunA.sl.r_158
  simp only [S_v1379 c i tbl hT sim b9, V15_16 c i M2 hM2 M3 hM3 tbl hT sim x2 x3 b9 b10 a12 a13 a14 a15 a16 a17, in_read M2 hM2 x2 16 (by decide), mk_read M3 hM3 x3 16 (by decide)]
  try rfl
theorem V16_17 : kernelRunA.sl.v1530 c i tbl hT sim b9 b10 = (rowsOf c tbl i sim x2 x3 (zeroAcc) 17).s := by
  unfold kernelRunA.sl.v1530 kernelRunA.sl.H16_18
  rw [View.readCov_cons_toLoadRect]
  refine Eq.trans ?_ (rowsOf_s c tbl i sim x2 x3 (zeroAcc) 16 (by decide)).symm
  unfold kernelRunA.sl.r_159 kernelRunA.sl.r_156
  simp only [S_v1379 c i tbl hT sim b9, V16_16 c i M2 hM2 M3 hM3 tbl hT sim x2 x3 b9 b10 a12 a13 a14 a15 a16 a17]
  try rfl
theorem V17_17 : kernelRunA.sl.v1535 c i tbl hT sim b9 b10 = (rowsOf c tbl i sim x2 x3 (zeroAcc) 17).q := by
  unfold kernelRunA.sl.v1535 kernelRunA.sl.H17_18
  rw [View.readCov_cons_toLoadRect]
  refine Eq.trans ?_ (rowsOf_q c tbl i sim x2 x3 (zeroAcc) 16 (by decide)).symm
  unfold kernelRunA.sl.r_160 kernelRunA.sl.r_156
  simp only [S_v1379 c i tbl hT sim b9, V17_16 c i M2 hM2 M3 hM3 tbl hT sim x2 x3 b9 b10 a12 a13 a14 a15 a16 a17]
  try rfl
theorem V15_18 : kernelRunA.sl.v1610 c i M2 hM2 M3 hM3 tbl hT sim x2 x3 b9 b10 = (rowsOf c tbl i sim x2 x3 (zeroAcc) 18).nf := by
  unfold kernelRunA.sl.v1610 kernelRunA.sl.H15_19
  rw [View.readCov_cons_toLoadRect]
  refine Eq.trans ?_ (rowsOf_nf c tbl i sim x2 x3 (zeroAcc) 17 (by decide)).symm
  unfold kernelRunA.sl.r_168 kernelRunA.sl.r_163 kernelRunA.sl.r_164 kernelRunA.sl.r_165 kernelRunA.sl.r_166 kernelRunA.sl.cst_781
  simp only [S_v1464 c i tbl hT sim b10, V15_17 c i M2 hM2 M3 hM3 tbl hT sim x2 x3 b9 b10 a12 a13 a14 a15 a16 a17, in_read M2 hM2 x2 17 (by decide), mk_read M3 hM3 x3 17 (by decide)]
  try rfl
theorem V16_18 : kernelRunA.sl.v1615 c i tbl hT sim b9 b10 = (rowsOf c tbl i sim x2 x3 (zeroAcc) 18).s := by
  unfold kernelRunA.sl.v1615 kernelRunA.sl.H16_19
  rw [View.readCov_cons_toLoadRect]
  refine Eq.trans ?_ (rowsOf_s c tbl i sim x2 x3 (zeroAcc) 17 (by decide)).symm
  unfold kernelRunA.sl.r_169 kernelRunA.sl.r_165 kernelRunA.sl.r_166 kernelRunA.sl.cst_781
  simp only [S_v1464 c i tbl hT sim b10, V16_17 c i M2 hM2 M3 hM3 tbl hT sim x2 x3 b9 b10 a12 a13 a14 a15 a16 a17]
  try rfl
theorem V17_18 : kernelRunA.sl.v1620 c i tbl hT sim b9 b10 = (rowsOf c tbl i sim x2 x3 (zeroAcc) 18).q := by
  unfold kernelRunA.sl.v1620 kernelRunA.sl.H17_19
  rw [View.readCov_cons_toLoadRect]
  refine Eq.trans ?_ (rowsOf_q c tbl i sim x2 x3 (zeroAcc) 17 (by decide)).symm
  unfold kernelRunA.sl.r_170 kernelRunA.sl.r_165 kernelRunA.sl.r_166 kernelRunA.sl.cst_781
  simp only [S_v1464 c i tbl hT sim b10, V17_17 c i M2 hM2 M3 hM3 tbl hT sim x2 x3 b9 b10 a12 a13 a14 a15 a16 a17]
  try rfl
theorem V15_19 : kernelRunA.sl.v1695 c i M2 hM2 M3 hM3 tbl hT sim x2 x3 b9 b10 = (rowsOf c tbl i sim x2 x3 (zeroAcc) 19).nf := by
  unfold kernelRunA.sl.v1695 kernelRunA.sl.H15_20
  rw [View.readCov_cons_toLoadRect]
  refine Eq.trans ?_ (rowsOf_nf c tbl i sim x2 x3 (zeroAcc) 18 (by decide)).symm
  unfold kernelRunA.sl.r_175
  simp only [S_v c i tbl hT sim b9, V15_18 c i M2 hM2 M3 hM3 tbl hT sim x2 x3 b9 b10 a12 a13 a14 a15 a16 a17, in_read M2 hM2 x2 18 (by decide), mk_read M3 hM3 x3 18 (by decide)]
  try rfl
theorem V16_19 : kernelRunA.sl.v1700 c i tbl hT sim b9 b10 = (rowsOf c tbl i sim x2 x3 (zeroAcc) 19).s := by
  unfold kernelRunA.sl.v1700 kernelRunA.sl.H16_20
  rw [View.readCov_cons_toLoadRect]
  refine Eq.trans ?_ (rowsOf_s c tbl i sim x2 x3 (zeroAcc) 18 (by decide)).symm
  unfold kernelRunA.sl.r_177
  simp only [S_v c i tbl hT sim b9, V16_18 c i M2 hM2 M3 hM3 tbl hT sim x2 x3 b9 b10 a12 a13 a14 a15 a16 a17]
  try rfl
theorem V17_19 : kernelRunA.sl.v1705 c i tbl hT sim b9 b10 = (rowsOf c tbl i sim x2 x3 (zeroAcc) 19).q := by
  unfold kernelRunA.sl.v1705 kernelRunA.sl.H17_20
  rw [View.readCov_cons_toLoadRect]
  refine Eq.trans ?_ (rowsOf_q c tbl i sim x2 x3 (zeroAcc) 18 (by decide)).symm
  unfold kernelRunA.sl.r_178
  simp only [S_v c i tbl hT sim b9, V17_18 c i M2 hM2 M3 hM3 tbl hT sim x2 x3 b9 b10 a12 a13 a14 a15 a16 a17]
  try rfl
theorem V15_20 : kernelRunA.sl.v1780 c i M2 hM2 M3 hM3 tbl hT sim x2 x3 b9 b10 = (rowsOf c tbl i sim x2 x3 (zeroAcc) 20).nf := by
  unfold kernelRunA.sl.v1780 kernelRunA.sl.H15_21
  rw [View.readCov_cons_toLoadRect]
  refine Eq.trans ?_ (rowsOf_nf c tbl i sim x2 x3 (zeroAcc) 19 (by decide)).symm
  unfold kernelRunA.sl.r_185
  simp only [S_v1634 c i tbl hT sim b10, V15_19 c i M2 hM2 M3 hM3 tbl hT sim x2 x3 b9 b10 a12 a13 a14 a15 a16 a17, in_read M2 hM2 x2 19 (by decide), mk_read M3 hM3 x3 19 (by decide)]
  try rfl
theorem V16_20 : kernelRunA.sl.v1785 c i tbl hT sim b9 b10 = (rowsOf c tbl i sim x2 x3 (zeroAcc) 20).s := by
  unfold kernelRunA.sl.v1785 kernelRunA.sl.H16_21
  rw [View.readCov_cons_toLoadRect]
  refine Eq.trans ?_ (rowsOf_s c tbl i sim x2 x3 (zeroAcc) 19 (by decide)).symm
  unfold kernelRunA.sl.r_186 kernelRunA.sl.r_183
  simp only [S_v1634 c i tbl hT sim b10, V16_19 c i M2 hM2 M3 hM3 tbl hT sim x2 x3 b9 b10 a12 a13 a14 a15 a16 a17]
  try rfl
theorem V17_20 : kernelRunA.sl.v1790 c i tbl hT sim b9 b10 = (rowsOf c tbl i sim x2 x3 (zeroAcc) 20).q := by
  unfold kernelRunA.sl.v1790 kernelRunA.sl.H17_21
  rw [View.readCov_cons_toLoadRect]
  refine Eq.trans ?_ (rowsOf_q c tbl i sim x2 x3 (zeroAcc) 19 (by decide)).symm
  unfold kernelRunA.sl.r_187 kernelRunA.sl.r_183
  simp only [S_v1634 c i tbl hT sim b10, V17_19 c i M2 hM2 M3 hM3 tbl hT sim x2 x3 b9 b10 a12 a13 a14 a15 a16 a17]
  try rfl
theorem V15_21 : kernelRunA.sl.v1865 c i M2 hM2 M3 hM3 tbl hT sim x2 x3 b9 b10 = (rowsOf c tbl i sim x2 x3 (zeroAcc) 21).nf := by
  unfold kernelRunA.sl.v1865 kernelRunA.sl.H15_22
  rw [View.readCov_cons_toLoadRect]
  refine Eq.trans ?_ (rowsOf_nf c tbl i sim x2 x3 (zeroAcc) 20 (by decide)).symm
  unfold kernelRunA.sl.r_194 kernelRunA.sl.r_190 kernelRunA.sl.r_191 kernelRunA.sl.r_192 kernelRunA.sl.cst_15
  simp only [S_v1719 c i tbl hT sim b9, V15_20 c i M2 hM2 M3 hM3 tbl hT sim x2 x3 b9 b10 a12 a13 a14 a15 a16 a17, in_read M2 hM2 x2 20 (by decide), mk_read M3 hM3 x3 20 (by decide)]
  try rfl
theorem V16_21 : kernelRunA.sl.v1870 c i tbl hT sim b9 b10 = (rowsOf c tbl i sim x2 x3 (zeroAcc) 21).s := by
  unfold kernelRunA.sl.v1870 kernelRunA.sl.H16_22
  rw [View.readCov_cons_toLoadRect]
  refine Eq.trans ?_ (rowsOf_s c tbl i sim x2 x3 (zeroAcc) 20 (by decide)).symm
  unfold kernelRunA.sl.r_195 kernelRunA.sl.r_192 kernelRunA.sl.cst_15
  simp only [S_v1719 c i tbl hT sim b9, V16_20 c i M2 hM2 M3 hM3 tbl hT sim x2 x3 b9 b10 a12 a13 a14 a15 a16 a17]
  try rfl
theorem V17_21 : kernelRunA.sl.v1875 c i tbl hT sim b9 b10 = (rowsOf c tbl i sim x2 x3 (zeroAcc) 21).q := by
  unfold kernelRunA.sl.v1875 kernelRunA.sl.H17_22
  rw [View.readCov_cons_toLoadRect]
  refine Eq.trans ?_ (rowsOf_q c tbl i sim x2 x3 (zeroAcc) 20 (by decide)).symm
  unfold kernelRunA.sl.r_196 kernelRunA.sl.r_192 kernelRunA.sl.cst_15
  simp only [S_v1719 c i tbl hT sim b9, V17_20 c i M2 hM2 M3 hM3 tbl hT sim x2 x3 b9 b10 a12 a13 a14 a15 a16 a17]
  try rfl
theorem V15_22 : kernelRunA.sl.v1950 c i M2 hM2 M3 hM3 tbl hT sim x2 x3 b9 b10 = (rowsOf c tbl i sim x2 x3 (zeroAcc) 22).nf := by
  unfold kernelRunA.sl.v1950 kernelRunA.sl.H15_23
  rw [View.readCov_cons_toLoadRect]
  refine Eq.trans ?_ (rowsOf_nf c tbl i sim x2 x3 (zeroAcc) 21 (by decide)).symm
  unfold kernelRunA.sl.r_202
  simp only [S_v1804 c i tbl hT sim b10, V15_21 c i M2 hM2 M3 hM3 tbl hT sim x2 x3 b9 b10 a12 a13 a14 a15 a16 a17, in_read M2 hM2 x2 21 (by decide), mk_read M3 hM3 x3 21 (by decide)]
  try rfl
theorem V16_22 : kernelRunA.sl.v1955 c i tbl hT sim b9 b10 = (rowsOf c tbl i sim x2 x3 (zeroAcc) 22).s := by
  unfold kernelRunA.sl.v1955 kernelRunA.sl.H16_23
  rw [View.readCov_cons_toLoadRect]
  refine Eq.trans ?_ (rowsOf_s c tbl i sim x2 x3 (zeroAcc) 21 (by decide)).symm
  unfold kernelRunA.sl.r_204
  simp only [S_v1804 c i tbl hT sim b10, V16_21 c i M2 hM2 M3 hM3 tbl hT sim x2 x3 b9 b10 a12 a13 a14 a15 a16 a17]
  try rfl
theorem V17_22 : kernelRunA.sl.v1960 c i tbl hT sim b9 b10 = (rowsOf c tbl i sim x2 x3 (zeroAcc) 22).q := by
  unfold kernelRunA.sl.v1960 kernelRunA.sl.H17_23
  rw [View.readCov_cons_toLoadRect]
  refine Eq.trans ?_ (rowsOf_q c tbl i sim x2 x3 (zeroAcc) 21 (by decide)).symm
  unfold kernelRunA.sl.r_206 kernelRunA.sl.r_205
  simp only [S_v1804 c i tbl hT sim b10, V17_21 c i M2 hM2 M3 hM3 tbl hT sim x2 x3 b9 b10 a12 a13 a14 a15 a16 a17]
  try rfl
theorem V15_23 : kernelRunA.sl.v2035 c i M2 hM2 M3 hM3 tbl hT sim x2 x3 b9 b10 = (rowsOf c tbl i sim x2 x3 (zeroAcc) 23).nf := by
  unfold kernelRunA.sl.v2035 kernelRunA.sl.H15_24
  rw [View.readCov_cons_toLoadRect]
  refine Eq.trans ?_ (rowsOf_nf c tbl i sim x2 x3 (zeroAcc) 22 (by decide)).symm
  unfold kernelRunA.sl.r_216 kernelRunA.sl.r_209 kernelRunA.sl.r_212 kernelRunA.sl.cst_109
  simp only [S_v1889 c i tbl hT sim b9, V15_22 c i M2 hM2 M3 hM3 tbl hT sim x2 x3 b9 b10 a12 a13 a14 a15 a16 a17, in_read M2 hM2 x2 22 (by decide), mk_read M3 hM3 x3 22 (by decide)]
  try rfl
theorem V16_23 : kernelRunA.sl.v2040 c i tbl hT sim b9 b10 = (rowsOf c tbl i sim x2 x3 (zeroAcc) 23).s := by
  unfold kernelRunA.sl.v2040 kernelRunA.sl.H16_24
  rw [View.readCov_cons_toLoadRect]
  refine Eq.trans ?_ (rowsOf_s c tbl i sim x2 x3 (zeroAcc) 22 (by decide)).symm
  unfold kernelRunA.sl.r_214 kernelRunA.sl.r_211
  simp only [S_v1889 c i tbl hT sim b9, V16_22 c i M2 hM2 M3 hM3 tbl hT sim x2 x3 b9 b10 a12 a13 a14 a15 a16 a17]
  try rfl
theorem V17_23 : kernelRunA.sl.v2045 c i tbl hT sim b9 b10 = (rowsOf c tbl i sim x2 x3 (zeroAcc) 23).q := by
  unfold kernelRunA.sl.v2045 kernelRunA.sl.H17_24
  rw [View.readCov_cons_toLoadRect]
  refine Eq.trans ?_ (rowsOf_q c tbl i sim x2 x3 (zeroAcc) 22 (by decide)).symm
  unfold kernelRunA.sl.r_215 kernelRunA.sl.r_211
  simp only [S_v1889 c i tbl hT sim b9, V17_22 c i M2 hM2 M3 hM3 tbl hT sim x2 x3 b9 b10 a12 a13 a14 a15 a16 a17]
  try rfl
theorem V15_24 : kernelRunA.sl.v2120 c i M2 hM2 M3 hM3 tbl hT sim x2 x3 b9 b10 = (rowsOf c tbl i sim x2 x3 (zeroAcc) 24).nf := by
  unfold kernelRunA.sl.v2120 kernelRunA.sl.H15_25
  rw [View.readCov_cons_toLoadRect]
  refine Eq.trans ?_ (rowsOf_nf c tbl i sim x2 x3 (zeroAcc) 23 (by decide)).symm
  unfold kernelRunA.sl.r_223 kernelRunA.sl.r_219 kernelRunA.sl.r_220 kernelRunA.sl.r_221
  simp only [S_v1974 c i tbl hT sim b10, V15_23 c i M2 hM2 M3 hM3 tbl hT sim x2 x3 b9 b10 a12 a13 a14 a15 a16 a17, in_read M2 hM2 x2 23 (by decide), mk_read M3 hM3 x3 23 (by decide)]
  try rfl
theorem V16_24 : kernelRunA.sl.v2125 c i tbl hT sim b9 b10 = (rowsOf c tbl i sim x2 x3 (zeroAcc) 24).s := by
  unfold kernelRunA.sl.v2125 kernelRunA.sl.H16_25
  rw [View.readCov_cons_toLoadRect]
  refine Eq.trans ?_ (rowsOf_s c tbl i sim x2 x3 (zeroAcc) 23 (by decide)).symm
  unfold kernelRunA.sl.r_224 kernelRunA.sl.r_221
  simp only [S_v1974 c i tbl hT sim b10, V16_23 c i M2 hM2 M3 hM3 tbl hT sim x2 x3 b9 b10 a12 a13 a14 a15 a16 a17]
  try rfl
theorem V17_24 : kernelRunA.sl.v2130 c i tbl hT sim b9 b10 = (rowsOf c tbl i sim x2 x3 (zeroAcc) 24).q := by
  unfold kernelRunA.sl.v2130 kernelRunA.sl.H17_25
  rw [View.readCov_cons_toLoadRect]
  refine Eq.trans ?_ (rowsOf_q c tbl i sim x2 x3 (zeroAcc) 23 (by decide)).symm
  unfold kernelRunA.sl.r_225 kernelRunA.sl.r_221
  simp only [S_v1974 c i tbl hT sim b10, V17_23 c i M2 hM2 M3 hM3 tbl hT sim x2 x3 b9 b10 a12 a13 a14 a15 a16 a17]
  try rfl
theorem V15_25 : kernelRunA.sl.v2205 c i M2 hM2 M3 hM3 tbl hT sim x2 x3 b9 b10 = (rowsOf c tbl i sim x2 x3 (zeroAcc) 25).nf := by
  unfold kernelRunA.sl.v2205 kernelRunA.sl.H15_26
  rw [View.readCov_cons_toLoadRect]
  refine Eq.trans ?_ (rowsOf_nf c tbl i sim x2 x3 (zeroAcc) 24 (by decide)).symm
  unfold kernelRunA.sl.r_232
  simp only [S_v2059 c i tbl hT sim b9, V15_24 c i M2 hM2 M3 hM3 tbl hT sim x2 x3 b9 b10 a12 a13 a14 a15 a16 a17, in_read M2 hM2 x2 24 (by decide), mk_read M3 hM3 x3 24 (by decide)]
  try rfl
theorem V16_25 : kernelRunA.sl.v2210 c i tbl hT sim b9 b10 = (rowsOf c tbl i sim x2 x3 (zeroAcc) 25).s := by
  unfold kernelRunA.sl.v2210 kernelRunA.sl.H16_26
  rw [View.readCov_cons_toLoadRect]
  refine Eq.trans ?_ (rowsOf_s c tbl i sim x2 x3 (zeroAcc) 24 (by decide)).symm
  unfold kernelRunA.sl.r_234
  simp only [S_v2059 c i tbl hT sim b9, V16_24 c i M2 hM2 M3 hM3 tbl hT sim x2 x3 b9 b10 a12 a13 a14 a15 a16 a17]
  try rfl
theorem V17_25 : kernelRunA.sl.v2215 c i tbl hT sim b9 b10 = (rowsOf c tbl i sim x2 x3 (zeroAcc) 25).q := by
  unfold kernelRunA.sl.v2215 kernelRunA.sl.H17_26
  rw [View.readCov_cons_toLoadRect]
  refine Eq.trans ?_ (rowsOf_q c tbl i sim x2 x3 (zeroAcc) 24 (by decide)).symm
  unfold kernelRunA.sl.r_235 kernelRunA.sl.r_230
  simp only [S_v2059 c i tbl hT sim b9, V17_24 c i M2 hM2 M3 hM3 tbl hT sim x2 x3 b9 b10 a12 a13 a14 a15 a16 a17]
  try rfl
theorem V15_26 : kernelRunA.sl.v2290 c i M2 hM2 M3 hM3 tbl hT sim x2 x3 b9 b10 = (rowsOf c tbl i sim x2 x3 (zeroAcc) 26).nf := by
  unfold kernelRunA.sl.v2290 kernelRunA.sl.H15_27
  rw [View.readCov_cons_toLoadRect]
  refine Eq.trans ?_ (rowsOf_nf c tbl i sim x2 x3 (zeroAcc) 25 (by decide)).symm
  unfold kernelRunA.sl.r_244 kernelRunA.sl.r_238 kernelRunA.sl.r_241
  simp only [S_v2144 c i tbl hT sim b10, V15_25 c i M2 hM2 M3 hM3 tbl hT sim x2 x3 b9 b10 a12 a13 a14 a15 a16 a17, in_read M2 hM2 x2 25 (by decide), mk_read M3 hM3 x3 25 (by decide)]
  try rfl
theorem V16_26 : kernelRunA.sl.v2295 c i tbl hT sim b9 b10 = (rowsOf c tbl i sim x2 x3 (zeroAcc) 26).s := by
  unfold kernelRunA.sl.v2295 kernelRunA.sl.H16_27
  rw [View.readCov_cons_toLoadRect]
  refine Eq.trans ?_ (rowsOf_s c tbl i sim x2 x3 (zeroAcc) 25 (by decide)).symm
  unfold kernelRunA.sl.r_242 kernelRunA.sl.r_240
  simp only [S_v2144 c i tbl hT sim b10, V16_25 c i M2 hM2 M3 hM3 tbl hT sim x2 x3 b9 b10 a12 a13 a14 a15 a16 a17]
  try rfl
theorem V17_26 : kernelRunA.sl.v2300 c i tbl hT sim b9 b10 = (rowsOf c tbl i sim x2 x3 (zeroAcc) 26).q := by
  unfold kernelRunA.sl.v2300 kernelRunA.sl.H17_27
  rw [View.readCov_cons_toLoadRect]
  refine Eq.trans ?_ (rowsOf_q c tbl i sim x2 x3 (zeroAcc) 25 (by decide)).symm
  unfold kernelRunA.sl.r_243 kernelRunA.sl.r_240
  simp only [S_v2144 c i tbl hT sim b10, V17_25 c i M2 hM2 M3 hM3 tbl hT sim x2 x3 b9 b10 a12 a13 a14 a15 a16 a17]
  try rfl
theorem V15_27 : kernelRunA.sl.v2375 c i M2 hM2 M3 hM3 tbl hT sim x2 x3 b9 b10 = (rowsOf c tbl i sim x2 x3 (zeroAcc) 27).nf := by
  unfold kernelRunA.sl.v2375 kernelRunA.sl.H15_28
  rw [View.readCov_cons_toLoadRect]
  refine Eq.trans ?_ (rowsOf_nf c tbl i sim x2 x3 (zeroAcc) 26 (by decide)).symm
  unfold kernelRunA.sl.r_250 kernelRunA.sl.r_247 kernelRunA.sl.r_248 kernelRunA.sl.cst_284
  simp only [S_v2229 c i tbl hT sim b9, V15_26 c i M2 hM2 M3 hM3 tbl hT sim x2 x3 b9 b10 a12 a13 a14 a15 a16 a17, in_read M2 hM2 x2 26 (by decide), mk_read M3 hM3 x3 26 (by decide)]
  try rfl
theorem V16_27 : kernelRunA.sl.v2380 c i tbl hT sim b9 b10 = (rowsOf c tbl i sim x2 x3 (zeroAcc) 27).s := by
  unfold kernelRunA.sl.v2380 kernelRunA.sl.H16_28
  rw [View.readCov_cons_toLoadRect]
  refine Eq.trans ?_ (rowsOf_s c tbl i sim x2 x3 (zeroAcc) 26 (by decide)).symm
  unfold kernelRunA.sl.r_251 kernelRunA.sl.cst_284
  simp only [S_v2229 c i tbl hT sim b9, V16_26 c i M2 hM2 M3 hM3 tbl hT sim x2 x3 b9 b10 a12 a13 a14 a15 a16 a17]
  try rfl
theorem V17_27 : kernelRunA.sl.v2385 c i tbl hT sim b9 b10 = (rowsOf c tbl i sim x2 x3 (zeroAcc) 27).q := by
  unfold kernelRunA.sl.v2385 kernelRunA.sl.H17_28
  rw [View.readCov_cons_toLoadRect]
  refine Eq.trans ?_ (rowsOf_q c tbl i sim x2 x3 (zeroAcc) 26 (by decide)).symm
  unfold kernelRunA.sl.r_252 kernelRunA.sl.cst_284
  simp only [S_v2229 c i tbl hT sim b9, V17_26 c i M2 hM2 M3 hM3 tbl hT sim x2 x3 b9 b10 a12 a13 a14 a15 a16 a17]
  try rfl
theorem V15_28 : kernelRunA.sl.v2460 c i M2 hM2 M3 hM3 tbl hT sim x2 x3 b9 b10 = (rowsOf c tbl i sim x2 x3 (zeroAcc) 28).nf := by
  unfold kernelRunA.sl.v2460 kernelRunA.sl.H15_29
  rw [View.readCov_cons_toLoadRect]
  refine Eq.trans ?_ (rowsOf_nf c tbl i sim x2 x3 (zeroAcc) 27 (by decide)).symm
  unfold kernelRunA.sl.r_259
  simp only [S_v2314 c i tbl hT sim b10, V15_27 c i M2 hM2 M3 hM3 tbl hT sim x2 x3 b9 b10 a12 a13 a14 a15 a16 a17, in_read M2 hM2 x2 27 (by decide), mk_read M3 hM3 x3 27 (by decide)]
  try rfl
theorem V16_28 : kernelRunA.sl.v2465 c i tbl hT sim b9 b10 = (rowsOf c tbl i sim x2 x3 (zeroAcc) 28).s := by
  unfold kernelRunA.sl.v2465 kernelRunA.sl.H16_29
  rw [View.readCov_cons_toLoadRect]
  refine Eq.trans ?_ (rowsOf_s c tbl i sim x2 x3 (zeroAcc) 27 (by decide)).symm
  unfold kernelRunA.sl.r_257
  simp only [S_v2314 c i tbl hT sim b10, V16_27 c i M2 hM2 M3 hM3 tbl hT sim x2 x3 b9 b10 a12 a13 a14 a15 a16 a17]
  try rfl
theorem V17_28 : kernelRunA.sl.v2470 c i tbl hT sim b9 b10 = (rowsOf c tbl i sim x2 x3 (zeroAcc) 28).q := by
  unfold kernelRunA.sl.v2470 kernelRunA.sl.H17_29
  rw [View.readCov_cons_toLoadRect]
  refine Eq.trans ?_ (rowsOf_q c tbl i sim x2 x3 (zeroAcc) 27 (by decide)).symm
  unfold kernelRunA.sl.r_261 kernelRunA.sl.r_257
  simp only [S_v2314 c i tbl hT sim b10, V17_27 c i M2 hM2 M3 hM3 tbl hT sim x2 x3 b9 b10 a12 a13 a14 a15 a16 a17]
  try rfl
theorem V15_29 : kernelRunA.sl.v2545 c i M2 hM2 M3 hM3 tbl hT sim x2 x3 b9 b10 = (rowsOf c tbl i sim x2 x3 (zeroAcc) 29).nf := by
  unfold kernelRunA.sl.v2545 kernelRunA.sl.H15_30
  rw [View.readCov_cons_toLoadRect]
  refine Eq.trans ?_ (rowsOf_nf c tbl i sim x2 x3 (zeroAcc) 28 (by decide)).symm
  unfold kernelRunA.sl.r_267 kernelRunA.sl.r_264 kernelRunA.sl.r_265 kernelRunA.sl.r_266
  simp only [S_v2399 c i tbl hT sim b9, V15_28 c i M2 hM2 M3 hM3 tbl hT sim x2 x3 b9 b10 a12 a13 a14 a15 a16 a17, in_read M2 hM2 x2 28 (by decide), mk_read M3 hM3 x3 28 (by decide)]
  try rfl
theorem V16_29 : kernelRunA.sl.v2550 c i tbl hT sim b9 b10 = (rowsOf c tbl i sim x2 x3 (zeroAcc) 29).s := by
  unfold kernelRunA.sl.v2550 kernelRunA.sl.H16_30
  rw [View.readCov_cons_toLoadRect]
  refine Eq.trans ?_ (rowsOf_s c tbl i sim x2 x3 (zeroAcc) 28 (by decide)).symm
  unfold kernelRunA.sl.r_268 kernelRunA.sl.r_266
  simp only [S_v2399 c i tbl hT sim b9, V16_28 c i M2 hM2 M3 hM3 tbl hT sim x2 x3 b9 b10 a12 a13 a14 a15 a16 a17]
  try rfl
theorem V17_29 : kernelRunA.sl.v2555 c i tbl hT sim b9 b10 = (rowsOf c tbl i sim x2 x3 (zeroAcc) 29).q := by
  unfold kernelRunA.sl.v2555 kernelRunA.sl.H17_30
  rw [View.readCov_cons_toLoadRect]
  refine Eq.trans ?_ (rowsOf_q c tbl i sim x2 x3 (zeroAcc) 28 (by decide)).symm
  unfold kernelRunA.sl.r_269 kernelRunA.sl.r_266
  simp only [S_v2399 c i tbl hT sim b9, V17_28 c i M2 hM2 M3 hM3 tbl hT sim x2 x3 b9 b10 a12 a13 a14 a15 a16 a17]
  try rfl
theorem V15_30 : kernelRunA.sl.v2630 c i M2 hM2 M3 hM3 tbl hT sim x2 x3 b9 b10 = (rowsOf c tbl i sim x2 x3 (zeroAcc) 30).nf := by
  unfold kernelRunA.sl.v2630 kernelRunA.sl.H15_31
  rw [View.readCov_cons_toLoadRect]
  refine Eq.trans ?_ (rowsOf_nf c tbl i sim x2 x3 (zeroAcc) 29 (by decide)).symm
  unfold kernelRunA.sl.r_275 kernelRunA.sl.r_271 kernelRunA.sl.r_272
  simp only [S_v2484 c i tbl hT sim b10, V15_29 c i M2 hM2 M3 hM3 tbl hT sim x2 x3 b9 b10 a12 a13 a14 a15 a16 a17, in_read M2 hM2 x2 29 (by decide), mk_read M3 hM3 x3 29 (by decide)]
  try rfl
theorem V16_30 : kernelRunA.sl.v2635 c i tbl hT sim b9 b10 = (rowsOf c tbl i sim x2 x3 (zeroAcc) 30).s := by
  unfold kernelRunA.sl.v2635 kernelRunA.sl.H16_31
  rw [View.readCov_cons_toLoadRect]
  refine Eq.trans ?_ (rowsOf_s c tbl i sim x2 x3 (zeroAcc) 29 (by decide)).symm
  unfold kernelRunA.sl.r_277
  simp only [S_v2484 c i tbl hT sim b10, V16_29 c i M2 hM2 M3 hM3 tbl hT sim x2 x3 b9 b10 a12 a13 a14 a15 a16 a17]
  try rfl
theorem V17_30 : kernelRunA.sl.v2640 c i tbl hT sim b9 b10 = (rowsOf c tbl i sim x2 x3 (zeroAcc) 30).q := by
  unfold kernelRunA.sl.v2640 kernelRunA.sl.H17_31
  rw [View.readCov_cons_toLoadRect]
  refine Eq.trans ?_ (rowsOf_q c tbl i sim x2 x3 (zeroAcc) 29 (by decide)).symm
  unfold kernelRunA.sl.r_278
  simp only [S_v2484 c i tbl hT sim b10, V17_29 c i M2 hM2 M3 hM3 tbl hT sim x2 x3 b9 b10 a12 a13 a14 a15 a16 a17]
  try rfl
theorem V15_31 : kernelRunA.sl.v2715 c i M2 hM2 M3 hM3 tbl hT sim x2 x3 b9 b10 = (rowsOf c tbl i sim x2 x3 (zeroAcc) 31).nf := by
  unfold kernelRunA.sl.v2715 kernelRunA.sl.H15_32
  rw [View.readCov_cons_toLoadRect]
  refine Eq.trans ?_ (rowsOf_nf c tbl i sim x2 x3 (zeroAcc) 30 (by decide)).symm
  unfold kernelRunA.sl.r_284
  simp only [S_v2569 c i tbl hT sim b9, V15_30 c i M2 hM2 M3 hM3 tbl hT sim x2 x3 b9 b10 a12 a13 a14 a15 a16 a17, in_read M2 hM2 x2 30 (by decide), mk_read M3 hM3 x3 30 (by decide)]
  try rfl
theorem V16_31 : kernelRunA.sl.v2720 c i tbl hT sim b9 b10 = (rowsOf c tbl i sim x2 x3 (zeroAcc) 31).s := by
  unfold kernelRunA.sl.v2720 kernelRunA.sl.H16_32
  rw [View.readCov_cons_toLoadRect]
  refine Eq.trans ?_ (rowsOf_s c tbl i sim x2 x3 (zeroAcc) 30 (by decide)).symm
  unfold kernelRunA.sl.r_287 kernelRunA.sl.r_282
  simp only [S_v2569 c i tbl hT sim b9, V16_30 c i M2 hM2 M3 hM3 tbl hT sim x2 x3 b9 b10 a12 a13 a14 a15 a16 a17]
  try rfl
theorem V17_31 : kernelRunA.sl.v2725 c i tbl hT sim b9 b10 = (rowsOf c tbl i sim x2 x3 (zeroAcc) 31).q := by
  unfold kernelRunA.sl.v2725 kernelRunA.sl.H17_32
  rw [View.readCov_cons_toLoadRect]
  refine Eq.trans ?_ (rowsOf_q c tbl i sim x2 x3 (zeroAcc) 30 (by decide)).symm
  unfold kernelRunA.sl.r_286 kernelRunA.sl.r_282
  simp only [S_v2569 c i tbl hT sim b9, V17_30 c i M2 hM2 M3 hM3 tbl hT sim x2 x3 b9 b10 a12 a13 a14 a15 a16 a17]
  try rfl
theorem V15_32 : kernelRunA.sl.v2800 c i M2 hM2 M3 hM3 tbl hT sim x2 x3 b9 b10 = (rowsOf c tbl i sim x2 x3 (zeroAcc) 32).nf := by
  unfold kernelRunA.sl.v2800 kernelRunA.sl.H15_33
  rw [View.readCov_cons_toLoadRect]
  refine Eq.trans ?_ (rowsOf_nf c tbl i sim x2 x3 (zeroAcc) 31 (by decide)).symm
  unfold kernelRunA.sl.r_294 kernelRunA.sl.r_290 kernelRunA.sl.r_291 kernelRunA.sl.r_292 kernelRunA.sl.r_293
  simp only [S_v2654 c i tbl hT sim b10, V15_31 c i M2 hM2 M3 hM3 tbl hT sim x2 x3 b9 b10 a12 a13 a14 a15 a16 a17, in_read M2 hM2 x2 31 (by decide), mk_read M3 hM3 x3 31 (by decide)]
  try rfl
theorem V16_32 : kernelRunA.sl.v2805 c i tbl hT sim b9 b10 = (rowsOf c tbl i sim x2 x3 (zeroAcc) 32).s := by
  unfold kernelRunA.sl.v2805 kernelRunA.sl.H16_33
  rw [View.readCov_cons_toLoadRect]
  refine Eq.trans ?_ (rowsOf_s c tbl i sim x2 x3 (zeroAcc) 31 (by decide)).symm
  unfold kernelRunA.sl.r_295 kernelRunA.sl.r_292 kernelRunA.sl.r_293
  simp only [S_v2654 c i tbl hT sim b10, V16_31 c i M2 hM2 M3 hM3 tbl hT sim x2 x3 b9 b10 a12 a13 a14 a15 a16 a17]
  try rfl
theorem V17_32 : kernelRunA.sl.v2810 c i tbl hT sim b9 b10 = (rowsOf c tbl i sim x2 x3 (zeroAcc) 32).q := by
  unfold kernelRunA.sl.v2810 kernelRunA.sl.H17_33
  rw [View.readCov_cons_toLoadRect]
  refine Eq.trans ?_ (rowsOf_q c tbl i sim x2 x3 (zeroAcc) 31 (by decide)).symm
  unfold kernelRunA.sl.r_296 kernelRunA.sl.r_292 kernelRunA.sl.r_293
  simp only [S_v2654 c i tbl hT sim b10, V17_31 c i M2 hM2 M3 hM3 tbl hT sim x2 x3 b9 b10 a12 a13 a14 a15 a16 a17]
  try rfl
theorem V15_33 : kernelRunA.sl.v2885 c i M2 hM2 M3 hM3 tbl hT sim x2 x3 b9 b10 = (rowsOf c tbl i sim x2 x3 (zeroAcc) 33).nf := by
  unfold kernelRunA.sl.v2885 kernelRunA.sl.H15_34
  rw [View.readCov_cons_toLoadRect]
  refine Eq.trans ?_ (rowsOf_nf c tbl i sim x2 x3 (zeroAcc) 32 (by decide)).symm
  unfold kernelRunA.sl.r_304 kernelRunA.sl.r_299 kernelRunA.sl.r_300
  simp only [S_v2739 c i tbl hT sim b9, V15_32 c i M2 hM2 M3 hM3 tbl hT sim x2 x3 b9 b10 a12 a13 a14 a15 a16 a17, in_read M2 hM2 x2 32 (by decide), mk_read M3 hM3 x3 32 (by decide)]
  try rfl
theorem V16_33 : kernelRunA.sl.v2890 c i tbl hT sim b9 b10 = (rowsOf c tbl i sim x2 x3 (zeroAcc) 33).s := by
  unfold kernelRunA.sl.v2890 kernelRunA.sl.H16_34
  rw [View.readCov_cons_toLoadRect]
  refine Eq.trans ?_ (rowsOf_s c tbl i sim x2 x3 (zeroAcc) 32 (by decide)).symm
  unfold kernelRunA.sl.r_306
  simp only [S_v2739 c i tbl hT sim b9, V16_32 c i M2 hM2 M3 hM3 tbl hT sim x2 x3 b9 b10 a12 a13 a14 a15 a16 a17]
  try rfl
theorem V17_33 : kernelRunA.sl.v2895 c i tbl hT sim b9 b10 = (rowsOf c tbl i sim x2 x3 (zeroAcc) 33).q := by
  unfold kernelRunA.sl.v2895 kernelRunA.sl.H17_34
  rw [View.readCov_cons_toLoadRect]
  refine Eq.trans ?_ (rowsOf_q c tbl i sim x2 x3 (zeroAcc) 32 (by decide)).symm
  unfold kernelRunA.sl.r_307
  simp only [S_v2739 c i tbl hT sim b9, V17_32 c i M2 hM2 M3 hM3 tbl hT sim x2 x3 b9 b10 a12 a13 a14 a15 a16 a17]
  try rfl
theorem V15_34 : kernelRunA.sl.v2970 c i M2 hM2 M3 hM3 tbl hT sim x2 x3 b9 b10 = (rowsOf c tbl i sim x2 x3 (zeroAcc) 34).nf := by
  unfold kernelRunA.sl.v2970 kernelRunA.sl.H15_35
  rw [View.readCov_cons_toLoadRect]
  refine Eq.trans ?_ (rowsOf_nf c tbl i sim x2 x3 (zeroAcc) 33 (by decide)).symm
  unfold kernelRunA.sl.r_315
  simp only [S_v2824 c i tbl hT sim b10, V15_33 c i M2 hM2 M3 hM3 tbl hT sim x2 x3 b9 b10 a12 a13 a14 a15 a16 a17, in_read M2 hM2 x2 33 (by decide), mk_read M3 hM3 x3 33 (by decide)]
  try rfl
theorem V16_34 : kernelRunA.sl.v2975 c i tbl hT sim b9 b10 = (rowsOf c tbl i sim x2 x3 (zeroAcc) 34).s := by
  unfold kernelRunA.sl.v2975 kernelRunA.sl.H16_35
  rw [View.readCov_cons_toLoadRect]
  refine Eq.trans ?_ (rowsOf_s c tbl i sim x2 x3 (zeroAcc) 33 (by decide)).symm
  unfold kernelRunA.sl.r_318 kernelRunA.sl.r_313
  simp only [S_v2824 c i tbl hT sim b10, V16_33 c i M2 hM2 M3 hM3 tbl hT sim x2 x3 b9 b10 a12 a13 a14 a15 a16 a17]
  try rfl
theorem V17_34 : kernelRunA.sl.v2980 c i tbl hT sim b9 b10 = (rowsOf c tbl i sim x2 x3 (zeroAcc) 34).q := by
  unfold kernelRunA.sl.v2980 kernelRunA.sl.H17_35
  rw [View.readCov_cons_toLoadRect]
  refine Eq.trans ?_ (rowsOf_q c tbl i sim x2 x3 (zeroAcc) 33 (by decide)).symm
  unfold kernelRunA.sl.r_317 kernelRunA.sl.r_313
  simp only [S_v2824 c i tbl hT sim b10, V17_33 c i M2 hM2 M3 hM3 tbl hT sim x2 x3 b9 b10 a12 a13 a14 a15 a16 a17]
  try rfl
theorem V15_35 : kernelRunA.sl.v3055 c i M2 hM2 M3 hM3 tbl hT sim x2 x3 b9 b10 = (rowsOf c tbl i sim x2 x3 (zeroAcc) 35).nf := by
  unfold kernelRunA.sl.v3055 kernelRunA.sl.H15_36
  rw [View.readCov_cons_toLoadRect]
  refine Eq.trans ?_ (rowsOf_nf c tbl i sim x2 x3 (zeroAcc) 34 (by decide)).symm
  unfold kernelRunA.sl.r_325 kernelRunA.sl.r_321 kernelRunA.sl.r_322 kernelRunA.sl.r_323 kernelRunA.sl.r_324
  simp only [S_v2909 c i tbl hT sim b9, V15_34 c i M2 hM2 M3 hM3 tbl hT sim x2 x3 b9 b10 a12 a13 a14 a15 a16 a17, in_read M2 hM2 x2 34 (by decide), mk_read M3 hM3 x3 34 (by decide)]
  try rfl
theorem V16_35 : kernelRunA.sl.v3060 c i tbl hT sim b9 b10 = (rowsOf c tbl i sim x2 x3 (zeroAcc) 35).s := by
  unfold kernelRunA.sl.v3060 kernelRunA.sl.H16_36
  rw [View.readCov_cons_toLoadRect]
  refine Eq.trans ?_ (rowsOf_s c tbl i sim x2 x3 (zeroAcc) 34 (by decide)).symm
  unfold kernelRunA.sl.r_326 kernelRunA.sl.r_323 kernelRunA.sl.r_324
  simp only [S_v2909 c i tbl hT sim b9, V16_34 c i M2 hM2 M3 hM3 tbl hT sim x2 x3 b9 b10 a12 a13 a14 a15 a16 a17]
  try rfl
theorem V17_35 : kernelRunA.sl.v3065 c i tbl hT sim b9 b10 = (rowsOf c tbl i sim x2 x3 (zeroAcc) 35).q := by
  unfold kernelRunA.sl.v3065 kernelRunA.sl.H17_36
  rw [View.readCov_cons_toLoadRect]
  refine Eq.trans ?_ (rowsOf_q c tbl i sim x2 x3 (zeroAcc) 34 (by decide)).symm
  unfold kernelRunA.sl.r_327 kernelRunA.sl.r_323 kernelRunA.sl.r_324
  simp only [S_v2909 c i tbl hT sim b9, V17_34 c i M2 hM2 M3 hM3 tbl hT sim x2 x3 b9 b10 a12 a13 a14 a15 a16 a17]
  try rfl
theorem V15_36 : kernelRunA.sl.v3140 c i M2 hM2 M3 hM3 tbl hT sim x2 x3 b9 b10 = (rowsOf c tbl i sim x2 x3 (zeroAcc) 36).nf := by
  unfold kernelRunA.sl.v3140 kernelRunA.sl.H15_37
  rw [View.readCov_cons_toLoadRect]
  refine Eq.trans ?_ (rowsOf_nf c tbl i sim x2 x3 (zeroAcc) 35 (by decide)).symm
  unfold kernelRunA.sl.r_334 kernelRunA.sl.r_330
  simp only [S_v2994 c i tbl hT sim b10, V15_35 c i M2 hM2 M3 hM3 tbl hT sim x2 x3 b9 b10 a12 a13 a14 a15 a16 a17, in_read M2 hM2 x2 35 (by decide), mk_read M3 hM3 x3 35 (by decide)]
  try rfl
theorem V16_36 : kernelRunA.sl.v3145 c i tbl hT sim b9 b10 = (rowsOf c tbl i sim x2 x3 (zeroAcc) 36).s := by
  unfold kernelRunA.sl.v3145 kernelRunA.sl.H16_37
  rw [View.readCov_cons_toLoadRect]
  refine Eq.trans ?_ (rowsOf_s c tbl i sim x2 x3 (zeroAcc) 35 (by decide)).symm
  unfold kernelRunA.sl.r_336
  simp only [S_v2994 c i tbl hT sim b10, V16_35 c i M2 hM2 M3 hM3 tbl hT sim x2 x3 b9 b10 a12 a13 a14 a15 a16 a17]
  try rfl
theorem V17_36 : kernelRunA.sl.v3150 c i tbl hT sim b9 b10 = (rowsOf c tbl i sim x2 x3 (zeroAcc) 36).q := by
  unfold kernelRunA.sl.v3150 kernelRunA.sl.H17_37
  rw [View.readCov_cons_toLoadRect]
  refine Eq.trans ?_ (rowsOf_q c tbl i sim x2 x3 (zeroAcc) 35 (by decide)).symm
  unfold kernelRunA.sl.r_337
  simp only [S_v2994 c i tbl hT sim b10, V17_35 c i M2 hM2 M3 hM3 tbl hT sim x2 x3 b9 b10 a12 a13 a14 a15 a16 a17]
  try rfl
theorem V15_37 : kernelRunA.sl.v3225 c i M2 hM2 M3 hM3 tbl hT sim x2 x3 b9 b10 = (rowsOf c tbl i sim x2 x3 (zeroAcc) 37).nf := by
  unfold kernelRunA.sl.v3225 kernelRunA.sl.H15_38
  rw [View.readCov_cons_toLoadRect]
  refine Eq.trans ?_ (rowsOf_nf c tbl i sim x2 x3 (zeroAcc) 36 (by decide)).symm
  unfold kernelRunA.sl.r_345
  simp only [S_v3079 c i tbl hT sim b9, V15_36 c i M2 hM2 M3 hM3 tbl hT sim x2 x3 b9 b10 a12 a13 a14 a15 a16 a17, in_read M2 hM2 x2 36 (by decide), mk_read M3 hM3 x3 36 (by decide)]
  try rfl
theorem V16_37 : kernelRunA.sl.v3230 c i tbl hT sim b9 b10 = (rowsOf c tbl i sim x2 x3 (zeroAcc) 37).s := by
  unfold kernelRunA.sl.v3230 kernelRunA.sl.H16_38
  rw [View.readCov_cons_toLoadRect]
  refine Eq.trans ?_ (rowsOf_s c tbl i sim x2 x3 (zeroAcc) 36 (by decide)).symm
  unfold kernelRunA.sl.r_346 kernelRunA.sl.r_343
  simp only [S_v3079 c i tbl hT sim b9, V16_36 c i M2 hM2 M3 hM3 tbl hT sim x2 x3 b9 b10 a12 a13 a14 a15 a16 a17]
  try rfl
theorem V17_37 : kernelRunA.sl.v3235 c i tbl hT sim b9 b10 = (rowsOf c tbl i sim x2 x3 (zeroAcc) 37).q := by
  unfold kernelRunA.sl.v3235 kernelRunA.sl.H17_38
  rw [View.readCov_cons_toLoadRect]
  refine Eq.trans ?_ (rowsOf_q c tbl i sim x2 x3 (zeroAcc) 36 (by decide)).symm
  unfold kernelRunA.sl.r_347 kernelRunA.sl.r_343
  simp only [S_v3079 c i tbl hT sim b9, V17_36 c i M2 hM2 M3 hM3 tbl hT sim x2 x3 b9 b10 a12 a13 a14 a15 a16 a17]
  try rfl
theorem V15_38 : kernelRunA.sl.v3310 c i M2 hM2 M3 hM3 tbl hT sim x2 x3 b9 b10 = (rowsOf c tbl i sim x2 x3 (zeroAcc) 38).nf := by
  unfold kernelRunA.sl.v3310 kernelRunA.sl.H15_39
  rw [View.readCov_cons_toLoadRect]
  refine Eq.trans ?_ (rowsOf_nf c tbl i sim x2 x3 (zeroAcc) 37 (by decide)).symm
  unfold kernelRunA.sl.r_355 kernelRunA.sl.r_350 kernelRunA.sl.r_351 kernelRunA.sl.r_352 kernelRunA.sl.r_353 kernelRunA.sl.cst_781
  simp only [S_v3164 c i tbl hT sim b10, V15_37 c i M2 hM2 M3 hM3 tbl hT sim x2 x3 b9 b10 a12 a13 a14 a15 a16 a17, in_read M2 hM2 x2 37 (by decide), mk_read M3 hM3 x3 37 (by decide)]
  try rfl
theorem V16_38 : kernelRunA.sl.v3315 c i tbl hT sim b9 b10 = (rowsOf c tbl i sim x2 x3 (zeroAcc) 38).s := by
  unfold kernelRunA.sl.v3315 kernelRunA.sl.H16_39
  rw [View.readCov_cons_toLoadRect]
  refine Eq.trans ?_ (rowsOf_s c tbl i sim x2 x3 (zeroAcc) 37 (by decide)).symm
  unfold kernelRunA.sl.r_356 kernelRunA.sl.r_352 kernelRunA.sl.r_353 kernelRunA.sl.cst_781
  simp only [S_v3164 c i tbl hT sim b10, V16_37 c i M2 hM2 M3 hM3 tbl hT sim x2 x3 b9 b10 a12 a13 a14 a15 a16 a17]
  try rfl
theorem V17_38 : kernelRunA.sl.v3320 c i tbl hT sim b9 b10 = (rowsOf c tbl i sim x2 x3 (zeroAcc) 38).q := by
  unfold kernelRunA.sl.v3320 kernelRunA.sl.H17_39
  rw [View.readCov_cons_toLoadRect]
  refine Eq.trans ?_ (rowsOf_q c tbl i sim x2 x3 (zeroAcc) 37 (by decide)).symm
  unfold kernelRunA.sl.r_357 kernelRunA.sl.r_352 kernelRunA.sl.r_353 kernelRunA.sl.cst_781
  simp only [S_v3164 c i tbl hT sim b10, V17_37 c i M2 hM2 M3 hM3 tbl hT sim x2 x3 b9 b10 a12 a13 a14 a15 a16 a17]
  try rfl
theorem V15_39 : kernelRunA.sl.v3395 c i M2 hM2 M3 hM3 tbl hT sim x2 x3 b9 b10 = (rowsOf c tbl i sim x2 x3 (zeroAcc) 39).nf := by
  unfold kernelRunA.sl.v3395 kernelRunA.sl.H15_40
  rw [View.readCov_cons_toLoadRect]
  refine Eq.trans ?_ (rowsOf_nf c tbl i sim x2 x3 (zeroAcc) 38 (by decide)).symm
  unfold kernelRunA.sl.r_362
  simp only [V15_38 c i M2 hM2 M3 hM3 tbl hT sim x2 x3 b9 b10 a12 a13 a14 a15 a16 a17, S_v_1 c i tbl hT sim b9, in_read M2 hM2 x2 38 (by decide), mk_read M3 hM3 x3 38 (by decide)]
  try rfl
theorem V16_39 : kernelRunA.sl.v3400 c i tbl hT sim b9 b10 = (rowsOf c tbl i sim x2 x3 (zeroAcc) 39).s := by
  unfold kernelRunA.sl.v3400 kernelRunA.sl.H16_40
  rw [View.readCov_cons_toLoadRect]
  refine Eq.trans ?_ (rowsOf_s c tbl i sim x2 x3 (zeroAcc) 38 (by decide)).symm
  unfold kernelRunA.sl.r_364
  simp only [V16_38 c i M2 hM2 M3 hM3 tbl hT sim x2 x3 b9 b10 a12 a13 a14 a15 a16 a17, S_v_1 c i tbl hT sim b9]
  try rfl
theorem V17_39 : kernelRunA.sl.v3405 c i tbl hT sim b9 b10 = (rowsOf c tbl i sim x2 x3 (zeroAcc) 39).q := by
  unfold kernelRunA.sl.v3405 kernelRunA.sl.H17_40
  rw [View.readCov_cons_toLoadRect]
  refine Eq.trans ?_ (rowsOf_q c tbl i sim x2 x3 (zeroAcc) 38 (by decide)).symm
  unfold kernelRunA.sl.r_365
  simp only [V17_38 c i M2 hM2 M3 hM3 tbl hT sim x2 x3 b9 b10 a12 a13 a14 a15 a16 a17, S_v_1 c i tbl hT sim b9]
  try rfl
theorem V15_40 : kernelRunA.sl.v3480 c i M2 hM2 M3 hM3 tbl hT sim x2 x3 b9 b10 = (rowsOf c tbl i sim x2 x3 (zeroAcc) 40).nf := by
  unfold kernelRunA.sl.v3480 kernelRunA.sl.H15_41
  rw [View.readCov_cons_toLoadRect]
  refine Eq.trans ?_ (rowsOf_nf c tbl i sim x2 x3 (zeroAcc) 39 (by decide)).symm
  unfold kernelRunA.sl.r_372
  simp only [S_v3334 c i tbl hT sim b10, V15_39 c i M2 hM2 M3 hM3 tbl hT sim x2 x3 b9 b10 a12 a13 a14 a15 a16 a17, in_read M2 hM2 x2 39 (by decide), mk_read M3 hM3 x3 39 (by decide)]
  try rfl
theorem V16_40 : kernelRunA.sl.v3485 c i tbl hT sim b9 b10 = (rowsOf c tbl i sim x2 x3 (zeroAcc) 40).s := by
  unfold kernelRunA.sl.v3485 kernelRunA.sl.H16_41
  rw [View.readCov_cons_toLoadRect]
  refine Eq.trans ?_ (rowsOf_s c tbl i sim x2 x3 (zeroAcc) 39 (by decide)).symm
  unfold kernelRunA.sl.r_373 kernelRunA.sl.r_370
  simp only [S_v3334 c i tbl hT sim b10, V16_39 c i M2 hM2 M3 hM3 tbl hT sim x2 x3 b9 b10 a12 a13 a14 a15 a16 a17]
  try rfl
theorem V17_40 : kernelRunA.sl.v3490 c i tbl hT sim b9 b10 = (rowsOf c tbl i sim x2 x3 (zeroAcc) 40).q := by
  unfold kernelRunA.sl.v3490 kernelRunA.sl.H17_41
  rw [View.readCov_cons_toLoadRect]
  refine Eq.trans ?_ (rowsOf_q c tbl i sim x2 x3 (zeroAcc) 39 (by decide)).symm
  unfold kernelRunA.sl.r_374 kernelRunA.sl.r_370
  simp only [S_v3334 c i tbl hT sim b10, V17_39 c i M2 hM2 M3 hM3 tbl hT sim x2 x3 b9 b10 a12 a13 a14 a15 a16 a17]
  try rfl
theorem V15_41 : kernelRunA.sl.v3565 c i M2 hM2 M3 hM3 tbl hT sim x2 x3 b9 b10 = (rowsOf c tbl i sim x2 x3 (zeroAcc) 41).nf := by
  unfold kernelRunA.sl.v3565 kernelRunA.sl.H15_42
  rw [View.readCov_cons_toLoadRect]
  refine Eq.trans ?_ (rowsOf_nf c tbl i sim x2 x3 (zeroAcc) 40 (by decide)).symm
  unfold kernelRunA.sl.r_381 kernelRunA.sl.r_377 kernelRunA.sl.r_378 kernelRunA.sl.r_379 kernelRunA.sl.cst_15
  simp only [S_v3419 c i tbl hT sim b9, V15_40 c i M2 hM2 M3 hM3 tbl hT sim x2 x3 b9 b10 a12 a13 a14 a15 a16 a17, in_read M2 hM2 x2 40 (by decide), mk_read M3 hM3 x3 40 (by decide)]
  try rfl
theorem V16_41 : kernelRunA.sl.v3570 c i tbl hT sim b9 b10 = (rowsOf c tbl i sim x2 x3 (zeroAcc) 41).s := by
  unfold kernelRunA.sl.v3570 kernelRunA.sl.H16_42
  rw [View.readCov_cons_toLoadRect]
  refine Eq.trans ?_ (rowsOf_s c tbl i sim x2 x3 (zeroAcc) 40 (by decide)).symm
  unfold kernelRunA.sl.r_382 kernelRunA.sl.r_379 kernelRunA.sl.cst_15
  simp only [S_v3419 c i tbl hT sim b9, V16_40 c i M2 hM2 M3 hM3 tbl hT sim x2 x3 b9 b10 a12 a13 a14 a15 a16 a17]
  try rfl
theorem V17_41 : kernelRunA.sl.v3575 c i tbl hT sim b9 b10 = (rowsOf c tbl i sim x2 x3 (zeroAcc) 41).q := by
  unfold kernelRunA.sl.v3575 kernelRunA.sl.H17_42
  rw [View.readCov_cons_toLoadRect]
  refine Eq.trans ?_ (rowsOf_q c tbl i sim x2 x3 (zeroAcc) 40 (by decide)).symm
  unfold kernelRunA.sl.r_383 kernelRunA.sl.r_379 kernelRunA.sl.cst_15
  simp only [S_v3419 c i tbl hT sim b9, V17_40 c i M2 hM2 M3 hM3 tbl hT sim x2 x3 b9 b10 a12 a13 a14 a15 a16 a17]
  try rfl
theorem V15_42 : kernelRunA.sl.v3650 c i M2 hM2 M3 hM3 tbl hT sim x2 x3 b9 b10 = (rowsOf c tbl i sim x2 x3 (zeroAcc) 42).nf := by
  unfold kernelRunA.sl.v3650 kernelRunA.sl.H15_43
  rw [View.readCov_cons_toLoadRect]
  refine Eq.trans ?_ (rowsOf_nf c tbl i sim x2 x3 (zeroAcc) 41 (by decide)).symm
  unfold kernelRunA.sl.r_389
  simp only [S_v3504 c i tbl hT sim b10, V15_41 c i M2 hM2 M3 hM3 tbl hT sim x2 x3 b9 b10 a12 a13 a14 a15 a16 a17, in_read M2 hM2 x2 41 (by decide), mk_read M3 hM3 x3 41 (by decide)]
  try rfl
theorem V16_42 : kernelRunA.sl.v3655 c i tbl hT sim b9 b10 = (rowsOf c tbl i sim x2 x3 (zeroAcc) 42).s := by
  unfold kernelRunA.sl.v3655 kernelRunA.sl.H16_43
  rw [View.readCov_cons_toLoadRect]
  refine Eq.trans ?_ (rowsOf_s c tbl i sim x2 x3 (zeroAcc) 41 (by decide)).symm
  unfold kernelRunA.sl.r_391
  simp only [S_v3504 c i tbl hT sim b10, V16_41 c i M2 hM2 M3 hM3 tbl hT sim x2 x3 b9 b10 a12 a13 a14 a15 a16 a17]
  try rfl
theorem V17_42 : kernelRunA.sl.v3660 c i tbl hT sim b9 b10 = (rowsOf c tbl i sim x2 x3 (zeroAcc) 42).q := by
  unfold kernelRunA.sl.v3660 kernelRunA.sl.H17_43
  rw [View.readCov_cons_toLoadRect]
  refine Eq.trans ?_ (rowsOf_q c tbl i sim x2 x3 (zeroAcc) 41 (by decide)).symm
  unfold kernelRunA.sl.r_393 kernelRunA.sl.r_392
  simp only [S_v3504 c i tbl hT sim b10, V17_41 c i M2 hM2 M3 hM3 tbl hT sim x2 x3 b9 b10 a12 a13 a14 a15 a16 a17]
  try rfl
theorem V15_43 : kernelRunA.sl.v3735 c i M2 hM2 M3 hM3 tbl hT sim x2 x3 b9 b10 = (rowsOf c tbl i sim x2 x3 (zeroAcc) 43).nf := by
  unfold kernelRunA.sl.v3735 kernelRunA.sl.H15_44
  rw [View.readCov_cons_toLoadRect]
  refine Eq.trans ?_ (rowsOf_nf c tbl i sim x2 x3 (zeroAcc) 42 (by decide)).symm
  unfold kernelRunA.sl.r_403 kernelRunA.sl.r_396 kernelRunA.sl.r_399 kernelRunA.sl.cst_109
  simp only [S_v3589 c i tbl hT sim b9, V15_42 c i M2 hM2 M3 hM3 tbl hT sim x2 x3 b9 b10 a12 a13 a14 a15 a16 a17, in_read M2 hM2 x2 42 (by decide), mk_read M3 hM3 x3 42 (by decide)]
  try rfl
theorem V16_43 : kernelRunA.sl.v3740 c i tbl hT sim b9 b10 = (rowsOf c tbl i sim x2 x3 (zeroAcc) 43).s := by
  unfold kernelRunA.sl.v3740 kernelRunA.sl.H16_44
  rw [View.readCov_cons_toLoadRect]
  refine Eq.trans ?_ (rowsOf_s c tbl i sim x2 x3 (zeroAcc) 42 (by decide)).symm
  unfold kernelRunA.sl.r_401 kernelRunA.sl.r_398
  simp only [S_v3589 c i tbl hT sim b9, V16_42 c i M2 hM2 M3 hM3 tbl hT sim x2 x3 b9 b10 a12 a13 a14 a15 a16 a17]
  try rfl
theorem V17_43 : kernelRunA.sl.v3745 c i tbl hT sim b9 b10 = (rowsOf c tbl i sim x2 x3 (zeroAcc) 43).q := by
  unfold kernelRunA.sl.v3745 kernelRunA.sl.H17_44
  rw [View.readCov_cons_toLoadRect]
  refine Eq.trans ?_ (rowsOf_q c tbl i sim x2 x3 (zeroAcc) 42 (by decide)).symm
  unfold kernelRunA.sl.r_402 kernelRunA.sl.r_398
  simp only [S_v3589 c i tbl hT sim b9, V17_42 c i M2 hM2 M3 hM3 tbl hT sim x2 x3 b9 b10 a12 a13 a14 a15 a16 a17]
  try rfl
theorem V15_44 : kernelRunA.sl.v3820 c i M2 hM2 M3 hM3 tbl hT sim x2 x3 b9 b10 = (rowsOf c tbl i sim x2 x3 (zeroAcc) 44).nf := by
  unfold kernelRunA.sl.v3820 kernelRunA.sl.H15_45
  rw [View.readCov_cons_toLoadRect]
  refine Eq.trans ?_ (rowsOf_nf c tbl i sim x2 x3 (zeroAcc) 43 (by decide)).symm
  unfold kernelRunA.sl.r_410 kernelRunA.sl.r_406 kernelRunA.sl.r_407 kernelRunA.sl.r_408
  simp only [S_v3674 c i tbl hT sim b10, V15_43 c i M2 hM2 M3 hM3 tbl hT sim x2 x3 b9 b10 a12 a13 a14 a15 a16 a17, in_read M2 hM2 x2 43 (by decide), mk_read M3 hM3 x3 43 (by decide)]
  try rfl
theorem V16_44 : kernelRunA.sl.v3825 c i tbl hT sim b9 b10 = (rowsOf c tbl i sim x2 x3 (zeroAcc) 44).s := by
  unfold kernelRunA.sl.v3825 kernelRunA.sl.H16_45
  rw [View.readCov_cons_toLoadRect]
  refine Eq.trans ?_ (rowsOf_s c tbl i sim x2 x3 (zeroAcc) 43 (by decide)).symm
  unfold kernelRunA.sl.r_411 kernelRunA.sl.r_408
  simp only [S_v3674 c i tbl hT sim b10, V16_43 c i M2 hM2 M3 hM3 tbl hT sim x2 x3 b9 b10 a12 a13 a14 a15 a16 a17]
  try rfl
theorem V17_44 : kernelRunA.sl.v3830 c i tbl hT sim b9 b10 = (rowsOf c tbl i sim x2 x3 (zeroAcc) 44).q := by
  unfold kernelRunA.sl.v3830 kernelRunA.sl.H17_45
  rw [View.readCov_cons_toLoadRect]
  refine Eq.trans ?_ (rowsOf_q c tbl i sim x2 x3 (zeroAcc) 43 (by decide)).symm
  unfold kernelRunA.sl.r_412 kernelRunA.sl.r_408
  simp only [S_v3674 c i tbl hT sim b10, V17_43 c i M2 hM2 M3 hM3 tbl hT sim x2 x3 b9 b10 a12 a13 a14 a15 a16 a17]
  try rfl
theorem V15_45 : kernelRunA.sl.v3905 c i M2 hM2 M3 hM3 tbl hT sim x2 x3 b9 b10 = (rowsOf c tbl i sim x2 x3 (zeroAcc) 45).nf := by
  unfold kernelRunA.sl.v3905 kernelRunA.sl.H15_46
  rw [View.readCov_cons_toLoadRect]
  refine Eq.trans ?_ (rowsOf_nf c tbl i sim x2 x3 (zeroAcc) 44 (by decide)).symm
  unfold kernelRunA.sl.r_419
  simp only [S_v3759 c i tbl hT sim b9, V15_44 c i M2 hM2 M3 hM3 tbl hT sim x2 x3 b9 b10 a12 a13 a14 a15 a16 a17, in_read M2 hM2 x2 44 (by decide), mk_read M3 hM3 x3 44 (by decide)]
  try rfl
theorem V16_45 : kernelRunA.sl.v3910 c i tbl hT sim b9 b10 = (rowsOf c tbl i sim x2 x3 (zeroAcc) 45).s := by
  unfold kernelRunA.sl.v3910 kernelRunA.sl.H16_46
  rw [View.readCov_cons_toLoadRect]
  refine Eq.trans ?_ (rowsOf_s c tbl i sim x2 x3 (zeroAcc) 44 (by decide)).symm
  unfold kernelRunA.sl.r_421
  simp only [S_v3759 c i tbl hT sim b9, V16_44 c i M2 hM2 M3 hM3 tbl hT sim x2 x3 b9 b10 a12 a13 a14 a15 a16 a17]
  try rfl
theorem V17_45 : kernelRunA.sl.v3915 c i tbl hT sim b9 b10 = (rowsOf c tbl i sim x2 x3 (zeroAcc) 45).q := by
  unfold kernelRunA.sl.v3915 kernelRunA.sl.H17_46
  rw [View.readCov_cons_toLoadRect]
  refine Eq.trans ?_ (rowsOf_q c tbl i sim x2 x3 (zeroAcc) 44 (by decide)).symm
  unfold kernelRunA.sl.r_422 kernelRunA.sl.r_417
  simp only [S_v3759 c i tbl hT sim b9, V17_44 c i M2 hM2 M3 hM3 tbl hT sim x2 x3 b9 b10 a12 a13 a14 a15 a16 a17]
  try rfl
theorem V15_46 : kernelRunA.sl.v3990 c i M2 hM2 M3 hM3 tbl hT sim x2 x3 b9 b10 = (rowsOf c tbl i sim x2 x3 (zeroAcc) 46).nf := by
  unfold kernelRunA.sl.v3990 kernelRunA.sl.H15_47
  rw [View.readCov_cons_toLoadRect]
  refine Eq.trans ?_ (rowsOf_nf c tbl i sim x2 x3 (zeroAcc) 45 (by decide)).symm
  unfold kernelRunA.sl.r_431 kernelRunA.sl.r_425 kernelRunA.sl.r_428
  simp only [S_v3844 c i tbl hT sim b10, V15_45 c i M2 hM2 M3 hM3 tbl hT sim x2 x3 b9 b10 a12 a13 a14 a15 a16 a17, in_read M2 hM2 x2 45 (by decide), mk_read M3 hM3 x3 45 (by decide)]
  try rfl
theorem V16_46 : kernelRunA.sl.v3995 c i tbl hT sim b9 b10 = (rowsOf c tbl i sim x2 x3 (zeroAcc) 46).s := by
  unfold kernelRunA.sl.v3995 kernelRunA.sl.H16_47
  rw [View.readCov_cons_toLoadRect]
  refine Eq.trans ?_ (rowsOf_s c tbl i sim x2 x3 (zeroAcc) 45 (by decide)).symm
  unfold kernelRunA.sl.r_429 kernelRunA.sl.r_427
  simp only [S_v3844 c i tbl hT sim b10, V16_45 c i M2 hM2 M3 hM3 tbl hT sim x2 x3 b9 b10 a12 a13 a14 a15 a16 a17]
  try rfl
theorem V17_46 : kernelRunA.sl.v4000 c i tbl hT sim b9 b10 = (rowsOf c tbl i sim x2 x3 (zeroAcc) 46).q := by
  unfold kernelRunA.sl.v4000 kernelRunA.sl.H17_47
  rw [View.readCov_cons_toLoadRect]
  refine Eq.trans ?_ (rowsOf_q c tbl i sim x2 x3 (zeroAcc) 45 (by decide)).symm
  unfold kernelRunA.sl.r_430 kernelRunA.sl.r_427
  simp only [S_v3844 c i tbl hT sim b10, V17_45 c i M2 hM2 M3 hM3 tbl hT sim x2 x3 b9 b10 a12 a13 a14 a15 a16 a17]
  try rfl
theorem V15_47 : kernelRunA.sl.v4075 c i M2 hM2 M3 hM3 tbl hT sim x2 x3 b9 b10 = (rowsOf c tbl i sim x2 x3 (zeroAcc) 47).nf := by
  unfold kernelRunA.sl.v4075 kernelRunA.sl.H15_48
  rw [View.readCov_cons_toLoadRect]
  refine Eq.trans ?_ (rowsOf_nf c tbl i sim x2 x3 (zeroAcc) 46 (by decide)).symm
  unfold kernelRunA.sl.r_437 kernelRunA.sl.r_434 kernelRunA.sl.r_435 kernelRunA.sl.cst_284
  simp only [S_v3929 c i tbl hT sim b9, V15_46 c i M2 hM2 M3 hM3 tbl hT sim x2 x3 b9 b10 a12 a13 a14 a15 a16 a17, in_read M2 hM2 x2 46 (by decide), mk_read M3 hM3 x3 46 (by decide)]
  try rfl
theorem V16_47 : kernelRunA.sl.v4080 c i tbl hT sim b9 b10 = (rowsOf c tbl i sim x2 x3 (zeroAcc) 47).s := by
  unfold kernelRunA.sl.v4080 kernelRunA.sl.H16_48
  rw [View.readCov_cons_toLoadRect]
  refine Eq.trans ?_ (rowsOf_s c tbl i sim x2 x3 (zeroAcc) 46 (by decide)).symm
  unfold kernelRunA.sl.r_438 kernelRunA.sl.cst_284
  simp only [S_v3929 c i tbl hT sim b9, V16_46 c i M2 hM2 M3 hM3 tbl hT sim x2 x3 b9 b10 a12 a13 a14 a15 a16 a17]
  try rfl
theorem V17_47 : kernelRunA.sl.v4085 c i tbl hT sim b9 b10 = (rowsOf c tbl i sim x2 x3 (zeroAcc) 47).q := by
  unfold kernelRunA.sl.v4085 kernelRunA.sl.H17_48
  rw [View.readCov_cons_toLoadRect]
  refine Eq.trans ?_ (rowsOf_q c tbl i sim x2 x3 (zeroAcc) 46 (by decide)).symm
  unfold kernelRunA.sl.r_439 kernelRunA.sl.cst_284
  simp only [S_v3929 c i tbl hT sim b9, V17_46 c i M2 hM2 M3 hM3 tbl hT sim x2 x3 b9 b10 a12 a13 a14 a15 a16 a17]
  try rfl
theorem V15_48 : kernelRunA.sl.v4160 c i M2 hM2 M3 hM3 tbl hT sim x2 x3 b9 b10 = (rowsOf c tbl i sim x2 x3 (zeroAcc) 48).nf := by
  unfold kernelRunA.sl.v4160 kernelRunA.sl.H15_49
  rw [View.readCov_cons_toLoadRect]
  refine Eq.trans ?_ (rowsOf_nf c tbl i sim x2 x3 (zeroAcc) 47 (by decide)).symm
  unfold kernelRunA.sl.r_446
  simp only [S_v4014 c i tbl hT sim b10, V15_47 c i M2 hM2 M3 hM3 tbl hT sim x2 x3 b9 b10 a12 a13 a14 a15 a16 a17, in_read M2 hM2 x2 47 (by decide), mk_read M3 hM3 x3 47 (by decide)]
  try rfl
theorem V16_48 : kernelRunA.sl.v4165 c i tbl hT sim b9 b10 = (rowsOf c tbl i sim x2 x3 (zeroAcc) 48).s := by
  unfold kernelRunA.sl.v4165 kernelRunA.sl.H16_49
  rw [View.readCov_cons_toLoadRect]
  refine Eq.trans ?_ (rowsOf_s c tbl i sim x2 x3 (zeroAcc) 47 (by decide)).symm
  unfold kernelRunA.sl.r_444
  simp only [S_v4014 c i tbl hT sim b10, V16_47 c i M2 hM2 M3 hM3 tbl hT sim x2 x3 b9 b10 a12 a13 a14 a15 a16 a17]
  try rfl
theorem V17_48 : kernelRunA.sl.v4170 c i tbl hT sim b9 b10 = (rowsOf c tbl i sim x2 x3 (zeroAcc) 48).q := by
  unfold kernelRunA.sl.v4170 kernelRunA.sl.H17_49
  rw [View.readCov_cons_toLoadRect]
  refine Eq.trans ?_ (rowsOf_q c tbl i sim x2 x3 (zeroAcc) 47 (by decide)).symm
  unfold kernelRunA.sl.r_448 kernelRunA.sl.r_444
  simp only [S_v4014 c i tbl hT sim b10, V17_47 c i M2 hM2 M3 hM3 tbl hT sim x2 x3 b9 b10 a12 a13 a14 a15 a16 a17]
  try rfl
theorem V15_49 : kernelRunA.sl.v4245 c i M2 hM2 M3 hM3 tbl hT sim x2 x3 b9 b10 = (rowsOf c tbl i sim x2 x3 (zeroAcc) 49).nf := by
  unfold kernelRunA.sl.v4245 kernelRunA.sl.H15_50
  rw [View.readCov_cons_toLoadRect]
  refine Eq.trans ?_ (rowsOf_nf c tbl i sim x2 x3 (zeroAcc) 48 (by decide)).symm
  unfold kernelRunA.sl.r_454 kernelRunA.sl.r_451 kernelRunA.sl.r_452 kernelRunA.sl.r_453
  simp only [S_v4099 c i tbl hT sim b9, V15_48 c i M2 hM2 M3 hM3 tbl hT sim x2 x3 b9 b10 a12 a13 a14 a15 a16 a17, in_read M2 hM2 x2 48 (by decide), mk_read M3 hM3 x3 48 (by decide)]
  try rfl
theorem V16_49 : kernelRunA.sl.v4250 c i tbl hT sim b9 b10 = (rowsOf c tbl i sim x2 x3 (zeroAcc) 49).s := by
  unfold kernelRunA.sl.v4250 kernelRunA.sl.H16_50
  rw [View.readCov_cons_toLoadRect]
  refine Eq.trans ?_ (rowsOf_s c tbl i sim x2 x3 (zeroAcc) 48 (by decide)).symm
  unfold kernelRunA.sl.r_455 kernelRunA.sl.r_453
  simp only [S_v4099 c i tbl hT sim b9, V16_48 c i M2 hM2 M3 hM3 tbl hT sim x2 x3 b9 b10 a12 a13 a14 a15 a16 a17]
  try rfl
theorem V17_49 : kernelRunA.sl.v4255 c i tbl hT sim b9 b10 = (rowsOf c tbl i sim x2 x3 (zeroAcc) 49).q := by
  unfold kernelRunA.sl.v4255 kernelRunA.sl.H17_50
  rw [View.readCov_cons_toLoadRect]
  refine Eq.trans ?_ (rowsOf_q c tbl i sim x2 x3 (zeroAcc) 48 (by decide)).symm
  unfold kernelRunA.sl.r_456 kernelRunA.sl.r_453
  simp only [S_v4099 c i tbl hT sim b9, V17_48 c i M2 hM2 M3 hM3 tbl hT sim x2 x3 b9 b10 a12 a13 a14 a15 a16 a17]
  try rfl
theorem V15_50 : kernelRunA.sl.v4330 c i M2 hM2 M3 hM3 tbl hT sim x2 x3 b9 b10 = (rowsOf c tbl i sim x2 x3 (zeroAcc) 50).nf := by
  unfold kernelRunA.sl.v4330 kernelRunA.sl.H15_51
  rw [View.readCov_cons_toLoadRect]
  refine Eq.trans ?_ (rowsOf_nf c tbl i sim x2 x3 (zeroAcc) 49 (by decide)).symm
  unfold kernelRunA.sl.r_462 kernelRunA.sl.r_458 kernelRunA.sl.r_459
  simp only [S_v4184 c i tbl hT sim b10, V15_49 c i M2 hM2 M3 hM3 tbl hT sim x2 x3 b9 b10 a12 a13 a14 a15 a16 a17, in_read M2 hM2 x2 49 (by decide), mk_read M3 hM3 x3 49 (by decide)]
  try rfl
theorem V16_50 : kernelRunA.sl.v4335 c i tbl hT sim b9 b10 = (rowsOf c tbl i sim x2 x3 (zeroAcc) 50).s := by
  unfold kernelRunA.sl.v4335 kernelRunA.sl.H16_51
  rw [View.readCov_cons_toLoadRect]
  refine Eq.trans ?_ (rowsOf_s c tbl i sim x2 x3 (zeroAcc) 49 (by decide)).symm
  unfold kernelRunA.sl.r_464
  simp only [S_v4184 c i tbl hT sim b10, V16_49 c i M2 hM2 M3 hM3 tbl hT sim x2 x3 b9 b10 a12 a13 a14 a15 a16 a17]
  try rfl
theorem V17_50 : kernelRunA.sl.v4340 c i tbl hT sim b9 b10 = (rowsOf c tbl i sim x2 x3 (zeroAcc) 50).q := by
  unfold kernelRunA.sl.v4340 kernelRunA.sl.H17_51
  rw [View.readCov_cons_toLoadRect]
  refine Eq.trans ?_ (rowsOf_q c tbl i sim x2 x3 (zeroAcc) 49 (by decide)).symm
  unfold kernelRunA.sl.r_465
  simp only [S_v4184 c i tbl hT sim b10, V17_49 c i M2 hM2 M3 hM3 tbl hT sim x2 x3 b9 b10 a12 a13 a14 a15 a16 a17]
  try rfl
theorem V15_51 : kernelRunA.sl.v4415 c i M2 hM2 M3 hM3 tbl hT sim x2 x3 b9 b10 = (rowsOf c tbl i sim x2 x3 (zeroAcc) 51).nf := by
  unfold kernelRunA.sl.v4415 kernelRunA.sl.H15_52
  rw [View.readCov_cons_toLoadRect]
  refine Eq.trans ?_ (rowsOf_nf c tbl i sim x2 x3 (zeroAcc) 50 (by decide)).symm
  unfold kernelRunA.sl.r_471
  simp only [S_v4269 c i tbl hT sim b9, V15_50 c i M2 hM2 M3 hM3 tbl hT sim x2 x3 b9 b10 a12 a13 a14 a15 a16 a17, in_read M2 hM2 x2 50 (by decide), mk_read M3 hM3 x3 50 (by decide)]
  try rfl
theorem V16_51 : kernelRunA.sl.v4420 c i tbl hT sim b9 b10 = (rowsOf c tbl i sim x2 x3 (zeroAcc) 51).s := by
  unfold kernelRunA.sl.v4420 kernelRunA.sl.H16_52
  rw [View.readCov_cons_toLoadRect]
  refine Eq.trans ?_ (rowsOf_s c tbl i sim x2 x3 (zeroAcc) 50 (by decide)).symm
  unfold kernelRunA.sl.r_474 kernelRunA.sl.r_469
  simp only [S_v4269 c i tbl hT sim b9, V16_50 c i M2 hM2 M3 hM3 tbl hT sim x2 x3 b9 b10 a12 a13 a14 a15 a16 a17]
  try rfl
theorem V17_51 : kernelRunA.sl.v4425 c i tbl hT sim b9 b10 = (rowsOf c tbl i sim x2 x3 (zeroAcc) 51).q := by
  unfold kernelRunA.sl.v4425 kernelRunA.sl.H17_52
  rw [View.readCov_cons_toLoadRect]
  refine Eq.trans ?_ (rowsOf_q c tbl i sim x2 x3 (zeroAcc) 50 (by decide)).symm
  unfold kernelRunA.sl.r_473 kernelRunA.sl.r_469
  simp only [S_v4269 c i tbl hT sim b9, V17_50 c i M2 hM2 M3 hM3 tbl hT sim x2 x3 b9 b10 a12 a13 a14 a15 a16 a17]
  try rfl
theorem V15_52 : kernelRunA.sl.v4500 c i M2 hM2 M3 hM3 tbl hT sim x2 x3 b9 b10 = (rowsOf c tbl i sim x2 x3 (zeroAcc) 52).nf := by
  unfold kernelRunA.sl.v4500 kernelRunA.sl.H15_53
  rw [View.readCov_cons_toLoadRect]
  refine Eq.trans ?_ (rowsOf_nf c tbl i sim x2 x3 (zeroAcc) 51 (by decide)).symm
  unfold kernelRunA.sl.r_481 kernelRunA.sl.r_477 kernelRunA.sl.r_478 kernelRunA.sl.r_479 kernelRunA.sl.r_480
  simp only [S_v4354 c i tbl hT sim b10, V15_51 c i M2 hM2 M3 hM3 tbl hT sim x2 x3 b9 b10 a12 a13 a14 a15 a16 a17, in_read M2 hM2 x2 51 (by decide), mk_read M3 hM3 x3 51 (by decide)]
  try rfl
theorem V16_52 : kernelRunA.sl.v4505 c i tbl hT sim b9 b10 = (rowsOf c tbl i sim x2 x3 (zeroAcc) 52).s := by
  unfold kernelRunA.sl.v4505 kernelRunA.sl.H16_53
  rw [View.readCov_cons_toLoadRect]
  refine Eq.trans ?_ (rowsOf_s c tbl i sim x2 x3 (zeroAcc) 51 (by decide)).symm
  unfold kernelRunA.sl.r_482 kernelRunA.sl.r_479 kernelRunA.sl.r_480
  simp only [S_v4354 c i tbl hT sim b10, V16_51 c i M2 hM2 M3 hM3 tbl hT sim x2 x3 b9 b10 a12 a13 a14 a15 a16 a17]
  try rfl
theorem V17_52 : kernelRunA.sl.v4510 c i tbl hT sim b9 b10 = (rowsOf c tbl i sim x2 x3 (zeroAcc) 52).q := by
  unfold kernelRunA.sl.v4510 kernelRunA.sl.H17_53
  rw [View.readCov_cons_toLoadRect]
  refine Eq.trans ?_ (rowsOf_q c tbl i sim x2 x3 (zeroAcc) 51 (by decide)).symm
  unfold kernelRunA.sl.r_483 kernelRunA.sl.r_479 kernelRunA.sl.r_480
  simp only [S_v4354 c i tbl hT sim b10, V17_51 c i M2 hM2 M3 hM3 tbl hT sim x2 x3 b9 b10 a12 a13 a14 a15 a16 a17]
  try rfl
theorem V15_53 : kernelRunA.sl.v4585 c i M2 hM2 M3 hM3 tbl hT sim x2 x3 b9 b10 = (rowsOf c tbl i sim x2 x3 (zeroAcc) 53).nf := by
  unfold kernelRunA.sl.v4585 kernelRunA.sl.H15_54
  rw [View.readCov_cons_toLoadRect]
  refine Eq.trans ?_ (rowsOf_nf c tbl i sim x2 x3 (zeroAcc) 52 (by decide)).symm
  unfold kernelRunA.sl.r_491 kernelRunA.sl.r_486 kernelRunA.sl.r_487
  simp only [S_v4439 c i tbl hT sim b9, V15_52 c i M2 hM2 M3 hM3 tbl hT sim x2 x3 b9 b10 a12 a13 a14 a15 a16 a17, in_read M2 hM2 x2 52 (by decide), mk_read M3 hM3 x3 52 (by decide)]
  try rfl
theorem V16_53 : kernelRunA.sl.v4590 c i tbl hT sim b9 b10 = (rowsOf c tbl i sim x2 x3 (zeroAcc) 53).s := by
  unfold kernelRunA.sl.v4590 kernelRunA.sl.H16_54
  rw [View.readCov_cons_toLoadRect]
  refine Eq.trans ?_ (rowsOf_s c tbl i sim x2 x3 (zeroAcc) 52 (by decide)).symm
  unfold kernelRunA.sl.r_493
  simp only [S_v4439 c i tbl hT sim b9, V16_52 c i M2 hM2 M3 hM3 tbl hT sim x2 x3 b9 b10 a12 a13 a14 a15 a16 a17]
  try rfl
theorem V17_53 : kernelRunA.sl.v4595 c i tbl hT sim b9 b10 = (rowsOf c tbl i sim x2 x3 (zeroAcc) 53).q := by
  unfold kernelRunA.sl.v4595 kernelRunA.sl.H17_54
  rw [View.readCov_cons_toLoadRect]
  refine Eq.trans ?_ (rowsOf_q c tbl i sim x2 x3 (zeroAcc) 52 (by decide)).symm
  unfold kernelRunA.sl.r_494
  simp only [S_v4439 c i tbl hT sim b9, V17_52 c i M2 hM2 M3 hM3 tbl hT sim x2 x3 b9 b10 a12 a13 a14 a15 a16 a17]
  try rfl
theorem V15_54 : kernelRunA.sl.v4670 c i M2 hM2 M3 hM3 tbl hT sim x2 x3 b9 b10 = (rowsOf c tbl i sim x2 x3 (zeroAcc) 54).nf := by
  unfold kernelRunA.sl.v4670 kernelRunA.sl.H15_55
  rw [View.readCov_cons_toLoadRect]
  refine Eq.trans ?_ (rowsOf_nf c tbl i sim x2 x3 (zeroAcc) 53 (by decide)).symm
  unfold kernelRunA.sl.r_502
  simp only [S_v4524 c i tbl hT sim b10, V15_53 c i M2 hM2 M3 hM3 tbl hT sim x2 x3 b9 b10 a12 a13 a14 a15 a16 a17, in_read M2 hM2 x2 53 (by decide), mk_read M3 hM3 x3 53 (by decide)]
  try rfl
theorem V16_54 : kernelRunA.sl.v4675 c i tbl hT sim b9 b10 = (rowsOf c tbl i sim x2 x3 (zeroAcc) 54).s := by
  unfold kernelRunA.sl.v4675 kernelRunA.sl.H16_55
  rw [View.readCov_cons_toLoadRect]
  refine Eq.trans ?_ (rowsOf_s c tbl i sim x2 x3 (zeroAcc) 53 (by decide)).symm
  unfold kernelRunA.sl.r_505 kernelRunA.sl.r_500
  simp only [S_v4524 c i tbl hT sim b10, V16_53 c i M2 hM2 M3 hM3 tbl hT sim x2 x3 b9 b10 a12 a13 a14 a15 a16 a17]
  try rfl
theorem V17_54 : kernelRunA.sl.v4680 c i tbl hT sim b9 b10 = (rowsOf c tbl i sim x2 x3 (zeroAcc) 54).q := by
  unfold kernelRunA.sl.v4680 kernelRunA.sl.H17_55
  rw [View.readCov_cons_toLoadRect]
  refine Eq.trans ?_ (rowsOf_q c tbl i sim x2 x3 (zeroAcc) 53 (by decide)).symm
  unfold kernelRunA.sl.r_504 kernelRunA.sl.r_500
  simp only [S_v4524 c i tbl hT sim b10, V17_53 c i M2 hM2 M3 hM3 tbl hT sim x2 x3 b9 b10 a12 a13 a14 a15 a16 a17]
  try rfl
theorem V15_55 : kernelRunA.sl.v4755 c i M2 hM2 M3 hM3 tbl hT sim x2 x3 b9 b10 = (rowsOf c tbl i sim x2 x3 (zeroAcc) 55).nf := by
  unfold kernelRunA.sl.v4755 kernelRunA.sl.H15_56
  rw [View.readCov_cons_toLoadRect]
  refine Eq.trans ?_ (rowsOf_nf c tbl i sim x2 x3 (zeroAcc) 54 (by decide)).symm
  unfold kernelRunA.sl.r_512 kernelRunA.sl.r_508 kernelRunA.sl.r_509 kernelRunA.sl.r_510 kernelRunA.sl.r_511
  simp only [S_v4609 c i tbl hT sim b9, V15_54 c i M2 hM2 M3 hM3 tbl hT sim x2 x3 b9 b10 a12 a13 a14 a15 a16 a17, in_read M2 hM2 x2 54 (by decide), mk_read M3 hM3 x3 54 (by decide)]
  try rfl
theorem V16_55 : kernelRunA.sl.v4760 c i tbl hT sim b9 b10 = (rowsOf c tbl i sim x2 x3 (zeroAcc) 55).s := by
  unfold kernelRunA.sl.v4760 kernelRunA.sl.H16_56
  rw [View.readCov_cons_toLoadRect]
  refine Eq.trans ?_ (rowsOf_s c tbl i sim x2 x3 (zeroAcc) 54 (by decide)).symm
  unfold kernelRunA.sl.r_513 kernelRunA.sl.r_510 kernelRunA.sl.r_511
  simp only [S_v4609 c i tbl hT sim b9, V16_54 c i M2 hM2 M3 hM3 tbl hT sim x2 x3 b9 b10 a12 a13 a14 a15 a16 a17]
  try rfl
theorem V17_55 : kernelRunA.sl.v4765 c i tbl hT sim b9 b10 = (rowsOf c tbl i sim x2 x3 (zeroAcc) 55).q := by
  unfold kernelRunA.sl.v4765 kernelRunA.sl.H17_56
  rw [View.readCov_cons_toLoadRect]
  refine Eq.trans ?_ (rowsOf_q c tbl i sim x2 x3 (zeroAcc) 54 (by decide)).symm
  unfold kernelRunA.sl.r_514 kernelRunA.sl.r_510 kernelRunA.sl.r_511
  simp only [S_v4609 c i tbl hT sim b9, V17_54 c i M2 hM2 M3 hM3 tbl hT sim x2 x3 b9 b10 a12 a13 a14 a15 a16 a17]
  try rfl
theorem V15_56 : kernelRunA.sl.v4840 c i M2 hM2 M3 hM3 tbl hT sim x2 x3 b9 b10 = (rowsOf c tbl i sim x2 x3 (zeroAcc) 56).nf := by
  unfold kernelRunA.sl.v4840 kernelRunA.sl.H15_57
  rw [View.readCov_cons_toLoadRect]
  refine Eq.trans ?_ (rowsOf_nf c tbl i sim x2 x3 (zeroAcc) 55 (by decide)).symm
  unfold kernelRunA.sl.r_521 kernelRunA.sl.r_517
  simp only [S_v4694 c i tbl hT sim b10, V15_55 c i M2 hM2 M3 hM3 tbl hT sim x2 x3 b9 b10 a12 a13 a14 a15 a16 a17, in_read M2 hM2 x2 55 (by decide), mk_read M3 hM3 x3 55 (by decide)]
  try rfl
theorem V16_56 : kernelRunA.sl.v4845 c i tbl hT sim b9 b10 = (rowsOf c tbl i sim x2 x3 (zeroAcc) 56).s := by
  unfold kernelRunA.sl.v4845 kernelRunA.sl.H16_57
  rw [View.readCov_cons_toLoadRect]
  refine Eq.trans ?_ (rowsOf_s c tbl i sim x2 x3 (zeroAcc) 55 (by decide)).symm
  unfold kernelRunA.sl.r_523
  simp only [S_v4694 c i tbl hT sim b10, V16_55 c i M2 hM2 M3 hM3 tbl hT sim x2 x3 b9 b10 a12 a13 a14 a15 a16 a17]
  try rfl
theorem V17_56 : kernelRunA.sl.v4850 c i tbl hT sim b9 b10 = (rowsOf c tbl i sim x2 x3 (zeroAcc) 56).q := by
  unfold kernelRunA.sl.v4850 kernelRunA.sl.H17_57
  rw [View.readCov_cons_toLoadRect]
  refine Eq.trans ?_ (rowsOf_q c tbl i sim x2 x3 (zeroAcc) 55 (by decide)).symm
  unfold kernelRunA.sl.r_524
  simp only [S_v4694 c i tbl hT sim b10, V17_55 c i M2 hM2 M3 hM3 tbl hT sim x2 x3 b9 b10 a12 a13 a14 a15 a16 a17]
  try rfl
theorem V15_57 : kernelRunA.sl.v4925 c i M2 hM2 M3 hM3 tbl hT sim x2 x3 b9 b10 = (rowsOf c tbl i sim x2 x3 (zeroAcc) 57).nf := by
  unfold kernelRunA.sl.v4925 kernelRunA.sl.H15_58
  rw [View.readCov_cons_toLoadRect]
  refine Eq.trans ?_ (rowsOf_nf c tbl i sim x2 x3 (zeroAcc) 56 (by decide)).symm
  unfold kernelRunA.sl.r_532
  simp only [S_v4779 c i tbl hT sim b9, V15_56 c i M2 hM2 M3 hM3 tbl hT sim x2 x3 b9 b10 a12 a13 a14 a15 a16 a17, in_read M2 hM2 x2 56 (by decide), mk_read M3 hM3 x3 56 (by decide)]
  try rfl
theorem V16_57 : kernelRunA.sl.v4930 c i tbl hT sim b9 b10 = (rowsOf c tbl i sim x2 x3 (zeroAcc) 57).s := by
  unfold kernelRunA.sl.v4930 kernelRunA.sl.H16_58
  rw [View.readCov_cons_toLoadRect]
  refine Eq.trans ?_ (rowsOf_s c tbl i sim x2 x3 (zeroAcc) 56 (by decide)).symm
  unfold kernelRunA.sl.r_533 kernelRunA.sl.r_530
  simp only [S_v4779 c i tbl hT sim b9, V16_56 c i M2 hM2 M3 hM3 tbl hT sim x2 x3 b9 b10 a12 a13 a14 a15 a16 a17]
  try rfl
theorem V17_57 : kernelRunA.sl.v4935 c i tbl hT sim b9 b10 = (rowsOf c tbl i sim x2 x3 (zeroAcc) 57).q := by
  unfold kernelRunA.sl.v4935 kernelRunA.sl.H17_58
  rw [View.readCov_cons_toLoadRect]
  refine Eq.trans ?_ (rowsOf_q c tbl i sim x2 x3 (zeroAcc) 56 (by decide)).symm
  unfold kernelRunA.sl.r_534 kernelRunA.sl.r_530
  simp only [S_v4779 c i tbl hT sim b9, V17_56 c i M2 hM2 M3 hM3 tbl hT sim x2 x3 b9 b10 a12 a13 a14 a15 a16 a17]
  try rfl
theorem V15_58 : kernelRunA.sl.v5010 c i M2 hM2 M3 hM3 tbl hT sim x2 x3 b9 b10 = (rowsOf c tbl i sim x2 x3 (zeroAcc) 58).nf := by
  unfold kernelRunA.sl.v5010 kernelRunA.sl.H15_59
  rw [View.readCov_cons_toLoadRect]
  refine Eq.trans ?_ (rowsOf_nf c tbl i sim x2 x3 (zeroAcc) 57 (by decide)).symm
  unfold kernelRunA.sl.r_542 kernelRunA.sl.r_537 kernelRunA.sl.r_538 kernelRunA.sl.r_539 kernelRunA.sl.r_540 kernelRunA.sl.cst_781
  simp only [S_v4864 c i tbl hT sim b10, V15_57 c i M2 hM2 M3 hM3 tbl hT sim x2 x3 b9 b10 a12 a13 a14 a15 a16 a17, in_read M2 hM2 x2 57 (by decide), mk_read M3 hM3 x3 57 (by decide)]
  try rfl
theorem V16_58 : kernelRunA.sl.v5015 c i tbl hT sim b9 b10 = (rowsOf c tbl i sim x2 x3 (zeroAcc) 58).s := by
  unfold kernelRunA.sl.v5015 kernelRunA.sl.H16_59
  rw [View.readCov_cons_toLoadRect]
  refine Eq.trans ?_ (rowsOf_s c tbl i sim x2 x3 (zeroAcc) 57 (by decide)).symm
  unfold kernelRunA.sl.r_543 kernelRunA.sl.r_539 kernelRunA.sl.r_540 kernelRunA.sl.cst_781
  simp only [S_v4864 c i tbl hT sim b10, V16_57 c i M2 hM2 M3 hM3 tbl hT sim x2 x3 b9 b10 a12 a13 a14 a15 a16 a17]
  try rfl
theorem V17_58 : kernelRunA.sl.v5020 c i tbl hT sim b9 b10 = (rowsOf c tbl i sim x2 x3 (zeroAcc) 58).q := by
  unfold kernelRunA.sl.v5020 kernelRunA.sl.H17_59
  rw [View.readCov_cons_toLoadRect]
  refine Eq.trans ?_ (rowsOf_q c tbl i sim x2 x3 (zeroAcc) 57 (by decide)).symm
  unfold kernelRunA.sl.r_544 kernelRunA.sl.r_539 kernelRunA.sl.r_540 kernelRunA.sl.cst_781
  simp only [S_v4864 c i tbl hT sim b10, V17_57 c i M2 hM2 M3 hM3 tbl hT sim x2 x3 b9 b10 a12 a13 a14 a15 a16 a17]
  try rfl
theorem V15_59 : kernelRunA.sl.v5095 c i M2 hM2 M3 hM3 tbl hT sim x2 x3 b9 b10 = (rowsOf c tbl i sim x2 x3 (zeroAcc) 59).nf := by
  unfold kernelRunA.sl.v5095 kernelRunA.sl.H15_60
  rw [View.readCov_cons_toLoadRect]
  refine Eq.trans ?_ (rowsOf_nf c tbl i sim x2 x3 (zeroAcc) 58 (by decide)).symm
  unfold kernelRunA.sl.r_549
  simp only [V15_58 c i M2 hM2 M3 hM3 tbl hT sim x2 x3 b9 b10 a12 a13 a14 a15 a16 a17, S_v_2 c i tbl hT sim b9, in_read M2 hM2 x2 58 (by decide), mk_read M3 hM3 x3 58 (by decide)]
  try rfl
theorem V16_59 : kernelRunA.sl.v5100 c i tbl hT sim b9 b10 = (rowsOf c tbl i sim x2 x3 (zeroAcc) 59).s := by
  unfold kernelRunA.sl.v5100 kernelRunA.sl.H16_60
  rw [View.readCov_cons_toLoadRect]
  refine Eq.trans ?_ (rowsOf_s c tbl i sim x2 x3 (zeroAcc) 58 (by decide)).symm
  unfold kernelRunA.sl.r_551
  simp only [V16_58 c i M2 hM2 M3 hM3 tbl hT sim x2 x3 b9 b10 a12 a13 a14 a15 a16 a17, S_v_2 c i tbl hT sim b9]
  try rfl
theorem V17_59 : kernelRunA.sl.v5105 c i tbl hT sim b9 b10 = (rowsOf c tbl i sim x2 x3 (zeroAcc) 59).q := by
  unfold kernelRunA.sl.v5105 kernelRunA.sl.H17_60
  rw [View.readCov_cons_toLoadRect]
  refine Eq.trans ?_ (rowsOf_q c tbl i sim x2 x3 (zeroAcc) 58 (by decide)).symm
  unfold kernelRunA.sl.r_552
  simp only [V17_58 c i M2 hM2 M3 hM3 tbl hT sim x2 x3 b9 b10 a12 a13 a14 a15 a16 a17, S_v_2 c i tbl hT sim b9]
  try rfl
theorem V15_60 : kernelRunA.sl.v5180 c i M2 hM2 M3 hM3 tbl hT sim x2 x3 b9 b10 = (rowsOf c tbl i sim x2 x3 (zeroAcc) 60).nf := by
  unfold kernelRunA.sl.v5180 kernelRunA.sl.H15_61
  rw [View.readCov_cons_toLoadRect]
  refine Eq.trans ?_ (rowsOf_nf c tbl i sim x2 x3 (zeroAcc) 59 (by decide)).symm
  unfold kernelRunA.sl.r_559
  simp only [S_v5034 c i tbl hT sim b10, V15_59 c i M2 hM2 M3 hM3 tbl hT sim x2 x3 b9 b10 a12 a13 a14 a15 a16 a17, in_read M2 hM2 x2 59 (by decide), mk_read M3 hM3 x3 59 (by decide)]
  try rfl
theorem V16_60 : kernelRunA.sl.v5185 c i tbl hT sim b9 b10 = (rowsOf c tbl i sim x2 x3 (zeroAcc) 60).s := by
  unfold kernelRunA.sl.v5185 kernelRunA.sl.H16_61
  rw [View.readCov_cons_toLoadRect]
  refine Eq.trans ?_ (rowsOf_s c tbl i sim x2 x3 (zeroAcc) 59 (by decide)).symm
  unfold kernelRunA.sl.r_560 kernelRunA.sl.r_557
  simp only [S_v5034 c i tbl hT sim b10, V16_59 c i M2 hM2 M3 hM3 tbl hT sim x2 x3 b9 b10 a12 a13 a14 a15 a16 a17]
  try rfl
theorem V17_60 : kernelRunA.sl.v5190 c i tbl hT sim b9 b10 = (rowsOf c tbl i sim x2 x3 (zeroAcc) 60).q := by
  unfold kernelRunA.sl.v5190 kernelRunA.sl.H17_61
  rw [View.readCov_cons_toLoadRect]
  refine Eq.trans ?_ (rowsOf_q c tbl i sim x2 x3 (zeroAcc) 59 (by decide)).symm
  unfold kernelRunA.sl.r_561 kernelRunA.sl.r_557
  simp only [S_v5034 c i tbl hT sim b10, V17_59 c i M2 hM2 M3 hM3 tbl hT sim x2 x3 b9 b10 a12 a13 a14 a15 a16 a17]
  try rfl
theorem V15_61 : kernelRunA.sl.v5265 c i M2 hM2 M3 hM3 tbl hT sim x2 x3 b9 b10 = (rowsOf c tbl i sim x2 x3 (zeroAcc) 61).nf := by
  unfold kernelRunA.sl.v5265 kernelRunA.sl.H15_62
  rw [View.readCov_cons_toLoadRect]
  refine Eq.trans ?_ (rowsOf_nf c tbl i sim x2 x3 (zeroAcc) 60 (by decide)).symm
  unfold kernelRunA.sl.r_568 kernelRunA.sl.r_564 kernelRunA.sl.r_565 kernelRunA.sl.r_566 kernelRunA.sl.cst_15
  simp only [S_v5119 c i tbl hT sim b9, V15_60 c i M2 hM2 M3 hM3 tbl hT sim x2 x3 b9 b10 a12 a13 a14 a15 a16 a17, in_read M2 hM2 x2 60 (by decide), mk_read M3 hM3 x3 60 (by decide)]
  try rfl
theorem V16_61 : kernelRunA.sl.v5270 c i tbl hT sim b9 b10 = (rowsOf c tbl i sim x2 x3 (zeroAcc) 61).s := by
  unfold kernelRunA.sl.v5270 kernelRunA.sl.H16_62
  rw [View.readCov_cons_toLoadRect]
  refine Eq.trans ?_ (rowsOf_s c tbl i sim x2 x3 (zeroAcc) 60 (by decide)).symm
  unfold kernelRunA.sl.r_569 kernelRunA.sl.r_566 kernelRunA.sl.cst_15
  simp only [S_v5119 c i tbl hT sim b9, V16_60 c i M2 hM2 M3 hM3 tbl hT sim x2 x3 b9 b10 a12 a13 a14 a15 a16 a17]
  try rfl
theorem V17_61 : kernelRunA.sl.v5275 c i tbl hT sim b9 b10 = (rowsOf c tbl i sim x2 x3 (zeroAcc) 61).q := by
  unfold kernelRunA.sl.v5275 kernelRunA.sl.H17_62
  rw [View.readCov_cons_toLoadRect]
  refine Eq.trans ?_ (rowsOf_q c tbl i sim x2 x3 (zeroAcc) 60 (by decide)).symm
  unfold kernelRunA.sl.r_570 kernelRunA.sl.r_566 kernelRunA.sl.cst_15
  simp only [S_v5119 c i tbl hT sim b9, V17_60 c i M2 hM2 M3 hM3 tbl hT sim x2 x3 b9 b10 a12 a13 a14 a15 a16 a17]
  try rfl
theorem V15_62 : kernelRunA.sl.v5350 c i M2 hM2 M3 hM3 tbl hT sim x2 x3 b9 b10 = (rowsOf c tbl i sim x2 x3 (zeroAcc) 62).nf := by
  unfold kernelRunA.sl.v5350 kernelRunA.sl.H15_63
  rw [View.readCov_cons_toLoadRect]
  refine Eq.trans ?_ (rowsOf_nf c tbl i sim x2 x3 (zeroAcc) 61 (by decide)).symm
  unfold kernelRunA.sl.r_576
  simp only [S_v5204 c i tbl hT sim b10, V15_61 c i M2 hM2 M3 hM3 tbl hT sim x2 x3 b9 b10 a12 a13 a14 a15 a16 a17, in_read M2 hM2 x2 61 (by decide), mk_read M3 hM3 x3 61 (by decide)]
  try rfl
theorem V16_62 : kernelRunA.sl.v5355 c i tbl hT sim b9 b10 = (rowsOf c tbl i sim x2 x3 (zeroAcc) 62).s := by
  unfold kernelRunA.sl.v5355 kernelRunA.sl.H16_63
  rw [View.readCov_cons_toLoadRect]
  refine Eq.trans ?_ (rowsOf_s c tbl i sim x2 x3 (zeroAcc) 61 (by decide)).symm
  unfold kernelRunA.sl.r_578
  simp only [S_v5204 c i tbl hT sim b10, V16_61 c i M2 hM2 M3 hM3 tbl hT sim x2 x3 b9 b10 a12 a13 a14 a15 a16 a17]
  try rfl
theorem V17_62 : kernelRunA.sl.v5360 c i tbl hT sim b9 b10 = (rowsOf c tbl i sim x2 x3 (zeroAcc) 62).q := by
  unfold kernelRunA.sl.v5360 kernelRunA.sl.H17_63
  rw [View.readCov_cons_toLoadRect]
  refine Eq.trans ?_ (rowsOf_q c tbl i sim x2 x3 (zeroAcc) 61 (by decide)).symm
  unfold kernelRunA.sl.r_580 kernelRunA.sl.r_579
  simp only [S_v5204 c i tbl hT sim b10, V17_61 c i M2 hM2 M3 hM3 tbl hT sim x2 x3 b9 b10 a12 a13 a14 a15 a16 a17]
  try rfl
theorem V15_63 : kernelRunA.sl.v5429 c i M2 hM2 M3 hM3 tbl hT sim x2 x3 b9 b10 = (rowsOf c tbl i sim x2 x3 (zeroAcc) 63).nf := by
  unfold kernelRunA.sl.v5429 kernelRunA.sl.H15_64
  rw [View.readCov_cons_toLoadRect]
  refine Eq.trans ?_ (rowsOf_nf c tbl i sim x2 x3 (zeroAcc) 62 (by decide)).symm
  unfold kernelRunA.sl.r_590 kernelRunA.sl.r_583 kernelRunA.sl.r_586 kernelRunA.sl.cst_109
  simp only [S_v5289 c i tbl hT sim b9, V15_62 c i M2 hM2 M3 hM3 tbl hT sim x2 x3 b9 b10 a12 a13 a14 a15 a16 a17, in_read M2 hM2 x2 62 (by decide), mk_read M3 hM3 x3 62 (by decide)]
  try rfl
theorem V16_63 : kernelRunA.sl.v5434 c i tbl hT sim b9 b10 = (rowsOf c tbl i sim x2 x3 (zeroAcc) 63).s := by
  unfold kernelRunA.sl.v5434 kernelRunA.sl.H16_64
  rw [View.readCov_cons_toLoadRect]
  refine Eq.trans ?_ (rowsOf_s c tbl i sim x2 x3 (zeroAcc) 62 (by decide)).symm
  unfold kernelRunA.sl.r_588 kernelRunA.sl.r_585
  simp only [S_v5289 c i tbl hT sim b9, V16_62 c i M2 hM2 M3 hM3 tbl hT sim x2 x3 b9 b10 a12 a13 a14 a15 a16 a17]
  try rfl
theorem V17_63 : kernelRunA.sl.v5439 c i tbl hT sim b9 b10 = (rowsOf c tbl i sim x2 x3 (zeroAcc) 63).q := by
  unfold kernelRunA.sl.v5439 kernelRunA.sl.H17_64
  rw [View.readCov_cons_toLoadRect]
  refine Eq.trans ?_ (rowsOf_q c tbl i sim x2 x3 (zeroAcc) 62 (by decide)).symm
  unfold kernelRunA.sl.r_589 kernelRunA.sl.r_585
  simp only [S_v5289 c i tbl hT sim b9, V17_62 c i M2 hM2 M3 hM3 tbl hT sim x2 x3 b9 b10 a12 a13 a14 a15 a16 a17]
  try rfl
theorem L15_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : C1 i) (h2 : ¬ C2 i) : (kernelRunA c i M2 hM2 M3 hM3 M5 hM5 M6 hM6 M7 hM7 M8 hM8 tbl hT sim x2 x3 b9 b10 a12 a13 a14 a15 a16 a17 h1 h2).2.2.2.1 = ⟨Rect.unit ![0, 0] S1x1.size inb_S1x1_S1x1_0_0, k0_pay968 (kernelRunA.sl.r_596 c i M2 hM2 M3 hM3 tbl hT sim x2 x3 b10) (kernelRunA.sl.v5429 c i M2 hM2 M3 hM3 tbl hT sim x2 x3 b9 b10)⟩ :: kernelRunA.sl.H15_64 c i M2 hM2 M3 hM3 tbl hT sim x2 x3 b9 b10 := rfl
theorem V15_64 : View.readAt (Elt F) (Memref.whole cc0_scratch6).view (Rect.unit ![0, 0] S1x1.size inb_S1x1_S1x1_0_0).toLoadRect ((Memref.whole cc0_scratch6).view.writes (Elt F) a15 (⟨Rect.unit ![0, 0] S1x1.size inb_S1x1_S1x1_0_0, k0_pay968 (kernelRunA.sl.r_596 c i M2 hM2 M3 hM3 tbl hT sim x2 x3 b10) (kernelRunA.sl.v5429 c i M2 hM2 M3 hM3 tbl hT sim x2 x3 b9 b10)⟩ :: kernelRunA.sl.H15_64 c i M2 hM2 M3 hM3 tbl hT sim x2 x3 b9 b10)) = (rowsOf c tbl i sim x2 x3 (zeroAcc) 64).nf := by
  rw [read_last_write]
  refine Eq.trans ?_ (rowsOf_nf c tbl i sim x2 x3 (zeroAcc) 63 (by decide)).symm
  unfold kernelRunA.sl.r_596 kernelRunA.sl.r_592 kernelRunA.sl.r_593 kernelRunA.sl.r_594 kernelRunA.sl.r_595
  simp only [S_v5368 c i tbl hT sim b10, V15_63 c i M2 hM2 M3 hM3 tbl hT sim x2 x3 b9 b10 a12 a13 a14 a15 a16 a17, in_read M2 hM2 x2 63 (by decide), mk_read M3 hM3 x3 63 (by decide)]
  try rfl
theorem L16_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : C1 i) (h2 : ¬ C2 i) : (kernelRunA c i M2 hM2 M3 hM3 M5 hM5 M6 hM6 M7 hM7 M8 hM8 tbl hT sim x2 x3 b9 b10 a12 a13 a14 a15 a16 a17 h1 h2).2.2.2.2.1 = ⟨Rect.unit ![0, 0] S1x1.size inb_S1x1_S1x1_0_0, k0_pay969 (kernelRunA.sl.r_597 c i tbl hT sim b10) (kernelRunA.sl.v5434 c i tbl hT sim b9 b10)⟩ :: kernelRunA.sl.H16_64 c i tbl hT sim b9 b10 := rfl
theorem V16_64 : View.readAt (Elt F) (Memref.whole cc0_scratch7).view (Rect.unit ![0, 0] S1x1.size inb_S1x1_S1x1_0_0).toLoadRect ((Memref.whole cc0_scratch7).view.writes (Elt F) a16 (⟨Rect.unit ![0, 0] S1x1.size inb_S1x1_S1x1_0_0, k0_pay969 (kernelRunA.sl.r_597 c i tbl hT sim b10) (kernelRunA.sl.v5434 c i tbl hT sim b9 b10)⟩ :: kernelRunA.sl.H16_64 c i tbl hT sim b9 b10)) = (rowsOf c tbl i sim x2 x3 (zeroAcc) 64).s := by
  rw [read_last_write]
  refine Eq.trans ?_ (rowsOf_s c tbl i sim x2 x3 (zeroAcc) 63 (by decide)).symm
  unfold kernelRunA.sl.r_597 kernelRunA.sl.r_594 kernelRunA.sl.r_595
  simp only [S_v5368 c i tbl hT sim b10, V16_63 c i M2 hM2 M3 hM3 tbl hT sim x2 x3 b9 b10 a12 a13 a14 a15 a16 a17]
  try rfl
theorem L17_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : C1 i) (h2 : ¬ C2 i) : (kernelRunA c i M2 hM2 M3 hM3 M5 hM5 M6 hM6 M7 hM7 M8 hM8 tbl hT sim x2 x3 b9 b10 a12 a13 a14 a15 a16 a17 h1 h2).2.2.2.2.2.1 = ⟨Rect.unit ![0, 0] S1x1.size inb_S1x1_S1x1_0_0, k0_pay1 (kernelRunA.sl.r_600 c i tbl hT sim b9 b10)⟩ :: kernelRunA.sl.H17_64 c i tbl hT sim b9 b10 := rfl
theorem V17_64 : View.readAt (Elt F) (Memref.whole cc0_scratch8).view (Rect.unit ![0, 0] S1x1.size inb_S1x1_S1x1_0_0).toLoadRect ((Memref.whole cc0_scratch8).view.writes (Elt F) a17 (⟨Rect.unit ![0, 0] S1x1.size inb_S1x1_S1x1_0_0, k0_pay1 (kernelRunA.sl.r_600 c i tbl hT sim b9 b10)⟩ :: kernelRunA.sl.H17_64 c i tbl hT sim b9 b10)) = (rowsOf c tbl i sim x2 x3 (zeroAcc) 64).q := by
  rw [read_last_write]
  refine Eq.trans ?_ (rowsOf_q c tbl i sim x2 x3 (zeroAcc) 63 (by decide)).symm
  unfold kernelRunA.sl.r_600 kernelRunA.sl.r_598 kernelRunA.sl.r_594 kernelRunA.sl.r_595
  simp only [S_v5368 c i tbl hT sim b10, V17_63 c i M2 hM2 M3 hM3 tbl hT sim x2 x3 b9 b10 a12 a13 a14 a15 a16 a17]
  try rfl
end TabA

end Cert.Proof.KI

end
-- ==== Proof.KIStepA.lean ====
/-
  Case A of the kernel body's run at one grid point: what the run found in the six accumulator buffers is the
  point's clean step. Each found list ends with a write through the whole one-by-one buffer, so the buffer reads
  back as that write's payload; the payload is the running sum after sixty-four rows (the table's last line for
  that sum); and the sixty-four rows, one at a time, are the point's step.
-/
import proofs.«419560_j5755256177164_3_alg».proof.Proof.KIRunA
import proofs.«419560_j5755256177164_3_alg».proof.Proof.KIStepLib
import proofs.«419560_j5755256177164_3_alg».proof.Proof.KIStepATabV1
import proofs.«419560_j5755256177164_3_alg».proof.Proof.KIStepATabV2

set_option maxRecDepth 65536

noncomputable section

namespace Cert.Proof.KI

open Cert.KernelIdeal Cert.KernelIdeal.Gen
open Idealize.ShloMosaic Idealize.ShloMosaic.TcCoe
open Idealize.SL Idealize.SL.Sem

variable {F : FTy → Type} [FloatOps F]

theorem stepA_eq (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))
    (h1 : C1 i) (h2 : ¬ C2 i) :
    accOf c
      ((Memref.whole cc0_scratch3).view.writes (Elt F) a12 (kernelRunA c i M2 hM2 M3 hM3 M5 hM5 M6 hM6 M7 hM7 M8 hM8 tbl hT sim x2 x3 b9 b10 a12 a13 a14 a15 a16 a17 h1 h2).1)
      ((Memref.whole cc0_scratch4).view.writes (Elt F) a13 (kernelRunA c i M2 hM2 M3 hM3 M5 hM5 M6 hM6 M7 hM7 M8 hM8 tbl hT sim x2 x3 b9 b10 a12 a13 a14 a15 a16 a17 h1 h2).2.1)
      ((Memref.whole cc0_scratch5).view.writes (Elt F) a14 (kernelRunA c i M2 hM2 M3 hM3 M5 hM5 M6 hM6 M7 hM7 M8 hM8 tbl hT sim x2 x3 b9 b10 a12 a13 a14 a15 a16 a17 h1 h2).2.2.1)
      ((Memref.whole cc0_scratch6).view.writes (Elt F) a15 (kernelRunA c i M2 hM2 M3 hM3 M5 hM5 M6 hM6 M7 hM7 M8 hM8 tbl hT sim x2 x3 b9 b10 a12 a13 a14 a15 a16 a17 h1 h2).2.2.2.1)
      ((Memref.whole cc0_scratch7).view.writes (Elt F) a16 (kernelRunA c i M2 hM2 M3 hM3 M5 hM5 M6 hM6 M7 hM7 M8 hM8 tbl hT sim x2 x3 b9 b10 a12 a13 a14 a15 a16 a17 h1 h2).2.2.2.2.1)
      ((Memref.whole cc0_scratch8).view.writes (Elt F) a17 (kernelRunA c i M2 hM2 M3 hM3 M5 hM5 M6 hM6 M7 hM7 M8 hM8 tbl hT sim x2 x3 b9 b10 a12 a13 a14 a15 a16 a17 h1 h2).2.2.2.2.2.1)
      = pointOf c tbl i sim x2 x3 (zeroAcc) := by
  have e12 : View.readAt (Elt F) (Memref.whole cc0_scratch3).view (Rect.unit ![0, 0] S1x1.size inb_S1x1_S1x1_0_0).toLoadRect
      ((Memref.whole cc0_scratch3).view.writes (Elt F) a12 (kernelRunA c i M2 hM2 M3 hM3 M5 hM5 M6 hM6 M7 hM7 M8 hM8 tbl hT sim x2 x3 b9 b10 a12 a13 a14 a15 a16 a17 h1 h2).1)
      = (rowsOf c tbl i sim x2 x3 (zeroAcc) 64).m :=
    (congrArg (fun L => View.readAt (Elt F) (Memref.whole cc0_scratch3).view (Rect.unit ![0, 0] S1x1.size inb_S1x1_S1x1_0_0).toLoadRect
      ((Memref.whole cc0_scratch3).view.writes (Elt F) a12 L))
      (TabA.L12_eq c i M2 hM2 M3 hM3 tbl hT sim x2 x3 b9 b10 a12 a13 a14 a15 a16 a17 M5 hM5 M6 hM6 M7 hM7 M8 hM8 h1 h2)).trans (TabA.V12_64 c i M2 hM2 M3 hM3 tbl hT sim x2 x3 b9 b10 a12 a13 a14 a15 a16 a17)
  have e13 : View.readAt (Elt F) (Memref.whole cc0_scratch4).view (Rect.unit ![0, 0] S1x1.size inb_S1x1_S1x1_0_0).toLoadRect
      ((Memref.whole cc0_scratch4).view.writes (Elt F) a13 (kernelRunA c i M2 hM2 M3 hM3 M5 hM5 M6 hM6 M7 hM7 M8 hM8 tbl hT sim x2 x3 b9 b10 a12 a13 a14 a15 a16 a17 h1 h2).2.1)
      = (rowsOf c tbl i sim x2 x3 (zeroAcc) 64).logp :=
    (congrArg (fun L => View.readAt (Elt F) (Memref.whole cc0_scratch4).view (Rect.unit ![0, 0] S1x1.size inb_S1x1_S1x1_0_0).toLoadRect
      ((Memref.whole cc0_scratch4).view.writes (Elt F) a13 L))
      (TabA.L13_eq c i M2 hM2 M3 hM3 tbl hT sim x2 x3 b9 b10 a12 a13 a14 a15 a16 a17 M5 hM5 M6 hM6 M7 hM7 M8 hM8 h1 h2)).trans (TabA.V13_64 c i M2 hM2 M3 hM3 tbl hT sim x2 x3 b9 b10 a12 a13 a14 a15 a16 a17)
  have e14 : View.readAt (Elt F) (Memref.whole cc0_scratch5).view (Rect.unit ![0, 0] S1x1.size inb_S1x1_S1x1_0_0).toLoadRect
      ((Memref.whole cc0_scratch5).view.writes (Elt F) a14 (kernelRunA c i M2 hM2 M3 hM3 M5 hM5 M6 hM6 M7 hM7 M8 hM8 tbl hT sim x2 x3 b9 b10 a12 a13 a14 a15 a16 a17 h1 h2).2.2.1)
      = (rowsOf c tbl i sim x2 x3 (zeroAcc) 64).w :=
    (congrArg (fun L => View.readAt (Elt F) (Memref.whole cc0_scratch5).view (Rect.unit ![0, 0] S1x1.size inb_S1x1_S1x1_0_0).toLoadRect
      ((Memref.whole cc0_scratch5).view.writes (Elt F) a14 L))
      (TabA.L14_eq c i M2 hM2 M3 hM3 tbl hT sim x2 x3 b9 b10 a12 a13 a14 a15 a16 a17 M5 hM5 M6 hM6 M7 hM7 M8 hM8 h1 h2)).trans (TabA.V14_64 c i M2 hM2 M3 hM3 tbl hT sim x2 x3 b9 b10 a12 a13 a14 a15 a16 a17)
  have e15 : View.readAt (Elt F) (Memref.whole cc0_scratch6).view (Rect.unit ![0, 0] S1x1.size inb_S1x1_S1x1_0_0).toLoadRect
      ((Memref.whole cc0_scratch6).view.writes (Elt F) a15 (kernelRunA c i M2 hM2 M3 hM3 M5 hM5 M6 hM6 M7 hM7 M8 hM8 tbl hT sim x2 x3 b9 b10 a12 a13 a14 a15 a16 a17 h1 h2).2.2.2.1)
      = (rowsOf c tbl i sim x2 x3 (zeroAcc) 64).nf :=
    (congrArg (fun L => View.readAt (Elt F) (Memref.whole cc0_scratch6).view (Rect.unit ![0, 0] S1x1.size inb_S1x1_S1x1_0_0).toLoadRect
      ((Memref.whole cc0_scratch6).view.writes (Elt F) a15 L))
      (TabA.L15_eq c i M2 hM2 M3 hM3 tbl hT sim x2 x3 b9 b10 a12 a13 a14 a15 a16 a17 M5 hM5 M6 hM6 M7 hM7 M8 hM8 h1 h2)).trans (TabA.V15_64 c i M2 hM2 M3 hM3 tbl hT sim x2 x3 b9 b10 a12 a13 a14 a15 a16 a17)
  have e16 : View.readAt (Elt F) (Memref.whole cc0_scratch7).view (Rect.unit ![0, 0] S1x1.size inb_S1x1_S1x1_0_0).toLoadRect
      ((Memref.whole cc0_scratch7).view.writes (Elt F) a16 (kernelRunA c i M2 hM2 M3 hM3 M5 hM5 M6 hM6 M7 hM7 M8 hM8 tbl hT sim x2 x3 b9 b10 a12 a13 a14 a15 a16 a17 h1 h2).2.2.2.2.1)
      = (rowsOf c tbl i sim x2 x3 (zeroAcc) 64).s :=
    (congrArg (fun L => View.readAt (Elt F) (Memref.whole cc0_scratch7).view (Rect.unit ![0, 0] S1x1.size inb_S1x1_S1x1_0_0).toLoadRect
      ((Memref.whole cc0_scratch7).view.writes (Elt F) a16 L))
      (TabA.L16_eq c i M2 hM2 M3 hM3 tbl hT sim x2 x3 b9 b10 a12 a13 a14 a15 a16 a17 M5 hM5 M6 hM6 M7 hM7 M8 hM8 h1 h2)).trans (TabA.V16_64 c i M2 hM2 M3 hM3 tbl hT sim x2 x3 b9 b10 a12 a13 a14 a15 a16 a17)
  have e17 : View.readAt (Elt F) (Memref.whole cc0_scratch8).view (Rect.unit ![0, 0] S1x1.size inb_S1x1_S1x1_0_0).toLoadRect
      ((Memref.whole cc0_scratch8).view.writes (Elt F) a17 (kernelRunA c i M2 hM2 M3 hM3 M5 hM5 M6 hM6 M7 hM7 M8 hM8 tbl hT sim x2 x3 b9 b10 a12 a13 a14 a15 a16 a17 h1 h2).2.2.2.2.2.1)
      = (rowsOf c tbl i sim x2 x3 (zeroAcc) 64).q :=
    (congrArg (fun L => View.readAt (Elt F) (Memref.whole cc0_scratch8).view (Rect.unit ![0, 0] S1x1.size inb_S1x1_S1x1_0_0).toLoadRect
      ((Memref.whole cc0_scratch8).view.writes (Elt F) a17 L))
      (TabA.L17_eq c i M2 hM2 M3 hM3 tbl hT sim x2 x3 b9 b10 a12 a13 a14 a15 a16 a17 M5 hM5 M6 hM6 M7 hM7 M8 hM8 h1 h2)).trans (TabA.V17_64 c i M2 hM2 M3 hM3 tbl hT sim x2 x3 b9 b10 a12 a13 a14 a15 a16 a17)
  refine Eq.trans ?_ (pointOf_eq_rowsOf c tbl i sim x2 x3 (zeroAcc)).symm
  exact Acc.ext6 e12 e13 e14 e15 e16 e17

end Cert.Proof.KI

end
-- ==== Proof.KIStepBTabW.lean ====
import proofs.«419560_j5755256177164_3_alg».proof.Proof.KIRunB
import proofs.«419560_j5755256177164_3_alg».proof.Proof.KIStepLib

/-!
  The table of case B: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.KI

open Cert.KernelIdeal Cert.KernelIdeal.Gen
open Idealize.ShloMosaic Idealize.ShloMosaic.TcCoe
open Idealize.SL Idealize.SL.Sem

variable {F : FTy → Type} [FloatOps F]

namespace TabB

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

theorem W_r : kernelRunB.sl.r c i tbl = wordAt c tbl i ⟨0, by decide⟩ := by
  unfold kernelRunB.sl.r; exact word_of_off c tbl i ⟨0, by decide⟩ _ _ _ (k0_off1_eq i)
theorem W_r_2 : kernelRunB.sl.r_2 c i tbl = wordAt c tbl i ⟨0, by decide⟩ := by
  unfold kernelRunB.sl.r_2; exact word_of_off c tbl i ⟨0, by decide⟩ _ _ _ (k0_off5_eq i ⟨0, by decide⟩)
theorem W_r_1 : kernelRunB.sl.r_1 c i tbl = wordAt c tbl i ⟨1, by decide⟩ := by
  unfold kernelRunB.sl.r_1; exact word_of_off c tbl i ⟨1, by decide⟩ _ _ _ (k0_off3_eq i)
theorem W_r_12 : kernelRunB.sl.r_12 c i tbl = wordAt c tbl i ⟨1, by decide⟩ := by
  unfold kernelRunB.sl.r_12; exact word_of_off c tbl i ⟨1, by decide⟩ _ _ _ (k0_off7_eq i ⟨0, by decide⟩)
theorem W_r_11 : kernelRunB.sl.r_11 c i tbl = wordAt c tbl i ⟨2, by decide⟩ := by
  unfold kernelRunB.sl.r_11; exact word_of_off c tbl i ⟨2, by decide⟩ _ _ _ (k0_off5_eq i ⟨1, by decide⟩)
theorem W_r_21 : kernelRunB.sl.r_21 c i tbl = wordAt c tbl i ⟨2, by decide⟩ := by
  unfold kernelRunB.sl.r_21; exact word_of_off c tbl i ⟨2, by decide⟩ _ _ _ (k0_off9_eq i ⟨0, by decide⟩)
theorem W_r_20 : kernelRunB.sl.r_20 c i tbl = wordAt c tbl i ⟨3, by decide⟩ := by
  unfold kernelRunB.sl.r_20; exact word_of_off c tbl i ⟨3, by decide⟩ _ _ _ (k0_off7_eq i ⟨1, by decide⟩)
theorem W_r_31 : kernelRunB.sl.r_31 c i tbl = wordAt c tbl i ⟨3, by decide⟩ := by
  unfold kernelRunB.sl.r_31; exact word_of_off c tbl i ⟨3, by decide⟩ _ _ _ (k0_off11_eq i ⟨0, by decide⟩)
theorem W_r_30 : kernelRunB.sl.r_30 c i tbl = wordAt c tbl i ⟨4, by decide⟩ := by
  unfold kernelRunB.sl.r_30; exact word_of_off c tbl i ⟨4, by decide⟩ _ _ _ (k0_off9_eq i ⟨1, by decide⟩)
theorem W_r_41 : kernelRunB.sl.r_41 c i tbl = wordAt c tbl i ⟨4, by decide⟩ := by
  unfold kernelRunB.sl.r_41; exact word_of_off c tbl i ⟨4, by decide⟩ _ _ _ (k0_off13_eq i ⟨0, by decide⟩)
theorem W_r_40 : kernelRunB.sl.r_40 c i tbl = wordAt c tbl i ⟨5, by decide⟩ := by
  unfold kernelRunB.sl.r_40; exact word_of_off c tbl i ⟨5, by decide⟩ _ _ _ (k0_off11_eq i ⟨1, by decide⟩)
theorem W_r_50 : kernelRunB.sl.r_50 c i tbl = wordAt c tbl i ⟨5, by decide⟩ := by
  unfold kernelRunB.sl.r_50; exact word_of_off c tbl i ⟨5, by decide⟩ _ _ _ (k0_off15_eq i ⟨0, by decide⟩)
theorem W_r_49 : kernelRunB.sl.r_49 c i tbl = wordAt c tbl i ⟨6, by decide⟩ := by
  unfold kernelRunB.sl.r_49; exact word_of_off c tbl i ⟨6, by decide⟩ _ _ _ (k0_off13_eq i ⟨1, by decide⟩)
theorem W_r_59 : kernelRunB.sl.r_59 c i tbl = wordAt c tbl i ⟨6, by decide⟩ := by
  unfold kernelRunB.sl.r_59; exact word_of_off c tbl i ⟨6, by decide⟩ _ _ _ (k0_off17_eq i ⟨0, by decide⟩)
theorem W_r_58 : kernelRunB.sl.r_58 c i tbl = wordAt c tbl i ⟨7, by decide⟩ := by
  unfold kernelRunB.sl.r_58; exact word_of_off c tbl i ⟨7, by decide⟩ _ _ _ (k0_off15_eq i ⟨1, by decide⟩)
theorem W_r_68 : kernelRunB.sl.r_68 c i tbl = wordAt c tbl i ⟨7, by decide⟩ := by
  unfold kernelRunB.sl.r_68; exact word_of_off c tbl i ⟨7, by decide⟩ _ _ _ (k0_off19_eq i ⟨0, by decide⟩)
theorem W_r_67 : kernelRunB.sl.r_67 c i tbl = wordAt c tbl i ⟨8, by decide⟩ := by
  unfold kernelRunB.sl.r_67; exact word_of_off c tbl i ⟨8, by decide⟩ _ _ _ (k0_off17_eq i ⟨1, by decide⟩)
theorem W_r_76 : kernelRunB.sl.r_76 c i tbl = wordAt c tbl i ⟨8, by decide⟩ := by
  unfold kernelRunB.sl.r_76; exact word_of_off c tbl i ⟨8, by decide⟩ _ _ _ (k0_off21_eq i ⟨0, by decide⟩)
theorem W_r_75 : kernelRunB.sl.r_75 c i tbl = wordAt c tbl i ⟨9, by decide⟩ := by
  unfold kernelRunB.sl.r_75; exact word_of_off c tbl i ⟨9, by decide⟩ _ _ _ (k0_off19_eq i ⟨1, by decide⟩)
theorem W_r_86 : kernelRunB.sl.r_86 c i tbl = wordAt c tbl i ⟨9, by decide⟩ := by
  unfold kernelRunB.sl.r_86; exact word_of_off c tbl i ⟨9, by decide⟩ _ _ _ (k0_off23_eq i ⟨0, by decide⟩)
theorem W_r_83 : kernelRunB.sl.r_83 c i tbl = wordAt c tbl i ⟨10, by decide⟩ := by
  unfold kernelRunB.sl.r_83; exact word_of_off c tbl i ⟨10, by decide⟩ _ _ _ (k0_off21_eq i ⟨1, by decide⟩)
theorem W_r_93 : kernelRunB.sl.r_93 c i tbl = wordAt c tbl i ⟨10, by decide⟩ := by
  unfold kernelRunB.sl.r_93; exact word_of_off c tbl i ⟨10, by decide⟩ _ _ _ (k0_off25_eq i ⟨0, by decide⟩)
theorem W_r_102 : kernelRunB.sl.r_102 c i tbl = wordAt c tbl i ⟨11, by decide⟩ := by
  unfold kernelRunB.sl.r_102; exact word_of_off c tbl i ⟨11, by decide⟩ _ _ _ (k0_off27_eq i ⟨0, by decide⟩)
theorem W_r_92 : kernelRunB.sl.r_92 c i tbl = wordAt c tbl i ⟨11, by decide⟩ := by
  unfold kernelRunB.sl.r_92; exact word_of_off c tbl i ⟨11, by decide⟩ _ _ _ (k0_off23_eq i ⟨1, by decide⟩)
theorem W_r_101 : kernelRunB.sl.r_101 c i tbl = wordAt c tbl i ⟨12, by decide⟩ := by
  unfold kernelRunB.sl.r_101; exact word_of_off c tbl i ⟨12, by decide⟩ _ _ _ (k0_off25_eq i ⟨1, by decide⟩)
theorem W_r_114 : kernelRunB.sl.r_114 c i tbl = wordAt c tbl i ⟨12, by decide⟩ := by
  unfold kernelRunB.sl.r_114; exact word_of_off c tbl i ⟨12, by decide⟩ _ _ _ (k0_off29_eq i ⟨0, by decide⟩)
theorem W_r_111 : kernelRunB.sl.r_111 c i tbl = wordAt c tbl i ⟨13, by decide⟩ := by
  unfold kernelRunB.sl.r_111; exact word_of_off c tbl i ⟨13, by decide⟩ _ _ _ (k0_off27_eq i ⟨1, by decide⟩)
theorem W_r_123 : kernelRunB.sl.r_123 c i tbl = wordAt c tbl i ⟨13, by decide⟩ := by
  unfold kernelRunB.sl.r_123; exact word_of_off c tbl i ⟨13, by decide⟩ _ _ _ (k0_off31_eq i ⟨0, by decide⟩)
theorem W_r_122 : kernelRunB.sl.r_122 c i tbl = wordAt c tbl i ⟨14, by decide⟩ := by
  unfold kernelRunB.sl.r_122; exact word_of_off c tbl i ⟨14, by decide⟩ _ _ _ (k0_off29_eq i ⟨1, by decide⟩)
theorem W_r_133 : kernelRunB.sl.r_133 c i tbl = wordAt c tbl i ⟨14, by decide⟩ := by
  unfold kernelRunB.sl.r_133; exact word_of_off c tbl i ⟨14, by decide⟩ _ _ _ (k0_off33_eq i ⟨0, by decide⟩)
theorem W_r_132 : kernelRunB.sl.r_132 c i tbl = wordAt c tbl i ⟨15, by decide⟩ := by
  unfold kernelRunB.sl.r_132; exact word_of_off c tbl i ⟨15, by decide⟩ _ _ _ (k0_off31_eq i ⟨1, by decide⟩)
theorem W_r_144 : kernelRunB.sl.r_144 c i tbl = wordAt c tbl i ⟨15, by decide⟩ := by
  unfold kernelRunB.sl.r_144; exact word_of_off c tbl i ⟨15, by decide⟩ _ _ _ (k0_off35_eq i ⟨0, by decide⟩)
theorem W_r_142 : kernelRunB.sl.r_142 c i tbl = wordAt c tbl i ⟨16, by decide⟩ := by
  unfold kernelRunB.sl.r_142; exact word_of_off c tbl i ⟨16, by decide⟩ _ _ _ (k0_off33_eq i ⟨1, by decide⟩)
theorem W_r_153 : kernelRunB.sl.r_153 c i tbl = wordAt c tbl i ⟨16, by decide⟩ := by
  unfold kernelRunB.sl.r_153; exact word_of_off c tbl i ⟨16, by decide⟩ _ _ _ (k0_off37_eq i ⟨0, by decide⟩)
theorem W_r_152 : kernelRunB.sl.r_152 c i tbl = wordAt c tbl i ⟨17, by decide⟩ := by
  unfold kernelRunB.sl.r_152; exact word_of_off c tbl i ⟨17, by decide⟩ _ _ _ (k0_off35_eq i ⟨1, by decide⟩)
theorem W_r_162 : kernelRunB.sl.r_162 c i tbl = wordAt c tbl i ⟨17, by decide⟩ := by
  unfold kernelRunB.sl.r_162; exact word_of_off c tbl i ⟨17, by decide⟩ _ _ _ (k0_off39_eq i ⟨0, by decide⟩)
theorem W_r_161 : kernelRunB.sl.r_161 c i tbl = wordAt c tbl i ⟨18, by decide⟩ := by
  unfold kernelRunB.sl.r_161; exact word_of_off c tbl i ⟨18, by decide⟩ _ _ _ (k0_off37_eq i ⟨1, by decide⟩)
theorem W_r_172 : kernelRunB.sl.r_172 c i tbl = wordAt c tbl i ⟨18, by decide⟩ := by
  unfold kernelRunB.sl.r_172; exact word_of_off c tbl i ⟨18, by decide⟩ _ _ _ (k0_off41_eq i ⟨0, by decide⟩)
theorem W_r_171 : kernelRunB.sl.r_171 c i tbl = wordAt c tbl i ⟨19, by decide⟩ := by
  unfold kernelRunB.sl.r_171; exact word_of_off c tbl i ⟨19, by decide⟩ _ _ _ (k0_off39_eq i ⟨1, by decide⟩)
theorem W_r_180 : kernelRunB.sl.r_180 c i tbl = wordAt c tbl i ⟨19, by decide⟩ := by
  unfold kernelRunB.sl.r_180; exact word_of_off c tbl i ⟨19, by decide⟩ _ _ _ (k0_off43_eq i ⟨0, by decide⟩)
theorem W_r_179 : kernelRunB.sl.r_179 c i tbl = wordAt c tbl i ⟨20, by decide⟩ := by
  unfold kernelRunB.sl.r_179; exact word_of_off c tbl i ⟨20, by decide⟩ _ _ _ (k0_off41_eq i ⟨1, by decide⟩)
theorem W_r_189 : kernelRunB.sl.r_189 c i tbl = wordAt c tbl i ⟨20, by decide⟩ := by
  unfold kernelRunB.sl.r_189; exact word_of_off c tbl i ⟨20, by decide⟩ _ _ _ (k0_off45_eq i ⟨0, by decide⟩)
theorem W_r_188 : kernelRunB.sl.r_188 c i tbl = wordAt c tbl i ⟨21, by decide⟩ := by
  unfold kernelRunB.sl.r_188; exact word_of_off c tbl i ⟨21, by decide⟩ _ _ _ (k0_off43_eq i ⟨1, by decide⟩)
theorem W_r_199 : kernelRunB.sl.r_199 c i tbl = wordAt c tbl i ⟨21, by decide⟩ := by
  unfold kernelRunB.sl.r_199; exact word_of_off c tbl i ⟨21, by decide⟩ _ _ _ (k0_off47_eq i ⟨0, by decide⟩)
theorem W_r_198 : kernelRunB.sl.r_198 c i tbl = wordAt c tbl i ⟨22, by decide⟩ := by
  unfold kernelRunB.sl.r_198; exact word_of_off c tbl i ⟨22, by decide⟩ _ _ _ (k0_off45_eq i ⟨1, by decide⟩)
theorem W_r_208 : kernelRunB.sl.r_208 c i tbl = wordAt c tbl i ⟨22, by decide⟩ := by
  unfold kernelRunB.sl.r_208; exact word_of_off c tbl i ⟨22, by decide⟩ _ _ _ (k0_off49_eq i ⟨0, by decide⟩)
theorem W_r_207 : kernelRunB.sl.r_207 c i tbl = wordAt c tbl i ⟨23, by decide⟩ := by
  unfold kernelRunB.sl.r_207; exact word_of_off c tbl i ⟨23, by decide⟩ _ _ _ (k0_off47_eq i ⟨1, by decide⟩)
theorem W_r_218 : kernelRunB.sl.r_218 c i tbl = wordAt c tbl i ⟨23, by decide⟩ := by
  unfold kernelRunB.sl.r_218; exact word_of_off c tbl i ⟨23, by decide⟩ _ _ _ (k0_off51_eq i ⟨0, by decide⟩)
theorem W_r_217 : kernelRunB.sl.r_217 c i tbl = wordAt c tbl i ⟨24, by decide⟩ := by
  unfold kernelRunB.sl.r_217; exact word_of_off c tbl i ⟨24, by decide⟩ _ _ _ (k0_off49_eq i ⟨1, by decide⟩)
theorem W_r_228 : kernelRunB.sl.r_228 c i tbl = wordAt c tbl i ⟨24, by decide⟩ := by
  unfold kernelRunB.sl.r_228; exact word_of_off c tbl i ⟨24, by decide⟩ _ _ _ (k0_off53_eq i ⟨0, by decide⟩)
theorem W_r_227 : kernelRunB.sl.r_227 c i tbl = wordAt c tbl i ⟨25, by decide⟩ := by
  unfold kernelRunB.sl.r_227; exact word_of_off c tbl i ⟨25, by decide⟩ _ _ _ (k0_off51_eq i ⟨1, by decide⟩)
theorem W_r_237 : kernelRunB.sl.r_237 c i tbl = wordAt c tbl i ⟨25, by decide⟩ := by
  unfold kernelRunB.sl.r_237; exact word_of_off c tbl i ⟨25, by decide⟩ _ _ _ (k0_off55_eq i ⟨0, by decide⟩)
theorem W_r_236 : kernelRunB.sl.r_236 c i tbl = wordAt c tbl i ⟨26, by decide⟩ := by
  unfold kernelRunB.sl.r_236; exact word_of_off c tbl i ⟨26, by decide⟩ _ _ _ (k0_off53_eq i ⟨1, by decide⟩)
theorem W_r_246 : kernelRunB.sl.r_246 c i tbl = wordAt c tbl i ⟨26, by decide⟩ := by
  unfold kernelRunB.sl.r_246; exact word_of_off c tbl i ⟨26, by decide⟩ _ _ _ (k0_off57_eq i ⟨0, by decide⟩)
theorem W_r_245 : kernelRunB.sl.r_245 c i tbl = wordAt c tbl i ⟨27, by decide⟩ := by
  unfold kernelRunB.sl.r_245; exact word_of_off c tbl i ⟨27, by decide⟩ _ _ _ (k0_off55_eq i ⟨1, by decide⟩)
theorem W_r_255 : kernelRunB.sl.r_255 c i tbl = wordAt c tbl i ⟨27, by decide⟩ := by
  unfold kernelRunB.sl.r_255; exact word_of_off c tbl i ⟨27, by decide⟩ _ _ _ (k0_off59_eq i ⟨0, by decide⟩)
theorem W_r_254 : kernelRunB.sl.r_254 c i tbl = wordAt c tbl i ⟨28, by decide⟩ := by
  unfold kernelRunB.sl.r_254; exact word_of_off c tbl i ⟨28, by decide⟩ _ _ _ (k0_off57_eq i ⟨1, by decide⟩)
theorem W_r_263 : kernelRunB.sl.r_263 c i tbl = wordAt c tbl i ⟨28, by decide⟩ := by
  unfold kernelRunB.sl.r_263; exact word_of_off c tbl i ⟨28, by decide⟩ _ _ _ (k0_off61_eq i ⟨0, by decide⟩)
theorem W_r_262 : kernelRunB.sl.r_262 c i tbl = wordAt c tbl i ⟨29, by decide⟩ := by
  unfold kernelRunB.sl.r_262; exact word_of_off c tbl i ⟨29, by decide⟩ _ _ _ (k0_off59_eq i ⟨1, by decide⟩)
theorem W_r_273 : kernelRunB.sl.r_273 c i tbl = wordAt c tbl i ⟨29, by decide⟩ := by
  unfold kernelRunB.sl.r_273; exact word_of_off c tbl i ⟨29, by decide⟩ _ _ _ (k0_off63_eq i ⟨0, by decide⟩)
theorem W_r_270 : kernelRunB.sl.r_270 c i tbl = wordAt c tbl i ⟨30, by decide⟩ := by
  unfold kernelRunB.sl.r_270; exact word_of_off c tbl i ⟨30, by decide⟩ _ _ _ (k0_off61_eq i ⟨1, by decide⟩)
theorem W_r_280 : kernelRunB.sl.r_280 c i tbl = wordAt c tbl i ⟨30, by decide⟩ := by
  unfold kernelRunB.sl.r_280; exact word_of_off c tbl i ⟨30, by decide⟩ _ _ _ (k0_off65_eq i ⟨0, by decide⟩)
theorem W_r_279 : kernelRunB.sl.r_279 c i tbl = wordAt c tbl i ⟨31, by decide⟩ := by
  unfold kernelRunB.sl.r_279; exact word_of_off c tbl i ⟨31, by decide⟩ _ _ _ (k0_off63_eq i ⟨1, by decide⟩)
theorem W_r_289 : kernelRunB.sl.r_289 c i tbl = wordAt c tbl i ⟨31, by decide⟩ := by
  unfold kernelRunB.sl.r_289; exact word_of_off c tbl i ⟨31, by decide⟩ _ _ _ (k0_off67_eq i ⟨0, by decide⟩)
theorem W_r_288 : kernelRunB.sl.r_288 c i tbl = wordAt c tbl i ⟨32, by decide⟩ := by
  unfold kernelRunB.sl.r_288; exact word_of_off c tbl i ⟨32, by decide⟩ _ _ _ (k0_off65_eq i ⟨1, by decide⟩)
theorem W_r_301 : kernelRunB.sl.r_301 c i tbl = wordAt c tbl i ⟨32, by decide⟩ := by
  unfold kernelRunB.sl.r_301; exact word_of_off c tbl i ⟨32, by decide⟩ _ _ _ (k0_off69_eq i ⟨0, by decide⟩)
theorem W_r_298 : kernelRunB.sl.r_298 c i tbl = wordAt c tbl i ⟨33, by decide⟩ := by
  unfold kernelRunB.sl.r_298; exact word_of_off c tbl i ⟨33, by decide⟩ _ _ _ (k0_off67_eq i ⟨1, by decide⟩)
theorem W_r_310 : kernelRunB.sl.r_310 c i tbl = wordAt c tbl i ⟨33, by decide⟩ := by
  unfold kernelRunB.sl.r_310; exact word_of_off c tbl i ⟨33, by decide⟩ _ _ _ (k0_off71_eq i ⟨0, by decide⟩)
theorem W_r_309 : kernelRunB.sl.r_309 c i tbl = wordAt c tbl i ⟨34, by decide⟩ := by
  unfold kernelRunB.sl.r_309; exact word_of_off c tbl i ⟨34, by decide⟩ _ _ _ (k0_off69_eq i ⟨1, by decide⟩)
theorem W_r_320 : kernelRunB.sl.r_320 c i tbl = wordAt c tbl i ⟨34, by decide⟩ := by
  unfold kernelRunB.sl.r_320; exact word_of_off c tbl i ⟨34, by decide⟩ _ _ _ (k0_off73_eq i ⟨0, by decide⟩)
theorem W_r_319 : kernelRunB.sl.r_319 c i tbl = wordAt c tbl i ⟨35, by decide⟩ := by
  unfold kernelRunB.sl.r_319; exact word_of_off c tbl i ⟨35, by decide⟩ _ _ _ (k0_off71_eq i ⟨1, by decide⟩)
theorem W_r_331 : kernelRunB.sl.r_331 c i tbl = wordAt c tbl i ⟨35, by decide⟩ := by
  unfold kernelRunB.sl.r_331; exact word_of_off c tbl i ⟨35, by decide⟩ _ _ _ (k0_off75_eq i ⟨0, by decide⟩)
theorem W_r_329 : kernelRunB.sl.r_329 c i tbl = wordAt c tbl i ⟨36, by decide⟩ := by
  unfold kernelRunB.sl.r_329; exact word_of_off c tbl i ⟨36, by decide⟩ _ _ _ (k0_off73_eq i ⟨1, by decide⟩)
theorem W_r_340 : kernelRunB.sl.r_340 c i tbl = wordAt c tbl i ⟨36, by decide⟩ := by
  unfold kernelRunB.sl.r_340; exact word_of_off c tbl i ⟨36, by decide⟩ _ _ _ (k0_off77_eq i ⟨0, by decide⟩)
theorem W_r_339 : kernelRunB.sl.r_339 c i tbl = wordAt c tbl i ⟨37, by decide⟩ := by
  unfold kernelRunB.sl.r_339; exact word_of_off c tbl i ⟨37, by decide⟩ _ _ _ (k0_off75_eq i ⟨1, by decide⟩)
theorem W_r_349 : kernelRunB.sl.r_349 c i tbl = wordAt c tbl i ⟨37, by decide⟩ := by
  unfold kernelRunB.sl.r_349; exact word_of_off c tbl i ⟨37, by decide⟩ _ _ _ (k0_off79_eq i ⟨0, by decide⟩)
theorem W_r_348 : kernelRunB.sl.r_348 c i tbl = wordAt c tbl i ⟨38, by decide⟩ := by
  unfold kernelRunB.sl.r_348; exact word_of_off c tbl i ⟨38, by decide⟩ _ _ _ (k0_off77_eq i ⟨1, by decide⟩)
theorem W_r_359 : kernelRunB.sl.r_359 c i tbl = wordAt c tbl i ⟨38, by decide⟩ := by
  unfold kernelRunB.sl.r_359; exact word_of_off c tbl i ⟨38, by decide⟩ _ _ _ (k0_off81_eq i ⟨0, by decide⟩)
theorem W_r_358 : kernelRunB.sl.r_358 c i tbl = wordAt c tbl i ⟨39, by decide⟩ := by
  unfold kernelRunB.sl.r_358; exact word_of_off c tbl i ⟨39, by decide⟩ _ _ _ (k0_off79_eq i ⟨1, by decide⟩)
theorem W_r_367 : kernelRunB.sl.r_367 c i tbl = wordAt c tbl i ⟨39, by decide⟩ := by
  unfold kernelRunB.sl.r_367; exact word_of_off c tbl i ⟨39, by decide⟩ _ _ _ (k0_off83_eq i ⟨0, by decide⟩)
theorem W_r_366 : kernelRunB.sl.r_366 c i tbl = wordAt c tbl i ⟨40, by decide⟩ := by
  unfold kernelRunB.sl.r_366; exact word_of_off c tbl i ⟨40, by decide⟩ _ _ _ (k0_off81_eq i ⟨1, by decide⟩)
theorem W_r_376 : kernelRunB.sl.r_376 c i tbl = wordAt c tbl i ⟨40, by decide⟩ := by
  unfold kernelRunB.sl.r_376; exact word_of_off c tbl i ⟨40, by decide⟩ _ _ _ (k0_off85_eq i ⟨0, by decide⟩)
theorem W_r_375 : kernelRunB.sl.r_375 c i tbl = wordAt c tbl i ⟨41, by decide⟩ := by
  unfold kernelRunB.sl.r_375; exact word_of_off c tbl i ⟨41, by decide⟩ _ _ _ (k0_off83_eq i ⟨1, by decide⟩)
theorem W_r_386 : kernelRunB.sl.r_386 c i tbl = wordAt c tbl i ⟨41, by decide⟩ := by
  unfold kernelRunB.sl.r_386; exact word_of_off c tbl i ⟨41, by decide⟩ _ _ _ (k0_off87_eq i ⟨0, by decide⟩)
theorem W_r_385 : kernelRunB.sl.r_385 c i tbl = wordAt c tbl i ⟨42, by decide⟩ := by
  unfold kernelRunB.sl.r_385; exact word_of_off c tbl i ⟨42, by decide⟩ _ _ _ (k0_off85_eq i ⟨1, by decide⟩)
theorem W_r_395 : kernelRunB.sl.r_395 c i tbl = wordAt c tbl i ⟨42, by decide⟩ := by
  unfold kernelRunB.sl.r_395; exact word_of_off c tbl i ⟨42, by decide⟩ _ _ _ (k0_off89_eq i ⟨0, by decide⟩)
theorem W_r_394 : kernelRunB.sl.r_394 c i tbl = wordAt c tbl i ⟨43, by decide⟩ := by
  unfold kernelRunB.sl.r_394; exact word_of_off c tbl i ⟨43, by decide⟩ _ _ _ (k0_off87_eq i ⟨1, by decide⟩)
theorem W_r_405 : kernelRunB.sl.r_405 c i tbl = wordAt c tbl i ⟨43, by decide⟩ := by
  unfold kernelRunB.sl.r_405; exact word_of_off c tbl i ⟨43, by decide⟩ _ _ _ (k0_off91_eq i ⟨0, by decide⟩)
theorem W_r_404 : kernelRunB.sl.r_404 c i tbl = wordAt c tbl i ⟨44, by decide⟩ := by
  unfold kernelRunB.sl.r_404; exact word_of_off c tbl i ⟨44, by decide⟩ _ _ _ (k0_off89_eq i ⟨1, by decide⟩)
theorem W_r_415 : kernelRunB.sl.r_415 c i tbl = wordAt c tbl i ⟨44, by decide⟩ := by
  unfold kernelRunB.sl.r_415; exact word_of_off c tbl i ⟨44, by decide⟩ _ _ _ (k0_off93_eq i ⟨0, by decide⟩)
theorem W_r_414 : kernelRunB.sl.r_414 c i tbl = wordAt c tbl i ⟨45, by decide⟩ := by
  unfold kernelRunB.sl.r_414; exact word_of_off c tbl i ⟨45, by decide⟩ _ _ _ (k0_off91_eq i ⟨1, by decide⟩)
theorem W_r_424 : kernelRunB.sl.r_424 c i tbl = wordAt c tbl i ⟨45, by decide⟩ := by
  unfold kernelRunB.sl.r_424; exact word_of_off c tbl i ⟨45, by decide⟩ _ _ _ (k0_off95_eq i ⟨0, by decide⟩)
theorem W_r_423 : kernelRunB.sl.r_423 c i tbl = wordAt c tbl i ⟨46, by decide⟩ := by
  unfold kernelRunB.sl.r_423; exact word_of_off c tbl i ⟨46, by decide⟩ _ _ _ (k0_off93_eq i ⟨1, by decide⟩)
theorem W_r_433 : kernelRunB.sl.r_433 c i tbl = wordAt c tbl i ⟨46, by decide⟩ := by
  unfold kernelRunB.sl.r_433; exact word_of_off c tbl i ⟨46, by decide⟩ _ _ _ (k0_off97_eq i ⟨0, by decide⟩)
theorem W_r_432 : kernelRunB.sl.r_432 c i tbl = wordAt c tbl i ⟨47, by decide⟩ := by
  unfold kernelRunB.sl.r_432; exact word_of_off c tbl i ⟨47, by decide⟩ _ _ _ (k0_off95_eq i ⟨1, by decide⟩)
theorem W_r_442 : kernelRunB.sl.r_442 c i tbl = wordAt c tbl i ⟨47, by decide⟩ := by
  unfold kernelRunB.sl.r_442; exact word_of_off c tbl i ⟨47, by decide⟩ _ _ _ (k0_off99_eq i ⟨0, by decide⟩)
theorem W_r_441 : kernelRunB.sl.r_441 c i tbl = wordAt c tbl i ⟨48, by decide⟩ := by
  unfold kernelRunB.sl.r_441; exact word_of_off c tbl i ⟨48, by decide⟩ _ _ _ (k0_off97_eq i ⟨1, by decide⟩)
theorem W_r_450 : kernelRunB.sl.r_450 c i tbl = wordAt c tbl i ⟨48, by decide⟩ := by
  unfold kernelRunB.sl.r_450; exact word_of_off c tbl i ⟨48, by decide⟩ _ _ _ (k0_off101_eq i ⟨0, by decide⟩)
theorem W_r_449 : kernelRunB.sl.r_449 c i tbl = wordAt c tbl i ⟨49, by decide⟩ := by
  unfold kernelRunB.sl.r_449; exact word_of_off c tbl i ⟨49, by decide⟩ _ _ _ (k0_off99_eq i ⟨1, by decide⟩)
theorem W_r_460 : kernelRunB.sl.r_460 c i tbl = wordAt c tbl i ⟨49, by decide⟩ := by
  unfold kernelRunB.sl.r_460; exact word_of_off c tbl i ⟨49, by decide⟩ _ _ _ (k0_off103_eq i ⟨0, by decide⟩)
theorem W_r_457 : kernelRunB.sl.r_457 c i tbl = wordAt c tbl i ⟨50, by decide⟩ := by
  unfold kernelRunB.sl.r_457; exact word_of_off c tbl i ⟨50, by decide⟩ _ _ _ (k0_off101_eq i ⟨1, by decide⟩)
theorem W_r_467 : kernelRunB.sl.r_467 c i tbl = wordAt c tbl i ⟨50, by decide⟩ := by
  unfold kernelRunB.sl.r_467; exact word_of_off c tbl i ⟨50, by decide⟩ _ _ _ (k0_off105_eq i ⟨0, by decide⟩)
theorem W_r_466 : kernelRunB.sl.r_466 c i tbl = wordAt c tbl i ⟨51, by decide⟩ := by
  unfold kernelRunB.sl.r_466; exact word_of_off c tbl i ⟨51, by decide⟩ _ _ _ (k0_off103_eq i ⟨1, by decide⟩)
theorem W_r_476 : kernelRunB.sl.r_476 c i tbl = wordAt c tbl i ⟨51, by decide⟩ := by
  unfold kernelRunB.sl.r_476; exact word_of_off c tbl i ⟨51, by decide⟩ _ _ _ (k0_off107_eq i ⟨0, by decide⟩)
theorem W_r_475 : kernelRunB.sl.r_475 c i tbl = wordAt c tbl i ⟨52, by decide⟩ := by
  unfold kernelRunB.sl.r_475; exact word_of_off c tbl i ⟨52, by decide⟩ _ _ _ (k0_off105_eq i ⟨1, by decide⟩)
theorem W_r_488 : kernelRunB.sl.r_488 c i tbl = wordAt c tbl i ⟨52, by decide⟩ := by
  unfold kernelRunB.sl.r_488; exact word_of_off c tbl i ⟨52, by decide⟩ _ _ _ (k0_off109_eq i ⟨0, by decide⟩)
theorem W_r_485 : kernelRunB.sl.r_485 c i tbl = wordAt c tbl i ⟨53, by decide⟩ := by
  unfold kernelRunB.sl.r_485; exact word_of_off c tbl i ⟨53, by decide⟩ _ _ _ (k0_off107_eq i ⟨1, by decide⟩)
theorem W_r_497 : kernelRunB.sl.r_497 c i tbl = wordAt c tbl i ⟨53, by decide⟩ := by
  unfold kernelRunB.sl.r_497; exact word_of_off c tbl i ⟨53, by decide⟩ _ _ _ (k0_off111_eq i ⟨0, by decide⟩)
theorem W_r_496 : kernelRunB.sl.r_496 c i tbl = wordAt c tbl i ⟨54, by decide⟩ := by
  unfold kernelRunB.sl.r_496; exact word_of_off c tbl i ⟨54, by decide⟩ _ _ _ (k0_off109_eq i ⟨1, by decide⟩)
theorem W_r_507 : kernelRunB.sl.r_507 c i tbl = wordAt c tbl i ⟨54, by decide⟩ := by
  unfold kernelRunB.sl.r_507; exact word_of_off c tbl i ⟨54, by decide⟩ _ _ _ (k0_off113_eq i ⟨0, by decide⟩)
theorem W_r_506 : kernelRunB.sl.r_506 c i tbl = wordAt c tbl i ⟨55, by decide⟩ := by
  unfold kernelRunB.sl.r_506; exact word_of_off c tbl i ⟨55, by decide⟩ _ _ _ (k0_off111_eq i ⟨1, by decide⟩)
theorem W_r_518 : kernelRunB.sl.r_518 c i tbl = wordAt c tbl i ⟨55, by decide⟩ := by
  unfold kernelRunB.sl.r_518; exact word_of_off c tbl i ⟨55, by decide⟩ _ _ _ (k0_off115_eq i ⟨0, by decide⟩)
theorem W_r_516 : kernelRunB.sl.r_516 c i tbl = wordAt c tbl i ⟨56, by decide⟩ := by
  unfold kernelRunB.sl.r_516; exact word_of_off c tbl i ⟨56, by decide⟩ _ _ _ (k0_off113_eq i ⟨1, by decide⟩)
theorem W_r_527 : kernelRunB.sl.r_527 c i tbl = wordAt c tbl i ⟨56, by decide⟩ := by
  unfold kernelRunB.sl.r_527; exact word_of_off c tbl i ⟨56, by decide⟩ _ _ _ (k0_off117_eq i ⟨0, by decide⟩)
theorem W_r_526 : kernelRunB.sl.r_526 c i tbl = wordAt c tbl i ⟨57, by decide⟩ := by
  unfold kernelRunB.sl.r_526; exact word_of_off c tbl i ⟨57, by decide⟩ _ _ _ (k0_off115_eq i ⟨1, by decide⟩)
theorem W_r_536 : kernelRunB.sl.r_536 c i tbl = wordAt c tbl i ⟨57, by decide⟩ := by
  unfold kernelRunB.sl.r_536; exact word_of_off c tbl i ⟨57, by decide⟩ _ _ _ (k0_off119_eq i ⟨0, by decide⟩)
theorem W_r_535 : kernelRunB.sl.r_535 c i tbl = wordAt c tbl i ⟨58, by decide⟩ := by
  unfold kernelRunB.sl.r_535; exact word_of_off c tbl i ⟨58, by decide⟩ _ _ _ (k0_off117_eq i ⟨1, by decide⟩)
theorem W_r_546 : kernelRunB.sl.r_546 c i tbl = wordAt c tbl i ⟨58, by decide⟩ := by
  unfold kernelRunB.sl.r_546; exact word_of_off c tbl i ⟨58, by decide⟩ _ _ _ (k0_off121_eq i ⟨0, by decide⟩)
theorem W_r_545 : kernelRunB.sl.r_545 c i tbl = wordAt c tbl i ⟨59, by decide⟩ := by
  unfold kernelRunB.sl.r_545; exact word_of_off c tbl i ⟨59, by decide⟩ _ _ _ (k0_off119_eq i ⟨1, by decide⟩)
theorem W_r_554 : kernelRunB.sl.r_554 c i tbl = wordAt c tbl i ⟨59, by decide⟩ := by
  unfold kernelRunB.sl.r_554; exact word_of_off c tbl i ⟨59, by decide⟩ _ _ _ (k0_off123_eq i ⟨0, by decide⟩)
theorem W_r_553 : kernelRunB.sl.r_553 c i tbl = wordAt c tbl i ⟨60, by decide⟩ := by
  unfold kernelRunB.sl.r_553; exact word_of_off c tbl i ⟨60, by decide⟩ _ _ _ (k0_off121_eq i ⟨1, by decide⟩)
theorem W_r_563 : kernelRunB.sl.r_563 c i tbl = wordAt c tbl i ⟨60, by decide⟩ := by
  unfold kernelRunB.sl.r_563; exact word_of_off c tbl i ⟨60, by decide⟩ _ _ _ (k0_off125_eq i ⟨0, by decide⟩)
theorem W_r_562 : kernelRunB.sl.r_562 c i tbl = wordAt c tbl i ⟨61, by decide⟩ := by
  unfold kernelRunB.sl.r_562; exact word_of_off c tbl i ⟨61, by decide⟩ _ _ _ (k0_off123_eq i ⟨1, by decide⟩)
theorem W_r_573 : kernelRunB.sl.r_573 c i tbl = wordAt c tbl i ⟨61, by decide⟩ := by
  unfold kernelRunB.sl.r_573; exact word_of_off c tbl i ⟨61, by decide⟩ _ _ _ (k0_off127_eq i ⟨0, by decide⟩)
theorem W_r_572 : kernelRunB.sl.r_572 c i tbl = wordAt c tbl i ⟨62, by decide⟩ := by
  unfold kernelRunB.sl.r_572; exact word_of_off c tbl i ⟨62, by decide⟩ _ _ _ (k0_off125_eq i ⟨1, by decide⟩)
theorem W_r_582 : kernelRunB.sl.r_582 c i tbl = wordAt c tbl i ⟨62, by decide⟩ := by
  unfold kernelRunB.sl.r_582; exact word_of_off c tbl i ⟨62, by decide⟩ _ _ _ (k0_off129_eq i ⟨0, by decide⟩)
theorem W_r_581 : kernelRunB.sl.r_581 c i tbl = wordAt c tbl i ⟨63, by decide⟩ := by
  unfold kernelRunB.sl.r_581; exact word_of_off c tbl i ⟨63, by decide⟩ _ _ _ (k0_off127_eq i ⟨1, by decide⟩)
theorem W_r_591 : kernelRunB.sl.r_591 c i tbl = wordAt c tbl i ⟨63, by decide⟩ := by
  unfold kernelRunB.sl.r_591; exact word_of_off c tbl i ⟨63, by decide⟩ _ _ _ (k0_off129_eq i ⟨1, by decide⟩)
theorem D_dma1 : kernelRunB.sl.dma1 c i tbl hT sim = simRow c sim (wordAt c tbl i ⟨0, by decide⟩) := by
  unfold kernelRunB.sl.dma1; exact (copy_eq_simRow c sim (kernelRunB.sl.r c i tbl) (hT _) _ rfl _ _).trans (congrArg (simRow c sim) (W_r c i tbl))
theorem D_dma2 : kernelRunB.sl.dma2 c i tbl hT sim = simRow c sim (wordAt c tbl i ⟨1, by decide⟩) := by
  unfold kernelRunB.sl.dma2; exact (copy_eq_simRow c sim (kernelRunB.sl.r_1 c i tbl) (hT _) _ rfl _ _).trans (congrArg (simRow c sim) (W_r_1 c i tbl))
theorem D_dma25 : kernelRunB.sl.dma25 c i tbl hT sim = simRow c sim (wordAt c tbl i ⟨2, by decide⟩) := by
  unfold kernelRunB.sl.dma25; exact (copy_eq_simRow c sim (kernelRunB.sl.r_11 c i tbl) (hT _) _ rfl _ _).trans (congrArg (simRow c sim) (W_r_11 c i tbl))
theorem D_dma48 : kernelRunB.sl.dma48 c i tbl hT sim = simRow c sim (wordAt c tbl i ⟨3, by decide⟩) := by
  unfold kernelRunB.sl.dma48; exact (copy_eq_simRow c sim (kernelRunB.sl.r_20 c i tbl) (hT _) _ rfl _ _).trans (congrArg (simRow c sim) (W_r_20 c i tbl))
theorem D_dma71 : kernelRunB.sl.dma71 c i tbl hT sim = simRow c sim (wordAt c tbl i ⟨4, by decide⟩) := by
  unfold kernelRunB.sl.dma71; exact (copy_eq_simRow c sim (kernelRunB.sl.r_30 c i tbl) (hT _) _ rfl _ _).trans (congrArg (simRow c sim) (W_r_30 c i tbl))
theorem D_dma94 : kernelRunB.sl.dma94 c i tbl hT sim = simRow c sim (wordAt c tbl i ⟨5, by decide⟩) := by
  unfold kernelRunB.sl.dma94; exact (copy_eq_simRow c sim (kernelRunB.sl.r_40 c i tbl) (hT _) _ rfl _ _).trans (congrArg (simRow c sim) (W_r_40 c i tbl))
theorem D_dma117 : kernelRunB.sl.dma117 c i tbl hT sim = simRow c sim (wordAt c tbl i ⟨6, by decide⟩) := by
  unfold kernelRunB.sl.dma117; exact (copy_eq_simRow c sim (kernelRunB.sl.r_49 c i tbl) (hT _) _ rfl _ _).trans (congrArg (simRow c sim) (W_r_49 c i tbl))
theorem D_dma140 : kernelRunB.sl.dma140 c i tbl hT sim = simRow c sim (wordAt c tbl i ⟨7, by decide⟩) := by
  unfold kernelRunB.sl.dma140; exact (copy_eq_simRow c sim (kernelRunB.sl.r_58 c i tbl) (hT _) _ rfl _ _).trans (congrArg (simRow c sim) (W_r_58 c i tbl))
theorem D_dma163 : kernelRunB.sl.dma163 c i tbl hT sim = simRow c sim (wordAt c tbl i ⟨8, by decide⟩) := by
  unfold kernelRunB.sl.dma163; exact (copy_eq_simRow c sim (kernelRunB.sl.r_67 c i tbl) (hT _) _ rfl _ _).trans (congrArg (simRow c sim) (W_r_67 c i tbl))
theorem D_dma186 : kernelRunB.sl.dma186 c i tbl hT sim = simRow c sim (wordAt c tbl i ⟨9, by decide⟩) := by
  unfold kernelRunB.sl.dma186; exact (copy_eq_simRow c sim (kernelRunB.sl.r_75 c i tbl) (hT _) _ rfl _ _).trans (congrArg (simRow c sim) (W_r_75 c i tbl))
theorem D_dma209 : kernelRunB.sl.dma209 c i tbl hT sim = simRow c sim (wordAt c tbl i ⟨10, by decide⟩) := by
  unfold kernelRunB.sl.dma209; exact (copy_eq_simRow c sim (kernelRunB.sl.r_83 c i tbl) (hT _) _ rfl _ _).trans (congrArg (simRow c sim) (W_r_83 c i tbl))
theorem D_dma232 : kernelRunB.sl.dma232 c i tbl hT sim = simRow c sim (wordAt c tbl i ⟨11, by decide⟩) := by
  unfold kernelRunB.sl.dma232; exact (copy_eq_simRow c sim (kernelRunB.sl.r_92 c i tbl) (hT _) _ rfl _ _).trans (congrArg (simRow c sim) (W_r_92 c i tbl))
theorem D_dma255 : kernelRunB.sl.dma255 c i tbl hT sim = simRow c sim (wordAt c tbl i ⟨12, by decide⟩) := by
  unfold kernelRunB.sl.dma255; exact (copy_eq_simRow c sim (kernelRunB.sl.r_101 c i tbl) (hT _) _ rfl _ _).trans (congrArg (simRow c sim) (W_r_101 c i tbl))
theorem D_dma278 : kernelRunB.sl.dma278 c i tbl hT sim = simRow c sim (wordAt c tbl i ⟨13, by decide⟩) := by
  unfold kernelRunB.sl.dma278; exact (copy_eq_simRow c sim (kernelRunB.sl.r_111 c i tbl) (hT _) _ rfl _ _).trans (congrArg (simRow c sim) (W_r_111 c i tbl))
theorem D_dma301 : kernelRunB.sl.dma301 c i tbl hT sim = simRow c sim (wordAt c tbl i ⟨14, by decide⟩) := by
  unfold kernelRunB.sl.dma301; exact (copy_eq_simRow c sim (kernelRunB.sl.r_122 c i tbl) (hT _) _ rfl _ _).trans (congrArg (simRow c sim) (W_r_122 c i tbl))
theorem D_dma324 : kernelRunB.sl.dma324 c i tbl hT sim = simRow c sim (wordAt c tbl i ⟨15, by decide⟩) := by
  unfold kernelRunB.sl.dma324; exact (copy_eq_simRow c sim (kernelRunB.sl.r_132 c i tbl) (hT _) _ rfl _ _).trans (congrArg (simRow c sim) (W_r_132 c i tbl))
theorem D_dma347 : kernelRunB.sl.dma347 c i tbl hT sim = simRow c sim (wordAt c tbl i ⟨16, by decide⟩) := by
  unfold kernelRunB.sl.dma347; exact (copy_eq_simRow c sim (kernelRunB.sl.r_142 c i tbl) (hT _) _ rfl _ _).trans (congrArg (simRow c sim) (W_r_142 c i tbl))
theorem D_dma370 : kernelRunB.sl.dma370 c i tbl hT sim = simRow c sim (wordAt c tbl i ⟨17, by decide⟩) := by
  unfold kernelRunB.sl.dma370; exact (copy_eq_simRow c sim (kernelRunB.sl.r_152 c i tbl) (hT _) _ rfl _ _).trans (congrArg (simRow c sim) (W_r_152 c i tbl))
theorem D_dma393 : kernelRunB.sl.dma393 c i tbl hT sim = simRow c sim (wordAt c tbl i ⟨18, by decide⟩) := by
  unfold kernelRunB.sl.dma393; exact (copy_eq_simRow c sim (kernelRunB.sl.r_161 c i tbl) (hT _) _ rfl _ _).trans (congrArg (simRow c sim) (W_r_161 c i tbl))
theorem D_dma416 : kernelRunB.sl.dma416 c i tbl hT sim = simRow c sim (wordAt c tbl i ⟨19, by decide⟩) := by
  unfold kernelRunB.sl.dma416; exact (copy_eq_simRow c sim (kernelRunB.sl.r_171 c i tbl) (hT _) _ rfl _ _).trans (congrArg (simRow c sim) (W_r_171 c i tbl))
theorem D_dma439 : kernelRunB.sl.dma439 c i tbl hT sim = simRow c sim (wordAt c tbl i ⟨20, by decide⟩) := by
  unfold kernelRunB.sl.dma439; exact (copy_eq_simRow c sim (kernelRunB.sl.r_179 c i tbl) (hT _) _ rfl _ _).trans (congrArg (simRow c sim) (W_r_179 c i tbl))
theorem D_dma462 : kernelRunB.sl.dma462 c i tbl hT sim = simRow c sim (wordAt c tbl i ⟨21, by decide⟩) := by
  unfold kernelRunB.sl.dma462; exact (copy_eq_simRow c sim (kernelRunB.sl.r_188 c i tbl) (hT _) _ rfl _ _).trans (congrArg (simRow c sim) (W_r_188 c i tbl))
theorem D_dma485 : kernelRunB.sl.dma485 c i tbl hT sim = simRow c sim (wordAt c tbl i ⟨22, by decide⟩) := by
  unfold kernelRunB.sl.dma485; exact (copy_eq_simRow c sim (kernelRunB.sl.r_198 c i tbl) (hT _) _ rfl _ _).trans (congrArg (simRow c sim) (W_r_198 c i tbl))
theorem D_dma508 : kernelRunB.sl.dma508 c i tbl hT sim = simRow c sim (wordAt c tbl i ⟨23, by decide⟩) := by
  unfold kernelRunB.sl.dma508; exact (copy_eq_simRow c sim (kernelRunB.sl.r_207 c i tbl) (hT _) _ rfl _ _).trans (congrArg (simRow c sim) (W_r_207 c i tbl))
theorem D_dma531 : kernelRunB.sl.dma531 c i tbl hT sim = simRow c sim (wordAt c tbl i ⟨24, by decide⟩) := by
  unfold kernelRunB.sl.dma531; exact (copy_eq_simRow c sim (kernelRunB.sl.r_217 c i tbl) (hT _) _ rfl _ _).trans (congrArg (simRow c sim) (W_r_217 c i tbl))
theorem D_dma554 : kernelRunB.sl.dma554 c i tbl hT sim = simRow c sim (wordAt c tbl i ⟨25, by decide⟩) := by
  unfold kernelRunB.sl.dma554; exact (copy_eq_simRow c sim (kernelRunB.sl.r_227 c i tbl) (hT _) _ rfl _ _).trans (congrArg (simRow c sim) (W_r_227 c i tbl))
theorem D_dma577 : kernelRunB.sl.dma577 c i tbl hT sim = simRow c sim (wordAt c tbl i ⟨26, by decide⟩) := by
  unfold kernelRunB.sl.dma577; exact (copy_eq_simRow c sim (kernelRunB.sl.r_236 c i tbl) (hT _) _ rfl _ _).trans (congrArg (simRow c sim) (W_r_236 c i tbl))
theorem D_dma600 : kernelRunB.sl.dma600 c i tbl hT sim = simRow c sim (wordAt c tbl i ⟨27, by decide⟩) := by
  unfold kernelRunB.sl.dma600; exact (copy_eq_simRow c sim (kernelRunB.sl.r_245 c i tbl) (hT _) _ rfl _ _).trans (congrArg (simRow c sim) (W_r_245 c i tbl))
theorem D_dma623 : kernelRunB.sl.dma623 c i tbl hT sim = simRow c sim (wordAt c tbl i ⟨28, by decide⟩) := by
  unfold kernelRunB.sl.dma623; exact (copy_eq_simRow c sim (kernelRunB.sl.r_254 c i tbl) (hT _) _ rfl _ _).trans (congrArg (simRow c sim) (W_r_254 c i tbl))
theorem D_dma646 : kernelRunB.sl.dma646 c i tbl hT sim = simRow c sim (wordAt c tbl i ⟨29, by decide⟩) := by
  unfold kernelRunB.sl.dma646; exact (copy_eq_simRow c sim (kernelRunB.sl.r_262 c i tbl) (hT _) _ rfl _ _).trans (congrArg (simRow c sim) (W_r_262 c i tbl))
theorem D_dma669 : kernelRunB.sl.dma669 c i tbl hT sim = simRow c sim (wordAt c tbl i ⟨30, by decide⟩) := by
  unfold kernelRunB.sl.dma669; exact (copy_eq_simRow c sim (kernelRunB.sl.r_270 c i tbl) (hT _) _ rfl _ _).trans (congrArg (simRow c sim) (W_r_270 c i tbl))
theorem D_dma692 : kernelRunB.sl.dma692 c i tbl hT sim = simRow c sim (wordAt c tbl i ⟨31, by decide⟩) := by
  unfold kernelRunB.sl.dma692; exact (copy_eq_simRow c sim (kernelRunB.sl.r_279 c i tbl) (hT _) _ rfl _ _).trans (congrArg (simRow c sim) (W_r_279 c i tbl))
theorem D_dma715 : kernelRunB.sl.dma715 c i tbl hT sim = simRow c sim (wordAt c tbl i ⟨32, by decide⟩) := by
  unfold kernelRunB.sl.dma715; exact (copy_eq_simRow c sim (kernelRunB.sl.r_288 c i tbl) (hT _) _ rfl _ _).trans (congrArg (simRow c sim) (W_r_288 c i tbl))
theorem D_dma738 : kernelRunB.sl.dma738 c i tbl hT sim = simRow c sim (wordAt c tbl i ⟨33, by decide⟩) := by
  unfold kernelRunB.sl.dma738; exact (copy_eq_simRow c sim (kernelRunB.sl.r_298 c i tbl) (hT _) _ rfl _ _).trans (congrArg (simRow c sim) (W_r_298 c i tbl))
theorem D_dma761 : kernelRunB.sl.dma761 c i tbl hT sim = simRow c sim (wordAt c tbl i ⟨34, by decide⟩) := by
  unfold kernelRunB.sl.dma761; exact (copy_eq_simRow c sim (kernelRunB.sl.r_309 c i tbl) (hT _) _ rfl _ _).trans (congrArg (simRow c sim) (W_r_309 c i tbl))
theorem D_dma784 : kernelRunB.sl.dma784 c i tbl hT sim = simRow c sim (wordAt c tbl i ⟨35, by decide⟩) := by
  unfold kernelRunB.sl.dma784; exact (copy_eq_simRow c sim (kernelRunB.sl.r_319 c i tbl) (hT _) _ rfl _ _).trans (congrArg (simRow c sim) (W_r_319 c i tbl))
theorem D_dma807 : kernelRunB.sl.dma807 c i tbl hT sim = simRow c sim (wordAt c tbl i ⟨36, by decide⟩) := by
  unfold kernelRunB.sl.dma807; exact (copy_eq_simRow c sim (kernelRunB.sl.r_329 c i tbl) (hT _) _ rfl _ _).trans (congrArg (simRow c sim) (W_r_329 c i tbl))
theorem D_dma830 : kernelRunB.sl.dma830 c i tbl hT sim = simRow c sim (wordAt c tbl i ⟨37, by decide⟩) := by
  unfold kernelRunB.sl.dma830; exact (copy_eq_simRow c sim (kernelRunB.sl.r_339 c i tbl) (hT _) _ rfl _ _).trans (congrArg (simRow c sim) (W_r_339 c i tbl))
theorem D_dma853 : kernelRunB.sl.dma853 c i tbl hT sim = simRow c sim (wordAt c tbl i ⟨38, by decide⟩) := by
  unfold kernelRunB.sl.dma853; exact (copy_eq_simRow c sim (kernelRunB.sl.r_348 c i tbl) (hT _) _ rfl _ _).trans (congrArg (simRow c sim) (W_r_348 c i tbl))
theorem D_dma876 : kernelRunB.sl.dma876 c i tbl hT sim = simRow c sim (wordAt c tbl i ⟨39, by decide⟩) := by
  unfold kernelRunB.sl.dma876; exact (copy_eq_simRow c sim (kernelRunB.sl.r_358 c i tbl) (hT _) _ rfl _ _).trans (congrArg (simRow c sim) (W_r_358 c i tbl))
theorem D_dma899 : kernelRunB.sl.dma899 c i tbl hT sim = simRow c sim (wordAt c tbl i ⟨40, by decide⟩) := by
  unfold kernelRunB.sl.dma899; exact (copy_eq_simRow c sim (kernelRunB.sl.r_366 c i tbl) (hT _) _ rfl _ _).trans (congrArg (simRow c sim) (W_r_366 c i tbl))
theorem D_dma922 : kernelRunB.sl.dma922 c i tbl hT sim = simRow c sim (wordAt c tbl i ⟨41, by decide⟩) := by
  unfold kernelRunB.sl.dma922; exact (copy_eq_simRow c sim (kernelRunB.sl.r_375 c i tbl) (hT _) _ rfl _ _).trans (congrArg (simRow c sim) (W_r_375 c i tbl))
theorem D_dma945 : kernelRunB.sl.dma945 c i tbl hT sim = simRow c sim (wordAt c tbl i ⟨42, by decide⟩) := by
  unfold kernelRunB.sl.dma945; exact (copy_eq_simRow c sim (kernelRunB.sl.r_385 c i tbl) (hT _) _ rfl _ _).trans (congrArg (simRow c sim) (W_r_385 c i tbl))
theorem D_dma968 : kernelRunB.sl.dma968 c i tbl hT sim = simRow c sim (wordAt c tbl i ⟨43, by decide⟩) := by
  unfold kernelRunB.sl.dma968; exact (copy_eq_simRow c sim (kernelRunB.sl.r_394 c i tbl) (hT _) _ rfl _ _).trans (congrArg (simRow c sim) (W_r_394 c i tbl))
theorem D_dma991 : kernelRunB.sl.dma991 c i tbl hT sim = simRow c sim (wordAt c tbl i ⟨44, by decide⟩) := by
  unfold kernelRunB.sl.dma991; exact (copy_eq_simRow c sim (kernelRunB.sl.r_404 c i tbl) (hT _) _ rfl _ _).trans (congrArg (simRow c sim) (W_r_404 c i tbl))
theorem D_dma1014 : kernelRunB.sl.dma1014 c i tbl hT sim = simRow c sim (wordAt c tbl i ⟨45, by decide⟩) := by
  unfold kernelRunB.sl.dma1014; exact (copy_eq_simRow c sim (kernelRunB.sl.r_414 c i tbl) (hT _) _ rfl _ _).trans (congrArg (simRow c sim) (W_r_414 c i tbl))
theorem D_dma1037 : kernelRunB.sl.dma1037 c i tbl hT sim = simRow c sim (wordAt c tbl i ⟨46, by decide⟩) := by
  unfold kernelRunB.sl.dma1037; exact (copy_eq_simRow c sim (kernelRunB.sl.r_423 c i tbl) (hT _) _ rfl _ _).trans (congrArg (simRow c sim) (W_r_423 c i tbl))
theorem D_dma1060 : kernelRunB.sl.dma1060 c i tbl hT sim = simRow c sim (wordAt c tbl i ⟨47, by decide⟩) := by
  unfold kernelRunB.sl.dma1060; exact (copy_eq_simRow c sim (kernelRunB.sl.r_432 c i tbl) (hT _) _ rfl _ _).trans (congrArg (simRow c sim) (W_r_432 c i tbl))
theorem D_dma1083 : kernelRunB.sl.dma1083 c i tbl hT sim = simRow c sim (wordAt c tbl i ⟨48, by decide⟩) := by
  unfold kernelRunB.sl.dma1083; exact (copy_eq_simRow c sim (kernelRunB.sl.r_441 c i tbl) (hT _) _ rfl _ _).trans (congrArg (simRow c sim) (W_r_441 c i tbl))
theorem D_dma1106 : kernelRunB.sl.dma1106 c i tbl hT sim = simRow c sim (wordAt c tbl i ⟨49, by decide⟩) := by
  unfold kernelRunB.sl.dma1106; exact (copy_eq_simRow c sim (kernelRunB.sl.r_449 c i tbl) (hT _) _ rfl _ _).trans (congrArg (simRow c sim) (W_r_449 c i tbl))
theorem D_dma1129 : kernelRunB.sl.dma1129 c i tbl hT sim = simRow c sim (wordAt c tbl i ⟨50, by decide⟩) := by
  unfold kernelRunB.sl.dma1129; exact (copy_eq_simRow c sim (kernelRunB.sl.r_457 c i tbl) (hT _) _ rfl _ _).trans (congrArg (simRow c sim) (W_r_457 c i tbl))
theorem D_dma1152 : kernelRunB.sl.dma1152 c i tbl hT sim = simRow c sim (wordAt c tbl i ⟨51, by decide⟩) := by
  unfold kernelRunB.sl.dma1152; exact (copy_eq_simRow c sim (kernelRunB.sl.r_466 c i tbl) (hT _) _ rfl _ _).trans (congrArg (simRow c sim) (W_r_466 c i tbl))
theorem D_dma1175 : kernelRunB.sl.dma1175 c i tbl hT sim = simRow c sim (wordAt c tbl i ⟨52, by decide⟩) := by
  unfold kernelRunB.sl.dma1175; exact (copy_eq_simRow c sim (kernelRunB.sl.r_475 c i tbl) (hT _) _ rfl _ _).trans (congrArg (simRow c sim) (W_r_475 c i tbl))
theorem D_dma1198 : kernelRunB.sl.dma1198 c i tbl hT sim = simRow c sim (wordAt c tbl i ⟨53, by decide⟩) := by
  unfold kernelRunB.sl.dma1198; exact (copy_eq_simRow c sim (kernelRunB.sl.r_485 c i tbl) (hT _) _ rfl _ _).trans (congrArg (simRow c sim) (W_r_485 c i tbl))
theorem D_dma1221 : kernelRunB.sl.dma1221 c i tbl hT sim = simRow c sim (wordAt c tbl i ⟨54, by decide⟩) := by
  unfold kernelRunB.sl.dma1221; exact (copy_eq_simRow c sim (kernelRunB.sl.r_496 c i tbl) (hT _) _ rfl _ _).trans (congrArg (simRow c sim) (W_r_496 c i tbl))
theorem D_dma1244 : kernelRunB.sl.dma1244 c i tbl hT sim = simRow c sim (wordAt c tbl i ⟨55, by decide⟩) := by
  unfold kernelRunB.sl.dma1244; exact (copy_eq_simRow c sim (kernelRunB.sl.r_506 c i tbl) (hT _) _ rfl _ _).trans (congrArg (simRow c sim) (W_r_506 c i tbl))
theorem D_dma1267 : kernelRunB.sl.dma1267 c i tbl hT sim = simRow c sim (wordAt c tbl i ⟨56, by decide⟩) := by
  unfold kernelRunB.sl.dma1267; exact (copy_eq_simRow c sim (kernelRunB.sl.r_516 c i tbl) (hT _) _ rfl _ _).trans (congrArg (simRow c sim) (W_r_516 c i tbl))
theorem D_dma1290 : kernelRunB.sl.dma1290 c i tbl hT sim = simRow c sim (wordAt c tbl i ⟨57, by decide⟩) := by
  unfold kernelRunB.sl.dma1290; exact (copy_eq_simRow c sim (kernelRunB.sl.r_526 c i tbl) (hT _) _ rfl _ _).trans (congrArg (simRow c sim) (W_r_526 c i tbl))
theorem D_dma1313 : kernelRunB.sl.dma1313 c i tbl hT sim = simRow c sim (wordAt c tbl i ⟨58, by decide⟩) := by
  unfold kernelRunB.sl.dma1313; exact (copy_eq_simRow c sim (kernelRunB.sl.r_535 c i tbl) (hT _) _ rfl _ _).trans (congrArg (simRow c sim) (W_r_535 c i tbl))
theorem D_dma1336 : kernelRunB.sl.dma1336 c i tbl hT sim = simRow c sim (wordAt c tbl i ⟨59, by decide⟩) := by
  unfold kernelRunB.sl.dma1336; exact (copy_eq_simRow c sim (kernelRunB.sl.r_545 c i tbl) (hT _) _ rfl _ _).trans (congrArg (simRow c sim) (W_r_545 c i tbl))
theorem D_dma1359 : kernelRunB.sl.dma1359 c i tbl hT sim = simRow c sim (wordAt c tbl i ⟨60, by decide⟩) := by
  unfold kernelRunB.sl.dma1359; exact (copy_eq_simRow c sim (kernelRunB.sl.r_553 c i tbl) (hT _) _ rfl _ _).trans (congrArg (simRow c sim) (W_r_553 c i tbl))
theorem D_dma1382 : kernelRunB.sl.dma1382 c i tbl hT sim = simRow c sim (wordAt c tbl i ⟨61, by decide⟩) := by
  unfold kernelRunB.sl.dma1382; exact (copy_eq_simRow c sim (kernelRunB.sl.r_562 c i tbl) (hT _) _ rfl _ _).trans (congrArg (simRow c sim) (W_r_562 c i tbl))
theorem D_dma1405 : kernelRunB.sl.dma1405 c i tbl hT sim = simRow c sim (wordAt c tbl i ⟨62, by decide⟩) := by
  unfold kernelRunB.sl.dma1405; exact (copy_eq_simRow c sim (kernelRunB.sl.r_572 c i tbl) (hT _) _ rfl _ _).trans (congrArg (simRow c sim) (W_r_572 c i tbl))
theorem D_dma1428 : kernelRunB.sl.dma1428 c i tbl hT sim = simRow c sim (wordAt c tbl i ⟨63, by decide⟩) := by
  unfold kernelRunB.sl.dma1428; exact (copy_eq_simRow c sim (kernelRunB.sl.r_581 c i tbl) (hT _) _ rfl _ _).trans (congrArg (simRow c sim) (W_r_581 c i tbl))
theorem S_v19 : kernelRunB.sl.v19 c i tbl hT sim b9 = simRow c sim (wordAt c tbl i ⟨0, by decide⟩) := by
  unfold kernelRunB.sl.v19; exact (load_after_fill cc0_scratch0 _ _ (by decide) _).trans (D_dma1 c i tbl hT sim)
theorem S_v104 : kernelRunB.sl.v104 c i tbl hT sim b10 = simRow c sim (wordAt c tbl i ⟨1, by decide⟩) := by
  unfold kernelRunB.sl.v104; exact (load_after_fill cc0_scratch1 _ _ (by decide) _).trans (D_dma2 c i tbl hT sim)
theorem S_v189 : kernelRunB.sl.v189 c i tbl hT sim b9 = simRow c sim (wordAt c tbl i ⟨2, by decide⟩) := by
  unfold kernelRunB.sl.v189; exact (load_after_fill cc0_scratch0 _ _ (by decide) _).trans (D_dma25 c i tbl hT sim)
theorem S_v274 : kernelRunB.sl.v274 c i tbl hT sim b10 = simRow c sim (wordAt c tbl i ⟨3, by decide⟩) := by
  unfold kernelRunB.sl.v274; exact (load_after_fill cc0_scratch1 _ _ (by decide) _).trans (D_dma48 c i tbl hT sim)
theorem S_v359 : kernelRunB.sl.v359 c i tbl hT sim b9 = simRow c sim (wordAt c tbl i ⟨4, by decide⟩) := by
  unfold kernelRunB.sl.v359; exact (load_after_fill cc0_scratch0 _ _ (by decide) _).trans (D_dma71 c i tbl hT sim)
theorem S_v444 : kernelRunB.sl.v444 c i tbl hT sim b10 = simRow c sim (wordAt c tbl i ⟨5, by decide⟩) := by
  unfold kernelRunB.sl.v444; exact (load_after_fill cc0_scratch1 _ _ (by decide) _).trans (D_dma94 c i tbl hT sim)
theorem S_v529 : kernelRunB.sl.v529 c i tbl hT sim b9 = simRow c sim (wordAt c tbl i ⟨6, by decide⟩) := by
  unfold kernelRunB.sl.v529; exact (load_after_fill cc0_scratch0 _ _ (by decide) _).trans (D_dma117 c i tbl hT sim)
theorem S_v614 : kernelRunB.sl.v614 c i tbl hT sim b10 = simRow c sim (wordAt c tbl i ⟨7, by decide⟩) := by
  unfold kernelRunB.sl.v614; exact (load_after_fill cc0_scratch1 _ _ (by decide) _).trans (D_dma140 c i tbl hT sim)
theorem S_v699 : kernelRunB.sl.v699 c i tbl hT sim b9 = simRow c sim (wordAt c tbl i ⟨8, by decide⟩) := by
  unfold kernelRunB.sl.v699; exact (load_after_fill cc0_scratch0 _ _ (by decide) _).trans (D_dma163 c i tbl hT sim)
theorem S_v784 : kernelRunB.sl.v784 c i tbl hT sim b10 = simRow c sim (wordAt c tbl i ⟨9, by decide⟩) := by
  unfold kernelRunB.sl.v784; exact (load_after_fill cc0_scratch1 _ _ (by decide) _).trans (D_dma186 c i tbl hT sim)
theorem S_v869 : kernelRunB.sl.v869 c i tbl hT sim b9 = simRow c sim (wordAt c tbl i ⟨10, by decide⟩) := by
  unfold kernelRunB.sl.v869; exact (load_after_fill cc0_scratch0 _ _ (by decide) _).trans (D_dma209 c i tbl hT sim)
theorem S_v954 : kernelRunB.sl.v954 c i tbl hT sim b10 = simRow c sim (wordAt c tbl i ⟨11, by decide⟩) := by
  unfold kernelRunB.sl.v954; exact (load_after_fill cc0_scratch1 _ _ (by decide) _).trans (D_dma232 c i tbl hT sim)
theorem S_v1039 : kernelRunB.sl.v1039 c i tbl hT sim b9 = simRow c sim (wordAt c tbl i ⟨12, by decide⟩) := by
  unfold kernelRunB.sl.v1039; exact (load_after_fill cc0_scratch0 _ _ (by decide) _).trans (D_dma255 c i tbl hT sim)
theorem S_v1124 : kernelRunB.sl.v1124 c i tbl hT sim b10 = simRow c sim (wordAt c tbl i ⟨13, by decide⟩) := by
  unfold kernelRunB.sl.v1124; exact (load_after_fill cc0_scratch1 _ _ (by decide) _).trans (D_dma278 c i tbl hT sim)
theorem S_v1209 : kernelRunB.sl.v1209 c i tbl hT sim b9 = simRow c sim (wordAt c tbl i ⟨14, by decide⟩) := by
  unfold kernelRunB.sl.v1209; exact (load_after_fill cc0_scratch0 _ _ (by decide) _).trans (D_dma301 c i tbl hT sim)
theorem S_v1294 : kernelRunB.sl.v1294 c i tbl hT sim b10 = simRow c sim (wordAt c tbl i ⟨15, by decide⟩) := by
  unfold kernelRunB.sl.v1294; exact (load_after_fill cc0_scratch1 _ _ (by decide) _).trans (D_dma324 c i tbl hT sim)
theorem S_v1379 : kernelRunB.sl.v1379 c i tbl hT sim b9 = simRow c sim (wordAt c tbl i ⟨16, by decide⟩) := by
  unfold kernelRunB.sl.v1379; exact (load_after_fill cc0_scratch0 _ _ (by decide) _).trans (D_dma347 c i tbl hT sim)
theorem S_v1464 : kernelRunB.sl.v1464 c i tbl hT sim b10 = simRow c sim (wordAt c tbl i ⟨17, by decide⟩) := by
  unfold kernelRunB.sl.v1464; exact (load_after_fill cc0_scratch1 _ _ (by decide) _).trans (D_dma370 c i tbl hT sim)
theorem S_v : kernelRunB.sl.v c i tbl hT sim b9 = simRow c sim (wordAt c tbl i ⟨18, by decide⟩) := by
  unfold kernelRunB.sl.v; exact (load_after_fill cc0_scratch0 _ _ (by decide) _).trans (D_dma393 c i tbl hT sim)
theorem S_v1634 : kernelRunB.sl.v1634 c i tbl hT sim b10 = simRow c sim (wordAt c tbl i ⟨19, by decide⟩) := by
  unfold kernelRunB.sl.v1634; exact (load_after_fill cc0_scratch1 _ _ (by decide) _).trans (D_dma416 c i tbl hT sim)
theorem S_v1719 : kernelRunB.sl.v1719 c i tbl hT sim b9 = simRow c sim (wordAt c tbl i ⟨20, by decide⟩) := by
  unfold kernelRunB.sl.v1719; exact (load_after_fill cc0_scratch0 _ _ (by decide) _).trans (D_dma439 c i tbl hT sim)
theorem S_v1804 : kernelRunB.sl.v1804 c i tbl hT sim b10 = simRow c sim (wordAt c tbl i ⟨21, by decide⟩) := by
  unfold kernelRunB.sl.v1804; exact (load_after_fill cc0_scratch1 _ _ (by decide) _).trans (D_dma462 c i tbl hT sim)
theorem S_v1889 : kernelRunB.sl.v1889 c i tbl hT sim b9 = simRow c sim (wordAt c tbl i ⟨22, by decide⟩) := by
  unfold kernelRunB.sl.v1889; exact (load_after_fill cc0_scratch0 _ _ (by decide) _).trans (D_dma485 c i tbl hT sim)
theorem S_v1974 : kernelRunB.sl.v1974 c i tbl hT sim b10 = simRow c sim (wordAt c tbl i ⟨23, by decide⟩) := by
  unfold kernelRunB.sl.v1974; exact (load_after_fill cc0_scratch1 _ _ (by decide) _).trans (D_dma508 c i tbl hT sim)
theorem S_v2059 : kernelRunB.sl.v2059 c i tbl hT sim b9 = simRow c sim (wordAt c tbl i ⟨24, by decide⟩) := by
  unfold kernelRunB.sl.v2059; exact (load_after_fill cc0_scratch0 _ _ (by decide) _).trans (D_dma531 c i tbl hT sim)
theorem S_v2144 : kernelRunB.sl.v2144 c i tbl hT sim b10 = simRow c sim (wordAt c tbl i ⟨25, by decide⟩) := by
  unfold kernelRunB.sl.v2144; exact (load_after_fill cc0_scratch1 _ _ (by decide) _).trans (D_dma554 c i tbl hT sim)
theorem S_v2229 : kernelRunB.sl.v2229 c i tbl hT sim b9 = simRow c sim (wordAt c tbl i ⟨26, by decide⟩) := by
  unfold kernelRunB.sl.v2229; exact (load_after_fill cc0_scratch0 _ _ (by decide) _).trans (D_dma577 c i tbl hT sim)
theorem S_v2314 : kernelRunB.sl.v2314 c i tbl hT sim b10 = simRow c sim (wordAt c tbl i ⟨27, by decide⟩) := by
  unfold kernelRunB.sl.v2314; exact (load_after_fill cc0_scratch1 _ _ (by decide) _).trans (D_dma600 c i tbl hT sim)
theorem S_v2399 : kernelRunB.sl.v2399 c i tbl hT sim b9 = simRow c sim (wordAt c tbl i ⟨28, by decide⟩) := by
  unfold kernelRunB.sl.v2399; exact (load_after_fill cc0_scratch0 _ _ (by decide) _).trans (D_dma623 c i tbl hT sim)
theorem S_v2484 : kernelRunB.sl.v2484 c i tbl hT sim b10 = simRow c sim (wordAt c tbl i ⟨29, by decide⟩) := by
  unfold kernelRunB.sl.v2484; exact (load_after_fill cc0_scratch1 _ _ (by decide) _).trans (D_dma646 c i tbl hT sim)
theorem S_v2569 : kernelRunB.sl.v2569 c i tbl hT sim b9 = simRow c sim (wordAt c tbl i ⟨30, by decide⟩) := by
  unfold kernelRunB.sl.v2569; exact (load_after_fill cc0_scratch0 _ _ (by decide) _).trans (D_dma669 c i tbl hT sim)
theorem S_v2654 : kernelRunB.sl.v2654 c i tbl hT sim b10 = simRow c sim (wordAt c tbl i ⟨31, by decide⟩) := by
  unfold kernelRunB.sl.v2654; exact (load_after_fill cc0_scratch1 _ _ (by decide) _).trans (D_dma692 c i tbl hT sim)
theorem S_v2739 : kernelRunB.sl.v2739 c i tbl hT sim b9 = simRow c sim (wordAt c tbl i ⟨32, by decide⟩) := by
  unfold kernelRunB.sl.v2739; exact (load_after_fill cc0_scratch0 _ _ (by decide) _).trans (D_dma715 c i tbl hT sim)
theorem S_v2824 : kernelRunB.sl.v2824 c i tbl hT sim b10 = simRow c sim (wordAt c tbl i ⟨33, by decide⟩) := by
  unfold kernelRunB.sl.v2824; exact (load_after_fill cc0_scratch1 _ _ (by decide) _).trans (D_dma738 c i tbl hT sim)
theorem S_v2909 : kernelRunB.sl.v2909 c i tbl hT sim b9 = simRow c sim (wordAt c tbl i ⟨34, by decide⟩) := by
  unfold kernelRunB.sl.v2909; exact (load_after_fill cc0_scratch0 _ _ (by decide) _).trans (D_dma761 c i tbl hT sim)
theorem S_v2994 : kernelRunB.sl.v2994 c i tbl hT sim b10 = simRow c sim (wordAt c tbl i ⟨35, by decide⟩) := by
  unfold kernelRunB.sl.v2994; exact (load_after_fill cc0_scratch1 _ _ (by decide) _).trans (D_dma784 c i tbl hT sim)
theorem S_v3079 : kernelRunB.sl.v3079 c i tbl hT sim b9 = simRow c sim (wordAt c tbl i ⟨36, by decide⟩) := by
  unfold kernelRunB.sl.v3079; exact (load_after_fill cc0_scratch0 _ _ (by decide) _).trans (D_dma807 c i tbl hT sim)
theorem S_v3164 : kernelRunB.sl.v3164 c i tbl hT sim b10 = simRow c sim (wordAt c tbl i ⟨37, by decide⟩) := by
  unfold kernelRunB.sl.v3164; exact (load_after_fill cc0_scratch1 _ _ (by decide) _).trans (D_dma830 c i tbl hT sim)
theorem S_v_1 : kernelRunB.sl.v_1 c i tbl hT sim b9 = simRow c sim (wordAt c tbl i ⟨38, by decide⟩) := by
  unfold kernelRunB.sl.v_1; exact (load_after_fill cc0_scratch0 _ _ (by decide) _).trans (D_dma853 c i tbl hT sim)
theorem S_v3334 : kernelRunB.sl.v3334 c i tbl hT sim b10 = simRow c sim (wordAt c tbl i ⟨39, by decide⟩) := by
  unfold kernelRunB.sl.v3334; exact (load_after_fill cc0_scratch1 _ _ (by decide) _).trans (D_dma876 c i tbl hT sim)
theorem S_v3419 : kernelRunB.sl.v3419 c i tbl hT sim b9 = simRow c sim (wordAt c tbl i ⟨40, by decide⟩) := by
  unfold kernelRunB.sl.v3419; exact (load_after_fill cc0_scratch0 _ _ (by decide) _).trans (D_dma899 c i tbl hT sim)
theorem S_v3504 : kernelRunB.sl.v3504 c i tbl hT sim b10 = simRow c sim (wordAt c tbl i ⟨41, by decide⟩) := by
  unfold kernelRunB.sl.v3504; exact (load_after_fill cc0_scratch1 _ _ (by decide) _).trans (D_dma922 c i tbl hT sim)
theorem S_v3589 : kernelRunB.sl.v3589 c i tbl hT sim b9 = simRow c sim (wordAt c tbl i ⟨42, by decide⟩) := by
  unfold kernelRunB.sl.v3589; exact (load_after_fill cc0_scratch0 _ _ (by decide) _).trans (D_dma945 c i tbl hT sim)
theorem S_v3674 : kernelRunB.sl.v3674 c i tbl hT sim b10 = simRow c sim (wordAt c tbl i ⟨43, by decide⟩) := by
  unfold kernelRunB.sl.v3674; exact (load_after_fill cc0_scratch1 _ _ (by decide) _).trans (D_dma968 c i tbl hT sim)
theorem S_v3759 : kernelRunB.sl.v3759 c i tbl hT sim b9 = simRow c sim (wordAt c tbl i ⟨44, by decide⟩) := by
  unfold kernelRunB.sl.v3759; exact (load_after_fill cc0_scratch0 _ _ (by decide) _).trans (D_dma991 c i tbl hT sim)
theorem S_v3844 : kernelRunB.sl.v3844 c i tbl hT sim b10 = simRow c sim (wordAt c tbl i ⟨45, by decide⟩) := by
  unfold kernelRunB.sl.v3844; exact (load_after_fill cc0_scratch1 _ _ (by decide) _).trans (D_dma1014 c i tbl hT sim)
theorem S_v3929 : kernelRunB.sl.v3929 c i tbl hT sim b9 = simRow c sim (wordAt c tbl i ⟨46, by decide⟩) := by
  unfold kernelRunB.sl.v3929; exact (load_after_fill cc0_scratch0 _ _ (by decide) _).trans (D_dma1037 c i tbl hT sim)
theorem S_v4014 : kernelRunB.sl.v4014 c i tbl hT sim b10 = simRow c sim (wordAt c tbl i ⟨47, by decide⟩) := by
  unfold kernelRunB.sl.v4014; exact (load_after_fill cc0_scratch1 _ _ (by decide) _).trans (D_dma1060 c i tbl hT sim)
theorem S_v4099 : kernelRunB.sl.v4099 c i tbl hT sim b9 = simRow c sim (wordAt c tbl i ⟨48, by decide⟩) := by
  unfold kernelRunB.sl.v4099; exact (load_after_fill cc0_scratch0 _ _ (by decide) _).trans (D_dma1083 c i tbl hT sim)
theorem S_v4184 : kernelRunB.sl.v4184 c i tbl hT sim b10 = simRow c sim (wordAt c tbl i ⟨49, by decide⟩) := by
  unfold kernelRunB.sl.v4184; exact (load_after_fill cc0_scratch1 _ _ (by decide) _).trans (D_dma1106 c i tbl hT sim)
theorem S_v4269 : kernelRunB.sl.v4269 c i tbl hT sim b9 = simRow c sim (wordAt c tbl i ⟨50, by decide⟩) := by
  unfold kernelRunB.sl.v4269; exact (load_after_fill cc0_scratch0 _ _ (by decide) _).trans (D_dma1129 c i tbl hT sim)
theorem S_v4354 : kernelRunB.sl.v4354 c i tbl hT sim b10 = simRow c sim (wordAt c tbl i ⟨51, by decide⟩) := by
  unfold kernelRunB.sl.v4354; exact (load_after_fill cc0_scratch1 _ _ (by decide) _).trans (D_dma1152 c i tbl hT sim)
theorem S_v4439 : kernelRunB.sl.v4439 c i tbl hT sim b9 = simRow c sim (wordAt c tbl i ⟨52, by decide⟩) := by
  unfold kernelRunB.sl.v4439; exact (load_after_fill cc0_scratch0 _ _ (by decide) _).trans (D_dma1175 c i tbl hT sim)
theorem S_v4524 : kernelRunB.sl.v4524 c i tbl hT sim b10 = simRow c sim (wordAt c tbl i ⟨53, by decide⟩) := by
  unfold kernelRunB.sl.v4524; exact (load_after_fill cc0_scratch1 _ _ (by decide) _).trans (D_dma1198 c i tbl hT sim)
theorem S_v4609 : kernelRunB.sl.v4609 c i tbl hT sim b9 = simRow c sim (wordAt c tbl i ⟨54, by decide⟩) := by
  unfold kernelRunB.sl.v4609; exact (load_after_fill cc0_scratch0 _ _ (by decide) _).trans (D_dma1221 c i tbl hT sim)
theorem S_v4694 : kernelRunB.sl.v4694 c i tbl hT sim b10 = simRow c sim (wordAt c tbl i ⟨55, by decide⟩) := by
  unfold kernelRunB.sl.v4694; exact (load_after_fill cc0_scratch1 _ _ (by decide) _).trans (D_dma1244 c i tbl hT sim)
theorem S_v4779 : kernelRunB.sl.v4779 c i tbl hT sim b9 = simRow c sim (wordAt c tbl i ⟨56, by decide⟩) := by
  unfold kernelRunB.sl.v4779; exact (load_after_fill cc0_scratch0 _ _ (by decide) _).trans (D_dma1267 c i tbl hT sim)
theorem S_v4864 : kernelRunB.sl.v4864 c i tbl hT sim b10 = simRow c sim (wordAt c tbl i ⟨57, by decide⟩) := by
  unfold kernelRunB.sl.v4864; exact (load_after_fill cc0_scratch1 _ _ (by decide) _).trans (D_dma1290 c i tbl hT sim)
theorem S_v_2 : kernelRunB.sl.v_2 c i tbl hT sim b9 = simRow c sim (wordAt c tbl i ⟨58, by decide⟩) := by
  unfold kernelRunB.sl.v_2; exact (load_after_fill cc0_scratch0 _ _ (by decide) _).trans (D_dma1313 c i tbl hT sim)
theorem S_v5034 : kernelRunB.sl.v5034 c i tbl hT sim b10 = simRow c sim (wordAt c tbl i ⟨59, by decide⟩) := by
  unfold kernelRunB.sl.v5034; exact (load_after_fill cc0_scratch1 _ _ (by decide) _).trans (D_dma1336 c i tbl hT sim)
theorem S_v5119 : kernelRunB.sl.v5119 c i tbl hT sim b9 = simRow c sim (wordAt c tbl i ⟨60, by decide⟩) := by
  unfold kernelRunB.sl.v5119; exact (load_after_fill cc0_scratch0 _ _ (by decide) _).trans (D_dma1359 c i tbl hT sim)
theorem S_v5204 : kernelRunB.sl.v5204 c i tbl hT sim b10 = simRow c sim (wordAt c tbl i ⟨61, by decide⟩) := by
  unfold kernelRunB.sl.v5204; exact (load_after_fill cc0_scratch1 _ _ (by decide) _).trans (D_dma1382 c i tbl hT sim)
theorem S_v5289 : kernelRunB.sl.v5289 c i tbl hT sim b9 = simRow c sim (wordAt c tbl i ⟨62, by decide⟩) := by
  unfold kernelRunB.sl.v5289; exact (load_after_fill cc0_scratch0 _ _ (by decide) _).trans (D_dma1405 c i tbl hT sim)
theorem S_v5368 : kernelRunB.sl.v5368 c i tbl hT sim b10 = simRow c sim (wordAt c tbl i ⟨63, by decide⟩) := by
  unfold kernelRunB.sl.v5368; exact (load_after_fill cc0_scratch1 _ _ (by decide) _).trans (D_dma1428 c i tbl hT sim)
end TabB

end Cert.Proof.KI

end
-- ==== Proof.KIStepBTabV1.lean ====
import proofs.«419560_j5755256177164_3_alg».proof.Proof.KIStepBTabW

/-!
  The table of case B: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.KI

open Cert.KernelIdeal Cert.KernelIdeal.Gen
open Idealize.ShloMosaic Idealize.ShloMosaic.TcCoe
open Idealize.SL Idealize.SL.Sem

variable {F : FTy → Type} [FloatOps F]

namespace TabB

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

include c i M2 hM2 M3 hM3 tbl hT sim x2 x3 b9 b10 a12 a13 a14 a15 a16 a17

theorem V12_1 : kernelRunB.sl.v149 c M3 hM3 x3 a12 = (rowsOf c tbl i sim x2 x3 (accOf c a12 a13 a14 a15 a16 a17) 1).m := by
  unfold kernelRunB.sl.v149 kernelRunB.sl.H12_1
  rw [View.readCov_cons_toLoadRect]
  refine Eq.trans ?_ (rowsOf_m c tbl i sim x2 x3 (accOf c a12 a13 a14 a15 a16 a17) 0 (by decide)).symm
  unfold kernelRunB.sl.r_4
  simp only [mk_read M3 hM3 x3 0 (by decide)]
  try rfl
theorem V13_1 : kernelRunB.sl.v154 c i M2 hM2 M3 hM3 tbl x2 x3 a13 = (rowsOf c tbl i sim x2 x3 (accOf c a12 a13 a14 a15 a16 a17) 1).logp := by
  unfold kernelRunB.sl.v154 kernelRunB.sl.H13_1
  rw [View.readCov_cons_toLoadRect]
  refine Eq.trans ?_ (rowsOf_logp c tbl i sim x2 x3 (accOf c a12 a13 a14 a15 a16 a17) 0 (by decide)).symm
  unfold kernelRunB.sl.r_10 kernelRunB.sl.r_3 kernelRunB.sl.r_4
  simp only [W_r_2 c i tbl, in_read M2 hM2 x2 0 (by decide), mk_read M3 hM3 x3 0 (by decide)]
  try rfl
theorem V14_1 : kernelRunB.sl.v160 c i M3 hM3 tbl hT sim x3 b9 a14 = (rowsOf c tbl i sim x2 x3 (accOf c a12 a13 a14 a15 a16 a17) 1).w := by
  unfold kernelRunB.sl.v160 kernelRunB.sl.H14_1
  rw [View.readCov_cons_toLoadRect]
  refine Eq.trans ?_ (rowsOf_w c tbl i sim x2 x3 (accOf c a12 a13 a14 a15 a16 a17) 0 (by decide)).symm
  unfold kernelRunB.sl.r_6 kernelRunB.sl.r_4 kernelRunB.sl.r_5 kernelRunB.sl.cst_15
  simp only [S_v19 c i tbl hT sim b9, mk_read M3 hM3 x3 0 (by decide)]
  try rfl
theorem V12_2 : kernelRunB.sl.v234 c M3 hM3 x3 a12 = (rowsOf c tbl i sim x2 x3 (accOf c a12 a13 a14 a15 a16 a17) 2).m := by
  unfold kernelRunB.sl.v234 kernelRunB.sl.H12_2
  rw [View.readCov_cons_toLoadRect]
  refine Eq.trans ?_ (rowsOf_m c tbl i sim x2 x3 (accOf c a12 a13 a14 a15 a16 a17) 1 (by decide)).symm
  unfold kernelRunB.sl.r_13
  simp only [V12_1 c i M2 hM2 M3 hM3 tbl hT sim x2 x3 b9 b10 a12 a13 a14 a15 a16 a17, mk_read M3 hM3 x3 1 (by decide)]
  try rfl
theorem V13_2 : kernelRunB.sl.v239 c i M2 hM2 M3 hM3 tbl x2 x3 a13 = (rowsOf c tbl i sim x2 x3 (accOf c a12 a13 a14 a15 a16 a17) 2).logp := by
  unfold kernelRunB.sl.v239 kernelRunB.sl.H13_2
  rw [View.readCov_cons_toLoadRect]
  refine Eq.trans ?_ (rowsOf_logp c tbl i sim x2 x3 (accOf c a12 a13 a14 a15 a16 a17) 1 (by decide)).symm
  unfold kernelRunB.sl.r_13 kernelRunB.sl.r_16
  simp only [W_r_12 c i tbl, V13_1 c i M2 hM2 M3 hM3 tbl hT sim x2 x3 b9 b10 a12 a13 a14 a15 a16 a17, in_read M2 hM2 x2 1 (by decide), mk_read M3 hM3 x3 1 (by decide)]
  try rfl
theorem V14_2 : kernelRunB.sl.v245 c i M3 hM3 tbl hT sim x3 b9 b10 a14 = (rowsOf c tbl i sim x2 x3 (accOf c a12 a13 a14 a15 a16 a17) 2).w := by
  unfold kernelRunB.sl.v245 kernelRunB.sl.H14_2
  rw [View.readCov_cons_toLoadRect]
  refine Eq.trans ?_ (rowsOf_w c tbl i sim x2 x3 (accOf c a12 a13 a14 a15 a16 a17) 1 (by decide)).symm
  unfold kernelRunB.sl.r_14
  simp only [S_v104 c i tbl hT sim b10, V14_1 c i M2 hM2 M3 hM3 tbl hT sim x2 x3 b9 b10 a12 a13 a14 a15 a16 a17, mk_read M3 hM3 x3 1 (by decide)]
  try rfl
theorem V12_3 : kernelRunB.sl.v319 c M3 hM3 x3 a12 = (rowsOf c tbl i sim x2 x3 (accOf c a12 a13 a14 a15 a16 a17) 3).m := by
  unfold kernelRunB.sl.v319 kernelRunB.sl.H12_3
  rw [View.readCov_cons_toLoadRect]
  refine Eq.trans ?_ (rowsOf_m c tbl i sim x2 x3 (accOf c a12 a13 a14 a15 a16 a17) 2 (by decide)).symm
  unfold kernelRunB.sl.r_23
  simp only [V12_2 c i M2 hM2 M3 hM3 tbl hT sim x2 x3 b9 b10 a12 a13 a14 a15 a16 a17, mk_read M3 hM3 x3 2 (by decide)]
  try rfl
theorem V13_3 : kernelRunB.sl.v324 c i M2 hM2 M3 hM3 tbl x2 x3 a13 = (rowsOf c tbl i sim x2 x3 (accOf c a12 a13 a14 a15 a16 a17) 3).logp := by
  unfold kernelRunB.sl.v324 kernelRunB.sl.H13_3
  rw [View.readCov_cons_toLoadRect]
  refine Eq.trans ?_ (rowsOf_logp c tbl i sim x2 x3 (accOf c a12 a13 a14 a15 a16 a17) 2 (by decide)).symm
  unfold kernelRunB.sl.r_22 kernelRunB.sl.r_23
  simp only [W_r_21 c i tbl, V13_2 c i M2 hM2 M3 hM3 tbl hT sim x2 x3 b9 b10 a12 a13 a14 a15 a16 a17, in_read M2 hM2 x2 2 (by decide), mk_read M3 hM3 x3 2 (by decide)]
  try rfl
theorem V14_3 : kernelRunB.sl.v330 c i M3 hM3 tbl hT sim x3 b9 b10 a14 = (rowsOf c tbl i sim x2 x3 (accOf c a12 a13 a14 a15 a16 a17) 3).w := by
  unfold kernelRunB.sl.v330 kernelRunB.sl.H14_3
  rw [View.readCov_cons_toLoadRect]
  refine Eq.trans ?_ (rowsOf_w c tbl i sim x2 x3 (accOf c a12 a13 a14 a15 a16 a17) 2 (by decide)).symm
  unfold kernelRunB.sl.r_26
  simp only [S_v189 c i tbl hT sim b9, V14_2 c i M2 hM2 M3 hM3 tbl hT sim x2 x3 b9 b10 a12 a13 a14 a15 a16 a17, mk_read M3 hM3 x3 2 (by decide)]
  try rfl
theorem V12_4 : kernelRunB.sl.v404 c M3 hM3 x3 a12 = (rowsOf c tbl i sim x2 x3 (accOf c a12 a13 a14 a15 a16 a17) 4).m := by
  unfold kernelRunB.sl.v404 kernelRunB.sl.H12_4
  rw [View.readCov_cons_toLoadRect]
  refine Eq.trans ?_ (rowsOf_m c tbl i sim x2 x3 (accOf c a12 a13 a14 a15 a16 a17) 3 (by decide)).symm
  unfold kernelRunB.sl.r_33
  simp only [V12_3 c i M2 hM2 M3 hM3 tbl hT sim x2 x3 b9 b10 a12 a13 a14 a15 a16 a17, mk_read M3 hM3 x3 3 (by decide)]
  try rfl
theorem V13_4 : kernelRunB.sl.v409 c i M2 hM2 M3 hM3 tbl x2 x3 a13 = (rowsOf c tbl i sim x2 x3 (accOf c a12 a13 a14 a15 a16 a17) 4).logp := by
  unfold kernelRunB.sl.v409 kernelRunB.sl.H13_4
  rw [View.readCov_cons_toLoadRect]
  refine Eq.trans ?_ (rowsOf_logp c tbl i sim x2 x3 (accOf c a12 a13 a14 a15 a16 a17) 3 (by decide)).symm
  unfold kernelRunB.sl.r_39 kernelRunB.sl.r_32 kernelRunB.sl.r_33
  simp only [W_r_31 c i tbl, V13_3 c i M2 hM2 M3 hM3 tbl hT sim x2 x3 b9 b10 a12 a13 a14 a15 a16 a17, in_read M2 hM2 x2 3 (by decide), mk_read M3 hM3 x3 3 (by decide)]
  try rfl
theorem V14_4 : kernelRunB.sl.v415 c i M3 hM3 tbl hT sim x3 b9 b10 a14 = (rowsOf c tbl i sim x2 x3 (accOf c a12 a13 a14 a15 a16 a17) 4).w := by
  unfold kernelRunB.sl.v415 kernelRunB.sl.H14_4
  rw [View.readCov_cons_toLoadRect]
  refine Eq.trans ?_ (rowsOf_w c tbl i sim x2 x3 (accOf c a12 a13 a14 a15 a16 a17) 3 (by decide)).symm
  unfold kernelRunB.sl.r_35 kernelRunB.sl.r_33 kernelRunB.sl.r_34
  simp only [S_v274 c i tbl hT sim b10, V14_3 c i M2 hM2 M3 hM3 tbl hT sim x2 x3 b9 b10 a12 a13 a14 a15 a16 a17, mk_read M3 hM3 x3 3 (by decide)]
  try rfl
theorem V12_5 : kernelRunB.sl.v489 c M3 hM3 x3 a12 = (rowsOf c tbl i sim x2 x3 (accOf c a12 a13 a14 a15 a16 a17) 5).m := by
  unfold kernelRunB.sl.v489 kernelRunB.sl.H12_5
  rw [View.readCov_cons_toLoadRect]
  refine Eq.trans ?_ (rowsOf_m c tbl i sim x2 x3 (accOf c a12 a13 a14 a15 a16 a17) 4 (by decide)).symm
  unfold kernelRunB.sl.r_42
  simp only [V12_4 c i M2 hM2 M3 hM3 tbl hT sim x2 x3 b9 b10 a12 a13 a14 a15 a16 a17, mk_read M3 hM3 x3 4 (by decide)]
  try rfl
theorem V13_5 : kernelRunB.sl.v494 c i M2 hM2 M3 hM3 tbl x2 x3 a13 = (rowsOf c tbl i sim x2 x3 (accOf c a12 a13 a14 a15 a16 a17) 5).logp := by
  unfold kernelRunB.sl.v494 kernelRunB.sl.H13_5
  rw [View.readCov_cons_toLoadRect]
  refine Eq.trans ?_ (rowsOf_logp c tbl i sim x2 x3 (accOf c a12 a13 a14 a15 a16 a17) 4 (by decide)).symm
  unfold kernelRunB.sl.r_42 kernelRunB.sl.r_46
  simp only [W_r_41 c i tbl, V13_4 c i M2 hM2 M3 hM3 tbl hT sim x2 x3 b9 b10 a12 a13 a14 a15 a16 a17, in_read M2 hM2 x2 4 (by decide), mk_read M3 hM3 x3 4 (by decide)]
  try rfl
theorem V14_5 : kernelRunB.sl.v500 c i M3 hM3 tbl hT sim x3 b9 b10 a14 = (rowsOf c tbl i sim x2 x3 (accOf c a12 a13 a14 a15 a16 a17) 5).w := by
  unfold kernelRunB.sl.v500 kernelRunB.sl.H14_5
  rw [View.readCov_cons_toLoadRect]
  refine Eq.trans ?_ (rowsOf_w c tbl i sim x2 x3 (accOf c a12 a13 a14 a15 a16 a17) 4 (by decide)).symm
  unfold kernelRunB.sl.r_44
  simp only [S_v359 c i tbl hT sim b9, V14_4 c i M2 hM2 M3 hM3 tbl hT sim x2 x3 b9 b10 a12 a13 a14 a15 a16 a17, mk_read M3 hM3 x3 4 (by decide)]
  try rfl
theorem V12_6 : kernelRunB.sl.v574 c M3 hM3 x3 a12 = (rowsOf c tbl i sim x2 x3 (accOf c a12 a13 a14 a15 a16 a17) 6).m := by
  unfold kernelRunB.sl.v574 kernelRunB.sl.H12_6
  rw [View.readCov_cons_toLoadRect]
  refine Eq.trans ?_ (rowsOf_m c tbl i sim x2 x3 (accOf c a12 a13 a14 a15 a16 a17) 5 (by decide)).symm
  unfold kernelRunB.sl.r_52
  simp only [V12_5 c i M2 hM2 M3 hM3 tbl hT sim x2 x3 b9 b10 a12 a13 a14 a15 a16 a17, mk_read M3 hM3 x3 5 (by decide)]
  try rfl
theorem V13_6 : kernelRunB.sl.v579 c i M2 hM2 M3 hM3 tbl x2 x3 a13 = (rowsOf c tbl i sim x2 x3 (accOf c a12 a13 a14 a15 a16 a17) 6).logp := by
  unfold kernelRunB.sl.v579 kernelRunB.sl.H13_6
  rw [View.readCov_cons_toLoadRect]
  refine Eq.trans ?_ (rowsOf_logp c tbl i sim x2 x3 (accOf c a12 a13 a14 a15 a16 a17) 5 (by decide)).symm
  unfold kernelRunB.sl.r_51 kernelRunB.sl.r_52
  simp only [W_r_50 c i tbl, V13_5 c i M2 hM2 M3 hM3 tbl hT sim x2 x3 b9 b10 a12 a13 a14 a15 a16 a17, in_read M2 hM2 x2 5 (by decide), mk_read M3 hM3 x3 5 (by decide)]
  try rfl
theorem V14_6 : kernelRunB.sl.v585 c i M3 hM3 tbl hT sim x3 b9 b10 a14 = (rowsOf c tbl i sim x2 x3 (accOf c a12 a13 a14 a15 a16 a17) 6).w := by
  unfold kernelRunB.sl.v585 kernelRunB.sl.H14_6
  rw [View.readCov_cons_toLoadRect]
  refine Eq.trans ?_ (rowsOf_w c tbl i sim x2 x3 (accOf c a12 a13 a14 a15 a16 a17) 5 (by decide)).symm
  unfold kernelRunB.sl.r_54
  simp only [S_v444 c i tbl hT sim b10, V14_5 c i M2 hM2 M3 hM3 tbl hT sim x2 x3 b9 b10 a12 a13 a14 a15 a16 a17, mk_read M3 hM3 x3 5 (by decide)]
  try rfl
theorem V12_7 : kernelRunB.sl.v659 c M3 hM3 x3 a12 = (rowsOf c tbl i sim x2 x3 (accOf c a12 a13 a14 a15 a16 a17) 7).m := by
  unfold kernelRunB.sl.v659 kernelRunB.sl.H12_7
  rw [View.readCov_cons_toLoadRect]
  refine Eq.trans ?_ (rowsOf_m c tbl i sim x2 x3 (accOf c a12 a13 a14 a15 a16 a17) 6 (by decide)).symm
  unfold kernelRunB.sl.r_61
  simp only [V12_6 c i M2 hM2 M3 hM3 tbl hT sim x2 x3 b9 b10 a12 a13 a14 a15 a16 a17, mk_read M3 hM3 x3 6 (by decide)]
  try rfl
theorem V13_7 : kernelRunB.sl.v664 c i M2 hM2 M3 hM3 tbl x2 x3 a13 = (rowsOf c tbl i sim x2 x3 (accOf c a12 a13 a14 a15 a16 a17) 7).logp := by
  unfold kernelRunB.sl.v664 kernelRunB.sl.H13_7
  rw [View.readCov_cons_toLoadRect]
  refine Eq.trans ?_ (rowsOf_logp c tbl i sim x2 x3 (accOf c a12 a13 a14 a15 a16 a17) 6 (by decide)).symm
  unfold kernelRunB.sl.r_66 kernelRunB.sl.r_60 kernelRunB.sl.r_61
  simp only [W_r_59 c i tbl, V13_6 c i M2 hM2 M3 hM3 tbl hT sim x2 x3 b9 b10 a12 a13 a14 a15 a16 a17, in_read M2 hM2 x2 6 (by decide), mk_read M3 hM3 x3 6 (by decide)]
  try rfl
theorem V14_7 : kernelRunB.sl.v670 c i M3 hM3 tbl hT sim x3 b9 b10 a14 = (rowsOf c tbl i sim x2 x3 (accOf c a12 a13 a14 a15 a16 a17) 7).w := by
  unfold kernelRunB.sl.v670 kernelRunB.sl.H14_7
  rw [View.readCov_cons_toLoadRect]
  refine Eq.trans ?_ (rowsOf_w c tbl i sim x2 x3 (accOf c a12 a13 a14 a15 a16 a17) 6 (by decide)).symm
  unfold kernelRunB.sl.r_62 kernelRunB.sl.r_61 kernelRunB.sl.cst_284
  simp only [S_v529 c i tbl hT sim b9, V14_6 c i M2 hM2 M3 hM3 tbl hT sim x2 x3 b9 b10 a12 a13 a14 a15 a16 a17, mk_read M3 hM3 x3 6 (by decide)]
  try rfl
theorem V12_8 : kernelRunB.sl.v744 c M3 hM3 x3 a12 = (rowsOf c tbl i sim x2 x3 (accOf c a12 a13 a14 a15 a16 a17) 8).m := by
  unfold kernelRunB.sl.v744 kernelRunB.sl.H12_8
  rw [View.readCov_cons_toLoadRect]
  refine Eq.trans ?_ (rowsOf_m c tbl i sim x2 x3 (accOf c a12 a13 a14 a15 a16 a17) 7 (by decide)).symm
  unfold kernelRunB.sl.r_69
  simp only [V12_7 c i M2 hM2 M3 hM3 tbl hT sim x2 x3 b9 b10 a12 a13 a14 a15 a16 a17, mk_read M3 hM3 x3 7 (by decide)]
  try rfl
theorem V13_8 : kernelRunB.sl.v749 c i M2 hM2 M3 hM3 tbl x2 x3 a13 = (rowsOf c tbl i sim x2 x3 (accOf c a12 a13 a14 a15 a16 a17) 8).logp := by
  unfold kernelRunB.sl.v749 kernelRunB.sl.H13_8
  rw [View.readCov_cons_toLoadRect]
  refine Eq.trans ?_ (rowsOf_logp c tbl i sim x2 x3 (accOf c a12 a13 a14 a15 a16 a17) 7 (by decide)).symm
  unfold kernelRunB.sl.r_69 kernelRunB.sl.r_73
  simp only [W_r_68 c i tbl, V13_7 c i M2 hM2 M3 hM3 tbl hT sim x2 x3 b9 b10 a12 a13 a14 a15 a16 a17, in_read M2 hM2 x2 7 (by decide), mk_read M3 hM3 x3 7 (by decide)]
  try rfl
theorem V14_8 : kernelRunB.sl.v755 c i M3 hM3 tbl hT sim x3 b9 b10 a14 = (rowsOf c tbl i sim x2 x3 (accOf c a12 a13 a14 a15 a16 a17) 8).w := by
  unfold kernelRunB.sl.v755 kernelRunB.sl.H14_8
  rw [View.readCov_cons_toLoadRect]
  refine Eq.trans ?_ (rowsOf_w c tbl i sim x2 x3 (accOf c a12 a13 a14 a15 a16 a17) 7 (by decide)).symm
  unfold kernelRunB.sl.r_71
  simp only [S_v614 c i tbl hT sim b10, V14_7 c i M2 hM2 M3 hM3 tbl hT sim x2 x3 b9 b10 a12 a13 a14 a15 a16 a17, mk_read M3 hM3 x3 7 (by decide)]
  try rfl
theorem V12_9 : kernelRunB.sl.v829 c M3 hM3 x3 a12 = (rowsOf c tbl i sim x2 x3 (accOf c a12 a13 a14 a15 a16 a17) 9).m := by
  unfold kernelRunB.sl.v829 kernelRunB.sl.H12_9
  rw [View.readCov_cons_toLoadRect]
  refine Eq.trans ?_ (rowsOf_m c tbl i sim x2 x3 (accOf c a12 a13 a14 a15 a16 a17) 8 (by decide)).symm
  unfold kernelRunB.sl.r_78
  simp only [V12_8 c i M2 hM2 M3 hM3 tbl hT sim x2 x3 b9 b10 a12 a13 a14 a15 a16 a17, mk_read M3 hM3 x3 8 (by decide)]
  try rfl
theorem V13_9 : kernelRunB.sl.v834 c i M2 hM2 M3 hM3 tbl x2 x3 a13 = (rowsOf c tbl i sim x2 x3 (accOf c a12 a13 a14 a15 a16 a17) 9).logp := by
  unfold kernelRunB.sl.v834 kernelRunB.sl.H13_9
  rw [View.readCov_cons_toLoadRect]
  refine Eq.trans ?_ (rowsOf_logp c tbl i sim x2 x3 (accOf c a12 a13 a14 a15 a16 a17) 8 (by decide)).symm
  unfold kernelRunB.sl.r_77 kernelRunB.sl.r_78
  simp only [W_r_76 c i tbl, V13_8 c i M2 hM2 M3 hM3 tbl hT sim x2 x3 b9 b10 a12 a13 a14 a15 a16 a17, in_read M2 hM2 x2 8 (by decide), mk_read M3 hM3 x3 8 (by decide)]
  try rfl
theorem V14_9 : kernelRunB.sl.v840 c i M3 hM3 tbl hT sim x3 b9 b10 a14 = (rowsOf c tbl i sim x2 x3 (accOf c a12 a13 a14 a15 a16 a17) 9).w := by
  unfold kernelRunB.sl.v840 kernelRunB.sl.H14_9
  rw [View.readCov_cons_toLoadRect]
  refine Eq.trans ?_ (rowsOf_w c tbl i sim x2 x3 (accOf c a12 a13 a14 a15 a16 a17) 8 (by decide)).symm
  unfold kernelRunB.sl.r_78 kernelRunB.sl.r_79
  simp only [S_v699 c i tbl hT sim b9, V14_8 c i M2 hM2 M3 hM3 tbl hT sim x2 x3 b9 b10 a12 a13 a14 a15 a16 a17, mk_read M3 hM3 x3 8 (by decide)]
  try rfl
theorem V12_10 : kernelRunB.sl.v914 c M3 hM3 x3 a12 = (rowsOf c tbl i sim x2 x3 (accOf c a12 a13 a14 a15 a16 a17) 10).m := by
  unfold kernelRunB.sl.v914 kernelRunB.sl.H12_10
  rw [View.readCov_cons_toLoadRect]
  refine Eq.trans ?_ (rowsOf_m c tbl i sim x2 x3 (accOf c a12 a13 a14 a15 a16 a17) 9 (by decide)).symm
  unfold kernelRunB.sl.r_85
  simp only [V12_9 c i M2 hM2 M3 hM3 tbl hT sim x2 x3 b9 b10 a12 a13 a14 a15 a16 a17, mk_read M3 hM3 x3 9 (by decide)]
  try rfl
theorem V13_10 : kernelRunB.sl.v919 c i M2 hM2 M3 hM3 tbl x2 x3 a13 = (rowsOf c tbl i sim x2 x3 (accOf c a12 a13 a14 a15 a16 a17) 10).logp := by
  unfold kernelRunB.sl.v919 kernelRunB.sl.H13_10
  rw [View.readCov_cons_toLoadRect]
  refine Eq.trans ?_ (rowsOf_logp c tbl i sim x2 x3 (accOf c a12 a13 a14 a15 a16 a17) 9 (by decide)).symm
  unfold kernelRunB.sl.r_85 kernelRunB.sl.r_89 kernelRunB.sl.r_84
  simp only [W_r_86 c i tbl, V13_9 c i M2 hM2 M3 hM3 tbl hT sim x2 x3 b9 b10 a12 a13 a14 a15 a16 a17, in_read M2 hM2 x2 9 (by decide), mk_read M3 hM3 x3 9 (by decide)]
  try rfl
theorem V14_10 : kernelRunB.sl.v925 c i M3 hM3 tbl hT sim x3 b9 b10 a14 = (rowsOf c tbl i sim x2 x3 (accOf c a12 a13 a14 a15 a16 a17) 10).w := by
  unfold kernelRunB.sl.v925 kernelRunB.sl.H14_10
  rw [View.readCov_cons_toLoadRect]
  refine Eq.trans ?_ (rowsOf_w c tbl i sim x2 x3 (accOf c a12 a13 a14 a15 a16 a17) 9 (by decide)).symm
  unfold kernelRunB.sl.r_87 kernelRunB.sl.r_85
  simp only [S_v784 c i tbl hT sim b10, V14_9 c i M2 hM2 M3 hM3 tbl hT sim x2 x3 b9 b10 a12 a13 a14 a15 a16 a17, mk_read M3 hM3 x3 9 (by decide)]
  try rfl
theorem V12_11 : kernelRunB.sl.v999 c M3 hM3 x3 a12 = (rowsOf c tbl i sim x2 x3 (accOf c a12 a13 a14 a15 a16 a17) 11).m := by
  unfold kernelRunB.sl.v999 kernelRunB.sl.H12_11
  rw [View.readCov_cons_toLoadRect]
  refine Eq.trans ?_ (rowsOf_m c tbl i sim x2 x3 (accOf c a12 a13 a14 a15 a16 a17) 10 (by decide)).symm
  unfold kernelRunB.sl.r_94
  simp only [V12_10 c i M2 hM2 M3 hM3 tbl hT sim x2 x3 b9 b10 a12 a13 a14 a15 a16 a17, mk_read M3 hM3 x3 10 (by decide)]
  try rfl
theorem V13_11 : kernelRunB.sl.v1004 c i M2 hM2 M3 hM3 tbl x2 x3 a13 = (rowsOf c tbl i sim x2 x3 (accOf c a12 a13 a14 a15 a16 a17) 11).logp := by
  unfold kernelRunB.sl.v1004 kernelRunB.sl.H13_11
  rw [View.readCov_cons_toLoadRect]
  refine Eq.trans ?_ (rowsOf_logp c tbl i sim x2 x3 (accOf c a12 a13 a14 a15 a16 a17) 10 (by decide)).symm
  unfold kernelRunB.sl.r_94 kernelRunB.sl.r_98
  simp only [W_r_93 c i tbl, V13_10 c i M2 hM2 M3 hM3 tbl hT sim x2 x3 b9 b10 a12 a13 a14 a15 a16 a17, in_read M2 hM2 x2 10 (by decide), mk_read M3 hM3 x3 10 (by decide)]
  try rfl
theorem V14_11 : kernelRunB.sl.v1010 c i M3 hM3 tbl hT sim x3 b9 b10 a14 = (rowsOf c tbl i sim x2 x3 (accOf c a12 a13 a14 a15 a16 a17) 11).w := by
  unfold kernelRunB.sl.v1010 kernelRunB.sl.H14_11
  rw [View.readCov_cons_toLoadRect]
  refine Eq.trans ?_ (rowsOf_w c tbl i sim x2 x3 (accOf c a12 a13 a14 a15 a16 a17) 10 (by decide)).symm
  unfold kernelRunB.sl.r_96
  simp only [S_v869 c i tbl hT sim b9, V14_10 c i M2 hM2 M3 hM3 tbl hT sim x2 x3 b9 b10 a12 a13 a14 a15 a16 a17, mk_read M3 hM3 x3 10 (by decide)]
  try rfl
theorem V12_12 : kernelRunB.sl.v1084 c M3 hM3 x3 a12 = (rowsOf c tbl i sim x2 x3 (accOf c a12 a13 a14 a15 a16 a17) 12).m := by
  unfold kernelRunB.sl.v1084 kernelRunB.sl.H12_12
  rw [View.readCov_cons_toLoadRect]
  refine Eq.trans ?_ (rowsOf_m c tbl i sim x2 x3 (accOf c a12 a13 a14 a15 a16 a17) 11 (by decide)).symm
  unfold kernelRunB.sl.r_104
  simp only [V12_11 c i M2 hM2 M3 hM3 tbl hT sim x2 x3 b9 b10 a12 a13 a14 a15 a16 a17, mk_read M3 hM3 x3 11 (by decide)]
  try rfl
theorem V13_12 : kernelRunB.sl.v1089 c i M2 hM2 M3 hM3 tbl x2 x3 a13 = (rowsOf c tbl i sim x2 x3 (accOf c a12 a13 a14 a15 a16 a17) 12).logp := by
  unfold kernelRunB.sl.v1089 kernelRunB.sl.H13_12
  rw [View.readCov_cons_toLoadRect]
  refine Eq.trans ?_ (rowsOf_logp c tbl i sim x2 x3 (accOf c a12 a13 a14 a15 a16 a17) 11 (by decide)).symm
  unfold kernelRunB.sl.r_103 kernelRunB.sl.r_104
  simp only [W_r_102 c i tbl, V13_11 c i M2 hM2 M3 hM3 tbl hT sim x2 x3 b9 b10 a12 a13 a14 a15 a16 a17, in_read M2 hM2 x2 11 (by decide), mk_read M3 hM3 x3 11 (by decide)]
  try rfl
theorem V14_12 : kernelRunB.sl.v1095 c i M3 hM3 tbl hT sim x3 b9 b10 a14 = (rowsOf c tbl i sim x2 x3 (accOf c a12 a13 a14 a15 a16 a17) 12).w := by
  unfold kernelRunB.sl.v1095 kernelRunB.sl.H14_12
  rw [View.readCov_cons_toLoadRect]
  refine Eq.trans ?_ (rowsOf_w c tbl i sim x2 x3 (accOf c a12 a13 a14 a15 a16 a17) 11 (by decide)).symm
  unfold kernelRunB.sl.r_110 kernelRunB.sl.r_104 kernelRunB.sl.r_105 kernelRunB.sl.r_106
  simp only [V14_11 c i M2 hM2 M3 hM3 tbl hT sim x2 x3 b9 b10 a12 a13 a14 a15 a16 a17, S_v954 c i tbl hT sim b10, mk_read M3 hM3 x3 11 (by decide)]
  try rfl
theorem V12_13 : kernelRunB.sl.v1169 c M3 hM3 x3 a12 = (rowsOf c tbl i sim x2 x3 (accOf c a12 a13 a14 a15 a16 a17) 13).m := by
  unfold kernelRunB.sl.v1169 kernelRunB.sl.H12_13
  rw [View.readCov_cons_toLoadRect]
  refine Eq.trans ?_ (rowsOf_m c tbl i sim x2 x3 (accOf c a12 a13 a14 a15 a16 a17) 12 (by decide)).symm
  unfold kernelRunB.sl.r_121 kernelRunB.sl.r_113
  simp only [V12_12 c i M2 hM2 M3 hM3 tbl hT sim x2 x3 b9 b10 a12 a13 a14 a15 a16 a17, mk_read M3 hM3 x3 12 (by decide)]
  try rfl
theorem V13_13 : kernelRunB.sl.v1174 c i M2 hM2 M3 hM3 tbl x2 x3 a13 = (rowsOf c tbl i sim x2 x3 (accOf c a12 a13 a14 a15 a16 a17) 13).logp := by
  unfold kernelRunB.sl.v1174 kernelRunB.sl.H13_13
  rw [View.readCov_cons_toLoadRect]
  refine Eq.trans ?_ (rowsOf_logp c tbl i sim x2 x3 (accOf c a12 a13 a14 a15 a16 a17) 12 (by decide)).symm
  unfold kernelRunB.sl.r_115 kernelRunB.sl.r_118 kernelRunB.sl.r_113 kernelRunB.sl.r_112
  simp only [W_r_114 c i tbl, V13_12 c i M2 hM2 M3 hM3 tbl hT sim x2 x3 b9 b10 a12 a13 a14 a15 a16 a17, in_read M2 hM2 x2 12 (by decide), mk_read M3 hM3 x3 12 (by decide)]
  try rfl
theorem V14_13 : kernelRunB.sl.v1180 c i M3 hM3 tbl hT sim x3 b9 b10 a14 = (rowsOf c tbl i sim x2 x3 (accOf c a12 a13 a14 a15 a16 a17) 13).w := by
  unfold kernelRunB.sl.v1180 kernelRunB.sl.H14_13
  rw [View.readCov_cons_toLoadRect]
  refine Eq.trans ?_ (rowsOf_w c tbl i sim x2 x3 (accOf c a12 a13 a14 a15 a16 a17) 12 (by decide)).symm
  unfold kernelRunB.sl.r_116 kernelRunB.sl.r_113
  simp only [S_v1039 c i tbl hT sim b9, V14_12 c i M2 hM2 M3 hM3 tbl hT sim x2 x3 b9 b10 a12 a13 a14 a15 a16 a17, mk_read M3 hM3 x3 12 (by decide)]
  try rfl
theorem V12_14 : kernelRunB.sl.v1254 c M3 hM3 x3 a12 = (rowsOf c tbl i sim x2 x3 (accOf c a12 a13 a14 a15 a16 a17) 14).m := by
  unfold kernelRunB.sl.v1254 kernelRunB.sl.H12_14
  rw [View.readCov_cons_toLoadRect]
  refine Eq.trans ?_ (rowsOf_m c tbl i sim x2 x3 (accOf c a12 a13 a14 a15 a16 a17) 13 (by decide)).symm
  unfold kernelRunB.sl.r_125
  simp only [V12_13 c i M2 hM2 M3 hM3 tbl hT sim x2 x3 b9 b10 a12 a13 a14 a15 a16 a17, mk_read M3 hM3 x3 13 (by decide)]
  try rfl
theorem V13_14 : kernelRunB.sl.v1259 c i M2 hM2 M3 hM3 tbl x2 x3 a13 = (rowsOf c tbl i sim x2 x3 (accOf c a12 a13 a14 a15 a16 a17) 14).logp := by
  unfold kernelRunB.sl.v1259 kernelRunB.sl.H13_14
  rw [View.readCov_cons_toLoadRect]
  refine Eq.trans ?_ (rowsOf_logp c tbl i sim x2 x3 (accOf c a12 a13 a14 a15 a16 a17) 13 (by decide)).symm
  unfold kernelRunB.sl.r_124 kernelRunB.sl.r_125 kernelRunB.sl.r_129
  simp only [W_r_123 c i tbl, V13_13 c i M2 hM2 M3 hM3 tbl hT sim x2 x3 b9 b10 a12 a13 a14 a15 a16 a17, in_read M2 hM2 x2 13 (by decide), mk_read M3 hM3 x3 13 (by decide)]
  try rfl
theorem V14_14 : kernelRunB.sl.v1265 c i M3 hM3 tbl hT sim x3 b9 b10 a14 = (rowsOf c tbl i sim x2 x3 (accOf c a12 a13 a14 a15 a16 a17) 14).w := by
  unfold kernelRunB.sl.v1265 kernelRunB.sl.H14_14
  rw [View.readCov_cons_toLoadRect]
  refine Eq.trans ?_ (rowsOf_w c tbl i sim x2 x3 (accOf c a12 a13 a14 a15 a16 a17) 13 (by decide)).symm
  unfold kernelRunB.sl.r_127
  simp only [S_v1124 c i tbl hT sim b10, V14_13 c i M2 hM2 M3 hM3 tbl hT sim x2 x3 b9 b10 a12 a13 a14 a15 a16 a17, mk_read M3 hM3 x3 13 (by decide)]
  try rfl
theorem V12_15 : kernelRunB.sl.v1339 c M3 hM3 x3 a12 = (rowsOf c tbl i sim x2 x3 (accOf c a12 a13 a14 a15 a16 a17) 15).m := by
  unfold kernelRunB.sl.v1339 kernelRunB.sl.H12_15
  rw [View.readCov_cons_toLoadRect]
  refine Eq.trans ?_ (rowsOf_m c tbl i sim x2 x3 (accOf c a12 a13 a14 a15 a16 a17) 14 (by decide)).symm
  unfold kernelRunB.sl.r_135
  simp only [V12_14 c i M2 hM2 M3 hM3 tbl hT sim x2 x3 b9 b10 a12 a13 a14 a15 a16 a17, mk_read M3 hM3 x3 14 (by decide)]
  try rfl
theorem V13_15 : kernelRunB.sl.v1344 c i M2 hM2 M3 hM3 tbl x2 x3 a13 = (rowsOf c tbl i sim x2 x3 (accOf c a12 a13 a14 a15 a16 a17) 15).logp := by
  unfold kernelRunB.sl.v1344 kernelRunB.sl.H13_15
  rw [View.readCov_cons_toLoadRect]
  refine Eq.trans ?_ (rowsOf_logp c tbl i sim x2 x3 (accOf c a12 a13 a14 a15 a16 a17) 14 (by decide)).symm
  unfold kernelRunB.sl.r_134 kernelRunB.sl.r_135
  simp only [W_r_133 c i tbl, V13_14 c i M2 hM2 M3 hM3 tbl hT sim x2 x3 b9 b10 a12 a13 a14 a15 a16 a17, in_read M2 hM2 x2 14 (by decide), mk_read M3 hM3 x3 14 (by decide)]
  try rfl
theorem V14_15 : kernelRunB.sl.v1350 c i M3 hM3 tbl hT sim x3 b9 b10 a14 = (rowsOf c tbl i sim x2 x3 (accOf c a12 a13 a14 a15 a16 a17) 15).w := by
  unfold kernelRunB.sl.v1350 kernelRunB.sl.H14_15
  rw [View.readCov_cons_toLoadRect]
  refine Eq.trans ?_ (rowsOf_w c tbl i sim x2 x3 (accOf c a12 a13 a14 a15 a16 a17) 14 (by decide)).symm
  unfold kernelRunB.sl.r_141 kernelRunB.sl.r_135 kernelRunB.sl.r_136 kernelRunB.sl.r_137
  simp only [S_v1209 c i tbl hT sim b9, V14_14 c i M2 hM2 M3 hM3 tbl hT sim x2 x3 b9 b10 a12 a13 a14 a15 a16 a17, mk_read M3 hM3 x3 14 (by decide)]
  try rfl
theorem V12_16 : kernelRunB.sl.v1424 c M3 hM3 x3 a12 = (rowsOf c tbl i sim x2 x3 (accOf c a12 a13 a14 a15 a16 a17) 16).m := by
  unfold kernelRunB.sl.v1424 kernelRunB.sl.H12_16
  rw [View.readCov_cons_toLoadRect]
  refine Eq.trans ?_ (rowsOf_m c tbl i sim x2 x3 (accOf c a12 a13 a14 a15 a16 a17) 15 (by decide)).symm
  unfold kernelRunB.sl.r_151
  simp only [V12_15 c i M2 hM2 M3 hM3 tbl hT sim x2 x3 b9 b10 a12 a13 a14 a15 a16 a17, mk_read M3 hM3 x3 15 (by decide)]
  try rfl
theorem V13_16 : kernelRunB.sl.v1429 c i M2 hM2 M3 hM3 tbl x2 x3 a13 = (rowsOf c tbl i sim x2 x3 (accOf c a12 a13 a14 a15 a16 a17) 16).logp := by
  unfold kernelRunB.sl.v1429 kernelRunB.sl.H13_16
  rw [View.readCov_cons_toLoadRect]
  refine Eq.trans ?_ (rowsOf_logp c tbl i sim x2 x3 (accOf c a12 a13 a14 a15 a16 a17) 15 (by decide)).symm
  unfold kernelRunB.sl.r_145 kernelRunB.sl.r_148 kernelRunB.sl.r_143
  simp only [W_r_144 c i tbl, V13_15 c i M2 hM2 M3 hM3 tbl hT sim x2 x3 b9 b10 a12 a13 a14 a15 a16 a17, in_read M2 hM2 x2 15 (by decide), mk_read M3 hM3 x3 15 (by decide)]
  try rfl
theorem V14_16 : kernelRunB.sl.v1435 c i M3 hM3 tbl hT sim x3 b9 b10 a14 = (rowsOf c tbl i sim x2 x3 (accOf c a12 a13 a14 a15 a16 a17) 16).w := by
  unfold kernelRunB.sl.v1435 kernelRunB.sl.H14_16
  rw [View.readCov_cons_toLoadRect]
  refine Eq.trans ?_ (rowsOf_w c tbl i sim x2 x3 (accOf c a12 a13 a14 a15 a16 a17) 15 (by decide)).symm
  unfold kernelRunB.sl.r_146
  simp only [S_v1294 c i tbl hT sim b10, V14_15 c i M2 hM2 M3 hM3 tbl hT sim x2 x3 b9 b10 a12 a13 a14 a15 a16 a17, mk_read M3 hM3 x3 15 (by decide)]
  try rfl
theorem V12_17 : kernelRunB.sl.v1509 c M3 hM3 x3 a12 = (rowsOf c tbl i sim x2 x3 (accOf c a12 a13 a14 a15 a16 a17) 17).m := by
  unfold kernelRunB.sl.v1509 kernelRunB.sl.H12_17
  rw [View.readCov_cons_toLoadRect]
  refine Eq.trans ?_ (rowsOf_m c tbl i sim x2 x3 (accOf c a12 a13 a14 a15 a16 a17) 16 (by decide)).symm
  unfold kernelRunB.sl.r_155
  simp only [V12_16 c i M2 hM2 M3 hM3 tbl hT sim x2 x3 b9 b10 a12 a13 a14 a15 a16 a17, mk_read M3 hM3 x3 16 (by decide)]
  try rfl
theorem V13_17 : kernelRunB.sl.v1514 c i M2 hM2 M3 hM3 tbl x2 x3 a13 = (rowsOf c tbl i sim x2 x3 (accOf c a12 a13 a14 a15 a16 a17) 17).logp := by
  unfold kernelRunB.sl.v1514 kernelRunB.sl.H13_17
  rw [View.readCov_cons_toLoadRect]
  refine Eq.trans ?_ (rowsOf_logp c tbl i sim x2 x3 (accOf c a12 a13 a14 a15 a16 a17) 16 (by decide)).symm
  unfold kernelRunB.sl.r_154 kernelRunB.sl.r_155
  simp only [W_r_153 c i tbl, V13_16 c i M2 hM2 M3 hM3 tbl hT sim x2 x3 b9 b10 a12 a13 a14 a15 a16 a17, in_read M2 hM2 x2 16 (by decide), mk_read M3 hM3 x3 16 (by decide)]
  try rfl
theorem V14_17 : kernelRunB.sl.v1520 c i M3 hM3 tbl hT sim x3 b9 b10 a14 = (rowsOf c tbl i sim x2 x3 (accOf c a12 a13 a14 a15 a16 a17) 17).w := by
  unfold kernelRunB.sl.v1520 kernelRunB.sl.H14_17
  rw [View.readCov_cons_toLoadRect]
  refine Eq.trans ?_ (rowsOf_w c tbl i sim x2 x3 (accOf c a12 a13 a14 a15 a16 a17) 16 (by decide)).symm
  unfold kernelRunB.sl.r_157
  simp only [S_v1379 c i tbl hT sim b9, V14_16 c i M2 hM2 M3 hM3 tbl hT sim x2 x3 b9 b10 a12 a13 a14 a15 a16 a17, mk_read M3 hM3 x3 16 (by decide)]
  try rfl
theorem V12_18 : kernelRunB.sl.v1594 c M3 hM3 x3 a12 = (rowsOf c tbl i sim x2 x3 (accOf c a12 a13 a14 a15 a16 a17) 18).m := by
  unfold kernelRunB.sl.v1594 kernelRunB.sl.H12_18
  rw [View.readCov_cons_toLoadRect]
  refine Eq.trans ?_ (rowsOf_m c tbl i sim x2 x3 (accOf c a12 a13 a14 a15 a16 a17) 17 (by decide)).symm
  unfold kernelRunB.sl.r_164
  simp only [V12_17 c i M2 hM2 M3 hM3 tbl hT sim x2 x3 b9 b10 a12 a13 a14 a15 a16 a17, mk_read M3 hM3 x3 17 (by decide)]
  try rfl
theorem V13_18 : kernelRunB.sl.v1599 c i M2 hM2 M3 hM3 tbl x2 x3 a13 = (rowsOf c tbl i sim x2 x3 (accOf c a12 a13 a14 a15 a16 a17) 18).logp := by
  unfold kernelRunB.sl.v1599 kernelRunB.sl.H13_18
  rw [View.readCov_cons_toLoadRect]
  refine Eq.trans ?_ (rowsOf_logp c tbl i sim x2 x3 (accOf c a12 a13 a14 a15 a16 a17) 17 (by decide)).symm
  unfold kernelRunB.sl.r_163 kernelRunB.sl.r_164
  simp only [W_r_162 c i tbl, V13_17 c i M2 hM2 M3 hM3 tbl hT sim x2 x3 b9 b10 a12 a13 a14 a15 a16 a17, in_read M2 hM2 x2 17 (by decide), mk_read M3 hM3 x3 17 (by decide)]
  try rfl
theorem V14_18 : kernelRunB.sl.v1605 c i M3 hM3 tbl hT sim x3 b9 b10 a14 = (rowsOf c tbl i sim x2 x3 (accOf c a12 a13 a14 a15 a16 a17) 18).w := by
  unfold kernelRunB.sl.v1605 kernelRunB.sl.H14_18
  rw [View.readCov_cons_toLoadRect]
  refine Eq.trans ?_ (rowsOf_w c tbl i sim x2 x3 (accOf c a12 a13 a14 a15 a16 a17) 17 (by decide)).symm
  unfold kernelRunB.sl.r_167 kernelRunB.sl.r_164 kernelRunB.sl.r_165 kernelRunB.sl.r_166 kernelRunB.sl.cst_781
  simp only [S_v1464 c i tbl hT sim b10, V14_17 c i M2 hM2 M3 hM3 tbl hT sim x2 x3 b9 b10 a12 a13 a14 a15 a16 a17, mk_read M3 hM3 x3 17 (by decide)]
  try rfl
theorem V12_19 : kernelRunB.sl.v1679 c M3 hM3 x3 a12 = (rowsOf c tbl i sim x2 x3 (accOf c a12 a13 a14 a15 a16 a17) 19).m := by
  unfold kernelRunB.sl.v1679 kernelRunB.sl.H12_19
  rw [View.readCov_cons_toLoadRect]
  refine Eq.trans ?_ (rowsOf_m c tbl i sim x2 x3 (accOf c a12 a13 a14 a15 a16 a17) 18 (by decide)).symm
  unfold kernelRunB.sl.r_173
  simp only [V12_18 c i M2 hM2 M3 hM3 tbl hT sim x2 x3 b9 b10 a12 a13 a14 a15 a16 a17, mk_read M3 hM3 x3 18 (by decide)]
  try rfl
theorem V13_19 : kernelRunB.sl.v1684 c i M2 hM2 M3 hM3 tbl x2 x3 a13 = (rowsOf c tbl i sim x2 x3 (accOf c a12 a13 a14 a15 a16 a17) 19).logp := by
  unfold kernelRunB.sl.v1684 kernelRunB.sl.H13_19
  rw [View.readCov_cons_toLoadRect]
  refine Eq.trans ?_ (rowsOf_logp c tbl i sim x2 x3 (accOf c a12 a13 a14 a15 a16 a17) 18 (by decide)).symm
  unfold kernelRunB.sl.r_173 kernelRunB.sl.r_176
  simp only [W_r_172 c i tbl, V13_18 c i M2 hM2 M3 hM3 tbl hT sim x2 x3 b9 b10 a12 a13 a14 a15 a16 a17, in_read M2 hM2 x2 18 (by decide), mk_read M3 hM3 x3 18 (by decide)]
  try rfl
theorem V14_19 : kernelRunB.sl.v1690 c i M3 hM3 tbl hT sim x3 b9 b10 a14 = (rowsOf c tbl i sim x2 x3 (accOf c a12 a13 a14 a15 a16 a17) 19).w := by
  unfold kernelRunB.sl.v1690 kernelRunB.sl.H14_19
  rw [View.readCov_cons_toLoadRect]
  refine Eq.trans ?_ (rowsOf_w c tbl i sim x2 x3 (accOf c a12 a13 a14 a15 a16 a17) 18 (by decide)).symm
  unfold kernelRunB.sl.r_174
  simp only [S_v c i tbl hT sim b9, V14_18 c i M2 hM2 M3 hM3 tbl hT sim x2 x3 b9 b10 a12 a13 a14 a15 a16 a17, mk_read M3 hM3 x3 18 (by decide)]
  try rfl
theorem V12_20 : kernelRunB.sl.v1764 c M3 hM3 x3 a12 = (rowsOf c tbl i sim x2 x3 (accOf c a12 a13 a14 a15 a16 a17) 20).m := by
  unfold kernelRunB.sl.v1764 kernelRunB.sl.H12_20
  rw [View.readCov_cons_toLoadRect]
  refine Eq.trans ?_ (rowsOf_m c tbl i sim x2 x3 (accOf c a12 a13 a14 a15 a16 a17) 19 (by decide)).symm
  unfold kernelRunB.sl.r_182
  simp only [V12_19 c i M2 hM2 M3 hM3 tbl hT sim x2 x3 b9 b10 a12 a13 a14 a15 a16 a17, mk_read M3 hM3 x3 19 (by decide)]
  try rfl
theorem V13_20 : kernelRunB.sl.v1769 c i M2 hM2 M3 hM3 tbl x2 x3 a13 = (rowsOf c tbl i sim x2 x3 (accOf c a12 a13 a14 a15 a16 a17) 20).logp := by
  unfold kernelRunB.sl.v1769 kernelRunB.sl.H13_20
  rw [View.readCov_cons_toLoadRect]
  refine Eq.trans ?_ (rowsOf_logp c tbl i sim x2 x3 (accOf c a12 a13 a14 a15 a16 a17) 19 (by decide)).symm
  unfold kernelRunB.sl.r_181 kernelRunB.sl.r_182
  simp only [W_r_180 c i tbl, V13_19 c i M2 hM2 M3 hM3 tbl hT sim x2 x3 b9 b10 a12 a13 a14 a15 a16 a17, in_read M2 hM2 x2 19 (by decide), mk_read M3 hM3 x3 19 (by decide)]
  try rfl
theorem V14_20 : kernelRunB.sl.v1775 c i M3 hM3 tbl hT sim x3 b9 b10 a14 = (rowsOf c tbl i sim x2 x3 (accOf c a12 a13 a14 a15 a16 a17) 20).w := by
  unfold kernelRunB.sl.v1775 kernelRunB.sl.H14_20
  rw [View.readCov_cons_toLoadRect]
  refine Eq.trans ?_ (rowsOf_w c tbl i sim x2 x3 (accOf c a12 a13 a14 a15 a16 a17) 19 (by decide)).symm
  unfold kernelRunB.sl.r_184
  simp only [S_v1634 c i tbl hT sim b10, V14_19 c i M2 hM2 M3 hM3 tbl hT sim x2 x3 b9 b10 a12 a13 a14 a15 a16 a17, mk_read M3 hM3 x3 19 (by decide)]
  try rfl
theorem V12_21 : kernelRunB.sl.v1849 c M3 hM3 x3 a12 = (rowsOf c tbl i sim x2 x3 (accOf c a12 a13 a14 a15 a16 a17) 21).m := by
  unfold kernelRunB.sl.v1849 kernelRunB.sl.H12_21
  rw [View.readCov_cons_toLoadRect]
  refine Eq.trans ?_ (rowsOf_m c tbl i sim x2 x3 (accOf c a12 a13 a14 a15 a16 a17) 20 (by decide)).symm
  unfold kernelRunB.sl.r_191
  simp only [V12_20 c i M2 hM2 M3 hM3 tbl hT sim x2 x3 b9 b10 a12 a13 a14 a15 a16 a17, mk_read M3 hM3 x3 20 (by decide)]
  try rfl
theorem V13_21 : kernelRunB.sl.v1854 c i M2 hM2 M3 hM3 tbl x2 x3 a13 = (rowsOf c tbl i sim x2 x3 (accOf c a12 a13 a14 a15 a16 a17) 21).logp := by
  unfold kernelRunB.sl.v1854 kernelRunB.sl.H13_21
  rw [View.readCov_cons_toLoadRect]
  refine Eq.trans ?_ (rowsOf_logp c tbl i sim x2 x3 (accOf c a12 a13 a14 a15 a16 a17) 20 (by decide)).symm
  unfold kernelRunB.sl.r_197 kernelRunB.sl.r_190 kernelRunB.sl.r_191
  simp only [W_r_189 c i tbl, V13_20 c i M2 hM2 M3 hM3 tbl hT sim x2 x3 b9 b10 a12 a13 a14 a15 a16 a17, in_read M2 hM2 x2 20 (by decide), mk_read M3 hM3 x3 20 (by decide)]
  try rfl
theorem V14_21 : kernelRunB.sl.v1860 c i M3 hM3 tbl hT sim x3 b9 b10 a14 = (rowsOf c tbl i sim x2 x3 (accOf c a12 a13 a14 a15 a16 a17) 21).w := by
  unfold kernelRunB.sl.v1860 kernelRunB.sl.H14_21
  rw [View.readCov_cons_toLoadRect]
  refine Eq.trans ?_ (rowsOf_w c tbl i sim x2 x3 (accOf c a12 a13 a14 a15 a16 a17) 20 (by decide)).symm
  unfold kernelRunB.sl.r_193 kernelRunB.sl.r_191 kernelRunB.sl.r_192 kernelRunB.sl.cst_15
  simp only [S_v1719 c i tbl hT sim b9, V14_20 c i M2 hM2 M3 hM3 tbl hT sim x2 x3 b9 b10 a12 a13 a14 a15 a16 a17, mk_read M3 hM3 x3 20 (by decide)]
  try rfl
theorem V12_22 : kernelRunB.sl.v1934 c M3 hM3 x3 a12 = (rowsOf c tbl i sim x2 x3 (accOf c a12 a13 a14 a15 a16 a17) 22).m := by
  unfold kernelRunB.sl.v1934 kernelRunB.sl.H12_22
  rw [View.readCov_cons_toLoadRect]
  refine Eq.trans ?_ (rowsOf_m c tbl i sim x2 x3 (accOf c a12 a13 a14 a15 a16 a17) 21 (by decide)).symm
  unfold kernelRunB.sl.r_200
  simp only [V12_21 c i M2 hM2 M3 hM3 tbl hT sim x2 x3 b9 b10 a12 a13 a14 a15 a16 a17, mk_read M3 hM3 x3 21 (by decide)]
  try rfl
theorem V13_22 : kernelRunB.sl.v1939 c i M2 hM2 M3 hM3 tbl x2 x3 a13 = (rowsOf c tbl i sim x2 x3 (accOf c a12 a13 a14 a15 a16 a17) 22).logp := by
  unfold kernelRunB.sl.v1939 kernelRunB.sl.H13_22
  rw [View.readCov_cons_toLoadRect]
  refine Eq.trans ?_ (rowsOf_logp c tbl i sim x2 x3 (accOf c a12 a13 a14 a15 a16 a17) 21 (by decide)).symm
  unfold kernelRunB.sl.r_200 kernelRunB.sl.r_203
  simp only [W_r_199 c i tbl, V13_21 c i M2 hM2 M3 hM3 tbl hT sim x2 x3 b9 b10 a12 a13 a14 a15 a16 a17, in_read M2 hM2 x2 21 (by decide), mk_read M3 hM3 x3 21 (by decide)]
  try rfl
theorem V14_22 : kernelRunB.sl.v1945 c i M3 hM3 tbl hT sim x3 b9 b10 a14 = (rowsOf c tbl i sim x2 x3 (accOf c a12 a13 a14 a15 a16 a17) 22).w := by
  unfold kernelRunB.sl.v1945 kernelRunB.sl.H14_22
  rw [View.readCov_cons_toLoadRect]
  refine Eq.trans ?_ (rowsOf_w c tbl i sim x2 x3 (accOf c a12 a13 a14 a15 a16 a17) 21 (by decide)).symm
  unfold kernelRunB.sl.r_201
  simp only [S_v1804 c i tbl hT sim b10, V14_21 c i M2 hM2 M3 hM3 tbl hT sim x2 x3 b9 b10 a12 a13 a14 a15 a16 a17, mk_read M3 hM3 x3 21 (by decide)]
  try rfl
theorem V12_23 : kernelRunB.sl.v2019 c M3 hM3 x3 a12 = (rowsOf c tbl i sim x2 x3 (accOf c a12 a13 a14 a15 a16 a17) 23).m := by
  unfold kernelRunB.sl.v2019 kernelRunB.sl.H12_23
  rw [View.readCov_cons_toLoadRect]
  refine Eq.trans ?_ (rowsOf_m c tbl i sim x2 x3 (accOf c a12 a13 a14 a15 a16 a17) 22 (by decide)).symm
  unfold kernelRunB.sl.r_210
  simp only [V12_22 c i M2 hM2 M3 hM3 tbl hT sim x2 x3 b9 b10 a12 a13 a14 a15 a16 a17, mk_read M3 hM3 x3 22 (by decide)]
  try rfl
theorem V13_23 : kernelRunB.sl.v2024 c i M2 hM2 M3 hM3 tbl x2 x3 a13 = (rowsOf c tbl i sim x2 x3 (accOf c a12 a13 a14 a15 a16 a17) 23).logp := by
  unfold kernelRunB.sl.v2024 kernelRunB.sl.H13_23
  rw [View.readCov_cons_toLoadRect]
  refine Eq.trans ?_ (rowsOf_logp c tbl i sim x2 x3 (accOf c a12 a13 a14 a15 a16 a17) 22 (by decide)).symm
  unfold kernelRunB.sl.r_209 kernelRunB.sl.r_210
  simp only [W_r_208 c i tbl, V13_22 c i M2 hM2 M3 hM3 tbl hT sim x2 x3 b9 b10 a12 a13 a14 a15 a16 a17, in_read M2 hM2 x2 22 (by decide), mk_read M3 hM3 x3 22 (by decide)]
  try rfl
theorem V14_23 : kernelRunB.sl.v2030 c i M3 hM3 tbl hT sim x3 b9 b10 a14 = (rowsOf c tbl i sim x2 x3 (accOf c a12 a13 a14 a15 a16 a17) 23).w := by
  unfold kernelRunB.sl.v2030 kernelRunB.sl.H14_23
  rw [View.readCov_cons_toLoadRect]
  refine Eq.trans ?_ (rowsOf_w c tbl i sim x2 x3 (accOf c a12 a13 a14 a15 a16 a17) 22 (by decide)).symm
  unfold kernelRunB.sl.r_213
  simp only [S_v1889 c i tbl hT sim b9, V14_22 c i M2 hM2 M3 hM3 tbl hT sim x2 x3 b9 b10 a12 a13 a14 a15 a16 a17, mk_read M3 hM3 x3 22 (by decide)]
  try rfl
theorem V12_24 : kernelRunB.sl.v2104 c M3 hM3 x3 a12 = (rowsOf c tbl i sim x2 x3 (accOf c a12 a13 a14 a15 a16 a17) 24).m := by
  unfold kernelRunB.sl.v2104 kernelRunB.sl.H12_24
  rw [View.readCov_cons_toLoadRect]
  refine Eq.trans ?_ (rowsOf_m c tbl i sim x2 x3 (accOf c a12 a13 a14 a15 a16 a17) 23 (by decide)).symm
  unfold kernelRunB.sl.r_220
  simp only [V12_23 c i M2 hM2 M3 hM3 tbl hT sim x2 x3 b9 b10 a12 a13 a14 a15 a16 a17, mk_read M3 hM3 x3 23 (by decide)]
  try rfl
theorem V13_24 : kernelRunB.sl.v2109 c i M2 hM2 M3 hM3 tbl x2 x3 a13 = (rowsOf c tbl i sim x2 x3 (accOf c a12 a13 a14 a15 a16 a17) 24).logp := by
  unfold kernelRunB.sl.v2109 kernelRunB.sl.H13_24
  rw [View.readCov_cons_toLoadRect]
  refine Eq.trans ?_ (rowsOf_logp c tbl i sim x2 x3 (accOf c a12 a13 a14 a15 a16 a17) 23 (by decide)).symm
  unfold kernelRunB.sl.r_226 kernelRunB.sl.r_219 kernelRunB.sl.r_220
  simp only [W_r_218 c i tbl, V13_23 c i M2 hM2 M3 hM3 tbl hT sim x2 x3 b9 b10 a12 a13 a14 a15 a16 a17, in_read M2 hM2 x2 23 (by decide), mk_read M3 hM3 x3 23 (by decide)]
  try rfl
theorem V14_24 : kernelRunB.sl.v2115 c i M3 hM3 tbl hT sim x3 b9 b10 a14 = (rowsOf c tbl i sim x2 x3 (accOf c a12 a13 a14 a15 a16 a17) 24).w := by
  unfold kernelRunB.sl.v2115 kernelRunB.sl.H14_24
  rw [View.readCov_cons_toLoadRect]
  refine Eq.trans ?_ (rowsOf_w c tbl i sim x2 x3 (accOf c a12 a13 a14 a15 a16 a17) 23 (by decide)).symm
  unfold kernelRunB.sl.r_222 kernelRunB.sl.r_220 kernelRunB.sl.r_221
  simp only [S_v1974 c i tbl hT sim b10, V14_23 c i M2 hM2 M3 hM3 tbl hT sim x2 x3 b9 b10 a12 a13 a14 a15 a16 a17, mk_read M3 hM3 x3 23 (by decide)]
  try rfl
theorem V12_25 : kernelRunB.sl.v2189 c M3 hM3 x3 a12 = (rowsOf c tbl i sim x2 x3 (accOf c a12 a13 a14 a15 a16 a17) 25).m := by
  unfold kernelRunB.sl.v2189 kernelRunB.sl.H12_25
  rw [View.readCov_cons_toLoadRect]
  refine Eq.trans ?_ (rowsOf_m c tbl i sim x2 x3 (accOf c a12 a13 a14 a15 a16 a17) 24 (by decide)).symm
  unfold kernelRunB.sl.r_229
  simp only [V12_24 c i M2 hM2 M3 hM3 tbl hT sim x2 x3 b9 b10 a12 a13 a14 a15 a16 a17, mk_read M3 hM3 x3 24 (by decide)]
  try rfl
theorem V13_25 : kernelRunB.sl.v2194 c i M2 hM2 M3 hM3 tbl x2 x3 a13 = (rowsOf c tbl i sim x2 x3 (accOf c a12 a13 a14 a15 a16 a17) 25).logp := by
  unfold kernelRunB.sl.v2194 kernelRunB.sl.H13_25
  rw [View.readCov_cons_toLoadRect]
  refine Eq.trans ?_ (rowsOf_logp c tbl i sim x2 x3 (accOf c a12 a13 a14 a15 a16 a17) 24 (by decide)).symm
  unfold kernelRunB.sl.r_229 kernelRunB.sl.r_233
  simp only [W_r_228 c i tbl, V13_24 c i M2 hM2 M3 hM3 tbl hT sim x2 x3 b9 b10 a12 a13 a14 a15 a16 a17, in_read M2 hM2 x2 24 (by decide), mk_read M3 hM3 x3 24 (by decide)]
  try rfl
theorem V14_25 : kernelRunB.sl.v2200 c i M3 hM3 tbl hT sim x3 b9 b10 a14 = (rowsOf c tbl i sim x2 x3 (accOf c a12 a13 a14 a15 a16 a17) 25).w := by
  unfold kernelRunB.sl.v2200 kernelRunB.sl.H14_25
  rw [View.readCov_cons_toLoadRect]
  refine Eq.trans ?_ (rowsOf_w c tbl i sim x2 x3 (accOf c a12 a13 a14 a15 a16 a17) 24 (by decide)).symm
  unfold kernelRunB.sl.r_231
  simp only [S_v2059 c i tbl hT sim b9, V14_24 c i M2 hM2 M3 hM3 tbl hT sim x2 x3 b9 b10 a12 a13 a14 a15 a16 a17, mk_read M3 hM3 x3 24 (by decide)]
  try rfl
theorem V12_26 : kernelRunB.sl.v2274 c M3 hM3 x3 a12 = (rowsOf c tbl i sim x2 x3 (accOf c a12 a13 a14 a15 a16 a17) 26).m := by
  unfold kernelRunB.sl.v2274 kernelRunB.sl.H12_26
  rw [View.readCov_cons_toLoadRect]
  refine Eq.trans ?_ (rowsOf_m c tbl i sim x2 x3 (accOf c a12 a13 a14 a15 a16 a17) 25 (by decide)).symm
  unfold kernelRunB.sl.r_239
  simp only [V12_25 c i M2 hM2 M3 hM3 tbl hT sim x2 x3 b9 b10 a12 a13 a14 a15 a16 a17, mk_read M3 hM3 x3 25 (by decide)]
  try rfl
theorem V13_26 : kernelRunB.sl.v2279 c i M2 hM2 M3 hM3 tbl x2 x3 a13 = (rowsOf c tbl i sim x2 x3 (accOf c a12 a13 a14 a15 a16 a17) 26).logp := by
  unfold kernelRunB.sl.v2279 kernelRunB.sl.H13_26
  rw [View.readCov_cons_toLoadRect]
  refine Eq.trans ?_ (rowsOf_logp c tbl i sim x2 x3 (accOf c a12 a13 a14 a15 a16 a17) 25 (by decide)).symm
  unfold kernelRunB.sl.r_238 kernelRunB.sl.r_239
  simp only [W_r_237 c i tbl, V13_25 c i M2 hM2 M3 hM3 tbl hT sim x2 x3 b9 b10 a12 a13 a14 a15 a16 a17, in_read M2 hM2 x2 25 (by decide), mk_read M3 hM3 x3 25 (by decide)]
  try rfl
theorem V14_26 : kernelRunB.sl.v2285 c i M3 hM3 tbl hT sim x3 b9 b10 a14 = (rowsOf c tbl i sim x2 x3 (accOf c a12 a13 a14 a15 a16 a17) 26).w := by
  unfold kernelRunB.sl.v2285 kernelRunB.sl.H14_26
  rw [View.readCov_cons_toLoadRect]
  refine Eq.trans ?_ (rowsOf_w c tbl i sim x2 x3 (accOf c a12 a13 a14 a15 a16 a17) 25 (by decide)).symm
  unfold kernelRunB.sl.r_241
  simp only [S_v2144 c i tbl hT sim b10, V14_25 c i M2 hM2 M3 hM3 tbl hT sim x2 x3 b9 b10 a12 a13 a14 a15 a16 a17, mk_read M3 hM3 x3 25 (by decide)]
  try rfl
theorem V12_27 : kernelRunB.sl.v2359 c M3 hM3 x3 a12 = (rowsOf c tbl i sim x2 x3 (accOf c a12 a13 a14 a15 a16 a17) 27).m := by
  unfold kernelRunB.sl.v2359 kernelRunB.sl.H12_27
  rw [View.readCov_cons_toLoadRect]
  refine Eq.trans ?_ (rowsOf_m c tbl i sim x2 x3 (accOf c a12 a13 a14 a15 a16 a17) 26 (by decide)).symm
  unfold kernelRunB.sl.r_248
  simp only [V12_26 c i M2 hM2 M3 hM3 tbl hT sim x2 x3 b9 b10 a12 a13 a14 a15 a16 a17, mk_read M3 hM3 x3 26 (by decide)]
  try rfl
theorem V13_27 : kernelRunB.sl.v2364 c i M2 hM2 M3 hM3 tbl x2 x3 a13 = (rowsOf c tbl i sim x2 x3 (accOf c a12 a13 a14 a15 a16 a17) 27).logp := by
  unfold kernelRunB.sl.v2364 kernelRunB.sl.H13_27
  rw [View.readCov_cons_toLoadRect]
  refine Eq.trans ?_ (rowsOf_logp c tbl i sim x2 x3 (accOf c a12 a13 a14 a15 a16 a17) 26 (by decide)).symm
  unfold kernelRunB.sl.r_253 kernelRunB.sl.r_247 kernelRunB.sl.r_248
  simp only [W_r_246 c i tbl, V13_26 c i M2 hM2 M3 hM3 tbl hT sim x2 x3 b9 b10 a12 a13 a14 a15 a16 a17, in_read M2 hM2 x2 26 (by decide), mk_read M3 hM3 x3 26 (by decide)]
  try rfl
theorem V14_27 : kernelRunB.sl.v2370 c i M3 hM3 tbl hT sim x3 b9 b10 a14 = (rowsOf c tbl i sim x2 x3 (accOf c a12 a13 a14 a15 a16 a17) 27).w := by
  unfold kernelRunB.sl.v2370 kernelRunB.sl.H14_27
  rw [View.readCov_cons_toLoadRect]
  refine Eq.trans ?_ (rowsOf_w c tbl i sim x2 x3 (accOf c a12 a13 a14 a15 a16 a17) 26 (by decide)).symm
  unfold kernelRunB.sl.r_249 kernelRunB.sl.r_248 kernelRunB.sl.cst_284
  simp only [S_v2229 c i tbl hT sim b9, V14_26 c i M2 hM2 M3 hM3 tbl hT sim x2 x3 b9 b10 a12 a13 a14 a15 a16 a17, mk_read M3 hM3 x3 26 (by decide)]
  try rfl
theorem V12_28 : kernelRunB.sl.v2444 c M3 hM3 x3 a12 = (rowsOf c tbl i sim x2 x3 (accOf c a12 a13 a14 a15 a16 a17) 28).m := by
  unfold kernelRunB.sl.v2444 kernelRunB.sl.H12_28
  rw [View.readCov_cons_toLoadRect]
  refine Eq.trans ?_ (rowsOf_m c tbl i sim x2 x3 (accOf c a12 a13 a14 a15 a16 a17) 27 (by decide)).symm
  unfold kernelRunB.sl.r_256
  simp only [V12_27 c i M2 hM2 M3 hM3 tbl hT sim x2 x3 b9 b10 a12 a13 a14 a15 a16 a17, mk_read M3 hM3 x3 27 (by decide)]
  try rfl
theorem V13_28 : kernelRunB.sl.v2449 c i M2 hM2 M3 hM3 tbl x2 x3 a13 = (rowsOf c tbl i sim x2 x3 (accOf c a12 a13 a14 a15 a16 a17) 28).logp := by
  unfold kernelRunB.sl.v2449 kernelRunB.sl.H13_28
  rw [View.readCov_cons_toLoadRect]
  refine Eq.trans ?_ (rowsOf_logp c tbl i sim x2 x3 (accOf c a12 a13 a14 a15 a16 a17) 27 (by decide)).symm
  unfold kernelRunB.sl.r_256 kernelRunB.sl.r_260
  simp only [W_r_255 c i tbl, V13_27 c i M2 hM2 M3 hM3 tbl hT sim x2 x3 b9 b10 a12 a13 a14 a15 a16 a17, in_read M2 hM2 x2 27 (by decide), mk_read M3 hM3 x3 27 (by decide)]
  try rfl
theorem V14_28 : kernelRunB.sl.v2455 c i M3 hM3 tbl hT sim x3 b9 b10 a14 = (rowsOf c tbl i sim x2 x3 (accOf c a12 a13 a14 a15 a16 a17) 28).w := by
  unfold kernelRunB.sl.v2455 kernelRunB.sl.H14_28
  rw [View.readCov_cons_toLoadRect]
  refine Eq.trans ?_ (rowsOf_w c tbl i sim x2 x3 (accOf c a12 a13 a14 a15 a16 a17) 27 (by decide)).symm
  unfold kernelRunB.sl.r_258
  simp only [S_v2314 c i tbl hT sim b10, V14_27 c i M2 hM2 M3 hM3 tbl hT sim x2 x3 b9 b10 a12 a13 a14 a15 a16 a17, mk_read M3 hM3 x3 27 (by decide)]
  try rfl
theorem V12_29 : kernelRunB.sl.v2529 c M3 hM3 x3 a12 = (rowsOf c tbl i sim x2 x3 (accOf c a12 a13 a14 a15 a16 a17) 29).m := by
  unfold kernelRunB.sl.v2529 kernelRunB.sl.H12_29
  rw [View.readCov_cons_toLoadRect]
  refine Eq.trans ?_ (rowsOf_m c tbl i sim x2 x3 (accOf c a12 a13 a14 a15 a16 a17) 28 (by decide)).symm
  unfold kernelRunB.sl.r_265
  simp only [V12_28 c i M2 hM2 M3 hM3 tbl hT sim x2 x3 b9 b10 a12 a13 a14 a15 a16 a17, mk_read M3 hM3 x3 28 (by decide)]
  try rfl
theorem V13_29 : kernelRunB.sl.v2534 c i M2 hM2 M3 hM3 tbl x2 x3 a13 = (rowsOf c tbl i sim x2 x3 (accOf c a12 a13 a14 a15 a16 a17) 29).logp := by
  unfold kernelRunB.sl.v2534 kernelRunB.sl.H13_29
  rw [View.readCov_cons_toLoadRect]
  refine Eq.trans ?_ (rowsOf_logp c tbl i sim x2 x3 (accOf c a12 a13 a14 a15 a16 a17) 28 (by decide)).symm
  unfold kernelRunB.sl.r_264 kernelRunB.sl.r_265
  simp only [W_r_263 c i tbl, V13_28 c i M2 hM2 M3 hM3 tbl hT sim x2 x3 b9 b10 a12 a13 a14 a15 a16 a17, in_read M2 hM2 x2 28 (by decide), mk_read M3 hM3 x3 28 (by decide)]
  try rfl
theorem V14_29 : kernelRunB.sl.v2540 c i M3 hM3 tbl hT sim x3 b9 b10 a14 = (rowsOf c tbl i sim x2 x3 (accOf c a12 a13 a14 a15 a16 a17) 29).w := by
  unfold kernelRunB.sl.v2540 kernelRunB.sl.H14_29
  rw [View.readCov_cons_toLoadRect]
  refine Eq.trans ?_ (rowsOf_w c tbl i sim x2 x3 (accOf c a12 a13 a14 a15 a16 a17) 28 (by decide)).symm
  unfold kernelRunB.sl.r_265 kernelRunB.sl.r_266
  simp only [S_v2399 c i tbl hT sim b9, V14_28 c i M2 hM2 M3 hM3 tbl hT sim x2 x3 b9 b10 a12 a13 a14 a15 a16 a17, mk_read M3 hM3 x3 28 (by decide)]
  try rfl
theorem V12_30 : kernelRunB.sl.v2614 c M3 hM3 x3 a12 = (rowsOf c tbl i sim x2 x3 (accOf c a12 a13 a14 a15 a16 a17) 30).m := by
  unfold kernelRunB.sl.v2614 kernelRunB.sl.H12_30
  rw [View.readCov_cons_toLoadRect]
  refine Eq.trans ?_ (rowsOf_m c tbl i sim x2 x3 (accOf c a12 a13 a14 a15 a16 a17) 29 (by decide)).symm
  unfold kernelRunB.sl.r_272
  simp only [V12_29 c i M2 hM2 M3 hM3 tbl hT sim x2 x3 b9 b10 a12 a13 a14 a15 a16 a17, mk_read M3 hM3 x3 29 (by decide)]
  try rfl
theorem V13_30 : kernelRunB.sl.v2619 c i M2 hM2 M3 hM3 tbl x2 x3 a13 = (rowsOf c tbl i sim x2 x3 (accOf c a12 a13 a14 a15 a16 a17) 30).logp := by
  unfold kernelRunB.sl.v2619 kernelRunB.sl.H13_30
  rw [View.readCov_cons_toLoadRect]
  refine Eq.trans ?_ (rowsOf_logp c tbl i sim x2 x3 (accOf c a12 a13 a14 a15 a16 a17) 29 (by decide)).symm
  unfold kernelRunB.sl.r_272 kernelRunB.sl.r_276 kernelRunB.sl.r_271
  simp only [W_r_273 c i tbl, V13_29 c i M2 hM2 M3 hM3 tbl hT sim x2 x3 b9 b10 a12 a13 a14 a15 a16 a17, in_read M2 hM2 x2 29 (by decide), mk_read M3 hM3 x3 29 (by decide)]
  try rfl
theorem V14_30 : kernelRunB.sl.v2625 c i M3 hM3 tbl hT sim x3 b9 b10 a14 = (rowsOf c tbl i sim x2 x3 (accOf c a12 a13 a14 a15 a16 a17) 30).w := by
  unfold kernelRunB.sl.v2625 kernelRunB.sl.H14_30
  rw [View.readCov_cons_toLoadRect]
  refine Eq.trans ?_ (rowsOf_w c tbl i sim x2 x3 (accOf c a12 a13 a14 a15 a16 a17) 29 (by decide)).symm
  unfold kernelRunB.sl.r_274 kernelRunB.sl.r_272
  simp only [S_v2484 c i tbl hT sim b10, V14_29 c i M2 hM2 M3 hM3 tbl hT sim x2 x3 b9 b10 a12 a13 a14 a15 a16 a17, mk_read M3 hM3 x3 29 (by decide)]
  try rfl
theorem V12_31 : kernelRunB.sl.v2699 c M3 hM3 x3 a12 = (rowsOf c tbl i sim x2 x3 (accOf c a12 a13 a14 a15 a16 a17) 31).m := by
  unfold kernelRunB.sl.v2699 kernelRunB.sl.H12_31
  rw [View.readCov_cons_toLoadRect]
  refine Eq.trans ?_ (rowsOf_m c tbl i sim x2 x3 (accOf c a12 a13 a14 a15 a16 a17) 30 (by decide)).symm
  unfold kernelRunB.sl.r_281
  simp only [V12_30 c i M2 hM2 M3 hM3 tbl hT sim x2 x3 b9 b10 a12 a13 a14 a15 a16 a17, mk_read M3 hM3 x3 30 (by decide)]
  try rfl
theorem V13_31 : kernelRunB.sl.v2704 c i M2 hM2 M3 hM3 tbl x2 x3 a13 = (rowsOf c tbl i sim x2 x3 (accOf c a12 a13 a14 a15 a16 a17) 31).logp := by
  unfold kernelRunB.sl.v2704 kernelRunB.sl.H13_31
  rw [View.readCov_cons_toLoadRect]
  refine Eq.trans ?_ (rowsOf_logp c tbl i sim x2 x3 (accOf c a12 a13 a14 a15 a16 a17) 30 (by decide)).symm
  unfold kernelRunB.sl.r_281 kernelRunB.sl.r_285
  simp only [W_r_280 c i tbl, V13_30 c i M2 hM2 M3 hM3 tbl hT sim x2 x3 b9 b10 a12 a13 a14 a15 a16 a17, in_read M2 hM2 x2 30 (by decide), mk_read M3 hM3 x3 30 (by decide)]
  try rfl
theorem V14_31 : kernelRunB.sl.v2710 c i M3 hM3 tbl hT sim x3 b9 b10 a14 = (rowsOf c tbl i sim x2 x3 (accOf c a12 a13 a14 a15 a16 a17) 31).w := by
  unfold kernelRunB.sl.v2710 kernelRunB.sl.H14_31
  rw [View.readCov_cons_toLoadRect]
  refine Eq.trans ?_ (rowsOf_w c tbl i sim x2 x3 (accOf c a12 a13 a14 a15 a16 a17) 30 (by decide)).symm
  unfold kernelRunB.sl.r_283
  simp only [S_v2569 c i tbl hT sim b9, V14_30 c i M2 hM2 M3 hM3 tbl hT sim x2 x3 b9 b10 a12 a13 a14 a15 a16 a17, mk_read M3 hM3 x3 30 (by decide)]
  try rfl
theorem V12_32 : kernelRunB.sl.v2784 c M3 hM3 x3 a12 = (rowsOf c tbl i sim x2 x3 (accOf c a12 a13 a14 a15 a16 a17) 32).m := by
  unfold kernelRunB.sl.v2784 kernelRunB.sl.H12_32
  rw [View.readCov_cons_toLoadRect]
  refine Eq.trans ?_ (rowsOf_m c tbl i sim x2 x3 (accOf c a12 a13 a14 a15 a16 a17) 31 (by decide)).symm
  unfold kernelRunB.sl.r_291
  simp only [V12_31 c i M2 hM2 M3 hM3 tbl hT sim x2 x3 b9 b10 a12 a13 a14 a15 a16 a17, mk_read M3 hM3 x3 31 (by decide)]
  try rfl
theorem V13_32 : kernelRunB.sl.v2789 c i M2 hM2 M3 hM3 tbl x2 x3 a13 = (rowsOf c tbl i sim x2 x3 (accOf c a12 a13 a14 a15 a16 a17) 32).logp := by
  unfold kernelRunB.sl.v2789 kernelRunB.sl.H13_32
  rw [View.readCov_cons_toLoadRect]
  refine Eq.trans ?_ (rowsOf_logp c tbl i sim x2 x3 (accOf c a12 a13 a14 a15 a16 a17) 31 (by decide)).symm
  unfold kernelRunB.sl.r_290 kernelRunB.sl.r_291
  simp only [W_r_289 c i tbl, V13_31 c i M2 hM2 M3 hM3 tbl hT sim x2 x3 b9 b10 a12 a13 a14 a15 a16 a17, in_read M2 hM2 x2 31 (by decide), mk_read M3 hM3 x3 31 (by decide)]
  try rfl
theorem V14_32 : kernelRunB.sl.v2795 c i M3 hM3 tbl hT sim x3 b9 b10 a14 = (rowsOf c tbl i sim x2 x3 (accOf c a12 a13 a14 a15 a16 a17) 32).w := by
  unfold kernelRunB.sl.v2795 kernelRunB.sl.H14_32
  rw [View.readCov_cons_toLoadRect]
  refine Eq.trans ?_ (rowsOf_w c tbl i sim x2 x3 (accOf c a12 a13 a14 a15 a16 a17) 31 (by decide)).symm
  unfold kernelRunB.sl.r_297 kernelRunB.sl.r_291 kernelRunB.sl.r_292 kernelRunB.sl.r_293
  simp only [S_v2654 c i tbl hT sim b10, V14_31 c i M2 hM2 M3 hM3 tbl hT sim x2 x3 b9 b10 a12 a13 a14 a15 a16 a17, mk_read M3 hM3 x3 31 (by decide)]
  try rfl
theorem V12_33 : kernelRunB.sl.v2869 c M3 hM3 x3 a12 = (rowsOf c tbl i sim x2 x3 (accOf c a12 a13 a14 a15 a16 a17) 33).m := by
  unfold kernelRunB.sl.v2869 kernelRunB.sl.H12_33
  rw [View.readCov_cons_toLoadRect]
  refine Eq.trans ?_ (rowsOf_m c tbl i sim x2 x3 (accOf c a12 a13 a14 a15 a16 a17) 32 (by decide)).symm
  unfold kernelRunB.sl.r_308 kernelRunB.sl.r_300
  simp only [V12_32 c i M2 hM2 M3 hM3 tbl hT sim x2 x3 b9 b10 a12 a13 a14 a15 a16 a17, mk_read M3 hM3 x3 32 (by decide)]
  try rfl
theorem V13_33 : kernelRunB.sl.v2874 c i M2 hM2 M3 hM3 tbl x2 x3 a13 = (rowsOf c tbl i sim x2 x3 (accOf c a12 a13 a14 a15 a16 a17) 33).logp := by
  unfold kernelRunB.sl.v2874 kernelRunB.sl.H13_33
  rw [View.readCov_cons_toLoadRect]
  refine Eq.trans ?_ (rowsOf_logp c tbl i sim x2 x3 (accOf c a12 a13 a14 a15 a16 a17) 32 (by decide)).symm
  unfold kernelRunB.sl.r_302 kernelRunB.sl.r_305 kernelRunB.sl.r_300 kernelRunB.sl.r_299
  simp only [W_r_301 c i tbl, V13_32 c i M2 hM2 M3 hM3 tbl hT sim x2 x3 b9 b10 a12 a13 a14 a15 a16 a17, in_read M2 hM2 x2 32 (by decide), mk_read M3 hM3 x3 32 (by decide)]
  try rfl
theorem V14_33 : kernelRunB.sl.v2880 c i M3 hM3 tbl hT sim x3 b9 b10 a14 = (rowsOf c tbl i sim x2 x3 (accOf c a12 a13 a14 a15 a16 a17) 33).w := by
  unfold kernelRunB.sl.v2880 kernelRunB.sl.H14_33
  rw [View.readCov_cons_toLoadRect]
  refine Eq.trans ?_ (rowsOf_w c tbl i sim x2 x3 (accOf c a12 a13 a14 a15 a16 a17) 32 (by decide)).symm
  unfold kernelRunB.sl.r_303 kernelRunB.sl.r_300
  simp only [S_v2739 c i tbl hT sim b9, V14_32 c i M2 hM2 M3 hM3 tbl hT sim x2 x3 b9 b10 a12 a13 a14 a15 a16 a17, mk_read M3 hM3 x3 32 (by decide)]
  try rfl
theorem V12_34 : kernelRunB.sl.v2954 c M3 hM3 x3 a12 = (rowsOf c tbl i sim x2 x3 (accOf c a12 a13 a14 a15 a16 a17) 34).m := by
  unfold kernelRunB.sl.v2954 kernelRunB.sl.H12_34
  rw [View.readCov_cons_toLoadRect]
  refine Eq.trans ?_ (rowsOf_m c tbl i sim x2 x3 (accOf c a12 a13 a14 a15 a16 a17) 33 (by decide)).symm
  unfold kernelRunB.sl.r_312
  simp only [V12_33 c i M2 hM2 M3 hM3 tbl hT sim x2 x3 b9 b10 a12 a13 a14 a15 a16 a17, mk_read M3 hM3 x3 33 (by decide)]
  try rfl
theorem V13_34 : kernelRunB.sl.v2959 c i M2 hM2 M3 hM3 tbl x2 x3 a13 = (rowsOf c tbl i sim x2 x3 (accOf c a12 a13 a14 a15 a16 a17) 34).logp := by
  unfold kernelRunB.sl.v2959 kernelRunB.sl.H13_34
  rw [View.readCov_cons_toLoadRect]
  refine Eq.trans ?_ (rowsOf_logp c tbl i sim x2 x3 (accOf c a12 a13 a14 a15 a16 a17) 33 (by decide)).symm
  unfold kernelRunB.sl.r_311 kernelRunB.sl.r_312 kernelRunB.sl.r_316
  simp only [W_r_310 c i tbl, V13_33 c i M2 hM2 M3 hM3 tbl hT sim x2 x3 b9 b10 a12 a13 a14 a15 a16 a17, in_read M2 hM2 x2 33 (by decide), mk_read M3 hM3 x3 33 (by decide)]
  try rfl
theorem V14_34 : kernelRunB.sl.v2965 c i M3 hM3 tbl hT sim x3 b9 b10 a14 = (rowsOf c tbl i sim x2 x3 (accOf c a12 a13 a14 a15 a16 a17) 34).w := by
  unfold kernelRunB.sl.v2965 kernelRunB.sl.H14_34
  rw [View.readCov_cons_toLoadRect]
  refine Eq.trans ?_ (rowsOf_w c tbl i sim x2 x3 (accOf c a12 a13 a14 a15 a16 a17) 33 (by decide)).symm
  unfold kernelRunB.sl.r_314
  simp only [S_v2824 c i tbl hT sim b10, V14_33 c i M2 hM2 M3 hM3 tbl hT sim x2 x3 b9 b10 a12 a13 a14 a15 a16 a17, mk_read M3 hM3 x3 33 (by decide)]
  try rfl
theorem V12_35 : kernelRunB.sl.v3039 c M3 hM3 x3 a12 = (rowsOf c tbl i sim x2 x3 (accOf c a12 a13 a14 a15 a16 a17) 35).m := by
  unfold kernelRunB.sl.v3039 kernelRunB.sl.H12_35
  rw [View.readCov_cons_toLoadRect]
  refine Eq.trans ?_ (rowsOf_m c tbl i sim x2 x3 (accOf c a12 a13 a14 a15 a16 a17) 34 (by decide)).symm
  unfold kernelRunB.sl.r_322
  simp only [V12_34 c i M2 hM2 M3 hM3 tbl hT sim x2 x3 b9 b10 a12 a13 a14 a15 a16 a17, mk_read M3 hM3 x3 34 (by decide)]
  try rfl
theorem V13_35 : kernelRunB.sl.v3044 c i M2 hM2 M3 hM3 tbl x2 x3 a13 = (rowsOf c tbl i sim x2 x3 (accOf c a12 a13 a14 a15 a16 a17) 35).logp := by
  unfold kernelRunB.sl.v3044 kernelRunB.sl.H13_35
  rw [View.readCov_cons_toLoadRect]
  refine Eq.trans ?_ (rowsOf_logp c tbl i sim x2 x3 (accOf c a12 a13 a14 a15 a16 a17) 34 (by decide)).symm
  unfold kernelRunB.sl.r_321 kernelRunB.sl.r_322
  simp only [W_r_320 c i tbl, V13_34 c i M2 hM2 M3 hM3 tbl hT sim x2 x3 b9 b10 a12 a13 a14 a15 a16 a17, in_read M2 hM2 x2 34 (by decide), mk_read M3 hM3 x3 34 (by decide)]
  try rfl
theorem V14_35 : kernelRunB.sl.v3050 c i M3 hM3 tbl hT sim x3 b9 b10 a14 = (rowsOf c tbl i sim x2 x3 (accOf c a12 a13 a14 a15 a16 a17) 35).w := by
  unfold kernelRunB.sl.v3050 kernelRunB.sl.H14_35
  rw [View.readCov_cons_toLoadRect]
  refine Eq.trans ?_ (rowsOf_w c tbl i sim x2 x3 (accOf c a12 a13 a14 a15 a16 a17) 34 (by decide)).symm
  unfold kernelRunB.sl.r_328 kernelRunB.sl.r_322 kernelRunB.sl.r_323 kernelRunB.sl.r_324
  simp only [S_v2909 c i tbl hT sim b9, V14_34 c i M2 hM2 M3 hM3 tbl hT sim x2 x3 b9 b10 a12 a13 a14 a15 a16 a17, mk_read M3 hM3 x3 34 (by decide)]
  try rfl
theorem V12_36 : kernelRunB.sl.v3124 c M3 hM3 x3 a12 = (rowsOf c tbl i sim x2 x3 (accOf c a12 a13 a14 a15 a16 a17) 36).m := by
  unfold kernelRunB.sl.v3124 kernelRunB.sl.H12_36
  rw [View.readCov_cons_toLoadRect]
  refine Eq.trans ?_ (rowsOf_m c tbl i sim x2 x3 (accOf c a12 a13 a14 a15 a16 a17) 35 (by decide)).symm
  unfold kernelRunB.sl.r_338
  simp only [V12_35 c i M2 hM2 M3 hM3 tbl hT sim x2 x3 b9 b10 a12 a13 a14 a15 a16 a17, mk_read M3 hM3 x3 35 (by decide)]
  try rfl
theorem V13_36 : kernelRunB.sl.v3129 c i M2 hM2 M3 hM3 tbl x2 x3 a13 = (rowsOf c tbl i sim x2 x3 (accOf c a12 a13 a14 a15 a16 a17) 36).logp := by
  unfold kernelRunB.sl.v3129 kernelRunB.sl.H13_36
  rw [View.readCov_cons_toLoadRect]
  refine Eq.trans ?_ (rowsOf_logp c tbl i sim x2 x3 (accOf c a12 a13 a14 a15 a16 a17) 35 (by decide)).symm
  unfold kernelRunB.sl.r_332 kernelRunB.sl.r_335 kernelRunB.sl.r_330
  simp only [W_r_331 c i tbl, V13_35 c i M2 hM2 M3 hM3 tbl hT sim x2 x3 b9 b10 a12 a13 a14 a15 a16 a17, in_read M2 hM2 x2 35 (by decide), mk_read M3 hM3 x3 35 (by decide)]
  try rfl
theorem V14_36 : kernelRunB.sl.v3135 c i M3 hM3 tbl hT sim x3 b9 b10 a14 = (rowsOf c tbl i sim x2 x3 (accOf c a12 a13 a14 a15 a16 a17) 36).w := by
  unfold kernelRunB.sl.v3135 kernelRunB.sl.H14_36
  rw [View.readCov_cons_toLoadRect]
  refine Eq.trans ?_ (rowsOf_w c tbl i sim x2 x3 (accOf c a12 a13 a14 a15 a16 a17) 35 (by decide)).symm
  unfold kernelRunB.sl.r_333
  simp only [S_v2994 c i tbl hT sim b10, V14_35 c i M2 hM2 M3 hM3 tbl hT sim x2 x3 b9 b10 a12 a13 a14 a15 a16 a17, mk_read M3 hM3 x3 35 (by decide)]
  try rfl
theorem V12_37 : kernelRunB.sl.v3209 c M3 hM3 x3 a12 = (rowsOf c tbl i sim x2 x3 (accOf c a12 a13 a14 a15 a16 a17) 37).m := by
  unfold kernelRunB.sl.v3209 kernelRunB.sl.H12_37
  rw [View.readCov_cons_toLoadRect]
  refine Eq.trans ?_ (rowsOf_m c tbl i sim x2 x3 (accOf c a12 a13 a14 a15 a16 a17) 36 (by decide)).symm
  unfold kernelRunB.sl.r_342
  simp only [V12_36 c i M2 hM2 M3 hM3 tbl hT sim x2 x3 b9 b10 a12 a13 a14 a15 a16 a17, mk_read M3 hM3 x3 36 (by decide)]
  try rfl
theorem V13_37 : kernelRunB.sl.v3214 c i M2 hM2 M3 hM3 tbl x2 x3 a13 = (rowsOf c tbl i sim x2 x3 (accOf c a12 a13 a14 a15 a16 a17) 37).logp := by
  unfold kernelRunB.sl.v3214 kernelRunB.sl.H13_37
  rw [View.readCov_cons_toLoadRect]
  refine Eq.trans ?_ (rowsOf_logp c tbl i sim x2 x3 (accOf c a12 a13 a14 a15 a16 a17) 36 (by decide)).symm
  unfold kernelRunB.sl.r_341 kernelRunB.sl.r_342
  simp only [W_r_340 c i tbl, V13_36 c i M2 hM2 M3 hM3 tbl hT sim x2 x3 b9 b10 a12 a13 a14 a15 a16 a17, in_read M2 hM2 x2 36 (by decide), mk_read M3 hM3 x3 36 (by decide)]
  try rfl
theorem V14_37 : kernelRunB.sl.v3220 c i M3 hM3 tbl hT sim x3 b9 b10 a14 = (rowsOf c tbl i sim x2 x3 (accOf c a12 a13 a14 a15 a16 a17) 37).w := by
  unfold kernelRunB.sl.v3220 kernelRunB.sl.H14_37
  rw [View.readCov_cons_toLoadRect]
  refine Eq.trans ?_ (rowsOf_w c tbl i sim x2 x3 (accOf c a12 a13 a14 a15 a16 a17) 36 (by decide)).symm
  unfold kernelRunB.sl.r_344
  simp only [S_v3079 c i tbl hT sim b9, V14_36 c i M2 hM2 M3 hM3 tbl hT sim x2 x3 b9 b10 a12 a13 a14 a15 a16 a17, mk_read M3 hM3 x3 36 (by decide)]
  try rfl
theorem V12_38 : kernelRunB.sl.v3294 c M3 hM3 x3 a12 = (rowsOf c tbl i sim x2 x3 (accOf c a12 a13 a14 a15 a16 a17) 38).m := by
  unfold kernelRunB.sl.v3294 kernelRunB.sl.H12_38
  rw [View.readCov_cons_toLoadRect]
  refine Eq.trans ?_ (rowsOf_m c tbl i sim x2 x3 (accOf c a12 a13 a14 a15 a16 a17) 37 (by decide)).symm
  unfold kernelRunB.sl.r_351
  simp only [V12_37 c i M2 hM2 M3 hM3 tbl hT sim x2 x3 b9 b10 a12 a13 a14 a15 a16 a17, mk_read M3 hM3 x3 37 (by decide)]
  try rfl
theorem V13_38 : kernelRunB.sl.v3299 c i M2 hM2 M3 hM3 tbl x2 x3 a13 = (rowsOf c tbl i sim x2 x3 (accOf c a12 a13 a14 a15 a16 a17) 38).logp := by
  unfold kernelRunB.sl.v3299 kernelRunB.sl.H13_38
  rw [View.readCov_cons_toLoadRect]
  refine Eq.trans ?_ (rowsOf_logp c tbl i sim x2 x3 (accOf c a12 a13 a14 a15 a16 a17) 37 (by decide)).symm
  unfold kernelRunB.sl.r_350 kernelRunB.sl.r_351
  simp only [W_r_349 c i tbl, V13_37 c i M2 hM2 M3 hM3 tbl hT sim x2 x3 b9 b10 a12 a13 a14 a15 a16 a17, in_read M2 hM2 x2 37 (by decide), mk_read M3 hM3 x3 37 (by decide)]
  try rfl
theorem V14_38 : kernelRunB.sl.v3305 c i M3 hM3 tbl hT sim x3 b9 b10 a14 = (rowsOf c tbl i sim x2 x3 (accOf c a12 a13 a14 a15 a16 a17) 38).w := by
  unfold kernelRunB.sl.v3305 kernelRunB.sl.H14_38
  rw [View.readCov_cons_toLoadRect]
  refine Eq.trans ?_ (rowsOf_w c tbl i sim x2 x3 (accOf c a12 a13 a14 a15 a16 a17) 37 (by decide)).symm
  unfold kernelRunB.sl.r_354 kernelRunB.sl.r_351 kernelRunB.sl.r_352 kernelRunB.sl.r_353 kernelRunB.sl.cst_781
  simp only [S_v3164 c i tbl hT sim b10, V14_37 c i M2 hM2 M3 hM3 tbl hT sim x2 x3 b9 b10 a12 a13 a14 a15 a16 a17, mk_read M3 hM3 x3 37 (by decide)]
  try rfl
theorem V12_39 : kernelRunB.sl.v3379 c M3 hM3 x3 a12 = (rowsOf c tbl i sim x2 x3 (accOf c a12 a13 a14 a15 a16 a17) 39).m := by
  unfold kernelRunB.sl.v3379 kernelRunB.sl.H12_39
  rw [View.readCov_cons_toLoadRect]
  refine Eq.trans ?_ (rowsOf_m c tbl i sim x2 x3 (accOf c a12 a13 a14 a15 a16 a17) 38 (by decide)).symm
  unfold kernelRunB.sl.r_360
  simp only [V12_38 c i M2 hM2 M3 hM3 tbl hT sim x2 x3 b9 b10 a12 a13 a14 a15 a16 a17, mk_read M3 hM3 x3 38 (by decide)]
  try rfl
theorem V13_39 : kernelRunB.sl.v3384 c i M2 hM2 M3 hM3 tbl x2 x3 a13 = (rowsOf c tbl i sim x2 x3 (accOf c a12 a13 a14 a15 a16 a17) 39).logp := by
  unfold kernelRunB.sl.v3384 kernelRunB.sl.H13_39
  rw [View.readCov_cons_toLoadRect]
  refine Eq.trans ?_ (rowsOf_logp c tbl i sim x2 x3 (accOf c a12 a13 a14 a15 a16 a17) 38 (by decide)).symm
  unfold kernelRunB.sl.r_360 kernelRunB.sl.r_363
  simp only [W_r_359 c i tbl, V13_38 c i M2 hM2 M3 hM3 tbl hT sim x2 x3 b9 b10 a12 a13 a14 a15 a16 a17, in_read M2 hM2 x2 38 (by decide), mk_read M3 hM3 x3 38 (by decide)]
  try rfl
theorem V14_39 : kernelRunB.sl.v3390 c i M3 hM3 tbl hT sim x3 b9 b10 a14 = (rowsOf c tbl i sim x2 x3 (accOf c a12 a13 a14 a15 a16 a17) 39).w := by
  unfold kernelRunB.sl.v3390 kernelRunB.sl.H14_39
  rw [View.readCov_cons_toLoadRect]
  refine Eq.trans ?_ (rowsOf_w c tbl i sim x2 x3 (accOf c a12 a13 a14 a15 a16 a17) 38 (by decide)).symm
  unfold kernelRunB.sl.r_361
  simp only [V14_38 c i M2 hM2 M3 hM3 tbl hT sim x2 x3 b9 b10 a12 a13 a14 a15 a16 a17, S_v_1 c i tbl hT sim b9, mk_read M3 hM3 x3 38 (by decide)]
  try rfl
theorem V12_40 : kernelRunB.sl.v3464 c M3 hM3 x3 a12 = (rowsOf c tbl i sim x2 x3 (accOf c a12 a13 a14 a15 a16 a17) 40).m := by
  unfold kernelRunB.sl.v3464 kernelRunB.sl.H12_40
  rw [View.readCov_cons_toLoadRect]
  refine Eq.trans ?_ (rowsOf_m c tbl i sim x2 x3 (accOf c a12 a13 a14 a15 a16 a17) 39 (by decide)).symm
  unfold kernelRunB.sl.r_369
  simp only [V12_39 c i M2 hM2 M3 hM3 tbl hT sim x2 x3 b9 b10 a12 a13 a14 a15 a16 a17, mk_read M3 hM3 x3 39 (by decide)]
  try rfl
theorem V13_40 : kernelRunB.sl.v3469 c i M2 hM2 M3 hM3 tbl x2 x3 a13 = (rowsOf c tbl i sim x2 x3 (accOf c a12 a13 a14 a15 a16 a17) 40).logp := by
  unfold kernelRunB.sl.v3469 kernelRunB.sl.H13_40
  rw [View.readCov_cons_toLoadRect]
  refine Eq.trans ?_ (rowsOf_logp c tbl i sim x2 x3 (accOf c a12 a13 a14 a15 a16 a17) 39 (by decide)).symm
  unfold kernelRunB.sl.r_368 kernelRunB.sl.r_369
  simp only [W_r_367 c i tbl, V13_39 c i M2 hM2 M3 hM3 tbl hT sim x2 x3 b9 b10 a12 a13 a14 a15 a16 a17, in_read M2 hM2 x2 39 (by decide), mk_read M3 hM3 x3 39 (by decide)]
  try rfl
theorem V14_40 : kernelRunB.sl.v3475 c i M3 hM3 tbl hT sim x3 b9 b10 a14 = (rowsOf c tbl i sim x2 x3 (accOf c a12 a13 a14 a15 a16 a17) 40).w := by
  unfold kernelRunB.sl.v3475 kernelRunB.sl.H14_40
  rw [View.readCov_cons_toLoadRect]
  refine Eq.trans ?_ (rowsOf_w c tbl i sim x2 x3 (accOf c a12 a13 a14 a15 a16 a17) 39 (by decide)).symm
  unfold kernelRunB.sl.r_371
  simp only [S_v3334 c i tbl hT sim b10, V14_39 c i M2 hM2 M3 hM3 tbl hT sim x2 x3 b9 b10 a12 a13 a14 a15 a16 a17, mk_read M3 hM3 x3 39 (by decide)]
  try rfl
theorem V12_41 : kernelRunB.sl.v3549 c M3 hM3 x3 a12 = (rowsOf c tbl i sim x2 x3 (accOf c a12 a13 a14 a15 a16 a17) 41).m := by
  unfold kernelRunB.sl.v3549 kernelRunB.sl.H12_41
  rw [View.readCov_cons_toLoadRect]
  refine Eq.trans ?_ (rowsOf_m c tbl i sim x2 x3 (accOf c a12 a13 a14 a15 a16 a17) 40 (by decide)).symm
  unfold kernelRunB.sl.r_378
  simp only [V12_40 c i M2 hM2 M3 hM3 tbl hT sim x2 x3 b9 b10 a12 a13 a14 a15 a16 a17, mk_read M3 hM3 x3 40 (by decide)]
  try rfl
theorem V13_41 : kernelRunB.sl.v3554 c i M2 hM2 M3 hM3 tbl x2 x3 a13 = (rowsOf c tbl i sim x2 x3 (accOf c a12 a13 a14 a15 a16 a17) 41).logp := by
  unfold kernelRunB.sl.v3554 kernelRunB.sl.H13_41
  rw [View.readCov_cons_toLoadRect]
  refine Eq.trans ?_ (rowsOf_logp c tbl i sim x2 x3 (accOf c a12 a13 a14 a15 a16 a17) 40 (by decide)).symm
  unfold kernelRunB.sl.r_384 kernelRunB.sl.r_377 kernelRunB.sl.r_378
  simp only [W_r_376 c i tbl, V13_40 c i M2 hM2 M3 hM3 tbl hT sim x2 x3 b9 b10 a12 a13 a14 a15 a16 a17, in_read M2 hM2 x2 40 (by decide), mk_read M3 hM3 x3 40 (by decide)]
  try rfl
theorem V14_41 : kernelRunB.sl.v3560 c i M3 hM3 tbl hT sim x3 b9 b10 a14 = (rowsOf c tbl i sim x2 x3 (accOf c a12 a13 a14 a15 a16 a17) 41).w := by
  unfold kernelRunB.sl.v3560 kernelRunB.sl.H14_41
  rw [View.readCov_cons_toLoadRect]
  refine Eq.trans ?_ (rowsOf_w c tbl i sim x2 x3 (accOf c a12 a13 a14 a15 a16 a17) 40 (by decide)).symm
  unfold kernelRunB.sl.r_380 kernelRunB.sl.r_378 kernelRunB.sl.r_379 kernelRunB.sl.cst_15
  simp only [S_v3419 c i tbl hT sim b9, V14_40 c i M2 hM2 M3 hM3 tbl hT sim x2 x3 b9 b10 a12 a13 a14 a15 a16 a17, mk_read M3 hM3 x3 40 (by decide)]
  try rfl
theorem V12_42 : kernelRunB.sl.v3634 c M3 hM3 x3 a12 = (rowsOf c tbl i sim x2 x3 (accOf c a12 a13 a14 a15 a16 a17) 42).m := by
  unfold kernelRunB.sl.v3634 kernelRunB.sl.H12_42
  rw [View.readCov_cons_toLoadRect]
  refine Eq.trans ?_ (rowsOf_m c tbl i sim x2 x3 (accOf c a12 a13 a14 a15 a16 a17) 41 (by decide)).symm
  unfold kernelRunB.sl.r_387
  simp only [V12_41 c i M2 hM2 M3 hM3 tbl hT sim x2 x3 b9 b10 a12 a13 a14 a15 a16 a17, mk_read M3 hM3 x3 41 (by decide)]
  try rfl
theorem V13_42 : kernelRunB.sl.v3639 c i M2 hM2 M3 hM3 tbl x2 x3 a13 = (rowsOf c tbl i sim x2 x3 (accOf c a12 a13 a14 a15 a16 a17) 42).logp := by
  unfold kernelRunB.sl.v3639 kernelRunB.sl.H13_42
  rw [View.readCov_cons_toLoadRect]
  refine Eq.trans ?_ (rowsOf_logp c tbl i sim x2 x3 (accOf c a12 a13 a14 a15 a16 a17) 41 (by decide)).symm
  unfold kernelRunB.sl.r_387 kernelRunB.sl.r_390
  simp only [W_r_386 c i tbl, V13_41 c i M2 hM2 M3 hM3 tbl hT sim x2 x3 b9 b10 a12 a13 a14 a15 a16 a17, in_read M2 hM2 x2 41 (by decide), mk_read M3 hM3 x3 41 (by decide)]
  try rfl
theorem V14_42 : kernelRunB.sl.v3645 c i M3 hM3 tbl hT sim x3 b9 b10 a14 = (rowsOf c tbl i sim x2 x3 (accOf c a12 a13 a14 a15 a16 a17) 42).w := by
  unfold kernelRunB.sl.v3645 kernelRunB.sl.H14_42
  rw [View.readCov_cons_toLoadRect]
  refine Eq.trans ?_ (rowsOf_w c tbl i sim x2 x3 (accOf c a12 a13 a14 a15 a16 a17) 41 (by decide)).symm
  unfold kernelRunB.sl.r_388
  simp only [S_v3504 c i tbl hT sim b10, V14_41 c i M2 hM2 M3 hM3 tbl hT sim x2 x3 b9 b10 a12 a13 a14 a15 a16 a17, mk_read M3 hM3 x3 41 (by decide)]
  try rfl
theorem V12_43 : kernelRunB.sl.v3719 c M3 hM3 x3 a12 = (rowsOf c tbl i sim x2 x3 (accOf c a12 a13 a14 a15 a16 a17) 43).m := by
  unfold kernelRunB.sl.v3719 kernelRunB.sl.H12_43
  rw [View.readCov_cons_toLoadRect]
  refine Eq.trans ?_ (rowsOf_m c tbl i sim x2 x3 (accOf c a12 a13 a14 a15 a16 a17) 42 (by decide)).symm
  unfold kernelRunB.sl.r_397
  simp only [V12_42 c i M2 hM2 M3 hM3 tbl hT sim x2 x3 b9 b10 a12 a13 a14 a15 a16 a17, mk_read M3 hM3 x3 42 (by decide)]
  try rfl
theorem V13_43 : kernelRunB.sl.v3724 c i M2 hM2 M3 hM3 tbl x2 x3 a13 = (rowsOf c tbl i sim x2 x3 (accOf c a12 a13 a14 a15 a16 a17) 43).logp := by
  unfold kernelRunB.sl.v3724 kernelRunB.sl.H13_43
  rw [View.readCov_cons_toLoadRect]
  refine Eq.trans ?_ (rowsOf_logp c tbl i sim x2 x3 (accOf c a12 a13 a14 a15 a16 a17) 42 (by decide)).symm
  unfold kernelRunB.sl.r_396 kernelRunB.sl.r_397
  simp only [W_r_395 c i tbl, V13_42 c i M2 hM2 M3 hM3 tbl hT sim x2 x3 b9 b10 a12 a13 a14 a15 a16 a17, in_read M2 hM2 x2 42 (by decide), mk_read M3 hM3 x3 42 (by decide)]
  try rfl
theorem V14_43 : kernelRunB.sl.v3730 c i M3 hM3 tbl hT sim x3 b9 b10 a14 = (rowsOf c tbl i sim x2 x3 (accOf c a12 a13 a14 a15 a16 a17) 43).w := by
  unfold kernelRunB.sl.v3730 kernelRunB.sl.H14_43
  rw [View.readCov_cons_toLoadRect]
  refine Eq.trans ?_ (rowsOf_w c tbl i sim x2 x3 (accOf c a12 a13 a14 a15 a16 a17) 42 (by decide)).symm
  unfold kernelRunB.sl.r_400
  simp only [S_v3589 c i tbl hT sim b9, V14_42 c i M2 hM2 M3 hM3 tbl hT sim x2 x3 b9 b10 a12 a13 a14 a15 a16 a17, mk_read M3 hM3 x3 42 (by decide)]
  try rfl
theorem V12_44 : kernelRunB.sl.v3804 c M3 hM3 x3 a12 = (rowsOf c tbl i sim x2 x3 (accOf c a12 a13 a14 a15 a16 a17) 44).m := by
  unfold kernelRunB.sl.v3804 kernelRunB.sl.H12_44
  rw [View.readCov_cons_toLoadRect]
  refine Eq.trans ?_ (rowsOf_m c tbl i sim x2 x3 (accOf c a12 a13 a14 a15 a16 a17) 43 (by decide)).symm
  unfold kernelRunB.sl.r_407
  simp only [V12_43 c i M2 hM2 M3 hM3 tbl hT sim x2 x3 b9 b10 a12 a13 a14 a15 a16 a17, mk_read M3 hM3 x3 43 (by decide)]
  try rfl
theorem V13_44 : kernelRunB.sl.v3809 c i M2 hM2 M3 hM3 tbl x2 x3 a13 = (rowsOf c tbl i sim x2 x3 (accOf c a12 a13 a14 a15 a16 a17) 44).logp := by
  unfold kernelRunB.sl.v3809 kernelRunB.sl.H13_44
  rw [View.readCov_cons_toLoadRect]
  refine Eq.trans ?_ (rowsOf_logp c tbl i sim x2 x3 (accOf c a12 a13 a14 a15 a16 a17) 43 (by decide)).symm
  unfold kernelRunB.sl.r_413 kernelRunB.sl.r_406 kernelRunB.sl.r_407
  simp only [W_r_405 c i tbl, V13_43 c i M2 hM2 M3 hM3 tbl hT sim x2 x3 b9 b10 a12 a13 a14 a15 a16 a17, in_read M2 hM2 x2 43 (by decide), mk_read M3 hM3 x3 43 (by decide)]
  try rfl
theorem V14_44 : kernelRunB.sl.v3815 c i M3 hM3 tbl hT sim x3 b9 b10 a14 = (rowsOf c tbl i sim x2 x3 (accOf c a12 a13 a14 a15 a16 a17) 44).w := by
  unfold kernelRunB.sl.v3815 kernelRunB.sl.H14_44
  rw [View.readCov_cons_toLoadRect]
  refine Eq.trans ?_ (rowsOf_w c tbl i sim x2 x3 (accOf c a12 a13 a14 a15 a16 a17) 43 (by decide)).symm
  unfold kernelRunB.sl.r_409 kernelRunB.sl.r_407 kernelRunB.sl.r_408
  simp only [S_v3674 c i tbl hT sim b10, V14_43 c i M2 hM2 M3 hM3 tbl hT sim x2 x3 b9 b10 a12 a13 a14 a15 a16 a17, mk_read M3 hM3 x3 43 (by decide)]
  try rfl
theorem V12_45 : kernelRunB.sl.v3889 c M3 hM3 x3 a12 = (rowsOf c tbl i sim x2 x3 (accOf c a12 a13 a14 a15 a16 a17) 45).m := by
  unfold kernelRunB.sl.v3889 kernelRunB.sl.H12_45
  rw [View.readCov_cons_toLoadRect]
  refine Eq.trans ?_ (rowsOf_m c tbl i sim x2 x3 (accOf c a12 a13 a14 a15 a16 a17) 44 (by decide)).symm
  unfold kernelRunB.sl.r_416
  simp only [V12_44 c i M2 hM2 M3 hM3 tbl hT sim x2 x3 b9 b10 a12 a13 a14 a15 a16 a17, mk_read M3 hM3 x3 44 (by decide)]
  try rfl
theorem V13_45 : kernelRunB.sl.v3894 c i M2 hM2 M3 hM3 tbl x2 x3 a13 = (rowsOf c tbl i sim x2 x3 (accOf c a12 a13 a14 a15 a16 a17) 45).logp := by
  unfold kernelRunB.sl.v3894 kernelRunB.sl.H13_45
  rw [View.readCov_cons_toLoadRect]
  refine Eq.trans ?_ (rowsOf_logp c tbl i sim x2 x3 (accOf c a12 a13 a14 a15 a16 a17) 44 (by decide)).symm
  unfold kernelRunB.sl.r_416 kernelRunB.sl.r_420
  simp only [W_r_415 c i tbl, V13_44 c i M2 hM2 M3 hM3 tbl hT sim x2 x3 b9 b10 a12 a13 a14 a15 a16 a17, in_read M2 hM2 x2 44 (by decide), mk_read M3 hM3 x3 44 (by decide)]
  try rfl
theorem V14_45 : kernelRunB.sl.v3900 c i M3 hM3 tbl hT sim x3 b9 b10 a14 = (rowsOf c tbl i sim x2 x3 (accOf c a12 a13 a14 a15 a16 a17) 45).w := by
  unfold kernelRunB.sl.v3900 kernelRunB.sl.H14_45
  rw [View.readCov_cons_toLoadRect]
  refine Eq.trans ?_ (rowsOf_w c tbl i sim x2 x3 (accOf c a12 a13 a14 a15 a16 a17) 44 (by decide)).symm
  unfold kernelRunB.sl.r_418
  simp only [S_v3759 c i tbl hT sim b9, V14_44 c i M2 hM2 M3 hM3 tbl hT sim x2 x3 b9 b10 a12 a13 a14 a15 a16 a17, mk_read M3 hM3 x3 44 (by decide)]
  try rfl
theorem V12_46 : kernelRunB.sl.v3974 c M3 hM3 x3 a12 = (rowsOf c tbl i sim x2 x3 (accOf c a12 a13 a14 a15 a16 a17) 46).m := by
  unfold kernelRunB.sl.v3974 kernelRunB.sl.H12_46
  rw [View.readCov_cons_toLoadRect]
  refine Eq.trans ?_ (rowsOf_m c tbl i sim x2 x3 (accOf c a12 a13 a14 a15 a16 a17) 45 (by decide)).symm
  unfold kernelRunB.sl.r_426
  simp only [V12_45 c i M2 hM2 M3 hM3 tbl hT sim x2 x3 b9 b10 a12 a13 a14 a15 a16 a17, mk_read M3 hM3 x3 45 (by decide)]
  try rfl
theorem V13_46 : kernelRunB.sl.v3979 c i M2 hM2 M3 hM3 tbl x2 x3 a13 = (rowsOf c tbl i sim x2 x3 (accOf c a12 a13 a14 a15 a16 a17) 46).logp := by
  unfold kernelRunB.sl.v3979 kernelRunB.sl.H13_46
  rw [View.readCov_cons_toLoadRect]
  refine Eq.trans ?_ (rowsOf_logp c tbl i sim x2 x3 (accOf c a12 a13 a14 a15 a16 a17) 45 (by decide)).symm
  unfold kernelRunB.sl.r_425 kernelRunB.sl.r_426
  simp only [W_r_424 c i tbl, V13_45 c i M2 hM2 M3 hM3 tbl hT sim x2 x3 b9 b10 a12 a13 a14 a15 a16 a17, in_read M2 hM2 x2 45 (by decide), mk_read M3 hM3 x3 45 (by decide)]
  try rfl
theorem V14_46 : kernelRunB.sl.v3985 c i M3 hM3 tbl hT sim x3 b9 b10 a14 = (rowsOf c tbl i sim x2 x3 (accOf c a12 a13 a14 a15 a16 a17) 46).w := by
  unfold kernelRunB.sl.v3985 kernelRunB.sl.H14_46
  rw [View.readCov_cons_toLoadRect]
  refine Eq.trans ?_ (rowsOf_w c tbl i sim x2 x3 (accOf c a12 a13 a14 a15 a16 a17) 45 (by decide)).symm
  unfold kernelRunB.sl.r_428
  simp only [S_v3844 c i tbl hT sim b10, V14_45 c i M2 hM2 M3 hM3 tbl hT sim x2 x3 b9 b10 a12 a13 a14 a15 a16 a17, mk_read M3 hM3 x3 45 (by decide)]
  try rfl
theorem V12_47 : kernelRunB.sl.v4059 c M3 hM3 x3 a12 = (rowsOf c tbl i sim x2 x3 (accOf c a12 a13 a14 a15 a16 a17) 47).m := by
  unfold kernelRunB.sl.v4059 kernelRunB.sl.H12_47
  rw [View.readCov_cons_toLoadRect]
  refine Eq.trans ?_ (rowsOf_m c tbl i sim x2 x3 (accOf c a12 a13 a14 a15 a16 a17) 46 (by decide)).symm
  unfold kernelRunB.sl.r_435
  simp only [V12_46 c i M2 hM2 M3 hM3 tbl hT sim x2 x3 b9 b10 a12 a13 a14 a15 a16 a17, mk_read M3 hM3 x3 46 (by decide)]
  try rfl
theorem V13_47 : kernelRunB.sl.v4064 c i M2 hM2 M3 hM3 tbl x2 x3 a13 = (rowsOf c tbl i sim x2 x3 (accOf c a12 a13 a14 a15 a16 a17) 47).logp := by
  unfold kernelRunB.sl.v4064 kernelRunB.sl.H13_47
  rw [View.readCov_cons_toLoadRect]
  refine Eq.trans ?_ (rowsOf_logp c tbl i sim x2 x3 (accOf c a12 a13 a14 a15 a16 a17) 46 (by decide)).symm
  unfold kernelRunB.sl.r_440 kernelRunB.sl.r_434 kernelRunB.sl.r_435
  simp only [W_r_433 c i tbl, V13_46 c i M2 hM2 M3 hM3 tbl hT sim x2 x3 b9 b10 a12 a13 a14 a15 a16 a17, in_read M2 hM2 x2 46 (by decide), mk_read M3 hM3 x3 46 (by decide)]
  try rfl
theorem V14_47 : kernelRunB.sl.v4070 c i M3 hM3 tbl hT sim x3 b9 b10 a14 = (rowsOf c tbl i sim x2 x3 (accOf c a12 a13 a14 a15 a16 a17) 47).w := by
  unfold kernelRunB.sl.v4070 kernelRunB.sl.H14_47
  rw [View.readCov_cons_toLoadRect]
  refine Eq.trans ?_ (rowsOf_w c tbl i sim x2 x3 (accOf c a12 a13 a14 a15 a16 a17) 46 (by decide)).symm
  unfold kernelRunB.sl.r_436 kernelRunB.sl.r_435 kernelRunB.sl.cst_284
  simp only [S_v3929 c i tbl hT sim b9, V14_46 c i M2 hM2 M3 hM3 tbl hT sim x2 x3 b9 b10 a12 a13 a14 a15 a16 a17, mk_read M3 hM3 x3 46 (by decide)]
  try rfl
theorem V12_48 : kernelRunB.sl.v4144 c M3 hM3 x3 a12 = (rowsOf c tbl i sim x2 x3 (accOf c a12 a13 a14 a15 a16 a17) 48).m := by
  unfold kernelRunB.sl.v4144 kernelRunB.sl.H12_48
  rw [View.readCov_cons_toLoadRect]
  refine Eq.trans ?_ (rowsOf_m c tbl i sim x2 x3 (accOf c a12 a13 a14 a15 a16 a17) 47 (by decide)).symm
  unfold kernelRunB.sl.r_443
  simp only [V12_47 c i M2 hM2 M3 hM3 tbl hT sim x2 x3 b9 b10 a12 a13 a14 a15 a16 a17, mk_read M3 hM3 x3 47 (by decide)]
  try rfl
theorem V13_48 : kernelRunB.sl.v4149 c i M2 hM2 M3 hM3 tbl x2 x3 a13 = (rowsOf c tbl i sim x2 x3 (accOf c a12 a13 a14 a15 a16 a17) 48).logp := by
  unfold kernelRunB.sl.v4149 kernelRunB.sl.H13_48
  rw [View.readCov_cons_toLoadRect]
  refine Eq.trans ?_ (rowsOf_logp c tbl i sim x2 x3 (accOf c a12 a13 a14 a15 a16 a17) 47 (by decide)).symm
  unfold kernelRunB.sl.r_443 kernelRunB.sl.r_447
  simp only [W_r_442 c i tbl, V13_47 c i M2 hM2 M3 hM3 tbl hT sim x2 x3 b9 b10 a12 a13 a14 a15 a16 a17, in_read M2 hM2 x2 47 (by decide), mk_read M3 hM3 x3 47 (by decide)]
  try rfl
theorem V14_48 : kernelRunB.sl.v4155 c i M3 hM3 tbl hT sim x3 b9 b10 a14 = (rowsOf c tbl i sim x2 x3 (accOf c a12 a13 a14 a15 a16 a17) 48).w := by
  unfold kernelRunB.sl.v4155 kernelRunB.sl.H14_48
  rw [View.readCov_cons_toLoadRect]
  refine Eq.trans ?_ (rowsOf_w c tbl i sim x2 x3 (accOf c a12 a13 a14 a15 a16 a17) 47 (by decide)).symm
  unfold kernelRunB.sl.r_445
  simp only [S_v4014 c i tbl hT sim b10, V14_47 c i M2 hM2 M3 hM3 tbl hT sim x2 x3 b9 b10 a12 a13 a14 a15 a16 a17, mk_read M3 hM3 x3 47 (by decide)]
  try rfl
theorem V12_49 : kernelRunB.sl.v4229 c M3 hM3 x3 a12 = (rowsOf c tbl i sim x2 x3 (accOf c a12 a13 a14 a15 a16 a17) 49).m := by
  unfold kernelRunB.sl.v4229 kernelRunB.sl.H12_49
  rw [View.readCov_cons_toLoadRect]
  refine Eq.trans ?_ (rowsOf_m c tbl i sim x2 x3 (accOf c a12 a13 a14 a15 a16 a17) 48 (by decide)).symm
  unfold kernelRunB.sl.r_452
  simp only [V12_48 c i M2 hM2 M3 hM3 tbl hT sim x2 x3 b9 b10 a12 a13 a14 a15 a16 a17, mk_read M3 hM3 x3 48 (by decide)]
  try rfl
theorem V13_49 : kernelRunB.sl.v4234 c i M2 hM2 M3 hM3 tbl x2 x3 a13 = (rowsOf c tbl i sim x2 x3 (accOf c a12 a13 a14 a15 a16 a17) 49).logp := by
  unfold kernelRunB.sl.v4234 kernelRunB.sl.H13_49
  rw [View.readCov_cons_toLoadRect]
  refine Eq.trans ?_ (rowsOf_logp c tbl i sim x2 x3 (accOf c a12 a13 a14 a15 a16 a17) 48 (by decide)).symm
  unfold kernelRunB.sl.r_451 kernelRunB.sl.r_452
  simp only [W_r_450 c i tbl, V13_48 c i M2 hM2 M3 hM3 tbl hT sim x2 x3 b9 b10 a12 a13 a14 a15 a16 a17, in_read M2 hM2 x2 48 (by decide), mk_read M3 hM3 x3 48 (by decide)]
  try rfl
theorem V14_49 : kernelRunB.sl.v4240 c i M3 hM3 tbl hT sim x3 b9 b10 a14 = (rowsOf c tbl i sim x2 x3 (accOf c a12 a13 a14 a15 a16 a17) 49).w := by
  unfold kernelRunB.sl.v4240 kernelRunB.sl.H14_49
  rw [View.readCov_cons_toLoadRect]
  refine Eq.trans ?_ (rowsOf_w c tbl i sim x2 x3 (accOf c a12 a13 a14 a15 a16 a17) 48 (by decide)).symm
  unfold kernelRunB.sl.r_452 kernelRunB.sl.r_453
  simp only [S_v4099 c i tbl hT sim b9, V14_48 c i M2 hM2 M3 hM3 tbl hT sim x2 x3 b9 b10 a12 a13 a14 a15 a16 a17, mk_read M3 hM3 x3 48 (by decide)]
  try rfl
theorem V12_50 : kernelRunB.sl.v4314 c M3 hM3 x3 a12 = (rowsOf c tbl i sim x2 x3 (accOf c a12 a13 a14 a15 a16 a17) 50).m := by
  unfold kernelRunB.sl.v4314 kernelRunB.sl.H12_50
  rw [View.readCov_cons_toLoadRect]
  refine Eq.trans ?_ (rowsOf_m c tbl i sim x2 x3 (accOf c a12 a13 a14 a15 a16 a17) 49 (by decide)).symm
  unfold kernelRunB.sl.r_459
  simp only [V12_49 c i M2 hM2 M3 hM3 tbl hT sim x2 x3 b9 b10 a12 a13 a14 a15 a16 a17, mk_read M3 hM3 x3 49 (by decide)]
  try rfl
theorem V13_50 : kernelRunB.sl.v4319 c i M2 hM2 M3 hM3 tbl x2 x3 a13 = (rowsOf c tbl i sim x2 x3 (accOf c a12 a13 a14 a15 a16 a17) 50).logp := by
  unfold kernelRunB.sl.v4319 kernelRunB.sl.H13_50
  rw [View.readCov_cons_toLoadRect]
  refine Eq.trans ?_ (rowsOf_logp c tbl i sim x2 x3 (accOf c a12 a13 a14 a15 a16 a17) 49 (by decide)).symm
  unfold kernelRunB.sl.r_459 kernelRunB.sl.r_463 kernelRunB.sl.r_458
  simp only [W_r_460 c i tbl, V13_49 c i M2 hM2 M3 hM3 tbl hT sim x2 x3 b9 b10 a12 a13 a14 a15 a16 a17, in_read M2 hM2 x2 49 (by decide), mk_read M3 hM3 x3 49 (by decide)]
  try rfl
theorem V14_50 : kernelRunB.sl.v4325 c i M3 hM3 tbl hT sim x3 b9 b10 a14 = (rowsOf c tbl i sim x2 x3 (accOf c a12 a13 a14 a15 a16 a17) 50).w := by
  unfold kernelRunB.sl.v4325 kernelRunB.sl.H14_50
  rw [View.readCov_cons_toLoadRect]
  refine Eq.trans ?_ (rowsOf_w c tbl i sim x2 x3 (accOf c a12 a13 a14 a15 a16 a17) 49 (by decide)).symm
  unfold kernelRunB.sl.r_461 kernelRunB.sl.r_459
  simp only [S_v4184 c i tbl hT sim b10, V14_49 c i M2 hM2 M3 hM3 tbl hT sim x2 x3 b9 b10 a12 a13 a14 a15 a16 a17, mk_read M3 hM3 x3 49 (by decide)]
  try rfl
theorem V12_51 : kernelRunB.sl.v4399 c M3 hM3 x3 a12 = (rowsOf c tbl i sim x2 x3 (accOf c a12 a13 a14 a15 a16 a17) 51).m := by
  unfold kernelRunB.sl.v4399 kernelRunB.sl.H12_51
  rw [View.readCov_cons_toLoadRect]
  refine Eq.trans ?_ (rowsOf_m c tbl i sim x2 x3 (accOf c a12 a13 a14 a15 a16 a17) 50 (by decide)).symm
  unfold kernelRunB.sl.r_468
  simp only [V12_50 c i M2 hM2 M3 hM3 tbl hT sim x2 x3 b9 b10 a12 a13 a14 a15 a16 a17, mk_read M3 hM3 x3 50 (by decide)]
  try rfl
theorem V13_51 : kernelRunB.sl.v4404 c i M2 hM2 M3 hM3 tbl x2 x3 a13 = (rowsOf c tbl i sim x2 x3 (accOf c a12 a13 a14 a15 a16 a17) 51).logp := by
  unfold kernelRunB.sl.v4404 kernelRunB.sl.H13_51
  rw [View.readCov_cons_toLoadRect]
  refine Eq.trans ?_ (rowsOf_logp c tbl i sim x2 x3 (accOf c a12 a13 a14 a15 a16 a17) 50 (by decide)).symm
  unfold kernelRunB.sl.r_468 kernelRunB.sl.r_472
  simp only [W_r_467 c i tbl, V13_50 c i M2 hM2 M3 hM3 tbl hT sim x2 x3 b9 b10 a12 a13 a14 a15 a16 a17, in_read M2 hM2 x2 50 (by decide), mk_read M3 hM3 x3 50 (by decide)]
  try rfl
theorem V14_51 : kernelRunB.sl.v4410 c i M3 hM3 tbl hT sim x3 b9 b10 a14 = (rowsOf c tbl i sim x2 x3 (accOf c a12 a13 a14 a15 a16 a17) 51).w := by
  unfold kernelRunB.sl.v4410 kernelRunB.sl.H14_51
  rw [View.readCov_cons_toLoadRect]
  refine Eq.trans ?_ (rowsOf_w c tbl i sim x2 x3 (accOf c a12 a13 a14 a15 a16 a17) 50 (by decide)).symm
  unfold kernelRunB.sl.r_470
  simp only [S_v4269 c i tbl hT sim b9, V14_50 c i M2 hM2 M3 hM3 tbl hT sim x2 x3 b9 b10 a12 a13 a14 a15 a16 a17, mk_read M3 hM3 x3 50 (by decide)]
  try rfl
theorem V12_52 : kernelRunB.sl.v4484 c M3 hM3 x3 a12 = (rowsOf c tbl i sim x2 x3 (accOf c a12 a13 a14 a15 a16 a17) 52).m := by
  unfold kernelRunB.sl.v4484 kernelRunB.sl.H12_52
  rw [View.readCov_cons_toLoadRect]
  refine Eq.trans ?_ (rowsOf_m c tbl i sim x2 x3 (accOf c a12 a13 a14 a15 a16 a17) 51 (by decide)).symm
  unfold kernelRunB.sl.r_478
  simp only [V12_51 c i M2 hM2 M3 hM3 tbl hT sim x2 x3 b9 b10 a12 a13 a14 a15 a16 a17, mk_read M3 hM3 x3 51 (by decide)]
  try rfl
theorem V13_52 : kernelRunB.sl.v4489 c i M2 hM2 M3 hM3 tbl x2 x3 a13 = (rowsOf c tbl i sim x2 x3 (accOf c a12 a13 a14 a15 a16 a17) 52).logp := by
  unfold kernelRunB.sl.v4489 kernelRunB.sl.H13_52
  rw [View.readCov_cons_toLoadRect]
  refine Eq.trans ?_ (rowsOf_logp c tbl i sim x2 x3 (accOf c a12 a13 a14 a15 a16 a17) 51 (by decide)).symm
  unfold kernelRunB.sl.r_477 kernelRunB.sl.r_478
  simp only [W_r_476 c i tbl, V13_51 c i M2 hM2 M3 hM3 tbl hT sim x2 x3 b9 b10 a12 a13 a14 a15 a16 a17, in_read M2 hM2 x2 51 (by decide), mk_read M3 hM3 x3 51 (by decide)]
  try rfl
theorem V14_52 : kernelRunB.sl.v4495 c i M3 hM3 tbl hT sim x3 b9 b10 a14 = (rowsOf c tbl i sim x2 x3 (accOf c a12 a13 a14 a15 a16 a17) 52).w := by
  unfold kernelRunB.sl.v4495 kernelRunB.sl.H14_52
  rw [View.readCov_cons_toLoadRect]
  refine Eq.trans ?_ (rowsOf_w c tbl i sim x2 x3 (accOf c a12 a13 a14 a15 a16 a17) 51 (by decide)).symm
  unfold kernelRunB.sl.r_484 kernelRunB.sl.r_478 kernelRunB.sl.r_479 kernelRunB.sl.r_480
  simp only [S_v4354 c i tbl hT sim b10, V14_51 c i M2 hM2 M3 hM3 tbl hT sim x2 x3 b9 b10 a12 a13 a14 a15 a16 a17, mk_read M3 hM3 x3 51 (by decide)]
  try rfl
theorem V12_53 : kernelRunB.sl.v4569 c M3 hM3 x3 a12 = (rowsOf c tbl i sim x2 x3 (accOf c a12 a13 a14 a15 a16 a17) 53).m := by
  unfold kernelRunB.sl.v4569 kernelRunB.sl.H12_53
  rw [View.readCov_cons_toLoadRect]
  refine Eq.trans ?_ (rowsOf_m c tbl i sim x2 x3 (accOf c a12 a13 a14 a15 a16 a17) 52 (by decide)).symm
  unfold kernelRunB.sl.r_495 kernelRunB.sl.r_487
  simp only [V12_52 c i M2 hM2 M3 hM3 tbl hT sim x2 x3 b9 b10 a12 a13 a14 a15 a16 a17, mk_read M3 hM3 x3 52 (by decide)]
  try rfl
theorem V13_53 : kernelRunB.sl.v4574 c i M2 hM2 M3 hM3 tbl x2 x3 a13 = (rowsOf c tbl i sim x2 x3 (accOf c a12 a13 a14 a15 a16 a17) 53).logp := by
  unfold kernelRunB.sl.v4574 kernelRunB.sl.H13_53
  rw [View.readCov_cons_toLoadRect]
  refine Eq.trans ?_ (rowsOf_logp c tbl i sim x2 x3 (accOf c a12 a13 a14 a15 a16 a17) 52 (by decide)).symm
  unfold kernelRunB.sl.r_489 kernelRunB.sl.r_492 kernelRunB.sl.r_487 kernelRunB.sl.r_486
  simp only [W_r_488 c i tbl, V13_52 c i M2 hM2 M3 hM3 tbl hT sim x2 x3 b9 b10 a12 a13 a14 a15 a16 a17, in_read M2 hM2 x2 52 (by decide), mk_read M3 hM3 x3 52 (by decide)]
  try rfl
theorem V14_53 : kernelRunB.sl.v4580 c i M3 hM3 tbl hT sim x3 b9 b10 a14 = (rowsOf c tbl i sim x2 x3 (accOf c a12 a13 a14 a15 a16 a17) 53).w := by
  unfold kernelRunB.sl.v4580 kernelRunB.sl.H14_53
  rw [View.readCov_cons_toLoadRect]
  refine Eq.trans ?_ (rowsOf_w c tbl i sim x2 x3 (accOf c a12 a13 a14 a15 a16 a17) 52 (by decide)).symm
  unfold kernelRunB.sl.r_490 kernelRunB.sl.r_487
  simp only [S_v4439 c i tbl hT sim b9, V14_52 c i M2 hM2 M3 hM3 tbl hT sim x2 x3 b9 b10 a12 a13 a14 a15 a16 a17, mk_read M3 hM3 x3 52 (by decide)]
  try rfl
theorem V12_54 : kernelRunB.sl.v4654 c M3 hM3 x3 a12 = (rowsOf c tbl i sim x2 x3 (accOf c a12 a13 a14 a15 a16 a17) 54).m := by
  unfold kernelRunB.sl.v4654 kernelRunB.sl.H12_54
  rw [View.readCov_cons_toLoadRect]
  refine Eq.trans ?_ (rowsOf_m c tbl i sim x2 x3 (accOf c a12 a13 a14 a15 a16 a17) 53 (by decide)).symm
  unfold kernelRunB.sl.r_499
  simp only [V12_53 c i M2 hM2 M3 hM3 tbl hT sim x2 x3 b9 b10 a12 a13 a14 a15 a16 a17, mk_read M3 hM3 x3 53 (by decide)]
  try rfl
theorem V13_54 : kernelRunB.sl.v4659 c i M2 hM2 M3 hM3 tbl x2 x3 a13 = (rowsOf c tbl i sim x2 x3 (accOf c a12 a13 a14 a15 a16 a17) 54).logp := by
  unfold kernelRunB.sl.v4659 kernelRunB.sl.H13_54
  rw [View.readCov_cons_toLoadRect]
  refine Eq.trans ?_ (rowsOf_logp c tbl i sim x2 x3 (accOf c a12 a13 a14 a15 a16 a17) 53 (by decide)).symm
  unfold kernelRunB.sl.r_498 kernelRunB.sl.r_499 kernelRunB.sl.r_503
  simp only [W_r_497 c i tbl, V13_53 c i M2 hM2 M3 hM3 tbl hT sim x2 x3 b9 b10 a12 a13 a14 a15 a16 a17, in_read M2 hM2 x2 53 (by decide), mk_read M3 hM3 x3 53 (by decide)]
  try rfl
theorem V14_54 : kernelRunB.sl.v4665 c i M3 hM3 tbl hT sim x3 b9 b10 a14 = (rowsOf c tbl i sim x2 x3 (accOf c a12 a13 a14 a15 a16 a17) 54).w := by
  unfold kernelRunB.sl.v4665 kernelRunB.sl.H14_54
  rw [View.readCov_cons_toLoadRect]
  refine Eq.trans ?_ (rowsOf_w c tbl i sim x2 x3 (accOf c a12 a13 a14 a15 a16 a17) 53 (by decide)).symm
  unfold kernelRunB.sl.r_501
  simp only [S_v4524 c i tbl hT sim b10, V14_53 c i M2 hM2 M3 hM3 tbl hT sim x2 x3 b9 b10 a12 a13 a14 a15 a16 a17, mk_read M3 hM3 x3 53 (by decide)]
  try rfl
theorem V12_55 : kernelRunB.sl.v4739 c M3 hM3 x3 a12 = (rowsOf c tbl i sim x2 x3 (accOf c a12 a13 a14 a15 a16 a17) 55).m := by
  unfold kernelRunB.sl.v4739 kernelRunB.sl.H12_55
  rw [View.readCov_cons_toLoadRect]
  refine Eq.trans ?_ (rowsOf_m c tbl i sim x2 x3 (accOf c a12 a13 a14 a15 a16 a17) 54 (by decide)).symm
  unfold kernelRunB.sl.r_509
  simp only [V12_54 c i M2 hM2 M3 hM3 tbl hT sim x2 x3 b9 b10 a12 a13 a14 a15 a16 a17, mk_read M3 hM3 x3 54 (by decide)]
  try rfl
theorem V13_55 : kernelRunB.sl.v4744 c i M2 hM2 M3 hM3 tbl x2 x3 a13 = (rowsOf c tbl i sim x2 x3 (accOf c a12 a13 a14 a15 a16 a17) 55).logp := by
  unfold kernelRunB.sl.v4744 kernelRunB.sl.H13_55
  rw [View.readCov_cons_toLoadRect]
  refine Eq.trans ?_ (rowsOf_logp c tbl i sim x2 x3 (accOf c a12 a13 a14 a15 a16 a17) 54 (by decide)).symm
  unfold kernelRunB.sl.r_508 kernelRunB.sl.r_509
  simp only [W_r_507 c i tbl, V13_54 c i M2 hM2 M3 hM3 tbl hT sim x2 x3 b9 b10 a12 a13 a14 a15 a16 a17, in_read M2 hM2 x2 54 (by decide), mk_read M3 hM3 x3 54 (by decide)]
  try rfl
theorem V14_55 : kernelRunB.sl.v4750 c i M3 hM3 tbl hT sim x3 b9 b10 a14 = (rowsOf c tbl i sim x2 x3 (accOf c a12 a13 a14 a15 a16 a17) 55).w := by
  unfold kernelRunB.sl.v4750 kernelRunB.sl.H14_55
  rw [View.readCov_cons_toLoadRect]
  refine Eq.trans ?_ (rowsOf_w c tbl i sim x2 x3 (accOf c a12 a13 a14 a15 a16 a17) 54 (by decide)).symm
  unfold kernelRunB.sl.r_515 kernelRunB.sl.r_509 kernelRunB.sl.r_510 kernelRunB.sl.r_511
  simp only [S_v4609 c i tbl hT sim b9, V14_54 c i M2 hM2 M3 hM3 tbl hT sim x2 x3 b9 b10 a12 a13 a14 a15 a16 a17, mk_read M3 hM3 x3 54 (by decide)]
  try rfl
theorem V12_56 : kernelRunB.sl.v4824 c M3 hM3 x3 a12 = (rowsOf c tbl i sim x2 x3 (accOf c a12 a13 a14 a15 a16 a17) 56).m := by
  unfold kernelRunB.sl.v4824 kernelRunB.sl.H12_56
  rw [View.readCov_cons_toLoadRect]
  refine Eq.trans ?_ (rowsOf_m c tbl i sim x2 x3 (accOf c a12 a13 a14 a15 a16 a17) 55 (by decide)).symm
  unfold kernelRunB.sl.r_525
  simp only [V12_55 c i M2 hM2 M3 hM3 tbl hT sim x2 x3 b9 b10 a12 a13 a14 a15 a16 a17, mk_read M3 hM3 x3 55 (by decide)]
  try rfl
theorem V13_56 : kernelRunB.sl.v4829 c i M2 hM2 M3 hM3 tbl x2 x3 a13 = (rowsOf c tbl i sim x2 x3 (accOf c a12 a13 a14 a15 a16 a17) 56).logp := by
  unfold kernelRunB.sl.v4829 kernelRunB.sl.H13_56
  rw [View.readCov_cons_toLoadRect]
  refine Eq.trans ?_ (rowsOf_logp c tbl i sim x2 x3 (accOf c a12 a13 a14 a15 a16 a17) 55 (by decide)).symm
  unfold kernelRunB.sl.r_519 kernelRunB.sl.r_522 kernelRunB.sl.r_517
  simp only [W_r_518 c i tbl, V13_55 c i M2 hM2 M3 hM3 tbl hT sim x2 x3 b9 b10 a12 a13 a14 a15 a16 a17, in_read M2 hM2 x2 55 (by decide), mk_read M3 hM3 x3 55 (by decide)]
  try rfl
theorem V14_56 : kernelRunB.sl.v4835 c i M3 hM3 tbl hT sim x3 b9 b10 a14 = (rowsOf c tbl i sim x2 x3 (accOf c a12 a13 a14 a15 a16 a17) 56).w := by
  unfold kernelRunB.sl.v4835 kernelRunB.sl.H14_56
  rw [View.readCov_cons_toLoadRect]
  refine Eq.trans ?_ (rowsOf_w c tbl i sim x2 x3 (accOf c a12 a13 a14 a15 a16 a17) 55 (by decide)).symm
  unfold kernelRunB.sl.r_520
  simp only [S_v4694 c i tbl hT sim b10, V14_55 c i M2 hM2 M3 hM3 tbl hT sim x2 x3 b9 b10 a12 a13 a14 a15 a16 a17, mk_read M3 hM3 x3 55 (by decide)]
  try rfl
theorem V12_57 : kernelRunB.sl.v4909 c M3 hM3 x3 a12 = (rowsOf c tbl i sim x2 x3 (accOf c a12 a13 a14 a15 a16 a17) 57).m := by
  unfold kernelRunB.sl.v4909 kernelRunB.sl.H12_57
  rw [View.readCov_cons_toLoadRect]
  refine Eq.trans ?_ (rowsOf_m c tbl i sim x2 x3 (accOf c a12 a13 a14 a15 a16 a17) 56 (by decide)).symm
  unfold kernelRunB.sl.r_529
  simp only [V12_56 c i M2 hM2 M3 hM3 tbl hT sim x2 x3 b9 b10 a12 a13 a14 a15 a16 a17, mk_read M3 hM3 x3 56 (by decide)]
  try rfl
theorem V13_57 : kernelRunB.sl.v4914 c i M2 hM2 M3 hM3 tbl x2 x3 a13 = (rowsOf c tbl i sim x2 x3 (accOf c a12 a13 a14 a15 a16 a17) 57).logp := by
  unfold kernelRunB.sl.v4914 kernelRunB.sl.H13_57
  rw [View.readCov_cons_toLoadRect]
  refine Eq.trans ?_ (rowsOf_logp c tbl i sim x2 x3 (accOf c a12 a13 a14 a15 a16 a17) 56 (by decide)).symm
  unfold kernelRunB.sl.r_528 kernelRunB.sl.r_529
  simp only [W_r_527 c i tbl, V13_56 c i M2 hM2 M3 hM3 tbl hT sim x2 x3 b9 b10 a12 a13 a14 a15 a16 a17, in_read M2 hM2 x2 56 (by decide), mk_read M3 hM3 x3 56 (by decide)]
  try rfl
theorem V14_57 : kernelRunB.sl.v4920 c i M3 hM3 tbl hT sim x3 b9 b10 a14 = (rowsOf c tbl i sim x2 x3 (accOf c a12 a13 a14 a15 a16 a17) 57).w := by
  unfold kernelRunB.sl.v4920 kernelRunB.sl.H14_57
  rw [View.readCov_cons_toLoadRect]
  refine Eq.trans ?_ (rowsOf_w c tbl i sim x2 x3 (accOf c a12 a13 a14 a15 a16 a17) 56 (by decide)).symm
  unfold kernelRunB.sl.r_531
  simp only [S_v4779 c i tbl hT sim b9, V14_56 c i M2 hM2 M3 hM3 tbl hT sim x2 x3 b9 b10 a12 a13 a14 a15 a16 a17, mk_read M3 hM3 x3 56 (by decide)]
  try rfl
theorem V12_58 : kernelRunB.sl.v4994 c M3 hM3 x3 a12 = (rowsOf c tbl i sim x2 x3 (accOf c a12 a13 a14 a15 a16 a17) 58).m := by
  unfold kernelRunB.sl.v4994 kernelRunB.sl.H12_58
  rw [View.readCov_cons_toLoadRect]
  refine Eq.trans ?_ (rowsOf_m c tbl i sim x2 x3 (accOf c a12 a13 a14 a15 a16 a17) 57 (by decide)).symm
  unfold kernelRunB.sl.r_538
  simp only [V12_57 c i M2 hM2 M3 hM3 tbl hT sim x2 x3 b9 b10 a12 a13 a14 a15 a16 a17, mk_read M3 hM3 x3 57 (by decide)]
  try rfl
theorem V13_58 : kernelRunB.sl.v4999 c i M2 hM2 M3 hM3 tbl x2 x3 a13 = (rowsOf c tbl i sim x2 x3 (accOf c a12 a13 a14 a15 a16 a17) 58).logp := by
  unfold kernelRunB.sl.v4999 kernelRunB.sl.H13_58
  rw [View.readCov_cons_toLoadRect]
  refine Eq.trans ?_ (rowsOf_logp c tbl i sim x2 x3 (accOf c a12 a13 a14 a15 a16 a17) 57 (by decide)).symm
  unfold kernelRunB.sl.r_537 kernelRunB.sl.r_538
  simp only [W_r_536 c i tbl, V13_57 c i M2 hM2 M3 hM3 tbl hT sim x2 x3 b9 b10 a12 a13 a14 a15 a16 a17, in_read M2 hM2 x2 57 (by decide), mk_read M3 hM3 x3 57 (by decide)]
  try rfl
theorem V14_58 : kernelRunB.sl.v5005 c i M3 hM3 tbl hT sim x3 b9 b10 a14 = (rowsOf c tbl i sim x2 x3 (accOf c a12 a13 a14 a15 a16 a17) 58).w := by
  unfold kernelRunB.sl.v5005 kernelRunB.sl.H14_58
  rw [View.readCov_cons_toLoadRect]
  refine Eq.trans ?_ (rowsOf_w c tbl i sim x2 x3 (accOf c a12 a13 a14 a15 a16 a17) 57 (by decide)).symm
  unfold kernelRunB.sl.r_541 kernelRunB.sl.r_538 kernelRunB.sl.r_539 kernelRunB.sl.r_540 kernelRunB.sl.cst_781
  simp only [S_v4864 c i tbl hT sim b10, V14_57 c i M2 hM2 M3 hM3 tbl hT sim x2 x3 b9 b10 a12 a13 a14 a15 a16 a17, mk_read M3 hM3 x3 57 (by decide)]
  try rfl
theorem V12_59 : kernelRunB.sl.v5079 c M3 hM3 x3 a12 = (rowsOf c tbl i sim x2 x3 (accOf c a12 a13 a14 a15 a16 a17) 59).m := by
  unfold kernelRunB.sl.v5079 kernelRunB.sl.H12_59
  rw [View.readCov_cons_toLoadRect]
  refine Eq.trans ?_ (rowsOf_m c tbl i sim x2 x3 (accOf c a12 a13 a14 a15 a16 a17) 58 (by decide)).symm
  unfold kernelRunB.sl.r_547
  simp only [V12_58 c i M2 hM2 M3 hM3 tbl hT sim x2 x3 b9 b10 a12 a13 a14 a15 a16 a17, mk_read M3 hM3 x3 58 (by decide)]
  try rfl
theorem V13_59 : kernelRunB.sl.v5084 c i M2 hM2 M3 hM3 tbl x2 x3 a13 = (rowsOf c tbl i sim x2 x3 (accOf c a12 a13 a14 a15 a16 a17) 59).logp := by
  unfold kernelRunB.sl.v5084 kernelRunB.sl.H13_59
  rw [View.readCov_cons_toLoadRect]
  refine Eq.trans ?_ (rowsOf_logp c tbl i sim x2 x3 (accOf c a12 a13 a14 a15 a16 a17) 58 (by decide)).symm
  unfold kernelRunB.sl.r_547 kernelRunB.sl.r_550
  simp only [W_r_546 c i tbl, V13_58 c i M2 hM2 M3 hM3 tbl hT sim x2 x3 b9 b10 a12 a13 a14 a15 a16 a17, in_read M2 hM2 x2 58 (by decide), mk_read M3 hM3 x3 58 (by decide)]
  try rfl
theorem V14_59 : kernelRunB.sl.v5090 c i M3 hM3 tbl hT sim x3 b9 b10 a14 = (rowsOf c tbl i sim x2 x3 (accOf c a12 a13 a14 a15 a16 a17) 59).w := by
  unfold kernelRunB.sl.v5090 kernelRunB.sl.H14_59
  rw [View.readCov_cons_toLoadRect]
  refine Eq.trans ?_ (rowsOf_w c tbl i sim x2 x3 (accOf c a12 a13 a14 a15 a16 a17) 58 (by decide)).symm
  unfold kernelRunB.sl.r_548
  simp only [V14_58 c i M2 hM2 M3 hM3 tbl hT sim x2 x3 b9 b10 a12 a13 a14 a15 a16 a17, S_v_2 c i tbl hT sim b9, mk_read M3 hM3 x3 58 (by decide)]
  try rfl
theorem V12_60 : kernelRunB.sl.v5164 c M3 hM3 x3 a12 = (rowsOf c tbl i sim x2 x3 (accOf c a12 a13 a14 a15 a16 a17) 60).m := by
  unfold kernelRunB.sl.v5164 kernelRunB.sl.H12_60
  rw [View.readCov_cons_toLoadRect]
  refine Eq.trans ?_ (rowsOf_m c tbl i sim x2 x3 (accOf c a12 a13 a14 a15 a16 a17) 59 (by decide)).symm
  unfold kernelRunB.sl.r_556
  simp only [V12_59 c i M2 hM2 M3 hM3 tbl hT sim x2 x3 b9 b10 a12 a13 a14 a15 a16 a17, mk_read M3 hM3 x3 59 (by decide)]
  try rfl
theorem V13_60 : kernelRunB.sl.v5169 c i M2 hM2 M3 hM3 tbl x2 x3 a13 = (rowsOf c tbl i sim x2 x3 (accOf c a12 a13 a14 a15 a16 a17) 60).logp := by
  unfold kernelRunB.sl.v5169 kernelRunB.sl.H13_60
  rw [View.readCov_cons_toLoadRect]
  refine Eq.trans ?_ (rowsOf_logp c tbl i sim x2 x3 (accOf c a12 a13 a14 a15 a16 a17) 59 (by decide)).symm
  unfold kernelRunB.sl.r_555 kernelRunB.sl.r_556
  simp only [W_r_554 c i tbl, V13_59 c i M2 hM2 M3 hM3 tbl hT sim x2 x3 b9 b10 a12 a13 a14 a15 a16 a17, in_read M2 hM2 x2 59 (by decide), mk_read M3 hM3 x3 59 (by decide)]
  try rfl
theorem V14_60 : kernelRunB.sl.v5175 c i M3 hM3 tbl hT sim x3 b9 b10 a14 = (rowsOf c tbl i sim x2 x3 (accOf c a12 a13 a14 a15 a16 a17) 60).w := by
  unfold kernelRunB.sl.v5175 kernelRunB.sl.H14_60
  rw [View.readCov_cons_toLoadRect]
  refine Eq.trans ?_ (rowsOf_w c tbl i sim x2 x3 (accOf c a12 a13 a14 a15 a16 a17) 59 (by decide)).symm
  unfold kernelRunB.sl.r_558
  simp only [S_v5034 c i tbl hT sim b10, V14_59 c i M2 hM2 M3 hM3 tbl hT sim x2 x3 b9 b10 a12 a13 a14 a15 a16 a17, mk_read M3 hM3 x3 59 (by decide)]
  try rfl
theorem V12_61 : kernelRunB.sl.v5249 c M3 hM3 x3 a12 = (rowsOf c tbl i sim x2 x3 (accOf c a12 a13 a14 a15 a16 a17) 61).m := by
  unfold kernelRunB.sl.v5249 kernelRunB.sl.H12_61
  rw [View.readCov_cons_toLoadRect]
  refine Eq.trans ?_ (rowsOf_m c tbl i sim x2 x3 (accOf c a12 a13 a14 a15 a16 a17) 60 (by decide)).symm
  unfold kernelRunB.sl.r_565
  simp only [V12_60 c i M2 hM2 M3 hM3 tbl hT sim x2 x3 b9 b10 a12 a13 a14 a15 a16 a17, mk_read M3 hM3 x3 60 (by decide)]
  try rfl
theorem V13_61 : kernelRunB.sl.v5254 c i M2 hM2 M3 hM3 tbl x2 x3 a13 = (rowsOf c tbl i sim x2 x3 (accOf c a12 a13 a14 a15 a16 a17) 61).logp := by
  unfold kernelRunB.sl.v5254 kernelRunB.sl.H13_61
  rw [View.readCov_cons_toLoadRect]
  refine Eq.trans ?_ (rowsOf_logp c tbl i sim x2 x3 (accOf c a12 a13 a14 a15 a16 a17) 60 (by decide)).symm
  unfold kernelRunB.sl.r_571 kernelRunB.sl.r_564 kernelRunB.sl.r_565
  simp only [W_r_563 c i tbl, V13_60 c i M2 hM2 M3 hM3 tbl hT sim x2 x3 b9 b10 a12 a13 a14 a15 a16 a17, in_read M2 hM2 x2 60 (by decide), mk_read M3 hM3 x3 60 (by decide)]
  try rfl
theorem V14_61 : kernelRunB.sl.v5260 c i M3 hM3 tbl hT sim x3 b9 b10 a14 = (rowsOf c tbl i sim x2 x3 (accOf c a12 a13 a14 a15 a16 a17) 61).w := by
  unfold kernelRunB.sl.v5260 kernelRunB.sl.H14_61
  rw [View.readCov_cons_toLoadRect]
  refine Eq.trans ?_ (rowsOf_w c tbl i sim x2 x3 (accOf c a12 a13 a14 a15 a16 a17) 60 (by decide)).symm
  unfold kernelRunB.sl.r_567 kernelRunB.sl.r_565 kernelRunB.sl.r_566 kernelRunB.sl.cst_15
  simp only [S_v5119 c i tbl hT sim b9, V14_60 c i M2 hM2 M3 hM3 tbl hT sim x2 x3 b9 b10 a12 a13 a14 a15 a16 a17, mk_read M3 hM3 x3 60 (by decide)]
  try rfl
theorem V12_62 : kernelRunB.sl.v5334 c M3 hM3 x3 a12 = (rowsOf c tbl i sim x2 x3 (accOf c a12 a13 a14 a15 a16 a17) 62).m := by
  unfold kernelRunB.sl.v5334 kernelRunB.sl.H12_62
  rw [View.readCov_cons_toLoadRect]
  refine Eq.trans ?_ (rowsOf_m c tbl i sim x2 x3 (accOf c a12 a13 a14 a15 a16 a17) 61 (by decide)).symm
  unfold kernelRunB.sl.r_574
  simp only [V12_61 c i M2 hM2 M3 hM3 tbl hT sim x2 x3 b9 b10 a12 a13 a14 a15 a16 a17, mk_read M3 hM3 x3 61 (by decide)]
  try rfl
theorem V13_62 : kernelRunB.sl.v5339 c i M2 hM2 M3 hM3 tbl x2 x3 a13 = (rowsOf c tbl i sim x2 x3 (accOf c a12 a13 a14 a15 a16 a17) 62).logp := by
  unfold kernelRunB.sl.v5339 kernelRunB.sl.H13_62
  rw [View.readCov_cons_toLoadRect]
  refine Eq.trans ?_ (rowsOf_logp c tbl i sim x2 x3 (accOf c a12 a13 a14 a15 a16 a17) 61 (by decide)).symm
  unfold kernelRunB.sl.r_574 kernelRunB.sl.r_577
  simp only [W_r_573 c i tbl, V13_61 c i M2 hM2 M3 hM3 tbl hT sim x2 x3 b9 b10 a12 a13 a14 a15 a16 a17, in_read M2 hM2 x2 61 (by decide), mk_read M3 hM3 x3 61 (by decide)]
  try rfl
theorem V14_62 : kernelRunB.sl.v5345 c i M3 hM3 tbl hT sim x3 b9 b10 a14 = (rowsOf c tbl i sim x2 x3 (accOf c a12 a13 a14 a15 a16 a17) 62).w := by
  unfold kernelRunB.sl.v5345 kernelRunB.sl.H14_62
  rw [View.readCov_cons_toLoadRect]
  refine Eq.trans ?_ (rowsOf_w c tbl i sim x2 x3 (accOf c a12 a13 a14 a15 a16 a17) 61 (by decide)).symm
  unfold kernelRunB.sl.r_575
  simp only [S_v5204 c i tbl hT sim b10, V14_61 c i M2 hM2 M3 hM3 tbl hT sim x2 x3 b9 b10 a12 a13 a14 a15 a16 a17, mk_read M3 hM3 x3 61 (by decide)]
  try rfl
theorem V12_63 : kernelRunB.sl.v5413 c M3 hM3 x3 a12 = (rowsOf c tbl i sim x2 x3 (accOf c a12 a13 a14 a15 a16 a17) 63).m := by
  unfold kernelRunB.sl.v5413 kernelRunB.sl.H12_63
  rw [View.readCov_cons_toLoadRect]
  refine Eq.trans ?_ (rowsOf_m c tbl i sim x2 x3 (accOf c a12 a13 a14 a15 a16 a17) 62 (by decide)).symm
  unfold kernelRunB.sl.r_584
  simp only [V12_62 c i M2 hM2 M3 hM3 tbl hT sim x2 x3 b9 b10 a12 a13 a14 a15 a16 a17, mk_read M3 hM3 x3 62 (by decide)]
  try rfl
theorem V13_63 : kernelRunB.sl.v5418 c i M2 hM2 M3 hM3 tbl x2 x3 a13 = (rowsOf c tbl i sim x2 x3 (accOf c a12 a13 a14 a15 a16 a17) 63).logp := by
  unfold kernelRunB.sl.v5418 kernelRunB.sl.H13_63
  rw [View.readCov_cons_toLoadRect]
  refine Eq.trans ?_ (rowsOf_logp c tbl i sim x2 x3 (accOf c a12 a13 a14 a15 a16 a17) 62 (by decide)).symm
  unfold kernelRunB.sl.r_583 kernelRunB.sl.r_584
  simp only [W_r_582 c i tbl, V13_62 c i M2 hM2 M3 hM3 tbl hT sim x2 x3 b9 b10 a12 a13 a14 a15 a16 a17, in_read M2 hM2 x2 62 (by decide), mk_read M3 hM3 x3 62 (by decide)]
  try rfl
theorem V14_63 : kernelRunB.sl.v5424 c i M3 hM3 tbl hT sim x3 b9 b10 a14 = (rowsOf c tbl i sim x2 x3 (accOf c a12 a13 a14 a15 a16 a17) 63).w := by
  unfold kernelRunB.sl.v5424 kernelRunB.sl.H14_63
  rw [View.readCov_cons_toLoadRect]
  refine Eq.trans ?_ (rowsOf_w c tbl i sim x2 x3 (accOf c a12 a13 a14 a15 a16 a17) 62 (by decide)).symm
  unfold kernelRunB.sl.r_587
  simp only [S_v5289 c i tbl hT sim b9, V14_62 c i M2 hM2 M3 hM3 tbl hT sim x2 x3 b9 b10 a12 a13 a14 a15 a16 a17, mk_read M3 hM3 x3 62 (by decide)]
  try rfl
theorem L12_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : ¬ C2 i) : (kernelRunB c i M2 hM2 M3 hM3 M5 hM5 M6 hM6 M7 hM7 M8 hM8 tbl hT sim x2 x3 b9 b10 a12 a13 a14 a15 a16 a17 h1 h2).1 = ⟨Rect.unit ![0, 0] S1x1.size inb_S1x1_S1x1_0_0, k0_pay964 (kernelRunB.sl.r_593 c M3 hM3 x3) (kernelRunB.sl.v5413 c M3 hM3 x3 a12)⟩ :: kernelRunB.sl.H12_63 c M3 hM3 x3 a12 := rfl
theorem V12_64 : View.readAt (Elt F) (Memref.whole cc0_scratch3).view (Rect.unit ![0, 0] S1x1.size inb_S1x1_S1x1_0_0).toLoadRect ((Memref.whole cc0_scratch3).view.writes (Elt F) a12 (⟨Rect.unit ![0, 0] S1x1.size inb_S1x1_S1x1_0_0, k0_pay964 (kernelRunB.sl.r_593 c M3 hM3 x3) (kernelRunB.sl.v5413 c M3 hM3 x3 a12)⟩ :: kernelRunB.sl.H12_63 c M3 hM3 x3 a12)) = (rowsOf c tbl i sim x2 x3 (accOf c a12 a13 a14 a15 a16 a17) 64).m := by
  rw [read_last_write]
  refine Eq.trans ?_ (rowsOf_m c tbl i sim x2 x3 (accOf c a12 a13 a14 a15 a16 a17) 63 (by decide)).symm
  unfold kernelRunB.sl.r_593
  simp only [V12_63 c i M2 hM2 M3 hM3 tbl hT sim x2 x3 b9 b10 a12 a13 a14 a15 a16 a17, mk_read M3 hM3 x3 63 (by decide)]
  try rfl
theorem L13_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : ¬ C2 i) : (kernelRunB c i M2 hM2 M3 hM3 M5 hM5 M6 hM6 M7 hM7 M8 hM8 tbl hT sim x2 x3 b9 b10 a12 a13 a14 a15 a16 a17 h1 h2).2.1 = ⟨Rect.unit ![0, 0] S1x1.size inb_S1x1_S1x1_0_0, k0_pay965 (kernelRunB.sl.r_592 c M2 hM2 x2) (kernelRunB.sl.r_593 c M3 hM3 x3) (kernelRunB.sl.r_591 c i tbl) (kernelRunB.sl.v5418 c i M2 hM2 M3 hM3 tbl x2 x3 a13)⟩ :: kernelRunB.sl.H13_63 c i M2 hM2 M3 hM3 tbl x2 x3 a13 := rfl
theorem V13_64 : View.readAt (Elt F) (Memref.whole cc0_scratch4).view (Rect.unit ![0, 0] S1x1.size inb_S1x1_S1x1_0_0).toLoadRect ((Memref.whole cc0_scratch4).view.writes (Elt F) a13 (⟨Rect.unit ![0, 0] S1x1.size inb_S1x1_S1x1_0_0, k0_pay965 (kernelRunB.sl.r_592 c M2 hM2 x2) (kernelRunB.sl.r_593 c M3 hM3 x3) (kernelRunB.sl.r_591 c i tbl) (kernelRunB.sl.v5418 c i M2 hM2 M3 hM3 tbl x2 x3 a13)⟩ :: kernelRunB.sl.H13_63 c i M2 hM2 M3 hM3 tbl x2 x3 a13)) = (rowsOf c tbl i sim x2 x3 (accOf c a12 a13 a14 a15 a16 a17) 64).logp := by
  rw [read_last_write]
  refine Eq.trans ?_ (rowsOf_logp c tbl i sim x2 x3 (accOf c a12 a13 a14 a15 a16 a17) 63 (by decide)).symm
  unfold kernelRunB.sl.r_592 kernelRunB.sl.r_593
  simp only [W_r_591 c i tbl, V13_63 c i M2 hM2 M3 hM3 tbl hT sim x2 x3 b9 b10 a12 a13 a14 a15 a16 a17, in_read M2 hM2 x2 63 (by decide), mk_read M3 hM3 x3 63 (by decide)]
  try rfl
theorem L14_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : ¬ C2 i) : (kernelRunB c i M2 hM2 M3 hM3 M5 hM5 M6 hM6 M7 hM7 M8 hM8 tbl hT sim x2 x3 b9 b10 a12 a13 a14 a15 a16 a17 h1 h2).2.2.1 = ⟨Rect.unit ![0, 0] S1x1.size inb_S1x1_S1x1_0_0, k0_pay967 (kernelRunB.sl.r_599 c i M3 hM3 tbl hT sim x3 b9 b10 a14)⟩ :: kernelRunB.sl.H14_63 c i M3 hM3 tbl hT sim x3 b9 b10 a14 := rfl
theorem V14_64 : View.readAt (Elt F) (Memref.whole cc0_scratch5).view (Rect.unit ![0, 0] S1x1.size inb_S1x1_S1x1_0_0).toLoadRect ((Memref.whole cc0_scratch5).view.writes (Elt F) a14 (⟨Rect.unit ![0, 0] S1x1.size inb_S1x1_S1x1_0_0, k0_pay967 (kernelRunB.sl.r_599 c i M3 hM3 tbl hT sim x3 b9 b10 a14)⟩ :: kernelRunB.sl.H14_63 c i M3 hM3 tbl hT sim x3 b9 b10 a14)) = (rowsOf c tbl i sim x2 x3 (accOf c a12 a13 a14 a15 a16 a17) 64).w := by
  rw [read_last_write]
  refine Eq.trans ?_ (rowsOf_w c tbl i sim x2 x3 (accOf c a12 a13 a14 a15 a16 a17) 63 (by decide)).symm
  unfold kernelRunB.sl.r_599 kernelRunB.sl.r_593 kernelRunB.sl.r_594 kernelRunB.sl.r_595
  simp only [S_v5368 c i tbl hT sim b10, V14_63 c i M2 hM2 M3 hM3 tbl hT sim x2 x3 b9 b10 a12 a13 a14 a15 a16 a17, mk_read M3 hM3 x3 63 (by decide)]
  try rfl
end TabB

end Cert.Proof.KI

end
-- ==== Proof.KIStepBTabV2.lean ====
import proofs.«419560_j5755256177164_3_alg».proof.Proof.KIStepBTabW

/-!
  The table of case B: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.KI

open Cert.KernelIdeal Cert.KernelIdeal.Gen
open Idealize.ShloMosaic Idealize.ShloMosaic.TcCoe
open Idealize.SL Idealize.SL.Sem

variable {F : FTy → Type} [FloatOps F]

namespace TabB

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

include c i M2 hM2 M3 hM3 tbl hT sim x2 x3 b9 b10 a12 a13 a14 a15 a16 a17

theorem V15_1 : kernelRunB.sl.v165 c i M2 hM2 M3 hM3 tbl hT sim x2 x3 b9 a15 = (rowsOf c tbl i sim x2 x3 (accOf c a12 a13 a14 a15 a16 a17) 1).nf := by
  unfold kernelRunB.sl.v165 kernelRunB.sl.H15_1
  rw [View.readCov_cons_toLoadRect]
  refine Eq.trans ?_ (rowsOf_nf c tbl i sim x2 x3 (accOf c a12 a13 a14 a15 a16 a17) 0 (by decide)).symm
  unfold kernelRunB.sl.r_7 kernelRunB.sl.r_3 kernelRunB.sl.r_4 kernelRunB.sl.r_5 kernelRunB.sl.cst_15
  simp only [S_v19 c i tbl hT sim b9, in_read M2 hM2 x2 0 (by decide), mk_read M3 hM3 x3 0 (by decide)]
  try rfl
theorem V16_1 : kernelRunB.sl.v170 c i tbl hT sim b9 a16 = (rowsOf c tbl i sim x2 x3 (accOf c a12 a13 a14 a15 a16 a17) 1).s := by
  unfold kernelRunB.sl.v170 kernelRunB.sl.H16_1
  rw [View.readCov_cons_toLoadRect]
  refine Eq.trans ?_ (rowsOf_s c tbl i sim x2 x3 (accOf c a12 a13 a14 a15 a16 a17) 0 (by decide)).symm
  unfold kernelRunB.sl.r_8 kernelRunB.sl.r_5 kernelRunB.sl.cst_15
  simp only [S_v19 c i tbl hT sim b9]
  try rfl
theorem V17_1 : kernelRunB.sl.v175 c i tbl hT sim b9 a17 = (rowsOf c tbl i sim x2 x3 (accOf c a12 a13 a14 a15 a16 a17) 1).q := by
  unfold kernelRunB.sl.v175 kernelRunB.sl.H17_1
  rw [View.readCov_cons_toLoadRect]
  refine Eq.trans ?_ (rowsOf_q c tbl i sim x2 x3 (accOf c a12 a13 a14 a15 a16 a17) 0 (by decide)).symm
  unfold kernelRunB.sl.r_9 kernelRunB.sl.r_5 kernelRunB.sl.cst_15
  simp only [S_v19 c i tbl hT sim b9]
  try rfl
theorem V15_2 : kernelRunB.sl.v250 c i M2 hM2 M3 hM3 tbl hT sim x2 x3 b9 b10 a15 = (rowsOf c tbl i sim x2 x3 (accOf c a12 a13 a14 a15 a16 a17) 2).nf := by
  unfold kernelRunB.sl.v250 kernelRunB.sl.H15_2
  rw [View.readCov_cons_toLoadRect]
  refine Eq.trans ?_ (rowsOf_nf c tbl i sim x2 x3 (accOf c a12 a13 a14 a15 a16 a17) 1 (by decide)).symm
  unfold kernelRunB.sl.r_15
  simp only [S_v104 c i tbl hT sim b10, V15_1 c i M2 hM2 M3 hM3 tbl hT sim x2 x3 b9 b10 a12 a13 a14 a15 a16 a17, in_read M2 hM2 x2 1 (by decide), mk_read M3 hM3 x3 1 (by decide)]
  try rfl
theorem V16_2 : kernelRunB.sl.v255 c i tbl hT sim b9 b10 a16 = (rowsOf c tbl i sim x2 x3 (accOf c a12 a13 a14 a15 a16 a17) 2).s := by
  unfold kernelRunB.sl.v255 kernelRunB.sl.H16_2
  rw [View.readCov_cons_toLoadRect]
  refine Eq.trans ?_ (rowsOf_s c tbl i sim x2 x3 (accOf c a12 a13 a14 a15 a16 a17) 1 (by decide)).symm
  unfold kernelRunB.sl.r_17
  simp only [S_v104 c i tbl hT sim b10, V16_1 c i M2 hM2 M3 hM3 tbl hT sim x2 x3 b9 b10 a12 a13 a14 a15 a16 a17]
  try rfl
theorem V17_2 : kernelRunB.sl.v260 c i tbl hT sim b9 b10 a17 = (rowsOf c tbl i sim x2 x3 (accOf c a12 a13 a14 a15 a16 a17) 2).q := by
  unfold kernelRunB.sl.v260 kernelRunB.sl.H17_2
  rw [View.readCov_cons_toLoadRect]
  refine Eq.trans ?_ (rowsOf_q c tbl i sim x2 x3 (accOf c a12 a13 a14 a15 a16 a17) 1 (by decide)).symm
  unfold kernelRunB.sl.r_19 kernelRunB.sl.r_18
  simp only [S_v104 c i tbl hT sim b10, V17_1 c i M2 hM2 M3 hM3 tbl hT sim x2 x3 b9 b10 a12 a13 a14 a15 a16 a17]
  try rfl
theorem V15_3 : kernelRunB.sl.v335 c i M2 hM2 M3 hM3 tbl hT sim x2 x3 b9 b10 a15 = (rowsOf c tbl i sim x2 x3 (accOf c a12 a13 a14 a15 a16 a17) 3).nf := by
  unfold kernelRunB.sl.v335 kernelRunB.sl.H15_3
  rw [View.readCov_cons_toLoadRect]
  refine Eq.trans ?_ (rowsOf_nf c tbl i sim x2 x3 (accOf c a12 a13 a14 a15 a16 a17) 2 (by decide)).symm
  unfold kernelRunB.sl.r_29 kernelRunB.sl.r_22 kernelRunB.sl.r_25 kernelRunB.sl.cst_109
  simp only [S_v189 c i tbl hT sim b9, V15_2 c i M2 hM2 M3 hM3 tbl hT sim x2 x3 b9 b10 a12 a13 a14 a15 a16 a17, in_read M2 hM2 x2 2 (by decide), mk_read M3 hM3 x3 2 (by decide)]
  try rfl
theorem V16_3 : kernelRunB.sl.v340 c i tbl hT sim b9 b10 a16 = (rowsOf c tbl i sim x2 x3 (accOf c a12 a13 a14 a15 a16 a17) 3).s := by
  unfold kernelRunB.sl.v340 kernelRunB.sl.H16_3
  rw [View.readCov_cons_toLoadRect]
  refine Eq.trans ?_ (rowsOf_s c tbl i sim x2 x3 (accOf c a12 a13 a14 a15 a16 a17) 2 (by decide)).symm
  unfold kernelRunB.sl.r_27 kernelRunB.sl.r_24
  simp only [S_v189 c i tbl hT sim b9, V16_2 c i M2 hM2 M3 hM3 tbl hT sim x2 x3 b9 b10 a12 a13 a14 a15 a16 a17]
  try rfl
theorem V17_3 : kernelRunB.sl.v345 c i tbl hT sim b9 b10 a17 = (rowsOf c tbl i sim x2 x3 (accOf c a12 a13 a14 a15 a16 a17) 3).q := by
  unfold kernelRunB.sl.v345 kernelRunB.sl.H17_3
  rw [View.readCov_cons_toLoadRect]
  refine Eq.trans ?_ (rowsOf_q c tbl i sim x2 x3 (accOf c a12 a13 a14 a15 a16 a17) 2 (by decide)).symm
  unfold kernelRunB.sl.r_28 kernelRunB.sl.r_24
  simp only [S_v189 c i tbl hT sim b9, V17_2 c i M2 hM2 M3 hM3 tbl hT sim x2 x3 b9 b10 a12 a13 a14 a15 a16 a17]
  try rfl
theorem V15_4 : kernelRunB.sl.v420 c i M2 hM2 M3 hM3 tbl hT sim x2 x3 b9 b10 a15 = (rowsOf c tbl i sim x2 x3 (accOf c a12 a13 a14 a15 a16 a17) 4).nf := by
  unfold kernelRunB.sl.v420 kernelRunB.sl.H15_4
  rw [View.readCov_cons_toLoadRect]
  refine Eq.trans ?_ (rowsOf_nf c tbl i sim x2 x3 (accOf c a12 a13 a14 a15 a16 a17) 3 (by decide)).symm
  unfold kernelRunB.sl.r_36 kernelRunB.sl.r_32 kernelRunB.sl.r_33 kernelRunB.sl.r_34
  simp only [S_v274 c i tbl hT sim b10, V15_3 c i M2 hM2 M3 hM3 tbl hT sim x2 x3 b9 b10 a12 a13 a14 a15 a16 a17, in_read M2 hM2 x2 3 (by decide), mk_read M3 hM3 x3 3 (by decide)]
  try rfl
theorem V16_4 : kernelRunB.sl.v425 c i tbl hT sim b9 b10 a16 = (rowsOf c tbl i sim x2 x3 (accOf c a12 a13 a14 a15 a16 a17) 4).s := by
  unfold kernelRunB.sl.v425 kernelRunB.sl.H16_4
  rw [View.readCov_cons_toLoadRect]
  refine Eq.trans ?_ (rowsOf_s c tbl i sim x2 x3 (accOf c a12 a13 a14 a15 a16 a17) 3 (by decide)).symm
  unfold kernelRunB.sl.r_37 kernelRunB.sl.r_34
  simp only [S_v274 c i tbl hT sim b10, V16_3 c i M2 hM2 M3 hM3 tbl hT sim x2 x3 b9 b10 a12 a13 a14 a15 a16 a17]
  try rfl
theorem V17_4 : kernelRunB.sl.v430 c i tbl hT sim b9 b10 a17 = (rowsOf c tbl i sim x2 x3 (accOf c a12 a13 a14 a15 a16 a17) 4).q := by
  unfold kernelRunB.sl.v430 kernelRunB.sl.H17_4
  rw [View.readCov_cons_toLoadRect]
  refine Eq.trans ?_ (rowsOf_q c tbl i sim x2 x3 (accOf c a12 a13 a14 a15 a16 a17) 3 (by decide)).symm
  unfold kernelRunB.sl.r_38 kernelRunB.sl.r_34
  simp only [S_v274 c i tbl hT sim b10, V17_3 c i M2 hM2 M3 hM3 tbl hT sim x2 x3 b9 b10 a12 a13 a14 a15 a16 a17]
  try rfl
theorem V15_5 : kernelRunB.sl.v505 c i M2 hM2 M3 hM3 tbl hT sim x2 x3 b9 b10 a15 = (rowsOf c tbl i sim x2 x3 (accOf c a12 a13 a14 a15 a16 a17) 5).nf := by
  unfold kernelRunB.sl.v505 kernelRunB.sl.H15_5
  rw [View.readCov_cons_toLoadRect]
  refine Eq.trans ?_ (rowsOf_nf c tbl i sim x2 x3 (accOf c a12 a13 a14 a15 a16 a17) 4 (by decide)).symm
  unfold kernelRunB.sl.r_45
  simp only [S_v359 c i tbl hT sim b9, V15_4 c i M2 hM2 M3 hM3 tbl hT sim x2 x3 b9 b10 a12 a13 a14 a15 a16 a17, in_read M2 hM2 x2 4 (by decide), mk_read M3 hM3 x3 4 (by decide)]
  try rfl
theorem V16_5 : kernelRunB.sl.v510 c i tbl hT sim b9 b10 a16 = (rowsOf c tbl i sim x2 x3 (accOf c a12 a13 a14 a15 a16 a17) 5).s := by
  unfold kernelRunB.sl.v510 kernelRunB.sl.H16_5
  rw [View.readCov_cons_toLoadRect]
  refine Eq.trans ?_ (rowsOf_s c tbl i sim x2 x3 (accOf c a12 a13 a14 a15 a16 a17) 4 (by decide)).symm
  unfold kernelRunB.sl.r_47
  simp only [S_v359 c i tbl hT sim b9, V16_4 c i M2 hM2 M3 hM3 tbl hT sim x2 x3 b9 b10 a12 a13 a14 a15 a16 a17]
  try rfl
theorem V17_5 : kernelRunB.sl.v515 c i tbl hT sim b9 b10 a17 = (rowsOf c tbl i sim x2 x3 (accOf c a12 a13 a14 a15 a16 a17) 5).q := by
  unfold kernelRunB.sl.v515 kernelRunB.sl.H17_5
  rw [View.readCov_cons_toLoadRect]
  refine Eq.trans ?_ (rowsOf_q c tbl i sim x2 x3 (accOf c a12 a13 a14 a15 a16 a17) 4 (by decide)).symm
  unfold kernelRunB.sl.r_48 kernelRunB.sl.r_43
  simp only [S_v359 c i tbl hT sim b9, V17_4 c i M2 hM2 M3 hM3 tbl hT sim x2 x3 b9 b10 a12 a13 a14 a15 a16 a17]
  try rfl
theorem V15_6 : kernelRunB.sl.v590 c i M2 hM2 M3 hM3 tbl hT sim x2 x3 b9 b10 a15 = (rowsOf c tbl i sim x2 x3 (accOf c a12 a13 a14 a15 a16 a17) 6).nf := by
  unfold kernelRunB.sl.v590 kernelRunB.sl.H15_6
  rw [View.readCov_cons_toLoadRect]
  refine Eq.trans ?_ (rowsOf_nf c tbl i sim x2 x3 (accOf c a12 a13 a14 a15 a16 a17) 5 (by decide)).symm
  unfold kernelRunB.sl.r_57 kernelRunB.sl.r_51 kernelRunB.sl.r_54
  simp only [S_v444 c i tbl hT sim b10, V15_5 c i M2 hM2 M3 hM3 tbl hT sim x2 x3 b9 b10 a12 a13 a14 a15 a16 a17, in_read M2 hM2 x2 5 (by decide), mk_read M3 hM3 x3 5 (by decide)]
  try rfl
theorem V16_6 : kernelRunB.sl.v595 c i tbl hT sim b9 b10 a16 = (rowsOf c tbl i sim x2 x3 (accOf c a12 a13 a14 a15 a16 a17) 6).s := by
  unfold kernelRunB.sl.v595 kernelRunB.sl.H16_6
  rw [View.readCov_cons_toLoadRect]
  refine Eq.trans ?_ (rowsOf_s c tbl i sim x2 x3 (accOf c a12 a13 a14 a15 a16 a17) 5 (by decide)).symm
  unfold kernelRunB.sl.r_55 kernelRunB.sl.r_53
  simp only [S_v444 c i tbl hT sim b10, V16_5 c i M2 hM2 M3 hM3 tbl hT sim x2 x3 b9 b10 a12 a13 a14 a15 a16 a17]
  try rfl
theorem V17_6 : kernelRunB.sl.v600 c i tbl hT sim b9 b10 a17 = (rowsOf c tbl i sim x2 x3 (accOf c a12 a13 a14 a15 a16 a17) 6).q := by
  unfold kernelRunB.sl.v600 kernelRunB.sl.H17_6
  rw [View.readCov_cons_toLoadRect]
  refine Eq.trans ?_ (rowsOf_q c tbl i sim x2 x3 (accOf c a12 a13 a14 a15 a16 a17) 5 (by decide)).symm
  unfold kernelRunB.sl.r_56 kernelRunB.sl.r_53
  simp only [S_v444 c i tbl hT sim b10, V17_5 c i M2 hM2 M3 hM3 tbl hT sim x2 x3 b9 b10 a12 a13 a14 a15 a16 a17]
  try rfl
theorem V15_7 : kernelRunB.sl.v675 c i M2 hM2 M3 hM3 tbl hT sim x2 x3 b9 b10 a15 = (rowsOf c tbl i sim x2 x3 (accOf c a12 a13 a14 a15 a16 a17) 7).nf := by
  unfold kernelRunB.sl.v675 kernelRunB.sl.H15_7
  rw [View.readCov_cons_toLoadRect]
  refine Eq.trans ?_ (rowsOf_nf c tbl i sim x2 x3 (accOf c a12 a13 a14 a15 a16 a17) 6 (by decide)).symm
  unfold kernelRunB.sl.r_63 kernelRunB.sl.r_60 kernelRunB.sl.r_61 kernelRunB.sl.cst_284
  simp only [S_v529 c i tbl hT sim b9, V15_6 c i M2 hM2 M3 hM3 tbl hT sim x2 x3 b9 b10 a12 a13 a14 a15 a16 a17, in_read M2 hM2 x2 6 (by decide), mk_read M3 hM3 x3 6 (by decide)]
  try rfl
theorem V16_7 : kernelRunB.sl.v680 c i tbl hT sim b9 b10 a16 = (rowsOf c tbl i sim x2 x3 (accOf c a12 a13 a14 a15 a16 a17) 7).s := by
  unfold kernelRunB.sl.v680 kernelRunB.sl.H16_7
  rw [View.readCov_cons_toLoadRect]
  refine Eq.trans ?_ (rowsOf_s c tbl i sim x2 x3 (accOf c a12 a13 a14 a15 a16 a17) 6 (by decide)).symm
  unfold kernelRunB.sl.r_64 kernelRunB.sl.cst_284
  simp only [S_v529 c i tbl hT sim b9, V16_6 c i M2 hM2 M3 hM3 tbl hT sim x2 x3 b9 b10 a12 a13 a14 a15 a16 a17]
  try rfl
theorem V17_7 : kernelRunB.sl.v685 c i tbl hT sim b9 b10 a17 = (rowsOf c tbl i sim x2 x3 (accOf c a12 a13 a14 a15 a16 a17) 7).q := by
  unfold kernelRunB.sl.v685 kernelRunB.sl.H17_7
  rw [View.readCov_cons_toLoadRect]
  refine Eq.trans ?_ (rowsOf_q c tbl i sim x2 x3 (accOf c a12 a13 a14 a15 a16 a17) 6 (by decide)).symm
  unfold kernelRunB.sl.r_65 kernelRunB.sl.cst_284
  simp only [S_v529 c i tbl hT sim b9, V17_6 c i M2 hM2 M3 hM3 tbl hT sim x2 x3 b9 b10 a12 a13 a14 a15 a16 a17]
  try rfl
theorem V15_8 : kernelRunB.sl.v760 c i M2 hM2 M3 hM3 tbl hT sim x2 x3 b9 b10 a15 = (rowsOf c tbl i sim x2 x3 (accOf c a12 a13 a14 a15 a16 a17) 8).nf := by
  unfold kernelRunB.sl.v760 kernelRunB.sl.H15_8
  rw [View.readCov_cons_toLoadRect]
  refine Eq.trans ?_ (rowsOf_nf c tbl i sim x2 x3 (accOf c a12 a13 a14 a15 a16 a17) 7 (by decide)).symm
  unfold kernelRunB.sl.r_72
  simp only [S_v614 c i tbl hT sim b10, V15_7 c i M2 hM2 M3 hM3 tbl hT sim x2 x3 b9 b10 a12 a13 a14 a15 a16 a17, in_read M2 hM2 x2 7 (by decide), mk_read M3 hM3 x3 7 (by decide)]
  try rfl
theorem V16_8 : kernelRunB.sl.v765 c i tbl hT sim b9 b10 a16 = (rowsOf c tbl i sim x2 x3 (accOf c a12 a13 a14 a15 a16 a17) 8).s := by
  unfold kernelRunB.sl.v765 kernelRunB.sl.H16_8
  rw [View.readCov_cons_toLoadRect]
  refine Eq.trans ?_ (rowsOf_s c tbl i sim x2 x3 (accOf c a12 a13 a14 a15 a16 a17) 7 (by decide)).symm
  unfold kernelRunB.sl.r_70
  simp only [S_v614 c i tbl hT sim b10, V16_7 c i M2 hM2 M3 hM3 tbl hT sim x2 x3 b9 b10 a12 a13 a14 a15 a16 a17]
  try rfl
theorem V17_8 : kernelRunB.sl.v770 c i tbl hT sim b9 b10 a17 = (rowsOf c tbl i sim x2 x3 (accOf c a12 a13 a14 a15 a16 a17) 8).q := by
  unfold kernelRunB.sl.v770 kernelRunB.sl.H17_8
  rw [View.readCov_cons_toLoadRect]
  refine Eq.trans ?_ (rowsOf_q c tbl i sim x2 x3 (accOf c a12 a13 a14 a15 a16 a17) 7 (by decide)).symm
  unfold kernelRunB.sl.r_74 kernelRunB.sl.r_70
  simp only [S_v614 c i tbl hT sim b10, V17_7 c i M2 hM2 M3 hM3 tbl hT sim x2 x3 b9 b10 a12 a13 a14 a15 a16 a17]
  try rfl
theorem V15_9 : kernelRunB.sl.v845 c i M2 hM2 M3 hM3 tbl hT sim x2 x3 b9 b10 a15 = (rowsOf c tbl i sim x2 x3 (accOf c a12 a13 a14 a15 a16 a17) 9).nf := by
  unfold kernelRunB.sl.v845 kernelRunB.sl.H15_9
  rw [View.readCov_cons_toLoadRect]
  refine Eq.trans ?_ (rowsOf_nf c tbl i sim x2 x3 (accOf c a12 a13 a14 a15 a16 a17) 8 (by decide)).symm
  unfold kernelRunB.sl.r_80 kernelRunB.sl.r_77 kernelRunB.sl.r_78 kernelRunB.sl.r_79
  simp only [S_v699 c i tbl hT sim b9, V15_8 c i M2 hM2 M3 hM3 tbl hT sim x2 x3 b9 b10 a12 a13 a14 a15 a16 a17, in_read M2 hM2 x2 8 (by decide), mk_read M3 hM3 x3 8 (by decide)]
  try rfl
theorem V16_9 : kernelRunB.sl.v850 c i tbl hT sim b9 b10 a16 = (rowsOf c tbl i sim x2 x3 (accOf c a12 a13 a14 a15 a16 a17) 9).s := by
  unfold kernelRunB.sl.v850 kernelRunB.sl.H16_9
  rw [View.readCov_cons_toLoadRect]
  refine Eq.trans ?_ (rowsOf_s c tbl i sim x2 x3 (accOf c a12 a13 a14 a15 a16 a17) 8 (by decide)).symm
  unfold kernelRunB.sl.r_81 kernelRunB.sl.r_79
  simp only [S_v699 c i tbl hT sim b9, V16_8 c i M2 hM2 M3 hM3 tbl hT sim x2 x3 b9 b10 a12 a13 a14 a15 a16 a17]
  try rfl
theorem V17_9 : kernelRunB.sl.v855 c i tbl hT sim b9 b10 a17 = (rowsOf c tbl i sim x2 x3 (accOf c a12 a13 a14 a15 a16 a17) 9).q := by
  unfold kernelRunB.sl.v855 kernelRunB.sl.H17_9
  rw [View.readCov_cons_toLoadRect]
  refine Eq.trans ?_ (rowsOf_q c tbl i sim x2 x3 (accOf c a12 a13 a14 a15 a16 a17) 8 (by decide)).symm
  unfold kernelRunB.sl.r_82 kernelRunB.sl.r_79
  simp only [S_v699 c i tbl hT sim b9, V17_8 c i M2 hM2 M3 hM3 tbl hT sim x2 x3 b9 b10 a12 a13 a14 a15 a16 a17]
  try rfl
theorem V15_10 : kernelRunB.sl.v930 c i M2 hM2 M3 hM3 tbl hT sim x2 x3 b9 b10 a15 = (rowsOf c tbl i sim x2 x3 (accOf c a12 a13 a14 a15 a16 a17) 10).nf := by
  unfold kernelRunB.sl.v930 kernelRunB.sl.H15_10
  rw [View.readCov_cons_toLoadRect]
  refine Eq.trans ?_ (rowsOf_nf c tbl i sim x2 x3 (accOf c a12 a13 a14 a15 a16 a17) 9 (by decide)).symm
  unfold kernelRunB.sl.r_88 kernelRunB.sl.r_84 kernelRunB.sl.r_85
  simp only [S_v784 c i tbl hT sim b10, V15_9 c i M2 hM2 M3 hM3 tbl hT sim x2 x3 b9 b10 a12 a13 a14 a15 a16 a17, in_read M2 hM2 x2 9 (by decide), mk_read M3 hM3 x3 9 (by decide)]
  try rfl
theorem V16_10 : kernelRunB.sl.v935 c i tbl hT sim b9 b10 a16 = (rowsOf c tbl i sim x2 x3 (accOf c a12 a13 a14 a15 a16 a17) 10).s := by
  unfold kernelRunB.sl.v935 kernelRunB.sl.H16_10
  rw [View.readCov_cons_toLoadRect]
  refine Eq.trans ?_ (rowsOf_s c tbl i sim x2 x3 (accOf c a12 a13 a14 a15 a16 a17) 9 (by decide)).symm
  unfold kernelRunB.sl.r_90
  simp only [S_v784 c i tbl hT sim b10, V16_9 c i M2 hM2 M3 hM3 tbl hT sim x2 x3 b9 b10 a12 a13 a14 a15 a16 a17]
  try rfl
theorem V17_10 : kernelRunB.sl.v940 c i tbl hT sim b9 b10 a17 = (rowsOf c tbl i sim x2 x3 (accOf c a12 a13 a14 a15 a16 a17) 10).q := by
  unfold kernelRunB.sl.v940 kernelRunB.sl.H17_10
  rw [View.readCov_cons_toLoadRect]
  refine Eq.trans ?_ (rowsOf_q c tbl i sim x2 x3 (accOf c a12 a13 a14 a15 a16 a17) 9 (by decide)).symm
  unfold kernelRunB.sl.r_91
  simp only [S_v784 c i tbl hT sim b10, V17_9 c i M2 hM2 M3 hM3 tbl hT sim x2 x3 b9 b10 a12 a13 a14 a15 a16 a17]
  try rfl
theorem V15_11 : kernelRunB.sl.v1015 c i M2 hM2 M3 hM3 tbl hT sim x2 x3 b9 b10 a15 = (rowsOf c tbl i sim x2 x3 (accOf c a12 a13 a14 a15 a16 a17) 11).nf := by
  unfold kernelRunB.sl.v1015 kernelRunB.sl.H15_11
  rw [View.readCov_cons_toLoadRect]
  refine Eq.trans ?_ (rowsOf_nf c tbl i sim x2 x3 (accOf c a12 a13 a14 a15 a16 a17) 10 (by decide)).symm
  unfold kernelRunB.sl.r_97
  simp only [S_v869 c i tbl hT sim b9, V15_10 c i M2 hM2 M3 hM3 tbl hT sim x2 x3 b9 b10 a12 a13 a14 a15 a16 a17, in_read M2 hM2 x2 10 (by decide), mk_read M3 hM3 x3 10 (by decide)]
  try rfl
theorem V16_11 : kernelRunB.sl.v1020 c i tbl hT sim b9 b10 a16 = (rowsOf c tbl i sim x2 x3 (accOf c a12 a13 a14 a15 a16 a17) 11).s := by
  unfold kernelRunB.sl.v1020 kernelRunB.sl.H16_11
  rw [View.readCov_cons_toLoadRect]
  refine Eq.trans ?_ (rowsOf_s c tbl i sim x2 x3 (accOf c a12 a13 a14 a15 a16 a17) 10 (by decide)).symm
  unfold kernelRunB.sl.r_100 kernelRunB.sl.r_95
  simp only [S_v869 c i tbl hT sim b9, V16_10 c i M2 hM2 M3 hM3 tbl hT sim x2 x3 b9 b10 a12 a13 a14 a15 a16 a17]
  try rfl
theorem V17_11 : kernelRunB.sl.v1025 c i tbl hT sim b9 b10 a17 = (rowsOf c tbl i sim x2 x3 (accOf c a12 a13 a14 a15 a16 a17) 11).q := by
  unfold kernelRunB.sl.v1025 kernelRunB.sl.H17_11
  rw [View.readCov_cons_toLoadRect]
  refine Eq.trans ?_ (rowsOf_q c tbl i sim x2 x3 (accOf c a12 a13 a14 a15 a16 a17) 10 (by decide)).symm
  unfold kernelRunB.sl.r_99 kernelRunB.sl.r_95
  simp only [S_v869 c i tbl hT sim b9, V17_10 c i M2 hM2 M3 hM3 tbl hT sim x2 x3 b9 b10 a12 a13 a14 a15 a16 a17]
  try rfl
theorem V15_12 : kernelRunB.sl.v1100 c i M2 hM2 M3 hM3 tbl hT sim x2 x3 b9 b10 a15 = (rowsOf c tbl i sim x2 x3 (accOf c a12 a13 a14 a15 a16 a17) 12).nf := by
  unfold kernelRunB.sl.v1100 kernelRunB.sl.H15_12
  rw [View.readCov_cons_toLoadRect]
  refine Eq.trans ?_ (rowsOf_nf c tbl i sim x2 x3 (accOf c a12 a13 a14 a15 a16 a17) 11 (by decide)).symm
  unfold kernelRunB.sl.r_107 kernelRunB.sl.r_103 kernelRunB.sl.r_104 kernelRunB.sl.r_105 kernelRunB.sl.r_106
  simp only [V15_11 c i M2 hM2 M3 hM3 tbl hT sim x2 x3 b9 b10 a12 a13 a14 a15 a16 a17, S_v954 c i tbl hT sim b10, in_read M2 hM2 x2 11 (by decide), mk_read M3 hM3 x3 11 (by decide)]
  try rfl
theorem V16_12 : kernelRunB.sl.v1105 c i tbl hT sim b9 b10 a16 = (rowsOf c tbl i sim x2 x3 (accOf c a12 a13 a14 a15 a16 a17) 12).s := by
  unfold kernelRunB.sl.v1105 kernelRunB.sl.H16_12
  rw [View.readCov_cons_toLoadRect]
  refine Eq.trans ?_ (rowsOf_s c tbl i sim x2 x3 (accOf c a12 a13 a14 a15 a16 a17) 11 (by decide)).symm
  unfold kernelRunB.sl.r_108 kernelRunB.sl.r_105 kernelRunB.sl.r_106
  simp only [V16_11 c i M2 hM2 M3 hM3 tbl hT sim x2 x3 b9 b10 a12 a13 a14 a15 a16 a17, S_v954 c i tbl hT sim b10]
  try rfl
theorem V17_12 : kernelRunB.sl.v1110 c i tbl hT sim b9 b10 a17 = (rowsOf c tbl i sim x2 x3 (accOf c a12 a13 a14 a15 a16 a17) 12).q := by
  unfold kernelRunB.sl.v1110 kernelRunB.sl.H17_12
  rw [View.readCov_cons_toLoadRect]
  refine Eq.trans ?_ (rowsOf_q c tbl i sim x2 x3 (accOf c a12 a13 a14 a15 a16 a17) 11 (by decide)).symm
  unfold kernelRunB.sl.r_109 kernelRunB.sl.r_105 kernelRunB.sl.r_106
  simp only [V17_11 c i M2 hM2 M3 hM3 tbl hT sim x2 x3 b9 b10 a12 a13 a14 a15 a16 a17, S_v954 c i tbl hT sim b10]
  try rfl
theorem V15_13 : kernelRunB.sl.v1185 c i M2 hM2 M3 hM3 tbl hT sim x2 x3 b9 b10 a15 = (rowsOf c tbl i sim x2 x3 (accOf c a12 a13 a14 a15 a16 a17) 13).nf := by
  unfold kernelRunB.sl.v1185 kernelRunB.sl.H15_13
  rw [View.readCov_cons_toLoadRect]
  refine Eq.trans ?_ (rowsOf_nf c tbl i sim x2 x3 (accOf c a12 a13 a14 a15 a16 a17) 12 (by decide)).symm
  unfold kernelRunB.sl.r_117 kernelRunB.sl.r_112 kernelRunB.sl.r_113
  simp only [S_v1039 c i tbl hT sim b9, V15_12 c i M2 hM2 M3 hM3 tbl hT sim x2 x3 b9 b10 a12 a13 a14 a15 a16 a17, in_read M2 hM2 x2 12 (by decide), mk_read M3 hM3 x3 12 (by decide)]
  try rfl
theorem V16_13 : kernelRunB.sl.v1190 c i tbl hT sim b9 b10 a16 = (rowsOf c tbl i sim x2 x3 (accOf c a12 a13 a14 a15 a16 a17) 13).s := by
  unfold kernelRunB.sl.v1190 kernelRunB.sl.H16_13
  rw [View.readCov_cons_toLoadRect]
  refine Eq.trans ?_ (rowsOf_s c tbl i sim x2 x3 (accOf c a12 a13 a14 a15 a16 a17) 12 (by decide)).symm
  unfold kernelRunB.sl.r_119
  simp only [S_v1039 c i tbl hT sim b9, V16_12 c i M2 hM2 M3 hM3 tbl hT sim x2 x3 b9 b10 a12 a13 a14 a15 a16 a17]
  try rfl
theorem V17_13 : kernelRunB.sl.v1195 c i tbl hT sim b9 b10 a17 = (rowsOf c tbl i sim x2 x3 (accOf c a12 a13 a14 a15 a16 a17) 13).q := by
  unfold kernelRunB.sl.v1195 kernelRunB.sl.H17_13
  rw [View.readCov_cons_toLoadRect]
  refine Eq.trans ?_ (rowsOf_q c tbl i sim x2 x3 (accOf c a12 a13 a14 a15 a16 a17) 12 (by decide)).symm
  unfold kernelRunB.sl.r_120
  simp only [S_v1039 c i tbl hT sim b9, V17_12 c i M2 hM2 M3 hM3 tbl hT sim x2 x3 b9 b10 a12 a13 a14 a15 a16 a17]
  try rfl
theorem V15_14 : kernelRunB.sl.v1270 c i M2 hM2 M3 hM3 tbl hT sim x2 x3 b9 b10 a15 = (rowsOf c tbl i sim x2 x3 (accOf c a12 a13 a14 a15 a16 a17) 14).nf := by
  unfold kernelRunB.sl.v1270 kernelRunB.sl.H15_14
  rw [View.readCov_cons_toLoadRect]
  refine Eq.trans ?_ (rowsOf_nf c tbl i sim x2 x3 (accOf c a12 a13 a14 a15 a16 a17) 13 (by decide)).symm
  unfold kernelRunB.sl.r_128
  simp only [S_v1124 c i tbl hT sim b10, V15_13 c i M2 hM2 M3 hM3 tbl hT sim x2 x3 b9 b10 a12 a13 a14 a15 a16 a17, in_read M2 hM2 x2 13 (by decide), mk_read M3 hM3 x3 13 (by decide)]
  try rfl
theorem V16_14 : kernelRunB.sl.v1275 c i tbl hT sim b9 b10 a16 = (rowsOf c tbl i sim x2 x3 (accOf c a12 a13 a14 a15 a16 a17) 14).s := by
  unfold kernelRunB.sl.v1275 kernelRunB.sl.H16_14
  rw [View.readCov_cons_toLoadRect]
  refine Eq.trans ?_ (rowsOf_s c tbl i sim x2 x3 (accOf c a12 a13 a14 a15 a16 a17) 13 (by decide)).symm
  unfold kernelRunB.sl.r_131 kernelRunB.sl.r_126
  simp only [S_v1124 c i tbl hT sim b10, V16_13 c i M2 hM2 M3 hM3 tbl hT sim x2 x3 b9 b10 a12 a13 a14 a15 a16 a17]
  try rfl
theorem V17_14 : kernelRunB.sl.v1280 c i tbl hT sim b9 b10 a17 = (rowsOf c tbl i sim x2 x3 (accOf c a12 a13 a14 a15 a16 a17) 14).q := by
  unfold kernelRunB.sl.v1280 kernelRunB.sl.H17_14
  rw [View.readCov_cons_toLoadRect]
  refine Eq.trans ?_ (rowsOf_q c tbl i sim x2 x3 (accOf c a12 a13 a14 a15 a16 a17) 13 (by decide)).symm
  unfold kernelRunB.sl.r_130 kernelRunB.sl.r_126
  simp only [S_v1124 c i tbl hT sim b10, V17_13 c i M2 hM2 M3 hM3 tbl hT sim x2 x3 b9 b10 a12 a13 a14 a15 a16 a17]
  try rfl
theorem V15_15 : kernelRunB.sl.v1355 c i M2 hM2 M3 hM3 tbl hT sim x2 x3 b9 b10 a15 = (rowsOf c tbl i sim x2 x3 (accOf c a12 a13 a14 a15 a16 a17) 15).nf := by
  unfold kernelRunB.sl.v1355 kernelRunB.sl.H15_15
  rw [View.readCov_cons_toLoadRect]
  refine Eq.trans ?_ (rowsOf_nf c tbl i sim x2 x3 (accOf c a12 a13 a14 a15 a16 a17) 14 (by decide)).symm
  unfold kernelRunB.sl.r_138 kernelRunB.sl.r_134 kernelRunB.sl.r_135 kernelRunB.sl.r_136 kernelRunB.sl.r_137
  simp only [S_v1209 c i tbl hT sim b9, V15_14 c i M2 hM2 M3 hM3 tbl hT sim x2 x3 b9 b10 a12 a13 a14 a15 a16 a17, in_read M2 hM2 x2 14 (by decide), mk_read M3 hM3 x3 14 (by decide)]
  try rfl
theorem V16_15 : kernelRunB.sl.v1360 c i tbl hT sim b9 b10 a16 = (rowsOf c tbl i sim x2 x3 (accOf c a12 a13 a14 a15 a16 a17) 15).s := by
  unfold kernelRunB.sl.v1360 kernelRunB.sl.H16_15
  rw [View.readCov_cons_toLoadRect]
  refine Eq.trans ?_ (rowsOf_s c tbl i sim x2 x3 (accOf c a12 a13 a14 a15 a16 a17) 14 (by decide)).symm
  unfold kernelRunB.sl.r_139 kernelRunB.sl.r_136 kernelRunB.sl.r_137
  simp only [S_v1209 c i tbl hT sim b9, V16_14 c i M2 hM2 M3 hM3 tbl hT sim x2 x3 b9 b10 a12 a13 a14 a15 a16 a17]
  try rfl
theorem V17_15 : kernelRunB.sl.v1365 c i tbl hT sim b9 b10 a17 = (rowsOf c tbl i sim x2 x3 (accOf c a12 a13 a14 a15 a16 a17) 15).q := by
  unfold kernelRunB.sl.v1365 kernelRunB.sl.H17_15
  rw [View.readCov_cons_toLoadRect]
  refine Eq.trans ?_ (rowsOf_q c tbl i sim x2 x3 (accOf c a12 a13 a14 a15 a16 a17) 14 (by decide)).symm
  unfold kernelRunB.sl.r_140 kernelRunB.sl.r_136 kernelRunB.sl.r_137
  simp only [S_v1209 c i tbl hT sim b9, V17_14 c i M2 hM2 M3 hM3 tbl hT sim x2 x3 b9 b10 a12 a13 a14 a15 a16 a17]
  try rfl
theorem V15_16 : kernelRunB.sl.v1440 c i M2 hM2 M3 hM3 tbl hT sim x2 x3 b9 b10 a15 = (rowsOf c tbl i sim x2 x3 (accOf c a12 a13 a14 a15 a16 a17) 16).nf := by
  unfold kernelRunB.sl.v1440 kernelRunB.sl.H15_16
  rw [View.readCov_cons_toLoadRect]
  refine Eq.trans ?_ (rowsOf_nf c tbl i sim x2 x3 (accOf c a12 a13 a14 a15 a16 a17) 15 (by decide)).symm
  unfold kernelRunB.sl.r_147 kernelRunB.sl.r_143
  simp only [S_v1294 c i tbl hT sim b10, V15_15 c i M2 hM2 M3 hM3 tbl hT sim x2 x3 b9 b10 a12 a13 a14 a15 a16 a17, in_read M2 hM2 x2 15 (by decide), mk_read M3 hM3 x3 15 (by decide)]
  try rfl
theorem V16_16 : kernelRunB.sl.v1445 c i tbl hT sim b9 b10 a16 = (rowsOf c tbl i sim x2 x3 (accOf c a12 a13 a14 a15 a16 a17) 16).s := by
  unfold kernelRunB.sl.v1445 kernelRunB.sl.H16_16
  rw [View.readCov_cons_toLoadRect]
  refine Eq.trans ?_ (rowsOf_s c tbl i sim x2 x3 (accOf c a12 a13 a14 a15 a16 a17) 15 (by decide)).symm
  unfold kernelRunB.sl.r_149
  simp only [S_v1294 c i tbl hT sim b10, V16_15 c i M2 hM2 M3 hM3 tbl hT sim x2 x3 b9 b10 a12 a13 a14 a15 a16 a17]
  try rfl
theorem V17_16 : kernelRunB.sl.v1450 c i tbl hT sim b9 b10 a17 = (rowsOf c tbl i sim x2 x3 (accOf c a12 a13 a14 a15 a16 a17) 16).q := by
  unfold kernelRunB.sl.v1450 kernelRunB.sl.H17_16
  rw [View.readCov_cons_toLoadRect]
  refine Eq.trans ?_ (rowsOf_q c tbl i sim x2 x3 (accOf c a12 a13 a14 a15 a16 a17) 15 (by decide)).symm
  unfold kernelRunB.sl.r_150
  simp only [S_v1294 c i tbl hT sim b10, V17_15 c i M2 hM2 M3 hM3 tbl hT sim x2 x3 b9 b10 a12 a13 a14 a15 a16 a17]
  try rfl
theorem V15_17 : kernelRunB.sl.v1525 c i M2 hM2 M3 hM3 tbl hT sim x2 x3 b9 b10 a15 = (rowsOf c tbl i sim x2 x3 (accOf c a12 a13 a14 a15 a16 a17) 17).nf := by
  unfold kernelRunB.sl.v1525 kernelRunB.sl.H15_17
  rw [View.readCov_cons_toLoadRect]
  refine Eq.trans ?_ (rowsOf_nf c tbl i sim x2 x3 (accOf c a12 a13 a14 a15 a16 a17) 16 (by decide)).symm
  unfold kernelRunB.sl.r_158
  simp only [S_v1379 c i tbl hT sim b9, V15_16 c i M2 hM2 M3 hM3 tbl hT sim x2 x3 b9 b10 a12 a13 a14 a15 a16 a17, in_read M2 hM2 x2 16 (by decide), mk_read M3 hM3 x3 16 (by decide)]
  try rfl
theorem V16_17 : kernelRunB.sl.v1530 c i tbl hT sim b9 b10 a16 = (rowsOf c tbl i sim x2 x3 (accOf c a12 a13 a14 a15 a16 a17) 17).s := by
  unfold kernelRunB.sl.v1530 kernelRunB.sl.H16_17
  rw [View.readCov_cons_toLoadRect]
  refine Eq.trans ?_ (rowsOf_s c tbl i sim x2 x3 (accOf c a12 a13 a14 a15 a16 a17) 16 (by decide)).symm
  unfold kernelRunB.sl.r_159 kernelRunB.sl.r_156
  simp only [S_v1379 c i tbl hT sim b9, V16_16 c i M2 hM2 M3 hM3 tbl hT sim x2 x3 b9 b10 a12 a13 a14 a15 a16 a17]
  try rfl
theorem V17_17 : kernelRunB.sl.v1535 c i tbl hT sim b9 b10 a17 = (rowsOf c tbl i sim x2 x3 (accOf c a12 a13 a14 a15 a16 a17) 17).q := by
  unfold kernelRunB.sl.v1535 kernelRunB.sl.H17_17
  rw [View.readCov_cons_toLoadRect]
  refine Eq.trans ?_ (rowsOf_q c tbl i sim x2 x3 (accOf c a12 a13 a14 a15 a16 a17) 16 (by decide)).symm
  unfold kernelRunB.sl.r_160 kernelRunB.sl.r_156
  simp only [S_v1379 c i tbl hT sim b9, V17_16 c i M2 hM2 M3 hM3 tbl hT sim x2 x3 b9 b10 a12 a13 a14 a15 a16 a17]
  try rfl
theorem V15_18 : kernelRunB.sl.v1610 c i M2 hM2 M3 hM3 tbl hT sim x2 x3 b9 b10 a15 = (rowsOf c tbl i sim x2 x3 (accOf c a12 a13 a14 a15 a16 a17) 18).nf := by
  unfold kernelRunB.sl.v1610 kernelRunB.sl.H15_18
  rw [View.readCov_cons_toLoadRect]
  refine Eq.trans ?_ (rowsOf_nf c tbl i sim x2 x3 (accOf c a12 a13 a14 a15 a16 a17) 17 (by decide)).symm
  unfold kernelRunB.sl.r_168 kernelRunB.sl.r_163 kernelRunB.sl.r_164 kernelRunB.sl.r_165 kernelRunB.sl.r_166 kernelRunB.sl.cst_781
  simp only [S_v1464 c i tbl hT sim b10, V15_17 c i M2 hM2 M3 hM3 tbl hT sim x2 x3 b9 b10 a12 a13 a14 a15 a16 a17, in_read M2 hM2 x2 17 (by decide), mk_read M3 hM3 x3 17 (by decide)]
  try rfl
theorem V16_18 : kernelRunB.sl.v1615 c i tbl hT sim b9 b10 a16 = (rowsOf c tbl i sim x2 x3 (accOf c a12 a13 a14 a15 a16 a17) 18).s := by
  unfold kernelRunB.sl.v1615 kernelRunB.sl.H16_18
  rw [View.readCov_cons_toLoadRect]
  refine Eq.trans ?_ (rowsOf_s c tbl i sim x2 x3 (accOf c a12 a13 a14 a15 a16 a17) 17 (by decide)).symm
  unfold kernelRunB.sl.r_169 kernelRunB.sl.r_165 kernelRunB.sl.r_166 kernelRunB.sl.cst_781
  simp only [S_v1464 c i tbl hT sim b10, V16_17 c i M2 hM2 M3 hM3 tbl hT sim x2 x3 b9 b10 a12 a13 a14 a15 a16 a17]
  try rfl
theorem V17_18 : kernelRunB.sl.v1620 c i tbl hT sim b9 b10 a17 = (rowsOf c tbl i sim x2 x3 (accOf c a12 a13 a14 a15 a16 a17) 18).q := by
  unfold kernelRunB.sl.v1620 kernelRunB.sl.H17_18
  rw [View.readCov_cons_toLoadRect]
  refine Eq.trans ?_ (rowsOf_q c tbl i sim x2 x3 (accOf c a12 a13 a14 a15 a16 a17) 17 (by decide)).symm
  unfold kernelRunB.sl.r_170 kernelRunB.sl.r_165 kernelRunB.sl.r_166 kernelRunB.sl.cst_781
  simp only [S_v1464 c i tbl hT sim b10, V17_17 c i M2 hM2 M3 hM3 tbl hT sim x2 x3 b9 b10 a12 a13 a14 a15 a16 a17]
  try rfl
theorem V15_19 : kernelRunB.sl.v1695 c i M2 hM2 M3 hM3 tbl hT sim x2 x3 b9 b10 a15 = (rowsOf c tbl i sim x2 x3 (accOf c a12 a13 a14 a15 a16 a17) 19).nf := by
  unfold kernelRunB.sl.v1695 kernelRunB.sl.H15_19
  rw [View.readCov_cons_toLoadRect]
  refine Eq.trans ?_ (rowsOf_nf c tbl i sim x2 x3 (accOf c a12 a13 a14 a15 a16 a17) 18 (by decide)).symm
  unfold kernelRunB.sl.r_175
  simp only [S_v c i tbl hT sim b9, V15_18 c i M2 hM2 M3 hM3 tbl hT sim x2 x3 b9 b10 a12 a13 a14 a15 a16 a17, in_read M2 hM2 x2 18 (by decide), mk_read M3 hM3 x3 18 (by decide)]
  try rfl
theorem V16_19 : kernelRunB.sl.v1700 c i tbl hT sim b9 b10 a16 = (rowsOf c tbl i sim x2 x3 (accOf c a12 a13 a14 a15 a16 a17) 19).s := by
  unfold kernelRunB.sl.v1700 kernelRunB.sl.H16_19
  rw [View.readCov_cons_toLoadRect]
  refine Eq.trans ?_ (rowsOf_s c tbl i sim x2 x3 (accOf c a12 a13 a14 a15 a16 a17) 18 (by decide)).symm
  unfold kernelRunB.sl.r_177
  simp only [S_v c i tbl hT sim b9, V16_18 c i M2 hM2 M3 hM3 tbl hT sim x2 x3 b9 b10 a12 a13 a14 a15 a16 a17]
  try rfl
theorem V17_19 : kernelRunB.sl.v1705 c i tbl hT sim b9 b10 a17 = (rowsOf c tbl i sim x2 x3 (accOf c a12 a13 a14 a15 a16 a17) 19).q := by
  unfold kernelRunB.sl.v1705 kernelRunB.sl.H17_19
  rw [View.readCov_cons_toLoadRect]
  refine Eq.trans ?_ (rowsOf_q c tbl i sim x2 x3 (accOf c a12 a13 a14 a15 a16 a17) 18 (by decide)).symm
  unfold kernelRunB.sl.r_178
  simp only [S_v c i tbl hT sim b9, V17_18 c i M2 hM2 M3 hM3 tbl hT sim x2 x3 b9 b10 a12 a13 a14 a15 a16 a17]
  try rfl
theorem V15_20 : kernelRunB.sl.v1780 c i M2 hM2 M3 hM3 tbl hT sim x2 x3 b9 b10 a15 = (rowsOf c tbl i sim x2 x3 (accOf c a12 a13 a14 a15 a16 a17) 20).nf := by
  unfold kernelRunB.sl.v1780 kernelRunB.sl.H15_20
  rw [View.readCov_cons_toLoadRect]
  refine Eq.trans ?_ (rowsOf_nf c tbl i sim x2 x3 (accOf c a12 a13 a14 a15 a16 a17) 19 (by decide)).symm
  unfold kernelRunB.sl.r_185
  simp only [S_v1634 c i tbl hT sim b10, V15_19 c i M2 hM2 M3 hM3 tbl hT sim x2 x3 b9 b10 a12 a13 a14 a15 a16 a17, in_read M2 hM2 x2 19 (by decide), mk_read M3 hM3 x3 19 (by decide)]
  try rfl
theorem V16_20 : kernelRunB.sl.v1785 c i tbl hT sim b9 b10 a16 = (rowsOf c tbl i sim x2 x3 (accOf c a12 a13 a14 a15 a16 a17) 20).s := by
  unfold kernelRunB.sl.v1785 kernelRunB.sl.H16_20
  rw [View.readCov_cons_toLoadRect]
  refine Eq.trans ?_ (rowsOf_s c tbl i sim x2 x3 (accOf c a12 a13 a14 a15 a16 a17) 19 (by decide)).symm
  unfold kernelRunB.sl.r_186 kernelRunB.sl.r_183
  simp only [S_v1634 c i tbl hT sim b10, V16_19 c i M2 hM2 M3 hM3 tbl hT sim x2 x3 b9 b10 a12 a13 a14 a15 a16 a17]
  try rfl
theorem V17_20 : kernelRunB.sl.v1790 c i tbl hT sim b9 b10 a17 = (rowsOf c tbl i sim x2 x3 (accOf c a12 a13 a14 a15 a16 a17) 20).q := by
  unfold kernelRunB.sl.v1790 kernelRunB.sl.H17_20
  rw [View.readCov_cons_toLoadRect]
  refine Eq.trans ?_ (rowsOf_q c tbl i sim x2 x3 (accOf c a12 a13 a14 a15 a16 a17) 19 (by decide)).symm
  unfold kernelRunB.sl.r_187 kernelRunB.sl.r_183
  simp only [S_v1634 c i tbl hT sim b10, V17_19 c i M2 hM2 M3 hM3 tbl hT sim x2 x3 b9 b10 a12 a13 a14 a15 a16 a17]
  try rfl
theorem V15_21 : kernelRunB.sl.v1865 c i M2 hM2 M3 hM3 tbl hT sim x2 x3 b9 b10 a15 = (rowsOf c tbl i sim x2 x3 (accOf c a12 a13 a14 a15 a16 a17) 21).nf := by
  unfold kernelRunB.sl.v1865 kernelRunB.sl.H15_21
  rw [View.readCov_cons_toLoadRect]
  refine Eq.trans ?_ (rowsOf_nf c tbl i sim x2 x3 (accOf c a12 a13 a14 a15 a16 a17) 20 (by decide)).symm
  unfold kernelRunB.sl.r_194 kernelRunB.sl.r_190 kernelRunB.sl.r_191 kernelRunB.sl.r_192 kernelRunB.sl.cst_15
  simp only [S_v1719 c i tbl hT sim b9, V15_20 c i M2 hM2 M3 hM3 tbl hT sim x2 x3 b9 b10 a12 a13 a14 a15 a16 a17, in_read M2 hM2 x2 20 (by decide), mk_read M3 hM3 x3 20 (by decide)]
  try rfl
theorem V16_21 : kernelRunB.sl.v1870 c i tbl hT sim b9 b10 a16 = (rowsOf c tbl i sim x2 x3 (accOf c a12 a13 a14 a15 a16 a17) 21).s := by
  unfold kernelRunB.sl.v1870 kernelRunB.sl.H16_21
  rw [View.readCov_cons_toLoadRect]
  refine Eq.trans ?_ (rowsOf_s c tbl i sim x2 x3 (accOf c a12 a13 a14 a15 a16 a17) 20 (by decide)).symm
  unfold kernelRunB.sl.r_195 kernelRunB.sl.r_192 kernelRunB.sl.cst_15
  simp only [S_v1719 c i tbl hT sim b9, V16_20 c i M2 hM2 M3 hM3 tbl hT sim x2 x3 b9 b10 a12 a13 a14 a15 a16 a17]
  try rfl
theorem V17_21 : kernelRunB.sl.v1875 c i tbl hT sim b9 b10 a17 = (rowsOf c tbl i sim x2 x3 (accOf c a12 a13 a14 a15 a16 a17) 21).q := by
  unfold kernelRunB.sl.v1875 kernelRunB.sl.H17_21
  rw [View.readCov_cons_toLoadRect]
  refine Eq.trans ?_ (rowsOf_q c tbl i sim x2 x3 (accOf c a12 a13 a14 a15 a16 a17) 20 (by decide)).symm
  unfold kernelRunB.sl.r_196 kernelRunB.sl.r_192 kernelRunB.sl.cst_15
  simp only [S_v1719 c i tbl hT sim b9, V17_20 c i M2 hM2 M3 hM3 tbl hT sim x2 x3 b9 b10 a12 a13 a14 a15 a16 a17]
  try rfl
theorem V15_22 : kernelRunB.sl.v1950 c i M2 hM2 M3 hM3 tbl hT sim x2 x3 b9 b10 a15 = (rowsOf c tbl i sim x2 x3 (accOf c a12 a13 a14 a15 a16 a17) 22).nf := by
  unfold kernelRunB.sl.v1950 kernelRunB.sl.H15_22
  rw [View.readCov_cons_toLoadRect]
  refine Eq.trans ?_ (rowsOf_nf c tbl i sim x2 x3 (accOf c a12 a13 a14 a15 a16 a17) 21 (by decide)).symm
  unfold kernelRunB.sl.r_202
  simp only [S_v1804 c i tbl hT sim b10, V15_21 c i M2 hM2 M3 hM3 tbl hT sim x2 x3 b9 b10 a12 a13 a14 a15 a16 a17, in_read M2 hM2 x2 21 (by decide), mk_read M3 hM3 x3 21 (by decide)]
  try rfl
theorem V16_22 : kernelRunB.sl.v1955 c i tbl hT sim b9 b10 a16 = (rowsOf c tbl i sim x2 x3 (accOf c a12 a13 a14 a15 a16 a17) 22).s := by
  unfold kernelRunB.sl.v1955 kernelRunB.sl.H16_22
  rw [View.readCov_cons_toLoadRect]
  refine Eq.trans ?_ (rowsOf_s c tbl i sim x2 x3 (accOf c a12 a13 a14 a15 a16 a17) 21 (by decide)).symm
  unfold kernelRunB.sl.r_204
  simp only [S_v1804 c i tbl hT sim b10, V16_21 c i M2 hM2 M3 hM3 tbl hT sim x2 x3 b9 b10 a12 a13 a14 a15 a16 a17]
  try rfl
theorem V17_22 : kernelRunB.sl.v1960 c i tbl hT sim b9 b10 a17 = (rowsOf c tbl i sim x2 x3 (accOf c a12 a13 a14 a15 a16 a17) 22).q := by
  unfold kernelRunB.sl.v1960 kernelRunB.sl.H17_22
  rw [View.readCov_cons_toLoadRect]
  refine Eq.trans ?_ (rowsOf_q c tbl i sim x2 x3 (accOf c a12 a13 a14 a15 a16 a17) 21 (by decide)).symm
  unfold kernelRunB.sl.r_206 kernelRunB.sl.r_205
  simp only [S_v1804 c i tbl hT sim b10, V17_21 c i M2 hM2 M3 hM3 tbl hT sim x2 x3 b9 b10 a12 a13 a14 a15 a16 a17]
  try rfl
theorem V15_23 : kernelRunB.sl.v2035 c i M2 hM2 M3 hM3 tbl hT sim x2 x3 b9 b10 a15 = (rowsOf c tbl i sim x2 x3 (accOf c a12 a13 a14 a15 a16 a17) 23).nf := by
  unfold kernelRunB.sl.v2035 kernelRunB.sl.H15_23
  rw [View.readCov_cons_toLoadRect]
  refine Eq.trans ?_ (rowsOf_nf c tbl i sim x2 x3 (accOf c a12 a13 a14 a15 a16 a17) 22 (by decide)).symm
  unfold kernelRunB.sl.r_216 kernelRunB.sl.r_209 kernelRunB.sl.r_212 kernelRunB.sl.cst_109
  simp only [S_v1889 c i tbl hT sim b9, V15_22 c i M2 hM2 M3 hM3 tbl hT sim x2 x3 b9 b10 a12 a13 a14 a15 a16 a17, in_read M2 hM2 x2 22 (by decide), mk_read M3 hM3 x3 22 (by decide)]
  try rfl
theorem V16_23 : kernelRunB.sl.v2040 c i tbl hT sim b9 b10 a16 = (rowsOf c tbl i sim x2 x3 (accOf c a12 a13 a14 a15 a16 a17) 23).s := by
  unfold kernelRunB.sl.v2040 kernelRunB.sl.H16_23
  rw [View.readCov_cons_toLoadRect]
  refine Eq.trans ?_ (rowsOf_s c tbl i sim x2 x3 (accOf c a12 a13 a14 a15 a16 a17) 22 (by decide)).symm
  unfold kernelRunB.sl.r_214 kernelRunB.sl.r_211
  simp only [S_v1889 c i tbl hT sim b9, V16_22 c i M2 hM2 M3 hM3 tbl hT sim x2 x3 b9 b10 a12 a13 a14 a15 a16 a17]
  try rfl
theorem V17_23 : kernelRunB.sl.v2045 c i tbl hT sim b9 b10 a17 = (rowsOf c tbl i sim x2 x3 (accOf c a12 a13 a14 a15 a16 a17) 23).q := by
  unfold kernelRunB.sl.v2045 kernelRunB.sl.H17_23
  rw [View.readCov_cons_toLoadRect]
  refine Eq.trans ?_ (rowsOf_q c tbl i sim x2 x3 (accOf c a12 a13 a14 a15 a16 a17) 22 (by decide)).symm
  unfold kernelRunB.sl.r_215 kernelRunB.sl.r_211
  simp only [S_v1889 c i tbl hT sim b9, V17_22 c i M2 hM2 M3 hM3 tbl hT sim x2 x3 b9 b10 a12 a13 a14 a15 a16 a17]
  try rfl
theorem V15_24 : kernelRunB.sl.v2120 c i M2 hM2 M3 hM3 tbl hT sim x2 x3 b9 b10 a15 = (rowsOf c tbl i sim x2 x3 (accOf c a12 a13 a14 a15 a16 a17) 24).nf := by
  unfold kernelRunB.sl.v2120 kernelRunB.sl.H15_24
  rw [View.readCov_cons_toLoadRect]
  refine Eq.trans ?_ (rowsOf_nf c tbl i sim x2 x3 (accOf c a12 a13 a14 a15 a16 a17) 23 (by decide)).symm
  unfold kernelRunB.sl.r_223 kernelRunB.sl.r_219 kernelRunB.sl.r_220 kernelRunB.sl.r_221
  simp only [S_v1974 c i tbl hT sim b10, V15_23 c i M2 hM2 M3 hM3 tbl hT sim x2 x3 b9 b10 a12 a13 a14 a15 a16 a17, in_read M2 hM2 x2 23 (by decide), mk_read M3 hM3 x3 23 (by decide)]
  try rfl
theorem V16_24 : kernelRunB.sl.v2125 c i tbl hT sim b9 b10 a16 = (rowsOf c tbl i sim x2 x3 (accOf c a12 a13 a14 a15 a16 a17) 24).s := by
  unfold kernelRunB.sl.v2125 kernelRunB.sl.H16_24
  rw [View.readCov_cons_toLoadRect]
  refine Eq.trans ?_ (rowsOf_s c tbl i sim x2 x3 (accOf c a12 a13 a14 a15 a16 a17) 23 (by decide)).symm
  unfold kernelRunB.sl.r_224 kernelRunB.sl.r_221
  simp only [S_v1974 c i tbl hT sim b10, V16_23 c i M2 hM2 M3 hM3 tbl hT sim x2 x3 b9 b10 a12 a13 a14 a15 a16 a17]
  try rfl
theorem V17_24 : kernelRunB.sl.v2130 c i tbl hT sim b9 b10 a17 = (rowsOf c tbl i sim x2 x3 (accOf c a12 a13 a14 a15 a16 a17) 24).q := by
  unfold kernelRunB.sl.v2130 kernelRunB.sl.H17_24
  rw [View.readCov_cons_toLoadRect]
  refine Eq.trans ?_ (rowsOf_q c tbl i sim x2 x3 (accOf c a12 a13 a14 a15 a16 a17) 23 (by decide)).symm
  unfold kernelRunB.sl.r_225 kernelRunB.sl.r_221
  simp only [S_v1974 c i tbl hT sim b10, V17_23 c i M2 hM2 M3 hM3 tbl hT sim x2 x3 b9 b10 a12 a13 a14 a15 a16 a17]
  try rfl
theorem V15_25 : kernelRunB.sl.v2205 c i M2 hM2 M3 hM3 tbl hT sim x2 x3 b9 b10 a15 = (rowsOf c tbl i sim x2 x3 (accOf c a12 a13 a14 a15 a16 a17) 25).nf := by
  unfold kernelRunB.sl.v2205 kernelRunB.sl.H15_25
  rw [View.readCov_cons_toLoadRect]
  refine Eq.trans ?_ (rowsOf_nf c tbl i sim x2 x3 (accOf c a12 a13 a14 a15 a16 a17) 24 (by decide)).symm
  unfold kernelRunB.sl.r_232
  simp only [S_v2059 c i tbl hT sim b9, V15_24 c i M2 hM2 M3 hM3 tbl hT sim x2 x3 b9 b10 a12 a13 a14 a15 a16 a17, in_read M2 hM2 x2 24 (by decide), mk_read M3 hM3 x3 24 (by decide)]
  try rfl
theorem V16_25 : kernelRunB.sl.v2210 c i tbl hT sim b9 b10 a16 = (rowsOf c tbl i sim x2 x3 (accOf c a12 a13 a14 a15 a16 a17) 25).s := by
  unfold kernelRunB.sl.v2210 kernelRunB.sl.H16_25
  rw [View.readCov_cons_toLoadRect]
  refine Eq.trans ?_ (rowsOf_s c tbl i sim x2 x3 (accOf c a12 a13 a14 a15 a16 a17) 24 (by decide)).symm
  unfold kernelRunB.sl.r_234
  simp only [S_v2059 c i tbl hT sim b9, V16_24 c i M2 hM2 M3 hM3 tbl hT sim x2 x3 b9 b10 a12 a13 a14 a15 a16 a17]
  try rfl
theorem V17_25 : kernelRunB.sl.v2215 c i tbl hT sim b9 b10 a17 = (rowsOf c tbl i sim x2 x3 (accOf c a12 a13 a14 a15 a16 a17) 25).q := by
  unfold kernelRunB.sl.v2215 kernelRunB.sl.H17_25
  rw [View.readCov_cons_toLoadRect]
  refine Eq.trans ?_ (rowsOf_q c tbl i sim x2 x3 (accOf c a12 a13 a14 a15 a16 a17) 24 (by decide)).symm
  unfold kernelRunB.sl.r_235 kernelRunB.sl.r_230
  simp only [S_v2059 c i tbl hT sim b9, V17_24 c i M2 hM2 M3 hM3 tbl hT sim x2 x3 b9 b10 a12 a13 a14 a15 a16 a17]
  try rfl
theorem V15_26 : kernelRunB.sl.v2290 c i M2 hM2 M3 hM3 tbl hT sim x2 x3 b9 b10 a15 = (rowsOf c tbl i sim x2 x3 (accOf c a12 a13 a14 a15 a16 a17) 26).nf := by
  unfold kernelRunB.sl.v2290 kernelRunB.sl.H15_26
  rw [View.readCov_cons_toLoadRect]
  refine Eq.trans ?_ (rowsOf_nf c tbl i sim x2 x3 (accOf c a12 a13 a14 a15 a16 a17) 25 (by decide)).symm
  unfold kernelRunB.sl.r_244 kernelRunB.sl.r_238 kernelRunB.sl.r_241
  simp only [S_v2144 c i tbl hT sim b10, V15_25 c i M2 hM2 M3 hM3 tbl hT sim x2 x3 b9 b10 a12 a13 a14 a15 a16 a17, in_read M2 hM2 x2 25 (by decide), mk_read M3 hM3 x3 25 (by decide)]
  try rfl
theorem V16_26 : kernelRunB.sl.v2295 c i tbl hT sim b9 b10 a16 = (rowsOf c tbl i sim x2 x3 (accOf c a12 a13 a14 a15 a16 a17) 26).s := by
  unfold kernelRunB.sl.v2295 kernelRunB.sl.H16_26
  rw [View.readCov_cons_toLoadRect]
  refine Eq.trans ?_ (rowsOf_s c tbl i sim x2 x3 (accOf c a12 a13 a14 a15 a16 a17) 25 (by decide)).symm
  unfold kernelRunB.sl.r_242 kernelRunB.sl.r_240
  simp only [S_v2144 c i tbl hT sim b10, V16_25 c i M2 hM2 M3 hM3 tbl hT sim x2 x3 b9 b10 a12 a13 a14 a15 a16 a17]
  try rfl
theorem V17_26 : kernelRunB.sl.v2300 c i tbl hT sim b9 b10 a17 = (rowsOf c tbl i sim x2 x3 (accOf c a12 a13 a14 a15 a16 a17) 26).q := by
  unfold kernelRunB.sl.v2300 kernelRunB.sl.H17_26
  rw [View.readCov_cons_toLoadRect]
  refine Eq.trans ?_ (rowsOf_q c tbl i sim x2 x3 (accOf c a12 a13 a14 a15 a16 a17) 25 (by decide)).symm
  unfold kernelRunB.sl.r_243 kernelRunB.sl.r_240
  simp only [S_v2144 c i tbl hT sim b10, V17_25 c i M2 hM2 M3 hM3 tbl hT sim x2 x3 b9 b10 a12 a13 a14 a15 a16 a17]
  try rfl
theorem V15_27 : kernelRunB.sl.v2375 c i M2 hM2 M3 hM3 tbl hT sim x2 x3 b9 b10 a15 = (rowsOf c tbl i sim x2 x3 (accOf c a12 a13 a14 a15 a16 a17) 27).nf := by
  unfold kernelRunB.sl.v2375 kernelRunB.sl.H15_27
  rw [View.readCov_cons_toLoadRect]
  refine Eq.trans ?_ (rowsOf_nf c tbl i sim x2 x3 (accOf c a12 a13 a14 a15 a16 a17) 26 (by decide)).symm
  unfold kernelRunB.sl.r_250 kernelRunB.sl.r_247 kernelRunB.sl.r_248 kernelRunB.sl.cst_284
  simp only [S_v2229 c i tbl hT sim b9, V15_26 c i M2 hM2 M3 hM3 tbl hT sim x2 x3 b9 b10 a12 a13 a14 a15 a16 a17, in_read M2 hM2 x2 26 (by decide), mk_read M3 hM3 x3 26 (by decide)]
  try rfl
theorem V16_27 : kernelRunB.sl.v2380 c i tbl hT sim b9 b10 a16 = (rowsOf c tbl i sim x2 x3 (accOf c a12 a13 a14 a15 a16 a17) 27).s := by
  unfold kernelRunB.sl.v2380 kernelRunB.sl.H16_27
  rw [View.readCov_cons_toLoadRect]
  refine Eq.trans ?_ (rowsOf_s c tbl i sim x2 x3 (accOf c a12 a13 a14 a15 a16 a17) 26 (by decide)).symm
  unfold kernelRunB.sl.r_251 kernelRunB.sl.cst_284
  simp only [S_v2229 c i tbl hT sim b9, V16_26 c i M2 hM2 M3 hM3 tbl hT sim x2 x3 b9 b10 a12 a13 a14 a15 a16 a17]
  try rfl
theorem V17_27 : kernelRunB.sl.v2385 c i tbl hT sim b9 b10 a17 = (rowsOf c tbl i sim x2 x3 (accOf c a12 a13 a14 a15 a16 a17) 27).q := by
  unfold kernelRunB.sl.v2385 kernelRunB.sl.H17_27
  rw [View.readCov_cons_toLoadRect]
  refine Eq.trans ?_ (rowsOf_q c tbl i sim x2 x3 (accOf c a12 a13 a14 a15 a16 a17) 26 (by decide)).symm
  unfold kernelRunB.sl.r_252 kernelRunB.sl.cst_284
  simp only [S_v2229 c i tbl hT sim b9, V17_26 c i M2 hM2 M3 hM3 tbl hT sim x2 x3 b9 b10 a12 a13 a14 a15 a16 a17]
  try rfl
theorem V15_28 : kernelRunB.sl.v2460 c i M2 hM2 M3 hM3 tbl hT sim x2 x3 b9 b10 a15 = (rowsOf c tbl i sim x2 x3 (accOf c a12 a13 a14 a15 a16 a17) 28).nf := by
  unfold kernelRunB.sl.v2460 kernelRunB.sl.H15_28
  rw [View.readCov_cons_toLoadRect]
  refine Eq.trans ?_ (rowsOf_nf c tbl i sim x2 x3 (accOf c a12 a13 a14 a15 a16 a17) 27 (by decide)).symm
  unfold kernelRunB.sl.r_259
  simp only [S_v2314 c i tbl hT sim b10, V15_27 c i M2 hM2 M3 hM3 tbl hT sim x2 x3 b9 b10 a12 a13 a14 a15 a16 a17, in_read M2 hM2 x2 27 (by decide), mk_read M3 hM3 x3 27 (by decide)]
  try rfl
theorem V16_28 : kernelRunB.sl.v2465 c i tbl hT sim b9 b10 a16 = (rowsOf c tbl i sim x2 x3 (accOf c a12 a13 a14 a15 a16 a17) 28).s := by
  unfold kernelRunB.sl.v2465 kernelRunB.sl.H16_28
  rw [View.readCov_cons_toLoadRect]
  refine Eq.trans ?_ (rowsOf_s c tbl i sim x2 x3 (accOf c a12 a13 a14 a15 a16 a17) 27 (by decide)).symm
  unfold kernelRunB.sl.r_257
  simp only [S_v2314 c i tbl hT sim b10, V16_27 c i M2 hM2 M3 hM3 tbl hT sim x2 x3 b9 b10 a12 a13 a14 a15 a16 a17]
  try rfl
theorem V17_28 : kernelRunB.sl.v2470 c i tbl hT sim b9 b10 a17 = (rowsOf c tbl i sim x2 x3 (accOf c a12 a13 a14 a15 a16 a17) 28).q := by
  unfold kernelRunB.sl.v2470 kernelRunB.sl.H17_28
  rw [View.readCov_cons_toLoadRect]
  refine Eq.trans ?_ (rowsOf_q c tbl i sim x2 x3 (accOf c a12 a13 a14 a15 a16 a17) 27 (by decide)).symm
  unfold kernelRunB.sl.r_261 kernelRunB.sl.r_257
  simp only [S_v2314 c i tbl hT sim b10, V17_27 c i M2 hM2 M3 hM3 tbl hT sim x2 x3 b9 b10 a12 a13 a14 a15 a16 a17]
  try rfl
theorem V15_29 : kernelRunB.sl.v2545 c i M2 hM2 M3 hM3 tbl hT sim x2 x3 b9 b10 a15 = (rowsOf c tbl i sim x2 x3 (accOf c a12 a13 a14 a15 a16 a17) 29).nf := by
  unfold kernelRunB.sl.v2545 kernelRunB.sl.H15_29
  rw [View.readCov_cons_toLoadRect]
  refine Eq.trans ?_ (rowsOf_nf c tbl i sim x2 x3 (accOf c a12 a13 a14 a15 a16 a17) 28 (by decide)).symm
  unfold kernelRunB.sl.r_267 kernelRunB.sl.r_264 kernelRunB.sl.r_265 kernelRunB.sl.r_266
  simp only [S_v2399 c i tbl hT sim b9, V15_28 c i M2 hM2 M3 hM3 tbl hT sim x2 x3 b9 b10 a12 a13 a14 a15 a16 a17, in_read M2 hM2 x2 28 (by decide), mk_read M3 hM3 x3 28 (by decide)]
  try rfl
theorem V16_29 : kernelRunB.sl.v2550 c i tbl hT sim b9 b10 a16 = (rowsOf c tbl i sim x2 x3 (accOf c a12 a13 a14 a15 a16 a17) 29).s := by
  unfold kernelRunB.sl.v2550 kernelRunB.sl.H16_29
  rw [View.readCov_cons_toLoadRect]
  refine Eq.trans ?_ (rowsOf_s c tbl i sim x2 x3 (accOf c a12 a13 a14 a15 a16 a17) 28 (by decide)).symm
  unfold kernelRunB.sl.r_268 kernelRunB.sl.r_266
  simp only [S_v2399 c i tbl hT sim b9, V16_28 c i M2 hM2 M3 hM3 tbl hT sim x2 x3 b9 b10 a12 a13 a14 a15 a16 a17]
  try rfl
theorem V17_29 : kernelRunB.sl.v2555 c i tbl hT sim b9 b10 a17 = (rowsOf c tbl i sim x2 x3 (accOf c a12 a13 a14 a15 a16 a17) 29).q := by
  unfold kernelRunB.sl.v2555 kernelRunB.sl.H17_29
  rw [View.readCov_cons_toLoadRect]
  refine Eq.trans ?_ (rowsOf_q c tbl i sim x2 x3 (accOf c a12 a13 a14 a15 a16 a17) 28 (by decide)).symm
  unfold kernelRunB.sl.r_269 kernelRunB.sl.r_266
  simp only [S_v2399 c i tbl hT sim b9, V17_28 c i M2 hM2 M3 hM3 tbl hT sim x2 x3 b9 b10 a12 a13 a14 a15 a16 a17]
  try rfl
theorem V15_30 : kernelRunB.sl.v2630 c i M2 hM2 M3 hM3 tbl hT sim x2 x3 b9 b10 a15 = (rowsOf c tbl i sim x2 x3 (accOf c a12 a13 a14 a15 a16 a17) 30).nf := by
  unfold kernelRunB.sl.v2630 kernelRunB.sl.H15_30
  rw [View.readCov_cons_toLoadRect]
  refine Eq.trans ?_ (rowsOf_nf c tbl i sim x2 x3 (accOf c a12 a13 a14 a15 a16 a17) 29 (by decide)).symm
  unfold kernelRunB.sl.r_275 kernelRunB.sl.r_271 kernelRunB.sl.r_272
  simp only [S_v2484 c i tbl hT sim b10, V15_29 c i M2 hM2 M3 hM3 tbl hT sim x2 x3 b9 b10 a12 a13 a14 a15 a16 a17, in_read M2 hM2 x2 29 (by decide), mk_read M3 hM3 x3 29 (by decide)]
  try rfl
theorem V16_30 : kernelRunB.sl.v2635 c i tbl hT sim b9 b10 a16 = (rowsOf c tbl i sim x2 x3 (accOf c a12 a13 a14 a15 a16 a17) 30).s := by
  unfold kernelRunB.sl.v2635 kernelRunB.sl.H16_30
  rw [View.readCov_cons_toLoadRect]
  refine Eq.trans ?_ (rowsOf_s c tbl i sim x2 x3 (accOf c a12 a13 a14 a15 a16 a17) 29 (by decide)).symm
  unfold kernelRunB.sl.r_277
  simp only [S_v2484 c i tbl hT sim b10, V16_29 c i M2 hM2 M3 hM3 tbl hT sim x2 x3 b9 b10 a12 a13 a14 a15 a16 a17]
  try rfl
theorem V17_30 : kernelRunB.sl.v2640 c i tbl hT sim b9 b10 a17 = (rowsOf c tbl i sim x2 x3 (accOf c a12 a13 a14 a15 a16 a17) 30).q := by
  unfold kernelRunB.sl.v2640 kernelRunB.sl.H17_30
  rw [View.readCov_cons_toLoadRect]
  refine Eq.trans ?_ (rowsOf_q c tbl i sim x2 x3 (accOf c a12 a13 a14 a15 a16 a17) 29 (by decide)).symm
  unfold kernelRunB.sl.r_278
  simp only [S_v2484 c i tbl hT sim b10, V17_29 c i M2 hM2 M3 hM3 tbl hT sim x2 x3 b9 b10 a12 a13 a14 a15 a16 a17]
  try rfl
theorem V15_31 : kernelRunB.sl.v2715 c i M2 hM2 M3 hM3 tbl hT sim x2 x3 b9 b10 a15 = (rowsOf c tbl i sim x2 x3 (accOf c a12 a13 a14 a15 a16 a17) 31).nf := by
  unfold kernelRunB.sl.v2715 kernelRunB.sl.H15_31
  rw [View.readCov_cons_toLoadRect]
  refine Eq.trans ?_ (rowsOf_nf c tbl i sim x2 x3 (accOf c a12 a13 a14 a15 a16 a17) 30 (by decide)).symm
  unfold kernelRunB.sl.r_284
  simp only [S_v2569 c i tbl hT sim b9, V15_30 c i M2 hM2 M3 hM3 tbl hT sim x2 x3 b9 b10 a12 a13 a14 a15 a16 a17, in_read M2 hM2 x2 30 (by decide), mk_read M3 hM3 x3 30 (by decide)]
  try rfl
theorem V16_31 : kernelRunB.sl.v2720 c i tbl hT sim b9 b10 a16 = (rowsOf c tbl i sim x2 x3 (accOf c a12 a13 a14 a15 a16 a17) 31).s := by
  unfold kernelRunB.sl.v2720 kernelRunB.sl.H16_31
  rw [View.readCov_cons_toLoadRect]
  refine Eq.trans ?_ (rowsOf_s c tbl i sim x2 x3 (accOf c a12 a13 a14 a15 a16 a17) 30 (by decide)).symm
  unfold kernelRunB.sl.r_287 kernelRunB.sl.r_282
  simp only [S_v2569 c i tbl hT sim b9, V16_30 c i M2 hM2 M3 hM3 tbl hT sim x2 x3 b9 b10 a12 a13 a14 a15 a16 a17]
  try rfl
theorem V17_31 : kernelRunB.sl.v2725 c i tbl hT sim b9 b10 a17 = (rowsOf c tbl i sim x2 x3 (accOf c a12 a13 a14 a15 a16 a17) 31).q := by
  unfold kernelRunB.sl.v2725 kernelRunB.sl.H17_31
  rw [View.readCov_cons_toLoadRect]
  refine Eq.trans ?_ (rowsOf_q c tbl i sim x2 x3 (accOf c a12 a13 a14 a15 a16 a17) 30 (by decide)).symm
  unfold kernelRunB.sl.r_286 kernelRunB.sl.r_282
  simp only [S_v2569 c i tbl hT sim b9, V17_30 c i M2 hM2 M3 hM3 tbl hT sim x2 x3 b9 b10 a12 a13 a14 a15 a16 a17]
  try rfl
theorem V15_32 : kernelRunB.sl.v2800 c i M2 hM2 M3 hM3 tbl hT sim x2 x3 b9 b10 a15 = (rowsOf c tbl i sim x2 x3 (accOf c a12 a13 a14 a15 a16 a17) 32).nf := by
  unfold kernelRunB.sl.v2800 kernelRunB.sl.H15_32
  rw [View.readCov_cons_toLoadRect]
  refine Eq.trans ?_ (rowsOf_nf c tbl i sim x2 x3 (accOf c a12 a13 a14 a15 a16 a17) 31 (by decide)).symm
  unfold kernelRunB.sl.r_294 kernelRunB.sl.r_290 kernelRunB.sl.r_291 kernelRunB.sl.r_292 kernelRunB.sl.r_293
  simp only [S_v2654 c i tbl hT sim b10, V15_31 c i M2 hM2 M3 hM3 tbl hT sim x2 x3 b9 b10 a12 a13 a14 a15 a16 a17, in_read M2 hM2 x2 31 (by decide), mk_read M3 hM3 x3 31 (by decide)]
  try rfl
theorem V16_32 : kernelRunB.sl.v2805 c i tbl hT sim b9 b10 a16 = (rowsOf c tbl i sim x2 x3 (accOf c a12 a13 a14 a15 a16 a17) 32).s := by
  unfold kernelRunB.sl.v2805 kernelRunB.sl.H16_32
  rw [View.readCov_cons_toLoadRect]
  refine Eq.trans ?_ (rowsOf_s c tbl i sim x2 x3 (accOf c a12 a13 a14 a15 a16 a17) 31 (by decide)).symm
  unfold kernelRunB.sl.r_295 kernelRunB.sl.r_292 kernelRunB.sl.r_293
  simp only [S_v2654 c i tbl hT sim b10, V16_31 c i M2 hM2 M3 hM3 tbl hT sim x2 x3 b9 b10 a12 a13 a14 a15 a16 a17]
  try rfl
theorem V17_32 : kernelRunB.sl.v2810 c i tbl hT sim b9 b10 a17 = (rowsOf c tbl i sim x2 x3 (accOf c a12 a13 a14 a15 a16 a17) 32).q := by
  unfold kernelRunB.sl.v2810 kernelRunB.sl.H17_32
  rw [View.readCov_cons_toLoadRect]
  refine Eq.trans ?_ (rowsOf_q c tbl i sim x2 x3 (accOf c a12 a13 a14 a15 a16 a17) 31 (by decide)).symm
  unfold kernelRunB.sl.r_296 kernelRunB.sl.r_292 kernelRunB.sl.r_293
  simp only [S_v2654 c i tbl hT sim b10, V17_31 c i M2 hM2 M3 hM3 tbl hT sim x2 x3 b9 b10 a12 a13 a14 a15 a16 a17]
  try rfl
theorem V15_33 : kernelRunB.sl.v2885 c i M2 hM2 M3 hM3 tbl hT sim x2 x3 b9 b10 a15 = (rowsOf c tbl i sim x2 x3 (accOf c a12 a13 a14 a15 a16 a17) 33).nf := by
  unfold kernelRunB.sl.v2885 kernelRunB.sl.H15_33
  rw [View.readCov_cons_toLoadRect]
  refine Eq.trans ?_ (rowsOf_nf c tbl i sim x2 x3 (accOf c a12 a13 a14 a15 a16 a17) 32 (by decide)).symm
  unfold kernelRunB.sl.r_304 kernelRunB.sl.r_299 kernelRunB.sl.r_300
  simp only [S_v2739 c i tbl hT sim b9, V15_32 c i M2 hM2 M3 hM3 tbl hT sim x2 x3 b9 b10 a12 a13 a14 a15 a16 a17, in_read M2 hM2 x2 32 (by decide), mk_read M3 hM3 x3 32 (by decide)]
  try rfl
theorem V16_33 : kernelRunB.sl.v2890 c i tbl hT sim b9 b10 a16 = (rowsOf c tbl i sim x2 x3 (accOf c a12 a13 a14 a15 a16 a17) 33).s := by
  unfold kernelRunB.sl.v2890 kernelRunB.sl.H16_33
  rw [View.readCov_cons_toLoadRect]
  refine Eq.trans ?_ (rowsOf_s c tbl i sim x2 x3 (accOf c a12 a13 a14 a15 a16 a17) 32 (by decide)).symm
  unfold kernelRunB.sl.r_306
  simp only [S_v2739 c i tbl hT sim b9, V16_32 c i M2 hM2 M3 hM3 tbl hT sim x2 x3 b9 b10 a12 a13 a14 a15 a16 a17]
  try rfl
theorem V17_33 : kernelRunB.sl.v2895 c i tbl hT sim b9 b10 a17 = (rowsOf c tbl i sim x2 x3 (accOf c a12 a13 a14 a15 a16 a17) 33).q := by
  unfold kernelRunB.sl.v2895 kernelRunB.sl.H17_33
  rw [View.readCov_cons_toLoadRect]
  refine Eq.trans ?_ (rowsOf_q c tbl i sim x2 x3 (accOf c a12 a13 a14 a15 a16 a17) 32 (by decide)).symm
  unfold kernelRunB.sl.r_307
  simp only [S_v2739 c i tbl hT sim b9, V17_32 c i M2 hM2 M3 hM3 tbl hT sim x2 x3 b9 b10 a12 a13 a14 a15 a16 a17]
  try rfl
theorem V15_34 : kernelRunB.sl.v2970 c i M2 hM2 M3 hM3 tbl hT sim x2 x3 b9 b10 a15 = (rowsOf c tbl i sim x2 x3 (accOf c a12 a13 a14 a15 a16 a17) 34).nf := by
  unfold kernelRunB.sl.v2970 kernelRunB.sl.H15_34
  rw [View.readCov_cons_toLoadRect]
  refine Eq.trans ?_ (rowsOf_nf c tbl i sim x2 x3 (accOf c a12 a13 a14 a15 a16 a17) 33 (by decide)).symm
  unfold kernelRunB.sl.r_315
  simp only [S_v2824 c i tbl hT sim b10, V15_33 c i M2 hM2 M3 hM3 tbl hT sim x2 x3 b9 b10 a12 a13 a14 a15 a16 a17, in_read M2 hM2 x2 33 (by decide), mk_read M3 hM3 x3 33 (by decide)]
  try rfl
theorem V16_34 : kernelRunB.sl.v2975 c i tbl hT sim b9 b10 a16 = (rowsOf c tbl i sim x2 x3 (accOf c a12 a13 a14 a15 a16 a17) 34).s := by
  unfold kernelRunB.sl.v2975 kernelRunB.sl.H16_34
  rw [View.readCov_cons_toLoadRect]
  refine Eq.trans ?_ (rowsOf_s c tbl i sim x2 x3 (accOf c a12 a13 a14 a15 a16 a17) 33 (by decide)).symm
  unfold kernelRunB.sl.r_318 kernelRunB.sl.r_313
  simp only [S_v2824 c i tbl hT sim b10, V16_33 c i M2 hM2 M3 hM3 tbl hT sim x2 x3 b9 b10 a12 a13 a14 a15 a16 a17]
  try rfl
theorem V17_34 : kernelRunB.sl.v2980 c i tbl hT sim b9 b10 a17 = (rowsOf c tbl i sim x2 x3 (accOf c a12 a13 a14 a15 a16 a17) 34).q := by
  unfold kernelRunB.sl.v2980 kernelRunB.sl.H17_34
  rw [View.readCov_cons_toLoadRect]
  refine Eq.trans ?_ (rowsOf_q c tbl i sim x2 x3 (accOf c a12 a13 a14 a15 a16 a17) 33 (by decide)).symm
  unfold kernelRunB.sl.r_317 kernelRunB.sl.r_313
  simp only [S_v2824 c i tbl hT sim b10, V17_33 c i M2 hM2 M3 hM3 tbl hT sim x2 x3 b9 b10 a12 a13 a14 a15 a16 a17]
  try rfl
theorem V15_35 : kernelRunB.sl.v3055 c i M2 hM2 M3 hM3 tbl hT sim x2 x3 b9 b10 a15 = (rowsOf c tbl i sim x2 x3 (accOf c a12 a13 a14 a15 a16 a17) 35).nf := by
  unfold kernelRunB.sl.v3055 kernelRunB.sl.H15_35
  rw [View.readCov_cons_toLoadRect]
  refine Eq.trans ?_ (rowsOf_nf c tbl i sim x2 x3 (accOf c a12 a13 a14 a15 a16 a17) 34 (by decide)).symm
  unfold kernelRunB.sl.r_325 kernelRunB.sl.r_321 kernelRunB.sl.r_322 kernelRunB.sl.r_323 kernelRunB.sl.r_324
  simp only [S_v2909 c i tbl hT sim b9, V15_34 c i M2 hM2 M3 hM3 tbl hT sim x2 x3 b9 b10 a12 a13 a14 a15 a16 a17, in_read M2 hM2 x2 34 (by decide), mk_read M3 hM3 x3 34 (by decide)]
  try rfl
theorem V16_35 : kernelRunB.sl.v3060 c i tbl hT sim b9 b10 a16 = (rowsOf c tbl i sim x2 x3 (accOf c a12 a13 a14 a15 a16 a17) 35).s := by
  unfold kernelRunB.sl.v3060 kernelRunB.sl.H16_35
  rw [View.readCov_cons_toLoadRect]
  refine Eq.trans ?_ (rowsOf_s c tbl i sim x2 x3 (accOf c a12 a13 a14 a15 a16 a17) 34 (by decide)).symm
  unfold kernelRunB.sl.r_326 kernelRunB.sl.r_323 kernelRunB.sl.r_324
  simp only [S_v2909 c i tbl hT sim b9, V16_34 c i M2 hM2 M3 hM3 tbl hT sim x2 x3 b9 b10 a12 a13 a14 a15 a16 a17]
  try rfl
theorem V17_35 : kernelRunB.sl.v3065 c i tbl hT sim b9 b10 a17 = (rowsOf c tbl i sim x2 x3 (accOf c a12 a13 a14 a15 a16 a17) 35).q := by
  unfold kernelRunB.sl.v3065 kernelRunB.sl.H17_35
  rw [View.readCov_cons_toLoadRect]
  refine Eq.trans ?_ (rowsOf_q c tbl i sim x2 x3 (accOf c a12 a13 a14 a15 a16 a17) 34 (by decide)).symm
  unfold kernelRunB.sl.r_327 kernelRunB.sl.r_323 kernelRunB.sl.r_324
  simp only [S_v2909 c i tbl hT sim b9, V17_34 c i M2 hM2 M3 hM3 tbl hT sim x2 x3 b9 b10 a12 a13 a14 a15 a16 a17]
  try rfl
theorem V15_36 : kernelRunB.sl.v3140 c i M2 hM2 M3 hM3 tbl hT sim x2 x3 b9 b10 a15 = (rowsOf c tbl i sim x2 x3 (accOf c a12 a13 a14 a15 a16 a17) 36).nf := by
  unfold kernelRunB.sl.v3140 kernelRunB.sl.H15_36
  rw [View.readCov_cons_toLoadRect]
  refine Eq.trans ?_ (rowsOf_nf c tbl i sim x2 x3 (accOf c a12 a13 a14 a15 a16 a17) 35 (by decide)).symm
  unfold kernelRunB.sl.r_334 kernelRunB.sl.r_330
  simp only [S_v2994 c i tbl hT sim b10, V15_35 c i M2 hM2 M3 hM3 tbl hT sim x2 x3 b9 b10 a12 a13 a14 a15 a16 a17, in_read M2 hM2 x2 35 (by decide), mk_read M3 hM3 x3 35 (by decide)]
  try rfl
theorem V16_36 : kernelRunB.sl.v3145 c i tbl hT sim b9 b10 a16 = (rowsOf c tbl i sim x2 x3 (accOf c a12 a13 a14 a15 a16 a17) 36).s := by
  unfold kernelRunB.sl.v3145 kernelRunB.sl.H16_36
  rw [View.readCov_cons_toLoadRect]
  refine Eq.trans ?_ (rowsOf_s c tbl i sim x2 x3 (accOf c a12 a13 a14 a15 a16 a17) 35 (by decide)).symm
  unfold kernelRunB.sl.r_336
  simp only [S_v2994 c i tbl hT sim b10, V16_35 c i M2 hM2 M3 hM3 tbl hT sim x2 x3 b9 b10 a12 a13 a14 a15 a16 a17]
  try rfl
theorem V17_36 : kernelRunB.sl.v3150 c i tbl hT sim b9 b10 a17 = (rowsOf c tbl i sim x2 x3 (accOf c a12 a13 a14 a15 a16 a17) 36).q := by
  unfold kernelRunB.sl.v3150 kernelRunB.sl.H17_36
  rw [View.readCov_cons_toLoadRect]
  refine Eq.trans ?_ (rowsOf_q c tbl i sim x2 x3 (accOf c a12 a13 a14 a15 a16 a17) 35 (by decide)).symm
  unfold kernelRunB.sl.r_337
  simp only [S_v2994 c i tbl hT sim b10, V17_35 c i M2 hM2 M3 hM3 tbl hT sim x2 x3 b9 b10 a12 a13 a14 a15 a16 a17]
  try rfl
theorem V15_37 : kernelRunB.sl.v3225 c i M2 hM2 M3 hM3 tbl hT sim x2 x3 b9 b10 a15 = (rowsOf c tbl i sim x2 x3 (accOf c a12 a13 a14 a15 a16 a17) 37).nf := by
  unfold kernelRunB.sl.v3225 kernelRunB.sl.H15_37
  rw [View.readCov_cons_toLoadRect]
  refine Eq.trans ?_ (rowsOf_nf c tbl i sim x2 x3 (accOf c a12 a13 a14 a15 a16 a17) 36 (by decide)).symm
  unfold kernelRunB.sl.r_345
  simp only [S_v3079 c i tbl hT sim b9, V15_36 c i M2 hM2 M3 hM3 tbl hT sim x2 x3 b9 b10 a12 a13 a14 a15 a16 a17, in_read M2 hM2 x2 36 (by decide), mk_read M3 hM3 x3 36 (by decide)]
  try rfl
theorem V16_37 : kernelRunB.sl.v3230 c i tbl hT sim b9 b10 a16 = (rowsOf c tbl i sim x2 x3 (accOf c a12 a13 a14 a15 a16 a17) 37).s := by
  unfold kernelRunB.sl.v3230 kernelRunB.sl.H16_37
  rw [View.readCov_cons_toLoadRect]
  refine Eq.trans ?_ (rowsOf_s c tbl i sim x2 x3 (accOf c a12 a13 a14 a15 a16 a17) 36 (by decide)).symm
  unfold kernelRunB.sl.r_346 kernelRunB.sl.r_343
  simp only [S_v3079 c i tbl hT sim b9, V16_36 c i M2 hM2 M3 hM3 tbl hT sim x2 x3 b9 b10 a12 a13 a14 a15 a16 a17]
  try rfl
theorem V17_37 : kernelRunB.sl.v3235 c i tbl hT sim b9 b10 a17 = (rowsOf c tbl i sim x2 x3 (accOf c a12 a13 a14 a15 a16 a17) 37).q := by
  unfold kernelRunB.sl.v3235 kernelRunB.sl.H17_37
  rw [View.readCov_cons_toLoadRect]
  refine Eq.trans ?_ (rowsOf_q c tbl i sim x2 x3 (accOf c a12 a13 a14 a15 a16 a17) 36 (by decide)).symm
  unfold kernelRunB.sl.r_347 kernelRunB.sl.r_343
  simp only [S_v3079 c i tbl hT sim b9, V17_36 c i M2 hM2 M3 hM3 tbl hT sim x2 x3 b9 b10 a12 a13 a14 a15 a16 a17]
  try rfl
theorem V15_38 : kernelRunB.sl.v3310 c i M2 hM2 M3 hM3 tbl hT sim x2 x3 b9 b10 a15 = (rowsOf c tbl i sim x2 x3 (accOf c a12 a13 a14 a15 a16 a17) 38).nf := by
  unfold kernelRunB.sl.v3310 kernelRunB.sl.H15_38
  rw [View.readCov_cons_toLoadRect]
  refine Eq.trans ?_ (rowsOf_nf c tbl i sim x2 x3 (accOf c a12 a13 a14 a15 a16 a17) 37 (by decide)).symm
  unfold kernelRunB.sl.r_355 kernelRunB.sl.r_350 kernelRunB.sl.r_351 kernelRunB.sl.r_352 kernelRunB.sl.r_353 kernelRunB.sl.cst_781
  simp only [S_v3164 c i tbl hT sim b10, V15_37 c i M2 hM2 M3 hM3 tbl hT sim x2 x3 b9 b10 a12 a13 a14 a15 a16 a17, in_read M2 hM2 x2 37 (by decide), mk_read M3 hM3 x3 37 (by decide)]
  try rfl
theorem V16_38 : kernelRunB.sl.v3315 c i tbl hT sim b9 b10 a16 = (rowsOf c tbl i sim x2 x3 (accOf c a12 a13 a14 a15 a16 a17) 38).s := by
  unfold kernelRunB.sl.v3315 kernelRunB.sl.H16_38
  rw [View.readCov_cons_toLoadRect]
  refine Eq.trans ?_ (rowsOf_s c tbl i sim x2 x3 (accOf c a12 a13 a14 a15 a16 a17) 37 (by decide)).symm
  unfold kernelRunB.sl.r_356 kernelRunB.sl.r_352 kernelRunB.sl.r_353 kernelRunB.sl.cst_781
  simp only [S_v3164 c i tbl hT sim b10, V16_37 c i M2 hM2 M3 hM3 tbl hT sim x2 x3 b9 b10 a12 a13 a14 a15 a16 a17]
  try rfl
theorem V17_38 : kernelRunB.sl.v3320 c i tbl hT sim b9 b10 a17 = (rowsOf c tbl i sim x2 x3 (accOf c a12 a13 a14 a15 a16 a17) 38).q := by
  unfold kernelRunB.sl.v3320 kernelRunB.sl.H17_38
  rw [View.readCov_cons_toLoadRect]
  refine Eq.trans ?_ (rowsOf_q c tbl i sim x2 x3 (accOf c a12 a13 a14 a15 a16 a17) 37 (by decide)).symm
  unfold kernelRunB.sl.r_357 kernelRunB.sl.r_352 kernelRunB.sl.r_353 kernelRunB.sl.cst_781
  simp only [S_v3164 c i tbl hT sim b10, V17_37 c i M2 hM2 M3 hM3 tbl hT sim x2 x3 b9 b10 a12 a13 a14 a15 a16 a17]
  try rfl
theorem V15_39 : kernelRunB.sl.v3395 c i M2 hM2 M3 hM3 tbl hT sim x2 x3 b9 b10 a15 = (rowsOf c tbl i sim x2 x3 (accOf c a12 a13 a14 a15 a16 a17) 39).nf := by
  unfold kernelRunB.sl.v3395 kernelRunB.sl.H15_39
  rw [View.readCov_cons_toLoadRect]
  refine Eq.trans ?_ (rowsOf_nf c tbl i sim x2 x3 (accOf c a12 a13 a14 a15 a16 a17) 38 (by decide)).symm
  unfold kernelRunB.sl.r_362
  simp only [V15_38 c i M2 hM2 M3 hM3 tbl hT sim x2 x3 b9 b10 a12 a13 a14 a15 a16 a17, S_v_1 c i tbl hT sim b9, in_read M2 hM2 x2 38 (by decide), mk_read M3 hM3 x3 38 (by decide)]
  try rfl
theorem V16_39 : kernelRunB.sl.v3400 c i tbl hT sim b9 b10 a16 = (rowsOf c tbl i sim x2 x3 (accOf c a12 a13 a14 a15 a16 a17) 39).s := by
  unfold kernelRunB.sl.v3400 kernelRunB.sl.H16_39
  rw [View.readCov_cons_toLoadRect]
  refine Eq.trans ?_ (rowsOf_s c tbl i sim x2 x3 (accOf c a12 a13 a14 a15 a16 a17) 38 (by decide)).symm
  unfold kernelRunB.sl.r_364
  simp only [V16_38 c i M2 hM2 M3 hM3 tbl hT sim x2 x3 b9 b10 a12 a13 a14 a15 a16 a17, S_v_1 c i tbl hT sim b9]
  try rfl
theorem V17_39 : kernelRunB.sl.v3405 c i tbl hT sim b9 b10 a17 = (rowsOf c tbl i sim x2 x3 (accOf c a12 a13 a14 a15 a16 a17) 39).q := by
  unfold kernelRunB.sl.v3405 kernelRunB.sl.H17_39
  rw [View.readCov_cons_toLoadRect]
  refine Eq.trans ?_ (rowsOf_q c tbl i sim x2 x3 (accOf c a12 a13 a14 a15 a16 a17) 38 (by decide)).symm
  unfold kernelRunB.sl.r_365
  simp only [V17_38 c i M2 hM2 M3 hM3 tbl hT sim x2 x3 b9 b10 a12 a13 a14 a15 a16 a17, S_v_1 c i tbl hT sim b9]
  try rfl
theorem V15_40 : kernelRunB.sl.v3480 c i M2 hM2 M3 hM3 tbl hT sim x2 x3 b9 b10 a15 = (rowsOf c tbl i sim x2 x3 (accOf c a12 a13 a14 a15 a16 a17) 40).nf := by
  unfold kernelRunB.sl.v3480 kernelRunB.sl.H15_40
  rw [View.readCov_cons_toLoadRect]
  refine Eq.trans ?_ (rowsOf_nf c tbl i sim x2 x3 (accOf c a12 a13 a14 a15 a16 a17) 39 (by decide)).symm
  unfold kernelRunB.sl.r_372
  simp only [S_v3334 c i tbl hT sim b10, V15_39 c i M2 hM2 M3 hM3 tbl hT sim x2 x3 b9 b10 a12 a13 a14 a15 a16 a17, in_read M2 hM2 x2 39 (by decide), mk_read M3 hM3 x3 39 (by decide)]
  try rfl
theorem V16_40 : kernelRunB.sl.v3485 c i tbl hT sim b9 b10 a16 = (rowsOf c tbl i sim x2 x3 (accOf c a12 a13 a14 a15 a16 a17) 40).s := by
  unfold kernelRunB.sl.v3485 kernelRunB.sl.H16_40
  rw [View.readCov_cons_toLoadRect]
  refine Eq.trans ?_ (rowsOf_s c tbl i sim x2 x3 (accOf c a12 a13 a14 a15 a16 a17) 39 (by decide)).symm
  unfold kernelRunB.sl.r_373 kernelRunB.sl.r_370
  simp only [S_v3334 c i tbl hT sim b10, V16_39 c i M2 hM2 M3 hM3 tbl hT sim x2 x3 b9 b10 a12 a13 a14 a15 a16 a17]
  try rfl
theorem V17_40 : kernelRunB.sl.v3490 c i tbl hT sim b9 b10 a17 = (rowsOf c tbl i sim x2 x3 (accOf c a12 a13 a14 a15 a16 a17) 40).q := by
  unfold kernelRunB.sl.v3490 kernelRunB.sl.H17_40
  rw [View.readCov_cons_toLoadRect]
  refine Eq.trans ?_ (rowsOf_q c tbl i sim x2 x3 (accOf c a12 a13 a14 a15 a16 a17) 39 (by decide)).symm
  unfold kernelRunB.sl.r_374 kernelRunB.sl.r_370
  simp only [S_v3334 c i tbl hT sim b10, V17_39 c i M2 hM2 M3 hM3 tbl hT sim x2 x3 b9 b10 a12 a13 a14 a15 a16 a17]
  try rfl
theorem V15_41 : kernelRunB.sl.v3565 c i M2 hM2 M3 hM3 tbl hT sim x2 x3 b9 b10 a15 = (rowsOf c tbl i sim x2 x3 (accOf c a12 a13 a14 a15 a16 a17) 41).nf := by
  unfold kernelRunB.sl.v3565 kernelRunB.sl.H15_41
  rw [View.readCov_cons_toLoadRect]
  refine Eq.trans ?_ (rowsOf_nf c tbl i sim x2 x3 (accOf c a12 a13 a14 a15 a16 a17) 40 (by decide)).symm
  unfold kernelRunB.sl.r_381 kernelRunB.sl.r_377 kernelRunB.sl.r_378 kernelRunB.sl.r_379 kernelRunB.sl.cst_15
  simp only [S_v3419 c i tbl hT sim b9, V15_40 c i M2 hM2 M3 hM3 tbl hT sim x2 x3 b9 b10 a12 a13 a14 a15 a16 a17, in_read M2 hM2 x2 40 (by decide), mk_read M3 hM3 x3 40 (by decide)]
  try rfl
theorem V16_41 : kernelRunB.sl.v3570 c i tbl hT sim b9 b10 a16 = (rowsOf c tbl i sim x2 x3 (accOf c a12 a13 a14 a15 a16 a17) 41).s := by
  unfold kernelRunB.sl.v3570 kernelRunB.sl.H16_41
  rw [View.readCov_cons_toLoadRect]
  refine Eq.trans ?_ (rowsOf_s c tbl i sim x2 x3 (accOf c a12 a13 a14 a15 a16 a17) 40 (by decide)).symm
  unfold kernelRunB.sl.r_382 kernelRunB.sl.r_379 kernelRunB.sl.cst_15
  simp only [S_v3419 c i tbl hT sim b9, V16_40 c i M2 hM2 M3 hM3 tbl hT sim x2 x3 b9 b10 a12 a13 a14 a15 a16 a17]
  try rfl
theorem V17_41 : kernelRunB.sl.v3575 c i tbl hT sim b9 b10 a17 = (rowsOf c tbl i sim x2 x3 (accOf c a12 a13 a14 a15 a16 a17) 41).q := by
  unfold kernelRunB.sl.v3575 kernelRunB.sl.H17_41
  rw [View.readCov_cons_toLoadRect]
  refine Eq.trans ?_ (rowsOf_q c tbl i sim x2 x3 (accOf c a12 a13 a14 a15 a16 a17) 40 (by decide)).symm
  unfold kernelRunB.sl.r_383 kernelRunB.sl.r_379 kernelRunB.sl.cst_15
  simp only [S_v3419 c i tbl hT sim b9, V17_40 c i M2 hM2 M3 hM3 tbl hT sim x2 x3 b9 b10 a12 a13 a14 a15 a16 a17]
  try rfl
theorem V15_42 : kernelRunB.sl.v3650 c i M2 hM2 M3 hM3 tbl hT sim x2 x3 b9 b10 a15 = (rowsOf c tbl i sim x2 x3 (accOf c a12 a13 a14 a15 a16 a17) 42).nf := by
  unfold kernelRunB.sl.v3650 kernelRunB.sl.H15_42
  rw [View.readCov_cons_toLoadRect]
  refine Eq.trans ?_ (rowsOf_nf c tbl i sim x2 x3 (accOf c a12 a13 a14 a15 a16 a17) 41 (by decide)).symm
  unfold kernelRunB.sl.r_389
  simp only [S_v3504 c i tbl hT sim b10, V15_41 c i M2 hM2 M3 hM3 tbl hT sim x2 x3 b9 b10 a12 a13 a14 a15 a16 a17, in_read M2 hM2 x2 41 (by decide), mk_read M3 hM3 x3 41 (by decide)]
  try rfl
theorem V16_42 : kernelRunB.sl.v3655 c i tbl hT sim b9 b10 a16 = (rowsOf c tbl i sim x2 x3 (accOf c a12 a13 a14 a15 a16 a17) 42).s := by
  unfold kernelRunB.sl.v3655 kernelRunB.sl.H16_42
  rw [View.readCov_cons_toLoadRect]
  refine Eq.trans ?_ (rowsOf_s c tbl i sim x2 x3 (accOf c a12 a13 a14 a15 a16 a17) 41 (by decide)).symm
  unfold kernelRunB.sl.r_391
  simp only [S_v3504 c i tbl hT sim b10, V16_41 c i M2 hM2 M3 hM3 tbl hT sim x2 x3 b9 b10 a12 a13 a14 a15 a16 a17]
  try rfl
theorem V17_42 : kernelRunB.sl.v3660 c i tbl hT sim b9 b10 a17 = (rowsOf c tbl i sim x2 x3 (accOf c a12 a13 a14 a15 a16 a17) 42).q := by
  unfold kernelRunB.sl.v3660 kernelRunB.sl.H17_42
  rw [View.readCov_cons_toLoadRect]
  refine Eq.trans ?_ (rowsOf_q c tbl i sim x2 x3 (accOf c a12 a13 a14 a15 a16 a17) 41 (by decide)).symm
  unfold kernelRunB.sl.r_393 kernelRunB.sl.r_392
  simp only [S_v3504 c i tbl hT sim b10, V17_41 c i M2 hM2 M3 hM3 tbl hT sim x2 x3 b9 b10 a12 a13 a14 a15 a16 a17]
  try rfl
theorem V15_43 : kernelRunB.sl.v3735 c i M2 hM2 M3 hM3 tbl hT sim x2 x3 b9 b10 a15 = (rowsOf c tbl i sim x2 x3 (accOf c a12 a13 a14 a15 a16 a17) 43).nf := by
  unfold kernelRunB.sl.v3735 kernelRunB.sl.H15_43
  rw [View.readCov_cons_toLoadRect]
  refine Eq.trans ?_ (rowsOf_nf c tbl i sim x2 x3 (accOf c a12 a13 a14 a15 a16 a17) 42 (by decide)).symm
  unfold kernelRunB.sl.r_403 kernelRunB.sl.r_396 kernelRunB.sl.r_399 kernelRunB.sl.cst_109
  simp only [S_v3589 c i tbl hT sim b9, V15_42 c i M2 hM2 M3 hM3 tbl hT sim x2 x3 b9 b10 a12 a13 a14 a15 a16 a17, in_read M2 hM2 x2 42 (by decide), mk_read M3 hM3 x3 42 (by decide)]
  try rfl
theorem V16_43 : kernelRunB.sl.v3740 c i tbl hT sim b9 b10 a16 = (rowsOf c tbl i sim x2 x3 (accOf c a12 a13 a14 a15 a16 a17) 43).s := by
  unfold kernelRunB.sl.v3740 kernelRunB.sl.H16_43
  rw [View.readCov_cons_toLoadRect]
  refine Eq.trans ?_ (rowsOf_s c tbl i sim x2 x3 (accOf c a12 a13 a14 a15 a16 a17) 42 (by decide)).symm
  unfold kernelRunB.sl.r_401 kernelRunB.sl.r_398
  simp only [S_v3589 c i tbl hT sim b9, V16_42 c i M2 hM2 M3 hM3 tbl hT sim x2 x3 b9 b10 a12 a13 a14 a15 a16 a17]
  try rfl
theorem V17_43 : kernelRunB.sl.v3745 c i tbl hT sim b9 b10 a17 = (rowsOf c tbl i sim x2 x3 (accOf c a12 a13 a14 a15 a16 a17) 43).q := by
  unfold kernelRunB.sl.v3745 kernelRunB.sl.H17_43
  rw [View.readCov_cons_toLoadRect]
  refine Eq.trans ?_ (rowsOf_q c tbl i sim x2 x3 (accOf c a12 a13 a14 a15 a16 a17) 42 (by decide)).symm
  unfold kernelRunB.sl.r_402 kernelRunB.sl.r_398
  simp only [S_v3589 c i tbl hT sim b9, V17_42 c i M2 hM2 M3 hM3 tbl hT sim x2 x3 b9 b10 a12 a13 a14 a15 a16 a17]
  try rfl
theorem V15_44 : kernelRunB.sl.v3820 c i M2 hM2 M3 hM3 tbl hT sim x2 x3 b9 b10 a15 = (rowsOf c tbl i sim x2 x3 (accOf c a12 a13 a14 a15 a16 a17) 44).nf := by
  unfold kernelRunB.sl.v3820 kernelRunB.sl.H15_44
  rw [View.readCov_cons_toLoadRect]
  refine Eq.trans ?_ (rowsOf_nf c tbl i sim x2 x3 (accOf c a12 a13 a14 a15 a16 a17) 43 (by decide)).symm
  unfold kernelRunB.sl.r_410 kernelRunB.sl.r_406 kernelRunB.sl.r_407 kernelRunB.sl.r_408
  simp only [S_v3674 c i tbl hT sim b10, V15_43 c i M2 hM2 M3 hM3 tbl hT sim x2 x3 b9 b10 a12 a13 a14 a15 a16 a17, in_read M2 hM2 x2 43 (by decide), mk_read M3 hM3 x3 43 (by decide)]
  try rfl
theorem V16_44 : kernelRunB.sl.v3825 c i tbl hT sim b9 b10 a16 = (rowsOf c tbl i sim x2 x3 (accOf c a12 a13 a14 a15 a16 a17) 44).s := by
  unfold kernelRunB.sl.v3825 kernelRunB.sl.H16_44
  rw [View.readCov_cons_toLoadRect]
  refine Eq.trans ?_ (rowsOf_s c tbl i sim x2 x3 (accOf c a12 a13 a14 a15 a16 a17) 43 (by decide)).symm
  unfold kernelRunB.sl.r_411 kernelRunB.sl.r_408
  simp only [S_v3674 c i tbl hT sim b10, V16_43 c i M2 hM2 M3 hM3 tbl hT sim x2 x3 b9 b10 a12 a13 a14 a15 a16 a17]
  try rfl
theorem V17_44 : kernelRunB.sl.v3830 c i tbl hT sim b9 b10 a17 = (rowsOf c tbl i sim x2 x3 (accOf c a12 a13 a14 a15 a16 a17) 44).q := by
  unfold kernelRunB.sl.v3830 kernelRunB.sl.H17_44
  rw [View.readCov_cons_toLoadRect]
  refine Eq.trans ?_ (rowsOf_q c tbl i sim x2 x3 (accOf c a12 a13 a14 a15 a16 a17) 43 (by decide)).symm
  unfold kernelRunB.sl.r_412 kernelRunB.sl.r_408
  simp only [S_v3674 c i tbl hT sim b10, V17_43 c i M2 hM2 M3 hM3 tbl hT sim x2 x3 b9 b10 a12 a13 a14 a15 a16 a17]
  try rfl
theorem V15_45 : kernelRunB.sl.v3905 c i M2 hM2 M3 hM3 tbl hT sim x2 x3 b9 b10 a15 = (rowsOf c tbl i sim x2 x3 (accOf c a12 a13 a14 a15 a16 a17) 45).nf := by
  unfold kernelRunB.sl.v3905 kernelRunB.sl.H15_45
  rw [View.readCov_cons_toLoadRect]
  refine Eq.trans ?_ (rowsOf_nf c tbl i sim x2 x3 (accOf c a12 a13 a14 a15 a16 a17) 44 (by decide)).symm
  unfold kernelRunB.sl.r_419
  simp only [S_v3759 c i tbl hT sim b9, V15_44 c i M2 hM2 M3 hM3 tbl hT sim x2 x3 b9 b10 a12 a13 a14 a15 a16 a17, in_read M2 hM2 x2 44 (by decide), mk_read M3 hM3 x3 44 (by decide)]
  try rfl
theorem V16_45 : kernelRunB.sl.v3910 c i tbl hT sim b9 b10 a16 = (rowsOf c tbl i sim x2 x3 (accOf c a12 a13 a14 a15 a16 a17) 45).s := by
  unfold kernelRunB.sl.v3910 kernelRunB.sl.H16_45
  rw [View.readCov_cons_toLoadRect]
  refine Eq.trans ?_ (rowsOf_s c tbl i sim x2 x3 (accOf c a12 a13 a14 a15 a16 a17) 44 (by decide)).symm
  unfold kernelRunB.sl.r_421
  simp only [S_v3759 c i tbl hT sim b9, V16_44 c i M2 hM2 M3 hM3 tbl hT sim x2 x3 b9 b10 a12 a13 a14 a15 a16 a17]
  try rfl
theorem V17_45 : kernelRunB.sl.v3915 c i tbl hT sim b9 b10 a17 = (rowsOf c tbl i sim x2 x3 (accOf c a12 a13 a14 a15 a16 a17) 45).q := by
  unfold kernelRunB.sl.v3915 kernelRunB.sl.H17_45
  rw [View.readCov_cons_toLoadRect]
  refine Eq.trans ?_ (rowsOf_q c tbl i sim x2 x3 (accOf c a12 a13 a14 a15 a16 a17) 44 (by decide)).symm
  unfold kernelRunB.sl.r_422 kernelRunB.sl.r_417
  simp only [S_v3759 c i tbl hT sim b9, V17_44 c i M2 hM2 M3 hM3 tbl hT sim x2 x3 b9 b10 a12 a13 a14 a15 a16 a17]
  try rfl
theorem V15_46 : kernelRunB.sl.v3990 c i M2 hM2 M3 hM3 tbl hT sim x2 x3 b9 b10 a15 = (rowsOf c tbl i sim x2 x3 (accOf c a12 a13 a14 a15 a16 a17) 46).nf := by
  unfold kernelRunB.sl.v3990 kernelRunB.sl.H15_46
  rw [View.readCov_cons_toLoadRect]
  refine Eq.trans ?_ (rowsOf_nf c tbl i sim x2 x3 (accOf c a12 a13 a14 a15 a16 a17) 45 (by decide)).symm
  unfold kernelRunB.sl.r_431 kernelRunB.sl.r_425 kernelRunB.sl.r_428
  simp only [S_v3844 c i tbl hT sim b10, V15_45 c i M2 hM2 M3 hM3 tbl hT sim x2 x3 b9 b10 a12 a13 a14 a15 a16 a17, in_read M2 hM2 x2 45 (by decide), mk_read M3 hM3 x3 45 (by decide)]
  try rfl
theorem V16_46 : kernelRunB.sl.v3995 c i tbl hT sim b9 b10 a16 = (rowsOf c tbl i sim x2 x3 (accOf c a12 a13 a14 a15 a16 a17) 46).s := by
  unfold kernelRunB.sl.v3995 kernelRunB.sl.H16_46
  rw [View.readCov_cons_toLoadRect]
  refine Eq.trans ?_ (rowsOf_s c tbl i sim x2 x3 (accOf c a12 a13 a14 a15 a16 a17) 45 (by decide)).symm
  unfold kernelRunB.sl.r_429 kernelRunB.sl.r_427
  simp only [S_v3844 c i tbl hT sim b10, V16_45 c i M2 hM2 M3 hM3 tbl hT sim x2 x3 b9 b10 a12 a13 a14 a15 a16 a17]
  try rfl
theorem V17_46 : kernelRunB.sl.v4000 c i tbl hT sim b9 b10 a17 = (rowsOf c tbl i sim x2 x3 (accOf c a12 a13 a14 a15 a16 a17) 46).q := by
  unfold kernelRunB.sl.v4000 kernelRunB.sl.H17_46
  rw [View.readCov_cons_toLoadRect]
  refine Eq.trans ?_ (rowsOf_q c tbl i sim x2 x3 (accOf c a12 a13 a14 a15 a16 a17) 45 (by decide)).symm
  unfold kernelRunB.sl.r_430 kernelRunB.sl.r_427
  simp only [S_v3844 c i tbl hT sim b10, V17_45 c i M2 hM2 M3 hM3 tbl hT sim x2 x3 b9 b10 a12 a13 a14 a15 a16 a17]
  try rfl
theorem V15_47 : kernelRunB.sl.v4075 c i M2 hM2 M3 hM3 tbl hT sim x2 x3 b9 b10 a15 = (rowsOf c tbl i sim x2 x3 (accOf c a12 a13 a14 a15 a16 a17) 47).nf := by
  unfold kernelRunB.sl.v4075 kernelRunB.sl.H15_47
  rw [View.readCov_cons_toLoadRect]
  refine Eq.trans ?_ (rowsOf_nf c tbl i sim x2 x3 (accOf c a12 a13 a14 a15 a16 a17) 46 (by decide)).symm
  unfold kernelRunB.sl.r_437 kernelRunB.sl.r_434 kernelRunB.sl.r_435 kernelRunB.sl.cst_284
  simp only [S_v3929 c i tbl hT sim b9, V15_46 c i M2 hM2 M3 hM3 tbl hT sim x2 x3 b9 b10 a12 a13 a14 a15 a16 a17, in_read M2 hM2 x2 46 (by decide), mk_read M3 hM3 x3 46 (by decide)]
  try rfl
theorem V16_47 : kernelRunB.sl.v4080 c i tbl hT sim b9 b10 a16 = (rowsOf c tbl i sim x2 x3 (accOf c a12 a13 a14 a15 a16 a17) 47).s := by
  unfold kernelRunB.sl.v4080 kernelRunB.sl.H16_47
  rw [View.readCov_cons_toLoadRect]
  refine Eq.trans ?_ (rowsOf_s c tbl i sim x2 x3 (accOf c a12 a13 a14 a15 a16 a17) 46 (by decide)).symm
  unfold kernelRunB.sl.r_438 kernelRunB.sl.cst_284
  simp only [S_v3929 c i tbl hT sim b9, V16_46 c i M2 hM2 M3 hM3 tbl hT sim x2 x3 b9 b10 a12 a13 a14 a15 a16 a17]
  try rfl
theorem V17_47 : kernelRunB.sl.v4085 c i tbl hT sim b9 b10 a17 = (rowsOf c tbl i sim x2 x3 (accOf c a12 a13 a14 a15 a16 a17) 47).q := by
  unfold kernelRunB.sl.v4085 kernelRunB.sl.H17_47
  rw [View.readCov_cons_toLoadRect]
  refine Eq.trans ?_ (rowsOf_q c tbl i sim x2 x3 (accOf c a12 a13 a14 a15 a16 a17) 46 (by decide)).symm
  unfold kernelRunB.sl.r_439 kernelRunB.sl.cst_284
  simp only [S_v3929 c i tbl hT sim b9, V17_46 c i M2 hM2 M3 hM3 tbl hT sim x2 x3 b9 b10 a12 a13 a14 a15 a16 a17]
  try rfl
theorem V15_48 : kernelRunB.sl.v4160 c i M2 hM2 M3 hM3 tbl hT sim x2 x3 b9 b10 a15 = (rowsOf c tbl i sim x2 x3 (accOf c a12 a13 a14 a15 a16 a17) 48).nf := by
  unfold kernelRunB.sl.v4160 kernelRunB.sl.H15_48
  rw [View.readCov_cons_toLoadRect]
  refine Eq.trans ?_ (rowsOf_nf c tbl i sim x2 x3 (accOf c a12 a13 a14 a15 a16 a17) 47 (by decide)).symm
  unfold kernelRunB.sl.r_446
  simp only [S_v4014 c i tbl hT sim b10, V15_47 c i M2 hM2 M3 hM3 tbl hT sim x2 x3 b9 b10 a12 a13 a14 a15 a16 a17, in_read M2 hM2 x2 47 (by decide), mk_read M3 hM3 x3 47 (by decide)]
  try rfl
theorem V16_48 : kernelRunB.sl.v4165 c i tbl hT sim b9 b10 a16 = (rowsOf c tbl i sim x2 x3 (accOf c a12 a13 a14 a15 a16 a17) 48).s := by
  unfold kernelRunB.sl.v4165 kernelRunB.sl.H16_48
  rw [View.readCov_cons_toLoadRect]
  refine Eq.trans ?_ (rowsOf_s c tbl i sim x2 x3 (accOf c a12 a13 a14 a15 a16 a17) 47 (by decide)).symm
  unfold kernelRunB.sl.r_444
  simp only [S_v4014 c i tbl hT sim b10, V16_47 c i M2 hM2 M3 hM3 tbl hT sim x2 x3 b9 b10 a12 a13 a14 a15 a16 a17]
  try rfl
theorem V17_48 : kernelRunB.sl.v4170 c i tbl hT sim b9 b10 a17 = (rowsOf c tbl i sim x2 x3 (accOf c a12 a13 a14 a15 a16 a17) 48).q := by
  unfold kernelRunB.sl.v4170 kernelRunB.sl.H17_48
  rw [View.readCov_cons_toLoadRect]
  refine Eq.trans ?_ (rowsOf_q c tbl i sim x2 x3 (accOf c a12 a13 a14 a15 a16 a17) 47 (by decide)).symm
  unfold kernelRunB.sl.r_448 kernelRunB.sl.r_444
  simp only [S_v4014 c i tbl hT sim b10, V17_47 c i M2 hM2 M3 hM3 tbl hT sim x2 x3 b9 b10 a12 a13 a14 a15 a16 a17]
  try rfl
theorem V15_49 : kernelRunB.sl.v4245 c i M2 hM2 M3 hM3 tbl hT sim x2 x3 b9 b10 a15 = (rowsOf c tbl i sim x2 x3 (accOf c a12 a13 a14 a15 a16 a17) 49).nf := by
  unfold kernelRunB.sl.v4245 kernelRunB.sl.H15_49
  rw [View.readCov_cons_toLoadRect]
  refine Eq.trans ?_ (rowsOf_nf c tbl i sim x2 x3 (accOf c a12 a13 a14 a15 a16 a17) 48 (by decide)).symm
  unfold kernelRunB.sl.r_454 kernelRunB.sl.r_451 kernelRunB.sl.r_452 kernelRunB.sl.r_453
  simp only [S_v4099 c i tbl hT sim b9, V15_48 c i M2 hM2 M3 hM3 tbl hT sim x2 x3 b9 b10 a12 a13 a14 a15 a16 a17, in_read M2 hM2 x2 48 (by decide), mk_read M3 hM3 x3 48 (by decide)]
  try rfl
theorem V16_49 : kernelRunB.sl.v4250 c i tbl hT sim b9 b10 a16 = (rowsOf c tbl i sim x2 x3 (accOf c a12 a13 a14 a15 a16 a17) 49).s := by
  unfold kernelRunB.sl.v4250 kernelRunB.sl.H16_49
  rw [View.readCov_cons_toLoadRect]
  refine Eq.trans ?_ (rowsOf_s c tbl i sim x2 x3 (accOf c a12 a13 a14 a15 a16 a17) 48 (by decide)).symm
  unfold kernelRunB.sl.r_455 kernelRunB.sl.r_453
  simp only [S_v4099 c i tbl hT sim b9, V16_48 c i M2 hM2 M3 hM3 tbl hT sim x2 x3 b9 b10 a12 a13 a14 a15 a16 a17]
  try rfl
theorem V17_49 : kernelRunB.sl.v4255 c i tbl hT sim b9 b10 a17 = (rowsOf c tbl i sim x2 x3 (accOf c a12 a13 a14 a15 a16 a17) 49).q := by
  unfold kernelRunB.sl.v4255 kernelRunB.sl.H17_49
  rw [View.readCov_cons_toLoadRect]
  refine Eq.trans ?_ (rowsOf_q c tbl i sim x2 x3 (accOf c a12 a13 a14 a15 a16 a17) 48 (by decide)).symm
  unfold kernelRunB.sl.r_456 kernelRunB.sl.r_453
  simp only [S_v4099 c i tbl hT sim b9, V17_48 c i M2 hM2 M3 hM3 tbl hT sim x2 x3 b9 b10 a12 a13 a14 a15 a16 a17]
  try rfl
theorem V15_50 : kernelRunB.sl.v4330 c i M2 hM2 M3 hM3 tbl hT sim x2 x3 b9 b10 a15 = (rowsOf c tbl i sim x2 x3 (accOf c a12 a13 a14 a15 a16 a17) 50).nf := by
  unfold kernelRunB.sl.v4330 kernelRunB.sl.H15_50
  rw [View.readCov_cons_toLoadRect]
  refine Eq.trans ?_ (rowsOf_nf c tbl i sim x2 x3 (accOf c a12 a13 a14 a15 a16 a17) 49 (by decide)).symm
  unfold kernelRunB.sl.r_462 kernelRunB.sl.r_458 kernelRunB.sl.r_459
  simp only [S_v4184 c i tbl hT sim b10, V15_49 c i M2 hM2 M3 hM3 tbl hT sim x2 x3 b9 b10 a12 a13 a14 a15 a16 a17, in_read M2 hM2 x2 49 (by decide), mk_read M3 hM3 x3 49 (by decide)]
  try rfl
theorem V16_50 : kernelRunB.sl.v4335 c i tbl hT sim b9 b10 a16 = (rowsOf c tbl i sim x2 x3 (accOf c a12 a13 a14 a15 a16 a17) 50).s := by
  unfold kernelRunB.sl.v4335 kernelRunB.sl.H16_50
  rw [View.readCov_cons_toLoadRect]
  refine Eq.trans ?_ (rowsOf_s c tbl i sim x2 x3 (accOf c a12 a13 a14 a15 a16 a17) 49 (by decide)).symm
  unfold kernelRunB.sl.r_464
  simp only [S_v4184 c i tbl hT sim b10, V16_49 c i M2 hM2 M3 hM3 tbl hT sim x2 x3 b9 b10 a12 a13 a14 a15 a16 a17]
  try rfl
theorem V17_50 : kernelRunB.sl.v4340 c i tbl hT sim b9 b10 a17 = (rowsOf c tbl i sim x2 x3 (accOf c a12 a13 a14 a15 a16 a17) 50).q := by
  unfold kernelRunB.sl.v4340 kernelRunB.sl.H17_50
  rw [View.readCov_cons_toLoadRect]
  refine Eq.trans ?_ (rowsOf_q c tbl i sim x2 x3 (accOf c a12 a13 a14 a15 a16 a17) 49 (by decide)).symm
  unfold kernelRunB.sl.r_465
  simp only [S_v4184 c i tbl hT sim b10, V17_49 c i M2 hM2 M3 hM3 tbl hT sim x2 x3 b9 b10 a12 a13 a14 a15 a16 a17]
  try rfl
theorem V15_51 : kernelRunB.sl.v4415 c i M2 hM2 M3 hM3 tbl hT sim x2 x3 b9 b10 a15 = (rowsOf c tbl i sim x2 x3 (accOf c a12 a13 a14 a15 a16 a17) 51).nf := by
  unfold kernelRunB.sl.v4415 kernelRunB.sl.H15_51
  rw [View.readCov_cons_toLoadRect]
  refine Eq.trans ?_ (rowsOf_nf c tbl i sim x2 x3 (accOf c a12 a13 a14 a15 a16 a17) 50 (by decide)).symm
  unfold kernelRunB.sl.r_471
  simp only [S_v4269 c i tbl hT sim b9, V15_50 c i M2 hM2 M3 hM3 tbl hT sim x2 x3 b9 b10 a12 a13 a14 a15 a16 a17, in_read M2 hM2 x2 50 (by decide), mk_read M3 hM3 x3 50 (by decide)]
  try rfl
theorem V16_51 : kernelRunB.sl.v4420 c i tbl hT sim b9 b10 a16 = (rowsOf c tbl i sim x2 x3 (accOf c a12 a13 a14 a15 a16 a17) 51).s := by
  unfold kernelRunB.sl.v4420 kernelRunB.sl.H16_51
  rw [View.readCov_cons_toLoadRect]
  refine Eq.trans ?_ (rowsOf_s c tbl i sim x2 x3 (accOf c a12 a13 a14 a15 a16 a17) 50 (by decide)).symm
  unfold kernelRunB.sl.r_474 kernelRunB.sl.r_469
  simp only [S_v4269 c i tbl hT sim b9, V16_50 c i M2 hM2 M3 hM3 tbl hT sim x2 x3 b9 b10 a12 a13 a14 a15 a16 a17]
  try rfl
theorem V17_51 : kernelRunB.sl.v4425 c i tbl hT sim b9 b10 a17 = (rowsOf c tbl i sim x2 x3 (accOf c a12 a13 a14 a15 a16 a17) 51).q := by
  unfold kernelRunB.sl.v4425 kernelRunB.sl.H17_51
  rw [View.readCov_cons_toLoadRect]
  refine Eq.trans ?_ (rowsOf_q c tbl i sim x2 x3 (accOf c a12 a13 a14 a15 a16 a17) 50 (by decide)).symm
  unfold kernelRunB.sl.r_473 kernelRunB.sl.r_469
  simp only [S_v4269 c i tbl hT sim b9, V17_50 c i M2 hM2 M3 hM3 tbl hT sim x2 x3 b9 b10 a12 a13 a14 a15 a16 a17]
  try rfl
theorem V15_52 : kernelRunB.sl.v4500 c i M2 hM2 M3 hM3 tbl hT sim x2 x3 b9 b10 a15 = (rowsOf c tbl i sim x2 x3 (accOf c a12 a13 a14 a15 a16 a17) 52).nf := by
  unfold kernelRunB.sl.v4500 kernelRunB.sl.H15_52
  rw [View.readCov_cons_toLoadRect]
  refine Eq.trans ?_ (rowsOf_nf c tbl i sim x2 x3 (accOf c a12 a13 a14 a15 a16 a17) 51 (by decide)).symm
  unfold kernelRunB.sl.r_481 kernelRunB.sl.r_477 kernelRunB.sl.r_478 kernelRunB.sl.r_479 kernelRunB.sl.r_480
  simp only [S_v4354 c i tbl hT sim b10, V15_51 c i M2 hM2 M3 hM3 tbl hT sim x2 x3 b9 b10 a12 a13 a14 a15 a16 a17, in_read M2 hM2 x2 51 (by decide), mk_read M3 hM3 x3 51 (by decide)]
  try rfl
theorem V16_52 : kernelRunB.sl.v4505 c i tbl hT sim b9 b10 a16 = (rowsOf c tbl i sim x2 x3 (accOf c a12 a13 a14 a15 a16 a17) 52).s := by
  unfold kernelRunB.sl.v4505 kernelRunB.sl.H16_52
  rw [View.readCov_cons_toLoadRect]
  refine Eq.trans ?_ (rowsOf_s c tbl i sim x2 x3 (accOf c a12 a13 a14 a15 a16 a17) 51 (by decide)).symm
  unfold kernelRunB.sl.r_482 kernelRunB.sl.r_479 kernelRunB.sl.r_480
  simp only [S_v4354 c i tbl hT sim b10, V16_51 c i M2 hM2 M3 hM3 tbl hT sim x2 x3 b9 b10 a12 a13 a14 a15 a16 a17]
  try rfl
theorem V17_52 : kernelRunB.sl.v4510 c i tbl hT sim b9 b10 a17 = (rowsOf c tbl i sim x2 x3 (accOf c a12 a13 a14 a15 a16 a17) 52).q := by
  unfold kernelRunB.sl.v4510 kernelRunB.sl.H17_52
  rw [View.readCov_cons_toLoadRect]
  refine Eq.trans ?_ (rowsOf_q c tbl i sim x2 x3 (accOf c a12 a13 a14 a15 a16 a17) 51 (by decide)).symm
  unfold kernelRunB.sl.r_483 kernelRunB.sl.r_479 kernelRunB.sl.r_480
  simp only [S_v4354 c i tbl hT sim b10, V17_51 c i M2 hM2 M3 hM3 tbl hT sim x2 x3 b9 b10 a12 a13 a14 a15 a16 a17]
  try rfl
theorem V15_53 : kernelRunB.sl.v4585 c i M2 hM2 M3 hM3 tbl hT sim x2 x3 b9 b10 a15 = (rowsOf c tbl i sim x2 x3 (accOf c a12 a13 a14 a15 a16 a17) 53).nf := by
  unfold kernelRunB.sl.v4585 kernelRunB.sl.H15_53
  rw [View.readCov_cons_toLoadRect]
  refine Eq.trans ?_ (rowsOf_nf c tbl i sim x2 x3 (accOf c a12 a13 a14 a15 a16 a17) 52 (by decide)).symm
  unfold kernelRunB.sl.r_491 kernelRunB.sl.r_486 kernelRunB.sl.r_487
  simp only [S_v4439 c i tbl hT sim b9, V15_52 c i M2 hM2 M3 hM3 tbl hT sim x2 x3 b9 b10 a12 a13 a14 a15 a16 a17, in_read M2 hM2 x2 52 (by decide), mk_read M3 hM3 x3 52 (by decide)]
  try rfl
theorem V16_53 : kernelRunB.sl.v4590 c i tbl hT sim b9 b10 a16 = (rowsOf c tbl i sim x2 x3 (accOf c a12 a13 a14 a15 a16 a17) 53).s := by
  unfold kernelRunB.sl.v4590 kernelRunB.sl.H16_53
  rw [View.readCov_cons_toLoadRect]
  refine Eq.trans ?_ (rowsOf_s c tbl i sim x2 x3 (accOf c a12 a13 a14 a15 a16 a17) 52 (by decide)).symm
  unfold kernelRunB.sl.r_493
  simp only [S_v4439 c i tbl hT sim b9, V16_52 c i M2 hM2 M3 hM3 tbl hT sim x2 x3 b9 b10 a12 a13 a14 a15 a16 a17]
  try rfl
theorem V17_53 : kernelRunB.sl.v4595 c i tbl hT sim b9 b10 a17 = (rowsOf c tbl i sim x2 x3 (accOf c a12 a13 a14 a15 a16 a17) 53).q := by
  unfold kernelRunB.sl.v4595 kernelRunB.sl.H17_53
  rw [View.readCov_cons_toLoadRect]
  refine Eq.trans ?_ (rowsOf_q c tbl i sim x2 x3 (accOf c a12 a13 a14 a15 a16 a17) 52 (by decide)).symm
  unfold kernelRunB.sl.r_494
  simp only [S_v4439 c i tbl hT sim b9, V17_52 c i M2 hM2 M3 hM3 tbl hT sim x2 x3 b9 b10 a12 a13 a14 a15 a16 a17]
  try rfl
theorem V15_54 : kernelRunB.sl.v4670 c i M2 hM2 M3 hM3 tbl hT sim x2 x3 b9 b10 a15 = (rowsOf c tbl i sim x2 x3 (accOf c a12 a13 a14 a15 a16 a17) 54).nf := by
  unfold kernelRunB.sl.v4670 kernelRunB.sl.H15_54
  rw [View.readCov_cons_toLoadRect]
  refine Eq.trans ?_ (rowsOf_nf c tbl i sim x2 x3 (accOf c a12 a13 a14 a15 a16 a17) 53 (by decide)).symm
  unfold kernelRunB.sl.r_502
  simp only [S_v4524 c i tbl hT sim b10, V15_53 c i M2 hM2 M3 hM3 tbl hT sim x2 x3 b9 b10 a12 a13 a14 a15 a16 a17, in_read M2 hM2 x2 53 (by decide), mk_read M3 hM3 x3 53 (by decide)]
  try rfl
theorem V16_54 : kernelRunB.sl.v4675 c i tbl hT sim b9 b10 a16 = (rowsOf c tbl i sim x2 x3 (accOf c a12 a13 a14 a15 a16 a17) 54).s := by
  unfold kernelRunB.sl.v4675 kernelRunB.sl.H16_54
  rw [View.readCov_cons_toLoadRect]
  refine Eq.trans ?_ (rowsOf_s c tbl i sim x2 x3 (accOf c a12 a13 a14 a15 a16 a17) 53 (by decide)).symm
  unfold kernelRunB.sl.r_505 kernelRunB.sl.r_500
  simp only [S_v4524 c i tbl hT sim b10, V16_53 c i M2 hM2 M3 hM3 tbl hT sim x2 x3 b9 b10 a12 a13 a14 a15 a16 a17]
  try rfl
theorem V17_54 : kernelRunB.sl.v4680 c i tbl hT sim b9 b10 a17 = (rowsOf c tbl i sim x2 x3 (accOf c a12 a13 a14 a15 a16 a17) 54).q := by
  unfold kernelRunB.sl.v4680 kernelRunB.sl.H17_54
  rw [View.readCov_cons_toLoadRect]
  refine Eq.trans ?_ (rowsOf_q c tbl i sim x2 x3 (accOf c a12 a13 a14 a15 a16 a17) 53 (by decide)).symm
  unfold kernelRunB.sl.r_504 kernelRunB.sl.r_500
  simp only [S_v4524 c i tbl hT sim b10, V17_53 c i M2 hM2 M3 hM3 tbl hT sim x2 x3 b9 b10 a12 a13 a14 a15 a16 a17]
  try rfl
theorem V15_55 : kernelRunB.sl.v4755 c i M2 hM2 M3 hM3 tbl hT sim x2 x3 b9 b10 a15 = (rowsOf c tbl i sim x2 x3 (accOf c a12 a13 a14 a15 a16 a17) 55).nf := by
  unfold kernelRunB.sl.v4755 kernelRunB.sl.H15_55
  rw [View.readCov_cons_toLoadRect]
  refine Eq.trans ?_ (rowsOf_nf c tbl i sim x2 x3 (accOf c a12 a13 a14 a15 a16 a17) 54 (by decide)).symm
  unfold kernelRunB.sl.r_512 kernelRunB.sl.r_508 kernelRunB.sl.r_509 kernelRunB.sl.r_510 kernelRunB.sl.r_511
  simp only [S_v4609 c i tbl hT sim b9, V15_54 c i M2 hM2 M3 hM3 tbl hT sim x2 x3 b9 b10 a12 a13 a14 a15 a16 a17, in_read M2 hM2 x2 54 (by decide), mk_read M3 hM3 x3 54 (by decide)]
  try rfl
theorem V16_55 : kernelRunB.sl.v4760 c i tbl hT sim b9 b10 a16 = (rowsOf c tbl i sim x2 x3 (accOf c a12 a13 a14 a15 a16 a17) 55).s := by
  unfold kernelRunB.sl.v4760 kernelRunB.sl.H16_55
  rw [View.readCov_cons_toLoadRect]
  refine Eq.trans ?_ (rowsOf_s c tbl i sim x2 x3 (accOf c a12 a13 a14 a15 a16 a17) 54 (by decide)).symm
  unfold kernelRunB.sl.r_513 kernelRunB.sl.r_510 kernelRunB.sl.r_511
  simp only [S_v4609 c i tbl hT sim b9, V16_54 c i M2 hM2 M3 hM3 tbl hT sim x2 x3 b9 b10 a12 a13 a14 a15 a16 a17]
  try rfl
theorem V17_55 : kernelRunB.sl.v4765 c i tbl hT sim b9 b10 a17 = (rowsOf c tbl i sim x2 x3 (accOf c a12 a13 a14 a15 a16 a17) 55).q := by
  unfold kernelRunB.sl.v4765 kernelRunB.sl.H17_55
  rw [View.readCov_cons_toLoadRect]
  refine Eq.trans ?_ (rowsOf_q c tbl i sim x2 x3 (accOf c a12 a13 a14 a15 a16 a17) 54 (by decide)).symm
  unfold kernelRunB.sl.r_514 kernelRunB.sl.r_510 kernelRunB.sl.r_511
  simp only [S_v4609 c i tbl hT sim b9, V17_54 c i M2 hM2 M3 hM3 tbl hT sim x2 x3 b9 b10 a12 a13 a14 a15 a16 a17]
  try rfl
theorem V15_56 : kernelRunB.sl.v4840 c i M2 hM2 M3 hM3 tbl hT sim x2 x3 b9 b10 a15 = (rowsOf c tbl i sim x2 x3 (accOf c a12 a13 a14 a15 a16 a17) 56).nf := by
  unfold kernelRunB.sl.v4840 kernelRunB.sl.H15_56
  rw [View.readCov_cons_toLoadRect]
  refine Eq.trans ?_ (rowsOf_nf c tbl i sim x2 x3 (accOf c a12 a13 a14 a15 a16 a17) 55 (by decide)).symm
  unfold kernelRunB.sl.r_521 kernelRunB.sl.r_517
  simp only [S_v4694 c i tbl hT sim b10, V15_55 c i M2 hM2 M3 hM3 tbl hT sim x2 x3 b9 b10 a12 a13 a14 a15 a16 a17, in_read M2 hM2 x2 55 (by decide), mk_read M3 hM3 x3 55 (by decide)]
  try rfl
theorem V16_56 : kernelRunB.sl.v4845 c i tbl hT sim b9 b10 a16 = (rowsOf c tbl i sim x2 x3 (accOf c a12 a13 a14 a15 a16 a17) 56).s := by
  unfold kernelRunB.sl.v4845 kernelRunB.sl.H16_56
  rw [View.readCov_cons_toLoadRect]
  refine Eq.trans ?_ (rowsOf_s c tbl i sim x2 x3 (accOf c a12 a13 a14 a15 a16 a17) 55 (by decide)).symm
  unfold kernelRunB.sl.r_523
  simp only [S_v4694 c i tbl hT sim b10, V16_55 c i M2 hM2 M3 hM3 tbl hT sim x2 x3 b9 b10 a12 a13 a14 a15 a16 a17]
  try rfl
theorem V17_56 : kernelRunB.sl.v4850 c i tbl hT sim b9 b10 a17 = (rowsOf c tbl i sim x2 x3 (accOf c a12 a13 a14 a15 a16 a17) 56).q := by
  unfold kernelRunB.sl.v4850 kernelRunB.sl.H17_56
  rw [View.readCov_cons_toLoadRect]
  refine Eq.trans ?_ (rowsOf_q c tbl i sim x2 x3 (accOf c a12 a13 a14 a15 a16 a17) 55 (by decide)).symm
  unfold kernelRunB.sl.r_524
  simp only [S_v4694 c i tbl hT sim b10, V17_55 c i M2 hM2 M3 hM3 tbl hT sim x2 x3 b9 b10 a12 a13 a14 a15 a16 a17]
  try rfl
theorem V15_57 : kernelRunB.sl.v4925 c i M2 hM2 M3 hM3 tbl hT sim x2 x3 b9 b10 a15 = (rowsOf c tbl i sim x2 x3 (accOf c a12 a13 a14 a15 a16 a17) 57).nf := by
  unfold kernelRunB.sl.v4925 kernelRunB.sl.H15_57
  rw [View.readCov_cons_toLoadRect]
  refine Eq.trans ?_ (rowsOf_nf c tbl i sim x2 x3 (accOf c a12 a13 a14 a15 a16 a17) 56 (by decide)).symm
  unfold kernelRunB.sl.r_532
  simp only [S_v4779 c i tbl hT sim b9, V15_56 c i M2 hM2 M3 hM3 tbl hT sim x2 x3 b9 b10 a12 a13 a14 a15 a16 a17, in_read M2 hM2 x2 56 (by decide), mk_read M3 hM3 x3 56 (by decide)]
  try rfl
theorem V16_57 : kernelRunB.sl.v4930 c i tbl hT sim b9 b10 a16 = (rowsOf c tbl i sim x2 x3 (accOf c a12 a13 a14 a15 a16 a17) 57).s := by
  unfold kernelRunB.sl.v4930 kernelRunB.sl.H16_57
  rw [View.readCov_cons_toLoadRect]
  refine Eq.trans ?_ (rowsOf_s c tbl i sim x2 x3 (accOf c a12 a13 a14 a15 a16 a17) 56 (by decide)).symm
  unfold kernelRunB.sl.r_533 kernelRunB.sl.r_530
  simp only [S_v4779 c i tbl hT sim b9, V16_56 c i M2 hM2 M3 hM3 tbl hT sim x2 x3 b9 b10 a12 a13 a14 a15 a16 a17]
  try rfl
theorem V17_57 : kernelRunB.sl.v4935 c i tbl hT sim b9 b10 a17 = (rowsOf c tbl i sim x2 x3 (accOf c a12 a13 a14 a15 a16 a17) 57).q := by
  unfold kernelRunB.sl.v4935 kernelRunB.sl.H17_57
  rw [View.readCov_cons_toLoadRect]
  refine Eq.trans ?_ (rowsOf_q c tbl i sim x2 x3 (accOf c a12 a13 a14 a15 a16 a17) 56 (by decide)).symm
  unfold kernelRunB.sl.r_534 kernelRunB.sl.r_530
  simp only [S_v4779 c i tbl hT sim b9, V17_56 c i M2 hM2 M3 hM3 tbl hT sim x2 x3 b9 b10 a12 a13 a14 a15 a16 a17]
  try rfl
theorem V15_58 : kernelRunB.sl.v5010 c i M2 hM2 M3 hM3 tbl hT sim x2 x3 b9 b10 a15 = (rowsOf c tbl i sim x2 x3 (accOf c a12 a13 a14 a15 a16 a17) 58).nf := by
  unfold kernelRunB.sl.v5010 kernelRunB.sl.H15_58
  rw [View.readCov_cons_toLoadRect]
  refine Eq.trans ?_ (rowsOf_nf c tbl i sim x2 x3 (accOf c a12 a13 a14 a15 a16 a17) 57 (by decide)).symm
  unfold kernelRunB.sl.r_542 kernelRunB.sl.r_537 kernelRunB.sl.r_538 kernelRunB.sl.r_539 kernelRunB.sl.r_540 kernelRunB.sl.cst_781
  simp only [S_v4864 c i tbl hT sim b10, V15_57 c i M2 hM2 M3 hM3 tbl hT sim x2 x3 b9 b10 a12 a13 a14 a15 a16 a17, in_read M2 hM2 x2 57 (by decide), mk_read M3 hM3 x3 57 (by decide)]
  try rfl
theorem V16_58 : kernelRunB.sl.v5015 c i tbl hT sim b9 b10 a16 = (rowsOf c tbl i sim x2 x3 (accOf c a12 a13 a14 a15 a16 a17) 58).s := by
  unfold kernelRunB.sl.v5015 kernelRunB.sl.H16_58
  rw [View.readCov_cons_toLoadRect]
  refine Eq.trans ?_ (rowsOf_s c tbl i sim x2 x3 (accOf c a12 a13 a14 a15 a16 a17) 57 (by decide)).symm
  unfold kernelRunB.sl.r_543 kernelRunB.sl.r_539 kernelRunB.sl.r_540 kernelRunB.sl.cst_781
  simp only [S_v4864 c i tbl hT sim b10, V16_57 c i M2 hM2 M3 hM3 tbl hT sim x2 x3 b9 b10 a12 a13 a14 a15 a16 a17]
  try rfl
theorem V17_58 : kernelRunB.sl.v5020 c i tbl hT sim b9 b10 a17 = (rowsOf c tbl i sim x2 x3 (accOf c a12 a13 a14 a15 a16 a17) 58).q := by
  unfold kernelRunB.sl.v5020 kernelRunB.sl.H17_58
  rw [View.readCov_cons_toLoadRect]
  refine Eq.trans ?_ (rowsOf_q c tbl i sim x2 x3 (accOf c a12 a13 a14 a15 a16 a17) 57 (by decide)).symm
  unfold kernelRunB.sl.r_544 kernelRunB.sl.r_539 kernelRunB.sl.r_540 kernelRunB.sl.cst_781
  simp only [S_v4864 c i tbl hT sim b10, V17_57 c i M2 hM2 M3 hM3 tbl hT sim x2 x3 b9 b10 a12 a13 a14 a15 a16 a17]
  try rfl
theorem V15_59 : kernelRunB.sl.v5095 c i M2 hM2 M3 hM3 tbl hT sim x2 x3 b9 b10 a15 = (rowsOf c tbl i sim x2 x3 (accOf c a12 a13 a14 a15 a16 a17) 59).nf := by
  unfold kernelRunB.sl.v5095 kernelRunB.sl.H15_59
  rw [View.readCov_cons_toLoadRect]
  refine Eq.trans ?_ (rowsOf_nf c tbl i sim x2 x3 (accOf c a12 a13 a14 a15 a16 a17) 58 (by decide)).symm
  unfold kernelRunB.sl.r_549
  simp only [V15_58 c i M2 hM2 M3 hM3 tbl hT sim x2 x3 b9 b10 a12 a13 a14 a15 a16 a17, S_v_2 c i tbl hT sim b9, in_read M2 hM2 x2 58 (by decide), mk_read M3 hM3 x3 58 (by decide)]
  try rfl
theorem V16_59 : kernelRunB.sl.v5100 c i tbl hT sim b9 b10 a16 = (rowsOf c tbl i sim x2 x3 (accOf c a12 a13 a14 a15 a16 a17) 59).s := by
  unfold kernelRunB.sl.v5100 kernelRunB.sl.H16_59
  rw [View.readCov_cons_toLoadRect]
  refine Eq.trans ?_ (rowsOf_s c tbl i sim x2 x3 (accOf c a12 a13 a14 a15 a16 a17) 58 (by decide)).symm
  unfold kernelRunB.sl.r_551
  simp only [V16_58 c i M2 hM2 M3 hM3 tbl hT sim x2 x3 b9 b10 a12 a13 a14 a15 a16 a17, S_v_2 c i tbl hT sim b9]
  try rfl
theorem V17_59 : kernelRunB.sl.v5105 c i tbl hT sim b9 b10 a17 = (rowsOf c tbl i sim x2 x3 (accOf c a12 a13 a14 a15 a16 a17) 59).q := by
  unfold kernelRunB.sl.v5105 kernelRunB.sl.H17_59
  rw [View.readCov_cons_toLoadRect]
  refine Eq.trans ?_ (rowsOf_q c tbl i sim x2 x3 (accOf c a12 a13 a14 a15 a16 a17) 58 (by decide)).symm
  unfold kernelRunB.sl.r_552
  simp only [V17_58 c i M2 hM2 M3 hM3 tbl hT sim x2 x3 b9 b10 a12 a13 a14 a15 a16 a17, S_v_2 c i tbl hT sim b9]
  try rfl
theorem V15_60 : kernelRunB.sl.v5180 c i M2 hM2 M3 hM3 tbl hT sim x2 x3 b9 b10 a15 = (rowsOf c tbl i sim x2 x3 (accOf c a12 a13 a14 a15 a16 a17) 60).nf := by
  unfold kernelRunB.sl.v5180 kernelRunB.sl.H15_60
  rw [View.readCov_cons_toLoadRect]
  refine Eq.trans ?_ (rowsOf_nf c tbl i sim x2 x3 (accOf c a12 a13 a14 a15 a16 a17) 59 (by decide)).symm
  unfold kernelRunB.sl.r_559
  simp only [S_v5034 c i tbl hT sim b10, V15_59 c i M2 hM2 M3 hM3 tbl hT sim x2 x3 b9 b10 a12 a13 a14 a15 a16 a17, in_read M2 hM2 x2 59 (by decide), mk_read M3 hM3 x3 59 (by decide)]
  try rfl
theorem V16_60 : kernelRunB.sl.v5185 c i tbl hT sim b9 b10 a16 = (rowsOf c tbl i sim x2 x3 (accOf c a12 a13 a14 a15 a16 a17) 60).s := by
  unfold kernelRunB.sl.v5185 kernelRunB.sl.H16_60
  rw [View.readCov_cons_toLoadRect]
  refine Eq.trans ?_ (rowsOf_s c tbl i sim x2 x3 (accOf c a12 a13 a14 a15 a16 a17) 59 (by decide)).symm
  unfold kernelRunB.sl.r_560 kernelRunB.sl.r_557
  simp only [S_v5034 c i tbl hT sim b10, V16_59 c i M2 hM2 M3 hM3 tbl hT sim x2 x3 b9 b10 a12 a13 a14 a15 a16 a17]
  try rfl
theorem V17_60 : kernelRunB.sl.v5190 c i tbl hT sim b9 b10 a17 = (rowsOf c tbl i sim x2 x3 (accOf c a12 a13 a14 a15 a16 a17) 60).q := by
  unfold kernelRunB.sl.v5190 kernelRunB.sl.H17_60
  rw [View.readCov_cons_toLoadRect]
  refine Eq.trans ?_ (rowsOf_q c tbl i sim x2 x3 (accOf c a12 a13 a14 a15 a16 a17) 59 (by decide)).symm
  unfold kernelRunB.sl.r_561 kernelRunB.sl.r_557
  simp only [S_v5034 c i tbl hT sim b10, V17_59 c i M2 hM2 M3 hM3 tbl hT sim x2 x3 b9 b10 a12 a13 a14 a15 a16 a17]
  try rfl
theorem V15_61 : kernelRunB.sl.v5265 c i M2 hM2 M3 hM3 tbl hT sim x2 x3 b9 b10 a15 = (rowsOf c tbl i sim x2 x3 (accOf c a12 a13 a14 a15 a16 a17) 61).nf := by
  unfold kernelRunB.sl.v5265 kernelRunB.sl.H15_61
  rw [View.readCov_cons_toLoadRect]
  refine Eq.trans ?_ (rowsOf_nf c tbl i sim x2 x3 (accOf c a12 a13 a14 a15 a16 a17) 60 (by decide)).symm
  unfold kernelRunB.sl.r_568 kernelRunB.sl.r_564 kernelRunB.sl.r_565 kernelRunB.sl.r_566 kernelRunB.sl.cst_15
  simp only [S_v5119 c i tbl hT sim b9, V15_60 c i M2 hM2 M3 hM3 tbl hT sim x2 x3 b9 b10 a12 a13 a14 a15 a16 a17, in_read M2 hM2 x2 60 (by decide), mk_read M3 hM3 x3 60 (by decide)]
  try rfl
theorem V16_61 : kernelRunB.sl.v5270 c i tbl hT sim b9 b10 a16 = (rowsOf c tbl i sim x2 x3 (accOf c a12 a13 a14 a15 a16 a17) 61).s := by
  unfold kernelRunB.sl.v5270 kernelRunB.sl.H16_61
  rw [View.readCov_cons_toLoadRect]
  refine Eq.trans ?_ (rowsOf_s c tbl i sim x2 x3 (accOf c a12 a13 a14 a15 a16 a17) 60 (by decide)).symm
  unfold kernelRunB.sl.r_569 kernelRunB.sl.r_566 kernelRunB.sl.cst_15
  simp only [S_v5119 c i tbl hT sim b9, V16_60 c i M2 hM2 M3 hM3 tbl hT sim x2 x3 b9 b10 a12 a13 a14 a15 a16 a17]
  try rfl
theorem V17_61 : kernelRunB.sl.v5275 c i tbl hT sim b9 b10 a17 = (rowsOf c tbl i sim x2 x3 (accOf c a12 a13 a14 a15 a16 a17) 61).q := by
  unfold kernelRunB.sl.v5275 kernelRunB.sl.H17_61
  rw [View.readCov_cons_toLoadRect]
  refine Eq.trans ?_ (rowsOf_q c tbl i sim x2 x3 (accOf c a12 a13 a14 a15 a16 a17) 60 (by decide)).symm
  unfold kernelRunB.sl.r_570 kernelRunB.sl.r_566 kernelRunB.sl.cst_15
  simp only [S_v5119 c i tbl hT sim b9, V17_60 c i M2 hM2 M3 hM3 tbl hT sim x2 x3 b9 b10 a12 a13 a14 a15 a16 a17]
  try rfl
theorem V15_62 : kernelRunB.sl.v5350 c i M2 hM2 M3 hM3 tbl hT sim x2 x3 b9 b10 a15 = (rowsOf c tbl i sim x2 x3 (accOf c a12 a13 a14 a15 a16 a17) 62).nf := by
  unfold kernelRunB.sl.v5350 kernelRunB.sl.H15_62
  rw [View.readCov_cons_toLoadRect]
  refine Eq.trans ?_ (rowsOf_nf c tbl i sim x2 x3 (accOf c a12 a13 a14 a15 a16 a17) 61 (by decide)).symm
  unfold kernelRunB.sl.r_576
  simp only [S_v5204 c i tbl hT sim b10, V15_61 c i M2 hM2 M3 hM3 tbl hT sim x2 x3 b9 b10 a12 a13 a14 a15 a16 a17, in_read M2 hM2 x2 61 (by decide), mk_read M3 hM3 x3 61 (by decide)]
  try rfl
theorem V16_62 : kernelRunB.sl.v5355 c i tbl hT sim b9 b10 a16 = (rowsOf c tbl i sim x2 x3 (accOf c a12 a13 a14 a15 a16 a17) 62).s := by
  unfold kernelRunB.sl.v5355 kernelRunB.sl.H16_62
  rw [View.readCov_cons_toLoadRect]
  refine Eq.trans ?_ (rowsOf_s c tbl i sim x2 x3 (accOf c a12 a13 a14 a15 a16 a17) 61 (by decide)).symm
  unfold kernelRunB.sl.r_578
  simp only [S_v5204 c i tbl hT sim b10, V16_61 c i M2 hM2 M3 hM3 tbl hT sim x2 x3 b9 b10 a12 a13 a14 a15 a16 a17]
  try rfl
theorem V17_62 : kernelRunB.sl.v5360 c i tbl hT sim b9 b10 a17 = (rowsOf c tbl i sim x2 x3 (accOf c a12 a13 a14 a15 a16 a17) 62).q := by
  unfold kernelRunB.sl.v5360 kernelRunB.sl.H17_62
  rw [View.readCov_cons_toLoadRect]
  refine Eq.trans ?_ (rowsOf_q c tbl i sim x2 x3 (accOf c a12 a13 a14 a15 a16 a17) 61 (by decide)).symm
  unfold kernelRunB.sl.r_580 kernelRunB.sl.r_579
  simp only [S_v5204 c i tbl hT sim b10, V17_61 c i M2 hM2 M3 hM3 tbl hT sim x2 x3 b9 b10 a12 a13 a14 a15 a16 a17]
  try rfl
theorem V15_63 : kernelRunB.sl.v5429 c i M2 hM2 M3 hM3 tbl hT sim x2 x3 b9 b10 a15 = (rowsOf c tbl i sim x2 x3 (accOf c a12 a13 a14 a15 a16 a17) 63).nf := by
  unfold kernelRunB.sl.v5429 kernelRunB.sl.H15_63
  rw [View.readCov_cons_toLoadRect]
  refine Eq.trans ?_ (rowsOf_nf c tbl i sim x2 x3 (accOf c a12 a13 a14 a15 a16 a17) 62 (by decide)).symm
  unfold kernelRunB.sl.r_590 kernelRunB.sl.r_583 kernelRunB.sl.r_586 kernelRunB.sl.cst_109
  simp only [S_v5289 c i tbl hT sim b9, V15_62 c i M2 hM2 M3 hM3 tbl hT sim x2 x3 b9 b10 a12 a13 a14 a15 a16 a17, in_read M2 hM2 x2 62 (by decide), mk_read M3 hM3 x3 62 (by decide)]
  try rfl
theorem V16_63 : kernelRunB.sl.v5434 c i tbl hT sim b9 b10 a16 = (rowsOf c tbl i sim x2 x3 (accOf c a12 a13 a14 a15 a16 a17) 63).s := by
  unfold kernelRunB.sl.v5434 kernelRunB.sl.H16_63
  rw [View.readCov_cons_toLoadRect]
  refine Eq.trans ?_ (rowsOf_s c tbl i sim x2 x3 (accOf c a12 a13 a14 a15 a16 a17) 62 (by decide)).symm
  unfold kernelRunB.sl.r_588 kernelRunB.sl.r_585
  simp only [S_v5289 c i tbl hT sim b9, V16_62 c i M2 hM2 M3 hM3 tbl hT sim x2 x3 b9 b10 a12 a13 a14 a15 a16 a17]
  try rfl
theorem V17_63 : kernelRunB.sl.v5439 c i tbl hT sim b9 b10 a17 = (rowsOf c tbl i sim x2 x3 (accOf c a12 a13 a14 a15 a16 a17) 63).q := by
  unfold kernelRunB.sl.v5439 kernelRunB.sl.H17_63
  rw [View.readCov_cons_toLoadRect]
  refine Eq.trans ?_ (rowsOf_q c tbl i sim x2 x3 (accOf c a12 a13 a14 a15 a16 a17) 62 (by decide)).symm
  unfold kernelRunB.sl.r_589 kernelRunB.sl.r_585
  simp only [S_v5289 c i tbl hT sim b9, V17_62 c i M2 hM2 M3 hM3 tbl hT sim x2 x3 b9 b10 a12 a13 a14 a15 a16 a17]
  try rfl
theorem L15_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : ¬ C2 i) : (kernelRunB c i M2 hM2 M3 hM3 M5 hM5 M6 hM6 M7 hM7 M8 hM8 tbl hT sim x2 x3 b9 b10 a12 a13 a14 a15 a16 a17 h1 h2).2.2.2.1 = ⟨Rect.unit ![0, 0] S1x1.size inb_S1x1_S1x1_0_0, k0_pay968 (kernelRunB.sl.r_596 c i M2 hM2 M3 hM3 tbl hT sim x2 x3 b10) (kernelRunB.sl.v5429 c i M2 hM2 M3 hM3 tbl hT sim x2 x3 b9 b10 a15)⟩ :: kernelRunB.sl.H15_63 c i M2 hM2 M3 hM3 tbl hT sim x2 x3 b9 b10 a15 := rfl
theorem V15_64 : View.readAt (Elt F) (Memref.whole cc0_scratch6).view (Rect.unit ![0, 0] S1x1.size inb_S1x1_S1x1_0_0).toLoadRect ((Memref.whole cc0_scratch6).view.writes (Elt F) a15 (⟨Rect.unit ![0, 0] S1x1.size inb_S1x1_S1x1_0_0, k0_pay968 (kernelRunB.sl.r_596 c i M2 hM2 M3 hM3 tbl hT sim x2 x3 b10) (kernelRunB.sl.v5429 c i M2 hM2 M3 hM3 tbl hT sim x2 x3 b9 b10 a15)⟩ :: kernelRunB.sl.H15_63 c i M2 hM2 M3 hM3 tbl hT sim x2 x3 b9 b10 a15)) = (rowsOf c tbl i sim x2 x3 (accOf c a12 a13 a14 a15 a16 a17) 64).nf := by
  rw [read_last_write]
  refine Eq.trans ?_ (rowsOf_nf c tbl i sim x2 x3 (accOf c a12 a13 a14 a15 a16 a17) 63 (by decide)).symm
  unfold kernelRunB.sl.r_596 kernelRunB.sl.r_592 kernelRunB.sl.r_593 kernelRunB.sl.r_594 kernelRunB.sl.r_595
  simp only [S_v5368 c i tbl hT sim b10, V15_63 c i M2 hM2 M3 hM3 tbl hT sim x2 x3 b9 b10 a12 a13 a14 a15 a16 a17, in_read M2 hM2 x2 63 (by decide), mk_read M3 hM3 x3 63 (by decide)]
  try rfl
theorem L16_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : ¬ C2 i) : (kernelRunB c i M2 hM2 M3 hM3 M5 hM5 M6 hM6 M7 hM7 M8 hM8 tbl hT sim x2 x3 b9 b10 a12 a13 a14 a15 a16 a17 h1 h2).2.2.2.2.1 = ⟨Rect.unit ![0, 0] S1x1.size inb_S1x1_S1x1_0_0, k0_pay969 (kernelRunB.sl.r_597 c i tbl hT sim b10) (kernelRunB.sl.v5434 c i tbl hT sim b9 b10 a16)⟩ :: kernelRunB.sl.H16_63 c i tbl hT sim b9 b10 a16 := rfl
theorem V16_64 : View.readAt (Elt F) (Memref.whole cc0_scratch7).view (Rect.unit ![0, 0] S1x1.size inb_S1x1_S1x1_0_0).toLoadRect ((Memref.whole cc0_scratch7).view.writes (Elt F) a16 (⟨Rect.unit ![0, 0] S1x1.size inb_S1x1_S1x1_0_0, k0_pay969 (kernelRunB.sl.r_597 c i tbl hT sim b10) (kernelRunB.sl.v5434 c i tbl hT sim b9 b10 a16)⟩ :: kernelRunB.sl.H16_63 c i tbl hT sim b9 b10 a16)) = (rowsOf c tbl i sim x2 x3 (accOf c a12 a13 a14 a15 a16 a17) 64).s := by
  rw [read_last_write]
  refine Eq.trans ?_ (rowsOf_s c tbl i sim x2 x3 (accOf c a12 a13 a14 a15 a16 a17) 63 (by decide)).symm
  unfold kernelRunB.sl.r_597 kernelRunB.sl.r_594 kernelRunB.sl.r_595
  simp only [S_v5368 c i tbl hT sim b10, V16_63 c i M2 hM2 M3 hM3 tbl hT sim x2 x3 b9 b10 a12 a13 a14 a15 a16 a17]
  try rfl
theorem L17_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : ¬ C2 i) : (kernelRunB c i M2 hM2 M3 hM3 M5 hM5 M6 hM6 M7 hM7 M8 hM8 tbl hT sim x2 x3 b9 b10 a12 a13 a14 a15 a16 a17 h1 h2).2.2.2.2.2.1 = ⟨Rect.unit ![0, 0] S1x1.size inb_S1x1_S1x1_0_0, k0_pay1 (kernelRunB.sl.r_600 c i tbl hT sim b9 b10 a17)⟩ :: kernelRunB.sl.H17_63 c i tbl hT sim b9 b10 a17 := rfl
theorem V17_64 : View.readAt (Elt F) (Memref.whole cc0_scratch8).view (Rect.unit ![0, 0] S1x1.size inb_S1x1_S1x1_0_0).toLoadRect ((Memref.whole cc0_scratch8).view.writes (Elt F) a17 (⟨Rect.unit ![0, 0] S1x1.size inb_S1x1_S1x1_0_0, k0_pay1 (kernelRunB.sl.r_600 c i tbl hT sim b9 b10 a17)⟩ :: kernelRunB.sl.H17_63 c i tbl hT sim b9 b10 a17)) = (rowsOf c tbl i sim x2 x3 (accOf c a12 a13 a14 a15 a16 a17) 64).q := by
  rw [read_last_write]
  refine Eq.trans ?_ (rowsOf_q c tbl i sim x2 x3 (accOf c a12 a13 a14 a15 a16 a17) 63 (by decide)).symm
  unfold kernelRunB.sl.r_600 kernelRunB.sl.r_598 kernelRunB.sl.r_594 kernelRunB.sl.r_595
  simp only [S_v5368 c i tbl hT sim b10, V17_63 c i M2 hM2 M3 hM3 tbl hT sim x2 x3 b9 b10 a12 a13 a14 a15 a16 a17]
  try rfl
end TabB

end Cert.Proof.KI

end
-- ==== Proof.KIStepB.lean ====
/-
  Case B of the kernel body's run at one grid point: what the run found in the six accumulator buffers is the
  point's clean step. Each found list ends with a write through the whole one-by-one buffer, so the buffer reads
  back as that write's payload; the payload is the running sum after sixty-four rows (the table's last line for
  that sum); and the sixty-four rows, one at a time, are the point's step.
-/
import proofs.«419560_j5755256177164_3_alg».proof.Proof.KIRunB
import proofs.«419560_j5755256177164_3_alg».proof.Proof.KIStepLib
import proofs.«419560_j5755256177164_3_alg».proof.Proof.KIStepBTabV1
import proofs.«419560_j5755256177164_3_alg».proof.Proof.KIStepBTabV2

set_option maxRecDepth 65536

noncomputable section

namespace Cert.Proof.KI

open Cert.KernelIdeal Cert.KernelIdeal.Gen
open Idealize.ShloMosaic Idealize.ShloMosaic.TcCoe
open Idealize.SL Idealize.SL.Sem

variable {F : FTy → Type} [FloatOps F]

theorem stepB_eq (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))
    (h1 : ¬ C1 i) (h2 : ¬ C2 i) :
    accOf c
      ((Memref.whole cc0_scratch3).view.writes (Elt F) a12 (kernelRunB c i M2 hM2 M3 hM3 M5 hM5 M6 hM6 M7 hM7 M8 hM8 tbl hT sim x2 x3 b9 b10 a12 a13 a14 a15 a16 a17 h1 h2).1)
      ((Memref.whole cc0_scratch4).view.writes (Elt F) a13 (kernelRunB c i M2 hM2 M3 hM3 M5 hM5 M6 hM6 M7 hM7 M8 hM8 tbl hT sim x2 x3 b9 b10 a12 a13 a14 a15 a16 a17 h1 h2).2.1)
      ((Memref.whole cc0_scratch5).view.writes (Elt F) a14 (kernelRunB c i M2 hM2 M3 hM3 M5 hM5 M6 hM6 M7 hM7 M8 hM8 tbl hT sim x2 x3 b9 b10 a12 a13 a14 a15 a16 a17 h1 h2).2.2.1)
      ((Memref.whole cc0_scratch6).view.writes (Elt F) a15 (kernelRunB c i M2 hM2 M3 hM3 M5 hM5 M6 hM6 M7 hM7 M8 hM8 tbl hT sim x2 x3 b9 b10 a12 a13 a14 a15 a16 a17 h1 h2).2.2.2.1)
      ((Memref.whole cc0_scratch7).view.writes (Elt F) a16 (kernelRunB c i M2 hM2 M3 hM3 M5 hM5 M6 hM6 M7 hM7 M8 hM8 tbl hT sim x2 x3 b9 b10 a12 a13 a14 a15 a16 a17 h1 h2).2.2.2.2.1)
      ((Memref.whole cc0_scratch8).view.writes (Elt F) a17 (kernelRunB c i M2 hM2 M3 hM3 M5 hM5 M6 hM6 M7 hM7 M8 hM8 tbl hT sim x2 x3 b9 b10 a12 a13 a14 a15 a16 a17 h1 h2).2.2.2.2.2.1)
      = pointOf c tbl i sim x2 x3 (accOf c a12 a13 a14 a15 a16 a17) := by
  have e12 : View.readAt (Elt F) (Memref.whole cc0_scratch3).view (Rect.unit ![0, 0] S1x1.size inb_S1x1_S1x1_0_0).toLoadRect
      ((Memref.whole cc0_scratch3).view.writes (Elt F) a12 (kernelRunB c i M2 hM2 M3 hM3 M5 hM5 M6 hM6 M7 hM7 M8 hM8 tbl hT sim x2 x3 b9 b10 a12 a13 a14 a15 a16 a17 h1 h2).1)
      = (rowsOf c tbl i sim x2 x3 (accOf c a12 a13 a14 a15 a16 a17) 64).m :=
    (congrArg (fun L => View.readAt (Elt F) (Memref.whole cc0_scratch3).view (Rect.unit ![0, 0] S1x1.size inb_S1x1_S1x1_0_0).toLoadRect
      ((Memref.whole cc0_scratch3).view.writes (Elt F) a12 L))
      (TabB.L12_eq c i M2 hM2 M3 hM3 tbl hT sim x2 x3 b9 b10 a12 a13 a14 a15 a16 a17 M5 hM5 M6 hM6 M7 hM7 M8 hM8 h1 h2)).trans (TabB.V12_64 c i M2 hM2 M3 hM3 tbl hT sim x2 x3 b9 b10 a12 a13 a14 a15 a16 a17)
  have e13 : View.readAt (Elt F) (Memref.whole cc0_scratch4).view (Rect.unit ![0, 0] S1x1.size inb_S1x1_S1x1_0_0).toLoadRect
      ((Memref.whole cc0_scratch4).view.writes (Elt F) a13 (kernelRunB c i M2 hM2 M3 hM3 M5 hM5 M6 hM6 M7 hM7 M8 hM8 tbl hT sim x2 x3 b9 b10 a12 a13 a14 a15 a16 a17 h1 h2).2.1)
      = (rowsOf c tbl i sim x2 x3 (accOf c a12 a13 a14 a15 a16 a17) 64).logp :=
    (congrArg (fun L => View.readAt (Elt F) (Memref.whole cc0_scratch4).view (Rect.unit ![0, 0] S1x1.size inb_S1x1_S1x1_0_0).toLoadRect
      ((Memref.whole cc0_scratch4).view.writes (Elt F) a13 L))
      (TabB.L13_eq c i M2 hM2 M3 hM3 tbl hT sim x2 x3 b9 b10 a12 a13 a14 a15 a16 a17 M5 hM5 M6 hM6 M7 hM7 M8 hM8 h1 h2)).trans (TabB.V13_64 c i M2 hM2 M3 hM3 tbl hT sim x2 x3 b9 b10 a12 a13 a14 a15 a16 a17)
  have e14 : View.readAt (Elt F) (Memref.whole cc0_scratch5).view (Rect.unit ![0, 0] S1x1.size inb_S1x1_S1x1_0_0).toLoadRect
      ((Memref.whole cc0_scratch5).view.writes (Elt F) a14 (kernelRunB c i M2 hM2 M3 hM3 M5 hM5 M6 hM6 M7 hM7 M8 hM8 tbl hT sim x2 x3 b9 b10 a12 a13 a14 a15 a16 a17 h1 h2).2.2.1)
      = (rowsOf c tbl i sim x2 x3 (accOf c a12 a13 a14 a15 a16 a17) 64).w :=
    (congrArg (fun L => View.readAt (Elt F) (Memref.whole cc0_scratch5).view (Rect.unit ![0, 0] S1x1.size inb_S1x1_S1x1_0_0).toLoadRect
      ((Memref.whole cc0_scratch5).view.writes (Elt F) a14 L))
      (TabB.L14_eq c i M2 hM2 M3 hM3 tbl hT sim x2 x3 b9 b10 a12 a13 a14 a15 a16 a17 M5 hM5 M6 hM6 M7 hM7 M8 hM8 h1 h2)).trans (TabB.V14_64 c i M2 hM2 M3 hM3 tbl hT sim x2 x3 b9 b10 a12 a13 a14 a15 a16 a17)
  have e15 : View.readAt (Elt F) (Memref.whole cc0_scratch6).view (Rect.unit ![0, 0] S1x1.size inb_S1x1_S1x1_0_0).toLoadRect
      ((Memref.whole cc0_scratch6).view.writes (Elt F) a15 (kernelRunB c i M2 hM2 M3 hM3 M5 hM5 M6 hM6 M7 hM7 M8 hM8 tbl hT sim x2 x3 b9 b10 a12 a13 a14 a15 a16 a17 h1 h2).2.2.2.1)
      = (rowsOf c tbl i sim x2 x3 (accOf c a12 a13 a14 a15 a16 a17) 64).nf :=
    (congrArg (fun L => View.readAt (Elt F) (Memref.whole cc0_scratch6).view (Rect.unit ![0, 0] S1x1.size inb_S1x1_S1x1_0_0).toLoadRect
      ((Memref.whole cc0_scratch6).view.writes (Elt F) a15 L))
      (TabB.L15_eq c i M2 hM2 M3 hM3 tbl hT sim x2 x3 b9 b10 a12 a13 a14 a15 a16 a17 M5 hM5 M6 hM6 M7 hM7 M8 hM8 h1 h2)).trans (TabB.V15_64 c i M2 hM2 M3 hM3 tbl hT sim x2 x3 b9 b10 a12 a13 a14 a15 a16 a17)
  have e16 : View.readAt (Elt F) (Memref.whole cc0_scratch7).view (Rect.unit ![0, 0] S1x1.size inb_S1x1_S1x1_0_0).toLoadRect
      ((Memref.whole cc0_scratch7).view.writes (Elt F) a16 (kernelRunB c i M2 hM2 M3 hM3 M5 hM5 M6 hM6 M7 hM7 M8 hM8 tbl hT sim x2 x3 b9 b10 a12 a13 a14 a15 a16 a17 h1 h2).2.2.2.2.1)
      = (rowsOf c tbl i sim x2 x3 (accOf c a12 a13 a14 a15 a16 a17) 64).s :=
    (congrArg (fun L => View.readAt (Elt F) (Memref.whole cc0_scratch7).view (Rect.unit ![0, 0] S1x1.size inb_S1x1_S1x1_0_0).toLoadRect
      ((Memref.whole cc0_scratch7).view.writes (Elt F) a16 L))
      (TabB.L16_eq c i M2 hM2 M3 hM3 tbl hT sim x2 x3 b9 b10 a12 a13 a14 a15 a16 a17 M5 hM5 M6 hM6 M7 hM7 M8 hM8 h1 h2)).trans (TabB.V16_64 c i M2 hM2 M3 hM3 tbl hT sim x2 x3 b9 b10 a12 a13 a14 a15 a16 a17)
  have e17 : View.readAt (Elt F) (Memref.whole cc0_scratch8).view (Rect.unit ![0, 0] S1x1.size inb_S1x1_S1x1_0_0).toLoadRect
      ((Memref.whole cc0_scratch8).view.writes (Elt F) a17 (kernelRunB c i M2 hM2 M3 hM3 M5 hM5 M6 hM6 M7 hM7 M8 hM8 tbl hT sim x2 x3 b9 b10 a12 a13 a14 a15 a16 a17 h1 h2).2.2.2.2.2.1)
      = (rowsOf c tbl i sim x2 x3 (accOf c a12 a13 a14 a15 a16 a17) 64).q :=
    (congrArg (fun L => View.readAt (Elt F) (Memref.whole cc0_scratch8).view (Rect.unit ![0, 0] S1x1.size inb_S1x1_S1x1_0_0).toLoadRect
      ((Memref.whole cc0_scratch8).view.writes (Elt F) a17 L))
      (TabB.L17_eq c i M2 hM2 M3 hM3 tbl hT sim x2 x3 b9 b10 a12 a13 a14 a15 a16 a17 M5 hM5 M6 hM6 M7 hM7 M8 hM8 h1 h2)).trans (TabB.V17_64 c i M2 hM2 M3 hM3 tbl hT sim x2 x3 b9 b10 a12 a13 a14 a15 a16 a17)
  refine Eq.trans ?_ (pointOf_eq_rowsOf c tbl i sim x2 x3 (accOf c a12 a13 a14 a15 a16 a17)).symm
  exact Acc.ext6 e12 e13 e14 e15 e16 e17

end Cert.Proof.KI

end
-- ==== Proof.KIStepCTabW.lean ====
import proofs.«419560_j5755256177164_3_alg».proof.Proof.KIRunC
import proofs.«419560_j5755256177164_3_alg».proof.Proof.KIStepLib

/-!
  The table of case C: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.KI

open Cert.KernelIdeal Cert.KernelIdeal.Gen
open Idealize.ShloMosaic Idealize.ShloMosaic.TcCoe
open Idealize.SL Idealize.SL.Sem

variable {F : FTy → Type} [FloatOps F]

namespace TabC

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

theorem W_r : kernelRunC.sl.r c i tbl = wordAt c tbl i ⟨0, by decide⟩ := by
  unfold kernelRunC.sl.r; exact word_of_off c tbl i ⟨0, by decide⟩ _ _ _ (k0_off1_eq i)
theorem W_r_2 : kernelRunC.sl.r_2 c i tbl = wordAt c tbl i ⟨0, by decide⟩ := by
  unfold kernelRunC.sl.r_2; exact word_of_off c tbl i ⟨0, by decide⟩ _ _ _ (k0_off5_eq i ⟨0, by decide⟩)
theorem W_r_1 : kernelRunC.sl.r_1 c i tbl = wordAt c tbl i ⟨1, by decide⟩ := by
  unfold kernelRunC.sl.r_1; exact word_of_off c tbl i ⟨1, by decide⟩ _ _ _ (k0_off3_eq i)
theorem W_r_12 : kernelRunC.sl.r_12 c i tbl = wordAt c tbl i ⟨1, by decide⟩ := by
  unfold kernelRunC.sl.r_12; exact word_of_off c tbl i ⟨1, by decide⟩ _ _ _ (k0_off7_eq i ⟨0, by decide⟩)
theorem W_r_11 : kernelRunC.sl.r_11 c i tbl = wordAt c tbl i ⟨2, by decide⟩ := by
  unfold kernelRunC.sl.r_11; exact word_of_off c tbl i ⟨2, by decide⟩ _ _ _ (k0_off5_eq i ⟨1, by decide⟩)
theorem W_r_21 : kernelRunC.sl.r_21 c i tbl = wordAt c tbl i ⟨2, by decide⟩ := by
  unfold kernelRunC.sl.r_21; exact word_of_off c tbl i ⟨2, by decide⟩ _ _ _ (k0_off9_eq i ⟨0, by decide⟩)
theorem W_r_20 : kernelRunC.sl.r_20 c i tbl = wordAt c tbl i ⟨3, by decide⟩ := by
  unfold kernelRunC.sl.r_20; exact word_of_off c tbl i ⟨3, by decide⟩ _ _ _ (k0_off7_eq i ⟨1, by decide⟩)
theorem W_r_31 : kernelRunC.sl.r_31 c i tbl = wordAt c tbl i ⟨3, by decide⟩ := by
  unfold kernelRunC.sl.r_31; exact word_of_off c tbl i ⟨3, by decide⟩ _ _ _ (k0_off11_eq i ⟨0, by decide⟩)
theorem W_r_30 : kernelRunC.sl.r_30 c i tbl = wordAt c tbl i ⟨4, by decide⟩ := by
  unfold kernelRunC.sl.r_30; exact word_of_off c tbl i ⟨4, by decide⟩ _ _ _ (k0_off9_eq i ⟨1, by decide⟩)
theorem W_r_41 : kernelRunC.sl.r_41 c i tbl = wordAt c tbl i ⟨4, by decide⟩ := by
  unfold kernelRunC.sl.r_41; exact word_of_off c tbl i ⟨4, by decide⟩ _ _ _ (k0_off13_eq i ⟨0, by decide⟩)
theorem W_r_40 : kernelRunC.sl.r_40 c i tbl = wordAt c tbl i ⟨5, by decide⟩ := by
  unfold kernelRunC.sl.r_40; exact word_of_off c tbl i ⟨5, by decide⟩ _ _ _ (k0_off11_eq i ⟨1, by decide⟩)
theorem W_r_50 : kernelRunC.sl.r_50 c i tbl = wordAt c tbl i ⟨5, by decide⟩ := by
  unfold kernelRunC.sl.r_50; exact word_of_off c tbl i ⟨5, by decide⟩ _ _ _ (k0_off15_eq i ⟨0, by decide⟩)
theorem W_r_49 : kernelRunC.sl.r_49 c i tbl = wordAt c tbl i ⟨6, by decide⟩ := by
  unfold kernelRunC.sl.r_49; exact word_of_off c tbl i ⟨6, by decide⟩ _ _ _ (k0_off13_eq i ⟨1, by decide⟩)
theorem W_r_59 : kernelRunC.sl.r_59 c i tbl = wordAt c tbl i ⟨6, by decide⟩ := by
  unfold kernelRunC.sl.r_59; exact word_of_off c tbl i ⟨6, by decide⟩ _ _ _ (k0_off17_eq i ⟨0, by decide⟩)
theorem W_r_58 : kernelRunC.sl.r_58 c i tbl = wordAt c tbl i ⟨7, by decide⟩ := by
  unfold kernelRunC.sl.r_58; exact word_of_off c tbl i ⟨7, by decide⟩ _ _ _ (k0_off15_eq i ⟨1, by decide⟩)
theorem W_r_68 : kernelRunC.sl.r_68 c i tbl = wordAt c tbl i ⟨7, by decide⟩ := by
  unfold kernelRunC.sl.r_68; exact word_of_off c tbl i ⟨7, by decide⟩ _ _ _ (k0_off19_eq i ⟨0, by decide⟩)
theorem W_r_67 : kernelRunC.sl.r_67 c i tbl = wordAt c tbl i ⟨8, by decide⟩ := by
  unfold kernelRunC.sl.r_67; exact word_of_off c tbl i ⟨8, by decide⟩ _ _ _ (k0_off17_eq i ⟨1, by decide⟩)
theorem W_r_76 : kernelRunC.sl.r_76 c i tbl = wordAt c tbl i ⟨8, by decide⟩ := by
  unfold kernelRunC.sl.r_76; exact word_of_off c tbl i ⟨8, by decide⟩ _ _ _ (k0_off21_eq i ⟨0, by decide⟩)
theorem W_r_75 : kernelRunC.sl.r_75 c i tbl = wordAt c tbl i ⟨9, by decide⟩ := by
  unfold kernelRunC.sl.r_75; exact word_of_off c tbl i ⟨9, by decide⟩ _ _ _ (k0_off19_eq i ⟨1, by decide⟩)
theorem W_r_86 : kernelRunC.sl.r_86 c i tbl = wordAt c tbl i ⟨9, by decide⟩ := by
  unfold kernelRunC.sl.r_86; exact word_of_off c tbl i ⟨9, by decide⟩ _ _ _ (k0_off23_eq i ⟨0, by decide⟩)
theorem W_r_83 : kernelRunC.sl.r_83 c i tbl = wordAt c tbl i ⟨10, by decide⟩ := by
  unfold kernelRunC.sl.r_83; exact word_of_off c tbl i ⟨10, by decide⟩ _ _ _ (k0_off21_eq i ⟨1, by decide⟩)
theorem W_r_93 : kernelRunC.sl.r_93 c i tbl = wordAt c tbl i ⟨10, by decide⟩ := by
  unfold kernelRunC.sl.r_93; exact word_of_off c tbl i ⟨10, by decide⟩ _ _ _ (k0_off25_eq i ⟨0, by decide⟩)
theorem W_r_102 : kernelRunC.sl.r_102 c i tbl = wordAt c tbl i ⟨11, by decide⟩ := by
  unfold kernelRunC.sl.r_102; exact word_of_off c tbl i ⟨11, by decide⟩ _ _ _ (k0_off27_eq i ⟨0, by decide⟩)
theorem W_r_92 : kernelRunC.sl.r_92 c i tbl = wordAt c tbl i ⟨11, by decide⟩ := by
  unfold kernelRunC.sl.r_92; exact word_of_off c tbl i ⟨11, by decide⟩ _ _ _ (k0_off23_eq i ⟨1, by decide⟩)
theorem W_r_101 : kernelRunC.sl.r_101 c i tbl = wordAt c tbl i ⟨12, by decide⟩ := by
  unfold kernelRunC.sl.r_101; exact word_of_off c tbl i ⟨12, by decide⟩ _ _ _ (k0_off25_eq i ⟨1, by decide⟩)
theorem W_r_114 : kernelRunC.sl.r_114 c i tbl = wordAt c tbl i ⟨12, by decide⟩ := by
  unfold kernelRunC.sl.r_114; exact word_of_off c tbl i ⟨12, by decide⟩ _ _ _ (k0_off29_eq i ⟨0, by decide⟩)
theorem W_r_111 : kernelRunC.sl.r_111 c i tbl = wordAt c tbl i ⟨13, by decide⟩ := by
  unfold kernelRunC.sl.r_111; exact word_of_off c tbl i ⟨13, by decide⟩ _ _ _ (k0_off27_eq i ⟨1, by decide⟩)
theorem W_r_123 : kernelRunC.sl.r_123 c i tbl = wordAt c tbl i ⟨13, by decide⟩ := by
  unfold kernelRunC.sl.r_123; exact word_of_off c tbl i ⟨13, by decide⟩ _ _ _ (k0_off31_eq i ⟨0, by decide⟩)
theorem W_r_122 : kernelRunC.sl.r_122 c i tbl = wordAt c tbl i ⟨14, by decide⟩ := by
  unfold kernelRunC.sl.r_122; exact word_of_off c tbl i ⟨14, by decide⟩ _ _ _ (k0_off29_eq i ⟨1, by decide⟩)
theorem W_r_133 : kernelRunC.sl.r_133 c i tbl = wordAt c tbl i ⟨14, by decide⟩ := by
  unfold kernelRunC.sl.r_133; exact word_of_off c tbl i ⟨14, by decide⟩ _ _ _ (k0_off33_eq i ⟨0, by decide⟩)
theorem W_r_132 : kernelRunC.sl.r_132 c i tbl = wordAt c tbl i ⟨15, by decide⟩ := by
  unfold kernelRunC.sl.r_132; exact word_of_off c tbl i ⟨15, by decide⟩ _ _ _ (k0_off31_eq i ⟨1, by decide⟩)
theorem W_r_144 : kernelRunC.sl.r_144 c i tbl = wordAt c tbl i ⟨15, by decide⟩ := by
  unfold kernelRunC.sl.r_144; exact word_of_off c tbl i ⟨15, by decide⟩ _ _ _ (k0_off35_eq i ⟨0, by decide⟩)
theorem W_r_142 : kernelRunC.sl.r_142 c i tbl = wordAt c tbl i ⟨16, by decide⟩ := by
  unfold kernelRunC.sl.r_142; exact word_of_off c tbl i ⟨16, by decide⟩ _ _ _ (k0_off33_eq i ⟨1, by decide⟩)
theorem W_r_153 : kernelRunC.sl.r_153 c i tbl = wordAt c tbl i ⟨16, by decide⟩ := by
  unfold kernelRunC.sl.r_153; exact word_of_off c tbl i ⟨16, by decide⟩ _ _ _ (k0_off37_eq i ⟨0, by decide⟩)
theorem W_r_152 : kernelRunC.sl.r_152 c i tbl = wordAt c tbl i ⟨17, by decide⟩ := by
  unfold kernelRunC.sl.r_152; exact word_of_off c tbl i ⟨17, by decide⟩ _ _ _ (k0_off35_eq i ⟨1, by decide⟩)
theorem W_r_162 : kernelRunC.sl.r_162 c i tbl = wordAt c tbl i ⟨17, by decide⟩ := by
  unfold kernelRunC.sl.r_162; exact word_of_off c tbl i ⟨17, by decide⟩ _ _ _ (k0_off39_eq i ⟨0, by decide⟩)
theorem W_r_161 : kernelRunC.sl.r_161 c i tbl = wordAt c tbl i ⟨18, by decide⟩ := by
  unfold kernelRunC.sl.r_161; exact word_of_off c tbl i ⟨18, by decide⟩ _ _ _ (k0_off37_eq i ⟨1, by decide⟩)
theorem W_r_172 : kernelRunC.sl.r_172 c i tbl = wordAt c tbl i ⟨18, by decide⟩ := by
  unfold kernelRunC.sl.r_172; exact word_of_off c tbl i ⟨18, by decide⟩ _ _ _ (k0_off41_eq i ⟨0, by decide⟩)
theorem W_r_171 : kernelRunC.sl.r_171 c i tbl = wordAt c tbl i ⟨19, by decide⟩ := by
  unfold kernelRunC.sl.r_171; exact word_of_off c tbl i ⟨19, by decide⟩ _ _ _ (k0_off39_eq i ⟨1, by decide⟩)
theorem W_r_180 : kernelRunC.sl.r_180 c i tbl = wordAt c tbl i ⟨19, by decide⟩ := by
  unfold kernelRunC.sl.r_180; exact word_of_off c tbl i ⟨19, by decide⟩ _ _ _ (k0_off43_eq i ⟨0, by decide⟩)
theorem W_r_179 : kernelRunC.sl.r_179 c i tbl = wordAt c tbl i ⟨20, by decide⟩ := by
  unfold kernelRunC.sl.r_179; exact word_of_off c tbl i ⟨20, by decide⟩ _ _ _ (k0_off41_eq i ⟨1, by decide⟩)
theorem W_r_189 : kernelRunC.sl.r_189 c i tbl = wordAt c tbl i ⟨20, by decide⟩ := by
  unfold kernelRunC.sl.r_189; exact word_of_off c tbl i ⟨20, by decide⟩ _ _ _ (k0_off45_eq i ⟨0, by decide⟩)
theorem W_r_188 : kernelRunC.sl.r_188 c i tbl = wordAt c tbl i ⟨21, by decide⟩ := by
  unfold kernelRunC.sl.r_188; exact word_of_off c tbl i ⟨21, by decide⟩ _ _ _ (k0_off43_eq i ⟨1, by decide⟩)
theorem W_r_199 : kernelRunC.sl.r_199 c i tbl = wordAt c tbl i ⟨21, by decide⟩ := by
  unfold kernelRunC.sl.r_199; exact word_of_off c tbl i ⟨21, by decide⟩ _ _ _ (k0_off47_eq i ⟨0, by decide⟩)
theorem W_r_198 : kernelRunC.sl.r_198 c i tbl = wordAt c tbl i ⟨22, by decide⟩ := by
  unfold kernelRunC.sl.r_198; exact word_of_off c tbl i ⟨22, by decide⟩ _ _ _ (k0_off45_eq i ⟨1, by decide⟩)
theorem W_r_208 : kernelRunC.sl.r_208 c i tbl = wordAt c tbl i ⟨22, by decide⟩ := by
  unfold kernelRunC.sl.r_208; exact word_of_off c tbl i ⟨22, by decide⟩ _ _ _ (k0_off49_eq i ⟨0, by decide⟩)
theorem W_r_207 : kernelRunC.sl.r_207 c i tbl = wordAt c tbl i ⟨23, by decide⟩ := by
  unfold kernelRunC.sl.r_207; exact word_of_off c tbl i ⟨23, by decide⟩ _ _ _ (k0_off47_eq i ⟨1, by decide⟩)
theorem W_r_218 : kernelRunC.sl.r_218 c i tbl = wordAt c tbl i ⟨23, by decide⟩ := by
  unfold kernelRunC.sl.r_218; exact word_of_off c tbl i ⟨23, by decide⟩ _ _ _ (k0_off51_eq i ⟨0, by decide⟩)
theorem W_r_217 : kernelRunC.sl.r_217 c i tbl = wordAt c tbl i ⟨24, by decide⟩ := by
  unfold kernelRunC.sl.r_217; exact word_of_off c tbl i ⟨24, by decide⟩ _ _ _ (k0_off49_eq i ⟨1, by decide⟩)
theorem W_r_228 : kernelRunC.sl.r_228 c i tbl = wordAt c tbl i ⟨24, by decide⟩ := by
  unfold kernelRunC.sl.r_228; exact word_of_off c tbl i ⟨24, by decide⟩ _ _ _ (k0_off53_eq i ⟨0, by decide⟩)
theorem W_r_227 : kernelRunC.sl.r_227 c i tbl = wordAt c tbl i ⟨25, by decide⟩ := by
  unfold kernelRunC.sl.r_227; exact word_of_off c tbl i ⟨25, by decide⟩ _ _ _ (k0_off51_eq i ⟨1, by decide⟩)
theorem W_r_237 : kernelRunC.sl.r_237 c i tbl = wordAt c tbl i ⟨25, by decide⟩ := by
  unfold kernelRunC.sl.r_237; exact word_of_off c tbl i ⟨25, by decide⟩ _ _ _ (k0_off55_eq i ⟨0, by decide⟩)
theorem W_r_236 : kernelRunC.sl.r_236 c i tbl = wordAt c tbl i ⟨26, by decide⟩ := by
  unfold kernelRunC.sl.r_236; exact word_of_off c tbl i ⟨26, by decide⟩ _ _ _ (k0_off53_eq i ⟨1, by decide⟩)
theorem W_r_246 : kernelRunC.sl.r_246 c i tbl = wordAt c tbl i ⟨26, by decide⟩ := by
  unfold kernelRunC.sl.r_246; exact word_of_off c tbl i ⟨26, by decide⟩ _ _ _ (k0_off57_eq i ⟨0, by decide⟩)
theorem W_r_245 : kernelRunC.sl.r_245 c i tbl = wordAt c tbl i ⟨27, by decide⟩ := by
  unfold kernelRunC.sl.r_245; exact word_of_off c tbl i ⟨27, by decide⟩ _ _ _ (k0_off55_eq i ⟨1, by decide⟩)
theorem W_r_255 : kernelRunC.sl.r_255 c i tbl = wordAt c tbl i ⟨27, by decide⟩ := by
  unfold kernelRunC.sl.r_255; exact word_of_off c tbl i ⟨27, by decide⟩ _ _ _ (k0_off59_eq i ⟨0, by decide⟩)
theorem W_r_254 : kernelRunC.sl.r_254 c i tbl = wordAt c tbl i ⟨28, by decide⟩ := by
  unfold kernelRunC.sl.r_254; exact word_of_off c tbl i ⟨28, by decide⟩ _ _ _ (k0_off57_eq i ⟨1, by decide⟩)
theorem W_r_263 : kernelRunC.sl.r_263 c i tbl = wordAt c tbl i ⟨28, by decide⟩ := by
  unfold kernelRunC.sl.r_263; exact word_of_off c tbl i ⟨28, by decide⟩ _ _ _ (k0_off61_eq i ⟨0, by decide⟩)
theorem W_r_262 : kernelRunC.sl.r_262 c i tbl = wordAt c tbl i ⟨29, by decide⟩ := by
  unfold kernelRunC.sl.r_262; exact word_of_off c tbl i ⟨29, by decide⟩ _ _ _ (k0_off59_eq i ⟨1, by decide⟩)
theorem W_r_273 : kernelRunC.sl.r_273 c i tbl = wordAt c tbl i ⟨29, by decide⟩ := by
  unfold kernelRunC.sl.r_273; exact word_of_off c tbl i ⟨29, by decide⟩ _ _ _ (k0_off63_eq i ⟨0, by decide⟩)
theorem W_r_270 : kernelRunC.sl.r_270 c i tbl = wordAt c tbl i ⟨30, by decide⟩ := by
  unfold kernelRunC.sl.r_270; exact word_of_off c tbl i ⟨30, by decide⟩ _ _ _ (k0_off61_eq i ⟨1, by decide⟩)
theorem W_r_280 : kernelRunC.sl.r_280 c i tbl = wordAt c tbl i ⟨30, by decide⟩ := by
  unfold kernelRunC.sl.r_280; exact word_of_off c tbl i ⟨30, by decide⟩ _ _ _ (k0_off65_eq i ⟨0, by decide⟩)
theorem W_r_279 : kernelRunC.sl.r_279 c i tbl = wordAt c tbl i ⟨31, by decide⟩ := by
  unfold kernelRunC.sl.r_279; exact word_of_off c tbl i ⟨31, by decide⟩ _ _ _ (k0_off63_eq i ⟨1, by decide⟩)
theorem W_r_289 : kernelRunC.sl.r_289 c i tbl = wordAt c tbl i ⟨31, by decide⟩ := by
  unfold kernelRunC.sl.r_289; exact word_of_off c tbl i ⟨31, by decide⟩ _ _ _ (k0_off67_eq i ⟨0, by decide⟩)
theorem W_r_288 : kernelRunC.sl.r_288 c i tbl = wordAt c tbl i ⟨32, by decide⟩ := by
  unfold kernelRunC.sl.r_288; exact word_of_off c tbl i ⟨32, by decide⟩ _ _ _ (k0_off65_eq i ⟨1, by decide⟩)
theorem W_r_301 : kernelRunC.sl.r_301 c i tbl = wordAt c tbl i ⟨32, by decide⟩ := by
  unfold kernelRunC.sl.r_301; exact word_of_off c tbl i ⟨32, by decide⟩ _ _ _ (k0_off69_eq i ⟨0, by decide⟩)
theorem W_r_298 : kernelRunC.sl.r_298 c i tbl = wordAt c tbl i ⟨33, by decide⟩ := by
  unfold kernelRunC.sl.r_298; exact word_of_off c tbl i ⟨33, by decide⟩ _ _ _ (k0_off67_eq i ⟨1, by decide⟩)
theorem W_r_310 : kernelRunC.sl.r_310 c i tbl = wordAt c tbl i ⟨33, by decide⟩ := by
  unfold kernelRunC.sl.r_310; exact word_of_off c tbl i ⟨33, by decide⟩ _ _ _ (k0_off71_eq i ⟨0, by decide⟩)
theorem W_r_309 : kernelRunC.sl.r_309 c i tbl = wordAt c tbl i ⟨34, by decide⟩ := by
  unfold kernelRunC.sl.r_309; exact word_of_off c tbl i ⟨34, by decide⟩ _ _ _ (k0_off69_eq i ⟨1, by decide⟩)
theorem W_r_320 : kernelRunC.sl.r_320 c i tbl = wordAt c tbl i ⟨34, by decide⟩ := by
  unfold kernelRunC.sl.r_320; exact word_of_off c tbl i ⟨34, by decide⟩ _ _ _ (k0_off73_eq i ⟨0, by decide⟩)
theorem W_r_319 : kernelRunC.sl.r_319 c i tbl = wordAt c tbl i ⟨35, by decide⟩ := by
  unfold kernelRunC.sl.r_319; exact word_of_off c tbl i ⟨35, by decide⟩ _ _ _ (k0_off71_eq i ⟨1, by decide⟩)
theorem W_r_331 : kernelRunC.sl.r_331 c i tbl = wordAt c tbl i ⟨35, by decide⟩ := by
  unfold kernelRunC.sl.r_331; exact word_of_off c tbl i ⟨35, by decide⟩ _ _ _ (k0_off75_eq i ⟨0, by decide⟩)
theorem W_r_329 : kernelRunC.sl.r_329 c i tbl = wordAt c tbl i ⟨36, by decide⟩ := by
  unfold kernelRunC.sl.r_329; exact word_of_off c tbl i ⟨36, by decide⟩ _ _ _ (k0_off73_eq i ⟨1, by decide⟩)
theorem W_r_340 : kernelRunC.sl.r_340 c i tbl = wordAt c tbl i ⟨36, by decide⟩ := by
  unfold kernelRunC.sl.r_340; exact word_of_off c tbl i ⟨36, by decide⟩ _ _ _ (k0_off77_eq i ⟨0, by decide⟩)
theorem W_r_339 : kernelRunC.sl.r_339 c i tbl = wordAt c tbl i ⟨37, by decide⟩ := by
  unfold kernelRunC.sl.r_339; exact word_of_off c tbl i ⟨37, by decide⟩ _ _ _ (k0_off75_eq i ⟨1, by decide⟩)
theorem W_r_349 : kernelRunC.sl.r_349 c i tbl = wordAt c tbl i ⟨37, by decide⟩ := by
  unfold kernelRunC.sl.r_349; exact word_of_off c tbl i ⟨37, by decide⟩ _ _ _ (k0_off79_eq i ⟨0, by decide⟩)
theorem W_r_348 : kernelRunC.sl.r_348 c i tbl = wordAt c tbl i ⟨38, by decide⟩ := by
  unfold kernelRunC.sl.r_348; exact word_of_off c tbl i ⟨38, by decide⟩ _ _ _ (k0_off77_eq i ⟨1, by decide⟩)
theorem W_r_359 : kernelRunC.sl.r_359 c i tbl = wordAt c tbl i ⟨38, by decide⟩ := by
  unfold kernelRunC.sl.r_359; exact word_of_off c tbl i ⟨38, by decide⟩ _ _ _ (k0_off81_eq i ⟨0, by decide⟩)
theorem W_r_358 : kernelRunC.sl.r_358 c i tbl = wordAt c tbl i ⟨39, by decide⟩ := by
  unfold kernelRunC.sl.r_358; exact word_of_off c tbl i ⟨39, by decide⟩ _ _ _ (k0_off79_eq i ⟨1, by decide⟩)
theorem W_r_367 : kernelRunC.sl.r_367 c i tbl = wordAt c tbl i ⟨39, by decide⟩ := by
  unfold kernelRunC.sl.r_367; exact word_of_off c tbl i ⟨39, by decide⟩ _ _ _ (k0_off83_eq i ⟨0, by decide⟩)
theorem W_r_366 : kernelRunC.sl.r_366 c i tbl = wordAt c tbl i ⟨40, by decide⟩ := by
  unfold kernelRunC.sl.r_366; exact word_of_off c tbl i ⟨40, by decide⟩ _ _ _ (k0_off81_eq i ⟨1, by decide⟩)
theorem W_r_376 : kernelRunC.sl.r_376 c i tbl = wordAt c tbl i ⟨40, by decide⟩ := by
  unfold kernelRunC.sl.r_376; exact word_of_off c tbl i ⟨40, by decide⟩ _ _ _ (k0_off85_eq i ⟨0, by decide⟩)
theorem W_r_375 : kernelRunC.sl.r_375 c i tbl = wordAt c tbl i ⟨41, by decide⟩ := by
  unfold kernelRunC.sl.r_375; exact word_of_off c tbl i ⟨41, by decide⟩ _ _ _ (k0_off83_eq i ⟨1, by decide⟩)
theorem W_r_386 : kernelRunC.sl.r_386 c i tbl = wordAt c tbl i ⟨41, by decide⟩ := by
  unfold kernelRunC.sl.r_386; exact word_of_off c tbl i ⟨41, by decide⟩ _ _ _ (k0_off87_eq i ⟨0, by decide⟩)
theorem W_r_385 : kernelRunC.sl.r_385 c i tbl = wordAt c tbl i ⟨42, by decide⟩ := by
  unfold kernelRunC.sl.r_385; exact word_of_off c tbl i ⟨42, by decide⟩ _ _ _ (k0_off85_eq i ⟨1, by decide⟩)
theorem W_r_395 : kernelRunC.sl.r_395 c i tbl = wordAt c tbl i ⟨42, by decide⟩ := by
  unfold kernelRunC.sl.r_395; exact word_of_off c tbl i ⟨42, by decide⟩ _ _ _ (k0_off89_eq i ⟨0, by decide⟩)
theorem W_r_394 : kernelRunC.sl.r_394 c i tbl = wordAt c tbl i ⟨43, by decide⟩ := by
  unfold kernelRunC.sl.r_394; exact word_of_off c tbl i ⟨43, by decide⟩ _ _ _ (k0_off87_eq i ⟨1, by decide⟩)
theorem W_r_405 : kernelRunC.sl.r_405 c i tbl = wordAt c tbl i ⟨43, by decide⟩ := by
  unfold kernelRunC.sl.r_405; exact word_of_off c tbl i ⟨43, by decide⟩ _ _ _ (k0_off91_eq i ⟨0, by decide⟩)
theorem W_r_404 : kernelRunC.sl.r_404 c i tbl = wordAt c tbl i ⟨44, by decide⟩ := by
  unfold kernelRunC.sl.r_404; exact word_of_off c tbl i ⟨44, by decide⟩ _ _ _ (k0_off89_eq i ⟨1, by decide⟩)
theorem W_r_415 : kernelRunC.sl.r_415 c i tbl = wordAt c tbl i ⟨44, by decide⟩ := by
  unfold kernelRunC.sl.r_415; exact word_of_off c tbl i ⟨44, by decide⟩ _ _ _ (k0_off93_eq i ⟨0, by decide⟩)
theorem W_r_414 : kernelRunC.sl.r_414 c i tbl = wordAt c tbl i ⟨45, by decide⟩ := by
  unfold kernelRunC.sl.r_414; exact word_of_off c tbl i ⟨45, by decide⟩ _ _ _ (k0_off91_eq i ⟨1, by decide⟩)
theorem W_r_424 : kernelRunC.sl.r_424 c i tbl = wordAt c tbl i ⟨45, by decide⟩ := by
  unfold kernelRunC.sl.r_424; exact word_of_off c tbl i ⟨45, by decide⟩ _ _ _ (k0_off95_eq i ⟨0, by decide⟩)
theorem W_r_423 : kernelRunC.sl.r_423 c i tbl = wordAt c tbl i ⟨46, by decide⟩ := by
  unfold kernelRunC.sl.r_423; exact word_of_off c tbl i ⟨46, by decide⟩ _ _ _ (k0_off93_eq i ⟨1, by decide⟩)
theorem W_r_433 : kernelRunC.sl.r_433 c i tbl = wordAt c tbl i ⟨46, by decide⟩ := by
  unfold kernelRunC.sl.r_433; exact word_of_off c tbl i ⟨46, by decide⟩ _ _ _ (k0_off97_eq i ⟨0, by decide⟩)
theorem W_r_432 : kernelRunC.sl.r_432 c i tbl = wordAt c tbl i ⟨47, by decide⟩ := by
  unfold kernelRunC.sl.r_432; exact word_of_off c tbl i ⟨47, by decide⟩ _ _ _ (k0_off95_eq i ⟨1, by decide⟩)
theorem W_r_442 : kernelRunC.sl.r_442 c i tbl = wordAt c tbl i ⟨47, by decide⟩ := by
  unfold kernelRunC.sl.r_442; exact word_of_off c tbl i ⟨47, by decide⟩ _ _ _ (k0_off99_eq i ⟨0, by decide⟩)
theorem W_r_441 : kernelRunC.sl.r_441 c i tbl = wordAt c tbl i ⟨48, by decide⟩ := by
  unfold kernelRunC.sl.r_441; exact word_of_off c tbl i ⟨48, by decide⟩ _ _ _ (k0_off97_eq i ⟨1, by decide⟩)
theorem W_r_450 : kernelRunC.sl.r_450 c i tbl = wordAt c tbl i ⟨48, by decide⟩ := by
  unfold kernelRunC.sl.r_450; exact word_of_off c tbl i ⟨48, by decide⟩ _ _ _ (k0_off101_eq i ⟨0, by decide⟩)
theorem W_r_449 : kernelRunC.sl.r_449 c i tbl = wordAt c tbl i ⟨49, by decide⟩ := by
  unfold kernelRunC.sl.r_449; exact word_of_off c tbl i ⟨49, by decide⟩ _ _ _ (k0_off99_eq i ⟨1, by decide⟩)
theorem W_r_460 : kernelRunC.sl.r_460 c i tbl = wordAt c tbl i ⟨49, by decide⟩ := by
  unfold kernelRunC.sl.r_460; exact word_of_off c tbl i ⟨49, by decide⟩ _ _ _ (k0_off103_eq i ⟨0, by decide⟩)
theorem W_r_457 : kernelRunC.sl.r_457 c i tbl = wordAt c tbl i ⟨50, by decide⟩ := by
  unfold kernelRunC.sl.r_457; exact word_of_off c tbl i ⟨50, by decide⟩ _ _ _ (k0_off101_eq i ⟨1, by decide⟩)
theorem W_r_467 : kernelRunC.sl.r_467 c i tbl = wordAt c tbl i ⟨50, by decide⟩ := by
  unfold kernelRunC.sl.r_467; exact word_of_off c tbl i ⟨50, by decide⟩ _ _ _ (k0_off105_eq i ⟨0, by decide⟩)
theorem W_r_466 : kernelRunC.sl.r_466 c i tbl = wordAt c tbl i ⟨51, by decide⟩ := by
  unfold kernelRunC.sl.r_466; exact word_of_off c tbl i ⟨51, by decide⟩ _ _ _ (k0_off103_eq i ⟨1, by decide⟩)
theorem W_r_476 : kernelRunC.sl.r_476 c i tbl = wordAt c tbl i ⟨51, by decide⟩ := by
  unfold kernelRunC.sl.r_476; exact word_of_off c tbl i ⟨51, by decide⟩ _ _ _ (k0_off107_eq i ⟨0, by decide⟩)
theorem W_r_475 : kernelRunC.sl.r_475 c i tbl = wordAt c tbl i ⟨52, by decide⟩ := by
  unfold kernelRunC.sl.r_475; exact word_of_off c tbl i ⟨52, by decide⟩ _ _ _ (k0_off105_eq i ⟨1, by decide⟩)
theorem W_r_488 : kernelRunC.sl.r_488 c i tbl = wordAt c tbl i ⟨52, by decide⟩ := by
  unfold kernelRunC.sl.r_488; exact word_of_off c tbl i ⟨52, by decide⟩ _ _ _ (k0_off109_eq i ⟨0, by decide⟩)
theorem W_r_485 : kernelRunC.sl.r_485 c i tbl = wordAt c tbl i ⟨53, by decide⟩ := by
  unfold kernelRunC.sl.r_485; exact word_of_off c tbl i ⟨53, by decide⟩ _ _ _ (k0_off107_eq i ⟨1, by decide⟩)
theorem W_r_497 : kernelRunC.sl.r_497 c i tbl = wordAt c tbl i ⟨53, by decide⟩ := by
  unfold kernelRunC.sl.r_497; exact word_of_off c tbl i ⟨53, by decide⟩ _ _ _ (k0_off111_eq i ⟨0, by decide⟩)
theorem W_r_496 : kernelRunC.sl.r_496 c i tbl = wordAt c tbl i ⟨54, by decide⟩ := by
  unfold kernelRunC.sl.r_496; exact word_of_off c tbl i ⟨54, by decide⟩ _ _ _ (k0_off109_eq i ⟨1, by decide⟩)
theorem W_r_507 : kernelRunC.sl.r_507 c i tbl = wordAt c tbl i ⟨54, by decide⟩ := by
  unfold kernelRunC.sl.r_507; exact word_of_off c tbl i ⟨54, by decide⟩ _ _ _ (k0_off113_eq i ⟨0, by decide⟩)
theorem W_r_506 : kernelRunC.sl.r_506 c i tbl = wordAt c tbl i ⟨55, by decide⟩ := by
  unfold kernelRunC.sl.r_506; exact word_of_off c tbl i ⟨55, by decide⟩ _ _ _ (k0_off111_eq i ⟨1, by decide⟩)
theorem W_r_518 : kernelRunC.sl.r_518 c i tbl = wordAt c tbl i ⟨55, by decide⟩ := by
  unfold kernelRunC.sl.r_518; exact word_of_off c tbl i ⟨55, by decide⟩ _ _ _ (k0_off115_eq i ⟨0, by decide⟩)
theorem W_r_516 : kernelRunC.sl.r_516 c i tbl = wordAt c tbl i ⟨56, by decide⟩ := by
  unfold kernelRunC.sl.r_516; exact word_of_off c tbl i ⟨56, by decide⟩ _ _ _ (k0_off113_eq i ⟨1, by decide⟩)
theorem W_r_527 : kernelRunC.sl.r_527 c i tbl = wordAt c tbl i ⟨56, by decide⟩ := by
  unfold kernelRunC.sl.r_527; exact word_of_off c tbl i ⟨56, by decide⟩ _ _ _ (k0_off117_eq i ⟨0, by decide⟩)
theorem W_r_526 : kernelRunC.sl.r_526 c i tbl = wordAt c tbl i ⟨57, by decide⟩ := by
  unfold kernelRunC.sl.r_526; exact word_of_off c tbl i ⟨57, by decide⟩ _ _ _ (k0_off115_eq i ⟨1, by decide⟩)
theorem W_r_536 : kernelRunC.sl.r_536 c i tbl = wordAt c tbl i ⟨57, by decide⟩ := by
  unfold kernelRunC.sl.r_536; exact word_of_off c tbl i ⟨57, by decide⟩ _ _ _ (k0_off119_eq i ⟨0, by decide⟩)
theorem W_r_535 : kernelRunC.sl.r_535 c i tbl = wordAt c tbl i ⟨58, by decide⟩ := by
  unfold kernelRunC.sl.r_535; exact word_of_off c tbl i ⟨58, by decide⟩ _ _ _ (k0_off117_eq i ⟨1, by decide⟩)
theorem W_r_546 : kernelRunC.sl.r_546 c i tbl = wordAt c tbl i ⟨58, by decide⟩ := by
  unfold kernelRunC.sl.r_546; exact word_of_off c tbl i ⟨58, by decide⟩ _ _ _ (k0_off121_eq i ⟨0, by decide⟩)
theorem W_r_545 : kernelRunC.sl.r_545 c i tbl = wordAt c tbl i ⟨59, by decide⟩ := by
  unfold kernelRunC.sl.r_545; exact word_of_off c tbl i ⟨59, by decide⟩ _ _ _ (k0_off119_eq i ⟨1, by decide⟩)
theorem W_r_554 : kernelRunC.sl.r_554 c i tbl = wordAt c tbl i ⟨59, by decide⟩ := by
  unfold kernelRunC.sl.r_554; exact word_of_off c tbl i ⟨59, by decide⟩ _ _ _ (k0_off123_eq i ⟨0, by decide⟩)
theorem W_r_553 : kernelRunC.sl.r_553 c i tbl = wordAt c tbl i ⟨60, by decide⟩ := by
  unfold kernelRunC.sl.r_553; exact word_of_off c tbl i ⟨60, by decide⟩ _ _ _ (k0_off121_eq i ⟨1, by decide⟩)
theorem W_r_563 : kernelRunC.sl.r_563 c i tbl = wordAt c tbl i ⟨60, by decide⟩ := by
  unfold kernelRunC.sl.r_563; exact word_of_off c tbl i ⟨60, by decide⟩ _ _ _ (k0_off125_eq i ⟨0, by decide⟩)
theorem W_r_562 : kernelRunC.sl.r_562 c i tbl = wordAt c tbl i ⟨61, by decide⟩ := by
  unfold kernelRunC.sl.r_562; exact word_of_off c tbl i ⟨61, by decide⟩ _ _ _ (k0_off123_eq i ⟨1, by decide⟩)
theorem W_r_573 : kernelRunC.sl.r_573 c i tbl = wordAt c tbl i ⟨61, by decide⟩ := by
  unfold kernelRunC.sl.r_573; exact word_of_off c tbl i ⟨61, by decide⟩ _ _ _ (k0_off127_eq i ⟨0, by decide⟩)
theorem W_r_572 : kernelRunC.sl.r_572 c i tbl = wordAt c tbl i ⟨62, by decide⟩ := by
  unfold kernelRunC.sl.r_572; exact word_of_off c tbl i ⟨62, by decide⟩ _ _ _ (k0_off125_eq i ⟨1, by decide⟩)
theorem W_r_582 : kernelRunC.sl.r_582 c i tbl = wordAt c tbl i ⟨62, by decide⟩ := by
  unfold kernelRunC.sl.r_582; exact word_of_off c tbl i ⟨62, by decide⟩ _ _ _ (k0_off129_eq i ⟨0, by decide⟩)
theorem W_r_581 : kernelRunC.sl.r_581 c i tbl = wordAt c tbl i ⟨63, by decide⟩ := by
  unfold kernelRunC.sl.r_581; exact word_of_off c tbl i ⟨63, by decide⟩ _ _ _ (k0_off127_eq i ⟨1, by decide⟩)
theorem W_r_591 : kernelRunC.sl.r_591 c i tbl = wordAt c tbl i ⟨63, by decide⟩ := by
  unfold kernelRunC.sl.r_591; exact word_of_off c tbl i ⟨63, by decide⟩ _ _ _ (k0_off129_eq i ⟨1, by decide⟩)
theorem D_dma1 : kernelRunC.sl.dma1 c i tbl hT sim = simRow c sim (wordAt c tbl i ⟨0, by decide⟩) := by
  unfold kernelRunC.sl.dma1; exact (copy_eq_simRow c sim (kernelRunC.sl.r c i tbl) (hT _) _ rfl _ _).trans (congrArg (simRow c sim) (W_r c i tbl))
theorem D_dma2 : kernelRunC.sl.dma2 c i tbl hT sim = simRow c sim (wordAt c tbl i ⟨1, by decide⟩) := by
  unfold kernelRunC.sl.dma2; exact (copy_eq_simRow c sim (kernelRunC.sl.r_1 c i tbl) (hT _) _ rfl _ _).trans (congrArg (simRow c sim) (W_r_1 c i tbl))
theorem D_dma25 : kernelRunC.sl.dma25 c i tbl hT sim = simRow c sim (wordAt c tbl i ⟨2, by decide⟩) := by
  unfold kernelRunC.sl.dma25; exact (copy_eq_simRow c sim (kernelRunC.sl.r_11 c i tbl) (hT _) _ rfl _ _).trans (congrArg (simRow c sim) (W_r_11 c i tbl))
theorem D_dma48 : kernelRunC.sl.dma48 c i tbl hT sim = simRow c sim (wordAt c tbl i ⟨3, by decide⟩) := by
  unfold kernelRunC.sl.dma48; exact (copy_eq_simRow c sim (kernelRunC.sl.r_20 c i tbl) (hT _) _ rfl _ _).trans (congrArg (simRow c sim) (W_r_20 c i tbl))
theorem D_dma71 : kernelRunC.sl.dma71 c i tbl hT sim = simRow c sim (wordAt c tbl i ⟨4, by decide⟩) := by
  unfold kernelRunC.sl.dma71; exact (copy_eq_simRow c sim (kernelRunC.sl.r_30 c i tbl) (hT _) _ rfl _ _).trans (congrArg (simRow c sim) (W_r_30 c i tbl))
theorem D_dma94 : kernelRunC.sl.dma94 c i tbl hT sim = simRow c sim (wordAt c tbl i ⟨5, by decide⟩) := by
  unfold kernelRunC.sl.dma94; exact (copy_eq_simRow c sim (kernelRunC.sl.r_40 c i tbl) (hT _) _ rfl _ _).trans (congrArg (simRow c sim) (W_r_40 c i tbl))
theorem D_dma117 : kernelRunC.sl.dma117 c i tbl hT sim = simRow c sim (wordAt c tbl i ⟨6, by decide⟩) := by
  unfold kernelRunC.sl.dma117; exact (copy_eq_simRow c sim (kernelRunC.sl.r_49 c i tbl) (hT _) _ rfl _ _).trans (congrArg (simRow c sim) (W_r_49 c i tbl))
theorem D_dma140 : kernelRunC.sl.dma140 c i tbl hT sim = simRow c sim (wordAt c tbl i ⟨7, by decide⟩) := by
  unfold kernelRunC.sl.dma140; exact (copy_eq_simRow c sim (kernelRunC.sl.r_58 c i tbl) (hT _) _ rfl _ _).trans (congrArg (simRow c sim) (W_r_58 c i tbl))
theorem D_dma163 : kernelRunC.sl.dma163 c i tbl hT sim = simRow c sim (wordAt c tbl i ⟨8, by decide⟩) := by
  unfold kernelRunC.sl.dma163; exact (copy_eq_simRow c sim (kernelRunC.sl.r_67 c i tbl) (hT _) _ rfl _ _).trans (congrArg (simRow c sim) (W_r_67 c i tbl))
theorem D_dma186 : kernelRunC.sl.dma186 c i tbl hT sim = simRow c sim (wordAt c tbl i ⟨9, by decide⟩) := by
  unfold kernelRunC.sl.dma186; exact (copy_eq_simRow c sim (kernelRunC.sl.r_75 c i tbl) (hT _) _ rfl _ _).trans (congrArg (simRow c sim) (W_r_75 c i tbl))
theorem D_dma209 : kernelRunC.sl.dma209 c i tbl hT sim = simRow c sim (wordAt c tbl i ⟨10, by decide⟩) := by
  unfold kernelRunC.sl.dma209; exact (copy_eq_simRow c sim (kernelRunC.sl.r_83 c i tbl) (hT _) _ rfl _ _).trans (congrArg (simRow c sim) (W_r_83 c i tbl))
theorem D_dma232 : kernelRunC.sl.dma232 c i tbl hT sim = simRow c sim (wordAt c tbl i ⟨11, by decide⟩) := by
  unfold kernelRunC.sl.dma232; exact (copy_eq_simRow c sim (kernelRunC.sl.r_92 c i tbl) (hT _) _ rfl _ _).trans (congrArg (simRow c sim) (W_r_92 c i tbl))
theorem D_dma255 : kernelRunC.sl.dma255 c i tbl hT sim = simRow c sim (wordAt c tbl i ⟨12, by decide⟩) := by
  unfold kernelRunC.sl.dma255; exact (copy_eq_simRow c sim (kernelRunC.sl.r_101 c i tbl) (hT _) _ rfl _ _).trans (congrArg (simRow c sim) (W_r_101 c i tbl))
theorem D_dma278 : kernelRunC.sl.dma278 c i tbl hT sim = simRow c sim (wordAt c tbl i ⟨13, by decide⟩) := by
  unfold kernelRunC.sl.dma278; exact (copy_eq_simRow c sim (kernelRunC.sl.r_111 c i tbl) (hT _) _ rfl _ _).trans (congrArg (simRow c sim) (W_r_111 c i tbl))
theorem D_dma301 : kernelRunC.sl.dma301 c i tbl hT sim = simRow c sim (wordAt c tbl i ⟨14, by decide⟩) := by
  unfold kernelRunC.sl.dma301; exact (copy_eq_simRow c sim (kernelRunC.sl.r_122 c i tbl) (hT _) _ rfl _ _).trans (congrArg (simRow c sim) (W_r_122 c i tbl))
theorem D_dma324 : kernelRunC.sl.dma324 c i tbl hT sim = simRow c sim (wordAt c tbl i ⟨15, by decide⟩) := by
  unfold kernelRunC.sl.dma324; exact (copy_eq_simRow c sim (kernelRunC.sl.r_132 c i tbl) (hT _) _ rfl _ _).trans (congrArg (simRow c sim) (W_r_132 c i tbl))
theorem D_dma347 : kernelRunC.sl.dma347 c i tbl hT sim = simRow c sim (wordAt c tbl i ⟨16, by decide⟩) := by
  unfold kernelRunC.sl.dma347; exact (copy_eq_simRow c sim (kernelRunC.sl.r_142 c i tbl) (hT _) _ rfl _ _).trans (congrArg (simRow c sim) (W_r_142 c i tbl))
theorem D_dma370 : kernelRunC.sl.dma370 c i tbl hT sim = simRow c sim (wordAt c tbl i ⟨17, by decide⟩) := by
  unfold kernelRunC.sl.dma370; exact (copy_eq_simRow c sim (kernelRunC.sl.r_152 c i tbl) (hT _) _ rfl _ _).trans (congrArg (simRow c sim) (W_r_152 c i tbl))
theorem D_dma393 : kernelRunC.sl.dma393 c i tbl hT sim = simRow c sim (wordAt c tbl i ⟨18, by decide⟩) := by
  unfold kernelRunC.sl.dma393; exact (copy_eq_simRow c sim (kernelRunC.sl.r_161 c i tbl) (hT _) _ rfl _ _).trans (congrArg (simRow c sim) (W_r_161 c i tbl))
theorem D_dma416 : kernelRunC.sl.dma416 c i tbl hT sim = simRow c sim (wordAt c tbl i ⟨19, by decide⟩) := by
  unfold kernelRunC.sl.dma416; exact (copy_eq_simRow c sim (kernelRunC.sl.r_171 c i tbl) (hT _) _ rfl _ _).trans (congrArg (simRow c sim) (W_r_171 c i tbl))
theorem D_dma439 : kernelRunC.sl.dma439 c i tbl hT sim = simRow c sim (wordAt c tbl i ⟨20, by decide⟩) := by
  unfold kernelRunC.sl.dma439; exact (copy_eq_simRow c sim (kernelRunC.sl.r_179 c i tbl) (hT _) _ rfl _ _).trans (congrArg (simRow c sim) (W_r_179 c i tbl))
theorem D_dma462 : kernelRunC.sl.dma462 c i tbl hT sim = simRow c sim (wordAt c tbl i ⟨21, by decide⟩) := by
  unfold kernelRunC.sl.dma462; exact (copy_eq_simRow c sim (kernelRunC.sl.r_188 c i tbl) (hT _) _ rfl _ _).trans (congrArg (simRow c sim) (W_r_188 c i tbl))
theorem D_dma485 : kernelRunC.sl.dma485 c i tbl hT sim = simRow c sim (wordAt c tbl i ⟨22, by decide⟩) := by
  unfold kernelRunC.sl.dma485; exact (copy_eq_simRow c sim (kernelRunC.sl.r_198 c i tbl) (hT _) _ rfl _ _).trans (congrArg (simRow c sim) (W_r_198 c i tbl))
theorem D_dma508 : kernelRunC.sl.dma508 c i tbl hT sim = simRow c sim (wordAt c tbl i ⟨23, by decide⟩) := by
  unfold kernelRunC.sl.dma508; exact (copy_eq_simRow c sim (kernelRunC.sl.r_207 c i tbl) (hT _) _ rfl _ _).trans (congrArg (simRow c sim) (W_r_207 c i tbl))
theorem D_dma531 : kernelRunC.sl.dma531 c i tbl hT sim = simRow c sim (wordAt c tbl i ⟨24, by decide⟩) := by
  unfold kernelRunC.sl.dma531; exact (copy_eq_simRow c sim (kernelRunC.sl.r_217 c i tbl) (hT _) _ rfl _ _).trans (congrArg (simRow c sim) (W_r_217 c i tbl))
theorem D_dma554 : kernelRunC.sl.dma554 c i tbl hT sim = simRow c sim (wordAt c tbl i ⟨25, by decide⟩) := by
  unfold kernelRunC.sl.dma554; exact (copy_eq_simRow c sim (kernelRunC.sl.r_227 c i tbl) (hT _) _ rfl _ _).trans (congrArg (simRow c sim) (W_r_227 c i tbl))
theorem D_dma577 : kernelRunC.sl.dma577 c i tbl hT sim = simRow c sim (wordAt c tbl i ⟨26, by decide⟩) := by
  unfold kernelRunC.sl.dma577; exact (copy_eq_simRow c sim (kernelRunC.sl.r_236 c i tbl) (hT _) _ rfl _ _).trans (congrArg (simRow c sim) (W_r_236 c i tbl))
theorem D_dma600 : kernelRunC.sl.dma600 c i tbl hT sim = simRow c sim (wordAt c tbl i ⟨27, by decide⟩) := by
  unfold kernelRunC.sl.dma600; exact (copy_eq_simRow c sim (kernelRunC.sl.r_245 c i tbl) (hT _) _ rfl _ _).trans (congrArg (simRow c sim) (W_r_245 c i tbl))
theorem D_dma623 : kernelRunC.sl.dma623 c i tbl hT sim = simRow c sim (wordAt c tbl i ⟨28, by decide⟩) := by
  unfold kernelRunC.sl.dma623; exact (copy_eq_simRow c sim (kernelRunC.sl.r_254 c i tbl) (hT _) _ rfl _ _).trans (congrArg (simRow c sim) (W_r_254 c i tbl))
theorem D_dma646 : kernelRunC.sl.dma646 c i tbl hT sim = simRow c sim (wordAt c tbl i ⟨29, by decide⟩) := by
  unfold kernelRunC.sl.dma646; exact (copy_eq_simRow c sim (kernelRunC.sl.r_262 c i tbl) (hT _) _ rfl _ _).trans (congrArg (simRow c sim) (W_r_262 c i tbl))
theorem D_dma669 : kernelRunC.sl.dma669 c i tbl hT sim = simRow c sim (wordAt c tbl i ⟨30, by decide⟩) := by
  unfold kernelRunC.sl.dma669; exact (copy_eq_simRow c sim (kernelRunC.sl.r_270 c i tbl) (hT _) _ rfl _ _).trans (congrArg (simRow c sim) (W_r_270 c i tbl))
theorem D_dma692 : kernelRunC.sl.dma692 c i tbl hT sim = simRow c sim (wordAt c tbl i ⟨31, by decide⟩) := by
  unfold kernelRunC.sl.dma692; exact (copy_eq_simRow c sim (kernelRunC.sl.r_279 c i tbl) (hT _) _ rfl _ _).trans (congrArg (simRow c sim) (W_r_279 c i tbl))
theorem D_dma715 : kernelRunC.sl.dma715 c i tbl hT sim = simRow c sim (wordAt c tbl i ⟨32, by decide⟩) := by
  unfold kernelRunC.sl.dma715; exact (copy_eq_simRow c sim (kernelRunC.sl.r_288 c i tbl) (hT _) _ rfl _ _).trans (congrArg (simRow c sim) (W_r_288 c i tbl))
theorem D_dma738 : kernelRunC.sl.dma738 c i tbl hT sim = simRow c sim (wordAt c tbl i ⟨33, by decide⟩) := by
  unfold kernelRunC.sl.dma738; exact (copy_eq_simRow c sim (kernelRunC.sl.r_298 c i tbl) (hT _) _ rfl _ _).trans (congrArg (simRow c sim) (W_r_298 c i tbl))
theorem D_dma761 : kernelRunC.sl.dma761 c i tbl hT sim = simRow c sim (wordAt c tbl i ⟨34, by decide⟩) := by
  unfold kernelRunC.sl.dma761; exact (copy_eq_simRow c sim (kernelRunC.sl.r_309 c i tbl) (hT _) _ rfl _ _).trans (congrArg (simRow c sim) (W_r_309 c i tbl))
theorem D_dma784 : kernelRunC.sl.dma784 c i tbl hT sim = simRow c sim (wordAt c tbl i ⟨35, by decide⟩) := by
  unfold kernelRunC.sl.dma784; exact (copy_eq_simRow c sim (kernelRunC.sl.r_319 c i tbl) (hT _) _ rfl _ _).trans (congrArg (simRow c sim) (W_r_319 c i tbl))
theorem D_dma807 : kernelRunC.sl.dma807 c i tbl hT sim = simRow c sim (wordAt c tbl i ⟨36, by decide⟩) := by
  unfold kernelRunC.sl.dma807; exact (copy_eq_simRow c sim (kernelRunC.sl.r_329 c i tbl) (hT _) _ rfl _ _).trans (congrArg (simRow c sim) (W_r_329 c i tbl))
theorem D_dma830 : kernelRunC.sl.dma830 c i tbl hT sim = simRow c sim (wordAt c tbl i ⟨37, by decide⟩) := by
  unfold kernelRunC.sl.dma830; exact (copy_eq_simRow c sim (kernelRunC.sl.r_339 c i tbl) (hT _) _ rfl _ _).trans (congrArg (simRow c sim) (W_r_339 c i tbl))
theorem D_dma853 : kernelRunC.sl.dma853 c i tbl hT sim = simRow c sim (wordAt c tbl i ⟨38, by decide⟩) := by
  unfold kernelRunC.sl.dma853; exact (copy_eq_simRow c sim (kernelRunC.sl.r_348 c i tbl) (hT _) _ rfl _ _).trans (congrArg (simRow c sim) (W_r_348 c i tbl))
theorem D_dma876 : kernelRunC.sl.dma876 c i tbl hT sim = simRow c sim (wordAt c tbl i ⟨39, by decide⟩) := by
  unfold kernelRunC.sl.dma876; exact (copy_eq_simRow c sim (kernelRunC.sl.r_358 c i tbl) (hT _) _ rfl _ _).trans (congrArg (simRow c sim) (W_r_358 c i tbl))
theorem D_dma899 : kernelRunC.sl.dma899 c i tbl hT sim = simRow c sim (wordAt c tbl i ⟨40, by decide⟩) := by
  unfold kernelRunC.sl.dma899; exact (copy_eq_simRow c sim (kernelRunC.sl.r_366 c i tbl) (hT _) _ rfl _ _).trans (congrArg (simRow c sim) (W_r_366 c i tbl))
theorem D_dma922 : kernelRunC.sl.dma922 c i tbl hT sim = simRow c sim (wordAt c tbl i ⟨41, by decide⟩) := by
  unfold kernelRunC.sl.dma922; exact (copy_eq_simRow c sim (kernelRunC.sl.r_375 c i tbl) (hT _) _ rfl _ _).trans (congrArg (simRow c sim) (W_r_375 c i tbl))
theorem D_dma945 : kernelRunC.sl.dma945 c i tbl hT sim = simRow c sim (wordAt c tbl i ⟨42, by decide⟩) := by
  unfold kernelRunC.sl.dma945; exact (copy_eq_simRow c sim (kernelRunC.sl.r_385 c i tbl) (hT _) _ rfl _ _).trans (congrArg (simRow c sim) (W_r_385 c i tbl))
theorem D_dma968 : kernelRunC.sl.dma968 c i tbl hT sim = simRow c sim (wordAt c tbl i ⟨43, by decide⟩) := by
  unfold kernelRunC.sl.dma968; exact (copy_eq_simRow c sim (kernelRunC.sl.r_394 c i tbl) (hT _) _ rfl _ _).trans (congrArg (simRow c sim) (W_r_394 c i tbl))
theorem D_dma991 : kernelRunC.sl.dma991 c i tbl hT sim = simRow c sim (wordAt c tbl i ⟨44, by decide⟩) := by
  unfold kernelRunC.sl.dma991; exact (copy_eq_simRow c sim (kernelRunC.sl.r_404 c i tbl) (hT _) _ rfl _ _).trans (congrArg (simRow c sim) (W_r_404 c i tbl))
theorem D_dma1014 : kernelRunC.sl.dma1014 c i tbl hT sim = simRow c sim (wordAt c tbl i ⟨45, by decide⟩) := by
  unfold kernelRunC.sl.dma1014; exact (copy_eq_simRow c sim (kernelRunC.sl.r_414 c i tbl) (hT _) _ rfl _ _).trans (congrArg (simRow c sim) (W_r_414 c i tbl))
theorem D_dma1037 : kernelRunC.sl.dma1037 c i tbl hT sim = simRow c sim (wordAt c tbl i ⟨46, by decide⟩) := by
  unfold kernelRunC.sl.dma1037; exact (copy_eq_simRow c sim (kernelRunC.sl.r_423 c i tbl) (hT _) _ rfl _ _).trans (congrArg (simRow c sim) (W_r_423 c i tbl))
theorem D_dma1060 : kernelRunC.sl.dma1060 c i tbl hT sim = simRow c sim (wordAt c tbl i ⟨47, by decide⟩) := by
  unfold kernelRunC.sl.dma1060; exact (copy_eq_simRow c sim (kernelRunC.sl.r_432 c i tbl) (hT _) _ rfl _ _).trans (congrArg (simRow c sim) (W_r_432 c i tbl))
theorem D_dma1083 : kernelRunC.sl.dma1083 c i tbl hT sim = simRow c sim (wordAt c tbl i ⟨48, by decide⟩) := by
  unfold kernelRunC.sl.dma1083; exact (copy_eq_simRow c sim (kernelRunC.sl.r_441 c i tbl) (hT _) _ rfl _ _).trans (congrArg (simRow c sim) (W_r_441 c i tbl))
theorem D_dma1106 : kernelRunC.sl.dma1106 c i tbl hT sim = simRow c sim (wordAt c tbl i ⟨49, by decide⟩) := by
  unfold kernelRunC.sl.dma1106; exact (copy_eq_simRow c sim (kernelRunC.sl.r_449 c i tbl) (hT _) _ rfl _ _).trans (congrArg (simRow c sim) (W_r_449 c i tbl))
theorem D_dma1129 : kernelRunC.sl.dma1129 c i tbl hT sim = simRow c sim (wordAt c tbl i ⟨50, by decide⟩) := by
  unfold kernelRunC.sl.dma1129; exact (copy_eq_simRow c sim (kernelRunC.sl.r_457 c i tbl) (hT _) _ rfl _ _).trans (congrArg (simRow c sim) (W_r_457 c i tbl))
theorem D_dma1152 : kernelRunC.sl.dma1152 c i tbl hT sim = simRow c sim (wordAt c tbl i ⟨51, by decide⟩) := by
  unfold kernelRunC.sl.dma1152; exact (copy_eq_simRow c sim (kernelRunC.sl.r_466 c i tbl) (hT _) _ rfl _ _).trans (congrArg (simRow c sim) (W_r_466 c i tbl))
theorem D_dma1175 : kernelRunC.sl.dma1175 c i tbl hT sim = simRow c sim (wordAt c tbl i ⟨52, by decide⟩) := by
  unfold kernelRunC.sl.dma1175; exact (copy_eq_simRow c sim (kernelRunC.sl.r_475 c i tbl) (hT _) _ rfl _ _).trans (congrArg (simRow c sim) (W_r_475 c i tbl))
theorem D_dma1198 : kernelRunC.sl.dma1198 c i tbl hT sim = simRow c sim (wordAt c tbl i ⟨53, by decide⟩) := by
  unfold kernelRunC.sl.dma1198; exact (copy_eq_simRow c sim (kernelRunC.sl.r_485 c i tbl) (hT _) _ rfl _ _).trans (congrArg (simRow c sim) (W_r_485 c i tbl))
theorem D_dma1221 : kernelRunC.sl.dma1221 c i tbl hT sim = simRow c sim (wordAt c tbl i ⟨54, by decide⟩) := by
  unfold kernelRunC.sl.dma1221; exact (copy_eq_simRow c sim (kernelRunC.sl.r_496 c i tbl) (hT _) _ rfl _ _).trans (congrArg (simRow c sim) (W_r_496 c i tbl))
theorem D_dma1244 : kernelRunC.sl.dma1244 c i tbl hT sim = simRow c sim (wordAt c tbl i ⟨55, by decide⟩) := by
  unfold kernelRunC.sl.dma1244; exact (copy_eq_simRow c sim (kernelRunC.sl.r_506 c i tbl) (hT _) _ rfl _ _).trans (congrArg (simRow c sim) (W_r_506 c i tbl))
theorem D_dma1267 : kernelRunC.sl.dma1267 c i tbl hT sim = simRow c sim (wordAt c tbl i ⟨56, by decide⟩) := by
  unfold kernelRunC.sl.dma1267; exact (copy_eq_simRow c sim (kernelRunC.sl.r_516 c i tbl) (hT _) _ rfl _ _).trans (congrArg (simRow c sim) (W_r_516 c i tbl))
theorem D_dma1290 : kernelRunC.sl.dma1290 c i tbl hT sim = simRow c sim (wordAt c tbl i ⟨57, by decide⟩) := by
  unfold kernelRunC.sl.dma1290; exact (copy_eq_simRow c sim (kernelRunC.sl.r_526 c i tbl) (hT _) _ rfl _ _).trans (congrArg (simRow c sim) (W_r_526 c i tbl))
theorem D_dma1313 : kernelRunC.sl.dma1313 c i tbl hT sim = simRow c sim (wordAt c tbl i ⟨58, by decide⟩) := by
  unfold kernelRunC.sl.dma1313; exact (copy_eq_simRow c sim (kernelRunC.sl.r_535 c i tbl) (hT _) _ rfl _ _).trans (congrArg (simRow c sim) (W_r_535 c i tbl))
theorem D_dma1336 : kernelRunC.sl.dma1336 c i tbl hT sim = simRow c sim (wordAt c tbl i ⟨59, by decide⟩) := by
  unfold kernelRunC.sl.dma1336; exact (copy_eq_simRow c sim (kernelRunC.sl.r_545 c i tbl) (hT _) _ rfl _ _).trans (congrArg (simRow c sim) (W_r_545 c i tbl))
theorem D_dma1359 : kernelRunC.sl.dma1359 c i tbl hT sim = simRow c sim (wordAt c tbl i ⟨60, by decide⟩) := by
  unfold kernelRunC.sl.dma1359; exact (copy_eq_simRow c sim (kernelRunC.sl.r_553 c i tbl) (hT _) _ rfl _ _).trans (congrArg (simRow c sim) (W_r_553 c i tbl))
theorem D_dma1382 : kernelRunC.sl.dma1382 c i tbl hT sim = simRow c sim (wordAt c tbl i ⟨61, by decide⟩) := by
  unfold kernelRunC.sl.dma1382; exact (copy_eq_simRow c sim (kernelRunC.sl.r_562 c i tbl) (hT _) _ rfl _ _).trans (congrArg (simRow c sim) (W_r_562 c i tbl))
theorem D_dma1405 : kernelRunC.sl.dma1405 c i tbl hT sim = simRow c sim (wordAt c tbl i ⟨62, by decide⟩) := by
  unfold kernelRunC.sl.dma1405; exact (copy_eq_simRow c sim (kernelRunC.sl.r_572 c i tbl) (hT _) _ rfl _ _).trans (congrArg (simRow c sim) (W_r_572 c i tbl))
theorem D_dma1428 : kernelRunC.sl.dma1428 c i tbl hT sim = simRow c sim (wordAt c tbl i ⟨63, by decide⟩) := by
  unfold kernelRunC.sl.dma1428; exact (copy_eq_simRow c sim (kernelRunC.sl.r_581 c i tbl) (hT _) _ rfl _ _).trans (congrArg (simRow c sim) (W_r_581 c i tbl))
theorem S_v19 : kernelRunC.sl.v19 c i tbl hT sim b9 = simRow c sim (wordAt c tbl i ⟨0, by decide⟩) := by
  unfold kernelRunC.sl.v19; exact (load_after_fill cc0_scratch0 _ _ (by decide) _).trans (D_dma1 c i tbl hT sim)
theorem S_v104 : kernelRunC.sl.v104 c i tbl hT sim b10 = simRow c sim (wordAt c tbl i ⟨1, by decide⟩) := by
  unfold kernelRunC.sl.v104; exact (load_after_fill cc0_scratch1 _ _ (by decide) _).trans (D_dma2 c i tbl hT sim)
theorem S_v189 : kernelRunC.sl.v189 c i tbl hT sim b9 = simRow c sim (wordAt c tbl i ⟨2, by decide⟩) := by
  unfold kernelRunC.sl.v189; exact (load_after_fill cc0_scratch0 _ _ (by decide) _).trans (D_dma25 c i tbl hT sim)
theorem S_v274 : kernelRunC.sl.v274 c i tbl hT sim b10 = simRow c sim (wordAt c tbl i ⟨3, by decide⟩) := by
  unfold kernelRunC.sl.v274; exact (load_after_fill cc0_scratch1 _ _ (by decide) _).trans (D_dma48 c i tbl hT sim)
theorem S_v359 : kernelRunC.sl.v359 c i tbl hT sim b9 = simRow c sim (wordAt c tbl i ⟨4, by decide⟩) := by
  unfold kernelRunC.sl.v359; exact (load_after_fill cc0_scratch0 _ _ (by decide) _).trans (D_dma71 c i tbl hT sim)
theorem S_v444 : kernelRunC.sl.v444 c i tbl hT sim b10 = simRow c sim (wordAt c tbl i ⟨5, by decide⟩) := by
  unfold kernelRunC.sl.v444; exact (load_after_fill cc0_scratch1 _ _ (by decide) _).trans (D_dma94 c i tbl hT sim)
theorem S_v529 : kernelRunC.sl.v529 c i tbl hT sim b9 = simRow c sim (wordAt c tbl i ⟨6, by decide⟩) := by
  unfold kernelRunC.sl.v529; exact (load_after_fill cc0_scratch0 _ _ (by decide) _).trans (D_dma117 c i tbl hT sim)
theorem S_v614 : kernelRunC.sl.v614 c i tbl hT sim b10 = simRow c sim (wordAt c tbl i ⟨7, by decide⟩) := by
  unfold kernelRunC.sl.v614; exact (load_after_fill cc0_scratch1 _ _ (by decide) _).trans (D_dma140 c i tbl hT sim)
theorem S_v699 : kernelRunC.sl.v699 c i tbl hT sim b9 = simRow c sim (wordAt c tbl i ⟨8, by decide⟩) := by
  unfold kernelRunC.sl.v699; exact (load_after_fill cc0_scratch0 _ _ (by decide) _).trans (D_dma163 c i tbl hT sim)
theorem S_v784 : kernelRunC.sl.v784 c i tbl hT sim b10 = simRow c sim (wordAt c tbl i ⟨9, by decide⟩) := by
  unfold kernelRunC.sl.v784; exact (load_after_fill cc0_scratch1 _ _ (by decide) _).trans (D_dma186 c i tbl hT sim)
theorem S_v869 : kernelRunC.sl.v869 c i tbl hT sim b9 = simRow c sim (wordAt c tbl i ⟨10, by decide⟩) := by
  unfold kernelRunC.sl.v869; exact (load_after_fill cc0_scratch0 _ _ (by decide) _).trans (D_dma209 c i tbl hT sim)
theorem S_v954 : kernelRunC.sl.v954 c i tbl hT sim b10 = simRow c sim (wordAt c tbl i ⟨11, by decide⟩) := by
  unfold kernelRunC.sl.v954; exact (load_after_fill cc0_scratch1 _ _ (by decide) _).trans (D_dma232 c i tbl hT sim)
theorem S_v1039 : kernelRunC.sl.v1039 c i tbl hT sim b9 = simRow c sim (wordAt c tbl i ⟨12, by decide⟩) := by
  unfold kernelRunC.sl.v1039; exact (load_after_fill cc0_scratch0 _ _ (by decide) _).trans (D_dma255 c i tbl hT sim)
theorem S_v1124 : kernelRunC.sl.v1124 c i tbl hT sim b10 = simRow c sim (wordAt c tbl i ⟨13, by decide⟩) := by
  unfold kernelRunC.sl.v1124; exact (load_after_fill cc0_scratch1 _ _ (by decide) _).trans (D_dma278 c i tbl hT sim)
theorem S_v1209 : kernelRunC.sl.v1209 c i tbl hT sim b9 = simRow c sim (wordAt c tbl i ⟨14, by decide⟩) := by
  unfold kernelRunC.sl.v1209; exact (load_after_fill cc0_scratch0 _ _ (by decide) _).trans (D_dma301 c i tbl hT sim)
theorem S_v1294 : kernelRunC.sl.v1294 c i tbl hT sim b10 = simRow c sim (wordAt c tbl i ⟨15, by decide⟩) := by
  unfold kernelRunC.sl.v1294; exact (load_after_fill cc0_scratch1 _ _ (by decide) _).trans (D_dma324 c i tbl hT sim)
theorem S_v1379 : kernelRunC.sl.v1379 c i tbl hT sim b9 = simRow c sim (wordAt c tbl i ⟨16, by decide⟩) := by
  unfold kernelRunC.sl.v1379; exact (load_after_fill cc0_scratch0 _ _ (by decide) _).trans (D_dma347 c i tbl hT sim)
theorem S_v1464 : kernelRunC.sl.v1464 c i tbl hT sim b10 = simRow c sim (wordAt c tbl i ⟨17, by decide⟩) := by
  unfold kernelRunC.sl.v1464; exact (load_after_fill cc0_scratch1 _ _ (by decide) _).trans (D_dma370 c i tbl hT sim)
theorem S_v : kernelRunC.sl.v c i tbl hT sim b9 = simRow c sim (wordAt c tbl i ⟨18, by decide⟩) := by
  unfold kernelRunC.sl.v; exact (load_after_fill cc0_scratch0 _ _ (by decide) _).trans (D_dma393 c i tbl hT sim)
theorem S_v1634 : kernelRunC.sl.v1634 c i tbl hT sim b10 = simRow c sim (wordAt c tbl i ⟨19, by decide⟩) := by
  unfold kernelRunC.sl.v1634; exact (load_after_fill cc0_scratch1 _ _ (by decide) _).trans (D_dma416 c i tbl hT sim)
theorem S_v1719 : kernelRunC.sl.v1719 c i tbl hT sim b9 = simRow c sim (wordAt c tbl i ⟨20, by decide⟩) := by
  unfold kernelRunC.sl.v1719; exact (load_after_fill cc0_scratch0 _ _ (by decide) _).trans (D_dma439 c i tbl hT sim)
theorem S_v1804 : kernelRunC.sl.v1804 c i tbl hT sim b10 = simRow c sim (wordAt c tbl i ⟨21, by decide⟩) := by
  unfold kernelRunC.sl.v1804; exact (load_after_fill cc0_scratch1 _ _ (by decide) _).trans (D_dma462 c i tbl hT sim)
theorem S_v1889 : kernelRunC.sl.v1889 c i tbl hT sim b9 = simRow c sim (wordAt c tbl i ⟨22, by decide⟩) := by
  unfold kernelRunC.sl.v1889; exact (load_after_fill cc0_scratch0 _ _ (by decide) _).trans (D_dma485 c i tbl hT sim)
theorem S_v1974 : kernelRunC.sl.v1974 c i tbl hT sim b10 = simRow c sim (wordAt c tbl i ⟨23, by decide⟩) := by
  unfold kernelRunC.sl.v1974; exact (load_after_fill cc0_scratch1 _ _ (by decide) _).trans (D_dma508 c i tbl hT sim)
theorem S_v2059 : kernelRunC.sl.v2059 c i tbl hT sim b9 = simRow c sim (wordAt c tbl i ⟨24, by decide⟩) := by
  unfold kernelRunC.sl.v2059; exact (load_after_fill cc0_scratch0 _ _ (by decide) _).trans (D_dma531 c i tbl hT sim)
theorem S_v2144 : kernelRunC.sl.v2144 c i tbl hT sim b10 = simRow c sim (wordAt c tbl i ⟨25, by decide⟩) := by
  unfold kernelRunC.sl.v2144; exact (load_after_fill cc0_scratch1 _ _ (by decide) _).trans (D_dma554 c i tbl hT sim)
theorem S_v2229 : kernelRunC.sl.v2229 c i tbl hT sim b9 = simRow c sim (wordAt c tbl i ⟨26, by decide⟩) := by
  unfold kernelRunC.sl.v2229; exact (load_after_fill cc0_scratch0 _ _ (by decide) _).trans (D_dma577 c i tbl hT sim)
theorem S_v2314 : kernelRunC.sl.v2314 c i tbl hT sim b10 = simRow c sim (wordAt c tbl i ⟨27, by decide⟩) := by
  unfold kernelRunC.sl.v2314; exact (load_after_fill cc0_scratch1 _ _ (by decide) _).trans (D_dma600 c i tbl hT sim)
theorem S_v2399 : kernelRunC.sl.v2399 c i tbl hT sim b9 = simRow c sim (wordAt c tbl i ⟨28, by decide⟩) := by
  unfold kernelRunC.sl.v2399; exact (load_after_fill cc0_scratch0 _ _ (by decide) _).trans (D_dma623 c i tbl hT sim)
theorem S_v2484 : kernelRunC.sl.v2484 c i tbl hT sim b10 = simRow c sim (wordAt c tbl i ⟨29, by decide⟩) := by
  unfold kernelRunC.sl.v2484; exact (load_after_fill cc0_scratch1 _ _ (by decide) _).trans (D_dma646 c i tbl hT sim)
theorem S_v2569 : kernelRunC.sl.v2569 c i tbl hT sim b9 = simRow c sim (wordAt c tbl i ⟨30, by decide⟩) := by
  unfold kernelRunC.sl.v2569; exact (load_after_fill cc0_scratch0 _ _ (by decide) _).trans (D_dma669 c i tbl hT sim)
theorem S_v2654 : kernelRunC.sl.v2654 c i tbl hT sim b10 = simRow c sim (wordAt c tbl i ⟨31, by decide⟩) := by
  unfold kernelRunC.sl.v2654; exact (load_after_fill cc0_scratch1 _ _ (by decide) _).trans (D_dma692 c i tbl hT sim)
theorem S_v2739 : kernelRunC.sl.v2739 c i tbl hT sim b9 = simRow c sim (wordAt c tbl i ⟨32, by decide⟩) := by
  unfold kernelRunC.sl.v2739; exact (load_after_fill cc0_scratch0 _ _ (by decide) _).trans (D_dma715 c i tbl hT sim)
theorem S_v2824 : kernelRunC.sl.v2824 c i tbl hT sim b10 = simRow c sim (wordAt c tbl i ⟨33, by decide⟩) := by
  unfold kernelRunC.sl.v2824; exact (load_after_fill cc0_scratch1 _ _ (by decide) _).trans (D_dma738 c i tbl hT sim)
theorem S_v2909 : kernelRunC.sl.v2909 c i tbl hT sim b9 = simRow c sim (wordAt c tbl i ⟨34, by decide⟩) := by
  unfold kernelRunC.sl.v2909; exact (load_after_fill cc0_scratch0 _ _ (by decide) _).trans (D_dma761 c i tbl hT sim)
theorem S_v2994 : kernelRunC.sl.v2994 c i tbl hT sim b10 = simRow c sim (wordAt c tbl i ⟨35, by decide⟩) := by
  unfold kernelRunC.sl.v2994; exact (load_after_fill cc0_scratch1 _ _ (by decide) _).trans (D_dma784 c i tbl hT sim)
theorem S_v3079 : kernelRunC.sl.v3079 c i tbl hT sim b9 = simRow c sim (wordAt c tbl i ⟨36, by decide⟩) := by
  unfold kernelRunC.sl.v3079; exact (load_after_fill cc0_scratch0 _ _ (by decide) _).trans (D_dma807 c i tbl hT sim)
theorem S_v3164 : kernelRunC.sl.v3164 c i tbl hT sim b10 = simRow c sim (wordAt c tbl i ⟨37, by decide⟩) := by
  unfold kernelRunC.sl.v3164; exact (load_after_fill cc0_scratch1 _ _ (by decide) _).trans (D_dma830 c i tbl hT sim)
theorem S_v_1 : kernelRunC.sl.v_1 c i tbl hT sim b9 = simRow c sim (wordAt c tbl i ⟨38, by decide⟩) := by
  unfold kernelRunC.sl.v_1; exact (load_after_fill cc0_scratch0 _ _ (by decide) _).trans (D_dma853 c i tbl hT sim)
theorem S_v3334 : kernelRunC.sl.v3334 c i tbl hT sim b10 = simRow c sim (wordAt c tbl i ⟨39, by decide⟩) := by
  unfold kernelRunC.sl.v3334; exact (load_after_fill cc0_scratch1 _ _ (by decide) _).trans (D_dma876 c i tbl hT sim)
theorem S_v3419 : kernelRunC.sl.v3419 c i tbl hT sim b9 = simRow c sim (wordAt c tbl i ⟨40, by decide⟩) := by
  unfold kernelRunC.sl.v3419; exact (load_after_fill cc0_scratch0 _ _ (by decide) _).trans (D_dma899 c i tbl hT sim)
theorem S_v3504 : kernelRunC.sl.v3504 c i tbl hT sim b10 = simRow c sim (wordAt c tbl i ⟨41, by decide⟩) := by
  unfold kernelRunC.sl.v3504; exact (load_after_fill cc0_scratch1 _ _ (by decide) _).trans (D_dma922 c i tbl hT sim)
theorem S_v3589 : kernelRunC.sl.v3589 c i tbl hT sim b9 = simRow c sim (wordAt c tbl i ⟨42, by decide⟩) := by
  unfold kernelRunC.sl.v3589; exact (load_after_fill cc0_scratch0 _ _ (by decide) _).trans (D_dma945 c i tbl hT sim)
theorem S_v3674 : kernelRunC.sl.v3674 c i tbl hT sim b10 = simRow c sim (wordAt c tbl i ⟨43, by decide⟩) := by
  unfold kernelRunC.sl.v3674; exact (load_after_fill cc0_scratch1 _ _ (by decide) _).trans (D_dma968 c i tbl hT sim)
theorem S_v3759 : kernelRunC.sl.v3759 c i tbl hT sim b9 = simRow c sim (wordAt c tbl i ⟨44, by decide⟩) := by
  unfold kernelRunC.sl.v3759; exact (load_after_fill cc0_scratch0 _ _ (by decide) _).trans (D_dma991 c i tbl hT sim)
theorem S_v3844 : kernelRunC.sl.v3844 c i tbl hT sim b10 = simRow c sim (wordAt c tbl i ⟨45, by decide⟩) := by
  unfold kernelRunC.sl.v3844; exact (load_after_fill cc0_scratch1 _ _ (by decide) _).trans (D_dma1014 c i tbl hT sim)
theorem S_v3929 : kernelRunC.sl.v3929 c i tbl hT sim b9 = simRow c sim (wordAt c tbl i ⟨46, by decide⟩) := by
  unfold kernelRunC.sl.v3929; exact (load_after_fill cc0_scratch0 _ _ (by decide) _).trans (D_dma1037 c i tbl hT sim)
theorem S_v4014 : kernelRunC.sl.v4014 c i tbl hT sim b10 = simRow c sim (wordAt c tbl i ⟨47, by decide⟩) := by
  unfold kernelRunC.sl.v4014; exact (load_after_fill cc0_scratch1 _ _ (by decide) _).trans (D_dma1060 c i tbl hT sim)
theorem S_v4099 : kernelRunC.sl.v4099 c i tbl hT sim b9 = simRow c sim (wordAt c tbl i ⟨48, by decide⟩) := by
  unfold kernelRunC.sl.v4099; exact (load_after_fill cc0_scratch0 _ _ (by decide) _).trans (D_dma1083 c i tbl hT sim)
theorem S_v4184 : kernelRunC.sl.v4184 c i tbl hT sim b10 = simRow c sim (wordAt c tbl i ⟨49, by decide⟩) := by
  unfold kernelRunC.sl.v4184; exact (load_after_fill cc0_scratch1 _ _ (by decide) _).trans (D_dma1106 c i tbl hT sim)
theorem S_v4269 : kernelRunC.sl.v4269 c i tbl hT sim b9 = simRow c sim (wordAt c tbl i ⟨50, by decide⟩) := by
  unfold kernelRunC.sl.v4269; exact (load_after_fill cc0_scratch0 _ _ (by decide) _).trans (D_dma1129 c i tbl hT sim)
theorem S_v4354 : kernelRunC.sl.v4354 c i tbl hT sim b10 = simRow c sim (wordAt c tbl i ⟨51, by decide⟩) := by
  unfold kernelRunC.sl.v4354; exact (load_after_fill cc0_scratch1 _ _ (by decide) _).trans (D_dma1152 c i tbl hT sim)
theorem S_v4439 : kernelRunC.sl.v4439 c i tbl hT sim b9 = simRow c sim (wordAt c tbl i ⟨52, by decide⟩) := by
  unfold kernelRunC.sl.v4439; exact (load_after_fill cc0_scratch0 _ _ (by decide) _).trans (D_dma1175 c i tbl hT sim)
theorem S_v4524 : kernelRunC.sl.v4524 c i tbl hT sim b10 = simRow c sim (wordAt c tbl i ⟨53, by decide⟩) := by
  unfold kernelRunC.sl.v4524; exact (load_after_fill cc0_scratch1 _ _ (by decide) _).trans (D_dma1198 c i tbl hT sim)
theorem S_v4609 : kernelRunC.sl.v4609 c i tbl hT sim b9 = simRow c sim (wordAt c tbl i ⟨54, by decide⟩) := by
  unfold kernelRunC.sl.v4609; exact (load_after_fill cc0_scratch0 _ _ (by decide) _).trans (D_dma1221 c i tbl hT sim)
theorem S_v4694 : kernelRunC.sl.v4694 c i tbl hT sim b10 = simRow c sim (wordAt c tbl i ⟨55, by decide⟩) := by
  unfold kernelRunC.sl.v4694; exact (load_after_fill cc0_scratch1 _ _ (by decide) _).trans (D_dma1244 c i tbl hT sim)
theorem S_v4779 : kernelRunC.sl.v4779 c i tbl hT sim b9 = simRow c sim (wordAt c tbl i ⟨56, by decide⟩) := by
  unfold kernelRunC.sl.v4779; exact (load_after_fill cc0_scratch0 _ _ (by decide) _).trans (D_dma1267 c i tbl hT sim)
theorem S_v4864 : kernelRunC.sl.v4864 c i tbl hT sim b10 = simRow c sim (wordAt c tbl i ⟨57, by decide⟩) := by
  unfold kernelRunC.sl.v4864; exact (load_after_fill cc0_scratch1 _ _ (by decide) _).trans (D_dma1290 c i tbl hT sim)
theorem S_v_2 : kernelRunC.sl.v_2 c i tbl hT sim b9 = simRow c sim (wordAt c tbl i ⟨58, by decide⟩) := by
  unfold kernelRunC.sl.v_2; exact (load_after_fill cc0_scratch0 _ _ (by decide) _).trans (D_dma1313 c i tbl hT sim)
theorem S_v5034 : kernelRunC.sl.v5034 c i tbl hT sim b10 = simRow c sim (wordAt c tbl i ⟨59, by decide⟩) := by
  unfold kernelRunC.sl.v5034; exact (load_after_fill cc0_scratch1 _ _ (by decide) _).trans (D_dma1336 c i tbl hT sim)
theorem S_v5119 : kernelRunC.sl.v5119 c i tbl hT sim b9 = simRow c sim (wordAt c tbl i ⟨60, by decide⟩) := by
  unfold kernelRunC.sl.v5119; exact (load_after_fill cc0_scratch0 _ _ (by decide) _).trans (D_dma1359 c i tbl hT sim)
theorem S_v5204 : kernelRunC.sl.v5204 c i tbl hT sim b10 = simRow c sim (wordAt c tbl i ⟨61, by decide⟩) := by
  unfold kernelRunC.sl.v5204; exact (load_after_fill cc0_scratch1 _ _ (by decide) _).trans (D_dma1382 c i tbl hT sim)
theorem S_v5289 : kernelRunC.sl.v5289 c i tbl hT sim b9 = simRow c sim (wordAt c tbl i ⟨62, by decide⟩) := by
  unfold kernelRunC.sl.v5289; exact (load_after_fill cc0_scratch0 _ _ (by decide) _).trans (D_dma1405 c i tbl hT sim)
theorem S_v5368 : kernelRunC.sl.v5368 c i tbl hT sim b10 = simRow c sim (wordAt c tbl i ⟨63, by decide⟩) := by
  unfold kernelRunC.sl.v5368; exact (load_after_fill cc0_scratch1 _ _ (by decide) _).trans (D_dma1428 c i tbl hT sim)
end TabC

end Cert.Proof.KI

end
-- ==== Proof.KIStepCTabV1.lean ====
import proofs.«419560_j5755256177164_3_alg».proof.Proof.KIStepCTabW

/-!
  The table of case C: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.KI

open Cert.KernelIdeal Cert.KernelIdeal.Gen
open Idealize.ShloMosaic Idealize.ShloMosaic.TcCoe
open Idealize.SL Idealize.SL.Sem

variable {F : FTy → Type} [FloatOps F]

namespace TabC

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

include c i M2 hM2 M3 hM3 tbl hT sim x2 x3 b9 b10 a12 a13 a14 a15 a16 a17

theorem V12_1 : kernelRunC.sl.v149 c M3 hM3 x3 a12 = (rowsOf c tbl i sim x2 x3 (accOf c a12 a13 a14 a15 a16 a17) 1).m := by
  unfold kernelRunC.sl.v149 kernelRunC.sl.H12_1
  rw [View.readCov_cons_toLoadRect]
  refine Eq.trans ?_ (rowsOf_m c tbl i sim x2 x3 (accOf c a12 a13 a14 a15 a16 a17) 0 (by decide)).symm
  unfold kernelRunC.sl.r_4
  simp only [mk_read M3 hM3 x3 0 (by decide)]
  try rfl
theorem V13_1 : kernelRunC.sl.v154 c i M2 hM2 M3 hM3 tbl x2 x3 a13 = (rowsOf c tbl i sim x2 x3 (accOf c a12 a13 a14 a15 a16 a17) 1).logp := by
  unfold kernelRunC.sl.v154 kernelRunC.sl.H13_1
  rw [View.readCov_cons_toLoadRect]
  refine Eq.trans ?_ (rowsOf_logp c tbl i sim x2 x3 (accOf c a12 a13 a14 a15 a16 a17) 0 (by decide)).symm
  unfold kernelRunC.sl.r_10 kernelRunC.sl.r_3 kernelRunC.sl.r_4
  simp only [W_r_2 c i tbl, in_read M2 hM2 x2 0 (by decide), mk_read M3 hM3 x3 0 (by decide)]
  try rfl
theorem V14_1 : kernelRunC.sl.v160 c i M3 hM3 tbl hT sim x3 b9 a14 = (rowsOf c tbl i sim x2 x3 (accOf c a12 a13 a14 a15 a16 a17) 1).w := by
  unfold kernelRunC.sl.v160 kernelRunC.sl.H14_1
  rw [View.readCov_cons_toLoadRect]
  refine Eq.trans ?_ (rowsOf_w c tbl i sim x2 x3 (accOf c a12 a13 a14 a15 a16 a17) 0 (by decide)).symm
  unfold kernelRunC.sl.r_6 kernelRunC.sl.r_4 kernelRunC.sl.r_5 kernelRunC.sl.cst_15
  simp only [S_v19 c i tbl hT sim b9, mk_read M3 hM3 x3 0 (by decide)]
  try rfl
theorem V12_2 : kernelRunC.sl.v234 c M3 hM3 x3 a12 = (rowsOf c tbl i sim x2 x3 (accOf c a12 a13 a14 a15 a16 a17) 2).m := by
  unfold kernelRunC.sl.v234 kernelRunC.sl.H12_2
  rw [View.readCov_cons_toLoadRect]
  refine Eq.trans ?_ (rowsOf_m c tbl i sim x2 x3 (accOf c a12 a13 a14 a15 a16 a17) 1 (by decide)).symm
  unfold kernelRunC.sl.r_13
  simp only [V12_1 c i M2 hM2 M3 hM3 tbl hT sim x2 x3 b9 b10 a12 a13 a14 a15 a16 a17, mk_read M3 hM3 x3 1 (by decide)]
  try rfl
theorem V13_2 : kernelRunC.sl.v239 c i M2 hM2 M3 hM3 tbl x2 x3 a13 = (rowsOf c tbl i sim x2 x3 (accOf c a12 a13 a14 a15 a16 a17) 2).logp := by
  unfold kernelRunC.sl.v239 kernelRunC.sl.H13_2
  rw [View.readCov_cons_toLoadRect]
  refine Eq.trans ?_ (rowsOf_logp c tbl i sim x2 x3 (accOf c a12 a13 a14 a15 a16 a17) 1 (by decide)).symm
  unfold kernelRunC.sl.r_13 kernelRunC.sl.r_16
  simp only [W_r_12 c i tbl, V13_1 c i M2 hM2 M3 hM3 tbl hT sim x2 x3 b9 b10 a12 a13 a14 a15 a16 a17, in_read M2 hM2 x2 1 (by decide), mk_read M3 hM3 x3 1 (by decide)]
  try rfl
theorem V14_2 : kernelRunC.sl.v245 c i M3 hM3 tbl hT sim x3 b9 b10 a14 = (rowsOf c tbl i sim x2 x3 (accOf c a12 a13 a14 a15 a16 a17) 2).w := by
  unfold kernelRunC.sl.v245 kernelRunC.sl.H14_2
  rw [View.readCov_cons_toLoadRect]
  refine Eq.trans ?_ (rowsOf_w c tbl i sim x2 x3 (accOf c a12 a13 a14 a15 a16 a17) 1 (by decide)).symm
  unfold kernelRunC.sl.r_14
  simp only [S_v104 c i tbl hT sim b10, V14_1 c i M2 hM2 M3 hM3 tbl hT sim x2 x3 b9 b10 a12 a13 a14 a15 a16 a17, mk_read M3 hM3 x3 1 (by decide)]
  try rfl
theorem V12_3 : kernelRunC.sl.v319 c M3 hM3 x3 a12 = (rowsOf c tbl i sim x2 x3 (accOf c a12 a13 a14 a15 a16 a17) 3).m := by
  unfold kernelRunC.sl.v319 kernelRunC.sl.H12_3
  rw [View.readCov_cons_toLoadRect]
  refine Eq.trans ?_ (rowsOf_m c tbl i sim x2 x3 (accOf c a12 a13 a14 a15 a16 a17) 2 (by decide)).symm
  unfold kernelRunC.sl.r_23
  simp only [V12_2 c i M2 hM2 M3 hM3 tbl hT sim x2 x3 b9 b10 a12 a13 a14 a15 a16 a17, mk_read M3 hM3 x3 2 (by decide)]
  try rfl
theorem V13_3 : kernelRunC.sl.v324 c i M2 hM2 M3 hM3 tbl x2 x3 a13 = (rowsOf c tbl i sim x2 x3 (accOf c a12 a13 a14 a15 a16 a17) 3).logp := by
  unfold kernelRunC.sl.v324 kernelRunC.sl.H13_3
  rw [View.readCov_cons_toLoadRect]
  refine Eq.trans ?_ (rowsOf_logp c tbl i sim x2 x3 (accOf c a12 a13 a14 a15 a16 a17) 2 (by decide)).symm
  unfold kernelRunC.sl.r_22 kernelRunC.sl.r_23
  simp only [W_r_21 c i tbl, V13_2 c i M2 hM2 M3 hM3 tbl hT sim x2 x3 b9 b10 a12 a13 a14 a15 a16 a17, in_read M2 hM2 x2 2 (by decide), mk_read M3 hM3 x3 2 (by decide)]
  try rfl
theorem V14_3 : kernelRunC.sl.v330 c i M3 hM3 tbl hT sim x3 b9 b10 a14 = (rowsOf c tbl i sim x2 x3 (accOf c a12 a13 a14 a15 a16 a17) 3).w := by
  unfold kernelRunC.sl.v330 kernelRunC.sl.H14_3
  rw [View.readCov_cons_toLoadRect]
  refine Eq.trans ?_ (rowsOf_w c tbl i sim x2 x3 (accOf c a12 a13 a14 a15 a16 a17) 2 (by decide)).symm
  unfold kernelRunC.sl.r_26
  simp only [S_v189 c i tbl hT sim b9, V14_2 c i M2 hM2 M3 hM3 tbl hT sim x2 x3 b9 b10 a12 a13 a14 a15 a16 a17, mk_read M3 hM3 x3 2 (by decide)]
  try rfl
theorem V12_4 : kernelRunC.sl.v404 c M3 hM3 x3 a12 = (rowsOf c tbl i sim x2 x3 (accOf c a12 a13 a14 a15 a16 a17) 4).m := by
  unfold kernelRunC.sl.v404 kernelRunC.sl.H12_4
  rw [View.readCov_cons_toLoadRect]
  refine Eq.trans ?_ (rowsOf_m c tbl i sim x2 x3 (accOf c a12 a13 a14 a15 a16 a17) 3 (by decide)).symm
  unfold kernelRunC.sl.r_33
  simp only [V12_3 c i M2 hM2 M3 hM3 tbl hT sim x2 x3 b9 b10 a12 a13 a14 a15 a16 a17, mk_read M3 hM3 x3 3 (by decide)]
  try rfl
theorem V13_4 : kernelRunC.sl.v409 c i M2 hM2 M3 hM3 tbl x2 x3 a13 = (rowsOf c tbl i sim x2 x3 (accOf c a12 a13 a14 a15 a16 a17) 4).logp := by
  unfold kernelRunC.sl.v409 kernelRunC.sl.H13_4
  rw [View.readCov_cons_toLoadRect]
  refine Eq.trans ?_ (rowsOf_logp c tbl i sim x2 x3 (accOf c a12 a13 a14 a15 a16 a17) 3 (by decide)).symm
  unfold kernelRunC.sl.r_39 kernelRunC.sl.r_32 kernelRunC.sl.r_33
  simp only [W_r_31 c i tbl, V13_3 c i M2 hM2 M3 hM3 tbl hT sim x2 x3 b9 b10 a12 a13 a14 a15 a16 a17, in_read M2 hM2 x2 3 (by decide), mk_read M3 hM3 x3 3 (by decide)]
  try rfl
theorem V14_4 : kernelRunC.sl.v415 c i M3 hM3 tbl hT sim x3 b9 b10 a14 = (rowsOf c tbl i sim x2 x3 (accOf c a12 a13 a14 a15 a16 a17) 4).w := by
  unfold kernelRunC.sl.v415 kernelRunC.sl.H14_4
  rw [View.readCov_cons_toLoadRect]
  refine Eq.trans ?_ (rowsOf_w c tbl i sim x2 x3 (accOf c a12 a13 a14 a15 a16 a17) 3 (by decide)).symm
  unfold kernelRunC.sl.r_35 kernelRunC.sl.r_33 kernelRunC.sl.r_34
  simp only [S_v274 c i tbl hT sim b10, V14_3 c i M2 hM2 M3 hM3 tbl hT sim x2 x3 b9 b10 a12 a13 a14 a15 a16 a17, mk_read M3 hM3 x3 3 (by decide)]
  try rfl
theorem V12_5 : kernelRunC.sl.v489 c M3 hM3 x3 a12 = (rowsOf c tbl i sim x2 x3 (accOf c a12 a13 a14 a15 a16 a17) 5).m := by
  unfold kernelRunC.sl.v489 kernelRunC.sl.H12_5
  rw [View.readCov_cons_toLoadRect]
  refine Eq.trans ?_ (rowsOf_m c tbl i sim x2 x3 (accOf c a12 a13 a14 a15 a16 a17) 4 (by decide)).symm
  unfold kernelRunC.sl.r_42
  simp only [V12_4 c i M2 hM2 M3 hM3 tbl hT sim x2 x3 b9 b10 a12 a13 a14 a15 a16 a17, mk_read M3 hM3 x3 4 (by decide)]
  try rfl
theorem V13_5 : kernelRunC.sl.v494 c i M2 hM2 M3 hM3 tbl x2 x3 a13 = (rowsOf c tbl i sim x2 x3 (accOf c a12 a13 a14 a15 a16 a17) 5).logp := by
  unfold kernelRunC.sl.v494 kernelRunC.sl.H13_5
  rw [View.readCov_cons_toLoadRect]
  refine Eq.trans ?_ (rowsOf_logp c tbl i sim x2 x3 (accOf c a12 a13 a14 a15 a16 a17) 4 (by decide)).symm
  unfold kernelRunC.sl.r_42 kernelRunC.sl.r_46
  simp only [W_r_41 c i tbl, V13_4 c i M2 hM2 M3 hM3 tbl hT sim x2 x3 b9 b10 a12 a13 a14 a15 a16 a17, in_read M2 hM2 x2 4 (by decide), mk_read M3 hM3 x3 4 (by decide)]
  try rfl
theorem V14_5 : kernelRunC.sl.v500 c i M3 hM3 tbl hT sim x3 b9 b10 a14 = (rowsOf c tbl i sim x2 x3 (accOf c a12 a13 a14 a15 a16 a17) 5).w := by
  unfold kernelRunC.sl.v500 kernelRunC.sl.H14_5
  rw [View.readCov_cons_toLoadRect]
  refine Eq.trans ?_ (rowsOf_w c tbl i sim x2 x3 (accOf c a12 a13 a14 a15 a16 a17) 4 (by decide)).symm
  unfold kernelRunC.sl.r_44
  simp only [S_v359 c i tbl hT sim b9, V14_4 c i M2 hM2 M3 hM3 tbl hT sim x2 x3 b9 b10 a12 a13 a14 a15 a16 a17, mk_read M3 hM3 x3 4 (by decide)]
  try rfl
theorem V12_6 : kernelRunC.sl.v574 c M3 hM3 x3 a12 = (rowsOf c tbl i sim x2 x3 (accOf c a12 a13 a14 a15 a16 a17) 6).m := by
  unfold kernelRunC.sl.v574 kernelRunC.sl.H12_6
  rw [View.readCov_cons_toLoadRect]
  refine Eq.trans ?_ (rowsOf_m c tbl i sim x2 x3 (accOf c a12 a13 a14 a15 a16 a17) 5 (by decide)).symm
  unfold kernelRunC.sl.r_52
  simp only [V12_5 c i M2 hM2 M3 hM3 tbl hT sim x2 x3 b9 b10 a12 a13 a14 a15 a16 a17, mk_read M3 hM3 x3 5 (by decide)]
  try rfl
theorem V13_6 : kernelRunC.sl.v579 c i M2 hM2 M3 hM3 tbl x2 x3 a13 = (rowsOf c tbl i sim x2 x3 (accOf c a12 a13 a14 a15 a16 a17) 6).logp := by
  unfold kernelRunC.sl.v579 kernelRunC.sl.H13_6
  rw [View.readCov_cons_toLoadRect]
  refine Eq.trans ?_ (rowsOf_logp c tbl i sim x2 x3 (accOf c a12 a13 a14 a15 a16 a17) 5 (by decide)).symm
  unfold kernelRunC.sl.r_51 kernelRunC.sl.r_52
  simp only [W_r_50 c i tbl, V13_5 c i M2 hM2 M3 hM3 tbl hT sim x2 x3 b9 b10 a12 a13 a14 a15 a16 a17, in_read M2 hM2 x2 5 (by decide), mk_read M3 hM3 x3 5 (by decide)]
  try rfl
theorem V14_6 : kernelRunC.sl.v585 c i M3 hM3 tbl hT sim x3 b9 b10 a14 = (rowsOf c tbl i sim x2 x3 (accOf c a12 a13 a14 a15 a16 a17) 6).w := by
  unfold kernelRunC.sl.v585 kernelRunC.sl.H14_6
  rw [View.readCov_cons_toLoadRect]
  refine Eq.trans ?_ (rowsOf_w c tbl i sim x2 x3 (accOf c a12 a13 a14 a15 a16 a17) 5 (by decide)).symm
  unfold kernelRunC.sl.r_54
  simp only [S_v444 c i tbl hT sim b10, V14_5 c i M2 hM2 M3 hM3 tbl hT sim x2 x3 b9 b10 a12 a13 a14 a15 a16 a17, mk_read M3 hM3 x3 5 (by decide)]
  try rfl
theorem V12_7 : kernelRunC.sl.v659 c M3 hM3 x3 a12 = (rowsOf c tbl i sim x2 x3 (accOf c a12 a13 a14 a15 a16 a17) 7).m := by
  unfold kernelRunC.sl.v659 kernelRunC.sl.H12_7
  rw [View.readCov_cons_toLoadRect]
  refine Eq.trans ?_ (rowsOf_m c tbl i sim x2 x3 (accOf c a12 a13 a14 a15 a16 a17) 6 (by decide)).symm
  unfold kernelRunC.sl.r_61
  simp only [V12_6 c i M2 hM2 M3 hM3 tbl hT sim x2 x3 b9 b10 a12 a13 a14 a15 a16 a17, mk_read M3 hM3 x3 6 (by decide)]
  try rfl
theorem V13_7 : kernelRunC.sl.v664 c i M2 hM2 M3 hM3 tbl x2 x3 a13 = (rowsOf c tbl i sim x2 x3 (accOf c a12 a13 a14 a15 a16 a17) 7).logp := by
  unfold kernelRunC.sl.v664 kernelRunC.sl.H13_7
  rw [View.readCov_cons_toLoadRect]
  refine Eq.trans ?_ (rowsOf_logp c tbl i sim x2 x3 (accOf c a12 a13 a14 a15 a16 a17) 6 (by decide)).symm
  unfold kernelRunC.sl.r_66 kernelRunC.sl.r_60 kernelRunC.sl.r_61
  simp only [W_r_59 c i tbl, V13_6 c i M2 hM2 M3 hM3 tbl hT sim x2 x3 b9 b10 a12 a13 a14 a15 a16 a17, in_read M2 hM2 x2 6 (by decide), mk_read M3 hM3 x3 6 (by decide)]
  try rfl
theorem V14_7 : kernelRunC.sl.v670 c i M3 hM3 tbl hT sim x3 b9 b10 a14 = (rowsOf c tbl i sim x2 x3 (accOf c a12 a13 a14 a15 a16 a17) 7).w := by
  unfold kernelRunC.sl.v670 kernelRunC.sl.H14_7
  rw [View.readCov_cons_toLoadRect]
  refine Eq.trans ?_ (rowsOf_w c tbl i sim x2 x3 (accOf c a12 a13 a14 a15 a16 a17) 6 (by decide)).symm
  unfold kernelRunC.sl.r_62 kernelRunC.sl.r_61 kernelRunC.sl.cst_284
  simp only [S_v529 c i tbl hT sim b9, V14_6 c i M2 hM2 M3 hM3 tbl hT sim x2 x3 b9 b10 a12 a13 a14 a15 a16 a17, mk_read M3 hM3 x3 6 (by decide)]
  try rfl
theorem V12_8 : kernelRunC.sl.v744 c M3 hM3 x3 a12 = (rowsOf c tbl i sim x2 x3 (accOf c a12 a13 a14 a15 a16 a17) 8).m := by
  unfold kernelRunC.sl.v744 kernelRunC.sl.H12_8
  rw [View.readCov_cons_toLoadRect]
  refine Eq.trans ?_ (rowsOf_m c tbl i sim x2 x3 (accOf c a12 a13 a14 a15 a16 a17) 7 (by decide)).symm
  unfold kernelRunC.sl.r_69
  simp only [V12_7 c i M2 hM2 M3 hM3 tbl hT sim x2 x3 b9 b10 a12 a13 a14 a15 a16 a17, mk_read M3 hM3 x3 7 (by decide)]
  try rfl
theorem V13_8 : kernelRunC.sl.v749 c i M2 hM2 M3 hM3 tbl x2 x3 a13 = (rowsOf c tbl i sim x2 x3 (accOf c a12 a13 a14 a15 a16 a17) 8).logp := by
  unfold kernelRunC.sl.v749 kernelRunC.sl.H13_8
  rw [View.readCov_cons_toLoadRect]
  refine Eq.trans ?_ (rowsOf_logp c tbl i sim x2 x3 (accOf c a12 a13 a14 a15 a16 a17) 7 (by decide)).symm
  unfold kernelRunC.sl.r_69 kernelRunC.sl.r_73
  simp only [W_r_68 c i tbl, V13_7 c i M2 hM2 M3 hM3 tbl hT sim x2 x3 b9 b10 a12 a13 a14 a15 a16 a17, in_read M2 hM2 x2 7 (by decide), mk_read M3 hM3 x3 7 (by decide)]
  try rfl
theorem V14_8 : kernelRunC.sl.v755 c i M3 hM3 tbl hT sim x3 b9 b10 a14 = (rowsOf c tbl i sim x2 x3 (accOf c a12 a13 a14 a15 a16 a17) 8).w := by
  unfold kernelRunC.sl.v755 kernelRunC.sl.H14_8
  rw [View.readCov_cons_toLoadRect]
  refine Eq.trans ?_ (rowsOf_w c tbl i sim x2 x3 (accOf c a12 a13 a14 a15 a16 a17) 7 (by decide)).symm
  unfold kernelRunC.sl.r_71
  simp only [S_v614 c i tbl hT sim b10, V14_7 c i M2 hM2 M3 hM3 tbl hT sim x2 x3 b9 b10 a12 a13 a14 a15 a16 a17, mk_read M3 hM3 x3 7 (by decide)]
  try rfl
theorem V12_9 : kernelRunC.sl.v829 c M3 hM3 x3 a12 = (rowsOf c tbl i sim x2 x3 (accOf c a12 a13 a14 a15 a16 a17) 9).m := by
  unfold kernelRunC.sl.v829 kernelRunC.sl.H12_9
  rw [View.readCov_cons_toLoadRect]
  refine Eq.trans ?_ (rowsOf_m c tbl i sim x2 x3 (accOf c a12 a13 a14 a15 a16 a17) 8 (by decide)).symm
  unfold kernelRunC.sl.r_78
  simp only [V12_8 c i M2 hM2 M3 hM3 tbl hT sim x2 x3 b9 b10 a12 a13 a14 a15 a16 a17, mk_read M3 hM3 x3 8 (by decide)]
  try rfl
theorem V13_9 : kernelRunC.sl.v834 c i M2 hM2 M3 hM3 tbl x2 x3 a13 = (rowsOf c tbl i sim x2 x3 (accOf c a12 a13 a14 a15 a16 a17) 9).logp := by
  unfold kernelRunC.sl.v834 kernelRunC.sl.H13_9
  rw [View.readCov_cons_toLoadRect]
  refine Eq.trans ?_ (rowsOf_logp c tbl i sim x2 x3 (accOf c a12 a13 a14 a15 a16 a17) 8 (by decide)).symm
  unfold kernelRunC.sl.r_77 kernelRunC.sl.r_78
  simp only [W_r_76 c i tbl, V13_8 c i M2 hM2 M3 hM3 tbl hT sim x2 x3 b9 b10 a12 a13 a14 a15 a16 a17, in_read M2 hM2 x2 8 (by decide), mk_read M3 hM3 x3 8 (by decide)]
  try rfl
theorem V14_9 : kernelRunC.sl.v840 c i M3 hM3 tbl hT sim x3 b9 b10 a14 = (rowsOf c tbl i sim x2 x3 (accOf c a12 a13 a14 a15 a16 a17) 9).w := by
  unfold kernelRunC.sl.v840 kernelRunC.sl.H14_9
  rw [View.readCov_cons_toLoadRect]
  refine Eq.trans ?_ (rowsOf_w c tbl i sim x2 x3 (accOf c a12 a13 a14 a15 a16 a17) 8 (by decide)).symm
  unfold kernelRunC.sl.r_78 kernelRunC.sl.r_79
  simp only [S_v699 c i tbl hT sim b9, V14_8 c i M2 hM2 M3 hM3 tbl hT sim x2 x3 b9 b10 a12 a13 a14 a15 a16 a17, mk_read M3 hM3 x3 8 (by decide)]
  try rfl
theorem V12_10 : kernelRunC.sl.v914 c M3 hM3 x3 a12 = (rowsOf c tbl i sim x2 x3 (accOf c a12 a13 a14 a15 a16 a17) 10).m := by
  unfold kernelRunC.sl.v914 kernelRunC.sl.H12_10
  rw [View.readCov_cons_toLoadRect]
  refine Eq.trans ?_ (rowsOf_m c tbl i sim x2 x3 (accOf c a12 a13 a14 a15 a16 a17) 9 (by decide)).symm
  unfold kernelRunC.sl.r_85
  simp only [V12_9 c i M2 hM2 M3 hM3 tbl hT sim x2 x3 b9 b10 a12 a13 a14 a15 a16 a17, mk_read M3 hM3 x3 9 (by decide)]
  try rfl
theorem V13_10 : kernelRunC.sl.v919 c i M2 hM2 M3 hM3 tbl x2 x3 a13 = (rowsOf c tbl i sim x2 x3 (accOf c a12 a13 a14 a15 a16 a17) 10).logp := by
  unfold kernelRunC.sl.v919 kernelRunC.sl.H13_10
  rw [View.readCov_cons_toLoadRect]
  refine Eq.trans ?_ (rowsOf_logp c tbl i sim x2 x3 (accOf c a12 a13 a14 a15 a16 a17) 9 (by decide)).symm
  unfold kernelRunC.sl.r_85 kernelRunC.sl.r_89 kernelRunC.sl.r_84
  simp only [W_r_86 c i tbl, V13_9 c i M2 hM2 M3 hM3 tbl hT sim x2 x3 b9 b10 a12 a13 a14 a15 a16 a17, in_read M2 hM2 x2 9 (by decide), mk_read M3 hM3 x3 9 (by decide)]
  try rfl
theorem V14_10 : kernelRunC.sl.v925 c i M3 hM3 tbl hT sim x3 b9 b10 a14 = (rowsOf c tbl i sim x2 x3 (accOf c a12 a13 a14 a15 a16 a17) 10).w := by
  unfold kernelRunC.sl.v925 kernelRunC.sl.H14_10
  rw [View.readCov_cons_toLoadRect]
  refine Eq.trans ?_ (rowsOf_w c tbl i sim x2 x3 (accOf c a12 a13 a14 a15 a16 a17) 9 (by decide)).symm
  unfold kernelRunC.sl.r_87 kernelRunC.sl.r_85
  simp only [S_v784 c i tbl hT sim b10, V14_9 c i M2 hM2 M3 hM3 tbl hT sim x2 x3 b9 b10 a12 a13 a14 a15 a16 a17, mk_read M3 hM3 x3 9 (by decide)]
  try rfl
theorem V12_11 : kernelRunC.sl.v999 c M3 hM3 x3 a12 = (rowsOf c tbl i sim x2 x3 (accOf c a12 a13 a14 a15 a16 a17) 11).m := by
  unfold kernelRunC.sl.v999 kernelRunC.sl.H12_11
  rw [View.readCov_cons_toLoadRect]
  refine Eq.trans ?_ (rowsOf_m c tbl i sim x2 x3 (accOf c a12 a13 a14 a15 a16 a17) 10 (by decide)).symm
  unfold kernelRunC.sl.r_94
  simp only [V12_10 c i M2 hM2 M3 hM3 tbl hT sim x2 x3 b9 b10 a12 a13 a14 a15 a16 a17, mk_read M3 hM3 x3 10 (by decide)]
  try rfl
theorem V13_11 : kernelRunC.sl.v1004 c i M2 hM2 M3 hM3 tbl x2 x3 a13 = (rowsOf c tbl i sim x2 x3 (accOf c a12 a13 a14 a15 a16 a17) 11).logp := by
  unfold kernelRunC.sl.v1004 kernelRunC.sl.H13_11
  rw [View.readCov_cons_toLoadRect]
  refine Eq.trans ?_ (rowsOf_logp c tbl i sim x2 x3 (accOf c a12 a13 a14 a15 a16 a17) 10 (by decide)).symm
  unfold kernelRunC.sl.r_94 kernelRunC.sl.r_98
  simp only [W_r_93 c i tbl, V13_10 c i M2 hM2 M3 hM3 tbl hT sim x2 x3 b9 b10 a12 a13 a14 a15 a16 a17, in_read M2 hM2 x2 10 (by decide), mk_read M3 hM3 x3 10 (by decide)]
  try rfl
theorem V14_11 : kernelRunC.sl.v1010 c i M3 hM3 tbl hT sim x3 b9 b10 a14 = (rowsOf c tbl i sim x2 x3 (accOf c a12 a13 a14 a15 a16 a17) 11).w := by
  unfold kernelRunC.sl.v1010 kernelRunC.sl.H14_11
  rw [View.readCov_cons_toLoadRect]
  refine Eq.trans ?_ (rowsOf_w c tbl i sim x2 x3 (accOf c a12 a13 a14 a15 a16 a17) 10 (by decide)).symm
  unfold kernelRunC.sl.r_96
  simp only [S_v869 c i tbl hT sim b9, V14_10 c i M2 hM2 M3 hM3 tbl hT sim x2 x3 b9 b10 a12 a13 a14 a15 a16 a17, mk_read M3 hM3 x3 10 (by decide)]
  try rfl
theorem V12_12 : kernelRunC.sl.v1084 c M3 hM3 x3 a12 = (rowsOf c tbl i sim x2 x3 (accOf c a12 a13 a14 a15 a16 a17) 12).m := by
  unfold kernelRunC.sl.v1084 kernelRunC.sl.H12_12
  rw [View.readCov_cons_toLoadRect]
  refine Eq.trans ?_ (rowsOf_m c tbl i sim x2 x3 (accOf c a12 a13 a14 a15 a16 a17) 11 (by decide)).symm
  unfold kernelRunC.sl.r_104
  simp only [V12_11 c i M2 hM2 M3 hM3 tbl hT sim x2 x3 b9 b10 a12 a13 a14 a15 a16 a17, mk_read M3 hM3 x3 11 (by decide)]
  try rfl
theorem V13_12 : kernelRunC.sl.v1089 c i M2 hM2 M3 hM3 tbl x2 x3 a13 = (rowsOf c tbl i sim x2 x3 (accOf c a12 a13 a14 a15 a16 a17) 12).logp := by
  unfold kernelRunC.sl.v1089 kernelRunC.sl.H13_12
  rw [View.readCov_cons_toLoadRect]
  refine Eq.trans ?_ (rowsOf_logp c tbl i sim x2 x3 (accOf c a12 a13 a14 a15 a16 a17) 11 (by decide)).symm
  unfold kernelRunC.sl.r_103 kernelRunC.sl.r_104
  simp only [W_r_102 c i tbl, V13_11 c i M2 hM2 M3 hM3 tbl hT sim x2 x3 b9 b10 a12 a13 a14 a15 a16 a17, in_read M2 hM2 x2 11 (by decide), mk_read M3 hM3 x3 11 (by decide)]
  try rfl
theorem V14_12 : kernelRunC.sl.v1095 c i M3 hM3 tbl hT sim x3 b9 b10 a14 = (rowsOf c tbl i sim x2 x3 (accOf c a12 a13 a14 a15 a16 a17) 12).w := by
  unfold kernelRunC.sl.v1095 kernelRunC.sl.H14_12
  rw [View.readCov_cons_toLoadRect]
  refine Eq.trans ?_ (rowsOf_w c tbl i sim x2 x3 (accOf c a12 a13 a14 a15 a16 a17) 11 (by decide)).symm
  unfold kernelRunC.sl.r_110 kernelRunC.sl.r_104 kernelRunC.sl.r_105 kernelRunC.sl.r_106
  simp only [V14_11 c i M2 hM2 M3 hM3 tbl hT sim x2 x3 b9 b10 a12 a13 a14 a15 a16 a17, S_v954 c i tbl hT sim b10, mk_read M3 hM3 x3 11 (by decide)]
  try rfl
theorem V12_13 : kernelRunC.sl.v1169 c M3 hM3 x3 a12 = (rowsOf c tbl i sim x2 x3 (accOf c a12 a13 a14 a15 a16 a17) 13).m := by
  unfold kernelRunC.sl.v1169 kernelRunC.sl.H12_13
  rw [View.readCov_cons_toLoadRect]
  refine Eq.trans ?_ (rowsOf_m c tbl i sim x2 x3 (accOf c a12 a13 a14 a15 a16 a17) 12 (by decide)).symm
  unfold kernelRunC.sl.r_121 kernelRunC.sl.r_113
  simp only [V12_12 c i M2 hM2 M3 hM3 tbl hT sim x2 x3 b9 b10 a12 a13 a14 a15 a16 a17, mk_read M3 hM3 x3 12 (by decide)]
  try rfl
theorem V13_13 : kernelRunC.sl.v1174 c i M2 hM2 M3 hM3 tbl x2 x3 a13 = (rowsOf c tbl i sim x2 x3 (accOf c a12 a13 a14 a15 a16 a17) 13).logp := by
  unfold kernelRunC.sl.v1174 kernelRunC.sl.H13_13
  rw [View.readCov_cons_toLoadRect]
  refine Eq.trans ?_ (rowsOf_logp c tbl i sim x2 x3 (accOf c a12 a13 a14 a15 a16 a17) 12 (by decide)).symm
  unfold kernelRunC.sl.r_115 kernelRunC.sl.r_118 kernelRunC.sl.r_113 kernelRunC.sl.r_112
  simp only [W_r_114 c i tbl, V13_12 c i M2 hM2 M3 hM3 tbl hT sim x2 x3 b9 b10 a12 a13 a14 a15 a16 a17, in_read M2 hM2 x2 12 (by decide), mk_read M3 hM3 x3 12 (by decide)]
  try rfl
theorem V14_13 : kernelRunC.sl.v1180 c i M3 hM3 tbl hT sim x3 b9 b10 a14 = (rowsOf c tbl i sim x2 x3 (accOf c a12 a13 a14 a15 a16 a17) 13).w := by
  unfold kernelRunC.sl.v1180 kernelRunC.sl.H14_13
  rw [View.readCov_cons_toLoadRect]
  refine Eq.trans ?_ (rowsOf_w c tbl i sim x2 x3 (accOf c a12 a13 a14 a15 a16 a17) 12 (by decide)).symm
  unfold kernelRunC.sl.r_116 kernelRunC.sl.r_113
  simp only [S_v1039 c i tbl hT sim b9, V14_12 c i M2 hM2 M3 hM3 tbl hT sim x2 x3 b9 b10 a12 a13 a14 a15 a16 a17, mk_read M3 hM3 x3 12 (by decide)]
  try rfl
theorem V12_14 : kernelRunC.sl.v1254 c M3 hM3 x3 a12 = (rowsOf c tbl i sim x2 x3 (accOf c a12 a13 a14 a15 a16 a17) 14).m := by
  unfold kernelRunC.sl.v1254 kernelRunC.sl.H12_14
  rw [View.readCov_cons_toLoadRect]
  refine Eq.trans ?_ (rowsOf_m c tbl i sim x2 x3 (accOf c a12 a13 a14 a15 a16 a17) 13 (by decide)).symm
  unfold kernelRunC.sl.r_125
  simp only [V12_13 c i M2 hM2 M3 hM3 tbl hT sim x2 x3 b9 b10 a12 a13 a14 a15 a16 a17, mk_read M3 hM3 x3 13 (by decide)]
  try rfl
theorem V13_14 : kernelRunC.sl.v1259 c i M2 hM2 M3 hM3 tbl x2 x3 a13 = (rowsOf c tbl i sim x2 x3 (accOf c a12 a13 a14 a15 a16 a17) 14).logp := by
  unfold kernelRunC.sl.v1259 kernelRunC.sl.H13_14
  rw [View.readCov_cons_toLoadRect]
  refine Eq.trans ?_ (rowsOf_logp c tbl i sim x2 x3 (accOf c a12 a13 a14 a15 a16 a17) 13 (by decide)).symm
  unfold kernelRunC.sl.r_124 kernelRunC.sl.r_125 kernelRunC.sl.r_129
  simp only [W_r_123 c i tbl, V13_13 c i M2 hM2 M3 hM3 tbl hT sim x2 x3 b9 b10 a12 a13 a14 a15 a16 a17, in_read M2 hM2 x2 13 (by decide), mk_read M3 hM3 x3 13 (by decide)]
  try rfl
theorem V14_14 : kernelRunC.sl.v1265 c i M3 hM3 tbl hT sim x3 b9 b10 a14 = (rowsOf c tbl i sim x2 x3 (accOf c a12 a13 a14 a15 a16 a17) 14).w := by
  unfold kernelRunC.sl.v1265 kernelRunC.sl.H14_14
  rw [View.readCov_cons_toLoadRect]
  refine Eq.trans ?_ (rowsOf_w c tbl i sim x2 x3 (accOf c a12 a13 a14 a15 a16 a17) 13 (by decide)).symm
  unfold kernelRunC.sl.r_127
  simp only [S_v1124 c i tbl hT sim b10, V14_13 c i M2 hM2 M3 hM3 tbl hT sim x2 x3 b9 b10 a12 a13 a14 a15 a16 a17, mk_read M3 hM3 x3 13 (by decide)]
  try rfl
theorem V12_15 : kernelRunC.sl.v1339 c M3 hM3 x3 a12 = (rowsOf c tbl i sim x2 x3 (accOf c a12 a13 a14 a15 a16 a17) 15).m := by
  unfold kernelRunC.sl.v1339 kernelRunC.sl.H12_15
  rw [View.readCov_cons_toLoadRect]
  refine Eq.trans ?_ (rowsOf_m c tbl i sim x2 x3 (accOf c a12 a13 a14 a15 a16 a17) 14 (by decide)).symm
  unfold kernelRunC.sl.r_135
  simp only [V12_14 c i M2 hM2 M3 hM3 tbl hT sim x2 x3 b9 b10 a12 a13 a14 a15 a16 a17, mk_read M3 hM3 x3 14 (by decide)]
  try rfl
theorem V13_15 : kernelRunC.sl.v1344 c i M2 hM2 M3 hM3 tbl x2 x3 a13 = (rowsOf c tbl i sim x2 x3 (accOf c a12 a13 a14 a15 a16 a17) 15).logp := by
  unfold kernelRunC.sl.v1344 kernelRunC.sl.H13_15
  rw [View.readCov_cons_toLoadRect]
  refine Eq.trans ?_ (rowsOf_logp c tbl i sim x2 x3 (accOf c a12 a13 a14 a15 a16 a17) 14 (by decide)).symm
  unfold kernelRunC.sl.r_134 kernelRunC.sl.r_135
  simp only [W_r_133 c i tbl, V13_14 c i M2 hM2 M3 hM3 tbl hT sim x2 x3 b9 b10 a12 a13 a14 a15 a16 a17, in_read M2 hM2 x2 14 (by decide), mk_read M3 hM3 x3 14 (by decide)]
  try rfl
theorem V14_15 : kernelRunC.sl.v1350 c i M3 hM3 tbl hT sim x3 b9 b10 a14 = (rowsOf c tbl i sim x2 x3 (accOf c a12 a13 a14 a15 a16 a17) 15).w := by
  unfold kernelRunC.sl.v1350 kernelRunC.sl.H14_15
  rw [View.readCov_cons_toLoadRect]
  refine Eq.trans ?_ (rowsOf_w c tbl i sim x2 x3 (accOf c a12 a13 a14 a15 a16 a17) 14 (by decide)).symm
  unfold kernelRunC.sl.r_141 kernelRunC.sl.r_135 kernelRunC.sl.r_136 kernelRunC.sl.r_137
  simp only [S_v1209 c i tbl hT sim b9, V14_14 c i M2 hM2 M3 hM3 tbl hT sim x2 x3 b9 b10 a12 a13 a14 a15 a16 a17, mk_read M3 hM3 x3 14 (by decide)]
  try rfl
theorem V12_16 : kernelRunC.sl.v1424 c M3 hM3 x3 a12 = (rowsOf c tbl i sim x2 x3 (accOf c a12 a13 a14 a15 a16 a17) 16).m := by
  unfold kernelRunC.sl.v1424 kernelRunC.sl.H12_16
  rw [View.readCov_cons_toLoadRect]
  refine Eq.trans ?_ (rowsOf_m c tbl i sim x2 x3 (accOf c a12 a13 a14 a15 a16 a17) 15 (by decide)).symm
  unfold kernelRunC.sl.r_151
  simp only [V12_15 c i M2 hM2 M3 hM3 tbl hT sim x2 x3 b9 b10 a12 a13 a14 a15 a16 a17, mk_read M3 hM3 x3 15 (by decide)]
  try rfl
theorem V13_16 : kernelRunC.sl.v1429 c i M2 hM2 M3 hM3 tbl x2 x3 a13 = (rowsOf c tbl i sim x2 x3 (accOf c a12 a13 a14 a15 a16 a17) 16).logp := by
  unfold kernelRunC.sl.v1429 kernelRunC.sl.H13_16
  rw [View.readCov_cons_toLoadRect]
  refine Eq.trans ?_ (rowsOf_logp c tbl i sim x2 x3 (accOf c a12 a13 a14 a15 a16 a17) 15 (by decide)).symm
  unfold kernelRunC.sl.r_145 kernelRunC.sl.r_148 kernelRunC.sl.r_143
  simp only [W_r_144 c i tbl, V13_15 c i M2 hM2 M3 hM3 tbl hT sim x2 x3 b9 b10 a12 a13 a14 a15 a16 a17, in_read M2 hM2 x2 15 (by decide), mk_read M3 hM3 x3 15 (by decide)]
  try rfl
theorem V14_16 : kernelRunC.sl.v1435 c i M3 hM3 tbl hT sim x3 b9 b10 a14 = (rowsOf c tbl i sim x2 x3 (accOf c a12 a13 a14 a15 a16 a17) 16).w := by
  unfold kernelRunC.sl.v1435 kernelRunC.sl.H14_16
  rw [View.readCov_cons_toLoadRect]
  refine Eq.trans ?_ (rowsOf_w c tbl i sim x2 x3 (accOf c a12 a13 a14 a15 a16 a17) 15 (by decide)).symm
  unfold kernelRunC.sl.r_146
  simp only [S_v1294 c i tbl hT sim b10, V14_15 c i M2 hM2 M3 hM3 tbl hT sim x2 x3 b9 b10 a12 a13 a14 a15 a16 a17, mk_read M3 hM3 x3 15 (by decide)]
  try rfl
theorem V12_17 : kernelRunC.sl.v1509 c M3 hM3 x3 a12 = (rowsOf c tbl i sim x2 x3 (accOf c a12 a13 a14 a15 a16 a17) 17).m := by
  unfold kernelRunC.sl.v1509 kernelRunC.sl.H12_17
  rw [View.readCov_cons_toLoadRect]
  refine Eq.trans ?_ (rowsOf_m c tbl i sim x2 x3 (accOf c a12 a13 a14 a15 a16 a17) 16 (by decide)).symm
  unfold kernelRunC.sl.r_155
  simp only [V12_16 c i M2 hM2 M3 hM3 tbl hT sim x2 x3 b9 b10 a12 a13 a14 a15 a16 a17, mk_read M3 hM3 x3 16 (by decide)]
  try rfl
theorem V13_17 : kernelRunC.sl.v1514 c i M2 hM2 M3 hM3 tbl x2 x3 a13 = (rowsOf c tbl i sim x2 x3 (accOf c a12 a13 a14 a15 a16 a17) 17).logp := by
  unfold kernelRunC.sl.v1514 kernelRunC.sl.H13_17
  rw [View.readCov_cons_toLoadRect]
  refine Eq.trans ?_ (rowsOf_logp c tbl i sim x2 x3 (accOf c a12 a13 a14 a15 a16 a17) 16 (by decide)).symm
  unfold kernelRunC.sl.r_154 kernelRunC.sl.r_155
  simp only [W_r_153 c i tbl, V13_16 c i M2 hM2 M3 hM3 tbl hT sim x2 x3 b9 b10 a12 a13 a14 a15 a16 a17, in_read M2 hM2 x2 16 (by decide), mk_read M3 hM3 x3 16 (by decide)]
  try rfl
theorem V14_17 : kernelRunC.sl.v1520 c i M3 hM3 tbl hT sim x3 b9 b10 a14 = (rowsOf c tbl i sim x2 x3 (accOf c a12 a13 a14 a15 a16 a17) 17).w := by
  unfold kernelRunC.sl.v1520 kernelRunC.sl.H14_17
  rw [View.readCov_cons_toLoadRect]
  refine Eq.trans ?_ (rowsOf_w c tbl i sim x2 x3 (accOf c a12 a13 a14 a15 a16 a17) 16 (by decide)).symm
  unfold kernelRunC.sl.r_157
  simp only [S_v1379 c i tbl hT sim b9, V14_16 c i M2 hM2 M3 hM3 tbl hT sim x2 x3 b9 b10 a12 a13 a14 a15 a16 a17, mk_read M3 hM3 x3 16 (by decide)]
  try rfl
theorem V12_18 : kernelRunC.sl.v1594 c M3 hM3 x3 a12 = (rowsOf c tbl i sim x2 x3 (accOf c a12 a13 a14 a15 a16 a17) 18).m := by
  unfold kernelRunC.sl.v1594 kernelRunC.sl.H12_18
  rw [View.readCov_cons_toLoadRect]
  refine Eq.trans ?_ (rowsOf_m c tbl i sim x2 x3 (accOf c a12 a13 a14 a15 a16 a17) 17 (by decide)).symm
  unfold kernelRunC.sl.r_164
  simp only [V12_17 c i M2 hM2 M3 hM3 tbl hT sim x2 x3 b9 b10 a12 a13 a14 a15 a16 a17, mk_read M3 hM3 x3 17 (by decide)]
  try rfl
theorem V13_18 : kernelRunC.sl.v1599 c i M2 hM2 M3 hM3 tbl x2 x3 a13 = (rowsOf c tbl i sim x2 x3 (accOf c a12 a13 a14 a15 a16 a17) 18).logp := by
  unfold kernelRunC.sl.v1599 kernelRunC.sl.H13_18
  rw [View.readCov_cons_toLoadRect]
  refine Eq.trans ?_ (rowsOf_logp c tbl i sim x2 x3 (accOf c a12 a13 a14 a15 a16 a17) 17 (by decide)).symm
  unfold kernelRunC.sl.r_163 kernelRunC.sl.r_164
  simp only [W_r_162 c i tbl, V13_17 c i M2 hM2 M3 hM3 tbl hT sim x2 x3 b9 b10 a12 a13 a14 a15 a16 a17, in_read M2 hM2 x2 17 (by decide), mk_read M3 hM3 x3 17 (by decide)]
  try rfl
theorem V14_18 : kernelRunC.sl.v1605 c i M3 hM3 tbl hT sim x3 b9 b10 a14 = (rowsOf c tbl i sim x2 x3 (accOf c a12 a13 a14 a15 a16 a17) 18).w := by
  unfold kernelRunC.sl.v1605 kernelRunC.sl.H14_18
  rw [View.readCov_cons_toLoadRect]
  refine Eq.trans ?_ (rowsOf_w c tbl i sim x2 x3 (accOf c a12 a13 a14 a15 a16 a17) 17 (by decide)).symm
  unfold kernelRunC.sl.r_167 kernelRunC.sl.r_164 kernelRunC.sl.r_165 kernelRunC.sl.r_166 kernelRunC.sl.cst_781
  simp only [S_v1464 c i tbl hT sim b10, V14_17 c i M2 hM2 M3 hM3 tbl hT sim x2 x3 b9 b10 a12 a13 a14 a15 a16 a17, mk_read M3 hM3 x3 17 (by decide)]
  try rfl
theorem V12_19 : kernelRunC.sl.v1679 c M3 hM3 x3 a12 = (rowsOf c tbl i sim x2 x3 (accOf c a12 a13 a14 a15 a16 a17) 19).m := by
  unfold kernelRunC.sl.v1679 kernelRunC.sl.H12_19
  rw [View.readCov_cons_toLoadRect]
  refine Eq.trans ?_ (rowsOf_m c tbl i sim x2 x3 (accOf c a12 a13 a14 a15 a16 a17) 18 (by decide)).symm
  unfold kernelRunC.sl.r_173
  simp only [V12_18 c i M2 hM2 M3 hM3 tbl hT sim x2 x3 b9 b10 a12 a13 a14 a15 a16 a17, mk_read M3 hM3 x3 18 (by decide)]
  try rfl
theorem V13_19 : kernelRunC.sl.v1684 c i M2 hM2 M3 hM3 tbl x2 x3 a13 = (rowsOf c tbl i sim x2 x3 (accOf c a12 a13 a14 a15 a16 a17) 19).logp := by
  unfold kernelRunC.sl.v1684 kernelRunC.sl.H13_19
  rw [View.readCov_cons_toLoadRect]
  refine Eq.trans ?_ (rowsOf_logp c tbl i sim x2 x3 (accOf c a12 a13 a14 a15 a16 a17) 18 (by decide)).symm
  unfold kernelRunC.sl.r_173 kernelRunC.sl.r_176
  simp only [W_r_172 c i tbl, V13_18 c i M2 hM2 M3 hM3 tbl hT sim x2 x3 b9 b10 a12 a13 a14 a15 a16 a17, in_read M2 hM2 x2 18 (by decide), mk_read M3 hM3 x3 18 (by decide)]
  try rfl
theorem V14_19 : kernelRunC.sl.v1690 c i M3 hM3 tbl hT sim x3 b9 b10 a14 = (rowsOf c tbl i sim x2 x3 (accOf c a12 a13 a14 a15 a16 a17) 19).w := by
  unfold kernelRunC.sl.v1690 kernelRunC.sl.H14_19
  rw [View.readCov_cons_toLoadRect]
  refine Eq.trans ?_ (rowsOf_w c tbl i sim x2 x3 (accOf c a12 a13 a14 a15 a16 a17) 18 (by decide)).symm
  unfold kernelRunC.sl.r_174
  simp only [S_v c i tbl hT sim b9, V14_18 c i M2 hM2 M3 hM3 tbl hT sim x2 x3 b9 b10 a12 a13 a14 a15 a16 a17, mk_read M3 hM3 x3 18 (by decide)]
  try rfl
theorem V12_20 : kernelRunC.sl.v1764 c M3 hM3 x3 a12 = (rowsOf c tbl i sim x2 x3 (accOf c a12 a13 a14 a15 a16 a17) 20).m := by
  unfold kernelRunC.sl.v1764 kernelRunC.sl.H12_20
  rw [View.readCov_cons_toLoadRect]
  refine Eq.trans ?_ (rowsOf_m c tbl i sim x2 x3 (accOf c a12 a13 a14 a15 a16 a17) 19 (by decide)).symm
  unfold kernelRunC.sl.r_182
  simp only [V12_19 c i M2 hM2 M3 hM3 tbl hT sim x2 x3 b9 b10 a12 a13 a14 a15 a16 a17, mk_read M3 hM3 x3 19 (by decide)]
  try rfl
theorem V13_20 : kernelRunC.sl.v1769 c i M2 hM2 M3 hM3 tbl x2 x3 a13 = (rowsOf c tbl i sim x2 x3 (accOf c a12 a13 a14 a15 a16 a17) 20).logp := by
  unfold kernelRunC.sl.v1769 kernelRunC.sl.H13_20
  rw [View.readCov_cons_toLoadRect]
  refine Eq.trans ?_ (rowsOf_logp c tbl i sim x2 x3 (accOf c a12 a13 a14 a15 a16 a17) 19 (by decide)).symm
  unfold kernelRunC.sl.r_181 kernelRunC.sl.r_182
  simp only [W_r_180 c i tbl, V13_19 c i M2 hM2 M3 hM3 tbl hT sim x2 x3 b9 b10 a12 a13 a14 a15 a16 a17, in_read M2 hM2 x2 19 (by decide), mk_read M3 hM3 x3 19 (by decide)]
  try rfl
theorem V14_20 : kernelRunC.sl.v1775 c i M3 hM3 tbl hT sim x3 b9 b10 a14 = (rowsOf c tbl i sim x2 x3 (accOf c a12 a13 a14 a15 a16 a17) 20).w := by
  unfold kernelRunC.sl.v1775 kernelRunC.sl.H14_20
  rw [View.readCov_cons_toLoadRect]
  refine Eq.trans ?_ (rowsOf_w c tbl i sim x2 x3 (accOf c a12 a13 a14 a15 a16 a17) 19 (by decide)).symm
  unfold kernelRunC.sl.r_184
  simp only [S_v1634 c i tbl hT sim b10, V14_19 c i M2 hM2 M3 hM3 tbl hT sim x2 x3 b9 b10 a12 a13 a14 a15 a16 a17, mk_read M3 hM3 x3 19 (by decide)]
  try rfl
theorem V12_21 : kernelRunC.sl.v1849 c M3 hM3 x3 a12 = (rowsOf c tbl i sim x2 x3 (accOf c a12 a13 a14 a15 a16 a17) 21).m := by
  unfold kernelRunC.sl.v1849 kernelRunC.sl.H12_21
  rw [View.readCov_cons_toLoadRect]
  refine Eq.trans ?_ (rowsOf_m c tbl i sim x2 x3 (accOf c a12 a13 a14 a15 a16 a17) 20 (by decide)).symm
  unfold kernelRunC.sl.r_191
  simp only [V12_20 c i M2 hM2 M3 hM3 tbl hT sim x2 x3 b9 b10 a12 a13 a14 a15 a16 a17, mk_read M3 hM3 x3 20 (by decide)]
  try rfl
theorem V13_21 : kernelRunC.sl.v1854 c i M2 hM2 M3 hM3 tbl x2 x3 a13 = (rowsOf c tbl i sim x2 x3 (accOf c a12 a13 a14 a15 a16 a17) 21).logp := by
  unfold kernelRunC.sl.v1854 kernelRunC.sl.H13_21
  rw [View.readCov_cons_toLoadRect]
  refine Eq.trans ?_ (rowsOf_logp c tbl i sim x2 x3 (accOf c a12 a13 a14 a15 a16 a17) 20 (by decide)).symm
  unfold kernelRunC.sl.r_197 kernelRunC.sl.r_190 kernelRunC.sl.r_191
  simp only [W_r_189 c i tbl, V13_20 c i M2 hM2 M3 hM3 tbl hT sim x2 x3 b9 b10 a12 a13 a14 a15 a16 a17, in_read M2 hM2 x2 20 (by decide), mk_read M3 hM3 x3 20 (by decide)]
  try rfl
theorem V14_21 : kernelRunC.sl.v1860 c i M3 hM3 tbl hT sim x3 b9 b10 a14 = (rowsOf c tbl i sim x2 x3 (accOf c a12 a13 a14 a15 a16 a17) 21).w := by
  unfold kernelRunC.sl.v1860 kernelRunC.sl.H14_21
  rw [View.readCov_cons_toLoadRect]
  refine Eq.trans ?_ (rowsOf_w c tbl i sim x2 x3 (accOf c a12 a13 a14 a15 a16 a17) 20 (by decide)).symm
  unfold kernelRunC.sl.r_193 kernelRunC.sl.r_191 kernelRunC.sl.r_192 kernelRunC.sl.cst_15
  simp only [S_v1719 c i tbl hT sim b9, V14_20 c i M2 hM2 M3 hM3 tbl hT sim x2 x3 b9 b10 a12 a13 a14 a15 a16 a17, mk_read M3 hM3 x3 20 (by decide)]
  try rfl
theorem V12_22 : kernelRunC.sl.v1934 c M3 hM3 x3 a12 = (rowsOf c tbl i sim x2 x3 (accOf c a12 a13 a14 a15 a16 a17) 22).m := by
  unfold kernelRunC.sl.v1934 kernelRunC.sl.H12_22
  rw [View.readCov_cons_toLoadRect]
  refine Eq.trans ?_ (rowsOf_m c tbl i sim x2 x3 (accOf c a12 a13 a14 a15 a16 a17) 21 (by decide)).symm
  unfold kernelRunC.sl.r_200
  simp only [V12_21 c i M2 hM2 M3 hM3 tbl hT sim x2 x3 b9 b10 a12 a13 a14 a15 a16 a17, mk_read M3 hM3 x3 21 (by decide)]
  try rfl
theorem V13_22 : kernelRunC.sl.v1939 c i M2 hM2 M3 hM3 tbl x2 x3 a13 = (rowsOf c tbl i sim x2 x3 (accOf c a12 a13 a14 a15 a16 a17) 22).logp := by
  unfold kernelRunC.sl.v1939 kernelRunC.sl.H13_22
  rw [View.readCov_cons_toLoadRect]
  refine Eq.trans ?_ (rowsOf_logp c tbl i sim x2 x3 (accOf c a12 a13 a14 a15 a16 a17) 21 (by decide)).symm
  unfold kernelRunC.sl.r_200 kernelRunC.sl.r_203
  simp only [W_r_199 c i tbl, V13_21 c i M2 hM2 M3 hM3 tbl hT sim x2 x3 b9 b10 a12 a13 a14 a15 a16 a17, in_read M2 hM2 x2 21 (by decide), mk_read M3 hM3 x3 21 (by decide)]
  try rfl
theorem V14_22 : kernelRunC.sl.v1945 c i M3 hM3 tbl hT sim x3 b9 b10 a14 = (rowsOf c tbl i sim x2 x3 (accOf c a12 a13 a14 a15 a16 a17) 22).w := by
  unfold kernelRunC.sl.v1945 kernelRunC.sl.H14_22
  rw [View.readCov_cons_toLoadRect]
  refine Eq.trans ?_ (rowsOf_w c tbl i sim x2 x3 (accOf c a12 a13 a14 a15 a16 a17) 21 (by decide)).symm
  unfold kernelRunC.sl.r_201
  simp only [S_v1804 c i tbl hT sim b10, V14_21 c i M2 hM2 M3 hM3 tbl hT sim x2 x3 b9 b10 a12 a13 a14 a15 a16 a17, mk_read M3 hM3 x3 21 (by decide)]
  try rfl
theorem V12_23 : kernelRunC.sl.v2019 c M3 hM3 x3 a12 = (rowsOf c tbl i sim x2 x3 (accOf c a12 a13 a14 a15 a16 a17) 23).m := by
  unfold kernelRunC.sl.v2019 kernelRunC.sl.H12_23
  rw [View.readCov_cons_toLoadRect]
  refine Eq.trans ?_ (rowsOf_m c tbl i sim x2 x3 (accOf c a12 a13 a14 a15 a16 a17) 22 (by decide)).symm
  unfold kernelRunC.sl.r_210
  simp only [V12_22 c i M2 hM2 M3 hM3 tbl hT sim x2 x3 b9 b10 a12 a13 a14 a15 a16 a17, mk_read M3 hM3 x3 22 (by decide)]
  try rfl
theorem V13_23 : kernelRunC.sl.v2024 c i M2 hM2 M3 hM3 tbl x2 x3 a13 = (rowsOf c tbl i sim x2 x3 (accOf c a12 a13 a14 a15 a16 a17) 23).logp := by
  unfold kernelRunC.sl.v2024 kernelRunC.sl.H13_23
  rw [View.readCov_cons_toLoadRect]
  refine Eq.trans ?_ (rowsOf_logp c tbl i sim x2 x3 (accOf c a12 a13 a14 a15 a16 a17) 22 (by decide)).symm
  unfold kernelRunC.sl.r_209 kernelRunC.sl.r_210
  simp only [W_r_208 c i tbl, V13_22 c i M2 hM2 M3 hM3 tbl hT sim x2 x3 b9 b10 a12 a13 a14 a15 a16 a17, in_read M2 hM2 x2 22 (by decide), mk_read M3 hM3 x3 22 (by decide)]
  try rfl
theorem V14_23 : kernelRunC.sl.v2030 c i M3 hM3 tbl hT sim x3 b9 b10 a14 = (rowsOf c tbl i sim x2 x3 (accOf c a12 a13 a14 a15 a16 a17) 23).w := by
  unfold kernelRunC.sl.v2030 kernelRunC.sl.H14_23
  rw [View.readCov_cons_toLoadRect]
  refine Eq.trans ?_ (rowsOf_w c tbl i sim x2 x3 (accOf c a12 a13 a14 a15 a16 a17) 22 (by decide)).symm
  unfold kernelRunC.sl.r_213
  simp only [S_v1889 c i tbl hT sim b9, V14_22 c i M2 hM2 M3 hM3 tbl hT sim x2 x3 b9 b10 a12 a13 a14 a15 a16 a17, mk_read M3 hM3 x3 22 (by decide)]
  try rfl
theorem V12_24 : kernelRunC.sl.v2104 c M3 hM3 x3 a12 = (rowsOf c tbl i sim x2 x3 (accOf c a12 a13 a14 a15 a16 a17) 24).m := by
  unfold kernelRunC.sl.v2104 kernelRunC.sl.H12_24
  rw [View.readCov_cons_toLoadRect]
  refine Eq.trans ?_ (rowsOf_m c tbl i sim x2 x3 (accOf c a12 a13 a14 a15 a16 a17) 23 (by decide)).symm
  unfold kernelRunC.sl.r_220
  simp only [V12_23 c i M2 hM2 M3 hM3 tbl hT sim x2 x3 b9 b10 a12 a13 a14 a15 a16 a17, mk_read M3 hM3 x3 23 (by decide)]
  try rfl
theorem V13_24 : kernelRunC.sl.v2109 c i M2 hM2 M3 hM3 tbl x2 x3 a13 = (rowsOf c tbl i sim x2 x3 (accOf c a12 a13 a14 a15 a16 a17) 24).logp := by
  unfold kernelRunC.sl.v2109 kernelRunC.sl.H13_24
  rw [View.readCov_cons_toLoadRect]
  refine Eq.trans ?_ (rowsOf_logp c tbl i sim x2 x3 (accOf c a12 a13 a14 a15 a16 a17) 23 (by decide)).symm
  unfold kernelRunC.sl.r_226 kernelRunC.sl.r_219 kernelRunC.sl.r_220
  simp only [W_r_218 c i tbl, V13_23 c i M2 hM2 M3 hM3 tbl hT sim x2 x3 b9 b10 a12 a13 a14 a15 a16 a17, in_read M2 hM2 x2 23 (by decide), mk_read M3 hM3 x3 23 (by decide)]
  try rfl
theorem V14_24 : kernelRunC.sl.v2115 c i M3 hM3 tbl hT sim x3 b9 b10 a14 = (rowsOf c tbl i sim x2 x3 (accOf c a12 a13 a14 a15 a16 a17) 24).w := by
  unfold kernelRunC.sl.v2115 kernelRunC.sl.H14_24
  rw [View.readCov_cons_toLoadRect]
  refine Eq.trans ?_ (rowsOf_w c tbl i sim x2 x3 (accOf c a12 a13 a14 a15 a16 a17) 23 (by decide)).symm
  unfold kernelRunC.sl.r_222 kernelRunC.sl.r_220 kernelRunC.sl.r_221
  simp only [S_v1974 c i tbl hT sim b10, V14_23 c i M2 hM2 M3 hM3 tbl hT sim x2 x3 b9 b10 a12 a13 a14 a15 a16 a17, mk_read M3 hM3 x3 23 (by decide)]
  try rfl
theorem V12_25 : kernelRunC.sl.v2189 c M3 hM3 x3 a12 = (rowsOf c tbl i sim x2 x3 (accOf c a12 a13 a14 a15 a16 a17) 25).m := by
  unfold kernelRunC.sl.v2189 kernelRunC.sl.H12_25
  rw [View.readCov_cons_toLoadRect]
  refine Eq.trans ?_ (rowsOf_m c tbl i sim x2 x3 (accOf c a12 a13 a14 a15 a16 a17) 24 (by decide)).symm
  unfold kernelRunC.sl.r_229
  simp only [V12_24 c i M2 hM2 M3 hM3 tbl hT sim x2 x3 b9 b10 a12 a13 a14 a15 a16 a17, mk_read M3 hM3 x3 24 (by decide)]
  try rfl
theorem V13_25 : kernelRunC.sl.v2194 c i M2 hM2 M3 hM3 tbl x2 x3 a13 = (rowsOf c tbl i sim x2 x3 (accOf c a12 a13 a14 a15 a16 a17) 25).logp := by
  unfold kernelRunC.sl.v2194 kernelRunC.sl.H13_25
  rw [View.readCov_cons_toLoadRect]
  refine Eq.trans ?_ (rowsOf_logp c tbl i sim x2 x3 (accOf c a12 a13 a14 a15 a16 a17) 24 (by decide)).symm
  unfold kernelRunC.sl.r_229 kernelRunC.sl.r_233
  simp only [W_r_228 c i tbl, V13_24 c i M2 hM2 M3 hM3 tbl hT sim x2 x3 b9 b10 a12 a13 a14 a15 a16 a17, in_read M2 hM2 x2 24 (by decide), mk_read M3 hM3 x3 24 (by decide)]
  try rfl
theorem V14_25 : kernelRunC.sl.v2200 c i M3 hM3 tbl hT sim x3 b9 b10 a14 = (rowsOf c tbl i sim x2 x3 (accOf c a12 a13 a14 a15 a16 a17) 25).w := by
  unfold kernelRunC.sl.v2200 kernelRunC.sl.H14_25
  rw [View.readCov_cons_toLoadRect]
  refine Eq.trans ?_ (rowsOf_w c tbl i sim x2 x3 (accOf c a12 a13 a14 a15 a16 a17) 24 (by decide)).symm
  unfold kernelRunC.sl.r_231
  simp only [S_v2059 c i tbl hT sim b9, V14_24 c i M2 hM2 M3 hM3 tbl hT sim x2 x3 b9 b10 a12 a13 a14 a15 a16 a17, mk_read M3 hM3 x3 24 (by decide)]
  try rfl
theorem V12_26 : kernelRunC.sl.v2274 c M3 hM3 x3 a12 = (rowsOf c tbl i sim x2 x3 (accOf c a12 a13 a14 a15 a16 a17) 26).m := by
  unfold kernelRunC.sl.v2274 kernelRunC.sl.H12_26
  rw [View.readCov_cons_toLoadRect]
  refine Eq.trans ?_ (rowsOf_m c tbl i sim x2 x3 (accOf c a12 a13 a14 a15 a16 a17) 25 (by decide)).symm
  unfold kernelRunC.sl.r_239
  simp only [V12_25 c i M2 hM2 M3 hM3 tbl hT sim x2 x3 b9 b10 a12 a13 a14 a15 a16 a17, mk_read M3 hM3 x3 25 (by decide)]
  try rfl
theorem V13_26 : kernelRunC.sl.v2279 c i M2 hM2 M3 hM3 tbl x2 x3 a13 = (rowsOf c tbl i sim x2 x3 (accOf c a12 a13 a14 a15 a16 a17) 26).logp := by
  unfold kernelRunC.sl.v2279 kernelRunC.sl.H13_26
  rw [View.readCov_cons_toLoadRect]
  refine Eq.trans ?_ (rowsOf_logp c tbl i sim x2 x3 (accOf c a12 a13 a14 a15 a16 a17) 25 (by decide)).symm
  unfold kernelRunC.sl.r_238 kernelRunC.sl.r_239
  simp only [W_r_237 c i tbl, V13_25 c i M2 hM2 M3 hM3 tbl hT sim x2 x3 b9 b10 a12 a13 a14 a15 a16 a17, in_read M2 hM2 x2 25 (by decide), mk_read M3 hM3 x3 25 (by decide)]
  try rfl
theorem V14_26 : kernelRunC.sl.v2285 c i M3 hM3 tbl hT sim x3 b9 b10 a14 = (rowsOf c tbl i sim x2 x3 (accOf c a12 a13 a14 a15 a16 a17) 26).w := by
  unfold kernelRunC.sl.v2285 kernelRunC.sl.H14_26
  rw [View.readCov_cons_toLoadRect]
  refine Eq.trans ?_ (rowsOf_w c tbl i sim x2 x3 (accOf c a12 a13 a14 a15 a16 a17) 25 (by decide)).symm
  unfold kernelRunC.sl.r_241
  simp only [S_v2144 c i tbl hT sim b10, V14_25 c i M2 hM2 M3 hM3 tbl hT sim x2 x3 b9 b10 a12 a13 a14 a15 a16 a17, mk_read M3 hM3 x3 25 (by decide)]
  try rfl
theorem V12_27 : kernelRunC.sl.v2359 c M3 hM3 x3 a12 = (rowsOf c tbl i sim x2 x3 (accOf c a12 a13 a14 a15 a16 a17) 27).m := by
  unfold kernelRunC.sl.v2359 kernelRunC.sl.H12_27
  rw [View.readCov_cons_toLoadRect]
  refine Eq.trans ?_ (rowsOf_m c tbl i sim x2 x3 (accOf c a12 a13 a14 a15 a16 a17) 26 (by decide)).symm
  unfold kernelRunC.sl.r_248
  simp only [V12_26 c i M2 hM2 M3 hM3 tbl hT sim x2 x3 b9 b10 a12 a13 a14 a15 a16 a17, mk_read M3 hM3 x3 26 (by decide)]
  try rfl
theorem V13_27 : kernelRunC.sl.v2364 c i M2 hM2 M3 hM3 tbl x2 x3 a13 = (rowsOf c tbl i sim x2 x3 (accOf c a12 a13 a14 a15 a16 a17) 27).logp := by
  unfold kernelRunC.sl.v2364 kernelRunC.sl.H13_27
  rw [View.readCov_cons_toLoadRect]
  refine Eq.trans ?_ (rowsOf_logp c tbl i sim x2 x3 (accOf c a12 a13 a14 a15 a16 a17) 26 (by decide)).symm
  unfold kernelRunC.sl.r_253 kernelRunC.sl.r_247 kernelRunC.sl.r_248
  simp only [W_r_246 c i tbl, V13_26 c i M2 hM2 M3 hM3 tbl hT sim x2 x3 b9 b10 a12 a13 a14 a15 a16 a17, in_read M2 hM2 x2 26 (by decide), mk_read M3 hM3 x3 26 (by decide)]
  try rfl
theorem V14_27 : kernelRunC.sl.v2370 c i M3 hM3 tbl hT sim x3 b9 b10 a14 = (rowsOf c tbl i sim x2 x3 (accOf c a12 a13 a14 a15 a16 a17) 27).w := by
  unfold kernelRunC.sl.v2370 kernelRunC.sl.H14_27
  rw [View.readCov_cons_toLoadRect]
  refine Eq.trans ?_ (rowsOf_w c tbl i sim x2 x3 (accOf c a12 a13 a14 a15 a16 a17) 26 (by decide)).symm
  unfold kernelRunC.sl.r_249 kernelRunC.sl.r_248 kernelRunC.sl.cst_284
  simp only [S_v2229 c i tbl hT sim b9, V14_26 c i M2 hM2 M3 hM3 tbl hT sim x2 x3 b9 b10 a12 a13 a14 a15 a16 a17, mk_read M3 hM3 x3 26 (by decide)]
  try rfl
theorem V12_28 : kernelRunC.sl.v2444 c M3 hM3 x3 a12 = (rowsOf c tbl i sim x2 x3 (accOf c a12 a13 a14 a15 a16 a17) 28).m := by
  unfold kernelRunC.sl.v2444 kernelRunC.sl.H12_28
  rw [View.readCov_cons_toLoadRect]
  refine Eq.trans ?_ (rowsOf_m c tbl i sim x2 x3 (accOf c a12 a13 a14 a15 a16 a17) 27 (by decide)).symm
  unfold kernelRunC.sl.r_256
  simp only [V12_27 c i M2 hM2 M3 hM3 tbl hT sim x2 x3 b9 b10 a12 a13 a14 a15 a16 a17, mk_read M3 hM3 x3 27 (by decide)]
  try rfl
theorem V13_28 : kernelRunC.sl.v2449 c i M2 hM2 M3 hM3 tbl x2 x3 a13 = (rowsOf c tbl i sim x2 x3 (accOf c a12 a13 a14 a15 a16 a17) 28).logp := by
  unfold kernelRunC.sl.v2449 kernelRunC.sl.H13_28
  rw [View.readCov_cons_toLoadRect]
  refine Eq.trans ?_ (rowsOf_logp c tbl i sim x2 x3 (accOf c a12 a13 a14 a15 a16 a17) 27 (by decide)).symm
  unfold kernelRunC.sl.r_256 kernelRunC.sl.r_260
  simp only [W_r_255 c i tbl, V13_27 c i M2 hM2 M3 hM3 tbl hT sim x2 x3 b9 b10 a12 a13 a14 a15 a16 a17, in_read M2 hM2 x2 27 (by decide), mk_read M3 hM3 x3 27 (by decide)]
  try rfl
theorem V14_28 : kernelRunC.sl.v2455 c i M3 hM3 tbl hT sim x3 b9 b10 a14 = (rowsOf c tbl i sim x2 x3 (accOf c a12 a13 a14 a15 a16 a17) 28).w := by
  unfold kernelRunC.sl.v2455 kernelRunC.sl.H14_28
  rw [View.readCov_cons_toLoadRect]
  refine Eq.trans ?_ (rowsOf_w c tbl i sim x2 x3 (accOf c a12 a13 a14 a15 a16 a17) 27 (by decide)).symm
  unfold kernelRunC.sl.r_258
  simp only [S_v2314 c i tbl hT sim b10, V14_27 c i M2 hM2 M3 hM3 tbl hT sim x2 x3 b9 b10 a12 a13 a14 a15 a16 a17, mk_read M3 hM3 x3 27 (by decide)]
  try rfl
theorem V12_29 : kernelRunC.sl.v2529 c M3 hM3 x3 a12 = (rowsOf c tbl i sim x2 x3 (accOf c a12 a13 a14 a15 a16 a17) 29).m := by
  unfold kernelRunC.sl.v2529 kernelRunC.sl.H12_29
  rw [View.readCov_cons_toLoadRect]
  refine Eq.trans ?_ (rowsOf_m c tbl i sim x2 x3 (accOf c a12 a13 a14 a15 a16 a17) 28 (by decide)).symm
  unfold kernelRunC.sl.r_265
  simp only [V12_28 c i M2 hM2 M3 hM3 tbl hT sim x2 x3 b9 b10 a12 a13 a14 a15 a16 a17, mk_read M3 hM3 x3 28 (by decide)]
  try rfl
theorem V13_29 : kernelRunC.sl.v2534 c i M2 hM2 M3 hM3 tbl x2 x3 a13 = (rowsOf c tbl i sim x2 x3 (accOf c a12 a13 a14 a15 a16 a17) 29).logp := by
  unfold kernelRunC.sl.v2534 kernelRunC.sl.H13_29
  rw [View.readCov_cons_toLoadRect]
  refine Eq.trans ?_ (rowsOf_logp c tbl i sim x2 x3 (accOf c a12 a13 a14 a15 a16 a17) 28 (by decide)).symm
  unfold kernelRunC.sl.r_264 kernelRunC.sl.r_265
  simp only [W_r_263 c i tbl, V13_28 c i M2 hM2 M3 hM3 tbl hT sim x2 x3 b9 b10 a12 a13 a14 a15 a16 a17, in_read M2 hM2 x2 28 (by decide), mk_read M3 hM3 x3 28 (by decide)]
  try rfl
theorem V14_29 : kernelRunC.sl.v2540 c i M3 hM3 tbl hT sim x3 b9 b10 a14 = (rowsOf c tbl i sim x2 x3 (accOf c a12 a13 a14 a15 a16 a17) 29).w := by
  unfold kernelRunC.sl.v2540 kernelRunC.sl.H14_29
  rw [View.readCov_cons_toLoadRect]
  refine Eq.trans ?_ (rowsOf_w c tbl i sim x2 x3 (accOf c a12 a13 a14 a15 a16 a17) 28 (by decide)).symm
  unfold kernelRunC.sl.r_265 kernelRunC.sl.r_266
  simp only [S_v2399 c i tbl hT sim b9, V14_28 c i M2 hM2 M3 hM3 tbl hT sim x2 x3 b9 b10 a12 a13 a14 a15 a16 a17, mk_read M3 hM3 x3 28 (by decide)]
  try rfl
theorem V12_30 : kernelRunC.sl.v2614 c M3 hM3 x3 a12 = (rowsOf c tbl i sim x2 x3 (accOf c a12 a13 a14 a15 a16 a17) 30).m := by
  unfold kernelRunC.sl.v2614 kernelRunC.sl.H12_30
  rw [View.readCov_cons_toLoadRect]
  refine Eq.trans ?_ (rowsOf_m c tbl i sim x2 x3 (accOf c a12 a13 a14 a15 a16 a17) 29 (by decide)).symm
  unfold kernelRunC.sl.r_272
  simp only [V12_29 c i M2 hM2 M3 hM3 tbl hT sim x2 x3 b9 b10 a12 a13 a14 a15 a16 a17, mk_read M3 hM3 x3 29 (by decide)]
  try rfl
theorem V13_30 : kernelRunC.sl.v2619 c i M2 hM2 M3 hM3 tbl x2 x3 a13 = (rowsOf c tbl i sim x2 x3 (accOf c a12 a13 a14 a15 a16 a17) 30).logp := by
  unfold kernelRunC.sl.v2619 kernelRunC.sl.H13_30
  rw [View.readCov_cons_toLoadRect]
  refine Eq.trans ?_ (rowsOf_logp c tbl i sim x2 x3 (accOf c a12 a13 a14 a15 a16 a17) 29 (by decide)).symm
  unfold kernelRunC.sl.r_272 kernelRunC.sl.r_276 kernelRunC.sl.r_271
  simp only [W_r_273 c i tbl, V13_29 c i M2 hM2 M3 hM3 tbl hT sim x2 x3 b9 b10 a12 a13 a14 a15 a16 a17, in_read M2 hM2 x2 29 (by decide), mk_read M3 hM3 x3 29 (by decide)]
  try rfl
theorem V14_30 : kernelRunC.sl.v2625 c i M3 hM3 tbl hT sim x3 b9 b10 a14 = (rowsOf c tbl i sim x2 x3 (accOf c a12 a13 a14 a15 a16 a17) 30).w := by
  unfold kernelRunC.sl.v2625 kernelRunC.sl.H14_30
  rw [View.readCov_cons_toLoadRect]
  refine Eq.trans ?_ (rowsOf_w c tbl i sim x2 x3 (accOf c a12 a13 a14 a15 a16 a17) 29 (by decide)).symm
  unfold kernelRunC.sl.r_274 kernelRunC.sl.r_272
  simp only [S_v2484 c i tbl hT sim b10, V14_29 c i M2 hM2 M3 hM3 tbl hT sim x2 x3 b9 b10 a12 a13 a14 a15 a16 a17, mk_read M3 hM3 x3 29 (by decide)]
  try rfl
theorem V12_31 : kernelRunC.sl.v2699 c M3 hM3 x3 a12 = (rowsOf c tbl i sim x2 x3 (accOf c a12 a13 a14 a15 a16 a17) 31).m := by
  unfold kernelRunC.sl.v2699 kernelRunC.sl.H12_31
  rw [View.readCov_cons_toLoadRect]
  refine Eq.trans ?_ (rowsOf_m c tbl i sim x2 x3 (accOf c a12 a13 a14 a15 a16 a17) 30 (by decide)).symm
  unfold kernelRunC.sl.r_281
  simp only [V12_30 c i M2 hM2 M3 hM3 tbl hT sim x2 x3 b9 b10 a12 a13 a14 a15 a16 a17, mk_read M3 hM3 x3 30 (by decide)]
  try rfl
theorem V13_31 : kernelRunC.sl.v2704 c i M2 hM2 M3 hM3 tbl x2 x3 a13 = (rowsOf c tbl i sim x2 x3 (accOf c a12 a13 a14 a15 a16 a17) 31).logp := by
  unfold kernelRunC.sl.v2704 kernelRunC.sl.H13_31
  rw [View.readCov_cons_toLoadRect]
  refine Eq.trans ?_ (rowsOf_logp c tbl i sim x2 x3 (accOf c a12 a13 a14 a15 a16 a17) 30 (by decide)).symm
  unfold kernelRunC.sl.r_281 kernelRunC.sl.r_285
  simp only [W_r_280 c i tbl, V13_30 c i M2 hM2 M3 hM3 tbl hT sim x2 x3 b9 b10 a12 a13 a14 a15 a16 a17, in_read M2 hM2 x2 30 (by decide), mk_read M3 hM3 x3 30 (by decide)]
  try rfl
theorem V14_31 : kernelRunC.sl.v2710 c i M3 hM3 tbl hT sim x3 b9 b10 a14 = (rowsOf c tbl i sim x2 x3 (accOf c a12 a13 a14 a15 a16 a17) 31).w := by
  unfold kernelRunC.sl.v2710 kernelRunC.sl.H14_31
  rw [View.readCov_cons_toLoadRect]
  refine Eq.trans ?_ (rowsOf_w c tbl i sim x2 x3 (accOf c a12 a13 a14 a15 a16 a17) 30 (by decide)).symm
  unfold kernelRunC.sl.r_283
  simp only [S_v2569 c i tbl hT sim b9, V14_30 c i M2 hM2 M3 hM3 tbl hT sim x2 x3 b9 b10 a12 a13 a14 a15 a16 a17, mk_read M3 hM3 x3 30 (by decide)]
  try rfl
theorem V12_32 : kernelRunC.sl.v2784 c M3 hM3 x3 a12 = (rowsOf c tbl i sim x2 x3 (accOf c a12 a13 a14 a15 a16 a17) 32).m := by
  unfold kernelRunC.sl.v2784 kernelRunC.sl.H12_32
  rw [View.readCov_cons_toLoadRect]
  refine Eq.trans ?_ (rowsOf_m c tbl i sim x2 x3 (accOf c a12 a13 a14 a15 a16 a17) 31 (by decide)).symm
  unfold kernelRunC.sl.r_291
  simp only [V12_31 c i M2 hM2 M3 hM3 tbl hT sim x2 x3 b9 b10 a12 a13 a14 a15 a16 a17, mk_read M3 hM3 x3 31 (by decide)]
  try rfl
theorem V13_32 : kernelRunC.sl.v2789 c i M2 hM2 M3 hM3 tbl x2 x3 a13 = (rowsOf c tbl i sim x2 x3 (accOf c a12 a13 a14 a15 a16 a17) 32).logp := by
  unfold kernelRunC.sl.v2789 kernelRunC.sl.H13_32
  rw [View.readCov_cons_toLoadRect]
  refine Eq.trans ?_ (rowsOf_logp c tbl i sim x2 x3 (accOf c a12 a13 a14 a15 a16 a17) 31 (by decide)).symm
  unfold kernelRunC.sl.r_290 kernelRunC.sl.r_291
  simp only [W_r_289 c i tbl, V13_31 c i M2 hM2 M3 hM3 tbl hT sim x2 x3 b9 b10 a12 a13 a14 a15 a16 a17, in_read M2 hM2 x2 31 (by decide), mk_read M3 hM3 x3 31 (by decide)]
  try rfl
theorem V14_32 : kernelRunC.sl.v2795 c i M3 hM3 tbl hT sim x3 b9 b10 a14 = (rowsOf c tbl i sim x2 x3 (accOf c a12 a13 a14 a15 a16 a17) 32).w := by
  unfold kernelRunC.sl.v2795 kernelRunC.sl.H14_32
  rw [View.readCov_cons_toLoadRect]
  refine Eq.trans ?_ (rowsOf_w c tbl i sim x2 x3 (accOf c a12 a13 a14 a15 a16 a17) 31 (by decide)).symm
  unfold kernelRunC.sl.r_297 kernelRunC.sl.r_291 kernelRunC.sl.r_292 kernelRunC.sl.r_293
  simp only [S_v2654 c i tbl hT sim b10, V14_31 c i M2 hM2 M3 hM3 tbl hT sim x2 x3 b9 b10 a12 a13 a14 a15 a16 a17, mk_read M3 hM3 x3 31 (by decide)]
  try rfl
theorem V12_33 : kernelRunC.sl.v2869 c M3 hM3 x3 a12 = (rowsOf c tbl i sim x2 x3 (accOf c a12 a13 a14 a15 a16 a17) 33).m := by
  unfold kernelRunC.sl.v2869 kernelRunC.sl.H12_33
  rw [View.readCov_cons_toLoadRect]
  refine Eq.trans ?_ (rowsOf_m c tbl i sim x2 x3 (accOf c a12 a13 a14 a15 a16 a17) 32 (by decide)).symm
  unfold kernelRunC.sl.r_308 kernelRunC.sl.r_300
  simp only [V12_32 c i M2 hM2 M3 hM3 tbl hT sim x2 x3 b9 b10 a12 a13 a14 a15 a16 a17, mk_read M3 hM3 x3 32 (by decide)]
  try rfl
theorem V13_33 : kernelRunC.sl.v2874 c i M2 hM2 M3 hM3 tbl x2 x3 a13 = (rowsOf c tbl i sim x2 x3 (accOf c a12 a13 a14 a15 a16 a17) 33).logp := by
  unfold kernelRunC.sl.v2874 kernelRunC.sl.H13_33
  rw [View.readCov_cons_toLoadRect]
  refine Eq.trans ?_ (rowsOf_logp c tbl i sim x2 x3 (accOf c a12 a13 a14 a15 a16 a17) 32 (by decide)).symm
  unfold kernelRunC.sl.r_302 kernelRunC.sl.r_305 kernelRunC.sl.r_300 kernelRunC.sl.r_299
  simp only [W_r_301 c i tbl, V13_32 c i M2 hM2 M3 hM3 tbl hT sim x2 x3 b9 b10 a12 a13 a14 a15 a16 a17, in_read M2 hM2 x2 32 (by decide), mk_read M3 hM3 x3 32 (by decide)]
  try rfl
theorem V14_33 : kernelRunC.sl.v2880 c i M3 hM3 tbl hT sim x3 b9 b10 a14 = (rowsOf c tbl i sim x2 x3 (accOf c a12 a13 a14 a15 a16 a17) 33).w := by
  unfold kernelRunC.sl.v2880 kernelRunC.sl.H14_33
  rw [View.readCov_cons_toLoadRect]
  refine Eq.trans ?_ (rowsOf_w c tbl i sim x2 x3 (accOf c a12 a13 a14 a15 a16 a17) 32 (by decide)).symm
  unfold kernelRunC.sl.r_303 kernelRunC.sl.r_300
  simp only [S_v2739 c i tbl hT sim b9, V14_32 c i M2 hM2 M3 hM3 tbl hT sim x2 x3 b9 b10 a12 a13 a14 a15 a16 a17, mk_read M3 hM3 x3 32 (by decide)]
  try rfl
theorem V12_34 : kernelRunC.sl.v2954 c M3 hM3 x3 a12 = (rowsOf c tbl i sim x2 x3 (accOf c a12 a13 a14 a15 a16 a17) 34).m := by
  unfold kernelRunC.sl.v2954 kernelRunC.sl.H12_34
  rw [View.readCov_cons_toLoadRect]
  refine Eq.trans ?_ (rowsOf_m c tbl i sim x2 x3 (accOf c a12 a13 a14 a15 a16 a17) 33 (by decide)).symm
  unfold kernelRunC.sl.r_312
  simp only [V12_33 c i M2 hM2 M3 hM3 tbl hT sim x2 x3 b9 b10 a12 a13 a14 a15 a16 a17, mk_read M3 hM3 x3 33 (by decide)]
  try rfl
theorem V13_34 : kernelRunC.sl.v2959 c i M2 hM2 M3 hM3 tbl x2 x3 a13 = (rowsOf c tbl i sim x2 x3 (accOf c a12 a13 a14 a15 a16 a17) 34).logp := by
  unfold kernelRunC.sl.v2959 kernelRunC.sl.H13_34
  rw [View.readCov_cons_toLoadRect]
  refine Eq.trans ?_ (rowsOf_logp c tbl i sim x2 x3 (accOf c a12 a13 a14 a15 a16 a17) 33 (by decide)).symm
  unfold kernelRunC.sl.r_311 kernelRunC.sl.r_312 kernelRunC.sl.r_316
  simp only [W_r_310 c i tbl, V13_33 c i M2 hM2 M3 hM3 tbl hT sim x2 x3 b9 b10 a12 a13 a14 a15 a16 a17, in_read M2 hM2 x2 33 (by decide), mk_read M3 hM3 x3 33 (by decide)]
  try rfl
theorem V14_34 : kernelRunC.sl.v2965 c i M3 hM3 tbl hT sim x3 b9 b10 a14 = (rowsOf c tbl i sim x2 x3 (accOf c a12 a13 a14 a15 a16 a17) 34).w := by
  unfold kernelRunC.sl.v2965 kernelRunC.sl.H14_34
  rw [View.readCov_cons_toLoadRect]
  refine Eq.trans ?_ (rowsOf_w c tbl i sim x2 x3 (accOf c a12 a13 a14 a15 a16 a17) 33 (by decide)).symm
  unfold kernelRunC.sl.r_314
  simp only [S_v2824 c i tbl hT sim b10, V14_33 c i M2 hM2 M3 hM3 tbl hT sim x2 x3 b9 b10 a12 a13 a14 a15 a16 a17, mk_read M3 hM3 x3 33 (by decide)]
  try rfl
theorem V12_35 : kernelRunC.sl.v3039 c M3 hM3 x3 a12 = (rowsOf c tbl i sim x2 x3 (accOf c a12 a13 a14 a15 a16 a17) 35).m := by
  unfold kernelRunC.sl.v3039 kernelRunC.sl.H12_35
  rw [View.readCov_cons_toLoadRect]
  refine Eq.trans ?_ (rowsOf_m c tbl i sim x2 x3 (accOf c a12 a13 a14 a15 a16 a17) 34 (by decide)).symm
  unfold kernelRunC.sl.r_322
  simp only [V12_34 c i M2 hM2 M3 hM3 tbl hT sim x2 x3 b9 b10 a12 a13 a14 a15 a16 a17, mk_read M3 hM3 x3 34 (by decide)]
  try rfl
theorem V13_35 : kernelRunC.sl.v3044 c i M2 hM2 M3 hM3 tbl x2 x3 a13 = (rowsOf c tbl i sim x2 x3 (accOf c a12 a13 a14 a15 a16 a17) 35).logp := by
  unfold kernelRunC.sl.v3044 kernelRunC.sl.H13_35
  rw [View.readCov_cons_toLoadRect]
  refine Eq.trans ?_ (rowsOf_logp c tbl i sim x2 x3 (accOf c a12 a13 a14 a15 a16 a17) 34 (by decide)).symm
  unfold kernelRunC.sl.r_321 kernelRunC.sl.r_322
  simp only [W_r_320 c i tbl, V13_34 c i M2 hM2 M3 hM3 tbl hT sim x2 x3 b9 b10 a12 a13 a14 a15 a16 a17, in_read M2 hM2 x2 34 (by decide), mk_read M3 hM3 x3 34 (by decide)]
  try rfl
theorem V14_35 : kernelRunC.sl.v3050 c i M3 hM3 tbl hT sim x3 b9 b10 a14 = (rowsOf c tbl i sim x2 x3 (accOf c a12 a13 a14 a15 a16 a17) 35).w := by
  unfold kernelRunC.sl.v3050 kernelRunC.sl.H14_35
  rw [View.readCov_cons_toLoadRect]
  refine Eq.trans ?_ (rowsOf_w c tbl i sim x2 x3 (accOf c a12 a13 a14 a15 a16 a17) 34 (by decide)).symm
  unfold kernelRunC.sl.r_328 kernelRunC.sl.r_322 kernelRunC.sl.r_323 kernelRunC.sl.r_324
  simp only [S_v2909 c i tbl hT sim b9, V14_34 c i M2 hM2 M3 hM3 tbl hT sim x2 x3 b9 b10 a12 a13 a14 a15 a16 a17, mk_read M3 hM3 x3 34 (by decide)]
  try rfl
theorem V12_36 : kernelRunC.sl.v3124 c M3 hM3 x3 a12 = (rowsOf c tbl i sim x2 x3 (accOf c a12 a13 a14 a15 a16 a17) 36).m := by
  unfold kernelRunC.sl.v3124 kernelRunC.sl.H12_36
  rw [View.readCov_cons_toLoadRect]
  refine Eq.trans ?_ (rowsOf_m c tbl i sim x2 x3 (accOf c a12 a13 a14 a15 a16 a17) 35 (by decide)).symm
  unfold kernelRunC.sl.r_338
  simp only [V12_35 c i M2 hM2 M3 hM3 tbl hT sim x2 x3 b9 b10 a12 a13 a14 a15 a16 a17, mk_read M3 hM3 x3 35 (by decide)]
  try rfl
theorem V13_36 : kernelRunC.sl.v3129 c i M2 hM2 M3 hM3 tbl x2 x3 a13 = (rowsOf c tbl i sim x2 x3 (accOf c a12 a13 a14 a15 a16 a17) 36).logp := by
  unfold kernelRunC.sl.v3129 kernelRunC.sl.H13_36
  rw [View.readCov_cons_toLoadRect]
  refine Eq.trans ?_ (rowsOf_logp c tbl i sim x2 x3 (accOf c a12 a13 a14 a15 a16 a17) 35 (by decide)).symm
  unfold kernelRunC.sl.r_332 kernelRunC.sl.r_335 kernelRunC.sl.r_330
  simp only [W_r_331 c i tbl, V13_35 c i M2 hM2 M3 hM3 tbl hT sim x2 x3 b9 b10 a12 a13 a14 a15 a16 a17, in_read M2 hM2 x2 35 (by decide), mk_read M3 hM3 x3 35 (by decide)]
  try rfl
theorem V14_36 : kernelRunC.sl.v3135 c i M3 hM3 tbl hT sim x3 b9 b10 a14 = (rowsOf c tbl i sim x2 x3 (accOf c a12 a13 a14 a15 a16 a17) 36).w := by
  unfold kernelRunC.sl.v3135 kernelRunC.sl.H14_36
  rw [View.readCov_cons_toLoadRect]
  refine Eq.trans ?_ (rowsOf_w c tbl i sim x2 x3 (accOf c a12 a13 a14 a15 a16 a17) 35 (by decide)).symm
  unfold kernelRunC.sl.r_333
  simp only [S_v2994 c i tbl hT sim b10, V14_35 c i M2 hM2 M3 hM3 tbl hT sim x2 x3 b9 b10 a12 a13 a14 a15 a16 a17, mk_read M3 hM3 x3 35 (by decide)]
  try rfl
theorem V12_37 : kernelRunC.sl.v3209 c M3 hM3 x3 a12 = (rowsOf c tbl i sim x2 x3 (accOf c a12 a13 a14 a15 a16 a17) 37).m := by
  unfold kernelRunC.sl.v3209 kernelRunC.sl.H12_37
  rw [View.readCov_cons_toLoadRect]
  refine Eq.trans ?_ (rowsOf_m c tbl i sim x2 x3 (accOf c a12 a13 a14 a15 a16 a17) 36 (by decide)).symm
  unfold kernelRunC.sl.r_342
  simp only [V12_36 c i M2 hM2 M3 hM3 tbl hT sim x2 x3 b9 b10 a12 a13 a14 a15 a16 a17, mk_read M3 hM3 x3 36 (by decide)]
  try rfl
theorem V13_37 : kernelRunC.sl.v3214 c i M2 hM2 M3 hM3 tbl x2 x3 a13 = (rowsOf c tbl i sim x2 x3 (accOf c a12 a13 a14 a15 a16 a17) 37).logp := by
  unfold kernelRunC.sl.v3214 kernelRunC.sl.H13_37
  rw [View.readCov_cons_toLoadRect]
  refine Eq.trans ?_ (rowsOf_logp c tbl i sim x2 x3 (accOf c a12 a13 a14 a15 a16 a17) 36 (by decide)).symm
  unfold kernelRunC.sl.r_341 kernelRunC.sl.r_342
  simp only [W_r_340 c i tbl, V13_36 c i M2 hM2 M3 hM3 tbl hT sim x2 x3 b9 b10 a12 a13 a14 a15 a16 a17, in_read M2 hM2 x2 36 (by decide), mk_read M3 hM3 x3 36 (by decide)]
  try rfl
theorem V14_37 : kernelRunC.sl.v3220 c i M3 hM3 tbl hT sim x3 b9 b10 a14 = (rowsOf c tbl i sim x2 x3 (accOf c a12 a13 a14 a15 a16 a17) 37).w := by
  unfold kernelRunC.sl.v3220 kernelRunC.sl.H14_37
  rw [View.readCov_cons_toLoadRect]
  refine Eq.trans ?_ (rowsOf_w c tbl i sim x2 x3 (accOf c a12 a13 a14 a15 a16 a17) 36 (by decide)).symm
  unfold kernelRunC.sl.r_344
  simp only [S_v3079 c i tbl hT sim b9, V14_36 c i M2 hM2 M3 hM3 tbl hT sim x2 x3 b9 b10 a12 a13 a14 a15 a16 a17, mk_read M3 hM3 x3 36 (by decide)]
  try rfl
theorem V12_38 : kernelRunC.sl.v3294 c M3 hM3 x3 a12 = (rowsOf c tbl i sim x2 x3 (accOf c a12 a13 a14 a15 a16 a17) 38).m := by
  unfold kernelRunC.sl.v3294 kernelRunC.sl.H12_38
  rw [View.readCov_cons_toLoadRect]
  refine Eq.trans ?_ (rowsOf_m c tbl i sim x2 x3 (accOf c a12 a13 a14 a15 a16 a17) 37 (by decide)).symm
  unfold kernelRunC.sl.r_351
  simp only [V12_37 c i M2 hM2 M3 hM3 tbl hT sim x2 x3 b9 b10 a12 a13 a14 a15 a16 a17, mk_read M3 hM3 x3 37 (by decide)]
  try rfl
theorem V13_38 : kernelRunC.sl.v3299 c i M2 hM2 M3 hM3 tbl x2 x3 a13 = (rowsOf c tbl i sim x2 x3 (accOf c a12 a13 a14 a15 a16 a17) 38).logp := by
  unfold kernelRunC.sl.v3299 kernelRunC.sl.H13_38
  rw [View.readCov_cons_toLoadRect]
  refine Eq.trans ?_ (rowsOf_logp c tbl i sim x2 x3 (accOf c a12 a13 a14 a15 a16 a17) 37 (by decide)).symm
  unfold kernelRunC.sl.r_350 kernelRunC.sl.r_351
  simp only [W_r_349 c i tbl, V13_37 c i M2 hM2 M3 hM3 tbl hT sim x2 x3 b9 b10 a12 a13 a14 a15 a16 a17, in_read M2 hM2 x2 37 (by decide), mk_read M3 hM3 x3 37 (by decide)]
  try rfl
theorem V14_38 : kernelRunC.sl.v3305 c i M3 hM3 tbl hT sim x3 b9 b10 a14 = (rowsOf c tbl i sim x2 x3 (accOf c a12 a13 a14 a15 a16 a17) 38).w := by
  unfold kernelRunC.sl.v3305 kernelRunC.sl.H14_38
  rw [View.readCov_cons_toLoadRect]
  refine Eq.trans ?_ (rowsOf_w c tbl i sim x2 x3 (accOf c a12 a13 a14 a15 a16 a17) 37 (by decide)).symm
  unfold kernelRunC.sl.r_354 kernelRunC.sl.r_351 kernelRunC.sl.r_352 kernelRunC.sl.r_353 kernelRunC.sl.cst_781
  simp only [S_v3164 c i tbl hT sim b10, V14_37 c i M2 hM2 M3 hM3 tbl hT sim x2 x3 b9 b10 a12 a13 a14 a15 a16 a17, mk_read M3 hM3 x3 37 (by decide)]
  try rfl
theorem V12_39 : kernelRunC.sl.v3379 c M3 hM3 x3 a12 = (rowsOf c tbl i sim x2 x3 (accOf c a12 a13 a14 a15 a16 a17) 39).m := by
  unfold kernelRunC.sl.v3379 kernelRunC.sl.H12_39
  rw [View.readCov_cons_toLoadRect]
  refine Eq.trans ?_ (rowsOf_m c tbl i sim x2 x3 (accOf c a12 a13 a14 a15 a16 a17) 38 (by decide)).symm
  unfold kernelRunC.sl.r_360
  simp only [V12_38 c i M2 hM2 M3 hM3 tbl hT sim x2 x3 b9 b10 a12 a13 a14 a15 a16 a17, mk_read M3 hM3 x3 38 (by decide)]
  try rfl
theorem V13_39 : kernelRunC.sl.v3384 c i M2 hM2 M3 hM3 tbl x2 x3 a13 = (rowsOf c tbl i sim x2 x3 (accOf c a12 a13 a14 a15 a16 a17) 39).logp := by
  unfold kernelRunC.sl.v3384 kernelRunC.sl.H13_39
  rw [View.readCov_cons_toLoadRect]
  refine Eq.trans ?_ (rowsOf_logp c tbl i sim x2 x3 (accOf c a12 a13 a14 a15 a16 a17) 38 (by decide)).symm
  unfold kernelRunC.sl.r_360 kernelRunC.sl.r_363
  simp only [W_r_359 c i tbl, V13_38 c i M2 hM2 M3 hM3 tbl hT sim x2 x3 b9 b10 a12 a13 a14 a15 a16 a17, in_read M2 hM2 x2 38 (by decide), mk_read M3 hM3 x3 38 (by decide)]
  try rfl
theorem V14_39 : kernelRunC.sl.v3390 c i M3 hM3 tbl hT sim x3 b9 b10 a14 = (rowsOf c tbl i sim x2 x3 (accOf c a12 a13 a14 a15 a16 a17) 39).w := by
  unfold kernelRunC.sl.v3390 kernelRunC.sl.H14_39
  rw [View.readCov_cons_toLoadRect]
  refine Eq.trans ?_ (rowsOf_w c tbl i sim x2 x3 (accOf c a12 a13 a14 a15 a16 a17) 38 (by decide)).symm
  unfold kernelRunC.sl.r_361
  simp only [V14_38 c i M2 hM2 M3 hM3 tbl hT sim x2 x3 b9 b10 a12 a13 a14 a15 a16 a17, S_v_1 c i tbl hT sim b9, mk_read M3 hM3 x3 38 (by decide)]
  try rfl
theorem V12_40 : kernelRunC.sl.v3464 c M3 hM3 x3 a12 = (rowsOf c tbl i sim x2 x3 (accOf c a12 a13 a14 a15 a16 a17) 40).m := by
  unfold kernelRunC.sl.v3464 kernelRunC.sl.H12_40
  rw [View.readCov_cons_toLoadRect]
  refine Eq.trans ?_ (rowsOf_m c tbl i sim x2 x3 (accOf c a12 a13 a14 a15 a16 a17) 39 (by decide)).symm
  unfold kernelRunC.sl.r_369
  simp only [V12_39 c i M2 hM2 M3 hM3 tbl hT sim x2 x3 b9 b10 a12 a13 a14 a15 a16 a17, mk_read M3 hM3 x3 39 (by decide)]
  try rfl
theorem V13_40 : kernelRunC.sl.v3469 c i M2 hM2 M3 hM3 tbl x2 x3 a13 = (rowsOf c tbl i sim x2 x3 (accOf c a12 a13 a14 a15 a16 a17) 40).logp := by
  unfold kernelRunC.sl.v3469 kernelRunC.sl.H13_40
  rw [View.readCov_cons_toLoadRect]
  refine Eq.trans ?_ (rowsOf_logp c tbl i sim x2 x3 (accOf c a12 a13 a14 a15 a16 a17) 39 (by decide)).symm
  unfold kernelRunC.sl.r_368 kernelRunC.sl.r_369
  simp only [W_r_367 c i tbl, V13_39 c i M2 hM2 M3 hM3 tbl hT sim x2 x3 b9 b10 a12 a13 a14 a15 a16 a17, in_read M2 hM2 x2 39 (by decide), mk_read M3 hM3 x3 39 (by decide)]
  try rfl
theorem V14_40 : kernelRunC.sl.v3475 c i M3 hM3 tbl hT sim x3 b9 b10 a14 = (rowsOf c tbl i sim x2 x3 (accOf c a12 a13 a14 a15 a16 a17) 40).w := by
  unfold kernelRunC.sl.v3475 kernelRunC.sl.H14_40
  rw [View.readCov_cons_toLoadRect]
  refine Eq.trans ?_ (rowsOf_w c tbl i sim x2 x3 (accOf c a12 a13 a14 a15 a16 a17) 39 (by decide)).symm
  unfold kernelRunC.sl.r_371
  simp only [S_v3334 c i tbl hT sim b10, V14_39 c i M2 hM2 M3 hM3 tbl hT sim x2 x3 b9 b10 a12 a13 a14 a15 a16 a17, mk_read M3 hM3 x3 39 (by decide)]
  try rfl
theorem V12_41 : kernelRunC.sl.v3549 c M3 hM3 x3 a12 = (rowsOf c tbl i sim x2 x3 (accOf c a12 a13 a14 a15 a16 a17) 41).m := by
  unfold kernelRunC.sl.v3549 kernelRunC.sl.H12_41
  rw [View.readCov_cons_toLoadRect]
  refine Eq.trans ?_ (rowsOf_m c tbl i sim x2 x3 (accOf c a12 a13 a14 a15 a16 a17) 40 (by decide)).symm
  unfold kernelRunC.sl.r_378
  simp only [V12_40 c i M2 hM2 M3 hM3 tbl hT sim x2 x3 b9 b10 a12 a13 a14 a15 a16 a17, mk_read M3 hM3 x3 40 (by decide)]
  try rfl
theorem V13_41 : kernelRunC.sl.v3554 c i M2 hM2 M3 hM3 tbl x2 x3 a13 = (rowsOf c tbl i sim x2 x3 (accOf c a12 a13 a14 a15 a16 a17) 41).logp := by
  unfold kernelRunC.sl.v3554 kernelRunC.sl.H13_41
  rw [View.readCov_cons_toLoadRect]
  refine Eq.trans ?_ (rowsOf_logp c tbl i sim x2 x3 (accOf c a12 a13 a14 a15 a16 a17) 40 (by decide)).symm
  unfold kernelRunC.sl.r_384 kernelRunC.sl.r_377 kernelRunC.sl.r_378
  simp only [W_r_376 c i tbl, V13_40 c i M2 hM2 M3 hM3 tbl hT sim x2 x3 b9 b10 a12 a13 a14 a15 a16 a17, in_read M2 hM2 x2 40 (by decide), mk_read M3 hM3 x3 40 (by decide)]
  try rfl
theorem V14_41 : kernelRunC.sl.v3560 c i M3 hM3 tbl hT sim x3 b9 b10 a14 = (rowsOf c tbl i sim x2 x3 (accOf c a12 a13 a14 a15 a16 a17) 41).w := by
  unfold kernelRunC.sl.v3560 kernelRunC.sl.H14_41
  rw [View.readCov_cons_toLoadRect]
  refine Eq.trans ?_ (rowsOf_w c tbl i sim x2 x3 (accOf c a12 a13 a14 a15 a16 a17) 40 (by decide)).symm
  unfold kernelRunC.sl.r_380 kernelRunC.sl.r_378 kernelRunC.sl.r_379 kernelRunC.sl.cst_15
  simp only [S_v3419 c i tbl hT sim b9, V14_40 c i M2 hM2 M3 hM3 tbl hT sim x2 x3 b9 b10 a12 a13 a14 a15 a16 a17, mk_read M3 hM3 x3 40 (by decide)]
  try rfl
theorem V12_42 : kernelRunC.sl.v3634 c M3 hM3 x3 a12 = (rowsOf c tbl i sim x2 x3 (accOf c a12 a13 a14 a15 a16 a17) 42).m := by
  unfold kernelRunC.sl.v3634 kernelRunC.sl.H12_42
  rw [View.readCov_cons_toLoadRect]
  refine Eq.trans ?_ (rowsOf_m c tbl i sim x2 x3 (accOf c a12 a13 a14 a15 a16 a17) 41 (by decide)).symm
  unfold kernelRunC.sl.r_387
  simp only [V12_41 c i M2 hM2 M3 hM3 tbl hT sim x2 x3 b9 b10 a12 a13 a14 a15 a16 a17, mk_read M3 hM3 x3 41 (by decide)]
  try rfl
theorem V13_42 : kernelRunC.sl.v3639 c i M2 hM2 M3 hM3 tbl x2 x3 a13 = (rowsOf c tbl i sim x2 x3 (accOf c a12 a13 a14 a15 a16 a17) 42).logp := by
  unfold kernelRunC.sl.v3639 kernelRunC.sl.H13_42
  rw [View.readCov_cons_toLoadRect]
  refine Eq.trans ?_ (rowsOf_logp c tbl i sim x2 x3 (accOf c a12 a13 a14 a15 a16 a17) 41 (by decide)).symm
  unfold kernelRunC.sl.r_387 kernelRunC.sl.r_390
  simp only [W_r_386 c i tbl, V13_41 c i M2 hM2 M3 hM3 tbl hT sim x2 x3 b9 b10 a12 a13 a14 a15 a16 a17, in_read M2 hM2 x2 41 (by decide), mk_read M3 hM3 x3 41 (by decide)]
  try rfl
theorem V14_42 : kernelRunC.sl.v3645 c i M3 hM3 tbl hT sim x3 b9 b10 a14 = (rowsOf c tbl i sim x2 x3 (accOf c a12 a13 a14 a15 a16 a17) 42).w := by
  unfold kernelRunC.sl.v3645 kernelRunC.sl.H14_42
  rw [View.readCov_cons_toLoadRect]
  refine Eq.trans ?_ (rowsOf_w c tbl i sim x2 x3 (accOf c a12 a13 a14 a15 a16 a17) 41 (by decide)).symm
  unfold kernelRunC.sl.r_388
  simp only [S_v3504 c i tbl hT sim b10, V14_41 c i M2 hM2 M3 hM3 tbl hT sim x2 x3 b9 b10 a12 a13 a14 a15 a16 a17, mk_read M3 hM3 x3 41 (by decide)]
  try rfl
theorem V12_43 : kernelRunC.sl.v3719 c M3 hM3 x3 a12 = (rowsOf c tbl i sim x2 x3 (accOf c a12 a13 a14 a15 a16 a17) 43).m := by
  unfold kernelRunC.sl.v3719 kernelRunC.sl.H12_43
  rw [View.readCov_cons_toLoadRect]
  refine Eq.trans ?_ (rowsOf_m c tbl i sim x2 x3 (accOf c a12 a13 a14 a15 a16 a17) 42 (by decide)).symm
  unfold kernelRunC.sl.r_397
  simp only [V12_42 c i M2 hM2 M3 hM3 tbl hT sim x2 x3 b9 b10 a12 a13 a14 a15 a16 a17, mk_read M3 hM3 x3 42 (by decide)]
  try rfl
theorem V13_43 : kernelRunC.sl.v3724 c i M2 hM2 M3 hM3 tbl x2 x3 a13 = (rowsOf c tbl i sim x2 x3 (accOf c a12 a13 a14 a15 a16 a17) 43).logp := by
  unfold kernelRunC.sl.v3724 kernelRunC.sl.H13_43
  rw [View.readCov_cons_toLoadRect]
  refine Eq.trans ?_ (rowsOf_logp c tbl i sim x2 x3 (accOf c a12 a13 a14 a15 a16 a17) 42 (by decide)).symm
  unfold kernelRunC.sl.r_396 kernelRunC.sl.r_397
  simp only [W_r_395 c i tbl, V13_42 c i M2 hM2 M3 hM3 tbl hT sim x2 x3 b9 b10 a12 a13 a14 a15 a16 a17, in_read M2 hM2 x2 42 (by decide), mk_read M3 hM3 x3 42 (by decide)]
  try rfl
theorem V14_43 : kernelRunC.sl.v3730 c i M3 hM3 tbl hT sim x3 b9 b10 a14 = (rowsOf c tbl i sim x2 x3 (accOf c a12 a13 a14 a15 a16 a17) 43).w := by
  unfold kernelRunC.sl.v3730 kernelRunC.sl.H14_43
  rw [View.readCov_cons_toLoadRect]
  refine Eq.trans ?_ (rowsOf_w c tbl i sim x2 x3 (accOf c a12 a13 a14 a15 a16 a17) 42 (by decide)).symm
  unfold kernelRunC.sl.r_400
  simp only [S_v3589 c i tbl hT sim b9, V14_42 c i M2 hM2 M3 hM3 tbl hT sim x2 x3 b9 b10 a12 a13 a14 a15 a16 a17, mk_read M3 hM3 x3 42 (by decide)]
  try rfl
theorem V12_44 : kernelRunC.sl.v3804 c M3 hM3 x3 a12 = (rowsOf c tbl i sim x2 x3 (accOf c a12 a13 a14 a15 a16 a17) 44).m := by
  unfold kernelRunC.sl.v3804 kernelRunC.sl.H12_44
  rw [View.readCov_cons_toLoadRect]
  refine Eq.trans ?_ (rowsOf_m c tbl i sim x2 x3 (accOf c a12 a13 a14 a15 a16 a17) 43 (by decide)).symm
  unfold kernelRunC.sl.r_407
  simp only [V12_43 c i M2 hM2 M3 hM3 tbl hT sim x2 x3 b9 b10 a12 a13 a14 a15 a16 a17, mk_read M3 hM3 x3 43 (by decide)]
  try rfl
theorem V13_44 : kernelRunC.sl.v3809 c i M2 hM2 M3 hM3 tbl x2 x3 a13 = (rowsOf c tbl i sim x2 x3 (accOf c a12 a13 a14 a15 a16 a17) 44).logp := by
  unfold kernelRunC.sl.v3809 kernelRunC.sl.H13_44
  rw [View.readCov_cons_toLoadRect]
  refine Eq.trans ?_ (rowsOf_logp c tbl i sim x2 x3 (accOf c a12 a13 a14 a15 a16 a17) 43 (by decide)).symm
  unfold kernelRunC.sl.r_413 kernelRunC.sl.r_406 kernelRunC.sl.r_407
  simp only [W_r_405 c i tbl, V13_43 c i M2 hM2 M3 hM3 tbl hT sim x2 x3 b9 b10 a12 a13 a14 a15 a16 a17, in_read M2 hM2 x2 43 (by decide), mk_read M3 hM3 x3 43 (by decide)]
  try rfl
theorem V14_44 : kernelRunC.sl.v3815 c i M3 hM3 tbl hT sim x3 b9 b10 a14 = (rowsOf c tbl i sim x2 x3 (accOf c a12 a13 a14 a15 a16 a17) 44).w := by
  unfold kernelRunC.sl.v3815 kernelRunC.sl.H14_44
  rw [View.readCov_cons_toLoadRect]
  refine Eq.trans ?_ (rowsOf_w c tbl i sim x2 x3 (accOf c a12 a13 a14 a15 a16 a17) 43 (by decide)).symm
  unfold kernelRunC.sl.r_409 kernelRunC.sl.r_407 kernelRunC.sl.r_408
  simp only [S_v3674 c i tbl hT sim b10, V14_43 c i M2 hM2 M3 hM3 tbl hT sim x2 x3 b9 b10 a12 a13 a14 a15 a16 a17, mk_read M3 hM3 x3 43 (by decide)]
  try rfl
theorem V12_45 : kernelRunC.sl.v3889 c M3 hM3 x3 a12 = (rowsOf c tbl i sim x2 x3 (accOf c a12 a13 a14 a15 a16 a17) 45).m := by
  unfold kernelRunC.sl.v3889 kernelRunC.sl.H12_45
  rw [View.readCov_cons_toLoadRect]
  refine Eq.trans ?_ (rowsOf_m c tbl i sim x2 x3 (accOf c a12 a13 a14 a15 a16 a17) 44 (by decide)).symm
  unfold kernelRunC.sl.r_416
  simp only [V12_44 c i M2 hM2 M3 hM3 tbl hT sim x2 x3 b9 b10 a12 a13 a14 a15 a16 a17, mk_read M3 hM3 x3 44 (by decide)]
  try rfl
theorem V13_45 : kernelRunC.sl.v3894 c i M2 hM2 M3 hM3 tbl x2 x3 a13 = (rowsOf c tbl i sim x2 x3 (accOf c a12 a13 a14 a15 a16 a17) 45).logp := by
  unfold kernelRunC.sl.v3894 kernelRunC.sl.H13_45
  rw [View.readCov_cons_toLoadRect]
  refine Eq.trans ?_ (rowsOf_logp c tbl i sim x2 x3 (accOf c a12 a13 a14 a15 a16 a17) 44 (by decide)).symm
  unfold kernelRunC.sl.r_416 kernelRunC.sl.r_420
  simp only [W_r_415 c i tbl, V13_44 c i M2 hM2 M3 hM3 tbl hT sim x2 x3 b9 b10 a12 a13 a14 a15 a16 a17, in_read M2 hM2 x2 44 (by decide), mk_read M3 hM3 x3 44 (by decide)]
  try rfl
theorem V14_45 : kernelRunC.sl.v3900 c i M3 hM3 tbl hT sim x3 b9 b10 a14 = (rowsOf c tbl i sim x2 x3 (accOf c a12 a13 a14 a15 a16 a17) 45).w := by
  unfold kernelRunC.sl.v3900 kernelRunC.sl.H14_45
  rw [View.readCov_cons_toLoadRect]
  refine Eq.trans ?_ (rowsOf_w c tbl i sim x2 x3 (accOf c a12 a13 a14 a15 a16 a17) 44 (by decide)).symm
  unfold kernelRunC.sl.r_418
  simp only [S_v3759 c i tbl hT sim b9, V14_44 c i M2 hM2 M3 hM3 tbl hT sim x2 x3 b9 b10 a12 a13 a14 a15 a16 a17, mk_read M3 hM3 x3 44 (by decide)]
  try rfl
theorem V12_46 : kernelRunC.sl.v3974 c M3 hM3 x3 a12 = (rowsOf c tbl i sim x2 x3 (accOf c a12 a13 a14 a15 a16 a17) 46).m := by
  unfold kernelRunC.sl.v3974 kernelRunC.sl.H12_46
  rw [View.readCov_cons_toLoadRect]
  refine Eq.trans ?_ (rowsOf_m c tbl i sim x2 x3 (accOf c a12 a13 a14 a15 a16 a17) 45 (by decide)).symm
  unfold kernelRunC.sl.r_426
  simp only [V12_45 c i M2 hM2 M3 hM3 tbl hT sim x2 x3 b9 b10 a12 a13 a14 a15 a16 a17, mk_read M3 hM3 x3 45 (by decide)]
  try rfl
theorem V13_46 : kernelRunC.sl.v3979 c i M2 hM2 M3 hM3 tbl x2 x3 a13 = (rowsOf c tbl i sim x2 x3 (accOf c a12 a13 a14 a15 a16 a17) 46).logp := by
  unfold kernelRunC.sl.v3979 kernelRunC.sl.H13_46
  rw [View.readCov_cons_toLoadRect]
  refine Eq.trans ?_ (rowsOf_logp c tbl i sim x2 x3 (accOf c a12 a13 a14 a15 a16 a17) 45 (by decide)).symm
  unfold kernelRunC.sl.r_425 kernelRunC.sl.r_426
  simp only [W_r_424 c i tbl, V13_45 c i M2 hM2 M3 hM3 tbl hT sim x2 x3 b9 b10 a12 a13 a14 a15 a16 a17, in_read M2 hM2 x2 45 (by decide), mk_read M3 hM3 x3 45 (by decide)]
  try rfl
theorem V14_46 : kernelRunC.sl.v3985 c i M3 hM3 tbl hT sim x3 b9 b10 a14 = (rowsOf c tbl i sim x2 x3 (accOf c a12 a13 a14 a15 a16 a17) 46).w := by
  unfold kernelRunC.sl.v3985 kernelRunC.sl.H14_46
  rw [View.readCov_cons_toLoadRect]
  refine Eq.trans ?_ (rowsOf_w c tbl i sim x2 x3 (accOf c a12 a13 a14 a15 a16 a17) 45 (by decide)).symm
  unfold kernelRunC.sl.r_428
  simp only [S_v3844 c i tbl hT sim b10, V14_45 c i M2 hM2 M3 hM3 tbl hT sim x2 x3 b9 b10 a12 a13 a14 a15 a16 a17, mk_read M3 hM3 x3 45 (by decide)]
  try rfl
theorem V12_47 : kernelRunC.sl.v4059 c M3 hM3 x3 a12 = (rowsOf c tbl i sim x2 x3 (accOf c a12 a13 a14 a15 a16 a17) 47).m := by
  unfold kernelRunC.sl.v4059 kernelRunC.sl.H12_47
  rw [View.readCov_cons_toLoadRect]
  refine Eq.trans ?_ (rowsOf_m c tbl i sim x2 x3 (accOf c a12 a13 a14 a15 a16 a17) 46 (by decide)).symm
  unfold kernelRunC.sl.r_435
  simp only [V12_46 c i M2 hM2 M3 hM3 tbl hT sim x2 x3 b9 b10 a12 a13 a14 a15 a16 a17, mk_read M3 hM3 x3 46 (by decide)]
  try rfl
theorem V13_47 : kernelRunC.sl.v4064 c i M2 hM2 M3 hM3 tbl x2 x3 a13 = (rowsOf c tbl i sim x2 x3 (accOf c a12 a13 a14 a15 a16 a17) 47).logp := by
  unfold kernelRunC.sl.v4064 kernelRunC.sl.H13_47
  rw [View.readCov_cons_toLoadRect]
  refine Eq.trans ?_ (rowsOf_logp c tbl i sim x2 x3 (accOf c a12 a13 a14 a15 a16 a17) 46 (by decide)).symm
  unfold kernelRunC.sl.r_440 kernelRunC.sl.r_434 kernelRunC.sl.r_435
  simp only [W_r_433 c i tbl, V13_46 c i M2 hM2 M3 hM3 tbl hT sim x2 x3 b9 b10 a12 a13 a14 a15 a16 a17, in_read M2 hM2 x2 46 (by decide), mk_read M3 hM3 x3 46 (by decide)]
  try rfl
theorem V14_47 : kernelRunC.sl.v4070 c i M3 hM3 tbl hT sim x3 b9 b10 a14 = (rowsOf c tbl i sim x2 x3 (accOf c a12 a13 a14 a15 a16 a17) 47).w := by
  unfold kernelRunC.sl.v4070 kernelRunC.sl.H14_47
  rw [View.readCov_cons_toLoadRect]
  refine Eq.trans ?_ (rowsOf_w c tbl i sim x2 x3 (accOf c a12 a13 a14 a15 a16 a17) 46 (by decide)).symm
  unfold kernelRunC.sl.r_436 kernelRunC.sl.r_435 kernelRunC.sl.cst_284
  simp only [S_v3929 c i tbl hT sim b9, V14_46 c i M2 hM2 M3 hM3 tbl hT sim x2 x3 b9 b10 a12 a13 a14 a15 a16 a17, mk_read M3 hM3 x3 46 (by decide)]
  try rfl
theorem V12_48 : kernelRunC.sl.v4144 c M3 hM3 x3 a12 = (rowsOf c tbl i sim x2 x3 (accOf c a12 a13 a14 a15 a16 a17) 48).m := by
  unfold kernelRunC.sl.v4144 kernelRunC.sl.H12_48
  rw [View.readCov_cons_toLoadRect]
  refine Eq.trans ?_ (rowsOf_m c tbl i sim x2 x3 (accOf c a12 a13 a14 a15 a16 a17) 47 (by decide)).symm
  unfold kernelRunC.sl.r_443
  simp only [V12_47 c i M2 hM2 M3 hM3 tbl hT sim x2 x3 b9 b10 a12 a13 a14 a15 a16 a17, mk_read M3 hM3 x3 47 (by decide)]
  try rfl
theorem V13_48 : kernelRunC.sl.v4149 c i M2 hM2 M3 hM3 tbl x2 x3 a13 = (rowsOf c tbl i sim x2 x3 (accOf c a12 a13 a14 a15 a16 a17) 48).logp := by
  unfold kernelRunC.sl.v4149 kernelRunC.sl.H13_48
  rw [View.readCov_cons_toLoadRect]
  refine Eq.trans ?_ (rowsOf_logp c tbl i sim x2 x3 (accOf c a12 a13 a14 a15 a16 a17) 47 (by decide)).symm
  unfold kernelRunC.sl.r_443 kernelRunC.sl.r_447
  simp only [W_r_442 c i tbl, V13_47 c i M2 hM2 M3 hM3 tbl hT sim x2 x3 b9 b10 a12 a13 a14 a15 a16 a17, in_read M2 hM2 x2 47 (by decide), mk_read M3 hM3 x3 47 (by decide)]
  try rfl
theorem V14_48 : kernelRunC.sl.v4155 c i M3 hM3 tbl hT sim x3 b9 b10 a14 = (rowsOf c tbl i sim x2 x3 (accOf c a12 a13 a14 a15 a16 a17) 48).w := by
  unfold kernelRunC.sl.v4155 kernelRunC.sl.H14_48
  rw [View.readCov_cons_toLoadRect]
  refine Eq.trans ?_ (rowsOf_w c tbl i sim x2 x3 (accOf c a12 a13 a14 a15 a16 a17) 47 (by decide)).symm
  unfold kernelRunC.sl.r_445
  simp only [S_v4014 c i tbl hT sim b10, V14_47 c i M2 hM2 M3 hM3 tbl hT sim x2 x3 b9 b10 a12 a13 a14 a15 a16 a17, mk_read M3 hM3 x3 47 (by decide)]
  try rfl
theorem V12_49 : kernelRunC.sl.v4229 c M3 hM3 x3 a12 = (rowsOf c tbl i sim x2 x3 (accOf c a12 a13 a14 a15 a16 a17) 49).m := by
  unfold kernelRunC.sl.v4229 kernelRunC.sl.H12_49
  rw [View.readCov_cons_toLoadRect]
  refine Eq.trans ?_ (rowsOf_m c tbl i sim x2 x3 (accOf c a12 a13 a14 a15 a16 a17) 48 (by decide)).symm
  unfold kernelRunC.sl.r_452
  simp only [V12_48 c i M2 hM2 M3 hM3 tbl hT sim x2 x3 b9 b10 a12 a13 a14 a15 a16 a17, mk_read M3 hM3 x3 48 (by decide)]
  try rfl
theorem V13_49 : kernelRunC.sl.v4234 c i M2 hM2 M3 hM3 tbl x2 x3 a13 = (rowsOf c tbl i sim x2 x3 (accOf c a12 a13 a14 a15 a16 a17) 49).logp := by
  unfold kernelRunC.sl.v4234 kernelRunC.sl.H13_49
  rw [View.readCov_cons_toLoadRect]
  refine Eq.trans ?_ (rowsOf_logp c tbl i sim x2 x3 (accOf c a12 a13 a14 a15 a16 a17) 48 (by decide)).symm
  unfold kernelRunC.sl.r_451 kernelRunC.sl.r_452
  simp only [W_r_450 c i tbl, V13_48 c i M2 hM2 M3 hM3 tbl hT sim x2 x3 b9 b10 a12 a13 a14 a15 a16 a17, in_read M2 hM2 x2 48 (by decide), mk_read M3 hM3 x3 48 (by decide)]
  try rfl
theorem V14_49 : kernelRunC.sl.v4240 c i M3 hM3 tbl hT sim x3 b9 b10 a14 = (rowsOf c tbl i sim x2 x3 (accOf c a12 a13 a14 a15 a16 a17) 49).w := by
  unfold kernelRunC.sl.v4240 kernelRunC.sl.H14_49
  rw [View.readCov_cons_toLoadRect]
  refine Eq.trans ?_ (rowsOf_w c tbl i sim x2 x3 (accOf c a12 a13 a14 a15 a16 a17) 48 (by decide)).symm
  unfold kernelRunC.sl.r_452 kernelRunC.sl.r_453
  simp only [S_v4099 c i tbl hT sim b9, V14_48 c i M2 hM2 M3 hM3 tbl hT sim x2 x3 b9 b10 a12 a13 a14 a15 a16 a17, mk_read M3 hM3 x3 48 (by decide)]
  try rfl
theorem V12_50 : kernelRunC.sl.v4314 c M3 hM3 x3 a12 = (rowsOf c tbl i sim x2 x3 (accOf c a12 a13 a14 a15 a16 a17) 50).m := by
  unfold kernelRunC.sl.v4314 kernelRunC.sl.H12_50
  rw [View.readCov_cons_toLoadRect]
  refine Eq.trans ?_ (rowsOf_m c tbl i sim x2 x3 (accOf c a12 a13 a14 a15 a16 a17) 49 (by decide)).symm
  unfold kernelRunC.sl.r_459
  simp only [V12_49 c i M2 hM2 M3 hM3 tbl hT sim x2 x3 b9 b10 a12 a13 a14 a15 a16 a17, mk_read M3 hM3 x3 49 (by decide)]
  try rfl
theorem V13_50 : kernelRunC.sl.v4319 c i M2 hM2 M3 hM3 tbl x2 x3 a13 = (rowsOf c tbl i sim x2 x3 (accOf c a12 a13 a14 a15 a16 a17) 50).logp := by
  unfold kernelRunC.sl.v4319 kernelRunC.sl.H13_50
  rw [View.readCov_cons_toLoadRect]
  refine Eq.trans ?_ (rowsOf_logp c tbl i sim x2 x3 (accOf c a12 a13 a14 a15 a16 a17) 49 (by decide)).symm
  unfold kernelRunC.sl.r_459 kernelRunC.sl.r_463 kernelRunC.sl.r_458
  simp only [W_r_460 c i tbl, V13_49 c i M2 hM2 M3 hM3 tbl hT sim x2 x3 b9 b10 a12 a13 a14 a15 a16 a17, in_read M2 hM2 x2 49 (by decide), mk_read M3 hM3 x3 49 (by decide)]
  try rfl
theorem V14_50 : kernelRunC.sl.v4325 c i M3 hM3 tbl hT sim x3 b9 b10 a14 = (rowsOf c tbl i sim x2 x3 (accOf c a12 a13 a14 a15 a16 a17) 50).w := by
  unfold kernelRunC.sl.v4325 kernelRunC.sl.H14_50
  rw [View.readCov_cons_toLoadRect]
  refine Eq.trans ?_ (rowsOf_w c tbl i sim x2 x3 (accOf c a12 a13 a14 a15 a16 a17) 49 (by decide)).symm
  unfold kernelRunC.sl.r_461 kernelRunC.sl.r_459
  simp only [S_v4184 c i tbl hT sim b10, V14_49 c i M2 hM2 M3 hM3 tbl hT sim x2 x3 b9 b10 a12 a13 a14 a15 a16 a17, mk_read M3 hM3 x3 49 (by decide)]
  try rfl
theorem V12_51 : kernelRunC.sl.v4399 c M3 hM3 x3 a12 = (rowsOf c tbl i sim x2 x3 (accOf c a12 a13 a14 a15 a16 a17) 51).m := by
  unfold kernelRunC.sl.v4399 kernelRunC.sl.H12_51
  rw [View.readCov_cons_toLoadRect]
  refine Eq.trans ?_ (rowsOf_m c tbl i sim x2 x3 (accOf c a12 a13 a14 a15 a16 a17) 50 (by decide)).symm
  unfold kernelRunC.sl.r_468
  simp only [V12_50 c i M2 hM2 M3 hM3 tbl hT sim x2 x3 b9 b10 a12 a13 a14 a15 a16 a17, mk_read M3 hM3 x3 50 (by decide)]
  try rfl
theorem V13_51 : kernelRunC.sl.v4404 c i M2 hM2 M3 hM3 tbl x2 x3 a13 = (rowsOf c tbl i sim x2 x3 (accOf c a12 a13 a14 a15 a16 a17) 51).logp := by
  unfold kernelRunC.sl.v4404 kernelRunC.sl.H13_51
  rw [View.readCov_cons_toLoadRect]
  refine Eq.trans ?_ (rowsOf_logp c tbl i sim x2 x3 (accOf c a12 a13 a14 a15 a16 a17) 50 (by decide)).symm
  unfold kernelRunC.sl.r_468 kernelRunC.sl.r_472
  simp only [W_r_467 c i tbl, V13_50 c i M2 hM2 M3 hM3 tbl hT sim x2 x3 b9 b10 a12 a13 a14 a15 a16 a17, in_read M2 hM2 x2 50 (by decide), mk_read M3 hM3 x3 50 (by decide)]
  try rfl
theorem V14_51 : kernelRunC.sl.v4410 c i M3 hM3 tbl hT sim x3 b9 b10 a14 = (rowsOf c tbl i sim x2 x3 (accOf c a12 a13 a14 a15 a16 a17) 51).w := by
  unfold kernelRunC.sl.v4410 kernelRunC.sl.H14_51
  rw [View.readCov_cons_toLoadRect]
  refine Eq.trans ?_ (rowsOf_w c tbl i sim x2 x3 (accOf c a12 a13 a14 a15 a16 a17) 50 (by decide)).symm
  unfold kernelRunC.sl.r_470
  simp only [S_v4269 c i tbl hT sim b9, V14_50 c i M2 hM2 M3 hM3 tbl hT sim x2 x3 b9 b10 a12 a13 a14 a15 a16 a17, mk_read M3 hM3 x3 50 (by decide)]
  try rfl
theorem V12_52 : kernelRunC.sl.v4484 c M3 hM3 x3 a12 = (rowsOf c tbl i sim x2 x3 (accOf c a12 a13 a14 a15 a16 a17) 52).m := by
  unfold kernelRunC.sl.v4484 kernelRunC.sl.H12_52
  rw [View.readCov_cons_toLoadRect]
  refine Eq.trans ?_ (rowsOf_m c tbl i sim x2 x3 (accOf c a12 a13 a14 a15 a16 a17) 51 (by decide)).symm
  unfold kernelRunC.sl.r_478
  simp only [V12_51 c i M2 hM2 M3 hM3 tbl hT sim x2 x3 b9 b10 a12 a13 a14 a15 a16 a17, mk_read M3 hM3 x3 51 (by decide)]
  try rfl
theorem V13_52 : kernelRunC.sl.v4489 c i M2 hM2 M3 hM3 tbl x2 x3 a13 = (rowsOf c tbl i sim x2 x3 (accOf c a12 a13 a14 a15 a16 a17) 52).logp := by
  unfold kernelRunC.sl.v4489 kernelRunC.sl.H13_52
  rw [View.readCov_cons_toLoadRect]
  refine Eq.trans ?_ (rowsOf_logp c tbl i sim x2 x3 (accOf c a12 a13 a14 a15 a16 a17) 51 (by decide)).symm
  unfold kernelRunC.sl.r_477 kernelRunC.sl.r_478
  simp only [W_r_476 c i tbl, V13_51 c i M2 hM2 M3 hM3 tbl hT sim x2 x3 b9 b10 a12 a13 a14 a15 a16 a17, in_read M2 hM2 x2 51 (by decide), mk_read M3 hM3 x3 51 (by decide)]
  try rfl
theorem V14_52 : kernelRunC.sl.v4495 c i M3 hM3 tbl hT sim x3 b9 b10 a14 = (rowsOf c tbl i sim x2 x3 (accOf c a12 a13 a14 a15 a16 a17) 52).w := by
  unfold kernelRunC.sl.v4495 kernelRunC.sl.H14_52
  rw [View.readCov_cons_toLoadRect]
  refine Eq.trans ?_ (rowsOf_w c tbl i sim x2 x3 (accOf c a12 a13 a14 a15 a16 a17) 51 (by decide)).symm
  unfold kernelRunC.sl.r_484 kernelRunC.sl.r_478 kernelRunC.sl.r_479 kernelRunC.sl.r_480
  simp only [S_v4354 c i tbl hT sim b10, V14_51 c i M2 hM2 M3 hM3 tbl hT sim x2 x3 b9 b10 a12 a13 a14 a15 a16 a17, mk_read M3 hM3 x3 51 (by decide)]
  try rfl
theorem V12_53 : kernelRunC.sl.v4569 c M3 hM3 x3 a12 = (rowsOf c tbl i sim x2 x3 (accOf c a12 a13 a14 a15 a16 a17) 53).m := by
  unfold kernelRunC.sl.v4569 kernelRunC.sl.H12_53
  rw [View.readCov_cons_toLoadRect]
  refine Eq.trans ?_ (rowsOf_m c tbl i sim x2 x3 (accOf c a12 a13 a14 a15 a16 a17) 52 (by decide)).symm
  unfold kernelRunC.sl.r_495 kernelRunC.sl.r_487
  simp only [V12_52 c i M2 hM2 M3 hM3 tbl hT sim x2 x3 b9 b10 a12 a13 a14 a15 a16 a17, mk_read M3 hM3 x3 52 (by decide)]
  try rfl
theorem V13_53 : kernelRunC.sl.v4574 c i M2 hM2 M3 hM3 tbl x2 x3 a13 = (rowsOf c tbl i sim x2 x3 (accOf c a12 a13 a14 a15 a16 a17) 53).logp := by
  unfold kernelRunC.sl.v4574 kernelRunC.sl.H13_53
  rw [View.readCov_cons_toLoadRect]
  refine Eq.trans ?_ (rowsOf_logp c tbl i sim x2 x3 (accOf c a12 a13 a14 a15 a16 a17) 52 (by decide)).symm
  unfold kernelRunC.sl.r_489 kernelRunC.sl.r_492 kernelRunC.sl.r_487 kernelRunC.sl.r_486
  simp only [W_r_488 c i tbl, V13_52 c i M2 hM2 M3 hM3 tbl hT sim x2 x3 b9 b10 a12 a13 a14 a15 a16 a17, in_read M2 hM2 x2 52 (by decide), mk_read M3 hM3 x3 52 (by decide)]
  try rfl
theorem V14_53 : kernelRunC.sl.v4580 c i M3 hM3 tbl hT sim x3 b9 b10 a14 = (rowsOf c tbl i sim x2 x3 (accOf c a12 a13 a14 a15 a16 a17) 53).w := by
  unfold kernelRunC.sl.v4580 kernelRunC.sl.H14_53
  rw [View.readCov_cons_toLoadRect]
  refine Eq.trans ?_ (rowsOf_w c tbl i sim x2 x3 (accOf c a12 a13 a14 a15 a16 a17) 52 (by decide)).symm
  unfold kernelRunC.sl.r_490 kernelRunC.sl.r_487
  simp only [S_v4439 c i tbl hT sim b9, V14_52 c i M2 hM2 M3 hM3 tbl hT sim x2 x3 b9 b10 a12 a13 a14 a15 a16 a17, mk_read M3 hM3 x3 52 (by decide)]
  try rfl
theorem V12_54 : kernelRunC.sl.v4654 c M3 hM3 x3 a12 = (rowsOf c tbl i sim x2 x3 (accOf c a12 a13 a14 a15 a16 a17) 54).m := by
  unfold kernelRunC.sl.v4654 kernelRunC.sl.H12_54
  rw [View.readCov_cons_toLoadRect]
  refine Eq.trans ?_ (rowsOf_m c tbl i sim x2 x3 (accOf c a12 a13 a14 a15 a16 a17) 53 (by decide)).symm
  unfold kernelRunC.sl.r_499
  simp only [V12_53 c i M2 hM2 M3 hM3 tbl hT sim x2 x3 b9 b10 a12 a13 a14 a15 a16 a17, mk_read M3 hM3 x3 53 (by decide)]
  try rfl
theorem V13_54 : kernelRunC.sl.v4659 c i M2 hM2 M3 hM3 tbl x2 x3 a13 = (rowsOf c tbl i sim x2 x3 (accOf c a12 a13 a14 a15 a16 a17) 54).logp := by
  unfold kernelRunC.sl.v4659 kernelRunC.sl.H13_54
  rw [View.readCov_cons_toLoadRect]
  refine Eq.trans ?_ (rowsOf_logp c tbl i sim x2 x3 (accOf c a12 a13 a14 a15 a16 a17) 53 (by decide)).symm
  unfold kernelRunC.sl.r_498 kernelRunC.sl.r_499 kernelRunC.sl.r_503
  simp only [W_r_497 c i tbl, V13_53 c i M2 hM2 M3 hM3 tbl hT sim x2 x3 b9 b10 a12 a13 a14 a15 a16 a17, in_read M2 hM2 x2 53 (by decide), mk_read M3 hM3 x3 53 (by decide)]
  try rfl
theorem V14_54 : kernelRunC.sl.v4665 c i M3 hM3 tbl hT sim x3 b9 b10 a14 = (rowsOf c tbl i sim x2 x3 (accOf c a12 a13 a14 a15 a16 a17) 54).w := by
  unfold kernelRunC.sl.v4665 kernelRunC.sl.H14_54
  rw [View.readCov_cons_toLoadRect]
  refine Eq.trans ?_ (rowsOf_w c tbl i sim x2 x3 (accOf c a12 a13 a14 a15 a16 a17) 53 (by decide)).symm
  unfold kernelRunC.sl.r_501
  simp only [S_v4524 c i tbl hT sim b10, V14_53 c i M2 hM2 M3 hM3 tbl hT sim x2 x3 b9 b10 a12 a13 a14 a15 a16 a17, mk_read M3 hM3 x3 53 (by decide)]
  try rfl
theorem V12_55 : kernelRunC.sl.v4739 c M3 hM3 x3 a12 = (rowsOf c tbl i sim x2 x3 (accOf c a12 a13 a14 a15 a16 a17) 55).m := by
  unfold kernelRunC.sl.v4739 kernelRunC.sl.H12_55
  rw [View.readCov_cons_toLoadRect]
  refine Eq.trans ?_ (rowsOf_m c tbl i sim x2 x3 (accOf c a12 a13 a14 a15 a16 a17) 54 (by decide)).symm
  unfold kernelRunC.sl.r_509
  simp only [V12_54 c i M2 hM2 M3 hM3 tbl hT sim x2 x3 b9 b10 a12 a13 a14 a15 a16 a17, mk_read M3 hM3 x3 54 (by decide)]
  try rfl
theorem V13_55 : kernelRunC.sl.v4744 c i M2 hM2 M3 hM3 tbl x2 x3 a13 = (rowsOf c tbl i sim x2 x3 (accOf c a12 a13 a14 a15 a16 a17) 55).logp := by
  unfold kernelRunC.sl.v4744 kernelRunC.sl.H13_55
  rw [View.readCov_cons_toLoadRect]
  refine Eq.trans ?_ (rowsOf_logp c tbl i sim x2 x3 (accOf c a12 a13 a14 a15 a16 a17) 54 (by decide)).symm
  unfold kernelRunC.sl.r_508 kernelRunC.sl.r_509
  simp only [W_r_507 c i tbl, V13_54 c i M2 hM2 M3 hM3 tbl hT sim x2 x3 b9 b10 a12 a13 a14 a15 a16 a17, in_read M2 hM2 x2 54 (by decide), mk_read M3 hM3 x3 54 (by decide)]
  try rfl
theorem V14_55 : kernelRunC.sl.v4750 c i M3 hM3 tbl hT sim x3 b9 b10 a14 = (rowsOf c tbl i sim x2 x3 (accOf c a12 a13 a14 a15 a16 a17) 55).w := by
  unfold kernelRunC.sl.v4750 kernelRunC.sl.H14_55
  rw [View.readCov_cons_toLoadRect]
  refine Eq.trans ?_ (rowsOf_w c tbl i sim x2 x3 (accOf c a12 a13 a14 a15 a16 a17) 54 (by decide)).symm
  unfold kernelRunC.sl.r_515 kernelRunC.sl.r_509 kernelRunC.sl.r_510 kernelRunC.sl.r_511
  simp only [S_v4609 c i tbl hT sim b9, V14_54 c i M2 hM2 M3 hM3 tbl hT sim x2 x3 b9 b10 a12 a13 a14 a15 a16 a17, mk_read M3 hM3 x3 54 (by decide)]
  try rfl
theorem V12_56 : kernelRunC.sl.v4824 c M3 hM3 x3 a12 = (rowsOf c tbl i sim x2 x3 (accOf c a12 a13 a14 a15 a16 a17) 56).m := by
  unfold kernelRunC.sl.v4824 kernelRunC.sl.H12_56
  rw [View.readCov_cons_toLoadRect]
  refine Eq.trans ?_ (rowsOf_m c tbl i sim x2 x3 (accOf c a12 a13 a14 a15 a16 a17) 55 (by decide)).symm
  unfold kernelRunC.sl.r_525
  simp only [V12_55 c i M2 hM2 M3 hM3 tbl hT sim x2 x3 b9 b10 a12 a13 a14 a15 a16 a17, mk_read M3 hM3 x3 55 (by decide)]
  try rfl
theorem V13_56 : kernelRunC.sl.v4829 c i M2 hM2 M3 hM3 tbl x2 x3 a13 = (rowsOf c tbl i sim x2 x3 (accOf c a12 a13 a14 a15 a16 a17) 56).logp := by
  unfold kernelRunC.sl.v4829 kernelRunC.sl.H13_56
  rw [View.readCov_cons_toLoadRect]
  refine Eq.trans ?_ (rowsOf_logp c tbl i sim x2 x3 (accOf c a12 a13 a14 a15 a16 a17) 55 (by decide)).symm
  unfold kernelRunC.sl.r_519 kernelRunC.sl.r_522 kernelRunC.sl.r_517
  simp only [W_r_518 c i tbl, V13_55 c i M2 hM2 M3 hM3 tbl hT sim x2 x3 b9 b10 a12 a13 a14 a15 a16 a17, in_read M2 hM2 x2 55 (by decide), mk_read M3 hM3 x3 55 (by decide)]
  try rfl
theorem V14_56 : kernelRunC.sl.v4835 c i M3 hM3 tbl hT sim x3 b9 b10 a14 = (rowsOf c tbl i sim x2 x3 (accOf c a12 a13 a14 a15 a16 a17) 56).w := by
  unfold kernelRunC.sl.v4835 kernelRunC.sl.H14_56
  rw [View.readCov_cons_toLoadRect]
  refine Eq.trans ?_ (rowsOf_w c tbl i sim x2 x3 (accOf c a12 a13 a14 a15 a16 a17) 55 (by decide)).symm
  unfold kernelRunC.sl.r_520
  simp only [S_v4694 c i tbl hT sim b10, V14_55 c i M2 hM2 M3 hM3 tbl hT sim x2 x3 b9 b10 a12 a13 a14 a15 a16 a17, mk_read M3 hM3 x3 55 (by decide)]
  try rfl
theorem V12_57 : kernelRunC.sl.v4909 c M3 hM3 x3 a12 = (rowsOf c tbl i sim x2 x3 (accOf c a12 a13 a14 a15 a16 a17) 57).m := by
  unfold kernelRunC.sl.v4909 kernelRunC.sl.H12_57
  rw [View.readCov_cons_toLoadRect]
  refine Eq.trans ?_ (rowsOf_m c tbl i sim x2 x3 (accOf c a12 a13 a14 a15 a16 a17) 56 (by decide)).symm
  unfold kernelRunC.sl.r_529
  simp only [V12_56 c i M2 hM2 M3 hM3 tbl hT sim x2 x3 b9 b10 a12 a13 a14 a15 a16 a17, mk_read M3 hM3 x3 56 (by decide)]
  try rfl
theorem V13_57 : kernelRunC.sl.v4914 c i M2 hM2 M3 hM3 tbl x2 x3 a13 = (rowsOf c tbl i sim x2 x3 (accOf c a12 a13 a14 a15 a16 a17) 57).logp := by
  unfold kernelRunC.sl.v4914 kernelRunC.sl.H13_57
  rw [View.readCov_cons_toLoadRect]
  refine Eq.trans ?_ (rowsOf_logp c tbl i sim x2 x3 (accOf c a12 a13 a14 a15 a16 a17) 56 (by decide)).symm
  unfold kernelRunC.sl.r_528 kernelRunC.sl.r_529
  simp only [W_r_527 c i tbl, V13_56 c i M2 hM2 M3 hM3 tbl hT sim x2 x3 b9 b10 a12 a13 a14 a15 a16 a17, in_read M2 hM2 x2 56 (by decide), mk_read M3 hM3 x3 56 (by decide)]
  try rfl
theorem V14_57 : kernelRunC.sl.v4920 c i M3 hM3 tbl hT sim x3 b9 b10 a14 = (rowsOf c tbl i sim x2 x3 (accOf c a12 a13 a14 a15 a16 a17) 57).w := by
  unfold kernelRunC.sl.v4920 kernelRunC.sl.H14_57
  rw [View.readCov_cons_toLoadRect]
  refine Eq.trans ?_ (rowsOf_w c tbl i sim x2 x3 (accOf c a12 a13 a14 a15 a16 a17) 56 (by decide)).symm
  unfold kernelRunC.sl.r_531
  simp only [S_v4779 c i tbl hT sim b9, V14_56 c i M2 hM2 M3 hM3 tbl hT sim x2 x3 b9 b10 a12 a13 a14 a15 a16 a17, mk_read M3 hM3 x3 56 (by decide)]
  try rfl
theorem V12_58 : kernelRunC.sl.v4994 c M3 hM3 x3 a12 = (rowsOf c tbl i sim x2 x3 (accOf c a12 a13 a14 a15 a16 a17) 58).m := by
  unfold kernelRunC.sl.v4994 kernelRunC.sl.H12_58
  rw [View.readCov_cons_toLoadRect]
  refine Eq.trans ?_ (rowsOf_m c tbl i sim x2 x3 (accOf c a12 a13 a14 a15 a16 a17) 57 (by decide)).symm
  unfold kernelRunC.sl.r_538
  simp only [V12_57 c i M2 hM2 M3 hM3 tbl hT sim x2 x3 b9 b10 a12 a13 a14 a15 a16 a17, mk_read M3 hM3 x3 57 (by decide)]
  try rfl
theorem V13_58 : kernelRunC.sl.v4999 c i M2 hM2 M3 hM3 tbl x2 x3 a13 = (rowsOf c tbl i sim x2 x3 (accOf c a12 a13 a14 a15 a16 a17) 58).logp := by
  unfold kernelRunC.sl.v4999 kernelRunC.sl.H13_58
  rw [View.readCov_cons_toLoadRect]
  refine Eq.trans ?_ (rowsOf_logp c tbl i sim x2 x3 (accOf c a12 a13 a14 a15 a16 a17) 57 (by decide)).symm
  unfold kernelRunC.sl.r_537 kernelRunC.sl.r_538
  simp only [W_r_536 c i tbl, V13_57 c i M2 hM2 M3 hM3 tbl hT sim x2 x3 b9 b10 a12 a13 a14 a15 a16 a17, in_read M2 hM2 x2 57 (by decide), mk_read M3 hM3 x3 57 (by decide)]
  try rfl
theorem V14_58 : kernelRunC.sl.v5005 c i M3 hM3 tbl hT sim x3 b9 b10 a14 = (rowsOf c tbl i sim x2 x3 (accOf c a12 a13 a14 a15 a16 a17) 58).w := by
  unfold kernelRunC.sl.v5005 kernelRunC.sl.H14_58
  rw [View.readCov_cons_toLoadRect]
  refine Eq.trans ?_ (rowsOf_w c tbl i sim x2 x3 (accOf c a12 a13 a14 a15 a16 a17) 57 (by decide)).symm
  unfold kernelRunC.sl.r_541 kernelRunC.sl.r_538 kernelRunC.sl.r_539 kernelRunC.sl.r_540 kernelRunC.sl.cst_781
  simp only [S_v4864 c i tbl hT sim b10, V14_57 c i M2 hM2 M3 hM3 tbl hT sim x2 x3 b9 b10 a12 a13 a14 a15 a16 a17, mk_read M3 hM3 x3 57 (by decide)]
  try rfl
theorem V12_59 : kernelRunC.sl.v5079 c M3 hM3 x3 a12 = (rowsOf c tbl i sim x2 x3 (accOf c a12 a13 a14 a15 a16 a17) 59).m := by
  unfold kernelRunC.sl.v5079 kernelRunC.sl.H12_59
  rw [View.readCov_cons_toLoadRect]
  refine Eq.trans ?_ (rowsOf_m c tbl i sim x2 x3 (accOf c a12 a13 a14 a15 a16 a17) 58 (by decide)).symm
  unfold kernelRunC.sl.r_547
  simp only [V12_58 c i M2 hM2 M3 hM3 tbl hT sim x2 x3 b9 b10 a12 a13 a14 a15 a16 a17, mk_read M3 hM3 x3 58 (by decide)]
  try rfl
theorem V13_59 : kernelRunC.sl.v5084 c i M2 hM2 M3 hM3 tbl x2 x3 a13 = (rowsOf c tbl i sim x2 x3 (accOf c a12 a13 a14 a15 a16 a17) 59).logp := by
  unfold kernelRunC.sl.v5084 kernelRunC.sl.H13_59
  rw [View.readCov_cons_toLoadRect]
  refine Eq.trans ?_ (rowsOf_logp c tbl i sim x2 x3 (accOf c a12 a13 a14 a15 a16 a17) 58 (by decide)).symm
  unfold kernelRunC.sl.r_547 kernelRunC.sl.r_550
  simp only [W_r_546 c i tbl, V13_58 c i M2 hM2 M3 hM3 tbl hT sim x2 x3 b9 b10 a12 a13 a14 a15 a16 a17, in_read M2 hM2 x2 58 (by decide), mk_read M3 hM3 x3 58 (by decide)]
  try rfl
theorem V14_59 : kernelRunC.sl.v5090 c i M3 hM3 tbl hT sim x3 b9 b10 a14 = (rowsOf c tbl i sim x2 x3 (accOf c a12 a13 a14 a15 a16 a17) 59).w := by
  unfold kernelRunC.sl.v5090 kernelRunC.sl.H14_59
  rw [View.readCov_cons_toLoadRect]
  refine Eq.trans ?_ (rowsOf_w c tbl i sim x2 x3 (accOf c a12 a13 a14 a15 a16 a17) 58 (by decide)).symm
  unfold kernelRunC.sl.r_548
  simp only [V14_58 c i M2 hM2 M3 hM3 tbl hT sim x2 x3 b9 b10 a12 a13 a14 a15 a16 a17, S_v_2 c i tbl hT sim b9, mk_read M3 hM3 x3 58 (by decide)]
  try rfl
theorem V12_60 : kernelRunC.sl.v5164 c M3 hM3 x3 a12 = (rowsOf c tbl i sim x2 x3 (accOf c a12 a13 a14 a15 a16 a17) 60).m := by
  unfold kernelRunC.sl.v5164 kernelRunC.sl.H12_60
  rw [View.readCov_cons_toLoadRect]
  refine Eq.trans ?_ (rowsOf_m c tbl i sim x2 x3 (accOf c a12 a13 a14 a15 a16 a17) 59 (by decide)).symm
  unfold kernelRunC.sl.r_556
  simp only [V12_59 c i M2 hM2 M3 hM3 tbl hT sim x2 x3 b9 b10 a12 a13 a14 a15 a16 a17, mk_read M3 hM3 x3 59 (by decide)]
  try rfl
theorem V13_60 : kernelRunC.sl.v5169 c i M2 hM2 M3 hM3 tbl x2 x3 a13 = (rowsOf c tbl i sim x2 x3 (accOf c a12 a13 a14 a15 a16 a17) 60).logp := by
  unfold kernelRunC.sl.v5169 kernelRunC.sl.H13_60
  rw [View.readCov_cons_toLoadRect]
  refine Eq.trans ?_ (rowsOf_logp c tbl i sim x2 x3 (accOf c a12 a13 a14 a15 a16 a17) 59 (by decide)).symm
  unfold kernelRunC.sl.r_555 kernelRunC.sl.r_556
  simp only [W_r_554 c i tbl, V13_59 c i M2 hM2 M3 hM3 tbl hT sim x2 x3 b9 b10 a12 a13 a14 a15 a16 a17, in_read M2 hM2 x2 59 (by decide), mk_read M3 hM3 x3 59 (by decide)]
  try rfl
theorem V14_60 : kernelRunC.sl.v5175 c i M3 hM3 tbl hT sim x3 b9 b10 a14 = (rowsOf c tbl i sim x2 x3 (accOf c a12 a13 a14 a15 a16 a17) 60).w := by
  unfold kernelRunC.sl.v5175 kernelRunC.sl.H14_60
  rw [View.readCov_cons_toLoadRect]
  refine Eq.trans ?_ (rowsOf_w c tbl i sim x2 x3 (accOf c a12 a13 a14 a15 a16 a17) 59 (by decide)).symm
  unfold kernelRunC.sl.r_558
  simp only [S_v5034 c i tbl hT sim b10, V14_59 c i M2 hM2 M3 hM3 tbl hT sim x2 x3 b9 b10 a12 a13 a14 a15 a16 a17, mk_read M3 hM3 x3 59 (by decide)]
  try rfl
theorem V12_61 : kernelRunC.sl.v5249 c M3 hM3 x3 a12 = (rowsOf c tbl i sim x2 x3 (accOf c a12 a13 a14 a15 a16 a17) 61).m := by
  unfold kernelRunC.sl.v5249 kernelRunC.sl.H12_61
  rw [View.readCov_cons_toLoadRect]
  refine Eq.trans ?_ (rowsOf_m c tbl i sim x2 x3 (accOf c a12 a13 a14 a15 a16 a17) 60 (by decide)).symm
  unfold kernelRunC.sl.r_565
  simp only [V12_60 c i M2 hM2 M3 hM3 tbl hT sim x2 x3 b9 b10 a12 a13 a14 a15 a16 a17, mk_read M3 hM3 x3 60 (by decide)]
  try rfl
theorem V13_61 : kernelRunC.sl.v5254 c i M2 hM2 M3 hM3 tbl x2 x3 a13 = (rowsOf c tbl i sim x2 x3 (accOf c a12 a13 a14 a15 a16 a17) 61).logp := by
  unfold kernelRunC.sl.v5254 kernelRunC.sl.H13_61
  rw [View.readCov_cons_toLoadRect]
  refine Eq.trans ?_ (rowsOf_logp c tbl i sim x2 x3 (accOf c a12 a13 a14 a15 a16 a17) 60 (by decide)).symm
  unfold kernelRunC.sl.r_571 kernelRunC.sl.r_564 kernelRunC.sl.r_565
  simp only [W_r_563 c i tbl, V13_60 c i M2 hM2 M3 hM3 tbl hT sim x2 x3 b9 b10 a12 a13 a14 a15 a16 a17, in_read M2 hM2 x2 60 (by decide), mk_read M3 hM3 x3 60 (by decide)]
  try rfl
theorem V14_61 : kernelRunC.sl.v5260 c i M3 hM3 tbl hT sim x3 b9 b10 a14 = (rowsOf c tbl i sim x2 x3 (accOf c a12 a13 a14 a15 a16 a17) 61).w := by
  unfold kernelRunC.sl.v5260 kernelRunC.sl.H14_61
  rw [View.readCov_cons_toLoadRect]
  refine Eq.trans ?_ (rowsOf_w c tbl i sim x2 x3 (accOf c a12 a13 a14 a15 a16 a17) 60 (by decide)).symm
  unfold kernelRunC.sl.r_567 kernelRunC.sl.r_565 kernelRunC.sl.r_566 kernelRunC.sl.cst_15
  simp only [S_v5119 c i tbl hT sim b9, V14_60 c i M2 hM2 M3 hM3 tbl hT sim x2 x3 b9 b10 a12 a13 a14 a15 a16 a17, mk_read M3 hM3 x3 60 (by decide)]
  try rfl
theorem V12_62 : kernelRunC.sl.v5334 c M3 hM3 x3 a12 = (rowsOf c tbl i sim x2 x3 (accOf c a12 a13 a14 a15 a16 a17) 62).m := by
  unfold kernelRunC.sl.v5334 kernelRunC.sl.H12_62
  rw [View.readCov_cons_toLoadRect]
  refine Eq.trans ?_ (rowsOf_m c tbl i sim x2 x3 (accOf c a12 a13 a14 a15 a16 a17) 61 (by decide)).symm
  unfold kernelRunC.sl.r_574
  simp only [V12_61 c i M2 hM2 M3 hM3 tbl hT sim x2 x3 b9 b10 a12 a13 a14 a15 a16 a17, mk_read M3 hM3 x3 61 (by decide)]
  try rfl
theorem V13_62 : kernelRunC.sl.v5339 c i M2 hM2 M3 hM3 tbl x2 x3 a13 = (rowsOf c tbl i sim x2 x3 (accOf c a12 a13 a14 a15 a16 a17) 62).logp := by
  unfold kernelRunC.sl.v5339 kernelRunC.sl.H13_62
  rw [View.readCov_cons_toLoadRect]
  refine Eq.trans ?_ (rowsOf_logp c tbl i sim x2 x3 (accOf c a12 a13 a14 a15 a16 a17) 61 (by decide)).symm
  unfold kernelRunC.sl.r_574 kernelRunC.sl.r_577
  simp only [W_r_573 c i tbl, V13_61 c i M2 hM2 M3 hM3 tbl hT sim x2 x3 b9 b10 a12 a13 a14 a15 a16 a17, in_read M2 hM2 x2 61 (by decide), mk_read M3 hM3 x3 61 (by decide)]
  try rfl
theorem V14_62 : kernelRunC.sl.v5345 c i M3 hM3 tbl hT sim x3 b9 b10 a14 = (rowsOf c tbl i sim x2 x3 (accOf c a12 a13 a14 a15 a16 a17) 62).w := by
  unfold kernelRunC.sl.v5345 kernelRunC.sl.H14_62
  rw [View.readCov_cons_toLoadRect]
  refine Eq.trans ?_ (rowsOf_w c tbl i sim x2 x3 (accOf c a12 a13 a14 a15 a16 a17) 61 (by decide)).symm
  unfold kernelRunC.sl.r_575
  simp only [S_v5204 c i tbl hT sim b10, V14_61 c i M2 hM2 M3 hM3 tbl hT sim x2 x3 b9 b10 a12 a13 a14 a15 a16 a17, mk_read M3 hM3 x3 61 (by decide)]
  try rfl
theorem V12_63 : kernelRunC.sl.v5413 c M3 hM3 x3 a12 = (rowsOf c tbl i sim x2 x3 (accOf c a12 a13 a14 a15 a16 a17) 63).m := by
  unfold kernelRunC.sl.v5413 kernelRunC.sl.H12_63
  rw [View.readCov_cons_toLoadRect]
  refine Eq.trans ?_ (rowsOf_m c tbl i sim x2 x3 (accOf c a12 a13 a14 a15 a16 a17) 62 (by decide)).symm
  unfold kernelRunC.sl.r_584
  simp only [V12_62 c i M2 hM2 M3 hM3 tbl hT sim x2 x3 b9 b10 a12 a13 a14 a15 a16 a17, mk_read M3 hM3 x3 62 (by decide)]
  try rfl
theorem V13_63 : kernelRunC.sl.v5418 c i M2 hM2 M3 hM3 tbl x2 x3 a13 = (rowsOf c tbl i sim x2 x3 (accOf c a12 a13 a14 a15 a16 a17) 63).logp := by
  unfold kernelRunC.sl.v5418 kernelRunC.sl.H13_63
  rw [View.readCov_cons_toLoadRect]
  refine Eq.trans ?_ (rowsOf_logp c tbl i sim x2 x3 (accOf c a12 a13 a14 a15 a16 a17) 62 (by decide)).symm
  unfold kernelRunC.sl.r_583 kernelRunC.sl.r_584
  simp only [W_r_582 c i tbl, V13_62 c i M2 hM2 M3 hM3 tbl hT sim x2 x3 b9 b10 a12 a13 a14 a15 a16 a17, in_read M2 hM2 x2 62 (by decide), mk_read M3 hM3 x3 62 (by decide)]
  try rfl
theorem V14_63 : kernelRunC.sl.v5424 c i M3 hM3 tbl hT sim x3 b9 b10 a14 = (rowsOf c tbl i sim x2 x3 (accOf c a12 a13 a14 a15 a16 a17) 63).w := by
  unfold kernelRunC.sl.v5424 kernelRunC.sl.H14_63
  rw [View.readCov_cons_toLoadRect]
  refine Eq.trans ?_ (rowsOf_w c tbl i sim x2 x3 (accOf c a12 a13 a14 a15 a16 a17) 62 (by decide)).symm
  unfold kernelRunC.sl.r_587
  simp only [S_v5289 c i tbl hT sim b9, V14_62 c i M2 hM2 M3 hM3 tbl hT sim x2 x3 b9 b10 a12 a13 a14 a15 a16 a17, mk_read M3 hM3 x3 62 (by decide)]
  try rfl
theorem L12_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.2.2.2.1 = kernelRunC.sl.H12_64 c M3 hM3 x3 a12 := rfl
theorem V12_64v : kernelRunC.sl.v5450 c M3 hM3 x3 a12 = (rowsOf c tbl i sim x2 x3 (accOf c a12 a13 a14 a15 a16 a17) 64).m := by
  unfold kernelRunC.sl.v5450 kernelRunC.sl.H12_64
  rw [View.readCov_cons_toLoadRect]
  refine Eq.trans ?_ (rowsOf_m c tbl i sim x2 x3 (accOf c a12 a13 a14 a15 a16 a17) 63 (by decide)).symm
  unfold kernelRunC.sl.r_593
  simp only [V12_63 c i M2 hM2 M3 hM3 tbl hT sim x2 x3 b9 b10 a12 a13 a14 a15 a16 a17, mk_read M3 hM3 x3 63 (by decide)]
  try rfl
theorem V12_64 : View.readAt (Elt F) (Memref.whole cc0_scratch3).view (Rect.unit ![0, 0] S1x1.size inb_S1x1_S1x1_0_0).toLoadRect ((Memref.whole cc0_scratch3).view.writes (Elt F) a12 (kernelRunC.sl.H12_64 c M3 hM3 x3 a12)) = (rowsOf c tbl i sim x2 x3 (accOf c a12 a13 a14 a15 a16 a17) 64).m := by
  unfold kernelRunC.sl.H12_64
  rw [read_last_write]
  refine Eq.trans ?_ (rowsOf_m c tbl i sim x2 x3 (accOf c a12 a13 a14 a15 a16 a17) 63 (by decide)).symm
  unfold kernelRunC.sl.r_593
  simp only [V12_63 c i M2 hM2 M3 hM3 tbl hT sim x2 x3 b9 b10 a12 a13 a14 a15 a16 a17, mk_read M3 hM3 x3 63 (by decide)]
  try rfl
theorem L13_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.2.2.2.2.1 = kernelRunC.sl.H13_64 c i M2 hM2 M3 hM3 tbl x2 x3 a13 := rfl
theorem V13_64v : kernelRunC.sl.v5447 c i M2 hM2 M3 hM3 tbl x2 x3 a13 = (rowsOf c tbl i sim x2 x3 (accOf c a12 a13 a14 a15 a16 a17) 64).logp := by
  unfold kernelRunC.sl.v5447 kernelRunC.sl.H13_64
  rw [View.readCov_cons_toLoadRect]
  refine Eq.trans ?_ (rowsOf_logp c tbl i sim x2 x3 (accOf c a12 a13 a14 a15 a16 a17) 63 (by decide)).symm
  unfold kernelRunC.sl.r_592 kernelRunC.sl.r_593
  simp only [W_r_591 c i tbl, V13_63 c i M2 hM2 M3 hM3 tbl hT sim x2 x3 b9 b10 a12 a13 a14 a15 a16 a17, in_read M2 hM2 x2 63 (by decide), mk_read M3 hM3 x3 63 (by decide)]
  try rfl
theorem V13_64 : View.readAt (Elt F) (Memref.whole cc0_scratch4).view (Rect.unit ![0, 0] S1x1.size inb_S1x1_S1x1_0_0).toLoadRect ((Memref.whole cc0_scratch4).view.writes (Elt F) a13 (kernelRunC.sl.H13_64 c i M2 hM2 M3 hM3 tbl x2 x3 a13)) = (rowsOf c tbl i sim x2 x3 (accOf c a12 a13 a14 a15 a16 a17) 64).logp := by
  unfold kernelRunC.sl.H13_64
  rw [read_last_write]
  refine Eq.trans ?_ (rowsOf_logp c tbl i sim x2 x3 (accOf c a12 a13 a14 a15 a16 a17) 63 (by decide)).symm
  unfold kernelRunC.sl.r_592 kernelRunC.sl.r_593
  simp only [W_r_591 c i tbl, V13_63 c i M2 hM2 M3 hM3 tbl hT sim x2 x3 b9 b10 a12 a13 a14 a15 a16 a17, in_read M2 hM2 x2 63 (by decide), mk_read M3 hM3 x3 63 (by decide)]
  try rfl
theorem L14_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.2.2.2.2.2.1 = kernelRunC.sl.H14_64 c i M3 hM3 tbl hT sim x3 b9 b10 a14 := rfl
theorem V14_64v : kernelRunC.sl.v5453 c i M3 hM3 tbl hT sim x3 b9 b10 a14 = (rowsOf c tbl i sim x2 x3 (accOf c a12 a13 a14 a15 a16 a17) 64).w := by
  unfold kernelRunC.sl.v5453 kernelRunC.sl.H14_64
  rw [View.readCov_cons_toLoadRect]
  refine Eq.trans ?_ (rowsOf_w c tbl i sim x2 x3 (accOf c a12 a13 a14 a15 a16 a17) 63 (by decide)).symm
  unfold kernelRunC.sl.r_599 kernelRunC.sl.r_593 kernelRunC.sl.r_594 kernelRunC.sl.r_595
  simp only [S_v5368 c i tbl hT sim b10, V14_63 c i M2 hM2 M3 hM3 tbl hT sim x2 x3 b9 b10 a12 a13 a14 a15 a16 a17, mk_read M3 hM3 x3 63 (by decide)]
  try rfl
theorem V14_64 : View.readAt (Elt F) (Memref.whole cc0_scratch5).view (Rect.unit ![0, 0] S1x1.size inb_S1x1_S1x1_0_0).toLoadRect ((Memref.whole cc0_scratch5).view.writes (Elt F) a14 (kernelRunC.sl.H14_64 c i M3 hM3 tbl hT sim x3 b9 b10 a14)) = (rowsOf c tbl i sim x2 x3 (accOf c a12 a13 a14 a15 a16 a17) 64).w := by
  unfold kernelRunC.sl.H14_64
  rw [read_last_write]
  refine Eq.trans ?_ (rowsOf_w c tbl i sim x2 x3 (accOf c a12 a13 a14 a15 a16 a17) 63 (by decide)).symm
  unfold kernelRunC.sl.r_599 kernelRunC.sl.r_593 kernelRunC.sl.r_594 kernelRunC.sl.r_595
  simp only [S_v5368 c i tbl hT sim b10, V14_63 c i M2 hM2 M3 hM3 tbl hT sim x2 x3 b9 b10 a12 a13 a14 a15 a16 a17, mk_read M3 hM3 x3 63 (by decide)]
  try rfl
end TabC

end Cert.Proof.KI

end
-- ==== Proof.KIStepCTabV2.lean ====
import proofs.«419560_j5755256177164_3_alg».proof.Proof.KIStepCTabW

/-!
  The table of case C: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.KI

open Cert.KernelIdeal Cert.KernelIdeal.Gen
open Idealize.ShloMosaic Idealize.ShloMosaic.TcCoe
open Idealize.SL Idealize.SL.Sem

variable {F : FTy → Type} [FloatOps F]

namespace TabC

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

include c i M2 hM2 M3 hM3 tbl hT sim x2 x3 b9 b10 a12 a13 a14 a15 a16 a17

theorem V15_1 : kernelRunC.sl.v165 c i M2 hM2 M3 hM3 tbl hT sim x2 x3 b9 a15 = (rowsOf c tbl i sim x2 x3 (accOf c a12 a13 a14 a15 a16 a17) 1).nf := by
  unfold kernelRunC.sl.v165 kernelRunC.sl.H15_1
  rw [View.readCov_cons_toLoadRect]
  refine Eq.trans ?_ (rowsOf_nf c tbl i sim x2 x3 (accOf c a12 a13 a14 a15 a16 a17) 0 (by decide)).symm
  unfold kernelRunC.sl.r_7 kernelRunC.sl.r_3 kernelRunC.sl.r_4 kernelRunC.sl.r_5 kernelRunC.sl.cst_15
  simp only [S_v19 c i tbl hT sim b9, in_read M2 hM2 x2 0 (by decide), mk_read M3 hM3 x3 0 (by decide)]
  try rfl
theorem V16_1 : kernelRunC.sl.v170 c i tbl hT sim b9 a16 = (rowsOf c tbl i sim x2 x3 (accOf c a12 a13 a14 a15 a16 a17) 1).s := by
  unfold kernelRunC.sl.v170 kernelRunC.sl.H16_1
  rw [View.readCov_cons_toLoadRect]
  refine Eq.trans ?_ (rowsOf_s c tbl i sim x2 x3 (accOf c a12 a13 a14 a15 a16 a17) 0 (by decide)).symm
  unfold kernelRunC.sl.r_8 kernelRunC.sl.r_5 kernelRunC.sl.cst_15
  simp only [S_v19 c i tbl hT sim b9]
  try rfl
theorem V17_1 : kernelRunC.sl.v175 c i tbl hT sim b9 a17 = (rowsOf c tbl i sim x2 x3 (accOf c a12 a13 a14 a15 a16 a17) 1).q := by
  unfold kernelRunC.sl.v175 kernelRunC.sl.H17_1
  rw [View.readCov_cons_toLoadRect]
  refine Eq.trans ?_ (rowsOf_q c tbl i sim x2 x3 (accOf c a12 a13 a14 a15 a16 a17) 0 (by decide)).symm
  unfold kernelRunC.sl.r_9 kernelRunC.sl.r_5 kernelRunC.sl.cst_15
  simp only [S_v19 c i tbl hT sim b9]
  try rfl
theorem V15_2 : kernelRunC.sl.v250 c i M2 hM2 M3 hM3 tbl hT sim x2 x3 b9 b10 a15 = (rowsOf c tbl i sim x2 x3 (accOf c a12 a13 a14 a15 a16 a17) 2).nf := by
  unfold kernelRunC.sl.v250 kernelRunC.sl.H15_2
  rw [View.readCov_cons_toLoadRect]
  refine Eq.trans ?_ (rowsOf_nf c tbl i sim x2 x3 (accOf c a12 a13 a14 a15 a16 a17) 1 (by decide)).symm
  unfold kernelRunC.sl.r_15
  simp only [S_v104 c i tbl hT sim b10, V15_1 c i M2 hM2 M3 hM3 tbl hT sim x2 x3 b9 b10 a12 a13 a14 a15 a16 a17, in_read M2 hM2 x2 1 (by decide), mk_read M3 hM3 x3 1 (by decide)]
  try rfl
theorem V16_2 : kernelRunC.sl.v255 c i tbl hT sim b9 b10 a16 = (rowsOf c tbl i sim x2 x3 (accOf c a12 a13 a14 a15 a16 a17) 2).s := by
  unfold kernelRunC.sl.v255 kernelRunC.sl.H16_2
  rw [View.readCov_cons_toLoadRect]
  refine Eq.trans ?_ (rowsOf_s c tbl i sim x2 x3 (accOf c a12 a13 a14 a15 a16 a17) 1 (by decide)).symm
  unfold kernelRunC.sl.r_17
  simp only [S_v104 c i tbl hT sim b10, V16_1 c i M2 hM2 M3 hM3 tbl hT sim x2 x3 b9 b10 a12 a13 a14 a15 a16 a17]
  try rfl
theorem V17_2 : kernelRunC.sl.v260 c i tbl hT sim b9 b10 a17 = (rowsOf c tbl i sim x2 x3 (accOf c a12 a13 a14 a15 a16 a17) 2).q := by
  unfold kernelRunC.sl.v260 kernelRunC.sl.H17_2
  rw [View.readCov_cons_toLoadRect]
  refine Eq.trans ?_ (rowsOf_q c tbl i sim x2 x3 (accOf c a12 a13 a14 a15 a16 a17) 1 (by decide)).symm
  unfold kernelRunC.sl.r_19 kernelRunC.sl.r_18
  simp only [S_v104 c i tbl hT sim b10, V17_1 c i M2 hM2 M3 hM3 tbl hT sim x2 x3 b9 b10 a12 a13 a14 a15 a16 a17]
  try rfl
theorem V15_3 : kernelRunC.sl.v335 c i M2 hM2 M3 hM3 tbl hT sim x2 x3 b9 b10 a15 = (rowsOf c tbl i sim x2 x3 (accOf c a12 a13 a14 a15 a16 a17) 3).nf := by
  unfold kernelRunC.sl.v335 kernelRunC.sl.H15_3
  rw [View.readCov_cons_toLoadRect]
  refine Eq.trans ?_ (rowsOf_nf c tbl i sim x2 x3 (accOf c a12 a13 a14 a15 a16 a17) 2 (by decide)).symm
  unfold kernelRunC.sl.r_29 kernelRunC.sl.r_22 kernelRunC.sl.r_25 kernelRunC.sl.cst_109
  simp only [S_v189 c i tbl hT sim b9, V15_2 c i M2 hM2 M3 hM3 tbl hT sim x2 x3 b9 b10 a12 a13 a14 a15 a16 a17, in_read M2 hM2 x2 2 (by decide), mk_read M3 hM3 x3 2 (by decide)]
  try rfl
theorem V16_3 : kernelRunC.sl.v340 c i tbl hT sim b9 b10 a16 = (rowsOf c tbl i sim x2 x3 (accOf c a12 a13 a14 a15 a16 a17) 3).s := by
  unfold kernelRunC.sl.v340 kernelRunC.sl.H16_3
  rw [View.readCov_cons_toLoadRect]
  refine Eq.trans ?_ (rowsOf_s c tbl i sim x2 x3 (accOf c a12 a13 a14 a15 a16 a17) 2 (by decide)).symm
  unfold kernelRunC.sl.r_27 kernelRunC.sl.r_24
  simp only [S_v189 c i tbl hT sim b9, V16_2 c i M2 hM2 M3 hM3 tbl hT sim x2 x3 b9 b10 a12 a13 a14 a15 a16 a17]
  try rfl
theorem V17_3 : kernelRunC.sl.v345 c i tbl hT sim b9 b10 a17 = (rowsOf c tbl i sim x2 x3 (accOf c a12 a13 a14 a15 a16 a17) 3).q := by
  unfold kernelRunC.sl.v345 kernelRunC.sl.H17_3
  rw [View.readCov_cons_toLoadRect]
  refine Eq.trans ?_ (rowsOf_q c tbl i sim x2 x3 (accOf c a12 a13 a14 a15 a16 a17) 2 (by decide)).symm
  unfold kernelRunC.sl.r_28 kernelRunC.sl.r_24
  simp only [S_v189 c i tbl hT sim b9, V17_2 c i M2 hM2 M3 hM3 tbl hT sim x2 x3 b9 b10 a12 a13 a14 a15 a16 a17]
  try rfl
theorem V15_4 : kernelRunC.sl.v420 c i M2 hM2 M3 hM3 tbl hT sim x2 x3 b9 b10 a15 = (rowsOf c tbl i sim x2 x3 (accOf c a12 a13 a14 a15 a16 a17) 4).nf := by
  unfold kernelRunC.sl.v420 kernelRunC.sl.H15_4
  rw [View.readCov_cons_toLoadRect]
  refine Eq.trans ?_ (rowsOf_nf c tbl i sim x2 x3 (accOf c a12 a13 a14 a15 a16 a17) 3 (by decide)).symm
  unfold kernelRunC.sl.r_36 kernelRunC.sl.r_32 kernelRunC.sl.r_33 kernelRunC.sl.r_34
  simp only [S_v274 c i tbl hT sim b10, V15_3 c i M2 hM2 M3 hM3 tbl hT sim x2 x3 b9 b10 a12 a13 a14 a15 a16 a17, in_read M2 hM2 x2 3 (by decide), mk_read M3 hM3 x3 3 (by decide)]
  try rfl
theorem V16_4 : kernelRunC.sl.v425 c i tbl hT sim b9 b10 a16 = (rowsOf c tbl i sim x2 x3 (accOf c a12 a13 a14 a15 a16 a17) 4).s := by
  unfold kernelRunC.sl.v425 kernelRunC.sl.H16_4
  rw [View.readCov_cons_toLoadRect]
  refine Eq.trans ?_ (rowsOf_s c tbl i sim x2 x3 (accOf c a12 a13 a14 a15 a16 a17) 3 (by decide)).symm
  unfold kernelRunC.sl.r_37 kernelRunC.sl.r_34
  simp only [S_v274 c i tbl hT sim b10, V16_3 c i M2 hM2 M3 hM3 tbl hT sim x2 x3 b9 b10 a12 a13 a14 a15 a16 a17]
  try rfl
theorem V17_4 : kernelRunC.sl.v430 c i tbl hT sim b9 b10 a17 = (rowsOf c tbl i sim x2 x3 (accOf c a12 a13 a14 a15 a16 a17) 4).q := by
  unfold kernelRunC.sl.v430 kernelRunC.sl.H17_4
  rw [View.readCov_cons_toLoadRect]
  refine Eq.trans ?_ (rowsOf_q c tbl i sim x2 x3 (accOf c a12 a13 a14 a15 a16 a17) 3 (by decide)).symm
  unfold kernelRunC.sl.r_38 kernelRunC.sl.r_34
  simp only [S_v274 c i tbl hT sim b10, V17_3 c i M2 hM2 M3 hM3 tbl hT sim x2 x3 b9 b10 a12 a13 a14 a15 a16 a17]
  try rfl
theorem V15_5 : kernelRunC.sl.v505 c i M2 hM2 M3 hM3 tbl hT sim x2 x3 b9 b10 a15 = (rowsOf c tbl i sim x2 x3 (accOf c a12 a13 a14 a15 a16 a17) 5).nf := by
  unfold kernelRunC.sl.v505 kernelRunC.sl.H15_5
  rw [View.readCov_cons_toLoadRect]
  refine Eq.trans ?_ (rowsOf_nf c tbl i sim x2 x3 (accOf c a12 a13 a14 a15 a16 a17) 4 (by decide)).symm
  unfold kernelRunC.sl.r_45
  simp only [S_v359 c i tbl hT sim b9, V15_4 c i M2 hM2 M3 hM3 tbl hT sim x2 x3 b9 b10 a12 a13 a14 a15 a16 a17, in_read M2 hM2 x2 4 (by decide), mk_read M3 hM3 x3 4 (by decide)]
  try rfl
theorem V16_5 : kernelRunC.sl.v510 c i tbl hT sim b9 b10 a16 = (rowsOf c tbl i sim x2 x3 (accOf c a12 a13 a14 a15 a16 a17) 5).s := by
  unfold kernelRunC.sl.v510 kernelRunC.sl.H16_5
  rw [View.readCov_cons_toLoadRect]
  refine Eq.trans ?_ (rowsOf_s c tbl i sim x2 x3 (accOf c a12 a13 a14 a15 a16 a17) 4 (by decide)).symm
  unfold kernelRunC.sl.r_47
  simp only [S_v359 c i tbl hT sim b9, V16_4 c i M2 hM2 M3 hM3 tbl hT sim x2 x3 b9 b10 a12 a13 a14 a15 a16 a17]
  try rfl
theorem V17_5 : kernelRunC.sl.v515 c i tbl hT sim b9 b10 a17 = (rowsOf c tbl i sim x2 x3 (accOf c a12 a13 a14 a15 a16 a17) 5).q := by
  unfold kernelRunC.sl.v515 kernelRunC.sl.H17_5
  rw [View.readCov_cons_toLoadRect]
  refine Eq.trans ?_ (rowsOf_q c tbl i sim x2 x3 (accOf c a12 a13 a14 a15 a16 a17) 4 (by decide)).symm
  unfold kernelRunC.sl.r_48 kernelRunC.sl.r_43
  simp only [S_v359 c i tbl hT sim b9, V17_4 c i M2 hM2 M3 hM3 tbl hT sim x2 x3 b9 b10 a12 a13 a14 a15 a16 a17]
  try rfl
theorem V15_6 : kernelRunC.sl.v590 c i M2 hM2 M3 hM3 tbl hT sim x2 x3 b9 b10 a15 = (rowsOf c tbl i sim x2 x3 (accOf c a12 a13 a14 a15 a16 a17) 6).nf := by
  unfold kernelRunC.sl.v590 kernelRunC.sl.H15_6
  rw [View.readCov_cons_toLoadRect]
  refine Eq.trans ?_ (rowsOf_nf c tbl i sim x2 x3 (accOf c a12 a13 a14 a15 a16 a17) 5 (by decide)).symm
  unfold kernelRunC.sl.r_57 kernelRunC.sl.r_51 kernelRunC.sl.r_54
  simp only [S_v444 c i tbl hT sim b10, V15_5 c i M2 hM2 M3 hM3 tbl hT sim x2 x3 b9 b10 a12 a13 a14 a15 a16 a17, in_read M2 hM2 x2 5 (by decide), mk_read M3 hM3 x3 5 (by decide)]
  try rfl
theorem V16_6 : kernelRunC.sl.v595 c i tbl hT sim b9 b10 a16 = (rowsOf c tbl i sim x2 x3 (accOf c a12 a13 a14 a15 a16 a17) 6).s := by
  unfold kernelRunC.sl.v595 kernelRunC.sl.H16_6
  rw [View.readCov_cons_toLoadRect]
  refine Eq.trans ?_ (rowsOf_s c tbl i sim x2 x3 (accOf c a12 a13 a14 a15 a16 a17) 5 (by decide)).symm
  unfold kernelRunC.sl.r_55 kernelRunC.sl.r_53
  simp only [S_v444 c i tbl hT sim b10, V16_5 c i M2 hM2 M3 hM3 tbl hT sim x2 x3 b9 b10 a12 a13 a14 a15 a16 a17]
  try rfl
theorem V17_6 : kernelRunC.sl.v600 c i tbl hT sim b9 b10 a17 = (rowsOf c tbl i sim x2 x3 (accOf c a12 a13 a14 a15 a16 a17) 6).q := by
  unfold kernelRunC.sl.v600 kernelRunC.sl.H17_6
  rw [View.readCov_cons_toLoadRect]
  refine Eq.trans ?_ (rowsOf_q c tbl i sim x2 x3 (accOf c a12 a13 a14 a15 a16 a17) 5 (by decide)).symm
  unfold kernelRunC.sl.r_56 kernelRunC.sl.r_53
  simp only [S_v444 c i tbl hT sim b10, V17_5 c i M2 hM2 M3 hM3 tbl hT sim x2 x3 b9 b10 a12 a13 a14 a15 a16 a17]
  try rfl
theorem V15_7 : kernelRunC.sl.v675 c i M2 hM2 M3 hM3 tbl hT sim x2 x3 b9 b10 a15 = (rowsOf c tbl i sim x2 x3 (accOf c a12 a13 a14 a15 a16 a17) 7).nf := by
  unfold kernelRunC.sl.v675 kernelRunC.sl.H15_7
  rw [View.readCov_cons_toLoadRect]
  refine Eq.trans ?_ (rowsOf_nf c tbl i sim x2 x3 (accOf c a12 a13 a14 a15 a16 a17) 6 (by decide)).symm
  unfold kernelRunC.sl.r_63 kernelRunC.sl.r_60 kernelRunC.sl.r_61 kernelRunC.sl.cst_284
  simp only [S_v529 c i tbl hT sim b9, V15_6 c i M2 hM2 M3 hM3 tbl hT sim x2 x3 b9 b10 a12 a13 a14 a15 a16 a17, in_read M2 hM2 x2 6 (by decide), mk_read M3 hM3 x3 6 (by decide)]
  try rfl
theorem V16_7 : kernelRunC.sl.v680 c i tbl hT sim b9 b10 a16 = (rowsOf c tbl i sim x2 x3 (accOf c a12 a13 a14 a15 a16 a17) 7).s := by
  unfold kernelRunC.sl.v680 kernelRunC.sl.H16_7
  rw [View.readCov_cons_toLoadRect]
  refine Eq.trans ?_ (rowsOf_s c tbl i sim x2 x3 (accOf c a12 a13 a14 a15 a16 a17) 6 (by decide)).symm
  unfold kernelRunC.sl.r_64 kernelRunC.sl.cst_284
  simp only [S_v529 c i tbl hT sim b9, V16_6 c i M2 hM2 M3 hM3 tbl hT sim x2 x3 b9 b10 a12 a13 a14 a15 a16 a17]
  try rfl
theorem V17_7 : kernelRunC.sl.v685 c i tbl hT sim b9 b10 a17 = (rowsOf c tbl i sim x2 x3 (accOf c a12 a13 a14 a15 a16 a17) 7).q := by
  unfold kernelRunC.sl.v685 kernelRunC.sl.H17_7
  rw [View.readCov_cons_toLoadRect]
  refine Eq.trans ?_ (rowsOf_q c tbl i sim x2 x3 (accOf c a12 a13 a14 a15 a16 a17) 6 (by decide)).symm
  unfold kernelRunC.sl.r_65 kernelRunC.sl.cst_284
  simp only [S_v529 c i tbl hT sim b9, V17_6 c i M2 hM2 M3 hM3 tbl hT sim x2 x3 b9 b10 a12 a13 a14 a15 a16 a17]
  try rfl
theorem V15_8 : kernelRunC.sl.v760 c i M2 hM2 M3 hM3 tbl hT sim x2 x3 b9 b10 a15 = (rowsOf c tbl i sim x2 x3 (accOf c a12 a13 a14 a15 a16 a17) 8).nf := by
  unfold kernelRunC.sl.v760 kernelRunC.sl.H15_8
  rw [View.readCov_cons_toLoadRect]
  refine Eq.trans ?_ (rowsOf_nf c tbl i sim x2 x3 (accOf c a12 a13 a14 a15 a16 a17) 7 (by decide)).symm
  unfold kernelRunC.sl.r_72
  simp only [S_v614 c i tbl hT sim b10, V15_7 c i M2 hM2 M3 hM3 tbl hT sim x2 x3 b9 b10 a12 a13 a14 a15 a16 a17, in_read M2 hM2 x2 7 (by decide), mk_read M3 hM3 x3 7 (by decide)]
  try rfl
theorem V16_8 : kernelRunC.sl.v765 c i tbl hT sim b9 b10 a16 = (rowsOf c tbl i sim x2 x3 (accOf c a12 a13 a14 a15 a16 a17) 8).s := by
  unfold kernelRunC.sl.v765 kernelRunC.sl.H16_8
  rw [View.readCov_cons_toLoadRect]
  refine Eq.trans ?_ (rowsOf_s c tbl i sim x2 x3 (accOf c a12 a13 a14 a15 a16 a17) 7 (by decide)).symm
  unfold kernelRunC.sl.r_70
  simp only [S_v614 c i tbl hT sim b10, V16_7 c i M2 hM2 M3 hM3 tbl hT sim x2 x3 b9 b10 a12 a13 a14 a15 a16 a17]
  try rfl
theorem V17_8 : kernelRunC.sl.v770 c i tbl hT sim b9 b10 a17 = (rowsOf c tbl i sim x2 x3 (accOf c a12 a13 a14 a15 a16 a17) 8).q := by
  unfold kernelRunC.sl.v770 kernelRunC.sl.H17_8
  rw [View.readCov_cons_toLoadRect]
  refine Eq.trans ?_ (rowsOf_q c tbl i sim x2 x3 (accOf c a12 a13 a14 a15 a16 a17) 7 (by decide)).symm
  unfold kernelRunC.sl.r_74 kernelRunC.sl.r_70
  simp only [S_v614 c i tbl hT sim b10, V17_7 c i M2 hM2 M3 hM3 tbl hT sim x2 x3 b9 b10 a12 a13 a14 a15 a16 a17]
  try rfl
theorem V15_9 : kernelRunC.sl.v845 c i M2 hM2 M3 hM3 tbl hT sim x2 x3 b9 b10 a15 = (rowsOf c tbl i sim x2 x3 (accOf c a12 a13 a14 a15 a16 a17) 9).nf := by
  unfold kernelRunC.sl.v845 kernelRunC.sl.H15_9
  rw [View.readCov_cons_toLoadRect]
  refine Eq.trans ?_ (rowsOf_nf c tbl i sim x2 x3 (accOf c a12 a13 a14 a15 a16 a17) 8 (by decide)).symm
  unfold kernelRunC.sl.r_80 kernelRunC.sl.r_77 kernelRunC.sl.r_78 kernelRunC.sl.r_79
  simp only [S_v699 c i tbl hT sim b9, V15_8 c i M2 hM2 M3 hM3 tbl hT sim x2 x3 b9 b10 a12 a13 a14 a15 a16 a17, in_read M2 hM2 x2 8 (by decide), mk_read M3 hM3 x3 8 (by decide)]
  try rfl
theorem V16_9 : kernelRunC.sl.v850 c i tbl hT sim b9 b10 a16 = (rowsOf c tbl i sim x2 x3 (accOf c a12 a13 a14 a15 a16 a17) 9).s := by
  unfold kernelRunC.sl.v850 kernelRunC.sl.H16_9
  rw [View.readCov_cons_toLoadRect]
  refine Eq.trans ?_ (rowsOf_s c tbl i sim x2 x3 (accOf c a12 a13 a14 a15 a16 a17) 8 (by decide)).symm
  unfold kernelRunC.sl.r_81 kernelRunC.sl.r_79
  simp only [S_v699 c i tbl hT sim b9, V16_8 c i M2 hM2 M3 hM3 tbl hT sim x2 x3 b9 b10 a12 a13 a14 a15 a16 a17]
  try rfl
theorem V17_9 : kernelRunC.sl.v855 c i tbl hT sim b9 b10 a17 = (rowsOf c tbl i sim x2 x3 (accOf c a12 a13 a14 a15 a16 a17) 9).q := by
  unfold kernelRunC.sl.v855 kernelRunC.sl.H17_9
  rw [View.readCov_cons_toLoadRect]
  refine Eq.trans ?_ (rowsOf_q c tbl i sim x2 x3 (accOf c a12 a13 a14 a15 a16 a17) 8 (by decide)).symm
  unfold kernelRunC.sl.r_82 kernelRunC.sl.r_79
  simp only [S_v699 c i tbl hT sim b9, V17_8 c i M2 hM2 M3 hM3 tbl hT sim x2 x3 b9 b10 a12 a13 a14 a15 a16 a17]
  try rfl
theorem V15_10 : kernelRunC.sl.v930 c i M2 hM2 M3 hM3 tbl hT sim x2 x3 b9 b10 a15 = (rowsOf c tbl i sim x2 x3 (accOf c a12 a13 a14 a15 a16 a17) 10).nf := by
  unfold kernelRunC.sl.v930 kernelRunC.sl.H15_10
  rw [View.readCov_cons_toLoadRect]
  refine Eq.trans ?_ (rowsOf_nf c tbl i sim x2 x3 (accOf c a12 a13 a14 a15 a16 a17) 9 (by decide)).symm
  unfold kernelRunC.sl.r_88 kernelRunC.sl.r_84 kernelRunC.sl.r_85
  simp only [S_v784 c i tbl hT sim b10, V15_9 c i M2 hM2 M3 hM3 tbl hT sim x2 x3 b9 b10 a12 a13 a14 a15 a16 a17, in_read M2 hM2 x2 9 (by decide), mk_read M3 hM3 x3 9 (by decide)]
  try rfl
theorem V16_10 : kernelRunC.sl.v935 c i tbl hT sim b9 b10 a16 = (rowsOf c tbl i sim x2 x3 (accOf c a12 a13 a14 a15 a16 a17) 10).s := by
  unfold kernelRunC.sl.v935 kernelRunC.sl.H16_10
  rw [View.readCov_cons_toLoadRect]
  refine Eq.trans ?_ (rowsOf_s c tbl i sim x2 x3 (accOf c a12 a13 a14 a15 a16 a17) 9 (by decide)).symm
  unfold kernelRunC.sl.r_90
  simp only [S_v784 c i tbl hT sim b10, V16_9 c i M2 hM2 M3 hM3 tbl hT sim x2 x3 b9 b10 a12 a13 a14 a15 a16 a17]
  try rfl
theorem V17_10 : kernelRunC.sl.v940 c i tbl hT sim b9 b10 a17 = (rowsOf c tbl i sim x2 x3 (accOf c a12 a13 a14 a15 a16 a17) 10).q := by
  unfold kernelRunC.sl.v940 kernelRunC.sl.H17_10
  rw [View.readCov_cons_toLoadRect]
  refine Eq.trans ?_ (rowsOf_q c tbl i sim x2 x3 (accOf c a12 a13 a14 a15 a16 a17) 9 (by decide)).symm
  unfold kernelRunC.sl.r_91
  simp only [S_v784 c i tbl hT sim b10, V17_9 c i M2 hM2 M3 hM3 tbl hT sim x2 x3 b9 b10 a12 a13 a14 a15 a16 a17]
  try rfl
theorem V15_11 : kernelRunC.sl.v1015 c i M2 hM2 M3 hM3 tbl hT sim x2 x3 b9 b10 a15 = (rowsOf c tbl i sim x2 x3 (accOf c a12 a13 a14 a15 a16 a17) 11).nf := by
  unfold kernelRunC.sl.v1015 kernelRunC.sl.H15_11
  rw [View.readCov_cons_toLoadRect]
  refine Eq.trans ?_ (rowsOf_nf c tbl i sim x2 x3 (accOf c a12 a13 a14 a15 a16 a17) 10 (by decide)).symm
  unfold kernelRunC.sl.r_97
  simp only [S_v869 c i tbl hT sim b9, V15_10 c i M2 hM2 M3 hM3 tbl hT sim x2 x3 b9 b10 a12 a13 a14 a15 a16 a17, in_read M2 hM2 x2 10 (by decide), mk_read M3 hM3 x3 10 (by decide)]
  try rfl
theorem V16_11 : kernelRunC.sl.v1020 c i tbl hT sim b9 b10 a16 = (rowsOf c tbl i sim x2 x3 (accOf c a12 a13 a14 a15 a16 a17) 11).s := by
  unfold kernelRunC.sl.v1020 kernelRunC.sl.H16_11
  rw [View.readCov_cons_toLoadRect]
  refine Eq.trans ?_ (rowsOf_s c tbl i sim x2 x3 (accOf c a12 a13 a14 a15 a16 a17) 10 (by decide)).symm
  unfold kernelRunC.sl.r_100 kernelRunC.sl.r_95
  simp only [S_v869 c i tbl hT sim b9, V16_10 c i M2 hM2 M3 hM3 tbl hT sim x2 x3 b9 b10 a12 a13 a14 a15 a16 a17]
  try rfl
theorem V17_11 : kernelRunC.sl.v1025 c i tbl hT sim b9 b10 a17 = (rowsOf c tbl i sim x2 x3 (accOf c a12 a13 a14 a15 a16 a17) 11).q := by
  unfold kernelRunC.sl.v1025 kernelRunC.sl.H17_11
  rw [View.readCov_cons_toLoadRect]
  refine Eq.trans ?_ (rowsOf_q c tbl i sim x2 x3 (accOf c a12 a13 a14 a15 a16 a17) 10 (by decide)).symm
  unfold kernelRunC.sl.r_99 kernelRunC.sl.r_95
  simp only [S_v869 c i tbl hT sim b9, V17_10 c i M2 hM2 M3 hM3 tbl hT sim x2 x3 b9 b10 a12 a13 a14 a15 a16 a17]
  try rfl
theorem V15_12 : kernelRunC.sl.v1100 c i M2 hM2 M3 hM3 tbl hT sim x2 x3 b9 b10 a15 = (rowsOf c tbl i sim x2 x3 (accOf c a12 a13 a14 a15 a16 a17) 12).nf := by
  unfold kernelRunC.sl.v1100 kernelRunC.sl.H15_12
  rw [View.readCov_cons_toLoadRect]
  refine Eq.trans ?_ (rowsOf_nf c tbl i sim x2 x3 (accOf c a12 a13 a14 a15 a16 a17) 11 (by decide)).symm
  unfold kernelRunC.sl.r_107 kernelRunC.sl.r_103 kernelRunC.sl.r_104 kernelRunC.sl.r_105 kernelRunC.sl.r_106
  simp only [V15_11 c i M2 hM2 M3 hM3 tbl hT sim x2 x3 b9 b10 a12 a13 a14 a15 a16 a17, S_v954 c i tbl hT sim b10, in_read M2 hM2 x2 11 (by decide), mk_read M3 hM3 x3 11 (by decide)]
  try rfl
theorem V16_12 : kernelRunC.sl.v1105 c i tbl hT sim b9 b10 a16 = (rowsOf c tbl i sim x2 x3 (accOf c a12 a13 a14 a15 a16 a17) 12).s := by
  unfold kernelRunC.sl.v1105 kernelRunC.sl.H16_12
  rw [View.readCov_cons_toLoadRect]
  refine Eq.trans ?_ (rowsOf_s c tbl i sim x2 x3 (accOf c a12 a13 a14 a15 a16 a17) 11 (by decide)).symm
  unfold kernelRunC.sl.r_108 kernelRunC.sl.r_105 kernelRunC.sl.r_106
  simp only [V16_11 c i M2 hM2 M3 hM3 tbl hT sim x2 x3 b9 b10 a12 a13 a14 a15 a16 a17, S_v954 c i tbl hT sim b10]
  try rfl
theorem V17_12 : kernelRunC.sl.v1110 c i tbl hT sim b9 b10 a17 = (rowsOf c tbl i sim x2 x3 (accOf c a12 a13 a14 a15 a16 a17) 12).q := by
  unfold kernelRunC.sl.v1110 kernelRunC.sl.H17_12
  rw [View.readCov_cons_toLoadRect]
  refine Eq.trans ?_ (rowsOf_q c tbl i sim x2 x3 (accOf c a12 a13 a14 a15 a16 a17) 11 (by decide)).symm
  unfold kernelRunC.sl.r_109 kernelRunC.sl.r_105 kernelRunC.sl.r_106
  simp only [V17_11 c i M2 hM2 M3 hM3 tbl hT sim x2 x3 b9 b10 a12 a13 a14 a15 a16 a17, S_v954 c i tbl hT sim b10]
  try rfl
theorem V15_13 : kernelRunC.sl.v1185 c i M2 hM2 M3 hM3 tbl hT sim x2 x3 b9 b10 a15 = (rowsOf c tbl i sim x2 x3 (accOf c a12 a13 a14 a15 a16 a17) 13).nf := by
  unfold kernelRunC.sl.v1185 kernelRunC.sl.H15_13
  rw [View.readCov_cons_toLoadRect]
  refine Eq.trans ?_ (rowsOf_nf c tbl i sim x2 x3 (accOf c a12 a13 a14 a15 a16 a17) 12 (by decide)).symm
  unfold kernelRunC.sl.r_117 kernelRunC.sl.r_112 kernelRunC.sl.r_113
  simp only [S_v1039 c i tbl hT sim b9, V15_12 c i M2 hM2 M3 hM3 tbl hT sim x2 x3 b9 b10 a12 a13 a14 a15 a16 a17, in_read M2 hM2 x2 12 (by decide), mk_read M3 hM3 x3 12 (by decide)]
  try rfl
theorem V16_13 : kernelRunC.sl.v1190 c i tbl hT sim b9 b10 a16 = (rowsOf c tbl i sim x2 x3 (accOf c a12 a13 a14 a15 a16 a17) 13).s := by
  unfold kernelRunC.sl.v1190 kernelRunC.sl.H16_13
  rw [View.readCov_cons_toLoadRect]
  refine Eq.trans ?_ (rowsOf_s c tbl i sim x2 x3 (accOf c a12 a13 a14 a15 a16 a17) 12 (by decide)).symm
  unfold kernelRunC.sl.r_119
  simp only [S_v1039 c i tbl hT sim b9, V16_12 c i M2 hM2 M3 hM3 tbl hT sim x2 x3 b9 b10 a12 a13 a14 a15 a16 a17]
  try rfl
theorem V17_13 : kernelRunC.sl.v1195 c i tbl hT sim b9 b10 a17 = (rowsOf c tbl i sim x2 x3 (accOf c a12 a13 a14 a15 a16 a17) 13).q := by
  unfold kernelRunC.sl.v1195 kernelRunC.sl.H17_13
  rw [View.readCov_cons_toLoadRect]
  refine Eq.trans ?_ (rowsOf_q c tbl i sim x2 x3 (accOf c a12 a13 a14 a15 a16 a17) 12 (by decide)).symm
  unfold kernelRunC.sl.r_120
  simp only [S_v1039 c i tbl hT sim b9, V17_12 c i M2 hM2 M3 hM3 tbl hT sim x2 x3 b9 b10 a12 a13 a14 a15 a16 a17]
  try rfl
theorem V15_14 : kernelRunC.sl.v1270 c i M2 hM2 M3 hM3 tbl hT sim x2 x3 b9 b10 a15 = (rowsOf c tbl i sim x2 x3 (accOf c a12 a13 a14 a15 a16 a17) 14).nf := by
  unfold kernelRunC.sl.v1270 kernelRunC.sl.H15_14
  rw [View.readCov_cons_toLoadRect]
  refine Eq.trans ?_ (rowsOf_nf c tbl i sim x2 x3 (accOf c a12 a13 a14 a15 a16 a17) 13 (by decide)).symm
  unfold kernelRunC.sl.r_128
  simp only [S_v1124 c i tbl hT sim b10, V15_13 c i M2 hM2 M3 hM3 tbl hT sim x2 x3 b9 b10 a12 a13 a14 a15 a16 a17, in_read M2 hM2 x2 13 (by decide), mk_read M3 hM3 x3 13 (by decide)]
  try rfl
theorem V16_14 : kernelRunC.sl.v1275 c i tbl hT sim b9 b10 a16 = (rowsOf c tbl i sim x2 x3 (accOf c a12 a13 a14 a15 a16 a17) 14).s := by
  unfold kernelRunC.sl.v1275 kernelRunC.sl.H16_14
  rw [View.readCov_cons_toLoadRect]
  refine Eq.trans ?_ (rowsOf_s c tbl i sim x2 x3 (accOf c a12 a13 a14 a15 a16 a17) 13 (by decide)).symm
  unfold kernelRunC.sl.r_131 kernelRunC.sl.r_126
  simp only [S_v1124 c i tbl hT sim b10, V16_13 c i M2 hM2 M3 hM3 tbl hT sim x2 x3 b9 b10 a12 a13 a14 a15 a16 a17]
  try rfl
theorem V17_14 : kernelRunC.sl.v1280 c i tbl hT sim b9 b10 a17 = (rowsOf c tbl i sim x2 x3 (accOf c a12 a13 a14 a15 a16 a17) 14).q := by
  unfold kernelRunC.sl.v1280 kernelRunC.sl.H17_14
  rw [View.readCov_cons_toLoadRect]
  refine Eq.trans ?_ (rowsOf_q c tbl i sim x2 x3 (accOf c a12 a13 a14 a15 a16 a17) 13 (by decide)).symm
  unfold kernelRunC.sl.r_130 kernelRunC.sl.r_126
  simp only [S_v1124 c i tbl hT sim b10, V17_13 c i M2 hM2 M3 hM3 tbl hT sim x2 x3 b9 b10 a12 a13 a14 a15 a16 a17]
  try rfl
theorem V15_15 : kernelRunC.sl.v1355 c i M2 hM2 M3 hM3 tbl hT sim x2 x3 b9 b10 a15 = (rowsOf c tbl i sim x2 x3 (accOf c a12 a13 a14 a15 a16 a17) 15).nf := by
  unfold kernelRunC.sl.v1355 kernelRunC.sl.H15_15
  rw [View.readCov_cons_toLoadRect]
  refine Eq.trans ?_ (rowsOf_nf c tbl i sim x2 x3 (accOf c a12 a13 a14 a15 a16 a17) 14 (by decide)).symm
  unfold kernelRunC.sl.r_138 kernelRunC.sl.r_134 kernelRunC.sl.r_135 kernelRunC.sl.r_136 kernelRunC.sl.r_137
  simp only [S_v1209 c i tbl hT sim b9, V15_14 c i M2 hM2 M3 hM3 tbl hT sim x2 x3 b9 b10 a12 a13 a14 a15 a16 a17, in_read M2 hM2 x2 14 (by decide), mk_read M3 hM3 x3 14 (by decide)]
  try rfl
theorem V16_15 : kernelRunC.sl.v1360 c i tbl hT sim b9 b10 a16 = (rowsOf c tbl i sim x2 x3 (accOf c a12 a13 a14 a15 a16 a17) 15).s := by
  unfold kernelRunC.sl.v1360 kernelRunC.sl.H16_15
  rw [View.readCov_cons_toLoadRect]
  refine Eq.trans ?_ (rowsOf_s c tbl i sim x2 x3 (accOf c a12 a13 a14 a15 a16 a17) 14 (by decide)).symm
  unfold kernelRunC.sl.r_139 kernelRunC.sl.r_136 kernelRunC.sl.r_137
  simp only [S_v1209 c i tbl hT sim b9, V16_14 c i M2 hM2 M3 hM3 tbl hT sim x2 x3 b9 b10 a12 a13 a14 a15 a16 a17]
  try rfl
theorem V17_15 : kernelRunC.sl.v1365 c i tbl hT sim b9 b10 a17 = (rowsOf c tbl i sim x2 x3 (accOf c a12 a13 a14 a15 a16 a17) 15).q := by
  unfold kernelRunC.sl.v1365 kernelRunC.sl.H17_15
  rw [View.readCov_cons_toLoadRect]
  refine Eq.trans ?_ (rowsOf_q c tbl i sim x2 x3 (accOf c a12 a13 a14 a15 a16 a17) 14 (by decide)).symm
  unfold kernelRunC.sl.r_140 kernelRunC.sl.r_136 kernelRunC.sl.r_137
  simp only [S_v1209 c i tbl hT sim b9, V17_14 c i M2 hM2 M3 hM3 tbl hT sim x2 x3 b9 b10 a12 a13 a14 a15 a16 a17]
  try rfl
theorem V15_16 : kernelRunC.sl.v1440 c i M2 hM2 M3 hM3 tbl hT sim x2 x3 b9 b10 a15 = (rowsOf c tbl i sim x2 x3 (accOf c a12 a13 a14 a15 a16 a17) 16).nf := by
  unfold kernelRunC.sl.v1440 kernelRunC.sl.H15_16
  rw [View.readCov_cons_toLoadRect]
  refine Eq.trans ?_ (rowsOf_nf c tbl i sim x2 x3 (accOf c a12 a13 a14 a15 a16 a17) 15 (by decide)).symm
  unfold kernelRunC.sl.r_147 kernelRunC.sl.r_143
  simp only [S_v1294 c i tbl hT sim b10, V15_15 c i M2 hM2 M3 hM3 tbl hT sim x2 x3 b9 b10 a12 a13 a14 a15 a16 a17, in_read M2 hM2 x2 15 (by decide), mk_read M3 hM3 x3 15 (by decide)]
  try rfl
theorem V16_16 : kernelRunC.sl.v1445 c i tbl hT sim b9 b10 a16 = (rowsOf c tbl i sim x2 x3 (accOf c a12 a13 a14 a15 a16 a17) 16).s := by
  unfold kernelRunC.sl.v1445 kernelRunC.sl.H16_16
  rw [View.readCov_cons_toLoadRect]
  refine Eq.trans ?_ (rowsOf_s c tbl i sim x2 x3 (accOf c a12 a13 a14 a15 a16 a17) 15 (by decide)).symm
  unfold kernelRunC.sl.r_149
  simp only [S_v1294 c i tbl hT sim b10, V16_15 c i M2 hM2 M3 hM3 tbl hT sim x2 x3 b9 b10 a12 a13 a14 a15 a16 a17]
  try rfl
theorem V17_16 : kernelRunC.sl.v1450 c i tbl hT sim b9 b10 a17 = (rowsOf c tbl i sim x2 x3 (accOf c a12 a13 a14 a15 a16 a17) 16).q := by
  unfold kernelRunC.sl.v1450 kernelRunC.sl.H17_16
  rw [View.readCov_cons_toLoadRect]
  refine Eq.trans ?_ (rowsOf_q c tbl i sim x2 x3 (accOf c a12 a13 a14 a15 a16 a17) 15 (by decide)).symm
  unfold kernelRunC.sl.r_150
  simp only [S_v1294 c i tbl hT sim b10, V17_15 c i M2 hM2 M3 hM3 tbl hT sim x2 x3 b9 b10 a12 a13 a14 a15 a16 a17]
  try rfl
theorem V15_17 : kernelRunC.sl.v1525 c i M2 hM2 M3 hM3 tbl hT sim x2 x3 b9 b10 a15 = (rowsOf c tbl i sim x2 x3 (accOf c a12 a13 a14 a15 a16 a17) 17).nf := by
  unfold kernelRunC.sl.v1525 kernelRunC.sl.H15_17
  rw [View.readCov_cons_toLoadRect]
  refine Eq.trans ?_ (rowsOf_nf c tbl i sim x2 x3 (accOf c a12 a13 a14 a15 a16 a17) 16 (by decide)).symm
  unfold kernelRunC.sl.r_158
  simp only [S_v1379 c i tbl hT sim b9, V15_16 c i M2 hM2 M3 hM3 tbl hT sim x2 x3 b9 b10 a12 a13 a14 a15 a16 a17, in_read M2 hM2 x2 16 (by decide), mk_read M3 hM3 x3 16 (by decide)]
  try rfl
theorem V16_17 : kernelRunC.sl.v1530 c i tbl hT sim b9 b10 a16 = (rowsOf c tbl i sim x2 x3 (accOf c a12 a13 a14 a15 a16 a17) 17).s := by
  unfold kernelRunC.sl.v1530 kernelRunC.sl.H16_17
  rw [View.readCov_cons_toLoadRect]
  refine Eq.trans ?_ (rowsOf_s c tbl i sim x2 x3 (accOf c a12 a13 a14 a15 a16 a17) 16 (by decide)).symm
  unfold kernelRunC.sl.r_159 kernelRunC.sl.r_156
  simp only [S_v1379 c i tbl hT sim b9, V16_16 c i M2 hM2 M3 hM3 tbl hT sim x2 x3 b9 b10 a12 a13 a14 a15 a16 a17]
  try rfl
theorem V17_17 : kernelRunC.sl.v1535 c i tbl hT sim b9 b10 a17 = (rowsOf c tbl i sim x2 x3 (accOf c a12 a13 a14 a15 a16 a17) 17).q := by
  unfold kernelRunC.sl.v1535 kernelRunC.sl.H17_17
  rw [View.readCov_cons_toLoadRect]
  refine Eq.trans ?_ (rowsOf_q c tbl i sim x2 x3 (accOf c a12 a13 a14 a15 a16 a17) 16 (by decide)).symm
  unfold kernelRunC.sl.r_160 kernelRunC.sl.r_156
  simp only [S_v1379 c i tbl hT sim b9, V17_16 c i M2 hM2 M3 hM3 tbl hT sim x2 x3 b9 b10 a12 a13 a14 a15 a16 a17]
  try rfl
theorem V15_18 : kernelRunC.sl.v1610 c i M2 hM2 M3 hM3 tbl hT sim x2 x3 b9 b10 a15 = (rowsOf c tbl i sim x2 x3 (accOf c a12 a13 a14 a15 a16 a17) 18).nf := by
  unfold kernelRunC.sl.v1610 kernelRunC.sl.H15_18
  rw [View.readCov_cons_toLoadRect]
  refine Eq.trans ?_ (rowsOf_nf c tbl i sim x2 x3 (accOf c a12 a13 a14 a15 a16 a17) 17 (by decide)).symm
  unfold kernelRunC.sl.r_168 kernelRunC.sl.r_163 kernelRunC.sl.r_164 kernelRunC.sl.r_165 kernelRunC.sl.r_166 kernelRunC.sl.cst_781
  simp only [S_v1464 c i tbl hT sim b10, V15_17 c i M2 hM2 M3 hM3 tbl hT sim x2 x3 b9 b10 a12 a13 a14 a15 a16 a17, in_read M2 hM2 x2 17 (by decide), mk_read M3 hM3 x3 17 (by decide)]
  try rfl
theorem V16_18 : kernelRunC.sl.v1615 c i tbl hT sim b9 b10 a16 = (rowsOf c tbl i sim x2 x3 (accOf c a12 a13 a14 a15 a16 a17) 18).s := by
  unfold kernelRunC.sl.v1615 kernelRunC.sl.H16_18
  rw [View.readCov_cons_toLoadRect]
  refine Eq.trans ?_ (rowsOf_s c tbl i sim x2 x3 (accOf c a12 a13 a14 a15 a16 a17) 17 (by decide)).symm
  unfold kernelRunC.sl.r_169 kernelRunC.sl.r_165 kernelRunC.sl.r_166 kernelRunC.sl.cst_781
  simp only [S_v1464 c i tbl hT sim b10, V16_17 c i M2 hM2 M3 hM3 tbl hT sim x2 x3 b9 b10 a12 a13 a14 a15 a16 a17]
  try rfl
theorem V17_18 : kernelRunC.sl.v1620 c i tbl hT sim b9 b10 a17 = (rowsOf c tbl i sim x2 x3 (accOf c a12 a13 a14 a15 a16 a17) 18).q := by
  unfold kernelRunC.sl.v1620 kernelRunC.sl.H17_18
  rw [View.readCov_cons_toLoadRect]
  refine Eq.trans ?_ (rowsOf_q c tbl i sim x2 x3 (accOf c a12 a13 a14 a15 a16 a17) 17 (by decide)).symm
  unfold kernelRunC.sl.r_170 kernelRunC.sl.r_165 kernelRunC.sl.r_166 kernelRunC.sl.cst_781
  simp only [S_v1464 c i tbl hT sim b10, V17_17 c i M2 hM2 M3 hM3 tbl hT sim x2 x3 b9 b10 a12 a13 a14 a15 a16 a17]
  try rfl
theorem V15_19 : kernelRunC.sl.v1695 c i M2 hM2 M3 hM3 tbl hT sim x2 x3 b9 b10 a15 = (rowsOf c tbl i sim x2 x3 (accOf c a12 a13 a14 a15 a16 a17) 19).nf := by
  unfold kernelRunC.sl.v1695 kernelRunC.sl.H15_19
  rw [View.readCov_cons_toLoadRect]
  refine Eq.trans ?_ (rowsOf_nf c tbl i sim x2 x3 (accOf c a12 a13 a14 a15 a16 a17) 18 (by decide)).symm
  unfold kernelRunC.sl.r_175
  simp only [S_v c i tbl hT sim b9, V15_18 c i M2 hM2 M3 hM3 tbl hT sim x2 x3 b9 b10 a12 a13 a14 a15 a16 a17, in_read M2 hM2 x2 18 (by decide), mk_read M3 hM3 x3 18 (by decide)]
  try rfl
theorem V16_19 : kernelRunC.sl.v1700 c i tbl hT sim b9 b10 a16 = (rowsOf c tbl i sim x2 x3 (accOf c a12 a13 a14 a15 a16 a17) 19).s := by
  unfold kernelRunC.sl.v1700 kernelRunC.sl.H16_19
  rw [View.readCov_cons_toLoadRect]
  refine Eq.trans ?_ (rowsOf_s c tbl i sim x2 x3 (accOf c a12 a13 a14 a15 a16 a17) 18 (by decide)).symm
  unfold kernelRunC.sl.r_177
  simp only [S_v c i tbl hT sim b9, V16_18 c i M2 hM2 M3 hM3 tbl hT sim x2 x3 b9 b10 a12 a13 a14 a15 a16 a17]
  try rfl
theorem V17_19 : kernelRunC.sl.v1705 c i tbl hT sim b9 b10 a17 = (rowsOf c tbl i sim x2 x3 (accOf c a12 a13 a14 a15 a16 a17) 19).q := by
  unfold kernelRunC.sl.v1705 kernelRunC.sl.H17_19
  rw [View.readCov_cons_toLoadRect]
  refine Eq.trans ?_ (rowsOf_q c tbl i sim x2 x3 (accOf c a12 a13 a14 a15 a16 a17) 18 (by decide)).symm
  unfold kernelRunC.sl.r_178
  simp only [S_v c i tbl hT sim b9, V17_18 c i M2 hM2 M3 hM3 tbl hT sim x2 x3 b9 b10 a12 a13 a14 a15 a16 a17]
  try rfl
theorem V15_20 : kernelRunC.sl.v1780 c i M2 hM2 M3 hM3 tbl hT sim x2 x3 b9 b10 a15 = (rowsOf c tbl i sim x2 x3 (accOf c a12 a13 a14 a15 a16 a17) 20).nf := by
  unfold kernelRunC.sl.v1780 kernelRunC.sl.H15_20
  rw [View.readCov_cons_toLoadRect]
  refine Eq.trans ?_ (rowsOf_nf c tbl i sim x2 x3 (accOf c a12 a13 a14 a15 a16 a17) 19 (by decide)).symm
  unfold kernelRunC.sl.r_185
  simp only [S_v1634 c i tbl hT sim b10, V15_19 c i M2 hM2 M3 hM3 tbl hT sim x2 x3 b9 b10 a12 a13 a14 a15 a16 a17, in_read M2 hM2 x2 19 (by decide), mk_read M3 hM3 x3 19 (by decide)]
  try rfl
theorem V16_20 : kernelRunC.sl.v1785 c i tbl hT sim b9 b10 a16 = (rowsOf c tbl i sim x2 x3 (accOf c a12 a13 a14 a15 a16 a17) 20).s := by
  unfold kernelRunC.sl.v1785 kernelRunC.sl.H16_20
  rw [View.readCov_cons_toLoadRect]
  refine Eq.trans ?_ (rowsOf_s c tbl i sim x2 x3 (accOf c a12 a13 a14 a15 a16 a17) 19 (by decide)).symm
  unfold kernelRunC.sl.r_186 kernelRunC.sl.r_183
  simp only [S_v1634 c i tbl hT sim b10, V16_19 c i M2 hM2 M3 hM3 tbl hT sim x2 x3 b9 b10 a12 a13 a14 a15 a16 a17]
  try rfl
theorem V17_20 : kernelRunC.sl.v1790 c i tbl hT sim b9 b10 a17 = (rowsOf c tbl i sim x2 x3 (accOf c a12 a13 a14 a15 a16 a17) 20).q := by
  unfold kernelRunC.sl.v1790 kernelRunC.sl.H17_20
  rw [View.readCov_cons_toLoadRect]
  refine Eq.trans ?_ (rowsOf_q c tbl i sim x2 x3 (accOf c a12 a13 a14 a15 a16 a17) 19 (by decide)).symm
  unfold kernelRunC.sl.r_187 kernelRunC.sl.r_183
  simp only [S_v1634 c i tbl hT sim b10, V17_19 c i M2 hM2 M3 hM3 tbl hT sim x2 x3 b9 b10 a12 a13 a14 a15 a16 a17]
  try rfl
theorem V15_21 : kernelRunC.sl.v1865 c i M2 hM2 M3 hM3 tbl hT sim x2 x3 b9 b10 a15 = (rowsOf c tbl i sim x2 x3 (accOf c a12 a13 a14 a15 a16 a17) 21).nf := by
  unfold kernelRunC.sl.v1865 kernelRunC.sl.H15_21
  rw [View.readCov_cons_toLoadRect]
  refine Eq.trans ?_ (rowsOf_nf c tbl i sim x2 x3 (accOf c a12 a13 a14 a15 a16 a17) 20 (by decide)).symm
  unfold kernelRunC.sl.r_194 kernelRunC.sl.r_190 kernelRunC.sl.r_191 kernelRunC.sl.r_192 kernelRunC.sl.cst_15
  simp only [S_v1719 c i tbl hT sim b9, V15_20 c i M2 hM2 M3 hM3 tbl hT sim x2 x3 b9 b10 a12 a13 a14 a15 a16 a17, in_read M2 hM2 x2 20 (by decide), mk_read M3 hM3 x3 20 (by decide)]
  try rfl
theorem V16_21 : kernelRunC.sl.v1870 c i tbl hT sim b9 b10 a16 = (rowsOf c tbl i sim x2 x3 (accOf c a12 a13 a14 a15 a16 a17) 21).s := by
  unfold kernelRunC.sl.v1870 kernelRunC.sl.H16_21
  rw [View.readCov_cons_toLoadRect]
  refine Eq.trans ?_ (rowsOf_s c tbl i sim x2 x3 (accOf c a12 a13 a14 a15 a16 a17) 20 (by decide)).symm
  unfold kernelRunC.sl.r_195 kernelRunC.sl.r_192 kernelRunC.sl.cst_15
  simp only [S_v1719 c i tbl hT sim b9, V16_20 c i M2 hM2 M3 hM3 tbl hT sim x2 x3 b9 b10 a12 a13 a14 a15 a16 a17]
  try rfl
theorem V17_21 : kernelRunC.sl.v1875 c i tbl hT sim b9 b10 a17 = (rowsOf c tbl i sim x2 x3 (accOf c a12 a13 a14 a15 a16 a17) 21).q := by
  unfold kernelRunC.sl.v1875 kernelRunC.sl.H17_21
  rw [View.readCov_cons_toLoadRect]
  refine Eq.trans ?_ (rowsOf_q c tbl i sim x2 x3 (accOf c a12 a13 a14 a15 a16 a17) 20 (by decide)).symm
  unfold kernelRunC.sl.r_196 kernelRunC.sl.r_192 kernelRunC.sl.cst_15
  simp only [S_v1719 c i tbl hT sim b9, V17_20 c i M2 hM2 M3 hM3 tbl hT sim x2 x3 b9 b10 a12 a13 a14 a15 a16 a17]
  try rfl
theorem V15_22 : kernelRunC.sl.v1950 c i M2 hM2 M3 hM3 tbl hT sim x2 x3 b9 b10 a15 = (rowsOf c tbl i sim x2 x3 (accOf c a12 a13 a14 a15 a16 a17) 22).nf := by
  unfold kernelRunC.sl.v1950 kernelRunC.sl.H15_22
  rw [View.readCov_cons_toLoadRect]
  refine Eq.trans ?_ (rowsOf_nf c tbl i sim x2 x3 (accOf c a12 a13 a14 a15 a16 a17) 21 (by decide)).symm
  unfold kernelRunC.sl.r_202
  simp only [S_v1804 c i tbl hT sim b10, V15_21 c i M2 hM2 M3 hM3 tbl hT sim x2 x3 b9 b10 a12 a13 a14 a15 a16 a17, in_read M2 hM2 x2 21 (by decide), mk_read M3 hM3 x3 21 (by decide)]
  try rfl
theorem V16_22 : kernelRunC.sl.v1955 c i tbl hT sim b9 b10 a16 = (rowsOf c tbl i sim x2 x3 (accOf c a12 a13 a14 a15 a16 a17) 22).s := by
  unfold kernelRunC.sl.v1955 kernelRunC.sl.H16_22
  rw [View.readCov_cons_toLoadRect]
  refine Eq.trans ?_ (rowsOf_s c tbl i sim x2 x3 (accOf c a12 a13 a14 a15 a16 a17) 21 (by decide)).symm
  unfold kernelRunC.sl.r_204
  simp only [S_v1804 c i tbl hT sim b10, V16_21 c i M2 hM2 M3 hM3 tbl hT sim x2 x3 b9 b10 a12 a13 a14 a15 a16 a17]
  try rfl
theorem V17_22 : kernelRunC.sl.v1960 c i tbl hT sim b9 b10 a17 = (rowsOf c tbl i sim x2 x3 (accOf c a12 a13 a14 a15 a16 a17) 22).q := by
  unfold kernelRunC.sl.v1960 kernelRunC.sl.H17_22
  rw [View.readCov_cons_toLoadRect]
  refine Eq.trans ?_ (rowsOf_q c tbl i sim x2 x3 (accOf c a12 a13 a14 a15 a16 a17) 21 (by decide)).symm
  unfold kernelRunC.sl.r_206 kernelRunC.sl.r_205
  simp only [S_v1804 c i tbl hT sim b10, V17_21 c i M2 hM2 M3 hM3 tbl hT sim x2 x3 b9 b10 a12 a13 a14 a15 a16 a17]
  try rfl
theorem V15_23 : kernelRunC.sl.v2035 c i M2 hM2 M3 hM3 tbl hT sim x2 x3 b9 b10 a15 = (rowsOf c tbl i sim x2 x3 (accOf c a12 a13 a14 a15 a16 a17) 23).nf := by
  unfold kernelRunC.sl.v2035 kernelRunC.sl.H15_23
  rw [View.readCov_cons_toLoadRect]
  refine Eq.trans ?_ (rowsOf_nf c tbl i sim x2 x3 (accOf c a12 a13 a14 a15 a16 a17) 22 (by decide)).symm
  unfold kernelRunC.sl.r_216 kernelRunC.sl.r_209 kernelRunC.sl.r_212 kernelRunC.sl.cst_109
  simp only [S_v1889 c i tbl hT sim b9, V15_22 c i M2 hM2 M3 hM3 tbl hT sim x2 x3 b9 b10 a12 a13 a14 a15 a16 a17, in_read M2 hM2 x2 22 (by decide), mk_read M3 hM3 x3 22 (by decide)]
  try rfl
theorem V16_23 : kernelRunC.sl.v2040 c i tbl hT sim b9 b10 a16 = (rowsOf c tbl i sim x2 x3 (accOf c a12 a13 a14 a15 a16 a17) 23).s := by
  unfold kernelRunC.sl.v2040 kernelRunC.sl.H16_23
  rw [View.readCov_cons_toLoadRect]
  refine Eq.trans ?_ (rowsOf_s c tbl i sim x2 x3 (accOf c a12 a13 a14 a15 a16 a17) 22 (by decide)).symm
  unfold kernelRunC.sl.r_214 kernelRunC.sl.r_211
  simp only [S_v1889 c i tbl hT sim b9, V16_22 c i M2 hM2 M3 hM3 tbl hT sim x2 x3 b9 b10 a12 a13 a14 a15 a16 a17]
  try rfl
theorem V17_23 : kernelRunC.sl.v2045 c i tbl hT sim b9 b10 a17 = (rowsOf c tbl i sim x2 x3 (accOf c a12 a13 a14 a15 a16 a17) 23).q := by
  unfold kernelRunC.sl.v2045 kernelRunC.sl.H17_23
  rw [View.readCov_cons_toLoadRect]
  refine Eq.trans ?_ (rowsOf_q c tbl i sim x2 x3 (accOf c a12 a13 a14 a15 a16 a17) 22 (by decide)).symm
  unfold kernelRunC.sl.r_215 kernelRunC.sl.r_211
  simp only [S_v1889 c i tbl hT sim b9, V17_22 c i M2 hM2 M3 hM3 tbl hT sim x2 x3 b9 b10 a12 a13 a14 a15 a16 a17]
  try rfl
theorem V15_24 : kernelRunC.sl.v2120 c i M2 hM2 M3 hM3 tbl hT sim x2 x3 b9 b10 a15 = (rowsOf c tbl i sim x2 x3 (accOf c a12 a13 a14 a15 a16 a17) 24).nf := by
  unfold kernelRunC.sl.v2120 kernelRunC.sl.H15_24
  rw [View.readCov_cons_toLoadRect]
  refine Eq.trans ?_ (rowsOf_nf c tbl i sim x2 x3 (accOf c a12 a13 a14 a15 a16 a17) 23 (by decide)).symm
  unfold kernelRunC.sl.r_223 kernelRunC.sl.r_219 kernelRunC.sl.r_220 kernelRunC.sl.r_221
  simp only [S_v1974 c i tbl hT sim b10, V15_23 c i M2 hM2 M3 hM3 tbl hT sim x2 x3 b9 b10 a12 a13 a14 a15 a16 a17, in_read M2 hM2 x2 23 (by decide), mk_read M3 hM3 x3 23 (by decide)]
  try rfl
theorem V16_24 : kernelRunC.sl.v2125 c i tbl hT sim b9 b10 a16 = (rowsOf c tbl i sim x2 x3 (accOf c a12 a13 a14 a15 a16 a17) 24).s := by
  unfold kernelRunC.sl.v2125 kernelRunC.sl.H16_24
  rw [View.readCov_cons_toLoadRect]
  refine Eq.trans ?_ (rowsOf_s c tbl i sim x2 x3 (accOf c a12 a13 a14 a15 a16 a17) 23 (by decide)).symm
  unfold kernelRunC.sl.r_224 kernelRunC.sl.r_221
  simp only [S_v1974 c i tbl hT sim b10, V16_23 c i M2 hM2 M3 hM3 tbl hT sim x2 x3 b9 b10 a12 a13 a14 a15 a16 a17]
  try rfl
theorem V17_24 : kernelRunC.sl.v2130 c i tbl hT sim b9 b10 a17 = (rowsOf c tbl i sim x2 x3 (accOf c a12 a13 a14 a15 a16 a17) 24).q := by
  unfold kernelRunC.sl.v2130 kernelRunC.sl.H17_24
  rw [View.readCov_cons_toLoadRect]
  refine Eq.trans ?_ (rowsOf_q c tbl i sim x2 x3 (accOf c a12 a13 a14 a15 a16 a17) 23 (by decide)).symm
  unfold kernelRunC.sl.r_225 kernelRunC.sl.r_221
  simp only [S_v1974 c i tbl hT sim b10, V17_23 c i M2 hM2 M3 hM3 tbl hT sim x2 x3 b9 b10 a12 a13 a14 a15 a16 a17]
  try rfl
theorem V15_25 : kernelRunC.sl.v2205 c i M2 hM2 M3 hM3 tbl hT sim x2 x3 b9 b10 a15 = (rowsOf c tbl i sim x2 x3 (accOf c a12 a13 a14 a15 a16 a17) 25).nf := by
  unfold kernelRunC.sl.v2205 kernelRunC.sl.H15_25
  rw [View.readCov_cons_toLoadRect]
  refine Eq.trans ?_ (rowsOf_nf c tbl i sim x2 x3 (accOf c a12 a13 a14 a15 a16 a17) 24 (by decide)).symm
  unfold kernelRunC.sl.r_232
  simp only [S_v2059 c i tbl hT sim b9, V15_24 c i M2 hM2 M3 hM3 tbl hT sim x2 x3 b9 b10 a12 a13 a14 a15 a16 a17, in_read M2 hM2 x2 24 (by decide), mk_read M3 hM3 x3 24 (by decide)]
  try rfl
theorem V16_25 : kernelRunC.sl.v2210 c i tbl hT sim b9 b10 a16 = (rowsOf c tbl i sim x2 x3 (accOf c a12 a13 a14 a15 a16 a17) 25).s := by
  unfold kernelRunC.sl.v2210 kernelRunC.sl.H16_25
  rw [View.readCov_cons_toLoadRect]
  refine Eq.trans ?_ (rowsOf_s c tbl i sim x2 x3 (accOf c a12 a13 a14 a15 a16 a17) 24 (by decide)).symm
  unfold kernelRunC.sl.r_234
  simp only [S_v2059 c i tbl hT sim b9, V16_24 c i M2 hM2 M3 hM3 tbl hT sim x2 x3 b9 b10 a12 a13 a14 a15 a16 a17]
  try rfl
theorem V17_25 : kernelRunC.sl.v2215 c i tbl hT sim b9 b10 a17 = (rowsOf c tbl i sim x2 x3 (accOf c a12 a13 a14 a15 a16 a17) 25).q := by
  unfold kernelRunC.sl.v2215 kernelRunC.sl.H17_25
  rw [View.readCov_cons_toLoadRect]
  refine Eq.trans ?_ (rowsOf_q c tbl i sim x2 x3 (accOf c a12 a13 a14 a15 a16 a17) 24 (by decide)).symm
  unfold kernelRunC.sl.r_235 kernelRunC.sl.r_230
  simp only [S_v2059 c i tbl hT sim b9, V17_24 c i M2 hM2 M3 hM3 tbl hT sim x2 x3 b9 b10 a12 a13 a14 a15 a16 a17]
  try rfl
theorem V15_26 : kernelRunC.sl.v2290 c i M2 hM2 M3 hM3 tbl hT sim x2 x3 b9 b10 a15 = (rowsOf c tbl i sim x2 x3 (accOf c a12 a13 a14 a15 a16 a17) 26).nf := by
  unfold kernelRunC.sl.v2290 kernelRunC.sl.H15_26
  rw [View.readCov_cons_toLoadRect]
  refine Eq.trans ?_ (rowsOf_nf c tbl i sim x2 x3 (accOf c a12 a13 a14 a15 a16 a17) 25 (by decide)).symm
  unfold kernelRunC.sl.r_244 kernelRunC.sl.r_238 kernelRunC.sl.r_241
  simp only [S_v2144 c i tbl hT sim b10, V15_25 c i M2 hM2 M3 hM3 tbl hT sim x2 x3 b9 b10 a12 a13 a14 a15 a16 a17, in_read M2 hM2 x2 25 (by decide), mk_read M3 hM3 x3 25 (by decide)]
  try rfl
theorem V16_26 : kernelRunC.sl.v2295 c i tbl hT sim b9 b10 a16 = (rowsOf c tbl i sim x2 x3 (accOf c a12 a13 a14 a15 a16 a17) 26).s := by
  unfold kernelRunC.sl.v2295 kernelRunC.sl.H16_26
  rw [View.readCov_cons_toLoadRect]
  refine Eq.trans ?_ (rowsOf_s c tbl i sim x2 x3 (accOf c a12 a13 a14 a15 a16 a17) 25 (by decide)).symm
  unfold kernelRunC.sl.r_242 kernelRunC.sl.r_240
  simp only [S_v2144 c i tbl hT sim b10, V16_25 c i M2 hM2 M3 hM3 tbl hT sim x2 x3 b9 b10 a12 a13 a14 a15 a16 a17]
  try rfl
theorem V17_26 : kernelRunC.sl.v2300 c i tbl hT sim b9 b10 a17 = (rowsOf c tbl i sim x2 x3 (accOf c a12 a13 a14 a15 a16 a17) 26).q := by
  unfold kernelRunC.sl.v2300 kernelRunC.sl.H17_26
  rw [View.readCov_cons_toLoadRect]
  refine Eq.trans ?_ (rowsOf_q c tbl i sim x2 x3 (accOf c a12 a13 a14 a15 a16 a17) 25 (by decide)).symm
  unfold kernelRunC.sl.r_243 kernelRunC.sl.r_240
  simp only [S_v2144 c i tbl hT sim b10, V17_25 c i M2 hM2 M3 hM3 tbl hT sim x2 x3 b9 b10 a12 a13 a14 a15 a16 a17]
  try rfl
theorem V15_27 : kernelRunC.sl.v2375 c i M2 hM2 M3 hM3 tbl hT sim x2 x3 b9 b10 a15 = (rowsOf c tbl i sim x2 x3 (accOf c a12 a13 a14 a15 a16 a17) 27).nf := by
  unfold kernelRunC.sl.v2375 kernelRunC.sl.H15_27
  rw [View.readCov_cons_toLoadRect]
  refine Eq.trans ?_ (rowsOf_nf c tbl i sim x2 x3 (accOf c a12 a13 a14 a15 a16 a17) 26 (by decide)).symm
  unfold kernelRunC.sl.r_250 kernelRunC.sl.r_247 kernelRunC.sl.r_248 kernelRunC.sl.cst_284
  simp only [S_v2229 c i tbl hT sim b9, V15_26 c i M2 hM2 M3 hM3 tbl hT sim x2 x3 b9 b10 a12 a13 a14 a15 a16 a17, in_read M2 hM2 x2 26 (by decide), mk_read M3 hM3 x3 26 (by decide)]
  try rfl
theorem V16_27 : kernelRunC.sl.v2380 c i tbl hT sim b9 b10 a16 = (rowsOf c tbl i sim x2 x3 (accOf c a12 a13 a14 a15 a16 a17) 27).s := by
  unfold kernelRunC.sl.v2380 kernelRunC.sl.H16_27
  rw [View.readCov_cons_toLoadRect]
  refine Eq.trans ?_ (rowsOf_s c tbl i sim x2 x3 (accOf c a12 a13 a14 a15 a16 a17) 26 (by decide)).symm
  unfold kernelRunC.sl.r_251 kernelRunC.sl.cst_284
  simp only [S_v2229 c i tbl hT sim b9, V16_26 c i M2 hM2 M3 hM3 tbl hT sim x2 x3 b9 b10 a12 a13 a14 a15 a16 a17]
  try rfl
theorem V17_27 : kernelRunC.sl.v2385 c i tbl hT sim b9 b10 a17 = (rowsOf c tbl i sim x2 x3 (accOf c a12 a13 a14 a15 a16 a17) 27).q := by
  unfold kernelRunC.sl.v2385 kernelRunC.sl.H17_27
  rw [View.readCov_cons_toLoadRect]
  refine Eq.trans ?_ (rowsOf_q c tbl i sim x2 x3 (accOf c a12 a13 a14 a15 a16 a17) 26 (by decide)).symm
  unfold kernelRunC.sl.r_252 kernelRunC.sl.cst_284
  simp only [S_v2229 c i tbl hT sim b9, V17_26 c i M2 hM2 M3 hM3 tbl hT sim x2 x3 b9 b10 a12 a13 a14 a15 a16 a17]
  try rfl
theorem V15_28 : kernelRunC.sl.v2460 c i M2 hM2 M3 hM3 tbl hT sim x2 x3 b9 b10 a15 = (rowsOf c tbl i sim x2 x3 (accOf c a12 a13 a14 a15 a16 a17) 28).nf := by
  unfold kernelRunC.sl.v2460 kernelRunC.sl.H15_28
  rw [View.readCov_cons_toLoadRect]
  refine Eq.trans ?_ (rowsOf_nf c tbl i sim x2 x3 (accOf c a12 a13 a14 a15 a16 a17) 27 (by decide)).symm
  unfold kernelRunC.sl.r_259
  simp only [S_v2314 c i tbl hT sim b10, V15_27 c i M2 hM2 M3 hM3 tbl hT sim x2 x3 b9 b10 a12 a13 a14 a15 a16 a17, in_read M2 hM2 x2 27 (by decide), mk_read M3 hM3 x3 27 (by decide)]
  try rfl
theorem V16_28 : kernelRunC.sl.v2465 c i tbl hT sim b9 b10 a16 = (rowsOf c tbl i sim x2 x3 (accOf c a12 a13 a14 a15 a16 a17) 28).s := by
  unfold kernelRunC.sl.v2465 kernelRunC.sl.H16_28
  rw [View.readCov_cons_toLoadRect]
  refine Eq.trans ?_ (rowsOf_s c tbl i sim x2 x3 (accOf c a12 a13 a14 a15 a16 a17) 27 (by decide)).symm
  unfold kernelRunC.sl.r_257
  simp only [S_v2314 c i tbl hT sim b10, V16_27 c i M2 hM2 M3 hM3 tbl hT sim x2 x3 b9 b10 a12 a13 a14 a15 a16 a17]
  try rfl
theorem V17_28 : kernelRunC.sl.v2470 c i tbl hT sim b9 b10 a17 = (rowsOf c tbl i sim x2 x3 (accOf c a12 a13 a14 a15 a16 a17) 28).q := by
  unfold kernelRunC.sl.v2470 kernelRunC.sl.H17_28
  rw [View.readCov_cons_toLoadRect]
  refine Eq.trans ?_ (rowsOf_q c tbl i sim x2 x3 (accOf c a12 a13 a14 a15 a16 a17) 27 (by decide)).symm
  unfold kernelRunC.sl.r_261 kernelRunC.sl.r_257
  simp only [S_v2314 c i tbl hT sim b10, V17_27 c i M2 hM2 M3 hM3 tbl hT sim x2 x3 b9 b10 a12 a13 a14 a15 a16 a17]
  try rfl
theorem V15_29 : kernelRunC.sl.v2545 c i M2 hM2 M3 hM3 tbl hT sim x2 x3 b9 b10 a15 = (rowsOf c tbl i sim x2 x3 (accOf c a12 a13 a14 a15 a16 a17) 29).nf := by
  unfold kernelRunC.sl.v2545 kernelRunC.sl.H15_29
  rw [View.readCov_cons_toLoadRect]
  refine Eq.trans ?_ (rowsOf_nf c tbl i sim x2 x3 (accOf c a12 a13 a14 a15 a16 a17) 28 (by decide)).symm
  unfold kernelRunC.sl.r_267 kernelRunC.sl.r_264 kernelRunC.sl.r_265 kernelRunC.sl.r_266
  simp only [S_v2399 c i tbl hT sim b9, V15_28 c i M2 hM2 M3 hM3 tbl hT sim x2 x3 b9 b10 a12 a13 a14 a15 a16 a17, in_read M2 hM2 x2 28 (by decide), mk_read M3 hM3 x3 28 (by decide)]
  try rfl
theorem V16_29 : kernelRunC.sl.v2550 c i tbl hT sim b9 b10 a16 = (rowsOf c tbl i sim x2 x3 (accOf c a12 a13 a14 a15 a16 a17) 29).s := by
  unfold kernelRunC.sl.v2550 kernelRunC.sl.H16_29
  rw [View.readCov_cons_toLoadRect]
  refine Eq.trans ?_ (rowsOf_s c tbl i sim x2 x3 (accOf c a12 a13 a14 a15 a16 a17) 28 (by decide)).symm
  unfold kernelRunC.sl.r_268 kernelRunC.sl.r_266
  simp only [S_v2399 c i tbl hT sim b9, V16_28 c i M2 hM2 M3 hM3 tbl hT sim x2 x3 b9 b10 a12 a13 a14 a15 a16 a17]
  try rfl
theorem V17_29 : kernelRunC.sl.v2555 c i tbl hT sim b9 b10 a17 = (rowsOf c tbl i sim x2 x3 (accOf c a12 a13 a14 a15 a16 a17) 29).q := by
  unfold kernelRunC.sl.v2555 kernelRunC.sl.H17_29
  rw [View.readCov_cons_toLoadRect]
  refine Eq.trans ?_ (rowsOf_q c tbl i sim x2 x3 (accOf c a12 a13 a14 a15 a16 a17) 28 (by decide)).symm
  unfold kernelRunC.sl.r_269 kernelRunC.sl.r_266
  simp only [S_v2399 c i tbl hT sim b9, V17_28 c i M2 hM2 M3 hM3 tbl hT sim x2 x3 b9 b10 a12 a13 a14 a15 a16 a17]
  try rfl
theorem V15_30 : kernelRunC.sl.v2630 c i M2 hM2 M3 hM3 tbl hT sim x2 x3 b9 b10 a15 = (rowsOf c tbl i sim x2 x3 (accOf c a12 a13 a14 a15 a16 a17) 30).nf := by
  unfold kernelRunC.sl.v2630 kernelRunC.sl.H15_30
  rw [View.readCov_cons_toLoadRect]
  refine Eq.trans ?_ (rowsOf_nf c tbl i sim x2 x3 (accOf c a12 a13 a14 a15 a16 a17) 29 (by decide)).symm
  unfold kernelRunC.sl.r_275 kernelRunC.sl.r_271 kernelRunC.sl.r_272
  simp only [S_v2484 c i tbl hT sim b10, V15_29 c i M2 hM2 M3 hM3 tbl hT sim x2 x3 b9 b10 a12 a13 a14 a15 a16 a17, in_read M2 hM2 x2 29 (by decide), mk_read M3 hM3 x3 29 (by decide)]
  try rfl
theorem V16_30 : kernelRunC.sl.v2635 c i tbl hT sim b9 b10 a16 = (rowsOf c tbl i sim x2 x3 (accOf c a12 a13 a14 a15 a16 a17) 30).s := by
  unfold kernelRunC.sl.v2635 kernelRunC.sl.H16_30
  rw [View.readCov_cons_toLoadRect]
  refine Eq.trans ?_ (rowsOf_s c tbl i sim x2 x3 (accOf c a12 a13 a14 a15 a16 a17) 29 (by decide)).symm
  unfold kernelRunC.sl.r_277
  simp only [S_v2484 c i tbl hT sim b10, V16_29 c i M2 hM2 M3 hM3 tbl hT sim x2 x3 b9 b10 a12 a13 a14 a15 a16 a17]
  try rfl
theorem V17_30 : kernelRunC.sl.v2640 c i tbl hT sim b9 b10 a17 = (rowsOf c tbl i sim x2 x3 (accOf c a12 a13 a14 a15 a16 a17) 30).q := by
  unfold kernelRunC.sl.v2640 kernelRunC.sl.H17_30
  rw [View.readCov_cons_toLoadRect]
  refine Eq.trans ?_ (rowsOf_q c tbl i sim x2 x3 (accOf c a12 a13 a14 a15 a16 a17) 29 (by decide)).symm
  unfold kernelRunC.sl.r_278
  simp only [S_v2484 c i tbl hT sim b10, V17_29 c i M2 hM2 M3 hM3 tbl hT sim x2 x3 b9 b10 a12 a13 a14 a15 a16 a17]
  try rfl
theorem V15_31 : kernelRunC.sl.v2715 c i M2 hM2 M3 hM3 tbl hT sim x2 x3 b9 b10 a15 = (rowsOf c tbl i sim x2 x3 (accOf c a12 a13 a14 a15 a16 a17) 31).nf := by
  unfold kernelRunC.sl.v2715 kernelRunC.sl.H15_31
  rw [View.readCov_cons_toLoadRect]
  refine Eq.trans ?_ (rowsOf_nf c tbl i sim x2 x3 (accOf c a12 a13 a14 a15 a16 a17) 30 (by decide)).symm
  unfold kernelRunC.sl.r_284
  simp only [S_v2569 c i tbl hT sim b9, V15_30 c i M2 hM2 M3 hM3 tbl hT sim x2 x3 b9 b10 a12 a13 a14 a15 a16 a17, in_read M2 hM2 x2 30 (by decide), mk_read M3 hM3 x3 30 (by decide)]
  try rfl
theorem V16_31 : kernelRunC.sl.v2720 c i tbl hT sim b9 b10 a16 = (rowsOf c tbl i sim x2 x3 (accOf c a12 a13 a14 a15 a16 a17) 31).s := by
  unfold kernelRunC.sl.v2720 kernelRunC.sl.H16_31
  rw [View.readCov_cons_toLoadRect]
  refine Eq.trans ?_ (rowsOf_s c tbl i sim x2 x3 (accOf c a12 a13 a14 a15 a16 a17) 30 (by decide)).symm
  unfold kernelRunC.sl.r_287 kernelRunC.sl.r_282
  simp only [S_v2569 c i tbl hT sim b9, V16_30 c i M2 hM2 M3 hM3 tbl hT sim x2 x3 b9 b10 a12 a13 a14 a15 a16 a17]
  try rfl
theorem V17_31 : kernelRunC.sl.v2725 c i tbl hT sim b9 b10 a17 = (rowsOf c tbl i sim x2 x3 (accOf c a12 a13 a14 a15 a16 a17) 31).q := by
  unfold kernelRunC.sl.v2725 kernelRunC.sl.H17_31
  rw [View.readCov_cons_toLoadRect]
  refine Eq.trans ?_ (rowsOf_q c tbl i sim x2 x3 (accOf c a12 a13 a14 a15 a16 a17) 30 (by decide)).symm
  unfold kernelRunC.sl.r_286 kernelRunC.sl.r_282
  simp only [S_v2569 c i tbl hT sim b9, V17_30 c i M2 hM2 M3 hM3 tbl hT sim x2 x3 b9 b10 a12 a13 a14 a15 a16 a17]
  try rfl
theorem V15_32 : kernelRunC.sl.v2800 c i M2 hM2 M3 hM3 tbl hT sim x2 x3 b9 b10 a15 = (rowsOf c tbl i sim x2 x3 (accOf c a12 a13 a14 a15 a16 a17) 32).nf := by
  unfold kernelRunC.sl.v2800 kernelRunC.sl.H15_32
  rw [View.readCov_cons_toLoadRect]
  refine Eq.trans ?_ (rowsOf_nf c tbl i sim x2 x3 (accOf c a12 a13 a14 a15 a16 a17) 31 (by decide)).symm
  unfold kernelRunC.sl.r_294 kernelRunC.sl.r_290 kernelRunC.sl.r_291 kernelRunC.sl.r_292 kernelRunC.sl.r_293
  simp only [S_v2654 c i tbl hT sim b10, V15_31 c i M2 hM2 M3 hM3 tbl hT sim x2 x3 b9 b10 a12 a13 a14 a15 a16 a17, in_read M2 hM2 x2 31 (by decide), mk_read M3 hM3 x3 31 (by decide)]
  try rfl
theorem V16_32 : kernelRunC.sl.v2805 c i tbl hT sim b9 b10 a16 = (rowsOf c tbl i sim x2 x3 (accOf c a12 a13 a14 a15 a16 a17) 32).s := by
  unfold kernelRunC.sl.v2805 kernelRunC.sl.H16_32
  rw [View.readCov_cons_toLoadRect]
  refine Eq.trans ?_ (rowsOf_s c tbl i sim x2 x3 (accOf c a12 a13 a14 a15 a16 a17) 31 (by decide)).symm
  unfold kernelRunC.sl.r_295 kernelRunC.sl.r_292 kernelRunC.sl.r_293
  simp only [S_v2654 c i tbl hT sim b10, V16_31 c i M2 hM2 M3 hM3 tbl hT sim x2 x3 b9 b10 a12 a13 a14 a15 a16 a17]
  try rfl
theorem V17_32 : kernelRunC.sl.v2810 c i tbl hT sim b9 b10 a17 = (rowsOf c tbl i sim x2 x3 (accOf c a12 a13 a14 a15 a16 a17) 32).q := by
  unfold kernelRunC.sl.v2810 kernelRunC.sl.H17_32
  rw [View.readCov_cons_toLoadRect]
  refine Eq.trans ?_ (rowsOf_q c tbl i sim x2 x3 (accOf c a12 a13 a14 a15 a16 a17) 31 (by decide)).symm
  unfold kernelRunC.sl.r_296 kernelRunC.sl.r_292 kernelRunC.sl.r_293
  simp only [S_v2654 c i tbl hT sim b10, V17_31 c i M2 hM2 M3 hM3 tbl hT sim x2 x3 b9 b10 a12 a13 a14 a15 a16 a17]
  try rfl
theorem V15_33 : kernelRunC.sl.v2885 c i M2 hM2 M3 hM3 tbl hT sim x2 x3 b9 b10 a15 = (rowsOf c tbl i sim x2 x3 (accOf c a12 a13 a14 a15 a16 a17) 33).nf := by
  unfold kernelRunC.sl.v2885 kernelRunC.sl.H15_33
  rw [View.readCov_cons_toLoadRect]
  refine Eq.trans ?_ (rowsOf_nf c tbl i sim x2 x3 (accOf c a12 a13 a14 a15 a16 a17) 32 (by decide)).symm
  unfold kernelRunC.sl.r_304 kernelRunC.sl.r_299 kernelRunC.sl.r_300
  simp only [S_v2739 c i tbl hT sim b9, V15_32 c i M2 hM2 M3 hM3 tbl hT sim x2 x3 b9 b10 a12 a13 a14 a15 a16 a17, in_read M2 hM2 x2 32 (by decide), mk_read M3 hM3 x3 32 (by decide)]
  try rfl
theorem V16_33 : kernelRunC.sl.v2890 c i tbl hT sim b9 b10 a16 = (rowsOf c tbl i sim x2 x3 (accOf c a12 a13 a14 a15 a16 a17) 33).s := by
  unfold kernelRunC.sl.v2890 kernelRunC.sl.H16_33
  rw [View.readCov_cons_toLoadRect]
  refine Eq.trans ?_ (rowsOf_s c tbl i sim x2 x3 (accOf c a12 a13 a14 a15 a16 a17) 32 (by decide)).symm
  unfold kernelRunC.sl.r_306
  simp only [S_v2739 c i tbl hT sim b9, V16_32 c i M2 hM2 M3 hM3 tbl hT sim x2 x3 b9 b10 a12 a13 a14 a15 a16 a17]
  try rfl
theorem V17_33 : kernelRunC.sl.v2895 c i tbl hT sim b9 b10 a17 = (rowsOf c tbl i sim x2 x3 (accOf c a12 a13 a14 a15 a16 a17) 33).q := by
  unfold kernelRunC.sl.v2895 kernelRunC.sl.H17_33
  rw [View.readCov_cons_toLoadRect]
  refine Eq.trans ?_ (rowsOf_q c tbl i sim x2 x3 (accOf c a12 a13 a14 a15 a16 a17) 32 (by decide)).symm
  unfold kernelRunC.sl.r_307
  simp only [S_v2739 c i tbl hT sim b9, V17_32 c i M2 hM2 M3 hM3 tbl hT sim x2 x3 b9 b10 a12 a13 a14 a15 a16 a17]
  try rfl
theorem V15_34 : kernelRunC.sl.v2970 c i M2 hM2 M3 hM3 tbl hT sim x2 x3 b9 b10 a15 = (rowsOf c tbl i sim x2 x3 (accOf c a12 a13 a14 a15 a16 a17) 34).nf := by
  unfold kernelRunC.sl.v2970 kernelRunC.sl.H15_34
  rw [View.readCov_cons_toLoadRect]
  refine Eq.trans ?_ (rowsOf_nf c tbl i sim x2 x3 (accOf c a12 a13 a14 a15 a16 a17) 33 (by decide)).symm
  unfold kernelRunC.sl.r_315
  simp only [S_v2824 c i tbl hT sim b10, V15_33 c i M2 hM2 M3 hM3 tbl hT sim x2 x3 b9 b10 a12 a13 a14 a15 a16 a17, in_read M2 hM2 x2 33 (by decide), mk_read M3 hM3 x3 33 (by decide)]
  try rfl
theorem V16_34 : kernelRunC.sl.v2975 c i tbl hT sim b9 b10 a16 = (rowsOf c tbl i sim x2 x3 (accOf c a12 a13 a14 a15 a16 a17) 34).s := by
  unfold kernelRunC.sl.v2975 kernelRunC.sl.H16_34
  rw [View.readCov_cons_toLoadRect]
  refine Eq.trans ?_ (rowsOf_s c tbl i sim x2 x3 (accOf c a12 a13 a14 a15 a16 a17) 33 (by decide)).symm
  unfold kernelRunC.sl.r_318 kernelRunC.sl.r_313
  simp only [S_v2824 c i tbl hT sim b10, V16_33 c i M2 hM2 M3 hM3 tbl hT sim x2 x3 b9 b10 a12 a13 a14 a15 a16 a17]
  try rfl
theorem V17_34 : kernelRunC.sl.v2980 c i tbl hT sim b9 b10 a17 = (rowsOf c tbl i sim x2 x3 (accOf c a12 a13 a14 a15 a16 a17) 34).q := by
  unfold kernelRunC.sl.v2980 kernelRunC.sl.H17_34
  rw [View.readCov_cons_toLoadRect]
  refine Eq.trans ?_ (rowsOf_q c tbl i sim x2 x3 (accOf c a12 a13 a14 a15 a16 a17) 33 (by decide)).symm
  unfold kernelRunC.sl.r_317 kernelRunC.sl.r_313
  simp only [S_v2824 c i tbl hT sim b10, V17_33 c i M2 hM2 M3 hM3 tbl hT sim x2 x3 b9 b10 a12 a13 a14 a15 a16 a17]
  try rfl
theorem V15_35 : kernelRunC.sl.v3055 c i M2 hM2 M3 hM3 tbl hT sim x2 x3 b9 b10 a15 = (rowsOf c tbl i sim x2 x3 (accOf c a12 a13 a14 a15 a16 a17) 35).nf := by
  unfold kernelRunC.sl.v3055 kernelRunC.sl.H15_35
  rw [View.readCov_cons_toLoadRect]
  refine Eq.trans ?_ (rowsOf_nf c tbl i sim x2 x3 (accOf c a12 a13 a14 a15 a16 a17) 34 (by decide)).symm
  unfold kernelRunC.sl.r_325 kernelRunC.sl.r_321 kernelRunC.sl.r_322 kernelRunC.sl.r_323 kernelRunC.sl.r_324
  simp only [S_v2909 c i tbl hT sim b9, V15_34 c i M2 hM2 M3 hM3 tbl hT sim x2 x3 b9 b10 a12 a13 a14 a15 a16 a17, in_read M2 hM2 x2 34 (by decide), mk_read M3 hM3 x3 34 (by decide)]
  try rfl
theorem V16_35 : kernelRunC.sl.v3060 c i tbl hT sim b9 b10 a16 = (rowsOf c tbl i sim x2 x3 (accOf c a12 a13 a14 a15 a16 a17) 35).s := by
  unfold kernelRunC.sl.v3060 kernelRunC.sl.H16_35
  rw [View.readCov_cons_toLoadRect]
  refine Eq.trans ?_ (rowsOf_s c tbl i sim x2 x3 (accOf c a12 a13 a14 a15 a16 a17) 34 (by decide)).symm
  unfold kernelRunC.sl.r_326 kernelRunC.sl.r_323 kernelRunC.sl.r_324
  simp only [S_v2909 c i tbl hT sim b9, V16_34 c i M2 hM2 M3 hM3 tbl hT sim x2 x3 b9 b10 a12 a13 a14 a15 a16 a17]
  try rfl
theorem V17_35 : kernelRunC.sl.v3065 c i tbl hT sim b9 b10 a17 = (rowsOf c tbl i sim x2 x3 (accOf c a12 a13 a14 a15 a16 a17) 35).q := by
  unfold kernelRunC.sl.v3065 kernelRunC.sl.H17_35
  rw [View.readCov_cons_toLoadRect]
  refine Eq.trans ?_ (rowsOf_q c tbl i sim x2 x3 (accOf c a12 a13 a14 a15 a16 a17) 34 (by decide)).symm
  unfold kernelRunC.sl.r_327 kernelRunC.sl.r_323 kernelRunC.sl.r_324
  simp only [S_v2909 c i tbl hT sim b9, V17_34 c i M2 hM2 M3 hM3 tbl hT sim x2 x3 b9 b10 a12 a13 a14 a15 a16 a17]
  try rfl
theorem V15_36 : kernelRunC.sl.v3140 c i M2 hM2 M3 hM3 tbl hT sim x2 x3 b9 b10 a15 = (rowsOf c tbl i sim x2 x3 (accOf c a12 a13 a14 a15 a16 a17) 36).nf := by
  unfold kernelRunC.sl.v3140 kernelRunC.sl.H15_36
  rw [View.readCov_cons_toLoadRect]
  refine Eq.trans ?_ (rowsOf_nf c tbl i sim x2 x3 (accOf c a12 a13 a14 a15 a16 a17) 35 (by decide)).symm
  unfold kernelRunC.sl.r_334 kernelRunC.sl.r_330
  simp only [S_v2994 c i tbl hT sim b10, V15_35 c i M2 hM2 M3 hM3 tbl hT sim x2 x3 b9 b10 a12 a13 a14 a15 a16 a17, in_read M2 hM2 x2 35 (by decide), mk_read M3 hM3 x3 35 (by decide)]
  try rfl
theorem V16_36 : kernelRunC.sl.v3145 c i tbl hT sim b9 b10 a16 = (rowsOf c tbl i sim x2 x3 (accOf c a12 a13 a14 a15 a16 a17) 36).s := by
  unfold kernelRunC.sl.v3145 kernelRunC.sl.H16_36
  rw [View.readCov_cons_toLoadRect]
  refine Eq.trans ?_ (rowsOf_s c tbl i sim x2 x3 (accOf c a12 a13 a14 a15 a16 a17) 35 (by decide)).symm
  unfold kernelRunC.sl.r_336
  simp only [S_v2994 c i tbl hT sim b10, V16_35 c i M2 hM2 M3 hM3 tbl hT sim x2 x3 b9 b10 a12 a13 a14 a15 a16 a17]
  try rfl
theorem V17_36 : kernelRunC.sl.v3150 c i tbl hT sim b9 b10 a17 = (rowsOf c tbl i sim x2 x3 (accOf c a12 a13 a14 a15 a16 a17) 36).q := by
  unfold kernelRunC.sl.v3150 kernelRunC.sl.H17_36
  rw [View.readCov_cons_toLoadRect]
  refine Eq.trans ?_ (rowsOf_q c tbl i sim x2 x3 (accOf c a12 a13 a14 a15 a16 a17) 35 (by decide)).symm
  unfold kernelRunC.sl.r_337
  simp only [S_v2994 c i tbl hT sim b10, V17_35 c i M2 hM2 M3 hM3 tbl hT sim x2 x3 b9 b10 a12 a13 a14 a15 a16 a17]
  try rfl
theorem V15_37 : kernelRunC.sl.v3225 c i M2 hM2 M3 hM3 tbl hT sim x2 x3 b9 b10 a15 = (rowsOf c tbl i sim x2 x3 (accOf c a12 a13 a14 a15 a16 a17) 37).nf := by
  unfold kernelRunC.sl.v3225 kernelRunC.sl.H15_37
  rw [View.readCov_cons_toLoadRect]
  refine Eq.trans ?_ (rowsOf_nf c tbl i sim x2 x3 (accOf c a12 a13 a14 a15 a16 a17) 36 (by decide)).symm
  unfold kernelRunC.sl.r_345
  simp only [S_v3079 c i tbl hT sim b9, V15_36 c i M2 hM2 M3 hM3 tbl hT sim x2 x3 b9 b10 a12 a13 a14 a15 a16 a17, in_read M2 hM2 x2 36 (by decide), mk_read M3 hM3 x3 36 (by decide)]
  try rfl
theorem V16_37 : kernelRunC.sl.v3230 c i tbl hT sim b9 b10 a16 = (rowsOf c tbl i sim x2 x3 (accOf c a12 a13 a14 a15 a16 a17) 37).s := by
  unfold kernelRunC.sl.v3230 kernelRunC.sl.H16_37
  rw [View.readCov_cons_toLoadRect]
  refine Eq.trans ?_ (rowsOf_s c tbl i sim x2 x3 (accOf c a12 a13 a14 a15 a16 a17) 36 (by decide)).symm
  unfold kernelRunC.sl.r_346 kernelRunC.sl.r_343
  simp only [S_v3079 c i tbl hT sim b9, V16_36 c i M2 hM2 M3 hM3 tbl hT sim x2 x3 b9 b10 a12 a13 a14 a15 a16 a17]
  try rfl
theorem V17_37 : kernelRunC.sl.v3235 c i tbl hT sim b9 b10 a17 = (rowsOf c tbl i sim x2 x3 (accOf c a12 a13 a14 a15 a16 a17) 37).q := by
  unfold kernelRunC.sl.v3235 kernelRunC.sl.H17_37
  rw [View.readCov_cons_toLoadRect]
  refine Eq.trans ?_ (rowsOf_q c tbl i sim x2 x3 (accOf c a12 a13 a14 a15 a16 a17) 36 (by decide)).symm
  unfold kernelRunC.sl.r_347 kernelRunC.sl.r_343
  simp only [S_v3079 c i tbl hT sim b9, V17_36 c i M2 hM2 M3 hM3 tbl hT sim x2 x3 b9 b10 a12 a13 a14 a15 a16 a17]
  try rfl
theorem V15_38 : kernelRunC.sl.v3310 c i M2 hM2 M3 hM3 tbl hT sim x2 x3 b9 b10 a15 = (rowsOf c tbl i sim x2 x3 (accOf c a12 a13 a14 a15 a16 a17) 38).nf := by
  unfold kernelRunC.sl.v3310 kernelRunC.sl.H15_38
  rw [View.readCov_cons_toLoadRect]
  refine Eq.trans ?_ (rowsOf_nf c tbl i sim x2 x3 (accOf c a12 a13 a14 a15 a16 a17) 37 (by decide)).symm
  unfold kernelRunC.sl.r_355 kernelRunC.sl.r_350 kernelRunC.sl.r_351 kernelRunC.sl.r_352 kernelRunC.sl.r_353 kernelRunC.sl.cst_781
  simp only [S_v3164 c i tbl hT sim b10, V15_37 c i M2 hM2 M3 hM3 tbl hT sim x2 x3 b9 b10 a12 a13 a14 a15 a16 a17, in_read M2 hM2 x2 37 (by decide), mk_read M3 hM3 x3 37 (by decide)]
  try rfl
theorem V16_38 : kernelRunC.sl.v3315 c i tbl hT sim b9 b10 a16 = (rowsOf c tbl i sim x2 x3 (accOf c a12 a13 a14 a15 a16 a17) 38).s := by
  unfold kernelRunC.sl.v3315 kernelRunC.sl.H16_38
  rw [View.readCov_cons_toLoadRect]
  refine Eq.trans ?_ (rowsOf_s c tbl i sim x2 x3 (accOf c a12 a13 a14 a15 a16 a17) 37 (by decide)).symm
  unfold kernelRunC.sl.r_356 kernelRunC.sl.r_352 kernelRunC.sl.r_353 kernelRunC.sl.cst_781
  simp only [S_v3164 c i tbl hT sim b10, V16_37 c i M2 hM2 M3 hM3 tbl hT sim x2 x3 b9 b10 a12 a13 a14 a15 a16 a17]
  try rfl
theorem V17_38 : kernelRunC.sl.v3320 c i tbl hT sim b9 b10 a17 = (rowsOf c tbl i sim x2 x3 (accOf c a12 a13 a14 a15 a16 a17) 38).q := by
  unfold kernelRunC.sl.v3320 kernelRunC.sl.H17_38
  rw [View.readCov_cons_toLoadRect]
  refine Eq.trans ?_ (rowsOf_q c tbl i sim x2 x3 (accOf c a12 a13 a14 a15 a16 a17) 37 (by decide)).symm
  unfold kernelRunC.sl.r_357 kernelRunC.sl.r_352 kernelRunC.sl.r_353 kernelRunC.sl.cst_781
  simp only [S_v3164 c i tbl hT sim b10, V17_37 c i M2 hM2 M3 hM3 tbl hT sim x2 x3 b9 b10 a12 a13 a14 a15 a16 a17]
  try rfl
theorem V15_39 : kernelRunC.sl.v3395 c i M2 hM2 M3 hM3 tbl hT sim x2 x3 b9 b10 a15 = (rowsOf c tbl i sim x2 x3 (accOf c a12 a13 a14 a15 a16 a17) 39).nf := by
  unfold kernelRunC.sl.v3395 kernelRunC.sl.H15_39
  rw [View.readCov_cons_toLoadRect]
  refine Eq.trans ?_ (rowsOf_nf c tbl i sim x2 x3 (accOf c a12 a13 a14 a15 a16 a17) 38 (by decide)).symm
  unfold kernelRunC.sl.r_362
  simp only [V15_38 c i M2 hM2 M3 hM3 tbl hT sim x2 x3 b9 b10 a12 a13 a14 a15 a16 a17, S_v_1 c i tbl hT sim b9, in_read M2 hM2 x2 38 (by decide), mk_read M3 hM3 x3 38 (by decide)]
  try rfl
theorem V16_39 : kernelRunC.sl.v3400 c i tbl hT sim b9 b10 a16 = (rowsOf c tbl i sim x2 x3 (accOf c a12 a13 a14 a15 a16 a17) 39).s := by
  unfold kernelRunC.sl.v3400 kernelRunC.sl.H16_39
  rw [View.readCov_cons_toLoadRect]
  refine Eq.trans ?_ (rowsOf_s c tbl i sim x2 x3 (accOf c a12 a13 a14 a15 a16 a17) 38 (by decide)).symm
  unfold kernelRunC.sl.r_364
  simp only [V16_38 c i M2 hM2 M3 hM3 tbl hT sim x2 x3 b9 b10 a12 a13 a14 a15 a16 a17, S_v_1 c i tbl hT sim b9]
  try rfl
theorem V17_39 : kernelRunC.sl.v3405 c i tbl hT sim b9 b10 a17 = (rowsOf c tbl i sim x2 x3 (accOf c a12 a13 a14 a15 a16 a17) 39).q := by
  unfold kernelRunC.sl.v3405 kernelRunC.sl.H17_39
  rw [View.readCov_cons_toLoadRect]
  refine Eq.trans ?_ (rowsOf_q c tbl i sim x2 x3 (accOf c a12 a13 a14 a15 a16 a17) 38 (by decide)).symm
  unfold kernelRunC.sl.r_365
  simp only [V17_38 c i M2 hM2 M3 hM3 tbl hT sim x2 x3 b9 b10 a12 a13 a14 a15 a16 a17, S_v_1 c i tbl hT sim b9]
  try rfl
theorem V15_40 : kernelRunC.sl.v3480 c i M2 hM2 M3 hM3 tbl hT sim x2 x3 b9 b10 a15 = (rowsOf c tbl i sim x2 x3 (accOf c a12 a13 a14 a15 a16 a17) 40).nf := by
  unfold kernelRunC.sl.v3480 kernelRunC.sl.H15_40
  rw [View.readCov_cons_toLoadRect]
  refine Eq.trans ?_ (rowsOf_nf c tbl i sim x2 x3 (accOf c a12 a13 a14 a15 a16 a17) 39 (by decide)).symm
  unfold kernelRunC.sl.r_372
  simp only [S_v3334 c i tbl hT sim b10, V15_39 c i M2 hM2 M3 hM3 tbl hT sim x2 x3 b9 b10 a12 a13 a14 a15 a16 a17, in_read M2 hM2 x2 39 (by decide), mk_read M3 hM3 x3 39 (by decide)]
  try rfl
theorem V16_40 : kernelRunC.sl.v3485 c i tbl hT sim b9 b10 a16 = (rowsOf c tbl i sim x2 x3 (accOf c a12 a13 a14 a15 a16 a17) 40).s := by
  unfold kernelRunC.sl.v3485 kernelRunC.sl.H16_40
  rw [View.readCov_cons_toLoadRect]
  refine Eq.trans ?_ (rowsOf_s c tbl i sim x2 x3 (accOf c a12 a13 a14 a15 a16 a17) 39 (by decide)).symm
  unfold kernelRunC.sl.r_373 kernelRunC.sl.r_370
  simp only [S_v3334 c i tbl hT sim b10, V16_39 c i M2 hM2 M3 hM3 tbl hT sim x2 x3 b9 b10 a12 a13 a14 a15 a16 a17]
  try rfl
theorem V17_40 : kernelRunC.sl.v3490 c i tbl hT sim b9 b10 a17 = (rowsOf c tbl i sim x2 x3 (accOf c a12 a13 a14 a15 a16 a17) 40).q := by
  unfold kernelRunC.sl.v3490 kernelRunC.sl.H17_40
  rw [View.readCov_cons_toLoadRect]
  refine Eq.trans ?_ (rowsOf_q c tbl i sim x2 x3 (accOf c a12 a13 a14 a15 a16 a17) 39 (by decide)).symm
  unfold kernelRunC.sl.r_374 kernelRunC.sl.r_370
  simp only [S_v3334 c i tbl hT sim b10, V17_39 c i M2 hM2 M3 hM3 tbl hT sim x2 x3 b9 b10 a12 a13 a14 a15 a16 a17]
  try rfl
theorem V15_41 : kernelRunC.sl.v3565 c i M2 hM2 M3 hM3 tbl hT sim x2 x3 b9 b10 a15 = (rowsOf c tbl i sim x2 x3 (accOf c a12 a13 a14 a15 a16 a17) 41).nf := by
  unfold kernelRunC.sl.v3565 kernelRunC.sl.H15_41
  rw [View.readCov_cons_toLoadRect]
  refine Eq.trans ?_ (rowsOf_nf c tbl i sim x2 x3 (accOf c a12 a13 a14 a15 a16 a17) 40 (by decide)).symm
  unfold kernelRunC.sl.r_381 kernelRunC.sl.r_377 kernelRunC.sl.r_378 kernelRunC.sl.r_379 kernelRunC.sl.cst_15
  simp only [S_v3419 c i tbl hT sim b9, V15_40 c i M2 hM2 M3 hM3 tbl hT sim x2 x3 b9 b10 a12 a13 a14 a15 a16 a17, in_read M2 hM2 x2 40 (by decide), mk_read M3 hM3 x3 40 (by decide)]
  try rfl
theorem V16_41 : kernelRunC.sl.v3570 c i tbl hT sim b9 b10 a16 = (rowsOf c tbl i sim x2 x3 (accOf c a12 a13 a14 a15 a16 a17) 41).s := by
  unfold kernelRunC.sl.v3570 kernelRunC.sl.H16_41
  rw [View.readCov_cons_toLoadRect]
  refine Eq.trans ?_ (rowsOf_s c tbl i sim x2 x3 (accOf c a12 a13 a14 a15 a16 a17) 40 (by decide)).symm
  unfold kernelRunC.sl.r_382 kernelRunC.sl.r_379 kernelRunC.sl.cst_15
  simp only [S_v3419 c i tbl hT sim b9, V16_40 c i M2 hM2 M3 hM3 tbl hT sim x2 x3 b9 b10 a12 a13 a14 a15 a16 a17]
  try rfl
theorem V17_41 : kernelRunC.sl.v3575 c i tbl hT sim b9 b10 a17 = (rowsOf c tbl i sim x2 x3 (accOf c a12 a13 a14 a15 a16 a17) 41).q := by
  unfold kernelRunC.sl.v3575 kernelRunC.sl.H17_41
  rw [View.readCov_cons_toLoadRect]
  refine Eq.trans ?_ (rowsOf_q c tbl i sim x2 x3 (accOf c a12 a13 a14 a15 a16 a17) 40 (by decide)).symm
  unfold kernelRunC.sl.r_383 kernelRunC.sl.r_379 kernelRunC.sl.cst_15
  simp only [S_v3419 c i tbl hT sim b9, V17_40 c i M2 hM2 M3 hM3 tbl hT sim x2 x3 b9 b10 a12 a13 a14 a15 a16 a17]
  try rfl
theorem V15_42 : kernelRunC.sl.v3650 c i M2 hM2 M3 hM3 tbl hT sim x2 x3 b9 b10 a15 = (rowsOf c tbl i sim x2 x3 (accOf c a12 a13 a14 a15 a16 a17) 42).nf := by
  unfold kernelRunC.sl.v3650 kernelRunC.sl.H15_42
  rw [View.readCov_cons_toLoadRect]
  refine Eq.trans ?_ (rowsOf_nf c tbl i sim x2 x3 (accOf c a12 a13 a14 a15 a16 a17) 41 (by decide)).symm
  unfold kernelRunC.sl.r_389
  simp only [S_v3504 c i tbl hT sim b10, V15_41 c i M2 hM2 M3 hM3 tbl hT sim x2 x3 b9 b10 a12 a13 a14 a15 a16 a17, in_read M2 hM2 x2 41 (by decide), mk_read M3 hM3 x3 41 (by decide)]
  try rfl
theorem V16_42 : kernelRunC.sl.v3655 c i tbl hT sim b9 b10 a16 = (rowsOf c tbl i sim x2 x3 (accOf c a12 a13 a14 a15 a16 a17) 42).s := by
  unfold kernelRunC.sl.v3655 kernelRunC.sl.H16_42
  rw [View.readCov_cons_toLoadRect]
  refine Eq.trans ?_ (rowsOf_s c tbl i sim x2 x3 (accOf c a12 a13 a14 a15 a16 a17) 41 (by decide)).symm
  unfold kernelRunC.sl.r_391
  simp only [S_v3504 c i tbl hT sim b10, V16_41 c i M2 hM2 M3 hM3 tbl hT sim x2 x3 b9 b10 a12 a13 a14 a15 a16 a17]
  try rfl
theorem V17_42 : kernelRunC.sl.v3660 c i tbl hT sim b9 b10 a17 = (rowsOf c tbl i sim x2 x3 (accOf c a12 a13 a14 a15 a16 a17) 42).q := by
  unfold kernelRunC.sl.v3660 kernelRunC.sl.H17_42
  rw [View.readCov_cons_toLoadRect]
  refine Eq.trans ?_ (rowsOf_q c tbl i sim x2 x3 (accOf c a12 a13 a14 a15 a16 a17) 41 (by decide)).symm
  unfold kernelRunC.sl.r_393 kernelRunC.sl.r_392
  simp only [S_v3504 c i tbl hT sim b10, V17_41 c i M2 hM2 M3 hM3 tbl hT sim x2 x3 b9 b10 a12 a13 a14 a15 a16 a17]
  try rfl
theorem V15_43 : kernelRunC.sl.v3735 c i M2 hM2 M3 hM3 tbl hT sim x2 x3 b9 b10 a15 = (rowsOf c tbl i sim x2 x3 (accOf c a12 a13 a14 a15 a16 a17) 43).nf := by
  unfold kernelRunC.sl.v3735 kernelRunC.sl.H15_43
  rw [View.readCov_cons_toLoadRect]
  refine Eq.trans ?_ (rowsOf_nf c tbl i sim x2 x3 (accOf c a12 a13 a14 a15 a16 a17) 42 (by decide)).symm
  unfold kernelRunC.sl.r_403 kernelRunC.sl.r_396 kernelRunC.sl.r_399 kernelRunC.sl.cst_109
  simp only [S_v3589 c i tbl hT sim b9, V15_42 c i M2 hM2 M3 hM3 tbl hT sim x2 x3 b9 b10 a12 a13 a14 a15 a16 a17, in_read M2 hM2 x2 42 (by decide), mk_read M3 hM3 x3 42 (by decide)]
  try rfl
theorem V16_43 : kernelRunC.sl.v3740 c i tbl hT sim b9 b10 a16 = (rowsOf c tbl i sim x2 x3 (accOf c a12 a13 a14 a15 a16 a17) 43).s := by
  unfold kernelRunC.sl.v3740 kernelRunC.sl.H16_43
  rw [View.readCov_cons_toLoadRect]
  refine Eq.trans ?_ (rowsOf_s c tbl i sim x2 x3 (accOf c a12 a13 a14 a15 a16 a17) 42 (by decide)).symm
  unfold kernelRunC.sl.r_401 kernelRunC.sl.r_398
  simp only [S_v3589 c i tbl hT sim b9, V16_42 c i M2 hM2 M3 hM3 tbl hT sim x2 x3 b9 b10 a12 a13 a14 a15 a16 a17]
  try rfl
theorem V17_43 : kernelRunC.sl.v3745 c i tbl hT sim b9 b10 a17 = (rowsOf c tbl i sim x2 x3 (accOf c a12 a13 a14 a15 a16 a17) 43).q := by
  unfold kernelRunC.sl.v3745 kernelRunC.sl.H17_43
  rw [View.readCov_cons_toLoadRect]
  refine Eq.trans ?_ (rowsOf_q c tbl i sim x2 x3 (accOf c a12 a13 a14 a15 a16 a17) 42 (by decide)).symm
  unfold kernelRunC.sl.r_402 kernelRunC.sl.r_398
  simp only [S_v3589 c i tbl hT sim b9, V17_42 c i M2 hM2 M3 hM3 tbl hT sim x2 x3 b9 b10 a12 a13 a14 a15 a16 a17]
  try rfl
theorem V15_44 : kernelRunC.sl.v3820 c i M2 hM2 M3 hM3 tbl hT sim x2 x3 b9 b10 a15 = (rowsOf c tbl i sim x2 x3 (accOf c a12 a13 a14 a15 a16 a17) 44).nf := by
  unfold kernelRunC.sl.v3820 kernelRunC.sl.H15_44
  rw [View.readCov_cons_toLoadRect]
  refine Eq.trans ?_ (rowsOf_nf c tbl i sim x2 x3 (accOf c a12 a13 a14 a15 a16 a17) 43 (by decide)).symm
  unfold kernelRunC.sl.r_410 kernelRunC.sl.r_406 kernelRunC.sl.r_407 kernelRunC.sl.r_408
  simp only [S_v3674 c i tbl hT sim b10, V15_43 c i M2 hM2 M3 hM3 tbl hT sim x2 x3 b9 b10 a12 a13 a14 a15 a16 a17, in_read M2 hM2 x2 43 (by decide), mk_read M3 hM3 x3 43 (by decide)]
  try rfl
theorem V16_44 : kernelRunC.sl.v3825 c i tbl hT sim b9 b10 a16 = (rowsOf c tbl i sim x2 x3 (accOf c a12 a13 a14 a15 a16 a17) 44).s := by
  unfold kernelRunC.sl.v3825 kernelRunC.sl.H16_44
  rw [View.readCov_cons_toLoadRect]
  refine Eq.trans ?_ (rowsOf_s c tbl i sim x2 x3 (accOf c a12 a13 a14 a15 a16 a17) 43 (by decide)).symm
  unfold kernelRunC.sl.r_411 kernelRunC.sl.r_408
  simp only [S_v3674 c i tbl hT sim b10, V16_43 c i M2 hM2 M3 hM3 tbl hT sim x2 x3 b9 b10 a12 a13 a14 a15 a16 a17]
  try rfl
theorem V17_44 : kernelRunC.sl.v3830 c i tbl hT sim b9 b10 a17 = (rowsOf c tbl i sim x2 x3 (accOf c a12 a13 a14 a15 a16 a17) 44).q := by
  unfold kernelRunC.sl.v3830 kernelRunC.sl.H17_44
  rw [View.readCov_cons_toLoadRect]
  refine Eq.trans ?_ (rowsOf_q c tbl i sim x2 x3 (accOf c a12 a13 a14 a15 a16 a17) 43 (by decide)).symm
  unfold kernelRunC.sl.r_412 kernelRunC.sl.r_408
  simp only [S_v3674 c i tbl hT sim b10, V17_43 c i M2 hM2 M3 hM3 tbl hT sim x2 x3 b9 b10 a12 a13 a14 a15 a16 a17]
  try rfl
theorem V15_45 : kernelRunC.sl.v3905 c i M2 hM2 M3 hM3 tbl hT sim x2 x3 b9 b10 a15 = (rowsOf c tbl i sim x2 x3 (accOf c a12 a13 a14 a15 a16 a17) 45).nf := by
  unfold kernelRunC.sl.v3905 kernelRunC.sl.H15_45
  rw [View.readCov_cons_toLoadRect]
  refine Eq.trans ?_ (rowsOf_nf c tbl i sim x2 x3 (accOf c a12 a13 a14 a15 a16 a17) 44 (by decide)).symm
  unfold kernelRunC.sl.r_419
  simp only [S_v3759 c i tbl hT sim b9, V15_44 c i M2 hM2 M3 hM3 tbl hT sim x2 x3 b9 b10 a12 a13 a14 a15 a16 a17, in_read M2 hM2 x2 44 (by decide), mk_read M3 hM3 x3 44 (by decide)]
  try rfl
theorem V16_45 : kernelRunC.sl.v3910 c i tbl hT sim b9 b10 a16 = (rowsOf c tbl i sim x2 x3 (accOf c a12 a13 a14 a15 a16 a17) 45).s := by
  unfold kernelRunC.sl.v3910 kernelRunC.sl.H16_45
  rw [View.readCov_cons_toLoadRect]
  refine Eq.trans ?_ (rowsOf_s c tbl i sim x2 x3 (accOf c a12 a13 a14 a15 a16 a17) 44 (by decide)).symm
  unfold kernelRunC.sl.r_421
  simp only [S_v3759 c i tbl hT sim b9, V16_44 c i M2 hM2 M3 hM3 tbl hT sim x2 x3 b9 b10 a12 a13 a14 a15 a16 a17]
  try rfl
theorem V17_45 : kernelRunC.sl.v3915 c i tbl hT sim b9 b10 a17 = (rowsOf c tbl i sim x2 x3 (accOf c a12 a13 a14 a15 a16 a17) 45).q := by
  unfold kernelRunC.sl.v3915 kernelRunC.sl.H17_45
  rw [View.readCov_cons_toLoadRect]
  refine Eq.trans ?_ (rowsOf_q c tbl i sim x2 x3 (accOf c a12 a13 a14 a15 a16 a17) 44 (by decide)).symm
  unfold kernelRunC.sl.r_422 kernelRunC.sl.r_417
  simp only [S_v3759 c i tbl hT sim b9, V17_44 c i M2 hM2 M3 hM3 tbl hT sim x2 x3 b9 b10 a12 a13 a14 a15 a16 a17]
  try rfl
theorem V15_46 : kernelRunC.sl.v3990 c i M2 hM2 M3 hM3 tbl hT sim x2 x3 b9 b10 a15 = (rowsOf c tbl i sim x2 x3 (accOf c a12 a13 a14 a15 a16 a17) 46).nf := by
  unfold kernelRunC.sl.v3990 kernelRunC.sl.H15_46
  rw [View.readCov_cons_toLoadRect]
  refine Eq.trans ?_ (rowsOf_nf c tbl i sim x2 x3 (accOf c a12 a13 a14 a15 a16 a17) 45 (by decide)).symm
  unfold kernelRunC.sl.r_431 kernelRunC.sl.r_425 kernelRunC.sl.r_428
  simp only [S_v3844 c i tbl hT sim b10, V15_45 c i M2 hM2 M3 hM3 tbl hT sim x2 x3 b9 b10 a12 a13 a14 a15 a16 a17, in_read M2 hM2 x2 45 (by decide), mk_read M3 hM3 x3 45 (by decide)]
  try rfl
theorem V16_46 : kernelRunC.sl.v3995 c i tbl hT sim b9 b10 a16 = (rowsOf c tbl i sim x2 x3 (accOf c a12 a13 a14 a15 a16 a17) 46).s := by
  unfold kernelRunC.sl.v3995 kernelRunC.sl.H16_46
  rw [View.readCov_cons_toLoadRect]
  refine Eq.trans ?_ (rowsOf_s c tbl i sim x2 x3 (accOf c a12 a13 a14 a15 a16 a17) 45 (by decide)).symm
  unfold kernelRunC.sl.r_429 kernelRunC.sl.r_427
  simp only [S_v3844 c i tbl hT sim b10, V16_45 c i M2 hM2 M3 hM3 tbl hT sim x2 x3 b9 b10 a12 a13 a14 a15 a16 a17]
  try rfl
theorem V17_46 : kernelRunC.sl.v4000 c i tbl hT sim b9 b10 a17 = (rowsOf c tbl i sim x2 x3 (accOf c a12 a13 a14 a15 a16 a17) 46).q := by
  unfold kernelRunC.sl.v4000 kernelRunC.sl.H17_46
  rw [View.readCov_cons_toLoadRect]
  refine Eq.trans ?_ (rowsOf_q c tbl i sim x2 x3 (accOf c a12 a13 a14 a15 a16 a17) 45 (by decide)).symm
  unfold kernelRunC.sl.r_430 kernelRunC.sl.r_427
  simp only [S_v3844 c i tbl hT sim b10, V17_45 c i M2 hM2 M3 hM3 tbl hT sim x2 x3 b9 b10 a12 a13 a14 a15 a16 a17]
  try rfl
theorem V15_47 : kernelRunC.sl.v4075 c i M2 hM2 M3 hM3 tbl hT sim x2 x3 b9 b10 a15 = (rowsOf c tbl i sim x2 x3 (accOf c a12 a13 a14 a15 a16 a17) 47).nf := by
  unfold kernelRunC.sl.v4075 kernelRunC.sl.H15_47
  rw [View.readCov_cons_toLoadRect]
  refine Eq.trans ?_ (rowsOf_nf c tbl i sim x2 x3 (accOf c a12 a13 a14 a15 a16 a17) 46 (by decide)).symm
  unfold kernelRunC.sl.r_437 kernelRunC.sl.r_434 kernelRunC.sl.r_435 kernelRunC.sl.cst_284
  simp only [S_v3929 c i tbl hT sim b9, V15_46 c i M2 hM2 M3 hM3 tbl hT sim x2 x3 b9 b10 a12 a13 a14 a15 a16 a17, in_read M2 hM2 x2 46 (by decide), mk_read M3 hM3 x3 46 (by decide)]
  try rfl
theorem V16_47 : kernelRunC.sl.v4080 c i tbl hT sim b9 b10 a16 = (rowsOf c tbl i sim x2 x3 (accOf c a12 a13 a14 a15 a16 a17) 47).s := by
  unfold kernelRunC.sl.v4080 kernelRunC.sl.H16_47
  rw [View.readCov_cons_toLoadRect]
  refine Eq.trans ?_ (rowsOf_s c tbl i sim x2 x3 (accOf c a12 a13 a14 a15 a16 a17) 46 (by decide)).symm
  unfold kernelRunC.sl.r_438 kernelRunC.sl.cst_284
  simp only [S_v3929 c i tbl hT sim b9, V16_46 c i M2 hM2 M3 hM3 tbl hT sim x2 x3 b9 b10 a12 a13 a14 a15 a16 a17]
  try rfl
theorem V17_47 : kernelRunC.sl.v4085 c i tbl hT sim b9 b10 a17 = (rowsOf c tbl i sim x2 x3 (accOf c a12 a13 a14 a15 a16 a17) 47).q := by
  unfold kernelRunC.sl.v4085 kernelRunC.sl.H17_47
  rw [View.readCov_cons_toLoadRect]
  refine Eq.trans ?_ (rowsOf_q c tbl i sim x2 x3 (accOf c a12 a13 a14 a15 a16 a17) 46 (by decide)).symm
  unfold kernelRunC.sl.r_439 kernelRunC.sl.cst_284
  simp only [S_v3929 c i tbl hT sim b9, V17_46 c i M2 hM2 M3 hM3 tbl hT sim x2 x3 b9 b10 a12 a13 a14 a15 a16 a17]
  try rfl
theorem V15_48 : kernelRunC.sl.v4160 c i M2 hM2 M3 hM3 tbl hT sim x2 x3 b9 b10 a15 = (rowsOf c tbl i sim x2 x3 (accOf c a12 a13 a14 a15 a16 a17) 48).nf := by
  unfold kernelRunC.sl.v4160 kernelRunC.sl.H15_48
  rw [View.readCov_cons_toLoadRect]
  refine Eq.trans ?_ (rowsOf_nf c tbl i sim x2 x3 (accOf c a12 a13 a14 a15 a16 a17) 47 (by decide)).symm
  unfold kernelRunC.sl.r_446
  simp only [S_v4014 c i tbl hT sim b10, V15_47 c i M2 hM2 M3 hM3 tbl hT sim x2 x3 b9 b10 a12 a13 a14 a15 a16 a17, in_read M2 hM2 x2 47 (by decide), mk_read M3 hM3 x3 47 (by decide)]
  try rfl
theorem V16_48 : kernelRunC.sl.v4165 c i tbl hT sim b9 b10 a16 = (rowsOf c tbl i sim x2 x3 (accOf c a12 a13 a14 a15 a16 a17) 48).s := by
  unfold kernelRunC.sl.v4165 kernelRunC.sl.H16_48
  rw [View.readCov_cons_toLoadRect]
  refine Eq.trans ?_ (rowsOf_s c tbl i sim x2 x3 (accOf c a12 a13 a14 a15 a16 a17) 47 (by decide)).symm
  unfold kernelRunC.sl.r_444
  simp only [S_v4014 c i tbl hT sim b10, V16_47 c i M2 hM2 M3 hM3 tbl hT sim x2 x3 b9 b10 a12 a13 a14 a15 a16 a17]
  try rfl
theorem V17_48 : kernelRunC.sl.v4170 c i tbl hT sim b9 b10 a17 = (rowsOf c tbl i sim x2 x3 (accOf c a12 a13 a14 a15 a16 a17) 48).q := by
  unfold kernelRunC.sl.v4170 kernelRunC.sl.H17_48
  rw [View.readCov_cons_toLoadRect]
  refine Eq.trans ?_ (rowsOf_q c tbl i sim x2 x3 (accOf c a12 a13 a14 a15 a16 a17) 47 (by decide)).symm
  unfold kernelRunC.sl.r_448 kernelRunC.sl.r_444
  simp only [S_v4014 c i tbl hT sim b10, V17_47 c i M2 hM2 M3 hM3 tbl hT sim x2 x3 b9 b10 a12 a13 a14 a15 a16 a17]
  try rfl
theorem V15_49 : kernelRunC.sl.v4245 c i M2 hM2 M3 hM3 tbl hT sim x2 x3 b9 b10 a15 = (rowsOf c tbl i sim x2 x3 (accOf c a12 a13 a14 a15 a16 a17) 49).nf := by
  unfold kernelRunC.sl.v4245 kernelRunC.sl.H15_49
  rw [View.readCov_cons_toLoadRect]
  refine Eq.trans ?_ (rowsOf_nf c tbl i sim x2 x3 (accOf c a12 a13 a14 a15 a16 a17) 48 (by decide)).symm
  unfold kernelRunC.sl.r_454 kernelRunC.sl.r_451 kernelRunC.sl.r_452 kernelRunC.sl.r_453
  simp only [S_v4099 c i tbl hT sim b9, V15_48 c i M2 hM2 M3 hM3 tbl hT sim x2 x3 b9 b10 a12 a13 a14 a15 a16 a17, in_read M2 hM2 x2 48 (by decide), mk_read M3 hM3 x3 48 (by decide)]
  try rfl
theorem V16_49 : kernelRunC.sl.v4250 c i tbl hT sim b9 b10 a16 = (rowsOf c tbl i sim x2 x3 (accOf c a12 a13 a14 a15 a16 a17) 49).s := by
  unfold kernelRunC.sl.v4250 kernelRunC.sl.H16_49
  rw [View.readCov_cons_toLoadRect]
  refine Eq.trans ?_ (rowsOf_s c tbl i sim x2 x3 (accOf c a12 a13 a14 a15 a16 a17) 48 (by decide)).symm
  unfold kernelRunC.sl.r_455 kernelRunC.sl.r_453
  simp only [S_v4099 c i tbl hT sim b9, V16_48 c i M2 hM2 M3 hM3 tbl hT sim x2 x3 b9 b10 a12 a13 a14 a15 a16 a17]
  try rfl
theorem V17_49 : kernelRunC.sl.v4255 c i tbl hT sim b9 b10 a17 = (rowsOf c tbl i sim x2 x3 (accOf c a12 a13 a14 a15 a16 a17) 49).q := by
  unfold kernelRunC.sl.v4255 kernelRunC.sl.H17_49
  rw [View.readCov_cons_toLoadRect]
  refine Eq.trans ?_ (rowsOf_q c tbl i sim x2 x3 (accOf c a12 a13 a14 a15 a16 a17) 48 (by decide)).symm
  unfold kernelRunC.sl.r_456 kernelRunC.sl.r_453
  simp only [S_v4099 c i tbl hT sim b9, V17_48 c i M2 hM2 M3 hM3 tbl hT sim x2 x3 b9 b10 a12 a13 a14 a15 a16 a17]
  try rfl
theorem V15_50 : kernelRunC.sl.v4330 c i M2 hM2 M3 hM3 tbl hT sim x2 x3 b9 b10 a15 = (rowsOf c tbl i sim x2 x3 (accOf c a12 a13 a14 a15 a16 a17) 50).nf := by
  unfold kernelRunC.sl.v4330 kernelRunC.sl.H15_50
  rw [View.readCov_cons_toLoadRect]
  refine Eq.trans ?_ (rowsOf_nf c tbl i sim x2 x3 (accOf c a12 a13 a14 a15 a16 a17) 49 (by decide)).symm
  unfold kernelRunC.sl.r_462 kernelRunC.sl.r_458 kernelRunC.sl.r_459
  simp only [S_v4184 c i tbl hT sim b10, V15_49 c i M2 hM2 M3 hM3 tbl hT sim x2 x3 b9 b10 a12 a13 a14 a15 a16 a17, in_read M2 hM2 x2 49 (by decide), mk_read M3 hM3 x3 49 (by decide)]
  try rfl
theorem V16_50 : kernelRunC.sl.v4335 c i tbl hT sim b9 b10 a16 = (rowsOf c tbl i sim x2 x3 (accOf c a12 a13 a14 a15 a16 a17) 50).s := by
  unfold kernelRunC.sl.v4335 kernelRunC.sl.H16_50
  rw [View.readCov_cons_toLoadRect]
  refine Eq.trans ?_ (rowsOf_s c tbl i sim x2 x3 (accOf c a12 a13 a14 a15 a16 a17) 49 (by decide)).symm
  unfold kernelRunC.sl.r_464
  simp only [S_v4184 c i tbl hT sim b10, V16_49 c i M2 hM2 M3 hM3 tbl hT sim x2 x3 b9 b10 a12 a13 a14 a15 a16 a17]
  try rfl
theorem V17_50 : kernelRunC.sl.v4340 c i tbl hT sim b9 b10 a17 = (rowsOf c tbl i sim x2 x3 (accOf c a12 a13 a14 a15 a16 a17) 50).q := by
  unfold kernelRunC.sl.v4340 kernelRunC.sl.H17_50
  rw [View.readCov_cons_toLoadRect]
  refine Eq.trans ?_ (rowsOf_q c tbl i sim x2 x3 (accOf c a12 a13 a14 a15 a16 a17) 49 (by decide)).symm
  unfold kernelRunC.sl.r_465
  simp only [S_v4184 c i tbl hT sim b10, V17_49 c i M2 hM2 M3 hM3 tbl hT sim x2 x3 b9 b10 a12 a13 a14 a15 a16 a17]
  try rfl
theorem V15_51 : kernelRunC.sl.v4415 c i M2 hM2 M3 hM3 tbl hT sim x2 x3 b9 b10 a15 = (rowsOf c tbl i sim x2 x3 (accOf c a12 a13 a14 a15 a16 a17) 51).nf := by
  unfold kernelRunC.sl.v4415 kernelRunC.sl.H15_51
  rw [View.readCov_cons_toLoadRect]
  refine Eq.trans ?_ (rowsOf_nf c tbl i sim x2 x3 (accOf c a12 a13 a14 a15 a16 a17) 50 (by decide)).symm
  unfold kernelRunC.sl.r_471
  simp only [S_v4269 c i tbl hT sim b9, V15_50 c i M2 hM2 M3 hM3 tbl hT sim x2 x3 b9 b10 a12 a13 a14 a15 a16 a17, in_read M2 hM2 x2 50 (by decide), mk_read M3 hM3 x3 50 (by decide)]
  try rfl
theorem V16_51 : kernelRunC.sl.v4420 c i tbl hT sim b9 b10 a16 = (rowsOf c tbl i sim x2 x3 (accOf c a12 a13 a14 a15 a16 a17) 51).s := by
  unfold kernelRunC.sl.v4420 kernelRunC.sl.H16_51
  rw [View.readCov_cons_toLoadRect]
  refine Eq.trans ?_ (rowsOf_s c tbl i sim x2 x3 (accOf c a12 a13 a14 a15 a16 a17) 50 (by decide)).symm
  unfold kernelRunC.sl.r_474 kernelRunC.sl.r_469
  simp only [S_v4269 c i tbl hT sim b9, V16_50 c i M2 hM2 M3 hM3 tbl hT sim x2 x3 b9 b10 a12 a13 a14 a15 a16 a17]
  try rfl
theorem V17_51 : kernelRunC.sl.v4425 c i tbl hT sim b9 b10 a17 = (rowsOf c tbl i sim x2 x3 (accOf c a12 a13 a14 a15 a16 a17) 51).q := by
  unfold kernelRunC.sl.v4425 kernelRunC.sl.H17_51
  rw [View.readCov_cons_toLoadRect]
  refine Eq.trans ?_ (rowsOf_q c tbl i sim x2 x3 (accOf c a12 a13 a14 a15 a16 a17) 50 (by decide)).symm
  unfold kernelRunC.sl.r_473 kernelRunC.sl.r_469
  simp only [S_v4269 c i tbl hT sim b9, V17_50 c i M2 hM2 M3 hM3 tbl hT sim x2 x3 b9 b10 a12 a13 a14 a15 a16 a17]
  try rfl
theorem V15_52 : kernelRunC.sl.v4500 c i M2 hM2 M3 hM3 tbl hT sim x2 x3 b9 b10 a15 = (rowsOf c tbl i sim x2 x3 (accOf c a12 a13 a14 a15 a16 a17) 52).nf := by
  unfold kernelRunC.sl.v4500 kernelRunC.sl.H15_52
  rw [View.readCov_cons_toLoadRect]
  refine Eq.trans ?_ (rowsOf_nf c tbl i sim x2 x3 (accOf c a12 a13 a14 a15 a16 a17) 51 (by decide)).symm
  unfold kernelRunC.sl.r_481 kernelRunC.sl.r_477 kernelRunC.sl.r_478 kernelRunC.sl.r_479 kernelRunC.sl.r_480
  simp only [S_v4354 c i tbl hT sim b10, V15_51 c i M2 hM2 M3 hM3 tbl hT sim x2 x3 b9 b10 a12 a13 a14 a15 a16 a17, in_read M2 hM2 x2 51 (by decide), mk_read M3 hM3 x3 51 (by decide)]
  try rfl
theorem V16_52 : kernelRunC.sl.v4505 c i tbl hT sim b9 b10 a16 = (rowsOf c tbl i sim x2 x3 (accOf c a12 a13 a14 a15 a16 a17) 52).s := by
  unfold kernelRunC.sl.v4505 kernelRunC.sl.H16_52
  rw [View.readCov_cons_toLoadRect]
  refine Eq.trans ?_ (rowsOf_s c tbl i sim x2 x3 (accOf c a12 a13 a14 a15 a16 a17) 51 (by decide)).symm
  unfold kernelRunC.sl.r_482 kernelRunC.sl.r_479 kernelRunC.sl.r_480
  simp only [S_v4354 c i tbl hT sim b10, V16_51 c i M2 hM2 M3 hM3 tbl hT sim x2 x3 b9 b10 a12 a13 a14 a15 a16 a17]
  try rfl
theorem V17_52 : kernelRunC.sl.v4510 c i tbl hT sim b9 b10 a17 = (rowsOf c tbl i sim x2 x3 (accOf c a12 a13 a14 a15 a16 a17) 52).q := by
  unfold kernelRunC.sl.v4510 kernelRunC.sl.H17_52
  rw [View.readCov_cons_toLoadRect]
  refine Eq.trans ?_ (rowsOf_q c tbl i sim x2 x3 (accOf c a12 a13 a14 a15 a16 a17) 51 (by decide)).symm
  unfold kernelRunC.sl.r_483 kernelRunC.sl.r_479 kernelRunC.sl.r_480
  simp only [S_v4354 c i tbl hT sim b10, V17_51 c i M2 hM2 M3 hM3 tbl hT sim x2 x3 b9 b10 a12 a13 a14 a15 a16 a17]
  try rfl
theorem V15_53 : kernelRunC.sl.v4585 c i M2 hM2 M3 hM3 tbl hT sim x2 x3 b9 b10 a15 = (rowsOf c tbl i sim x2 x3 (accOf c a12 a13 a14 a15 a16 a17) 53).nf := by
  unfold kernelRunC.sl.v4585 kernelRunC.sl.H15_53
  rw [View.readCov_cons_toLoadRect]
  refine Eq.trans ?_ (rowsOf_nf c tbl i sim x2 x3 (accOf c a12 a13 a14 a15 a16 a17) 52 (by decide)).symm
  unfold kernelRunC.sl.r_491 kernelRunC.sl.r_486 kernelRunC.sl.r_487
  simp only [S_v4439 c i tbl hT sim b9, V15_52 c i M2 hM2 M3 hM3 tbl hT sim x2 x3 b9 b10 a12 a13 a14 a15 a16 a17, in_read M2 hM2 x2 52 (by decide), mk_read M3 hM3 x3 52 (by decide)]
  try rfl
theorem V16_53 : kernelRunC.sl.v4590 c i tbl hT sim b9 b10 a16 = (rowsOf c tbl i sim x2 x3 (accOf c a12 a13 a14 a15 a16 a17) 53).s := by
  unfold kernelRunC.sl.v4590 kernelRunC.sl.H16_53
  rw [View.readCov_cons_toLoadRect]
  refine Eq.trans ?_ (rowsOf_s c tbl i sim x2 x3 (accOf c a12 a13 a14 a15 a16 a17) 52 (by decide)).symm
  unfold kernelRunC.sl.r_493
  simp only [S_v4439 c i tbl hT sim b9, V16_52 c i M2 hM2 M3 hM3 tbl hT sim x2 x3 b9 b10 a12 a13 a14 a15 a16 a17]
  try rfl
theorem V17_53 : kernelRunC.sl.v4595 c i tbl hT sim b9 b10 a17 = (rowsOf c tbl i sim x2 x3 (accOf c a12 a13 a14 a15 a16 a17) 53).q := by
  unfold kernelRunC.sl.v4595 kernelRunC.sl.H17_53
  rw [View.readCov_cons_toLoadRect]
  refine Eq.trans ?_ (rowsOf_q c tbl i sim x2 x3 (accOf c a12 a13 a14 a15 a16 a17) 52 (by decide)).symm
  unfold kernelRunC.sl.r_494
  simp only [S_v4439 c i tbl hT sim b9, V17_52 c i M2 hM2 M3 hM3 tbl hT sim x2 x3 b9 b10 a12 a13 a14 a15 a16 a17]
  try rfl
theorem V15_54 : kernelRunC.sl.v4670 c i M2 hM2 M3 hM3 tbl hT sim x2 x3 b9 b10 a15 = (rowsOf c tbl i sim x2 x3 (accOf c a12 a13 a14 a15 a16 a17) 54).nf := by
  unfold kernelRunC.sl.v4670 kernelRunC.sl.H15_54
  rw [View.readCov_cons_toLoadRect]
  refine Eq.trans ?_ (rowsOf_nf c tbl i sim x2 x3 (accOf c a12 a13 a14 a15 a16 a17) 53 (by decide)).symm
  unfold kernelRunC.sl.r_502
  simp only [S_v4524 c i tbl hT sim b10, V15_53 c i M2 hM2 M3 hM3 tbl hT sim x2 x3 b9 b10 a12 a13 a14 a15 a16 a17, in_read M2 hM2 x2 53 (by decide), mk_read M3 hM3 x3 53 (by decide)]
  try rfl
theorem V16_54 : kernelRunC.sl.v4675 c i tbl hT sim b9 b10 a16 = (rowsOf c tbl i sim x2 x3 (accOf c a12 a13 a14 a15 a16 a17) 54).s := by
  unfold kernelRunC.sl.v4675 kernelRunC.sl.H16_54
  rw [View.readCov_cons_toLoadRect]
  refine Eq.trans ?_ (rowsOf_s c tbl i sim x2 x3 (accOf c a12 a13 a14 a15 a16 a17) 53 (by decide)).symm
  unfold kernelRunC.sl.r_505 kernelRunC.sl.r_500
  simp only [S_v4524 c i tbl hT sim b10, V16_53 c i M2 hM2 M3 hM3 tbl hT sim x2 x3 b9 b10 a12 a13 a14 a15 a16 a17]
  try rfl
theorem V17_54 : kernelRunC.sl.v4680 c i tbl hT sim b9 b10 a17 = (rowsOf c tbl i sim x2 x3 (accOf c a12 a13 a14 a15 a16 a17) 54).q := by
  unfold kernelRunC.sl.v4680 kernelRunC.sl.H17_54
  rw [View.readCov_cons_toLoadRect]
  refine Eq.trans ?_ (rowsOf_q c tbl i sim x2 x3 (accOf c a12 a13 a14 a15 a16 a17) 53 (by decide)).symm
  unfold kernelRunC.sl.r_504 kernelRunC.sl.r_500
  simp only [S_v4524 c i tbl hT sim b10, V17_53 c i M2 hM2 M3 hM3 tbl hT sim x2 x3 b9 b10 a12 a13 a14 a15 a16 a17]
  try rfl
theorem V15_55 : kernelRunC.sl.v4755 c i M2 hM2 M3 hM3 tbl hT sim x2 x3 b9 b10 a15 = (rowsOf c tbl i sim x2 x3 (accOf c a12 a13 a14 a15 a16 a17) 55).nf := by
  unfold kernelRunC.sl.v4755 kernelRunC.sl.H15_55
  rw [View.readCov_cons_toLoadRect]
  refine Eq.trans ?_ (rowsOf_nf c tbl i sim x2 x3 (accOf c a12 a13 a14 a15 a16 a17) 54 (by decide)).symm
  unfold kernelRunC.sl.r_512 kernelRunC.sl.r_508 kernelRunC.sl.r_509 kernelRunC.sl.r_510 kernelRunC.sl.r_511
  simp only [S_v4609 c i tbl hT sim b9, V15_54 c i M2 hM2 M3 hM3 tbl hT sim x2 x3 b9 b10 a12 a13 a14 a15 a16 a17, in_read M2 hM2 x2 54 (by decide), mk_read M3 hM3 x3 54 (by decide)]
  try rfl
theorem V16_55 : kernelRunC.sl.v4760 c i tbl hT sim b9 b10 a16 = (rowsOf c tbl i sim x2 x3 (accOf c a12 a13 a14 a15 a16 a17) 55).s := by
  unfold kernelRunC.sl.v4760 kernelRunC.sl.H16_55
  rw [View.readCov_cons_toLoadRect]
  refine Eq.trans ?_ (rowsOf_s c tbl i sim x2 x3 (accOf c a12 a13 a14 a15 a16 a17) 54 (by decide)).symm
  unfold kernelRunC.sl.r_513 kernelRunC.sl.r_510 kernelRunC.sl.r_511
  simp only [S_v4609 c i tbl hT sim b9, V16_54 c i M2 hM2 M3 hM3 tbl hT sim x2 x3 b9 b10 a12 a13 a14 a15 a16 a17]
  try rfl
theorem V17_55 : kernelRunC.sl.v4765 c i tbl hT sim b9 b10 a17 = (rowsOf c tbl i sim x2 x3 (accOf c a12 a13 a14 a15 a16 a17) 55).q := by
  unfold kernelRunC.sl.v4765 kernelRunC.sl.H17_55
  rw [View.readCov_cons_toLoadRect]
  refine Eq.trans ?_ (rowsOf_q c tbl i sim x2 x3 (accOf c a12 a13 a14 a15 a16 a17) 54 (by decide)).symm
  unfold kernelRunC.sl.r_514 kernelRunC.sl.r_510 kernelRunC.sl.r_511
  simp only [S_v4609 c i tbl hT sim b9, V17_54 c i M2 hM2 M3 hM3 tbl hT sim x2 x3 b9 b10 a12 a13 a14 a15 a16 a17]
  try rfl
theorem V15_56 : kernelRunC.sl.v4840 c i M2 hM2 M3 hM3 tbl hT sim x2 x3 b9 b10 a15 = (rowsOf c tbl i sim x2 x3 (accOf c a12 a13 a14 a15 a16 a17) 56).nf := by
  unfold kernelRunC.sl.v4840 kernelRunC.sl.H15_56
  rw [View.readCov_cons_toLoadRect]
  refine Eq.trans ?_ (rowsOf_nf c tbl i sim x2 x3 (accOf c a12 a13 a14 a15 a16 a17) 55 (by decide)).symm
  unfold kernelRunC.sl.r_521 kernelRunC.sl.r_517
  simp only [S_v4694 c i tbl hT sim b10, V15_55 c i M2 hM2 M3 hM3 tbl hT sim x2 x3 b9 b10 a12 a13 a14 a15 a16 a17, in_read M2 hM2 x2 55 (by decide), mk_read M3 hM3 x3 55 (by decide)]
  try rfl
theorem V16_56 : kernelRunC.sl.v4845 c i tbl hT sim b9 b10 a16 = (rowsOf c tbl i sim x2 x3 (accOf c a12 a13 a14 a15 a16 a17) 56).s := by
  unfold kernelRunC.sl.v4845 kernelRunC.sl.H16_56
  rw [View.readCov_cons_toLoadRect]
  refine Eq.trans ?_ (rowsOf_s c tbl i sim x2 x3 (accOf c a12 a13 a14 a15 a16 a17) 55 (by decide)).symm
  unfold kernelRunC.sl.r_523
  simp only [S_v4694 c i tbl hT sim b10, V16_55 c i M2 hM2 M3 hM3 tbl hT sim x2 x3 b9 b10 a12 a13 a14 a15 a16 a17]
  try rfl
theorem V17_56 : kernelRunC.sl.v4850 c i tbl hT sim b9 b10 a17 = (rowsOf c tbl i sim x2 x3 (accOf c a12 a13 a14 a15 a16 a17) 56).q := by
  unfold kernelRunC.sl.v4850 kernelRunC.sl.H17_56
  rw [View.readCov_cons_toLoadRect]
  refine Eq.trans ?_ (rowsOf_q c tbl i sim x2 x3 (accOf c a12 a13 a14 a15 a16 a17) 55 (by decide)).symm
  unfold kernelRunC.sl.r_524
  simp only [S_v4694 c i tbl hT sim b10, V17_55 c i M2 hM2 M3 hM3 tbl hT sim x2 x3 b9 b10 a12 a13 a14 a15 a16 a17]
  try rfl
theorem V15_57 : kernelRunC.sl.v4925 c i M2 hM2 M3 hM3 tbl hT sim x2 x3 b9 b10 a15 = (rowsOf c tbl i sim x2 x3 (accOf c a12 a13 a14 a15 a16 a17) 57).nf := by
  unfold kernelRunC.sl.v4925 kernelRunC.sl.H15_57
  rw [View.readCov_cons_toLoadRect]
  refine Eq.trans ?_ (rowsOf_nf c tbl i sim x2 x3 (accOf c a12 a13 a14 a15 a16 a17) 56 (by decide)).symm
  unfold kernelRunC.sl.r_532
  simp only [S_v4779 c i tbl hT sim b9, V15_56 c i M2 hM2 M3 hM3 tbl hT sim x2 x3 b9 b10 a12 a13 a14 a15 a16 a17, in_read M2 hM2 x2 56 (by decide), mk_read M3 hM3 x3 56 (by decide)]
  try rfl
theorem V16_57 : kernelRunC.sl.v4930 c i tbl hT sim b9 b10 a16 = (rowsOf c tbl i sim x2 x3 (accOf c a12 a13 a14 a15 a16 a17) 57).s := by
  unfold kernelRunC.sl.v4930 kernelRunC.sl.H16_57
  rw [View.readCov_cons_toLoadRect]
  refine Eq.trans ?_ (rowsOf_s c tbl i sim x2 x3 (accOf c a12 a13 a14 a15 a16 a17) 56 (by decide)).symm
  unfold kernelRunC.sl.r_533 kernelRunC.sl.r_530
  simp only [S_v4779 c i tbl hT sim b9, V16_56 c i M2 hM2 M3 hM3 tbl hT sim x2 x3 b9 b10 a12 a13 a14 a15 a16 a17]
  try rfl
theorem V17_57 : kernelRunC.sl.v4935 c i tbl hT sim b9 b10 a17 = (rowsOf c tbl i sim x2 x3 (accOf c a12 a13 a14 a15 a16 a17) 57).q := by
  unfold kernelRunC.sl.v4935 kernelRunC.sl.H17_57
  rw [View.readCov_cons_toLoadRect]
  refine Eq.trans ?_ (rowsOf_q c tbl i sim x2 x3 (accOf c a12 a13 a14 a15 a16 a17) 56 (by decide)).symm
  unfold kernelRunC.sl.r_534 kernelRunC.sl.r_530
  simp only [S_v4779 c i tbl hT sim b9, V17_56 c i M2 hM2 M3 hM3 tbl hT sim x2 x3 b9 b10 a12 a13 a14 a15 a16 a17]
  try rfl
theorem V15_58 : kernelRunC.sl.v5010 c i M2 hM2 M3 hM3 tbl hT sim x2 x3 b9 b10 a15 = (rowsOf c tbl i sim x2 x3 (accOf c a12 a13 a14 a15 a16 a17) 58).nf := by
  unfold kernelRunC.sl.v5010 kernelRunC.sl.H15_58
  rw [View.readCov_cons_toLoadRect]
  refine Eq.trans ?_ (rowsOf_nf c tbl i sim x2 x3 (accOf c a12 a13 a14 a15 a16 a17) 57 (by decide)).symm
  unfold kernelRunC.sl.r_542 kernelRunC.sl.r_537 kernelRunC.sl.r_538 kernelRunC.sl.r_539 kernelRunC.sl.r_540 kernelRunC.sl.cst_781
  simp only [S_v4864 c i tbl hT sim b10, V15_57 c i M2 hM2 M3 hM3 tbl hT sim x2 x3 b9 b10 a12 a13 a14 a15 a16 a17, in_read M2 hM2 x2 57 (by decide), mk_read M3 hM3 x3 57 (by decide)]
  try rfl
theorem V16_58 : kernelRunC.sl.v5015 c i tbl hT sim b9 b10 a16 = (rowsOf c tbl i sim x2 x3 (accOf c a12 a13 a14 a15 a16 a17) 58).s := by
  unfold kernelRunC.sl.v5015 kernelRunC.sl.H16_58
  rw [View.readCov_cons_toLoadRect]
  refine Eq.trans ?_ (rowsOf_s c tbl i sim x2 x3 (accOf c a12 a13 a14 a15 a16 a17) 57 (by decide)).symm
  unfold kernelRunC.sl.r_543 kernelRunC.sl.r_539 kernelRunC.sl.r_540 kernelRunC.sl.cst_781
  simp only [S_v4864 c i tbl hT sim b10, V16_57 c i M2 hM2 M3 hM3 tbl hT sim x2 x3 b9 b10 a12 a13 a14 a15 a16 a17]
  try rfl
theorem V17_58 : kernelRunC.sl.v5020 c i tbl hT sim b9 b10 a17 = (rowsOf c tbl i sim x2 x3 (accOf c a12 a13 a14 a15 a16 a17) 58).q := by
  unfold kernelRunC.sl.v5020 kernelRunC.sl.H17_58
  rw [View.readCov_cons_toLoadRect]
  refine Eq.trans ?_ (rowsOf_q c tbl i sim x2 x3 (accOf c a12 a13 a14 a15 a16 a17) 57 (by decide)).symm
  unfold kernelRunC.sl.r_544 kernelRunC.sl.r_539 kernelRunC.sl.r_540 kernelRunC.sl.cst_781
  simp only [S_v4864 c i tbl hT sim b10, V17_57 c i M2 hM2 M3 hM3 tbl hT sim x2 x3 b9 b10 a12 a13 a14 a15 a16 a17]
  try rfl
theorem V15_59 : kernelRunC.sl.v5095 c i M2 hM2 M3 hM3 tbl hT sim x2 x3 b9 b10 a15 = (rowsOf c tbl i sim x2 x3 (accOf c a12 a13 a14 a15 a16 a17) 59).nf := by
  unfold kernelRunC.sl.v5095 kernelRunC.sl.H15_59
  rw [View.readCov_cons_toLoadRect]
  refine Eq.trans ?_ (rowsOf_nf c tbl i sim x2 x3 (accOf c a12 a13 a14 a15 a16 a17) 58 (by decide)).symm
  unfold kernelRunC.sl.r_549
  simp only [V15_58 c i M2 hM2 M3 hM3 tbl hT sim x2 x3 b9 b10 a12 a13 a14 a15 a16 a17, S_v_2 c i tbl hT sim b9, in_read M2 hM2 x2 58 (by decide), mk_read M3 hM3 x3 58 (by decide)]
  try rfl
theorem V16_59 : kernelRunC.sl.v5100 c i tbl hT sim b9 b10 a16 = (rowsOf c tbl i sim x2 x3 (accOf c a12 a13 a14 a15 a16 a17) 59).s := by
  unfold kernelRunC.sl.v5100 kernelRunC.sl.H16_59
  rw [View.readCov_cons_toLoadRect]
  refine Eq.trans ?_ (rowsOf_s c tbl i sim x2 x3 (accOf c a12 a13 a14 a15 a16 a17) 58 (by decide)).symm
  unfold kernelRunC.sl.r_551
  simp only [V16_58 c i M2 hM2 M3 hM3 tbl hT sim x2 x3 b9 b10 a12 a13 a14 a15 a16 a17, S_v_2 c i tbl hT sim b9]
  try rfl
theorem V17_59 : kernelRunC.sl.v5105 c i tbl hT sim b9 b10 a17 = (rowsOf c tbl i sim x2 x3 (accOf c a12 a13 a14 a15 a16 a17) 59).q := by
  unfold kernelRunC.sl.v5105 kernelRunC.sl.H17_59
  rw [View.readCov_cons_toLoadRect]
  refine Eq.trans ?_ (rowsOf_q c tbl i sim x2 x3 (accOf c a12 a13 a14 a15 a16 a17) 58 (by decide)).symm
  unfold kernelRunC.sl.r_552
  simp only [V17_58 c i M2 hM2 M3 hM3 tbl hT sim x2 x3 b9 b10 a12 a13 a14 a15 a16 a17, S_v_2 c i tbl hT sim b9]
  try rfl
theorem V15_60 : kernelRunC.sl.v5180 c i M2 hM2 M3 hM3 tbl hT sim x2 x3 b9 b10 a15 = (rowsOf c tbl i sim x2 x3 (accOf c a12 a13 a14 a15 a16 a17) 60).nf := by
  unfold kernelRunC.sl.v5180 kernelRunC.sl.H15_60
  rw [View.readCov_cons_toLoadRect]
  refine Eq.trans ?_ (rowsOf_nf c tbl i sim x2 x3 (accOf c a12 a13 a14 a15 a16 a17) 59 (by decide)).symm
  unfold kernelRunC.sl.r_559
  simp only [S_v5034 c i tbl hT sim b10, V15_59 c i M2 hM2 M3 hM3 tbl hT sim x2 x3 b9 b10 a12 a13 a14 a15 a16 a17, in_read M2 hM2 x2 59 (by decide), mk_read M3 hM3 x3 59 (by decide)]
  try rfl
theorem V16_60 : kernelRunC.sl.v5185 c i tbl hT sim b9 b10 a16 = (rowsOf c tbl i sim x2 x3 (accOf c a12 a13 a14 a15 a16 a17) 60).s := by
  unfold kernelRunC.sl.v5185 kernelRunC.sl.H16_60
  rw [View.readCov_cons_toLoadRect]
  refine Eq.trans ?_ (rowsOf_s c tbl i sim x2 x3 (accOf c a12 a13 a14 a15 a16 a17) 59 (by decide)).symm
  unfold kernelRunC.sl.r_560 kernelRunC.sl.r_557
  simp only [S_v5034 c i tbl hT sim b10, V16_59 c i M2 hM2 M3 hM3 tbl hT sim x2 x3 b9 b10 a12 a13 a14 a15 a16 a17]
  try rfl
theorem V17_60 : kernelRunC.sl.v5190 c i tbl hT sim b9 b10 a17 = (rowsOf c tbl i sim x2 x3 (accOf c a12 a13 a14 a15 a16 a17) 60).q := by
  unfold kernelRunC.sl.v5190 kernelRunC.sl.H17_60
  rw [View.readCov_cons_toLoadRect]
  refine Eq.trans ?_ (rowsOf_q c tbl i sim x2 x3 (accOf c a12 a13 a14 a15 a16 a17) 59 (by decide)).symm
  unfold kernelRunC.sl.r_561 kernelRunC.sl.r_557
  simp only [S_v5034 c i tbl hT sim b10, V17_59 c i M2 hM2 M3 hM3 tbl hT sim x2 x3 b9 b10 a12 a13 a14 a15 a16 a17]
  try rfl
theorem V15_61 : kernelRunC.sl.v5265 c i M2 hM2 M3 hM3 tbl hT sim x2 x3 b9 b10 a15 = (rowsOf c tbl i sim x2 x3 (accOf c a12 a13 a14 a15 a16 a17) 61).nf := by
  unfold kernelRunC.sl.v5265 kernelRunC.sl.H15_61
  rw [View.readCov_cons_toLoadRect]
  refine Eq.trans ?_ (rowsOf_nf c tbl i sim x2 x3 (accOf c a12 a13 a14 a15 a16 a17) 60 (by decide)).symm
  unfold kernelRunC.sl.r_568 kernelRunC.sl.r_564 kernelRunC.sl.r_565 kernelRunC.sl.r_566 kernelRunC.sl.cst_15
  simp only [S_v5119 c i tbl hT sim b9, V15_60 c i M2 hM2 M3 hM3 tbl hT sim x2 x3 b9 b10 a12 a13 a14 a15 a16 a17, in_read M2 hM2 x2 60 (by decide), mk_read M3 hM3 x3 60 (by decide)]
  try rfl
theorem V16_61 : kernelRunC.sl.v5270 c i tbl hT sim b9 b10 a16 = (rowsOf c tbl i sim x2 x3 (accOf c a12 a13 a14 a15 a16 a17) 61).s := by
  unfold kernelRunC.sl.v5270 kernelRunC.sl.H16_61
  rw [View.readCov_cons_toLoadRect]
  refine Eq.trans ?_ (rowsOf_s c tbl i sim x2 x3 (accOf c a12 a13 a14 a15 a16 a17) 60 (by decide)).symm
  unfold kernelRunC.sl.r_569 kernelRunC.sl.r_566 kernelRunC.sl.cst_15
  simp only [S_v5119 c i tbl hT sim b9, V16_60 c i M2 hM2 M3 hM3 tbl hT sim x2 x3 b9 b10 a12 a13 a14 a15 a16 a17]
  try rfl
theorem V17_61 : kernelRunC.sl.v5275 c i tbl hT sim b9 b10 a17 = (rowsOf c tbl i sim x2 x3 (accOf c a12 a13 a14 a15 a16 a17) 61).q := by
  unfold kernelRunC.sl.v5275 kernelRunC.sl.H17_61
  rw [View.readCov_cons_toLoadRect]
  refine Eq.trans ?_ (rowsOf_q c tbl i sim x2 x3 (accOf c a12 a13 a14 a15 a16 a17) 60 (by decide)).symm
  unfold kernelRunC.sl.r_570 kernelRunC.sl.r_566 kernelRunC.sl.cst_15
  simp only [S_v5119 c i tbl hT sim b9, V17_60 c i M2 hM2 M3 hM3 tbl hT sim x2 x3 b9 b10 a12 a13 a14 a15 a16 a17]
  try rfl
theorem V15_62 : kernelRunC.sl.v5350 c i M2 hM2 M3 hM3 tbl hT sim x2 x3 b9 b10 a15 = (rowsOf c tbl i sim x2 x3 (accOf c a12 a13 a14 a15 a16 a17) 62).nf := by
  unfold kernelRunC.sl.v5350 kernelRunC.sl.H15_62
  rw [View.readCov_cons_toLoadRect]
  refine Eq.trans ?_ (rowsOf_nf c tbl i sim x2 x3 (accOf c a12 a13 a14 a15 a16 a17) 61 (by decide)).symm
  unfold kernelRunC.sl.r_576
  simp only [S_v5204 c i tbl hT sim b10, V15_61 c i M2 hM2 M3 hM3 tbl hT sim x2 x3 b9 b10 a12 a13 a14 a15 a16 a17, in_read M2 hM2 x2 61 (by decide), mk_read M3 hM3 x3 61 (by decide)]
  try rfl
theorem V16_62 : kernelRunC.sl.v5355 c i tbl hT sim b9 b10 a16 = (rowsOf c tbl i sim x2 x3 (accOf c a12 a13 a14 a15 a16 a17) 62).s := by
  unfold kernelRunC.sl.v5355 kernelRunC.sl.H16_62
  rw [View.readCov_cons_toLoadRect]
  refine Eq.trans ?_ (rowsOf_s c tbl i sim x2 x3 (accOf c a12 a13 a14 a15 a16 a17) 61 (by decide)).symm
  unfold kernelRunC.sl.r_578
  simp only [S_v5204 c i tbl hT sim b10, V16_61 c i M2 hM2 M3 hM3 tbl hT sim x2 x3 b9 b10 a12 a13 a14 a15 a16 a17]
  try rfl
theorem V17_62 : kernelRunC.sl.v5360 c i tbl hT sim b9 b10 a17 = (rowsOf c tbl i sim x2 x3 (accOf c a12 a13 a14 a15 a16 a17) 62).q := by
  unfold kernelRunC.sl.v5360 kernelRunC.sl.H17_62
  rw [View.readCov_cons_toLoadRect]
  refine Eq.trans ?_ (rowsOf_q c tbl i sim x2 x3 (accOf c a12 a13 a14 a15 a16 a17) 61 (by decide)).symm
  unfold kernelRunC.sl.r_580 kernelRunC.sl.r_579
  simp only [S_v5204 c i tbl hT sim b10, V17_61 c i M2 hM2 M3 hM3 tbl hT sim x2 x3 b9 b10 a12 a13 a14 a15 a16 a17]
  try rfl
theorem V15_63 : kernelRunC.sl.v5429 c i M2 hM2 M3 hM3 tbl hT sim x2 x3 b9 b10 a15 = (rowsOf c tbl i sim x2 x3 (accOf c a12 a13 a14 a15 a16 a17) 63).nf := by
  unfold kernelRunC.sl.v5429 kernelRunC.sl.H15_63
  rw [View.readCov_cons_toLoadRect]
  refine Eq.trans ?_ (rowsOf_nf c tbl i sim x2 x3 (accOf c a12 a13 a14 a15 a16 a17) 62 (by decide)).symm
  unfold kernelRunC.sl.r_590 kernelRunC.sl.r_583 kernelRunC.sl.r_586 kernelRunC.sl.cst_109
  simp only [S_v5289 c i tbl hT sim b9, V15_62 c i M2 hM2 M3 hM3 tbl hT sim x2 x3 b9 b10 a12 a13 a14 a15 a16 a17, in_read M2 hM2 x2 62 (by decide), mk_read M3 hM3 x3 62 (by decide)]
  try rfl
theorem V16_63 : kernelRunC.sl.v5434 c i tbl hT sim b9 b10 a16 = (rowsOf c tbl i sim x2 x3 (accOf c a12 a13 a14 a15 a16 a17) 63).s := by
  unfold kernelRunC.sl.v5434 kernelRunC.sl.H16_63
  rw [View.readCov_cons_toLoadRect]
  refine Eq.trans ?_ (rowsOf_s c tbl i sim x2 x3 (accOf c a12 a13 a14 a15 a16 a17) 62 (by decide)).symm
  unfold kernelRunC.sl.r_588 kernelRunC.sl.r_585
  simp only [S_v5289 c i tbl hT sim b9, V16_62 c i M2 hM2 M3 hM3 tbl hT sim x2 x3 b9 b10 a12 a13 a14 a15 a16 a17]
  try rfl
theorem V17_63 : kernelRunC.sl.v5439 c i tbl hT sim b9 b10 a17 = (rowsOf c tbl i sim x2 x3 (accOf c a12 a13 a14 a15 a16 a17) 63).q := by
  unfold kernelRunC.sl.v5439 kernelRunC.sl.H17_63
  rw [View.readCov_cons_toLoadRect]
  refine Eq.trans ?_ (rowsOf_q c tbl i sim x2 x3 (accOf c a12 a13 a14 a15 a16 a17) 62 (by decide)).symm
  unfold kernelRunC.sl.r_589 kernelRunC.sl.r_585
  simp only [S_v5289 c i tbl hT sim b9, V17_62 c i M2 hM2 M3 hM3 tbl hT sim x2 x3 b9 b10 a12 a13 a14 a15 a16 a17]
  try rfl
theorem L15_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.2.2.2.2.2.2.1 = kernelRunC.sl.H15_64 c i M2 hM2 M3 hM3 tbl hT sim x2 x3 b9 b10 a15 := rfl
theorem V15_64v : kernelRunC.sl.v5452 c i M2 hM2 M3 hM3 tbl hT sim x2 x3 b9 b10 a15 = (rowsOf c tbl i sim x2 x3 (accOf c a12 a13 a14 a15 a16 a17) 64).nf := by
  unfold kernelRunC.sl.v5452 kernelRunC.sl.H15_64
  rw [View.readCov_cons_toLoadRect]
  refine Eq.trans ?_ (rowsOf_nf c tbl i sim x2 x3 (accOf c a12 a13 a14 a15 a16 a17) 63 (by decide)).symm
  unfold kernelRunC.sl.r_596 kernelRunC.sl.r_592 kernelRunC.sl.r_593 kernelRunC.sl.r_594 kernelRunC.sl.r_595
  simp only [S_v5368 c i tbl hT sim b10, V15_63 c i M2 hM2 M3 hM3 tbl hT sim x2 x3 b9 b10 a12 a13 a14 a15 a16 a17, in_read M2 hM2 x2 63 (by decide), mk_read M3 hM3 x3 63 (by decide)]
  try rfl
theorem V15_64 : View.readAt (Elt F) (Memref.whole cc0_scratch6).view (Rect.unit ![0, 0] S1x1.size inb_S1x1_S1x1_0_0).toLoadRect ((Memref.whole cc0_scratch6).view.writes (Elt F) a15 (kernelRunC.sl.H15_64 c i M2 hM2 M3 hM3 tbl hT sim x2 x3 b9 b10 a15)) = (rowsOf c tbl i sim x2 x3 (accOf c a12 a13 a14 a15 a16 a17) 64).nf := by
  unfold kernelRunC.sl.H15_64
  rw [read_last_write]
  refine Eq.trans ?_ (rowsOf_nf c tbl i sim x2 x3 (accOf c a12 a13 a14 a15 a16 a17) 63 (by decide)).symm
  unfold kernelRunC.sl.r_596 kernelRunC.sl.r_592 kernelRunC.sl.r_593 kernelRunC.sl.r_594 kernelRunC.sl.r_595
  simp only [S_v5368 c i tbl hT sim b10, V15_63 c i M2 hM2 M3 hM3 tbl hT sim x2 x3 b9 b10 a12 a13 a14 a15 a16 a17, in_read M2 hM2 x2 63 (by decide), mk_read M3 hM3 x3 63 (by decide)]
  try rfl
theorem L16_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.2.2.2.2.2.2.2.1 = kernelRunC.sl.H16_64 c i tbl hT sim b9 b10 a16 := rfl
theorem V16_64v : kernelRunC.sl.v5460 c i tbl hT sim b9 b10 a16 = (rowsOf c tbl i sim x2 x3 (accOf c a12 a13 a14 a15 a16 a17) 64).s := by
  unfold kernelRunC.sl.v5460 kernelRunC.sl.H16_64
  rw [View.readCov_cons_toLoadRect]
  refine Eq.trans ?_ (rowsOf_s c tbl i sim x2 x3 (accOf c a12 a13 a14 a15 a16 a17) 63 (by decide)).symm
  unfold kernelRunC.sl.r_597 kernelRunC.sl.r_594 kernelRunC.sl.r_595
  simp only [S_v5368 c i tbl hT sim b10, V16_63 c i M2 hM2 M3 hM3 tbl hT sim x2 x3 b9 b10 a12 a13 a14 a15 a16 a17]
  try rfl
theorem V16_64 : View.readAt (Elt F) (Memref.whole cc0_scratch7).view (Rect.unit ![0, 0] S1x1.size inb_S1x1_S1x1_0_0).toLoadRect ((Memref.whole cc0_scratch7).view.writes (Elt F) a16 (kernelRunC.sl.H16_64 c i tbl hT sim b9 b10 a16)) = (rowsOf c tbl i sim x2 x3 (accOf c a12 a13 a14 a15 a16 a17) 64).s := by
  unfold kernelRunC.sl.H16_64
  rw [read_last_write]
  refine Eq.trans ?_ (rowsOf_s c tbl i sim x2 x3 (accOf c a12 a13 a14 a15 a16 a17) 63 (by decide)).symm
  unfold kernelRunC.sl.r_597 kernelRunC.sl.r_594 kernelRunC.sl.r_595
  simp only [S_v5368 c i tbl hT sim b10, V16_63 c i M2 hM2 M3 hM3 tbl hT sim x2 x3 b9 b10 a12 a13 a14 a15 a16 a17]
  try rfl
theorem L17_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.2.2.2.2.2.2.2.2.1 = kernelRunC.sl.H17_64 c i tbl hT sim b9 b10 a17 := rfl
theorem V17_64v : kernelRunC.sl.v5463 c i tbl hT sim b9 b10 a17 = (rowsOf c tbl i sim x2 x3 (accOf c a12 a13 a14 a15 a16 a17) 64).q := by
  unfold kernelRunC.sl.v5463 kernelRunC.sl.H17_64
  rw [View.readCov_cons_toLoadRect]
  refine Eq.trans ?_ (rowsOf_q c tbl i sim x2 x3 (accOf c a12 a13 a14 a15 a16 a17) 63 (by decide)).symm
  unfold kernelRunC.sl.r_600 kernelRunC.sl.r_598 kernelRunC.sl.r_594 kernelRunC.sl.r_595
  simp only [S_v5368 c i tbl hT sim b10, V17_63 c i M2 hM2 M3 hM3 tbl hT sim x2 x3 b9 b10 a12 a13 a14 a15 a16 a17]
  try rfl
theorem V17_64 : View.readAt (Elt F) (Memref.whole cc0_scratch8).view (Rect.unit ![0, 0] S1x1.size inb_S1x1_S1x1_0_0).toLoadRect ((Memref.whole cc0_scratch8).view.writes (Elt F) a17 (kernelRunC.sl.H17_64 c i tbl hT sim b9 b10 a17)) = (rowsOf c tbl i sim x2 x3 (accOf c a12 a13 a14 a15 a16 a17) 64).q := by
  unfold kernelRunC.sl.H17_64
  rw [read_last_write]
  refine Eq.trans ?_ (rowsOf_q c tbl i sim x2 x3 (accOf c a12 a13 a14 a15 a16 a17) 63 (by decide)).symm
  unfold kernelRunC.sl.r_600 kernelRunC.sl.r_598 kernelRunC.sl.r_594 kernelRunC.sl.r_595
  simp only [S_v5368 c i tbl hT sim b10, V17_63 c i M2 hM2 M3 hM3 tbl hT sim x2 x3 b9 b10 a12 a13 a14 a15 a16 a17]
  try rfl
end TabC

end Cert.Proof.KI

end
-- ==== Proof.KIStepLibOut.lean ====
/-
  A block written once through its whole rectangle reads back as the payload written, whatever it held before
  and whatever earlier writes there were: what each of the kernel's four one-by-one output blocks holds after
  the last grid point's store.
-/
import proofs.«419560_j5755256177164_3_alg».proof.Proof.KIStepLib

noncomputable section

namespace Cert.Proof.KI

open Cert.KernelIdeal Cert.KernelIdeal.Gen
open Idealize.ShloMosaic Idealize.ShloMosaic.TcCoe
open Idealize.SL Idealize.SL.Sem

variable {F : FTy → Type} [FloatOps F]

/-- The contents a list of writes left, when the last write went through the whole shape at zero offsets, read
    as that write's payload. -/
theorem read_after_whole_write {sig : RefSig} {κ : Kind} {sp : Space} {S : Shape} {e : EltTy} (v : View sig κ sp S e)
    (f : v.ty.Contents (Elt F)) {off : Fin S.rank → ℕ} (hz : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  have h := read_last_write v f (Rect.unit off S.size inb) w L
  rw [View.readAt_eq_ld, View.ld_unit_zero hz] at h
  exact h

end Cert.Proof.KI

end
-- ==== Proof.KIStepCTabV3.lean ====
import proofs.«419560_j5755256177164_3_alg».proof.Proof.KIStepCTabV1
import proofs.«419560_j5755256177164_3_alg».proof.Proof.KIStepCTabV2
import proofs.«419560_j5755256177164_3_alg».proof.Proof.KIStepLibOut

/-!
  The table of case C: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.KI

open Cert.KernelIdeal Cert.KernelIdeal.Gen
open Idealize.ShloMosaic Idealize.ShloMosaic.TcCoe
open Idealize.SL Idealize.SL.Sem

variable {F : FTy → Type} [FloatOps F]

namespace TabC

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

include c i M2 hM2 M3 hM3 tbl hT sim x2 x3 b9 b10 a12 a13 a14 a15 a16 a17

theorem LO0_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).1 = [⟨Rect.unit ![0, 0] S1x1.size inb_S1x1_S1x1_0_0, k0_pay2 (kernelRunC.sl.v5447 c i M2 hM2 M3 hM3 tbl x2 x3 a13) (kernelRunC.sl.v5450 c M3 hM3 x3 a12)⟩] := rfl
theorem O0 (M5 : Memref sig .tc .vmem S1x1 .f32) (f : M5.view.ty.Contents (Elt F)) : M5.view.read (Elt F) (M5.view.writes (Elt F) f [⟨Rect.unit ![0, 0] S1x1.size inb_S1x1_S1x1_0_0, k0_pay2 (kernelRunC.sl.v5447 c i M2 hM2 M3 hM3 tbl x2 x3 a13) (kernelRunC.sl.v5450 c M3 hM3 x3 a12)⟩]) = (finalize (rowsOf c tbl i sim x2 x3 (accOf c a12 a13 a14 a15 a16 a17) 64)).ml := by
  refine Eq.trans (read_after_whole_write _ f (off := ![0, 0]) (by decide) _ _ _) ?_
  simp only [V13_64v c i M2 hM2 M3 hM3 tbl hT sim x2 x3 b9 b10 a12 a13 a14 a15 a16 a17, V12_64v c i M2 hM2 M3 hM3 tbl hT sim x2 x3 b9 b10 a12 a13 a14 a15 a16 a17]
  try rfl
theorem LO1_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.1 = [⟨Rect.unit ![0, 0] S1x1.size inb_S1x1_S1x1_0_0, k0_pay3 (kernelRunC.sl.v5447 c i M2 hM2 M3 hM3 tbl x2 x3 a13) (kernelRunC.sl.v5450 c M3 hM3 x3 a12) (kernelRunC.sl.v5452 c i M2 hM2 M3 hM3 tbl hT sim x2 x3 b9 b10 a15) (kernelRunC.sl.v5453 c i M3 hM3 tbl hT sim x3 b9 b10 a14)⟩] := rfl
theorem O1 (M6 : Memref sig .tc .vmem S1x1 .f32) (f : M6.view.ty.Contents (Elt F)) : M6.view.read (Elt F) (M6.view.writes (Elt F) f [⟨Rect.unit ![0, 0] S1x1.size inb_S1x1_S1x1_0_0, k0_pay3 (kernelRunC.sl.v5447 c i M2 hM2 M3 hM3 tbl x2 x3 a13) (kernelRunC.sl.v5450 c M3 hM3 x3 a12) (kernelRunC.sl.v5452 c i M2 hM2 M3 hM3 tbl hT sim x2 x3 b9 b10 a15) (kernelRunC.sl.v5453 c i M3 hM3 tbl hT sim x3 b9 b10 a14)⟩]) = (finalize (rowsOf c tbl i sim x2 x3 (accOf c a12 a13 a14 a15 a16 a17) 64)).total := by
  refine Eq.trans (read_after_whole_write _ f (off := ![0, 0]) (by decide) _ _ _) ?_
  simp only [V13_64v c i M2 hM2 M3 hM3 tbl hT sim x2 x3 b9 b10 a12 a13 a14 a15 a16 a17, V12_64v c i M2 hM2 M3 hM3 tbl hT sim x2 x3 b9 b10 a12 a13 a14 a15 a16 a17, V15_64v c i M2 hM2 M3 hM3 tbl hT sim x2 x3 b9 b10 a12 a13 a14 a15 a16 a17, V14_64v c i M2 hM2 M3 hM3 tbl hT sim x2 x3 b9 b10 a12 a13 a14 a15 a16 a17]
  try rfl
theorem LO2_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.2.1 = [⟨Rect.unit ![0, 0] S1x1.size inb_S1x1_S1x1_0_0, k0_pay4 (kernelRunC.sl.v5460 c i tbl hT sim b9 b10 a16)⟩] := rfl
theorem O2 (M7 : Memref sig .tc .vmem S1x1 .f32) (f : M7.view.ty.Contents (Elt F)) : M7.view.read (Elt F) (M7.view.writes (Elt F) f [⟨Rect.unit ![0, 0] S1x1.size inb_S1x1_S1x1_0_0, k0_pay4 (kernelRunC.sl.v5460 c i tbl hT sim b9 b10 a16)⟩]) = (finalize (rowsOf c tbl i sim x2 x3 (accOf c a12 a13 a14 a15 a16 a17) 64)).mean := by
  refine Eq.trans (read_after_whole_write _ f (off := ![0, 0]) (by decide) _ _ _) ?_
  simp only [V16_64v c i M2 hM2 M3 hM3 tbl hT sim x2 x3 b9 b10 a12 a13 a14 a15 a16 a17]
  try rfl
theorem LO3_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.2.2.1 = [⟨Rect.unit ![0, 0] S1x1.size inb_S1x1_S1x1_0_0, k0_pay5 (kernelRunC.sl.v5460 c i tbl hT sim b9 b10 a16) (kernelRunC.sl.v5463 c i tbl hT sim b9 b10 a17)⟩] := rfl
theorem O3 (M8 : Memref sig .tc .vmem S1x1 .f32) (f : M8.view.ty.Contents (Elt F)) : M8.view.read (Elt F) (M8.view.writes (Elt F) f [⟨Rect.unit ![0, 0] S1x1.size inb_S1x1_S1x1_0_0, k0_pay5 (kernelRunC.sl.v5460 c i tbl hT sim b9 b10 a16) (kernelRunC.sl.v5463 c i tbl hT sim b9 b10 a17)⟩]) = (finalize (rowsOf c tbl i sim x2 x3 (accOf c a12 a13 a14 a15 a16 a17) 64)).std := by
  refine Eq.trans (read_after_whole_write _ f (off := ![0, 0]) (by decide) _ _ _) ?_
  simp only [V16_64v c i M2 hM2 M3 hM3 tbl hT sim x2 x3 b9 b10 a12 a13 a14 a15 a16 a17, V17_64v c i M2 hM2 M3 hM3 tbl hT sim x2 x3 b9 b10 a12 a13 a14 a15 a16 a17]
  try rfl
end TabC

end Cert.Proof.KI

end
-- ==== Proof.KIStepC.lean ====
/-
  Case C of the kernel body's run at one grid point: what the run found in the six accumulator buffers is the
  point's clean step. Each found list ends with a write through the whole one-by-one buffer, so the buffer reads
  back as that write's payload; the payload is the running sum after sixty-four rows (the table's last line for
  that sum); and the sixty-four rows, one at a time, are the point's step.
  At this last grid point each of the four output blocks takes one write through the whole block, of the result
  computed from the final sums: it reads back as that result of the point's step.
-/
import proofs.«419560_j5755256177164_3_alg».proof.Proof.KIRunC
import proofs.«419560_j5755256177164_3_alg».proof.Proof.KIStepLib
import proofs.«419560_j5755256177164_3_alg».proof.Proof.KIStepCTabV1
import proofs.«419560_j5755256177164_3_alg».proof.Proof.KIStepCTabV2
import proofs.«419560_j5755256177164_3_alg».proof.Proof.KIStepCTabV3

set_option maxRecDepth 65536

noncomputable section

namespace Cert.Proof.KI

open Cert.KernelIdeal Cert.KernelIdeal.Gen
open Idealize.ShloMosaic Idealize.ShloMosaic.TcCoe
open Idealize.SL Idealize.SL.Sem

variable {F : FTy → Type} [FloatOps F]

theorem stepC_eq (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))
    (h1 : ¬ C1 i) (h2 : C2 i) :
    accOf c
      ((Memref.whole cc0_scratch3).view.writes (Elt F) a12 (kernelRunC c i M2 hM2 M3 hM3 M5 hM5 M6 hM6 M7 hM7 M8 hM8 tbl hT sim x2 x3 b9 b10 a12 a13 a14 a15 a16 a17 h1 h2).2.2.2.2.1)
      ((Memref.whole cc0_scratch4).view.writes (Elt F) a13 (kernelRunC c i M2 hM2 M3 hM3 M5 hM5 M6 hM6 M7 hM7 M8 hM8 tbl hT sim x2 x3 b9 b10 a12 a13 a14 a15 a16 a17 h1 h2).2.2.2.2.2.1)
      ((Memref.whole cc0_scratch5).view.writes (Elt F) a14 (kernelRunC c i M2 hM2 M3 hM3 M5 hM5 M6 hM6 M7 hM7 M8 hM8 tbl hT sim x2 x3 b9 b10 a12 a13 a14 a15 a16 a17 h1 h2).2.2.2.2.2.2.1)
      ((Memref.whole cc0_scratch6).view.writes (Elt F) a15 (kernelRunC c i M2 hM2 M3 hM3 M5 hM5 M6 hM6 M7 hM7 M8 hM8 tbl hT sim x2 x3 b9 b10 a12 a13 a14 a15 a16 a17 h1 h2).2.2.2.2.2.2.2.1)
      ((Memref.whole cc0_scratch7).view.writes (Elt F) a16 (kernelRunC c i M2 hM2 M3 hM3 M5 hM5 M6 hM6 M7 hM7 M8 hM8 tbl hT sim x2 x3 b9 b10 a12 a13 a14 a15 a16 a17 h1 h2).2.2.2.2.2.2.2.2.1)
      ((Memref.whole cc0_scratch8).view.writes (Elt F) a17 (kernelRunC c i M2 hM2 M3 hM3 M5 hM5 M6 hM6 M7 hM7 M8 hM8 tbl hT sim x2 x3 b9 b10 a12 a13 a14 a15 a16 a17 h1 h2).2.2.2.2.2.2.2.2.2.1)
      = pointOf c tbl i sim x2 x3 (accOf c a12 a13 a14 a15 a16 a17) := by
  have e12 : View.readAt (Elt F) (Memref.whole cc0_scratch3).view (Rect.unit ![0, 0] S1x1.size inb_S1x1_S1x1_0_0).toLoadRect
      ((Memref.whole cc0_scratch3).view.writes (Elt F) a12 (kernelRunC c i M2 hM2 M3 hM3 M5 hM5 M6 hM6 M7 hM7 M8 hM8 tbl hT sim x2 x3 b9 b10 a12 a13 a14 a15 a16 a17 h1 h2).2.2.2.2.1)
      = (rowsOf c tbl i sim x2 x3 (accOf c a12 a13 a14 a15 a16 a17) 64).m :=
    (congrArg (fun L => View.readAt (Elt F) (Memref.whole cc0_scratch3).view (Rect.unit ![0, 0] S1x1.size inb_S1x1_S1x1_0_0).toLoadRect
      ((Memref.whole cc0_scratch3).view.writes (Elt F) a12 L))
      (TabC.L12_eq c i M2 hM2 M3 hM3 tbl hT sim x2 x3 b9 b10 a12 a13 a14 a15 a16 a17 M5 hM5 M6 hM6 M7 hM7 M8 hM8 h1 h2)).trans (TabC.V12_64 c i M2 hM2 M3 hM3 tbl hT sim x2 x3 b9 b10 a12 a13 a14 a15 a16 a17)
  have e13 : View.readAt (Elt F) (Memref.whole cc0_scratch4).view (Rect.unit ![0, 0] S1x1.size inb_S1x1_S1x1_0_0).toLoadRect
      ((Memref.whole cc0_scratch4).view.writes (Elt F) a13 (kernelRunC c i M2 hM2 M3 hM3 M5 hM5 M6 hM6 M7 hM7 M8 hM8 tbl hT sim x2 x3 b9 b10 a12 a13 a14 a15 a16 a17 h1 h2).2.2.2.2.2.1)
      = (rowsOf c tbl i sim x2 x3 (accOf c a12 a13 a14 a15 a16 a17) 64).logp :=
    (congrArg (fun L => View.readAt (Elt F) (Memref.whole cc0_scratch4).view (Rect.unit ![0, 0] S1x1.size inb_S1x1_S1x1_0_0).toLoadRect
      ((Memref.whole cc0_scratch4).view.writes (Elt F) a13 L))
      (TabC.L13_eq c i M2 hM2 M3 hM3 tbl hT sim x2 x3 b9 b10 a12 a13 a14 a15 a16 a17 M5 hM5 M6 hM6 M7 hM7 M8 hM8 h1 h2)).trans (TabC.V13_64 c i M2 hM2 M3 hM3 tbl hT sim x2 x3 b9 b10 a12 a13 a14 a15 a16 a17)
  have e14 : View.readAt (Elt F) (Memref.whole cc0_scratch5).view (Rect.unit ![0, 0] S1x1.size inb_S1x1_S1x1_0_0).toLoadRect
      ((Memref.whole cc0_scratch5).view.writes (Elt F) a14 (kernelRunC c i M2 hM2 M3 hM3 M5 hM5 M6 hM6 M7 hM7 M8 hM8 tbl hT sim x2 x3 b9 b10 a12 a13 a14 a15 a16 a17 h1 h2).2.2.2.2.2.2.1)
      = (rowsOf c tbl i sim x2 x3 (accOf c a12 a13 a14 a15 a16 a17) 64).w :=
    (congrArg (fun L => View.readAt (Elt F) (Memref.whole cc0_scratch5).view (Rect.unit ![0, 0] S1x1.size inb_S1x1_S1x1_0_0).toLoadRect
      ((Memref.whole cc0_scratch5).view.writes (Elt F) a14 L))
      (TabC.L14_eq c i M2 hM2 M3 hM3 tbl hT sim x2 x3 b9 b10 a12 a13 a14 a15 a16 a17 M5 hM5 M6 hM6 M7 hM7 M8 hM8 h1 h2)).trans (TabC.V14_64 c i M2 hM2 M3 hM3 tbl hT sim x2 x3 b9 b10 a12 a13 a14 a15 a16 a17)
  have e15 : View.readAt (Elt F) (Memref.whole cc0_scratch6).view (Rect.unit ![0, 0] S1x1.size inb_S1x1_S1x1_0_0).toLoadRect
      ((Memref.whole cc0_scratch6).view.writes (Elt F) a15 (kernelRunC c i M2 hM2 M3 hM3 M5 hM5 M6 hM6 M7 hM7 M8 hM8 tbl hT sim x2 x3 b9 b10 a12 a13 a14 a15 a16 a17 h1 h2).2.2.2.2.2.2.2.1)
      = (rowsOf c tbl i sim x2 x3 (accOf c a12 a13 a14 a15 a16 a17) 64).nf :=
    (congrArg (fun L => View.readAt (Elt F) (Memref.whole cc0_scratch6).view (Rect.unit ![0, 0] S1x1.size inb_S1x1_S1x1_0_0).toLoadRect
      ((Memref.whole cc0_scratch6).view.writes (Elt F) a15 L))
      (TabC.L15_eq c i M2 hM2 M3 hM3 tbl hT sim x2 x3 b9 b10 a12 a13 a14 a15 a16 a17 M5 hM5 M6 hM6 M7 hM7 M8 hM8 h1 h2)).trans (TabC.V15_64 c i M2 hM2 M3 hM3 tbl hT sim x2 x3 b9 b10 a12 a13 a14 a15 a16 a17)
  have e16 : View.readAt (Elt F) (Memref.whole cc0_scratch7).view (Rect.unit ![0, 0] S1x1.size inb_S1x1_S1x1_0_0).toLoadRect
      ((Memref.whole cc0_scratch7).view.writes (Elt F) a16 (kernelRunC c i M2 hM2 M3 hM3 M5 hM5 M6 hM6 M7 hM7 M8 hM8 tbl hT sim x2 x3 b9 b10 a12 a13 a14 a15 a16 a17 h1 h2).2.2.2.2.2.2.2.2.1)
      = (rowsOf c tbl i sim x2 x3 (accOf c a12 a13 a14 a15 a16 a17) 64).s :=
    (congrArg (fun L => View.readAt (Elt F) (Memref.whole cc0_scratch7).view (Rect.unit ![0, 0] S1x1.size inb_S1x1_S1x1_0_0).toLoadRect
      ((Memref.whole cc0_scratch7).view.writes (Elt F) a16 L))
      (TabC.L16_eq c i M2 hM2 M3 hM3 tbl hT sim x2 x3 b9 b10 a12 a13 a14 a15 a16 a17 M5 hM5 M6 hM6 M7 hM7 M8 hM8 h1 h2)).trans (TabC.V16_64 c i M2 hM2 M3 hM3 tbl hT sim x2 x3 b9 b10 a12 a13 a14 a15 a16 a17)
  have e17 : View.readAt (Elt F) (Memref.whole cc0_scratch8).view (Rect.unit ![0, 0] S1x1.size inb_S1x1_S1x1_0_0).toLoadRect
      ((Memref.whole cc0_scratch8).view.writes (Elt F) a17 (kernelRunC c i M2 hM2 M3 hM3 M5 hM5 M6 hM6 M7 hM7 M8 hM8 tbl hT sim x2 x3 b9 b10 a12 a13 a14 a15 a16 a17 h1 h2).2.2.2.2.2.2.2.2.2.1)
      = (rowsOf c tbl i sim x2 x3 (accOf c a12 a13 a14 a15 a16 a17) 64).q :=
    (congrArg (fun L => View.readAt (Elt F) (Memref.whole cc0_scratch8).view (Rect.unit ![0, 0] S1x1.size inb_S1x1_S1x1_0_0).toLoadRect
      ((Memref.whole cc0_scratch8).view.writes (Elt F) a17 L))
      (TabC.L17_eq c i M2 hM2 M3 hM3 tbl hT sim x2 x3 b9 b10 a12 a13 a14 a15 a16 a17 M5 hM5 M6 hM6 M7 hM7 M8 hM8 h1 h2)).trans (TabC.V17_64 c i M2 hM2 M3 hM3 tbl hT sim x2 x3 b9 b10 a12 a13 a14 a15 a16 a17)
  refine Eq.trans ?_ (pointOf_eq_rowsOf c tbl i sim x2 x3 (accOf c a12 a13 a14 a15 a16 a17)).symm
  exact Acc.ext6 e12 e13 e14 e15 e16 e17

theorem outC_eq (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))
    (h1 : ¬ C1 i) (h2 : C2 i)
    (f5 : M5.view.ty.Contents (Elt F)) (f6 : M6.view.ty.Contents (Elt F)) (f7 : M7.view.ty.Contents (Elt F)) (f8 : M8.view.ty.Contents (Elt F)) :
    M5.view.read (Elt F) (M5.view.writes (Elt F) f5 (kernelRunC c i M2 hM2 M3 hM3 M5 hM5 M6 hM6 M7 hM7 M8 hM8 tbl hT sim x2 x3 b9 b10 a12 a13 a14 a15 a16 a17 h1 h2).1) = (finalize (pointOf c tbl i sim x2 x3 (accOf c a12 a13 a14 a15 a16 a17))).ml
    ∧ M6.view.read (Elt F) (M6.view.writes (Elt F) f6 (kernelRunC c i M2 hM2 M3 hM3 M5 hM5 M6 hM6 M7 hM7 M8 hM8 tbl hT sim x2 x3 b9 b10 a12 a13 a14 a15 a16 a17 h1 h2).2.1) = (finalize (pointOf c tbl i sim x2 x3 (accOf c a12 a13 a14 a15 a16 a17))).total
    ∧ M7.view.read (Elt F) (M7.view.writes (Elt F) f7 (kernelRunC c i M2 hM2 M3 hM3 M5 hM5 M6 hM6 M7 hM7 M8 hM8 tbl hT sim x2 x3 b9 b10 a12 a13 a14 a15 a16 a17 h1 h2).2.2.1) = (finalize (pointOf c tbl i sim x2 x3 (accOf c a12 a13 a14 a15 a16 a17))).mean
    ∧ M8.view.read (Elt F) (M8.view.writes (Elt F) f8 (kernelRunC c i M2 hM2 M3 hM3 M5 hM5 M6 hM6 M7 hM7 M8 hM8 tbl hT sim x2 x3 b9 b10 a12 a13 a14 a15 a16 a17 h1 h2).2.2.2.1) = (finalize (pointOf c tbl i sim x2 x3 (accOf c a12 a13 a14 a15 a16 a17))).std := by
  have hp := pointOf_eq_rowsOf c tbl i sim x2 x3 (accOf c a12 a13 a14 a15 a16 a17)
  refine ⟨?_, ?_, ?_, ?_⟩
  · exact ((congrArg (fun L => M5.view.read (Elt F) (M5.view.writes (Elt F) f5 L))
      (TabC.LO0_eq c i M2 hM2 M3 hM3 tbl hT sim x2 x3 b9 b10 a12 a13 a14 a15 a16 a17 M5 hM5 M6 hM6 M7 hM7 M8 hM8 h1 h2)).trans (TabC.O0 c i M2 hM2 M3 hM3 tbl hT sim x2 x3 b9 b10 a12 a13 a14 a15 a16 a17 M5 f5)).trans
      (congrArg (fun a => (finalize a).ml) hp.symm)
  · exact ((congrArg (fun L => M6.view.read (Elt F) (M6.view.writes (Elt F) f6 L))
      (TabC.LO1_eq c i M2 hM2 M3 hM3 tbl hT sim x2 x3 b9 b10 a12 a13 a14 a15 a16 a17 M5 hM5 M6 hM6 M7 hM7 M8 hM8 h1 h2)).trans (TabC.O1 c i M2 hM2 M3 hM3 tbl hT sim x2 x3 b9 b10 a12 a13 a14 a15 a16 a17 M6 f6)).trans
      (congrArg (fun a => (finalize a).total) hp.symm)
  · exact ((congrArg (fun L => M7.view.read (Elt F) (M7.view.writes (Elt F) f7 L))
      (TabC.LO2_eq c i M2 hM2 M3 hM3 tbl hT sim x2 x3 b9 b10 a12 a13 a14 a15 a16 a17 M5 hM5 M6 hM6 M7 hM7 M8 hM8 h1 h2)).trans (TabC.O2 c i M2 hM2 M3 hM3 tbl hT sim x2 x3 b9 b10 a12 a13 a14 a15 a16 a17 M7 f7)).trans
      (congrArg (fun a => (finalize a).mean) hp.symm)
  · exact ((congrArg (fun L => M8.view.read (Elt F) (M8.view.writes (Elt F) f8 L))
      (TabC.LO3_eq c i M2 hM2 M3 hM3 tbl hT sim x2 x3 b9 b10 a12 a13 a14 a15 a16 a17 M5 hM5 M6 hM6 M7 hM7 M8 hM8 h1 h2)).trans (TabC.O3 c i M2 hM2 M3 hM3 tbl hT sim x2 x3 b9 b10 a12 a13 a14 a15 a16 a17 M8 f8)).trans
      (congrArg (fun a => (finalize a).std) hp.symm)

end Cert.Proof.KI

end
-- ==== Proof.KIBody.lean ====
/-
  The body obligation of the kernel region: at every one of the 48 grid points, from the invariant, what the core owes
  and the six windows' current buffers, the kernel body runs to the invariant at the next point. The grid splits in
  three: the first point (the body resets the six accumulators, then adds its 64 rows), the middle points (it adds its
  64 rows to what the point before left) and the last point (it adds its rows and then finalizes the accumulators into
  the four (1,1) results, storing them into the four output blocks). At each the body's run hands back six cells whose
  reading is the point's step of the accumulators — hence, by the recursion that defines them, the accumulators after
  that point —; the two input blocks are left as fetched; the four output blocks are idle and handed back untouched at
  every point but the last, where what is read back from each is the finalized result.
-/
import proofs.«419560_j5755256177164_3_alg».proof.Proof.KIData
import proofs.«419560_j5755256177164_3_alg».proof.Proof.KIRunA
import proofs.«419560_j5755256177164_3_alg».proof.Proof.KIRunB
import proofs.«419560_j5755256177164_3_alg».proof.Proof.KIRunC
import proofs.«419560_j5755256177164_3_alg».proof.Proof.KIStepA
import proofs.«419560_j5755256177164_3_alg».proof.Proof.KIStepB
import proofs.«419560_j5755256177164_3_alg».proof.Proof.KIStepC

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

/-! ## The three runs with what they find named -/

/-- The body at the first point, with what it finds named: six cells that read as the point's step from zero. -/
theorem runA_pack (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8)) (h1 : C1 i) (h2 : ¬ C2 i) :
    ∃ (w12 : Bf (F := F) c (Memref.whole cc0_scratch3)) (w13 : Bf (F := F) c (Memref.whole cc0_scratch4)) (w14 : Bf (F := F) c (Memref.whole cc0_scratch5)) (w15 : Bf (F := F) c (Memref.whole cc0_scratch6)) (w16 : Bf (F := F) c (Memref.whole cc0_scratch7)) (w17 : Bf (F := F) c (Memref.whole cc0_scratch8)),
      accOf c w12 w13 w14 w15 w16 w17 = pointOf c tbl i sim x2 x3 zeroAcc ∧
      ∀ (O : sProp 𝕄) (W : Waits sig Unit) (Q : PUnit → sProp 𝕄),
        iprop(pt c (Memref.whole main_v2) tbl ∗ owns (c : Thread nD τ) M2 fullShare x2 ∗ owns (c : Thread nD τ) M3 fullShare x3
            ∗ pt c (Memref.whole main_arg1) sim ∗ O
            ∗ pt c (Memref.whole cc0_scratch0) b9 ∗ pt c (Memref.whole cc0_scratch1) b10
            ∗ pt c (Memref.whole cc0_scratch3) a12 ∗ pt c (Memref.whole cc0_scratch4) a13 ∗ pt c (Memref.whole cc0_scratch5) a14 ∗ pt c (Memref.whole cc0_scratch6) a15 ∗ pt c (Memref.whole cc0_scratch7) a16 ∗ pt c (Memref.whole cc0_scratch8) a17
            ∗ sems0 c ∗ owes (c : Thread nD τ) 0 W
            ∗ (iprop(pt c (Memref.whole main_v2) tbl ∗ owns (c : Thread nD τ) M2 fullShare x2 ∗ owns (c : Thread nD τ) M3 fullShare x3
              ∗ pt c (Memref.whole main_arg1) sim ∗ O
              ∗ (∃ f, pt c (Memref.whole cc0_scratch0) f) ∗ (∃ f, pt c (Memref.whole cc0_scratch1) f)
              ∗ pt c (Memref.whole cc0_scratch3) w12 ∗ pt c (Memref.whole cc0_scratch4) w13 ∗ pt c (Memref.whole cc0_scratch5) w14 ∗ pt c (Memref.whole cc0_scratch6) w15 ∗ pt c (Memref.whole cc0_scratch7) w16 ∗ pt c (Memref.whole cc0_scratch8) w17
              ∗ sems0 c ∗ ∃ W', owes (c : Thread nD τ) 0 W') -∗ Q ⟨⟩))
          ⊢ wp frame (wpE (defs₀ (F := F)) Variants.none c none) Set.univ (bodyAt i M2 hM2 M3 hM3 M5 hM5 M6 hM6 M7 hM7 M8 hM8) Q :=
  ⟨(Memref.whole cc0_scratch3).view.writes (Elt F) a12 (kernelRunA c i M2 hM2 M3 hM3 M5 hM5 M6 hM6 M7 hM7 M8 hM8 tbl hT sim x2 x3 b9 b10 a12 a13 a14 a15 a16 a17 h1 h2).1,
    (Memref.whole cc0_scratch4).view.writes (Elt F) a13 (kernelRunA c i M2 hM2 M3 hM3 M5 hM5 M6 hM6 M7 hM7 M8 hM8 tbl hT sim x2 x3 b9 b10 a12 a13 a14 a15 a16 a17 h1 h2).2.1,
    (Memref.whole cc0_scratch5).view.writes (Elt F) a14 (kernelRunA c i M2 hM2 M3 hM3 M5 hM5 M6 hM6 M7 hM7 M8 hM8 tbl hT sim x2 x3 b9 b10 a12 a13 a14 a15 a16 a17 h1 h2).2.2.1,
    (Memref.whole cc0_scratch6).view.writes (Elt F) a15 (kernelRunA c i M2 hM2 M3 hM3 M5 hM5 M6 hM6 M7 hM7 M8 hM8 tbl hT sim x2 x3 b9 b10 a12 a13 a14 a15 a16 a17 h1 h2).2.2.2.1,
    (Memref.whole cc0_scratch7).view.writes (Elt F) a16 (kernelRunA c i M2 hM2 M3 hM3 M5 hM5 M6 hM6 M7 hM7 M8 hM8 tbl hT sim x2 x3 b9 b10 a12 a13 a14 a15 a16 a17 h1 h2).2.2.2.2.1,
    (Memref.whole cc0_scratch8).view.writes (Elt F) a17 (kernelRunA c i M2 hM2 M3 hM3 M5 hM5 M6 hM6 M7 hM7 M8 hM8 tbl hT sim x2 x3 b9 b10 a12 a13 a14 a15 a16 a17 h1 h2).2.2.2.2.2.1,
    stepA_eq c i M2 hM2 M3 hM3 M5 hM5 M6 hM6 M7 hM7 M8 hM8 tbl hT sim x2 x3 b9 b10 a12 a13 a14 a15 a16 a17 h1 h2, (kernelRunA c i M2 hM2 M3 hM3 M5 hM5 M6 hM6 M7 hM7 M8 hM8 tbl hT sim x2 x3 b9 b10 a12 a13 a14 a15 a16 a17 h1 h2).2.2.2.2.2.2⟩

/-- The body at a middle point, with what it finds named: six cells that read as the point's step from the accumulators it was handed. -/
theorem runB_pack (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8)) (h1 : ¬ C1 i) (h2 : ¬ C2 i) :
    ∃ (w12 : Bf (F := F) c (Memref.whole cc0_scratch3)) (w13 : Bf (F := F) c (Memref.whole cc0_scratch4)) (w14 : Bf (F := F) c (Memref.whole cc0_scratch5)) (w15 : Bf (F := F) c (Memref.whole cc0_scratch6)) (w16 : Bf (F := F) c (Memref.whole cc0_scratch7)) (w17 : Bf (F := F) c (Memref.whole cc0_scratch8)),
      accOf c w12 w13 w14 w15 w16 w17 = pointOf c tbl i sim x2 x3 (accOf c a12 a13 a14 a15 a16 a17) ∧
      ∀ (O : sProp 𝕄) (W : Waits sig Unit) (Q : PUnit → sProp 𝕄),
        iprop(pt c (Memref.whole main_v2) tbl ∗ owns (c : Thread nD τ) M2 fullShare x2 ∗ owns (c : Thread nD τ) M3 fullShare x3
            ∗ pt c (Memref.whole main_arg1) sim ∗ O
            ∗ pt c (Memref.whole cc0_scratch0) b9 ∗ pt c (Memref.whole cc0_scratch1) b10
            ∗ pt c (Memref.whole cc0_scratch3) a12 ∗ pt c (Memref.whole cc0_scratch4) a13 ∗ pt c (Memref.whole cc0_scratch5) a14 ∗ pt c (Memref.whole cc0_scratch6) a15 ∗ pt c (Memref.whole cc0_scratch7) a16 ∗ pt c (Memref.whole cc0_scratch8) a17
            ∗ sems0 c ∗ owes (c : Thread nD τ) 0 W
            ∗ (iprop(pt c (Memref.whole main_v2) tbl ∗ owns (c : Thread nD τ) M2 fullShare x2 ∗ owns (c : Thread nD τ) M3 fullShare x3
              ∗ pt c (Memref.whole main_arg1) sim ∗ O
              ∗ (∃ f, pt c (Memref.whole cc0_scratch0) f) ∗ (∃ f, pt c (Memref.whole cc0_scratch1) f)
              ∗ pt c (Memref.whole cc0_scratch3) w12 ∗ pt c (Memref.whole cc0_scratch4) w13 ∗ pt c (Memref.whole cc0_scratch5) w14 ∗ pt c (Memref.whole cc0_scratch6) w15 ∗ pt c (Memref.whole cc0_scratch7) w16 ∗ pt c (Memref.whole cc0_scratch8) w17
              ∗ sems0 c ∗ ∃ W', owes (c : Thread nD τ) 0 W') -∗ Q ⟨⟩))
          ⊢ wp frame (wpE (defs₀ (F := F)) Variants.none c none) Set.univ (bodyAt i M2 hM2 M3 hM3 M5 hM5 M6 hM6 M7 hM7 M8 hM8) Q :=
  ⟨(Memref.whole cc0_scratch3).view.writes (Elt F) a12 (kernelRunB c i M2 hM2 M3 hM3 M5 hM5 M6 hM6 M7 hM7 M8 hM8 tbl hT sim x2 x3 b9 b10 a12 a13 a14 a15 a16 a17 h1 h2).1,
    (Memref.whole cc0_scratch4).view.writes (Elt F) a13 (kernelRunB c i M2 hM2 M3 hM3 M5 hM5 M6 hM6 M7 hM7 M8 hM8 tbl hT sim x2 x3 b9 b10 a12 a13 a14 a15 a16 a17 h1 h2).2.1,
    (Memref.whole cc0_scratch5).view.writes (Elt F) a14 (kernelRunB c i M2 hM2 M3 hM3 M5 hM5 M6 hM6 M7 hM7 M8 hM8 tbl hT sim x2 x3 b9 b10 a12 a13 a14 a15 a16 a17 h1 h2).2.2.1,
    (Memref.whole cc0_scratch6).view.writes (Elt F) a15 (kernelRunB c i M2 hM2 M3 hM3 M5 hM5 M6 hM6 M7 hM7 M8 hM8 tbl hT sim x2 x3 b9 b10 a12 a13 a14 a15 a16 a17 h1 h2).2.2.2.1,
    (Memref.whole cc0_scratch7).view.writes (Elt F) a16 (kernelRunB c i M2 hM2 M3 hM3 M5 hM5 M6 hM6 M7 hM7 M8 hM8 tbl hT sim x2 x3 b9 b10 a12 a13 a14 a15 a16 a17 h1 h2).2.2.2.2.1,
    (Memref.whole cc0_scratch8).view.writes (Elt F) a17 (kernelRunB c i M2 hM2 M3 hM3 M5 hM5 M6 hM6 M7 hM7 M8 hM8 tbl hT sim x2 x3 b9 b10 a12 a13 a14 a15 a16 a17 h1 h2).2.2.2.2.2.1,
    stepB_eq c i M2 hM2 M3 hM3 M5 hM5 M6 hM6 M7 hM7 M8 hM8 tbl hT sim x2 x3 b9 b10 a12 a13 a14 a15 a16 a17 h1 h2, (kernelRunB c i M2 hM2 M3 hM3 M5 hM5 M6 hM6 M7 hM7 M8 hM8 tbl hT sim x2 x3 b9 b10 a12 a13 a14 a15 a16 a17 h1 h2).2.2.2.2.2.2⟩

/-- The body at the last point, with what it finds named: six cells that read as the point's step from the accumulators it
    was handed, and four lists of pieces whose writing, read back through each output block, gives the four results. -/
theorem runC_pack (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8)) (h1 : ¬ C1 i) (h2 : C2 i) :
    ∃ (L5 L6 L7 L8 : List (View.Piece (Elt F) S1x1 .f32)) (w12 : Bf (F := F) c (Memref.whole cc0_scratch3)) (w13 : Bf (F := F) c (Memref.whole cc0_scratch4)) (w14 : Bf (F := F) c (Memref.whole cc0_scratch5)) (w15 : Bf (F := F) c (Memref.whole cc0_scratch6)) (w16 : Bf (F := F) c (Memref.whole cc0_scratch7)) (w17 : Bf (F := F) c (Memref.whole cc0_scratch8)),
      accOf c w12 w13 w14 w15 w16 w17 = pointOf c tbl i sim x2 x3 (accOf c a12 a13 a14 a15 a16 a17) ∧
      (∀ (f5 : M5.view.ty.Contents (Elt F)) (f6 : M6.view.ty.Contents (Elt F)) (f7 : M7.view.ty.Contents (Elt F)) (f8 : M8.view.ty.Contents (Elt F)),
        M5.view.read (Elt F) (M5.view.writes (Elt F) f5 L5) = (finalize (pointOf c tbl i sim x2 x3 (accOf c a12 a13 a14 a15 a16 a17))).ml
        ∧ M6.view.read (Elt F) (M6.view.writes (Elt F) f6 L6) = (finalize (pointOf c tbl i sim x2 x3 (accOf c a12 a13 a14 a15 a16 a17))).total
        ∧ M7.view.read (Elt F) (M7.view.writes (Elt F) f7 L7) = (finalize (pointOf c tbl i sim x2 x3 (accOf c a12 a13 a14 a15 a16 a17))).mean
        ∧ M8.view.read (Elt F) (M8.view.writes (Elt F) f8 L8) = (finalize (pointOf c tbl i sim x2 x3 (accOf c a12 a13 a14 a15 a16 a17))).std) ∧
      ∀ (W : Waits sig Unit) (Q : PUnit → sProp 𝕄),
        iprop(pt c (Memref.whole main_v2) tbl ∗ owns (c : Thread nD τ) M2 fullShare x2 ∗ owns (c : Thread nD τ) M3 fullShare x3
            ∗ pt c (Memref.whole main_arg1) sim ∗ (∃ d, owns (c : Thread nD τ) M5 fullShare d) ∗ (∃ d, owns (c : Thread nD τ) M6 fullShare d) ∗ (∃ d, owns (c : Thread nD τ) M7 fullShare d) ∗ (∃ d, owns (c : Thread nD τ) M8 fullShare d)
            ∗ pt c (Memref.whole cc0_scratch0) b9 ∗ pt c (Memref.whole cc0_scratch1) b10
            ∗ pt c (Memref.whole cc0_scratch3) a12 ∗ pt c (Memref.whole cc0_scratch4) a13 ∗ pt c (Memref.whole cc0_scratch5) a14 ∗ pt c (Memref.whole cc0_scratch6) a15 ∗ pt c (Memref.whole cc0_scratch7) a16 ∗ pt c (Memref.whole cc0_scratch8) a17
            ∗ sems0 c ∗ owes (c : Thread nD τ) 0 W
            ∗ (iprop(pt c (Memref.whole main_v2) tbl ∗ owns (c : Thread nD τ) M2 fullShare x2 ∗ owns (c : Thread nD τ) M3 fullShare x3
              ∗ pt c (Memref.whole main_arg1) sim ∗ (∃ f, M5.view.loc (c : Thread nD τ) ↦[M5.view.set]{fullShare} M5.view.writes (Elt F) f L5) ∗ (∃ f, M6.view.loc (c : Thread nD τ) ↦[M6.view.set]{fullShare} M6.view.writes (Elt F) f L6) ∗ (∃ f, M7.view.loc (c : Thread nD τ) ↦[M7.view.set]{fullShare} M7.view.writes (Elt F) f L7) ∗ (∃ f, M8.view.loc (c : Thread nD τ) ↦[M8.view.set]{fullShare} M8.view.writes (Elt F) f L8)
              ∗ (∃ f, pt c (Memref.whole cc0_scratch0) f) ∗ (∃ f, pt c (Memref.whole cc0_scratch1) f)
              ∗ pt c (Memref.whole cc0_scratch3) w12 ∗ pt c (Memref.whole cc0_scratch4) w13 ∗ pt c (Memref.whole cc0_scratch5) w14 ∗ pt c (Memref.whole cc0_scratch6) w15 ∗ pt c (Memref.whole cc0_scratch7) w16 ∗ pt c (Memref.whole cc0_scratch8) w17
              ∗ sems0 c ∗ ∃ W', owes (c : Thread nD τ) 0 W') -∗ Q ⟨⟩))
          ⊢ wp frame (wpE (defs₀ (F := F)) Variants.none c none) Set.univ (bodyAt i M2 hM2 M3 hM3 M5 hM5 M6 hM6 M7 hM7 M8 hM8) Q :=
  ⟨(kernelRunC c i M2 hM2 M3 hM3 M5 hM5 M6 hM6 M7 hM7 M8 hM8 tbl hT sim x2 x3 b9 b10 a12 a13 a14 a15 a16 a17 h1 h2).1, (kernelRunC c i M2 hM2 M3 hM3 M5 hM5 M6 hM6 M7 hM7 M8 hM8 tbl hT sim x2 x3 b9 b10 a12 a13 a14 a15 a16 a17 h1 h2).2.1, (kernelRunC c i M2 hM2 M3 hM3 M5 hM5 M6 hM6 M7 hM7 M8 hM8 tbl hT sim x2 x3 b9 b10 a12 a13 a14 a15 a16 a17 h1 h2).2.2.1, (kernelRunC c i M2 hM2 M3 hM3 M5 hM5 M6 hM6 M7 hM7 M8 hM8 tbl hT sim x2 x3 b9 b10 a12 a13 a14 a15 a16 a17 h1 h2).2.2.2.1,
    (Memref.whole cc0_scratch3).view.writes (Elt F) a12 (kernelRunC c i M2 hM2 M3 hM3 M5 hM5 M6 hM6 M7 hM7 M8 hM8 tbl hT sim x2 x3 b9 b10 a12 a13 a14 a15 a16 a17 h1 h2).2.2.2.2.1,
    (Memref.whole cc0_scratch4).view.writes (Elt F) a13 (kernelRunC c i M2 hM2 M3 hM3 M5 hM5 M6 hM6 M7 hM7 M8 hM8 tbl hT sim x2 x3 b9 b10 a12 a13 a14 a15 a16 a17 h1 h2).2.2.2.2.2.1,
    (Memref.whole cc0_scratch5).view.writes (Elt F) a14 (kernelRunC c i M2 hM2 M3 hM3 M5 hM5 M6 hM6 M7 hM7 M8 hM8 tbl hT sim x2 x3 b9 b10 a12 a13 a14 a15 a16 a17 h1 h2).2.2.2.2.2.2.1,
    (Memref.whole cc0_scratch6).view.writes (Elt F) a15 (kernelRunC c i M2 hM2 M3 hM3 M5 hM5 M6 hM6 M7 hM7 M8 hM8 tbl hT sim x2 x3 b9 b10 a12 a13 a14 a15 a16 a17 h1 h2).2.2.2.2.2.2.2.1,
    (Memref.whole cc0_scratch7).view.writes (Elt F) a16 (kernelRunC c i M2 hM2 M3 hM3 M5 hM5 M6 hM6 M7 hM7 M8 hM8 tbl hT sim x2 x3 b9 b10 a12 a13 a14 a15 a16 a17 h1 h2).2.2.2.2.2.2.2.2.1,
    (Memref.whole cc0_scratch8).view.writes (Elt F) a17 (kernelRunC c i M2 hM2 M3 hM3 M5 hM5 M6 hM6 M7 hM7 M8 hM8 tbl hT sim x2 x3 b9 b10 a12 a13 a14 a15 a16 a17 h1 h2).2.2.2.2.2.2.2.2.2.1,
    stepC_eq c i M2 hM2 M3 hM3 M5 hM5 M6 hM6 M7 hM7 M8 hM8 tbl hT sim x2 x3 b9 b10 a12 a13 a14 a15 a16 a17 h1 h2, outC_eq c i M2 hM2 M3 hM3 M5 hM5 M6 hM6 M7 hM7 M8 hM8 tbl hT sim x2 x3 b9 b10 a12 a13 a14 a15 a16 a17 h1 h2, (kernelRunC c i M2 hM2 M3 hM3 M5 hM5 M6 hM6 M7 hM7 M8 hM8 tbl hT sim x2 x3 b9 b10 a12 a13 a14 a15 a16 a17 h1 h2).2.2.2.2.2.2.2.2.2.2⟩

/-! ## The accumulators read off their six cells -/

/-- The (1,1) shape has one index. -/
theorem idx_one (p q : S1x1.Idx) : p = q := funext fun k => Fin.ext (by
  have hp := (p k).isLt; have hq := (q k).isLt
  have hk : S1x1.size k = 1 := by fin_cases k <;> rfl
  omega)

theorem readCell3 (c : Dev nD) (a : Bf (F := F) c (Memref.whole cc0_scratch3)) :
    View.readAt (Elt F) (Memref.whole cc0_scratch3).view (Rect.unit ![0, 0] S1x1.size inb_S1x1_S1x1_0_0).toLoadRect a = a := by
  funext x
  rw [View.readAt_eq_ld]
  simp only [Memref.view_whole, View.read_whole, View.ld]
  exact congrArg a (idx_one _ _)

theorem readCell4 (c : Dev nD) (a : Bf (F := F) c (Memref.whole cc0_scratch4)) :
    View.readAt (Elt F) (Memref.whole cc0_scratch4).view (Rect.unit ![0, 0] S1x1.size inb_S1x1_S1x1_0_0).toLoadRect a = a := by
  funext x
  rw [View.readAt_eq_ld]
  simp only [Memref.view_whole, View.read_whole, View.ld]
  exact congrArg a (idx_one _ _)

theorem readCell5 (c : Dev nD) (a : Bf (F := F) c (Memref.whole cc0_scratch5)) :
    View.readAt (Elt F) (Memref.whole cc0_scratch5).view (Rect.unit ![0, 0] S1x1.size inb_S1x1_S1x1_0_0).toLoadRect a = a := by
  funext x
  rw [View.readAt_eq_ld]
  simp only [Memref.view_whole, View.read_whole, View.ld]
  exact congrArg a (idx_one _ _)

theorem readCell6 (c : Dev nD) (a : Bf (F := F) c (Memref.whole cc0_scratch6)) :
    View.readAt (Elt F) (Memref.whole cc0_scratch6).view (Rect.unit ![0, 0] S1x1.size inb_S1x1_S1x1_0_0).toLoadRect a = a := by
  funext x
  rw [View.readAt_eq_ld]
  simp only [Memref.view_whole, View.read_whole, View.ld]
  exact congrArg a (idx_one _ _)

theorem readCell7 (c : Dev nD) (a : Bf (F := F) c (Memref.whole cc0_scratch7)) :
    View.readAt (Elt F) (Memref.whole cc0_scratch7).view (Rect.unit ![0, 0] S1x1.size inb_S1x1_S1x1_0_0).toLoadRect a = a := by
  funext x
  rw [View.readAt_eq_ld]
  simp only [Memref.view_whole, View.read_whole, View.ld]
  exact congrArg a (idx_one _ _)

theorem readCell8 (c : Dev nD) (a : Bf (F := F) c (Memref.whole cc0_scratch8)) :
    View.readAt (Elt F) (Memref.whole cc0_scratch8).view (Rect.unit ![0, 0] S1x1.size inb_S1x1_S1x1_0_0).toLoadRect a = a := by
  funext x
  rw [View.readAt_eq_ld]
  simp only [Memref.view_whole, View.read_whole, View.ld]
  exact congrArg a (idx_one _ _)

/-- The accumulators read off six cells: each field is its cell's contents. -/
theorem accOf_m (c : Dev nD) (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8)) :
    (accOf c a12 a13 a14 a15 a16 a17).m = a12 ∧ (accOf c a12 a13 a14 a15 a16 a17).logp = a13 ∧ (accOf c a12 a13 a14 a15 a16 a17).w = a14
      ∧ (accOf c a12 a13 a14 a15 a16 a17).nf = a15 ∧ (accOf c a12 a13 a14 a15 a16 a17).s = a16 ∧ (accOf c a12 a13 a14 a15 a16 a17).q = a17 :=
  ⟨readCell3 c a12, readCell4 c a13, readCell5 c a14, readCell6 c a15, readCell7 c a16, readCell8 c a17⟩

/-- The accumulators read off six cells holding an accumulator's fields are that accumulator. -/
theorem accOf_eta (c : Dev nD) (A : Acc F) : accOf c A.m A.logp A.w A.nf A.s A.q = A := by
  obtain ⟨h1, h2, h3, h4, h5, h6⟩ := accOf_m c A.m A.logp A.w A.nf A.s A.q
  have hext : ∀ B : Acc F, B.m = A.m → B.logp = A.logp → B.w = A.w → B.nf = A.nf → B.s = A.s → B.q = A.q → B = A := by
    intro B e1 e2 e3 e4 e5 e6
    cases A; cases B
    simp only [Acc.mk.injEq]
    exact ⟨e1, e2, e3, e4, e5, e6⟩
  exact hext _ h1 h2 h3 h4 h5 h6

/-- Six cells whose reading is an accumulator hold its fields. -/
theorem cells_of_acc (c : Dev nD) (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))
    (A : Acc F) (h : accOf c a12 a13 a14 a15 a16 a17 = A) :
    a12 = A.m ∧ a13 = A.logp ∧ a14 = A.w ∧ a15 = A.nf ∧ a16 = A.s ∧ a17 = A.q := by
  subst h
  obtain ⟨h1, h2, h3, h4, h5, h6⟩ := accOf_m c a12 a13 a14 a15 a16 a17
  exact ⟨h1.symm, h2.symm, h3.symm, h4.symm, h5.symm, h6.symm⟩

variable (m : (ℓ : Loc nD τ sig) → Buf (Elt F) ℓ)

/-! ## The body at a point, as the pipeline calls it -/

/-- Each window's current staging memref at point `t`, and its wholeness. -/
abbrev ms0 (t : Fin (cfgOf m).N) : Memref sig .tc .vmem S64x10000 .f32 := spec0_0.stage ((cfgOf m).slots t 0)
abbrev hs0 (t : Fin (cfgOf m).N) : (ms0 m t).IsWhole := hstage0_0 (((cfgOf m).slots t 0).cast nbuf0_0)
abbrev ms1 (t : Fin (cfgOf m).N) : Memref sig .tc .vmem S64x1 .f32 := spec0_1.stage ((cfgOf m).slots t 1)
abbrev hs1 (t : Fin (cfgOf m).N) : (ms1 m t).IsWhole := hstage0_1 (((cfgOf m).slots t 1).cast nbuf0_1)
abbrev ms2 (t : Fin (cfgOf m).N) : Memref sig .tc .vmem S1x1 .f32 := spec0_2.stage ((cfgOf m).slots t 2)
abbrev hs2 (t : Fin (cfgOf m).N) : (ms2 m t).IsWhole := hstage0_2 (((cfgOf m).slots t 2).cast nbuf0_2)
abbrev ms3 (t : Fin (cfgOf m).N) : Memref sig .tc .vmem S1x1 .f32 := spec0_3.stage ((cfgOf m).slots t 3)
abbrev hs3 (t : Fin (cfgOf m).N) : (ms3 m t).IsWhole := hstage0_3 (((cfgOf m).slots t 3).cast nbuf0_3)
abbrev ms4 (t : Fin (cfgOf m).N) : Memref sig .tc .vmem S1x1 .f32 := spec0_4.stage ((cfgOf m).slots t 4)
abbrev hs4 (t : Fin (cfgOf m).N) : (ms4 m t).IsWhole := hstage0_4 (((cfgOf m).slots t 4).cast nbuf0_4)
abbrev ms5 (t : Fin (cfgOf m).N) : Memref sig .tc .vmem S1x1 .f32 := spec0_5.stage ((cfgOf m).slots t 5)
abbrev hs5 (t : Fin (cfgOf m).N) : (ms5 m t).IsWhole := hstage0_5 (((cfgOf m).slots t 5).cast nbuf0_5)

/-- The kernel body at point `t` on those memrefs. -/
abbrev progAt (t : Fin (cfgOf m).N) : Prog (TpuEff nD τ sig (Elt F) Λ₀ .tc) PUnit :=
  bodyAt (grid0.coords t) (ms0 m t) (hs0 m t) (ms1 m t) (hs1 m t) (ms2 m t) (hs2 m t) (ms3 m t) (hs3 m t) (ms4 m t) (hs4 m t) (ms5 m t) (hs5 m t)

/-- What the body is called with at point `t`, the windows one by one, -/
def bodyPre (c : Dev nD) (t : Fin (cfgOf m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d)))

/-- and what it returns. -/
def bodyPost (c : Dev nD) (t : Fin (cfgOf m).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4000000 in
/-- The body at any point. The input windows hold their blocks; the point's position on the grid decides the body's two
    conditions and where the output windows are idle. The invariant hands the body the matrix, the table, both cells at
    zero, the two row buffers and the six accumulators (at anything before the first point, else at what the point
    before left) and takes the accumulators back at this point's contents; the core owes nothing throughout. -/
theorem sound_body (hT : ∀ c j, ((tblOf m c) j : BitVec 32).toNat < 10000) (c : Dev nD) (t : Fin (cfgOf m).N) :
    bodyPre m c t ⊢ wp frame (wpE (defs₀ (F := F)) Variants.none c none) Set.univ (progAt m t) (fun _ => bodyPost m c t) := by
  unfold bodyPre bodyPost progAt
  simp only [before0, before1]
  rw [show (dats m 0 c).owesAt () t.succ = (dats m 0 c).owesAt () t.castSucc from rfl]
  rw [Φ_eq, Φ_eq]
  unfold Φ Dat.owesAt Pipeline.owesWithin
  rw [show (dats m 0 c).owed t.castSucc = 0 from rfl]
  have hN : t.val < 48 := t.isLt
  rw [show (dats m 0 c).leavesExact 0 t = owns (c : Thread nD τ) (ms0 m t) fullShare (blk0 m c t) from by
    unfold Dat.leavesExact; rw [(liveAt_in (adm m 0) t).1, after0]; rfl]
  rw [show (dats m 0 c).leavesExact 1 t = owns (c : Thread nD τ) (ms1 m t) fullShare (blk1 m c t) from by
    unfold Dat.leavesExact; rw [(liveAt_in (adm m 0) t).2, after1]; rfl]
  by_cases h47 : t.val = 47
  · have h1 : ¬ C1 (grid0.coords t) := fun h => by have := (hC1 t).mp h; omega
    have h2 : C2 (grid0.coords t) := (hC2 t).mpr h47
    have hl := liveAt_last (adm m 0) t h47
    rw [show (dats m 0 c).leavesExact 2 t = owns (c : Thread nD τ) (ms2 m t) fullShare (outs m c).ml from by
      unfold Dat.leavesExact; rw [hl.1, after2]; rfl]
    rw [show (dats m 0 c).leavesExact 3 t = owns (c : Thread nD τ) (ms3 m t) fullShare (outs m c).total from by
      unfold Dat.leavesExact; rw [hl.2.1, after3]; rfl]
    rw [show (dats m 0 c).leavesExact 4 t = owns (c : Thread nD τ) (ms4 m t) fullShare (outs m c).mean from by
      unfold Dat.leavesExact; rw [hl.2.2.1, after4]; rfl]
    rw [show (dats m 0 c).leavesExact 5 t = owns (c : Thread nD τ) (ms5 m t) fullShare (outs m c).std from by
      unfold Dat.leavesExact; rw [hl.2.2.2, after5]; rfl]
    obtain ⟨n, hn⟩ : ∃ n, t.val = n + 1 := ⟨46, h47⟩
    rw [accsHeld_later m c t.succ t.val (Fin.val_succ t), accsHeld_later m c t.castSucc n hn]
    have houts : outs m c = finalize ((pointOf c (tblOf m c) (grid0.coords t) (simOf m c) (blk0 m c t) (blk1 m c t)) (accOf c (accAfter m c n).m (accAfter m c n).logp (accAfter m c n).w (accAfter m c n).nf (accAfter m c n).s (accAfter m c n).q)) := by
      have h := accAfter_later m c t n hn
      rw [h47] at h
      unfold outs; rw [h, accOf_eta]
    iintro ⟨⟨Hsim, Htbl, Hsems, ⟨%b9, H9⟩, ⟨%b10, H10⟩, H12, H13, H14, H15, H16, H17⟩, ⟨%W, %hW, HO⟩, ⟨%d0, H0⟩, ⟨%d1, H1⟩, ⟨%d2, Ho2⟩, ⟨%d3, Ho3⟩, ⟨%d4, Ho4⟩, ⟨%d5, Ho5⟩⟩
    obtain ⟨L5, L6, L7, L8, w12, w13, w14, w15, w16, w17, hstep, hout, hrun⟩ := runC_pack c (grid0.coords t) (ms0 m t) (hs0 m t) (ms1 m t) (hs1 m t) (ms2 m t) (hs2 m t) (ms3 m t) (hs3 m t) (ms4 m t) (hs4 m t) (ms5 m t) (hs5 m t) (tblOf m c) (hT c) (simOf m c) (blk0 m c t) (blk1 m c t) b9 b10 (accAfter m c n).m (accAfter m c n).logp (accAfter m c n).w (accAfter m c n).nf (accAfter m c n).s (accAfter m c n).q h1 h2
    have hacc := (hstep.trans (congrArg (pointOf c (tblOf m c) (grid0.coords t) (simOf m c) (blk0 m c t) (blk1 m c t)) (accOf_eta c (accAfter m c n)))).trans (accAfter_later m c t n hn).symm
    obtain ⟨e12, e13, e14, e15, e16, e17⟩ := cells_of_acc c _ _ _ _ _ _ _ hacc
    subst e12 e13 e14 e15 e16 e17
    iapply (hrun W _)
    isplitl [Htbl]; · iexact Htbl
    isplitl [H0]; · iexact H0
    isplitl [H1]; · iexact H1
    isplitl [Hsim]; · iexact Hsim
    isplitl [Ho2]; · iexists _; iexact Ho2
    isplitl [Ho3]; · iexists _; iexact Ho3
    isplitl [Ho4]; · iexists _; iexact Ho4
    isplitl [Ho5]; · iexists _; iexact Ho5
    isplitl [H9]; · iexact H9
    isplitl [H10]; · iexact H10
    isplitl [H12]; · iexact H12
    isplitl [H13]; · iexact H13
    isplitl [H14]; · iexact H14
    isplitl [H15]; · iexact H15
    isplitl [H16]; · iexact H16
    isplitl [H17]; · iexact H17
    isplitl [Hsems]; · iexact Hsems
    isplitl [HO]; · iexact HO
    iintro ⟨Htbl, H0, H1, Hsim, ⟨%f5, Ho2⟩, ⟨%f6, Ho3⟩, ⟨%f7, Ho4⟩, ⟨%f8, Ho5⟩, H9, H10, H12, H13, H14, H15, H16, H17, Hsems, ⟨%W', HO⟩⟩
    have hout' := hout f5 f6 f7 f8
    isplitl [Hsim Htbl Hsems H9 H10 H12 H13 H14 H15 H16 H17]
    · isplitl [Hsim]; · iexact Hsim
      isplitl [Htbl]; · iexact Htbl
      isplitl [Hsems]; · iexact Hsems
      isplitl [H9]; · iexact H9
      isplitl [H10]; · iexact H10
      isplitl [H12]; · iexact H12
      isplitl [H13]; · iexact H13
      isplitl [H14]; · iexact H14
      isplitl [H15]; · iexact H15
      isplitl [H16]; · iexact H16
      iexact H17
    isplitl [HO]
    · iexists W'; isplitr; · ipureintro; exact fun _ _ => Or.inl trivial
      iexact HO
    isplitl [H0]; · iexact H0
    isplitl [H1]; · iexact H1
    isplitl [Ho2]
    · unfold owns; iexists _; isplitr; swap; (· iexact Ho2); ipureintro; exact hout'.1.trans (congrArg Out4.ml houts).symm
    isplitl [Ho3]
    · unfold owns; iexists _; isplitr; swap; (· iexact Ho3); ipureintro; exact hout'.2.1.trans (congrArg Out4.total houts).symm
    isplitl [Ho4]
    · unfold owns; iexists _; isplitr; swap; (· iexact Ho4); ipureintro; exact hout'.2.2.1.trans (congrArg Out4.mean houts).symm
    unfold owns; iexists _; isplitr; swap; (· iexact Ho5); ipureintro; exact hout'.2.2.2.trans (congrArg Out4.std houts).symm
  · have hi := idleAt_out (adm m 0) t h47
    have hf := noFlush_out (adm m 0) t h47
    rw [Dat.leavesExact_idle (dats m 0 c) 2 t hi.1 hf.1, Dat.leavesExact_idle (dats m 0 c) 3 t hi.2.1 hf.2.1,
      Dat.leavesExact_idle (dats m 0 c) 4 t hi.2.2.1 hf.2.2.1, Dat.leavesExact_idle (dats m 0 c) 5 t hi.2.2.2 hf.2.2.2]
    have h2 : ¬ C2 (grid0.coords t) := fun h => h47 ((hC2 t).mp h)
    rw [accsHeld_later m c t.succ t.val (Fin.val_succ t)]
    by_cases hz : t.val = 0
    · have h1 : C1 (grid0.coords t) := (hC1 t).mpr hz
      rw [accsHeld_first m c t.castSucc hz]
      iintro ⟨⟨Hsim, Htbl, Hsems, ⟨%b9, H9⟩, ⟨%b10, H10⟩, ⟨%a12, H12⟩, ⟨%a13, H13⟩, ⟨%a14, H14⟩, ⟨%a15, H15⟩, ⟨%a16, H16⟩, ⟨%a17, H17⟩⟩, ⟨%W, %hW, HO⟩, ⟨%d0, H0⟩, ⟨%d1, H1⟩, Ho2, Ho3, Ho4, Ho5⟩
      obtain ⟨w12, w13, w14, w15, w16, w17, hstep, hrun⟩ := runA_pack c (grid0.coords t) (ms0 m t) (hs0 m t) (ms1 m t) (hs1 m t) (ms2 m t) (hs2 m t) (ms3 m t) (hs3 m t) (ms4 m t) (hs4 m t) (ms5 m t) (hs5 m t) (tblOf m c) (hT c) (simOf m c) (blk0 m c t) (blk1 m c t) b9 b10 a12 a13 a14 a15 a16 a17 h1 h2
      have hacc := hstep.trans (accAfter_first m c t hz).symm
      obtain ⟨e12, e13, e14, e15, e16, e17⟩ := cells_of_acc c _ _ _ _ _ _ _ hacc
      subst e12 e13 e14 e15 e16 e17
      iapply (hrun iprop((∃ d, owns (c : Thread nD τ) (ms2 m t) fullShare ((dats m 0 c).before 2 t d)) ∗ (∃ d, owns (c : Thread nD τ) (ms3 m t) fullShare ((dats m 0 c).before 3 t d)) ∗ (∃ d, owns (c : Thread nD τ) (ms4 m t) fullShare ((dats m 0 c).before 4 t d)) ∗ (∃ d, owns (c : Thread nD τ) (ms5 m t) fullShare ((dats m 0 c).before 5 t d))) W _)
      isplitl [Htbl]; · iexact Htbl
      isplitl [H0]; · iexact H0
      isplitl [H1]; · iexact H1
      isplitl [Hsim]; · iexact Hsim
      isplitl [Ho2 Ho3 Ho4 Ho5]
      · isplitl [Ho2]; · iexact Ho2
        isplitl [Ho3]; · iexact Ho3
        isplitl [Ho4]; · iexact Ho4
        iexact Ho5
      isplitl [H9]; · iexact H9
      isplitl [H10]; · iexact H10
      isplitl [H12]; · iexact H12
      isplitl [H13]; · iexact H13
      isplitl [H14]; · iexact H14
      isplitl [H15]; · iexact H15
      isplitl [H16]; · iexact H16
      isplitl [H17]; · iexact H17
      isplitl [Hsems]; · iexact Hsems
      isplitl [HO]; · iexact HO
      iintro ⟨Htbl, H0, H1, Hsim, ⟨Ho2, Ho3, Ho4, Ho5⟩, H9, H10, H12, H13, H14, H15, H16, H17, Hsems, ⟨%W', HO⟩⟩
      isplitl [Hsim Htbl Hsems H9 H10 H12 H13 H14 H15 H16 H17]
      · isplitl [Hsim]; · iexact Hsim
        isplitl [Htbl]; · iexact Htbl
        isplitl [Hsems]; · iexact Hsems
        isplitl [H9]; · iexact H9
        isplitl [H10]; · iexact H10
        isplitl [H12]; · iexact H12
        isplitl [H13]; · iexact H13
        isplitl [H14]; · iexact H14
        isplitl [H15]; · iexact H15
        isplitl [H16]; · iexact H16
        iexact H17
      isplitl [HO]
      · iexists W'; isplitr; · ipureintro; exact fun _ _ => Or.inl trivial
        iexact HO
      isplitl [H0]; · iexact H0
      isplitl [H1]; · iexact H1
      isplitl [Ho2]; · iexact Ho2
      isplitl [Ho3]; · iexact Ho3
      isplitl [Ho4]; · iexact Ho4
      iexact Ho5
    · have h1 : ¬ C1 (grid0.coords t) := fun h => hz ((hC1 t).mp h)
      obtain ⟨n, hn⟩ := Nat.exists_eq_succ_of_ne_zero hz
      rw [accsHeld_later m c t.castSucc n hn]
      iintro ⟨⟨Hsim, Htbl, Hsems, ⟨%b9, H9⟩, ⟨%b10, H10⟩, H12, H13, H14, H15, H16, H17⟩, ⟨%W, %hW, HO⟩, ⟨%d0, H0⟩, ⟨%d1, H1⟩, Ho2, Ho3, Ho4, Ho5⟩
      obtain ⟨w12, w13, w14, w15, w16, w17, hstep, hrun⟩ := runB_pack c (grid0.coords t) (ms0 m t) (hs0 m t) (ms1 m t) (hs1 m t) (ms2 m t) (hs2 m t) (ms3 m t) (hs3 m t) (ms4 m t) (hs4 m t) (ms5 m t) (hs5 m t) (tblOf m c) (hT c) (simOf m c) (blk0 m c t) (blk1 m c t) b9 b10 (accAfter m c n).m (accAfter m c n).logp (accAfter m c n).w (accAfter m c n).nf (accAfter m c n).s (accAfter m c n).q h1 h2
      have hacc := (hstep.trans (congrArg (pointOf c (tblOf m c) (grid0.coords t) (simOf m c) (blk0 m c t) (blk1 m c t)) (accOf_eta c (accAfter m c n)))).trans (accAfter_later m c t n hn).symm
      obtain ⟨e12, e13, e14, e15, e16, e17⟩ := cells_of_acc c _ _ _ _ _ _ _ hacc
      subst e12 e13 e14 e15 e16 e17
      iapply (hrun iprop((∃ d, owns (c : Thread nD τ) (ms2 m t) fullShare ((dats m 0 c).before 2 t d)) ∗ (∃ d, owns (c : Thread nD τ) (ms3 m t) fullShare ((dats m 0 c).before 3 t d)) ∗ (∃ d, owns (c : Thread nD τ) (ms4 m t) fullShare ((dats m 0 c).before 4 t d)) ∗ (∃ d, owns (c : Thread nD τ) (ms5 m t) fullShare ((dats m 0 c).before 5 t d))) W _)
      isplitl [Htbl]; · iexact Htbl
      isplitl [H0]; · iexact H0
      isplitl [H1]; · iexact H1
      isplitl [Hsim]; · iexact Hsim
      isplitl [Ho2 Ho3 Ho4 Ho5]
      · isplitl [Ho2]; · iexact Ho2
        isplitl [Ho3]; · iexact Ho3
        isplitl [Ho4]; · iexact Ho4
        iexact Ho5
      isplitl [H9]; · iexact H9
      isplitl [H10]; · iexact H10
      isplitl [H12]; · iexact H12
      isplitl [H13]; · iexact H13
      isplitl [H14]; · iexact H14
      isplitl [H15]; · iexact H15
      isplitl [H16]; · iexact H16
      isplitl [H17]; · iexact H17
      isplitl [Hsems]; · iexact Hsems
      isplitl [HO]; · iexact HO
      iintro ⟨Htbl, H0, H1, Hsim, ⟨Ho2, Ho3, Ho4, Ho5⟩, H9, H10, H12, H13, H14, H15, H16, H17, Hsems, ⟨%W', HO⟩⟩
      isplitl [Hsim Htbl Hsems H9 H10 H12 H13 H14 H15 H16 H17]
      · isplitl [Hsim]; · iexact Hsim
        isplitl [Htbl]; · iexact Htbl
        isplitl [Hsems]; · iexact Hsems
        isplitl [H9]; · iexact H9
        isplitl [H10]; · iexact H10
        isplitl [H12]; · iexact H12
        isplitl [H13]; · iexact H13
        isplitl [H14]; · iexact H14
        isplitl [H15]; · iexact H15
        isplitl [H16]; · iexact H16
        iexact H17
      isplitl [HO]
      · iexists W'; isplitr; · ipureintro; exact fun _ _ => Or.inl trivial
        iexact HO
      isplitl [H0]; · iexact H0
      isplitl [H1]; · iexact H1
      isplitl [Ho2]; · iexact Ho2
      isplitl [Ho3]; · iexact Ho3
      isplitl [Ho4]; · iexact Ho4
      iexact Ho5

/-- The body obligation of the region, at every point. -/
theorem body_obligation (hT : ∀ c j, ((tblOf m c) j : BitVec 32).toNat < 10000) (c : Dev nD) :
    BodyObligation (dats m 0 c) (defs₀ (F := F)) Variants.none () Set.univ := fun t => by
  rw [bigSep_W0, bigSep_W0]
  exact sound_body m hT c t

end Cert.Proof.KI

end
-- ==== Proof.KILaunch.lean ====
/-
  The launch of the kernel program: @main as three segments. Three reshapes (the log-probabilities to 3072 rows of
  10000, the mask to 3072 rows of one, the target words to a table of 3072 in scalar memory), then the one kernel
  region over its 48 grid points, then four reshapes of the (1,1) results to scalars.

  The first stretch runs over the core's unscoped buffers and leaves them at the contents the region finds. At the
  region's entry those buffers are sorted: the six windows' arrays go to the pipeline, the table at the admissible
  contents and the similarity matrix with the kernel's two semaphore cells go into the invariant, the other three
  arguments and the four scalar results bypass the region. The invariant at the first point is made of those, the two
  row buffers and the six accumulators at anything; at the last point it gives them back, the accumulators forgotten.
  At the exit the arrays (as the write-backs left them) and the bypassing buffers are put together again as the
  set of buffers a host operation after the region may touch, held at the valuation that has the arrays at their
  final contents and every other buffer as the region found it; the table rides beside that set. The second stretch
  runs over it. Read against a final state, that set gives the memory at each scalar result and each argument.

  In closed form: each (1,1) result array's window has the whole array as its block and is written back only after the
  last point, with that point's result, so the array ends holding it; each scalar is its reshape. No host operation
  writes an argument and no window's array is one, so each argument ends as launched. Under the precondition every
  word of the table is a word of the third argument, hence below 10000.
-/
import proofs.«419560_j5755256177164_3_alg».proof.Proof.KIData
import proofs.«419560_j5755256177164_3_alg».proof.Proof.KIBody
import proofs.«419560_j5755256177164_3_alg».proof.Proof.PreFacts
import proofs.«419560_j5755256177164_3_alg».proof.Proof.Gen.KernelIdeal.Launch
import Idealize.ShloMosaic.Lib.Pipeline.Regions
import Idealize.ShloMosaic.Lib.Pipeline.Value
import Idealize.ShloMosaic.Lib.Pipeline.FrameSuffix

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

namespace Launch

variable (m : (ℓ : Loc nD τ sig) → Buf (Elt F) ℓ) (ρ : Dev nD → PrngReg)

/-- The pipeline library's algebra is the left component of the certificate's. -/
abbrev EP : Emb (UR sig nD τ) (MT nD τ sig Unit (Elt F) ℕ (UU nD τ) ℕ) := embL

/-! ## The unscoped buffers as a set; what the two host stretches write -/

/-- The three reshapes before the region write the three reshaped arrays and nothing else. -/
theorem not_written0 (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.reshape_writes, Finset.mem_singleton] <;>
    exact StableHlo.devRef_ne_of_ne ‹_›

/-- The four reshapes after the region write the four scalar results and nothing else. -/
theorem not_written1 (b : Ref sig .tc) (hb : b ≠ main_v4 ∧ b ≠ main_v5 ∧ b ≠ main_v6 ∧ b ≠ main_v7) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.reshape_writes, Finset.mem_singleton] <;>
    exact StableHlo.devRef_ne_of_ne ‹_›

/-- A buffer the first stretch does not write reaches the region as launched. -/
theorem V_of_not_written (c : Dev nD) (b : Ref sig .tc) (hb : b ≠ main_v0 ∧ b ≠ main_v1 ∧ b ≠ main_v2) :
    V m c b = m ((c : Thread nD τ).loc b) :=
  StableHlo.after_of_forall_not_mem (b := Proc.devRef .tc b) hostOps0 (fun b => m (c, b)) (not_written0 b hb)

theorem V_arg0 (c : Dev nD) : V m c main_arg0 = m ((c : Thread nD τ).loc main_arg0) := V_of_not_written m c _ (by decide)
theorem V_arg1 (c : Dev nD) : V m c main_arg1 = m ((c : Thread nD τ).loc main_arg1) := V_of_not_written m c _ (by decide)
theorem V_arg2 (c : Dev nD) : V m c main_arg2 = m ((c : Thread nD τ).loc main_arg2) := V_of_not_written m c _ (by decide)
theorem V_arg3 (c : Dev nD) : V m c main_arg3 = m ((c : Thread nD τ).loc main_arg3) := V_of_not_written m c _ (by decide)

/-- The table the region finds is the third argument's words in row-major order. -/
theorem tblOf_apply (c : Dev nD) (j : S3072.Idx) :
    (tblOf m c j : BitVec 32) = (m ((c : Thread nD τ).loc main_arg2) (Shape.reshapeEquiv shapeCasts_S128x24_S3072 j) : BitVec 32) := by
  unfold tblOf
  dsimp only [V, V0, hostOps0]
  after_results
  rfl

/-- Under the precondition every word of the table is below 10000. -/
theorem hT_of_pre
    (h : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    ∀ c j, ((tblOf m c) j : BitVec 32).toNat < 10000 := fun c j => by
  rw [tblOf_apply]
  exact Cert.PreFacts.target_lt _ _ _ _ (h c) _

/-! ## The kernel's own semaphores -/

/-- The layout the launch needs of the kernel's own semaphores: scoped, distinct, and no staging semaphore. -/
theorem ownSemFacts : Pipeline.OwnSemFacts spec0 osem := by decide

omit [FloatOps F] in
/-- The kernel's own cells at zero, listed. -/
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1] (by decide) (by decide)

/-! ## The launch, by the library: @main as segments -/

abbrev 𝒱₀ : Variants := Variants.none
/-- No core owes another anything: no level is assigned. -/
abbrev L : GSem nD τ sig → Finset Unit := fun _ => ∅
abbrev lv : GSem nD τ sig → Unit → ℕ := fun _ _ => 0

/-- The launch element: the pipeline library's at the staging cells and the pipeline's transfers; no counter yet. -/
def u₀ : UU nD τ := (initOf (Pipeline.cells (Pipeline.pin (pcfgs (F := F)) (adm m)) (cellOf_inj (adm m))) (Pipeline.launchToks (Pipeline.pin (pcfgs (F := F)) (adm m)) (cellOf_inj (adm m))), 1)

/-- What rides beside the buffers through the host stretches: the core's `owes`. -/
abbrev R (c : Dev nD) : sProp 𝕄 := iprop(∃ W, owes (c : Thread nD τ) (0 : CellTallies nD τ sig Unit) W)

/-- Core `c`'s buffers at launch, as the operations' valuation. -/
abbrev Vl (c : Dev nD) : Valuation τ sig (Elt F) := fun b => m (c, b)

/-- THE FIRST HOST STRETCH: the three reshapes over the unscoped buffers. -/
def seg0 : Pipeline.HostSeg (Name := ℕ) (U := UU nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (Vl m) R

/-! ## After the region: the buffers a host line may touch, and the second stretch -/

omit [FloatOps F] in
/-- The buffers a line after the region may touch, held at a valuation, one by one: the six windows' arrays and the
    eight buffers that bypass the region. -/
theorem held_tail (c : Dev nD) (Wv : Valuation τ sig (Elt F)) :
    (StableHlo.held (c : Thread nD τ) (Pipeline.tailRefs sig pre0 spec0) Wv : sProp 𝕄)
      = iprop(Pipeline.arrPts spec0 c (fun w => Wv (Proc.devRef .tc (Pipeline.arrRef spec0 w)))
          ∗ (((c : Thread nD τ).loc main_arg0) ↦{fullShare} Wv (Proc.devRef .tc main_arg0)) ∗ (((c : Thread nD τ).loc main_arg1) ↦{fullShare} Wv (Proc.devRef .tc main_arg1))
          ∗ (((c : Thread nD τ).loc main_arg2) ↦{fullShare} Wv (Proc.devRef .tc main_arg2)) ∗ (((c : Thread nD τ).loc main_arg3) ↦{fullShare} Wv (Proc.devRef .tc main_arg3))
          ∗ (((c : Thread nD τ).loc main_v4) ↦{fullShare} Wv (Proc.devRef .tc main_v4)) ∗ (((c : Thread nD τ).loc main_v5) ↦{fullShare} Wv (Proc.devRef .tc main_v5))
          ∗ (((c : Thread nD τ).loc main_v6) ↦{fullShare} Wv (Proc.devRef .tc main_v6)) ∗ (((c : Thread nD τ).loc main_v7) ↦{fullShare} Wv (Proc.devRef .tc main_v7))) := by
  rw [Pipeline.held_tailRefs pre0 spec0 (by decide) c Wv, unscopedRestP0_eq c (fun b => Wv (Proc.devRef .tc b))]

/-- No reshape after the region touches the table. -/
theorem tbl_not_in1 : ∀ op ∈ (hostOps1 (F := F)), ∀ k : Fin pre0.K, Proc.devRef .tc (pre0.ref k) ∉ op.bufs := by
  intro op hop k
  simp only [List.mem_cons, List.mem_nil_iff, or_false] at hop
  fin_cases k
  rcases hop with rfl | rfl | rfl | rfl <;>
    simp only [StableHlo.reshape_bufs, Finset.mem_insert, Finset.mem_singleton, not_or] <;>
    exact ⟨StableHlo.devRef_ne_of_ne (by decide), StableHlo.devRef_ne_of_ne (by decide)⟩

/-! ## The region -/

/-- The one core. -/
theorem dev_eq (c : Dev nD) : c = 0 := Subsingleton.elim _ _

/-- The proof data holds every array at the full share. -/
theorem share_full (c : Dev nD) (w : Fin (cfgOf m).W) : (dats m 0 c).share w = fullShare := (dats m 0 c).share_full (fun _ => rfl) w

/-- What the region leaves in the core's unscoped buffers: the six windows' arrays as the pipeline's write-backs leave
    them, every other buffer as the region found it. -/
abbrev Wt (c : Dev nD) : Valuation τ sig (Elt F) :=
  Pipeline.withArrays spec0 c (V0 m c) (fun w => (dats m 0 c).arrAt w (cfgOf m).N)

/-- The table, held whole at what the region found: it rides beside the buffers through the second host stretch. -/
abbrev Tb (c : Dev nD) : sProp 𝕄 := pt c (Memref.whole main_v2) (tblOf m c)

/-- What bypasses the region: the three arguments no window stages and the four scalar results, at what the region found. -/
abbrev Zc (c : Dev nD) : sProp 𝕄 :=
  iprop((((c : Thread nD τ).loc main_arg0) ↦{fullShare} V m c main_arg0) ∗ (((c : Thread nD τ).loc main_arg2) ↦{fullShare} V m c main_arg2)
    ∗ (((c : Thread nD τ).loc main_arg3) ↦{fullShare} V m c main_arg3) ∗ (((c : Thread nD τ).loc main_v4) ↦{fullShare} V m c main_v4)
    ∗ (((c : Thread nD τ).loc main_v5) ↦{fullShare} V m c main_v5) ∗ (((c : Thread nD τ).loc main_v6) ↦{fullShare} V m c main_v6)
    ∗ (((c : Thread nD τ).loc main_v7) ↦{fullShare} V m c main_v7))

set_option backward.isDefEq.respectTransparency.types false in
def reg0 (hT : ∀ c j, ((tblOf m c) j : BitVec 32).toNat < 10000) :
    Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := Fin 2
  osem := osem
  ho := ownSemFacts
  hbody c := (body_obligation m hT c).loose
  hwaits := Pipeline.hwaits_of_owed_zero _ _ _ _ L lv 0 fun _ _ => rfl
  pre c := iprop(StableHlo.held (c : Thread nD τ) (Pipeline.ucRefs τ sig) (StableHlo.after hostOps0 (Vl m c)) ∗ R c)
  post c := iprop(StableHlo.held (c : Thread nD τ) (Pipeline.tailRefs sig pre0 spec0) (Wt m c) ∗ (Tb m c ∗ R c))
  X c := iprop(pt c (Memref.whole main_arg1) (V m c main_arg1) ∗ sems0 c)
  Y c := iprop(pt c (Memref.whole main_arg1) (simOf m c) ∗ Tb m c)
  Z c := Zc m c
  hentry c := by
    rw [show StableHlo.held (c : Thread nD τ) (Pipeline.ucRefs τ sig) (StableHlo.after hostOps0 (Vl m c)) = unscopedBufs c (V m c)
      from (Pipeline.unscopedBufs_held c _).symm, ownSems0_eq]
    have hpf : (fun k => V m c (pre0.ref k) : pre0.Contents (Elt F)) = (adm m 0).1 := by
      obtain rfl := dev_eq c
      funext k; fin_cases k; rfl
    have hsplit := (Pipeline.arrays_of_unscopedBufs (pcfgs (F := F)) (adm m) (dats m) (launch0 (F := F)).win (launch0 (F := F)).arr_whole c
        (share_full m c) (V m c) fun _ => rfl).trans
      (sep_mono .rfl ((Entails.of_eq (Pipeline.unscopedRest_split (launch0 (F := F)).pre c (V m c))).trans
        (sep_mono .rfl (Entails.of_eq (unscopedRestP0_eq c (V m c))))))
    rw [hpf] at hsplit
    iintro ⟨⟨Hub, HO⟩, Hos, -⟩
    ihave H := hsplit $$ Hub
    icases H with ⟨Ha, Hpf, H0, H1, H2, H3, H4, H5, H6, H7⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [H1 Hos]
    · isplitl [H1]; · iexact H1
      iexact Hos
    isplitl [H0]; · iexact H0
    isplitl [H2]; · iexact H2
    isplitl [H3]; · iexact H3
    isplitl [H4]; · iexact H4
    isplitl [H5]; · iexact H5
    isplitl [H6]; · iexact H6
    iexact H7
  hin c := by
    rw [Φ_eq]; unfold Φ
    have h0 : accsHeld m c (0 : Fin ((cfgOf m).N + 1)) = _ := accsHeld_first m c 0 rfl
    rw [h0, scopedRest0_eq c]
    unfold Pipeline.prefHeld
    rw [show (Finset.univ : Finset (Fin (pcfgs (F := F) 0).pre.K)) = {0} from rfl, bigSep_singleton, adm_tbl m c]
    iintro ⟨⟨H1, Hos⟩, Ht, Hs0, Hs1, Hs3, Hs4, Hs5, Hs6, Hs7, Hs8⟩
    isplitl [H1]; · iexact H1
    isplitl [Ht]; · iexact Ht
    isplitl [Hos]; · iexact Hos
    isplitl [Hs0]; · iexact Hs0
    isplitl [Hs1]; · iexact Hs1
    isplitl [Hs3]; · iexact Hs3
    isplitl [Hs4]; · iexact Hs4
    isplitl [Hs5]; · iexact Hs5
    isplitl [Hs6]; · iexact Hs6
    isplitl [Hs7]; · iexact Hs7
    iexact Hs8
  hout c := by
    rw [Φ_eq, ownSems0_eq]; unfold Φ
    have hl : accsHeld m c (Fin.last (cfgOf m).N) = _ := accsHeld_later m c (Fin.last 48) 47 rfl
    rw [hl, scopedRest0_eq c]
    iintro ⟨H1, Ht, Hos, Hs0, Hs1, Hs3, Hs4, Hs5, Hs6, Hs7, Hs8⟩
    isplitl [H1 Ht]
    · isplitl [H1]; · iexact H1
      iexact Ht
    isplitl [Hos]; · iexact Hos
    isplitl [Hs0]; · iexact Hs0
    isplitl [Hs1]; · iexact Hs1
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    iexists _; iexact Hs8
  hexit c := by
    have hinj : Function.Injective (Pipeline.arrRef spec0) := (launch0 (F := F)).win.arr_inj
    have e : ∀ b : Ref sig .tc, (∀ w, Pipeline.arrRef spec0 w ≠ b) → Wt m c (Proc.devRef .tc b) = V m c b :=
      fun b hb => Pipeline.withArrays_of_ne spec0 c (V0 m c) _ b hb
    rw [held_tail, e main_arg0 (by decide), e main_arg1 (by decide), e main_arg2 (by decide), e main_arg3 (by decide),
      e main_v4 (by decide), e main_v5 (by decide), e main_v6 (by decide), e main_v7 (by decide),
      show (fun w => Wt m c (Proc.devRef .tc (Pipeline.arrRef spec0 w))) = fun w => (dats m 0 c).arrAt w (cfgOf m).N
        from funext fun w => Pipeline.withArrays_arr spec0 hinj c (V0 m c) _ w,
      Pipeline.arrays_eq (Pipeline.pin (pcfgs (F := F)) (adm m)) (dats m) 0 c (launch0 (F := F)).arr_whole (share_full m c)]
    unfold Pipeline.arrPts
    iintro ⟨Ha, HO, ⟨H1, Ht⟩, H0, H2, H3, H4, H5, H6, H7⟩
    imodintro
    isplitr [HO Ht]
    · isplitl [Ha]; · iexact Ha
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · isplitl [Ht]; · iexact Ht
      unfold Pipeline.Dat.owesAt Pipeline.owesWithin
      icases HO with ⟨%W, -, HO⟩; iexists W; iexact HO

/-- THE SECOND HOST STRETCH: the four reshapes of the (1,1) results to scalars, over the arrays and the bypassing
    buffers as the region left them; the table rides along. -/
def seg1 : Pipeline.HostSeg (Name := ℕ) (U := UU nD τ) (pcfgs (F := F)) defs₀ 𝒱₀ L lv :=
  Pipeline.HostSeg.ofOps _ _ _ _ _ (Pipeline.tailRefs sig pre0 spec0) hostOps1
    (fun op h => Pipeline.sub_tailRefs pre0 spec0 op ((List.forall_iff_forall_mem.mp hostOps1_sub) op h) (tbl_not_in1 op h))
    (by intro _ h; (repeat (cases h with | head => rfl | tail _ h => ?_)); exact nomatch h) (Wt m) (fun c => iprop(Tb m c ∗ R c))

/-- @main as the list of the three. -/
abbrev segs (hT : ∀ c j, ((tblOf m c) j : BitVec 32).toNat < 10000) :
    List (Pipeline.Seg (pcfgs (F := F)) (adm m) (dats m) () defs₀ 𝒱₀ L lv) := [.host (seg0 m), .region (reg0 m hT), .host (seg1 m)]

/-- What the core's buffers hold at the end: the second stretch run from what the region left. -/
abbrev Wn (c : Dev nD) : Valuation τ sig (Elt F) := StableHlo.after hostOps1 (Wt m c)

/-- The last thread state: the buffers a host line may touch at the final contents, and the table. -/
abbrev Tₙ (c : Dev nD) : sProp 𝕄 :=
  iprop(StableHlo.held (c : Thread nD τ) (Pipeline.tailRefs sig pre0 spec0) (Wn m c) ∗ Tb m c)

/-- The physical post, raw: every buffer a host line may touch holds the final contents. -/
def QY0 (c : Dev nD) (s : MemSt nD τ sig (Elt F)) : Prop :=
  ∀ b ∈ Pipeline.tailRefs (τ := τ) sig pre0 spec0, s.mem ((c : Thread nD τ).1, b) = Wn m c b

/-! ## The final contents, in closed form -/

/-- The last grid point. -/
def tLast : Fin (cfgOf m).N := ⟨47, Nat.lt_succ_self 47⟩

/-- A (1,1) array has one index. -/
theorem idx_S1x1_eq (a b : S1x1.Idx) : a = b := funext fun d => Fin.ext (by
  match d with
  | ⟨0, _⟩ => show (a 0).val = (b 0).val; have ha : (a 0).val < 1 := (a 0).isLt; have hb : (b 0).val < 1 := (b 0).isLt; omega
  | ⟨1, _⟩ => show (a 1).val = (b 1).val; have ha : (a 1).val < 1 := (a 1).isLt; have hb : (b 1).val < 1 := (b 1).isLt; omega)

/-! Each (1,1) result array ends holding what the last point wrote back: the window's block is the whole array, the
last point is the only one that writes it back, and what it writes back is the point's result. -/

theorem final2 (c : Dev nD) : (dats m 0 c).arrAt 2 (cfgOf m).N = (outs m c).ml :=
  (dats m 0 c).arrAt_eq_of_cover 2 (outs m c).ml
    (fun t hf => by
      show ((cfgOf m).win 2).cut (grid0.coords t) ((dats m 0 c).after 2 t) = _
      rw [after2]
      have hz : (fun a => ((cfgOf m).win 2).index t a * main_v3_0.ty.shape.size a) = fun _ => 0 := funext fun a => by fin_cases a <;> rfl
      exact (Memref.read_access_unit_zero (Elt F) main_v3_0 hz (fun a => by rw [congrFun hz a]; simp) _).symm)
    (fun i => ⟨tLast m, rfl,
      idx_S1x1_eq ((((cfgOf m).win 2).blk (tLast m)).view.emb (Shape.Idx.first (show 0 < (((cfgOf m).win 2).xblock (grid0.coords (tLast m))).numel from Nat.one_pos))) i
        ▸ (((cfgOf m).win 2).blk (tLast m)).view.emb_mem_set _⟩)

theorem final3 (c : Dev nD) : (dats m 0 c).arrAt 3 (cfgOf m).N = (outs m c).total :=
  (dats m 0 c).arrAt_eq_of_cover 3 (outs m c).total
    (fun t hf => by
      show ((cfgOf m).win 3).cut (grid0.coords t) ((dats m 0 c).after 3 t) = _
      rw [after3]
      have hz : (fun a => ((cfgOf m).win 3).index t a * main_v3_1.ty.shape.size a) = fun _ => 0 := funext fun a => by fin_cases a <;> rfl
      exact (Memref.read_access_unit_zero (Elt F) main_v3_1 hz (fun a => by rw [congrFun hz a]; simp) _).symm)
    (fun i => ⟨tLast m, rfl,
      idx_S1x1_eq ((((cfgOf m).win 3).blk (tLast m)).view.emb (Shape.Idx.first (show 0 < (((cfgOf m).win 3).xblock (grid0.coords (tLast m))).numel from Nat.one_pos))) i
        ▸ (((cfgOf m).win 3).blk (tLast m)).view.emb_mem_set _⟩)

theorem final4 (c : Dev nD) : (dats m 0 c).arrAt 4 (cfgOf m).N = (outs m c).mean :=
  (dats m 0 c).arrAt_eq_of_cover 4 (outs m c).mean
    (fun t hf => by
      show ((cfgOf m).win 4).cut (grid0.coords t) ((dats m 0 c).after 4 t) = _
      rw [after4]
      have hz : (fun a => ((cfgOf m).win 4).index t a * main_v3_2.ty.shape.size a) = fun _ => 0 := funext fun a => by fin_cases a <;> rfl
      exact (Memref.read_access_unit_zero (Elt F) main_v3_2 hz (fun a => by rw [congrFun hz a]; simp) _).symm)
    (fun i => ⟨tLast m, rfl,
      idx_S1x1_eq ((((cfgOf m).win 4).blk (tLast m)).view.emb (Shape.Idx.first (show 0 < (((cfgOf m).win 4).xblock (grid0.coords (tLast m))).numel from Nat.one_pos))) i
        ▸ (((cfgOf m).win 4).blk (tLast m)).view.emb_mem_set _⟩)

theorem final5 (c : Dev nD) : (dats m 0 c).arrAt 5 (cfgOf m).N = (outs m c).std :=
  (dats m 0 c).arrAt_eq_of_cover 5 (outs m c).std
    (fun t hf => by
      show ((cfgOf m).win 5).cut (grid0.coords t) ((dats m 0 c).after 5 t) = _
      rw [after5]
      have hz : (fun a => ((cfgOf m).win 5).index t a * main_v3_3.ty.shape.size a) = fun _ => 0 := funext fun a => by fin_cases a <;> rfl
      exact (Memref.read_access_unit_zero (Elt F) main_v3_3 hz (fun a => by rw [congrFun hz a]; simp) _).symm)
    (fun i => ⟨tLast m, rfl,
      idx_S1x1_eq ((((cfgOf m).win 5).blk (tLast m)).view.emb (Shape.Idx.first (show 0 < (((cfgOf m).win 5).xblock (grid0.coords (tLast m))).numel from Nat.one_pos))) i
        ▸ (((cfgOf m).win 5).blk (tLast m)).view.emb_mem_set _⟩)

/-- A scalar result at the end: the reshape of its (1,1) array as the region left it. -/
theorem Wn_v4 (c : Dev nD) : Wn m c (Proc.devRef .tc main_v4) = shapeCast S_ (outs m c).ml shapeCasts_S1x1_S_ := by
  dsimp only [Wn, hostOps1]
  after_results
  rw [show Wt m c (Proc.devRef .tc main_v3_0) = (dats m 0 c).arrAt 2 (cfgOf m).N
    from Pipeline.withArrays_arr spec0 (launch0 (F := F)).win.arr_inj c (V0 m c) _ 2, final2]
  rfl
theorem Wn_v5 (c : Dev nD) : Wn m c (Proc.devRef .tc main_v5) = shapeCast S_ (outs m c).total shapeCasts_S1x1_S_ := by
  dsimp only [Wn, hostOps1]
  after_results
  rw [show Wt m c (Proc.devRef .tc main_v3_1) = (dats m 0 c).arrAt 3 (cfgOf m).N
    from Pipeline.withArrays_arr spec0 (launch0 (F := F)).win.arr_inj c (V0 m c) _ 3, final3]
  rfl
theorem Wn_v6 (c : Dev nD) : Wn m c (Proc.devRef .tc main_v6) = shapeCast S_ (outs m c).mean shapeCasts_S1x1_S_ := by
  dsimp only [Wn, hostOps1]
  after_results
  rw [show Wt m c (Proc.devRef .tc main_v3_2) = (dats m 0 c).arrAt 4 (cfgOf m).N
    from Pipeline.withArrays_arr spec0 (launch0 (F := F)).win.arr_inj c (V0 m c) _ 4, final4]
  rfl
theorem Wn_v7 (c : Dev nD) : Wn m c (Proc.devRef .tc main_v7) = shapeCast S_ (outs m c).std shapeCasts_S1x1_S_ := by
  dsimp only [Wn, hostOps1]
  after_results
  rw [show Wt m c (Proc.devRef .tc main_v3_3) = (dats m 0 c).arrAt 5 (cfgOf m).N
    from Pipeline.withArrays_arr spec0 (launch0 (F := F)).win.arr_inj c (V0 m c) _ 5, final5]
  rfl

/-- An argument at the end: no host operation writes it and no window's array is it, so it is as launched. -/
theorem Wn_arg (c : Dev nD) (b : Ref sig .tc) (h1 : b ≠ main_v4 ∧ b ≠ main_v5 ∧ b ≠ main_v6 ∧ b ≠ main_v7)
    (h2 : ∀ w, Pipeline.arrRef spec0 w ≠ b) (h0 : b ≠ main_v0 ∧ b ≠ main_v1 ∧ b ≠ main_v2) :
    Wn m c (Proc.devRef .tc b) = m ((c : Thread nD τ).loc b) :=
  (StableHlo.after_of_forall_not_mem hostOps1 (Wt m c) (not_written1 b h1)).trans
    ((Pipeline.withArrays_of_ne spec0 c (V0 m c) _ b h2).trans (V_of_not_written m c b h0))

omit [FloatOps F] in
/-- A reference that is a window's array or bypasses the region is a buffer a line after the region may touch. -/
theorem mem_tail (b : Ref sig .tc) (hb : b ∈ Finset.univ.image (Pipeline.arrRef spec0) ∪ Pipeline.restRefsP sig pre0 spec0) :
    Proc.devRef (τ := τ) .tc b ∈ Pipeline.tailRefs sig pre0 spec0 := Finset.mem_map_of_mem _ hb
set_option backward.isDefEq.respectTransparency.types false in
/-- THE RUN. At the compiled mesh, for any float values, from any memory with zero counters whose table of target words
    lies below 10000: every weakly fair execution of @main on the TensorCores terminates, nothing faulting, and every
    final state has the four scalar results at the last point's accumulators finalized, and the four arguments unchanged. -/
theorem run_main (hT : ∀ c j, ((tblOf m c) j : BitVec 32).toNat < 10000) :
    θ_run defs (onTc (τ := τ) (main (F := F))) ⟨m, fun _ => 0, ρ⟩ (fun r => ∀ c : Dev nD,
      r.2.mem ((c.tc : Thread nD τ).loc main_v4) = shapeCast S_ (outs m c).ml shapeCasts_S1x1_S_
      ∧ r.2.mem ((c.tc : Thread nD τ).loc main_v5) = shapeCast S_ (outs m c).total shapeCasts_S1x1_S_
      ∧ r.2.mem ((c.tc : Thread nD τ).loc main_v6) = shapeCast S_ (outs m c).mean shapeCasts_S1x1_S_
      ∧ r.2.mem ((c.tc : Thread nD τ).loc main_v7) = shapeCast S_ (outs m c).std shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) (adm m) (dats m) () (cellOf_inj (adm m)) EP defs₀ 𝒱₀ L lv m ρ main (segs m hT)
    (fun c Q => by rw [main_segs (adm m) (dats m) () 𝒱₀ L lv (seg0 m) (seg1 m) (reg0 m hT) rfl rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c)) (Tₙ := Tₙ m)
    (hch := ⟨fun _ => .rfl, fun _ => .rfl, fun _ => .rfl, fun c => by
      show iprop(StableHlo.held (c : Thread nD τ) (Pipeline.tailRefs sig pre0 spec0) (Wn m c) ∗ (Tb m c ∗ R c))
        ⊢ iprop(Tₙ m c ∗ ∃ W, owes (c : Thread nD τ) (0 : CellTallies nD τ sig Unit) W)
      iintro ⟨Hh, Ht, HO⟩
      isplitr [HO]
      · isplitl [Hh]; · iexact Hh
        iexact Ht
      · iexact HO⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := QY0 m)
    (hfin := fun c s' => by
      unfold Tₙ StableHlo.held
      iintro ⟨⟨Hh, -⟩, HSI⟩
      ihave Hr := (pointsTo_read_all (Pipeline.tailRefs (τ := τ) sig pre0 spec0) (fun b => ((c : Thread nD τ).1, b)) (fun b => Wn m c b) s') $$ [Hh HSI]
      · isplitl [Hh] <;> iassumption
      icases Hr with ⟨%hr, HSI⟩
      imodintro
      isplitr; · ipureintro; exact hr
      iexact HSI)
    (hQ := fun s h c =>
      ⟨(h c _ (mem_tail main_v4 (by decide))).trans (Wn_v4 m c), (h c _ (mem_tail main_v5 (by decide))).trans (Wn_v5 m c),
        (h c _ (mem_tail main_v6 (by decide))).trans (Wn_v6 m c), (h c _ (mem_tail main_v7 (by decide))).trans (Wn_v7 m c),
        (h c _ (mem_tail main_arg0 (by decide))).trans (Wn_arg m c main_arg0 (by decide) (by decide) (by decide)),
        (h c _ (mem_tail main_arg1 (by decide))).trans (Wn_arg m c main_arg1 (by decide) (by decide) (by decide)),
        (h c _ (mem_tail main_arg2 (by decide))).trans (Wn_arg m c main_arg2 (by decide) (by decide) (by decide)),
        (h c _ (mem_tail main_arg3 (by decide))).trans (Wn_arg m c main_arg3 (by decide) (by decide) (by decide))⟩)

end Launch

variable (m : (ℓ : Loc nD τ sig) → Buf (Elt F) ℓ) (ρ : Dev nD → PrngReg)

/-- Under the precondition every word of the table the region finds is below 10000. -/
theorem hT_of_pre
    (h : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    ∀ c j, ((tblOf m c) j : BitVec 32).toNat < 10000 := Launch.hT_of_pre m h

/-- The run of @main: it terminates, the four scalar results are the last point's accumulators finalized (each the
    reshape of its (1,1) value), and the four arguments are unchanged. -/
theorem run_main (hT : ∀ c j, ((tblOf m c) j : BitVec 32).toNat < 10000) :
    θ_run defs (onTc (τ := τ) (main (F := F))) ⟨m, fun _ => 0, ρ⟩ (fun r => ∀ c : Dev nD,
      r.2.mem ((c.tc : Thread nD τ).loc main_v4) = shapeCast S_ (outs m c).ml shapeCasts_S1x1_S_
      ∧ r.2.mem ((c.tc : Thread nD τ).loc main_v5) = shapeCast S_ (outs m c).total shapeCasts_S1x1_S_
      ∧ r.2.mem ((c.tc : Thread nD τ).loc main_v6) = shapeCast S_ (outs m c).mean shapeCasts_S1x1_S_
      ∧ r.2.mem ((c.tc : Thread nD τ).loc main_v7) = shapeCast S_ (outs m c).std shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Launch.run_main m ρ hT

end Cert.Proof.KI
end
-- ==== Proof.KRunDefs.lean ====
/-
  Shared spellings for the kernel body's runs: the resource algebra (the pipeline library's, beside the counters the
  row copies' invariants draw their tokens from), a whole buffer held at given contents, the two DMA semaphore cells
  of the kernel's own, the two branch conditions of the body (first grid point; last grid point), and the in-range
  fact every row copy's source slice needs of the target word it is addressed by.
-/
import proofs.«419560_j5755256177164_3_alg».proof.Proof.Gen.Kernel
import Idealize.ShloMosaic.Lib.Pipeline.Kit
import Idealize.ShloMosaic.Lib.Tactic

noncomputable section

namespace Cert.Proof.K

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]

/-- The resource algebra: the rounds library's for the pipeline's staging cells, beside the transfers' counters. -/
abbrev UU (nD : Nat) (τ : Topo) : Type := UR sig nD τ × Counters

local notation "𝕄" => MT nD τ sig Unit (Elt F) ℕ (UU nD τ) ℕ

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The kernel's own two DMA semaphore cells (the two-cell scratch array: cells 8 and 9 of the pool). -/
abbrev osem : Fin 2 → SemLoc sig := fun | 0 => .dma 8 | 1 => .dma 9
/-- Both counters at zero: what every row copy starts from and every wait restores. -/
abbrev sems0 (c : Dev nD) : sProp 𝕄 :=
  iprop(semVal ((c : Thread nD τ), osem 0) 0 ∗ semVal ((c : Thread nD τ), osem 1) 0)

/-- "This is the first grid point", as the body computes it, and "this is the last one". -/
abbrev C1 (i : grid0.Coords) : Prop := Scalar.cmpi .ne (Scalar.extui (Scalar.cmpi .eq (BitVec.ofNat 32 (i 0).val) 0#32)) 0#32 = 1#1
abbrev C2 (i : grid0.Coords) : Prop := k0_cond2 i = 1#1

/-- A target word below 10000 addresses a whole row of the 10000 × 10000 matrix: the row's one-row slice lies inside. -/
theorem chkOfLt (v : BitVec 32) (h : v.toNat < 10000) : ∀ a : Fin 2, (![v.toNat, 0] : Fin 2 → ℕ) a + S1x10000.size a ≤ S10000x10000.size a := by
  intro a; fin_cases a
  · show v.toNat + 1 ≤ 10000; omega
  · show 0 + 10000 ≤ 10000; omega

/-- The body called on the table, two staged input blocks, the matrix, four output blocks and the scratch operands. -/
abbrev bodyAt (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole) :
    Prog (TpuEff nD τ sig (Elt F) Λ₀ .tc) PUnit :=
  cc0__word_smooth_kernel i (Memref.whole main_v2) (Memref.isWhole_whole _) M2 hM2 M3 hM3 (Memref.whole main_arg1) (Memref.isWhole_whole _)
    M5 hM5 M6 hM6 M7 hM7 M8 hM8 (Memref.whole cc0_scratch0) (Memref.isWhole_whole _) (Memref.whole cc0_scratch1) (Memref.isWhole_whole _) cc0_scratch2
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)

/-- The accumulator memrefs, in the body's order: mask sum, masked log-probability, weights, weighted negative
    log-probabilities, smoothed similarities, their squares. -/
abbrev accM (k : Fin 6) : Memref sig .tc .vmem S1x1 .f32 :=
  match k with
  | 0 => Memref.whole cc0_scratch3 | 1 => Memref.whole cc0_scratch4 | 2 => Memref.whole cc0_scratch5
  | 3 => Memref.whole cc0_scratch6 | 4 => Memref.whole cc0_scratch7 | 5 => Memref.whole cc0_scratch8

end Cert.Proof.K

end
-- ==== Proof.KStepSpec.lean ====
/-
  The clean per-row, per-point and final steps of the word-smoothing kernel, as pure functions of
  the values a grid point reads, generic in the float instance.

  The kernel walks 3072 rows in 48 grid points of 64 rows. For a row with similarity row `s`,
  input row `x`, mask entry `m` and target word `w` it forms
    clip   = s · [s ≥ 1/2],
    smooth = exp ((clip − 1) / 0.3) · [clip < 1],
  and adds six one-by-one quantities into six running sums:
    m,   (Σ_v x_v · [v = w]) · m,   Σ_v m · smooth_v,   Σ_v (0 − x_v) · (m · smooth_v),
    Σ_v smooth_v,   Σ_v smooth_v².
  The last grid point turns the six sums into the four results
    ml    = (0 − logp) / m,
    total = 0.7 · (nf / w) + 0.3 · ml,
    mean  = s / 30720000,
    std   = sqrt (max (q / 30720000 − mean · mean, 0)).
  Every definition below is written with the same vector operations, in the same order and with
  the same shape side conditions as the printed program's payloads, so that each payload is one of
  these functions by unfolding; the lemmas at the end record that.
-/
import proofs.«419560_j5755256177164_3_alg».proof.Kernel
import proofs.«419560_j5755256177164_3_alg».proof.Proof.Gen.Kernel
import proofs.«419560_j5755256177164_3_alg».proof.Proof.Gen.Kernel.Skeleton

noncomputable section

namespace Cert.Proof.K

open Idealize.ShloMosaic Idealize.SL.Sem
open Cert.Kernel Cert.Kernel.Gen

/-- The six running sums a grid point carries to the next, in the kernel's order:
    mask, masked log-probability, weight, negated weighted input, smoothing weight and its
    square. Each is a one-by-one vector. -/
structure Acc (F : FTy → Type) [FloatOps F] where
  m : Vec F S1x1 .f32
  logp : Vec F S1x1 .f32
  w : Vec F S1x1 .f32
  nf : Vec F S1x1 .f32
  s : Vec F S1x1 .f32
  q : Vec F S1x1 .f32

/-- The four results the last grid point writes. -/
structure Out4 (F : FTy → Type) [FloatOps F] where
  ml : Vec F S1x1 .f32
  total : Vec F S1x1 .f32
  mean : Vec F S1x1 .f32
  std : Vec F S1x1 .f32

variable {F : FTy → Type} [FloatOps F]

/-! ## One row -/

/-- `clip = s · [s ≥ 1/2]`, entrywise: the indicator is the comparison's bit, widened to a word
    and converted to a float. -/
def clipRow (s : Vec F S1x10000 .f32) : FVec F S1x10000 .f32 :=
  have half : F .f32 := Scalar.ofBits .f32 0x3F000000#32
  have vhalf : FVec F S1x10000 .f32 := broadcast S1x10000 half
  have ge : IVec S1x10000 1 := cmpf .oge s vhalf
  have geW : IVec S1x10000 32 := extui 32 ge natLt_1_32
  have geF : FVec F S1x10000 .f32 := sitofp .f32 geW
  have clip : FVec F S1x10000 .f32 := mulf s geF
  clip

/-- `smooth = exp ((clip − 1) / 0.3) · [clip < 1]`, entrywise, with `clip = s · [s ≥ 1/2]`. -/
def smoothRow (s : Vec F S1x10000 .f32) : FVec F S1x10000 .f32 :=
  have half : F .f32 := Scalar.ofBits .f32 0x3F000000#32
  have vhalf : FVec F S1x10000 .f32 := broadcast S1x10000 half
  have ge : IVec S1x10000 1 := cmpf .oge s vhalf
  have geW : IVec S1x10000 32 := extui 32 ge natLt_1_32
  have geF : FVec F S1x10000 .f32 := sitofp .f32 geW
  have clip : FVec F S1x10000 .f32 := mulf s geF
  have one : F .f32 := Scalar.ofBits .f32 0x3F800000#32
  have vone : FVec F S1x10000 .f32 := broadcast S1x10000 one
  have d : FVec F S1x10000 .f32 := subf clip vone
  have tau : F .f32 := Scalar.ofBits .f32 0x3E99999A#32
  have vtau : FVec F S1x10000 .f32 := broadcast S1x10000 tau
  have r : FVec F S1x10000 .f32 := divf d vtau
  have e : FVec F S1x10000 .f32 := exp r
  have one' : F .f32 := Scalar.ofBits .f32 0x3F800000#32
  have vone' : FVec F S1x10000 .f32 := broadcast S1x10000 one'
  have lt : IVec S1x10000 1 := cmpf .olt clip vone'
  have ltW : IVec S1x10000 32 := extui 32 lt natLt_1_32
  have ltF : FVec F S1x10000 .f32 := sitofp .f32 ltW
  have smooth : FVec F S1x10000 .f32 := mulf e ltF
  smooth

/-- The same weights read off the clipped row: `smoothRow s` is this function of `clipRow s`. -/
theorem smoothRow_eq_clip (s : Vec F S1x10000 .f32) :
    smoothRow s =
      mulf (exp (divf (subf (clipRow s) (broadcast S1x10000 (Scalar.ofBits .f32 0x3F800000#32 : F .f32)))
              (broadcast S1x10000 (Scalar.ofBits .f32 0x3E99999A#32 : F .f32))))
        (sitofp .f32 (extui 32 (cmpf .olt (clipRow s)
          (broadcast S1x10000 (Scalar.ofBits .f32 0x3F800000#32 : F .f32))) natLt_1_32)) := rfl

/-- The input row as the kernel uses it (a reshape to the same shape). -/
def xRow (x : Vec F S1x10000 .f32) : FVec F S1x10000 .f32 :=
  shapeCast S1x10000 x shapeCasts_S1x10000_S1x10000

/-- The mask entry as the kernel uses it (a reshape to the same shape): the row's addend to the
    mask sum. -/
def dM (m : Vec F S1x1 .f32) : FVec F S1x1 .f32 :=
  shapeCast S1x1 m shapeCasts_S1x1_S1x1

/-- `m · smooth`, entrywise, the mask entry spread along the row. -/
def wRow (s : Vec F S1x10000 .f32) (m : Vec F S1x1 .f32) : FVec F S1x10000 .f32 :=
  have mB : FVec F S1x10000 .f32 := broadcastTo S1x10000 (dM m) broadcasts_S1x1_S1x10000
  have wr : FVec F S1x10000 .f32 := mulf mB (smoothRow s)
  wr

/-- `Σ_v x_v · [v = w]`: the input row against the one-hot row of the target word, summed. -/
def oneHotSum (x : Vec F S1x10000 .f32) (w : BitVec 32) : FVec F S1x1 .f32 :=
  have io : IVec S1x10000 32 := iota .tc S1x10000 32 [1] iota_S1x10000_d1_w32
  have wB : IVec S1x10000 32 := broadcast S1x10000 w
  have eq : IVec S1x10000 1 := cmpi .eq io wB
  have eqW : IVec S1x10000 32 := extui 32 eq natLt_1_32
  have eqF : FVec F S1x10000 .f32 := sitofp .f32 eqW
  have pr : FVec F S1x10000 .f32 := mulf (xRow x) eqF
  have sm : FVec F S1 .f32 := multiReduction .add [1] S1 pr 0x00000000#32 reduces_S1x10000_S1 (.inl rfl) rfl
  have sm11 : FVec F S1x1 .f32 := shapeCast S1x1 sm shapeCasts_S1_S1x1
  sm11

/-- The row's addend to the log-probability sum: `(Σ_v x_v · [v = w]) · m`. -/
def dLogp (x : Vec F S1x10000 .f32) (w : BitVec 32) (m : Vec F S1x1 .f32) : FVec F S1x1 .f32 :=
  mulf (oneHotSum x w) (dM m)

/-- The row's addend to the weight sum: `Σ_v m · smooth_v`. -/
def dW (s : Vec F S1x10000 .f32) (m : Vec F S1x1 .f32) : FVec F S1x1 .f32 :=
  have sm : FVec F S1 .f32 := multiReduction .add [1] S1 (wRow s m) 0x00000000#32 reduces_S1x10000_S1 (.inl rfl) rfl
  have sm11 : FVec F S1x1 .f32 := shapeCast S1x1 sm shapeCasts_S1_S1x1
  sm11

/-- The row's addend to the negated weighted input sum: `Σ_v (0 − x_v) · (m · smooth_v)`. -/
def dNF (s x : Vec F S1x10000 .f32) (m : Vec F S1x1 .f32) : FVec F S1x1 .f32 :=
  have zero : F .f32 := Scalar.ofBits .f32 0x00000000#32
  have vzero : FVec F S1x10000 .f32 := broadcast S1x10000 zero
  have nx : FVec F S1x10000 .f32 := subf vzero (xRow x)
  have pr : FVec F S1x10000 .f32 := mulf nx (wRow s m)
  have sm : FVec F S1 .f32 := multiReduction .add [1] S1 pr 0x00000000#32 reduces_S1x10000_S1 (.inl rfl) rfl
  have sm11 : FVec F S1x1 .f32 := shapeCast S1x1 sm shapeCasts_S1_S1x1
  sm11

/-- The row's addend to the smoothing-weight sum: `Σ_v smooth_v`. -/
def dS (s : Vec F S1x10000 .f32) : FVec F S1x1 .f32 :=
  have sm : FVec F S1 .f32 := multiReduction .add [1] S1 (smoothRow s) 0x00000000#32 reduces_S1x10000_S1 (.inl rfl) rfl
  have sm11 : FVec F S1x1 .f32 := shapeCast S1x1 sm shapeCasts_S1_S1x1
  sm11

/-- `Σ_v smooth_v²` as a one-entry vector, before its reshape to one-by-one. -/
def sqSum (s : Vec F S1x10000 .f32) : FVec F S1 .f32 :=
  have sq : FVec F S1x10000 .f32 := mulf (smoothRow s) (smoothRow s)
  have sm : FVec F S1 .f32 := multiReduction .add [1] S1 sq 0x00000000#32 reduces_S1x10000_S1 (.inl rfl) rfl
  sm

/-- The row's addend to the squared smoothing-weight sum: `Σ_v smooth_v²`. -/
def dQ (s : Vec F S1x10000 .f32) : FVec F S1x1 .f32 :=
  shapeCast S1x1 (sqSum s) shapeCasts_S1_S1x1

/-- One running sum takes one addend: the running sum is the FIRST operand of the addition, and
    the result passes a reshape to the same shape. -/
def accAdd (a : Vec F S1x1 .f32) (d : FVec F S1x1 .f32) : FVec F S1x1 .f32 :=
  shapeCast S1x1 (addf a d) shapeCasts_S1x1_S1x1

/-- One row's effect on the six running sums. -/
def rowStep (s x : Vec F S1x10000 .f32) (m : Vec F S1x1 .f32) (w : BitVec 32) (a : Acc F) : Acc F where
  m := accAdd a.m (dM m)
  logp := accAdd a.logp (dLogp x w m)
  w := accAdd a.w (dW s m)
  nf := accAdd a.nf (dNF s x m)
  s := accAdd a.s (dS s)
  q := accAdd a.q (dQ s)

/-- Each running sum after a row, by its field. -/
theorem rowStep_m (s x : Vec F S1x10000 .f32) (m : Vec F S1x1 .f32) (w : BitVec 32) (a : Acc F) :
    (rowStep s x m w a).m = accAdd a.m (dM m) := rfl
theorem rowStep_logp (s x : Vec F S1x10000 .f32) (m : Vec F S1x1 .f32) (w : BitVec 32) (a : Acc F) :
    (rowStep s x m w a).logp = accAdd a.logp (dLogp x w m) := rfl
theorem rowStep_w (s x : Vec F S1x10000 .f32) (m : Vec F S1x1 .f32) (w : BitVec 32) (a : Acc F) :
    (rowStep s x m w a).w = accAdd a.w (dW s m) := rfl
theorem rowStep_nf (s x : Vec F S1x10000 .f32) (m : Vec F S1x1 .f32) (w : BitVec 32) (a : Acc F) :
    (rowStep s x m w a).nf = accAdd a.nf (dNF s x m) := rfl
theorem rowStep_s (s x : Vec F S1x10000 .f32) (m : Vec F S1x1 .f32) (w : BitVec 32) (a : Acc F) :
    (rowStep s x m w a).s = accAdd a.s (dS s) := rfl
theorem rowStep_q (s x : Vec F S1x10000 .f32) (m : Vec F S1x1 .f32) (w : BitVec 32) (a : Acc F) :
    (rowStep s x m w a).q = accAdd a.q (dQ s) := rfl

/-! ## The first grid point's reset, a grid point's 64 rows, and the last grid point's results -/

/-- A running sum's reset value: zero, spread to one-by-one, through a reshape to the same
    shape. -/
def zeroCell : FVec F S1x1 .f32 :=
  have zero : F .f32 := Scalar.ofBits .f32 0x00000000#32
  have vzero : FVec F S1x1 .f32 := broadcast S1x1 zero
  have c : FVec F S1x1 .f32 := shapeCast S1x1 vzero shapeCasts_S1x1_S1x1
  c

/-- The six running sums as the first grid point resets them. -/
def zeroAcc : Acc F where
  m := zeroCell
  logp := zeroCell
  w := zeroCell
  nf := zeroCell
  s := zeroCell
  q := zeroCell

/-- A grid point's effect on the running sums: its 64 rows in order. -/
def pointStep (S X : Fin 64 → Vec F S1x10000 .f32) (M : Fin 64 → Vec F S1x1 .f32)
    (W : Fin 64 → BitVec 32) (a : Acc F) : Acc F :=
  (List.finRange 64).foldl (fun a r => rowStep (S r) (X r) (M r) (W r) a) a

/-- `ml = (0 − logp) / m`. -/
def finMl (logp m : Vec F S1x1 .f32) : FVec F S1x1 .f32 :=
  have zero : F .f32 := Scalar.ofBits .f32 0x00000000#32
  have vzero : FVec F S1x1 .f32 := broadcast S1x1 zero
  have neg : FVec F S1x1 .f32 := subf vzero logp
  have ml : FVec F S1x1 .f32 := divf neg m
  ml

/-- `total = 0.7 · (nf / w) + 0.3 · ml`. -/
def finTotal (logp m nf w : Vec F S1x1 .f32) : FVec F S1x1 .f32 :=
  have out : FVec F S1x1 .f32 := divf nf w
  have alpha : F .f32 := Scalar.ofBits .f32 0x3F333333#32
  have valpha : FVec F S1x1 .f32 := broadcast S1x1 alpha
  have t1 : FVec F S1x1 .f32 := mulf valpha out
  have beta : F .f32 := Scalar.ofBits .f32 0x3E99999A#32
  have vbeta : FVec F S1x1 .f32 := broadcast S1x1 beta
  have t2 : FVec F S1x1 .f32 := mulf vbeta (finMl logp m)
  have total : FVec F S1x1 .f32 := addf t1 t2
  total

/-- `mean = s / 30720000`. -/
def finMean (s : Vec F S1x1 .f32) : FVec F S1x1 .f32 :=
  have n : F .f32 := Scalar.ofBits .f32 0x4BEA6000#32
  have vn : FVec F S1x1 .f32 := broadcast S1x1 n
  have mean : FVec F S1x1 .f32 := divf s vn
  mean

/-- `std = sqrt (max (q / 30720000 − mean · mean, 0))`. -/
def finStd (s q : Vec F S1x1 .f32) : FVec F S1x1 .f32 :=
  have n : F .f32 := Scalar.ofBits .f32 0x4BEA6000#32
  have vn : FVec F S1x1 .f32 := broadcast S1x1 n
  have msq : FVec F S1x1 .f32 := divf q vn
  have mm : FVec F S1x1 .f32 := mulf (finMean s) (finMean s)
  have var : FVec F S1x1 .f32 := subf msq mm
  have zero : F .f32 := Scalar.ofBits .f32 0x00000000#32
  have vzero : FVec F S1x1 .f32 := broadcast S1x1 zero
  have var0 : FVec F S1x1 .f32 := maximumf var vzero
  have std : FVec F S1x1 .f32 := sqrt var0
  std

/-- The four results from the six running sums. -/
def finalize (a : Acc F) : Out4 F where
  ml := finMl a.logp a.m
  total := finTotal a.logp a.m a.nf a.w
  mean := finMean a.s
  std := finStd a.s a.q

/-! ## The printed payloads are these functions

  The second unrolled row's payloads, the first grid point's resets and the last grid point's
  results, each against its clean function, by unfolding. -/

theorem pay27_eq (x : Vec F S1x10000 .f32) : k0_pay27 x = xRow x := rfl
theorem pay28_eq (m : Vec F S1x1 .f32) : k0_pay28 m = dM m := rfl
theorem pay29_eq (s : Vec F S1x10000 .f32) : k0_pay29 s = smoothRow s := rfl
theorem pay30_eq (s : Vec F S1x10000 .f32) (m : Vec F S1x1 .f32) : k0_pay30 s m = wRow s m := rfl
theorem pay31_eq (s : Vec F S1x10000 .f32) (m : Vec F S1x1 .f32) : k0_pay31 s m = dW s m := rfl
theorem pay32_eq (s x : Vec F S1x10000 .f32) (m : Vec F S1x1 .f32) : k0_pay32 s x m = dNF s x m := rfl
theorem pay33_eq (x : Vec F S1x10000 .f32) (w : BitVec 32) : k0_pay33 x w = oneHotSum x w := rfl
theorem pay34_eq (s : Vec F S1x10000 .f32) : k0_pay34 s = dS s := rfl
theorem pay35_eq (s : Vec F S1x10000 .f32) : k0_pay35 s = sqSum s := rfl

theorem pay36_eq (m a : Vec F S1x1 .f32) : k0_pay36 (dM m) a = accAdd a (dM m) := rfl
theorem pay37_eq (x : Vec F S1x10000 .f32) (w : BitVec 32) (m a : Vec F S1x1 .f32) :
    k0_pay37 (k0_pay28 m) (k0_pay33 x w) a = accAdd a (dLogp x w m) := rfl
theorem pay38_eq (s : Vec F S1x10000 .f32) (m a : Vec F S1x1 .f32) :
    k0_pay38 (k0_pay31 s m) a = accAdd a (dW s m) := rfl
theorem pay39_eq (s x : Vec F S1x10000 .f32) (m a : Vec F S1x1 .f32) :
    k0_pay39 (k0_pay32 s x m) a = accAdd a (dNF s x m) := rfl
theorem pay40_eq (s : Vec F S1x10000 .f32) (a : Vec F S1x1 .f32) :
    k0_pay40 (k0_pay34 s) a = accAdd a (dS s) := rfl
/-- The sixth sum's update is printed in two pieces: the addition, then the reshape. -/
theorem pay42_pay41_eq (s : Vec F S1x10000 .f32) (a : Vec F S1x1 .f32) :
    k0_pay42 (k0_pay41 (k0_pay35 s) a) = accAdd a (dQ s) := rfl

/-- The first unrolled row prints the clipped row on its own and the weights as a function of it
    and of the constant one. -/
theorem pay14_eq (s : Vec F S1x10000 .f32) : k0_pay14 s = clipRow s := rfl
theorem pay15_eq (s : Vec F S1x10000 .f32) :
    k0_pay15 (k0_pay14 s) (Scalar.ofBits .f32 0x3F800000#32) = smoothRow s := rfl

theorem pay6_eq : (k0_pay6 : FVec F S1x1 .f32) = (zeroAcc (F := F)).m := rfl
theorem pay7_eq : (k0_pay7 : FVec F S1x1 .f32) = (zeroAcc (F := F)).logp := rfl
theorem pay8_eq : (k0_pay8 : FVec F S1x1 .f32) = (zeroAcc (F := F)).w := rfl
theorem pay9_eq : (k0_pay9 : FVec F S1x1 .f32) = (zeroAcc (F := F)).nf := rfl
theorem pay10_eq : (k0_pay10 : FVec F S1x1 .f32) = (zeroAcc (F := F)).s := rfl
theorem pay11_eq : (k0_pay11 : FVec F S1x1 .f32) = (zeroAcc (F := F)).q := rfl

theorem pay2_eq (a : Acc F) : k0_pay2 a.logp a.m = (finalize a).ml := rfl
theorem pay3_eq (a : Acc F) : k0_pay3 a.logp a.m a.nf a.w = (finalize a).total := rfl
theorem pay4_eq (a : Acc F) : k0_pay4 a.s = (finalize a).mean := rfl
theorem pay5_eq (a : Acc F) : k0_pay5 a.s a.q = (finalize a).std := rfl
/-- The last row's sixth sum reaches its memory through one more reshape to the same shape. -/
theorem pay1_eq (d : FVec F S1x1 .f32) : k0_pay1 d = shapeCast S1x1 d shapeCasts_S1x1_S1x1 := rfl

end Cert.Proof.K

end
-- ==== Proof.KPointData.lean ====
/-
  The data one grid point of the kernel works on, as plain functions of what the point is given:
  the target word of a row (the table word at 64·i + r), the matrix row a target word addresses,
  the row of the staged input block and the entry of the staged mask block a row reads, the six
  running sums as one record of what the six accumulator buffers hold, and the point's effect on
  that record: the sixty-four row steps on the point's rows, in order.
-/
import proofs.«419560_j5755256177164_3_alg».proof.Proof.KRunDefs
import proofs.«419560_j5755256177164_3_alg».proof.Proof.KStepSpec
import Idealize.ShloMosaic.Lib.Pipeline.FrameBody

noncomputable section

namespace Cert.Proof.K

open Cert.Kernel Cert.Kernel.Gen
open Idealize.ShloMosaic Idealize.ShloMosaic.TcCoe
open Idealize.SL Idealize.SL.Sem

variable {F : FTy → Type} [FloatOps F]

/-- Row `r` of grid point `i` has its target word at position 64·i + r of the table of 3072 words. -/
theorem wordInb (i : grid0.Coords) (r : Fin 64) :
    ∀ a : Fin 1, (![64 * (i 0).val + r.val] : Fin 1 → ℕ) a + S1.size a ≤ S3072.size a := by
  intro a
  have hi : (i 0).val < 48 := (i 0).isLt
  have hr : r.val < 64 := r.isLt
  fin_cases a
  show 64 * (i 0).val + r.val + 1 ≤ 3072
  omega

/-- The target word of row `r` of grid point `i`: the table's word at 64·i + r. -/
def wordAt (c : Dev nD) (tbl : Bf (F := F) c (Memref.whole main_v2)) (i : grid0.Coords) (r : Fin 64) : BitVec 32 :=
  View.readAt (Elt F) (Memref.whole main_v2).view
    (Rect.unit (s := S3072) ![64 * (i 0).val + r.val] S1.size (wordInb i r)).toLoadRect tbl (Shape.Idx.first (by show 0 < S1.numel; decide))

/-- Row `w` of the 10000 × 10000 similarity matrix, for a word below 10000 (any value otherwise: the
    kernel never reads such a row). -/
def simRow (c : Dev nD) (sim : Bf (F := F) c (Memref.whole main_arg1)) (w : BitVec 32) : Vec F S1x10000 .f32 :=
  if h : w.toNat < 10000 then
    View.ld ((Memref.whole main_arg1).view.read (Elt F) sim) (Rect.unit (s := S10000x10000) ![w.toNat, 0] S1x10000.size (chkOfLt w h))
  else fun _ => (Elt.inhabited F .f32).default

theorem inRowInb (r : Fin 64) : ∀ a : Fin 2, (![r.val, 0] : Fin 2 → ℕ) a + S1x10000.size a ≤ S64x10000.size a := by
  intro a
  have hr : r.val < 64 := r.isLt
  fin_cases a
  · show r.val + 1 ≤ 64; omega
  · show 0 + 10000 ≤ 10000; omega

theorem mkRowInb (r : Fin 64) : ∀ a : Fin 2, (![r.val, 0] : Fin 2 → ℕ) a + S1x1.size a ≤ S64x1.size a := by
  intro a
  have hr : r.val < 64 := r.isLt
  fin_cases a
  · show r.val + 1 ≤ 64; omega
  · show 0 + 1 ≤ 1; omega

/-- Row `r` of the staged block of inputs. -/
def inRow (x2 : Vec F S64x10000 .f32) (r : Fin 64) : Vec F S1x10000 .f32 :=
  View.ld x2 (Rect.unit (s := S64x10000) ![r.val, 0] S1x10000.size (inRowInb r))

/-- Entry `r` of the staged block of the mask. -/
def mkRow (x3 : Vec F S64x1 .f32) (r : Fin 64) : Vec F S1x1 .f32 :=
  View.ld x3 (Rect.unit (s := S64x1) ![r.val, 0] S1x1.size (mkRowInb r))

/-- The six running sums, read off the six accumulator buffers. -/
def accOf (c : Dev nD) (a12 : Bf (F := F) c (Memref.whole cc0_scratch3)) (a13 : Bf (F := F) c (Memref.whole cc0_scratch4))
    (a14 : Bf (F := F) c (Memref.whole cc0_scratch5)) (a15 : Bf (F := F) c (Memref.whole cc0_scratch6))
    (a16 : Bf (F := F) c (Memref.whole cc0_scratch7)) (a17 : Bf (F := F) c (Memref.whole cc0_scratch8)) : Acc F where
  m := View.readAt (Elt F) (Memref.whole cc0_scratch3).view (Rect.unit ![0, 0] S1x1.size inb_S1x1_S1x1_0_0).toLoadRect a12
  logp := View.readAt (Elt F) (Memref.whole cc0_scratch4).view (Rect.unit ![0, 0] S1x1.size inb_S1x1_S1x1_0_0).toLoadRect a13
  w := View.readAt (Elt F) (Memref.whole cc0_scratch5).view (Rect.unit ![0, 0] S1x1.size inb_S1x1_S1x1_0_0).toLoadRect a14
  nf := View.readAt (Elt F) (Memref.whole cc0_scratch6).view (Rect.unit ![0, 0] S1x1.size inb_S1x1_S1x1_0_0).toLoadRect a15
  s := View.readAt (Elt F) (Memref.whole cc0_scratch7).view (Rect.unit ![0, 0] S1x1.size inb_S1x1_S1x1_0_0).toLoadRect a16
  q := View.readAt (Elt F) (Memref.whole cc0_scratch8).view (Rect.unit ![0, 0] S1x1.size inb_S1x1_S1x1_0_0).toLoadRect a17

/-- A grid point's effect on the six running sums: the row steps of its sixty-four rows, each on the
    matrix row its target word addresses, its input row, its mask entry and its target word. -/
def pointOf (c : Dev nD) (tbl : Bf (F := F) c (Memref.whole main_v2)) (i : grid0.Coords)
    (sim : Bf (F := F) c (Memref.whole main_arg1)) (x2 : Vec F S64x10000 .f32) (x3 : Vec F S64x1 .f32) (a : Acc F) : Acc F :=
  pointStep (fun r => simRow c sim (wordAt c tbl i r)) (inRow x2) (mkRow x3) (wordAt c tbl i) a

end Cert.Proof.K

end
-- ==== Proof.KData.lean ====
/-
  The proof data of the kernel region. The region is entered after three reshapes: the log-probabilities as 3072 rows
  of 10000, the mask as 3072 rows of one, the target words as a table of 3072 placed in scalar memory. Two windows
  stage a block of 64 rows of the first two at each of the 48 grid points; four more hold the (1,1) results and are
  written back once, after the last point. Between points the kernel carries six (1,1) accumulators: the first point
  resets them, every point adds its 64 rows' contributions, the last point finalizes them into the four results.
  The similarity matrix is staged by no window (the body copies rows out of it itself) and the table is read in
  place: both sit in the invariant at the contents the region finds. This file fixes those contents, the blocks, the
  accumulators after each point, the invariant, and the facts about them that need no run of the body: what each
  input window's buffer holds when the body runs, which of the body's two conditions holds where on the grid, and
  where the output windows are idle.
-/
import proofs.«419560_j5755256177164_3_alg».proof.Proof.KPointData
import proofs.«419560_j5755256177164_3_alg».proof.Proof.Gen.Kernel.Launch
import Idealize.ShloMosaic.Lib.Pipeline.Regions
import Idealize.ShloMosaic.Lib.Pipeline.FrameBody

noncomputable section

namespace Cert.Proof.K

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

variable (m : (ℓ : Loc nD τ sig) → Buf (Elt F) ℓ)

/-- Core `c`'s buffer contents when the region is entered: the three reshapes before it have run. -/
abbrev V0 (c : Dev nD) : Valuation τ sig (Elt F) := StableHlo.after hostOps0 (fun b => m (c, b))
/-- The same read at a reference of the core. -/
abbrev V (c : Dev nD) (b : Ref sig .tc) : Buf (Elt F) ((c : Thread nD τ).loc b) := V0 m c (Proc.devRef .tc b)

/-- The table of target words as the region finds it, and the similarity matrix. -/
def tblOf (c : Dev nD) : Bf (F := F) c (Memref.whole main_v2) := V m c main_v2
def simOf (c : Dev nD) : Bf (F := F) c (Memref.whole main_arg1) := V m c main_arg1

/-- The admissible contents of the one prefetched table: the table as the region finds it (one core). -/
def adm : (p : Fin 1) → (pcfgs (F := F) p).Adm := fun _ => ⟨fun | 0 => tblOf m 0 | ⟨_ + 1, h⟩ => absurd h (Nat.not_lt.2 (Nat.le_add_left _ _)), trivial⟩

abbrev cfgOf : Cfg sig Λ₀ := Pipeline.pin (pcfgs (F := F)) (adm m) 0

/-- The blocks of the two input windows at point `t`, read off their arrays as the region finds them. -/
def blk0 (c : Dev nD) (t : Fin (cfgOf m).N) : Vec F S64x10000 .f32 :=
  (((cfgOf m).win 0).blk t).view.read (Elt F) (V m c (Pipeline.arrRef spec0 0))
def blk1 (c : Dev nD) (t : Fin (cfgOf m).N) : Vec F S64x1 .f32 :=
  (((cfgOf m).win 1).blk t).view.read (Elt F) (V m c (Pipeline.arrRef spec0 1))

/-- The grid point numbered `n` (numbers past the grid wrap round: they are never read). -/
def ptAt (n : ℕ) : Fin (cfgOf m).N := ⟨n % 48, Nat.mod_lt _ (by decide)⟩

theorem ptAt_val (t : Fin (cfgOf m).N) : ptAt m t.val = t := Fin.ext (Nat.mod_eq_of_lt t.isLt)

/-- The accumulators after point `n`: the first point starts from zero, every later one from the point before. -/
def accAfter (c : Dev nD) : ℕ → Acc F
  | 0 => pointOf c (tblOf m c) (grid0.coords (ptAt m 0)) (simOf m c) (blk0 m c (ptAt m 0)) (blk1 m c (ptAt m 0)) zeroAcc
  | n + 1 => pointOf c (tblOf m c) (grid0.coords (ptAt m (n + 1))) (simOf m c) (blk0 m c (ptAt m (n + 1))) (blk1 m c (ptAt m (n + 1))) (accAfter c n)

/-- The four results: the last point's accumulators finalized. -/
def outs (c : Dev nD) : Out4 F := finalize (accAfter m c 47)

/-- The six accumulators between points: before the first point at anything (it resets them), afterwards at what
    the point before left. -/
def accsHeld (c : Dev nD) (t : Fin (48 + 1)) : sProp 𝕄 :=
  match t.val with
  | 0 => iprop((∃ f, pt c (Memref.whole cc0_scratch3) f) ∗ (∃ f, pt c (Memref.whole cc0_scratch4) f) ∗ (∃ f, pt c (Memref.whole cc0_scratch5) f)
      ∗ (∃ f, pt c (Memref.whole cc0_scratch6) f) ∗ (∃ f, pt c (Memref.whole cc0_scratch7) f) ∗ (∃ f, pt c (Memref.whole cc0_scratch8) f))
  | n + 1 => iprop(pt c (Memref.whole cc0_scratch3) (accAfter m c n).m ∗ pt c (Memref.whole cc0_scratch4) (accAfter m c n).logp
      ∗ pt c (Memref.whole cc0_scratch5) (accAfter m c n).w ∗ pt c (Memref.whole cc0_scratch6) (accAfter m c n).nf
      ∗ pt c (Memref.whole cc0_scratch7) (accAfter m c n).s ∗ pt c (Memref.whole cc0_scratch8) (accAfter m c n).q)

/-- The invariant between points: the matrix and the table at their fixed contents, both cells at zero, the two row
    buffers at anything, the accumulators. -/
def Φ (c : Dev nD) (t : Fin (48 + 1)) : sProp 𝕄 :=
  iprop(pt c (Memref.whole main_arg1) (simOf m c) ∗ pt c (Memref.whole main_v2) (tblOf m c) ∗ sems0 c
    ∗ (∃ f, pt c (Memref.whole cc0_scratch0) f) ∗ (∃ f, pt c (Memref.whole cc0_scratch1) f) ∗ accsHeld m c t)

/-- The proof data on core `c`. -/
def dats (p : Fin 1) (c : Dev nD) : Dat τ (Elt F) Unit ℕ (UU nD τ) ℕ (Pipeline.pin (pcfgs (F := F)) (adm m) p) c where
  A w := V m c (Pipeline.arrRef spec0 w)
  after w t := match w with
    | ⟨0, _⟩ => blk0 m c t
    | ⟨1, _⟩ => blk1 m c t
    | ⟨2, _⟩ => (outs m c).ml
    | ⟨3, _⟩ => (outs m c).total
    | ⟨4, _⟩ => (outs m c).mean
    | ⟨5, _⟩ => (outs m c).std
  Φ t := Φ m c t
  q _ := fullShare
  owed _ := 0

/-! ## Facts that need no run -/

/-- On the one core the admissible table is the table the region finds. -/
theorem adm_tbl (c : Dev nD) : (adm m 0).1 0 = tblOf m c := by
  obtain rfl : c = 0 := Subsingleton.elim _ _
  rfl

theorem A_eq (c : Dev nD) (w : Fin (cfgOf m).W) : (dats m 0 c).A w = V m c (Pipeline.arrRef spec0 w) := by
  dsimp only [dats]

theorem after0 (c : Dev nD) (t : Fin (cfgOf m).N) : (dats m 0 c).after 0 t = blk0 m c t := by dsimp only [dats]; rfl
theorem after1 (c : Dev nD) (t : Fin (cfgOf m).N) : (dats m 0 c).after 1 t = blk1 m c t := by dsimp only [dats]; rfl
theorem after2 (c : Dev nD) (t : Fin (cfgOf m).N) : (dats m 0 c).after 2 t = (outs m c).ml := by dsimp only [dats]; rfl
theorem after3 (c : Dev nD) (t : Fin (cfgOf m).N) : (dats m 0 c).after 3 t = (outs m c).total := by dsimp only [dats]; rfl
theorem after4 (c : Dev nD) (t : Fin (cfgOf m).N) : (dats m 0 c).after 4 t = (outs m c).mean := by dsimp only [dats]; rfl
theorem after5 (c : Dev nD) (t : Fin (cfgOf m).N) : (dats m 0 c).after 5 t = (outs m c).std := by dsimp only [dats]; rfl

/-- Each input window's current staging buffer holds its block at every point, fetched there or not. -/
theorem before0 (c : Dev nD) (t : Fin (cfgOf m).N) (d) : (dats m 0 c).before 0 t d = blk0 m c t :=
  ((dats m 0 c).before_in_eq_fetched 0 rfl (fun _ => rfl) (fun _ _ _ => rfl)
      (fun t => by rw [after0]; unfold Dat.blockOf blk0; rw [A_eq]; try rfl) t d).trans
    (by unfold Dat.fetched Dat.blockOf blk0; rw [A_eq]; try rfl)
theorem before1 (c : Dev nD) (t : Fin (cfgOf m).N) (d) : (dats m 0 c).before 1 t d = blk1 m c t :=
  ((dats m 0 c).before_in_eq_fetched 1 rfl (fun _ => rfl) (fun _ _ _ => rfl)
      (fun t => by rw [after1]; unfold Dat.blockOf blk1; rw [A_eq]; try rfl) t d).trans
    (by unfold Dat.fetched Dat.blockOf blk1; rw [A_eq]; try rfl)

/-! ## The recursion of the accumulators, point by point -/

theorem accAfter_zero (c : Dev nD) :
    accAfter m c 0 = pointOf c (tblOf m c) (grid0.coords (ptAt m 0)) (simOf m c) (blk0 m c (ptAt m 0)) (blk1 m c (ptAt m 0)) zeroAcc := rfl

theorem accAfter_succ (c : Dev nD) (n : ℕ) :
    accAfter m c (n + 1) = pointOf c (tblOf m c) (grid0.coords (ptAt m (n + 1))) (simOf m c) (blk0 m c (ptAt m (n + 1))) (blk1 m c (ptAt m (n + 1))) (accAfter m c n) := rfl

/-- At the first point of the grid the accumulators are the point's step from zero; -/
theorem accAfter_first (c : Dev nD) (t : Fin (cfgOf m).N) (h : t.val = 0) :
    accAfter m c t.val = pointOf c (tblOf m c) (grid0.coords t) (simOf m c) (blk0 m c t) (blk1 m c t) zeroAcc := by
  rw [h, accAfter_zero, show ptAt m 0 = t from h ▸ ptAt_val m t]

/-- at a later one its step from the point before. -/
theorem accAfter_later (c : Dev nD) (t : Fin (cfgOf m).N) (n : ℕ) (h : t.val = n + 1) :
    accAfter m c t.val = pointOf c (tblOf m c) (grid0.coords t) (simOf m c) (blk0 m c t) (blk1 m c t) (accAfter m c n) := by
  rw [h, accAfter_succ, show ptAt m (n + 1) = t from h ▸ ptAt_val m t]

/-! ## The invariant, point by point -/

theorem accsHeld_first (c : Dev nD) (t : Fin (48 + 1)) (h : t.val = 0) :
    accsHeld m c t = iprop((∃ f, pt c (Memref.whole cc0_scratch3) f) ∗ (∃ f, pt c (Memref.whole cc0_scratch4) f) ∗ (∃ f, pt c (Memref.whole cc0_scratch5) f)
      ∗ (∃ f, pt c (Memref.whole cc0_scratch6) f) ∗ (∃ f, pt c (Memref.whole cc0_scratch7) f) ∗ (∃ f, pt c (Memref.whole cc0_scratch8) f)) := by
  unfold accsHeld; rw [h]

theorem accsHeld_later (c : Dev nD) (t : Fin (48 + 1)) (n : ℕ) (h : t.val = n + 1) :
    accsHeld m c t = iprop(pt c (Memref.whole cc0_scratch3) (accAfter m c n).m ∗ pt c (Memref.whole cc0_scratch4) (accAfter m c n).logp
      ∗ pt c (Memref.whole cc0_scratch5) (accAfter m c n).w ∗ pt c (Memref.whole cc0_scratch6) (accAfter m c n).nf
      ∗ pt c (Memref.whole cc0_scratch7) (accAfter m c n).s ∗ pt c (Memref.whole cc0_scratch8) (accAfter m c n).q) := by
  unfold accsHeld; rw [h]

/-- The proof data's invariant is `Φ`. -/
theorem Φ_eq (c : Dev nD) (t : Fin ((cfgOf m).N + 1)) : (dats m 0 c).Φ t = Φ m c t := by dsimp only [dats]

/-! ## The body's two conditions and the windows' idle points, over the grid -/

/-- The body's first condition holds at the first point only, its second at the last only. -/
theorem hC1 : ∀ t : Fin grid0.N, C1 (grid0.coords t) ↔ t.val = 0 := by decide +kernel
theorem hC2 : ∀ t : Fin grid0.N, C2 (grid0.coords t) ↔ t.val = 47 := by decide +kernel

/-- The input windows are never idle; the four output windows are idle, and not written back, at every point but
    the last, where the body stores them. -/
theorem liveAt_in (a : (pcfg0 (F := F)).Adm) : ∀ t : Fin grid0.N,
    (pcfg0.at a).idle 0 (grid0.coords t) = false ∧ (pcfg0.at a).idle 1 (grid0.coords t) = false := of_decide_eq_true rfl
theorem idleAt_out (a : (pcfg0 (F := F)).Adm) : ∀ t : Fin grid0.N, t.val ≠ 47 →
    (pcfg0.at a).idle 2 (grid0.coords t) = true ∧ (pcfg0.at a).idle 3 (grid0.coords t) = true
      ∧ (pcfg0.at a).idle 4 (grid0.coords t) = true ∧ (pcfg0.at a).idle 5 (grid0.coords t) = true := of_decide_eq_true rfl
theorem noFlush_out (a : (pcfg0 (F := F)).Adm) : ∀ t : Fin grid0.N, t.val ≠ 47 →
    ((pcfg0.at a).win 2).flush t = false ∧ ((pcfg0.at a).win 3).flush t = false
      ∧ ((pcfg0.at a).win 4).flush t = false ∧ ((pcfg0.at a).win 5).flush t = false := of_decide_eq_true rfl
theorem liveAt_last (a : (pcfg0 (F := F)).Adm) : ∀ t : Fin grid0.N, t.val = 47 →
    (pcfg0.at a).idle 2 (grid0.coords t) = false ∧ (pcfg0.at a).idle 3 (grid0.coords t) = false
      ∧ (pcfg0.at a).idle 4 (grid0.coords t) = false ∧ (pcfg0.at a).idle 5 (grid0.coords t) = false := of_decide_eq_true rfl

end Cert.Proof.K

end
-- ==== Proof.KRunA.lean ====
/-
  The kernel body at one grid point, case A: from the prefetched table of target words (every word below 10000), the
  staged blocks of the log-probabilities and of the mask, the similarity matrix left in HBM, the two row buffers, the two
  DMA semaphore cells at zero and the six (1,1) accumulators, the body runs to its return: sixty-four row copies are
  issued on the two cells alternately, each waited before its buffer is read and before the next copy into that buffer
  is issued, and every accumulator is overwritten sixty-four times by its old value plus the row's contribution.
  What each accumulator (and, at the last point, each output block) ends with is the list of pieces the run finds.
-/
import proofs.«419560_j5755256177164_3_alg».proof.Proof.Gen.Kernel
import proofs.«419560_j5755256177164_3_alg».proof.Proof.Gen.Kernel.Skeleton
import proofs.«419560_j5755256177164_3_alg».proof.Proof.Gen.Kernel.Launch
import proofs.«419560_j5755256177164_3_alg».proof.Proof.KRunDefs
import Idealize.ShloMosaic.Lib.Writes
import Idealize.ShloMosaic.Lib.Pipeline.FrameBody
import Idealize.ShloMosaic.Lib.Pipeline.Kit
import Idealize.ShloMosaic.Lib.Tactic

set_option maxRecDepth 65536

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

set_option maxHeartbeats 4000000 in
/-- The pieces each accumulator ends with at a point of case A, with the proof that the body runs there to its return handing
    back the table, the two input blocks and the matrix as they were, the output blocks untouched, the two row
    buffers at some contents, each accumulator with its pieces written, both cells at zero, and the core owing nothing. -/
noncomputable def kernelRunA (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))
    (h1 : C1 i) (h2 : ¬ C2 i) :
    Σ' (L12 : List (View.Piece (Elt F) S1x1 .f32)) (L13 : List (View.Piece (Elt F) S1x1 .f32)) (L14 : List (View.Piece (Elt F) S1x1 .f32)) (L15 : List (View.Piece (Elt F) S1x1 .f32)) (L16 : List (View.Piece (Elt F) S1x1 .f32)), { L17 : List (View.Piece (Elt F) S1x1 .f32) //
      ∀ (O : sProp 𝕄) (W : Waits sig Unit) (Q : PUnit → sProp 𝕄),
        iprop(pt c (Memref.whole main_v2) tbl ∗ owns (c : Thread nD τ) M2 fullShare x2 ∗ owns (c : Thread nD τ) M3 fullShare x3
            ∗ pt c (Memref.whole main_arg1) sim ∗ O
            ∗ pt c (Memref.whole cc0_scratch0) b9 ∗ pt c (Memref.whole cc0_scratch1) b10
            ∗ pt c (Memref.whole cc0_scratch3) a12 ∗ pt c (Memref.whole cc0_scratch4) a13 ∗ pt c (Memref.whole cc0_scratch5) a14 ∗ pt c (Memref.whole cc0_scratch6) a15 ∗ pt c (Memref.whole cc0_scratch7) a16 ∗ pt c (Memref.whole cc0_scratch8) a17
            ∗ sems0 c ∗ owes (c : Thread nD τ) 0 W
            ∗ (iprop(pt c (Memref.whole main_v2) tbl ∗ owns (c : Thread nD τ) M2 fullShare x2 ∗ owns (c : Thread nD τ) M3 fullShare x3
              ∗ pt c (Memref.whole main_arg1) sim ∗ O
              ∗ (∃ f, pt c (Memref.whole cc0_scratch0) f) ∗ (∃ f, pt c (Memref.whole cc0_scratch1) f)
              ∗ pt c (Memref.whole cc0_scratch3) ((Memref.whole cc0_scratch3).view.writes (Elt F) a12 L12)
              ∗ pt c (Memref.whole cc0_scratch4) ((Memref.whole cc0_scratch4).view.writes (Elt F) a13 L13)
              ∗ pt c (Memref.whole cc0_scratch5) ((Memref.whole cc0_scratch5).view.writes (Elt F) a14 L14)
              ∗ pt c (Memref.whole cc0_scratch6) ((Memref.whole cc0_scratch6).view.writes (Elt F) a15 L15)
              ∗ pt c (Memref.whole cc0_scratch7) ((Memref.whole cc0_scratch7).view.writes (Elt F) a16 L16)
              ∗ pt c (Memref.whole cc0_scratch8) ((Memref.whole cc0_scratch8).view.writes (Elt F) a17 L17)
              ∗ sems0 c ∗ ∃ W', owes (c : Thread nD τ) 0 W') -∗ Q ⟨⟩))
          ⊢ wp frame (wpE (defs₀ (F := F)) Variants.none c none) Set.univ (bodyAt i M2 hM2 M3 hM3 M5 hM5 M6 hM6 M7 hM7 M8 hM8) Q } := by
  refine ⟨?_, ?_, ?_, ?_, ?_, ?_, fun O W Q => ?run⟩
  case run =>
    unfold owns bodyAt
    iintro ⟨Ht, ⟨%f2, %hf2, H2⟩, ⟨%f3, %hf3, H3⟩, Hsim, HO, H9, H10, H12, H13, H14, H15, H16, H17, ⟨Hd0, Hd1⟩, HOw, Hk⟩
    obtain rfl := hM2.eq_unread hf2; obtain rfl := hM3.eq_unread hf3
    sl_exec_parts (disch := first | exact h1 | exact h2 | exact chkOfLt _ (hT _))
    sl_step
    iapply Hk
    isplitl [Ht]; · iexact Ht
    isplitl [H2]
    · iexists _; isplitr; · ipureintro; exact hM2.read_unread _
      iexact H2
    isplitl [H3]
    · iexists _; isplitr; · ipureintro; exact hM3.read_unread _
      iexact H3
    isplitl [Hsim]; · iexact Hsim
    isplitl [HO]; · iexact HO
    isplitl [H9]; · iexists _; iexact H9
    isplitl [H10]; · iexists _; iexact H10
    isplitl [H12]; · iexact H12
    isplitl [H13]; · iexact H13
    isplitl [H14]; · iexact H14
    isplitl [H15]; · iexact H15
    isplitl [H16]; · iexact H16
    isplitl [H17]; · iexact H17
    isplitl [Hd0 Hd1]
    · isplitl [Hd0]; · iexact Hd0
      iexact Hd1
    iexists _; iexact HOw

end Cert.Proof.K

end
-- ==== Proof.KRunB.lean ====
/-
  The kernel body at one grid point, case B: from the prefetched table of target words (every word below 10000), the
  staged blocks of the log-probabilities and of the mask, the similarity matrix left in HBM, the two row buffers, the two
  DMA semaphore cells at zero and the six (1,1) accumulators, the body runs to its return: sixty-four row copies are
  issued on the two cells alternately, each waited before its buffer is read and before the next copy into that buffer
  is issued, and every accumulator is overwritten sixty-four times by its old value plus the row's contribution.
  What each accumulator (and, at the last point, each output block) ends with is the list of pieces the run finds.
-/
import proofs.«419560_j5755256177164_3_alg».proof.Proof.Gen.Kernel
import proofs.«419560_j5755256177164_3_alg».proof.Proof.Gen.Kernel.Skeleton
import proofs.«419560_j5755256177164_3_alg».proof.Proof.Gen.Kernel.Launch
import proofs.«419560_j5755256177164_3_alg».proof.Proof.KRunDefs
import Idealize.ShloMosaic.Lib.Writes
import Idealize.ShloMosaic.Lib.Pipeline.FrameBody
import Idealize.ShloMosaic.Lib.Pipeline.Kit
import Idealize.ShloMosaic.Lib.Tactic

set_option maxRecDepth 65536

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

set_option maxHeartbeats 4000000 in
/-- The pieces each accumulator ends with at a point of case B, with the proof that the body runs there to its return handing
    back the table, the two input blocks and the matrix as they were, the output blocks untouched, the two row
    buffers at some contents, each accumulator with its pieces written, both cells at zero, and the core owing nothing. -/
noncomputable def kernelRunB (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))
    (h1 : ¬ C1 i) (h2 : ¬ C2 i) :
    Σ' (L12 : List (View.Piece (Elt F) S1x1 .f32)) (L13 : List (View.Piece (Elt F) S1x1 .f32)) (L14 : List (View.Piece (Elt F) S1x1 .f32)) (L15 : List (View.Piece (Elt F) S1x1 .f32)) (L16 : List (View.Piece (Elt F) S1x1 .f32)), { L17 : List (View.Piece (Elt F) S1x1 .f32) //
      ∀ (O : sProp 𝕄) (W : Waits sig Unit) (Q : PUnit → sProp 𝕄),
        iprop(pt c (Memref.whole main_v2) tbl ∗ owns (c : Thread nD τ) M2 fullShare x2 ∗ owns (c : Thread nD τ) M3 fullShare x3
            ∗ pt c (Memref.whole main_arg1) sim ∗ O
            ∗ pt c (Memref.whole cc0_scratch0) b9 ∗ pt c (Memref.whole cc0_scratch1) b10
            ∗ pt c (Memref.whole cc0_scratch3) a12 ∗ pt c (Memref.whole cc0_scratch4) a13 ∗ pt c (Memref.whole cc0_scratch5) a14 ∗ pt c (Memref.whole cc0_scratch6) a15 ∗ pt c (Memref.whole cc0_scratch7) a16 ∗ pt c (Memref.whole cc0_scratch8) a17
            ∗ sems0 c ∗ owes (c : Thread nD τ) 0 W
            ∗ (iprop(pt c (Memref.whole main_v2) tbl ∗ owns (c : Thread nD τ) M2 fullShare x2 ∗ owns (c : Thread nD τ) M3 fullShare x3
              ∗ pt c (Memref.whole main_arg1) sim ∗ O
              ∗ (∃ f, pt c (Memref.whole cc0_scratch0) f) ∗ (∃ f, pt c (Memref.whole cc0_scratch1) f)
              ∗ pt c (Memref.whole cc0_scratch3) ((Memref.whole cc0_scratch3).view.writes (Elt F) a12 L12)
              ∗ pt c (Memref.whole cc0_scratch4) ((Memref.whole cc0_scratch4).view.writes (Elt F) a13 L13)
              ∗ pt c (Memref.whole cc0_scratch5) ((Memref.whole cc0_scratch5).view.writes (Elt F) a14 L14)
              ∗ pt c (Memref.whole cc0_scratch6) ((Memref.whole cc0_scratch6).view.writes (Elt F) a15 L15)
              ∗ pt c (Memref.whole cc0_scratch7) ((Memref.whole cc0_scratch7).view.writes (Elt F) a16 L16)
              ∗ pt c (Memref.whole cc0_scratch8) ((Memref.whole cc0_scratch8).view.writes (Elt F) a17 L17)
              ∗ sems0 c ∗ ∃ W', owes (c : Thread nD τ) 0 W') -∗ Q ⟨⟩))
          ⊢ wp frame (wpE (defs₀ (F := F)) Variants.none c none) Set.univ (bodyAt i M2 hM2 M3 hM3 M5 hM5 M6 hM6 M7 hM7 M8 hM8) Q } := by
  refine ⟨?_, ?_, ?_, ?_, ?_, ?_, fun O W Q => ?run⟩
  case run =>
    unfold owns bodyAt
    iintro ⟨Ht, ⟨%f2, %hf2, H2⟩, ⟨%f3, %hf3, H3⟩, Hsim, HO, H9, H10, H12, H13, H14, H15, H16, H17, ⟨Hd0, Hd1⟩, HOw, Hk⟩
    obtain rfl := hM2.eq_unread hf2; obtain rfl := hM3.eq_unread hf3
    sl_exec_parts (disch := first | exact h1 | exact h2 | exact chkOfLt _ (hT _))
    sl_step
    iapply Hk
    isplitl [Ht]; · iexact Ht
    isplitl [H2]
    · iexists _; isplitr; · ipureintro; exact hM2.read_unread _
      iexact H2
    isplitl [H3]
    · iexists _; isplitr; · ipureintro; exact hM3.read_unread _
      iexact H3
    isplitl [Hsim]; · iexact Hsim
    isplitl [HO]; · iexact HO
    isplitl [H9]; · iexists _; iexact H9
    isplitl [H10]; · iexists _; iexact H10
    isplitl [H12]; · iexact H12
    isplitl [H13]; · iexact H13
    isplitl [H14]; · iexact H14
    isplitl [H15]; · iexact H15
    isplitl [H16]; · iexact H16
    isplitl [H17]; · iexact H17
    isplitl [Hd0 Hd1]
    · isplitl [Hd0]; · iexact Hd0
      iexact Hd1
    iexists _; iexact HOw

end Cert.Proof.K

end
-- ==== Proof.KRunC.lean ====
/-
  The kernel body at one grid point, case C: from the prefetched table of target words (every word below 10000), the
  staged blocks of the log-probabilities and of the mask, the similarity matrix left in HBM, the two row buffers, the two
  DMA semaphore cells at zero and the six (1,1) accumulators, the body runs to its return: sixty-four row copies are
  issued on the two cells alternately, each waited before its buffer is read and before the next copy into that buffer
  is issued, and every accumulator is overwritten sixty-four times by its old value plus the row's contribution.
  What each accumulator (and, at the last point, each output block) ends with is the list of pieces the run finds.
-/
import proofs.«419560_j5755256177164_3_alg».proof.Proof.Gen.Kernel
import proofs.«419560_j5755256177164_3_alg».proof.Proof.Gen.Kernel.Skeleton
import proofs.«419560_j5755256177164_3_alg».proof.Proof.Gen.Kernel.Launch
import proofs.«419560_j5755256177164_3_alg».proof.Proof.KRunDefs
import Idealize.ShloMosaic.Lib.Writes
import Idealize.ShloMosaic.Lib.Pipeline.FrameBody
import Idealize.ShloMosaic.Lib.Pipeline.Kit
import Idealize.ShloMosaic.Lib.Tactic

set_option maxRecDepth 65536

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

set_option maxHeartbeats 4000000 in
/-- The pieces each accumulator and each output block ends with at a point of case C, with the proof that the body runs there to its return handing
    back the table, the two input blocks and the matrix as they were, each output block with its pieces written, the two row
    buffers at some contents, each accumulator with its pieces written, both cells at zero, and the core owing nothing. -/
noncomputable def kernelRunC (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))
    (h1 : ¬ C1 i) (h2 : C2 i) :
    Σ' (L5 : List (View.Piece (Elt F) S1x1 .f32)) (L6 : List (View.Piece (Elt F) S1x1 .f32)) (L7 : List (View.Piece (Elt F) S1x1 .f32)) (L8 : List (View.Piece (Elt F) S1x1 .f32)) (L12 : List (View.Piece (Elt F) S1x1 .f32)) (L13 : List (View.Piece (Elt F) S1x1 .f32)) (L14 : List (View.Piece (Elt F) S1x1 .f32)) (L15 : List (View.Piece (Elt F) S1x1 .f32)) (L16 : List (View.Piece (Elt F) S1x1 .f32)), { L17 : List (View.Piece (Elt F) S1x1 .f32) //
      ∀ (W : Waits sig Unit) (Q : PUnit → sProp 𝕄),
        iprop(pt c (Memref.whole main_v2) tbl ∗ owns (c : Thread nD τ) M2 fullShare x2 ∗ owns (c : Thread nD τ) M3 fullShare x3
            ∗ pt c (Memref.whole main_arg1) sim ∗ (∃ d, owns (c : Thread nD τ) M5 fullShare d) ∗ (∃ d, owns (c : Thread nD τ) M6 fullShare d) ∗ (∃ d, owns (c : Thread nD τ) M7 fullShare d) ∗ (∃ d, owns (c : Thread nD τ) M8 fullShare d)
            ∗ pt c (Memref.whole cc0_scratch0) b9 ∗ pt c (Memref.whole cc0_scratch1) b10
            ∗ pt c (Memref.whole cc0_scratch3) a12 ∗ pt c (Memref.whole cc0_scratch4) a13 ∗ pt c (Memref.whole cc0_scratch5) a14 ∗ pt c (Memref.whole cc0_scratch6) a15 ∗ pt c (Memref.whole cc0_scratch7) a16 ∗ pt c (Memref.whole cc0_scratch8) a17
            ∗ sems0 c ∗ owes (c : Thread nD τ) 0 W
            ∗ (iprop(pt c (Memref.whole main_v2) tbl ∗ owns (c : Thread nD τ) M2 fullShare x2 ∗ owns (c : Thread nD τ) M3 fullShare x3
              ∗ pt c (Memref.whole main_arg1) sim ∗ (∃ f, M5.view.loc (c : Thread nD τ) ↦[M5.view.set]{fullShare} M5.view.writes (Elt F) f L5) ∗ (∃ f, M6.view.loc (c : Thread nD τ) ↦[M6.view.set]{fullShare} M6.view.writes (Elt F) f L6) ∗ (∃ f, M7.view.loc (c : Thread nD τ) ↦[M7.view.set]{fullShare} M7.view.writes (Elt F) f L7) ∗ (∃ f, M8.view.loc (c : Thread nD τ) ↦[M8.view.set]{fullShare} M8.view.writes (Elt F) f L8)
              ∗ (∃ f, pt c (Memref.whole cc0_scratch0) f) ∗ (∃ f, pt c (Memref.whole cc0_scratch1) f)
              ∗ pt c (Memref.whole cc0_scratch3) ((Memref.whole cc0_scratch3).view.writes (Elt F) a12 L12)
              ∗ pt c (Memref.whole cc0_scratch4) ((Memref.whole cc0_scratch4).view.writes (Elt F) a13 L13)
              ∗ pt c (Memref.whole cc0_scratch5) ((Memref.whole cc0_scratch5).view.writes (Elt F) a14 L14)
              ∗ pt c (Memref.whole cc0_scratch6) ((Memref.whole cc0_scratch6).view.writes (Elt F) a15 L15)
              ∗ pt c (Memref.whole cc0_scratch7) ((Memref.whole cc0_scratch7).view.writes (Elt F) a16 L16)
              ∗ pt c (Memref.whole cc0_scratch8) ((Memref.whole cc0_scratch8).view.writes (Elt F) a17 L17)
              ∗ sems0 c ∗ ∃ W', owes (c : Thread nD τ) 0 W') -∗ Q ⟨⟩))
          ⊢ wp frame (wpE (defs₀ (F := F)) Variants.none c none) Set.univ (bodyAt i M2 hM2 M3 hM3 M5 hM5 M6 hM6 M7 hM7 M8 hM8) Q } := by
  refine ⟨?_, ?_, ?_, ?_, ?_, ?_, ?_, ?_, ?_, ?_, fun W Q => ?run⟩
  case run =>
    unfold owns bodyAt
    iintro ⟨Ht, ⟨%f2, %hf2, H2⟩, ⟨%f3, %hf3, H3⟩, Hsim, ⟨%d5, %f5, %hf5, H5⟩, ⟨%d6, %f6, %hf6, H6⟩, ⟨%d7, %f7, %hf7, H7⟩, ⟨%d8, %f8, %hf8, H8⟩, H9, H10, H12, H13, H14, H15, H16, H17, ⟨Hd0, Hd1⟩, HOw, Hk⟩
    obtain rfl := hM2.eq_unread hf2; obtain rfl := hM3.eq_unread hf3
    obtain rfl := hM5.eq_unread hf5; obtain rfl := hM6.eq_unread hf6; obtain rfl := hM7.eq_unread hf7; obtain rfl := hM8.eq_unread hf8
    sl_exec_parts (disch := first | exact h1 | exact h2 | exact chkOfLt _ (hT _))
    sl_step
    iapply Hk
    isplitl [Ht]; · iexact Ht
    isplitl [H2]
    · iexists _; isplitr; · ipureintro; exact hM2.read_unread _
      iexact H2
    isplitl [H3]
    · iexists _; isplitr; · ipureintro; exact hM3.read_unread _
      iexact H3
    isplitl [Hsim]; · iexact Hsim
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H12]; · iexact H12
    isplitl [H13]; · iexact H13
    isplitl [H14]; · iexact H14
    isplitl [H15]; · iexact H15
    isplitl [H16]; · iexact H16
    isplitl [H17]; · iexact H17
    isplitl [Hd0 Hd1]
    · isplitl [Hd0]; · iexact Hd0
      iexact Hd1
    iexists _; iexact HOw

end Cert.Proof.K

end
-- ==== Proof.KStepLib.lean ====
/-
  What one grid point's run found, read piece by piece: the generic facts.

  A running sum's buffer is one-by-one and every write to it goes through the whole buffer, so a load after a
  list of writes reads the last write's payload, whatever came before; a row buffer is filled whole by a row
  copy, so a load after the copy reads what the copy read of the matrix, and that is the matrix row the copy's
  target word addresses; a table word read at an offset whose closed form is 64·i + r is row r's target word;
  a load of a row of a staged block reads the block's row. The sixty-four row steps of a point are taken one
  at a time: `rowsUpTo … n` is the record of running sums after the first n rows, `rowsUpTo … 64` is the
  point's step.
-/
import proofs.«419560_j5755256177164_3_alg».proof.Proof.KPointData
import Idealize.ShloMosaic.Lib.Writes
import Idealize.ShloMosaic.Lib.Pipeline.FrameBody
import Idealize.ShloMosaic.Lib.Pipeline.Value

noncomputable section

namespace Cert.Proof.K

open Cert.Kernel Cert.Kernel.Gen
open Idealize.ShloMosaic Idealize.ShloMosaic.TcCoe
open Idealize.SL Idealize.SL.Sem

variable {F : FTy → Type} [FloatOps F]

/-! ## Loads -/

/-- A table word read at an offset whose closed form is 64·i + r is row r's target word. -/
theorem word_of_off (c : Dev nD) (tbl : Bf (F := F) c (Memref.whole main_v2)) (i : grid0.Coords) (r : Fin 64)
    (off : Fin 1 → ℕ) (inb : ∀ a, off a + S1.size a ≤ S3072.size a) (h0)
    (h : off = ![64 * (i 0).val + r.val]) :
    View.readAt (Elt F) (Memref.whole main_v2).view (Rect.unit (s := S3072) off S1.size inb).toLoadRect tbl (Shape.Idx.first h0)
      = wordAt c tbl i r := by
  subst h; rfl

/-- A load of a whole buffer just after an unmasked write through the whole buffer reads what was written. -/
theorem load_after_fill {sig : RefSig} {κ : Kind} (b : Ref sig κ) (g : b.ty.Contents (Elt F)) (w : b.ty.shape.Idx → Elt F b.ty.elt)
    {off : Fin b.ty.shape.rank → ℕ} (hz : off = fun _ => 0) (inb : ∀ a, off a + b.ty.shape.size a ≤ b.ty.shape.size a) :
    View.readAt (Elt F) (Memref.whole b).view (Rect.unit off b.ty.shape.size inb).toLoadRect
      (View.write (Elt F) (Memref.whole b).view g w Finset.univ) = w := by
  rw [View.readAt_eq_ld, View.read_write_univ, View.ld_unit_zero hz]

/-- What a row copy reads of the matrix, for a word below 10000, is the matrix row the word addresses. -/
theorem copy_eq_simRow (c : Dev nD) (sim : Bf (F := F) c (Memref.whole main_arg1)) (w : BitVec 32) (h : w.toNat < 10000)
    (off : Fin 2 → ℕ) (ho : off = ![w.toNat, 0]) (inb : ∀ a, off a + S1x10000.size a ≤ S10000x10000.size a) (hs) :
    ReadAs.same.apply (View.read (Elt F) ((Memref.whole main_arg1).slice (Rect.unit (s := S10000x10000) off S1x10000.size inb) hs).view sim)
      = simRow c sim w := by
  subst ho
  unfold simRow; rw [dif_pos h]; rfl

/-- A load of row k of the staged input block, held whole at `x2`, reads `x2`'s row k. -/
theorem in_read (M2 : Memref sig .tc .vmem S64x10000 .f32) (hM2 : M2.IsWhole) (x2 : Vec F S64x10000 .f32) (k : ℕ) (hk : k < 64)
    (inb : ∀ a : Fin 2, (![k, 0] : Fin 2 → ℕ) a + S1x10000.size a ≤ S64x10000.size a) :
    View.readAt (Elt F) M2.view (Rect.unit (s := S64x10000) ![k, 0] S1x10000.size inb).toLoadRect (hM2.unread x2) = inRow x2 ⟨k, hk⟩ := by
  rw [View.readAt_eq_ld, hM2.read_unread]; rfl

/-- A load of entry k of the staged mask block, held whole at `x3`, reads `x3`'s entry k. -/
theorem mk_read (M3 : Memref sig .tc .vmem S64x1 .f32) (hM3 : M3.IsWhole) (x3 : Vec F S64x1 .f32) (k : ℕ) (hk : k < 64)
    (inb : ∀ a : Fin 2, (![k, 0] : Fin 2 → ℕ) a + S1x1.size a ≤ S64x1.size a) :
    View.readAt (Elt F) M3.view (Rect.unit (s := S64x1) ![k, 0] S1x1.size inb).toLoadRect (hM3.unread x3) = mkRow x3 ⟨k, hk⟩ := by
  rw [View.readAt_eq_ld, hM3.read_unread]; rfl

/-- A load through the last write's own rectangle, of the contents a list of writes left, reads that write's
    payload. -/
theorem read_last_write {sig : RefSig} {κ : Kind} {sp : Space} {s : Shape} {e : EltTy} (v : View sig κ sp s e)
    (f : v.ty.Contents (Elt F)) (r : Rect s) (w : r.shape.Idx → Elt F e) (L : List (View.Piece (Elt F) s e)) :
    v.readAt (Elt F) r.toLoadRect (v.writes (Elt F) f (⟨r, w⟩ :: L)) = w :=
  funext fun x => View.read_writes_cons_emb v f r w L x

/-! ## The rows of a point, one at a time -/

section Rows

variable (S X : Fin 64 → Vec F S1x10000 .f32) (M : Fin 64 → Vec F S1x1 .f32) (W : Fin 64 → BitVec 32) (a : Acc F)

/-- The running sums after the first `n` rows of a point (all sixty-four from `n = 64` on). -/
def rowsUpTo : ℕ → Acc F
  | 0 => a
  | n + 1 => if h : n < 64 then rowStep (S ⟨n, h⟩) (X ⟨n, h⟩) (M ⟨n, h⟩) (W ⟨n, h⟩) (rowsUpTo n) else rowsUpTo n

theorem rowsUpTo_zero : rowsUpTo S X M W a 0 = a := rfl

theorem rowsUpTo_succ (n : ℕ) (h : n < 64) :
    rowsUpTo S X M W a (n + 1) = rowStep (S ⟨n, h⟩) (X ⟨n, h⟩) (M ⟨n, h⟩) (W ⟨n, h⟩) (rowsUpTo S X M W a n) := by
  show (if h : n < 64 then _ else _) = _
  rw [dif_pos h]

/-- Folding over the first `n` indices of `Fin 64`, in order. -/
theorem foldl_finRange_take (n : ℕ) (hn : n ≤ 64) :
    ((List.finRange 64).take n).foldl (fun a r => rowStep (S r) (X r) (M r) (W r) a) a = rowsUpTo S X M W a n := by
  induction n with
  | zero => rfl
  | succ n ih =>
    have hlt : n < 64 := hn
    have hlen : n < (List.finRange 64).length := by rw [List.length_finRange]; exact hlt
    rw [List.take_succ_eq_append_getElem hlen, List.foldl_append, ih (Nat.le_of_lt hlt), rowsUpTo_succ S X M W a n hlt]
    simp only [List.foldl_cons, List.foldl_nil, List.getElem_finRange, Fin.cast_mk]

/-- A point's step is its sixty-four rows, one at a time. -/
theorem pointStep_eq_rowsUpTo : pointStep S X M W a = rowsUpTo S X M W a 64 := by
  have h := foldl_finRange_take S X M W a 64 (Nat.le_refl _)
  rw [List.take_of_length_le (by rw [List.length_finRange])] at h
  exact h

end Rows

/-- Two records of running sums with the same six fields are the same. -/
theorem Acc.ext6 {a b : Acc F} (h1 : a.m = b.m) (h2 : a.logp = b.logp) (h3 : a.w = b.w) (h4 : a.nf = b.nf)
    (h5 : a.s = b.s) (h6 : a.q = b.q) : a = b := by
  cases a; cases b; cases h1; cases h2; cases h3; cases h4; cases h5; cases h6; rfl

/-! ## The running sums of a point after its first n rows, from the point's data -/

/-- The running sums after the first `n` rows of grid point `i`, started from `a`. -/
def rowsOf (c : Dev nD) (tbl : Bf (F := F) c (Memref.whole main_v2)) (i : grid0.Coords)
    (sim : Bf (F := F) c (Memref.whole main_arg1)) (x2 : Vec F S64x10000 .f32) (x3 : Vec F S64x1 .f32) (a : Acc F) (n : ℕ) : Acc F :=
  rowsUpTo (fun r => simRow c sim (wordAt c tbl i r)) (inRow x2) (mkRow x3) (wordAt c tbl i) a n

section RowsOf

variable (c : Dev nD) (tbl : Bf (F := F) c (Memref.whole main_v2)) (i : grid0.Coords)
  (sim : Bf (F := F) c (Memref.whole main_arg1)) (x2 : Vec F S64x10000 .f32) (x3 : Vec F S64x1 .f32) (a : Acc F)

theorem pointOf_eq_rowsOf : pointOf c tbl i sim x2 x3 a = rowsOf c tbl i sim x2 x3 a 64 :=
  pointStep_eq_rowsUpTo _ _ _ _ _

theorem rowsOf_zero : rowsOf c tbl i sim x2 x3 a 0 = a := rfl

theorem rowsOf_succ (n : ℕ) (h : n < 64) :
    rowsOf c tbl i sim x2 x3 a (n + 1) =
      rowStep (simRow c sim (wordAt c tbl i ⟨n, h⟩)) (inRow x2 ⟨n, h⟩) (mkRow x3 ⟨n, h⟩) (wordAt c tbl i ⟨n, h⟩) (rowsOf c tbl i sim x2 x3 a n) :=
  rowsUpTo_succ _ _ _ _ _ n h

theorem rowsOf_m (n : ℕ) (h : n < 64) :
    (rowsOf c tbl i sim x2 x3 a (n + 1)).m = accAdd (rowsOf c tbl i sim x2 x3 a n).m (dM (mkRow x3 ⟨n, h⟩)) := by
  rw [rowsOf_succ c tbl i sim x2 x3 a n h]; rfl
theorem rowsOf_logp (n : ℕ) (h : n < 64) :
    (rowsOf c tbl i sim x2 x3 a (n + 1)).logp = accAdd (rowsOf c tbl i sim x2 x3 a n).logp (dLogp (inRow x2 ⟨n, h⟩) (wordAt c tbl i ⟨n, h⟩) (mkRow x3 ⟨n, h⟩)) := by
  rw [rowsOf_succ c tbl i sim x2 x3 a n h]; rfl
theorem rowsOf_w (n : ℕ) (h : n < 64) :
    (rowsOf c tbl i sim x2 x3 a (n + 1)).w = accAdd (rowsOf c tbl i sim x2 x3 a n).w (dW (simRow c sim (wordAt c tbl i ⟨n, h⟩)) (mkRow x3 ⟨n, h⟩)) := by
  rw [rowsOf_succ c tbl i sim x2 x3 a n h]; rfl
theorem rowsOf_nf (n : ℕ) (h : n < 64) :
    (rowsOf c tbl i sim x2 x3 a (n + 1)).nf = accAdd (rowsOf c tbl i sim x2 x3 a n).nf (dNF (simRow c sim (wordAt c tbl i ⟨n, h⟩)) (inRow x2 ⟨n, h⟩) (mkRow x3 ⟨n, h⟩)) := by
  rw [rowsOf_succ c tbl i sim x2 x3 a n h]; rfl
theorem rowsOf_s (n : ℕ) (h : n < 64) :
    (rowsOf c tbl i sim x2 x3 a (n + 1)).s = accAdd (rowsOf c tbl i sim x2 x3 a n).s (dS (simRow c sim (wordAt c tbl i ⟨n, h⟩))) := by
  rw [rowsOf_succ c tbl i sim x2 x3 a n h]; rfl
theorem rowsOf_q (n : ℕ) (h : n < 64) :
    (rowsOf c tbl i sim x2 x3 a (n + 1)).q = accAdd (rowsOf c tbl i sim x2 x3 a n).q (dQ (simRow c sim (wordAt c tbl i ⟨n, h⟩))) := by
  rw [rowsOf_succ c tbl i sim x2 x3 a n h]; rfl

end RowsOf

end Cert.Proof.K

end
-- ==== Proof.KStepATabW.lean ====
import proofs.«419560_j5755256177164_3_alg».proof.Proof.KRunA
import proofs.«419560_j5755256177164_3_alg».proof.Proof.KStepLib

/-!
  The table of case A: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.K

open Cert.Kernel Cert.Kernel.Gen
open Idealize.ShloMosaic Idealize.ShloMosaic.TcCoe
open Idealize.SL Idealize.SL.Sem

variable {F : FTy → Type} [FloatOps F]

namespace TabA

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

theorem W_r : kernelRunA.sl.r c i tbl = wordAt c tbl i ⟨0, by decide⟩ := by
  unfold kernelRunA.sl.r; exact word_of_off c tbl i ⟨0, by decide⟩ _ _ _ (k0_off1_eq i)
theorem W_r_2 : kernelRunA.sl.r_2 c i tbl = wordAt c tbl i ⟨0, by decide⟩ := by
  unfold kernelRunA.sl.r_2; exact word_of_off c tbl i ⟨0, by decide⟩ _ _ _ (k0_off5_eq i ⟨0, by decide⟩)
theorem W_r_1 : kernelRunA.sl.r_1 c i tbl = wordAt c tbl i ⟨1, by decide⟩ := by
  unfold kernelRunA.sl.r_1; exact word_of_off c tbl i ⟨1, by decide⟩ _ _ _ (k0_off3_eq i)
theorem W_r_12 : kernelRunA.sl.r_12 c i tbl = wordAt c tbl i ⟨1, by decide⟩ := by
  unfold kernelRunA.sl.r_12; exact word_of_off c tbl i ⟨1, by decide⟩ _ _ _ (k0_off7_eq i ⟨0, by decide⟩)
theorem W_r_11 : kernelRunA.sl.r_11 c i tbl = wordAt c tbl i ⟨2, by decide⟩ := by
  unfold kernelRunA.sl.r_11; exact word_of_off c tbl i ⟨2, by decide⟩ _ _ _ (k0_off5_eq i ⟨1, by decide⟩)
theorem W_r_21 : kernelRunA.sl.r_21 c i tbl = wordAt c tbl i ⟨2, by decide⟩ := by
  unfold kernelRunA.sl.r_21; exact word_of_off c tbl i ⟨2, by decide⟩ _ _ _ (k0_off9_eq i ⟨0, by decide⟩)
theorem W_r_20 : kernelRunA.sl.r_20 c i tbl = wordAt c tbl i ⟨3, by decide⟩ := by
  unfold kernelRunA.sl.r_20; exact word_of_off c tbl i ⟨3, by decide⟩ _ _ _ (k0_off7_eq i ⟨1, by decide⟩)
theorem W_r_31 : kernelRunA.sl.r_31 c i tbl = wordAt c tbl i ⟨3, by decide⟩ := by
  unfold kernelRunA.sl.r_31; exact word_of_off c tbl i ⟨3, by decide⟩ _ _ _ (k0_off11_eq i ⟨0, by decide⟩)
theorem W_r_30 : kernelRunA.sl.r_30 c i tbl = wordAt c tbl i ⟨4, by decide⟩ := by
  unfold kernelRunA.sl.r_30; exact word_of_off c tbl i ⟨4, by decide⟩ _ _ _ (k0_off9_eq i ⟨1, by decide⟩)
theorem W_r_41 : kernelRunA.sl.r_41 c i tbl = wordAt c tbl i ⟨4, by decide⟩ := by
  unfold kernelRunA.sl.r_41; exact word_of_off c tbl i ⟨4, by decide⟩ _ _ _ (k0_off13_eq i ⟨0, by decide⟩)
theorem W_r_40 : kernelRunA.sl.r_40 c i tbl = wordAt c tbl i ⟨5, by decide⟩ := by
  unfold kernelRunA.sl.r_40; exact word_of_off c tbl i ⟨5, by decide⟩ _ _ _ (k0_off11_eq i ⟨1, by decide⟩)
theorem W_r_50 : kernelRunA.sl.r_50 c i tbl = wordAt c tbl i ⟨5, by decide⟩ := by
  unfold kernelRunA.sl.r_50; exact word_of_off c tbl i ⟨5, by decide⟩ _ _ _ (k0_off15_eq i ⟨0, by decide⟩)
theorem W_r_49 : kernelRunA.sl.r_49 c i tbl = wordAt c tbl i ⟨6, by decide⟩ := by
  unfold kernelRunA.sl.r_49; exact word_of_off c tbl i ⟨6, by decide⟩ _ _ _ (k0_off13_eq i ⟨1, by decide⟩)
theorem W_r_59 : kernelRunA.sl.r_59 c i tbl = wordAt c tbl i ⟨6, by decide⟩ := by
  unfold kernelRunA.sl.r_59; exact word_of_off c tbl i ⟨6, by decide⟩ _ _ _ (k0_off17_eq i ⟨0, by decide⟩)
theorem W_r_58 : kernelRunA.sl.r_58 c i tbl = wordAt c tbl i ⟨7, by decide⟩ := by
  unfold kernelRunA.sl.r_58; exact word_of_off c tbl i ⟨7, by decide⟩ _ _ _ (k0_off15_eq i ⟨1, by decide⟩)
theorem W_r_68 : kernelRunA.sl.r_68 c i tbl = wordAt c tbl i ⟨7, by decide⟩ := by
  unfold kernelRunA.sl.r_68; exact word_of_off c tbl i ⟨7, by decide⟩ _ _ _ (k0_off19_eq i ⟨0, by decide⟩)
theorem W_r_67 : kernelRunA.sl.r_67 c i tbl = wordAt c tbl i ⟨8, by decide⟩ := by
  unfold kernelRunA.sl.r_67; exact word_of_off c tbl i ⟨8, by decide⟩ _ _ _ (k0_off17_eq i ⟨1, by decide⟩)
theorem W_r_76 : kernelRunA.sl.r_76 c i tbl = wordAt c tbl i ⟨8, by decide⟩ := by
  unfold kernelRunA.sl.r_76; exact word_of_off c tbl i ⟨8, by decide⟩ _ _ _ (k0_off21_eq i ⟨0, by decide⟩)
theorem W_r_75 : kernelRunA.sl.r_75 c i tbl = wordAt c tbl i ⟨9, by decide⟩ := by
  unfold kernelRunA.sl.r_75; exact word_of_off c tbl i ⟨9, by decide⟩ _ _ _ (k0_off19_eq i ⟨1, by decide⟩)
theorem W_r_86 : kernelRunA.sl.r_86 c i tbl = wordAt c tbl i ⟨9, by decide⟩ := by
  unfold kernelRunA.sl.r_86; exact word_of_off c tbl i ⟨9, by decide⟩ _ _ _ (k0_off23_eq i ⟨0, by decide⟩)
theorem W_r_83 : kernelRunA.sl.r_83 c i tbl = wordAt c tbl i ⟨10, by decide⟩ := by
  unfold kernelRunA.sl.r_83; exact word_of_off c tbl i ⟨10, by decide⟩ _ _ _ (k0_off21_eq i ⟨1, by decide⟩)
theorem W_r_93 : kernelRunA.sl.r_93 c i tbl = wordAt c tbl i ⟨10, by decide⟩ := by
  unfold kernelRunA.sl.r_93; exact word_of_off c tbl i ⟨10, by decide⟩ _ _ _ (k0_off25_eq i ⟨0, by decide⟩)
theorem W_r_102 : kernelRunA.sl.r_102 c i tbl = wordAt c tbl i ⟨11, by decide⟩ := by
  unfold kernelRunA.sl.r_102; exact word_of_off c tbl i ⟨11, by decide⟩ _ _ _ (k0_off27_eq i ⟨0, by decide⟩)
theorem W_r_92 : kernelRunA.sl.r_92 c i tbl = wordAt c tbl i ⟨11, by decide⟩ := by
  unfold kernelRunA.sl.r_92; exact word_of_off c tbl i ⟨11, by decide⟩ _ _ _ (k0_off23_eq i ⟨1, by decide⟩)
theorem W_r_101 : kernelRunA.sl.r_101 c i tbl = wordAt c tbl i ⟨12, by decide⟩ := by
  unfold kernelRunA.sl.r_101; exact word_of_off c tbl i ⟨12, by decide⟩ _ _ _ (k0_off25_eq i ⟨1, by decide⟩)
theorem W_r_114 : kernelRunA.sl.r_114 c i tbl = wordAt c tbl i ⟨12, by decide⟩ := by
  unfold kernelRunA.sl.r_114; exact word_of_off c tbl i ⟨12, by decide⟩ _ _ _ (k0_off29_eq i ⟨0, by decide⟩)
theorem W_r_111 : kernelRunA.sl.r_111 c i tbl = wordAt c tbl i ⟨13, by decide⟩ := by
  unfold kernelRunA.sl.r_111; exact word_of_off c tbl i ⟨13, by decide⟩ _ _ _ (k0_off27_eq i ⟨1, by decide⟩)
theorem W_r_123 : kernelRunA.sl.r_123 c i tbl = wordAt c tbl i ⟨13, by decide⟩ := by
  unfold kernelRunA.sl.r_123; exact word_of_off c tbl i ⟨13, by decide⟩ _ _ _ (k0_off31_eq i ⟨0, by decide⟩)
theorem W_r_122 : kernelRunA.sl.r_122 c i tbl = wordAt c tbl i ⟨14, by decide⟩ := by
  unfold kernelRunA.sl.r_122; exact word_of_off c tbl i ⟨14, by decide⟩ _ _ _ (k0_off29_eq i ⟨1, by decide⟩)
theorem W_r_133 : kernelRunA.sl.r_133 c i tbl = wordAt c tbl i ⟨14, by decide⟩ := by
  unfold kernelRunA.sl.r_133; exact word_of_off c tbl i ⟨14, by decide⟩ _ _ _ (k0_off33_eq i ⟨0, by decide⟩)
theorem W_r_132 : kernelRunA.sl.r_132 c i tbl = wordAt c tbl i ⟨15, by decide⟩ := by
  unfold kernelRunA.sl.r_132; exact word_of_off c tbl i ⟨15, by decide⟩ _ _ _ (k0_off31_eq i ⟨1, by decide⟩)
theorem W_r_144 : kernelRunA.sl.r_144 c i tbl = wordAt c tbl i ⟨15, by decide⟩ := by
  unfold kernelRunA.sl.r_144; exact word_of_off c tbl i ⟨15, by decide⟩ _ _ _ (k0_off35_eq i ⟨0, by decide⟩)
theorem W_r_142 : kernelRunA.sl.r_142 c i tbl = wordAt c tbl i ⟨16, by decide⟩ := by
  unfold kernelRunA.sl.r_142; exact word_of_off c tbl i ⟨16, by decide⟩ _ _ _ (k0_off33_eq i ⟨1, by decide⟩)
theorem W_r_153 : kernelRunA.sl.r_153 c i tbl = wordAt c tbl i ⟨16, by decide⟩ := by
  unfold kernelRunA.sl.r_153; exact word_of_off c tbl i ⟨16, by decide⟩ _ _ _ (k0_off37_eq i ⟨0, by decide⟩)
theorem W_r_152 : kernelRunA.sl.r_152 c i tbl = wordAt c tbl i ⟨17, by decide⟩ := by
  unfold kernelRunA.sl.r_152; exact word_of_off c tbl i ⟨17, by decide⟩ _ _ _ (k0_off35_eq i ⟨1, by decide⟩)
theorem W_r_162 : kernelRunA.sl.r_162 c i tbl = wordAt c tbl i ⟨17, by decide⟩ := by
  unfold kernelRunA.sl.r_162; exact word_of_off c tbl i ⟨17, by decide⟩ _ _ _ (k0_off39_eq i ⟨0, by decide⟩)
theorem W_r_161 : kernelRunA.sl.r_161 c i tbl = wordAt c tbl i ⟨18, by decide⟩ := by
  unfold kernelRunA.sl.r_161; exact word_of_off c tbl i ⟨18, by decide⟩ _ _ _ (k0_off37_eq i ⟨1, by decide⟩)
theorem W_r_172 : kernelRunA.sl.r_172 c i tbl = wordAt c tbl i ⟨18, by decide⟩ := by
  unfold kernelRunA.sl.r_172; exact word_of_off c tbl i ⟨18, by decide⟩ _ _ _ (k0_off41_eq i ⟨0, by decide⟩)
theorem W_r_171 : kernelRunA.sl.r_171 c i tbl = wordAt c tbl i ⟨19, by decide⟩ := by
  unfold kernelRunA.sl.r_171; exact word_of_off c tbl i ⟨19, by decide⟩ _ _ _ (k0_off39_eq i ⟨1, by decide⟩)
theorem W_r_180 : kernelRunA.sl.r_180 c i tbl = wordAt c tbl i ⟨19, by decide⟩ := by
  unfold kernelRunA.sl.r_180; exact word_of_off c tbl i ⟨19, by decide⟩ _ _ _ (k0_off43_eq i ⟨0, by decide⟩)
theorem W_r_179 : kernelRunA.sl.r_179 c i tbl = wordAt c tbl i ⟨20, by decide⟩ := by
  unfold kernelRunA.sl.r_179; exact word_of_off c tbl i ⟨20, by decide⟩ _ _ _ (k0_off41_eq i ⟨1, by decide⟩)
theorem W_r_189 : kernelRunA.sl.r_189 c i tbl = wordAt c tbl i ⟨20, by decide⟩ := by
  unfold kernelRunA.sl.r_189; exact word_of_off c tbl i ⟨20, by decide⟩ _ _ _ (k0_off45_eq i ⟨0, by decide⟩)
theorem W_r_188 : kernelRunA.sl.r_188 c i tbl = wordAt c tbl i ⟨21, by decide⟩ := by
  unfold kernelRunA.sl.r_188; exact word_of_off c tbl i ⟨21, by decide⟩ _ _ _ (k0_off43_eq i ⟨1, by decide⟩)
theorem W_r_199 : kernelRunA.sl.r_199 c i tbl = wordAt c tbl i ⟨21, by decide⟩ := by
  unfold kernelRunA.sl.r_199; exact word_of_off c tbl i ⟨21, by decide⟩ _ _ _ (k0_off47_eq i ⟨0, by decide⟩)
theorem W_r_198 : kernelRunA.sl.r_198 c i tbl = wordAt c tbl i ⟨22, by decide⟩ := by
  unfold kernelRunA.sl.r_198; exact word_of_off c tbl i ⟨22, by decide⟩ _ _ _ (k0_off45_eq i ⟨1, by decide⟩)
theorem W_r_208 : kernelRunA.sl.r_208 c i tbl = wordAt c tbl i ⟨22, by decide⟩ := by
  unfold kernelRunA.sl.r_208; exact word_of_off c tbl i ⟨22, by decide⟩ _ _ _ (k0_off49_eq i ⟨0, by decide⟩)
theorem W_r_207 : kernelRunA.sl.r_207 c i tbl = wordAt c tbl i ⟨23, by decide⟩ := by
  unfold kernelRunA.sl.r_207; exact word_of_off c tbl i ⟨23, by decide⟩ _ _ _ (k0_off47_eq i ⟨1, by decide⟩)
theorem W_r_218 : kernelRunA.sl.r_218 c i tbl = wordAt c tbl i ⟨23, by decide⟩ := by
  unfold kernelRunA.sl.r_218; exact word_of_off c tbl i ⟨23, by decide⟩ _ _ _ (k0_off51_eq i ⟨0, by decide⟩)
theorem W_r_217 : kernelRunA.sl.r_217 c i tbl = wordAt c tbl i ⟨24, by decide⟩ := by
  unfold kernelRunA.sl.r_217; exact word_of_off c tbl i ⟨24, by decide⟩ _ _ _ (k0_off49_eq i ⟨1, by decide⟩)
theorem W_r_228 : kernelRunA.sl.r_228 c i tbl = wordAt c tbl i ⟨24, by decide⟩ := by
  unfold kernelRunA.sl.r_228; exact word_of_off c tbl i ⟨24, by decide⟩ _ _ _ (k0_off53_eq i ⟨0, by decide⟩)
theorem W_r_227 : kernelRunA.sl.r_227 c i tbl = wordAt c tbl i ⟨25, by decide⟩ := by
  unfold kernelRunA.sl.r_227; exact word_of_off c tbl i ⟨25, by decide⟩ _ _ _ (k0_off51_eq i ⟨1, by decide⟩)
theorem W_r_237 : kernelRunA.sl.r_237 c i tbl = wordAt c tbl i ⟨25, by decide⟩ := by
  unfold kernelRunA.sl.r_237; exact word_of_off c tbl i ⟨25, by decide⟩ _ _ _ (k0_off55_eq i ⟨0, by decide⟩)
theorem W_r_236 : kernelRunA.sl.r_236 c i tbl = wordAt c tbl i ⟨26, by decide⟩ := by
  unfold kernelRunA.sl.r_236; exact word_of_off c tbl i ⟨26, by decide⟩ _ _ _ (k0_off53_eq i ⟨1, by decide⟩)
theorem W_r_246 : kernelRunA.sl.r_246 c i tbl = wordAt c tbl i ⟨26, by decide⟩ := by
  unfold kernelRunA.sl.r_246; exact word_of_off c tbl i ⟨26, by decide⟩ _ _ _ (k0_off57_eq i ⟨0, by decide⟩)
theorem W_r_245 : kernelRunA.sl.r_245 c i tbl = wordAt c tbl i ⟨27, by decide⟩ := by
  unfold kernelRunA.sl.r_245; exact word_of_off c tbl i ⟨27, by decide⟩ _ _ _ (k0_off55_eq i ⟨1, by decide⟩)
theorem W_r_255 : kernelRunA.sl.r_255 c i tbl = wordAt c tbl i ⟨27, by decide⟩ := by
  unfold kernelRunA.sl.r_255; exact word_of_off c tbl i ⟨27, by decide⟩ _ _ _ (k0_off59_eq i ⟨0, by decide⟩)
theorem W_r_254 : kernelRunA.sl.r_254 c i tbl = wordAt c tbl i ⟨28, by decide⟩ := by
  unfold kernelRunA.sl.r_254; exact word_of_off c tbl i ⟨28, by decide⟩ _ _ _ (k0_off57_eq i ⟨1, by decide⟩)
theorem W_r_263 : kernelRunA.sl.r_263 c i tbl = wordAt c tbl i ⟨28, by decide⟩ := by
  unfold kernelRunA.sl.r_263; exact word_of_off c tbl i ⟨28, by decide⟩ _ _ _ (k0_off61_eq i ⟨0, by decide⟩)
theorem W_r_262 : kernelRunA.sl.r_262 c i tbl = wordAt c tbl i ⟨29, by decide⟩ := by
  unfold kernelRunA.sl.r_262; exact word_of_off c tbl i ⟨29, by decide⟩ _ _ _ (k0_off59_eq i ⟨1, by decide⟩)
theorem W_r_273 : kernelRunA.sl.r_273 c i tbl = wordAt c tbl i ⟨29, by decide⟩ := by
  unfold kernelRunA.sl.r_273; exact word_of_off c tbl i ⟨29, by decide⟩ _ _ _ (k0_off63_eq i ⟨0, by decide⟩)
theorem W_r_270 : kernelRunA.sl.r_270 c i tbl = wordAt c tbl i ⟨30, by decide⟩ := by
  unfold kernelRunA.sl.r_270; exact word_of_off c tbl i ⟨30, by decide⟩ _ _ _ (k0_off61_eq i ⟨1, by decide⟩)
theorem W_r_280 : kernelRunA.sl.r_280 c i tbl = wordAt c tbl i ⟨30, by decide⟩ := by
  unfold kernelRunA.sl.r_280; exact word_of_off c tbl i ⟨30, by decide⟩ _ _ _ (k0_off65_eq i ⟨0, by decide⟩)
theorem W_r_279 : kernelRunA.sl.r_279 c i tbl = wordAt c tbl i ⟨31, by decide⟩ := by
  unfold kernelRunA.sl.r_279; exact word_of_off c tbl i ⟨31, by decide⟩ _ _ _ (k0_off63_eq i ⟨1, by decide⟩)
theorem W_r_289 : kernelRunA.sl.r_289 c i tbl = wordAt c tbl i ⟨31, by decide⟩ := by
  unfold kernelRunA.sl.r_289; exact word_of_off c tbl i ⟨31, by decide⟩ _ _ _ (k0_off67_eq i ⟨0, by decide⟩)
theorem W_r_288 : kernelRunA.sl.r_288 c i tbl = wordAt c tbl i ⟨32, by decide⟩ := by
  unfold kernelRunA.sl.r_288; exact word_of_off c tbl i ⟨32, by decide⟩ _ _ _ (k0_off65_eq i ⟨1, by decide⟩)
theorem W_r_301 : kernelRunA.sl.r_301 c i tbl = wordAt c tbl i ⟨32, by decide⟩ := by
  unfold kernelRunA.sl.r_301; exact word_of_off c tbl i ⟨32, by decide⟩ _ _ _ (k0_off69_eq i ⟨0, by decide⟩)
theorem W_r_298 : kernelRunA.sl.r_298 c i tbl = wordAt c tbl i ⟨33, by decide⟩ := by
  unfold kernelRunA.sl.r_298; exact word_of_off c tbl i ⟨33, by decide⟩ _ _ _ (k0_off67_eq i ⟨1, by decide⟩)
theorem W_r_310 : kernelRunA.sl.r_310 c i tbl = wordAt c tbl i ⟨33, by decide⟩ := by
  unfold kernelRunA.sl.r_310; exact word_of_off c tbl i ⟨33, by decide⟩ _ _ _ (k0_off71_eq i ⟨0, by decide⟩)
theorem W_r_309 : kernelRunA.sl.r_309 c i tbl = wordAt c tbl i ⟨34, by decide⟩ := by
  unfold kernelRunA.sl.r_309; exact word_of_off c tbl i ⟨34, by decide⟩ _ _ _ (k0_off69_eq i ⟨1, by decide⟩)
theorem W_r_320 : kernelRunA.sl.r_320 c i tbl = wordAt c tbl i ⟨34, by decide⟩ := by
  unfold kernelRunA.sl.r_320; exact word_of_off c tbl i ⟨34, by decide⟩ _ _ _ (k0_off73_eq i ⟨0, by decide⟩)
theorem W_r_319 : kernelRunA.sl.r_319 c i tbl = wordAt c tbl i ⟨35, by decide⟩ := by
  unfold kernelRunA.sl.r_319; exact word_of_off c tbl i ⟨35, by decide⟩ _ _ _ (k0_off71_eq i ⟨1, by decide⟩)
theorem W_r_331 : kernelRunA.sl.r_331 c i tbl = wordAt c tbl i ⟨35, by decide⟩ := by
  unfold kernelRunA.sl.r_331; exact word_of_off c tbl i ⟨35, by decide⟩ _ _ _ (k0_off75_eq i ⟨0, by decide⟩)
theorem W_r_329 : kernelRunA.sl.r_329 c i tbl = wordAt c tbl i ⟨36, by decide⟩ := by
  unfold kernelRunA.sl.r_329; exact word_of_off c tbl i ⟨36, by decide⟩ _ _ _ (k0_off73_eq i ⟨1, by decide⟩)
theorem W_r_340 : kernelRunA.sl.r_340 c i tbl = wordAt c tbl i ⟨36, by decide⟩ := by
  unfold kernelRunA.sl.r_340; exact word_of_off c tbl i ⟨36, by decide⟩ _ _ _ (k0_off77_eq i ⟨0, by decide⟩)
theorem W_r_339 : kernelRunA.sl.r_339 c i tbl = wordAt c tbl i ⟨37, by decide⟩ := by
  unfold kernelRunA.sl.r_339; exact word_of_off c tbl i ⟨37, by decide⟩ _ _ _ (k0_off75_eq i ⟨1, by decide⟩)
theorem W_r_349 : kernelRunA.sl.r_349 c i tbl = wordAt c tbl i ⟨37, by decide⟩ := by
  unfold kernelRunA.sl.r_349; exact word_of_off c tbl i ⟨37, by decide⟩ _ _ _ (k0_off79_eq i ⟨0, by decide⟩)
theorem W_r_348 : kernelRunA.sl.r_348 c i tbl = wordAt c tbl i ⟨38, by decide⟩ := by
  unfold kernelRunA.sl.r_348; exact word_of_off c tbl i ⟨38, by decide⟩ _ _ _ (k0_off77_eq i ⟨1, by decide⟩)
theorem W_r_359 : kernelRunA.sl.r_359 c i tbl = wordAt c tbl i ⟨38, by decide⟩ := by
  unfold kernelRunA.sl.r_359; exact word_of_off c tbl i ⟨38, by decide⟩ _ _ _ (k0_off81_eq i ⟨0, by decide⟩)
theorem W_r_358 : kernelRunA.sl.r_358 c i tbl = wordAt c tbl i ⟨39, by decide⟩ := by
  unfold kernelRunA.sl.r_358; exact word_of_off c tbl i ⟨39, by decide⟩ _ _ _ (k0_off79_eq i ⟨1, by decide⟩)
theorem W_r_367 : kernelRunA.sl.r_367 c i tbl = wordAt c tbl i ⟨39, by decide⟩ := by
  unfold kernelRunA.sl.r_367; exact word_of_off c tbl i ⟨39, by decide⟩ _ _ _ (k0_off83_eq i ⟨0, by decide⟩)
theorem W_r_366 : kernelRunA.sl.r_366 c i tbl = wordAt c tbl i ⟨40, by decide⟩ := by
  unfold kernelRunA.sl.r_366; exact word_of_off c tbl i ⟨40, by decide⟩ _ _ _ (k0_off81_eq i ⟨1, by decide⟩)
theorem W_r_376 : kernelRunA.sl.r_376 c i tbl = wordAt c tbl i ⟨40, by decide⟩ := by
  unfold kernelRunA.sl.r_376; exact word_of_off c tbl i ⟨40, by decide⟩ _ _ _ (k0_off85_eq i ⟨0, by decide⟩)
theorem W_r_375 : kernelRunA.sl.r_375 c i tbl = wordAt c tbl i ⟨41, by decide⟩ := by
  unfold kernelRunA.sl.r_375; exact word_of_off c tbl i ⟨41, by decide⟩ _ _ _ (k0_off83_eq i ⟨1, by decide⟩)
theorem W_r_386 : kernelRunA.sl.r_386 c i tbl = wordAt c tbl i ⟨41, by decide⟩ := by
  unfold kernelRunA.sl.r_386; exact word_of_off c tbl i ⟨41, by decide⟩ _ _ _ (k0_off87_eq i ⟨0, by decide⟩)
theorem W_r_385 : kernelRunA.sl.r_385 c i tbl = wordAt c tbl i ⟨42, by decide⟩ := by
  unfold kernelRunA.sl.r_385; exact word_of_off c tbl i ⟨42, by decide⟩ _ _ _ (k0_off85_eq i ⟨1, by decide⟩)
theorem W_r_395 : kernelRunA.sl.r_395 c i tbl = wordAt c tbl i ⟨42, by decide⟩ := by
  unfold kernelRunA.sl.r_395; exact word_of_off c tbl i ⟨42, by decide⟩ _ _ _ (k0_off89_eq i ⟨0, by decide⟩)
theorem W_r_394 : kernelRunA.sl.r_394 c i tbl = wordAt c tbl i ⟨43, by decide⟩ := by
  unfold kernelRunA.sl.r_394; exact word_of_off c tbl i ⟨43, by decide⟩ _ _ _ (k0_off87_eq i ⟨1, by decide⟩)
theorem W_r_405 : kernelRunA.sl.r_405 c i tbl = wordAt c tbl i ⟨43, by decide⟩ := by
  unfold kernelRunA.sl.r_405; exact word_of_off c tbl i ⟨43, by decide⟩ _ _ _ (k0_off91_eq i ⟨0, by decide⟩)
theorem W_r_404 : kernelRunA.sl.r_404 c i tbl = wordAt c tbl i ⟨44, by decide⟩ := by
  unfold kernelRunA.sl.r_404; exact word_of_off c tbl i ⟨44, by decide⟩ _ _ _ (k0_off89_eq i ⟨1, by decide⟩)
theorem W_r_415 : kernelRunA.sl.r_415 c i tbl = wordAt c tbl i ⟨44, by decide⟩ := by
  unfold kernelRunA.sl.r_415; exact word_of_off c tbl i ⟨44, by decide⟩ _ _ _ (k0_off93_eq i ⟨0, by decide⟩)
theorem W_r_414 : kernelRunA.sl.r_414 c i tbl = wordAt c tbl i ⟨45, by decide⟩ := by
  unfold kernelRunA.sl.r_414; exact word_of_off c tbl i ⟨45, by decide⟩ _ _ _ (k0_off91_eq i ⟨1, by decide⟩)
theorem W_r_424 : kernelRunA.sl.r_424 c i tbl = wordAt c tbl i ⟨45, by decide⟩ := by
  unfold kernelRunA.sl.r_424; exact word_of_off c tbl i ⟨45, by decide⟩ _ _ _ (k0_off95_eq i ⟨0, by decide⟩)
theorem W_r_423 : kernelRunA.sl.r_423 c i tbl = wordAt c tbl i ⟨46, by decide⟩ := by
  unfold kernelRunA.sl.r_423; exact word_of_off c tbl i ⟨46, by decide⟩ _ _ _ (k0_off93_eq i ⟨1, by decide⟩)
theorem W_r_433 : kernelRunA.sl.r_433 c i tbl = wordAt c tbl i ⟨46, by decide⟩ := by
  unfold kernelRunA.sl.r_433; exact word_of_off c tbl i ⟨46, by decide⟩ _ _ _ (k0_off97_eq i ⟨0, by decide⟩)
theorem W_r_432 : kernelRunA.sl.r_432 c i tbl = wordAt c tbl i ⟨47, by decide⟩ := by
  unfold kernelRunA.sl.r_432; exact word_of_off c tbl i ⟨47, by decide⟩ _ _ _ (k0_off95_eq i ⟨1, by decide⟩)
theorem W_r_442 : kernelRunA.sl.r_442 c i tbl = wordAt c tbl i ⟨47, by decide⟩ := by
  unfold kernelRunA.sl.r_442; exact word_of_off c tbl i ⟨47, by decide⟩ _ _ _ (k0_off99_eq i ⟨0, by decide⟩)
theorem W_r_441 : kernelRunA.sl.r_441 c i tbl = wordAt c tbl i ⟨48, by decide⟩ := by
  unfold kernelRunA.sl.r_441; exact word_of_off c tbl i ⟨48, by decide⟩ _ _ _ (k0_off97_eq i ⟨1, by decide⟩)
theorem W_r_450 : kernelRunA.sl.r_450 c i tbl = wordAt c tbl i ⟨48, by decide⟩ := by
  unfold kernelRunA.sl.r_450; exact word_of_off c tbl i ⟨48, by decide⟩ _ _ _ (k0_off101_eq i ⟨0, by decide⟩)
theorem W_r_449 : kernelRunA.sl.r_449 c i tbl = wordAt c tbl i ⟨49, by decide⟩ := by
  unfold kernelRunA.sl.r_449; exact word_of_off c tbl i ⟨49, by decide⟩ _ _ _ (k0_off99_eq i ⟨1, by decide⟩)
theorem W_r_460 : kernelRunA.sl.r_460 c i tbl = wordAt c tbl i ⟨49, by decide⟩ := by
  unfold kernelRunA.sl.r_460; exact word_of_off c tbl i ⟨49, by decide⟩ _ _ _ (k0_off103_eq i ⟨0, by decide⟩)
theorem W_r_457 : kernelRunA.sl.r_457 c i tbl = wordAt c tbl i ⟨50, by decide⟩ := by
  unfold kernelRunA.sl.r_457; exact word_of_off c tbl i ⟨50, by decide⟩ _ _ _ (k0_off101_eq i ⟨1, by decide⟩)
theorem W_r_467 : kernelRunA.sl.r_467 c i tbl = wordAt c tbl i ⟨50, by decide⟩ := by
  unfold kernelRunA.sl.r_467; exact word_of_off c tbl i ⟨50, by decide⟩ _ _ _ (k0_off105_eq i ⟨0, by decide⟩)
theorem W_r_466 : kernelRunA.sl.r_466 c i tbl = wordAt c tbl i ⟨51, by decide⟩ := by
  unfold kernelRunA.sl.r_466; exact word_of_off c tbl i ⟨51, by decide⟩ _ _ _ (k0_off103_eq i ⟨1, by decide⟩)
theorem W_r_476 : kernelRunA.sl.r_476 c i tbl = wordAt c tbl i ⟨51, by decide⟩ := by
  unfold kernelRunA.sl.r_476; exact word_of_off c tbl i ⟨51, by decide⟩ _ _ _ (k0_off107_eq i ⟨0, by decide⟩)
theorem W_r_475 : kernelRunA.sl.r_475 c i tbl = wordAt c tbl i ⟨52, by decide⟩ := by
  unfold kernelRunA.sl.r_475; exact word_of_off c tbl i ⟨52, by decide⟩ _ _ _ (k0_off105_eq i ⟨1, by decide⟩)
theorem W_r_488 : kernelRunA.sl.r_488 c i tbl = wordAt c tbl i ⟨52, by decide⟩ := by
  unfold kernelRunA.sl.r_488; exact word_of_off c tbl i ⟨52, by decide⟩ _ _ _ (k0_off109_eq i ⟨0, by decide⟩)
theorem W_r_485 : kernelRunA.sl.r_485 c i tbl = wordAt c tbl i ⟨53, by decide⟩ := by
  unfold kernelRunA.sl.r_485; exact word_of_off c tbl i ⟨53, by decide⟩ _ _ _ (k0_off107_eq i ⟨1, by decide⟩)
theorem W_r_497 : kernelRunA.sl.r_497 c i tbl = wordAt c tbl i ⟨53, by decide⟩ := by
  unfold kernelRunA.sl.r_497; exact word_of_off c tbl i ⟨53, by decide⟩ _ _ _ (k0_off111_eq i ⟨0, by decide⟩)
theorem W_r_496 : kernelRunA.sl.r_496 c i tbl = wordAt c tbl i ⟨54, by decide⟩ := by
  unfold kernelRunA.sl.r_496; exact word_of_off c tbl i ⟨54, by decide⟩ _ _ _ (k0_off109_eq i ⟨1, by decide⟩)
theorem W_r_507 : kernelRunA.sl.r_507 c i tbl = wordAt c tbl i ⟨54, by decide⟩ := by
  unfold kernelRunA.sl.r_507; exact word_of_off c tbl i ⟨54, by decide⟩ _ _ _ (k0_off113_eq i ⟨0, by decide⟩)
theorem W_r_506 : kernelRunA.sl.r_506 c i tbl = wordAt c tbl i ⟨55, by decide⟩ := by
  unfold kernelRunA.sl.r_506; exact word_of_off c tbl i ⟨55, by decide⟩ _ _ _ (k0_off111_eq i ⟨1, by decide⟩)
theorem W_r_518 : kernelRunA.sl.r_518 c i tbl = wordAt c tbl i ⟨55, by decide⟩ := by
  unfold kernelRunA.sl.r_518; exact word_of_off c tbl i ⟨55, by decide⟩ _ _ _ (k0_off115_eq i ⟨0, by decide⟩)
theorem W_r_516 : kernelRunA.sl.r_516 c i tbl = wordAt c tbl i ⟨56, by decide⟩ := by
  unfold kernelRunA.sl.r_516; exact word_of_off c tbl i ⟨56, by decide⟩ _ _ _ (k0_off113_eq i ⟨1, by decide⟩)
theorem W_r_527 : kernelRunA.sl.r_527 c i tbl = wordAt c tbl i ⟨56, by decide⟩ := by
  unfold kernelRunA.sl.r_527; exact word_of_off c tbl i ⟨56, by decide⟩ _ _ _ (k0_off117_eq i ⟨0, by decide⟩)
theorem W_r_526 : kernelRunA.sl.r_526 c i tbl = wordAt c tbl i ⟨57, by decide⟩ := by
  unfold kernelRunA.sl.r_526; exact word_of_off c tbl i ⟨57, by decide⟩ _ _ _ (k0_off115_eq i ⟨1, by decide⟩)
theorem W_r_536 : kernelRunA.sl.r_536 c i tbl = wordAt c tbl i ⟨57, by decide⟩ := by
  unfold kernelRunA.sl.r_536; exact word_of_off c tbl i ⟨57, by decide⟩ _ _ _ (k0_off119_eq i ⟨0, by decide⟩)
theorem W_r_535 : kernelRunA.sl.r_535 c i tbl = wordAt c tbl i ⟨58, by decide⟩ := by
  unfold kernelRunA.sl.r_535; exact word_of_off c tbl i ⟨58, by decide⟩ _ _ _ (k0_off117_eq i ⟨1, by decide⟩)
theorem W_r_546 : kernelRunA.sl.r_546 c i tbl = wordAt c tbl i ⟨58, by decide⟩ := by
  unfold kernelRunA.sl.r_546; exact word_of_off c tbl i ⟨58, by decide⟩ _ _ _ (k0_off121_eq i ⟨0, by decide⟩)
theorem W_r_545 : kernelRunA.sl.r_545 c i tbl = wordAt c tbl i ⟨59, by decide⟩ := by
  unfold kernelRunA.sl.r_545; exact word_of_off c tbl i ⟨59, by decide⟩ _ _ _ (k0_off119_eq i ⟨1, by decide⟩)
theorem W_r_554 : kernelRunA.sl.r_554 c i tbl = wordAt c tbl i ⟨59, by decide⟩ := by
  unfold kernelRunA.sl.r_554; exact word_of_off c tbl i ⟨59, by decide⟩ _ _ _ (k0_off123_eq i ⟨0, by decide⟩)
theorem W_r_553 : kernelRunA.sl.r_553 c i tbl = wordAt c tbl i ⟨60, by decide⟩ := by
  unfold kernelRunA.sl.r_553; exact word_of_off c tbl i ⟨60, by decide⟩ _ _ _ (k0_off121_eq i ⟨1, by decide⟩)
theorem W_r_563 : kernelRunA.sl.r_563 c i tbl = wordAt c tbl i ⟨60, by decide⟩ := by
  unfold kernelRunA.sl.r_563; exact word_of_off c tbl i ⟨60, by decide⟩ _ _ _ (k0_off125_eq i ⟨0, by decide⟩)
theorem W_r_562 : kernelRunA.sl.r_562 c i tbl = wordAt c tbl i ⟨61, by decide⟩ := by
  unfold kernelRunA.sl.r_562; exact word_of_off c tbl i ⟨61, by decide⟩ _ _ _ (k0_off123_eq i ⟨1, by decide⟩)
theorem W_r_573 : kernelRunA.sl.r_573 c i tbl = wordAt c tbl i ⟨61, by decide⟩ := by
  unfold kernelRunA.sl.r_573; exact word_of_off c tbl i ⟨61, by decide⟩ _ _ _ (k0_off127_eq i ⟨0, by decide⟩)
theorem W_r_572 : kernelRunA.sl.r_572 c i tbl = wordAt c tbl i ⟨62, by decide⟩ := by
  unfold kernelRunA.sl.r_572; exact word_of_off c tbl i ⟨62, by decide⟩ _ _ _ (k0_off125_eq i ⟨1, by decide⟩)
theorem W_r_582 : kernelRunA.sl.r_582 c i tbl = wordAt c tbl i ⟨62, by decide⟩ := by
  unfold kernelRunA.sl.r_582; exact word_of_off c tbl i ⟨62, by decide⟩ _ _ _ (k0_off129_eq i ⟨0, by decide⟩)
theorem W_r_581 : kernelRunA.sl.r_581 c i tbl = wordAt c tbl i ⟨63, by decide⟩ := by
  unfold kernelRunA.sl.r_581; exact word_of_off c tbl i ⟨63, by decide⟩ _ _ _ (k0_off127_eq i ⟨1, by decide⟩)
theorem W_r_591 : kernelRunA.sl.r_591 c i tbl = wordAt c tbl i ⟨63, by decide⟩ := by
  unfold kernelRunA.sl.r_591; exact word_of_off c tbl i ⟨63, by decide⟩ _ _ _ (k0_off129_eq i ⟨1, by decide⟩)
theorem D_dma13 : kernelRunA.sl.dma13 c i tbl hT sim = simRow c sim (wordAt c tbl i ⟨0, by decide⟩) := by
  unfold kernelRunA.sl.dma13; exact (copy_eq_simRow c sim (kernelRunA.sl.r c i tbl) (hT _) _ rfl _ _).trans (congrArg (simRow c sim) (W_r c i tbl))
theorem D_dma14 : kernelRunA.sl.dma14 c i tbl hT sim = simRow c sim (wordAt c tbl i ⟨1, by decide⟩) := by
  unfold kernelRunA.sl.dma14; exact (copy_eq_simRow c sim (kernelRunA.sl.r_1 c i tbl) (hT _) _ rfl _ _).trans (congrArg (simRow c sim) (W_r_1 c i tbl))
theorem D_dma37 : kernelRunA.sl.dma37 c i tbl hT sim = simRow c sim (wordAt c tbl i ⟨2, by decide⟩) := by
  unfold kernelRunA.sl.dma37; exact (copy_eq_simRow c sim (kernelRunA.sl.r_11 c i tbl) (hT _) _ rfl _ _).trans (congrArg (simRow c sim) (W_r_11 c i tbl))
theorem D_dma60 : kernelRunA.sl.dma60 c i tbl hT sim = simRow c sim (wordAt c tbl i ⟨3, by decide⟩) := by
  unfold kernelRunA.sl.dma60; exact (copy_eq_simRow c sim (kernelRunA.sl.r_20 c i tbl) (hT _) _ rfl _ _).trans (congrArg (simRow c sim) (W_r_20 c i tbl))
theorem D_dma83 : kernelRunA.sl.dma83 c i tbl hT sim = simRow c sim (wordAt c tbl i ⟨4, by decide⟩) := by
  unfold kernelRunA.sl.dma83; exact (copy_eq_simRow c sim (kernelRunA.sl.r_30 c i tbl) (hT _) _ rfl _ _).trans (congrArg (simRow c sim) (W_r_30 c i tbl))
theorem D_dma106 : kernelRunA.sl.dma106 c i tbl hT sim = simRow c sim (wordAt c tbl i ⟨5, by decide⟩) := by
  unfold kernelRunA.sl.dma106; exact (copy_eq_simRow c sim (kernelRunA.sl.r_40 c i tbl) (hT _) _ rfl _ _).trans (congrArg (simRow c sim) (W_r_40 c i tbl))
theorem D_dma129 : kernelRunA.sl.dma129 c i tbl hT sim = simRow c sim (wordAt c tbl i ⟨6, by decide⟩) := by
  unfold kernelRunA.sl.dma129; exact (copy_eq_simRow c sim (kernelRunA.sl.r_49 c i tbl) (hT _) _ rfl _ _).trans (congrArg (simRow c sim) (W_r_49 c i tbl))
theorem D_dma152 : kernelRunA.sl.dma152 c i tbl hT sim = simRow c sim (wordAt c tbl i ⟨7, by decide⟩) := by
  unfold kernelRunA.sl.dma152; exact (copy_eq_simRow c sim (kernelRunA.sl.r_58 c i tbl) (hT _) _ rfl _ _).trans (congrArg (simRow c sim) (W_r_58 c i tbl))
theorem D_dma175 : kernelRunA.sl.dma175 c i tbl hT sim = simRow c sim (wordAt c tbl i ⟨8, by decide⟩) := by
  unfold kernelRunA.sl.dma175; exact (copy_eq_simRow c sim (kernelRunA.sl.r_67 c i tbl) (hT _) _ rfl _ _).trans (congrArg (simRow c sim) (W_r_67 c i tbl))
theorem D_dma198 : kernelRunA.sl.dma198 c i tbl hT sim = simRow c sim (wordAt c tbl i ⟨9, by decide⟩) := by
  unfold kernelRunA.sl.dma198; exact (copy_eq_simRow c sim (kernelRunA.sl.r_75 c i tbl) (hT _) _ rfl _ _).trans (congrArg (simRow c sim) (W_r_75 c i tbl))
theorem D_dma221 : kernelRunA.sl.dma221 c i tbl hT sim = simRow c sim (wordAt c tbl i ⟨10, by decide⟩) := by
  unfold kernelRunA.sl.dma221; exact (copy_eq_simRow c sim (kernelRunA.sl.r_83 c i tbl) (hT _) _ rfl _ _).trans (congrArg (simRow c sim) (W_r_83 c i tbl))
theorem D_dma244 : kernelRunA.sl.dma244 c i tbl hT sim = simRow c sim (wordAt c tbl i ⟨11, by decide⟩) := by
  unfold kernelRunA.sl.dma244; exact (copy_eq_simRow c sim (kernelRunA.sl.r_92 c i tbl) (hT _) _ rfl _ _).trans (congrArg (simRow c sim) (W_r_92 c i tbl))
theorem D_dma267 : kernelRunA.sl.dma267 c i tbl hT sim = simRow c sim (wordAt c tbl i ⟨12, by decide⟩) := by
  unfold kernelRunA.sl.dma267; exact (copy_eq_simRow c sim (kernelRunA.sl.r_101 c i tbl) (hT _) _ rfl _ _).trans (congrArg (simRow c sim) (W_r_101 c i tbl))
theorem D_dma290 : kernelRunA.sl.dma290 c i tbl hT sim = simRow c sim (wordAt c tbl i ⟨13, by decide⟩) := by
  unfold kernelRunA.sl.dma290; exact (copy_eq_simRow c sim (kernelRunA.sl.r_111 c i tbl) (hT _) _ rfl _ _).trans (congrArg (simRow c sim) (W_r_111 c i tbl))
theorem D_dma313 : kernelRunA.sl.dma313 c i tbl hT sim = simRow c sim (wordAt c tbl i ⟨14, by decide⟩) := by
  unfold kernelRunA.sl.dma313; exact (copy_eq_simRow c sim (kernelRunA.sl.r_122 c i tbl) (hT _) _ rfl _ _).trans (congrArg (simRow c sim) (W_r_122 c i tbl))
theorem D_dma336 : kernelRunA.sl.dma336 c i tbl hT sim = simRow c sim (wordAt c tbl i ⟨15, by decide⟩) := by
  unfold kernelRunA.sl.dma336; exact (copy_eq_simRow c sim (kernelRunA.sl.r_132 c i tbl) (hT _) _ rfl _ _).trans (congrArg (simRow c sim) (W_r_132 c i tbl))
theorem D_dma359 : kernelRunA.sl.dma359 c i tbl hT sim = simRow c sim (wordAt c tbl i ⟨16, by decide⟩) := by
  unfold kernelRunA.sl.dma359; exact (copy_eq_simRow c sim (kernelRunA.sl.r_142 c i tbl) (hT _) _ rfl _ _).trans (congrArg (simRow c sim) (W_r_142 c i tbl))
theorem D_dma382 : kernelRunA.sl.dma382 c i tbl hT sim = simRow c sim (wordAt c tbl i ⟨17, by decide⟩) := by
  unfold kernelRunA.sl.dma382; exact (copy_eq_simRow c sim (kernelRunA.sl.r_152 c i tbl) (hT _) _ rfl _ _).trans (congrArg (simRow c sim) (W_r_152 c i tbl))
theorem D_dma405 : kernelRunA.sl.dma405 c i tbl hT sim = simRow c sim (wordAt c tbl i ⟨18, by decide⟩) := by
  unfold kernelRunA.sl.dma405; exact (copy_eq_simRow c sim (kernelRunA.sl.r_161 c i tbl) (hT _) _ rfl _ _).trans (congrArg (simRow c sim) (W_r_161 c i tbl))
theorem D_dma428 : kernelRunA.sl.dma428 c i tbl hT sim = simRow c sim (wordAt c tbl i ⟨19, by decide⟩) := by
  unfold kernelRunA.sl.dma428; exact (copy_eq_simRow c sim (kernelRunA.sl.r_171 c i tbl) (hT _) _ rfl _ _).trans (congrArg (simRow c sim) (W_r_171 c i tbl))
theorem D_dma451 : kernelRunA.sl.dma451 c i tbl hT sim = simRow c sim (wordAt c tbl i ⟨20, by decide⟩) := by
  unfold kernelRunA.sl.dma451; exact (copy_eq_simRow c sim (kernelRunA.sl.r_179 c i tbl) (hT _) _ rfl _ _).trans (congrArg (simRow c sim) (W_r_179 c i tbl))
theorem D_dma474 : kernelRunA.sl.dma474 c i tbl hT sim = simRow c sim (wordAt c tbl i ⟨21, by decide⟩) := by
  unfold kernelRunA.sl.dma474; exact (copy_eq_simRow c sim (kernelRunA.sl.r_188 c i tbl) (hT _) _ rfl _ _).trans (congrArg (simRow c sim) (W_r_188 c i tbl))
theorem D_dma497 : kernelRunA.sl.dma497 c i tbl hT sim = simRow c sim (wordAt c tbl i ⟨22, by decide⟩) := by
  unfold kernelRunA.sl.dma497; exact (copy_eq_simRow c sim (kernelRunA.sl.r_198 c i tbl) (hT _) _ rfl _ _).trans (congrArg (simRow c sim) (W_r_198 c i tbl))
theorem D_dma520 : kernelRunA.sl.dma520 c i tbl hT sim = simRow c sim (wordAt c tbl i ⟨23, by decide⟩) := by
  unfold kernelRunA.sl.dma520; exact (copy_eq_simRow c sim (kernelRunA.sl.r_207 c i tbl) (hT _) _ rfl _ _).trans (congrArg (simRow c sim) (W_r_207 c i tbl))
theorem D_dma543 : kernelRunA.sl.dma543 c i tbl hT sim = simRow c sim (wordAt c tbl i ⟨24, by decide⟩) := by
  unfold kernelRunA.sl.dma543; exact (copy_eq_simRow c sim (kernelRunA.sl.r_217 c i tbl) (hT _) _ rfl _ _).trans (congrArg (simRow c sim) (W_r_217 c i tbl))
theorem D_dma566 : kernelRunA.sl.dma566 c i tbl hT sim = simRow c sim (wordAt c tbl i ⟨25, by decide⟩) := by
  unfold kernelRunA.sl.dma566; exact (copy_eq_simRow c sim (kernelRunA.sl.r_227 c i tbl) (hT _) _ rfl _ _).trans (congrArg (simRow c sim) (W_r_227 c i tbl))
theorem D_dma589 : kernelRunA.sl.dma589 c i tbl hT sim = simRow c sim (wordAt c tbl i ⟨26, by decide⟩) := by
  unfold kernelRunA.sl.dma589; exact (copy_eq_simRow c sim (kernelRunA.sl.r_236 c i tbl) (hT _) _ rfl _ _).trans (congrArg (simRow c sim) (W_r_236 c i tbl))
theorem D_dma612 : kernelRunA.sl.dma612 c i tbl hT sim = simRow c sim (wordAt c tbl i ⟨27, by decide⟩) := by
  unfold kernelRunA.sl.dma612; exact (copy_eq_simRow c sim (kernelRunA.sl.r_245 c i tbl) (hT _) _ rfl _ _).trans (congrArg (simRow c sim) (W_r_245 c i tbl))
theorem D_dma635 : kernelRunA.sl.dma635 c i tbl hT sim = simRow c sim (wordAt c tbl i ⟨28, by decide⟩) := by
  unfold kernelRunA.sl.dma635; exact (copy_eq_simRow c sim (kernelRunA.sl.r_254 c i tbl) (hT _) _ rfl _ _).trans (congrArg (simRow c sim) (W_r_254 c i tbl))
theorem D_dma658 : kernelRunA.sl.dma658 c i tbl hT sim = simRow c sim (wordAt c tbl i ⟨29, by decide⟩) := by
  unfold kernelRunA.sl.dma658; exact (copy_eq_simRow c sim (kernelRunA.sl.r_262 c i tbl) (hT _) _ rfl _ _).trans (congrArg (simRow c sim) (W_r_262 c i tbl))
theorem D_dma681 : kernelRunA.sl.dma681 c i tbl hT sim = simRow c sim (wordAt c tbl i ⟨30, by decide⟩) := by
  unfold kernelRunA.sl.dma681; exact (copy_eq_simRow c sim (kernelRunA.sl.r_270 c i tbl) (hT _) _ rfl _ _).trans (congrArg (simRow c sim) (W_r_270 c i tbl))
theorem D_dma704 : kernelRunA.sl.dma704 c i tbl hT sim = simRow c sim (wordAt c tbl i ⟨31, by decide⟩) := by
  unfold kernelRunA.sl.dma704; exact (copy_eq_simRow c sim (kernelRunA.sl.r_279 c i tbl) (hT _) _ rfl _ _).trans (congrArg (simRow c sim) (W_r_279 c i tbl))
theorem D_dma727 : kernelRunA.sl.dma727 c i tbl hT sim = simRow c sim (wordAt c tbl i ⟨32, by decide⟩) := by
  unfold kernelRunA.sl.dma727; exact (copy_eq_simRow c sim (kernelRunA.sl.r_288 c i tbl) (hT _) _ rfl _ _).trans (congrArg (simRow c sim) (W_r_288 c i tbl))
theorem D_dma750 : kernelRunA.sl.dma750 c i tbl hT sim = simRow c sim (wordAt c tbl i ⟨33, by decide⟩) := by
  unfold kernelRunA.sl.dma750; exact (copy_eq_simRow c sim (kernelRunA.sl.r_298 c i tbl) (hT _) _ rfl _ _).trans (congrArg (simRow c sim) (W_r_298 c i tbl))
theorem D_dma773 : kernelRunA.sl.dma773 c i tbl hT sim = simRow c sim (wordAt c tbl i ⟨34, by decide⟩) := by
  unfold kernelRunA.sl.dma773; exact (copy_eq_simRow c sim (kernelRunA.sl.r_309 c i tbl) (hT _) _ rfl _ _).trans (congrArg (simRow c sim) (W_r_309 c i tbl))
theorem D_dma796 : kernelRunA.sl.dma796 c i tbl hT sim = simRow c sim (wordAt c tbl i ⟨35, by decide⟩) := by
  unfold kernelRunA.sl.dma796; exact (copy_eq_simRow c sim (kernelRunA.sl.r_319 c i tbl) (hT _) _ rfl _ _).trans (congrArg (simRow c sim) (W_r_319 c i tbl))
theorem D_dma819 : kernelRunA.sl.dma819 c i tbl hT sim = simRow c sim (wordAt c tbl i ⟨36, by decide⟩) := by
  unfold kernelRunA.sl.dma819; exact (copy_eq_simRow c sim (kernelRunA.sl.r_329 c i tbl) (hT _) _ rfl _ _).trans (congrArg (simRow c sim) (W_r_329 c i tbl))
theorem D_dma842 : kernelRunA.sl.dma842 c i tbl hT sim = simRow c sim (wordAt c tbl i ⟨37, by decide⟩) := by
  unfold kernelRunA.sl.dma842; exact (copy_eq_simRow c sim (kernelRunA.sl.r_339 c i tbl) (hT _) _ rfl _ _).trans (congrArg (simRow c sim) (W_r_339 c i tbl))
theorem D_dma865 : kernelRunA.sl.dma865 c i tbl hT sim = simRow c sim (wordAt c tbl i ⟨38, by decide⟩) := by
  unfold kernelRunA.sl.dma865; exact (copy_eq_simRow c sim (kernelRunA.sl.r_348 c i tbl) (hT _) _ rfl _ _).trans (congrArg (simRow c sim) (W_r_348 c i tbl))
theorem D_dma888 : kernelRunA.sl.dma888 c i tbl hT sim = simRow c sim (wordAt c tbl i ⟨39, by decide⟩) := by
  unfold kernelRunA.sl.dma888; exact (copy_eq_simRow c sim (kernelRunA.sl.r_358 c i tbl) (hT _) _ rfl _ _).trans (congrArg (simRow c sim) (W_r_358 c i tbl))
theorem D_dma911 : kernelRunA.sl.dma911 c i tbl hT sim = simRow c sim (wordAt c tbl i ⟨40, by decide⟩) := by
  unfold kernelRunA.sl.dma911; exact (copy_eq_simRow c sim (kernelRunA.sl.r_366 c i tbl) (hT _) _ rfl _ _).trans (congrArg (simRow c sim) (W_r_366 c i tbl))
theorem D_dma934 : kernelRunA.sl.dma934 c i tbl hT sim = simRow c sim (wordAt c tbl i ⟨41, by decide⟩) := by
  unfold kernelRunA.sl.dma934; exact (copy_eq_simRow c sim (kernelRunA.sl.r_375 c i tbl) (hT _) _ rfl _ _).trans (congrArg (simRow c sim) (W_r_375 c i tbl))
theorem D_dma957 : kernelRunA.sl.dma957 c i tbl hT sim = simRow c sim (wordAt c tbl i ⟨42, by decide⟩) := by
  unfold kernelRunA.sl.dma957; exact (copy_eq_simRow c sim (kernelRunA.sl.r_385 c i tbl) (hT _) _ rfl _ _).trans (congrArg (simRow c sim) (W_r_385 c i tbl))
theorem D_dma980 : kernelRunA.sl.dma980 c i tbl hT sim = simRow c sim (wordAt c tbl i ⟨43, by decide⟩) := by
  unfold kernelRunA.sl.dma980; exact (copy_eq_simRow c sim (kernelRunA.sl.r_394 c i tbl) (hT _) _ rfl _ _).trans (congrArg (simRow c sim) (W_r_394 c i tbl))
theorem D_dma1003 : kernelRunA.sl.dma1003 c i tbl hT sim = simRow c sim (wordAt c tbl i ⟨44, by decide⟩) := by
  unfold kernelRunA.sl.dma1003; exact (copy_eq_simRow c sim (kernelRunA.sl.r_404 c i tbl) (hT _) _ rfl _ _).trans (congrArg (simRow c sim) (W_r_404 c i tbl))
theorem D_dma1026 : kernelRunA.sl.dma1026 c i tbl hT sim = simRow c sim (wordAt c tbl i ⟨45, by decide⟩) := by
  unfold kernelRunA.sl.dma1026; exact (copy_eq_simRow c sim (kernelRunA.sl.r_414 c i tbl) (hT _) _ rfl _ _).trans (congrArg (simRow c sim) (W_r_414 c i tbl))
theorem D_dma1049 : kernelRunA.sl.dma1049 c i tbl hT sim = simRow c sim (wordAt c tbl i ⟨46, by decide⟩) := by
  unfold kernelRunA.sl.dma1049; exact (copy_eq_simRow c sim (kernelRunA.sl.r_423 c i tbl) (hT _) _ rfl _ _).trans (congrArg (simRow c sim) (W_r_423 c i tbl))
theorem D_dma1072 : kernelRunA.sl.dma1072 c i tbl hT sim = simRow c sim (wordAt c tbl i ⟨47, by decide⟩) := by
  unfold kernelRunA.sl.dma1072; exact (copy_eq_simRow c sim (kernelRunA.sl.r_432 c i tbl) (hT _) _ rfl _ _).trans (congrArg (simRow c sim) (W_r_432 c i tbl))
theorem D_dma1095 : kernelRunA.sl.dma1095 c i tbl hT sim = simRow c sim (wordAt c tbl i ⟨48, by decide⟩) := by
  unfold kernelRunA.sl.dma1095; exact (copy_eq_simRow c sim (kernelRunA.sl.r_441 c i tbl) (hT _) _ rfl _ _).trans (congrArg (simRow c sim) (W_r_441 c i tbl))
theorem D_dma1118 : kernelRunA.sl.dma1118 c i tbl hT sim = simRow c sim (wordAt c tbl i ⟨49, by decide⟩) := by
  unfold kernelRunA.sl.dma1118; exact (copy_eq_simRow c sim (kernelRunA.sl.r_449 c i tbl) (hT _) _ rfl _ _).trans (congrArg (simRow c sim) (W_r_449 c i tbl))
theorem D_dma1141 : kernelRunA.sl.dma1141 c i tbl hT sim = simRow c sim (wordAt c tbl i ⟨50, by decide⟩) := by
  unfold kernelRunA.sl.dma1141; exact (copy_eq_simRow c sim (kernelRunA.sl.r_457 c i tbl) (hT _) _ rfl _ _).trans (congrArg (simRow c sim) (W_r_457 c i tbl))
theorem D_dma1164 : kernelRunA.sl.dma1164 c i tbl hT sim = simRow c sim (wordAt c tbl i ⟨51, by decide⟩) := by
  unfold kernelRunA.sl.dma1164; exact (copy_eq_simRow c sim (kernelRunA.sl.r_466 c i tbl) (hT _) _ rfl _ _).trans (congrArg (simRow c sim) (W_r_466 c i tbl))
theorem D_dma1187 : kernelRunA.sl.dma1187 c i tbl hT sim = simRow c sim (wordAt c tbl i ⟨52, by decide⟩) := by
  unfold kernelRunA.sl.dma1187; exact (copy_eq_simRow c sim (kernelRunA.sl.r_475 c i tbl) (hT _) _ rfl _ _).trans (congrArg (simRow c sim) (W_r_475 c i tbl))
theorem D_dma1210 : kernelRunA.sl.dma1210 c i tbl hT sim = simRow c sim (wordAt c tbl i ⟨53, by decide⟩) := by
  unfold kernelRunA.sl.dma1210; exact (copy_eq_simRow c sim (kernelRunA.sl.r_485 c i tbl) (hT _) _ rfl _ _).trans (congrArg (simRow c sim) (W_r_485 c i tbl))
theorem D_dma1233 : kernelRunA.sl.dma1233 c i tbl hT sim = simRow c sim (wordAt c tbl i ⟨54, by decide⟩) := by
  unfold kernelRunA.sl.dma1233; exact (copy_eq_simRow c sim (kernelRunA.sl.r_496 c i tbl) (hT _) _ rfl _ _).trans (congrArg (simRow c sim) (W_r_496 c i tbl))
theorem D_dma1256 : kernelRunA.sl.dma1256 c i tbl hT sim = simRow c sim (wordAt c tbl i ⟨55, by decide⟩) := by
  unfold kernelRunA.sl.dma1256; exact (copy_eq_simRow c sim (kernelRunA.sl.r_506 c i tbl) (hT _) _ rfl _ _).trans (congrArg (simRow c sim) (W_r_506 c i tbl))
theorem D_dma1279 : kernelRunA.sl.dma1279 c i tbl hT sim = simRow c sim (wordAt c tbl i ⟨56, by decide⟩) := by
  unfold kernelRunA.sl.dma1279; exact (copy_eq_simRow c sim (kernelRunA.sl.r_516 c i tbl) (hT _) _ rfl _ _).trans (congrArg (simRow c sim) (W_r_516 c i tbl))
theorem D_dma1302 : kernelRunA.sl.dma1302 c i tbl hT sim = simRow c sim (wordAt c tbl i ⟨57, by decide⟩) := by
  unfold kernelRunA.sl.dma1302; exact (copy_eq_simRow c sim (kernelRunA.sl.r_526 c i tbl) (hT _) _ rfl _ _).trans (congrArg (simRow c sim) (W_r_526 c i tbl))
theorem D_dma1325 : kernelRunA.sl.dma1325 c i tbl hT sim = simRow c sim (wordAt c tbl i ⟨58, by decide⟩) := by
  unfold kernelRunA.sl.dma1325; exact (copy_eq_simRow c sim (kernelRunA.sl.r_535 c i tbl) (hT _) _ rfl _ _).trans (congrArg (simRow c sim) (W_r_535 c i tbl))
theorem D_dma1348 : kernelRunA.sl.dma1348 c i tbl hT sim = simRow c sim (wordAt c tbl i ⟨59, by decide⟩) := by
  unfold kernelRunA.sl.dma1348; exact (copy_eq_simRow c sim (kernelRunA.sl.r_545 c i tbl) (hT _) _ rfl _ _).trans (congrArg (simRow c sim) (W_r_545 c i tbl))
theorem D_dma1371 : kernelRunA.sl.dma1371 c i tbl hT sim = simRow c sim (wordAt c tbl i ⟨60, by decide⟩) := by
  unfold kernelRunA.sl.dma1371; exact (copy_eq_simRow c sim (kernelRunA.sl.r_553 c i tbl) (hT _) _ rfl _ _).trans (congrArg (simRow c sim) (W_r_553 c i tbl))
theorem D_dma1394 : kernelRunA.sl.dma1394 c i tbl hT sim = simRow c sim (wordAt c tbl i ⟨61, by decide⟩) := by
  unfold kernelRunA.sl.dma1394; exact (copy_eq_simRow c sim (kernelRunA.sl.r_562 c i tbl) (hT _) _ rfl _ _).trans (congrArg (simRow c sim) (W_r_562 c i tbl))
theorem D_dma1417 : kernelRunA.sl.dma1417 c i tbl hT sim = simRow c sim (wordAt c tbl i ⟨62, by decide⟩) := by
  unfold kernelRunA.sl.dma1417; exact (copy_eq_simRow c sim (kernelRunA.sl.r_572 c i tbl) (hT _) _ rfl _ _).trans (congrArg (simRow c sim) (W_r_572 c i tbl))
theorem D_dma1440 : kernelRunA.sl.dma1440 c i tbl hT sim = simRow c sim (wordAt c tbl i ⟨63, by decide⟩) := by
  unfold kernelRunA.sl.dma1440; exact (copy_eq_simRow c sim (kernelRunA.sl.r_581 c i tbl) (hT _) _ rfl _ _).trans (congrArg (simRow c sim) (W_r_581 c i tbl))
theorem S_v19 : kernelRunA.sl.v19 c i tbl hT sim b9 = simRow c sim (wordAt c tbl i ⟨0, by decide⟩) := by
  unfold kernelRunA.sl.v19; exact (load_after_fill cc0_scratch0 _ _ (by decide) _).trans (D_dma13 c i tbl hT sim)
theorem S_v104 : kernelRunA.sl.v104 c i tbl hT sim b10 = simRow c sim (wordAt c tbl i ⟨1, by decide⟩) := by
  unfold kernelRunA.sl.v104; exact (load_after_fill cc0_scratch1 _ _ (by decide) _).trans (D_dma14 c i tbl hT sim)
theorem S_v189 : kernelRunA.sl.v189 c i tbl hT sim b9 = simRow c sim (wordAt c tbl i ⟨2, by decide⟩) := by
  unfold kernelRunA.sl.v189; exact (load_after_fill cc0_scratch0 _ _ (by decide) _).trans (D_dma37 c i tbl hT sim)
theorem S_v274 : kernelRunA.sl.v274 c i tbl hT sim b10 = simRow c sim (wordAt c tbl i ⟨3, by decide⟩) := by
  unfold kernelRunA.sl.v274; exact (load_after_fill cc0_scratch1 _ _ (by decide) _).trans (D_dma60 c i tbl hT sim)
theorem S_v359 : kernelRunA.sl.v359 c i tbl hT sim b9 = simRow c sim (wordAt c tbl i ⟨4, by decide⟩) := by
  unfold kernelRunA.sl.v359; exact (load_after_fill cc0_scratch0 _ _ (by decide) _).trans (D_dma83 c i tbl hT sim)
theorem S_v444 : kernelRunA.sl.v444 c i tbl hT sim b10 = simRow c sim (wordAt c tbl i ⟨5, by decide⟩) := by
  unfold kernelRunA.sl.v444; exact (load_after_fill cc0_scratch1 _ _ (by decide) _).trans (D_dma106 c i tbl hT sim)
theorem S_v529 : kernelRunA.sl.v529 c i tbl hT sim b9 = simRow c sim (wordAt c tbl i ⟨6, by decide⟩) := by
  unfold kernelRunA.sl.v529; exact (load_after_fill cc0_scratch0 _ _ (by decide) _).trans (D_dma129 c i tbl hT sim)
theorem S_v614 : kernelRunA.sl.v614 c i tbl hT sim b10 = simRow c sim (wordAt c tbl i ⟨7, by decide⟩) := by
  unfold kernelRunA.sl.v614; exact (load_after_fill cc0_scratch1 _ _ (by decide) _).trans (D_dma152 c i tbl hT sim)
theorem S_v699 : kernelRunA.sl.v699 c i tbl hT sim b9 = simRow c sim (wordAt c tbl i ⟨8, by decide⟩) := by
  unfold kernelRunA.sl.v699; exact (load_after_fill cc0_scratch0 _ _ (by decide) _).trans (D_dma175 c i tbl hT sim)
theorem S_v784 : kernelRunA.sl.v784 c i tbl hT sim b10 = simRow c sim (wordAt c tbl i ⟨9, by decide⟩) := by
  unfold kernelRunA.sl.v784; exact (load_after_fill cc0_scratch1 _ _ (by decide) _).trans (D_dma198 c i tbl hT sim)
theorem S_v869 : kernelRunA.sl.v869 c i tbl hT sim b9 = simRow c sim (wordAt c tbl i ⟨10, by decide⟩) := by
  unfold kernelRunA.sl.v869; exact (load_after_fill cc0_scratch0 _ _ (by decide) _).trans (D_dma221 c i tbl hT sim)
theorem S_v954 : kernelRunA.sl.v954 c i tbl hT sim b10 = simRow c sim (wordAt c tbl i ⟨11, by decide⟩) := by
  unfold kernelRunA.sl.v954; exact (load_after_fill cc0_scratch1 _ _ (by decide) _).trans (D_dma244 c i tbl hT sim)
theorem S_v1039 : kernelRunA.sl.v1039 c i tbl hT sim b9 = simRow c sim (wordAt c tbl i ⟨12, by decide⟩) := by
  unfold kernelRunA.sl.v1039; exact (load_after_fill cc0_scratch0 _ _ (by decide) _).trans (D_dma267 c i tbl hT sim)
theorem S_v1124 : kernelRunA.sl.v1124 c i tbl hT sim b10 = simRow c sim (wordAt c tbl i ⟨13, by decide⟩) := by
  unfold kernelRunA.sl.v1124; exact (load_after_fill cc0_scratch1 _ _ (by decide) _).trans (D_dma290 c i tbl hT sim)
theorem S_v1209 : kernelRunA.sl.v1209 c i tbl hT sim b9 = simRow c sim (wordAt c tbl i ⟨14, by decide⟩) := by
  unfold kernelRunA.sl.v1209; exact (load_after_fill cc0_scratch0 _ _ (by decide) _).trans (D_dma313 c i tbl hT sim)
theorem S_v1294 : kernelRunA.sl.v1294 c i tbl hT sim b10 = simRow c sim (wordAt c tbl i ⟨15, by decide⟩) := by
  unfold kernelRunA.sl.v1294; exact (load_after_fill cc0_scratch1 _ _ (by decide) _).trans (D_dma336 c i tbl hT sim)
theorem S_v1379 : kernelRunA.sl.v1379 c i tbl hT sim b9 = simRow c sim (wordAt c tbl i ⟨16, by decide⟩) := by
  unfold kernelRunA.sl.v1379; exact (load_after_fill cc0_scratch0 _ _ (by decide) _).trans (D_dma359 c i tbl hT sim)
theorem S_v1464 : kernelRunA.sl.v1464 c i tbl hT sim b10 = simRow c sim (wordAt c tbl i ⟨17, by decide⟩) := by
  unfold kernelRunA.sl.v1464; exact (load_after_fill cc0_scratch1 _ _ (by decide) _).trans (D_dma382 c i tbl hT sim)
theorem S_v : kernelRunA.sl.v c i tbl hT sim b9 = simRow c sim (wordAt c tbl i ⟨18, by decide⟩) := by
  unfold kernelRunA.sl.v; exact (load_after_fill cc0_scratch0 _ _ (by decide) _).trans (D_dma405 c i tbl hT sim)
theorem S_v1634 : kernelRunA.sl.v1634 c i tbl hT sim b10 = simRow c sim (wordAt c tbl i ⟨19, by decide⟩) := by
  unfold kernelRunA.sl.v1634; exact (load_after_fill cc0_scratch1 _ _ (by decide) _).trans (D_dma428 c i tbl hT sim)
theorem S_v1719 : kernelRunA.sl.v1719 c i tbl hT sim b9 = simRow c sim (wordAt c tbl i ⟨20, by decide⟩) := by
  unfold kernelRunA.sl.v1719; exact (load_after_fill cc0_scratch0 _ _ (by decide) _).trans (D_dma451 c i tbl hT sim)
theorem S_v1804 : kernelRunA.sl.v1804 c i tbl hT sim b10 = simRow c sim (wordAt c tbl i ⟨21, by decide⟩) := by
  unfold kernelRunA.sl.v1804; exact (load_after_fill cc0_scratch1 _ _ (by decide) _).trans (D_dma474 c i tbl hT sim)
theorem S_v1889 : kernelRunA.sl.v1889 c i tbl hT sim b9 = simRow c sim (wordAt c tbl i ⟨22, by decide⟩) := by
  unfold kernelRunA.sl.v1889; exact (load_after_fill cc0_scratch0 _ _ (by decide) _).trans (D_dma497 c i tbl hT sim)
theorem S_v1974 : kernelRunA.sl.v1974 c i tbl hT sim b10 = simRow c sim (wordAt c tbl i ⟨23, by decide⟩) := by
  unfold kernelRunA.sl.v1974; exact (load_after_fill cc0_scratch1 _ _ (by decide) _).trans (D_dma520 c i tbl hT sim)
theorem S_v2059 : kernelRunA.sl.v2059 c i tbl hT sim b9 = simRow c sim (wordAt c tbl i ⟨24, by decide⟩) := by
  unfold kernelRunA.sl.v2059; exact (load_after_fill cc0_scratch0 _ _ (by decide) _).trans (D_dma543 c i tbl hT sim)
theorem S_v2144 : kernelRunA.sl.v2144 c i tbl hT sim b10 = simRow c sim (wordAt c tbl i ⟨25, by decide⟩) := by
  unfold kernelRunA.sl.v2144; exact (load_after_fill cc0_scratch1 _ _ (by decide) _).trans (D_dma566 c i tbl hT sim)
theorem S_v2229 : kernelRunA.sl.v2229 c i tbl hT sim b9 = simRow c sim (wordAt c tbl i ⟨26, by decide⟩) := by
  unfold kernelRunA.sl.v2229; exact (load_after_fill cc0_scratch0 _ _ (by decide) _).trans (D_dma589 c i tbl hT sim)
theorem S_v2314 : kernelRunA.sl.v2314 c i tbl hT sim b10 = simRow c sim (wordAt c tbl i ⟨27, by decide⟩) := by
  unfold kernelRunA.sl.v2314; exact (load_after_fill cc0_scratch1 _ _ (by decide) _).trans (D_dma612 c i tbl hT sim)
theorem S_v2399 : kernelRunA.sl.v2399 c i tbl hT sim b9 = simRow c sim (wordAt c tbl i ⟨28, by decide⟩) := by
  unfold kernelRunA.sl.v2399; exact (load_after_fill cc0_scratch0 _ _ (by decide) _).trans (D_dma635 c i tbl hT sim)
theorem S_v2484 : kernelRunA.sl.v2484 c i tbl hT sim b10 = simRow c sim (wordAt c tbl i ⟨29, by decide⟩) := by
  unfold kernelRunA.sl.v2484; exact (load_after_fill cc0_scratch1 _ _ (by decide) _).trans (D_dma658 c i tbl hT sim)
theorem S_v2569 : kernelRunA.sl.v2569 c i tbl hT sim b9 = simRow c sim (wordAt c tbl i ⟨30, by decide⟩) := by
  unfold kernelRunA.sl.v2569; exact (load_after_fill cc0_scratch0 _ _ (by decide) _).trans (D_dma681 c i tbl hT sim)
theorem S_v2654 : kernelRunA.sl.v2654 c i tbl hT sim b10 = simRow c sim (wordAt c tbl i ⟨31, by decide⟩) := by
  unfold kernelRunA.sl.v2654; exact (load_after_fill cc0_scratch1 _ _ (by decide) _).trans (D_dma704 c i tbl hT sim)
theorem S_v2739 : kernelRunA.sl.v2739 c i tbl hT sim b9 = simRow c sim (wordAt c tbl i ⟨32, by decide⟩) := by
  unfold kernelRunA.sl.v2739; exact (load_after_fill cc0_scratch0 _ _ (by decide) _).trans (D_dma727 c i tbl hT sim)
theorem S_v2824 : kernelRunA.sl.v2824 c i tbl hT sim b10 = simRow c sim (wordAt c tbl i ⟨33, by decide⟩) := by
  unfold kernelRunA.sl.v2824; exact (load_after_fill cc0_scratch1 _ _ (by decide) _).trans (D_dma750 c i tbl hT sim)
theorem S_v2909 : kernelRunA.sl.v2909 c i tbl hT sim b9 = simRow c sim (wordAt c tbl i ⟨34, by decide⟩) := by
  unfold kernelRunA.sl.v2909; exact (load_after_fill cc0_scratch0 _ _ (by decide) _).trans (D_dma773 c i tbl hT sim)
theorem S_v2994 : kernelRunA.sl.v2994 c i tbl hT sim b10 = simRow c sim (wordAt c tbl i ⟨35, by decide⟩) := by
  unfold kernelRunA.sl.v2994; exact (load_after_fill cc0_scratch1 _ _ (by decide) _).trans (D_dma796 c i tbl hT sim)
theorem S_v3079 : kernelRunA.sl.v3079 c i tbl hT sim b9 = simRow c sim (wordAt c tbl i ⟨36, by decide⟩) := by
  unfold kernelRunA.sl.v3079; exact (load_after_fill cc0_scratch0 _ _ (by decide) _).trans (D_dma819 c i tbl hT sim)
theorem S_v3164 : kernelRunA.sl.v3164 c i tbl hT sim b10 = simRow c sim (wordAt c tbl i ⟨37, by decide⟩) := by
  unfold kernelRunA.sl.v3164; exact (load_after_fill cc0_scratch1 _ _ (by decide) _).trans (D_dma842 c i tbl hT sim)
theorem S_v_1 : kernelRunA.sl.v_1 c i tbl hT sim b9 = simRow c sim (wordAt c tbl i ⟨38, by decide⟩) := by
  unfold kernelRunA.sl.v_1; exact (load_after_fill cc0_scratch0 _ _ (by decide) _).trans (D_dma865 c i tbl hT sim)
theorem S_v3334 : kernelRunA.sl.v3334 c i tbl hT sim b10 = simRow c sim (wordAt c tbl i ⟨39, by decide⟩) := by
  unfold kernelRunA.sl.v3334; exact (load_after_fill cc0_scratch1 _ _ (by decide) _).trans (D_dma888 c i tbl hT sim)
theorem S_v3419 : kernelRunA.sl.v3419 c i tbl hT sim b9 = simRow c sim (wordAt c tbl i ⟨40, by decide⟩) := by
  unfold kernelRunA.sl.v3419; exact (load_after_fill cc0_scratch0 _ _ (by decide) _).trans (D_dma911 c i tbl hT sim)
theorem S_v3504 : kernelRunA.sl.v3504 c i tbl hT sim b10 = simRow c sim (wordAt c tbl i ⟨41, by decide⟩) := by
  unfold kernelRunA.sl.v3504; exact (load_after_fill cc0_scratch1 _ _ (by decide) _).trans (D_dma934 c i tbl hT sim)
theorem S_v3589 : kernelRunA.sl.v3589 c i tbl hT sim b9 = simRow c sim (wordAt c tbl i ⟨42, by decide⟩) := by
  unfold kernelRunA.sl.v3589; exact (load_after_fill cc0_scratch0 _ _ (by decide) _).trans (D_dma957 c i tbl hT sim)
theorem S_v3674 : kernelRunA.sl.v3674 c i tbl hT sim b10 = simRow c sim (wordAt c tbl i ⟨43, by decide⟩) := by
  unfold kernelRunA.sl.v3674; exact (load_after_fill cc0_scratch1 _ _ (by decide) _).trans (D_dma980 c i tbl hT sim)
theorem S_v3759 : kernelRunA.sl.v3759 c i tbl hT sim b9 = simRow c sim (wordAt c tbl i ⟨44, by decide⟩) := by
  unfold kernelRunA.sl.v3759; exact (load_after_fill cc0_scratch0 _ _ (by decide) _).trans (D_dma1003 c i tbl hT sim)
theorem S_v3844 : kernelRunA.sl.v3844 c i tbl hT sim b10 = simRow c sim (wordAt c tbl i ⟨45, by decide⟩) := by
  unfold kernelRunA.sl.v3844; exact (load_after_fill cc0_scratch1 _ _ (by decide) _).trans (D_dma1026 c i tbl hT sim)
theorem S_v3929 : kernelRunA.sl.v3929 c i tbl hT sim b9 = simRow c sim (wordAt c tbl i ⟨46, by decide⟩) := by
  unfold kernelRunA.sl.v3929; exact (load_after_fill cc0_scratch0 _ _ (by decide) _).trans (D_dma1049 c i tbl hT sim)
theorem S_v4014 : kernelRunA.sl.v4014 c i tbl hT sim b10 = simRow c sim (wordAt c tbl i ⟨47, by decide⟩) := by
  unfold kernelRunA.sl.v4014; exact (load_after_fill cc0_scratch1 _ _ (by decide) _).trans (D_dma1072 c i tbl hT sim)
theorem S_v4099 : kernelRunA.sl.v4099 c i tbl hT sim b9 = simRow c sim (wordAt c tbl i ⟨48, by decide⟩) := by
  unfold kernelRunA.sl.v4099; exact (load_after_fill cc0_scratch0 _ _ (by decide) _).trans (D_dma1095 c i tbl hT sim)
theorem S_v4184 : kernelRunA.sl.v4184 c i tbl hT sim b10 = simRow c sim (wordAt c tbl i ⟨49, by decide⟩) := by
  unfold kernelRunA.sl.v4184; exact (load_after_fill cc0_scratch1 _ _ (by decide) _).trans (D_dma1118 c i tbl hT sim)
theorem S_v4269 : kernelRunA.sl.v4269 c i tbl hT sim b9 = simRow c sim (wordAt c tbl i ⟨50, by decide⟩) := by
  unfold kernelRunA.sl.v4269; exact (load_after_fill cc0_scratch0 _ _ (by decide) _).trans (D_dma1141 c i tbl hT sim)
theorem S_v4354 : kernelRunA.sl.v4354 c i tbl hT sim b10 = simRow c sim (wordAt c tbl i ⟨51, by decide⟩) := by
  unfold kernelRunA.sl.v4354; exact (load_after_fill cc0_scratch1 _ _ (by decide) _).trans (D_dma1164 c i tbl hT sim)
theorem S_v4439 : kernelRunA.sl.v4439 c i tbl hT sim b9 = simRow c sim (wordAt c tbl i ⟨52, by decide⟩) := by
  unfold kernelRunA.sl.v4439; exact (load_after_fill cc0_scratch0 _ _ (by decide) _).trans (D_dma1187 c i tbl hT sim)
theorem S_v4524 : kernelRunA.sl.v4524 c i tbl hT sim b10 = simRow c sim (wordAt c tbl i ⟨53, by decide⟩) := by
  unfold kernelRunA.sl.v4524; exact (load_after_fill cc0_scratch1 _ _ (by decide) _).trans (D_dma1210 c i tbl hT sim)
theorem S_v4609 : kernelRunA.sl.v4609 c i tbl hT sim b9 = simRow c sim (wordAt c tbl i ⟨54, by decide⟩) := by
  unfold kernelRunA.sl.v4609; exact (load_after_fill cc0_scratch0 _ _ (by decide) _).trans (D_dma1233 c i tbl hT sim)
theorem S_v4694 : kernelRunA.sl.v4694 c i tbl hT sim b10 = simRow c sim (wordAt c tbl i ⟨55, by decide⟩) := by
  unfold kernelRunA.sl.v4694; exact (load_after_fill cc0_scratch1 _ _ (by decide) _).trans (D_dma1256 c i tbl hT sim)
theorem S_v4779 : kernelRunA.sl.v4779 c i tbl hT sim b9 = simRow c sim (wordAt c tbl i ⟨56, by decide⟩) := by
  unfold kernelRunA.sl.v4779; exact (load_after_fill cc0_scratch0 _ _ (by decide) _).trans (D_dma1279 c i tbl hT sim)
theorem S_v4864 : kernelRunA.sl.v4864 c i tbl hT sim b10 = simRow c sim (wordAt c tbl i ⟨57, by decide⟩) := by
  unfold kernelRunA.sl.v4864; exact (load_after_fill cc0_scratch1 _ _ (by decide) _).trans (D_dma1302 c i tbl hT sim)
theorem S_v_2 : kernelRunA.sl.v_2 c i tbl hT sim b9 = simRow c sim (wordAt c tbl i ⟨58, by decide⟩) := by
  unfold kernelRunA.sl.v_2; exact (load_after_fill cc0_scratch0 _ _ (by decide) _).trans (D_dma1325 c i tbl hT sim)
theorem S_v5034 : kernelRunA.sl.v5034 c i tbl hT sim b10 = simRow c sim (wordAt c tbl i ⟨59, by decide⟩) := by
  unfold kernelRunA.sl.v5034; exact (load_after_fill cc0_scratch1 _ _ (by decide) _).trans (D_dma1348 c i tbl hT sim)
theorem S_v5119 : kernelRunA.sl.v5119 c i tbl hT sim b9 = simRow c sim (wordAt c tbl i ⟨60, by decide⟩) := by
  unfold kernelRunA.sl.v5119; exact (load_after_fill cc0_scratch0 _ _ (by decide) _).trans (D_dma1371 c i tbl hT sim)
theorem S_v5204 : kernelRunA.sl.v5204 c i tbl hT sim b10 = simRow c sim (wordAt c tbl i ⟨61, by decide⟩) := by
  unfold kernelRunA.sl.v5204; exact (load_after_fill cc0_scratch1 _ _ (by decide) _).trans (D_dma1394 c i tbl hT sim)
theorem S_v5289 : kernelRunA.sl.v5289 c i tbl hT sim b9 = simRow c sim (wordAt c tbl i ⟨62, by decide⟩) := by
  unfold kernelRunA.sl.v5289; exact (load_after_fill cc0_scratch0 _ _ (by decide) _).trans (D_dma1417 c i tbl hT sim)
theorem S_v5368 : kernelRunA.sl.v5368 c i tbl hT sim b10 = simRow c sim (wordAt c tbl i ⟨63, by decide⟩) := by
  unfold kernelRunA.sl.v5368; exact (load_after_fill cc0_scratch1 _ _ (by decide) _).trans (D_dma1440 c i tbl hT sim)
end TabA

end Cert.Proof.K

end
-- ==== Proof.KStepATabV1.lean ====
import proofs.«419560_j5755256177164_3_alg».proof.Proof.KStepATabW

/-!
  The table of case A: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.K

open Cert.Kernel Cert.Kernel.Gen
open Idealize.ShloMosaic Idealize.ShloMosaic.TcCoe
open Idealize.SL Idealize.SL.Sem

variable {F : FTy → Type} [FloatOps F]

namespace TabA

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

include c i M2 hM2 M3 hM3 tbl hT sim x2 x3 b9 b10 a12 a13 a14 a15 a16 a17

theorem V12_0 : kernelRunA.sl.v64  = (rowsOf c tbl i sim x2 x3 (zeroAcc) 0).m := by
  unfold kernelRunA.sl.v64 kernelRunA.sl.H12_1
  rw [View.readCov_cons_toLoadRect]
  rfl
theorem V13_0 : kernelRunA.sl.v69  = (rowsOf c tbl i sim x2 x3 (zeroAcc) 0).logp := by
  unfold kernelRunA.sl.v69 kernelRunA.sl.H13_1
  rw [View.readCov_cons_toLoadRect]
  rfl
theorem V14_0 : kernelRunA.sl.v75  = (rowsOf c tbl i sim x2 x3 (zeroAcc) 0).w := by
  unfold kernelRunA.sl.v75 kernelRunA.sl.H14_1
  rw [View.readCov_cons_toLoadRect]
  rfl
theorem V12_1 : kernelRunA.sl.v149 c M3 hM3 x3 = (rowsOf c tbl i sim x2 x3 (zeroAcc) 1).m := by
  unfold kernelRunA.sl.v149 kernelRunA.sl.H12_2
  rw [View.readCov_cons_toLoadRect]
  refine Eq.trans ?_ (rowsOf_m c tbl i sim x2 x3 (zeroAcc) 0 (by decide)).symm
  unfold kernelRunA.sl.r_4
  simp only [V12_0 c i M2 hM2 M3 hM3 tbl hT sim x2 x3 b9 b10 a12 a13 a14 a15 a16 a17, mk_read M3 hM3 x3 0 (by decide)]
  try rfl
theorem V13_1 : kernelRunA.sl.v154 c i M2 hM2 M3 hM3 tbl x2 x3 = (rowsOf c tbl i sim x2 x3 (zeroAcc) 1).logp := by
  unfold kernelRunA.sl.v154 kernelRunA.sl.H13_2
  rw [View.readCov_cons_toLoadRect]
  refine Eq.trans ?_ (rowsOf_logp c tbl i sim x2 x3 (zeroAcc) 0 (by decide)).symm
  unfold kernelRunA.sl.r_10 kernelRunA.sl.r_3 kernelRunA.sl.r_4
  simp only [W_r_2 c i tbl, V13_0 c i M2 hM2 M3 hM3 tbl hT sim x2 x3 b9 b10 a12 a13 a14 a15 a16 a17, in_read M2 hM2 x2 0 (by decide), mk_read M3 hM3 x3 0 (by decide)]
  try rfl
theorem V14_1 : kernelRunA.sl.v160 c i M3 hM3 tbl hT sim x3 b9 = (rowsOf c tbl i sim x2 x3 (zeroAcc) 1).w := by
  unfold kernelRunA.sl.v160 kernelRunA.sl.H14_2
  rw [View.readCov_cons_toLoadRect]
  refine Eq.trans ?_ (rowsOf_w c tbl i sim x2 x3 (zeroAcc) 0 (by decide)).symm
  unfold kernelRunA.sl.r_6 kernelRunA.sl.r_4 kernelRunA.sl.r_5 kernelRunA.sl.cst_15
  simp only [S_v19 c i tbl hT sim b9, V14_0 c i M2 hM2 M3 hM3 tbl hT sim x2 x3 b9 b10 a12 a13 a14 a15 a16 a17, mk_read M3 hM3 x3 0 (by decide)]
  try rfl
theorem V12_2 : kernelRunA.sl.v234 c M3 hM3 x3 = (rowsOf c tbl i sim x2 x3 (zeroAcc) 2).m := by
  unfold kernelRunA.sl.v234 kernelRunA.sl.H12_3
  rw [View.readCov_cons_toLoadRect]
  refine Eq.trans ?_ (rowsOf_m c tbl i sim x2 x3 (zeroAcc) 1 (by decide)).symm
  unfold kernelRunA.sl.r_13
  simp only [V12_1 c i M2 hM2 M3 hM3 tbl hT sim x2 x3 b9 b10 a12 a13 a14 a15 a16 a17, mk_read M3 hM3 x3 1 (by decide)]
  try rfl
theorem V13_2 : kernelRunA.sl.v239 c i M2 hM2 M3 hM3 tbl x2 x3 = (rowsOf c tbl i sim x2 x3 (zeroAcc) 2).logp := by
  unfold kernelRunA.sl.v239 kernelRunA.sl.H13_3
  rw [View.readCov_cons_toLoadRect]
  refine Eq.trans ?_ (rowsOf_logp c tbl i sim x2 x3 (zeroAcc) 1 (by decide)).symm
  unfold kernelRunA.sl.r_13 kernelRunA.sl.r_16
  simp only [W_r_12 c i tbl, V13_1 c i M2 hM2 M3 hM3 tbl hT sim x2 x3 b9 b10 a12 a13 a14 a15 a16 a17, in_read M2 hM2 x2 1 (by decide), mk_read M3 hM3 x3 1 (by decide)]
  try rfl
theorem V14_2 : kernelRunA.sl.v245 c i M3 hM3 tbl hT sim x3 b9 b10 = (rowsOf c tbl i sim x2 x3 (zeroAcc) 2).w := by
  unfold kernelRunA.sl.v245 kernelRunA.sl.H14_3
  rw [View.readCov_cons_toLoadRect]
  refine Eq.trans ?_ (rowsOf_w c tbl i sim x2 x3 (zeroAcc) 1 (by decide)).symm
  unfold kernelRunA.sl.r_14
  simp only [S_v104 c i tbl hT sim b10, V14_1 c i M2 hM2 M3 hM3 tbl hT sim x2 x3 b9 b10 a12 a13 a14 a15 a16 a17, mk_read M3 hM3 x3 1 (by decide)]
  try rfl
theorem V12_3 : kernelRunA.sl.v319 c M3 hM3 x3 = (rowsOf c tbl i sim x2 x3 (zeroAcc) 3).m := by
  unfold kernelRunA.sl.v319 kernelRunA.sl.H12_4
  rw [View.readCov_cons_toLoadRect]
  refine Eq.trans ?_ (rowsOf_m c tbl i sim x2 x3 (zeroAcc) 2 (by decide)).symm
  unfold kernelRunA.sl.r_23
  simp only [V12_2 c i M2 hM2 M3 hM3 tbl hT sim x2 x3 b9 b10 a12 a13 a14 a15 a16 a17, mk_read M3 hM3 x3 2 (by decide)]
  try rfl
theorem V13_3 : kernelRunA.sl.v324 c i M2 hM2 M3 hM3 tbl x2 x3 = (rowsOf c tbl i sim x2 x3 (zeroAcc) 3).logp := by
  unfold kernelRunA.sl.v324 kernelRunA.sl.H13_4
  rw [View.readCov_cons_toLoadRect]
  refine Eq.trans ?_ (rowsOf_logp c tbl i sim x2 x3 (zeroAcc) 2 (by decide)).symm
  unfold kernelRunA.sl.r_22 kernelRunA.sl.r_23
  simp only [W_r_21 c i tbl, V13_2 c i M2 hM2 M3 hM3 tbl hT sim x2 x3 b9 b10 a12 a13 a14 a15 a16 a17, in_read M2 hM2 x2 2 (by decide), mk_read M3 hM3 x3 2 (by decide)]
  try rfl
theorem V14_3 : kernelRunA.sl.v330 c i M3 hM3 tbl hT sim x3 b9 b10 = (rowsOf c tbl i sim x2 x3 (zeroAcc) 3).w := by
  unfold kernelRunA.sl.v330 kernelRunA.sl.H14_4
  rw [View.readCov_cons_toLoadRect]
  refine Eq.trans ?_ (rowsOf_w c tbl i sim x2 x3 (zeroAcc) 2 (by decide)).symm
  unfold kernelRunA.sl.r_26
  simp only [S_v189 c i tbl hT sim b9, V14_2 c i M2 hM2 M3 hM3 tbl hT sim x2 x3 b9 b10 a12 a13 a14 a15 a16 a17, mk_read M3 hM3 x3 2 (by decide)]
  try rfl
theorem V12_4 : kernelRunA.sl.v404 c M3 hM3 x3 = (rowsOf c tbl i sim x2 x3 (zeroAcc) 4).m := by
  unfold kernelRunA.sl.v404 kernelRunA.sl.H12_5
  rw [View.readCov_cons_toLoadRect]
  refine Eq.trans ?_ (rowsOf_m c tbl i sim x2 x3 (zeroAcc) 3 (by decide)).symm
  unfold kernelRunA.sl.r_33
  simp only [V12_3 c i M2 hM2 M3 hM3 tbl hT sim x2 x3 b9 b10 a12 a13 a14 a15 a16 a17, mk_read M3 hM3 x3 3 (by decide)]
  try rfl
theorem V13_4 : kernelRunA.sl.v409 c i M2 hM2 M3 hM3 tbl x2 x3 = (rowsOf c tbl i sim x2 x3 (zeroAcc) 4).logp := by
  unfold kernelRunA.sl.v409 kernelRunA.sl.H13_5
  rw [View.readCov_cons_toLoadRect]
  refine Eq.trans ?_ (rowsOf_logp c tbl i sim x2 x3 (zeroAcc) 3 (by decide)).symm
  unfold kernelRunA.sl.r_39 kernelRunA.sl.r_32 kernelRunA.sl.r_33
  simp only [W_r_31 c i tbl, V13_3 c i M2 hM2 M3 hM3 tbl hT sim x2 x3 b9 b10 a12 a13 a14 a15 a16 a17, in_read M2 hM2 x2 3 (by decide), mk_read M3 hM3 x3 3 (by decide)]
  try rfl
theorem V14_4 : kernelRunA.sl.v415 c i M3 hM3 tbl hT sim x3 b9 b10 = (rowsOf c tbl i sim x2 x3 (zeroAcc) 4).w := by
  unfold kernelRunA.sl.v415 kernelRunA.sl.H14_5
  rw [View.readCov_cons_toLoadRect]
  refine Eq.trans ?_ (rowsOf_w c tbl i sim x2 x3 (zeroAcc) 3 (by decide)).symm
  unfold kernelRunA.sl.r_35 kernelRunA.sl.r_33 kernelRunA.sl.r_34
  simp only [S_v274 c i tbl hT sim b10, V14_3 c i M2 hM2 M3 hM3 tbl hT sim x2 x3 b9 b10 a12 a13 a14 a15 a16 a17, mk_read M3 hM3 x3 3 (by decide)]
  try rfl
theorem V12_5 : kernelRunA.sl.v489 c M3 hM3 x3 = (rowsOf c tbl i sim x2 x3 (zeroAcc) 5).m := by
  unfold kernelRunA.sl.v489 kernelRunA.sl.H12_6
  rw [View.readCov_cons_toLoadRect]
  refine Eq.trans ?_ (rowsOf_m c tbl i sim x2 x3 (zeroAcc) 4 (by decide)).symm
  unfold kernelRunA.sl.r_42
  simp only [V12_4 c i M2 hM2 M3 hM3 tbl hT sim x2 x3 b9 b10 a12 a13 a14 a15 a16 a17, mk_read M3 hM3 x3 4 (by decide)]
  try rfl
theorem V13_5 : kernelRunA.sl.v494 c i M2 hM2 M3 hM3 tbl x2 x3 = (rowsOf c tbl i sim x2 x3 (zeroAcc) 5).logp := by
  unfold kernelRunA.sl.v494 kernelRunA.sl.H13_6
  rw [View.readCov_cons_toLoadRect]
  refine Eq.trans ?_ (rowsOf_logp c tbl i sim x2 x3 (zeroAcc) 4 (by decide)).symm
  unfold kernelRunA.sl.r_42 kernelRunA.sl.r_46
  simp only [W_r_41 c i tbl, V13_4 c i M2 hM2 M3 hM3 tbl hT sim x2 x3 b9 b10 a12 a13 a14 a15 a16 a17, in_read M2 hM2 x2 4 (by decide), mk_read M3 hM3 x3 4 (by decide)]
  try rfl
theorem V14_5 : kernelRunA.sl.v500 c i M3 hM3 tbl hT sim x3 b9 b10 = (rowsOf c tbl i sim x2 x3 (zeroAcc) 5).w := by
  unfold kernelRunA.sl.v500 kernelRunA.sl.H14_6
  rw [View.readCov_cons_toLoadRect]
  refine Eq.trans ?_ (rowsOf_w c tbl i sim x2 x3 (zeroAcc) 4 (by decide)).symm
  unfold kernelRunA.sl.r_44
  simp only [S_v359 c i tbl hT sim b9, V14_4 c i M2 hM2 M3 hM3 tbl hT sim x2 x3 b9 b10 a12 a13 a14 a15 a16 a17, mk_read M3 hM3 x3 4 (by decide)]
  try rfl
theorem V12_6 : kernelRunA.sl.v574 c M3 hM3 x3 = (rowsOf c tbl i sim x2 x3 (zeroAcc) 6).m := by
  unfold kernelRunA.sl.v574 kernelRunA.sl.H12_7
  rw [View.readCov_cons_toLoadRect]
  refine Eq.trans ?_ (rowsOf_m c tbl i sim x2 x3 (zeroAcc) 5 (by decide)).symm
  unfold kernelRunA.sl.r_52
  simp only [V12_5 c i M2 hM2 M3 hM3 tbl hT sim x2 x3 b9 b10 a12 a13 a14 a15 a16 a17, mk_read M3 hM3 x3 5 (by decide)]
  try rfl
theorem V13_6 : kernelRunA.sl.v579 c i M2 hM2 M3 hM3 tbl x2 x3 = (rowsOf c tbl i sim x2 x3 (zeroAcc) 6).logp := by
  unfold kernelRunA.sl.v579 kernelRunA.sl.H13_7
  rw [View.readCov_cons_toLoadRect]
  refine Eq.trans ?_ (rowsOf_logp c tbl i sim x2 x3 (zeroAcc) 5 (by decide)).symm
  unfold kernelRunA.sl.r_51 kernelRunA.sl.r_52
  simp only [W_r_50 c i tbl, V13_5 c i M2 hM2 M3 hM3 tbl hT sim x2 x3 b9 b10 a12 a13 a14 a15 a16 a17, in_read M2 hM2 x2 5 (by decide), mk_read M3 hM3 x3 5 (by decide)]
  try rfl
theorem V14_6 : kernelRunA.sl.v585 c i M3 hM3 tbl hT sim x3 b9 b10 = (rowsOf c tbl i sim x2 x3 (zeroAcc) 6).w := by
  unfold kernelRunA.sl.v585 kernelRunA.sl.H14_7
  rw [View.readCov_cons_toLoadRect]
  refine Eq.trans ?_ (rowsOf_w c tbl i sim x2 x3 (zeroAcc) 5 (by decide)).symm
  unfold kernelRunA.sl.r_54
  simp only [S_v444 c i tbl hT sim b10, V14_5 c i M2 hM2 M3 hM3 tbl hT sim x2 x3 b9 b10 a12 a13 a14 a15 a16 a17, mk_read M3 hM3 x3 5 (by decide)]
  try rfl
theorem V12_7 : kernelRunA.sl.v659 c M3 hM3 x3 = (rowsOf c tbl i sim x2 x3 (zeroAcc) 7).m := by
  unfold kernelRunA.sl.v659 kernelRunA.sl.H12_8
  rw [View.readCov_cons_toLoadRect]
  refine Eq.trans ?_ (rowsOf_m c tbl i sim x2 x3 (zeroAcc) 6 (by decide)).symm
  unfold kernelRunA.sl.r_61
  simp only [V12_6 c i M2 hM2 M3 hM3 tbl hT sim x2 x3 b9 b10 a12 a13 a14 a15 a16 a17, mk_read M3 hM3 x3 6 (by decide)]
  try rfl
theorem V13_7 : kernelRunA.sl.v664 c i M2 hM2 M3 hM3 tbl x2 x3 = (rowsOf c tbl i sim x2 x3 (zeroAcc) 7).logp := by
  unfold kernelRunA.sl.v664 kernelRunA.sl.H13_8
  rw [View.readCov_cons_toLoadRect]
  refine Eq.trans ?_ (rowsOf_logp c tbl i sim x2 x3 (zeroAcc) 6 (by decide)).symm
  unfold kernelRunA.sl.r_66 kernelRunA.sl.r_60 kernelRunA.sl.r_61
  simp only [W_r_59 c i tbl, V13_6 c i M2 hM2 M3 hM3 tbl hT sim x2 x3 b9 b10 a12 a13 a14 a15 a16 a17, in_read M2 hM2 x2 6 (by decide), mk_read M3 hM3 x3 6 (by decide)]
  try rfl
theorem V14_7 : kernelRunA.sl.v670 c i M3 hM3 tbl hT sim x3 b9 b10 = (rowsOf c tbl i sim x2 x3 (zeroAcc) 7).w := by
  unfold kernelRunA.sl.v670 kernelRunA.sl.H14_8
  rw [View.readCov_cons_toLoadRect]
  refine Eq.trans ?_ (rowsOf_w c tbl i sim x2 x3 (zeroAcc) 6 (by decide)).symm
  unfold kernelRunA.sl.r_62 kernelRunA.sl.r_61 kernelRunA.sl.cst_284
  simp only [S_v529 c i tbl hT sim b9, V14_6 c i M2 hM2 M3 hM3 tbl hT sim x2 x3 b9 b10 a12 a13 a14 a15 a16 a17, mk_read M3 hM3 x3 6 (by decide)]
  try rfl
theorem V12_8 : kernelRunA.sl.v744 c M3 hM3 x3 = (rowsOf c tbl i sim x2 x3 (zeroAcc) 8).m := by
  unfold kernelRunA.sl.v744 kernelRunA.sl.H12_9
  rw [View.readCov_cons_toLoadRect]
  refine Eq.trans ?_ (rowsOf_m c tbl i sim x2 x3 (zeroAcc) 7 (by decide)).symm
  unfold kernelRunA.sl.r_69
  simp only [V12_7 c i M2 hM2 M3 hM3 tbl hT sim x2 x3 b9 b10 a12 a13 a14 a15 a16 a17, mk_read M3 hM3 x3 7 (by decide)]
  try rfl
theorem V13_8 : kernelRunA.sl.v749 c i M2 hM2 M3 hM3 tbl x2 x3 = (rowsOf c tbl i sim x2 x3 (zeroAcc) 8).logp := by
  unfold kernelRunA.sl.v749 kernelRunA.sl.H13_9
  rw [View.readCov_cons_toLoadRect]
  refine Eq.trans ?_ (rowsOf_logp c tbl i sim x2 x3 (zeroAcc) 7 (by decide)).symm
  unfold kernelRunA.sl.r_69 kernelRunA.sl.r_73
  simp only [W_r_68 c i tbl, V13_7 c i M2 hM2 M3 hM3 tbl hT sim x2 x3 b9 b10 a12 a13 a14 a15 a16 a17, in_read M2 hM2 x2 7 (by decide), mk_read M3 hM3 x3 7 (by decide)]
  try rfl
theorem V14_8 : kernelRunA.sl.v755 c i M3 hM3 tbl hT sim x3 b9 b10 = (rowsOf c tbl i sim x2 x3 (zeroAcc) 8).w := by
  unfold kernelRunA.sl.v755 kernelRunA.sl.H14_9
  rw [View.readCov_cons_toLoadRect]
  refine Eq.trans ?_ (rowsOf_w c tbl i sim x2 x3 (zeroAcc) 7 (by decide)).symm
  unfold kernelRunA.sl.r_71
  simp only [S_v614 c i tbl hT sim b10, V14_7 c i M2 hM2 M3 hM3 tbl hT sim x2 x3 b9 b10 a12 a13 a14 a15 a16 a17, mk_read M3 hM3 x3 7 (by decide)]
  try rfl
theorem V12_9 : kernelRunA.sl.v829 c M3 hM3 x3 = (rowsOf c tbl i sim x2 x3 (zeroAcc) 9).m := by
  unfold kernelRunA.sl.v829 kernelRunA.sl.H12_10
  rw [View.readCov_cons_toLoadRect]
  refine Eq.trans ?_ (rowsOf_m c tbl i sim x2 x3 (zeroAcc) 8 (by decide)).symm
  unfold kernelRunA.sl.r_78
  simp only [V12_8 c i M2 hM2 M3 hM3 tbl hT sim x2 x3 b9 b10 a12 a13 a14 a15 a16 a17, mk_read M3 hM3 x3 8 (by decide)]
  try rfl
theorem V13_9 : kernelRunA.sl.v834 c i M2 hM2 M3 hM3 tbl x2 x3 = (rowsOf c tbl i sim x2 x3 (zeroAcc) 9).logp := by
  unfold kernelRunA.sl.v834 kernelRunA.sl.H13_10
  rw [View.readCov_cons_toLoadRect]
  refine Eq.trans ?_ (rowsOf_logp c tbl i sim x2 x3 (zeroAcc) 8 (by decide)).symm
  unfold kernelRunA.sl.r_77 kernelRunA.sl.r_78
  simp only [W_r_76 c i tbl, V13_8 c i M2 hM2 M3 hM3 tbl hT sim x2 x3 b9 b10 a12 a13 a14 a15 a16 a17, in_read M2 hM2 x2 8 (by decide), mk_read M3 hM3 x3 8 (by decide)]
  try rfl
theorem V14_9 : kernelRunA.sl.v840 c i M3 hM3 tbl hT sim x3 b9 b10 = (rowsOf c tbl i sim x2 x3 (zeroAcc) 9).w := by
  unfold kernelRunA.sl.v840 kernelRunA.sl.H14_10
  rw [View.readCov_cons_toLoadRect]
  refine Eq.trans ?_ (rowsOf_w c tbl i sim x2 x3 (zeroAcc) 8 (by decide)).symm
  unfold kernelRunA.sl.r_78 kernelRunA.sl.r_79
  simp only [S_v699 c i tbl hT sim b9, V14_8 c i M2 hM2 M3 hM3 tbl hT sim x2 x3 b9 b10 a12 a13 a14 a15 a16 a17, mk_read M3 hM3 x3 8 (by decide)]
  try rfl
theorem V12_10 : kernelRunA.sl.v914 c M3 hM3 x3 = (rowsOf c tbl i sim x2 x3 (zeroAcc) 10).m := by
  unfold kernelRunA.sl.v914 kernelRunA.sl.H12_11
  rw [View.readCov_cons_toLoadRect]
  refine Eq.trans ?_ (rowsOf_m c tbl i sim x2 x3 (zeroAcc) 9 (by decide)).symm
  unfold kernelRunA.sl.r_85
  simp only [V12_9 c i M2 hM2 M3 hM3 tbl hT sim x2 x3 b9 b10 a12 a13 a14 a15 a16 a17, mk_read M3 hM3 x3 9 (by decide)]
  try rfl
theorem V13_10 : kernelRunA.sl.v919 c i M2 hM2 M3 hM3 tbl x2 x3 = (rowsOf c tbl i sim x2 x3 (zeroAcc) 10).logp := by
  unfold kernelRunA.sl.v919 kernelRunA.sl.H13_11
  rw [View.readCov_cons_toLoadRect]
  refine Eq.trans ?_ (rowsOf_logp c tbl i sim x2 x3 (zeroAcc) 9 (by decide)).symm
  unfold kernelRunA.sl.r_85 kernelRunA.sl.r_89 kernelRunA.sl.r_84
  simp only [W_r_86 c i tbl, V13_9 c i M2 hM2 M3 hM3 tbl hT sim x2 x3 b9 b10 a12 a13 a14 a15 a16 a17, in_read M2 hM2 x2 9 (by decide), mk_read M3 hM3 x3 9 (by decide)]
  try rfl
theorem V14_10 : kernelRunA.sl.v925 c i M3 hM3 tbl hT sim x3 b9 b10 = (rowsOf c tbl i sim x2 x3 (zeroAcc) 10).w := by
  unfold kernelRunA.sl.v925 kernelRunA.sl.H14_11
  rw [View.readCov_cons_toLoadRect]
  refine Eq.trans ?_ (rowsOf_w c tbl i sim x2 x3 (zeroAcc) 9 (by decide)).symm
  unfold kernelRunA.sl.r_87 kernelRunA.sl.r_85
  simp only [S_v784 c i tbl hT sim b10, V14_9 c i M2 hM2 M3 hM3 tbl hT sim x2 x3 b9 b10 a12 a13 a14 a15 a16 a17, mk_read M3 hM3 x3 9 (by decide)]
  try rfl
theorem V12_11 : kernelRunA.sl.v999 c M3 hM3 x3 = (rowsOf c tbl i sim x2 x3 (zeroAcc) 11).m := by
  unfold kernelRunA.sl.v999 kernelRunA.sl.H12_12
  rw [View.readCov_cons_toLoadRect]
  refine Eq.trans ?_ (rowsOf_m c tbl i sim x2 x3 (zeroAcc) 10 (by decide)).symm
  unfold kernelRunA.sl.r_94
  simp only [V12_10 c i M2 hM2 M3 hM3 tbl hT sim x2 x3 b9 b10 a12 a13 a14 a15 a16 a17, mk_read M3 hM3 x3 10 (by decide)]
  try rfl
theorem V13_11 : kernelRunA.sl.v1004 c i M2 hM2 M3 hM3 tbl x2 x3 = (rowsOf c tbl i sim x2 x3 (zeroAcc) 11).logp := by
  unfold kernelRunA.sl.v1004 kernelRunA.sl.H13_12
  rw [View.readCov_cons_toLoadRect]
  refine Eq.trans ?_ (rowsOf_logp c tbl i sim x2 x3 (zeroAcc) 10 (by decide)).symm
  unfold kernelRunA.sl.r_94 kernelRunA.sl.r_98
  simp only [W_r_93 c i tbl, V13_10 c i M2 hM2 M3 hM3 tbl hT sim x2 x3 b9 b10 a12 a13 a14 a15 a16 a17, in_read M2 hM2 x2 10 (by decide), mk_read M3 hM3 x3 10 (by decide)]
  try rfl
theorem V14_11 : kernelRunA.sl.v1010 c i M3 hM3 tbl hT sim x3 b9 b10 = (rowsOf c tbl i sim x2 x3 (zeroAcc) 11).w := by
  unfold kernelRunA.sl.v1010 kernelRunA.sl.H14_12
  rw [View.readCov_cons_toLoadRect]
  refine Eq.trans ?_ (rowsOf_w c tbl i sim x2 x3 (zeroAcc) 10 (by decide)).symm
  unfold kernelRunA.sl.r_96
  simp only [S_v869 c i tbl hT sim b9, V14_10 c i M2 hM2 M3 hM3 tbl hT sim x2 x3 b9 b10 a12 a13 a14 a15 a16 a17, mk_read M3 hM3 x3 10 (by decide)]
  try rfl
theorem V12_12 : kernelRunA.sl.v1084 c M3 hM3 x3 = (rowsOf c tbl i sim x2 x3 (zeroAcc) 12).m := by
  unfold kernelRunA.sl.v1084 kernelRunA.sl.H12_13
  rw [View.readCov_cons_toLoadRect]
  refine Eq.trans ?_ (rowsOf_m c tbl i sim x2 x3 (zeroAcc) 11 (by decide)).symm
  unfold kernelRunA.sl.r_104
  simp only [V12_11 c i M2 hM2 M3 hM3 tbl hT sim x2 x3 b9 b10 a12 a13 a14 a15 a16 a17, mk_read M3 hM3 x3 11 (by decide)]
  try rfl
theorem V13_12 : kernelRunA.sl.v1089 c i M2 hM2 M3 hM3 tbl x2 x3 = (rowsOf c tbl i sim x2 x3 (zeroAcc) 12).logp := by
  unfold kernelRunA.sl.v1089 kernelRunA.sl.H13_13
  rw [View.readCov_cons_toLoadRect]
  refine Eq.trans ?_ (rowsOf_logp c tbl i sim x2 x3 (zeroAcc) 11 (by decide)).symm
  unfold kernelRunA.sl.r_103 kernelRunA.sl.r_104
  simp only [W_r_102 c i tbl, V13_11 c i M2 hM2 M3 hM3 tbl hT sim x2 x3 b9 b10 a12 a13 a14 a15 a16 a17, in_read M2 hM2 x2 11 (by decide), mk_read M3 hM3 x3 11 (by decide)]
  try rfl
theorem V14_12 : kernelRunA.sl.v1095 c i M3 hM3 tbl hT sim x3 b9 b10 = (rowsOf c tbl i sim x2 x3 (zeroAcc) 12).w := by
  unfold kernelRunA.sl.v1095 kernelRunA.sl.H14_13
  rw [View.readCov_cons_toLoadRect]
  refine Eq.trans ?_ (rowsOf_w c tbl i sim x2 x3 (zeroAcc) 11 (by decide)).symm
  unfold kernelRunA.sl.r_110 kernelRunA.sl.r_104 kernelRunA.sl.r_105 kernelRunA.sl.r_106
  simp only [V14_11 c i M2 hM2 M3 hM3 tbl hT sim x2 x3 b9 b10 a12 a13 a14 a15 a16 a17, S_v954 c i tbl hT sim b10, mk_read M3 hM3 x3 11 (by decide)]
  try rfl
theorem V12_13 : kernelRunA.sl.v1169 c M3 hM3 x3 = (rowsOf c tbl i sim x2 x3 (zeroAcc) 13).m := by
  unfold kernelRunA.sl.v1169 kernelRunA.sl.H12_14
  rw [View.readCov_cons_toLoadRect]
  refine Eq.trans ?_ (rowsOf_m c tbl i sim x2 x3 (zeroAcc) 12 (by decide)).symm
  unfold kernelRunA.sl.r_121 kernelRunA.sl.r_113
  simp only [V12_12 c i M2 hM2 M3 hM3 tbl hT sim x2 x3 b9 b10 a12 a13 a14 a15 a16 a17, mk_read M3 hM3 x3 12 (by decide)]
  try rfl
theorem V13_13 : kernelRunA.sl.v1174 c i M2 hM2 M3 hM3 tbl x2 x3 = (rowsOf c tbl i sim x2 x3 (zeroAcc) 13).logp := by
  unfold kernelRunA.sl.v1174 kernelRunA.sl.H13_14
  rw [View.readCov_cons_toLoadRect]
  refine Eq.trans ?_ (rowsOf_logp c tbl i sim x2 x3 (zeroAcc) 12 (by decide)).symm
  unfold kernelRunA.sl.r_115 kernelRunA.sl.r_118 kernelRunA.sl.r_113 kernelRunA.sl.r_112
  simp only [W_r_114 c i tbl, V13_12 c i M2 hM2 M3 hM3 tbl hT sim x2 x3 b9 b10 a12 a13 a14 a15 a16 a17, in_read M2 hM2 x2 12 (by decide), mk_read M3 hM3 x3 12 (by decide)]
  try rfl
theorem V14_13 : kernelRunA.sl.v1180 c i M3 hM3 tbl hT sim x3 b9 b10 = (rowsOf c tbl i sim x2 x3 (zeroAcc) 13).w := by
  unfold kernelRunA.sl.v1180 kernelRunA.sl.H14_14
  rw [View.readCov_cons_toLoadRect]
  refine Eq.trans ?_ (rowsOf_w c tbl i sim x2 x3 (zeroAcc) 12 (by decide)).symm
  unfold kernelRunA.sl.r_116 kernelRunA.sl.r_113
  simp only [S_v1039 c i tbl hT sim b9, V14_12 c i M2 hM2 M3 hM3 tbl hT sim x2 x3 b9 b10 a12 a13 a14 a15 a16 a17, mk_read M3 hM3 x3 12 (by decide)]
  try rfl
theorem V12_14 : kernelRunA.sl.v1254 c M3 hM3 x3 = (rowsOf c tbl i sim x2 x3 (zeroAcc) 14).m := by
  unfold kernelRunA.sl.v1254 kernelRunA.sl.H12_15
  rw [View.readCov_cons_toLoadRect]
  refine Eq.trans ?_ (rowsOf_m c tbl i sim x2 x3 (zeroAcc) 13 (by decide)).symm
  unfold kernelRunA.sl.r_125
  simp only [V12_13 c i M2 hM2 M3 hM3 tbl hT sim x2 x3 b9 b10 a12 a13 a14 a15 a16 a17, mk_read M3 hM3 x3 13 (by decide)]
  try rfl
theorem V13_14 : kernelRunA.sl.v1259 c i M2 hM2 M3 hM3 tbl x2 x3 = (rowsOf c tbl i sim x2 x3 (zeroAcc) 14).logp := by
  unfold kernelRunA.sl.v1259 kernelRunA.sl.H13_15
  rw [View.readCov_cons_toLoadRect]
  refine Eq.trans ?_ (rowsOf_logp c tbl i sim x2 x3 (zeroAcc) 13 (by decide)).symm
  unfold kernelRunA.sl.r_124 kernelRunA.sl.r_125 kernelRunA.sl.r_129
  simp only [W_r_123 c i tbl, V13_13 c i M2 hM2 M3 hM3 tbl hT sim x2 x3 b9 b10 a12 a13 a14 a15 a16 a17, in_read M2 hM2 x2 13 (by decide), mk_read M3 hM3 x3 13 (by decide)]
  try rfl
theorem V14_14 : kernelRunA.sl.v1265 c i M3 hM3 tbl hT sim x3 b9 b10 = (rowsOf c tbl i sim x2 x3 (zeroAcc) 14).w := by
  unfold kernelRunA.sl.v1265 kernelRunA.sl.H14_15
  rw [View.readCov_cons_toLoadRect]
  refine Eq.trans ?_ (rowsOf_w c tbl i sim x2 x3 (zeroAcc) 13 (by decide)).symm
  unfold kernelRunA.sl.r_127
  simp only [S_v1124 c i tbl hT sim b10, V14_13 c i M2 hM2 M3 hM3 tbl hT sim x2 x3 b9 b10 a12 a13 a14 a15 a16 a17, mk_read M3 hM3 x3 13 (by decide)]
  try rfl
theorem V12_15 : kernelRunA.sl.v1339 c M3 hM3 x3 = (rowsOf c tbl i sim x2 x3 (zeroAcc) 15).m := by
  unfold kernelRunA.sl.v1339 kernelRunA.sl.H12_16
  rw [View.readCov_cons_toLoadRect]
  refine Eq.trans ?_ (rowsOf_m c tbl i sim x2 x3 (zeroAcc) 14 (by decide)).symm
  unfold kernelRunA.sl.r_135
  simp only [V12_14 c i M2 hM2 M3 hM3 tbl hT sim x2 x3 b9 b10 a12 a13 a14 a15 a16 a17, mk_read M3 hM3 x3 14 (by decide)]
  try rfl
theorem V13_15 : kernelRunA.sl.v1344 c i M2 hM2 M3 hM3 tbl x2 x3 = (rowsOf c tbl i sim x2 x3 (zeroAcc) 15).logp := by
  unfold kernelRunA.sl.v1344 kernelRunA.sl.H13_16
  rw [View.readCov_cons_toLoadRect]
  refine Eq.trans ?_ (rowsOf_logp c tbl i sim x2 x3 (zeroAcc) 14 (by decide)).symm
  unfold kernelRunA.sl.r_134 kernelRunA.sl.r_135
  simp only [W_r_133 c i tbl, V13_14 c i M2 hM2 M3 hM3 tbl hT sim x2 x3 b9 b10 a12 a13 a14 a15 a16 a17, in_read M2 hM2 x2 14 (by decide), mk_read M3 hM3 x3 14 (by decide)]
  try rfl
theorem V14_15 : kernelRunA.sl.v1350 c i M3 hM3 tbl hT sim x3 b9 b10 = (rowsOf c tbl i sim x2 x3 (zeroAcc) 15).w := by
  unfold kernelRunA.sl.v1350 kernelRunA.sl.H14_16
  rw [View.readCov_cons_toLoadRect]
  refine Eq.trans ?_ (rowsOf_w c tbl i sim x2 x3 (zeroAcc) 14 (by decide)).symm
  unfold kernelRunA.sl.r_141 kernelRunA.sl.r_135 kernelRunA.sl.r_136 kernelRunA.sl.r_137
  simp only [S_v1209 c i tbl hT sim b9, V14_14 c i M2 hM2 M3 hM3 tbl hT sim x2 x3 b9 b10 a12 a13 a14 a15 a16 a17, mk_read M3 hM3 x3 14 (by decide)]
  try rfl
theorem V12_16 : kernelRunA.sl.v1424 c M3 hM3 x3 = (rowsOf c tbl i sim x2 x3 (zeroAcc) 16).m := by
  unfold kernelRunA.sl.v1424 kernelRunA.sl.H12_17
  rw [View.readCov_cons_toLoadRect]
  refine Eq.trans ?_ (rowsOf_m c tbl i sim x2 x3 (zeroAcc) 15 (by decide)).symm
  unfold kernelRunA.sl.r_151
  simp only [V12_15 c i M2 hM2 M3 hM3 tbl hT sim x2 x3 b9 b10 a12 a13 a14 a15 a16 a17, mk_read M3 hM3 x3 15 (by decide)]
  try rfl
theorem V13_16 : kernelRunA.sl.v1429 c i M2 hM2 M3 hM3 tbl x2 x3 = (rowsOf c tbl i sim x2 x3 (zeroAcc) 16).logp := by
  unfold kernelRunA.sl.v1429 kernelRunA.sl.H13_17
  rw [View.readCov_cons_toLoadRect]
  refine Eq.trans ?_ (rowsOf_logp c tbl i sim x2 x3 (zeroAcc) 15 (by decide)).symm
  unfold kernelRunA.sl.r_145 kernelRunA.sl.r_148 kernelRunA.sl.r_143
  simp only [W_r_144 c i tbl, V13_15 c i M2 hM2 M3 hM3 tbl hT sim x2 x3 b9 b10 a12 a13 a14 a15 a16 a17, in_read M2 hM2 x2 15 (by decide), mk_read M3 hM3 x3 15 (by decide)]
  try rfl
theorem V14_16 : kernelRunA.sl.v1435 c i M3 hM3 tbl hT sim x3 b9 b10 = (rowsOf c tbl i sim x2 x3 (zeroAcc) 16).w := by
  unfold kernelRunA.sl.v1435 kernelRunA.sl.H14_17
  rw [View.readCov_cons_toLoadRect]
  refine Eq.trans ?_ (rowsOf_w c tbl i sim x2 x3 (zeroAcc) 15 (by decide)).symm
  unfold kernelRunA.sl.r_146
  simp only [S_v1294 c i tbl hT sim b10, V14_15 c i M2 hM2 M3 hM3 tbl hT sim x2 x3 b9 b10 a12 a13 a14 a15 a16 a17, mk_read M3 hM3 x3 15 (by decide)]
  try rfl
theorem V12_17 : kernelRunA.sl.v1509 c M3 hM3 x3 = (rowsOf c tbl i sim x2 x3 (zeroAcc) 17).m := by
  unfold kernelRunA.sl.v1509 kernelRunA.sl.H12_18
  rw [View.readCov_cons_toLoadRect]
  refine Eq.trans ?_ (rowsOf_m c tbl i sim x2 x3 (zeroAcc) 16 (by decide)).symm
  unfold kernelRunA.sl.r_155
  simp only [V12_16 c i M2 hM2 M3 hM3 tbl hT sim x2 x3 b9 b10 a12 a13 a14 a15 a16 a17, mk_read M3 hM3 x3 16 (by decide)]
  try rfl
theorem V13_17 : kernelRunA.sl.v1514 c i M2 hM2 M3 hM3 tbl x2 x3 = (rowsOf c tbl i sim x2 x3 (zeroAcc) 17).logp := by
  unfold kernelRunA.sl.v1514 kernelRunA.sl.H13_18
  rw [View.readCov_cons_toLoadRect]
  refine Eq.trans ?_ (rowsOf_logp c tbl i sim x2 x3 (zeroAcc) 16 (by decide)).symm
  unfold kernelRunA.sl.r_154 kernelRunA.sl.r_155
  simp only [W_r_153 c i tbl, V13_16 c i M2 hM2 M3 hM3 tbl hT sim x2 x3 b9 b10 a12 a13 a14 a15 a16 a17, in_read M2 hM2 x2 16 (by decide), mk_read M3 hM3 x3 16 (by decide)]
  try rfl
theorem V14_17 : kernelRunA.sl.v1520 c i M3 hM3 tbl hT sim x3 b9 b10 = (rowsOf c tbl i sim x2 x3 (zeroAcc) 17).w := by
  unfold kernelRunA.sl.v1520 kernelRunA.sl.H14_18
  rw [View.readCov_cons_toLoadRect]
  refine Eq.trans ?_ (rowsOf_w c tbl i sim x2 x3 (zeroAcc) 16 (by decide)).symm
  unfold kernelRunA.sl.r_157
  simp only [S_v1379 c i tbl hT sim b9, V14_16 c i M2 hM2 M3 hM3 tbl hT sim x2 x3 b9 b10 a12 a13 a14 a15 a16 a17, mk_read M3 hM3 x3 16 (by decide)]
  try rfl
theorem V12_18 : kernelRunA.sl.v1594 c M3 hM3 x3 = (rowsOf c tbl i sim x2 x3 (zeroAcc) 18).m := by
  unfold kernelRunA.sl.v1594 kernelRunA.sl.H12_19
  rw [View.readCov_cons_toLoadRect]
  refine Eq.trans ?_ (rowsOf_m c tbl i sim x2 x3 (zeroAcc) 17 (by decide)).symm
  unfold kernelRunA.sl.r_164
  simp only [V12_17 c i M2 hM2 M3 hM3 tbl hT sim x2 x3 b9 b10 a12 a13 a14 a15 a16 a17, mk_read M3 hM3 x3 17 (by decide)]
  try rfl
theorem V13_18 : kernelRunA.sl.v1599 c i M2 hM2 M3 hM3 tbl x2 x3 = (rowsOf c tbl i sim x2 x3 (zeroAcc) 18).logp := by
  unfold kernelRunA.sl.v1599 kernelRunA.sl.H13_19
  rw [View.readCov_cons_toLoadRect]
  refine Eq.trans ?_ (rowsOf_logp c tbl i sim x2 x3 (zeroAcc) 17 (by decide)).symm
  unfold kernelRunA.sl.r_163 kernelRunA.sl.r_164
  simp only [W_r_162 c i tbl, V13_17 c i M2 hM2 M3 hM3 tbl hT sim x2 x3 b9 b10 a12 a13 a14 a15 a16 a17, in_read M2 hM2 x2 17 (by decide), mk_read M3 hM3 x3 17 (by decide)]
  try rfl
theorem V14_18 : kernelRunA.sl.v1605 c i M3 hM3 tbl hT sim x3 b9 b10 = (rowsOf c tbl i sim x2 x3 (zeroAcc) 18).w := by
  unfold kernelRunA.sl.v1605 kernelRunA.sl.H14_19
  rw [View.readCov_cons_toLoadRect]
  refine Eq.trans ?_ (rowsOf_w c tbl i sim x2 x3 (zeroAcc) 17 (by decide)).symm
  unfold kernelRunA.sl.r_167 kernelRunA.sl.r_164 kernelRunA.sl.r_165 kernelRunA.sl.r_166 kernelRunA.sl.cst_781
  simp only [S_v1464 c i tbl hT sim b10, V14_17 c i M2 hM2 M3 hM3 tbl hT sim x2 x3 b9 b10 a12 a13 a14 a15 a16 a17, mk_read M3 hM3 x3 17 (by decide)]
  try rfl
theorem V12_19 : kernelRunA.sl.v1679 c M3 hM3 x3 = (rowsOf c tbl i sim x2 x3 (zeroAcc) 19).m := by
  unfold kernelRunA.sl.v1679 kernelRunA.sl.H12_20
  rw [View.readCov_cons_toLoadRect]
  refine Eq.trans ?_ (rowsOf_m c tbl i sim x2 x3 (zeroAcc) 18 (by decide)).symm
  unfold kernelRunA.sl.r_173
  simp only [V12_18 c i M2 hM2 M3 hM3 tbl hT sim x2 x3 b9 b10 a12 a13 a14 a15 a16 a17, mk_read M3 hM3 x3 18 (by decide)]
  try rfl
theorem V13_19 : kernelRunA.sl.v1684 c i M2 hM2 M3 hM3 tbl x2 x3 = (rowsOf c tbl i sim x2 x3 (zeroAcc) 19).logp := by
  unfold kernelRunA.sl.v1684 kernelRunA.sl.H13_20
  rw [View.readCov_cons_toLoadRect]
  refine Eq.trans ?_ (rowsOf_logp c tbl i sim x2 x3 (zeroAcc) 18 (by decide)).symm
  unfold kernelRunA.sl.r_173 kernelRunA.sl.r_176
  simp only [W_r_172 c i tbl, V13_18 c i M2 hM2 M3 hM3 tbl hT sim x2 x3 b9 b10 a12 a13 a14 a15 a16 a17, in_read M2 hM2 x2 18 (by decide), mk_read M3 hM3 x3 18 (by decide)]
  try rfl
theorem V14_19 : kernelRunA.sl.v1690 c i M3 hM3 tbl hT sim x3 b9 b10 = (rowsOf c tbl i sim x2 x3 (zeroAcc) 19).w := by
  unfold kernelRunA.sl.v1690 kernelRunA.sl.H14_20
  rw [View.readCov_cons_toLoadRect]
  refine Eq.trans ?_ (rowsOf_w c tbl i sim x2 x3 (zeroAcc) 18 (by decide)).symm
  unfold kernelRunA.sl.r_174
  simp only [S_v c i tbl hT sim b9, V14_18 c i M2 hM2 M3 hM3 tbl hT sim x2 x3 b9 b10 a12 a13 a14 a15 a16 a17, mk_read M3 hM3 x3 18 (by decide)]
  try rfl
theorem V12_20 : kernelRunA.sl.v1764 c M3 hM3 x3 = (rowsOf c tbl i sim x2 x3 (zeroAcc) 20).m := by
  unfold kernelRunA.sl.v1764 kernelRunA.sl.H12_21
  rw [View.readCov_cons_toLoadRect]
  refine Eq.trans ?_ (rowsOf_m c tbl i sim x2 x3 (zeroAcc) 19 (by decide)).symm
  unfold kernelRunA.sl.r_182
  simp only [V12_19 c i M2 hM2 M3 hM3 tbl hT sim x2 x3 b9 b10 a12 a13 a14 a15 a16 a17, mk_read M3 hM3 x3 19 (by decide)]
  try rfl
theorem V13_20 : kernelRunA.sl.v1769 c i M2 hM2 M3 hM3 tbl x2 x3 = (rowsOf c tbl i sim x2 x3 (zeroAcc) 20).logp := by
  unfold kernelRunA.sl.v1769 kernelRunA.sl.H13_21
  rw [View.readCov_cons_toLoadRect]
  refine Eq.trans ?_ (rowsOf_logp c tbl i sim x2 x3 (zeroAcc) 19 (by decide)).symm
  unfold kernelRunA.sl.r_181 kernelRunA.sl.r_182
  simp only [W_r_180 c i tbl, V13_19 c i M2 hM2 M3 hM3 tbl hT sim x2 x3 b9 b10 a12 a13 a14 a15 a16 a17, in_read M2 hM2 x2 19 (by decide), mk_read M3 hM3 x3 19 (by decide)]
  try rfl
theorem V14_20 : kernelRunA.sl.v1775 c i M3 hM3 tbl hT sim x3 b9 b10 = (rowsOf c tbl i sim x2 x3 (zeroAcc) 20).w := by
  unfold kernelRunA.sl.v1775 kernelRunA.sl.H14_21
  rw [View.readCov_cons_toLoadRect]
  refine Eq.trans ?_ (rowsOf_w c tbl i sim x2 x3 (zeroAcc) 19 (by decide)).symm
  unfold kernelRunA.sl.r_184
  simp only [S_v1634 c i tbl hT sim b10, V14_19 c i M2 hM2 M3 hM3 tbl hT sim x2 x3 b9 b10 a12 a13 a14 a15 a16 a17, mk_read M3 hM3 x3 19 (by decide)]
  try rfl
theorem V12_21 : kernelRunA.sl.v1849 c M3 hM3 x3 = (rowsOf c tbl i sim x2 x3 (zeroAcc) 21).m := by
  unfold kernelRunA.sl.v1849 kernelRunA.sl.H12_22
  rw [View.readCov_cons_toLoadRect]
  refine Eq.trans ?_ (rowsOf_m c tbl i sim x2 x3 (zeroAcc) 20 (by decide)).symm
  unfold kernelRunA.sl.r_191
  simp only [V12_20 c i M2 hM2 M3 hM3 tbl hT sim x2 x3 b9 b10 a12 a13 a14 a15 a16 a17, mk_read M3 hM3 x3 20 (by decide)]
  try rfl
theorem V13_21 : kernelRunA.sl.v1854 c i M2 hM2 M3 hM3 tbl x2 x3 = (rowsOf c tbl i sim x2 x3 (zeroAcc) 21).logp := by
  unfold kernelRunA.sl.v1854 kernelRunA.sl.H13_22
  rw [View.readCov_cons_toLoadRect]
  refine Eq.trans ?_ (rowsOf_logp c tbl i sim x2 x3 (zeroAcc) 20 (by decide)).symm
  unfold kernelRunA.sl.r_197 kernelRunA.sl.r_190 kernelRunA.sl.r_191
  simp only [W_r_189 c i tbl, V13_20 c i M2 hM2 M3 hM3 tbl hT sim x2 x3 b9 b10 a12 a13 a14 a15 a16 a17, in_read M2 hM2 x2 20 (by decide), mk_read M3 hM3 x3 20 (by decide)]
  try rfl
theorem V14_21 : kernelRunA.sl.v1860 c i M3 hM3 tbl hT sim x3 b9 b10 = (rowsOf c tbl i sim x2 x3 (zeroAcc) 21).w := by
  unfold kernelRunA.sl.v1860 kernelRunA.sl.H14_22
  rw [View.readCov_cons_toLoadRect]
  refine Eq.trans ?_ (rowsOf_w c tbl i sim x2 x3 (zeroAcc) 20 (by decide)).symm
  unfold kernelRunA.sl.r_193 kernelRunA.sl.r_191 kernelRunA.sl.r_192 kernelRunA.sl.cst_15
  simp only [S_v1719 c i tbl hT sim b9, V14_20 c i M2 hM2 M3 hM3 tbl hT sim x2 x3 b9 b10 a12 a13 a14 a15 a16 a17, mk_read M3 hM3 x3 20 (by decide)]
  try rfl
theorem V12_22 : kernelRunA.sl.v1934 c M3 hM3 x3 = (rowsOf c tbl i sim x2 x3 (zeroAcc) 22).m := by
  unfold kernelRunA.sl.v1934 kernelRunA.sl.H12_23
  rw [View.readCov_cons_toLoadRect]
  refine Eq.trans ?_ (rowsOf_m c tbl i sim x2 x3 (zeroAcc) 21 (by decide)).symm
  unfold kernelRunA.sl.r_200
  simp only [V12_21 c i M2 hM2 M3 hM3 tbl hT sim x2 x3 b9 b10 a12 a13 a14 a15 a16 a17, mk_read M3 hM3 x3 21 (by decide)]
  try rfl
theorem V13_22 : kernelRunA.sl.v1939 c i M2 hM2 M3 hM3 tbl x2 x3 = (rowsOf c tbl i sim x2 x3 (zeroAcc) 22).logp := by
  unfold kernelRunA.sl.v1939 kernelRunA.sl.H13_23
  rw [View.readCov_cons_toLoadRect]
  refine Eq.trans ?_ (rowsOf_logp c tbl i sim x2 x3 (zeroAcc) 21 (by decide)).symm
  unfold kernelRunA.sl.r_200 kernelRunA.sl.r_203
  simp only [W_r_199 c i tbl, V13_21 c i M2 hM2 M3 hM3 tbl hT sim x2 x3 b9 b10 a12 a13 a14 a15 a16 a17, in_read M2 hM2 x2 21 (by decide), mk_read M3 hM3 x3 21 (by decide)]
  try rfl
theorem V14_22 : kernelRunA.sl.v1945 c i M3 hM3 tbl hT sim x3 b9 b10 = (rowsOf c tbl i sim x2 x3 (zeroAcc) 22).w := by
  unfold kernelRunA.sl.v1945 kernelRunA.sl.H14_23
  rw [View.readCov_cons_toLoadRect]
  refine Eq.trans ?_ (rowsOf_w c tbl i sim x2 x3 (zeroAcc) 21 (by decide)).symm
  unfold kernelRunA.sl.r_201
  simp only [S_v1804 c i tbl hT sim b10, V14_21 c i M2 hM2 M3 hM3 tbl hT sim x2 x3 b9 b10 a12 a13 a14 a15 a16 a17, mk_read M3 hM3 x3 21 (by decide)]
  try rfl
theorem V12_23 : kernelRunA.sl.v2019 c M3 hM3 x3 = (rowsOf c tbl i sim x2 x3 (zeroAcc) 23).m := by
  unfold kernelRunA.sl.v2019 kernelRunA.sl.H12_24
  rw [View.readCov_cons_toLoadRect]
  refine Eq.trans ?_ (rowsOf_m c tbl i sim x2 x3 (zeroAcc) 22 (by decide)).symm
  unfold kernelRunA.sl.r_210
  simp only [V12_22 c i M2 hM2 M3 hM3 tbl hT sim x2 x3 b9 b10 a12 a13 a14 a15 a16 a17, mk_read M3 hM3 x3 22 (by decide)]
  try rfl
theorem V13_23 : kernelRunA.sl.v2024 c i M2 hM2 M3 hM3 tbl x2 x3 = (rowsOf c tbl i sim x2 x3 (zeroAcc) 23).logp := by
  unfold kernelRunA.sl.v2024 kernelRunA.sl.H13_24
  rw [View.readCov_cons_toLoadRect]
  refine Eq.trans ?_ (rowsOf_logp c tbl i sim x2 x3 (zeroAcc) 22 (by decide)).symm
  unfold kernelRunA.sl.r_209 kernelRunA.sl.r_210
  simp only [W_r_208 c i tbl, V13_22 c i M2 hM2 M3 hM3 tbl hT sim x2 x3 b9 b10 a12 a13 a14 a15 a16 a17, in_read M2 hM2 x2 22 (by decide), mk_read M3 hM3 x3 22 (by decide)]
  try rfl
theorem V14_23 : kernelRunA.sl.v2030 c i M3 hM3 tbl hT sim x3 b9 b10 = (rowsOf c tbl i sim x2 x3 (zeroAcc) 23).w := by
  unfold kernelRunA.sl.v2030 kernelRunA.sl.H14_24
  rw [View.readCov_cons_toLoadRect]
  refine Eq.trans ?_ (rowsOf_w c tbl i sim x2 x3 (zeroAcc) 22 (by decide)).symm
  unfold kernelRunA.sl.r_213
  simp only [S_v1889 c i tbl hT sim b9, V14_22 c i M2 hM2 M3 hM3 tbl hT sim x2 x3 b9 b10 a12 a13 a14 a15 a16 a17, mk_read M3 hM3 x3 22 (by decide)]
  try rfl
theorem V12_24 : kernelRunA.sl.v2104 c M3 hM3 x3 = (rowsOf c tbl i sim x2 x3 (zeroAcc) 24).m := by
  unfold kernelRunA.sl.v2104 kernelRunA.sl.H12_25
  rw [View.readCov_cons_toLoadRect]
  refine Eq.trans ?_ (rowsOf_m c tbl i sim x2 x3 (zeroAcc) 23 (by decide)).symm
  unfold kernelRunA.sl.r_220
  simp only [V12_23 c i M2 hM2 M3 hM3 tbl hT sim x2 x3 b9 b10 a12 a13 a14 a15 a16 a17, mk_read M3 hM3 x3 23 (by decide)]
  try rfl
theorem V13_24 : kernelRunA.sl.v2109 c i M2 hM2 M3 hM3 tbl x2 x3 = (rowsOf c tbl i sim x2 x3 (zeroAcc) 24).logp := by
  unfold kernelRunA.sl.v2109 kernelRunA.sl.H13_25
  rw [View.readCov_cons_toLoadRect]
  refine Eq.trans ?_ (rowsOf_logp c tbl i sim x2 x3 (zeroAcc) 23 (by decide)).symm
  unfold kernelRunA.sl.r_226 kernelRunA.sl.r_219 kernelRunA.sl.r_220
  simp only [W_r_218 c i tbl, V13_23 c i M2 hM2 M3 hM3 tbl hT sim x2 x3 b9 b10 a12 a13 a14 a15 a16 a17, in_read M2 hM2 x2 23 (by decide), mk_read M3 hM3 x3 23 (by decide)]
  try rfl
theorem V14_24 : kernelRunA.sl.v2115 c i M3 hM3 tbl hT sim x3 b9 b10 = (rowsOf c tbl i sim x2 x3 (zeroAcc) 24).w := by
  unfold kernelRunA.sl.v2115 kernelRunA.sl.H14_25
  rw [View.readCov_cons_toLoadRect]
  refine Eq.trans ?_ (rowsOf_w c tbl i sim x2 x3 (zeroAcc) 23 (by decide)).symm
  unfold kernelRunA.sl.r_222 kernelRunA.sl.r_220 kernelRunA.sl.r_221
  simp only [S_v1974 c i tbl hT sim b10, V14_23 c i M2 hM2 M3 hM3 tbl hT sim x2 x3 b9 b10 a12 a13 a14 a15 a16 a17, mk_read M3 hM3 x3 23 (by decide)]
  try rfl
theorem V12_25 : kernelRunA.sl.v2189 c M3 hM3 x3 = (rowsOf c tbl i sim x2 x3 (zeroAcc) 25).m := by
  unfold kernelRunA.sl.v2189 kernelRunA.sl.H12_26
  rw [View.readCov_cons_toLoadRect]
  refine Eq.trans ?_ (rowsOf_m c tbl i sim x2 x3 (zeroAcc) 24 (by decide)).symm
  unfold kernelRunA.sl.r_229
  simp only [V12_24 c i M2 hM2 M3 hM3 tbl hT sim x2 x3 b9 b10 a12 a13 a14 a15 a16 a17, mk_read M3 hM3 x3 24 (by decide)]
  try rfl
theorem V13_25 : kernelRunA.sl.v2194 c i M2 hM2 M3 hM3 tbl x2 x3 = (rowsOf c tbl i sim x2 x3 (zeroAcc) 25).logp := by
  unfold kernelRunA.sl.v2194 kernelRunA.sl.H13_26
  rw [View.readCov_cons_toLoadRect]
  refine Eq.trans ?_ (rowsOf_logp c tbl i sim x2 x3 (zeroAcc) 24 (by decide)).symm
  unfold kernelRunA.sl.r_229 kernelRunA.sl.r_233
  simp only [W_r_228 c i tbl, V13_24 c i M2 hM2 M3 hM3 tbl hT sim x2 x3 b9 b10 a12 a13 a14 a15 a16 a17, in_read M2 hM2 x2 24 (by decide), mk_read M3 hM3 x3 24 (by decide)]
  try rfl
theorem V14_25 : kernelRunA.sl.v2200 c i M3 hM3 tbl hT sim x3 b9 b10 = (rowsOf c tbl i sim x2 x3 (zeroAcc) 25).w := by
  unfold kernelRunA.sl.v2200 kernelRunA.sl.H14_26
  rw [View.readCov_cons_toLoadRect]
  refine Eq.trans ?_ (rowsOf_w c tbl i sim x2 x3 (zeroAcc) 24 (by decide)).symm
  unfold kernelRunA.sl.r_231
  simp only [S_v2059 c i tbl hT sim b9, V14_24 c i M2 hM2 M3 hM3 tbl hT sim x2 x3 b9 b10 a12 a13 a14 a15 a16 a17, mk_read M3 hM3 x3 24 (by decide)]
  try rfl
theorem V12_26 : kernelRunA.sl.v2274 c M3 hM3 x3 = (rowsOf c tbl i sim x2 x3 (zeroAcc) 26).m := by
  unfold kernelRunA.sl.v2274 kernelRunA.sl.H12_27
  rw [View.readCov_cons_toLoadRect]
  refine Eq.trans ?_ (rowsOf_m c tbl i sim x2 x3 (zeroAcc) 25 (by decide)).symm
  unfold kernelRunA.sl.r_239
  simp only [V12_25 c i M2 hM2 M3 hM3 tbl hT sim x2 x3 b9 b10 a12 a13 a14 a15 a16 a17, mk_read M3 hM3 x3 25 (by decide)]
  try rfl
theorem V13_26 : kernelRunA.sl.v2279 c i M2 hM2 M3 hM3 tbl x2 x3 = (rowsOf c tbl i sim x2 x3 (zeroAcc) 26).logp := by
  unfold kernelRunA.sl.v2279 kernelRunA.sl.H13_27
  rw [View.readCov_cons_toLoadRect]
  refine Eq.trans ?_ (rowsOf_logp c tbl i sim x2 x3 (zeroAcc) 25 (by decide)).symm
  unfold kernelRunA.sl.r_238 kernelRunA.sl.r_239
  simp only [W_r_237 c i tbl, V13_25 c i M2 hM2 M3 hM3 tbl hT sim x2 x3 b9 b10 a12 a13 a14 a15 a16 a17, in_read M2 hM2 x2 25 (by decide), mk_read M3 hM3 x3 25 (by decide)]
  try rfl
theorem V14_26 : kernelRunA.sl.v2285 c i M3 hM3 tbl hT sim x3 b9 b10 = (rowsOf c tbl i sim x2 x3 (zeroAcc) 26).w := by
  unfold kernelRunA.sl.v2285 kernelRunA.sl.H14_27
  rw [View.readCov_cons_toLoadRect]
  refine Eq.trans ?_ (rowsOf_w c tbl i sim x2 x3 (zeroAcc) 25 (by decide)).symm
  unfold kernelRunA.sl.r_241
  simp only [S_v2144 c i tbl hT sim b10, V14_25 c i M2 hM2 M3 hM3 tbl hT sim x2 x3 b9 b10 a12 a13 a14 a15 a16 a17, mk_read M3 hM3 x3 25 (by decide)]
  try rfl
theorem V12_27 : kernelRunA.sl.v2359 c M3 hM3 x3 = (rowsOf c tbl i sim x2 x3 (zeroAcc) 27).m := by
  unfold kernelRunA.sl.v2359 kernelRunA.sl.H12_28
  rw [View.readCov_cons_toLoadRect]
  refine Eq.trans ?_ (rowsOf_m c tbl i sim x2 x3 (zeroAcc) 26 (by decide)).symm
  unfold kernelRunA.sl.r_248
  simp only [V12_26 c i M2 hM2 M3 hM3 tbl hT sim x2 x3 b9 b10 a12 a13 a14 a15 a16 a17, mk_read M3 hM3 x3 26 (by decide)]
  try rfl
theorem V13_27 : kernelRunA.sl.v2364 c i M2 hM2 M3 hM3 tbl x2 x3 = (rowsOf c tbl i sim x2 x3 (zeroAcc) 27).logp := by
  unfold kernelRunA.sl.v2364 kernelRunA.sl.H13_28
  rw [View.readCov_cons_toLoadRect]
  refine Eq.trans ?_ (rowsOf_logp c tbl i sim x2 x3 (zeroAcc) 26 (by decide)).symm
  unfold kernelRunA.sl.r_253 kernelRunA.sl.r_247 kernelRunA.sl.r_248
  simp only [W_r_246 c i tbl, V13_26 c i M2 hM2 M3 hM3 tbl hT sim x2 x3 b9 b10 a12 a13 a14 a15 a16 a17, in_read M2 hM2 x2 26 (by decide), mk_read M3 hM3 x3 26 (by decide)]
  try rfl
theorem V14_27 : kernelRunA.sl.v2370 c i M3 hM3 tbl hT sim x3 b9 b10 = (rowsOf c tbl i sim x2 x3 (zeroAcc) 27).w := by
  unfold kernelRunA.sl.v2370 kernelRunA.sl.H14_28
  rw [View.readCov_cons_toLoadRect]
  refine Eq.trans ?_ (rowsOf_w c tbl i sim x2 x3 (zeroAcc) 26 (by decide)).symm
  unfold kernelRunA.sl.r_249 kernelRunA.sl.r_248 kernelRunA.sl.cst_284
  simp only [S_v2229 c i tbl hT sim b9, V14_26 c i M2 hM2 M3 hM3 tbl hT sim x2 x3 b9 b10 a12 a13 a14 a15 a16 a17, mk_read M3 hM3 x3 26 (by decide)]
  try rfl
theorem V12_28 : kernelRunA.sl.v2444 c M3 hM3 x3 = (rowsOf c tbl i sim x2 x3 (zeroAcc) 28).m := by
  unfold kernelRunA.sl.v2444 kernelRunA.sl.H12_29
  rw [View.readCov_cons_toLoadRect]
  refine Eq.trans ?_ (rowsOf_m c tbl i sim x2 x3 (zeroAcc) 27 (by decide)).symm
  unfold kernelRunA.sl.r_256
  simp only [V12_27 c i M2 hM2 M3 hM3 tbl hT sim x2 x3 b9 b10 a12 a13 a14 a15 a16 a17, mk_read M3 hM3 x3 27 (by decide)]
  try rfl
theorem V13_28 : kernelRunA.sl.v2449 c i M2 hM2 M3 hM3 tbl x2 x3 = (rowsOf c tbl i sim x2 x3 (zeroAcc) 28).logp := by
  unfold kernelRunA.sl.v2449 kernelRunA.sl.H13_29
  rw [View.readCov_cons_toLoadRect]
  refine Eq.trans ?_ (rowsOf_logp c tbl i sim x2 x3 (zeroAcc) 27 (by decide)).symm
  unfold kernelRunA.sl.r_256 kernelRunA.sl.r_260
  simp only [W_r_255 c i tbl, V13_27 c i M2 hM2 M3 hM3 tbl hT sim x2 x3 b9 b10 a12 a13 a14 a15 a16 a17, in_read M2 hM2 x2 27 (by decide), mk_read M3 hM3 x3 27 (by decide)]
  try rfl
theorem V14_28 : kernelRunA.sl.v2455 c i M3 hM3 tbl hT sim x3 b9 b10 = (rowsOf c tbl i sim x2 x3 (zeroAcc) 28).w := by
  unfold kernelRunA.sl.v2455 kernelRunA.sl.H14_29
  rw [View.readCov_cons_toLoadRect]
  refine Eq.trans ?_ (rowsOf_w c tbl i sim x2 x3 (zeroAcc) 27 (by decide)).symm
  unfold kernelRunA.sl.r_258
  simp only [S_v2314 c i tbl hT sim b10, V14_27 c i M2 hM2 M3 hM3 tbl hT sim x2 x3 b9 b10 a12 a13 a14 a15 a16 a17, mk_read M3 hM3 x3 27 (by decide)]
  try rfl
theorem V12_29 : kernelRunA.sl.v2529 c M3 hM3 x3 = (rowsOf c tbl i sim x2 x3 (zeroAcc) 29).m := by
  unfold kernelRunA.sl.v2529 kernelRunA.sl.H12_30
  rw [View.readCov_cons_toLoadRect]
  refine Eq.trans ?_ (rowsOf_m c tbl i sim x2 x3 (zeroAcc) 28 (by decide)).symm
  unfold kernelRunA.sl.r_265
  simp only [V12_28 c i M2 hM2 M3 hM3 tbl hT sim x2 x3 b9 b10 a12 a13 a14 a15 a16 a17, mk_read M3 hM3 x3 28 (by decide)]
  try rfl
theorem V13_29 : kernelRunA.sl.v2534 c i M2 hM2 M3 hM3 tbl x2 x3 = (rowsOf c tbl i sim x2 x3 (zeroAcc) 29).logp := by
  unfold kernelRunA.sl.v2534 kernelRunA.sl.H13_30
  rw [View.readCov_cons_toLoadRect]
  refine Eq.trans ?_ (rowsOf_logp c tbl i sim x2 x3 (zeroAcc) 28 (by decide)).symm
  unfold kernelRunA.sl.r_264 kernelRunA.sl.r_265
  simp only [W_r_263 c i tbl, V13_28 c i M2 hM2 M3 hM3 tbl hT sim x2 x3 b9 b10 a12 a13 a14 a15 a16 a17, in_read M2 hM2 x2 28 (by decide), mk_read M3 hM3 x3 28 (by decide)]
  try rfl
theorem V14_29 : kernelRunA.sl.v2540 c i M3 hM3 tbl hT sim x3 b9 b10 = (rowsOf c tbl i sim x2 x3 (zeroAcc) 29).w := by
  unfold kernelRunA.sl.v2540 kernelRunA.sl.H14_30
  rw [View.readCov_cons_toLoadRect]
  refine Eq.trans ?_ (rowsOf_w c tbl i sim x2 x3 (zeroAcc) 28 (by decide)).symm
  unfold kernelRunA.sl.r_265 kernelRunA.sl.r_266
  simp only [S_v2399 c i tbl hT sim b9, V14_28 c i M2 hM2 M3 hM3 tbl hT sim x2 x3 b9 b10 a12 a13 a14 a15 a16 a17, mk_read M3 hM3 x3 28 (by decide)]
  try rfl
theorem V12_30 : kernelRunA.sl.v2614 c M3 hM3 x3 = (rowsOf c tbl i sim x2 x3 (zeroAcc) 30).m := by
  unfold kernelRunA.sl.v2614 kernelRunA.sl.H12_31
  rw [View.readCov_cons_toLoadRect]
  refine Eq.trans ?_ (rowsOf_m c tbl i sim x2 x3 (zeroAcc) 29 (by decide)).symm
  unfold kernelRunA.sl.r_272
  simp only [V12_29 c i M2 hM2 M3 hM3 tbl hT sim x2 x3 b9 b10 a12 a13 a14 a15 a16 a17, mk_read M3 hM3 x3 29 (by decide)]
  try rfl
theorem V13_30 : kernelRunA.sl.v2619 c i M2 hM2 M3 hM3 tbl x2 x3 = (rowsOf c tbl i sim x2 x3 (zeroAcc) 30).logp := by
  unfold kernelRunA.sl.v2619 kernelRunA.sl.H13_31
  rw [View.readCov_cons_toLoadRect]
  refine Eq.trans ?_ (rowsOf_logp c tbl i sim x2 x3 (zeroAcc) 29 (by decide)).symm
  unfold kernelRunA.sl.r_272 kernelRunA.sl.r_276 kernelRunA.sl.r_271
  simp only [W_r_273 c i tbl, V13_29 c i M2 hM2 M3 hM3 tbl hT sim x2 x3 b9 b10 a12 a13 a14 a15 a16 a17, in_read M2 hM2 x2 29 (by decide), mk_read M3 hM3 x3 29 (by decide)]
  try rfl
theorem V14_30 : kernelRunA.sl.v2625 c i M3 hM3 tbl hT sim x3 b9 b10 = (rowsOf c tbl i sim x2 x3 (zeroAcc) 30).w := by
  unfold kernelRunA.sl.v2625 kernelRunA.sl.H14_31
  rw [View.readCov_cons_toLoadRect]
  refine Eq.trans ?_ (rowsOf_w c tbl i sim x2 x3 (zeroAcc) 29 (by decide)).symm
  unfold kernelRunA.sl.r_274 kernelRunA.sl.r_272
  simp only [S_v2484 c i tbl hT sim b10, V14_29 c i M2 hM2 M3 hM3 tbl hT sim x2 x3 b9 b10 a12 a13 a14 a15 a16 a17, mk_read M3 hM3 x3 29 (by decide)]
  try rfl
theorem V12_31 : kernelRunA.sl.v2699 c M3 hM3 x3 = (rowsOf c tbl i sim x2 x3 (zeroAcc) 31).m := by
  unfold kernelRunA.sl.v2699 kernelRunA.sl.H12_32
  rw [View.readCov_cons_toLoadRect]
  refine Eq.trans ?_ (rowsOf_m c tbl i sim x2 x3 (zeroAcc) 30 (by decide)).symm
  unfold kernelRunA.sl.r_281
  simp only [V12_30 c i M2 hM2 M3 hM3 tbl hT sim x2 x3 b9 b10 a12 a13 a14 a15 a16 a17, mk_read M3 hM3 x3 30 (by decide)]
  try rfl
theorem V13_31 : kernelRunA.sl.v2704 c i M2 hM2 M3 hM3 tbl x2 x3 = (rowsOf c tbl i sim x2 x3 (zeroAcc) 31).logp := by
  unfold kernelRunA.sl.v2704 kernelRunA.sl.H13_32
  rw [View.readCov_cons_toLoadRect]
  refine Eq.trans ?_ (rowsOf_logp c tbl i sim x2 x3 (zeroAcc) 30 (by decide)).symm
  unfold kernelRunA.sl.r_281 kernelRunA.sl.r_285
  simp only [W_r_280 c i tbl, V13_30 c i M2 hM2 M3 hM3 tbl hT sim x2 x3 b9 b10 a12 a13 a14 a15 a16 a17, in_read M2 hM2 x2 30 (by decide), mk_read M3 hM3 x3 30 (by decide)]
  try rfl
theorem V14_31 : kernelRunA.sl.v2710 c i M3 hM3 tbl hT sim x3 b9 b10 = (rowsOf c tbl i sim x2 x3 (zeroAcc) 31).w := by
  unfold kernelRunA.sl.v2710 kernelRunA.sl.H14_32
  rw [View.readCov_cons_toLoadRect]
  refine Eq.trans ?_ (rowsOf_w c tbl i sim x2 x3 (zeroAcc) 30 (by decide)).symm
  unfold kernelRunA.sl.r_283
  simp only [S_v2569 c i tbl hT sim b9, V14_30 c i M2 hM2 M3 hM3 tbl hT sim x2 x3 b9 b10 a12 a13 a14 a15 a16 a17, mk_read M3 hM3 x3 30 (by decide)]
  try rfl
theorem V12_32 : kernelRunA.sl.v2784 c M3 hM3 x3 = (rowsOf c tbl i sim x2 x3 (zeroAcc) 32).m := by
  unfold kernelRunA.sl.v2784 kernelRunA.sl.H12_33
  rw [View.readCov_cons_toLoadRect]
  refine Eq.trans ?_ (rowsOf_m c tbl i sim x2 x3 (zeroAcc) 31 (by decide)).symm
  unfold kernelRunA.sl.r_291
  simp only [V12_31 c i M2 hM2 M3 hM3 tbl hT sim x2 x3 b9 b10 a12 a13 a14 a15 a16 a17, mk_read M3 hM3 x3 31 (by decide)]
  try rfl
theorem V13_32 : kernelRunA.sl.v2789 c i M2 hM2 M3 hM3 tbl x2 x3 = (rowsOf c tbl i sim x2 x3 (zeroAcc) 32).logp := by
  unfold kernelRunA.sl.v2789 kernelRunA.sl.H13_33
  rw [View.readCov_cons_toLoadRect]
  refine Eq.trans ?_ (rowsOf_logp c tbl i sim x2 x3 (zeroAcc) 31 (by decide)).symm
  unfold kernelRunA.sl.r_290 kernelRunA.sl.r_291
  simp only [W_r_289 c i tbl, V13_31 c i M2 hM2 M3 hM3 tbl hT sim x2 x3 b9 b10 a12 a13 a14 a15 a16 a17, in_read M2 hM2 x2 31 (by decide), mk_read M3 hM3 x3 31 (by decide)]
  try rfl
theorem V14_32 : kernelRunA.sl.v2795 c i M3 hM3 tbl hT sim x3 b9 b10 = (rowsOf c tbl i sim x2 x3 (zeroAcc) 32).w := by
  unfold kernelRunA.sl.v2795 kernelRunA.sl.H14_33
  rw [View.readCov_cons_toLoadRect]
  refine Eq.trans ?_ (rowsOf_w c tbl i sim x2 x3 (zeroAcc) 31 (by decide)).symm
  unfold kernelRunA.sl.r_297 kernelRunA.sl.r_291 kernelRunA.sl.r_292 kernelRunA.sl.r_293
  simp only [S_v2654 c i tbl hT sim b10, V14_31 c i M2 hM2 M3 hM3 tbl hT sim x2 x3 b9 b10 a12 a13 a14 a15 a16 a17, mk_read M3 hM3 x3 31 (by decide)]
  try rfl
theorem V12_33 : kernelRunA.sl.v2869 c M3 hM3 x3 = (rowsOf c tbl i sim x2 x3 (zeroAcc) 33).m := by
  unfold kernelRunA.sl.v2869 kernelRunA.sl.H12_34
  rw [View.readCov_cons_toLoadRect]
  refine Eq.trans ?_ (rowsOf_m c tbl i sim x2 x3 (zeroAcc) 32 (by decide)).symm
  unfold kernelRunA.sl.r_308 kernelRunA.sl.r_300
  simp only [V12_32 c i M2 hM2 M3 hM3 tbl hT sim x2 x3 b9 b10 a12 a13 a14 a15 a16 a17, mk_read M3 hM3 x3 32 (by decide)]
  try rfl
theorem V13_33 : kernelRunA.sl.v2874 c i M2 hM2 M3 hM3 tbl x2 x3 = (rowsOf c tbl i sim x2 x3 (zeroAcc) 33).logp := by
  unfold kernelRunA.sl.v2874 kernelRunA.sl.H13_34
  rw [View.readCov_cons_toLoadRect]
  refine Eq.trans ?_ (rowsOf_logp c tbl i sim x2 x3 (zeroAcc) 32 (by decide)).symm
  unfold kernelRunA.sl.r_302 kernelRunA.sl.r_305 kernelRunA.sl.r_300 kernelRunA.sl.r_299
  simp only [W_r_301 c i tbl, V13_32 c i M2 hM2 M3 hM3 tbl hT sim x2 x3 b9 b10 a12 a13 a14 a15 a16 a17, in_read M2 hM2 x2 32 (by decide), mk_read M3 hM3 x3 32 (by decide)]
  try rfl
theorem V14_33 : kernelRunA.sl.v2880 c i M3 hM3 tbl hT sim x3 b9 b10 = (rowsOf c tbl i sim x2 x3 (zeroAcc) 33).w := by
  unfold kernelRunA.sl.v2880 kernelRunA.sl.H14_34
  rw [View.readCov_cons_toLoadRect]
  refine Eq.trans ?_ (rowsOf_w c tbl i sim x2 x3 (zeroAcc) 32 (by decide)).symm
  unfold kernelRunA.sl.r_303 kernelRunA.sl.r_300
  simp only [S_v2739 c i tbl hT sim b9, V14_32 c i M2 hM2 M3 hM3 tbl hT sim x2 x3 b9 b10 a12 a13 a14 a15 a16 a17, mk_read M3 hM3 x3 32 (by decide)]
  try rfl
theorem V12_34 : kernelRunA.sl.v2954 c M3 hM3 x3 = (rowsOf c tbl i sim x2 x3 (zeroAcc) 34).m := by
  unfold kernelRunA.sl.v2954 kernelRunA.sl.H12_35
  rw [View.readCov_cons_toLoadRect]
  refine Eq.trans ?_ (rowsOf_m c tbl i sim x2 x3 (zeroAcc) 33 (by decide)).symm
  unfold kernelRunA.sl.r_312
  simp only [V12_33 c i M2 hM2 M3 hM3 tbl hT sim x2 x3 b9 b10 a12 a13 a14 a15 a16 a17, mk_read M3 hM3 x3 33 (by decide)]
  try rfl
theorem V13_34 : kernelRunA.sl.v2959 c i M2 hM2 M3 hM3 tbl x2 x3 = (rowsOf c tbl i sim x2 x3 (zeroAcc) 34).logp := by
  unfold kernelRunA.sl.v2959 kernelRunA.sl.H13_35
  rw [View.readCov_cons_toLoadRect]
  refine Eq.trans ?_ (rowsOf_logp c tbl i sim x2 x3 (zeroAcc) 33 (by decide)).symm
  unfold kernelRunA.sl.r_311 kernelRunA.sl.r_312 kernelRunA.sl.r_316
  simp only [W_r_310 c i tbl, V13_33 c i M2 hM2 M3 hM3 tbl hT sim x2 x3 b9 b10 a12 a13 a14 a15 a16 a17, in_read M2 hM2 x2 33 (by decide), mk_read M3 hM3 x3 33 (by decide)]
  try rfl
theorem V14_34 : kernelRunA.sl.v2965 c i M3 hM3 tbl hT sim x3 b9 b10 = (rowsOf c tbl i sim x2 x3 (zeroAcc) 34).w := by
  unfold kernelRunA.sl.v2965 kernelRunA.sl.H14_35
  rw [View.readCov_cons_toLoadRect]
  refine Eq.trans ?_ (rowsOf_w c tbl i sim x2 x3 (zeroAcc) 33 (by decide)).symm
  unfold kernelRunA.sl.r_314
  simp only [S_v2824 c i tbl hT sim b10, V14_33 c i M2 hM2 M3 hM3 tbl hT sim x2 x3 b9 b10 a12 a13 a14 a15 a16 a17, mk_read M3 hM3 x3 33 (by decide)]
  try rfl
theorem V12_35 : kernelRunA.sl.v3039 c M3 hM3 x3 = (rowsOf c tbl i sim x2 x3 (zeroAcc) 35).m := by
  unfold kernelRunA.sl.v3039 kernelRunA.sl.H12_36
  rw [View.readCov_cons_toLoadRect]
  refine Eq.trans ?_ (rowsOf_m c tbl i sim x2 x3 (zeroAcc) 34 (by decide)).symm
  unfold kernelRunA.sl.r_322
  simp only [V12_34 c i M2 hM2 M3 hM3 tbl hT sim x2 x3 b9 b10 a12 a13 a14 a15 a16 a17, mk_read M3 hM3 x3 34 (by decide)]
  try rfl
theorem V13_35 : kernelRunA.sl.v3044 c i M2 hM2 M3 hM3 tbl x2 x3 = (rowsOf c tbl i sim x2 x3 (zeroAcc) 35).logp := by
  unfold kernelRunA.sl.v3044 kernelRunA.sl.H13_36
  rw [View.readCov_cons_toLoadRect]
  refine Eq.trans ?_ (rowsOf_logp c tbl i sim x2 x3 (zeroAcc) 34 (by decide)).symm
  unfold kernelRunA.sl.r_321 kernelRunA.sl.r_322
  simp only [W_r_320 c i tbl, V13_34 c i M2 hM2 M3 hM3 tbl hT sim x2 x3 b9 b10 a12 a13 a14 a15 a16 a17, in_read M2 hM2 x2 34 (by decide), mk_read M3 hM3 x3 34 (by decide)]
  try rfl
theorem V14_35 : kernelRunA.sl.v3050 c i M3 hM3 tbl hT sim x3 b9 b10 = (rowsOf c tbl i sim x2 x3 (zeroAcc) 35).w := by
  unfold kernelRunA.sl.v3050 kernelRunA.sl.H14_36
  rw [View.readCov_cons_toLoadRect]
  refine Eq.trans ?_ (rowsOf_w c tbl i sim x2 x3 (zeroAcc) 34 (by decide)).symm
  unfold kernelRunA.sl.r_328 kernelRunA.sl.r_322 kernelRunA.sl.r_323 kernelRunA.sl.r_324
  simp only [S_v2909 c i tbl hT sim b9, V14_34 c i M2 hM2 M3 hM3 tbl hT sim x2 x3 b9 b10 a12 a13 a14 a15 a16 a17, mk_read M3 hM3 x3 34 (by decide)]
  try rfl
theorem V12_36 : kernelRunA.sl.v3124 c M3 hM3 x3 = (rowsOf c tbl i sim x2 x3 (zeroAcc) 36).m := by
  unfold kernelRunA.sl.v3124 kernelRunA.sl.H12_37
  rw [View.readCov_cons_toLoadRect]
  refine Eq.trans ?_ (rowsOf_m c tbl i sim x2 x3 (zeroAcc) 35 (by decide)).symm
  unfold kernelRunA.sl.r_338
  simp only [V12_35 c i M2 hM2 M3 hM3 tbl hT sim x2 x3 b9 b10 a12 a13 a14 a15 a16 a17, mk_read M3 hM3 x3 35 (by decide)]
  try rfl
theorem V13_36 : kernelRunA.sl.v3129 c i M2 hM2 M3 hM3 tbl x2 x3 = (rowsOf c tbl i sim x2 x3 (zeroAcc) 36).logp := by
  unfold kernelRunA.sl.v3129 kernelRunA.sl.H13_37
  rw [View.readCov_cons_toLoadRect]
  refine Eq.trans ?_ (rowsOf_logp c tbl i sim x2 x3 (zeroAcc) 35 (by decide)).symm
  unfold kernelRunA.sl.r_332 kernelRunA.sl.r_335 kernelRunA.sl.r_330
  simp only [W_r_331 c i tbl, V13_35 c i M2 hM2 M3 hM3 tbl hT sim x2 x3 b9 b10 a12 a13 a14 a15 a16 a17, in_read M2 hM2 x2 35 (by decide), mk_read M3 hM3 x3 35 (by decide)]
  try rfl
theorem V14_36 : kernelRunA.sl.v3135 c i M3 hM3 tbl hT sim x3 b9 b10 = (rowsOf c tbl i sim x2 x3 (zeroAcc) 36).w := by
  unfold kernelRunA.sl.v3135 kernelRunA.sl.H14_37
  rw [View.readCov_cons_toLoadRect]
  refine Eq.trans ?_ (rowsOf_w c tbl i sim x2 x3 (zeroAcc) 35 (by decide)).symm
  unfold kernelRunA.sl.r_333
  simp only [S_v2994 c i tbl hT sim b10, V14_35 c i M2 hM2 M3 hM3 tbl hT sim x2 x3 b9 b10 a12 a13 a14 a15 a16 a17, mk_read M3 hM3 x3 35 (by decide)]
  try rfl
theorem V12_37 : kernelRunA.sl.v3209 c M3 hM3 x3 = (rowsOf c tbl i sim x2 x3 (zeroAcc) 37).m := by
  unfold kernelRunA.sl.v3209 kernelRunA.sl.H12_38
  rw [View.readCov_cons_toLoadRect]
  refine Eq.trans ?_ (rowsOf_m c tbl i sim x2 x3 (zeroAcc) 36 (by decide)).symm
  unfold kernelRunA.sl.r_342
  simp only [V12_36 c i M2 hM2 M3 hM3 tbl hT sim x2 x3 b9 b10 a12 a13 a14 a15 a16 a17, mk_read M3 hM3 x3 36 (by decide)]
  try rfl
theorem V13_37 : kernelRunA.sl.v3214 c i M2 hM2 M3 hM3 tbl x2 x3 = (rowsOf c tbl i sim x2 x3 (zeroAcc) 37).logp := by
  unfold kernelRunA.sl.v3214 kernelRunA.sl.H13_38
  rw [View.readCov_cons_toLoadRect]
  refine Eq.trans ?_ (rowsOf_logp c tbl i sim x2 x3 (zeroAcc) 36 (by decide)).symm
  unfold kernelRunA.sl.r_341 kernelRunA.sl.r_342
  simp only [W_r_340 c i tbl, V13_36 c i M2 hM2 M3 hM3 tbl hT sim x2 x3 b9 b10 a12 a13 a14 a15 a16 a17, in_read M2 hM2 x2 36 (by decide), mk_read M3 hM3 x3 36 (by decide)]
  try rfl
theorem V14_37 : kernelRunA.sl.v3220 c i M3 hM3 tbl hT sim x3 b9 b10 = (rowsOf c tbl i sim x2 x3 (zeroAcc) 37).w := by
  unfold kernelRunA.sl.v3220 kernelRunA.sl.H14_38
  rw [View.readCov_cons_toLoadRect]
  refine Eq.trans ?_ (rowsOf_w c tbl i sim x2 x3 (zeroAcc) 36 (by decide)).symm
  unfold kernelRunA.sl.r_344
  simp only [S_v3079 c i tbl hT sim b9, V14_36 c i M2 hM2 M3 hM3 tbl hT sim x2 x3 b9 b10 a12 a13 a14 a15 a16 a17, mk_read M3 hM3 x3 36 (by decide)]
  try rfl
theorem V12_38 : kernelRunA.sl.v3294 c M3 hM3 x3 = (rowsOf c tbl i sim x2 x3 (zeroAcc) 38).m := by
  unfold kernelRunA.sl.v3294 kernelRunA.sl.H12_39
  rw [View.readCov_cons_toLoadRect]
  refine Eq.trans ?_ (rowsOf_m c tbl i sim x2 x3 (zeroAcc) 37 (by decide)).symm
  unfold kernelRunA.sl.r_351
  simp only [V12_37 c i M2 hM2 M3 hM3 tbl hT sim x2 x3 b9 b10 a12 a13 a14 a15 a16 a17, mk_read M3 hM3 x3 37 (by decide)]
  try rfl
theorem V13_38 : kernelRunA.sl.v3299 c i M2 hM2 M3 hM3 tbl x2 x3 = (rowsOf c tbl i sim x2 x3 (zeroAcc) 38).logp := by
  unfold kernelRunA.sl.v3299 kernelRunA.sl.H13_39
  rw [View.readCov_cons_toLoadRect]
  refine Eq.trans ?_ (rowsOf_logp c tbl i sim x2 x3 (zeroAcc) 37 (by decide)).symm
  unfold kernelRunA.sl.r_350 kernelRunA.sl.r_351
  simp only [W_r_349 c i tbl, V13_37 c i M2 hM2 M3 hM3 tbl hT sim x2 x3 b9 b10 a12 a13 a14 a15 a16 a17, in_read M2 hM2 x2 37 (by decide), mk_read M3 hM3 x3 37 (by decide)]
  try rfl
theorem V14_38 : kernelRunA.sl.v3305 c i M3 hM3 tbl hT sim x3 b9 b10 = (rowsOf c tbl i sim x2 x3 (zeroAcc) 38).w := by
  unfold kernelRunA.sl.v3305 kernelRunA.sl.H14_39
  rw [View.readCov_cons_toLoadRect]
  refine Eq.trans ?_ (rowsOf_w c tbl i sim x2 x3 (zeroAcc) 37 (by decide)).symm
  unfold kernelRunA.sl.r_354 kernelRunA.sl.r_351 kernelRunA.sl.r_352 kernelRunA.sl.r_353 kernelRunA.sl.cst_781
  simp only [S_v3164 c i tbl hT sim b10, V14_37 c i M2 hM2 M3 hM3 tbl hT sim x2 x3 b9 b10 a12 a13 a14 a15 a16 a17, mk_read M3 hM3 x3 37 (by decide)]
  try rfl
theorem V12_39 : kernelRunA.sl.v3379 c M3 hM3 x3 = (rowsOf c tbl i sim x2 x3 (zeroAcc) 39).m := by
  unfold kernelRunA.sl.v3379 kernelRunA.sl.H12_40
  rw [View.readCov_cons_toLoadRect]
  refine Eq.trans ?_ (rowsOf_m c tbl i sim x2 x3 (zeroAcc) 38 (by decide)).symm
  unfold kernelRunA.sl.r_360
  simp only [V12_38 c i M2 hM2 M3 hM3 tbl hT sim x2 x3 b9 b10 a12 a13 a14 a15 a16 a17, mk_read M3 hM3 x3 38 (by decide)]
  try rfl
theorem V13_39 : kernelRunA.sl.v3384 c i M2 hM2 M3 hM3 tbl x2 x3 = (rowsOf c tbl i sim x2 x3 (zeroAcc) 39).logp := by
  unfold kernelRunA.sl.v3384 kernelRunA.sl.H13_40
  rw [View.readCov_cons_toLoadRect]
  refine Eq.trans ?_ (rowsOf_logp c tbl i sim x2 x3 (zeroAcc) 38 (by decide)).symm
  unfold kernelRunA.sl.r_360 kernelRunA.sl.r_363
  simp only [W_r_359 c i tbl, V13_38 c i M2 hM2 M3 hM3 tbl hT sim x2 x3 b9 b10 a12 a13 a14 a15 a16 a17, in_read M2 hM2 x2 38 (by decide), mk_read M3 hM3 x3 38 (by decide)]
  try rfl
theorem V14_39 : kernelRunA.sl.v3390 c i M3 hM3 tbl hT sim x3 b9 b10 = (rowsOf c tbl i sim x2 x3 (zeroAcc) 39).w := by
  unfold kernelRunA.sl.v3390 kernelRunA.sl.H14_40
  rw [View.readCov_cons_toLoadRect]
  refine Eq.trans ?_ (rowsOf_w c tbl i sim x2 x3 (zeroAcc) 38 (by decide)).symm
  unfold kernelRunA.sl.r_361
  simp only [V14_38 c i M2 hM2 M3 hM3 tbl hT sim x2 x3 b9 b10 a12 a13 a14 a15 a16 a17, S_v_1 c i tbl hT sim b9, mk_read M3 hM3 x3 38 (by decide)]
  try rfl
theorem V12_40 : kernelRunA.sl.v3464 c M3 hM3 x3 = (rowsOf c tbl i sim x2 x3 (zeroAcc) 40).m := by
  unfold kernelRunA.sl.v3464 kernelRunA.sl.H12_41
  rw [View.readCov_cons_toLoadRect]
  refine Eq.trans ?_ (rowsOf_m c tbl i sim x2 x3 (zeroAcc) 39 (by decide)).symm
  unfold kernelRunA.sl.r_369
  simp only [V12_39 c i M2 hM2 M3 hM3 tbl hT sim x2 x3 b9 b10 a12 a13 a14 a15 a16 a17, mk_read M3 hM3 x3 39 (by decide)]
  try rfl
theorem V13_40 : kernelRunA.sl.v3469 c i M2 hM2 M3 hM3 tbl x2 x3 = (rowsOf c tbl i sim x2 x3 (zeroAcc) 40).logp := by
  unfold kernelRunA.sl.v3469 kernelRunA.sl.H13_41
  rw [View.readCov_cons_toLoadRect]
  refine Eq.trans ?_ (rowsOf_logp c tbl i sim x2 x3 (zeroAcc) 39 (by decide)).symm
  unfold kernelRunA.sl.r_368 kernelRunA.sl.r_369
  simp only [W_r_367 c i tbl, V13_39 c i M2 hM2 M3 hM3 tbl hT sim x2 x3 b9 b10 a12 a13 a14 a15 a16 a17, in_read M2 hM2 x2 39 (by decide), mk_read M3 hM3 x3 39 (by decide)]
  try rfl
theorem V14_40 : kernelRunA.sl.v3475 c i M3 hM3 tbl hT sim x3 b9 b10 = (rowsOf c tbl i sim x2 x3 (zeroAcc) 40).w := by
  unfold kernelRunA.sl.v3475 kernelRunA.sl.H14_41
  rw [View.readCov_cons_toLoadRect]
  refine Eq.trans ?_ (rowsOf_w c tbl i sim x2 x3 (zeroAcc) 39 (by decide)).symm
  unfold kernelRunA.sl.r_371
  simp only [S_v3334 c i tbl hT sim b10, V14_39 c i M2 hM2 M3 hM3 tbl hT sim x2 x3 b9 b10 a12 a13 a14 a15 a16 a17, mk_read M3 hM3 x3 39 (by decide)]
  try rfl
theorem V12_41 : kernelRunA.sl.v3549 c M3 hM3 x3 = (rowsOf c tbl i sim x2 x3 (zeroAcc) 41).m := by
  unfold kernelRunA.sl.v3549 kernelRunA.sl.H12_42
  rw [View.readCov_cons_toLoadRect]
  refine Eq.trans ?_ (rowsOf_m c tbl i sim x2 x3 (zeroAcc) 40 (by decide)).symm
  unfold kernelRunA.sl.r_378
  simp only [V12_40 c i M2 hM2 M3 hM3 tbl hT sim x2 x3 b9 b10 a12 a13 a14 a15 a16 a17, mk_read M3 hM3 x3 40 (by decide)]
  try rfl
theorem V13_41 : kernelRunA.sl.v3554 c i M2 hM2 M3 hM3 tbl x2 x3 = (rowsOf c tbl i sim x2 x3 (zeroAcc) 41).logp := by
  unfold kernelRunA.sl.v3554 kernelRunA.sl.H13_42
  rw [View.readCov_cons_toLoadRect]
  refine Eq.trans ?_ (rowsOf_logp c tbl i sim x2 x3 (zeroAcc) 40 (by decide)).symm
  unfold kernelRunA.sl.r_384 kernelRunA.sl.r_377 kernelRunA.sl.r_378
  simp only [W_r_376 c i tbl, V13_40 c i M2 hM2 M3 hM3 tbl hT sim x2 x3 b9 b10 a12 a13 a14 a15 a16 a17, in_read M2 hM2 x2 40 (by decide), mk_read M3 hM3 x3 40 (by decide)]
  try rfl
theorem V14_41 : kernelRunA.sl.v3560 c i M3 hM3 tbl hT sim x3 b9 b10 = (rowsOf c tbl i sim x2 x3 (zeroAcc) 41).w := by
  unfold kernelRunA.sl.v3560 kernelRunA.sl.H14_42
  rw [View.readCov_cons_toLoadRect]
  refine Eq.trans ?_ (rowsOf_w c tbl i sim x2 x3 (zeroAcc) 40 (by decide)).symm
  unfold kernelRunA.sl.r_380 kernelRunA.sl.r_378 kernelRunA.sl.r_379 kernelRunA.sl.cst_15
  simp only [S_v3419 c i tbl hT sim b9, V14_40 c i M2 hM2 M3 hM3 tbl hT sim x2 x3 b9 b10 a12 a13 a14 a15 a16 a17, mk_read M3 hM3 x3 40 (by decide)]
  try rfl
theorem V12_42 : kernelRunA.sl.v3634 c M3 hM3 x3 = (rowsOf c tbl i sim x2 x3 (zeroAcc) 42).m := by
  unfold kernelRunA.sl.v3634 kernelRunA.sl.H12_43
  rw [View.readCov_cons_toLoadRect]
  refine Eq.trans ?_ (rowsOf_m c tbl i sim x2 x3 (zeroAcc) 41 (by decide)).symm
  unfold kernelRunA.sl.r_387
  simp only [V12_41 c i M2 hM2 M3 hM3 tbl hT sim x2 x3 b9 b10 a12 a13 a14 a15 a16 a17, mk_read M3 hM3 x3 41 (by decide)]
  try rfl
theorem V13_42 : kernelRunA.sl.v3639 c i M2 hM2 M3 hM3 tbl x2 x3 = (rowsOf c tbl i sim x2 x3 (zeroAcc) 42).logp := by
  unfold kernelRunA.sl.v3639 kernelRunA.sl.H13_43
  rw [View.readCov_cons_toLoadRect]
  refine Eq.trans ?_ (rowsOf_logp c tbl i sim x2 x3 (zeroAcc) 41 (by decide)).symm
  unfold kernelRunA.sl.r_387 kernelRunA.sl.r_390
  simp only [W_r_386 c i tbl, V13_41 c i M2 hM2 M3 hM3 tbl hT sim x2 x3 b9 b10 a12 a13 a14 a15 a16 a17, in_read M2 hM2 x2 41 (by decide), mk_read M3 hM3 x3 41 (by decide)]
  try rfl
theorem V14_42 : kernelRunA.sl.v3645 c i M3 hM3 tbl hT sim x3 b9 b10 = (rowsOf c tbl i sim x2 x3 (zeroAcc) 42).w := by
  unfold kernelRunA.sl.v3645 kernelRunA.sl.H14_43
  rw [View.readCov_cons_toLoadRect]
  refine Eq.trans ?_ (rowsOf_w c tbl i sim x2 x3 (zeroAcc) 41 (by decide)).symm
  unfold kernelRunA.sl.r_388
  simp only [S_v3504 c i tbl hT sim b10, V14_41 c i M2 hM2 M3 hM3 tbl hT sim x2 x3 b9 b10 a12 a13 a14 a15 a16 a17, mk_read M3 hM3 x3 41 (by decide)]
  try rfl
theorem V12_43 : kernelRunA.sl.v3719 c M3 hM3 x3 = (rowsOf c tbl i sim x2 x3 (zeroAcc) 43).m := by
  unfold kernelRunA.sl.v3719 kernelRunA.sl.H12_44
  rw [View.readCov_cons_toLoadRect]
  refine Eq.trans ?_ (rowsOf_m c tbl i sim x2 x3 (zeroAcc) 42 (by decide)).symm
  unfold kernelRunA.sl.r_397
  simp only [V12_42 c i M2 hM2 M3 hM3 tbl hT sim x2 x3 b9 b10 a12 a13 a14 a15 a16 a17, mk_read M3 hM3 x3 42 (by decide)]
  try rfl
theorem V13_43 : kernelRunA.sl.v3724 c i M2 hM2 M3 hM3 tbl x2 x3 = (rowsOf c tbl i sim x2 x3 (zeroAcc) 43).logp := by
  unfold kernelRunA.sl.v3724 kernelRunA.sl.H13_44
  rw [View.readCov_cons_toLoadRect]
  refine Eq.trans ?_ (rowsOf_logp c tbl i sim x2 x3 (zeroAcc) 42 (by decide)).symm
  unfold kernelRunA.sl.r_396 kernelRunA.sl.r_397
  simp only [W_r_395 c i tbl, V13_42 c i M2 hM2 M3 hM3 tbl hT sim x2 x3 b9 b10 a12 a13 a14 a15 a16 a17, in_read M2 hM2 x2 42 (by decide), mk_read M3 hM3 x3 42 (by decide)]
  try rfl
theorem V14_43 : kernelRunA.sl.v3730 c i M3 hM3 tbl hT sim x3 b9 b10 = (rowsOf c tbl i sim x2 x3 (zeroAcc) 43).w := by
  unfold kernelRunA.sl.v3730 kernelRunA.sl.H14_44
  rw [View.readCov_cons_toLoadRect]
  refine Eq.trans ?_ (rowsOf_w c tbl i sim x2 x3 (zeroAcc) 42 (by decide)).symm
  unfold kernelRunA.sl.r_400
  simp only [S_v3589 c i tbl hT sim b9, V14_42 c i M2 hM2 M3 hM3 tbl hT sim x2 x3 b9 b10 a12 a13 a14 a15 a16 a17, mk_read M3 hM3 x3 42 (by decide)]
  try rfl
theorem V12_44 : kernelRunA.sl.v3804 c M3 hM3 x3 = (rowsOf c tbl i sim x2 x3 (zeroAcc) 44).m := by
  unfold kernelRunA.sl.v3804 kernelRunA.sl.H12_45
  rw [View.readCov_cons_toLoadRect]
  refine Eq.trans ?_ (rowsOf_m c tbl i sim x2 x3 (zeroAcc) 43 (by decide)).symm
  unfold kernelRunA.sl.r_407
  simp only [V12_43 c i M2 hM2 M3 hM3 tbl hT sim x2 x3 b9 b10 a12 a13 a14 a15 a16 a17, mk_read M3 hM3 x3 43 (by decide)]
  try rfl
theorem V13_44 : kernelRunA.sl.v3809 c i M2 hM2 M3 hM3 tbl x2 x3 = (rowsOf c tbl i sim x2 x3 (zeroAcc) 44).logp := by
  unfold kernelRunA.sl.v3809 kernelRunA.sl.H13_45
  rw [View.readCov_cons_toLoadRect]
  refine Eq.trans ?_ (rowsOf_logp c tbl i sim x2 x3 (zeroAcc) 43 (by decide)).symm
  unfold kernelRunA.sl.r_413 kernelRunA.sl.r_406 kernelRunA.sl.r_407
  simp only [W_r_405 c i tbl, V13_43 c i M2 hM2 M3 hM3 tbl hT sim x2 x3 b9 b10 a12 a13 a14 a15 a16 a17, in_read M2 hM2 x2 43 (by decide), mk_read M3 hM3 x3 43 (by decide)]
  try rfl
theorem V14_44 : kernelRunA.sl.v3815 c i M3 hM3 tbl hT sim x3 b9 b10 = (rowsOf c tbl i sim x2 x3 (zeroAcc) 44).w := by
  unfold kernelRunA.sl.v3815 kernelRunA.sl.H14_45
  rw [View.readCov_cons_toLoadRect]
  refine Eq.trans ?_ (rowsOf_w c tbl i sim x2 x3 (zeroAcc) 43 (by decide)).symm
  unfold kernelRunA.sl.r_409 kernelRunA.sl.r_407 kernelRunA.sl.r_408
  simp only [S_v3674 c i tbl hT sim b10, V14_43 c i M2 hM2 M3 hM3 tbl hT sim x2 x3 b9 b10 a12 a13 a14 a15 a16 a17, mk_read M3 hM3 x3 43 (by decide)]
  try rfl
theorem V12_45 : kernelRunA.sl.v3889 c M3 hM3 x3 = (rowsOf c tbl i sim x2 x3 (zeroAcc) 45).m := by
  unfold kernelRunA.sl.v3889 kernelRunA.sl.H12_46
  rw [View.readCov_cons_toLoadRect]
  refine Eq.trans ?_ (rowsOf_m c tbl i sim x2 x3 (zeroAcc) 44 (by decide)).symm
  unfold kernelRunA.sl.r_416
  simp only [V12_44 c i M2 hM2 M3 hM3 tbl hT sim x2 x3 b9 b10 a12 a13 a14 a15 a16 a17, mk_read M3 hM3 x3 44 (by decide)]
  try rfl
theorem V13_45 : kernelRunA.sl.v3894 c i M2 hM2 M3 hM3 tbl x2 x3 = (rowsOf c tbl i sim x2 x3 (zeroAcc) 45).logp := by
  unfold kernelRunA.sl.v3894 kernelRunA.sl.H13_46
  rw [View.readCov_cons_toLoadRect]
  refine Eq.trans ?_ (rowsOf_logp c tbl i sim x2 x3 (zeroAcc) 44 (by decide)).symm
  unfold kernelRunA.sl.r_416 kernelRunA.sl.r_420
  simp only [W_r_415 c i tbl, V13_44 c i M2 hM2 M3 hM3 tbl hT sim x2 x3 b9 b10 a12 a13 a14 a15 a16 a17, in_read M2 hM2 x2 44 (by decide), mk_read M3 hM3 x3 44 (by decide)]
  try rfl
theorem V14_45 : kernelRunA.sl.v3900 c i M3 hM3 tbl hT sim x3 b9 b10 = (rowsOf c tbl i sim x2 x3 (zeroAcc) 45).w := by
  unfold kernelRunA.sl.v3900 kernelRunA.sl.H14_46
  rw [View.readCov_cons_toLoadRect]
  refine Eq.trans ?_ (rowsOf_w c tbl i sim x2 x3 (zeroAcc) 44 (by decide)).symm
  unfold kernelRunA.sl.r_418
  simp only [S_v3759 c i tbl hT sim b9, V14_44 c i M2 hM2 M3 hM3 tbl hT sim x2 x3 b9 b10 a12 a13 a14 a15 a16 a17, mk_read M3 hM3 x3 44 (by decide)]
  try rfl
theorem V12_46 : kernelRunA.sl.v3974 c M3 hM3 x3 = (rowsOf c tbl i sim x2 x3 (zeroAcc) 46).m := by
  unfold kernelRunA.sl.v3974 kernelRunA.sl.H12_47
  rw [View.readCov_cons_toLoadRect]
  refine Eq.trans ?_ (rowsOf_m c tbl i sim x2 x3 (zeroAcc) 45 (by decide)).symm
  unfold kernelRunA.sl.r_426
  simp only [V12_45 c i M2 hM2 M3 hM3 tbl hT sim x2 x3 b9 b10 a12 a13 a14 a15 a16 a17, mk_read M3 hM3 x3 45 (by decide)]
  try rfl
theorem V13_46 : kernelRunA.sl.v3979 c i M2 hM2 M3 hM3 tbl x2 x3 = (rowsOf c tbl i sim x2 x3 (zeroAcc) 46).logp := by
  unfold kernelRunA.sl.v3979 kernelRunA.sl.H13_47
  rw [View.readCov_cons_toLoadRect]
  refine Eq.trans ?_ (rowsOf_logp c tbl i sim x2 x3 (zeroAcc) 45 (by decide)).symm
  unfold kernelRunA.sl.r_425 kernelRunA.sl.r_426
  simp only [W_r_424 c i tbl, V13_45 c i M2 hM2 M3 hM3 tbl hT sim x2 x3 b9 b10 a12 a13 a14 a15 a16 a17, in_read M2 hM2 x2 45 (by decide), mk_read M3 hM3 x3 45 (by decide)]
  try rfl
theorem V14_46 : kernelRunA.sl.v3985 c i M3 hM3 tbl hT sim x3 b9 b10 = (rowsOf c tbl i sim x2 x3 (zeroAcc) 46).w := by
  unfold kernelRunA.sl.v3985 kernelRunA.sl.H14_47
  rw [View.readCov_cons_toLoadRect]
  refine Eq.trans ?_ (rowsOf_w c tbl i sim x2 x3 (zeroAcc) 45 (by decide)).symm
  unfold kernelRunA.sl.r_428
  simp only [S_v3844 c i tbl hT sim b10, V14_45 c i M2 hM2 M3 hM3 tbl hT sim x2 x3 b9 b10 a12 a13 a14 a15 a16 a17, mk_read M3 hM3 x3 45 (by decide)]
  try rfl
theorem V12_47 : kernelRunA.sl.v4059 c M3 hM3 x3 = (rowsOf c tbl i sim x2 x3 (zeroAcc) 47).m := by
  unfold kernelRunA.sl.v4059 kernelRunA.sl.H12_48
  rw [View.readCov_cons_toLoadRect]
  refine Eq.trans ?_ (rowsOf_m c tbl i sim x2 x3 (zeroAcc) 46 (by decide)).symm
  unfold kernelRunA.sl.r_435
  simp only [V12_46 c i M2 hM2 M3 hM3 tbl hT sim x2 x3 b9 b10 a12 a13 a14 a15 a16 a17, mk_read M3 hM3 x3 46 (by decide)]
  try rfl
theorem V13_47 : kernelRunA.sl.v4064 c i M2 hM2 M3 hM3 tbl x2 x3 = (rowsOf c tbl i sim x2 x3 (zeroAcc) 47).logp := by
  unfold kernelRunA.sl.v4064 kernelRunA.sl.H13_48
  rw [View.readCov_cons_toLoadRect]
  refine Eq.trans ?_ (rowsOf_logp c tbl i sim x2 x3 (zeroAcc) 46 (by decide)).symm
  unfold kernelRunA.sl.r_440 kernelRunA.sl.r_434 kernelRunA.sl.r_435
  simp only [W_r_433 c i tbl, V13_46 c i M2 hM2 M3 hM3 tbl hT sim x2 x3 b9 b10 a12 a13 a14 a15 a16 a17, in_read M2 hM2 x2 46 (by decide), mk_read M3 hM3 x3 46 (by decide)]
  try rfl
theorem V14_47 : kernelRunA.sl.v4070 c i M3 hM3 tbl hT sim x3 b9 b10 = (rowsOf c tbl i sim x2 x3 (zeroAcc) 47).w := by
  unfold kernelRunA.sl.v4070 kernelRunA.sl.H14_48
  rw [View.readCov_cons_toLoadRect]
  refine Eq.trans ?_ (rowsOf_w c tbl i sim x2 x3 (zeroAcc) 46 (by decide)).symm
  unfold kernelRunA.sl.r_436 kernelRunA.sl.r_435 kernelRunA.sl.cst_284
  simp only [S_v3929 c i tbl hT sim b9, V14_46 c i M2 hM2 M3 hM3 tbl hT sim x2 x3 b9 b10 a12 a13 a14 a15 a16 a17, mk_read M3 hM3 x3 46 (by decide)]
  try rfl
theorem V12_48 : kernelRunA.sl.v4144 c M3 hM3 x3 = (rowsOf c tbl i sim x2 x3 (zeroAcc) 48).m := by
  unfold kernelRunA.sl.v4144 kernelRunA.sl.H12_49
  rw [View.readCov_cons_toLoadRect]
  refine Eq.trans ?_ (rowsOf_m c tbl i sim x2 x3 (zeroAcc) 47 (by decide)).symm
  unfold kernelRunA.sl.r_443
  simp only [V12_47 c i M2 hM2 M3 hM3 tbl hT sim x2 x3 b9 b10 a12 a13 a14 a15 a16 a17, mk_read M3 hM3 x3 47 (by decide)]
  try rfl
theorem V13_48 : kernelRunA.sl.v4149 c i M2 hM2 M3 hM3 tbl x2 x3 = (rowsOf c tbl i sim x2 x3 (zeroAcc) 48).logp := by
  unfold kernelRunA.sl.v4149 kernelRunA.sl.H13_49
  rw [View.readCov_cons_toLoadRect]
  refine Eq.trans ?_ (rowsOf_logp c tbl i sim x2 x3 (zeroAcc) 47 (by decide)).symm
  unfold kernelRunA.sl.r_443 kernelRunA.sl.r_447
  simp only [W_r_442 c i tbl, V13_47 c i M2 hM2 M3 hM3 tbl hT sim x2 x3 b9 b10 a12 a13 a14 a15 a16 a17, in_read M2 hM2 x2 47 (by decide), mk_read M3 hM3 x3 47 (by decide)]
  try rfl
theorem V14_48 : kernelRunA.sl.v4155 c i M3 hM3 tbl hT sim x3 b9 b10 = (rowsOf c tbl i sim x2 x3 (zeroAcc) 48).w := by
  unfold kernelRunA.sl.v4155 kernelRunA.sl.H14_49
  rw [View.readCov_cons_toLoadRect]
  refine Eq.trans ?_ (rowsOf_w c tbl i sim x2 x3 (zeroAcc) 47 (by decide)).symm
  unfold kernelRunA.sl.r_445
  simp only [S_v4014 c i tbl hT sim b10, V14_47 c i M2 hM2 M3 hM3 tbl hT sim x2 x3 b9 b10 a12 a13 a14 a15 a16 a17, mk_read M3 hM3 x3 47 (by decide)]
  try rfl
theorem V12_49 : kernelRunA.sl.v4229 c M3 hM3 x3 = (rowsOf c tbl i sim x2 x3 (zeroAcc) 49).m := by
  unfold kernelRunA.sl.v4229 kernelRunA.sl.H12_50
  rw [View.readCov_cons_toLoadRect]
  refine Eq.trans ?_ (rowsOf_m c tbl i sim x2 x3 (zeroAcc) 48 (by decide)).symm
  unfold kernelRunA.sl.r_452
  simp only [V12_48 c i M2 hM2 M3 hM3 tbl hT sim x2 x3 b9 b10 a12 a13 a14 a15 a16 a17, mk_read M3 hM3 x3 48 (by decide)]
  try rfl
theorem V13_49 : kernelRunA.sl.v4234 c i M2 hM2 M3 hM3 tbl x2 x3 = (rowsOf c tbl i sim x2 x3 (zeroAcc) 49).logp := by
  unfold kernelRunA.sl.v4234 kernelRunA.sl.H13_50
  rw [View.readCov_cons_toLoadRect]
  refine Eq.trans ?_ (rowsOf_logp c tbl i sim x2 x3 (zeroAcc) 48 (by decide)).symm
  unfold kernelRunA.sl.r_451 kernelRunA.sl.r_452
  simp only [W_r_450 c i tbl, V13_48 c i M2 hM2 M3 hM3 tbl hT sim x2 x3 b9 b10 a12 a13 a14 a15 a16 a17, in_read M2 hM2 x2 48 (by decide), mk_read M3 hM3 x3 48 (by decide)]
  try rfl
theorem V14_49 : kernelRunA.sl.v4240 c i M3 hM3 tbl hT sim x3 b9 b10 = (rowsOf c tbl i sim x2 x3 (zeroAcc) 49).w := by
  unfold kernelRunA.sl.v4240 kernelRunA.sl.H14_50
  rw [View.readCov_cons_toLoadRect]
  refine Eq.trans ?_ (rowsOf_w c tbl i sim x2 x3 (zeroAcc) 48 (by decide)).symm
  unfold kernelRunA.sl.r_452 kernelRunA.sl.r_453
  simp only [S_v4099 c i tbl hT sim b9, V14_48 c i M2 hM2 M3 hM3 tbl hT sim x2 x3 b9 b10 a12 a13 a14 a15 a16 a17, mk_read M3 hM3 x3 48 (by decide)]
  try rfl
theorem V12_50 : kernelRunA.sl.v4314 c M3 hM3 x3 = (rowsOf c tbl i sim x2 x3 (zeroAcc) 50).m := by
  unfold kernelRunA.sl.v4314 kernelRunA.sl.H12_51
  rw [View.readCov_cons_toLoadRect]
  refine Eq.trans ?_ (rowsOf_m c tbl i sim x2 x3 (zeroAcc) 49 (by decide)).symm
  unfold kernelRunA.sl.r_459
  simp only [V12_49 c i M2 hM2 M3 hM3 tbl hT sim x2 x3 b9 b10 a12 a13 a14 a15 a16 a17, mk_read M3 hM3 x3 49 (by decide)]
  try rfl
theorem V13_50 : kernelRunA.sl.v4319 c i M2 hM2 M3 hM3 tbl x2 x3 = (rowsOf c tbl i sim x2 x3 (zeroAcc) 50).logp := by
  unfold kernelRunA.sl.v4319 kernelRunA.sl.H13_51
  rw [View.readCov_cons_toLoadRect]
  refine Eq.trans ?_ (rowsOf_logp c tbl i sim x2 x3 (zeroAcc) 49 (by decide)).symm
  unfold kernelRunA.sl.r_459 kernelRunA.sl.r_463 kernelRunA.sl.r_458
  simp only [W_r_460 c i tbl, V13_49 c i M2 hM2 M3 hM3 tbl hT sim x2 x3 b9 b10 a12 a13 a14 a15 a16 a17, in_read M2 hM2 x2 49 (by decide), mk_read M3 hM3 x3 49 (by decide)]
  try rfl
theorem V14_50 : kernelRunA.sl.v4325 c i M3 hM3 tbl hT sim x3 b9 b10 = (rowsOf c tbl i sim x2 x3 (zeroAcc) 50).w := by
  unfold kernelRunA.sl.v4325 kernelRunA.sl.H14_51
  rw [View.readCov_cons_toLoadRect]
  refine Eq.trans ?_ (rowsOf_w c tbl i sim x2 x3 (zeroAcc) 49 (by decide)).symm
  unfold kernelRunA.sl.r_461 kernelRunA.sl.r_459
  simp only [S_v4184 c i tbl hT sim b10, V14_49 c i M2 hM2 M3 hM3 tbl hT sim x2 x3 b9 b10 a12 a13 a14 a15 a16 a17, mk_read M3 hM3 x3 49 (by decide)]
  try rfl
theorem V12_51 : kernelRunA.sl.v4399 c M3 hM3 x3 = (rowsOf c tbl i sim x2 x3 (zeroAcc) 51).m := by
  unfold kernelRunA.sl.v4399 kernelRunA.sl.H12_52
  rw [View.readCov_cons_toLoadRect]
  refine Eq.trans ?_ (rowsOf_m c tbl i sim x2 x3 (zeroAcc) 50 (by decide)).symm
  unfold kernelRunA.sl.r_468
  simp only [V12_50 c i M2 hM2 M3 hM3 tbl hT sim x2 x3 b9 b10 a12 a13 a14 a15 a16 a17, mk_read M3 hM3 x3 50 (by decide)]
  try rfl
theorem V13_51 : kernelRunA.sl.v4404 c i M2 hM2 M3 hM3 tbl x2 x3 = (rowsOf c tbl i sim x2 x3 (zeroAcc) 51).logp := by
  unfold kernelRunA.sl.v4404 kernelRunA.sl.H13_52
  rw [View.readCov_cons_toLoadRect]
  refine Eq.trans ?_ (rowsOf_logp c tbl i sim x2 x3 (zeroAcc) 50 (by decide)).symm
  unfold kernelRunA.sl.r_468 kernelRunA.sl.r_472
  simp only [W_r_467 c i tbl, V13_50 c i M2 hM2 M3 hM3 tbl hT sim x2 x3 b9 b10 a12 a13 a14 a15 a16 a17, in_read M2 hM2 x2 50 (by decide), mk_read M3 hM3 x3 50 (by decide)]
  try rfl
theorem V14_51 : kernelRunA.sl.v4410 c i M3 hM3 tbl hT sim x3 b9 b10 = (rowsOf c tbl i sim x2 x3 (zeroAcc) 51).w := by
  unfold kernelRunA.sl.v4410 kernelRunA.sl.H14_52
  rw [View.readCov_cons_toLoadRect]
  refine Eq.trans ?_ (rowsOf_w c tbl i sim x2 x3 (zeroAcc) 50 (by decide)).symm
  unfold kernelRunA.sl.r_470
  simp only [S_v4269 c i tbl hT sim b9, V14_50 c i M2 hM2 M3 hM3 tbl hT sim x2 x3 b9 b10 a12 a13 a14 a15 a16 a17, mk_read M3 hM3 x3 50 (by decide)]
  try rfl
theorem V12_52 : kernelRunA.sl.v4484 c M3 hM3 x3 = (rowsOf c tbl i sim x2 x3 (zeroAcc) 52).m := by
  unfold kernelRunA.sl.v4484 kernelRunA.sl.H12_53
  rw [View.readCov_cons_toLoadRect]
  refine Eq.trans ?_ (rowsOf_m c tbl i sim x2 x3 (zeroAcc) 51 (by decide)).symm
  unfold kernelRunA.sl.r_478
  simp only [V12_51 c i M2 hM2 M3 hM3 tbl hT sim x2 x3 b9 b10 a12 a13 a14 a15 a16 a17, mk_read M3 hM3 x3 51 (by decide)]
  try rfl
theorem V13_52 : kernelRunA.sl.v4489 c i M2 hM2 M3 hM3 tbl x2 x3 = (rowsOf c tbl i sim x2 x3 (zeroAcc) 52).logp := by
  unfold kernelRunA.sl.v4489 kernelRunA.sl.H13_53
  rw [View.readCov_cons_toLoadRect]
  refine Eq.trans ?_ (rowsOf_logp c tbl i sim x2 x3 (zeroAcc) 51 (by decide)).symm
  unfold kernelRunA.sl.r_477 kernelRunA.sl.r_478
  simp only [W_r_476 c i tbl, V13_51 c i M2 hM2 M3 hM3 tbl hT sim x2 x3 b9 b10 a12 a13 a14 a15 a16 a17, in_read M2 hM2 x2 51 (by decide), mk_read M3 hM3 x3 51 (by decide)]
  try rfl
theorem V14_52 : kernelRunA.sl.v4495 c i M3 hM3 tbl hT sim x3 b9 b10 = (rowsOf c tbl i sim x2 x3 (zeroAcc) 52).w := by
  unfold kernelRunA.sl.v4495 kernelRunA.sl.H14_53
  rw [View.readCov_cons_toLoadRect]
  refine Eq.trans ?_ (rowsOf_w c tbl i sim x2 x3 (zeroAcc) 51 (by decide)).symm
  unfold kernelRunA.sl.r_484 kernelRunA.sl.r_478 kernelRunA.sl.r_479 kernelRunA.sl.r_480
  simp only [S_v4354 c i tbl hT sim b10, V14_51 c i M2 hM2 M3 hM3 tbl hT sim x2 x3 b9 b10 a12 a13 a14 a15 a16 a17, mk_read M3 hM3 x3 51 (by decide)]
  try rfl
theorem V12_53 : kernelRunA.sl.v4569 c M3 hM3 x3 = (rowsOf c tbl i sim x2 x3 (zeroAcc) 53).m := by
  unfold kernelRunA.sl.v4569 kernelRunA.sl.H12_54
  rw [View.readCov_cons_toLoadRect]
  refine Eq.trans ?_ (rowsOf_m c tbl i sim x2 x3 (zeroAcc) 52 (by decide)).symm
  unfold kernelRunA.sl.r_495 kernelRunA.sl.r_487
  simp only [V12_52 c i M2 hM2 M3 hM3 tbl hT sim x2 x3 b9 b10 a12 a13 a14 a15 a16 a17, mk_read M3 hM3 x3 52 (by decide)]
  try rfl
theorem V13_53 : kernelRunA.sl.v4574 c i M2 hM2 M3 hM3 tbl x2 x3 = (rowsOf c tbl i sim x2 x3 (zeroAcc) 53).logp := by
  unfold kernelRunA.sl.v4574 kernelRunA.sl.H13_54
  rw [View.readCov_cons_toLoadRect]
  refine Eq.trans ?_ (rowsOf_logp c tbl i sim x2 x3 (zeroAcc) 52 (by decide)).symm
  unfold kernelRunA.sl.r_489 kernelRunA.sl.r_492 kernelRunA.sl.r_487 kernelRunA.sl.r_486
  simp only [W_r_488 c i tbl, V13_52 c i M2 hM2 M3 hM3 tbl hT sim x2 x3 b9 b10 a12 a13 a14 a15 a16 a17, in_read M2 hM2 x2 52 (by decide), mk_read M3 hM3 x3 52 (by decide)]
  try rfl
theorem V14_53 : kernelRunA.sl.v4580 c i M3 hM3 tbl hT sim x3 b9 b10 = (rowsOf c tbl i sim x2 x3 (zeroAcc) 53).w := by
  unfold kernelRunA.sl.v4580 kernelRunA.sl.H14_54
  rw [View.readCov_cons_toLoadRect]
  refine Eq.trans ?_ (rowsOf_w c tbl i sim x2 x3 (zeroAcc) 52 (by decide)).symm
  unfold kernelRunA.sl.r_490 kernelRunA.sl.r_487
  simp only [S_v4439 c i tbl hT sim b9, V14_52 c i M2 hM2 M3 hM3 tbl hT sim x2 x3 b9 b10 a12 a13 a14 a15 a16 a17, mk_read M3 hM3 x3 52 (by decide)]
  try rfl
theorem V12_54 : kernelRunA.sl.v4654 c M3 hM3 x3 = (rowsOf c tbl i sim x2 x3 (zeroAcc) 54).m := by
  unfold kernelRunA.sl.v4654 kernelRunA.sl.H12_55
  rw [View.readCov_cons_toLoadRect]
  refine Eq.trans ?_ (rowsOf_m c tbl i sim x2 x3 (zeroAcc) 53 (by decide)).symm
  unfold kernelRunA.sl.r_499
  simp only [V12_53 c i M2 hM2 M3 hM3 tbl hT sim x2 x3 b9 b10 a12 a13 a14 a15 a16 a17, mk_read M3 hM3 x3 53 (by decide)]
  try rfl
theorem V13_54 : kernelRunA.sl.v4659 c i M2 hM2 M3 hM3 tbl x2 x3 = (rowsOf c tbl i sim x2 x3 (zeroAcc) 54).logp := by
  unfold kernelRunA.sl.v4659 kernelRunA.sl.H13_55
  rw [View.readCov_cons_toLoadRect]
  refine Eq.trans ?_ (rowsOf_logp c tbl i sim x2 x3 (zeroAcc) 53 (by decide)).symm
  unfold kernelRunA.sl.r_498 kernelRunA.sl.r_499 kernelRunA.sl.r_503
  simp only [W_r_497 c i tbl, V13_53 c i M2 hM2 M3 hM3 tbl hT sim x2 x3 b9 b10 a12 a13 a14 a15 a16 a17, in_read M2 hM2 x2 53 (by decide), mk_read M3 hM3 x3 53 (by decide)]
  try rfl
theorem V14_54 : kernelRunA.sl.v4665 c i M3 hM3 tbl hT sim x3 b9 b10 = (rowsOf c tbl i sim x2 x3 (zeroAcc) 54).w := by
  unfold kernelRunA.sl.v4665 kernelRunA.sl.H14_55
  rw [View.readCov_cons_toLoadRect]
  refine Eq.trans ?_ (rowsOf_w c tbl i sim x2 x3 (zeroAcc) 53 (by decide)).symm
  unfold kernelRunA.sl.r_501
  simp only [S_v4524 c i tbl hT sim b10, V14_53 c i M2 hM2 M3 hM3 tbl hT sim x2 x3 b9 b10 a12 a13 a14 a15 a16 a17, mk_read M3 hM3 x3 53 (by decide)]
  try rfl
theorem V12_55 : kernelRunA.sl.v4739 c M3 hM3 x3 = (rowsOf c tbl i sim x2 x3 (zeroAcc) 55).m := by
  unfold kernelRunA.sl.v4739 kernelRunA.sl.H12_56
  rw [View.readCov_cons_toLoadRect]
  refine Eq.trans ?_ (rowsOf_m c tbl i sim x2 x3 (zeroAcc) 54 (by decide)).symm
  unfold kernelRunA.sl.r_509
  simp only [V12_54 c i M2 hM2 M3 hM3 tbl hT sim x2 x3 b9 b10 a12 a13 a14 a15 a16 a17, mk_read M3 hM3 x3 54 (by decide)]
  try rfl
theorem V13_55 : kernelRunA.sl.v4744 c i M2 hM2 M3 hM3 tbl x2 x3 = (rowsOf c tbl i sim x2 x3 (zeroAcc) 55).logp := by
  unfold kernelRunA.sl.v4744 kernelRunA.sl.H13_56
  rw [View.readCov_cons_toLoadRect]
  refine Eq.trans ?_ (rowsOf_logp c tbl i sim x2 x3 (zeroAcc) 54 (by decide)).symm
  unfold kernelRunA.sl.r_508 kernelRunA.sl.r_509
  simp only [W_r_507 c i tbl, V13_54 c i M2 hM2 M3 hM3 tbl hT sim x2 x3 b9 b10 a12 a13 a14 a15 a16 a17, in_read M2 hM2 x2 54 (by decide), mk_read M3 hM3 x3 54 (by decide)]
  try rfl
theorem V14_55 : kernelRunA.sl.v4750 c i M3 hM3 tbl hT sim x3 b9 b10 = (rowsOf c tbl i sim x2 x3 (zeroAcc) 55).w := by
  unfold kernelRunA.sl.v4750 kernelRunA.sl.H14_56
  rw [View.readCov_cons_toLoadRect]
  refine Eq.trans ?_ (rowsOf_w c tbl i sim x2 x3 (zeroAcc) 54 (by decide)).symm
  unfold kernelRunA.sl.r_515 kernelRunA.sl.r_509 kernelRunA.sl.r_510 kernelRunA.sl.r_511
  simp only [S_v4609 c i tbl hT sim b9, V14_54 c i M2 hM2 M3 hM3 tbl hT sim x2 x3 b9 b10 a12 a13 a14 a15 a16 a17, mk_read M3 hM3 x3 54 (by decide)]
  try rfl
theorem V12_56 : kernelRunA.sl.v4824 c M3 hM3 x3 = (rowsOf c tbl i sim x2 x3 (zeroAcc) 56).m := by
  unfold kernelRunA.sl.v4824 kernelRunA.sl.H12_57
  rw [View.readCov_cons_toLoadRect]
  refine Eq.trans ?_ (rowsOf_m c tbl i sim x2 x3 (zeroAcc) 55 (by decide)).symm
  unfold kernelRunA.sl.r_525
  simp only [V12_55 c i M2 hM2 M3 hM3 tbl hT sim x2 x3 b9 b10 a12 a13 a14 a15 a16 a17, mk_read M3 hM3 x3 55 (by decide)]
  try rfl
theorem V13_56 : kernelRunA.sl.v4829 c i M2 hM2 M3 hM3 tbl x2 x3 = (rowsOf c tbl i sim x2 x3 (zeroAcc) 56).logp := by
  unfold kernelRunA.sl.v4829 kernelRunA.sl.H13_57
  rw [View.readCov_cons_toLoadRect]
  refine Eq.trans ?_ (rowsOf_logp c tbl i sim x2 x3 (zeroAcc) 55 (by decide)).symm
  unfold kernelRunA.sl.r_519 kernelRunA.sl.r_522 kernelRunA.sl.r_517
  simp only [W_r_518 c i tbl, V13_55 c i M2 hM2 M3 hM3 tbl hT sim x2 x3 b9 b10 a12 a13 a14 a15 a16 a17, in_read M2 hM2 x2 55 (by decide), mk_read M3 hM3 x3 55 (by decide)]
  try rfl
theorem V14_56 : kernelRunA.sl.v4835 c i M3 hM3 tbl hT sim x3 b9 b10 = (rowsOf c tbl i sim x2 x3 (zeroAcc) 56).w := by
  unfold kernelRunA.sl.v4835 kernelRunA.sl.H14_57
  rw [View.readCov_cons_toLoadRect]
  refine Eq.trans ?_ (rowsOf_w c tbl i sim x2 x3 (zeroAcc) 55 (by decide)).symm
  unfold kernelRunA.sl.r_520
  simp only [S_v4694 c i tbl hT sim b10, V14_55 c i M2 hM2 M3 hM3 tbl hT sim x2 x3 b9 b10 a12 a13 a14 a15 a16 a17, mk_read M3 hM3 x3 55 (by decide)]
  try rfl
theorem V12_57 : kernelRunA.sl.v4909 c M3 hM3 x3 = (rowsOf c tbl i sim x2 x3 (zeroAcc) 57).m := by
  unfold kernelRunA.sl.v4909 kernelRunA.sl.H12_58
  rw [View.readCov_cons_toLoadRect]
  refine Eq.trans ?_ (rowsOf_m c tbl i sim x2 x3 (zeroAcc) 56 (by decide)).symm
  unfold kernelRunA.sl.r_529
  simp only [V12_56 c i M2 hM2 M3 hM3 tbl hT sim x2 x3 b9 b10 a12 a13 a14 a15 a16 a17, mk_read M3 hM3 x3 56 (by decide)]
  try rfl
theorem V13_57 : kernelRunA.sl.v4914 c i M2 hM2 M3 hM3 tbl x2 x3 = (rowsOf c tbl i sim x2 x3 (zeroAcc) 57).logp := by
  unfold kernelRunA.sl.v4914 kernelRunA.sl.H13_58
  rw [View.readCov_cons_toLoadRect]
  refine Eq.trans ?_ (rowsOf_logp c tbl i sim x2 x3 (zeroAcc) 56 (by decide)).symm
  unfold kernelRunA.sl.r_528 kernelRunA.sl.r_529
  simp only [W_r_527 c i tbl, V13_56 c i M2 hM2 M3 hM3 tbl hT sim x2 x3 b9 b10 a12 a13 a14 a15 a16 a17, in_read M2 hM2 x2 56 (by decide), mk_read M3 hM3 x3 56 (by decide)]
  try rfl
theorem V14_57 : kernelRunA.sl.v4920 c i M3 hM3 tbl hT sim x3 b9 b10 = (rowsOf c tbl i sim x2 x3 (zeroAcc) 57).w := by
  unfold kernelRunA.sl.v4920 kernelRunA.sl.H14_58
  rw [View.readCov_cons_toLoadRect]
  refine Eq.trans ?_ (rowsOf_w c tbl i sim x2 x3 (zeroAcc) 56 (by decide)).symm
  unfold kernelRunA.sl.r_531
  simp only [S_v4779 c i tbl hT sim b9, V14_56 c i M2 hM2 M3 hM3 tbl hT sim x2 x3 b9 b10 a12 a13 a14 a15 a16 a17, mk_read M3 hM3 x3 56 (by decide)]
  try rfl
theorem V12_58 : kernelRunA.sl.v4994 c M3 hM3 x3 = (rowsOf c tbl i sim x2 x3 (zeroAcc) 58).m := by
  unfold kernelRunA.sl.v4994 kernelRunA.sl.H12_59
  rw [View.readCov_cons_toLoadRect]
  refine Eq.trans ?_ (rowsOf_m c tbl i sim x2 x3 (zeroAcc) 57 (by decide)).symm
  unfold kernelRunA.sl.r_538
  simp only [V12_57 c i M2 hM2 M3 hM3 tbl hT sim x2 x3 b9 b10 a12 a13 a14 a15 a16 a17, mk_read M3 hM3 x3 57 (by decide)]
  try rfl
theorem V13_58 : kernelRunA.sl.v4999 c i M2 hM2 M3 hM3 tbl x2 x3 = (rowsOf c tbl i sim x2 x3 (zeroAcc) 58).logp := by
  unfold kernelRunA.sl.v4999 kernelRunA.sl.H13_59
  rw [View.readCov_cons_toLoadRect]
  refine Eq.trans ?_ (rowsOf_logp c tbl i sim x2 x3 (zeroAcc) 57 (by decide)).symm
  unfold kernelRunA.sl.r_537 kernelRunA.sl.r_538
  simp only [W_r_536 c i tbl, V13_57 c i M2 hM2 M3 hM3 tbl hT sim x2 x3 b9 b10 a12 a13 a14 a15 a16 a17, in_read M2 hM2 x2 57 (by decide), mk_read M3 hM3 x3 57 (by decide)]
  try rfl
theorem V14_58 : kernelRunA.sl.v5005 c i M3 hM3 tbl hT sim x3 b9 b10 = (rowsOf c tbl i sim x2 x3 (zeroAcc) 58).w := by
  unfold kernelRunA.sl.v5005 kernelRunA.sl.H14_59
  rw [View.readCov_cons_toLoadRect]
  refine Eq.trans ?_ (rowsOf_w c tbl i sim x2 x3 (zeroAcc) 57 (by decide)).symm
  unfold kernelRunA.sl.r_541 kernelRunA.sl.r_538 kernelRunA.sl.r_539 kernelRunA.sl.r_540 kernelRunA.sl.cst_781
  simp only [S_v4864 c i tbl hT sim b10, V14_57 c i M2 hM2 M3 hM3 tbl hT sim x2 x3 b9 b10 a12 a13 a14 a15 a16 a17, mk_read M3 hM3 x3 57 (by decide)]
  try rfl
theorem V12_59 : kernelRunA.sl.v5079 c M3 hM3 x3 = (rowsOf c tbl i sim x2 x3 (zeroAcc) 59).m := by
  unfold kernelRunA.sl.v5079 kernelRunA.sl.H12_60
  rw [View.readCov_cons_toLoadRect]
  refine Eq.trans ?_ (rowsOf_m c tbl i sim x2 x3 (zeroAcc) 58 (by decide)).symm
  unfold kernelRunA.sl.r_547
  simp only [V12_58 c i M2 hM2 M3 hM3 tbl hT sim x2 x3 b9 b10 a12 a13 a14 a15 a16 a17, mk_read M3 hM3 x3 58 (by decide)]
  try rfl
theorem V13_59 : kernelRunA.sl.v5084 c i M2 hM2 M3 hM3 tbl x2 x3 = (rowsOf c tbl i sim x2 x3 (zeroAcc) 59).logp := by
  unfold kernelRunA.sl.v5084 kernelRunA.sl.H13_60
  rw [View.readCov_cons_toLoadRect]
  refine Eq.trans ?_ (rowsOf_logp c tbl i sim x2 x3 (zeroAcc) 58 (by decide)).symm
  unfold kernelRunA.sl.r_547 kernelRunA.sl.r_550
  simp only [W_r_546 c i tbl, V13_58 c i M2 hM2 M3 hM3 tbl hT sim x2 x3 b9 b10 a12 a13 a14 a15 a16 a17, in_read M2 hM2 x2 58 (by decide), mk_read M3 hM3 x3 58 (by decide)]
  try rfl
theorem V14_59 : kernelRunA.sl.v5090 c i M3 hM3 tbl hT sim x3 b9 b10 = (rowsOf c tbl i sim x2 x3 (zeroAcc) 59).w := by
  unfold kernelRunA.sl.v5090 kernelRunA.sl.H14_60
  rw [View.readCov_cons_toLoadRect]
  refine Eq.trans ?_ (rowsOf_w c tbl i sim x2 x3 (zeroAcc) 58 (by decide)).symm
  unfold kernelRunA.sl.r_548
  simp only [V14_58 c i M2 hM2 M3 hM3 tbl hT sim x2 x3 b9 b10 a12 a13 a14 a15 a16 a17, S_v_2 c i tbl hT sim b9, mk_read M3 hM3 x3 58 (by decide)]
  try rfl
theorem V12_60 : kernelRunA.sl.v5164 c M3 hM3 x3 = (rowsOf c tbl i sim x2 x3 (zeroAcc) 60).m := by
  unfold kernelRunA.sl.v5164 kernelRunA.sl.H12_61
  rw [View.readCov_cons_toLoadRect]
  refine Eq.trans ?_ (rowsOf_m c tbl i sim x2 x3 (zeroAcc) 59 (by decide)).symm
  unfold kernelRunA.sl.r_556
  simp only [V12_59 c i M2 hM2 M3 hM3 tbl hT sim x2 x3 b9 b10 a12 a13 a14 a15 a16 a17, mk_read M3 hM3 x3 59 (by decide)]
  try rfl
theorem V13_60 : kernelRunA.sl.v5169 c i M2 hM2 M3 hM3 tbl x2 x3 = (rowsOf c tbl i sim x2 x3 (zeroAcc) 60).logp := by
  unfold kernelRunA.sl.v5169 kernelRunA.sl.H13_61
  rw [View.readCov_cons_toLoadRect]
  refine Eq.trans ?_ (rowsOf_logp c tbl i sim x2 x3 (zeroAcc) 59 (by decide)).symm
  unfold kernelRunA.sl.r_555 kernelRunA.sl.r_556
  simp only [W_r_554 c i tbl, V13_59 c i M2 hM2 M3 hM3 tbl hT sim x2 x3 b9 b10 a12 a13 a14 a15 a16 a17, in_read M2 hM2 x2 59 (by decide), mk_read M3 hM3 x3 59 (by decide)]
  try rfl
theorem V14_60 : kernelRunA.sl.v5175 c i M3 hM3 tbl hT sim x3 b9 b10 = (rowsOf c tbl i sim x2 x3 (zeroAcc) 60).w := by
  unfold kernelRunA.sl.v5175 kernelRunA.sl.H14_61
  rw [View.readCov_cons_toLoadRect]
  refine Eq.trans ?_ (rowsOf_w c tbl i sim x2 x3 (zeroAcc) 59 (by decide)).symm
  unfold kernelRunA.sl.r_558
  simp only [S_v5034 c i tbl hT sim b10, V14_59 c i M2 hM2 M3 hM3 tbl hT sim x2 x3 b9 b10 a12 a13 a14 a15 a16 a17, mk_read M3 hM3 x3 59 (by decide)]
  try rfl
theorem V12_61 : kernelRunA.sl.v5249 c M3 hM3 x3 = (rowsOf c tbl i sim x2 x3 (zeroAcc) 61).m := by
  unfold kernelRunA.sl.v5249 kernelRunA.sl.H12_62
  rw [View.readCov_cons_toLoadRect]
  refine Eq.trans ?_ (rowsOf_m c tbl i sim x2 x3 (zeroAcc) 60 (by decide)).symm
  unfold kernelRunA.sl.r_565
  simp only [V12_60 c i M2 hM2 M3 hM3 tbl hT sim x2 x3 b9 b10 a12 a13 a14 a15 a16 a17, mk_read M3 hM3 x3 60 (by decide)]
  try rfl
theorem V13_61 : kernelRunA.sl.v5254 c i M2 hM2 M3 hM3 tbl x2 x3 = (rowsOf c tbl i sim x2 x3 (zeroAcc) 61).logp := by
  unfold kernelRunA.sl.v5254 kernelRunA.sl.H13_62
  rw [View.readCov_cons_toLoadRect]
  refine Eq.trans ?_ (rowsOf_logp c tbl i sim x2 x3 (zeroAcc) 60 (by decide)).symm
  unfold kernelRunA.sl.r_571 kernelRunA.sl.r_564 kernelRunA.sl.r_565
  simp only [W_r_563 c i tbl, V13_60 c i M2 hM2 M3 hM3 tbl hT sim x2 x3 b9 b10 a12 a13 a14 a15 a16 a17, in_read M2 hM2 x2 60 (by decide), mk_read M3 hM3 x3 60 (by decide)]
  try rfl
theorem V14_61 : kernelRunA.sl.v5260 c i M3 hM3 tbl hT sim x3 b9 b10 = (rowsOf c tbl i sim x2 x3 (zeroAcc) 61).w := by
  unfold kernelRunA.sl.v5260 kernelRunA.sl.H14_62
  rw [View.readCov_cons_toLoadRect]
  refine Eq.trans ?_ (rowsOf_w c tbl i sim x2 x3 (zeroAcc) 60 (by decide)).symm
  unfold kernelRunA.sl.r_567 kernelRunA.sl.r_565 kernelRunA.sl.r_566 kernelRunA.sl.cst_15
  simp only [S_v5119 c i tbl hT sim b9, V14_60 c i M2 hM2 M3 hM3 tbl hT sim x2 x3 b9 b10 a12 a13 a14 a15 a16 a17, mk_read M3 hM3 x3 60 (by decide)]
  try rfl
theorem V12_62 : kernelRunA.sl.v5334 c M3 hM3 x3 = (rowsOf c tbl i sim x2 x3 (zeroAcc) 62).m := by
  unfold kernelRunA.sl.v5334 kernelRunA.sl.H12_63
  rw [View.readCov_cons_toLoadRect]
  refine Eq.trans ?_ (rowsOf_m c tbl i sim x2 x3 (zeroAcc) 61 (by decide)).symm
  unfold kernelRunA.sl.r_574
  simp only [V12_61 c i M2 hM2 M3 hM3 tbl hT sim x2 x3 b9 b10 a12 a13 a14 a15 a16 a17, mk_read M3 hM3 x3 61 (by decide)]
  try rfl
theorem V13_62 : kernelRunA.sl.v5339 c i M2 hM2 M3 hM3 tbl x2 x3 = (rowsOf c tbl i sim x2 x3 (zeroAcc) 62).logp := by
  unfold kernelRunA.sl.v5339 kernelRunA.sl.H13_63
  rw [View.readCov_cons_toLoadRect]
  refine Eq.trans ?_ (rowsOf_logp c tbl i sim x2 x3 (zeroAcc) 61 (by decide)).symm
  unfold kernelRunA.sl.r_574 kernelRunA.sl.r_577
  simp only [W_r_573 c i tbl, V13_61 c i M2 hM2 M3 hM3 tbl hT sim x2 x3 b9 b10 a12 a13 a14 a15 a16 a17, in_read M2 hM2 x2 61 (by decide), mk_read M3 hM3 x3 61 (by decide)]
  try rfl
theorem V14_62 : kernelRunA.sl.v5345 c i M3 hM3 tbl hT sim x3 b9 b10 = (rowsOf c tbl i sim x2 x3 (zeroAcc) 62).w := by
  unfold kernelRunA.sl.v5345 kernelRunA.sl.H14_63
  rw [View.readCov_cons_toLoadRect]
  refine Eq.trans ?_ (rowsOf_w c tbl i sim x2 x3 (zeroAcc) 61 (by decide)).symm
  unfold kernelRunA.sl.r_575
  simp only [S_v5204 c i tbl hT sim b10, V14_61 c i M2 hM2 M3 hM3 tbl hT sim x2 x3 b9 b10 a12 a13 a14 a15 a16 a17, mk_read M3 hM3 x3 61 (by decide)]
  try rfl
theorem V12_63 : kernelRunA.sl.v5413 c M3 hM3 x3 = (rowsOf c tbl i sim x2 x3 (zeroAcc) 63).m := by
  unfold kernelRunA.sl.v5413 kernelRunA.sl.H12_64
  rw [View.readCov_cons_toLoadRect]
  refine Eq.trans ?_ (rowsOf_m c tbl i sim x2 x3 (zeroAcc) 62 (by decide)).symm
  unfold kernelRunA.sl.r_584
  simp only [V12_62 c i M2 hM2 M3 hM3 tbl hT sim x2 x3 b9 b10 a12 a13 a14 a15 a16 a17, mk_read M3 hM3 x3 62 (by decide)]
  try rfl
theorem V13_63 : kernelRunA.sl.v5418 c i M2 hM2 M3 hM3 tbl x2 x3 = (rowsOf c tbl i sim x2 x3 (zeroAcc) 63).logp := by
  unfold kernelRunA.sl.v5418 kernelRunA.sl.H13_64
  rw [View.readCov_cons_toLoadRect]
  refine Eq.trans ?_ (rowsOf_logp c tbl i sim x2 x3 (zeroAcc) 62 (by decide)).symm
  unfold kernelRunA.sl.r_583 kernelRunA.sl.r_584
  simp only [W_r_582 c i tbl, V13_62 c i M2 hM2 M3 hM3 tbl hT sim x2 x3 b9 b10 a12 a13 a14 a15 a16 a17, in_read M2 hM2 x2 62 (by decide), mk_read M3 hM3 x3 62 (by decide)]
  try rfl
theorem V14_63 : kernelRunA.sl.v5424 c i M3 hM3 tbl hT sim x3 b9 b10 = (rowsOf c tbl i sim x2 x3 (zeroAcc) 63).w := by
  unfold kernelRunA.sl.v5424 kernelRunA.sl.H14_64
  rw [View.readCov_cons_toLoadRect]
  refine Eq.trans ?_ (rowsOf_w c tbl i sim x2 x3 (zeroAcc) 62 (by decide)).symm
  unfold kernelRunA.sl.r_587
  simp only [S_v5289 c i tbl hT sim b9, V14_62 c i M2 hM2 M3 hM3 tbl hT sim x2 x3 b9 b10 a12 a13 a14 a15 a16 a17, mk_read M3 hM3 x3 62 (by decide)]
  try rfl
theorem L12_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : C1 i) (h2 : ¬ C2 i) : (kernelRunA c i M2 hM2 M3 hM3 M5 hM5 M6 hM6 M7 hM7 M8 hM8 tbl hT sim x2 x3 b9 b10 a12 a13 a14 a15 a16 a17 h1 h2).1 = ⟨Rect.unit ![0, 0] S1x1.size inb_S1x1_S1x1_0_0, k0_pay964 (kernelRunA.sl.r_593 c M3 hM3 x3) (kernelRunA.sl.v5413 c M3 hM3 x3)⟩ :: kernelRunA.sl.H12_64 c M3 hM3 x3 := rfl
theorem V12_64 : View.readAt (Elt F) (Memref.whole cc0_scratch3).view (Rect.unit ![0, 0] S1x1.size inb_S1x1_S1x1_0_0).toLoadRect ((Memref.whole cc0_scratch3).view.writes (Elt F) a12 (⟨Rect.unit ![0, 0] S1x1.size inb_S1x1_S1x1_0_0, k0_pay964 (kernelRunA.sl.r_593 c M3 hM3 x3) (kernelRunA.sl.v5413 c M3 hM3 x3)⟩ :: kernelRunA.sl.H12_64 c M3 hM3 x3)) = (rowsOf c tbl i sim x2 x3 (zeroAcc) 64).m := by
  rw [read_last_write]
  refine Eq.trans ?_ (rowsOf_m c tbl i sim x2 x3 (zeroAcc) 63 (by decide)).symm
  unfold kernelRunA.sl.r_593
  simp only [V12_63 c i M2 hM2 M3 hM3 tbl hT sim x2 x3 b9 b10 a12 a13 a14 a15 a16 a17, mk_read M3 hM3 x3 63 (by decide)]
  try rfl
theorem L13_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : C1 i) (h2 : ¬ C2 i) : (kernelRunA c i M2 hM2 M3 hM3 M5 hM5 M6 hM6 M7 hM7 M8 hM8 tbl hT sim x2 x3 b9 b10 a12 a13 a14 a15 a16 a17 h1 h2).2.1 = ⟨Rect.unit ![0, 0] S1x1.size inb_S1x1_S1x1_0_0, k0_pay965 (kernelRunA.sl.r_592 c M2 hM2 x2) (kernelRunA.sl.r_593 c M3 hM3 x3) (kernelRunA.sl.r_591 c i tbl) (kernelRunA.sl.v5418 c i M2 hM2 M3 hM3 tbl x2 x3)⟩ :: kernelRunA.sl.H13_64 c i M2 hM2 M3 hM3 tbl x2 x3 := rfl
theorem V13_64 : View.readAt (Elt F) (Memref.whole cc0_scratch4).view (Rect.unit ![0, 0] S1x1.size inb_S1x1_S1x1_0_0).toLoadRect ((Memref.whole cc0_scratch4).view.writes (Elt F) a13 (⟨Rect.unit ![0, 0] S1x1.size inb_S1x1_S1x1_0_0, k0_pay965 (kernelRunA.sl.r_592 c M2 hM2 x2) (kernelRunA.sl.r_593 c M3 hM3 x3) (kernelRunA.sl.r_591 c i tbl) (kernelRunA.sl.v5418 c i M2 hM2 M3 hM3 tbl x2 x3)⟩ :: kernelRunA.sl.H13_64 c i M2 hM2 M3 hM3 tbl x2 x3)) = (rowsOf c tbl i sim x2 x3 (zeroAcc) 64).logp := by
  rw [read_last_write]
  refine Eq.trans ?_ (rowsOf_logp c tbl i sim x2 x3 (zeroAcc) 63 (by decide)).symm
  unfold kernelRunA.sl.r_592 kernelRunA.sl.r_593
  simp only [W_r_591 c i tbl, V13_63 c i M2 hM2 M3 hM3 tbl hT sim x2 x3 b9 b10 a12 a13 a14 a15 a16 a17, in_read M2 hM2 x2 63 (by decide), mk_read M3 hM3 x3 63 (by decide)]
  try rfl
theorem L14_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : C1 i) (h2 : ¬ C2 i) : (kernelRunA c i M2 hM2 M3 hM3 M5 hM5 M6 hM6 M7 hM7 M8 hM8 tbl hT sim x2 x3 b9 b10 a12 a13 a14 a15 a16 a17 h1 h2).2.2.1 = ⟨Rect.unit ![0, 0] S1x1.size inb_S1x1_S1x1_0_0, k0_pay967 (kernelRunA.sl.r_599 c i M3 hM3 tbl hT sim x3 b9 b10)⟩ :: kernelRunA.sl.H14_64 c i M3 hM3 tbl hT sim x3 b9 b10 := rfl
theorem V14_64 : View.readAt (Elt F) (Memref.whole cc0_scratch5).view (Rect.unit ![0, 0] S1x1.size inb_S1x1_S1x1_0_0).toLoadRect ((Memref.whole cc0_scratch5).view.writes (Elt F) a14 (⟨Rect.unit ![0, 0] S1x1.size inb_S1x1_S1x1_0_0, k0_pay967 (kernelRunA.sl.r_599 c i M3 hM3 tbl hT sim x3 b9 b10)⟩ :: kernelRunA.sl.H14_64 c i M3 hM3 tbl hT sim x3 b9 b10)) = (rowsOf c tbl i sim x2 x3 (zeroAcc) 64).w := by
  rw [read_last_write]
  refine Eq.trans ?_ (rowsOf_w c tbl i sim x2 x3 (zeroAcc) 63 (by decide)).symm
  unfold kernelRunA.sl.r_599 kernelRunA.sl.r_593 kernelRunA.sl.r_594 kernelRunA.sl.r_595
  simp only [S_v5368 c i tbl hT sim b10, V14_63 c i M2 hM2 M3 hM3 tbl hT sim x2 x3 b9 b10 a12 a13 a14 a15 a16 a17, mk_read M3 hM3 x3 63 (by decide)]
  try rfl
end TabA

end Cert.Proof.K

end
-- ==== Proof.KStepATabV2.lean ====
import proofs.«419560_j5755256177164_3_alg».proof.Proof.KStepATabW

/-!
  The table of case A: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.K

open Cert.Kernel Cert.Kernel.Gen
open Idealize.ShloMosaic Idealize.ShloMosaic.TcCoe
open Idealize.SL Idealize.SL.Sem

variable {F : FTy → Type} [FloatOps F]

namespace TabA

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

include c i M2 hM2 M3 hM3 tbl hT sim x2 x3 b9 b10 a12 a13 a14 a15 a16 a17

theorem V15_0 : kernelRunA.sl.v80  = (rowsOf c tbl i sim x2 x3 (zeroAcc) 0).nf := by
  unfold kernelRunA.sl.v80 kernelRunA.sl.H15_1
  rw [View.readCov_cons_toLoadRect]
  rfl
theorem V16_0 : kernelRunA.sl.v85  = (rowsOf c tbl i sim x2 x3 (zeroAcc) 0).s := by
  unfold kernelRunA.sl.v85 kernelRunA.sl.H16_1
  rw [View.readCov_cons_toLoadRect]
  rfl
theorem V17_0 : kernelRunA.sl.v90  = (rowsOf c tbl i sim x2 x3 (zeroAcc) 0).q := by
  unfold kernelRunA.sl.v90 kernelRunA.sl.H17_1
  rw [View.readCov_cons_toLoadRect]
  rfl
theorem V15_1 : kernelRunA.sl.v165 c i M2 hM2 M3 hM3 tbl hT sim x2 x3 b9 = (rowsOf c tbl i sim x2 x3 (zeroAcc) 1).nf := by
  unfold kernelRunA.sl.v165 kernelRunA.sl.H15_2
  rw [View.readCov_cons_toLoadRect]
  refine Eq.trans ?_ (rowsOf_nf c tbl i sim x2 x3 (zeroAcc) 0 (by decide)).symm
  unfold kernelRunA.sl.r_7 kernelRunA.sl.r_3 kernelRunA.sl.r_4 kernelRunA.sl.r_5 kernelRunA.sl.cst_15
  simp only [S_v19 c i tbl hT sim b9, V15_0 c i M2 hM2 M3 hM3 tbl hT sim x2 x3 b9 b10 a12 a13 a14 a15 a16 a17, in_read M2 hM2 x2 0 (by decide), mk_read M3 hM3 x3 0 (by decide)]
  try rfl
theorem V16_1 : kernelRunA.sl.v170 c i tbl hT sim b9 = (rowsOf c tbl i sim x2 x3 (zeroAcc) 1).s := by
  unfold kernelRunA.sl.v170 kernelRunA.sl.H16_2
  rw [View.readCov_cons_toLoadRect]
  refine Eq.trans ?_ (rowsOf_s c tbl i sim x2 x3 (zeroAcc) 0 (by decide)).symm
  unfold kernelRunA.sl.r_8 kernelRunA.sl.r_5 kernelRunA.sl.cst_15
  simp only [S_v19 c i tbl hT sim b9, V16_0 c i M2 hM2 M3 hM3 tbl hT sim x2 x3 b9 b10 a12 a13 a14 a15 a16 a17]
  try rfl
theorem V17_1 : kernelRunA.sl.v175 c i tbl hT sim b9 = (rowsOf c tbl i sim x2 x3 (zeroAcc) 1).q := by
  unfold kernelRunA.sl.v175 kernelRunA.sl.H17_2
  rw [View.readCov_cons_toLoadRect]
  refine Eq.trans ?_ (rowsOf_q c tbl i sim x2 x3 (zeroAcc) 0 (by decide)).symm
  unfold kernelRunA.sl.r_9 kernelRunA.sl.r_5 kernelRunA.sl.cst_15
  simp only [S_v19 c i tbl hT sim b9, V17_0 c i M2 hM2 M3 hM3 tbl hT sim x2 x3 b9 b10 a12 a13 a14 a15 a16 a17]
  try rfl
theorem V15_2 : kernelRunA.sl.v250 c i M2 hM2 M3 hM3 tbl hT sim x2 x3 b9 b10 = (rowsOf c tbl i sim x2 x3 (zeroAcc) 2).nf := by
  unfold kernelRunA.sl.v250 kernelRunA.sl.H15_3
  rw [View.readCov_cons_toLoadRect]
  refine Eq.trans ?_ (rowsOf_nf c tbl i sim x2 x3 (zeroAcc) 1 (by decide)).symm
  unfold kernelRunA.sl.r_15
  simp only [S_v104 c i tbl hT sim b10, V15_1 c i M2 hM2 M3 hM3 tbl hT sim x2 x3 b9 b10 a12 a13 a14 a15 a16 a17, in_read M2 hM2 x2 1 (by decide), mk_read M3 hM3 x3 1 (by decide)]
  try rfl
theorem V16_2 : kernelRunA.sl.v255 c i tbl hT sim b9 b10 = (rowsOf c tbl i sim x2 x3 (zeroAcc) 2).s := by
  unfold kernelRunA.sl.v255 kernelRunA.sl.H16_3
  rw [View.readCov_cons_toLoadRect]
  refine Eq.trans ?_ (rowsOf_s c tbl i sim x2 x3 (zeroAcc) 1 (by decide)).symm
  unfold kernelRunA.sl.r_17
  simp only [S_v104 c i tbl hT sim b10, V16_1 c i M2 hM2 M3 hM3 tbl hT sim x2 x3 b9 b10 a12 a13 a14 a15 a16 a17]
  try rfl
theorem V17_2 : kernelRunA.sl.v260 c i tbl hT sim b9 b10 = (rowsOf c tbl i sim x2 x3 (zeroAcc) 2).q := by
  unfold kernelRunA.sl.v260 kernelRunA.sl.H17_3
  rw [View.readCov_cons_toLoadRect]
  refine Eq.trans ?_ (rowsOf_q c tbl i sim x2 x3 (zeroAcc) 1 (by decide)).symm
  unfold kernelRunA.sl.r_19 kernelRunA.sl.r_18
  simp only [S_v104 c i tbl hT sim b10, V17_1 c i M2 hM2 M3 hM3 tbl hT sim x2 x3 b9 b10 a12 a13 a14 a15 a16 a17]
  try rfl
theorem V15_3 : kernelRunA.sl.v335 c i M2 hM2 M3 hM3 tbl hT sim x2 x3 b9 b10 = (rowsOf c tbl i sim x2 x3 (zeroAcc) 3).nf := by
  unfold kernelRunA.sl.v335 kernelRunA.sl.H15_4
  rw [View.readCov_cons_toLoadRect]
  refine Eq.trans ?_ (rowsOf_nf c tbl i sim x2 x3 (zeroAcc) 2 (by decide)).symm
  unfold kernelRunA.sl.r_29 kernelRunA.sl.r_22 kernelRunA.sl.r_25 kernelRunA.sl.cst_109
  simp only [S_v189 c i tbl hT sim b9, V15_2 c i M2 hM2 M3 hM3 tbl hT sim x2 x3 b9 b10 a12 a13 a14 a15 a16 a17, in_read M2 hM2 x2 2 (by decide), mk_read M3 hM3 x3 2 (by decide)]
  try rfl
theorem V16_3 : kernelRunA.sl.v340 c i tbl hT sim b9 b10 = (rowsOf c tbl i sim x2 x3 (zeroAcc) 3).s := by
  unfold kernelRunA.sl.v340 kernelRunA.sl.H16_4
  rw [View.readCov_cons_toLoadRect]
  refine Eq.trans ?_ (rowsOf_s c tbl i sim x2 x3 (zeroAcc) 2 (by decide)).symm
  unfold kernelRunA.sl.r_27 kernelRunA.sl.r_24
  simp only [S_v189 c i tbl hT sim b9, V16_2 c i M2 hM2 M3 hM3 tbl hT sim x2 x3 b9 b10 a12 a13 a14 a15 a16 a17]
  try rfl
theorem V17_3 : kernelRunA.sl.v345 c i tbl hT sim b9 b10 = (rowsOf c tbl i sim x2 x3 (zeroAcc) 3).q := by
  unfold kernelRunA.sl.v345 kernelRunA.sl.H17_4
  rw [View.readCov_cons_toLoadRect]
  refine Eq.trans ?_ (rowsOf_q c tbl i sim x2 x3 (zeroAcc) 2 (by decide)).symm
  unfold kernelRunA.sl.r_28 kernelRunA.sl.r_24
  simp only [S_v189 c i tbl hT sim b9, V17_2 c i M2 hM2 M3 hM3 tbl hT sim x2 x3 b9 b10 a12 a13 a14 a15 a16 a17]
  try rfl
theorem V15_4 : kernelRunA.sl.v420 c i M2 hM2 M3 hM3 tbl hT sim x2 x3 b9 b10 = (rowsOf c tbl i sim x2 x3 (zeroAcc) 4).nf := by
  unfold kernelRunA.sl.v420 kernelRunA.sl.H15_5
  rw [View.readCov_cons_toLoadRect]
  refine Eq.trans ?_ (rowsOf_nf c tbl i sim x2 x3 (zeroAcc) 3 (by decide)).symm
  unfold kernelRunA.sl.r_36 kernelRunA.sl.r_32 kernelRunA.sl.r_33 kernelRunA.sl.r_34
  simp only [S_v274 c i tbl hT sim b10, V15_3 c i M2 hM2 M3 hM3 tbl hT sim x2 x3 b9 b10 a12 a13 a14 a15 a16 a17, in_read M2 hM2 x2 3 (by decide), mk_read M3 hM3 x3 3 (by decide)]
  try rfl
theorem V16_4 : kernelRunA.sl.v425 c i tbl hT sim b9 b10 = (rowsOf c tbl i sim x2 x3 (zeroAcc) 4).s := by
  unfold kernelRunA.sl.v425 kernelRunA.sl.H16_5
  rw [View.readCov_cons_toLoadRect]
  refine Eq.trans ?_ (rowsOf_s c tbl i sim x2 x3 (zeroAcc) 3 (by decide)).symm
  unfold kernelRunA.sl.r_37 kernelRunA.sl.r_34
  simp only [S_v274 c i tbl hT sim b10, V16_3 c i M2 hM2 M3 hM3 tbl hT sim x2 x3 b9 b10 a12 a13 a14 a15 a16 a17]
  try rfl
theorem V17_4 : kernelRunA.sl.v430 c i tbl hT sim b9 b10 = (rowsOf c tbl i sim x2 x3 (zeroAcc) 4).q := by
  unfold kernelRunA.sl.v430 kernelRunA.sl.H17_5
  rw [View.readCov_cons_toLoadRect]
  refine Eq.trans ?_ (rowsOf_q c tbl i sim x2 x3 (zeroAcc) 3 (by decide)).symm
  unfold kernelRunA.sl.r_38 kernelRunA.sl.r_34
  simp only [S_v274 c i tbl hT sim b10, V17_3 c i M2 hM2 M3 hM3 tbl hT sim x2 x3 b9 b10 a12 a13 a14 a15 a16 a17]
  try rfl
theorem V15_5 : kernelRunA.sl.v505 c i M2 hM2 M3 hM3 tbl hT sim x2 x3 b9 b10 = (rowsOf c tbl i sim x2 x3 (zeroAcc) 5).nf := by
  unfold kernelRunA.sl.v505 kernelRunA.sl.H15_6
  rw [View.readCov_cons_toLoadRect]
  refine Eq.trans ?_ (rowsOf_nf c tbl i sim x2 x3 (zeroAcc) 4 (by decide)).symm
  unfold kernelRunA.sl.r_45
  simp only [S_v359 c i tbl hT sim b9, V15_4 c i M2 hM2 M3 hM3 tbl hT sim x2 x3 b9 b10 a12 a13 a14 a15 a16 a17, in_read M2 hM2 x2 4 (by decide), mk_read M3 hM3 x3 4 (by decide)]
  try rfl
theorem V16_5 : kernelRunA.sl.v510 c i tbl hT sim b9 b10 = (rowsOf c tbl i sim x2 x3 (zeroAcc) 5).s := by
  unfold kernelRunA.sl.v510 kernelRunA.sl.H16_6
  rw [View.readCov_cons_toLoadRect]
  refine Eq.trans ?_ (rowsOf_s c tbl i sim x2 x3 (zeroAcc) 4 (by decide)).symm
  unfold kernelRunA.sl.r_47
  simp only [S_v359 c i tbl hT sim b9, V16_4 c i M2 hM2 M3 hM3 tbl hT sim x2 x3 b9 b10 a12 a13 a14 a15 a16 a17]
  try rfl
theorem V17_5 : kernelRunA.sl.v515 c i tbl hT sim b9 b10 = (rowsOf c tbl i sim x2 x3 (zeroAcc) 5).q := by
  unfold kernelRunA.sl.v515 kernelRunA.sl.H17_6
  rw [View.readCov_cons_toLoadRect]
  refine Eq.trans ?_ (rowsOf_q c tbl i sim x2 x3 (zeroAcc) 4 (by decide)).symm
  unfold kernelRunA.sl.r_48 kernelRunA.sl.r_43
  simp only [S_v359 c i tbl hT sim b9, V17_4 c i M2 hM2 M3 hM3 tbl hT sim x2 x3 b9 b10 a12 a13 a14 a15 a16 a17]
  try rfl
theorem V15_6 : kernelRunA.sl.v590 c i M2 hM2 M3 hM3 tbl hT sim x2 x3 b9 b10 = (rowsOf c tbl i sim x2 x3 (zeroAcc) 6).nf := by
  unfold kernelRunA.sl.v590 kernelRunA.sl.H15_7
  rw [View.readCov_cons_toLoadRect]
  refine Eq.trans ?_ (rowsOf_nf c tbl i sim x2 x3 (zeroAcc) 5 (by decide)).symm
  unfold kernelRunA.sl.r_57 kernelRunA.sl.r_51 kernelRunA.sl.r_54
  simp only [S_v444 c i tbl hT sim b10, V15_5 c i M2 hM2 M3 hM3 tbl hT sim x2 x3 b9 b10 a12 a13 a14 a15 a16 a17, in_read M2 hM2 x2 5 (by decide), mk_read M3 hM3 x3 5 (by decide)]
  try rfl
theorem V16_6 : kernelRunA.sl.v595 c i tbl hT sim b9 b10 = (rowsOf c tbl i sim x2 x3 (zeroAcc) 6).s := by
  unfold kernelRunA.sl.v595 kernelRunA.sl.H16_7
  rw [View.readCov_cons_toLoadRect]
  refine Eq.trans ?_ (rowsOf_s c tbl i sim x2 x3 (zeroAcc) 5 (by decide)).symm
  unfold kernelRunA.sl.r_55 kernelRunA.sl.r_53
  simp only [S_v444 c i tbl hT sim b10, V16_5 c i M2 hM2 M3 hM3 tbl hT sim x2 x3 b9 b10 a12 a13 a14 a15 a16 a17]
  try rfl
theorem V17_6 : kernelRunA.sl.v600 c i tbl hT sim b9 b10 = (rowsOf c tbl i sim x2 x3 (zeroAcc) 6).q := by
  unfold kernelRunA.sl.v600 kernelRunA.sl.H17_7
  rw [View.readCov_cons_toLoadRect]
  refine Eq.trans ?_ (rowsOf_q c tbl i sim x2 x3 (zeroAcc) 5 (by decide)).symm
  unfold kernelRunA.sl.r_56 kernelRunA.sl.r_53
  simp only [S_v444 c i tbl hT sim b10, V17_5 c i M2 hM2 M3 hM3 tbl hT sim x2 x3 b9 b10 a12 a13 a14 a15 a16 a17]
  try rfl
theorem V15_7 : kernelRunA.sl.v675 c i M2 hM2 M3 hM3 tbl hT sim x2 x3 b9 b10 = (rowsOf c tbl i sim x2 x3 (zeroAcc) 7).nf := by
  unfold kernelRunA.sl.v675 kernelRunA.sl.H15_8
  rw [View.readCov_cons_toLoadRect]
  refine Eq.trans ?_ (rowsOf_nf c tbl i sim x2 x3 (zeroAcc) 6 (by decide)).symm
  unfold kernelRunA.sl.r_63 kernelRunA.sl.r_60 kernelRunA.sl.r_61 kernelRunA.sl.cst_284
  simp only [S_v529 c i tbl hT sim b9, V15_6 c i M2 hM2 M3 hM3 tbl hT sim x2 x3 b9 b10 a12 a13 a14 a15 a16 a17, in_read M2 hM2 x2 6 (by decide), mk_read M3 hM3 x3 6 (by decide)]
  try rfl
theorem V16_7 : kernelRunA.sl.v680 c i tbl hT sim b9 b10 = (rowsOf c tbl i sim x2 x3 (zeroAcc) 7).s := by
  unfold kernelRunA.sl.v680 kernelRunA.sl.H16_8
  rw [View.readCov_cons_toLoadRect]
  refine Eq.trans ?_ (rowsOf_s c tbl i sim x2 x3 (zeroAcc) 6 (by decide)).symm
  unfold kernelRunA.sl.r_64 kernelRunA.sl.cst_284
  simp only [S_v529 c i tbl hT sim b9, V16_6 c i M2 hM2 M3 hM3 tbl hT sim x2 x3 b9 b10 a12 a13 a14 a15 a16 a17]
  try rfl
theorem V17_7 : kernelRunA.sl.v685 c i tbl hT sim b9 b10 = (rowsOf c tbl i sim x2 x3 (zeroAcc) 7).q := by
  unfold kernelRunA.sl.v685 kernelRunA.sl.H17_8
  rw [View.readCov_cons_toLoadRect]
  refine Eq.trans ?_ (rowsOf_q c tbl i sim x2 x3 (zeroAcc) 6 (by decide)).symm
  unfold kernelRunA.sl.r_65 kernelRunA.sl.cst_284
  simp only [S_v529 c i tbl hT sim b9, V17_6 c i M2 hM2 M3 hM3 tbl hT sim x2 x3 b9 b10 a12 a13 a14 a15 a16 a17]
  try rfl
theorem V15_8 : kernelRunA.sl.v760 c i M2 hM2 M3 hM3 tbl hT sim x2 x3 b9 b10 = (rowsOf c tbl i sim x2 x3 (zeroAcc) 8).nf := by
  unfold kernelRunA.sl.v760 kernelRunA.sl.H15_9
  rw [View.readCov_cons_toLoadRect]
  refine Eq.trans ?_ (rowsOf_nf c tbl i sim x2 x3 (zeroAcc) 7 (by decide)).symm
  unfold kernelRunA.sl.r_72
  simp only [S_v614 c i tbl hT sim b10, V15_7 c i M2 hM2 M3 hM3 tbl hT sim x2 x3 b9 b10 a12 a13 a14 a15 a16 a17, in_read M2 hM2 x2 7 (by decide), mk_read M3 hM3 x3 7 (by decide)]
  try rfl
theorem V16_8 : kernelRunA.sl.v765 c i tbl hT sim b9 b10 = (rowsOf c tbl i sim x2 x3 (zeroAcc) 8).s := by
  unfold kernelRunA.sl.v765 kernelRunA.sl.H16_9
  rw [View.readCov_cons_toLoadRect]
  refine Eq.trans ?_ (rowsOf_s c tbl i sim x2 x3 (zeroAcc) 7 (by decide)).symm
  unfold kernelRunA.sl.r_70
  simp only [S_v614 c i tbl hT sim b10, V16_7 c i M2 hM2 M3 hM3 tbl hT sim x2 x3 b9 b10 a12 a13 a14 a15 a16 a17]
  try rfl
theorem V17_8 : kernelRunA.sl.v770 c i tbl hT sim b9 b10 = (rowsOf c tbl i sim x2 x3 (zeroAcc) 8).q := by
  unfold kernelRunA.sl.v770 kernelRunA.sl.H17_9
  rw [View.readCov_cons_toLoadRect]
  refine Eq.trans ?_ (rowsOf_q c tbl i sim x2 x3 (zeroAcc) 7 (by decide)).symm
  unfold kernelRunA.sl.r_74 kernelRunA.sl.r_70
  simp only [S_v614 c i tbl hT sim b10, V17_7 c i M2 hM2 M3 hM3 tbl hT sim x2 x3 b9 b10 a12 a13 a14 a15 a16 a17]
  try rfl
theorem V15_9 : kernelRunA.sl.v845 c i M2 hM2 M3 hM3 tbl hT sim x2 x3 b9 b10 = (rowsOf c tbl i sim x2 x3 (zeroAcc) 9).nf := by
  unfold kernelRunA.sl.v845 kernelRunA.sl.H15_10
  rw [View.readCov_cons_toLoadRect]
  refine Eq.trans ?_ (rowsOf_nf c tbl i sim x2 x3 (zeroAcc) 8 (by decide)).symm
  unfold kernelRunA.sl.r_80 kernelRunA.sl.r_77 kernelRunA.sl.r_78 kernelRunA.sl.r_79
  simp only [S_v699 c i tbl hT sim b9, V15_8 c i M2 hM2 M3 hM3 tbl hT sim x2 x3 b9 b10 a12 a13 a14 a15 a16 a17, in_read M2 hM2 x2 8 (by decide), mk_read M3 hM3 x3 8 (by decide)]
  try rfl
theorem V16_9 : kernelRunA.sl.v850 c i tbl hT sim b9 b10 = (rowsOf c tbl i sim x2 x3 (zeroAcc) 9).s := by
  unfold kernelRunA.sl.v850 kernelRunA.sl.H16_10
  rw [View.readCov_cons_toLoadRect]
  refine Eq.trans ?_ (rowsOf_s c tbl i sim x2 x3 (zeroAcc) 8 (by decide)).symm
  unfold kernelRunA.sl.r_81 kernelRunA.sl.r_79
  simp only [S_v699 c i tbl hT sim b9, V16_8 c i M2 hM2 M3 hM3 tbl hT sim x2 x3 b9 b10 a12 a13 a14 a15 a16 a17]
  try rfl
theorem V17_9 : kernelRunA.sl.v855 c i tbl hT sim b9 b10 = (rowsOf c tbl i sim x2 x3 (zeroAcc) 9).q := by
  unfold kernelRunA.sl.v855 kernelRunA.sl.H17_10
  rw [View.readCov_cons_toLoadRect]
  refine Eq.trans ?_ (rowsOf_q c tbl i sim x2 x3 (zeroAcc) 8 (by decide)).symm
  unfold kernelRunA.sl.r_82 kernelRunA.sl.r_79
  simp only [S_v699 c i tbl hT sim b9, V17_8 c i M2 hM2 M3 hM3 tbl hT sim x2 x3 b9 b10 a12 a13 a14 a15 a16 a17]
  try rfl
theorem V15_10 : kernelRunA.sl.v930 c i M2 hM2 M3 hM3 tbl hT sim x2 x3 b9 b10 = (rowsOf c tbl i sim x2 x3 (zeroAcc) 10).nf := by
  unfold kernelRunA.sl.v930 kernelRunA.sl.H15_11
  rw [View.readCov_cons_toLoadRect]
  refine Eq.trans ?_ (rowsOf_nf c tbl i sim x2 x3 (zeroAcc) 9 (by decide)).symm
  unfold kernelRunA.sl.r_88 kernelRunA.sl.r_84 kernelRunA.sl.r_85
  simp only [S_v784 c i tbl hT sim b10, V15_9 c i M2 hM2 M3 hM3 tbl hT sim x2 x3 b9 b10 a12 a13 a14 a15 a16 a17, in_read M2 hM2 x2 9 (by decide), mk_read M3 hM3 x3 9 (by decide)]
  try rfl
theorem V16_10 : kernelRunA.sl.v935 c i tbl hT sim b9 b10 = (rowsOf c tbl i sim x2 x3 (zeroAcc) 10).s := by
  unfold kernelRunA.sl.v935 kernelRunA.sl.H16_11
  rw [View.readCov_cons_toLoadRect]
  refine Eq.trans ?_ (rowsOf_s c tbl i sim x2 x3 (zeroAcc) 9 (by decide)).symm
  unfold kernelRunA.sl.r_90
  simp only [S_v784 c i tbl hT sim b10, V16_9 c i M2 hM2 M3 hM3 tbl hT sim x2 x3 b9 b10 a12 a13 a14 a15 a16 a17]
  try rfl
theorem V17_10 : kernelRunA.sl.v940 c i tbl hT sim b9 b10 = (rowsOf c tbl i sim x2 x3 (zeroAcc) 10).q := by
  unfold kernelRunA.sl.v940 kernelRunA.sl.H17_11
  rw [View.readCov_cons_toLoadRect]
  refine Eq.trans ?_ (rowsOf_q c tbl i sim x2 x3 (zeroAcc) 9 (by decide)).symm
  unfold kernelRunA.sl.r_91
  simp only [S_v784 c i tbl hT sim b10, V17_9 c i M2 hM2 M3 hM3 tbl hT sim x2 x3 b9 b10 a12 a13 a14 a15 a16 a17]
  try rfl
theorem V15_11 : kernelRunA.sl.v1015 c i M2 hM2 M3 hM3 tbl hT sim x2 x3 b9 b10 = (rowsOf c tbl i sim x2 x3 (zeroAcc) 11).nf := by
  unfold kernelRunA.sl.v1015 kernelRunA.sl.H15_12
  rw [View.readCov_cons_toLoadRect]
  refine Eq.trans ?_ (rowsOf_nf c tbl i sim x2 x3 (zeroAcc) 10 (by decide)).symm
  unfold kernelRunA.sl.r_97
  simp only [S_v869 c i tbl hT sim b9, V15_10 c i M2 hM2 M3 hM3 tbl hT sim x2 x3 b9 b10 a12 a13 a14 a15 a16 a17, in_read M2 hM2 x2 10 (by decide), mk_read M3 hM3 x3 10 (by decide)]
  try rfl
theorem V16_11 : kernelRunA.sl.v1020 c i tbl hT sim b9 b10 = (rowsOf c tbl i sim x2 x3 (zeroAcc) 11).s := by
  unfold kernelRunA.sl.v1020 kernelRunA.sl.H16_12
  rw [View.readCov_cons_toLoadRect]
  refine Eq.trans ?_ (rowsOf_s c tbl i sim x2 x3 (zeroAcc) 10 (by decide)).symm
  unfold kernelRunA.sl.r_100 kernelRunA.sl.r_95
  simp only [S_v869 c i tbl hT sim b9, V16_10 c i M2 hM2 M3 hM3 tbl hT sim x2 x3 b9 b10 a12 a13 a14 a15 a16 a17]
  try rfl
theorem V17_11 : kernelRunA.sl.v1025 c i tbl hT sim b9 b10 = (rowsOf c tbl i sim x2 x3 (zeroAcc) 11).q := by
  unfold kernelRunA.sl.v1025 kernelRunA.sl.H17_12
  rw [View.readCov_cons_toLoadRect]
  refine Eq.trans ?_ (rowsOf_q c tbl i sim x2 x3 (zeroAcc) 10 (by decide)).symm
  unfold kernelRunA.sl.r_99 kernelRunA.sl.r_95
  simp only [S_v869 c i tbl hT sim b9, V17_10 c i M2 hM2 M3 hM3 tbl hT sim x2 x3 b9 b10 a12 a13 a14 a15 a16 a17]
  try rfl
theorem V15_12 : kernelRunA.sl.v1100 c i M2 hM2 M3 hM3 tbl hT sim x2 x3 b9 b10 = (rowsOf c tbl i sim x2 x3 (zeroAcc) 12).nf := by
  unfold kernelRunA.sl.v1100 kernelRunA.sl.H15_13
  rw [View.readCov_cons_toLoadRect]
  refine Eq.trans ?_ (rowsOf_nf c tbl i sim x2 x3 (zeroAcc) 11 (by decide)).symm
  unfold kernelRunA.sl.r_107 kernelRunA.sl.r_103 kernelRunA.sl.r_104 kernelRunA.sl.r_105 kernelRunA.sl.r_106
  simp only [V15_11 c i M2 hM2 M3 hM3 tbl hT sim x2 x3 b9 b10 a12 a13 a14 a15 a16 a17, S_v954 c i tbl hT sim b10, in_read M2 hM2 x2 11 (by decide), mk_read M3 hM3 x3 11 (by decide)]
  try rfl
theorem V16_12 : kernelRunA.sl.v1105 c i tbl hT sim b9 b10 = (rowsOf c tbl i sim x2 x3 (zeroAcc) 12).s := by
  unfold kernelRunA.sl.v1105 kernelRunA.sl.H16_13
  rw [View.readCov_cons_toLoadRect]
  refine Eq.trans ?_ (rowsOf_s c tbl i sim x2 x3 (zeroAcc) 11 (by decide)).symm
  unfold kernelRunA.sl.r_108 kernelRunA.sl.r_105 kernelRunA.sl.r_106
  simp only [V16_11 c i M2 hM2 M3 hM3 tbl hT sim x2 x3 b9 b10 a12 a13 a14 a15 a16 a17, S_v954 c i tbl hT sim b10]
  try rfl
theorem V17_12 : kernelRunA.sl.v1110 c i tbl hT sim b9 b10 = (rowsOf c tbl i sim x2 x3 (zeroAcc) 12).q := by
  unfold kernelRunA.sl.v1110 kernelRunA.sl.H17_13
  rw [View.readCov_cons_toLoadRect]
  refine Eq.trans ?_ (rowsOf_q c tbl i sim x2 x3 (zeroAcc) 11 (by decide)).symm
  unfold kernelRunA.sl.r_109 kernelRunA.sl.r_105 kernelRunA.sl.r_106
  simp only [V17_11 c i M2 hM2 M3 hM3 tbl hT sim x2 x3 b9 b10 a12 a13 a14 a15 a16 a17, S_v954 c i tbl hT sim b10]
  try rfl
theorem V15_13 : kernelRunA.sl.v1185 c i M2 hM2 M3 hM3 tbl hT sim x2 x3 b9 b10 = (rowsOf c tbl i sim x2 x3 (zeroAcc) 13).nf := by
  unfold kernelRunA.sl.v1185 kernelRunA.sl.H15_14
  rw [View.readCov_cons_toLoadRect]
  refine Eq.trans ?_ (rowsOf_nf c tbl i sim x2 x3 (zeroAcc) 12 (by decide)).symm
  unfold kernelRunA.sl.r_117 kernelRunA.sl.r_112 kernelRunA.sl.r_113
  simp only [S_v1039 c i tbl hT sim b9, V15_12 c i M2 hM2 M3 hM3 tbl hT sim x2 x3 b9 b10 a12 a13 a14 a15 a16 a17, in_read M2 hM2 x2 12 (by decide), mk_read M3 hM3 x3 12 (by decide)]
  try rfl
theorem V16_13 : kernelRunA.sl.v1190 c i tbl hT sim b9 b10 = (rowsOf c tbl i sim x2 x3 (zeroAcc) 13).s := by
  unfold kernelRunA.sl.v1190 kernelRunA.sl.H16_14
  rw [View.readCov_cons_toLoadRect]
  refine Eq.trans ?_ (rowsOf_s c tbl i sim x2 x3 (zeroAcc) 12 (by decide)).symm
  unfold kernelRunA.sl.r_119
  simp only [S_v1039 c i tbl hT sim b9, V16_12 c i M2 hM2 M3 hM3 tbl hT sim x2 x3 b9 b10 a12 a13 a14 a15 a16 a17]
  try rfl
theorem V17_13 : kernelRunA.sl.v1195 c i tbl hT sim b9 b10 = (rowsOf c tbl i sim x2 x3 (zeroAcc) 13).q := by
  unfold kernelRunA.sl.v1195 kernelRunA.sl.H17_14
  rw [View.readCov_cons_toLoadRect]
  refine Eq.trans ?_ (rowsOf_q c tbl i sim x2 x3 (zeroAcc) 12 (by decide)).symm
  unfold kernelRunA.sl.r_120
  simp only [S_v1039 c i tbl hT sim b9, V17_12 c i M2 hM2 M3 hM3 tbl hT sim x2 x3 b9 b10 a12 a13 a14 a15 a16 a17]
  try rfl
theorem V15_14 : kernelRunA.sl.v1270 c i M2 hM2 M3 hM3 tbl hT sim x2 x3 b9 b10 = (rowsOf c tbl i sim x2 x3 (zeroAcc) 14).nf := by
  unfold kernelRunA.sl.v1270 kernelRunA.sl.H15_15
  rw [View.readCov_cons_toLoadRect]
  refine Eq.trans ?_ (rowsOf_nf c tbl i sim x2 x3 (zeroAcc) 13 (by decide)).symm
  unfold kernelRunA.sl.r_128
  simp only [S_v1124 c i tbl hT sim b10, V15_13 c i M2 hM2 M3 hM3 tbl hT sim x2 x3 b9 b10 a12 a13 a14 a15 a16 a17, in_read M2 hM2 x2 13 (by decide), mk_read M3 hM3 x3 13 (by decide)]
  try rfl
theorem V16_14 : kernelRunA.sl.v1275 c i tbl hT sim b9 b10 = (rowsOf c tbl i sim x2 x3 (zeroAcc) 14).s := by
  unfold kernelRunA.sl.v1275 kernelRunA.sl.H16_15
  rw [View.readCov_cons_toLoadRect]
  refine Eq.trans ?_ (rowsOf_s c tbl i sim x2 x3 (zeroAcc) 13 (by decide)).symm
  unfold kernelRunA.sl.r_131 kernelRunA.sl.r_126
  simp only [S_v1124 c i tbl hT sim b10, V16_13 c i M2 hM2 M3 hM3 tbl hT sim x2 x3 b9 b10 a12 a13 a14 a15 a16 a17]
  try rfl
theorem V17_14 : kernelRunA.sl.v1280 c i tbl hT sim b9 b10 = (rowsOf c tbl i sim x2 x3 (zeroAcc) 14).q := by
  unfold kernelRunA.sl.v1280 kernelRunA.sl.H17_15
  rw [View.readCov_cons_toLoadRect]
  refine Eq.trans ?_ (rowsOf_q c tbl i sim x2 x3 (zeroAcc) 13 (by decide)).symm
  unfold kernelRunA.sl.r_130 kernelRunA.sl.r_126
  simp only [S_v1124 c i tbl hT sim b10, V17_13 c i M2 hM2 M3 hM3 tbl hT sim x2 x3 b9 b10 a12 a13 a14 a15 a16 a17]
  try rfl
theorem V15_15 : kernelRunA.sl.v1355 c i M2 hM2 M3 hM3 tbl hT sim x2 x3 b9 b10 = (rowsOf c tbl i sim x2 x3 (zeroAcc) 15).nf := by
  unfold kernelRunA.sl.v1355 kernelRunA.sl.H15_16
  rw [View.readCov_cons_toLoadRect]
  refine Eq.trans ?_ (rowsOf_nf c tbl i sim x2 x3 (zeroAcc) 14 (by decide)).symm
  unfold kernelRunA.sl.r_138 kernelRunA.sl.r_134 kernelRunA.sl.r_135 kernelRunA.sl.r_136 kernelRunA.sl.r_137
  simp only [S_v1209 c i tbl hT sim b9, V15_14 c i M2 hM2 M3 hM3 tbl hT sim x2 x3 b9 b10 a12 a13 a14 a15 a16 a17, in_read M2 hM2 x2 14 (by decide), mk_read M3 hM3 x3 14 (by decide)]
  try rfl
theorem V16_15 : kernelRunA.sl.v1360 c i tbl hT sim b9 b10 = (rowsOf c tbl i sim x2 x3 (zeroAcc) 15).s := by
  unfold kernelRunA.sl.v1360 kernelRunA.sl.H16_16
  rw [View.readCov_cons_toLoadRect]
  refine Eq.trans ?_ (rowsOf_s c tbl i sim x2 x3 (zeroAcc) 14 (by decide)).symm
  unfold kernelRunA.sl.r_139 kernelRunA.sl.r_136 kernelRunA.sl.r_137
  simp only [S_v1209 c i tbl hT sim b9, V16_14 c i M2 hM2 M3 hM3 tbl hT sim x2 x3 b9 b10 a12 a13 a14 a15 a16 a17]
  try rfl
theorem V17_15 : kernelRunA.sl.v1365 c i tbl hT sim b9 b10 = (rowsOf c tbl i sim x2 x3 (zeroAcc) 15).q := by
  unfold kernelRunA.sl.v1365 kernelRunA.sl.H17_16
  rw [View.readCov_cons_toLoadRect]
  refine Eq.trans ?_ (rowsOf_q c tbl i sim x2 x3 (zeroAcc) 14 (by decide)).symm
  unfold kernelRunA.sl.r_140 kernelRunA.sl.r_136 kernelRunA.sl.r_137
  simp only [S_v1209 c i tbl hT sim b9, V17_14 c i M2 hM2 M3 hM3 tbl hT sim x2 x3 b9 b10 a12 a13 a14 a15 a16 a17]
  try rfl
theorem V15_16 : kernelRunA.sl.v1440 c i M2 hM2 M3 hM3 tbl hT sim x2 x3 b9 b10 = (rowsOf c tbl i sim x2 x3 (zeroAcc) 16).nf := by
  unfold kernelRunA.sl.v1440 kernelRunA.sl.H15_17
  rw [View.readCov_cons_toLoadRect]
  refine Eq.trans ?_ (rowsOf_nf c tbl i sim x2 x3 (zeroAcc) 15 (by decide)).symm
  unfold kernelRunA.sl.r_147 kernelRunA.sl.r_143
  simp only [S_v1294 c i tbl hT sim b10, V15_15 c i M2 hM2 M3 hM3 tbl hT sim x2 x3 b9 b10 a12 a13 a14 a15 a16 a17, in_read M2 hM2 x2 15 (by decide), mk_read M3 hM3 x3 15 (by decide)]
  try rfl
theorem V16_16 : kernelRunA.sl.v1445 c i tbl hT sim b9 b10 = (rowsOf c tbl i sim x2 x3 (zeroAcc) 16).s := by
  unfold kernelRunA.sl.v1445 kernelRunA.sl.H16_17
  rw [View.readCov_cons_toLoadRect]
  refine Eq.trans ?_ (rowsOf_s c tbl i sim x2 x3 (zeroAcc) 15 (by decide)).symm
  unfold kernelRunA.sl.r_149
  simp only [S_v1294 c i tbl hT sim b10, V16_15 c i M2 hM2 M3 hM3 tbl hT sim x2 x3 b9 b10 a12 a13 a14 a15 a16 a17]
  try rfl
theorem V17_16 : kernelRunA.sl.v1450 c i tbl hT sim b9 b10 = (rowsOf c tbl i sim x2 x3 (zeroAcc) 16).q := by
  unfold kernelRunA.sl.v1450 kernelRunA.sl.H17_17
  rw [View.readCov_cons_toLoadRect]
  refine Eq.trans ?_ (rowsOf_q c tbl i sim x2 x3 (zeroAcc) 15 (by decide)).symm
  unfold kernelRunA.sl.r_150
  simp only [S_v1294 c i tbl hT sim b10, V17_15 c i M2 hM2 M3 hM3 tbl hT sim x2 x3 b9 b10 a12 a13 a14 a15 a16 a17]
  try rfl
theorem V15_17 : kernelRunA.sl.v1525 c i M2 hM2 M3 hM3 tbl hT sim x2 x3 b9 b10 = (rowsOf c tbl i sim x2 x3 (zeroAcc) 17).nf := by
  unfold kernelRunA.sl.v1525 kernelRunA.sl.H15_18
  rw [View.readCov_cons_toLoadRect]
  refine Eq.trans ?_ (rowsOf_nf c tbl i sim x2 x3 (zeroAcc) 16 (by decide)).symm
  unfold kernelRunA.sl.r_158
  simp only [S_v1379 c i tbl hT sim b9, V15_16 c i M2 hM2 M3 hM3 tbl hT sim x2 x3 b9 b10 a12 a13 a14 a15 a16 a17, in_read M2 hM2 x2 16 (by decide), mk_read M3 hM3 x3 16 (by decide)]
  try rfl
theorem V16_17 : kernelRunA.sl.v1530 c i tbl hT sim b9 b10 = (rowsOf c tbl i sim x2 x3 (zeroAcc) 17).s := by
  unfold kernelRunA.sl.v1530 kernelRunA.sl.H16_18
  rw [View.readCov_cons_toLoadRect]
  refine Eq.trans ?_ (rowsOf_s c tbl i sim x2 x3 (zeroAcc) 16 (by decide)).symm
  unfold kernelRunA.sl.r_159 kernelRunA.sl.r_156
  simp only [S_v1379 c i tbl hT sim b9, V16_16 c i M2 hM2 M3 hM3 tbl hT sim x2 x3 b9 b10 a12 a13 a14 a15 a16 a17]
  try rfl
theorem V17_17 : kernelRunA.sl.v1535 c i tbl hT sim b9 b10 = (rowsOf c tbl i sim x2 x3 (zeroAcc) 17).q := by
  unfold kernelRunA.sl.v1535 kernelRunA.sl.H17_18
  rw [View.readCov_cons_toLoadRect]
  refine Eq.trans ?_ (rowsOf_q c tbl i sim x2 x3 (zeroAcc) 16 (by decide)).symm
  unfold kernelRunA.sl.r_160 kernelRunA.sl.r_156
  simp only [S_v1379 c i tbl hT sim b9, V17_16 c i M2 hM2 M3 hM3 tbl hT sim x2 x3 b9 b10 a12 a13 a14 a15 a16 a17]
  try rfl
theorem V15_18 : kernelRunA.sl.v1610 c i M2 hM2 M3 hM3 tbl hT sim x2 x3 b9 b10 = (rowsOf c tbl i sim x2 x3 (zeroAcc) 18).nf := by
  unfold kernelRunA.sl.v1610 kernelRunA.sl.H15_19
  rw [View.readCov_cons_toLoadRect]
  refine Eq.trans ?_ (rowsOf_nf c tbl i sim x2 x3 (zeroAcc) 17 (by decide)).symm
  unfold kernelRunA.sl.r_168 kernelRunA.sl.r_163 kernelRunA.sl.r_164 kernelRunA.sl.r_165 kernelRunA.sl.r_166 kernelRunA.sl.cst_781
  simp only [S_v1464 c i tbl hT sim b10, V15_17 c i M2 hM2 M3 hM3 tbl hT sim x2 x3 b9 b10 a12 a13 a14 a15 a16 a17, in_read M2 hM2 x2 17 (by decide), mk_read M3 hM3 x3 17 (by decide)]
  try rfl
theorem V16_18 : kernelRunA.sl.v1615 c i tbl hT sim b9 b10 = (rowsOf c tbl i sim x2 x3 (zeroAcc) 18).s := by
  unfold kernelRunA.sl.v1615 kernelRunA.sl.H16_19
  rw [View.readCov_cons_toLoadRect]
  refine Eq.trans ?_ (rowsOf_s c tbl i sim x2 x3 (zeroAcc) 17 (by decide)).symm
  unfold kernelRunA.sl.r_169 kernelRunA.sl.r_165 kernelRunA.sl.r_166 kernelRunA.sl.cst_781
  simp only [S_v1464 c i tbl hT sim b10, V16_17 c i M2 hM2 M3 hM3 tbl hT sim x2 x3 b9 b10 a12 a13 a14 a15 a16 a17]
  try rfl
theorem V17_18 : kernelRunA.sl.v1620 c i tbl hT sim b9 b10 = (rowsOf c tbl i sim x2 x3 (zeroAcc) 18).q := by
  unfold kernelRunA.sl.v1620 kernelRunA.sl.H17_19
  rw [View.readCov_cons_toLoadRect]
  refine Eq.trans ?_ (rowsOf_q c tbl i sim x2 x3 (zeroAcc) 17 (by decide)).symm
  unfold kernelRunA.sl.r_170 kernelRunA.sl.r_165 kernelRunA.sl.r_166 kernelRunA.sl.cst_781
  simp only [S_v1464 c i tbl hT sim b10, V17_17 c i M2 hM2 M3 hM3 tbl hT sim x2 x3 b9 b10 a12 a13 a14 a15 a16 a17]
  try rfl
theorem V15_19 : kernelRunA.sl.v1695 c i M2 hM2 M3 hM3 tbl hT sim x2 x3 b9 b10 = (rowsOf c tbl i sim x2 x3 (zeroAcc) 19).nf := by
  unfold kernelRunA.sl.v1695 kernelRunA.sl.H15_20
  rw [View.readCov_cons_toLoadRect]
  refine Eq.trans ?_ (rowsOf_nf c tbl i sim x2 x3 (zeroAcc) 18 (by decide)).symm
  unfold kernelRunA.sl.r_175
  simp only [S_v c i tbl hT sim b9, V15_18 c i M2 hM2 M3 hM3 tbl hT sim x2 x3 b9 b10 a12 a13 a14 a15 a16 a17, in_read M2 hM2 x2 18 (by decide), mk_read M3 hM3 x3 18 (by decide)]
  try rfl
theorem V16_19 : kernelRunA.sl.v1700 c i tbl hT sim b9 b10 = (rowsOf c tbl i sim x2 x3 (zeroAcc) 19).s := by
  unfold kernelRunA.sl.v1700 kernelRunA.sl.H16_20
  rw [View.readCov_cons_toLoadRect]
  refine Eq.trans ?_ (rowsOf_s c tbl i sim x2 x3 (zeroAcc) 18 (by decide)).symm
  unfold kernelRunA.sl.r_177
  simp only [S_v c i tbl hT sim b9, V16_18 c i M2 hM2 M3 hM3 tbl hT sim x2 x3 b9 b10 a12 a13 a14 a15 a16 a17]
  try rfl
theorem V17_19 : kernelRunA.sl.v1705 c i tbl hT sim b9 b10 = (rowsOf c tbl i sim x2 x3 (zeroAcc) 19).q := by
  unfold kernelRunA.sl.v1705 kernelRunA.sl.H17_20
  rw [View.readCov_cons_toLoadRect]
  refine Eq.trans ?_ (rowsOf_q c tbl i sim x2 x3 (zeroAcc) 18 (by decide)).symm
  unfold kernelRunA.sl.r_178
  simp only [S_v c i tbl hT sim b9, V17_18 c i M2 hM2 M3 hM3 tbl hT sim x2 x3 b9 b10 a12 a13 a14 a15 a16 a17]
  try rfl
theorem V15_20 : kernelRunA.sl.v1780 c i M2 hM2 M3 hM3 tbl hT sim x2 x3 b9 b10 = (rowsOf c tbl i sim x2 x3 (zeroAcc) 20).nf := by
  unfold kernelRunA.sl.v1780 kernelRunA.sl.H15_21
  rw [View.readCov_cons_toLoadRect]
  refine Eq.trans ?_ (rowsOf_nf c tbl i sim x2 x3 (zeroAcc) 19 (by decide)).symm
  unfold kernelRunA.sl.r_185
  simp only [S_v1634 c i tbl hT sim b10, V15_19 c i M2 hM2 M3 hM3 tbl hT sim x2 x3 b9 b10 a12 a13 a14 a15 a16 a17, in_read M2 hM2 x2 19 (by decide), mk_read M3 hM3 x3 19 (by decide)]
  try rfl
theorem V16_20 : kernelRunA.sl.v1785 c i tbl hT sim b9 b10 = (rowsOf c tbl i sim x2 x3 (zeroAcc) 20).s := by
  unfold kernelRunA.sl.v1785 kernelRunA.sl.H16_21
  rw [View.readCov_cons_toLoadRect]
  refine Eq.trans ?_ (rowsOf_s c tbl i sim x2 x3 (zeroAcc) 19 (by decide)).symm
  unfold kernelRunA.sl.r_186 kernelRunA.sl.r_183
  simp only [S_v1634 c i tbl hT sim b10, V16_19 c i M2 hM2 M3 hM3 tbl hT sim x2 x3 b9 b10 a12 a13 a14 a15 a16 a17]
  try rfl
theorem V17_20 : kernelRunA.sl.v1790 c i tbl hT sim b9 b10 = (rowsOf c tbl i sim x2 x3 (zeroAcc) 20).q := by
  unfold kernelRunA.sl.v1790 kernelRunA.sl.H17_21
  rw [View.readCov_cons_toLoadRect]
  refine Eq.trans ?_ (rowsOf_q c tbl i sim x2 x3 (zeroAcc) 19 (by decide)).symm
  unfold kernelRunA.sl.r_187 kernelRunA.sl.r_183
  simp only [S_v1634 c i tbl hT sim b10, V17_19 c i M2 hM2 M3 hM3 tbl hT sim x2 x3 b9 b10 a12 a13 a14 a15 a16 a17]
  try rfl
theorem V15_21 : kernelRunA.sl.v1865 c i M2 hM2 M3 hM3 tbl hT sim x2 x3 b9 b10 = (rowsOf c tbl i sim x2 x3 (zeroAcc) 21).nf := by
  unfold kernelRunA.sl.v1865 kernelRunA.sl.H15_22
  rw [View.readCov_cons_toLoadRect]
  refine Eq.trans ?_ (rowsOf_nf c tbl i sim x2 x3 (zeroAcc) 20 (by decide)).symm
  unfold kernelRunA.sl.r_194 kernelRunA.sl.r_190 kernelRunA.sl.r_191 kernelRunA.sl.r_192 kernelRunA.sl.cst_15
  simp only [S_v1719 c i tbl hT sim b9, V15_20 c i M2 hM2 M3 hM3 tbl hT sim x2 x3 b9 b10 a12 a13 a14 a15 a16 a17, in_read M2 hM2 x2 20 (by decide), mk_read M3 hM3 x3 20 (by decide)]
  try rfl
theorem V16_21 : kernelRunA.sl.v1870 c i tbl hT sim b9 b10 = (rowsOf c tbl i sim x2 x3 (zeroAcc) 21).s := by
  unfold kernelRunA.sl.v1870 kernelRunA.sl.H16_22
  rw [View.readCov_cons_toLoadRect]
  refine Eq.trans ?_ (rowsOf_s c tbl i sim x2 x3 (zeroAcc) 20 (by decide)).symm
  unfold kernelRunA.sl.r_195 kernelRunA.sl.r_192 kernelRunA.sl.cst_15
  simp only [S_v1719 c i tbl hT sim b9, V16_20 c i M2 hM2 M3 hM3 tbl hT sim x2 x3 b9 b10 a12 a13 a14 a15 a16 a17]
  try rfl
theorem V17_21 : kernelRunA.sl.v1875 c i tbl hT sim b9 b10 = (rowsOf c tbl i sim x2 x3 (zeroAcc) 21).q := by
  unfold kernelRunA.sl.v1875 kernelRunA.sl.H17_22
  rw [View.readCov_cons_toLoadRect]
  refine Eq.trans ?_ (rowsOf_q c tbl i sim x2 x3 (zeroAcc) 20 (by decide)).symm
  unfold kernelRunA.sl.r_196 kernelRunA.sl.r_192 kernelRunA.sl.cst_15
  simp only [S_v1719 c i tbl hT sim b9, V17_20 c i M2 hM2 M3 hM3 tbl hT sim x2 x3 b9 b10 a12 a13 a14 a15 a16 a17]
  try rfl
theorem V15_22 : kernelRunA.sl.v1950 c i M2 hM2 M3 hM3 tbl hT sim x2 x3 b9 b10 = (rowsOf c tbl i sim x2 x3 (zeroAcc) 22).nf := by
  unfold kernelRunA.sl.v1950 kernelRunA.sl.H15_23
  rw [View.readCov_cons_toLoadRect]
  refine Eq.trans ?_ (rowsOf_nf c tbl i sim x2 x3 (zeroAcc) 21 (by decide)).symm
  unfold kernelRunA.sl.r_202
  simp only [S_v1804 c i tbl hT sim b10, V15_21 c i M2 hM2 M3 hM3 tbl hT sim x2 x3 b9 b10 a12 a13 a14 a15 a16 a17, in_read M2 hM2 x2 21 (by decide), mk_read M3 hM3 x3 21 (by decide)]
  try rfl
theorem V16_22 : kernelRunA.sl.v1955 c i tbl hT sim b9 b10 = (rowsOf c tbl i sim x2 x3 (zeroAcc) 22).s := by
  unfold kernelRunA.sl.v1955 kernelRunA.sl.H16_23
  rw [View.readCov_cons_toLoadRect]
  refine Eq.trans ?_ (rowsOf_s c tbl i sim x2 x3 (zeroAcc) 21 (by decide)).symm
  unfold kernelRunA.sl.r_204
  simp only [S_v1804 c i tbl hT sim b10, V16_21 c i M2 hM2 M3 hM3 tbl hT sim x2 x3 b9 b10 a12 a13 a14 a15 a16 a17]
  try rfl
theorem V17_22 : kernelRunA.sl.v1960 c i tbl hT sim b9 b10 = (rowsOf c tbl i sim x2 x3 (zeroAcc) 22).q := by
  unfold kernelRunA.sl.v1960 kernelRunA.sl.H17_23
  rw [View.readCov_cons_toLoadRect]
  refine Eq.trans ?_ (rowsOf_q c tbl i sim x2 x3 (zeroAcc) 21 (by decide)).symm
  unfold kernelRunA.sl.r_206 kernelRunA.sl.r_205
  simp only [S_v1804 c i tbl hT sim b10, V17_21 c i M2 hM2 M3 hM3 tbl hT sim x2 x3 b9 b10 a12 a13 a14 a15 a16 a17]
  try rfl
theorem V15_23 : kernelRunA.sl.v2035 c i M2 hM2 M3 hM3 tbl hT sim x2 x3 b9 b10 = (rowsOf c tbl i sim x2 x3 (zeroAcc) 23).nf := by
  unfold kernelRunA.sl.v2035 kernelRunA.sl.H15_24
  rw [View.readCov_cons_toLoadRect]
  refine Eq.trans ?_ (rowsOf_nf c tbl i sim x2 x3 (zeroAcc) 22 (by decide)).symm
  unfold kernelRunA.sl.r_216 kernelRunA.sl.r_209 kernelRunA.sl.r_212 kernelRunA.sl.cst_109
  simp only [S_v1889 c i tbl hT sim b9, V15_22 c i M2 hM2 M3 hM3 tbl hT sim x2 x3 b9 b10 a12 a13 a14 a15 a16 a17, in_read M2 hM2 x2 22 (by decide), mk_read M3 hM3 x3 22 (by decide)]
  try rfl
theorem V16_23 : kernelRunA.sl.v2040 c i tbl hT sim b9 b10 = (rowsOf c tbl i sim x2 x3 (zeroAcc) 23).s := by
  unfold kernelRunA.sl.v2040 kernelRunA.sl.H16_24
  rw [View.readCov_cons_toLoadRect]
  refine Eq.trans ?_ (rowsOf_s c tbl i sim x2 x3 (zeroAcc) 22 (by decide)).symm
  unfold kernelRunA.sl.r_214 kernelRunA.sl.r_211
  simp only [S_v1889 c i tbl hT sim b9, V16_22 c i M2 hM2 M3 hM3 tbl hT sim x2 x3 b9 b10 a12 a13 a14 a15 a16 a17]
  try rfl
theorem V17_23 : kernelRunA.sl.v2045 c i tbl hT sim b9 b10 = (rowsOf c tbl i sim x2 x3 (zeroAcc) 23).q := by
  unfold kernelRunA.sl.v2045 kernelRunA.sl.H17_24
  rw [View.readCov_cons_toLoadRect]
  refine Eq.trans ?_ (rowsOf_q c tbl i sim x2 x3 (zeroAcc) 22 (by decide)).symm
  unfold kernelRunA.sl.r_215 kernelRunA.sl.r_211
  simp only [S_v1889 c i tbl hT sim b9, V17_22 c i M2 hM2 M3 hM3 tbl hT sim x2 x3 b9 b10 a12 a13 a14 a15 a16 a17]
  try rfl
theorem V15_24 : kernelRunA.sl.v2120 c i M2 hM2 M3 hM3 tbl hT sim x2 x3 b9 b10 = (rowsOf c tbl i sim x2 x3 (zeroAcc) 24).nf := by
  unfold kernelRunA.sl.v2120 kernelRunA.sl.H15_25
  rw [View.readCov_cons_toLoadRect]
  refine Eq.trans ?_ (rowsOf_nf c tbl i sim x2 x3 (zeroAcc) 23 (by decide)).symm
  unfold kernelRunA.sl.r_223 kernelRunA.sl.r_219 kernelRunA.sl.r_220 kernelRunA.sl.r_221
  simp only [S_v1974 c i tbl hT sim b10, V15_23 c i M2 hM2 M3 hM3 tbl hT sim x2 x3 b9 b10 a12 a13 a14 a15 a16 a17, in_read M2 hM2 x2 23 (by decide), mk_read M3 hM3 x3 23 (by decide)]
  try rfl
theorem V16_24 : kernelRunA.sl.v2125 c i tbl hT sim b9 b10 = (rowsOf c tbl i sim x2 x3 (zeroAcc) 24).s := by
  unfold kernelRunA.sl.v2125 kernelRunA.sl.H16_25
  rw [View.readCov_cons_toLoadRect]
  refine Eq.trans ?_ (rowsOf_s c tbl i sim x2 x3 (zeroAcc) 23 (by decide)).symm
  unfold kernelRunA.sl.r_224 kernelRunA.sl.r_221
  simp only [S_v1974 c i tbl hT sim b10, V16_23 c i M2 hM2 M3 hM3 tbl hT sim x2 x3 b9 b10 a12 a13 a14 a15 a16 a17]
  try rfl
theorem V17_24 : kernelRunA.sl.v2130 c i tbl hT sim b9 b10 = (rowsOf c tbl i sim x2 x3 (zeroAcc) 24).q := by
  unfold kernelRunA.sl.v2130 kernelRunA.sl.H17_25
  rw [View.readCov_cons_toLoadRect]
  refine Eq.trans ?_ (rowsOf_q c tbl i sim x2 x3 (zeroAcc) 23 (by decide)).symm
  unfold kernelRunA.sl.r_225 kernelRunA.sl.r_221
  simp only [S_v1974 c i tbl hT sim b10, V17_23 c i M2 hM2 M3 hM3 tbl hT sim x2 x3 b9 b10 a12 a13 a14 a15 a16 a17]
  try rfl
theorem V15_25 : kernelRunA.sl.v2205 c i M2 hM2 M3 hM3 tbl hT sim x2 x3 b9 b10 = (rowsOf c tbl i sim x2 x3 (zeroAcc) 25).nf := by
  unfold kernelRunA.sl.v2205 kernelRunA.sl.H15_26
  rw [View.readCov_cons_toLoadRect]
  refine Eq.trans ?_ (rowsOf_nf c tbl i sim x2 x3 (zeroAcc) 24 (by decide)).symm
  unfold kernelRunA.sl.r_232
  simp only [S_v2059 c i tbl hT sim b9, V15_24 c i M2 hM2 M3 hM3 tbl hT sim x2 x3 b9 b10 a12 a13 a14 a15 a16 a17, in_read M2 hM2 x2 24 (by decide), mk_read M3 hM3 x3 24 (by decide)]
  try rfl
theorem V16_25 : kernelRunA.sl.v2210 c i tbl hT sim b9 b10 = (rowsOf c tbl i sim x2 x3 (zeroAcc) 25).s := by
  unfold kernelRunA.sl.v2210 kernelRunA.sl.H16_26
  rw [View.readCov_cons_toLoadRect]
  refine Eq.trans ?_ (rowsOf_s c tbl i sim x2 x3 (zeroAcc) 24 (by decide)).symm
  unfold kernelRunA.sl.r_234
  simp only [S_v2059 c i tbl hT sim b9, V16_24 c i M2 hM2 M3 hM3 tbl hT sim x2 x3 b9 b10 a12 a13 a14 a15 a16 a17]
  try rfl
theorem V17_25 : kernelRunA.sl.v2215 c i tbl hT sim b9 b10 = (rowsOf c tbl i sim x2 x3 (zeroAcc) 25).q := by
  unfold kernelRunA.sl.v2215 kernelRunA.sl.H17_26
  rw [View.readCov_cons_toLoadRect]
  refine Eq.trans ?_ (rowsOf_q c tbl i sim x2 x3 (zeroAcc) 24 (by decide)).symm
  unfold kernelRunA.sl.r_235 kernelRunA.sl.r_230
  simp only [S_v2059 c i tbl hT sim b9, V17_24 c i M2 hM2 M3 hM3 tbl hT sim x2 x3 b9 b10 a12 a13 a14 a15 a16 a17]
  try rfl
theorem V15_26 : kernelRunA.sl.v2290 c i M2 hM2 M3 hM3 tbl hT sim x2 x3 b9 b10 = (rowsOf c tbl i sim x2 x3 (zeroAcc) 26).nf := by
  unfold kernelRunA.sl.v2290 kernelRunA.sl.H15_27
  rw [View.readCov_cons_toLoadRect]
  refine Eq.trans ?_ (rowsOf_nf c tbl i sim x2 x3 (zeroAcc) 25 (by decide)).symm
  unfold kernelRunA.sl.r_244 kernelRunA.sl.r_238 kernelRunA.sl.r_241
  simp only [S_v2144 c i tbl hT sim b10, V15_25 c i M2 hM2 M3 hM3 tbl hT sim x2 x3 b9 b10 a12 a13 a14 a15 a16 a17, in_read M2 hM2 x2 25 (by decide), mk_read M3 hM3 x3 25 (by decide)]
  try rfl
theorem V16_26 : kernelRunA.sl.v2295 c i tbl hT sim b9 b10 = (rowsOf c tbl i sim x2 x3 (zeroAcc) 26).s := by
  unfold kernelRunA.sl.v2295 kernelRunA.sl.H16_27
  rw [View.readCov_cons_toLoadRect]
  refine Eq.trans ?_ (rowsOf_s c tbl i sim x2 x3 (zeroAcc) 25 (by decide)).symm
  unfold kernelRunA.sl.r_242 kernelRunA.sl.r_240
  simp only [S_v2144 c i tbl hT sim b10, V16_25 c i M2 hM2 M3 hM3 tbl hT sim x2 x3 b9 b10 a12 a13 a14 a15 a16 a17]
  try rfl
theorem V17_26 : kernelRunA.sl.v2300 c i tbl hT sim b9 b10 = (rowsOf c tbl i sim x2 x3 (zeroAcc) 26).q := by
  unfold kernelRunA.sl.v2300 kernelRunA.sl.H17_27
  rw [View.readCov_cons_toLoadRect]
  refine Eq.trans ?_ (rowsOf_q c tbl i sim x2 x3 (zeroAcc) 25 (by decide)).symm
  unfold kernelRunA.sl.r_243 kernelRunA.sl.r_240
  simp only [S_v2144 c i tbl hT sim b10, V17_25 c i M2 hM2 M3 hM3 tbl hT sim x2 x3 b9 b10 a12 a13 a14 a15 a16 a17]
  try rfl
theorem V15_27 : kernelRunA.sl.v2375 c i M2 hM2 M3 hM3 tbl hT sim x2 x3 b9 b10 = (rowsOf c tbl i sim x2 x3 (zeroAcc) 27).nf := by
  unfold kernelRunA.sl.v2375 kernelRunA.sl.H15_28
  rw [View.readCov_cons_toLoadRect]
  refine Eq.trans ?_ (rowsOf_nf c tbl i sim x2 x3 (zeroAcc) 26 (by decide)).symm
  unfold kernelRunA.sl.r_250 kernelRunA.sl.r_247 kernelRunA.sl.r_248 kernelRunA.sl.cst_284
  simp only [S_v2229 c i tbl hT sim b9, V15_26 c i M2 hM2 M3 hM3 tbl hT sim x2 x3 b9 b10 a12 a13 a14 a15 a16 a17, in_read M2 hM2 x2 26 (by decide), mk_read M3 hM3 x3 26 (by decide)]
  try rfl
theorem V16_27 : kernelRunA.sl.v2380 c i tbl hT sim b9 b10 = (rowsOf c tbl i sim x2 x3 (zeroAcc) 27).s := by
  unfold kernelRunA.sl.v2380 kernelRunA.sl.H16_28
  rw [View.readCov_cons_toLoadRect]
  refine Eq.trans ?_ (rowsOf_s c tbl i sim x2 x3 (zeroAcc) 26 (by decide)).symm
  unfold kernelRunA.sl.r_251 kernelRunA.sl.cst_284
  simp only [S_v2229 c i tbl hT sim b9, V16_26 c i M2 hM2 M3 hM3 tbl hT sim x2 x3 b9 b10 a12 a13 a14 a15 a16 a17]
  try rfl
theorem V17_27 : kernelRunA.sl.v2385 c i tbl hT sim b9 b10 = (rowsOf c tbl i sim x2 x3 (zeroAcc) 27).q := by
  unfold kernelRunA.sl.v2385 kernelRunA.sl.H17_28
  rw [View.readCov_cons_toLoadRect]
  refine Eq.trans ?_ (rowsOf_q c tbl i sim x2 x3 (zeroAcc) 26 (by decide)).symm
  unfold kernelRunA.sl.r_252 kernelRunA.sl.cst_284
  simp only [S_v2229 c i tbl hT sim b9, V17_26 c i M2 hM2 M3 hM3 tbl hT sim x2 x3 b9 b10 a12 a13 a14 a15 a16 a17]
  try rfl
theorem V15_28 : kernelRunA.sl.v2460 c i M2 hM2 M3 hM3 tbl hT sim x2 x3 b9 b10 = (rowsOf c tbl i sim x2 x3 (zeroAcc) 28).nf := by
  unfold kernelRunA.sl.v2460 kernelRunA.sl.H15_29
  rw [View.readCov_cons_toLoadRect]
  refine Eq.trans ?_ (rowsOf_nf c tbl i sim x2 x3 (zeroAcc) 27 (by decide)).symm
  unfold kernelRunA.sl.r_259
  simp only [S_v2314 c i tbl hT sim b10, V15_27 c i M2 hM2 M3 hM3 tbl hT sim x2 x3 b9 b10 a12 a13 a14 a15 a16 a17, in_read M2 hM2 x2 27 (by decide), mk_read M3 hM3 x3 27 (by decide)]
  try rfl
theorem V16_28 : kernelRunA.sl.v2465 c i tbl hT sim b9 b10 = (rowsOf c tbl i sim x2 x3 (zeroAcc) 28).s := by
  unfold kernelRunA.sl.v2465 kernelRunA.sl.H16_29
  rw [View.readCov_cons_toLoadRect]
  refine Eq.trans ?_ (rowsOf_s c tbl i sim x2 x3 (zeroAcc) 27 (by decide)).symm
  unfold kernelRunA.sl.r_257
  simp only [S_v2314 c i tbl hT sim b10, V16_27 c i M2 hM2 M3 hM3 tbl hT sim x2 x3 b9 b10 a12 a13 a14 a15 a16 a17]
  try rfl
theorem V17_28 : kernelRunA.sl.v2470 c i tbl hT sim b9 b10 = (rowsOf c tbl i sim x2 x3 (zeroAcc) 28).q := by
  unfold kernelRunA.sl.v2470 kernelRunA.sl.H17_29
  rw [View.readCov_cons_toLoadRect]
  refine Eq.trans ?_ (rowsOf_q c tbl i sim x2 x3 (zeroAcc) 27 (by decide)).symm
  unfold kernelRunA.sl.r_261 kernelRunA.sl.r_257
  simp only [S_v2314 c i tbl hT sim b10, V17_27 c i M2 hM2 M3 hM3 tbl hT sim x2 x3 b9 b10 a12 a13 a14 a15 a16 a17]
  try rfl
theorem V15_29 : kernelRunA.sl.v2545 c i M2 hM2 M3 hM3 tbl hT sim x2 x3 b9 b10 = (rowsOf c tbl i sim x2 x3 (zeroAcc) 29).nf := by
  unfold kernelRunA.sl.v2545 kernelRunA.sl.H15_30
  rw [View.readCov_cons_toLoadRect]
  refine Eq.trans ?_ (rowsOf_nf c tbl i sim x2 x3 (zeroAcc) 28 (by decide)).symm
  unfold kernelRunA.sl.r_267 kernelRunA.sl.r_264 kernelRunA.sl.r_265 kernelRunA.sl.r_266
  simp only [S_v2399 c i tbl hT sim b9, V15_28 c i M2 hM2 M3 hM3 tbl hT sim x2 x3 b9 b10 a12 a13 a14 a15 a16 a17, in_read M2 hM2 x2 28 (by decide), mk_read M3 hM3 x3 28 (by decide)]
  try rfl
theorem V16_29 : kernelRunA.sl.v2550 c i tbl hT sim b9 b10 = (rowsOf c tbl i sim x2 x3 (zeroAcc) 29).s := by
  unfold kernelRunA.sl.v2550 kernelRunA.sl.H16_30
  rw [View.readCov_cons_toLoadRect]
  refine Eq.trans ?_ (rowsOf_s c tbl i sim x2 x3 (zeroAcc) 28 (by decide)).symm
  unfold kernelRunA.sl.r_268 kernelRunA.sl.r_266
  simp only [S_v2399 c i tbl hT sim b9, V16_28 c i M2 hM2 M3 hM3 tbl hT sim x2 x3 b9 b10 a12 a13 a14 a15 a16 a17]
  try rfl
theorem V17_29 : kernelRunA.sl.v2555 c i tbl hT sim b9 b10 = (rowsOf c tbl i sim x2 x3 (zeroAcc) 29).q := by
  unfold kernelRunA.sl.v2555 kernelRunA.sl.H17_30
  rw [View.readCov_cons_toLoadRect]
  refine Eq.trans ?_ (rowsOf_q c tbl i sim x2 x3 (zeroAcc) 28 (by decide)).symm
  unfold kernelRunA.sl.r_269 kernelRunA.sl.r_266
  simp only [S_v2399 c i tbl hT sim b9, V17_28 c i M2 hM2 M3 hM3 tbl hT sim x2 x3 b9 b10 a12 a13 a14 a15 a16 a17]
  try rfl
theorem V15_30 : kernelRunA.sl.v2630 c i M2 hM2 M3 hM3 tbl hT sim x2 x3 b9 b10 = (rowsOf c tbl i sim x2 x3 (zeroAcc) 30).nf := by
  unfold kernelRunA.sl.v2630 kernelRunA.sl.H15_31
  rw [View.readCov_cons_toLoadRect]
  refine Eq.trans ?_ (rowsOf_nf c tbl i sim x2 x3 (zeroAcc) 29 (by decide)).symm
  unfold kernelRunA.sl.r_275 kernelRunA.sl.r_271 kernelRunA.sl.r_272
  simp only [S_v2484 c i tbl hT sim b10, V15_29 c i M2 hM2 M3 hM3 tbl hT sim x2 x3 b9 b10 a12 a13 a14 a15 a16 a17, in_read M2 hM2 x2 29 (by decide), mk_read M3 hM3 x3 29 (by decide)]
  try rfl
theorem V16_30 : kernelRunA.sl.v2635 c i tbl hT sim b9 b10 = (rowsOf c tbl i sim x2 x3 (zeroAcc) 30).s := by
  unfold kernelRunA.sl.v2635 kernelRunA.sl.H16_31
  rw [View.readCov_cons_toLoadRect]
  refine Eq.trans ?_ (rowsOf_s c tbl i sim x2 x3 (zeroAcc) 29 (by decide)).symm
  unfold kernelRunA.sl.r_277
  simp only [S_v2484 c i tbl hT sim b10, V16_29 c i M2 hM2 M3 hM3 tbl hT sim x2 x3 b9 b10 a12 a13 a14 a15 a16 a17]
  try rfl
theorem V17_30 : kernelRunA.sl.v2640 c i tbl hT sim b9 b10 = (rowsOf c tbl i sim x2 x3 (zeroAcc) 30).q := by
  unfold kernelRunA.sl.v2640 kernelRunA.sl.H17_31
  rw [View.readCov_cons_toLoadRect]
  refine Eq.trans ?_ (rowsOf_q c tbl i sim x2 x3 (zeroAcc) 29 (by decide)).symm
  unfold kernelRunA.sl.r_278
  simp only [S_v2484 c i tbl hT sim b10, V17_29 c i M2 hM2 M3 hM3 tbl hT sim x2 x3 b9 b10 a12 a13 a14 a15 a16 a17]
  try rfl
theorem V15_31 : kernelRunA.sl.v2715 c i M2 hM2 M3 hM3 tbl hT sim x2 x3 b9 b10 = (rowsOf c tbl i sim x2 x3 (zeroAcc) 31).nf := by
  unfold kernelRunA.sl.v2715 kernelRunA.sl.H15_32
  rw [View.readCov_cons_toLoadRect]
  refine Eq.trans ?_ (rowsOf_nf c tbl i sim x2 x3 (zeroAcc) 30 (by decide)).symm
  unfold kernelRunA.sl.r_284
  simp only [S_v2569 c i tbl hT sim b9, V15_30 c i M2 hM2 M3 hM3 tbl hT sim x2 x3 b9 b10 a12 a13 a14 a15 a16 a17, in_read M2 hM2 x2 30 (by decide), mk_read M3 hM3 x3 30 (by decide)]
  try rfl
theorem V16_31 : kernelRunA.sl.v2720 c i tbl hT sim b9 b10 = (rowsOf c tbl i sim x2 x3 (zeroAcc) 31).s := by
  unfold kernelRunA.sl.v2720 kernelRunA.sl.H16_32
  rw [View.readCov_cons_toLoadRect]
  refine Eq.trans ?_ (rowsOf_s c tbl i sim x2 x3 (zeroAcc) 30 (by decide)).symm
  unfold kernelRunA.sl.r_287 kernelRunA.sl.r_282
  simp only [S_v2569 c i tbl hT sim b9, V16_30 c i M2 hM2 M3 hM3 tbl hT sim x2 x3 b9 b10 a12 a13 a14 a15 a16 a17]
  try rfl
theorem V17_31 : kernelRunA.sl.v2725 c i tbl hT sim b9 b10 = (rowsOf c tbl i sim x2 x3 (zeroAcc) 31).q := by
  unfold kernelRunA.sl.v2725 kernelRunA.sl.H17_32
  rw [View.readCov_cons_toLoadRect]
  refine Eq.trans ?_ (rowsOf_q c tbl i sim x2 x3 (zeroAcc) 30 (by decide)).symm
  unfold kernelRunA.sl.r_286 kernelRunA.sl.r_282
  simp only [S_v2569 c i tbl hT sim b9, V17_30 c i M2 hM2 M3 hM3 tbl hT sim x2 x3 b9 b10 a12 a13 a14 a15 a16 a17]
  try rfl
theorem V15_32 : kernelRunA.sl.v2800 c i M2 hM2 M3 hM3 tbl hT sim x2 x3 b9 b10 = (rowsOf c tbl i sim x2 x3 (zeroAcc) 32).nf := by
  unfold kernelRunA.sl.v2800 kernelRunA.sl.H15_33
  rw [View.readCov_cons_toLoadRect]
  refine Eq.trans ?_ (rowsOf_nf c tbl i sim x2 x3 (zeroAcc) 31 (by decide)).symm
  unfold kernelRunA.sl.r_294 kernelRunA.sl.r_290 kernelRunA.sl.r_291 kernelRunA.sl.r_292 kernelRunA.sl.r_293
  simp only [S_v2654 c i tbl hT sim b10, V15_31 c i M2 hM2 M3 hM3 tbl hT sim x2 x3 b9 b10 a12 a13 a14 a15 a16 a17, in_read M2 hM2 x2 31 (by decide), mk_read M3 hM3 x3 31 (by decide)]
  try rfl
theorem V16_32 : kernelRunA.sl.v2805 c i tbl hT sim b9 b10 = (rowsOf c tbl i sim x2 x3 (zeroAcc) 32).s := by
  unfold kernelRunA.sl.v2805 kernelRunA.sl.H16_33
  rw [View.readCov_cons_toLoadRect]
  refine Eq.trans ?_ (rowsOf_s c tbl i sim x2 x3 (zeroAcc) 31 (by decide)).symm
  unfold kernelRunA.sl.r_295 kernelRunA.sl.r_292 kernelRunA.sl.r_293
  simp only [S_v2654 c i tbl hT sim b10, V16_31 c i M2 hM2 M3 hM3 tbl hT sim x2 x3 b9 b10 a12 a13 a14 a15 a16 a17]
  try rfl
theorem V17_32 : kernelRunA.sl.v2810 c i tbl hT sim b9 b10 = (rowsOf c tbl i sim x2 x3 (zeroAcc) 32).q := by
  unfold kernelRunA.sl.v2810 kernelRunA.sl.H17_33
  rw [View.readCov_cons_toLoadRect]
  refine Eq.trans ?_ (rowsOf_q c tbl i sim x2 x3 (zeroAcc) 31 (by decide)).symm
  unfold kernelRunA.sl.r_296 kernelRunA.sl.r_292 kernelRunA.sl.r_293
  simp only [S_v2654 c i tbl hT sim b10, V17_31 c i M2 hM2 M3 hM3 tbl hT sim x2 x3 b9 b10 a12 a13 a14 a15 a16 a17]
  try rfl
theorem V15_33 : kernelRunA.sl.v2885 c i M2 hM2 M3 hM3 tbl hT sim x2 x3 b9 b10 = (rowsOf c tbl i sim x2 x3 (zeroAcc) 33).nf := by
  unfold kernelRunA.sl.v2885 kernelRunA.sl.H15_34
  rw [View.readCov_cons_toLoadRect]
  refine Eq.trans ?_ (rowsOf_nf c tbl i sim x2 x3 (zeroAcc) 32 (by decide)).symm
  unfold kernelRunA.sl.r_304 kernelRunA.sl.r_299 kernelRunA.sl.r_300
  simp only [S_v2739 c i tbl hT sim b9, V15_32 c i M2 hM2 M3 hM3 tbl hT sim x2 x3 b9 b10 a12 a13 a14 a15 a16 a17, in_read M2 hM2 x2 32 (by decide), mk_read M3 hM3 x3 32 (by decide)]
  try rfl
theorem V16_33 : kernelRunA.sl.v2890 c i tbl hT sim b9 b10 = (rowsOf c tbl i sim x2 x3 (zeroAcc) 33).s := by
  unfold kernelRunA.sl.v2890 kernelRunA.sl.H16_34
  rw [View.readCov_cons_toLoadRect]
  refine Eq.trans ?_ (rowsOf_s c tbl i sim x2 x3 (zeroAcc) 32 (by decide)).symm
  unfold kernelRunA.sl.r_306
  simp only [S_v2739 c i tbl hT sim b9, V16_32 c i M2 hM2 M3 hM3 tbl hT sim x2 x3 b9 b10 a12 a13 a14 a15 a16 a17]
  try rfl
theorem V17_33 : kernelRunA.sl.v2895 c i tbl hT sim b9 b10 = (rowsOf c tbl i sim x2 x3 (zeroAcc) 33).q := by
  unfold kernelRunA.sl.v2895 kernelRunA.sl.H17_34
  rw [View.readCov_cons_toLoadRect]
  refine Eq.trans ?_ (rowsOf_q c tbl i sim x2 x3 (zeroAcc) 32 (by decide)).symm
  unfold kernelRunA.sl.r_307
  simp only [S_v2739 c i tbl hT sim b9, V17_32 c i M2 hM2 M3 hM3 tbl hT sim x2 x3 b9 b10 a12 a13 a14 a15 a16 a17]
  try rfl
theorem V15_34 : kernelRunA.sl.v2970 c i M2 hM2 M3 hM3 tbl hT sim x2 x3 b9 b10 = (rowsOf c tbl i sim x2 x3 (zeroAcc) 34).nf := by
  unfold kernelRunA.sl.v2970 kernelRunA.sl.H15_35
  rw [View.readCov_cons_toLoadRect]
  refine Eq.trans ?_ (rowsOf_nf c tbl i sim x2 x3 (zeroAcc) 33 (by decide)).symm
  unfold kernelRunA.sl.r_315
  simp only [S_v2824 c i tbl hT sim b10, V15_33 c i M2 hM2 M3 hM3 tbl hT sim x2 x3 b9 b10 a12 a13 a14 a15 a16 a17, in_read M2 hM2 x2 33 (by decide), mk_read M3 hM3 x3 33 (by decide)]
  try rfl
theorem V16_34 : kernelRunA.sl.v2975 c i tbl hT sim b9 b10 = (rowsOf c tbl i sim x2 x3 (zeroAcc) 34).s := by
  unfold kernelRunA.sl.v2975 kernelRunA.sl.H16_35
  rw [View.readCov_cons_toLoadRect]
  refine Eq.trans ?_ (rowsOf_s c tbl i sim x2 x3 (zeroAcc) 33 (by decide)).symm
  unfold kernelRunA.sl.r_318 kernelRunA.sl.r_313
  simp only [S_v2824 c i tbl hT sim b10, V16_33 c i M2 hM2 M3 hM3 tbl hT sim x2 x3 b9 b10 a12 a13 a14 a15 a16 a17]
  try rfl
theorem V17_34 : kernelRunA.sl.v2980 c i tbl hT sim b9 b10 = (rowsOf c tbl i sim x2 x3 (zeroAcc) 34).q := by
  unfold kernelRunA.sl.v2980 kernelRunA.sl.H17_35
  rw [View.readCov_cons_toLoadRect]
  refine Eq.trans ?_ (rowsOf_q c tbl i sim x2 x3 (zeroAcc) 33 (by decide)).symm
  unfold kernelRunA.sl.r_317 kernelRunA.sl.r_313
  simp only [S_v2824 c i tbl hT sim b10, V17_33 c i M2 hM2 M3 hM3 tbl hT sim x2 x3 b9 b10 a12 a13 a14 a15 a16 a17]
  try rfl
theorem V15_35 : kernelRunA.sl.v3055 c i M2 hM2 M3 hM3 tbl hT sim x2 x3 b9 b10 = (rowsOf c tbl i sim x2 x3 (zeroAcc) 35).nf := by
  unfold kernelRunA.sl.v3055 kernelRunA.sl.H15_36
  rw [View.readCov_cons_toLoadRect]
  refine Eq.trans ?_ (rowsOf_nf c tbl i sim x2 x3 (zeroAcc) 34 (by decide)).symm
  unfold kernelRunA.sl.r_325 kernelRunA.sl.r_321 kernelRunA.sl.r_322 kernelRunA.sl.r_323 kernelRunA.sl.r_324
  simp only [S_v2909 c i tbl hT sim b9, V15_34 c i M2 hM2 M3 hM3 tbl hT sim x2 x3 b9 b10 a12 a13 a14 a15 a16 a17, in_read M2 hM2 x2 34 (by decide), mk_read M3 hM3 x3 34 (by decide)]
  try rfl
theorem V16_35 : kernelRunA.sl.v3060 c i tbl hT sim b9 b10 = (rowsOf c tbl i sim x2 x3 (zeroAcc) 35).s := by
  unfold kernelRunA.sl.v3060 kernelRunA.sl.H16_36
  rw [View.readCov_cons_toLoadRect]
  refine Eq.trans ?_ (rowsOf_s c tbl i sim x2 x3 (zeroAcc) 34 (by decide)).symm
  unfold kernelRunA.sl.r_326 kernelRunA.sl.r_323 kernelRunA.sl.r_324
  simp only [S_v2909 c i tbl hT sim b9, V16_34 c i M2 hM2 M3 hM3 tbl hT sim x2 x3 b9 b10 a12 a13 a14 a15 a16 a17]
  try rfl
theorem V17_35 : kernelRunA.sl.v3065 c i tbl hT sim b9 b10 = (rowsOf c tbl i sim x2 x3 (zeroAcc) 35).q := by
  unfold kernelRunA.sl.v3065 kernelRunA.sl.H17_36
  rw [View.readCov_cons_toLoadRect]
  refine Eq.trans ?_ (rowsOf_q c tbl i sim x2 x3 (zeroAcc) 34 (by decide)).symm
  unfold kernelRunA.sl.r_327 kernelRunA.sl.r_323 kernelRunA.sl.r_324
  simp only [S_v2909 c i tbl hT sim b9, V17_34 c i M2 hM2 M3 hM3 tbl hT sim x2 x3 b9 b10 a12 a13 a14 a15 a16 a17]
  try rfl
theorem V15_36 : kernelRunA.sl.v3140 c i M2 hM2 M3 hM3 tbl hT sim x2 x3 b9 b10 = (rowsOf c tbl i sim x2 x3 (zeroAcc) 36).nf := by
  unfold kernelRunA.sl.v3140 kernelRunA.sl.H15_37
  rw [View.readCov_cons_toLoadRect]
  refine Eq.trans ?_ (rowsOf_nf c tbl i sim x2 x3 (zeroAcc) 35 (by decide)).symm
  unfold kernelRunA.sl.r_334 kernelRunA.sl.r_330
  simp only [S_v2994 c i tbl hT sim b10, V15_35 c i M2 hM2 M3 hM3 tbl hT sim x2 x3 b9 b10 a12 a13 a14 a15 a16 a17, in_read M2 hM2 x2 35 (by decide), mk_read M3 hM3 x3 35 (by decide)]
  try rfl
theorem V16_36 : kernelRunA.sl.v3145 c i tbl hT sim b9 b10 = (rowsOf c tbl i sim x2 x3 (zeroAcc) 36).s := by
  unfold kernelRunA.sl.v3145 kernelRunA.sl.H16_37
  rw [View.readCov_cons_toLoadRect]
  refine Eq.trans ?_ (rowsOf_s c tbl i sim x2 x3 (zeroAcc) 35 (by decide)).symm
  unfold kernelRunA.sl.r_336
  simp only [S_v2994 c i tbl hT sim b10, V16_35 c i M2 hM2 M3 hM3 tbl hT sim x2 x3 b9 b10 a12 a13 a14 a15 a16 a17]
  try rfl
theorem V17_36 : kernelRunA.sl.v3150 c i tbl hT sim b9 b10 = (rowsOf c tbl i sim x2 x3 (zeroAcc) 36).q := by
  unfold kernelRunA.sl.v3150 kernelRunA.sl.H17_37
  rw [View.readCov_cons_toLoadRect]
  refine Eq.trans ?_ (rowsOf_q c tbl i sim x2 x3 (zeroAcc) 35 (by decide)).symm
  unfold kernelRunA.sl.r_337
  simp only [S_v2994 c i tbl hT sim b10, V17_35 c i M2 hM2 M3 hM3 tbl hT sim x2 x3 b9 b10 a12 a13 a14 a15 a16 a17]
  try rfl
theorem V15_37 : kernelRunA.sl.v3225 c i M2 hM2 M3 hM3 tbl hT sim x2 x3 b9 b10 = (rowsOf c tbl i sim x2 x3 (zeroAcc) 37).nf := by
  unfold kernelRunA.sl.v3225 kernelRunA.sl.H15_38
  rw [View.readCov_cons_toLoadRect]
  refine Eq.trans ?_ (rowsOf_nf c tbl i sim x2 x3 (zeroAcc) 36 (by decide)).symm
  unfold kernelRunA.sl.r_345
  simp only [S_v3079 c i tbl hT sim b9, V15_36 c i M2 hM2 M3 hM3 tbl hT sim x2 x3 b9 b10 a12 a13 a14 a15 a16 a17, in_read M2 hM2 x2 36 (by decide), mk_read M3 hM3 x3 36 (by decide)]
  try rfl
theorem V16_37 : kernelRunA.sl.v3230 c i tbl hT sim b9 b10 = (rowsOf c tbl i sim x2 x3 (zeroAcc) 37).s := by
  unfold kernelRunA.sl.v3230 kernelRunA.sl.H16_38
  rw [View.readCov_cons_toLoadRect]
  refine Eq.trans ?_ (rowsOf_s c tbl i sim x2 x3 (zeroAcc) 36 (by decide)).symm
  unfold kernelRunA.sl.r_346 kernelRunA.sl.r_343
  simp only [S_v3079 c i tbl hT sim b9, V16_36 c i M2 hM2 M3 hM3 tbl hT sim x2 x3 b9 b10 a12 a13 a14 a15 a16 a17]
  try rfl
theorem V17_37 : kernelRunA.sl.v3235 c i tbl hT sim b9 b10 = (rowsOf c tbl i sim x2 x3 (zeroAcc) 37).q := by
  unfold kernelRunA.sl.v3235 kernelRunA.sl.H17_38
  rw [View.readCov_cons_toLoadRect]
  refine Eq.trans ?_ (rowsOf_q c tbl i sim x2 x3 (zeroAcc) 36 (by decide)).symm
  unfold kernelRunA.sl.r_347 kernelRunA.sl.r_343
  simp only [S_v3079 c i tbl hT sim b9, V17_36 c i M2 hM2 M3 hM3 tbl hT sim x2 x3 b9 b10 a12 a13 a14 a15 a16 a17]
  try rfl
theorem V15_38 : kernelRunA.sl.v3310 c i M2 hM2 M3 hM3 tbl hT sim x2 x3 b9 b10 = (rowsOf c tbl i sim x2 x3 (zeroAcc) 38).nf := by
  unfold kernelRunA.sl.v3310 kernelRunA.sl.H15_39
  rw [View.readCov_cons_toLoadRect]
  refine Eq.trans ?_ (rowsOf_nf c tbl i sim x2 x3 (zeroAcc) 37 (by decide)).symm
  unfold kernelRunA.sl.r_355 kernelRunA.sl.r_350 kernelRunA.sl.r_351 kernelRunA.sl.r_352 kernelRunA.sl.r_353 kernelRunA.sl.cst_781
  simp only [S_v3164 c i tbl hT sim b10, V15_37 c i M2 hM2 M3 hM3 tbl hT sim x2 x3 b9 b10 a12 a13 a14 a15 a16 a17, in_read M2 hM2 x2 37 (by decide), mk_read M3 hM3 x3 37 (by decide)]
  try rfl
theorem V16_38 : kernelRunA.sl.v3315 c i tbl hT sim b9 b10 = (rowsOf c tbl i sim x2 x3 (zeroAcc) 38).s := by
  unfold kernelRunA.sl.v3315 kernelRunA.sl.H16_39
  rw [View.readCov_cons_toLoadRect]
  refine Eq.trans ?_ (rowsOf_s c tbl i sim x2 x3 (zeroAcc) 37 (by decide)).symm
  unfold kernelRunA.sl.r_356 kernelRunA.sl.r_352 kernelRunA.sl.r_353 kernelRunA.sl.cst_781
  simp only [S_v3164 c i tbl hT sim b10, V16_37 c i M2 hM2 M3 hM3 tbl hT sim x2 x3 b9 b10 a12 a13 a14 a15 a16 a17]
  try rfl
theorem V17_38 : kernelRunA.sl.v3320 c i tbl hT sim b9 b10 = (rowsOf c tbl i sim x2 x3 (zeroAcc) 38).q := by
  unfold kernelRunA.sl.v3320 kernelRunA.sl.H17_39
  rw [View.readCov_cons_toLoadRect]
  refine Eq.trans ?_ (rowsOf_q c tbl i sim x2 x3 (zeroAcc) 37 (by decide)).symm
  unfold kernelRunA.sl.r_357 kernelRunA.sl.r_352 kernelRunA.sl.r_353 kernelRunA.sl.cst_781
  simp only [S_v3164 c i tbl hT sim b10, V17_37 c i M2 hM2 M3 hM3 tbl hT sim x2 x3 b9 b10 a12 a13 a14 a15 a16 a17]
  try rfl
theorem V15_39 : kernelRunA.sl.v3395 c i M2 hM2 M3 hM3 tbl hT sim x2 x3 b9 b10 = (rowsOf c tbl i sim x2 x3 (zeroAcc) 39).nf := by
  unfold kernelRunA.sl.v3395 kernelRunA.sl.H15_40
  rw [View.readCov_cons_toLoadRect]
  refine Eq.trans ?_ (rowsOf_nf c tbl i sim x2 x3 (zeroAcc) 38 (by decide)).symm
  unfold kernelRunA.sl.r_362
  simp only [V15_38 c i M2 hM2 M3 hM3 tbl hT sim x2 x3 b9 b10 a12 a13 a14 a15 a16 a17, S_v_1 c i tbl hT sim b9, in_read M2 hM2 x2 38 (by decide), mk_read M3 hM3 x3 38 (by decide)]
  try rfl
theorem V16_39 : kernelRunA.sl.v3400 c i tbl hT sim b9 b10 = (rowsOf c tbl i sim x2 x3 (zeroAcc) 39).s := by
  unfold kernelRunA.sl.v3400 kernelRunA.sl.H16_40
  rw [View.readCov_cons_toLoadRect]
  refine Eq.trans ?_ (rowsOf_s c tbl i sim x2 x3 (zeroAcc) 38 (by decide)).symm
  unfold kernelRunA.sl.r_364
  simp only [V16_38 c i M2 hM2 M3 hM3 tbl hT sim x2 x3 b9 b10 a12 a13 a14 a15 a16 a17, S_v_1 c i tbl hT sim b9]
  try rfl
theorem V17_39 : kernelRunA.sl.v3405 c i tbl hT sim b9 b10 = (rowsOf c tbl i sim x2 x3 (zeroAcc) 39).q := by
  unfold kernelRunA.sl.v3405 kernelRunA.sl.H17_40
  rw [View.readCov_cons_toLoadRect]
  refine Eq.trans ?_ (rowsOf_q c tbl i sim x2 x3 (zeroAcc) 38 (by decide)).symm
  unfold kernelRunA.sl.r_365
  simp only [V17_38 c i M2 hM2 M3 hM3 tbl hT sim x2 x3 b9 b10 a12 a13 a14 a15 a16 a17, S_v_1 c i tbl hT sim b9]
  try rfl
theorem V15_40 : kernelRunA.sl.v3480 c i M2 hM2 M3 hM3 tbl hT sim x2 x3 b9 b10 = (rowsOf c tbl i sim x2 x3 (zeroAcc) 40).nf := by
  unfold kernelRunA.sl.v3480 kernelRunA.sl.H15_41
  rw [View.readCov_cons_toLoadRect]
  refine Eq.trans ?_ (rowsOf_nf c tbl i sim x2 x3 (zeroAcc) 39 (by decide)).symm
  unfold kernelRunA.sl.r_372
  simp only [S_v3334 c i tbl hT sim b10, V15_39 c i M2 hM2 M3 hM3 tbl hT sim x2 x3 b9 b10 a12 a13 a14 a15 a16 a17, in_read M2 hM2 x2 39 (by decide), mk_read M3 hM3 x3 39 (by decide)]
  try rfl
theorem V16_40 : kernelRunA.sl.v3485 c i tbl hT sim b9 b10 = (rowsOf c tbl i sim x2 x3 (zeroAcc) 40).s := by
  unfold kernelRunA.sl.v3485 kernelRunA.sl.H16_41
  rw [View.readCov_cons_toLoadRect]
  refine Eq.trans ?_ (rowsOf_s c tbl i sim x2 x3 (zeroAcc) 39 (by decide)).symm
  unfold kernelRunA.sl.r_373 kernelRunA.sl.r_370
  simp only [S_v3334 c i tbl hT sim b10, V16_39 c i M2 hM2 M3 hM3 tbl hT sim x2 x3 b9 b10 a12 a13 a14 a15 a16 a17]
  try rfl
theorem V17_40 : kernelRunA.sl.v3490 c i tbl hT sim b9 b10 = (rowsOf c tbl i sim x2 x3 (zeroAcc) 40).q := by
  unfold kernelRunA.sl.v3490 kernelRunA.sl.H17_41
  rw [View.readCov_cons_toLoadRect]
  refine Eq.trans ?_ (rowsOf_q c tbl i sim x2 x3 (zeroAcc) 39 (by decide)).symm
  unfold kernelRunA.sl.r_374 kernelRunA.sl.r_370
  simp only [S_v3334 c i tbl hT sim b10, V17_39 c i M2 hM2 M3 hM3 tbl hT sim x2 x3 b9 b10 a12 a13 a14 a15 a16 a17]
  try rfl
theorem V15_41 : kernelRunA.sl.v3565 c i M2 hM2 M3 hM3 tbl hT sim x2 x3 b9 b10 = (rowsOf c tbl i sim x2 x3 (zeroAcc) 41).nf := by
  unfold kernelRunA.sl.v3565 kernelRunA.sl.H15_42
  rw [View.readCov_cons_toLoadRect]
  refine Eq.trans ?_ (rowsOf_nf c tbl i sim x2 x3 (zeroAcc) 40 (by decide)).symm
  unfold kernelRunA.sl.r_381 kernelRunA.sl.r_377 kernelRunA.sl.r_378 kernelRunA.sl.r_379 kernelRunA.sl.cst_15
  simp only [S_v3419 c i tbl hT sim b9, V15_40 c i M2 hM2 M3 hM3 tbl hT sim x2 x3 b9 b10 a12 a13 a14 a15 a16 a17, in_read M2 hM2 x2 40 (by decide), mk_read M3 hM3 x3 40 (by decide)]
  try rfl
theorem V16_41 : kernelRunA.sl.v3570 c i tbl hT sim b9 b10 = (rowsOf c tbl i sim x2 x3 (zeroAcc) 41).s := by
  unfold kernelRunA.sl.v3570 kernelRunA.sl.H16_42
  rw [View.readCov_cons_toLoadRect]
  refine Eq.trans ?_ (rowsOf_s c tbl i sim x2 x3 (zeroAcc) 40 (by decide)).symm
  unfold kernelRunA.sl.r_382 kernelRunA.sl.r_379 kernelRunA.sl.cst_15
  simp only [S_v3419 c i tbl hT sim b9, V16_40 c i M2 hM2 M3 hM3 tbl hT sim x2 x3 b9 b10 a12 a13 a14 a15 a16 a17]
  try rfl
theorem V17_41 : kernelRunA.sl.v3575 c i tbl hT sim b9 b10 = (rowsOf c tbl i sim x2 x3 (zeroAcc) 41).q := by
  unfold kernelRunA.sl.v3575 kernelRunA.sl.H17_42
  rw [View.readCov_cons_toLoadRect]
  refine Eq.trans ?_ (rowsOf_q c tbl i sim x2 x3 (zeroAcc) 40 (by decide)).symm
  unfold kernelRunA.sl.r_383 kernelRunA.sl.r_379 kernelRunA.sl.cst_15
  simp only [S_v3419 c i tbl hT sim b9, V17_40 c i M2 hM2 M3 hM3 tbl hT sim x2 x3 b9 b10 a12 a13 a14 a15 a16 a17]
  try rfl
theorem V15_42 : kernelRunA.sl.v3650 c i M2 hM2 M3 hM3 tbl hT sim x2 x3 b9 b10 = (rowsOf c tbl i sim x2 x3 (zeroAcc) 42).nf := by
  unfold kernelRunA.sl.v3650 kernelRunA.sl.H15_43
  rw [View.readCov_cons_toLoadRect]
  refine Eq.trans ?_ (rowsOf_nf c tbl i sim x2 x3 (zeroAcc) 41 (by decide)).symm
  unfold kernelRunA.sl.r_389
  simp only [S_v3504 c i tbl hT sim b10, V15_41 c i M2 hM2 M3 hM3 tbl hT sim x2 x3 b9 b10 a12 a13 a14 a15 a16 a17, in_read M2 hM2 x2 41 (by decide), mk_read M3 hM3 x3 41 (by decide)]
  try rfl
theorem V16_42 : kernelRunA.sl.v3655 c i tbl hT sim b9 b10 = (rowsOf c tbl i sim x2 x3 (zeroAcc) 42).s := by
  unfold kernelRunA.sl.v3655 kernelRunA.sl.H16_43
  rw [View.readCov_cons_toLoadRect]
  refine Eq.trans ?_ (rowsOf_s c tbl i sim x2 x3 (zeroAcc) 41 (by decide)).symm
  unfold kernelRunA.sl.r_391
  simp only [S_v3504 c i tbl hT sim b10, V16_41 c i M2 hM2 M3 hM3 tbl hT sim x2 x3 b9 b10 a12 a13 a14 a15 a16 a17]
  try rfl
theorem V17_42 : kernelRunA.sl.v3660 c i tbl hT sim b9 b10 = (rowsOf c tbl i sim x2 x3 (zeroAcc) 42).q := by
  unfold kernelRunA.sl.v3660 kernelRunA.sl.H17_43
  rw [View.readCov_cons_toLoadRect]
  refine Eq.trans ?_ (rowsOf_q c tbl i sim x2 x3 (zeroAcc) 41 (by decide)).symm
  unfold kernelRunA.sl.r_393 kernelRunA.sl.r_392
  simp only [S_v3504 c i tbl hT sim b10, V17_41 c i M2 hM2 M3 hM3 tbl hT sim x2 x3 b9 b10 a12 a13 a14 a15 a16 a17]
  try rfl
theorem V15_43 : kernelRunA.sl.v3735 c i M2 hM2 M3 hM3 tbl hT sim x2 x3 b9 b10 = (rowsOf c tbl i sim x2 x3 (zeroAcc) 43).nf := by
  unfold kernelRunA.sl.v3735 kernelRunA.sl.H15_44
  rw [View.readCov_cons_toLoadRect]
  refine Eq.trans ?_ (rowsOf_nf c tbl i sim x2 x3 (zeroAcc) 42 (by decide)).symm
  unfold kernelRunA.sl.r_403 kernelRunA.sl.r_396 kernelRunA.sl.r_399 kernelRunA.sl.cst_109
  simp only [S_v3589 c i tbl hT sim b9, V15_42 c i M2 hM2 M3 hM3 tbl hT sim x2 x3 b9 b10 a12 a13 a14 a15 a16 a17, in_read M2 hM2 x2 42 (by decide), mk_read M3 hM3 x3 42 (by decide)]
  try rfl
theorem V16_43 : kernelRunA.sl.v3740 c i tbl hT sim b9 b10 = (rowsOf c tbl i sim x2 x3 (zeroAcc) 43).s := by
  unfold kernelRunA.sl.v3740 kernelRunA.sl.H16_44
  rw [View.readCov_cons_toLoadRect]
  refine Eq.trans ?_ (rowsOf_s c tbl i sim x2 x3 (zeroAcc) 42 (by decide)).symm
  unfold kernelRunA.sl.r_401 kernelRunA.sl.r_398
  simp only [S_v3589 c i tbl hT sim b9, V16_42 c i M2 hM2 M3 hM3 tbl hT sim x2 x3 b9 b10 a12 a13 a14 a15 a16 a17]
  try rfl
theorem V17_43 : kernelRunA.sl.v3745 c i tbl hT sim b9 b10 = (rowsOf c tbl i sim x2 x3 (zeroAcc) 43).q := by
  unfold kernelRunA.sl.v3745 kernelRunA.sl.H17_44
  rw [View.readCov_cons_toLoadRect]
  refine Eq.trans ?_ (rowsOf_q c tbl i sim x2 x3 (zeroAcc) 42 (by decide)).symm
  unfold kernelRunA.sl.r_402 kernelRunA.sl.r_398
  simp only [S_v3589 c i tbl hT sim b9, V17_42 c i M2 hM2 M3 hM3 tbl hT sim x2 x3 b9 b10 a12 a13 a14 a15 a16 a17]
  try rfl
theorem V15_44 : kernelRunA.sl.v3820 c i M2 hM2 M3 hM3 tbl hT sim x2 x3 b9 b10 = (rowsOf c tbl i sim x2 x3 (zeroAcc) 44).nf := by
  unfold kernelRunA.sl.v3820 kernelRunA.sl.H15_45
  rw [View.readCov_cons_toLoadRect]
  refine Eq.trans ?_ (rowsOf_nf c tbl i sim x2 x3 (zeroAcc) 43 (by decide)).symm
  unfold kernelRunA.sl.r_410 kernelRunA.sl.r_406 kernelRunA.sl.r_407 kernelRunA.sl.r_408
  simp only [S_v3674 c i tbl hT sim b10, V15_43 c i M2 hM2 M3 hM3 tbl hT sim x2 x3 b9 b10 a12 a13 a14 a15 a16 a17, in_read M2 hM2 x2 43 (by decide), mk_read M3 hM3 x3 43 (by decide)]
  try rfl
theorem V16_44 : kernelRunA.sl.v3825 c i tbl hT sim b9 b10 = (rowsOf c tbl i sim x2 x3 (zeroAcc) 44).s := by
  unfold kernelRunA.sl.v3825 kernelRunA.sl.H16_45
  rw [View.readCov_cons_toLoadRect]
  refine Eq.trans ?_ (rowsOf_s c tbl i sim x2 x3 (zeroAcc) 43 (by decide)).symm
  unfold kernelRunA.sl.r_411 kernelRunA.sl.r_408
  simp only [S_v3674 c i tbl hT sim b10, V16_43 c i M2 hM2 M3 hM3 tbl hT sim x2 x3 b9 b10 a12 a13 a14 a15 a16 a17]
  try rfl
theorem V17_44 : kernelRunA.sl.v3830 c i tbl hT sim b9 b10 = (rowsOf c tbl i sim x2 x3 (zeroAcc) 44).q := by
  unfold kernelRunA.sl.v3830 kernelRunA.sl.H17_45
  rw [View.readCov_cons_toLoadRect]
  refine Eq.trans ?_ (rowsOf_q c tbl i sim x2 x3 (zeroAcc) 43 (by decide)).symm
  unfold kernelRunA.sl.r_412 kernelRunA.sl.r_408
  simp only [S_v3674 c i tbl hT sim b10, V17_43 c i M2 hM2 M3 hM3 tbl hT sim x2 x3 b9 b10 a12 a13 a14 a15 a16 a17]
  try rfl
theorem V15_45 : kernelRunA.sl.v3905 c i M2 hM2 M3 hM3 tbl hT sim x2 x3 b9 b10 = (rowsOf c tbl i sim x2 x3 (zeroAcc) 45).nf := by
  unfold kernelRunA.sl.v3905 kernelRunA.sl.H15_46
  rw [View.readCov_cons_toLoadRect]
  refine Eq.trans ?_ (rowsOf_nf c tbl i sim x2 x3 (zeroAcc) 44 (by decide)).symm
  unfold kernelRunA.sl.r_419
  simp only [S_v3759 c i tbl hT sim b9, V15_44 c i M2 hM2 M3 hM3 tbl hT sim x2 x3 b9 b10 a12 a13 a14 a15 a16 a17, in_read M2 hM2 x2 44 (by decide), mk_read M3 hM3 x3 44 (by decide)]
  try rfl
theorem V16_45 : kernelRunA.sl.v3910 c i tbl hT sim b9 b10 = (rowsOf c tbl i sim x2 x3 (zeroAcc) 45).s := by
  unfold kernelRunA.sl.v3910 kernelRunA.sl.H16_46
  rw [View.readCov_cons_toLoadRect]
  refine Eq.trans ?_ (rowsOf_s c tbl i sim x2 x3 (zeroAcc) 44 (by decide)).symm
  unfold kernelRunA.sl.r_421
  simp only [S_v3759 c i tbl hT sim b9, V16_44 c i M2 hM2 M3 hM3 tbl hT sim x2 x3 b9 b10 a12 a13 a14 a15 a16 a17]
  try rfl
theorem V17_45 : kernelRunA.sl.v3915 c i tbl hT sim b9 b10 = (rowsOf c tbl i sim x2 x3 (zeroAcc) 45).q := by
  unfold kernelRunA.sl.v3915 kernelRunA.sl.H17_46
  rw [View.readCov_cons_toLoadRect]
  refine Eq.trans ?_ (rowsOf_q c tbl i sim x2 x3 (zeroAcc) 44 (by decide)).symm
  unfold kernelRunA.sl.r_422 kernelRunA.sl.r_417
  simp only [S_v3759 c i tbl hT sim b9, V17_44 c i M2 hM2 M3 hM3 tbl hT sim x2 x3 b9 b10 a12 a13 a14 a15 a16 a17]
  try rfl
theorem V15_46 : kernelRunA.sl.v3990 c i M2 hM2 M3 hM3 tbl hT sim x2 x3 b9 b10 = (rowsOf c tbl i sim x2 x3 (zeroAcc) 46).nf := by
  unfold kernelRunA.sl.v3990 kernelRunA.sl.H15_47
  rw [View.readCov_cons_toLoadRect]
  refine Eq.trans ?_ (rowsOf_nf c tbl i sim x2 x3 (zeroAcc) 45 (by decide)).symm
  unfold kernelRunA.sl.r_431 kernelRunA.sl.r_425 kernelRunA.sl.r_428
  simp only [S_v3844 c i tbl hT sim b10, V15_45 c i M2 hM2 M3 hM3 tbl hT sim x2 x3 b9 b10 a12 a13 a14 a15 a16 a17, in_read M2 hM2 x2 45 (by decide), mk_read M3 hM3 x3 45 (by decide)]
  try rfl
theorem V16_46 : kernelRunA.sl.v3995 c i tbl hT sim b9 b10 = (rowsOf c tbl i sim x2 x3 (zeroAcc) 46).s := by
  unfold kernelRunA.sl.v3995 kernelRunA.sl.H16_47
  rw [View.readCov_cons_toLoadRect]
  refine Eq.trans ?_ (rowsOf_s c tbl i sim x2 x3 (zeroAcc) 45 (by decide)).symm
  unfold kernelRunA.sl.r_429 kernelRunA.sl.r_427
  simp only [S_v3844 c i tbl hT sim b10, V16_45 c i M2 hM2 M3 hM3 tbl hT sim x2 x3 b9 b10 a12 a13 a14 a15 a16 a17]
  try rfl
theorem V17_46 : kernelRunA.sl.v4000 c i tbl hT sim b9 b10 = (rowsOf c tbl i sim x2 x3 (zeroAcc) 46).q := by
  unfold kernelRunA.sl.v4000 kernelRunA.sl.H17_47
  rw [View.readCov_cons_toLoadRect]
  refine Eq.trans ?_ (rowsOf_q c tbl i sim x2 x3 (zeroAcc) 45 (by decide)).symm
  unfold kernelRunA.sl.r_430 kernelRunA.sl.r_427
  simp only [S_v3844 c i tbl hT sim b10, V17_45 c i M2 hM2 M3 hM3 tbl hT sim x2 x3 b9 b10 a12 a13 a14 a15 a16 a17]
  try rfl
theorem V15_47 : kernelRunA.sl.v4075 c i M2 hM2 M3 hM3 tbl hT sim x2 x3 b9 b10 = (rowsOf c tbl i sim x2 x3 (zeroAcc) 47).nf := by
  unfold kernelRunA.sl.v4075 kernelRunA.sl.H15_48
  rw [View.readCov_cons_toLoadRect]
  refine Eq.trans ?_ (rowsOf_nf c tbl i sim x2 x3 (zeroAcc) 46 (by decide)).symm
  unfold kernelRunA.sl.r_437 kernelRunA.sl.r_434 kernelRunA.sl.r_435 kernelRunA.sl.cst_284
  simp only [S_v3929 c i tbl hT sim b9, V15_46 c i M2 hM2 M3 hM3 tbl hT sim x2 x3 b9 b10 a12 a13 a14 a15 a16 a17, in_read M2 hM2 x2 46 (by decide), mk_read M3 hM3 x3 46 (by decide)]
  try rfl
theorem V16_47 : kernelRunA.sl.v4080 c i tbl hT sim b9 b10 = (rowsOf c tbl i sim x2 x3 (zeroAcc) 47).s := by
  unfold kernelRunA.sl.v4080 kernelRunA.sl.H16_48
  rw [View.readCov_cons_toLoadRect]
  refine Eq.trans ?_ (rowsOf_s c tbl i sim x2 x3 (zeroAcc) 46 (by decide)).symm
  unfold kernelRunA.sl.r_438 kernelRunA.sl.cst_284
  simp only [S_v3929 c i tbl hT sim b9, V16_46 c i M2 hM2 M3 hM3 tbl hT sim x2 x3 b9 b10 a12 a13 a14 a15 a16 a17]
  try rfl
theorem V17_47 : kernelRunA.sl.v4085 c i tbl hT sim b9 b10 = (rowsOf c tbl i sim x2 x3 (zeroAcc) 47).q := by
  unfold kernelRunA.sl.v4085 kernelRunA.sl.H17_48
  rw [View.readCov_cons_toLoadRect]
  refine Eq.trans ?_ (rowsOf_q c tbl i sim x2 x3 (zeroAcc) 46 (by decide)).symm
  unfold kernelRunA.sl.r_439 kernelRunA.sl.cst_284
  simp only [S_v3929 c i tbl hT sim b9, V17_46 c i M2 hM2 M3 hM3 tbl hT sim x2 x3 b9 b10 a12 a13 a14 a15 a16 a17]
  try rfl
theorem V15_48 : kernelRunA.sl.v4160 c i M2 hM2 M3 hM3 tbl hT sim x2 x3 b9 b10 = (rowsOf c tbl i sim x2 x3 (zeroAcc) 48).nf := by
  unfold kernelRunA.sl.v4160 kernelRunA.sl.H15_49
  rw [View.readCov_cons_toLoadRect]
  refine Eq.trans ?_ (rowsOf_nf c tbl i sim x2 x3 (zeroAcc) 47 (by decide)).symm
  unfold kernelRunA.sl.r_446
  simp only [S_v4014 c i tbl hT sim b10, V15_47 c i M2 hM2 M3 hM3 tbl hT sim x2 x3 b9 b10 a12 a13 a14 a15 a16 a17, in_read M2 hM2 x2 47 (by decide), mk_read M3 hM3 x3 47 (by decide)]
  try rfl
theorem V16_48 : kernelRunA.sl.v4165 c i tbl hT sim b9 b10 = (rowsOf c tbl i sim x2 x3 (zeroAcc) 48).s := by
  unfold kernelRunA.sl.v4165 kernelRunA.sl.H16_49
  rw [View.readCov_cons_toLoadRect]
  refine Eq.trans ?_ (rowsOf_s c tbl i sim x2 x3 (zeroAcc) 47 (by decide)).symm
  unfold kernelRunA.sl.r_444
  simp only [S_v4014 c i tbl hT sim b10, V16_47 c i M2 hM2 M3 hM3 tbl hT sim x2 x3 b9 b10 a12 a13 a14 a15 a16 a17]
  try rfl
theorem V17_48 : kernelRunA.sl.v4170 c i tbl hT sim b9 b10 = (rowsOf c tbl i sim x2 x3 (zeroAcc) 48).q := by
  unfold kernelRunA.sl.v4170 kernelRunA.sl.H17_49
  rw [View.readCov_cons_toLoadRect]
  refine Eq.trans ?_ (rowsOf_q c tbl i sim x2 x3 (zeroAcc) 47 (by decide)).symm
  unfold kernelRunA.sl.r_448 kernelRunA.sl.r_444
  simp only [S_v4014 c i tbl hT sim b10, V17_47 c i M2 hM2 M3 hM3 tbl hT sim x2 x3 b9 b10 a12 a13 a14 a15 a16 a17]
  try rfl
theorem V15_49 : kernelRunA.sl.v4245 c i M2 hM2 M3 hM3 tbl hT sim x2 x3 b9 b10 = (rowsOf c tbl i sim x2 x3 (zeroAcc) 49).nf := by
  unfold kernelRunA.sl.v4245 kernelRunA.sl.H15_50
  rw [View.readCov_cons_toLoadRect]
  refine Eq.trans ?_ (rowsOf_nf c tbl i sim x2 x3 (zeroAcc) 48 (by decide)).symm
  unfold kernelRunA.sl.r_454 kernelRunA.sl.r_451 kernelRunA.sl.r_452 kernelRunA.sl.r_453
  simp only [S_v4099 c i tbl hT sim b9, V15_48 c i M2 hM2 M3 hM3 tbl hT sim x2 x3 b9 b10 a12 a13 a14 a15 a16 a17, in_read M2 hM2 x2 48 (by decide), mk_read M3 hM3 x3 48 (by decide)]
  try rfl
theorem V16_49 : kernelRunA.sl.v4250 c i tbl hT sim b9 b10 = (rowsOf c tbl i sim x2 x3 (zeroAcc) 49).s := by
  unfold kernelRunA.sl.v4250 kernelRunA.sl.H16_50
  rw [View.readCov_cons_toLoadRect]
  refine Eq.trans ?_ (rowsOf_s c tbl i sim x2 x3 (zeroAcc) 48 (by decide)).symm
  unfold kernelRunA.sl.r_455 kernelRunA.sl.r_453
  simp only [S_v4099 c i tbl hT sim b9, V16_48 c i M2 hM2 M3 hM3 tbl hT sim x2 x3 b9 b10 a12 a13 a14 a15 a16 a17]
  try rfl
theorem V17_49 : kernelRunA.sl.v4255 c i tbl hT sim b9 b10 = (rowsOf c tbl i sim x2 x3 (zeroAcc) 49).q := by
  unfold kernelRunA.sl.v4255 kernelRunA.sl.H17_50
  rw [View.readCov_cons_toLoadRect]
  refine Eq.trans ?_ (rowsOf_q c tbl i sim x2 x3 (zeroAcc) 48 (by decide)).symm
  unfold kernelRunA.sl.r_456 kernelRunA.sl.r_453
  simp only [S_v4099 c i tbl hT sim b9, V17_48 c i M2 hM2 M3 hM3 tbl hT sim x2 x3 b9 b10 a12 a13 a14 a15 a16 a17]
  try rfl
theorem V15_50 : kernelRunA.sl.v4330 c i M2 hM2 M3 hM3 tbl hT sim x2 x3 b9 b10 = (rowsOf c tbl i sim x2 x3 (zeroAcc) 50).nf := by
  unfold kernelRunA.sl.v4330 kernelRunA.sl.H15_51
  rw [View.readCov_cons_toLoadRect]
  refine Eq.trans ?_ (rowsOf_nf c tbl i sim x2 x3 (zeroAcc) 49 (by decide)).symm
  unfold kernelRunA.sl.r_462 kernelRunA.sl.r_458 kernelRunA.sl.r_459
  simp only [S_v4184 c i tbl hT sim b10, V15_49 c i M2 hM2 M3 hM3 tbl hT sim x2 x3 b9 b10 a12 a13 a14 a15 a16 a17, in_read M2 hM2 x2 49 (by decide), mk_read M3 hM3 x3 49 (by decide)]
  try rfl
theorem V16_50 : kernelRunA.sl.v4335 c i tbl hT sim b9 b10 = (rowsOf c tbl i sim x2 x3 (zeroAcc) 50).s := by
  unfold kernelRunA.sl.v4335 kernelRunA.sl.H16_51
  rw [View.readCov_cons_toLoadRect]
  refine Eq.trans ?_ (rowsOf_s c tbl i sim x2 x3 (zeroAcc) 49 (by decide)).symm
  unfold kernelRunA.sl.r_464
  simp only [S_v4184 c i tbl hT sim b10, V16_49 c i M2 hM2 M3 hM3 tbl hT sim x2 x3 b9 b10 a12 a13 a14 a15 a16 a17]
  try rfl
theorem V17_50 : kernelRunA.sl.v4340 c i tbl hT sim b9 b10 = (rowsOf c tbl i sim x2 x3 (zeroAcc) 50).q := by
  unfold kernelRunA.sl.v4340 kernelRunA.sl.H17_51
  rw [View.readCov_cons_toLoadRect]
  refine Eq.trans ?_ (rowsOf_q c tbl i sim x2 x3 (zeroAcc) 49 (by decide)).symm
  unfold kernelRunA.sl.r_465
  simp only [S_v4184 c i tbl hT sim b10, V17_49 c i M2 hM2 M3 hM3 tbl hT sim x2 x3 b9 b10 a12 a13 a14 a15 a16 a17]
  try rfl
theorem V15_51 : kernelRunA.sl.v4415 c i M2 hM2 M3 hM3 tbl hT sim x2 x3 b9 b10 = (rowsOf c tbl i sim x2 x3 (zeroAcc) 51).nf := by
  unfold kernelRunA.sl.v4415 kernelRunA.sl.H15_52
  rw [View.readCov_cons_toLoadRect]
  refine Eq.trans ?_ (rowsOf_nf c tbl i sim x2 x3 (zeroAcc) 50 (by decide)).symm
  unfold kernelRunA.sl.r_471
  simp only [S_v4269 c i tbl hT sim b9, V15_50 c i M2 hM2 M3 hM3 tbl hT sim x2 x3 b9 b10 a12 a13 a14 a15 a16 a17, in_read M2 hM2 x2 50 (by decide), mk_read M3 hM3 x3 50 (by decide)]
  try rfl
theorem V16_51 : kernelRunA.sl.v4420 c i tbl hT sim b9 b10 = (rowsOf c tbl i sim x2 x3 (zeroAcc) 51).s := by
  unfold kernelRunA.sl.v4420 kernelRunA.sl.H16_52
  rw [View.readCov_cons_toLoadRect]
  refine Eq.trans ?_ (rowsOf_s c tbl i sim x2 x3 (zeroAcc) 50 (by decide)).symm
  unfold kernelRunA.sl.r_474 kernelRunA.sl.r_469
  simp only [S_v4269 c i tbl hT sim b9, V16_50 c i M2 hM2 M3 hM3 tbl hT sim x2 x3 b9 b10 a12 a13 a14 a15 a16 a17]
  try rfl
theorem V17_51 : kernelRunA.sl.v4425 c i tbl hT sim b9 b10 = (rowsOf c tbl i sim x2 x3 (zeroAcc) 51).q := by
  unfold kernelRunA.sl.v4425 kernelRunA.sl.H17_52
  rw [View.readCov_cons_toLoadRect]
  refine Eq.trans ?_ (rowsOf_q c tbl i sim x2 x3 (zeroAcc) 50 (by decide)).symm
  unfold kernelRunA.sl.r_473 kernelRunA.sl.r_469
  simp only [S_v4269 c i tbl hT sim b9, V17_50 c i M2 hM2 M3 hM3 tbl hT sim x2 x3 b9 b10 a12 a13 a14 a15 a16 a17]
  try rfl
theorem V15_52 : kernelRunA.sl.v4500 c i M2 hM2 M3 hM3 tbl hT sim x2 x3 b9 b10 = (rowsOf c tbl i sim x2 x3 (zeroAcc) 52).nf := by
  unfold kernelRunA.sl.v4500 kernelRunA.sl.H15_53
  rw [View.readCov_cons_toLoadRect]
  refine Eq.trans ?_ (rowsOf_nf c tbl i sim x2 x3 (zeroAcc) 51 (by decide)).symm
  unfold kernelRunA.sl.r_481 kernelRunA.sl.r_477 kernelRunA.sl.r_478 kernelRunA.sl.r_479 kernelRunA.sl.r_480
  simp only [S_v4354 c i tbl hT sim b10, V15_51 c i M2 hM2 M3 hM3 tbl hT sim x2 x3 b9 b10 a12 a13 a14 a15 a16 a17, in_read M2 hM2 x2 51 (by decide), mk_read M3 hM3 x3 51 (by decide)]
  try rfl
theorem V16_52 : kernelRunA.sl.v4505 c i tbl hT sim b9 b10 = (rowsOf c tbl i sim x2 x3 (zeroAcc) 52).s := by
  unfold kernelRunA.sl.v4505 kernelRunA.sl.H16_53
  rw [View.readCov_cons_toLoadRect]
  refine Eq.trans ?_ (rowsOf_s c tbl i sim x2 x3 (zeroAcc) 51 (by decide)).symm
  unfold kernelRunA.sl.r_482 kernelRunA.sl.r_479 kernelRunA.sl.r_480
  simp only [S_v4354 c i tbl hT sim b10, V16_51 c i M2 hM2 M3 hM3 tbl hT sim x2 x3 b9 b10 a12 a13 a14 a15 a16 a17]
  try rfl
theorem V17_52 : kernelRunA.sl.v4510 c i tbl hT sim b9 b10 = (rowsOf c tbl i sim x2 x3 (zeroAcc) 52).q := by
  unfold kernelRunA.sl.v4510 kernelRunA.sl.H17_53
  rw [View.readCov_cons_toLoadRect]
  refine Eq.trans ?_ (rowsOf_q c tbl i sim x2 x3 (zeroAcc) 51 (by decide)).symm
  unfold kernelRunA.sl.r_483 kernelRunA.sl.r_479 kernelRunA.sl.r_480
  simp only [S_v4354 c i tbl hT sim b10, V17_51 c i M2 hM2 M3 hM3 tbl hT sim x2 x3 b9 b10 a12 a13 a14 a15 a16 a17]
  try rfl
theorem V15_53 : kernelRunA.sl.v4585 c i M2 hM2 M3 hM3 tbl hT sim x2 x3 b9 b10 = (rowsOf c tbl i sim x2 x3 (zeroAcc) 53).nf := by
  unfold kernelRunA.sl.v4585 kernelRunA.sl.H15_54
  rw [View.readCov_cons_toLoadRect]
  refine Eq.trans ?_ (rowsOf_nf c tbl i sim x2 x3 (zeroAcc) 52 (by decide)).symm
  unfold kernelRunA.sl.r_491 kernelRunA.sl.r_486 kernelRunA.sl.r_487
  simp only [S_v4439 c i tbl hT sim b9, V15_52 c i M2 hM2 M3 hM3 tbl hT sim x2 x3 b9 b10 a12 a13 a14 a15 a16 a17, in_read M2 hM2 x2 52 (by decide), mk_read M3 hM3 x3 52 (by decide)]
  try rfl
theorem V16_53 : kernelRunA.sl.v4590 c i tbl hT sim b9 b10 = (rowsOf c tbl i sim x2 x3 (zeroAcc) 53).s := by
  unfold kernelRunA.sl.v4590 kernelRunA.sl.H16_54
  rw [View.readCov_cons_toLoadRect]
  refine Eq.trans ?_ (rowsOf_s c tbl i sim x2 x3 (zeroAcc) 52 (by decide)).symm
  unfold kernelRunA.sl.r_493
  simp only [S_v4439 c i tbl hT sim b9, V16_52 c i M2 hM2 M3 hM3 tbl hT sim x2 x3 b9 b10 a12 a13 a14 a15 a16 a17]
  try rfl
theorem V17_53 : kernelRunA.sl.v4595 c i tbl hT sim b9 b10 = (rowsOf c tbl i sim x2 x3 (zeroAcc) 53).q := by
  unfold kernelRunA.sl.v4595 kernelRunA.sl.H17_54
  rw [View.readCov_cons_toLoadRect]
  refine Eq.trans ?_ (rowsOf_q c tbl i sim x2 x3 (zeroAcc) 52 (by decide)).symm
  unfold kernelRunA.sl.r_494
  simp only [S_v4439 c i tbl hT sim b9, V17_52 c i M2 hM2 M3 hM3 tbl hT sim x2 x3 b9 b10 a12 a13 a14 a15 a16 a17]
  try rfl
theorem V15_54 : kernelRunA.sl.v4670 c i M2 hM2 M3 hM3 tbl hT sim x2 x3 b9 b10 = (rowsOf c tbl i sim x2 x3 (zeroAcc) 54).nf := by
  unfold kernelRunA.sl.v4670 kernelRunA.sl.H15_55
  rw [View.readCov_cons_toLoadRect]
  refine Eq.trans ?_ (rowsOf_nf c tbl i sim x2 x3 (zeroAcc) 53 (by decide)).symm
  unfold kernelRunA.sl.r_502
  simp only [S_v4524 c i tbl hT sim b10, V15_53 c i M2 hM2 M3 hM3 tbl hT sim x2 x3 b9 b10 a12 a13 a14 a15 a16 a17, in_read M2 hM2 x2 53 (by decide), mk_read M3 hM3 x3 53 (by decide)]
  try rfl
theorem V16_54 : kernelRunA.sl.v4675 c i tbl hT sim b9 b10 = (rowsOf c tbl i sim x2 x3 (zeroAcc) 54).s := by
  unfold kernelRunA.sl.v4675 kernelRunA.sl.H16_55
  rw [View.readCov_cons_toLoadRect]
  refine Eq.trans ?_ (rowsOf_s c tbl i sim x2 x3 (zeroAcc) 53 (by decide)).symm
  unfold kernelRunA.sl.r_505 kernelRunA.sl.r_500
  simp only [S_v4524 c i tbl hT sim b10, V16_53 c i M2 hM2 M3 hM3 tbl hT sim x2 x3 b9 b10 a12 a13 a14 a15 a16 a17]
  try rfl
theorem V17_54 : kernelRunA.sl.v4680 c i tbl hT sim b9 b10 = (rowsOf c tbl i sim x2 x3 (zeroAcc) 54).q := by
  unfold kernelRunA.sl.v4680 kernelRunA.sl.H17_55
  rw [View.readCov_cons_toLoadRect]
  refine Eq.trans ?_ (rowsOf_q c tbl i sim x2 x3 (zeroAcc) 53 (by decide)).symm
  unfold kernelRunA.sl.r_504 kernelRunA.sl.r_500
  simp only [S_v4524 c i tbl hT sim b10, V17_53 c i M2 hM2 M3 hM3 tbl hT sim x2 x3 b9 b10 a12 a13 a14 a15 a16 a17]
  try rfl
theorem V15_55 : kernelRunA.sl.v4755 c i M2 hM2 M3 hM3 tbl hT sim x2 x3 b9 b10 = (rowsOf c tbl i sim x2 x3 (zeroAcc) 55).nf := by
  unfold kernelRunA.sl.v4755 kernelRunA.sl.H15_56
  rw [View.readCov_cons_toLoadRect]
  refine Eq.trans ?_ (rowsOf_nf c tbl i sim x2 x3 (zeroAcc) 54 (by decide)).symm
  unfold kernelRunA.sl.r_512 kernelRunA.sl.r_508 kernelRunA.sl.r_509 kernelRunA.sl.r_510 kernelRunA.sl.r_511
  simp only [S_v4609 c i tbl hT sim b9, V15_54 c i M2 hM2 M3 hM3 tbl hT sim x2 x3 b9 b10 a12 a13 a14 a15 a16 a17, in_read M2 hM2 x2 54 (by decide), mk_read M3 hM3 x3 54 (by decide)]
  try rfl
theorem V16_55 : kernelRunA.sl.v4760 c i tbl hT sim b9 b10 = (rowsOf c tbl i sim x2 x3 (zeroAcc) 55).s := by
  unfold kernelRunA.sl.v4760 kernelRunA.sl.H16_56
  rw [View.readCov_cons_toLoadRect]
  refine Eq.trans ?_ (rowsOf_s c tbl i sim x2 x3 (zeroAcc) 54 (by decide)).symm
  unfold kernelRunA.sl.r_513 kernelRunA.sl.r_510 kernelRunA.sl.r_511
  simp only [S_v4609 c i tbl hT sim b9, V16_54 c i M2 hM2 M3 hM3 tbl hT sim x2 x3 b9 b10 a12 a13 a14 a15 a16 a17]
  try rfl
theorem V17_55 : kernelRunA.sl.v4765 c i tbl hT sim b9 b10 = (rowsOf c tbl i sim x2 x3 (zeroAcc) 55).q := by
  unfold kernelRunA.sl.v4765 kernelRunA.sl.H17_56
  rw [View.readCov_cons_toLoadRect]
  refine Eq.trans ?_ (rowsOf_q c tbl i sim x2 x3 (zeroAcc) 54 (by decide)).symm
  unfold kernelRunA.sl.r_514 kernelRunA.sl.r_510 kernelRunA.sl.r_511
  simp only [S_v4609 c i tbl hT sim b9, V17_54 c i M2 hM2 M3 hM3 tbl hT sim x2 x3 b9 b10 a12 a13 a14 a15 a16 a17]
  try rfl
theorem V15_56 : kernelRunA.sl.v4840 c i M2 hM2 M3 hM3 tbl hT sim x2 x3 b9 b10 = (rowsOf c tbl i sim x2 x3 (zeroAcc) 56).nf := by
  unfold kernelRunA.sl.v4840 kernelRunA.sl.H15_57
  rw [View.readCov_cons_toLoadRect]
  refine Eq.trans ?_ (rowsOf_nf c tbl i sim x2 x3 (zeroAcc) 55 (by decide)).symm
  unfold kernelRunA.sl.r_521 kernelRunA.sl.r_517
  simp only [S_v4694 c i tbl hT sim b10, V15_55 c i M2 hM2 M3 hM3 tbl hT sim x2 x3 b9 b10 a12 a13 a14 a15 a16 a17, in_read M2 hM2 x2 55 (by decide), mk_read M3 hM3 x3 55 (by decide)]
  try rfl
theorem V16_56 : kernelRunA.sl.v4845 c i tbl hT sim b9 b10 = (rowsOf c tbl i sim x2 x3 (zeroAcc) 56).s := by
  unfold kernelRunA.sl.v4845 kernelRunA.sl.H16_57
  rw [View.readCov_cons_toLoadRect]
  refine Eq.trans ?_ (rowsOf_s c tbl i sim x2 x3 (zeroAcc) 55 (by decide)).symm
  unfold kernelRunA.sl.r_523
  simp only [S_v4694 c i tbl hT sim b10, V16_55 c i M2 hM2 M3 hM3 tbl hT sim x2 x3 b9 b10 a12 a13 a14 a15 a16 a17]
  try rfl
theorem V17_56 : kernelRunA.sl.v4850 c i tbl hT sim b9 b10 = (rowsOf c tbl i sim x2 x3 (zeroAcc) 56).q := by
  unfold kernelRunA.sl.v4850 kernelRunA.sl.H17_57
  rw [View.readCov_cons_toLoadRect]
  refine Eq.trans ?_ (rowsOf_q c tbl i sim x2 x3 (zeroAcc) 55 (by decide)).symm
  unfold kernelRunA.sl.r_524
  simp only [S_v4694 c i tbl hT sim b10, V17_55 c i M2 hM2 M3 hM3 tbl hT sim x2 x3 b9 b10 a12 a13 a14 a15 a16 a17]
  try rfl
theorem V15_57 : kernelRunA.sl.v4925 c i M2 hM2 M3 hM3 tbl hT sim x2 x3 b9 b10 = (rowsOf c tbl i sim x2 x3 (zeroAcc) 57).nf := by
  unfold kernelRunA.sl.v4925 kernelRunA.sl.H15_58
  rw [View.readCov_cons_toLoadRect]
  refine Eq.trans ?_ (rowsOf_nf c tbl i sim x2 x3 (zeroAcc) 56 (by decide)).symm
  unfold kernelRunA.sl.r_532
  simp only [S_v4779 c i tbl hT sim b9, V15_56 c i M2 hM2 M3 hM3 tbl hT sim x2 x3 b9 b10 a12 a13 a14 a15 a16 a17, in_read M2 hM2 x2 56 (by decide), mk_read M3 hM3 x3 56 (by decide)]
  try rfl
theorem V16_57 : kernelRunA.sl.v4930 c i tbl hT sim b9 b10 = (rowsOf c tbl i sim x2 x3 (zeroAcc) 57).s := by
  unfold kernelRunA.sl.v4930 kernelRunA.sl.H16_58
  rw [View.readCov_cons_toLoadRect]
  refine Eq.trans ?_ (rowsOf_s c tbl i sim x2 x3 (zeroAcc) 56 (by decide)).symm
  unfold kernelRunA.sl.r_533 kernelRunA.sl.r_530
  simp only [S_v4779 c i tbl hT sim b9, V16_56 c i M2 hM2 M3 hM3 tbl hT sim x2 x3 b9 b10 a12 a13 a14 a15 a16 a17]
  try rfl
theorem V17_57 : kernelRunA.sl.v4935 c i tbl hT sim b9 b10 = (rowsOf c tbl i sim x2 x3 (zeroAcc) 57).q := by
  unfold kernelRunA.sl.v4935 kernelRunA.sl.H17_58
  rw [View.readCov_cons_toLoadRect]
  refine Eq.trans ?_ (rowsOf_q c tbl i sim x2 x3 (zeroAcc) 56 (by decide)).symm
  unfold kernelRunA.sl.r_534 kernelRunA.sl.r_530
  simp only [S_v4779 c i tbl hT sim b9, V17_56 c i M2 hM2 M3 hM3 tbl hT sim x2 x3 b9 b10 a12 a13 a14 a15 a16 a17]
  try rfl
theorem V15_58 : kernelRunA.sl.v5010 c i M2 hM2 M3 hM3 tbl hT sim x2 x3 b9 b10 = (rowsOf c tbl i sim x2 x3 (zeroAcc) 58).nf := by
  unfold kernelRunA.sl.v5010 kernelRunA.sl.H15_59
  rw [View.readCov_cons_toLoadRect]
  refine Eq.trans ?_ (rowsOf_nf c tbl i sim x2 x3 (zeroAcc) 57 (by decide)).symm
  unfold kernelRunA.sl.r_542 kernelRunA.sl.r_537 kernelRunA.sl.r_538 kernelRunA.sl.r_539 kernelRunA.sl.r_540 kernelRunA.sl.cst_781
  simp only [S_v4864 c i tbl hT sim b10, V15_57 c i M2 hM2 M3 hM3 tbl hT sim x2 x3 b9 b10 a12 a13 a14 a15 a16 a17, in_read M2 hM2 x2 57 (by decide), mk_read M3 hM3 x3 57 (by decide)]
  try rfl
theorem V16_58 : kernelRunA.sl.v5015 c i tbl hT sim b9 b10 = (rowsOf c tbl i sim x2 x3 (zeroAcc) 58).s := by
  unfold kernelRunA.sl.v5015 kernelRunA.sl.H16_59
  rw [View.readCov_cons_toLoadRect]
  refine Eq.trans ?_ (rowsOf_s c tbl i sim x2 x3 (zeroAcc) 57 (by decide)).symm
  unfold kernelRunA.sl.r_543 kernelRunA.sl.r_539 kernelRunA.sl.r_540 kernelRunA.sl.cst_781
  simp only [S_v4864 c i tbl hT sim b10, V16_57 c i M2 hM2 M3 hM3 tbl hT sim x2 x3 b9 b10 a12 a13 a14 a15 a16 a17]
  try rfl
theorem V17_58 : kernelRunA.sl.v5020 c i tbl hT sim b9 b10 = (rowsOf c tbl i sim x2 x3 (zeroAcc) 58).q := by
  unfold kernelRunA.sl.v5020 kernelRunA.sl.H17_59
  rw [View.readCov_cons_toLoadRect]
  refine Eq.trans ?_ (rowsOf_q c tbl i sim x2 x3 (zeroAcc) 57 (by decide)).symm
  unfold kernelRunA.sl.r_544 kernelRunA.sl.r_539 kernelRunA.sl.r_540 kernelRunA.sl.cst_781
  simp only [S_v4864 c i tbl hT sim b10, V17_57 c i M2 hM2 M3 hM3 tbl hT sim x2 x3 b9 b10 a12 a13 a14 a15 a16 a17]
  try rfl
theorem V15_59 : kernelRunA.sl.v5095 c i M2 hM2 M3 hM3 tbl hT sim x2 x3 b9 b10 = (rowsOf c tbl i sim x2 x3 (zeroAcc) 59).nf := by
  unfold kernelRunA.sl.v5095 kernelRunA.sl.H15_60
  rw [View.readCov_cons_toLoadRect]
  refine Eq.trans ?_ (rowsOf_nf c tbl i sim x2 x3 (zeroAcc) 58 (by decide)).symm
  unfold kernelRunA.sl.r_549
  simp only [V15_58 c i M2 hM2 M3 hM3 tbl hT sim x2 x3 b9 b10 a12 a13 a14 a15 a16 a17, S_v_2 c i tbl hT sim b9, in_read M2 hM2 x2 58 (by decide), mk_read M3 hM3 x3 58 (by decide)]
  try rfl
theorem V16_59 : kernelRunA.sl.v5100 c i tbl hT sim b9 b10 = (rowsOf c tbl i sim x2 x3 (zeroAcc) 59).s := by
  unfold kernelRunA.sl.v5100 kernelRunA.sl.H16_60
  rw [View.readCov_cons_toLoadRect]
  refine Eq.trans ?_ (rowsOf_s c tbl i sim x2 x3 (zeroAcc) 58 (by decide)).symm
  unfold kernelRunA.sl.r_551
  simp only [V16_58 c i M2 hM2 M3 hM3 tbl hT sim x2 x3 b9 b10 a12 a13 a14 a15 a16 a17, S_v_2 c i tbl hT sim b9]
  try rfl
theorem V17_59 : kernelRunA.sl.v5105 c i tbl hT sim b9 b10 = (rowsOf c tbl i sim x2 x3 (zeroAcc) 59).q := by
  unfold kernelRunA.sl.v5105 kernelRunA.sl.H17_60
  rw [View.readCov_cons_toLoadRect]
  refine Eq.trans ?_ (rowsOf_q c tbl i sim x2 x3 (zeroAcc) 58 (by decide)).symm
  unfold kernelRunA.sl.r_552
  simp only [V17_58 c i M2 hM2 M3 hM3 tbl hT sim x2 x3 b9 b10 a12 a13 a14 a15 a16 a17, S_v_2 c i tbl hT sim b9]
  try rfl
theorem V15_60 : kernelRunA.sl.v5180 c i M2 hM2 M3 hM3 tbl hT sim x2 x3 b9 b10 = (rowsOf c tbl i sim x2 x3 (zeroAcc) 60).nf := by
  unfold kernelRunA.sl.v5180 kernelRunA.sl.H15_61
  rw [View.readCov_cons_toLoadRect]
  refine Eq.trans ?_ (rowsOf_nf c tbl i sim x2 x3 (zeroAcc) 59 (by decide)).symm
  unfold kernelRunA.sl.r_559
  simp only [S_v5034 c i tbl hT sim b10, V15_59 c i M2 hM2 M3 hM3 tbl hT sim x2 x3 b9 b10 a12 a13 a14 a15 a16 a17, in_read M2 hM2 x2 59 (by decide), mk_read M3 hM3 x3 59 (by decide)]
  try rfl
theorem V16_60 : kernelRunA.sl.v5185 c i tbl hT sim b9 b10 = (rowsOf c tbl i sim x2 x3 (zeroAcc) 60).s := by
  unfold kernelRunA.sl.v5185 kernelRunA.sl.H16_61
  rw [View.readCov_cons_toLoadRect]
  refine Eq.trans ?_ (rowsOf_s c tbl i sim x2 x3 (zeroAcc) 59 (by decide)).symm
  unfold kernelRunA.sl.r_560 kernelRunA.sl.r_557
  simp only [S_v5034 c i tbl hT sim b10, V16_59 c i M2 hM2 M3 hM3 tbl hT sim x2 x3 b9 b10 a12 a13 a14 a15 a16 a17]
  try rfl
theorem V17_60 : kernelRunA.sl.v5190 c i tbl hT sim b9 b10 = (rowsOf c tbl i sim x2 x3 (zeroAcc) 60).q := by
  unfold kernelRunA.sl.v5190 kernelRunA.sl.H17_61
  rw [View.readCov_cons_toLoadRect]
  refine Eq.trans ?_ (rowsOf_q c tbl i sim x2 x3 (zeroAcc) 59 (by decide)).symm
  unfold kernelRunA.sl.r_561 kernelRunA.sl.r_557
  simp only [S_v5034 c i tbl hT sim b10, V17_59 c i M2 hM2 M3 hM3 tbl hT sim x2 x3 b9 b10 a12 a13 a14 a15 a16 a17]
  try rfl
theorem V15_61 : kernelRunA.sl.v5265 c i M2 hM2 M3 hM3 tbl hT sim x2 x3 b9 b10 = (rowsOf c tbl i sim x2 x3 (zeroAcc) 61).nf := by
  unfold kernelRunA.sl.v5265 kernelRunA.sl.H15_62
  rw [View.readCov_cons_toLoadRect]
  refine Eq.trans ?_ (rowsOf_nf c tbl i sim x2 x3 (zeroAcc) 60 (by decide)).symm
  unfold kernelRunA.sl.r_568 kernelRunA.sl.r_564 kernelRunA.sl.r_565 kernelRunA.sl.r_566 kernelRunA.sl.cst_15
  simp only [S_v5119 c i tbl hT sim b9, V15_60 c i M2 hM2 M3 hM3 tbl hT sim x2 x3 b9 b10 a12 a13 a14 a15 a16 a17, in_read M2 hM2 x2 60 (by decide), mk_read M3 hM3 x3 60 (by decide)]
  try rfl
theorem V16_61 : kernelRunA.sl.v5270 c i tbl hT sim b9 b10 = (rowsOf c tbl i sim x2 x3 (zeroAcc) 61).s := by
  unfold kernelRunA.sl.v5270 kernelRunA.sl.H16_62
  rw [View.readCov_cons_toLoadRect]
  refine Eq.trans ?_ (rowsOf_s c tbl i sim x2 x3 (zeroAcc) 60 (by decide)).symm
  unfold kernelRunA.sl.r_569 kernelRunA.sl.r_566 kernelRunA.sl.cst_15
  simp only [S_v5119 c i tbl hT sim b9, V16_60 c i M2 hM2 M3 hM3 tbl hT sim x2 x3 b9 b10 a12 a13 a14 a15 a16 a17]
  try rfl
theorem V17_61 : kernelRunA.sl.v5275 c i tbl hT sim b9 b10 = (rowsOf c tbl i sim x2 x3 (zeroAcc) 61).q := by
  unfold kernelRunA.sl.v5275 kernelRunA.sl.H17_62
  rw [View.readCov_cons_toLoadRect]
  refine Eq.trans ?_ (rowsOf_q c tbl i sim x2 x3 (zeroAcc) 60 (by decide)).symm
  unfold kernelRunA.sl.r_570 kernelRunA.sl.r_566 kernelRunA.sl.cst_15
  simp only [S_v5119 c i tbl hT sim b9, V17_60 c i M2 hM2 M3 hM3 tbl hT sim x2 x3 b9 b10 a12 a13 a14 a15 a16 a17]
  try rfl
theorem V15_62 : kernelRunA.sl.v5350 c i M2 hM2 M3 hM3 tbl hT sim x2 x3 b9 b10 = (rowsOf c tbl i sim x2 x3 (zeroAcc) 62).nf := by
  unfold kernelRunA.sl.v5350 kernelRunA.sl.H15_63
  rw [View.readCov_cons_toLoadRect]
  refine Eq.trans ?_ (rowsOf_nf c tbl i sim x2 x3 (zeroAcc) 61 (by decide)).symm
  unfold kernelRunA.sl.r_576
  simp only [S_v5204 c i tbl hT sim b10, V15_61 c i M2 hM2 M3 hM3 tbl hT sim x2 x3 b9 b10 a12 a13 a14 a15 a16 a17, in_read M2 hM2 x2 61 (by decide), mk_read M3 hM3 x3 61 (by decide)]
  try rfl
theorem V16_62 : kernelRunA.sl.v5355 c i tbl hT sim b9 b10 = (rowsOf c tbl i sim x2 x3 (zeroAcc) 62).s := by
  unfold kernelRunA.sl.v5355 kernelRunA.sl.H16_63
  rw [View.readCov_cons_toLoadRect]
  refine Eq.trans ?_ (rowsOf_s c tbl i sim x2 x3 (zeroAcc) 61 (by decide)).symm
  unfold kernelRunA.sl.r_578
  simp only [S_v5204 c i tbl hT sim b10, V16_61 c i M2 hM2 M3 hM3 tbl hT sim x2 x3 b9 b10 a12 a13 a14 a15 a16 a17]
  try rfl
theorem V17_62 : kernelRunA.sl.v5360 c i tbl hT sim b9 b10 = (rowsOf c tbl i sim x2 x3 (zeroAcc) 62).q := by
  unfold kernelRunA.sl.v5360 kernelRunA.sl.H17_63
  rw [View.readCov_cons_toLoadRect]
  refine Eq.trans ?_ (rowsOf_q c tbl i sim x2 x3 (zeroAcc) 61 (by decide)).symm
  unfold kernelRunA.sl.r_580 kernelRunA.sl.r_579
  simp only [S_v5204 c i tbl hT sim b10, V17_61 c i M2 hM2 M3 hM3 tbl hT sim x2 x3 b9 b10 a12 a13 a14 a15 a16 a17]
  try rfl
theorem V15_63 : kernelRunA.sl.v5429 c i M2 hM2 M3 hM3 tbl hT sim x2 x3 b9 b10 = (rowsOf c tbl i sim x2 x3 (zeroAcc) 63).nf := by
  unfold kernelRunA.sl.v5429 kernelRunA.sl.H15_64
  rw [View.readCov_cons_toLoadRect]
  refine Eq.trans ?_ (rowsOf_nf c tbl i sim x2 x3 (zeroAcc) 62 (by decide)).symm
  unfold kernelRunA.sl.r_590 kernelRunA.sl.r_583 kernelRunA.sl.r_586 kernelRunA.sl.cst_109
  simp only [S_v5289 c i tbl hT sim b9, V15_62 c i M2 hM2 M3 hM3 tbl hT sim x2 x3 b9 b10 a12 a13 a14 a15 a16 a17, in_read M2 hM2 x2 62 (by decide), mk_read M3 hM3 x3 62 (by decide)]
  try rfl
theorem V16_63 : kernelRunA.sl.v5434 c i tbl hT sim b9 b10 = (rowsOf c tbl i sim x2 x3 (zeroAcc) 63).s := by
  unfold kernelRunA.sl.v5434 kernelRunA.sl.H16_64
  rw [View.readCov_cons_toLoadRect]
  refine Eq.trans ?_ (rowsOf_s c tbl i sim x2 x3 (zeroAcc) 62 (by decide)).symm
  unfold kernelRunA.sl.r_588 kernelRunA.sl.r_585
  simp only [S_v5289 c i tbl hT sim b9, V16_62 c i M2 hM2 M3 hM3 tbl hT sim x2 x3 b9 b10 a12 a13 a14 a15 a16 a17]
  try rfl
theorem V17_63 : kernelRunA.sl.v5439 c i tbl hT sim b9 b10 = (rowsOf c tbl i sim x2 x3 (zeroAcc) 63).q := by
  unfold kernelRunA.sl.v5439 kernelRunA.sl.H17_64
  rw [View.readCov_cons_toLoadRect]
  refine Eq.trans ?_ (rowsOf_q c tbl i sim x2 x3 (zeroAcc) 62 (by decide)).symm
  unfold kernelRunA.sl.r_589 kernelRunA.sl.r_585
  simp only [S_v5289 c i tbl hT sim b9, V17_62 c i M2 hM2 M3 hM3 tbl hT sim x2 x3 b9 b10 a12 a13 a14 a15 a16 a17]
  try rfl
theorem L15_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : C1 i) (h2 : ¬ C2 i) : (kernelRunA c i M2 hM2 M3 hM3 M5 hM5 M6 hM6 M7 hM7 M8 hM8 tbl hT sim x2 x3 b9 b10 a12 a13 a14 a15 a16 a17 h1 h2).2.2.2.1 = ⟨Rect.unit ![0, 0] S1x1.size inb_S1x1_S1x1_0_0, k0_pay968 (kernelRunA.sl.r_596 c i M2 hM2 M3 hM3 tbl hT sim x2 x3 b10) (kernelRunA.sl.v5429 c i M2 hM2 M3 hM3 tbl hT sim x2 x3 b9 b10)⟩ :: kernelRunA.sl.H15_64 c i M2 hM2 M3 hM3 tbl hT sim x2 x3 b9 b10 := rfl
theorem V15_64 : View.readAt (Elt F) (Memref.whole cc0_scratch6).view (Rect.unit ![0, 0] S1x1.size inb_S1x1_S1x1_0_0).toLoadRect ((Memref.whole cc0_scratch6).view.writes (Elt F) a15 (⟨Rect.unit ![0, 0] S1x1.size inb_S1x1_S1x1_0_0, k0_pay968 (kernelRunA.sl.r_596 c i M2 hM2 M3 hM3 tbl hT sim x2 x3 b10) (kernelRunA.sl.v5429 c i M2 hM2 M3 hM3 tbl hT sim x2 x3 b9 b10)⟩ :: kernelRunA.sl.H15_64 c i M2 hM2 M3 hM3 tbl hT sim x2 x3 b9 b10)) = (rowsOf c tbl i sim x2 x3 (zeroAcc) 64).nf := by
  rw [read_last_write]
  refine Eq.trans ?_ (rowsOf_nf c tbl i sim x2 x3 (zeroAcc) 63 (by decide)).symm
  unfold kernelRunA.sl.r_596 kernelRunA.sl.r_592 kernelRunA.sl.r_593 kernelRunA.sl.r_594 kernelRunA.sl.r_595
  simp only [S_v5368 c i tbl hT sim b10, V15_63 c i M2 hM2 M3 hM3 tbl hT sim x2 x3 b9 b10 a12 a13 a14 a15 a16 a17, in_read M2 hM2 x2 63 (by decide), mk_read M3 hM3 x3 63 (by decide)]
  try rfl
theorem L16_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : C1 i) (h2 : ¬ C2 i) : (kernelRunA c i M2 hM2 M3 hM3 M5 hM5 M6 hM6 M7 hM7 M8 hM8 tbl hT sim x2 x3 b9 b10 a12 a13 a14 a15 a16 a17 h1 h2).2.2.2.2.1 = ⟨Rect.unit ![0, 0] S1x1.size inb_S1x1_S1x1_0_0, k0_pay969 (kernelRunA.sl.r_597 c i tbl hT sim b10) (kernelRunA.sl.v5434 c i tbl hT sim b9 b10)⟩ :: kernelRunA.sl.H16_64 c i tbl hT sim b9 b10 := rfl
theorem V16_64 : View.readAt (Elt F) (Memref.whole cc0_scratch7).view (Rect.unit ![0, 0] S1x1.size inb_S1x1_S1x1_0_0).toLoadRect ((Memref.whole cc0_scratch7).view.writes (Elt F) a16 (⟨Rect.unit ![0, 0] S1x1.size inb_S1x1_S1x1_0_0, k0_pay969 (kernelRunA.sl.r_597 c i tbl hT sim b10) (kernelRunA.sl.v5434 c i tbl hT sim b9 b10)⟩ :: kernelRunA.sl.H16_64 c i tbl hT sim b9 b10)) = (rowsOf c tbl i sim x2 x3 (zeroAcc) 64).s := by
  rw [read_last_write]
  refine Eq.trans ?_ (rowsOf_s c tbl i sim x2 x3 (zeroAcc) 63 (by decide)).symm
  unfold kernelRunA.sl.r_597 kernelRunA.sl.r_594 kernelRunA.sl.r_595
  simp only [S_v5368 c i tbl hT sim b10, V16_63 c i M2 hM2 M3 hM3 tbl hT sim x2 x3 b9 b10 a12 a13 a14 a15 a16 a17]
  try rfl
theorem L17_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : C1 i) (h2 : ¬ C2 i) : (kernelRunA c i M2 hM2 M3 hM3 M5 hM5 M6 hM6 M7 hM7 M8 hM8 tbl hT sim x2 x3 b9 b10 a12 a13 a14 a15 a16 a17 h1 h2).2.2.2.2.2.1 = ⟨Rect.unit ![0, 0] S1x1.size inb_S1x1_S1x1_0_0, k0_pay1 (kernelRunA.sl.r_600 c i tbl hT sim b9 b10)⟩ :: kernelRunA.sl.H17_64 c i tbl hT sim b9 b10 := rfl
theorem V17_64 : View.readAt (Elt F) (Memref.whole cc0_scratch8).view (Rect.unit ![0, 0] S1x1.size inb_S1x1_S1x1_0_0).toLoadRect ((Memref.whole cc0_scratch8).view.writes (Elt F) a17 (⟨Rect.unit ![0, 0] S1x1.size inb_S1x1_S1x1_0_0, k0_pay1 (kernelRunA.sl.r_600 c i tbl hT sim b9 b10)⟩ :: kernelRunA.sl.H17_64 c i tbl hT sim b9 b10)) = (rowsOf c tbl i sim x2 x3 (zeroAcc) 64).q := by
  rw [read_last_write]
  refine Eq.trans ?_ (rowsOf_q c tbl i sim x2 x3 (zeroAcc) 63 (by decide)).symm
  unfold kernelRunA.sl.r_600 kernelRunA.sl.r_598 kernelRunA.sl.r_594 kernelRunA.sl.r_595
  simp only [S_v5368 c i tbl hT sim b10, V17_63 c i M2 hM2 M3 hM3 tbl hT sim x2 x3 b9 b10 a12 a13 a14 a15 a16 a17]
  try rfl
end TabA

end Cert.Proof.K

end
-- ==== Proof.KStepA.lean ====
/-
  Case A of the kernel body's run at one grid point: what the run found in the six accumulator buffers is the
  point's clean step. Each found list ends with a write through the whole one-by-one buffer, so the buffer reads
  back as that write's payload; the payload is the running sum after sixty-four rows (the table's last line for
  that sum); and the sixty-four rows, one at a time, are the point's step.
-/
import proofs.«419560_j5755256177164_3_alg».proof.Proof.KRunA
import proofs.«419560_j5755256177164_3_alg».proof.Proof.KStepLib
import proofs.«419560_j5755256177164_3_alg».proof.Proof.KStepATabV1
import proofs.«419560_j5755256177164_3_alg».proof.Proof.KStepATabV2

set_option maxRecDepth 65536

noncomputable section

namespace Cert.Proof.K

open Cert.Kernel Cert.Kernel.Gen
open Idealize.ShloMosaic Idealize.ShloMosaic.TcCoe
open Idealize.SL Idealize.SL.Sem

variable {F : FTy → Type} [FloatOps F]

theorem stepA_eq (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))
    (h1 : C1 i) (h2 : ¬ C2 i) :
    accOf c
      ((Memref.whole cc0_scratch3).view.writes (Elt F) a12 (kernelRunA c i M2 hM2 M3 hM3 M5 hM5 M6 hM6 M7 hM7 M8 hM8 tbl hT sim x2 x3 b9 b10 a12 a13 a14 a15 a16 a17 h1 h2).1)
      ((Memref.whole cc0_scratch4).view.writes (Elt F) a13 (kernelRunA c i M2 hM2 M3 hM3 M5 hM5 M6 hM6 M7 hM7 M8 hM8 tbl hT sim x2 x3 b9 b10 a12 a13 a14 a15 a16 a17 h1 h2).2.1)
      ((Memref.whole cc0_scratch5).view.writes (Elt F) a14 (kernelRunA c i M2 hM2 M3 hM3 M5 hM5 M6 hM6 M7 hM7 M8 hM8 tbl hT sim x2 x3 b9 b10 a12 a13 a14 a15 a16 a17 h1 h2).2.2.1)
      ((Memref.whole cc0_scratch6).view.writes (Elt F) a15 (kernelRunA c i M2 hM2 M3 hM3 M5 hM5 M6 hM6 M7 hM7 M8 hM8 tbl hT sim x2 x3 b9 b10 a12 a13 a14 a15 a16 a17 h1 h2).2.2.2.1)
      ((Memref.whole cc0_scratch7).view.writes (Elt F) a16 (kernelRunA c i M2 hM2 M3 hM3 M5 hM5 M6 hM6 M7 hM7 M8 hM8 tbl hT sim x2 x3 b9 b10 a12 a13 a14 a15 a16 a17 h1 h2).2.2.2.2.1)
      ((Memref.whole cc0_scratch8).view.writes (Elt F) a17 (kernelRunA c i M2 hM2 M3 hM3 M5 hM5 M6 hM6 M7 hM7 M8 hM8 tbl hT sim x2 x3 b9 b10 a12 a13 a14 a15 a16 a17 h1 h2).2.2.2.2.2.1)
      = pointOf c tbl i sim x2 x3 (zeroAcc) := by
  have e12 : View.readAt (Elt F) (Memref.whole cc0_scratch3).view (Rect.unit ![0, 0] S1x1.size inb_S1x1_S1x1_0_0).toLoadRect
      ((Memref.whole cc0_scratch3).view.writes (Elt F) a12 (kernelRunA c i M2 hM2 M3 hM3 M5 hM5 M6 hM6 M7 hM7 M8 hM8 tbl hT sim x2 x3 b9 b10 a12 a13 a14 a15 a16 a17 h1 h2).1)
      = (rowsOf c tbl i sim x2 x3 (zeroAcc) 64).m :=
    (congrArg (fun L => View.readAt (Elt F) (Memref.whole cc0_scratch3).view (Rect.unit ![0, 0] S1x1.size inb_S1x1_S1x1_0_0).toLoadRect
      ((Memref.whole cc0_scratch3).view.writes (Elt F) a12 L))
      (TabA.L12_eq c i M2 hM2 M3 hM3 tbl hT sim x2 x3 b9 b10 a12 a13 a14 a15 a16 a17 M5 hM5 M6 hM6 M7 hM7 M8 hM8 h1 h2)).trans (TabA.V12_64 c i M2 hM2 M3 hM3 tbl hT sim x2 x3 b9 b10 a12 a13 a14 a15 a16 a17)
  have e13 : View.readAt (Elt F) (Memref.whole cc0_scratch4).view (Rect.unit ![0, 0] S1x1.size inb_S1x1_S1x1_0_0).toLoadRect
      ((Memref.whole cc0_scratch4).view.writes (Elt F) a13 (kernelRunA c i M2 hM2 M3 hM3 M5 hM5 M6 hM6 M7 hM7 M8 hM8 tbl hT sim x2 x3 b9 b10 a12 a13 a14 a15 a16 a17 h1 h2).2.1)
      = (rowsOf c tbl i sim x2 x3 (zeroAcc) 64).logp :=
    (congrArg (fun L => View.readAt (Elt F) (Memref.whole cc0_scratch4).view (Rect.unit ![0, 0] S1x1.size inb_S1x1_S1x1_0_0).toLoadRect
      ((Memref.whole cc0_scratch4).view.writes (Elt F) a13 L))
      (TabA.L13_eq c i M2 hM2 M3 hM3 tbl hT sim x2 x3 b9 b10 a12 a13 a14 a15 a16 a17 M5 hM5 M6 hM6 M7 hM7 M8 hM8 h1 h2)).trans (TabA.V13_64 c i M2 hM2 M3 hM3 tbl hT sim x2 x3 b9 b10 a12 a13 a14 a15 a16 a17)
  have e14 : View.readAt (Elt F) (Memref.whole cc0_scratch5).view (Rect.unit ![0, 0] S1x1.size inb_S1x1_S1x1_0_0).toLoadRect
      ((Memref.whole cc0_scratch5).view.writes (Elt F) a14 (kernelRunA c i M2 hM2 M3 hM3 M5 hM5 M6 hM6 M7 hM7 M8 hM8 tbl hT sim x2 x3 b9 b10 a12 a13 a14 a15 a16 a17 h1 h2).2.2.1)
      = (rowsOf c tbl i sim x2 x3 (zeroAcc) 64).w :=
    (congrArg (fun L => View.readAt (Elt F) (Memref.whole cc0_scratch5).view (Rect.unit ![0, 0] S1x1.size inb_S1x1_S1x1_0_0).toLoadRect
      ((Memref.whole cc0_scratch5).view.writes (Elt F) a14 L))
      (TabA.L14_eq c i M2 hM2 M3 hM3 tbl hT sim x2 x3 b9 b10 a12 a13 a14 a15 a16 a17 M5 hM5 M6 hM6 M7 hM7 M8 hM8 h1 h2)).trans (TabA.V14_64 c i M2 hM2 M3 hM3 tbl hT sim x2 x3 b9 b10 a12 a13 a14 a15 a16 a17)
  have e15 : View.readAt (Elt F) (Memref.whole cc0_scratch6).view (Rect.unit ![0, 0] S1x1.size inb_S1x1_S1x1_0_0).toLoadRect
      ((Memref.whole cc0_scratch6).view.writes (Elt F) a15 (kernelRunA c i M2 hM2 M3 hM3 M5 hM5 M6 hM6 M7 hM7 M8 hM8 tbl hT sim x2 x3 b9 b10 a12 a13 a14 a15 a16 a17 h1 h2).2.2.2.1)
      = (rowsOf c tbl i sim x2 x3 (zeroAcc) 64).nf :=
    (congrArg (fun L => View.readAt (Elt F) (Memref.whole cc0_scratch6).view (Rect.unit ![0, 0] S1x1.size inb_S1x1_S1x1_0_0).toLoadRect
      ((Memref.whole cc0_scratch6).view.writes (Elt F) a15 L))
      (TabA.L15_eq c i M2 hM2 M3 hM3 tbl hT sim x2 x3 b9 b10 a12 a13 a14 a15 a16 a17 M5 hM5 M6 hM6 M7 hM7 M8 hM8 h1 h2)).trans (TabA.V15_64 c i M2 hM2 M3 hM3 tbl hT sim x2 x3 b9 b10 a12 a13 a14 a15 a16 a17)
  have e16 : View.readAt (Elt F) (Memref.whole cc0_scratch7).view (Rect.unit ![0, 0] S1x1.size inb_S1x1_S1x1_0_0).toLoadRect
      ((Memref.whole cc0_scratch7).view.writes (Elt F) a16 (kernelRunA c i M2 hM2 M3 hM3 M5 hM5 M6 hM6 M7 hM7 M8 hM8 tbl hT sim x2 x3 b9 b10 a12 a13 a14 a15 a16 a17 h1 h2).2.2.2.2.1)
      = (rowsOf c tbl i sim x2 x3 (zeroAcc) 64).s :=
    (congrArg (fun L => View.readAt (Elt F) (Memref.whole cc0_scratch7).view (Rect.unit ![0, 0] S1x1.size inb_S1x1_S1x1_0_0).toLoadRect
      ((Memref.whole cc0_scratch7).view.writes (Elt F) a16 L))
      (TabA.L16_eq c i M2 hM2 M3 hM3 tbl hT sim x2 x3 b9 b10 a12 a13 a14 a15 a16 a17 M5 hM5 M6 hM6 M7 hM7 M8 hM8 h1 h2)).trans (TabA.V16_64 c i M2 hM2 M3 hM3 tbl hT sim x2 x3 b9 b10 a12 a13 a14 a15 a16 a17)
  have e17 : View.readAt (Elt F) (Memref.whole cc0_scratch8).view (Rect.unit ![0, 0] S1x1.size inb_S1x1_S1x1_0_0).toLoadRect
      ((Memref.whole cc0_scratch8).view.writes (Elt F) a17 (kernelRunA c i M2 hM2 M3 hM3 M5 hM5 M6 hM6 M7 hM7 M8 hM8 tbl hT sim x2 x3 b9 b10 a12 a13 a14 a15 a16 a17 h1 h2).2.2.2.2.2.1)
      = (rowsOf c tbl i sim x2 x3 (zeroAcc) 64).q :=
    (congrArg (fun L => View.readAt (Elt F) (Memref.whole cc0_scratch8).view (Rect.unit ![0, 0] S1x1.size inb_S1x1_S1x1_0_0).toLoadRect
      ((Memref.whole cc0_scratch8).view.writes (Elt F) a17 L))
      (TabA.L17_eq c i M2 hM2 M3 hM3 tbl hT sim x2 x3 b9 b10 a12 a13 a14 a15 a16 a17 M5 hM5 M6 hM6 M7 hM7 M8 hM8 h1 h2)).trans (TabA.V17_64 c i M2 hM2 M3 hM3 tbl hT sim x2 x3 b9 b10 a12 a13 a14 a15 a16 a17)
  refine Eq.trans ?_ (pointOf_eq_rowsOf c tbl i sim x2 x3 (zeroAcc)).symm
  exact Acc.ext6 e12 e13 e14 e15 e16 e17

end Cert.Proof.K

end
-- ==== Proof.KStepBTabW.lean ====
import proofs.«419560_j5755256177164_3_alg».proof.Proof.KRunB
import proofs.«419560_j5755256177164_3_alg».proof.Proof.KStepLib

/-!
  The table of case B: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.K

open Cert.Kernel Cert.Kernel.Gen
open Idealize.ShloMosaic Idealize.ShloMosaic.TcCoe
open Idealize.SL Idealize.SL.Sem

variable {F : FTy → Type} [FloatOps F]

namespace TabB

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

theorem W_r : kernelRunB.sl.r c i tbl = wordAt c tbl i ⟨0, by decide⟩ := by
  unfold kernelRunB.sl.r; exact word_of_off c tbl i ⟨0, by decide⟩ _ _ _ (k0_off1_eq i)
theorem W_r_2 : kernelRunB.sl.r_2 c i tbl = wordAt c tbl i ⟨0, by decide⟩ := by
  unfold kernelRunB.sl.r_2; exact word_of_off c tbl i ⟨0, by decide⟩ _ _ _ (k0_off5_eq i ⟨0, by decide⟩)
theorem W_r_1 : kernelRunB.sl.r_1 c i tbl = wordAt c tbl i ⟨1, by decide⟩ := by
  unfold kernelRunB.sl.r_1; exact word_of_off c tbl i ⟨1, by decide⟩ _ _ _ (k0_off3_eq i)
theorem W_r_12 : kernelRunB.sl.r_12 c i tbl = wordAt c tbl i ⟨1, by decide⟩ := by
  unfold kernelRunB.sl.r_12; exact word_of_off c tbl i ⟨1, by decide⟩ _ _ _ (k0_off7_eq i ⟨0, by decide⟩)
theorem W_r_11 : kernelRunB.sl.r_11 c i tbl = wordAt c tbl i ⟨2, by decide⟩ := by
  unfold kernelRunB.sl.r_11; exact word_of_off c tbl i ⟨2, by decide⟩ _ _ _ (k0_off5_eq i ⟨1, by decide⟩)
theorem W_r_21 : kernelRunB.sl.r_21 c i tbl = wordAt c tbl i ⟨2, by decide⟩ := by
  unfold kernelRunB.sl.r_21; exact word_of_off c tbl i ⟨2, by decide⟩ _ _ _ (k0_off9_eq i ⟨0, by decide⟩)
theorem W_r_20 : kernelRunB.sl.r_20 c i tbl = wordAt c tbl i ⟨3, by decide⟩ := by
  unfold kernelRunB.sl.r_20; exact word_of_off c tbl i ⟨3, by decide⟩ _ _ _ (k0_off7_eq i ⟨1, by decide⟩)
theorem W_r_31 : kernelRunB.sl.r_31 c i tbl = wordAt c tbl i ⟨3, by decide⟩ := by
  unfold kernelRunB.sl.r_31; exact word_of_off c tbl i ⟨3, by decide⟩ _ _ _ (k0_off11_eq i ⟨0, by decide⟩)
theorem W_r_30 : kernelRunB.sl.r_30 c i tbl = wordAt c tbl i ⟨4, by decide⟩ := by
  unfold kernelRunB.sl.r_30; exact word_of_off c tbl i ⟨4, by decide⟩ _ _ _ (k0_off9_eq i ⟨1, by decide⟩)
theorem W_r_41 : kernelRunB.sl.r_41 c i tbl = wordAt c tbl i ⟨4, by decide⟩ := by
  unfold kernelRunB.sl.r_41; exact word_of_off c tbl i ⟨4, by decide⟩ _ _ _ (k0_off13_eq i ⟨0, by decide⟩)
theorem W_r_40 : kernelRunB.sl.r_40 c i tbl = wordAt c tbl i ⟨5, by decide⟩ := by
  unfold kernelRunB.sl.r_40; exact word_of_off c tbl i ⟨5, by decide⟩ _ _ _ (k0_off11_eq i ⟨1, by decide⟩)
theorem W_r_50 : kernelRunB.sl.r_50 c i tbl = wordAt c tbl i ⟨5, by decide⟩ := by
  unfold kernelRunB.sl.r_50; exact word_of_off c tbl i ⟨5, by decide⟩ _ _ _ (k0_off15_eq i ⟨0, by decide⟩)
theorem W_r_49 : kernelRunB.sl.r_49 c i tbl = wordAt c tbl i ⟨6, by decide⟩ := by
  unfold kernelRunB.sl.r_49; exact word_of_off c tbl i ⟨6, by decide⟩ _ _ _ (k0_off13_eq i ⟨1, by decide⟩)
theorem W_r_59 : kernelRunB.sl.r_59 c i tbl = wordAt c tbl i ⟨6, by decide⟩ := by
  unfold kernelRunB.sl.r_59; exact word_of_off c tbl i ⟨6, by decide⟩ _ _ _ (k0_off17_eq i ⟨0, by decide⟩)
theorem W_r_58 : kernelRunB.sl.r_58 c i tbl = wordAt c tbl i ⟨7, by decide⟩ := by
  unfold kernelRunB.sl.r_58; exact word_of_off c tbl i ⟨7, by decide⟩ _ _ _ (k0_off15_eq i ⟨1, by decide⟩)
theorem W_r_68 : kernelRunB.sl.r_68 c i tbl = wordAt c tbl i ⟨7, by decide⟩ := by
  unfold kernelRunB.sl.r_68; exact word_of_off c tbl i ⟨7, by decide⟩ _ _ _ (k0_off19_eq i ⟨0, by decide⟩)
theorem W_r_67 : kernelRunB.sl.r_67 c i tbl = wordAt c tbl i ⟨8, by decide⟩ := by
  unfold kernelRunB.sl.r_67; exact word_of_off c tbl i ⟨8, by decide⟩ _ _ _ (k0_off17_eq i ⟨1, by decide⟩)
theorem W_r_76 : kernelRunB.sl.r_76 c i tbl = wordAt c tbl i ⟨8, by decide⟩ := by
  unfold kernelRunB.sl.r_76; exact word_of_off c tbl i ⟨8, by decide⟩ _ _ _ (k0_off21_eq i ⟨0, by decide⟩)
theorem W_r_75 : kernelRunB.sl.r_75 c i tbl = wordAt c tbl i ⟨9, by decide⟩ := by
  unfold kernelRunB.sl.r_75; exact word_of_off c tbl i ⟨9, by decide⟩ _ _ _ (k0_off19_eq i ⟨1, by decide⟩)
theorem W_r_86 : kernelRunB.sl.r_86 c i tbl = wordAt c tbl i ⟨9, by decide⟩ := by
  unfold kernelRunB.sl.r_86; exact word_of_off c tbl i ⟨9, by decide⟩ _ _ _ (k0_off23_eq i ⟨0, by decide⟩)
theorem W_r_83 : kernelRunB.sl.r_83 c i tbl = wordAt c tbl i ⟨10, by decide⟩ := by
  unfold kernelRunB.sl.r_83; exact word_of_off c tbl i ⟨10, by decide⟩ _ _ _ (k0_off21_eq i ⟨1, by decide⟩)
theorem W_r_93 : kernelRunB.sl.r_93 c i tbl = wordAt c tbl i ⟨10, by decide⟩ := by
  unfold kernelRunB.sl.r_93; exact word_of_off c tbl i ⟨10, by decide⟩ _ _ _ (k0_off25_eq i ⟨0, by decide⟩)
theorem W_r_102 : kernelRunB.sl.r_102 c i tbl = wordAt c tbl i ⟨11, by decide⟩ := by
  unfold kernelRunB.sl.r_102; exact word_of_off c tbl i ⟨11, by decide⟩ _ _ _ (k0_off27_eq i ⟨0, by decide⟩)
theorem W_r_92 : kernelRunB.sl.r_92 c i tbl = wordAt c tbl i ⟨11, by decide⟩ := by
  unfold kernelRunB.sl.r_92; exact word_of_off c tbl i ⟨11, by decide⟩ _ _ _ (k0_off23_eq i ⟨1, by decide⟩)
theorem W_r_101 : kernelRunB.sl.r_101 c i tbl = wordAt c tbl i ⟨12, by decide⟩ := by
  unfold kernelRunB.sl.r_101; exact word_of_off c tbl i ⟨12, by decide⟩ _ _ _ (k0_off25_eq i ⟨1, by decide⟩)
theorem W_r_114 : kernelRunB.sl.r_114 c i tbl = wordAt c tbl i ⟨12, by decide⟩ := by
  unfold kernelRunB.sl.r_114; exact word_of_off c tbl i ⟨12, by decide⟩ _ _ _ (k0_off29_eq i ⟨0, by decide⟩)
theorem W_r_111 : kernelRunB.sl.r_111 c i tbl = wordAt c tbl i ⟨13, by decide⟩ := by
  unfold kernelRunB.sl.r_111; exact word_of_off c tbl i ⟨13, by decide⟩ _ _ _ (k0_off27_eq i ⟨1, by decide⟩)
theorem W_r_123 : kernelRunB.sl.r_123 c i tbl = wordAt c tbl i ⟨13, by decide⟩ := by
  unfold kernelRunB.sl.r_123; exact word_of_off c tbl i ⟨13, by decide⟩ _ _ _ (k0_off31_eq i ⟨0, by decide⟩)
theorem W_r_122 : kernelRunB.sl.r_122 c i tbl = wordAt c tbl i ⟨14, by decide⟩ := by
  unfold kernelRunB.sl.r_122; exact word_of_off c tbl i ⟨14, by decide⟩ _ _ _ (k0_off29_eq i ⟨1, by decide⟩)
theorem W_r_133 : kernelRunB.sl.r_133 c i tbl = wordAt c tbl i ⟨14, by decide⟩ := by
  unfold kernelRunB.sl.r_133; exact word_of_off c tbl i ⟨14, by decide⟩ _ _ _ (k0_off33_eq i ⟨0, by decide⟩)
theorem W_r_132 : kernelRunB.sl.r_132 c i tbl = wordAt c tbl i ⟨15, by decide⟩ := by
  unfold kernelRunB.sl.r_132; exact word_of_off c tbl i ⟨15, by decide⟩ _ _ _ (k0_off31_eq i ⟨1, by decide⟩)
theorem W_r_144 : kernelRunB.sl.r_144 c i tbl = wordAt c tbl i ⟨15, by decide⟩ := by
  unfold kernelRunB.sl.r_144; exact word_of_off c tbl i ⟨15, by decide⟩ _ _ _ (k0_off35_eq i ⟨0, by decide⟩)
theorem W_r_142 : kernelRunB.sl.r_142 c i tbl = wordAt c tbl i ⟨16, by decide⟩ := by
  unfold kernelRunB.sl.r_142; exact word_of_off c tbl i ⟨16, by decide⟩ _ _ _ (k0_off33_eq i ⟨1, by decide⟩)
theorem W_r_153 : kernelRunB.sl.r_153 c i tbl = wordAt c tbl i ⟨16, by decide⟩ := by
  unfold kernelRunB.sl.r_153; exact word_of_off c tbl i ⟨16, by decide⟩ _ _ _ (k0_off37_eq i ⟨0, by decide⟩)
theorem W_r_152 : kernelRunB.sl.r_152 c i tbl = wordAt c tbl i ⟨17, by decide⟩ := by
  unfold kernelRunB.sl.r_152; exact word_of_off c tbl i ⟨17, by decide⟩ _ _ _ (k0_off35_eq i ⟨1, by decide⟩)
theorem W_r_162 : kernelRunB.sl.r_162 c i tbl = wordAt c tbl i ⟨17, by decide⟩ := by
  unfold kernelRunB.sl.r_162; exact word_of_off c tbl i ⟨17, by decide⟩ _ _ _ (k0_off39_eq i ⟨0, by decide⟩)
theorem W_r_161 : kernelRunB.sl.r_161 c i tbl = wordAt c tbl i ⟨18, by decide⟩ := by
  unfold kernelRunB.sl.r_161; exact word_of_off c tbl i ⟨18, by decide⟩ _ _ _ (k0_off37_eq i ⟨1, by decide⟩)
theorem W_r_172 : kernelRunB.sl.r_172 c i tbl = wordAt c tbl i ⟨18, by decide⟩ := by
  unfold kernelRunB.sl.r_172; exact word_of_off c tbl i ⟨18, by decide⟩ _ _ _ (k0_off41_eq i ⟨0, by decide⟩)
theorem W_r_171 : kernelRunB.sl.r_171 c i tbl = wordAt c tbl i ⟨19, by decide⟩ := by
  unfold kernelRunB.sl.r_171; exact word_of_off c tbl i ⟨19, by decide⟩ _ _ _ (k0_off39_eq i ⟨1, by decide⟩)
theorem W_r_180 : kernelRunB.sl.r_180 c i tbl = wordAt c tbl i ⟨19, by decide⟩ := by
  unfold kernelRunB.sl.r_180; exact word_of_off c tbl i ⟨19, by decide⟩ _ _ _ (k0_off43_eq i ⟨0, by decide⟩)
theorem W_r_179 : kernelRunB.sl.r_179 c i tbl = wordAt c tbl i ⟨20, by decide⟩ := by
  unfold kernelRunB.sl.r_179; exact word_of_off c tbl i ⟨20, by decide⟩ _ _ _ (k0_off41_eq i ⟨1, by decide⟩)
theorem W_r_189 : kernelRunB.sl.r_189 c i tbl = wordAt c tbl i ⟨20, by decide⟩ := by
  unfold kernelRunB.sl.r_189; exact word_of_off c tbl i ⟨20, by decide⟩ _ _ _ (k0_off45_eq i ⟨0, by decide⟩)
theorem W_r_188 : kernelRunB.sl.r_188 c i tbl = wordAt c tbl i ⟨21, by decide⟩ := by
  unfold kernelRunB.sl.r_188; exact word_of_off c tbl i ⟨21, by decide⟩ _ _ _ (k0_off43_eq i ⟨1, by decide⟩)
theorem W_r_199 : kernelRunB.sl.r_199 c i tbl = wordAt c tbl i ⟨21, by decide⟩ := by
  unfold kernelRunB.sl.r_199; exact word_of_off c tbl i ⟨21, by decide⟩ _ _ _ (k0_off47_eq i ⟨0, by decide⟩)
theorem W_r_198 : kernelRunB.sl.r_198 c i tbl = wordAt c tbl i ⟨22, by decide⟩ := by
  unfold kernelRunB.sl.r_198; exact word_of_off c tbl i ⟨22, by decide⟩ _ _ _ (k0_off45_eq i ⟨1, by decide⟩)
theorem W_r_208 : kernelRunB.sl.r_208 c i tbl = wordAt c tbl i ⟨22, by decide⟩ := by
  unfold kernelRunB.sl.r_208; exact word_of_off c tbl i ⟨22, by decide⟩ _ _ _ (k0_off49_eq i ⟨0, by decide⟩)
theorem W_r_207 : kernelRunB.sl.r_207 c i tbl = wordAt c tbl i ⟨23, by decide⟩ := by
  unfold kernelRunB.sl.r_207; exact word_of_off c tbl i ⟨23, by decide⟩ _ _ _ (k0_off47_eq i ⟨1, by decide⟩)
theorem W_r_218 : kernelRunB.sl.r_218 c i tbl = wordAt c tbl i ⟨23, by decide⟩ := by
  unfold kernelRunB.sl.r_218; exact word_of_off c tbl i ⟨23, by decide⟩ _ _ _ (k0_off51_eq i ⟨0, by decide⟩)
theorem W_r_217 : kernelRunB.sl.r_217 c i tbl = wordAt c tbl i ⟨24, by decide⟩ := by
  unfold kernelRunB.sl.r_217; exact word_of_off c tbl i ⟨24, by decide⟩ _ _ _ (k0_off49_eq i ⟨1, by decide⟩)
theorem W_r_228 : kernelRunB.sl.r_228 c i tbl = wordAt c tbl i ⟨24, by decide⟩ := by
  unfold kernelRunB.sl.r_228; exact word_of_off c tbl i ⟨24, by decide⟩ _ _ _ (k0_off53_eq i ⟨0, by decide⟩)
theorem W_r_227 : kernelRunB.sl.r_227 c i tbl = wordAt c tbl i ⟨25, by decide⟩ := by
  unfold kernelRunB.sl.r_227; exact word_of_off c tbl i ⟨25, by decide⟩ _ _ _ (k0_off51_eq i ⟨1, by decide⟩)
theorem W_r_237 : kernelRunB.sl.r_237 c i tbl = wordAt c tbl i ⟨25, by decide⟩ := by
  unfold kernelRunB.sl.r_237; exact word_of_off c tbl i ⟨25, by decide⟩ _ _ _ (k0_off55_eq i ⟨0, by decide⟩)
theorem W_r_236 : kernelRunB.sl.r_236 c i tbl = wordAt c tbl i ⟨26, by decide⟩ := by
  unfold kernelRunB.sl.r_236; exact word_of_off c tbl i ⟨26, by decide⟩ _ _ _ (k0_off53_eq i ⟨1, by decide⟩)
theorem W_r_246 : kernelRunB.sl.r_246 c i tbl = wordAt c tbl i ⟨26, by decide⟩ := by
  unfold kernelRunB.sl.r_246; exact word_of_off c tbl i ⟨26, by decide⟩ _ _ _ (k0_off57_eq i ⟨0, by decide⟩)
theorem W_r_245 : kernelRunB.sl.r_245 c i tbl = wordAt c tbl i ⟨27, by decide⟩ := by
  unfold kernelRunB.sl.r_245; exact word_of_off c tbl i ⟨27, by decide⟩ _ _ _ (k0_off55_eq i ⟨1, by decide⟩)
theorem W_r_255 : kernelRunB.sl.r_255 c i tbl = wordAt c tbl i ⟨27, by decide⟩ := by
  unfold kernelRunB.sl.r_255; exact word_of_off c tbl i ⟨27, by decide⟩ _ _ _ (k0_off59_eq i ⟨0, by decide⟩)
theorem W_r_254 : kernelRunB.sl.r_254 c i tbl = wordAt c tbl i ⟨28, by decide⟩ := by
  unfold kernelRunB.sl.r_254; exact word_of_off c tbl i ⟨28, by decide⟩ _ _ _ (k0_off57_eq i ⟨1, by decide⟩)
theorem W_r_263 : kernelRunB.sl.r_263 c i tbl = wordAt c tbl i ⟨28, by decide⟩ := by
  unfold kernelRunB.sl.r_263; exact word_of_off c tbl i ⟨28, by decide⟩ _ _ _ (k0_off61_eq i ⟨0, by decide⟩)
theorem W_r_262 : kernelRunB.sl.r_262 c i tbl = wordAt c tbl i ⟨29, by decide⟩ := by
  unfold kernelRunB.sl.r_262; exact word_of_off c tbl i ⟨29, by decide⟩ _ _ _ (k0_off59_eq i ⟨1, by decide⟩)
theorem W_r_273 : kernelRunB.sl.r_273 c i tbl = wordAt c tbl i ⟨29, by decide⟩ := by
  unfold kernelRunB.sl.r_273; exact word_of_off c tbl i ⟨29, by decide⟩ _ _ _ (k0_off63_eq i ⟨0, by decide⟩)
theorem W_r_270 : kernelRunB.sl.r_270 c i tbl = wordAt c tbl i ⟨30, by decide⟩ := by
  unfold kernelRunB.sl.r_270; exact word_of_off c tbl i ⟨30, by decide⟩ _ _ _ (k0_off61_eq i ⟨1, by decide⟩)
theorem W_r_280 : kernelRunB.sl.r_280 c i tbl = wordAt c tbl i ⟨30, by decide⟩ := by
  unfold kernelRunB.sl.r_280; exact word_of_off c tbl i ⟨30, by decide⟩ _ _ _ (k0_off65_eq i ⟨0, by decide⟩)
theorem W_r_279 : kernelRunB.sl.r_279 c i tbl = wordAt c tbl i ⟨31, by decide⟩ := by
  unfold kernelRunB.sl.r_279; exact word_of_off c tbl i ⟨31, by decide⟩ _ _ _ (k0_off63_eq i ⟨1, by decide⟩)
theorem W_r_289 : kernelRunB.sl.r_289 c i tbl = wordAt c tbl i ⟨31, by decide⟩ := by
  unfold kernelRunB.sl.r_289; exact word_of_off c tbl i ⟨31, by decide⟩ _ _ _ (k0_off67_eq i ⟨0, by decide⟩)
theorem W_r_288 : kernelRunB.sl.r_288 c i tbl = wordAt c tbl i ⟨32, by decide⟩ := by
  unfold kernelRunB.sl.r_288; exact word_of_off c tbl i ⟨32, by decide⟩ _ _ _ (k0_off65_eq i ⟨1, by decide⟩)
theorem W_r_301 : kernelRunB.sl.r_301 c i tbl = wordAt c tbl i ⟨32, by decide⟩ := by
  unfold kernelRunB.sl.r_301; exact word_of_off c tbl i ⟨32, by decide⟩ _ _ _ (k0_off69_eq i ⟨0, by decide⟩)
theorem W_r_298 : kernelRunB.sl.r_298 c i tbl = wordAt c tbl i ⟨33, by decide⟩ := by
  unfold kernelRunB.sl.r_298; exact word_of_off c tbl i ⟨33, by decide⟩ _ _ _ (k0_off67_eq i ⟨1, by decide⟩)
theorem W_r_310 : kernelRunB.sl.r_310 c i tbl = wordAt c tbl i ⟨33, by decide⟩ := by
  unfold kernelRunB.sl.r_310; exact word_of_off c tbl i ⟨33, by decide⟩ _ _ _ (k0_off71_eq i ⟨0, by decide⟩)
theorem W_r_309 : kernelRunB.sl.r_309 c i tbl = wordAt c tbl i ⟨34, by decide⟩ := by
  unfold kernelRunB.sl.r_309; exact word_of_off c tbl i ⟨34, by decide⟩ _ _ _ (k0_off69_eq i ⟨1, by decide⟩)
theorem W_r_320 : kernelRunB.sl.r_320 c i tbl = wordAt c tbl i ⟨34, by decide⟩ := by
  unfold kernelRunB.sl.r_320; exact word_of_off c tbl i ⟨34, by decide⟩ _ _ _ (k0_off73_eq i ⟨0, by decide⟩)
theorem W_r_319 : kernelRunB.sl.r_319 c i tbl = wordAt c tbl i ⟨35, by decide⟩ := by
  unfold kernelRunB.sl.r_319; exact word_of_off c tbl i ⟨35, by decide⟩ _ _ _ (k0_off71_eq i ⟨1, by decide⟩)
theorem W_r_331 : kernelRunB.sl.r_331 c i tbl = wordAt c tbl i ⟨35, by decide⟩ := by
  unfold kernelRunB.sl.r_331; exact word_of_off c tbl i ⟨35, by decide⟩ _ _ _ (k0_off75_eq i ⟨0, by decide⟩)
theorem W_r_329 : kernelRunB.sl.r_329 c i tbl = wordAt c tbl i ⟨36, by decide⟩ := by
  unfold kernelRunB.sl.r_329; exact word_of_off c tbl i ⟨36, by decide⟩ _ _ _ (k0_off73_eq i ⟨1, by decide⟩)
theorem W_r_340 : kernelRunB.sl.r_340 c i tbl = wordAt c tbl i ⟨36, by decide⟩ := by
  unfold kernelRunB.sl.r_340; exact word_of_off c tbl i ⟨36, by decide⟩ _ _ _ (k0_off77_eq i ⟨0, by decide⟩)
theorem W_r_339 : kernelRunB.sl.r_339 c i tbl = wordAt c tbl i ⟨37, by decide⟩ := by
  unfold kernelRunB.sl.r_339; exact word_of_off c tbl i ⟨37, by decide⟩ _ _ _ (k0_off75_eq i ⟨1, by decide⟩)
theorem W_r_349 : kernelRunB.sl.r_349 c i tbl = wordAt c tbl i ⟨37, by decide⟩ := by
  unfold kernelRunB.sl.r_349; exact word_of_off c tbl i ⟨37, by decide⟩ _ _ _ (k0_off79_eq i ⟨0, by decide⟩)
theorem W_r_348 : kernelRunB.sl.r_348 c i tbl = wordAt c tbl i ⟨38, by decide⟩ := by
  unfold kernelRunB.sl.r_348; exact word_of_off c tbl i ⟨38, by decide⟩ _ _ _ (k0_off77_eq i ⟨1, by decide⟩)
theorem W_r_359 : kernelRunB.sl.r_359 c i tbl = wordAt c tbl i ⟨38, by decide⟩ := by
  unfold kernelRunB.sl.r_359; exact word_of_off c tbl i ⟨38, by decide⟩ _ _ _ (k0_off81_eq i ⟨0, by decide⟩)
theorem W_r_358 : kernelRunB.sl.r_358 c i tbl = wordAt c tbl i ⟨39, by decide⟩ := by
  unfold kernelRunB.sl.r_358; exact word_of_off c tbl i ⟨39, by decide⟩ _ _ _ (k0_off79_eq i ⟨1, by decide⟩)
theorem W_r_367 : kernelRunB.sl.r_367 c i tbl = wordAt c tbl i ⟨39, by decide⟩ := by
  unfold kernelRunB.sl.r_367; exact word_of_off c tbl i ⟨39, by decide⟩ _ _ _ (k0_off83_eq i ⟨0, by decide⟩)
theorem W_r_366 : kernelRunB.sl.r_366 c i tbl = wordAt c tbl i ⟨40, by decide⟩ := by
  unfold kernelRunB.sl.r_366; exact word_of_off c tbl i ⟨40, by decide⟩ _ _ _ (k0_off81_eq i ⟨1, by decide⟩)
theorem W_r_376 : kernelRunB.sl.r_376 c i tbl = wordAt c tbl i ⟨40, by decide⟩ := by
  unfold kernelRunB.sl.r_376; exact word_of_off c tbl i ⟨40, by decide⟩ _ _ _ (k0_off85_eq i ⟨0, by decide⟩)
theorem W_r_375 : kernelRunB.sl.r_375 c i tbl = wordAt c tbl i ⟨41, by decide⟩ := by
  unfold kernelRunB.sl.r_375; exact word_of_off c tbl i ⟨41, by decide⟩ _ _ _ (k0_off83_eq i ⟨1, by decide⟩)
theorem W_r_386 : kernelRunB.sl.r_386 c i tbl = wordAt c tbl i ⟨41, by decide⟩ := by
  unfold kernelRunB.sl.r_386; exact word_of_off c tbl i ⟨41, by decide⟩ _ _ _ (k0_off87_eq i ⟨0, by decide⟩)
theorem W_r_385 : kernelRunB.sl.r_385 c i tbl = wordAt c tbl i ⟨42, by decide⟩ := by
  unfold kernelRunB.sl.r_385; exact word_of_off c tbl i ⟨42, by decide⟩ _ _ _ (k0_off85_eq i ⟨1, by decide⟩)
theorem W_r_395 : kernelRunB.sl.r_395 c i tbl = wordAt c tbl i ⟨42, by decide⟩ := by
  unfold kernelRunB.sl.r_395; exact word_of_off c tbl i ⟨42, by decide⟩ _ _ _ (k0_off89_eq i ⟨0, by decide⟩)
theorem W_r_394 : kernelRunB.sl.r_394 c i tbl = wordAt c tbl i ⟨43, by decide⟩ := by
  unfold kernelRunB.sl.r_394; exact word_of_off c tbl i ⟨43, by decide⟩ _ _ _ (k0_off87_eq i ⟨1, by decide⟩)
theorem W_r_405 : kernelRunB.sl.r_405 c i tbl = wordAt c tbl i ⟨43, by decide⟩ := by
  unfold kernelRunB.sl.r_405; exact word_of_off c tbl i ⟨43, by decide⟩ _ _ _ (k0_off91_eq i ⟨0, by decide⟩)
theorem W_r_404 : kernelRunB.sl.r_404 c i tbl = wordAt c tbl i ⟨44, by decide⟩ := by
  unfold kernelRunB.sl.r_404; exact word_of_off c tbl i ⟨44, by decide⟩ _ _ _ (k0_off89_eq i ⟨1, by decide⟩)
theorem W_r_415 : kernelRunB.sl.r_415 c i tbl = wordAt c tbl i ⟨44, by decide⟩ := by
  unfold kernelRunB.sl.r_415; exact word_of_off c tbl i ⟨44, by decide⟩ _ _ _ (k0_off93_eq i ⟨0, by decide⟩)
theorem W_r_414 : kernelRunB.sl.r_414 c i tbl = wordAt c tbl i ⟨45, by decide⟩ := by
  unfold kernelRunB.sl.r_414; exact word_of_off c tbl i ⟨45, by decide⟩ _ _ _ (k0_off91_eq i ⟨1, by decide⟩)
theorem W_r_424 : kernelRunB.sl.r_424 c i tbl = wordAt c tbl i ⟨45, by decide⟩ := by
  unfold kernelRunB.sl.r_424; exact word_of_off c tbl i ⟨45, by decide⟩ _ _ _ (k0_off95_eq i ⟨0, by decide⟩)
theorem W_r_423 : kernelRunB.sl.r_423 c i tbl = wordAt c tbl i ⟨46, by decide⟩ := by
  unfold kernelRunB.sl.r_423; exact word_of_off c tbl i ⟨46, by decide⟩ _ _ _ (k0_off93_eq i ⟨1, by decide⟩)
theorem W_r_433 : kernelRunB.sl.r_433 c i tbl = wordAt c tbl i ⟨46, by decide⟩ := by
  unfold kernelRunB.sl.r_433; exact word_of_off c tbl i ⟨46, by decide⟩ _ _ _ (k0_off97_eq i ⟨0, by decide⟩)
theorem W_r_432 : kernelRunB.sl.r_432 c i tbl = wordAt c tbl i ⟨47, by decide⟩ := by
  unfold kernelRunB.sl.r_432; exact word_of_off c tbl i ⟨47, by decide⟩ _ _ _ (k0_off95_eq i ⟨1, by decide⟩)
theorem W_r_442 : kernelRunB.sl.r_442 c i tbl = wordAt c tbl i ⟨47, by decide⟩ := by
  unfold kernelRunB.sl.r_442; exact word_of_off c tbl i ⟨47, by decide⟩ _ _ _ (k0_off99_eq i ⟨0, by decide⟩)
theorem W_r_441 : kernelRunB.sl.r_441 c i tbl = wordAt c tbl i ⟨48, by decide⟩ := by
  unfold kernelRunB.sl.r_441; exact word_of_off c tbl i ⟨48, by decide⟩ _ _ _ (k0_off97_eq i ⟨1, by decide⟩)
theorem W_r_450 : kernelRunB.sl.r_450 c i tbl = wordAt c tbl i ⟨48, by decide⟩ := by
  unfold kernelRunB.sl.r_450; exact word_of_off c tbl i ⟨48, by decide⟩ _ _ _ (k0_off101_eq i ⟨0, by decide⟩)
theorem W_r_449 : kernelRunB.sl.r_449 c i tbl = wordAt c tbl i ⟨49, by decide⟩ := by
  unfold kernelRunB.sl.r_449; exact word_of_off c tbl i ⟨49, by decide⟩ _ _ _ (k0_off99_eq i ⟨1, by decide⟩)
theorem W_r_460 : kernelRunB.sl.r_460 c i tbl = wordAt c tbl i ⟨49, by decide⟩ := by
  unfold kernelRunB.sl.r_460; exact word_of_off c tbl i ⟨49, by decide⟩ _ _ _ (k0_off103_eq i ⟨0, by decide⟩)
theorem W_r_457 : kernelRunB.sl.r_457 c i tbl = wordAt c tbl i ⟨50, by decide⟩ := by
  unfold kernelRunB.sl.r_457; exact word_of_off c tbl i ⟨50, by decide⟩ _ _ _ (k0_off101_eq i ⟨1, by decide⟩)
theorem W_r_467 : kernelRunB.sl.r_467 c i tbl = wordAt c tbl i ⟨50, by decide⟩ := by
  unfold kernelRunB.sl.r_467; exact word_of_off c tbl i ⟨50, by decide⟩ _ _ _ (k0_off105_eq i ⟨0, by decide⟩)
theorem W_r_466 : kernelRunB.sl.r_466 c i tbl = wordAt c tbl i ⟨51, by decide⟩ := by
  unfold kernelRunB.sl.r_466; exact word_of_off c tbl i ⟨51, by decide⟩ _ _ _ (k0_off103_eq i ⟨1, by decide⟩)
theorem W_r_476 : kernelRunB.sl.r_476 c i tbl = wordAt c tbl i ⟨51, by decide⟩ := by
  unfold kernelRunB.sl.r_476; exact word_of_off c tbl i ⟨51, by decide⟩ _ _ _ (k0_off107_eq i ⟨0, by decide⟩)
theorem W_r_475 : kernelRunB.sl.r_475 c i tbl = wordAt c tbl i ⟨52, by decide⟩ := by
  unfold kernelRunB.sl.r_475; exact word_of_off c tbl i ⟨52, by decide⟩ _ _ _ (k0_off105_eq i ⟨1, by decide⟩)
theorem W_r_488 : kernelRunB.sl.r_488 c i tbl = wordAt c tbl i ⟨52, by decide⟩ := by
  unfold kernelRunB.sl.r_488; exact word_of_off c tbl i ⟨52, by decide⟩ _ _ _ (k0_off109_eq i ⟨0, by decide⟩)
theorem W_r_485 : kernelRunB.sl.r_485 c i tbl = wordAt c tbl i ⟨53, by decide⟩ := by
  unfold kernelRunB.sl.r_485; exact word_of_off c tbl i ⟨53, by decide⟩ _ _ _ (k0_off107_eq i ⟨1, by decide⟩)
theorem W_r_497 : kernelRunB.sl.r_497 c i tbl = wordAt c tbl i ⟨53, by decide⟩ := by
  unfold kernelRunB.sl.r_497; exact word_of_off c tbl i ⟨53, by decide⟩ _ _ _ (k0_off111_eq i ⟨0, by decide⟩)
theorem W_r_496 : kernelRunB.sl.r_496 c i tbl = wordAt c tbl i ⟨54, by decide⟩ := by
  unfold kernelRunB.sl.r_496; exact word_of_off c tbl i ⟨54, by decide⟩ _ _ _ (k0_off109_eq i ⟨1, by decide⟩)
theorem W_r_507 : kernelRunB.sl.r_507 c i tbl = wordAt c tbl i ⟨54, by decide⟩ := by
  unfold kernelRunB.sl.r_507; exact word_of_off c tbl i ⟨54, by decide⟩ _ _ _ (k0_off113_eq i ⟨0, by decide⟩)
theorem W_r_506 : kernelRunB.sl.r_506 c i tbl = wordAt c tbl i ⟨55, by decide⟩ := by
  unfold kernelRunB.sl.r_506; exact word_of_off c tbl i ⟨55, by decide⟩ _ _ _ (k0_off111_eq i ⟨1, by decide⟩)
theorem W_r_518 : kernelRunB.sl.r_518 c i tbl = wordAt c tbl i ⟨55, by decide⟩ := by
  unfold kernelRunB.sl.r_518; exact word_of_off c tbl i ⟨55, by decide⟩ _ _ _ (k0_off115_eq i ⟨0, by decide⟩)
theorem W_r_516 : kernelRunB.sl.r_516 c i tbl = wordAt c tbl i ⟨56, by decide⟩ := by
  unfold kernelRunB.sl.r_516; exact word_of_off c tbl i ⟨56, by decide⟩ _ _ _ (k0_off113_eq i ⟨1, by decide⟩)
theorem W_r_527 : kernelRunB.sl.r_527 c i tbl = wordAt c tbl i ⟨56, by decide⟩ := by
  unfold kernelRunB.sl.r_527; exact word_of_off c tbl i ⟨56, by decide⟩ _ _ _ (k0_off117_eq i ⟨0, by decide⟩)
theorem W_r_526 : kernelRunB.sl.r_526 c i tbl = wordAt c tbl i ⟨57, by decide⟩ := by
  unfold kernelRunB.sl.r_526; exact word_of_off c tbl i ⟨57, by decide⟩ _ _ _ (k0_off115_eq i ⟨1, by decide⟩)
theorem W_r_536 : kernelRunB.sl.r_536 c i tbl = wordAt c tbl i ⟨57, by decide⟩ := by
  unfold kernelRunB.sl.r_536; exact word_of_off c tbl i ⟨57, by decide⟩ _ _ _ (k0_off119_eq i ⟨0, by decide⟩)
theorem W_r_535 : kernelRunB.sl.r_535 c i tbl = wordAt c tbl i ⟨58, by decide⟩ := by
  unfold kernelRunB.sl.r_535; exact word_of_off c tbl i ⟨58, by decide⟩ _ _ _ (k0_off117_eq i ⟨1, by decide⟩)
theorem W_r_546 : kernelRunB.sl.r_546 c i tbl = wordAt c tbl i ⟨58, by decide⟩ := by
  unfold kernelRunB.sl.r_546; exact word_of_off c tbl i ⟨58, by decide⟩ _ _ _ (k0_off121_eq i ⟨0, by decide⟩)
theorem W_r_545 : kernelRunB.sl.r_545 c i tbl = wordAt c tbl i ⟨59, by decide⟩ := by
  unfold kernelRunB.sl.r_545; exact word_of_off c tbl i ⟨59, by decide⟩ _ _ _ (k0_off119_eq i ⟨1, by decide⟩)
theorem W_r_554 : kernelRunB.sl.r_554 c i tbl = wordAt c tbl i ⟨59, by decide⟩ := by
  unfold kernelRunB.sl.r_554; exact word_of_off c tbl i ⟨59, by decide⟩ _ _ _ (k0_off123_eq i ⟨0, by decide⟩)
theorem W_r_553 : kernelRunB.sl.r_553 c i tbl = wordAt c tbl i ⟨60, by decide⟩ := by
  unfold kernelRunB.sl.r_553; exact word_of_off c tbl i ⟨60, by decide⟩ _ _ _ (k0_off121_eq i ⟨1, by decide⟩)
theorem W_r_563 : kernelRunB.sl.r_563 c i tbl = wordAt c tbl i ⟨60, by decide⟩ := by
  unfold kernelRunB.sl.r_563; exact word_of_off c tbl i ⟨60, by decide⟩ _ _ _ (k0_off125_eq i ⟨0, by decide⟩)
theorem W_r_562 : kernelRunB.sl.r_562 c i tbl = wordAt c tbl i ⟨61, by decide⟩ := by
  unfold kernelRunB.sl.r_562; exact word_of_off c tbl i ⟨61, by decide⟩ _ _ _ (k0_off123_eq i ⟨1, by decide⟩)
theorem W_r_573 : kernelRunB.sl.r_573 c i tbl = wordAt c tbl i ⟨61, by decide⟩ := by
  unfold kernelRunB.sl.r_573; exact word_of_off c tbl i ⟨61, by decide⟩ _ _ _ (k0_off127_eq i ⟨0, by decide⟩)
theorem W_r_572 : kernelRunB.sl.r_572 c i tbl = wordAt c tbl i ⟨62, by decide⟩ := by
  unfold kernelRunB.sl.r_572; exact word_of_off c tbl i ⟨62, by decide⟩ _ _ _ (k0_off125_eq i ⟨1, by decide⟩)
theorem W_r_582 : kernelRunB.sl.r_582 c i tbl = wordAt c tbl i ⟨62, by decide⟩ := by
  unfold kernelRunB.sl.r_582; exact word_of_off c tbl i ⟨62, by decide⟩ _ _ _ (k0_off129_eq i ⟨0, by decide⟩)
theorem W_r_581 : kernelRunB.sl.r_581 c i tbl = wordAt c tbl i ⟨63, by decide⟩ := by
  unfold kernelRunB.sl.r_581; exact word_of_off c tbl i ⟨63, by decide⟩ _ _ _ (k0_off127_eq i ⟨1, by decide⟩)
theorem W_r_591 : kernelRunB.sl.r_591 c i tbl = wordAt c tbl i ⟨63, by decide⟩ := by
  unfold kernelRunB.sl.r_591; exact word_of_off c tbl i ⟨63, by decide⟩ _ _ _ (k0_off129_eq i ⟨1, by decide⟩)
theorem D_dma1 : kernelRunB.sl.dma1 c i tbl hT sim = simRow c sim (wordAt c tbl i ⟨0, by decide⟩) := by
  unfold kernelRunB.sl.dma1; exact (copy_eq_simRow c sim (kernelRunB.sl.r c i tbl) (hT _) _ rfl _ _).trans (congrArg (simRow c sim) (W_r c i tbl))
theorem D_dma2 : kernelRunB.sl.dma2 c i tbl hT sim = simRow c sim (wordAt c tbl i ⟨1, by decide⟩) := by
  unfold kernelRunB.sl.dma2; exact (copy_eq_simRow c sim (kernelRunB.sl.r_1 c i tbl) (hT _) _ rfl _ _).trans (congrArg (simRow c sim) (W_r_1 c i tbl))
theorem D_dma25 : kernelRunB.sl.dma25 c i tbl hT sim = simRow c sim (wordAt c tbl i ⟨2, by decide⟩) := by
  unfold kernelRunB.sl.dma25; exact (copy_eq_simRow c sim (kernelRunB.sl.r_11 c i tbl) (hT _) _ rfl _ _).trans (congrArg (simRow c sim) (W_r_11 c i tbl))
theorem D_dma48 : kernelRunB.sl.dma48 c i tbl hT sim = simRow c sim (wordAt c tbl i ⟨3, by decide⟩) := by
  unfold kernelRunB.sl.dma48; exact (copy_eq_simRow c sim (kernelRunB.sl.r_20 c i tbl) (hT _) _ rfl _ _).trans (congrArg (simRow c sim) (W_r_20 c i tbl))
theorem D_dma71 : kernelRunB.sl.dma71 c i tbl hT sim = simRow c sim (wordAt c tbl i ⟨4, by decide⟩) := by
  unfold kernelRunB.sl.dma71; exact (copy_eq_simRow c sim (kernelRunB.sl.r_30 c i tbl) (hT _) _ rfl _ _).trans (congrArg (simRow c sim) (W_r_30 c i tbl))
theorem D_dma94 : kernelRunB.sl.dma94 c i tbl hT sim = simRow c sim (wordAt c tbl i ⟨5, by decide⟩) := by
  unfold kernelRunB.sl.dma94; exact (copy_eq_simRow c sim (kernelRunB.sl.r_40 c i tbl) (hT _) _ rfl _ _).trans (congrArg (simRow c sim) (W_r_40 c i tbl))
theorem D_dma117 : kernelRunB.sl.dma117 c i tbl hT sim = simRow c sim (wordAt c tbl i ⟨6, by decide⟩) := by
  unfold kernelRunB.sl.dma117; exact (copy_eq_simRow c sim (kernelRunB.sl.r_49 c i tbl) (hT _) _ rfl _ _).trans (congrArg (simRow c sim) (W_r_49 c i tbl))
theorem D_dma140 : kernelRunB.sl.dma140 c i tbl hT sim = simRow c sim (wordAt c tbl i ⟨7, by decide⟩) := by
  unfold kernelRunB.sl.dma140; exact (copy_eq_simRow c sim (kernelRunB.sl.r_58 c i tbl) (hT _) _ rfl _ _).trans (congrArg (simRow c sim) (W_r_58 c i tbl))
theorem D_dma163 : kernelRunB.sl.dma163 c i tbl hT sim = simRow c sim (wordAt c tbl i ⟨8, by decide⟩) := by
  unfold kernelRunB.sl.dma163; exact (copy_eq_simRow c sim (kernelRunB.sl.r_67 c i tbl) (hT _) _ rfl _ _).trans (congrArg (simRow c sim) (W_r_67 c i tbl))
theorem D_dma186 : kernelRunB.sl.dma186 c i tbl hT sim = simRow c sim (wordAt c tbl i ⟨9, by decide⟩) := by
  unfold kernelRunB.sl.dma186; exact (copy_eq_simRow c sim (kernelRunB.sl.r_75 c i tbl) (hT _) _ rfl _ _).trans (congrArg (simRow c sim) (W_r_75 c i tbl))
theorem D_dma209 : kernelRunB.sl.dma209 c i tbl hT sim = simRow c sim (wordAt c tbl i ⟨10, by decide⟩) := by
  unfold kernelRunB.sl.dma209; exact (copy_eq_simRow c sim (kernelRunB.sl.r_83 c i tbl) (hT _) _ rfl _ _).trans (congrArg (simRow c sim) (W_r_83 c i tbl))
theorem D_dma232 : kernelRunB.sl.dma232 c i tbl hT sim = simRow c sim (wordAt c tbl i ⟨11, by decide⟩) := by
  unfold kernelRunB.sl.dma232; exact (copy_eq_simRow c sim (kernelRunB.sl.r_92 c i tbl) (hT _) _ rfl _ _).trans (congrArg (simRow c sim) (W_r_92 c i tbl))
theorem D_dma255 : kernelRunB.sl.dma255 c i tbl hT sim = simRow c sim (wordAt c tbl i ⟨12, by decide⟩) := by
  unfold kernelRunB.sl.dma255; exact (copy_eq_simRow c sim (kernelRunB.sl.r_101 c i tbl) (hT _) _ rfl _ _).trans (congrArg (simRow c sim) (W_r_101 c i tbl))
theorem D_dma278 : kernelRunB.sl.dma278 c i tbl hT sim = simRow c sim (wordAt c tbl i ⟨13, by decide⟩) := by
  unfold kernelRunB.sl.dma278; exact (copy_eq_simRow c sim (kernelRunB.sl.r_111 c i tbl) (hT _) _ rfl _ _).trans (congrArg (simRow c sim) (W_r_111 c i tbl))
theorem D_dma301 : kernelRunB.sl.dma301 c i tbl hT sim = simRow c sim (wordAt c tbl i ⟨14, by decide⟩) := by
  unfold kernelRunB.sl.dma301; exact (copy_eq_simRow c sim (kernelRunB.sl.r_122 c i tbl) (hT _) _ rfl _ _).trans (congrArg (simRow c sim) (W_r_122 c i tbl))
theorem D_dma324 : kernelRunB.sl.dma324 c i tbl hT sim = simRow c sim (wordAt c tbl i ⟨15, by decide⟩) := by
  unfold kernelRunB.sl.dma324; exact (copy_eq_simRow c sim (kernelRunB.sl.r_132 c i tbl) (hT _) _ rfl _ _).trans (congrArg (simRow c sim) (W_r_132 c i tbl))
theorem D_dma347 : kernelRunB.sl.dma347 c i tbl hT sim = simRow c sim (wordAt c tbl i ⟨16, by decide⟩) := by
  unfold kernelRunB.sl.dma347; exact (copy_eq_simRow c sim (kernelRunB.sl.r_142 c i tbl) (hT _) _ rfl _ _).trans (congrArg (simRow c sim) (W_r_142 c i tbl))
theorem D_dma370 : kernelRunB.sl.dma370 c i tbl hT sim = simRow c sim (wordAt c tbl i ⟨17, by decide⟩) := by
  unfold kernelRunB.sl.dma370; exact (copy_eq_simRow c sim (kernelRunB.sl.r_152 c i tbl) (hT _) _ rfl _ _).trans (congrArg (simRow c sim) (W_r_152 c i tbl))
theorem D_dma393 : kernelRunB.sl.dma393 c i tbl hT sim = simRow c sim (wordAt c tbl i ⟨18, by decide⟩) := by
  unfold kernelRunB.sl.dma393; exact (copy_eq_simRow c sim (kernelRunB.sl.r_161 c i tbl) (hT _) _ rfl _ _).trans (congrArg (simRow c sim) (W_r_161 c i tbl))
theorem D_dma416 : kernelRunB.sl.dma416 c i tbl hT sim = simRow c sim (wordAt c tbl i ⟨19, by decide⟩) := by
  unfold kernelRunB.sl.dma416; exact (copy_eq_simRow c sim (kernelRunB.sl.r_171 c i tbl) (hT _) _ rfl _ _).trans (congrArg (simRow c sim) (W_r_171 c i tbl))
theorem D_dma439 : kernelRunB.sl.dma439 c i tbl hT sim = simRow c sim (wordAt c tbl i ⟨20, by decide⟩) := by
  unfold kernelRunB.sl.dma439; exact (copy_eq_simRow c sim (kernelRunB.sl.r_179 c i tbl) (hT _) _ rfl _ _).trans (congrArg (simRow c sim) (W_r_179 c i tbl))
theorem D_dma462 : kernelRunB.sl.dma462 c i tbl hT sim = simRow c sim (wordAt c tbl i ⟨21, by decide⟩) := by
  unfold kernelRunB.sl.dma462; exact (copy_eq_simRow c sim (kernelRunB.sl.r_188 c i tbl) (hT _) _ rfl _ _).trans (congrArg (simRow c sim) (W_r_188 c i tbl))
theorem D_dma485 : kernelRunB.sl.dma485 c i tbl hT sim = simRow c sim (wordAt c tbl i ⟨22, by decide⟩) := by
  unfold kernelRunB.sl.dma485; exact (copy_eq_simRow c sim (kernelRunB.sl.r_198 c i tbl) (hT _) _ rfl _ _).trans (congrArg (simRow c sim) (W_r_198 c i tbl))
theorem D_dma508 : kernelRunB.sl.dma508 c i tbl hT sim = simRow c sim (wordAt c tbl i ⟨23, by decide⟩) := by
  unfold kernelRunB.sl.dma508; exact (copy_eq_simRow c sim (kernelRunB.sl.r_207 c i tbl) (hT _) _ rfl _ _).trans (congrArg (simRow c sim) (W_r_207 c i tbl))
theorem D_dma531 : kernelRunB.sl.dma531 c i tbl hT sim = simRow c sim (wordAt c tbl i ⟨24, by decide⟩) := by
  unfold kernelRunB.sl.dma531; exact (copy_eq_simRow c sim (kernelRunB.sl.r_217 c i tbl) (hT _) _ rfl _ _).trans (congrArg (simRow c sim) (W_r_217 c i tbl))
theorem D_dma554 : kernelRunB.sl.dma554 c i tbl hT sim = simRow c sim (wordAt c tbl i ⟨25, by decide⟩) := by
  unfold kernelRunB.sl.dma554; exact (copy_eq_simRow c sim (kernelRunB.sl.r_227 c i tbl) (hT _) _ rfl _ _).trans (congrArg (simRow c sim) (W_r_227 c i tbl))
theorem D_dma577 : kernelRunB.sl.dma577 c i tbl hT sim = simRow c sim (wordAt c tbl i ⟨26, by decide⟩) := by
  unfold kernelRunB.sl.dma577; exact (copy_eq_simRow c sim (kernelRunB.sl.r_236 c i tbl) (hT _) _ rfl _ _).trans (congrArg (simRow c sim) (W_r_236 c i tbl))
theorem D_dma600 : kernelRunB.sl.dma600 c i tbl hT sim = simRow c sim (wordAt c tbl i ⟨27, by decide⟩) := by
  unfold kernelRunB.sl.dma600; exact (copy_eq_simRow c sim (kernelRunB.sl.r_245 c i tbl) (hT _) _ rfl _ _).trans (congrArg (simRow c sim) (W_r_245 c i tbl))
theorem D_dma623 : kernelRunB.sl.dma623 c i tbl hT sim = simRow c sim (wordAt c tbl i ⟨28, by decide⟩) := by
  unfold kernelRunB.sl.dma623; exact (copy_eq_simRow c sim (kernelRunB.sl.r_254 c i tbl) (hT _) _ rfl _ _).trans (congrArg (simRow c sim) (W_r_254 c i tbl))
theorem D_dma646 : kernelRunB.sl.dma646 c i tbl hT sim = simRow c sim (wordAt c tbl i ⟨29, by decide⟩) := by
  unfold kernelRunB.sl.dma646; exact (copy_eq_simRow c sim (kernelRunB.sl.r_262 c i tbl) (hT _) _ rfl _ _).trans (congrArg (simRow c sim) (W_r_262 c i tbl))
theorem D_dma669 : kernelRunB.sl.dma669 c i tbl hT sim = simRow c sim (wordAt c tbl i ⟨30, by decide⟩) := by
  unfold kernelRunB.sl.dma669; exact (copy_eq_simRow c sim (kernelRunB.sl.r_270 c i tbl) (hT _) _ rfl _ _).trans (congrArg (simRow c sim) (W_r_270 c i tbl))
theorem D_dma692 : kernelRunB.sl.dma692 c i tbl hT sim = simRow c sim (wordAt c tbl i ⟨31, by decide⟩) := by
  unfold kernelRunB.sl.dma692; exact (copy_eq_simRow c sim (kernelRunB.sl.r_279 c i tbl) (hT _) _ rfl _ _).trans (congrArg (simRow c sim) (W_r_279 c i tbl))
theorem D_dma715 : kernelRunB.sl.dma715 c i tbl hT sim = simRow c sim (wordAt c tbl i ⟨32, by decide⟩) := by
  unfold kernelRunB.sl.dma715; exact (copy_eq_simRow c sim (kernelRunB.sl.r_288 c i tbl) (hT _) _ rfl _ _).trans (congrArg (simRow c sim) (W_r_288 c i tbl))
theorem D_dma738 : kernelRunB.sl.dma738 c i tbl hT sim = simRow c sim (wordAt c tbl i ⟨33, by decide⟩) := by
  unfold kernelRunB.sl.dma738; exact (copy_eq_simRow c sim (kernelRunB.sl.r_298 c i tbl) (hT _) _ rfl _ _).trans (congrArg (simRow c sim) (W_r_298 c i tbl))
theorem D_dma761 : kernelRunB.sl.dma761 c i tbl hT sim = simRow c sim (wordAt c tbl i ⟨34, by decide⟩) := by
  unfold kernelRunB.sl.dma761; exact (copy_eq_simRow c sim (kernelRunB.sl.r_309 c i tbl) (hT _) _ rfl _ _).trans (congrArg (simRow c sim) (W_r_309 c i tbl))
theorem D_dma784 : kernelRunB.sl.dma784 c i tbl hT sim = simRow c sim (wordAt c tbl i ⟨35, by decide⟩) := by
  unfold kernelRunB.sl.dma784; exact (copy_eq_simRow c sim (kernelRunB.sl.r_319 c i tbl) (hT _) _ rfl _ _).trans (congrArg (simRow c sim) (W_r_319 c i tbl))
theorem D_dma807 : kernelRunB.sl.dma807 c i tbl hT sim = simRow c sim (wordAt c tbl i ⟨36, by decide⟩) := by
  unfold kernelRunB.sl.dma807; exact (copy_eq_simRow c sim (kernelRunB.sl.r_329 c i tbl) (hT _) _ rfl _ _).trans (congrArg (simRow c sim) (W_r_329 c i tbl))
theorem D_dma830 : kernelRunB.sl.dma830 c i tbl hT sim = simRow c sim (wordAt c tbl i ⟨37, by decide⟩) := by
  unfold kernelRunB.sl.dma830; exact (copy_eq_simRow c sim (kernelRunB.sl.r_339 c i tbl) (hT _) _ rfl _ _).trans (congrArg (simRow c sim) (W_r_339 c i tbl))
theorem D_dma853 : kernelRunB.sl.dma853 c i tbl hT sim = simRow c sim (wordAt c tbl i ⟨38, by decide⟩) := by
  unfold kernelRunB.sl.dma853; exact (copy_eq_simRow c sim (kernelRunB.sl.r_348 c i tbl) (hT _) _ rfl _ _).trans (congrArg (simRow c sim) (W_r_348 c i tbl))
theorem D_dma876 : kernelRunB.sl.dma876 c i tbl hT sim = simRow c sim (wordAt c tbl i ⟨39, by decide⟩) := by
  unfold kernelRunB.sl.dma876; exact (copy_eq_simRow c sim (kernelRunB.sl.r_358 c i tbl) (hT _) _ rfl _ _).trans (congrArg (simRow c sim) (W_r_358 c i tbl))
theorem D_dma899 : kernelRunB.sl.dma899 c i tbl hT sim = simRow c sim (wordAt c tbl i ⟨40, by decide⟩) := by
  unfold kernelRunB.sl.dma899; exact (copy_eq_simRow c sim (kernelRunB.sl.r_366 c i tbl) (hT _) _ rfl _ _).trans (congrArg (simRow c sim) (W_r_366 c i tbl))
theorem D_dma922 : kernelRunB.sl.dma922 c i tbl hT sim = simRow c sim (wordAt c tbl i ⟨41, by decide⟩) := by
  unfold kernelRunB.sl.dma922; exact (copy_eq_simRow c sim (kernelRunB.sl.r_375 c i tbl) (hT _) _ rfl _ _).trans (congrArg (simRow c sim) (W_r_375 c i tbl))
theorem D_dma945 : kernelRunB.sl.dma945 c i tbl hT sim = simRow c sim (wordAt c tbl i ⟨42, by decide⟩) := by
  unfold kernelRunB.sl.dma945; exact (copy_eq_simRow c sim (kernelRunB.sl.r_385 c i tbl) (hT _) _ rfl _ _).trans (congrArg (simRow c sim) (W_r_385 c i tbl))
theorem D_dma968 : kernelRunB.sl.dma968 c i tbl hT sim = simRow c sim (wordAt c tbl i ⟨43, by decide⟩) := by
  unfold kernelRunB.sl.dma968; exact (copy_eq_simRow c sim (kernelRunB.sl.r_394 c i tbl) (hT _) _ rfl _ _).trans (congrArg (simRow c sim) (W_r_394 c i tbl))
theorem D_dma991 : kernelRunB.sl.dma991 c i tbl hT sim = simRow c sim (wordAt c tbl i ⟨44, by decide⟩) := by
  unfold kernelRunB.sl.dma991; exact (copy_eq_simRow c sim (kernelRunB.sl.r_404 c i tbl) (hT _) _ rfl _ _).trans (congrArg (simRow c sim) (W_r_404 c i tbl))
theorem D_dma1014 : kernelRunB.sl.dma1014 c i tbl hT sim = simRow c sim (wordAt c tbl i ⟨45, by decide⟩) := by
  unfold kernelRunB.sl.dma1014; exact (copy_eq_simRow c sim (kernelRunB.sl.r_414 c i tbl) (hT _) _ rfl _ _).trans (congrArg (simRow c sim) (W_r_414 c i tbl))
theorem D_dma1037 : kernelRunB.sl.dma1037 c i tbl hT sim = simRow c sim (wordAt c tbl i ⟨46, by decide⟩) := by
  unfold kernelRunB.sl.dma1037; exact (copy_eq_simRow c sim (kernelRunB.sl.r_423 c i tbl) (hT _) _ rfl _ _).trans (congrArg (simRow c sim) (W_r_423 c i tbl))
theorem D_dma1060 : kernelRunB.sl.dma1060 c i tbl hT sim = simRow c sim (wordAt c tbl i ⟨47, by decide⟩) := by
  unfold kernelRunB.sl.dma1060; exact (copy_eq_simRow c sim (kernelRunB.sl.r_432 c i tbl) (hT _) _ rfl _ _).trans (congrArg (simRow c sim) (W_r_432 c i tbl))
theorem D_dma1083 : kernelRunB.sl.dma1083 c i tbl hT sim = simRow c sim (wordAt c tbl i ⟨48, by decide⟩) := by
  unfold kernelRunB.sl.dma1083; exact (copy_eq_simRow c sim (kernelRunB.sl.r_441 c i tbl) (hT _) _ rfl _ _).trans (congrArg (simRow c sim) (W_r_441 c i tbl))
theorem D_dma1106 : kernelRunB.sl.dma1106 c i tbl hT sim = simRow c sim (wordAt c tbl i ⟨49, by decide⟩) := by
  unfold kernelRunB.sl.dma1106; exact (copy_eq_simRow c sim (kernelRunB.sl.r_449 c i tbl) (hT _) _ rfl _ _).trans (congrArg (simRow c sim) (W_r_449 c i tbl))
theorem D_dma1129 : kernelRunB.sl.dma1129 c i tbl hT sim = simRow c sim (wordAt c tbl i ⟨50, by decide⟩) := by
  unfold kernelRunB.sl.dma1129; exact (copy_eq_simRow c sim (kernelRunB.sl.r_457 c i tbl) (hT _) _ rfl _ _).trans (congrArg (simRow c sim) (W_r_457 c i tbl))
theorem D_dma1152 : kernelRunB.sl.dma1152 c i tbl hT sim = simRow c sim (wordAt c tbl i ⟨51, by decide⟩) := by
  unfold kernelRunB.sl.dma1152; exact (copy_eq_simRow c sim (kernelRunB.sl.r_466 c i tbl) (hT _) _ rfl _ _).trans (congrArg (simRow c sim) (W_r_466 c i tbl))
theorem D_dma1175 : kernelRunB.sl.dma1175 c i tbl hT sim = simRow c sim (wordAt c tbl i ⟨52, by decide⟩) := by
  unfold kernelRunB.sl.dma1175; exact (copy_eq_simRow c sim (kernelRunB.sl.r_475 c i tbl) (hT _) _ rfl _ _).trans (congrArg (simRow c sim) (W_r_475 c i tbl))
theorem D_dma1198 : kernelRunB.sl.dma1198 c i tbl hT sim = simRow c sim (wordAt c tbl i ⟨53, by decide⟩) := by
  unfold kernelRunB.sl.dma1198; exact (copy_eq_simRow c sim (kernelRunB.sl.r_485 c i tbl) (hT _) _ rfl _ _).trans (congrArg (simRow c sim) (W_r_485 c i tbl))
theorem D_dma1221 : kernelRunB.sl.dma1221 c i tbl hT sim = simRow c sim (wordAt c tbl i ⟨54, by decide⟩) := by
  unfold kernelRunB.sl.dma1221; exact (copy_eq_simRow c sim (kernelRunB.sl.r_496 c i tbl) (hT _) _ rfl _ _).trans (congrArg (simRow c sim) (W_r_496 c i tbl))
theorem D_dma1244 : kernelRunB.sl.dma1244 c i tbl hT sim = simRow c sim (wordAt c tbl i ⟨55, by decide⟩) := by
  unfold kernelRunB.sl.dma1244; exact (copy_eq_simRow c sim (kernelRunB.sl.r_506 c i tbl) (hT _) _ rfl _ _).trans (congrArg (simRow c sim) (W_r_506 c i tbl))
theorem D_dma1267 : kernelRunB.sl.dma1267 c i tbl hT sim = simRow c sim (wordAt c tbl i ⟨56, by decide⟩) := by
  unfold kernelRunB.sl.dma1267; exact (copy_eq_simRow c sim (kernelRunB.sl.r_516 c i tbl) (hT _) _ rfl _ _).trans (congrArg (simRow c sim) (W_r_516 c i tbl))
theorem D_dma1290 : kernelRunB.sl.dma1290 c i tbl hT sim = simRow c sim (wordAt c tbl i ⟨57, by decide⟩) := by
  unfold kernelRunB.sl.dma1290; exact (copy_eq_simRow c sim (kernelRunB.sl.r_526 c i tbl) (hT _) _ rfl _ _).trans (congrArg (simRow c sim) (W_r_526 c i tbl))
theorem D_dma1313 : kernelRunB.sl.dma1313 c i tbl hT sim = simRow c sim (wordAt c tbl i ⟨58, by decide⟩) := by
  unfold kernelRunB.sl.dma1313; exact (copy_eq_simRow c sim (kernelRunB.sl.r_535 c i tbl) (hT _) _ rfl _ _).trans (congrArg (simRow c sim) (W_r_535 c i tbl))
theorem D_dma1336 : kernelRunB.sl.dma1336 c i tbl hT sim = simRow c sim (wordAt c tbl i ⟨59, by decide⟩) := by
  unfold kernelRunB.sl.dma1336; exact (copy_eq_simRow c sim (kernelRunB.sl.r_545 c i tbl) (hT _) _ rfl _ _).trans (congrArg (simRow c sim) (W_r_545 c i tbl))
theorem D_dma1359 : kernelRunB.sl.dma1359 c i tbl hT sim = simRow c sim (wordAt c tbl i ⟨60, by decide⟩) := by
  unfold kernelRunB.sl.dma1359; exact (copy_eq_simRow c sim (kernelRunB.sl.r_553 c i tbl) (hT _) _ rfl _ _).trans (congrArg (simRow c sim) (W_r_553 c i tbl))
theorem D_dma1382 : kernelRunB.sl.dma1382 c i tbl hT sim = simRow c sim (wordAt c tbl i ⟨61, by decide⟩) := by
  unfold kernelRunB.sl.dma1382; exact (copy_eq_simRow c sim (kernelRunB.sl.r_562 c i tbl) (hT _) _ rfl _ _).trans (congrArg (simRow c sim) (W_r_562 c i tbl))
theorem D_dma1405 : kernelRunB.sl.dma1405 c i tbl hT sim = simRow c sim (wordAt c tbl i ⟨62, by decide⟩) := by
  unfold kernelRunB.sl.dma1405; exact (copy_eq_simRow c sim (kernelRunB.sl.r_572 c i tbl) (hT _) _ rfl _ _).trans (congrArg (simRow c sim) (W_r_572 c i tbl))
theorem D_dma1428 : kernelRunB.sl.dma1428 c i tbl hT sim = simRow c sim (wordAt c tbl i ⟨63, by decide⟩) := by
  unfold kernelRunB.sl.dma1428; exact (copy_eq_simRow c sim (kernelRunB.sl.r_581 c i tbl) (hT _) _ rfl _ _).trans (congrArg (simRow c sim) (W_r_581 c i tbl))
theorem S_v19 : kernelRunB.sl.v19 c i tbl hT sim b9 = simRow c sim (wordAt c tbl i ⟨0, by decide⟩) := by
  unfold kernelRunB.sl.v19; exact (load_after_fill cc0_scratch0 _ _ (by decide) _).trans (D_dma1 c i tbl hT sim)
theorem S_v104 : kernelRunB.sl.v104 c i tbl hT sim b10 = simRow c sim (wordAt c tbl i ⟨1, by decide⟩) := by
  unfold kernelRunB.sl.v104; exact (load_after_fill cc0_scratch1 _ _ (by decide) _).trans (D_dma2 c i tbl hT sim)
theorem S_v189 : kernelRunB.sl.v189 c i tbl hT sim b9 = simRow c sim (wordAt c tbl i ⟨2, by decide⟩) := by
  unfold kernelRunB.sl.v189; exact (load_after_fill cc0_scratch0 _ _ (by decide) _).trans (D_dma25 c i tbl hT sim)
theorem S_v274 : kernelRunB.sl.v274 c i tbl hT sim b10 = simRow c sim (wordAt c tbl i ⟨3, by decide⟩) := by
  unfold kernelRunB.sl.v274; exact (load_after_fill cc0_scratch1 _ _ (by decide) _).trans (D_dma48 c i tbl hT sim)
theorem S_v359 : kernelRunB.sl.v359 c i tbl hT sim b9 = simRow c sim (wordAt c tbl i ⟨4, by decide⟩) := by
  unfold kernelRunB.sl.v359; exact (load_after_fill cc0_scratch0 _ _ (by decide) _).trans (D_dma71 c i tbl hT sim)
theorem S_v444 : kernelRunB.sl.v444 c i tbl hT sim b10 = simRow c sim (wordAt c tbl i ⟨5, by decide⟩) := by
  unfold kernelRunB.sl.v444; exact (load_after_fill cc0_scratch1 _ _ (by decide) _).trans (D_dma94 c i tbl hT sim)
theorem S_v529 : kernelRunB.sl.v529 c i tbl hT sim b9 = simRow c sim (wordAt c tbl i ⟨6, by decide⟩) := by
  unfold kernelRunB.sl.v529; exact (load_after_fill cc0_scratch0 _ _ (by decide) _).trans (D_dma117 c i tbl hT sim)
theorem S_v614 : kernelRunB.sl.v614 c i tbl hT sim b10 = simRow c sim (wordAt c tbl i ⟨7, by decide⟩) := by
  unfold kernelRunB.sl.v614; exact (load_after_fill cc0_scratch1 _ _ (by decide) _).trans (D_dma140 c i tbl hT sim)
theorem S_v699 : kernelRunB.sl.v699 c i tbl hT sim b9 = simRow c sim (wordAt c tbl i ⟨8, by decide⟩) := by
  unfold kernelRunB.sl.v699; exact (load_after_fill cc0_scratch0 _ _ (by decide) _).trans (D_dma163 c i tbl hT sim)
theorem S_v784 : kernelRunB.sl.v784 c i tbl hT sim b10 = simRow c sim (wordAt c tbl i ⟨9, by decide⟩) := by
  unfold kernelRunB.sl.v784; exact (load_after_fill cc0_scratch1 _ _ (by decide) _).trans (D_dma186 c i tbl hT sim)
theorem S_v869 : kernelRunB.sl.v869 c i tbl hT sim b9 = simRow c sim (wordAt c tbl i ⟨10, by decide⟩) := by
  unfold kernelRunB.sl.v869; exact (load_after_fill cc0_scratch0 _ _ (by decide) _).trans (D_dma209 c i tbl hT sim)
theorem S_v954 : kernelRunB.sl.v954 c i tbl hT sim b10 = simRow c sim (wordAt c tbl i ⟨11, by decide⟩) := by
  unfold kernelRunB.sl.v954; exact (load_after_fill cc0_scratch1 _ _ (by decide) _).trans (D_dma232 c i tbl hT sim)
theorem S_v1039 : kernelRunB.sl.v1039 c i tbl hT sim b9 = simRow c sim (wordAt c tbl i ⟨12, by decide⟩) := by
  unfold kernelRunB.sl.v1039; exact (load_after_fill cc0_scratch0 _ _ (by decide) _).trans (D_dma255 c i tbl hT sim)
theorem S_v1124 : kernelRunB.sl.v1124 c i tbl hT sim b10 = simRow c sim (wordAt c tbl i ⟨13, by decide⟩) := by
  unfold kernelRunB.sl.v1124; exact (load_after_fill cc0_scratch1 _ _ (by decide) _).trans (D_dma278 c i tbl hT sim)
theorem S_v1209 : kernelRunB.sl.v1209 c i tbl hT sim b9 = simRow c sim (wordAt c tbl i ⟨14, by decide⟩) := by
  unfold kernelRunB.sl.v1209; exact (load_after_fill cc0_scratch0 _ _ (by decide) _).trans (D_dma301 c i tbl hT sim)
theorem S_v1294 : kernelRunB.sl.v1294 c i tbl hT sim b10 = simRow c sim (wordAt c tbl i ⟨15, by decide⟩) := by
  unfold kernelRunB.sl.v1294; exact (load_after_fill cc0_scratch1 _ _ (by decide) _).trans (D_dma324 c i tbl hT sim)
theorem S_v1379 : kernelRunB.sl.v1379 c i tbl hT sim b9 = simRow c sim (wordAt c tbl i ⟨16, by decide⟩) := by
  unfold kernelRunB.sl.v1379; exact (load_after_fill cc0_scratch0 _ _ (by decide) _).trans (D_dma347 c i tbl hT sim)
theorem S_v1464 : kernelRunB.sl.v1464 c i tbl hT sim b10 = simRow c sim (wordAt c tbl i ⟨17, by decide⟩) := by
  unfold kernelRunB.sl.v1464; exact (load_after_fill cc0_scratch1 _ _ (by decide) _).trans (D_dma370 c i tbl hT sim)
theorem S_v : kernelRunB.sl.v c i tbl hT sim b9 = simRow c sim (wordAt c tbl i ⟨18, by decide⟩) := by
  unfold kernelRunB.sl.v; exact (load_after_fill cc0_scratch0 _ _ (by decide) _).trans (D_dma393 c i tbl hT sim)
theorem S_v1634 : kernelRunB.sl.v1634 c i tbl hT sim b10 = simRow c sim (wordAt c tbl i ⟨19, by decide⟩) := by
  unfold kernelRunB.sl.v1634; exact (load_after_fill cc0_scratch1 _ _ (by decide) _).trans (D_dma416 c i tbl hT sim)
theorem S_v1719 : kernelRunB.sl.v1719 c i tbl hT sim b9 = simRow c sim (wordAt c tbl i ⟨20, by decide⟩) := by
  unfold kernelRunB.sl.v1719; exact (load_after_fill cc0_scratch0 _ _ (by decide) _).trans (D_dma439 c i tbl hT sim)
theorem S_v1804 : kernelRunB.sl.v1804 c i tbl hT sim b10 = simRow c sim (wordAt c tbl i ⟨21, by decide⟩) := by
  unfold kernelRunB.sl.v1804; exact (load_after_fill cc0_scratch1 _ _ (by decide) _).trans (D_dma462 c i tbl hT sim)
theorem S_v1889 : kernelRunB.sl.v1889 c i tbl hT sim b9 = simRow c sim (wordAt c tbl i ⟨22, by decide⟩) := by
  unfold kernelRunB.sl.v1889; exact (load_after_fill cc0_scratch0 _ _ (by decide) _).trans (D_dma485 c i tbl hT sim)
theorem S_v1974 : kernelRunB.sl.v1974 c i tbl hT sim b10 = simRow c sim (wordAt c tbl i ⟨23, by decide⟩) := by
  unfold kernelRunB.sl.v1974; exact (load_after_fill cc0_scratch1 _ _ (by decide) _).trans (D_dma508 c i tbl hT sim)
theorem S_v2059 : kernelRunB.sl.v2059 c i tbl hT sim b9 = simRow c sim (wordAt c tbl i ⟨24, by decide⟩) := by
  unfold kernelRunB.sl.v2059; exact (load_after_fill cc0_scratch0 _ _ (by decide) _).trans (D_dma531 c i tbl hT sim)
theorem S_v2144 : kernelRunB.sl.v2144 c i tbl hT sim b10 = simRow c sim (wordAt c tbl i ⟨25, by decide⟩) := by
  unfold kernelRunB.sl.v2144; exact (load_after_fill cc0_scratch1 _ _ (by decide) _).trans (D_dma554 c i tbl hT sim)
theorem S_v2229 : kernelRunB.sl.v2229 c i tbl hT sim b9 = simRow c sim (wordAt c tbl i ⟨26, by decide⟩) := by
  unfold kernelRunB.sl.v2229; exact (load_after_fill cc0_scratch0 _ _ (by decide) _).trans (D_dma577 c i tbl hT sim)
theorem S_v2314 : kernelRunB.sl.v2314 c i tbl hT sim b10 = simRow c sim (wordAt c tbl i ⟨27, by decide⟩) := by
  unfold kernelRunB.sl.v2314; exact (load_after_fill cc0_scratch1 _ _ (by decide) _).trans (D_dma600 c i tbl hT sim)
theorem S_v2399 : kernelRunB.sl.v2399 c i tbl hT sim b9 = simRow c sim (wordAt c tbl i ⟨28, by decide⟩) := by
  unfold kernelRunB.sl.v2399; exact (load_after_fill cc0_scratch0 _ _ (by decide) _).trans (D_dma623 c i tbl hT sim)
theorem S_v2484 : kernelRunB.sl.v2484 c i tbl hT sim b10 = simRow c sim (wordAt c tbl i ⟨29, by decide⟩) := by
  unfold kernelRunB.sl.v2484; exact (load_after_fill cc0_scratch1 _ _ (by decide) _).trans (D_dma646 c i tbl hT sim)
theorem S_v2569 : kernelRunB.sl.v2569 c i tbl hT sim b9 = simRow c sim (wordAt c tbl i ⟨30, by decide⟩) := by
  unfold kernelRunB.sl.v2569; exact (load_after_fill cc0_scratch0 _ _ (by decide) _).trans (D_dma669 c i tbl hT sim)
theorem S_v2654 : kernelRunB.sl.v2654 c i tbl hT sim b10 = simRow c sim (wordAt c tbl i ⟨31, by decide⟩) := by
  unfold kernelRunB.sl.v2654; exact (load_after_fill cc0_scratch1 _ _ (by decide) _).trans (D_dma692 c i tbl hT sim)
theorem S_v2739 : kernelRunB.sl.v2739 c i tbl hT sim b9 = simRow c sim (wordAt c tbl i ⟨32, by decide⟩) := by
  unfold kernelRunB.sl.v2739; exact (load_after_fill cc0_scratch0 _ _ (by decide) _).trans (D_dma715 c i tbl hT sim)
theorem S_v2824 : kernelRunB.sl.v2824 c i tbl hT sim b10 = simRow c sim (wordAt c tbl i ⟨33, by decide⟩) := by
  unfold kernelRunB.sl.v2824; exact (load_after_fill cc0_scratch1 _ _ (by decide) _).trans (D_dma738 c i tbl hT sim)
theorem S_v2909 : kernelRunB.sl.v2909 c i tbl hT sim b9 = simRow c sim (wordAt c tbl i ⟨34, by decide⟩) := by
  unfold kernelRunB.sl.v2909; exact (load_after_fill cc0_scratch0 _ _ (by decide) _).trans (D_dma761 c i tbl hT sim)
theorem S_v2994 : kernelRunB.sl.v2994 c i tbl hT sim b10 = simRow c sim (wordAt c tbl i ⟨35, by decide⟩) := by
  unfold kernelRunB.sl.v2994; exact (load_after_fill cc0_scratch1 _ _ (by decide) _).trans (D_dma784 c i tbl hT sim)
theorem S_v3079 : kernelRunB.sl.v3079 c i tbl hT sim b9 = simRow c sim (wordAt c tbl i ⟨36, by decide⟩) := by
  unfold kernelRunB.sl.v3079; exact (load_after_fill cc0_scratch0 _ _ (by decide) _).trans (D_dma807 c i tbl hT sim)
theorem S_v3164 : kernelRunB.sl.v3164 c i tbl hT sim b10 = simRow c sim (wordAt c tbl i ⟨37, by decide⟩) := by
  unfold kernelRunB.sl.v3164; exact (load_after_fill cc0_scratch1 _ _ (by decide) _).trans (D_dma830 c i tbl hT sim)
theorem S_v_1 : kernelRunB.sl.v_1 c i tbl hT sim b9 = simRow c sim (wordAt c tbl i ⟨38, by decide⟩) := by
  unfold kernelRunB.sl.v_1; exact (load_after_fill cc0_scratch0 _ _ (by decide) _).trans (D_dma853 c i tbl hT sim)
theorem S_v3334 : kernelRunB.sl.v3334 c i tbl hT sim b10 = simRow c sim (wordAt c tbl i ⟨39, by decide⟩) := by
  unfold kernelRunB.sl.v3334; exact (load_after_fill cc0_scratch1 _ _ (by decide) _).trans (D_dma876 c i tbl hT sim)
theorem S_v3419 : kernelRunB.sl.v3419 c i tbl hT sim b9 = simRow c sim (wordAt c tbl i ⟨40, by decide⟩) := by
  unfold kernelRunB.sl.v3419; exact (load_after_fill cc0_scratch0 _ _ (by decide) _).trans (D_dma899 c i tbl hT sim)
theorem S_v3504 : kernelRunB.sl.v3504 c i tbl hT sim b10 = simRow c sim (wordAt c tbl i ⟨41, by decide⟩) := by
  unfold kernelRunB.sl.v3504; exact (load_after_fill cc0_scratch1 _ _ (by decide) _).trans (D_dma922 c i tbl hT sim)
theorem S_v3589 : kernelRunB.sl.v3589 c i tbl hT sim b9 = simRow c sim (wordAt c tbl i ⟨42, by decide⟩) := by
  unfold kernelRunB.sl.v3589; exact (load_after_fill cc0_scratch0 _ _ (by decide) _).trans (D_dma945 c i tbl hT sim)
theorem S_v3674 : kernelRunB.sl.v3674 c i tbl hT sim b10 = simRow c sim (wordAt c tbl i ⟨43, by decide⟩) := by
  unfold kernelRunB.sl.v3674; exact (load_after_fill cc0_scratch1 _ _ (by decide) _).trans (D_dma968 c i tbl hT sim)
theorem S_v3759 : kernelRunB.sl.v3759 c i tbl hT sim b9 = simRow c sim (wordAt c tbl i ⟨44, by decide⟩) := by
  unfold kernelRunB.sl.v3759; exact (load_after_fill cc0_scratch0 _ _ (by decide) _).trans (D_dma991 c i tbl hT sim)
theorem S_v3844 : kernelRunB.sl.v3844 c i tbl hT sim b10 = simRow c sim (wordAt c tbl i ⟨45, by decide⟩) := by
  unfold kernelRunB.sl.v3844; exact (load_after_fill cc0_scratch1 _ _ (by decide) _).trans (D_dma1014 c i tbl hT sim)
theorem S_v3929 : kernelRunB.sl.v3929 c i tbl hT sim b9 = simRow c sim (wordAt c tbl i ⟨46, by decide⟩) := by
  unfold kernelRunB.sl.v3929; exact (load_after_fill cc0_scratch0 _ _ (by decide) _).trans (D_dma1037 c i tbl hT sim)
theorem S_v4014 : kernelRunB.sl.v4014 c i tbl hT sim b10 = simRow c sim (wordAt c tbl i ⟨47, by decide⟩) := by
  unfold kernelRunB.sl.v4014; exact (load_after_fill cc0_scratch1 _ _ (by decide) _).trans (D_dma1060 c i tbl hT sim)
theorem S_v4099 : kernelRunB.sl.v4099 c i tbl hT sim b9 = simRow c sim (wordAt c tbl i ⟨48, by decide⟩) := by
  unfold kernelRunB.sl.v4099; exact (load_after_fill cc0_scratch0 _ _ (by decide) _).trans (D_dma1083 c i tbl hT sim)
theorem S_v4184 : kernelRunB.sl.v4184 c i tbl hT sim b10 = simRow c sim (wordAt c tbl i ⟨49, by decide⟩) := by
  unfold kernelRunB.sl.v4184; exact (load_after_fill cc0_scratch1 _ _ (by decide) _).trans (D_dma1106 c i tbl hT sim)
theorem S_v4269 : kernelRunB.sl.v4269 c i tbl hT sim b9 = simRow c sim (wordAt c tbl i ⟨50, by decide⟩) := by
  unfold kernelRunB.sl.v4269; exact (load_after_fill cc0_scratch0 _ _ (by decide) _).trans (D_dma1129 c i tbl hT sim)
theorem S_v4354 : kernelRunB.sl.v4354 c i tbl hT sim b10 = simRow c sim (wordAt c tbl i ⟨51, by decide⟩) := by
  unfold kernelRunB.sl.v4354; exact (load_after_fill cc0_scratch1 _ _ (by decide) _).trans (D_dma1152 c i tbl hT sim)
theorem S_v4439 : kernelRunB.sl.v4439 c i tbl hT sim b9 = simRow c sim (wordAt c tbl i ⟨52, by decide⟩) := by
  unfold kernelRunB.sl.v4439; exact (load_after_fill cc0_scratch0 _ _ (by decide) _).trans (D_dma1175 c i tbl hT sim)
theorem S_v4524 : kernelRunB.sl.v4524 c i tbl hT sim b10 = simRow c sim (wordAt c tbl i ⟨53, by decide⟩) := by
  unfold kernelRunB.sl.v4524; exact (load_after_fill cc0_scratch1 _ _ (by decide) _).trans (D_dma1198 c i tbl hT sim)
theorem S_v4609 : kernelRunB.sl.v4609 c i tbl hT sim b9 = simRow c sim (wordAt c tbl i ⟨54, by decide⟩) := by
  unfold kernelRunB.sl.v4609; exact (load_after_fill cc0_scratch0 _ _ (by decide) _).trans (D_dma1221 c i tbl hT sim)
theorem S_v4694 : kernelRunB.sl.v4694 c i tbl hT sim b10 = simRow c sim (wordAt c tbl i ⟨55, by decide⟩) := by
  unfold kernelRunB.sl.v4694; exact (load_after_fill cc0_scratch1 _ _ (by decide) _).trans (D_dma1244 c i tbl hT sim)
theorem S_v4779 : kernelRunB.sl.v4779 c i tbl hT sim b9 = simRow c sim (wordAt c tbl i ⟨56, by decide⟩) := by
  unfold kernelRunB.sl.v4779; exact (load_after_fill cc0_scratch0 _ _ (by decide) _).trans (D_dma1267 c i tbl hT sim)
theorem S_v4864 : kernelRunB.sl.v4864 c i tbl hT sim b10 = simRow c sim (wordAt c tbl i ⟨57, by decide⟩) := by
  unfold kernelRunB.sl.v4864; exact (load_after_fill cc0_scratch1 _ _ (by decide) _).trans (D_dma1290 c i tbl hT sim)
theorem S_v_2 : kernelRunB.sl.v_2 c i tbl hT sim b9 = simRow c sim (wordAt c tbl i ⟨58, by decide⟩) := by
  unfold kernelRunB.sl.v_2; exact (load_after_fill cc0_scratch0 _ _ (by decide) _).trans (D_dma1313 c i tbl hT sim)
theorem S_v5034 : kernelRunB.sl.v5034 c i tbl hT sim b10 = simRow c sim (wordAt c tbl i ⟨59, by decide⟩) := by
  unfold kernelRunB.sl.v5034; exact (load_after_fill cc0_scratch1 _ _ (by decide) _).trans (D_dma1336 c i tbl hT sim)
theorem S_v5119 : kernelRunB.sl.v5119 c i tbl hT sim b9 = simRow c sim (wordAt c tbl i ⟨60, by decide⟩) := by
  unfold kernelRunB.sl.v5119; exact (load_after_fill cc0_scratch0 _ _ (by decide) _).trans (D_dma1359 c i tbl hT sim)
theorem S_v5204 : kernelRunB.sl.v5204 c i tbl hT sim b10 = simRow c sim (wordAt c tbl i ⟨61, by decide⟩) := by
  unfold kernelRunB.sl.v5204; exact (load_after_fill cc0_scratch1 _ _ (by decide) _).trans (D_dma1382 c i tbl hT sim)
theorem S_v5289 : kernelRunB.sl.v5289 c i tbl hT sim b9 = simRow c sim (wordAt c tbl i ⟨62, by decide⟩) := by
  unfold kernelRunB.sl.v5289; exact (load_after_fill cc0_scratch0 _ _ (by decide) _).trans (D_dma1405 c i tbl hT sim)
theorem S_v5368 : kernelRunB.sl.v5368 c i tbl hT sim b10 = simRow c sim (wordAt c tbl i ⟨63, by decide⟩) := by
  unfold kernelRunB.sl.v5368; exact (load_after_fill cc0_scratch1 _ _ (by decide) _).trans (D_dma1428 c i tbl hT sim)
end TabB

end Cert.Proof.K

end
-- ==== Proof.KStepBTabV1.lean ====
import proofs.«419560_j5755256177164_3_alg».proof.Proof.KStepBTabW

/-!
  The table of case B: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.K

open Cert.Kernel Cert.Kernel.Gen
open Idealize.ShloMosaic Idealize.ShloMosaic.TcCoe
open Idealize.SL Idealize.SL.Sem

variable {F : FTy → Type} [FloatOps F]

namespace TabB

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

include c i M2 hM2 M3 hM3 tbl hT sim x2 x3 b9 b10 a12 a13 a14 a15 a16 a17

theorem V12_1 : kernelRunB.sl.v149 c M3 hM3 x3 a12 = (rowsOf c tbl i sim x2 x3 (accOf c a12 a13 a14 a15 a16 a17) 1).m := by
  unfold kernelRunB.sl.v149 kernelRunB.sl.H12_1
  rw [View.readCov_cons_toLoadRect]
  refine Eq.trans ?_ (rowsOf_m c tbl i sim x2 x3 (accOf c a12 a13 a14 a15 a16 a17) 0 (by decide)).symm
  unfold kernelRunB.sl.r_4
  simp only [mk_read M3 hM3 x3 0 (by decide)]
  try rfl
theorem V13_1 : kernelRunB.sl.v154 c i M2 hM2 M3 hM3 tbl x2 x3 a13 = (rowsOf c tbl i sim x2 x3 (accOf c a12 a13 a14 a15 a16 a17) 1).logp := by
  unfold kernelRunB.sl.v154 kernelRunB.sl.H13_1
  rw [View.readCov_cons_toLoadRect]
  refine Eq.trans ?_ (rowsOf_logp c tbl i sim x2 x3 (accOf c a12 a13 a14 a15 a16 a17) 0 (by decide)).symm
  unfold kernelRunB.sl.r_10 kernelRunB.sl.r_3 kernelRunB.sl.r_4
  simp only [W_r_2 c i tbl, in_read M2 hM2 x2 0 (by decide), mk_read M3 hM3 x3 0 (by decide)]
  try rfl
theorem V14_1 : kernelRunB.sl.v160 c i M3 hM3 tbl hT sim x3 b9 a14 = (rowsOf c tbl i sim x2 x3 (accOf c a12 a13 a14 a15 a16 a17) 1).w := by
  unfold kernelRunB.sl.v160 kernelRunB.sl.H14_1
  rw [View.readCov_cons_toLoadRect]
  refine Eq.trans ?_ (rowsOf_w c tbl i sim x2 x3 (accOf c a12 a13 a14 a15 a16 a17) 0 (by decide)).symm
  unfold kernelRunB.sl.r_6 kernelRunB.sl.r_4 kernelRunB.sl.r_5 kernelRunB.sl.cst_15
  simp only [S_v19 c i tbl hT sim b9, mk_read M3 hM3 x3 0 (by decide)]
  try rfl
theorem V12_2 : kernelRunB.sl.v234 c M3 hM3 x3 a12 = (rowsOf c tbl i sim x2 x3 (accOf c a12 a13 a14 a15 a16 a17) 2).m := by
  unfold kernelRunB.sl.v234 kernelRunB.sl.H12_2
  rw [View.readCov_cons_toLoadRect]
  refine Eq.trans ?_ (rowsOf_m c tbl i sim x2 x3 (accOf c a12 a13 a14 a15 a16 a17) 1 (by decide)).symm
  unfold kernelRunB.sl.r_13
  simp only [V12_1 c i M2 hM2 M3 hM3 tbl hT sim x2 x3 b9 b10 a12 a13 a14 a15 a16 a17, mk_read M3 hM3 x3 1 (by decide)]
  try rfl
theorem V13_2 : kernelRunB.sl.v239 c i M2 hM2 M3 hM3 tbl x2 x3 a13 = (rowsOf c tbl i sim x2 x3 (accOf c a12 a13 a14 a15 a16 a17) 2).logp := by
  unfold kernelRunB.sl.v239 kernelRunB.sl.H13_2
  rw [View.readCov_cons_toLoadRect]
  refine Eq.trans ?_ (rowsOf_logp c tbl i sim x2 x3 (accOf c a12 a13 a14 a15 a16 a17) 1 (by decide)).symm
  unfold kernelRunB.sl.r_13 kernelRunB.sl.r_16
  simp only [W_r_12 c i tbl, V13_1 c i M2 hM2 M3 hM3 tbl hT sim x2 x3 b9 b10 a12 a13 a14 a15 a16 a17, in_read M2 hM2 x2 1 (by decide), mk_read M3 hM3 x3 1 (by decide)]
  try rfl
theorem V14_2 : kernelRunB.sl.v245 c i M3 hM3 tbl hT sim x3 b9 b10 a14 = (rowsOf c tbl i sim x2 x3 (accOf c a12 a13 a14 a15 a16 a17) 2).w := by
  unfold kernelRunB.sl.v245 kernelRunB.sl.H14_2
  rw [View.readCov_cons_toLoadRect]
  refine Eq.trans ?_ (rowsOf_w c tbl i sim x2 x3 (accOf c a12 a13 a14 a15 a16 a17) 1 (by decide)).symm
  unfold kernelRunB.sl.r_14
  simp only [S_v104 c i tbl hT sim b10, V14_1 c i M2 hM2 M3 hM3 tbl hT sim x2 x3 b9 b10 a12 a13 a14 a15 a16 a17, mk_read M3 hM3 x3 1 (by decide)]
  try rfl
theorem V12_3 : kernelRunB.sl.v319 c M3 hM3 x3 a12 = (rowsOf c tbl i sim x2 x3 (accOf c a12 a13 a14 a15 a16 a17) 3).m := by
  unfold kernelRunB.sl.v319 kernelRunB.sl.H12_3
  rw [View.readCov_cons_toLoadRect]
  refine Eq.trans ?_ (rowsOf_m c tbl i sim x2 x3 (accOf c a12 a13 a14 a15 a16 a17) 2 (by decide)).symm
  unfold kernelRunB.sl.r_23
  simp only [V12_2 c i M2 hM2 M3 hM3 tbl hT sim x2 x3 b9 b10 a12 a13 a14 a15 a16 a17, mk_read M3 hM3 x3 2 (by decide)]
  try rfl
theorem V13_3 : kernelRunB.sl.v324 c i M2 hM2 M3 hM3 tbl x2 x3 a13 = (rowsOf c tbl i sim x2 x3 (accOf c a12 a13 a14 a15 a16 a17) 3).logp := by
  unfold kernelRunB.sl.v324 kernelRunB.sl.H13_3
  rw [View.readCov_cons_toLoadRect]
  refine Eq.trans ?_ (rowsOf_logp c tbl i sim x2 x3 (accOf c a12 a13 a14 a15 a16 a17) 2 (by decide)).symm
  unfold kernelRunB.sl.r_22 kernelRunB.sl.r_23
  simp only [W_r_21 c i tbl, V13_2 c i M2 hM2 M3 hM3 tbl hT sim x2 x3 b9 b10 a12 a13 a14 a15 a16 a17, in_read M2 hM2 x2 2 (by decide), mk_read M3 hM3 x3 2 (by decide)]
  try rfl
theorem V14_3 : kernelRunB.sl.v330 c i M3 hM3 tbl hT sim x3 b9 b10 a14 = (rowsOf c tbl i sim x2 x3 (accOf c a12 a13 a14 a15 a16 a17) 3).w := by
  unfold kernelRunB.sl.v330 kernelRunB.sl.H14_3
  rw [View.readCov_cons_toLoadRect]
  refine Eq.trans ?_ (rowsOf_w c tbl i sim x2 x3 (accOf c a12 a13 a14 a15 a16 a17) 2 (by decide)).symm
  unfold kernelRunB.sl.r_26
  simp only [S_v189 c i tbl hT sim b9, V14_2 c i M2 hM2 M3 hM3 tbl hT sim x2 x3 b9 b10 a12 a13 a14 a15 a16 a17, mk_read M3 hM3 x3 2 (by decide)]
  try rfl
theorem V12_4 : kernelRunB.sl.v404 c M3 hM3 x3 a12 = (rowsOf c tbl i sim x2 x3 (accOf c a12 a13 a14 a15 a16 a17) 4).m := by
  unfold kernelRunB.sl.v404 kernelRunB.sl.H12_4
  rw [View.readCov_cons_toLoadRect]
  refine Eq.trans ?_ (rowsOf_m c tbl i sim x2 x3 (accOf c a12 a13 a14 a15 a16 a17) 3 (by decide)).symm
  unfold kernelRunB.sl.r_33
  simp only [V12_3 c i M2 hM2 M3 hM3 tbl hT sim x2 x3 b9 b10 a12 a13 a14 a15 a16 a17, mk_read M3 hM3 x3 3 (by decide)]
  try rfl
theorem V13_4 : kernelRunB.sl.v409 c i M2 hM2 M3 hM3 tbl x2 x3 a13 = (rowsOf c tbl i sim x2 x3 (accOf c a12 a13 a14 a15 a16 a17) 4).logp := by
  unfold kernelRunB.sl.v409 kernelRunB.sl.H13_4
  rw [View.readCov_cons_toLoadRect]
  refine Eq.trans ?_ (rowsOf_logp c tbl i sim x2 x3 (accOf c a12 a13 a14 a15 a16 a17) 3 (by decide)).symm
  unfold kernelRunB.sl.r_39 kernelRunB.sl.r_32 kernelRunB.sl.r_33
  simp only [W_r_31 c i tbl, V13_3 c i M2 hM2 M3 hM3 tbl hT sim x2 x3 b9 b10 a12 a13 a14 a15 a16 a17, in_read M2 hM2 x2 3 (by decide), mk_read M3 hM3 x3 3 (by decide)]
  try rfl
theorem V14_4 : kernelRunB.sl.v415 c i M3 hM3 tbl hT sim x3 b9 b10 a14 = (rowsOf c tbl i sim x2 x3 (accOf c a12 a13 a14 a15 a16 a17) 4).w := by
  unfold kernelRunB.sl.v415 kernelRunB.sl.H14_4
  rw [View.readCov_cons_toLoadRect]
  refine Eq.trans ?_ (rowsOf_w c tbl i sim x2 x3 (accOf c a12 a13 a14 a15 a16 a17) 3 (by decide)).symm
  unfold kernelRunB.sl.r_35 kernelRunB.sl.r_33 kernelRunB.sl.r_34
  simp only [S_v274 c i tbl hT sim b10, V14_3 c i M2 hM2 M3 hM3 tbl hT sim x2 x3 b9 b10 a12 a13 a14 a15 a16 a17, mk_read M3 hM3 x3 3 (by decide)]
  try rfl
theorem V12_5 : kernelRunB.sl.v489 c M3 hM3 x3 a12 = (rowsOf c tbl i sim x2 x3 (accOf c a12 a13 a14 a15 a16 a17) 5).m := by
  unfold kernelRunB.sl.v489 kernelRunB.sl.H12_5
  rw [View.readCov_cons_toLoadRect]
  refine Eq.trans ?_ (rowsOf_m c tbl i sim x2 x3 (accOf c a12 a13 a14 a15 a16 a17) 4 (by decide)).symm
  unfold kernelRunB.sl.r_42
  simp only [V12_4 c i M2 hM2 M3 hM3 tbl hT sim x2 x3 b9 b10 a12 a13 a14 a15 a16 a17, mk_read M3 hM3 x3 4 (by decide)]
  try rfl
theorem V13_5 : kernelRunB.sl.v494 c i M2 hM2 M3 hM3 tbl x2 x3 a13 = (rowsOf c tbl i sim x2 x3 (accOf c a12 a13 a14 a15 a16 a17) 5).logp := by
  unfold kernelRunB.sl.v494 kernelRunB.sl.H13_5
  rw [View.readCov_cons_toLoadRect]
  refine Eq.trans ?_ (rowsOf_logp c tbl i sim x2 x3 (accOf c a12 a13 a14 a15 a16 a17) 4 (by decide)).symm
  unfold kernelRunB.sl.r_42 kernelRunB.sl.r_46
  simp only [W_r_41 c i tbl, V13_4 c i M2 hM2 M3 hM3 tbl hT sim x2 x3 b9 b10 a12 a13 a14 a15 a16 a17, in_read M2 hM2 x2 4 (by decide), mk_read M3 hM3 x3 4 (by decide)]
  try rfl
theorem V14_5 : kernelRunB.sl.v500 c i M3 hM3 tbl hT sim x3 b9 b10 a14 = (rowsOf c tbl i sim x2 x3 (accOf c a12 a13 a14 a15 a16 a17) 5).w := by
  unfold kernelRunB.sl.v500 kernelRunB.sl.H14_5
  rw [View.readCov_cons_toLoadRect]
  refine Eq.trans ?_ (rowsOf_w c tbl i sim x2 x3 (accOf c a12 a13 a14 a15 a16 a17) 4 (by decide)).symm
  unfold kernelRunB.sl.r_44
  simp only [S_v359 c i tbl hT sim b9, V14_4 c i M2 hM2 M3 hM3 tbl hT sim x2 x3 b9 b10 a12 a13 a14 a15 a16 a17, mk_read M3 hM3 x3 4 (by decide)]
  try rfl
theorem V12_6 : kernelRunB.sl.v574 c M3 hM3 x3 a12 = (rowsOf c tbl i sim x2 x3 (accOf c a12 a13 a14 a15 a16 a17) 6).m := by
  unfold kernelRunB.sl.v574 kernelRunB.sl.H12_6
  rw [View.readCov_cons_toLoadRect]
  refine Eq.trans ?_ (rowsOf_m c tbl i sim x2 x3 (accOf c a12 a13 a14 a15 a16 a17) 5 (by decide)).symm
  unfold kernelRunB.sl.r_52
  simp only [V12_5 c i M2 hM2 M3 hM3 tbl hT sim x2 x3 b9 b10 a12 a13 a14 a15 a16 a17, mk_read M3 hM3 x3 5 (by decide)]
  try rfl
theorem V13_6 : kernelRunB.sl.v579 c i M2 hM2 M3 hM3 tbl x2 x3 a13 = (rowsOf c tbl i sim x2 x3 (accOf c a12 a13 a14 a15 a16 a17) 6).logp := by
  unfold kernelRunB.sl.v579 kernelRunB.sl.H13_6
  rw [View.readCov_cons_toLoadRect]
  refine Eq.trans ?_ (rowsOf_logp c tbl i sim x2 x3 (accOf c a12 a13 a14 a15 a16 a17) 5 (by decide)).symm
  unfold kernelRunB.sl.r_51 kernelRunB.sl.r_52
  simp only [W_r_50 c i tbl, V13_5 c i M2 hM2 M3 hM3 tbl hT sim x2 x3 b9 b10 a12 a13 a14 a15 a16 a17, in_read M2 hM2 x2 5 (by decide), mk_read M3 hM3 x3 5 (by decide)]
  try rfl
theorem V14_6 : kernelRunB.sl.v585 c i M3 hM3 tbl hT sim x3 b9 b10 a14 = (rowsOf c tbl i sim x2 x3 (accOf c a12 a13 a14 a15 a16 a17) 6).w := by
  unfold kernelRunB.sl.v585 kernelRunB.sl.H14_6
  rw [View.readCov_cons_toLoadRect]
  refine Eq.trans ?_ (rowsOf_w c tbl i sim x2 x3 (accOf c a12 a13 a14 a15 a16 a17) 5 (by decide)).symm
  unfold kernelRunB.sl.r_54
  simp only [S_v444 c i tbl hT sim b10, V14_5 c i M2 hM2 M3 hM3 tbl hT sim x2 x3 b9 b10 a12 a13 a14 a15 a16 a17, mk_read M3 hM3 x3 5 (by decide)]
  try rfl
theorem V12_7 : kernelRunB.sl.v659 c M3 hM3 x3 a12 = (rowsOf c tbl i sim x2 x3 (accOf c a12 a13 a14 a15 a16 a17) 7).m := by
  unfold kernelRunB.sl.v659 kernelRunB.sl.H12_7
  rw [View.readCov_cons_toLoadRect]
  refine Eq.trans ?_ (rowsOf_m c tbl i sim x2 x3 (accOf c a12 a13 a14 a15 a16 a17) 6 (by decide)).symm
  unfold kernelRunB.sl.r_61
  simp only [V12_6 c i M2 hM2 M3 hM3 tbl hT sim x2 x3 b9 b10 a12 a13 a14 a15 a16 a17, mk_read M3 hM3 x3 6 (by decide)]
  try rfl
theorem V13_7 : kernelRunB.sl.v664 c i M2 hM2 M3 hM3 tbl x2 x3 a13 = (rowsOf c tbl i sim x2 x3 (accOf c a12 a13 a14 a15 a16 a17) 7).logp := by
  unfold kernelRunB.sl.v664 kernelRunB.sl.H13_7
  rw [View.readCov_cons_toLoadRect]
  refine Eq.trans ?_ (rowsOf_logp c tbl i sim x2 x3 (accOf c a12 a13 a14 a15 a16 a17) 6 (by decide)).symm
  unfold kernelRunB.sl.r_66 kernelRunB.sl.r_60 kernelRunB.sl.r_61
  simp only [W_r_59 c i tbl, V13_6 c i M2 hM2 M3 hM3 tbl hT sim x2 x3 b9 b10 a12 a13 a14 a15 a16 a17, in_read M2 hM2 x2 6 (by decide), mk_read M3 hM3 x3 6 (by decide)]
  try rfl
theorem V14_7 : kernelRunB.sl.v670 c i M3 hM3 tbl hT sim x3 b9 b10 a14 = (rowsOf c tbl i sim x2 x3 (accOf c a12 a13 a14 a15 a16 a17) 7).w := by
  unfold kernelRunB.sl.v670 kernelRunB.sl.H14_7
  rw [View.readCov_cons_toLoadRect]
  refine Eq.trans ?_ (rowsOf_w c tbl i sim x2 x3 (accOf c a12 a13 a14 a15 a16 a17) 6 (by decide)).symm
  unfold kernelRunB.sl.r_62 kernelRunB.sl.r_61 kernelRunB.sl.cst_284
  simp only [S_v529 c i tbl hT sim b9, V14_6 c i M2 hM2 M3 hM3 tbl hT sim x2 x3 b9 b10 a12 a13 a14 a15 a16 a17, mk_read M3 hM3 x3 6 (by decide)]
  try rfl
theorem V12_8 : kernelRunB.sl.v744 c M3 hM3 x3 a12 = (rowsOf c tbl i sim x2 x3 (accOf c a12 a13 a14 a15 a16 a17) 8).m := by
  unfold kernelRunB.sl.v744 kernelRunB.sl.H12_8
  rw [View.readCov_cons_toLoadRect]
  refine Eq.trans ?_ (rowsOf_m c tbl i sim x2 x3 (accOf c a12 a13 a14 a15 a16 a17) 7 (by decide)).symm
  unfold kernelRunB.sl.r_69
  simp only [V12_7 c i M2 hM2 M3 hM3 tbl hT sim x2 x3 b9 b10 a12 a13 a14 a15 a16 a17, mk_read M3 hM3 x3 7 (by decide)]
  try rfl
theorem V13_8 : kernelRunB.sl.v749 c i M2 hM2 M3 hM3 tbl x2 x3 a13 = (rowsOf c tbl i sim x2 x3 (accOf c a12 a13 a14 a15 a16 a17) 8).logp := by
  unfold kernelRunB.sl.v749 kernelRunB.sl.H13_8
  rw [View.readCov_cons_toLoadRect]
  refine Eq.trans ?_ (rowsOf_logp c tbl i sim x2 x3 (accOf c a12 a13 a14 a15 a16 a17) 7 (by decide)).symm
  unfold kernelRunB.sl.r_69 kernelRunB.sl.r_73
  simp only [W_r_68 c i tbl, V13_7 c i M2 hM2 M3 hM3 tbl hT sim x2 x3 b9 b10 a12 a13 a14 a15 a16 a17, in_read M2 hM2 x2 7 (by decide), mk_read M3 hM3 x3 7 (by decide)]
  try rfl
theorem V14_8 : kernelRunB.sl.v755 c i M3 hM3 tbl hT sim x3 b9 b10 a14 = (rowsOf c tbl i sim x2 x3 (accOf c a12 a13 a14 a15 a16 a17) 8).w := by
  unfold kernelRunB.sl.v755 kernelRunB.sl.H14_8
  rw [View.readCov_cons_toLoadRect]
  refine Eq.trans ?_ (rowsOf_w c tbl i sim x2 x3 (accOf c a12 a13 a14 a15 a16 a17) 7 (by decide)).symm
  unfold kernelRunB.sl.r_71
  simp only [S_v614 c i tbl hT sim b10, V14_7 c i M2 hM2 M3 hM3 tbl hT sim x2 x3 b9 b10 a12 a13 a14 a15 a16 a17, mk_read M3 hM3 x3 7 (by decide)]
  try rfl
theorem V12_9 : kernelRunB.sl.v829 c M3 hM3 x3 a12 = (rowsOf c tbl i sim x2 x3 (accOf c a12 a13 a14 a15 a16 a17) 9).m := by
  unfold kernelRunB.sl.v829 kernelRunB.sl.H12_9
  rw [View.readCov_cons_toLoadRect]
  refine Eq.trans ?_ (rowsOf_m c tbl i sim x2 x3 (accOf c a12 a13 a14 a15 a16 a17) 8 (by decide)).symm
  unfold kernelRunB.sl.r_78
  simp only [V12_8 c i M2 hM2 M3 hM3 tbl hT sim x2 x3 b9 b10 a12 a13 a14 a15 a16 a17, mk_read M3 hM3 x3 8 (by decide)]
  try rfl
theorem V13_9 : kernelRunB.sl.v834 c i M2 hM2 M3 hM3 tbl x2 x3 a13 = (rowsOf c tbl i sim x2 x3 (accOf c a12 a13 a14 a15 a16 a17) 9).logp := by
  unfold kernelRunB.sl.v834 kernelRunB.sl.H13_9
  rw [View.readCov_cons_toLoadRect]
  refine Eq.trans ?_ (rowsOf_logp c tbl i sim x2 x3 (accOf c a12 a13 a14 a15 a16 a17) 8 (by decide)).symm
  unfold kernelRunB.sl.r_77 kernelRunB.sl.r_78
  simp only [W_r_76 c i tbl, V13_8 c i M2 hM2 M3 hM3 tbl hT sim x2 x3 b9 b10 a12 a13 a14 a15 a16 a17, in_read M2 hM2 x2 8 (by decide), mk_read M3 hM3 x3 8 (by decide)]
  try rfl
theorem V14_9 : kernelRunB.sl.v840 c i M3 hM3 tbl hT sim x3 b9 b10 a14 = (rowsOf c tbl i sim x2 x3 (accOf c a12 a13 a14 a15 a16 a17) 9).w := by
  unfold kernelRunB.sl.v840 kernelRunB.sl.H14_9
  rw [View.readCov_cons_toLoadRect]
  refine Eq.trans ?_ (rowsOf_w c tbl i sim x2 x3 (accOf c a12 a13 a14 a15 a16 a17) 8 (by decide)).symm
  unfold kernelRunB.sl.r_78 kernelRunB.sl.r_79
  simp only [S_v699 c i tbl hT sim b9, V14_8 c i M2 hM2 M3 hM3 tbl hT sim x2 x3 b9 b10 a12 a13 a14 a15 a16 a17, mk_read M3 hM3 x3 8 (by decide)]
  try rfl
theorem V12_10 : kernelRunB.sl.v914 c M3 hM3 x3 a12 = (rowsOf c tbl i sim x2 x3 (accOf c a12 a13 a14 a15 a16 a17) 10).m := by
  unfold kernelRunB.sl.v914 kernelRunB.sl.H12_10
  rw [View.readCov_cons_toLoadRect]
  refine Eq.trans ?_ (rowsOf_m c tbl i sim x2 x3 (accOf c a12 a13 a14 a15 a16 a17) 9 (by decide)).symm
  unfold kernelRunB.sl.r_85
  simp only [V12_9 c i M2 hM2 M3 hM3 tbl hT sim x2 x3 b9 b10 a12 a13 a14 a15 a16 a17, mk_read M3 hM3 x3 9 (by decide)]
  try rfl
theorem V13_10 : kernelRunB.sl.v919 c i M2 hM2 M3 hM3 tbl x2 x3 a13 = (rowsOf c tbl i sim x2 x3 (accOf c a12 a13 a14 a15 a16 a17) 10).logp := by
  unfold kernelRunB.sl.v919 kernelRunB.sl.H13_10
  rw [View.readCov_cons_toLoadRect]
  refine Eq.trans ?_ (rowsOf_logp c tbl i sim x2 x3 (accOf c a12 a13 a14 a15 a16 a17) 9 (by decide)).symm
  unfold kernelRunB.sl.r_85 kernelRunB.sl.r_89 kernelRunB.sl.r_84
  simp only [W_r_86 c i tbl, V13_9 c i M2 hM2 M3 hM3 tbl hT sim x2 x3 b9 b10 a12 a13 a14 a15 a16 a17, in_read M2 hM2 x2 9 (by decide), mk_read M3 hM3 x3 9 (by decide)]
  try rfl
theorem V14_10 : kernelRunB.sl.v925 c i M3 hM3 tbl hT sim x3 b9 b10 a14 = (rowsOf c tbl i sim x2 x3 (accOf c a12 a13 a14 a15 a16 a17) 10).w := by
  unfold kernelRunB.sl.v925 kernelRunB.sl.H14_10
  rw [View.readCov_cons_toLoadRect]
  refine Eq.trans ?_ (rowsOf_w c tbl i sim x2 x3 (accOf c a12 a13 a14 a15 a16 a17) 9 (by decide)).symm
  unfold kernelRunB.sl.r_87 kernelRunB.sl.r_85
  simp only [S_v784 c i tbl hT sim b10, V14_9 c i M2 hM2 M3 hM3 tbl hT sim x2 x3 b9 b10 a12 a13 a14 a15 a16 a17, mk_read M3 hM3 x3 9 (by decide)]
  try rfl
theorem V12_11 : kernelRunB.sl.v999 c M3 hM3 x3 a12 = (rowsOf c tbl i sim x2 x3 (accOf c a12 a13 a14 a15 a16 a17) 11).m := by
  unfold kernelRunB.sl.v999 kernelRunB.sl.H12_11
  rw [View.readCov_cons_toLoadRect]
  refine Eq.trans ?_ (rowsOf_m c tbl i sim x2 x3 (accOf c a12 a13 a14 a15 a16 a17) 10 (by decide)).symm
  unfold kernelRunB.sl.r_94
  simp only [V12_10 c i M2 hM2 M3 hM3 tbl hT sim x2 x3 b9 b10 a12 a13 a14 a15 a16 a17, mk_read M3 hM3 x3 10 (by decide)]
  try rfl
theorem V13_11 : kernelRunB.sl.v1004 c i M2 hM2 M3 hM3 tbl x2 x3 a13 = (rowsOf c tbl i sim x2 x3 (accOf c a12 a13 a14 a15 a16 a17) 11).logp := by
  unfold kernelRunB.sl.v1004 kernelRunB.sl.H13_11
  rw [View.readCov_cons_toLoadRect]
  refine Eq.trans ?_ (rowsOf_logp c tbl i sim x2 x3 (accOf c a12 a13 a14 a15 a16 a17) 10 (by decide)).symm
  unfold kernelRunB.sl.r_94 kernelRunB.sl.r_98
  simp only [W_r_93 c i tbl, V13_10 c i M2 hM2 M3 hM3 tbl hT sim x2 x3 b9 b10 a12 a13 a14 a15 a16 a17, in_read M2 hM2 x2 10 (by decide), mk_read M3 hM3 x3 10 (by decide)]
  try rfl
theorem V14_11 : kernelRunB.sl.v1010 c i M3 hM3 tbl hT sim x3 b9 b10 a14 = (rowsOf c tbl i sim x2 x3 (accOf c a12 a13 a14 a15 a16 a17) 11).w := by
  unfold kernelRunB.sl.v1010 kernelRunB.sl.H14_11
  rw [View.readCov_cons_toLoadRect]
  refine Eq.trans ?_ (rowsOf_w c tbl i sim x2 x3 (accOf c a12 a13 a14 a15 a16 a17) 10 (by decide)).symm
  unfold kernelRunB.sl.r_96
  simp only [S_v869 c i tbl hT sim b9, V14_10 c i M2 hM2 M3 hM3 tbl hT sim x2 x3 b9 b10 a12 a13 a14 a15 a16 a17, mk_read M3 hM3 x3 10 (by decide)]
  try rfl
theorem V12_12 : kernelRunB.sl.v1084 c M3 hM3 x3 a12 = (rowsOf c tbl i sim x2 x3 (accOf c a12 a13 a14 a15 a16 a17) 12).m := by
  unfold kernelRunB.sl.v1084 kernelRunB.sl.H12_12
  rw [View.readCov_cons_toLoadRect]
  refine Eq.trans ?_ (rowsOf_m c tbl i sim x2 x3 (accOf c a12 a13 a14 a15 a16 a17) 11 (by decide)).symm
  unfold kernelRunB.sl.r_104
  simp only [V12_11 c i M2 hM2 M3 hM3 tbl hT sim x2 x3 b9 b10 a12 a13 a14 a15 a16 a17, mk_read M3 hM3 x3 11 (by decide)]
  try rfl
theorem V13_12 : kernelRunB.sl.v1089 c i M2 hM2 M3 hM3 tbl x2 x3 a13 = (rowsOf c tbl i sim x2 x3 (accOf c a12 a13 a14 a15 a16 a17) 12).logp := by
  unfold kernelRunB.sl.v1089 kernelRunB.sl.H13_12
  rw [View.readCov_cons_toLoadRect]
  refine Eq.trans ?_ (rowsOf_logp c tbl i sim x2 x3 (accOf c a12 a13 a14 a15 a16 a17) 11 (by decide)).symm
  unfold kernelRunB.sl.r_103 kernelRunB.sl.r_104
  simp only [W_r_102 c i tbl, V13_11 c i M2 hM2 M3 hM3 tbl hT sim x2 x3 b9 b10 a12 a13 a14 a15 a16 a17, in_read M2 hM2 x2 11 (by decide), mk_read M3 hM3 x3 11 (by decide)]
  try rfl
theorem V14_12 : kernelRunB.sl.v1095 c i M3 hM3 tbl hT sim x3 b9 b10 a14 = (rowsOf c tbl i sim x2 x3 (accOf c a12 a13 a14 a15 a16 a17) 12).w := by
  unfold kernelRunB.sl.v1095 kernelRunB.sl.H14_12
  rw [View.readCov_cons_toLoadRect]
  refine Eq.trans ?_ (rowsOf_w c tbl i sim x2 x3 (accOf c a12 a13 a14 a15 a16 a17) 11 (by decide)).symm
  unfold kernelRunB.sl.r_110 kernelRunB.sl.r_104 kernelRunB.sl.r_105 kernelRunB.sl.r_106
  simp only [V14_11 c i M2 hM2 M3 hM3 tbl hT sim x2 x3 b9 b10 a12 a13 a14 a15 a16 a17, S_v954 c i tbl hT sim b10, mk_read M3 hM3 x3 11 (by decide)]
  try rfl
theorem V12_13 : kernelRunB.sl.v1169 c M3 hM3 x3 a12 = (rowsOf c tbl i sim x2 x3 (accOf c a12 a13 a14 a15 a16 a17) 13).m := by
  unfold kernelRunB.sl.v1169 kernelRunB.sl.H12_13
  rw [View.readCov_cons_toLoadRect]
  refine Eq.trans ?_ (rowsOf_m c tbl i sim x2 x3 (accOf c a12 a13 a14 a15 a16 a17) 12 (by decide)).symm
  unfold kernelRunB.sl.r_121 kernelRunB.sl.r_113
  simp only [V12_12 c i M2 hM2 M3 hM3 tbl hT sim x2 x3 b9 b10 a12 a13 a14 a15 a16 a17, mk_read M3 hM3 x3 12 (by decide)]
  try rfl
theorem V13_13 : kernelRunB.sl.v1174 c i M2 hM2 M3 hM3 tbl x2 x3 a13 = (rowsOf c tbl i sim x2 x3 (accOf c a12 a13 a14 a15 a16 a17) 13).logp := by
  unfold kernelRunB.sl.v1174 kernelRunB.sl.H13_13
  rw [View.readCov_cons_toLoadRect]
  refine Eq.trans ?_ (rowsOf_logp c tbl i sim x2 x3 (accOf c a12 a13 a14 a15 a16 a17) 12 (by decide)).symm
  unfold kernelRunB.sl.r_115 kernelRunB.sl.r_118 kernelRunB.sl.r_113 kernelRunB.sl.r_112
  simp only [W_r_114 c i tbl, V13_12 c i M2 hM2 M3 hM3 tbl hT sim x2 x3 b9 b10 a12 a13 a14 a15 a16 a17, in_read M2 hM2 x2 12 (by decide), mk_read M3 hM3 x3 12 (by decide)]
  try rfl
theorem V14_13 : kernelRunB.sl.v1180 c i M3 hM3 tbl hT sim x3 b9 b10 a14 = (rowsOf c tbl i sim x2 x3 (accOf c a12 a13 a14 a15 a16 a17) 13).w := by
  unfold kernelRunB.sl.v1180 kernelRunB.sl.H14_13
  rw [View.readCov_cons_toLoadRect]
  refine Eq.trans ?_ (rowsOf_w c tbl i sim x2 x3 (accOf c a12 a13 a14 a15 a16 a17) 12 (by decide)).symm
  unfold kernelRunB.sl.r_116 kernelRunB.sl.r_113
  simp only [S_v1039 c i tbl hT sim b9, V14_12 c i M2 hM2 M3 hM3 tbl hT sim x2 x3 b9 b10 a12 a13 a14 a15 a16 a17, mk_read M3 hM3 x3 12 (by decide)]
  try rfl
theorem V12_14 : kernelRunB.sl.v1254 c M3 hM3 x3 a12 = (rowsOf c tbl i sim x2 x3 (accOf c a12 a13 a14 a15 a16 a17) 14).m := by
  unfold kernelRunB.sl.v1254 kernelRunB.sl.H12_14
  rw [View.readCov_cons_toLoadRect]
  refine Eq.trans ?_ (rowsOf_m c tbl i sim x2 x3 (accOf c a12 a13 a14 a15 a16 a17) 13 (by decide)).symm
  unfold kernelRunB.sl.r_125
  simp only [V12_13 c i M2 hM2 M3 hM3 tbl hT sim x2 x3 b9 b10 a12 a13 a14 a15 a16 a17, mk_read M3 hM3 x3 13 (by decide)]
  try rfl
theorem V13_14 : kernelRunB.sl.v1259 c i M2 hM2 M3 hM3 tbl x2 x3 a13 = (rowsOf c tbl i sim x2 x3 (accOf c a12 a13 a14 a15 a16 a17) 14).logp := by
  unfold kernelRunB.sl.v1259 kernelRunB.sl.H13_14
  rw [View.readCov_cons_toLoadRect]
  refine Eq.trans ?_ (rowsOf_logp c tbl i sim x2 x3 (accOf c a12 a13 a14 a15 a16 a17) 13 (by decide)).symm
  unfold kernelRunB.sl.r_124 kernelRunB.sl.r_125 kernelRunB.sl.r_129
  simp only [W_r_123 c i tbl, V13_13 c i M2 hM2 M3 hM3 tbl hT sim x2 x3 b9 b10 a12 a13 a14 a15 a16 a17, in_read M2 hM2 x2 13 (by decide), mk_read M3 hM3 x3 13 (by decide)]
  try rfl
theorem V14_14 : kernelRunB.sl.v1265 c i M3 hM3 tbl hT sim x3 b9 b10 a14 = (rowsOf c tbl i sim x2 x3 (accOf c a12 a13 a14 a15 a16 a17) 14).w := by
  unfold kernelRunB.sl.v1265 kernelRunB.sl.H14_14
  rw [View.readCov_cons_toLoadRect]
  refine Eq.trans ?_ (rowsOf_w c tbl i sim x2 x3 (accOf c a12 a13 a14 a15 a16 a17) 13 (by decide)).symm
  unfold kernelRunB.sl.r_127
  simp only [S_v1124 c i tbl hT sim b10, V14_13 c i M2 hM2 M3 hM3 tbl hT sim x2 x3 b9 b10 a12 a13 a14 a15 a16 a17, mk_read M3 hM3 x3 13 (by decide)]
  try rfl
theorem V12_15 : kernelRunB.sl.v1339 c M3 hM3 x3 a12 = (rowsOf c tbl i sim x2 x3 (accOf c a12 a13 a14 a15 a16 a17) 15).m := by
  unfold kernelRunB.sl.v1339 kernelRunB.sl.H12_15
  rw [View.readCov_cons_toLoadRect]
  refine Eq.trans ?_ (rowsOf_m c tbl i sim x2 x3 (accOf c a12 a13 a14 a15 a16 a17) 14 (by decide)).symm
  unfold kernelRunB.sl.r_135
  simp only [V12_14 c i M2 hM2 M3 hM3 tbl hT sim x2 x3 b9 b10 a12 a13 a14 a15 a16 a17, mk_read M3 hM3 x3 14 (by decide)]
  try rfl
theorem V13_15 : kernelRunB.sl.v1344 c i M2 hM2 M3 hM3 tbl x2 x3 a13 = (rowsOf c tbl i sim x2 x3 (accOf c a12 a13 a14 a15 a16 a17) 15).logp := by
  unfold kernelRunB.sl.v1344 kernelRunB.sl.H13_15
  rw [View.readCov_cons_toLoadRect]
  refine Eq.trans ?_ (rowsOf_logp c tbl i sim x2 x3 (accOf c a12 a13 a14 a15 a16 a17) 14 (by decide)).symm
  unfold kernelRunB.sl.r_134 kernelRunB.sl.r_135
  simp only [W_r_133 c i tbl, V13_14 c i M2 hM2 M3 hM3 tbl hT sim x2 x3 b9 b10 a12 a13 a14 a15 a16 a17, in_read M2 hM2 x2 14 (by decide), mk_read M3 hM3 x3 14 (by decide)]
  try rfl
theorem V14_15 : kernelRunB.sl.v1350 c i M3 hM3 tbl hT sim x3 b9 b10 a14 = (rowsOf c tbl i sim x2 x3 (accOf c a12 a13 a14 a15 a16 a17) 15).w := by
  unfold kernelRunB.sl.v1350 kernelRunB.sl.H14_15
  rw [View.readCov_cons_toLoadRect]
  refine Eq.trans ?_ (rowsOf_w c tbl i sim x2 x3 (accOf c a12 a13 a14 a15 a16 a17) 14 (by decide)).symm
  unfold kernelRunB.sl.r_141 kernelRunB.sl.r_135 kernelRunB.sl.r_136 kernelRunB.sl.r_137
  simp only [S_v1209 c i tbl hT sim b9, V14_14 c i M2 hM2 M3 hM3 tbl hT sim x2 x3 b9 b10 a12 a13 a14 a15 a16 a17, mk_read M3 hM3 x3 14 (by decide)]
  try rfl
theorem V12_16 : kernelRunB.sl.v1424 c M3 hM3 x3 a12 = (rowsOf c tbl i sim x2 x3 (accOf c a12 a13 a14 a15 a16 a17) 16).m := by
  unfold kernelRunB.sl.v1424 kernelRunB.sl.H12_16
  rw [View.readCov_cons_toLoadRect]
  refine Eq.trans ?_ (rowsOf_m c tbl i sim x2 x3 (accOf c a12 a13 a14 a15 a16 a17) 15 (by decide)).symm
  unfold kernelRunB.sl.r_151
  simp only [V12_15 c i M2 hM2 M3 hM3 tbl hT sim x2 x3 b9 b10 a12 a13 a14 a15 a16 a17, mk_read M3 hM3 x3 15 (by decide)]
  try rfl
theorem V13_16 : kernelRunB.sl.v1429 c i M2 hM2 M3 hM3 tbl x2 x3 a13 = (rowsOf c tbl i sim x2 x3 (accOf c a12 a13 a14 a15 a16 a17) 16).logp := by
  unfold kernelRunB.sl.v1429 kernelRunB.sl.H13_16
  rw [View.readCov_cons_toLoadRect]
  refine Eq.trans ?_ (rowsOf_logp c tbl i sim x2 x3 (accOf c a12 a13 a14 a15 a16 a17) 15 (by decide)).symm
  unfold kernelRunB.sl.r_145 kernelRunB.sl.r_148 kernelRunB.sl.r_143
  simp only [W_r_144 c i tbl, V13_15 c i M2 hM2 M3 hM3 tbl hT sim x2 x3 b9 b10 a12 a13 a14 a15 a16 a17, in_read M2 hM2 x2 15 (by decide), mk_read M3 hM3 x3 15 (by decide)]
  try rfl
theorem V14_16 : kernelRunB.sl.v1435 c i M3 hM3 tbl hT sim x3 b9 b10 a14 = (rowsOf c tbl i sim x2 x3 (accOf c a12 a13 a14 a15 a16 a17) 16).w := by
  unfold kernelRunB.sl.v1435 kernelRunB.sl.H14_16
  rw [View.readCov_cons_toLoadRect]
  refine Eq.trans ?_ (rowsOf_w c tbl i sim x2 x3 (accOf c a12 a13 a14 a15 a16 a17) 15 (by decide)).symm
  unfold kernelRunB.sl.r_146
  simp only [S_v1294 c i tbl hT sim b10, V14_15 c i M2 hM2 M3 hM3 tbl hT sim x2 x3 b9 b10 a12 a13 a14 a15 a16 a17, mk_read M3 hM3 x3 15 (by decide)]
  try rfl
theorem V12_17 : kernelRunB.sl.v1509 c M3 hM3 x3 a12 = (rowsOf c tbl i sim x2 x3 (accOf c a12 a13 a14 a15 a16 a17) 17).m := by
  unfold kernelRunB.sl.v1509 kernelRunB.sl.H12_17
  rw [View.readCov_cons_toLoadRect]
  refine Eq.trans ?_ (rowsOf_m c tbl i sim x2 x3 (accOf c a12 a13 a14 a15 a16 a17) 16 (by decide)).symm
  unfold kernelRunB.sl.r_155
  simp only [V12_16 c i M2 hM2 M3 hM3 tbl hT sim x2 x3 b9 b10 a12 a13 a14 a15 a16 a17, mk_read M3 hM3 x3 16 (by decide)]
  try rfl
theorem V13_17 : kernelRunB.sl.v1514 c i M2 hM2 M3 hM3 tbl x2 x3 a13 = (rowsOf c tbl i sim x2 x3 (accOf c a12 a13 a14 a15 a16 a17) 17).logp := by
  unfold kernelRunB.sl.v1514 kernelRunB.sl.H13_17
  rw [View.readCov_cons_toLoadRect]
  refine Eq.trans ?_ (rowsOf_logp c tbl i sim x2 x3 (accOf c a12 a13 a14 a15 a16 a17) 16 (by decide)).symm
  unfold kernelRunB.sl.r_154 kernelRunB.sl.r_155
  simp only [W_r_153 c i tbl, V13_16 c i M2 hM2 M3 hM3 tbl hT sim x2 x3 b9 b10 a12 a13 a14 a15 a16 a17, in_read M2 hM2 x2 16 (by decide), mk_read M3 hM3 x3 16 (by decide)]
  try rfl
theorem V14_17 : kernelRunB.sl.v1520 c i M3 hM3 tbl hT sim x3 b9 b10 a14 = (rowsOf c tbl i sim x2 x3 (accOf c a12 a13 a14 a15 a16 a17) 17).w := by
  unfold kernelRunB.sl.v1520 kernelRunB.sl.H14_17
  rw [View.readCov_cons_toLoadRect]
  refine Eq.trans ?_ (rowsOf_w c tbl i sim x2 x3 (accOf c a12 a13 a14 a15 a16 a17) 16 (by decide)).symm
  unfold kernelRunB.sl.r_157
  simp only [S_v1379 c i tbl hT sim b9, V14_16 c i M2 hM2 M3 hM3 tbl hT sim x2 x3 b9 b10 a12 a13 a14 a15 a16 a17, mk_read M3 hM3 x3 16 (by decide)]
  try rfl
theorem V12_18 : kernelRunB.sl.v1594 c M3 hM3 x3 a12 = (rowsOf c tbl i sim x2 x3 (accOf c a12 a13 a14 a15 a16 a17) 18).m := by
  unfold kernelRunB.sl.v1594 kernelRunB.sl.H12_18
  rw [View.readCov_cons_toLoadRect]
  refine Eq.trans ?_ (rowsOf_m c tbl i sim x2 x3 (accOf c a12 a13 a14 a15 a16 a17) 17 (by decide)).symm
  unfold kernelRunB.sl.r_164
  simp only [V12_17 c i M2 hM2 M3 hM3 tbl hT sim x2 x3 b9 b10 a12 a13 a14 a15 a16 a17, mk_read M3 hM3 x3 17 (by decide)]
  try rfl
theorem V13_18 : kernelRunB.sl.v1599 c i M2 hM2 M3 hM3 tbl x2 x3 a13 = (rowsOf c tbl i sim x2 x3 (accOf c a12 a13 a14 a15 a16 a17) 18).logp := by
  unfold kernelRunB.sl.v1599 kernelRunB.sl.H13_18
  rw [View.readCov_cons_toLoadRect]
  refine Eq.trans ?_ (rowsOf_logp c tbl i sim x2 x3 (accOf c a12 a13 a14 a15 a16 a17) 17 (by decide)).symm
  unfold kernelRunB.sl.r_163 kernelRunB.sl.r_164
  simp only [W_r_162 c i tbl, V13_17 c i M2 hM2 M3 hM3 tbl hT sim x2 x3 b9 b10 a12 a13 a14 a15 a16 a17, in_read M2 hM2 x2 17 (by decide), mk_read M3 hM3 x3 17 (by decide)]
  try rfl
theorem V14_18 : kernelRunB.sl.v1605 c i M3 hM3 tbl hT sim x3 b9 b10 a14 = (rowsOf c tbl i sim x2 x3 (accOf c a12 a13 a14 a15 a16 a17) 18).w := by
  unfold kernelRunB.sl.v1605 kernelRunB.sl.H14_18
  rw [View.readCov_cons_toLoadRect]
  refine Eq.trans ?_ (rowsOf_w c tbl i sim x2 x3 (accOf c a12 a13 a14 a15 a16 a17) 17 (by decide)).symm
  unfold kernelRunB.sl.r_167 kernelRunB.sl.r_164 kernelRunB.sl.r_165 kernelRunB.sl.r_166 kernelRunB.sl.cst_781
  simp only [S_v1464 c i tbl hT sim b10, V14_17 c i M2 hM2 M3 hM3 tbl hT sim x2 x3 b9 b10 a12 a13 a14 a15 a16 a17, mk_read M3 hM3 x3 17 (by decide)]
  try rfl
theorem V12_19 : kernelRunB.sl.v1679 c M3 hM3 x3 a12 = (rowsOf c tbl i sim x2 x3 (accOf c a12 a13 a14 a15 a16 a17) 19).m := by
  unfold kernelRunB.sl.v1679 kernelRunB.sl.H12_19
  rw [View.readCov_cons_toLoadRect]
  refine Eq.trans ?_ (rowsOf_m c tbl i sim x2 x3 (accOf c a12 a13 a14 a15 a16 a17) 18 (by decide)).symm
  unfold kernelRunB.sl.r_173
  simp only [V12_18 c i M2 hM2 M3 hM3 tbl hT sim x2 x3 b9 b10 a12 a13 a14 a15 a16 a17, mk_read M3 hM3 x3 18 (by decide)]
  try rfl
theorem V13_19 : kernelRunB.sl.v1684 c i M2 hM2 M3 hM3 tbl x2 x3 a13 = (rowsOf c tbl i sim x2 x3 (accOf c a12 a13 a14 a15 a16 a17) 19).logp := by
  unfold kernelRunB.sl.v1684 kernelRunB.sl.H13_19
  rw [View.readCov_cons_toLoadRect]
  refine Eq.trans ?_ (rowsOf_logp c tbl i sim x2 x3 (accOf c a12 a13 a14 a15 a16 a17) 18 (by decide)).symm
  unfold kernelRunB.sl.r_173 kernelRunB.sl.r_176
  simp only [W_r_172 c i tbl, V13_18 c i M2 hM2 M3 hM3 tbl hT sim x2 x3 b9 b10 a12 a13 a14 a15 a16 a17, in_read M2 hM2 x2 18 (by decide), mk_read M3 hM3 x3 18 (by decide)]
  try rfl
theorem V14_19 : kernelRunB.sl.v1690 c i M3 hM3 tbl hT sim x3 b9 b10 a14 = (rowsOf c tbl i sim x2 x3 (accOf c a12 a13 a14 a15 a16 a17) 19).w := by
  unfold kernelRunB.sl.v1690 kernelRunB.sl.H14_19
  rw [View.readCov_cons_toLoadRect]
  refine Eq.trans ?_ (rowsOf_w c tbl i sim x2 x3 (accOf c a12 a13 a14 a15 a16 a17) 18 (by decide)).symm
  unfold kernelRunB.sl.r_174
  simp only [S_v c i tbl hT sim b9, V14_18 c i M2 hM2 M3 hM3 tbl hT sim x2 x3 b9 b10 a12 a13 a14 a15 a16 a17, mk_read M3 hM3 x3 18 (by decide)]
  try rfl
theorem V12_20 : kernelRunB.sl.v1764 c M3 hM3 x3 a12 = (rowsOf c tbl i sim x2 x3 (accOf c a12 a13 a14 a15 a16 a17) 20).m := by
  unfold kernelRunB.sl.v1764 kernelRunB.sl.H12_20
  rw [View.readCov_cons_toLoadRect]
  refine Eq.trans ?_ (rowsOf_m c tbl i sim x2 x3 (accOf c a12 a13 a14 a15 a16 a17) 19 (by decide)).symm
  unfold kernelRunB.sl.r_182
  simp only [V12_19 c i M2 hM2 M3 hM3 tbl hT sim x2 x3 b9 b10 a12 a13 a14 a15 a16 a17, mk_read M3 hM3 x3 19 (by decide)]
  try rfl
theorem V13_20 : kernelRunB.sl.v1769 c i M2 hM2 M3 hM3 tbl x2 x3 a13 = (rowsOf c tbl i sim x2 x3 (accOf c a12 a13 a14 a15 a16 a17) 20).logp := by
  unfold kernelRunB.sl.v1769 kernelRunB.sl.H13_20
  rw [View.readCov_cons_toLoadRect]
  refine Eq.trans ?_ (rowsOf_logp c tbl i sim x2 x3 (accOf c a12 a13 a14 a15 a16 a17) 19 (by decide)).symm
  unfold kernelRunB.sl.r_181 kernelRunB.sl.r_182
  simp only [W_r_180 c i tbl, V13_19 c i M2 hM2 M3 hM3 tbl hT sim x2 x3 b9 b10 a12 a13 a14 a15 a16 a17, in_read M2 hM2 x2 19 (by decide), mk_read M3 hM3 x3 19 (by decide)]
  try rfl
theorem V14_20 : kernelRunB.sl.v1775 c i M3 hM3 tbl hT sim x3 b9 b10 a14 = (rowsOf c tbl i sim x2 x3 (accOf c a12 a13 a14 a15 a16 a17) 20).w := by
  unfold kernelRunB.sl.v1775 kernelRunB.sl.H14_20
  rw [View.readCov_cons_toLoadRect]
  refine Eq.trans ?_ (rowsOf_w c tbl i sim x2 x3 (accOf c a12 a13 a14 a15 a16 a17) 19 (by decide)).symm
  unfold kernelRunB.sl.r_184
  simp only [S_v1634 c i tbl hT sim b10, V14_19 c i M2 hM2 M3 hM3 tbl hT sim x2 x3 b9 b10 a12 a13 a14 a15 a16 a17, mk_read M3 hM3 x3 19 (by decide)]
  try rfl
theorem V12_21 : kernelRunB.sl.v1849 c M3 hM3 x3 a12 = (rowsOf c tbl i sim x2 x3 (accOf c a12 a13 a14 a15 a16 a17) 21).m := by
  unfold kernelRunB.sl.v1849 kernelRunB.sl.H12_21
  rw [View.readCov_cons_toLoadRect]
  refine Eq.trans ?_ (rowsOf_m c tbl i sim x2 x3 (accOf c a12 a13 a14 a15 a16 a17) 20 (by decide)).symm
  unfold kernelRunB.sl.r_191
  simp only [V12_20 c i M2 hM2 M3 hM3 tbl hT sim x2 x3 b9 b10 a12 a13 a14 a15 a16 a17, mk_read M3 hM3 x3 20 (by decide)]
  try rfl
theorem V13_21 : kernelRunB.sl.v1854 c i M2 hM2 M3 hM3 tbl x2 x3 a13 = (rowsOf c tbl i sim x2 x3 (accOf c a12 a13 a14 a15 a16 a17) 21).logp := by
  unfold kernelRunB.sl.v1854 kernelRunB.sl.H13_21
  rw [View.readCov_cons_toLoadRect]
  refine Eq.trans ?_ (rowsOf_logp c tbl i sim x2 x3 (accOf c a12 a13 a14 a15 a16 a17) 20 (by decide)).symm
  unfold kernelRunB.sl.r_197 kernelRunB.sl.r_190 kernelRunB.sl.r_191
  simp only [W_r_189 c i tbl, V13_20 c i M2 hM2 M3 hM3 tbl hT sim x2 x3 b9 b10 a12 a13 a14 a15 a16 a17, in_read M2 hM2 x2 20 (by decide), mk_read M3 hM3 x3 20 (by decide)]
  try rfl
theorem V14_21 : kernelRunB.sl.v1860 c i M3 hM3 tbl hT sim x3 b9 b10 a14 = (rowsOf c tbl i sim x2 x3 (accOf c a12 a13 a14 a15 a16 a17) 21).w := by
  unfold kernelRunB.sl.v1860 kernelRunB.sl.H14_21
  rw [View.readCov_cons_toLoadRect]
  refine Eq.trans ?_ (rowsOf_w c tbl i sim x2 x3 (accOf c a12 a13 a14 a15 a16 a17) 20 (by decide)).symm
  unfold kernelRunB.sl.r_193 kernelRunB.sl.r_191 kernelRunB.sl.r_192 kernelRunB.sl.cst_15
  simp only [S_v1719 c i tbl hT sim b9, V14_20 c i M2 hM2 M3 hM3 tbl hT sim x2 x3 b9 b10 a12 a13 a14 a15 a16 a17, mk_read M3 hM3 x3 20 (by decide)]
  try rfl
theorem V12_22 : kernelRunB.sl.v1934 c M3 hM3 x3 a12 = (rowsOf c tbl i sim x2 x3 (accOf c a12 a13 a14 a15 a16 a17) 22).m := by
  unfold kernelRunB.sl.v1934 kernelRunB.sl.H12_22
  rw [View.readCov_cons_toLoadRect]
  refine Eq.trans ?_ (rowsOf_m c tbl i sim x2 x3 (accOf c a12 a13 a14 a15 a16 a17) 21 (by decide)).symm
  unfold kernelRunB.sl.r_200
  simp only [V12_21 c i M2 hM2 M3 hM3 tbl hT sim x2 x3 b9 b10 a12 a13 a14 a15 a16 a17, mk_read M3 hM3 x3 21 (by decide)]
  try rfl
theorem V13_22 : kernelRunB.sl.v1939 c i M2 hM2 M3 hM3 tbl x2 x3 a13 = (rowsOf c tbl i sim x2 x3 (accOf c a12 a13 a14 a15 a16 a17) 22).logp := by
  unfold kernelRunB.sl.v1939 kernelRunB.sl.H13_22
  rw [View.readCov_cons_toLoadRect]
  refine Eq.trans ?_ (rowsOf_logp c tbl i sim x2 x3 (accOf c a12 a13 a14 a15 a16 a17) 21 (by decide)).symm
  unfold kernelRunB.sl.r_200 kernelRunB.sl.r_203
  simp only [W_r_199 c i tbl, V13_21 c i M2 hM2 M3 hM3 tbl hT sim x2 x3 b9 b10 a12 a13 a14 a15 a16 a17, in_read M2 hM2 x2 21 (by decide), mk_read M3 hM3 x3 21 (by decide)]
  try rfl
theorem V14_22 : kernelRunB.sl.v1945 c i M3 hM3 tbl hT sim x3 b9 b10 a14 = (rowsOf c tbl i sim x2 x3 (accOf c a12 a13 a14 a15 a16 a17) 22).w := by
  unfold kernelRunB.sl.v1945 kernelRunB.sl.H14_22
  rw [View.readCov_cons_toLoadRect]
  refine Eq.trans ?_ (rowsOf_w c tbl i sim x2 x3 (accOf c a12 a13 a14 a15 a16 a17) 21 (by decide)).symm
  unfold kernelRunB.sl.r_201
  simp only [S_v1804 c i tbl hT sim b10, V14_21 c i M2 hM2 M3 hM3 tbl hT sim x2 x3 b9 b10 a12 a13 a14 a15 a16 a17, mk_read M3 hM3 x3 21 (by decide)]
  try rfl
theorem V12_23 : kernelRunB.sl.v2019 c M3 hM3 x3 a12 = (rowsOf c tbl i sim x2 x3 (accOf c a12 a13 a14 a15 a16 a17) 23).m := by
  unfold kernelRunB.sl.v2019 kernelRunB.sl.H12_23
  rw [View.readCov_cons_toLoadRect]
  refine Eq.trans ?_ (rowsOf_m c tbl i sim x2 x3 (accOf c a12 a13 a14 a15 a16 a17) 22 (by decide)).symm
  unfold kernelRunB.sl.r_210
  simp only [V12_22 c i M2 hM2 M3 hM3 tbl hT sim x2 x3 b9 b10 a12 a13 a14 a15 a16 a17, mk_read M3 hM3 x3 22 (by decide)]
  try rfl
theorem V13_23 : kernelRunB.sl.v2024 c i M2 hM2 M3 hM3 tbl x2 x3 a13 = (rowsOf c tbl i sim x2 x3 (accOf c a12 a13 a14 a15 a16 a17) 23).logp := by
  unfold kernelRunB.sl.v2024 kernelRunB.sl.H13_23
  rw [View.readCov_cons_toLoadRect]
  refine Eq.trans ?_ (rowsOf_logp c tbl i sim x2 x3 (accOf c a12 a13 a14 a15 a16 a17) 22 (by decide)).symm
  unfold kernelRunB.sl.r_209 kernelRunB.sl.r_210
  simp only [W_r_208 c i tbl, V13_22 c i M2 hM2 M3 hM3 tbl hT sim x2 x3 b9 b10 a12 a13 a14 a15 a16 a17, in_read M2 hM2 x2 22 (by decide), mk_read M3 hM3 x3 22 (by decide)]
  try rfl
theorem V14_23 : kernelRunB.sl.v2030 c i M3 hM3 tbl hT sim x3 b9 b10 a14 = (rowsOf c tbl i sim x2 x3 (accOf c a12 a13 a14 a15 a16 a17) 23).w := by
  unfold kernelRunB.sl.v2030 kernelRunB.sl.H14_23
  rw [View.readCov_cons_toLoadRect]
  refine Eq.trans ?_ (rowsOf_w c tbl i sim x2 x3 (accOf c a12 a13 a14 a15 a16 a17) 22 (by decide)).symm
  unfold kernelRunB.sl.r_213
  simp only [S_v1889 c i tbl hT sim b9, V14_22 c i M2 hM2 M3 hM3 tbl hT sim x2 x3 b9 b10 a12 a13 a14 a15 a16 a17, mk_read M3 hM3 x3 22 (by decide)]
  try rfl
theorem V12_24 : kernelRunB.sl.v2104 c M3 hM3 x3 a12 = (rowsOf c tbl i sim x2 x3 (accOf c a12 a13 a14 a15 a16 a17) 24).m := by
  unfold kernelRunB.sl.v2104 kernelRunB.sl.H12_24
  rw [View.readCov_cons_toLoadRect]
  refine Eq.trans ?_ (rowsOf_m c tbl i sim x2 x3 (accOf c a12 a13 a14 a15 a16 a17) 23 (by decide)).symm
  unfold kernelRunB.sl.r_220
  simp only [V12_23 c i M2 hM2 M3 hM3 tbl hT sim x2 x3 b9 b10 a12 a13 a14 a15 a16 a17, mk_read M3 hM3 x3 23 (by decide)]
  try rfl
theorem V13_24 : kernelRunB.sl.v2109 c i M2 hM2 M3 hM3 tbl x2 x3 a13 = (rowsOf c tbl i sim x2 x3 (accOf c a12 a13 a14 a15 a16 a17) 24).logp := by
  unfold kernelRunB.sl.v2109 kernelRunB.sl.H13_24
  rw [View.readCov_cons_toLoadRect]
  refine Eq.trans ?_ (rowsOf_logp c tbl i sim x2 x3 (accOf c a12 a13 a14 a15 a16 a17) 23 (by decide)).symm
  unfold kernelRunB.sl.r_226 kernelRunB.sl.r_219 kernelRunB.sl.r_220
  simp only [W_r_218 c i tbl, V13_23 c i M2 hM2 M3 hM3 tbl hT sim x2 x3 b9 b10 a12 a13 a14 a15 a16 a17, in_read M2 hM2 x2 23 (by decide), mk_read M3 hM3 x3 23 (by decide)]
  try rfl
theorem V14_24 : kernelRunB.sl.v2115 c i M3 hM3 tbl hT sim x3 b9 b10 a14 = (rowsOf c tbl i sim x2 x3 (accOf c a12 a13 a14 a15 a16 a17) 24).w := by
  unfold kernelRunB.sl.v2115 kernelRunB.sl.H14_24
  rw [View.readCov_cons_toLoadRect]
  refine Eq.trans ?_ (rowsOf_w c tbl i sim x2 x3 (accOf c a12 a13 a14 a15 a16 a17) 23 (by decide)).symm
  unfold kernelRunB.sl.r_222 kernelRunB.sl.r_220 kernelRunB.sl.r_221
  simp only [S_v1974 c i tbl hT sim b10, V14_23 c i M2 hM2 M3 hM3 tbl hT sim x2 x3 b9 b10 a12 a13 a14 a15 a16 a17, mk_read M3 hM3 x3 23 (by decide)]
  try rfl
theorem V12_25 : kernelRunB.sl.v2189 c M3 hM3 x3 a12 = (rowsOf c tbl i sim x2 x3 (accOf c a12 a13 a14 a15 a16 a17) 25).m := by
  unfold kernelRunB.sl.v2189 kernelRunB.sl.H12_25
  rw [View.readCov_cons_toLoadRect]
  refine Eq.trans ?_ (rowsOf_m c tbl i sim x2 x3 (accOf c a12 a13 a14 a15 a16 a17) 24 (by decide)).symm
  unfold kernelRunB.sl.r_229
  simp only [V12_24 c i M2 hM2 M3 hM3 tbl hT sim x2 x3 b9 b10 a12 a13 a14 a15 a16 a17, mk_read M3 hM3 x3 24 (by decide)]
  try rfl
theorem V13_25 : kernelRunB.sl.v2194 c i M2 hM2 M3 hM3 tbl x2 x3 a13 = (rowsOf c tbl i sim x2 x3 (accOf c a12 a13 a14 a15 a16 a17) 25).logp := by
  unfold kernelRunB.sl.v2194 kernelRunB.sl.H13_25
  rw [View.readCov_cons_toLoadRect]
  refine Eq.trans ?_ (rowsOf_logp c tbl i sim x2 x3 (accOf c a12 a13 a14 a15 a16 a17) 24 (by decide)).symm
  unfold kernelRunB.sl.r_229 kernelRunB.sl.r_233
  simp only [W_r_228 c i tbl, V13_24 c i M2 hM2 M3 hM3 tbl hT sim x2 x3 b9 b10 a12 a13 a14 a15 a16 a17, in_read M2 hM2 x2 24 (by decide), mk_read M3 hM3 x3 24 (by decide)]
  try rfl
theorem V14_25 : kernelRunB.sl.v2200 c i M3 hM3 tbl hT sim x3 b9 b10 a14 = (rowsOf c tbl i sim x2 x3 (accOf c a12 a13 a14 a15 a16 a17) 25).w := by
  unfold kernelRunB.sl.v2200 kernelRunB.sl.H14_25
  rw [View.readCov_cons_toLoadRect]
  refine Eq.trans ?_ (rowsOf_w c tbl i sim x2 x3 (accOf c a12 a13 a14 a15 a16 a17) 24 (by decide)).symm
  unfold kernelRunB.sl.r_231
  simp only [S_v2059 c i tbl hT sim b9, V14_24 c i M2 hM2 M3 hM3 tbl hT sim x2 x3 b9 b10 a12 a13 a14 a15 a16 a17, mk_read M3 hM3 x3 24 (by decide)]
  try rfl
theorem V12_26 : kernelRunB.sl.v2274 c M3 hM3 x3 a12 = (rowsOf c tbl i sim x2 x3 (accOf c a12 a13 a14 a15 a16 a17) 26).m := by
  unfold kernelRunB.sl.v2274 kernelRunB.sl.H12_26
  rw [View.readCov_cons_toLoadRect]
  refine Eq.trans ?_ (rowsOf_m c tbl i sim x2 x3 (accOf c a12 a13 a14 a15 a16 a17) 25 (by decide)).symm
  unfold kernelRunB.sl.r_239
  simp only [V12_25 c i M2 hM2 M3 hM3 tbl hT sim x2 x3 b9 b10 a12 a13 a14 a15 a16 a17, mk_read M3 hM3 x3 25 (by decide)]
  try rfl
theorem V13_26 : kernelRunB.sl.v2279 c i M2 hM2 M3 hM3 tbl x2 x3 a13 = (rowsOf c tbl i sim x2 x3 (accOf c a12 a13 a14 a15 a16 a17) 26).logp := by
  unfold kernelRunB.sl.v2279 kernelRunB.sl.H13_26
  rw [View.readCov_cons_toLoadRect]
  refine Eq.trans ?_ (rowsOf_logp c tbl i sim x2 x3 (accOf c a12 a13 a14 a15 a16 a17) 25 (by decide)).symm
  unfold kernelRunB.sl.r_238 kernelRunB.sl.r_239
  simp only [W_r_237 c i tbl, V13_25 c i M2 hM2 M3 hM3 tbl hT sim x2 x3 b9 b10 a12 a13 a14 a15 a16 a17, in_read M2 hM2 x2 25 (by decide), mk_read M3 hM3 x3 25 (by decide)]
  try rfl
theorem V14_26 : kernelRunB.sl.v2285 c i M3 hM3 tbl hT sim x3 b9 b10 a14 = (rowsOf c tbl i sim x2 x3 (accOf c a12 a13 a14 a15 a16 a17) 26).w := by
  unfold kernelRunB.sl.v2285 kernelRunB.sl.H14_26
  rw [View.readCov_cons_toLoadRect]
  refine Eq.trans ?_ (rowsOf_w c tbl i sim x2 x3 (accOf c a12 a13 a14 a15 a16 a17) 25 (by decide)).symm
  unfold kernelRunB.sl.r_241
  simp only [S_v2144 c i tbl hT sim b10, V14_25 c i M2 hM2 M3 hM3 tbl hT sim x2 x3 b9 b10 a12 a13 a14 a15 a16 a17, mk_read M3 hM3 x3 25 (by decide)]
  try rfl
theorem V12_27 : kernelRunB.sl.v2359 c M3 hM3 x3 a12 = (rowsOf c tbl i sim x2 x3 (accOf c a12 a13 a14 a15 a16 a17) 27).m := by
  unfold kernelRunB.sl.v2359 kernelRunB.sl.H12_27
  rw [View.readCov_cons_toLoadRect]
  refine Eq.trans ?_ (rowsOf_m c tbl i sim x2 x3 (accOf c a12 a13 a14 a15 a16 a17) 26 (by decide)).symm
  unfold kernelRunB.sl.r_248
  simp only [V12_26 c i M2 hM2 M3 hM3 tbl hT sim x2 x3 b9 b10 a12 a13 a14 a15 a16 a17, mk_read M3 hM3 x3 26 (by decide)]
  try rfl
theorem V13_27 : kernelRunB.sl.v2364 c i M2 hM2 M3 hM3 tbl x2 x3 a13 = (rowsOf c tbl i sim x2 x3 (accOf c a12 a13 a14 a15 a16 a17) 27).logp := by
  unfold kernelRunB.sl.v2364 kernelRunB.sl.H13_27
  rw [View.readCov_cons_toLoadRect]
  refine Eq.trans ?_ (rowsOf_logp c tbl i sim x2 x3 (accOf c a12 a13 a14 a15 a16 a17) 26 (by decide)).symm
  unfold kernelRunB.sl.r_253 kernelRunB.sl.r_247 kernelRunB.sl.r_248
  simp only [W_r_246 c i tbl, V13_26 c i M2 hM2 M3 hM3 tbl hT sim x2 x3 b9 b10 a12 a13 a14 a15 a16 a17, in_read M2 hM2 x2 26 (by decide), mk_read M3 hM3 x3 26 (by decide)]
  try rfl
theorem V14_27 : kernelRunB.sl.v2370 c i M3 hM3 tbl hT sim x3 b9 b10 a14 = (rowsOf c tbl i sim x2 x3 (accOf c a12 a13 a14 a15 a16 a17) 27).w := by
  unfold kernelRunB.sl.v2370 kernelRunB.sl.H14_27
  rw [View.readCov_cons_toLoadRect]
  refine Eq.trans ?_ (rowsOf_w c tbl i sim x2 x3 (accOf c a12 a13 a14 a15 a16 a17) 26 (by decide)).symm
  unfold kernelRunB.sl.r_249 kernelRunB.sl.r_248 kernelRunB.sl.cst_284
  simp only [S_v2229 c i tbl hT sim b9, V14_26 c i M2 hM2 M3 hM3 tbl hT sim x2 x3 b9 b10 a12 a13 a14 a15 a16 a17, mk_read M3 hM3 x3 26 (by decide)]
  try rfl
theorem V12_28 : kernelRunB.sl.v2444 c M3 hM3 x3 a12 = (rowsOf c tbl i sim x2 x3 (accOf c a12 a13 a14 a15 a16 a17) 28).m := by
  unfold kernelRunB.sl.v2444 kernelRunB.sl.H12_28
  rw [View.readCov_cons_toLoadRect]
  refine Eq.trans ?_ (rowsOf_m c tbl i sim x2 x3 (accOf c a12 a13 a14 a15 a16 a17) 27 (by decide)).symm
  unfold kernelRunB.sl.r_256
  simp only [V12_27 c i M2 hM2 M3 hM3 tbl hT sim x2 x3 b9 b10 a12 a13 a14 a15 a16 a17, mk_read M3 hM3 x3 27 (by decide)]
  try rfl
theorem V13_28 : kernelRunB.sl.v2449 c i M2 hM2 M3 hM3 tbl x2 x3 a13 = (rowsOf c tbl i sim x2 x3 (accOf c a12 a13 a14 a15 a16 a17) 28).logp := by
  unfold kernelRunB.sl.v2449 kernelRunB.sl.H13_28
  rw [View.readCov_cons_toLoadRect]
  refine Eq.trans ?_ (rowsOf_logp c tbl i sim x2 x3 (accOf c a12 a13 a14 a15 a16 a17) 27 (by decide)).symm
  unfold kernelRunB.sl.r_256 kernelRunB.sl.r_260
  simp only [W_r_255 c i tbl, V13_27 c i M2 hM2 M3 hM3 tbl hT sim x2 x3 b9 b10 a12 a13 a14 a15 a16 a17, in_read M2 hM2 x2 27 (by decide), mk_read M3 hM3 x3 27 (by decide)]
  try rfl
theorem V14_28 : kernelRunB.sl.v2455 c i M3 hM3 tbl hT sim x3 b9 b10 a14 = (rowsOf c tbl i sim x2 x3 (accOf c a12 a13 a14 a15 a16 a17) 28).w := by
  unfold kernelRunB.sl.v2455 kernelRunB.sl.H14_28
  rw [View.readCov_cons_toLoadRect]
  refine Eq.trans ?_ (rowsOf_w c tbl i sim x2 x3 (accOf c a12 a13 a14 a15 a16 a17) 27 (by decide)).symm
  unfold kernelRunB.sl.r_258
  simp only [S_v2314 c i tbl hT sim b10, V14_27 c i M2 hM2 M3 hM3 tbl hT sim x2 x3 b9 b10 a12 a13 a14 a15 a16 a17, mk_read M3 hM3 x3 27 (by decide)]
  try rfl
theorem V12_29 : kernelRunB.sl.v2529 c M3 hM3 x3 a12 = (rowsOf c tbl i sim x2 x3 (accOf c a12 a13 a14 a15 a16 a17) 29).m := by
  unfold kernelRunB.sl.v2529 kernelRunB.sl.H12_29
  rw [View.readCov_cons_toLoadRect]
  refine Eq.trans ?_ (rowsOf_m c tbl i sim x2 x3 (accOf c a12 a13 a14 a15 a16 a17) 28 (by decide)).symm
  unfold kernelRunB.sl.r_265
  simp only [V12_28 c i M2 hM2 M3 hM3 tbl hT sim x2 x3 b9 b10 a12 a13 a14 a15 a16 a17, mk_read M3 hM3 x3 28 (by decide)]
  try rfl
theorem V13_29 : kernelRunB.sl.v2534 c i M2 hM2 M3 hM3 tbl x2 x3 a13 = (rowsOf c tbl i sim x2 x3 (accOf c a12 a13 a14 a15 a16 a17) 29).logp := by
  unfold kernelRunB.sl.v2534 kernelRunB.sl.H13_29
  rw [View.readCov_cons_toLoadRect]
  refine Eq.trans ?_ (rowsOf_logp c tbl i sim x2 x3 (accOf c a12 a13 a14 a15 a16 a17) 28 (by decide)).symm
  unfold kernelRunB.sl.r_264 kernelRunB.sl.r_265
  simp only [W_r_263 c i tbl, V13_28 c i M2 hM2 M3 hM3 tbl hT sim x2 x3 b9 b10 a12 a13 a14 a15 a16 a17, in_read M2 hM2 x2 28 (by decide), mk_read M3 hM3 x3 28 (by decide)]
  try rfl
theorem V14_29 : kernelRunB.sl.v2540 c i M3 hM3 tbl hT sim x3 b9 b10 a14 = (rowsOf c tbl i sim x2 x3 (accOf c a12 a13 a14 a15 a16 a17) 29).w := by
  unfold kernelRunB.sl.v2540 kernelRunB.sl.H14_29
  rw [View.readCov_cons_toLoadRect]
  refine Eq.trans ?_ (rowsOf_w c tbl i sim x2 x3 (accOf c a12 a13 a14 a15 a16 a17) 28 (by decide)).symm
  unfold kernelRunB.sl.r_265 kernelRunB.sl.r_266
  simp only [S_v2399 c i tbl hT sim b9, V14_28 c i M2 hM2 M3 hM3 tbl hT sim x2 x3 b9 b10 a12 a13 a14 a15 a16 a17, mk_read M3 hM3 x3 28 (by decide)]
  try rfl
theorem V12_30 : kernelRunB.sl.v2614 c M3 hM3 x3 a12 = (rowsOf c tbl i sim x2 x3 (accOf c a12 a13 a14 a15 a16 a17) 30).m := by
  unfold kernelRunB.sl.v2614 kernelRunB.sl.H12_30
  rw [View.readCov_cons_toLoadRect]
  refine Eq.trans ?_ (rowsOf_m c tbl i sim x2 x3 (accOf c a12 a13 a14 a15 a16 a17) 29 (by decide)).symm
  unfold kernelRunB.sl.r_272
  simp only [V12_29 c i M2 hM2 M3 hM3 tbl hT sim x2 x3 b9 b10 a12 a13 a14 a15 a16 a17, mk_read M3 hM3 x3 29 (by decide)]
  try rfl
theorem V13_30 : kernelRunB.sl.v2619 c i M2 hM2 M3 hM3 tbl x2 x3 a13 = (rowsOf c tbl i sim x2 x3 (accOf c a12 a13 a14 a15 a16 a17) 30).logp := by
  unfold kernelRunB.sl.v2619 kernelRunB.sl.H13_30
  rw [View.readCov_cons_toLoadRect]
  refine Eq.trans ?_ (rowsOf_logp c tbl i sim x2 x3 (accOf c a12 a13 a14 a15 a16 a17) 29 (by decide)).symm
  unfold kernelRunB.sl.r_272 kernelRunB.sl.r_276 kernelRunB.sl.r_271
  simp only [W_r_273 c i tbl, V13_29 c i M2 hM2 M3 hM3 tbl hT sim x2 x3 b9 b10 a12 a13 a14 a15 a16 a17, in_read M2 hM2 x2 29 (by decide), mk_read M3 hM3 x3 29 (by decide)]
  try rfl
theorem V14_30 : kernelRunB.sl.v2625 c i M3 hM3 tbl hT sim x3 b9 b10 a14 = (rowsOf c tbl i sim x2 x3 (accOf c a12 a13 a14 a15 a16 a17) 30).w := by
  unfold kernelRunB.sl.v2625 kernelRunB.sl.H14_30
  rw [View.readCov_cons_toLoadRect]
  refine Eq.trans ?_ (rowsOf_w c tbl i sim x2 x3 (accOf c a12 a13 a14 a15 a16 a17) 29 (by decide)).symm
  unfold kernelRunB.sl.r_274 kernelRunB.sl.r_272
  simp only [S_v2484 c i tbl hT sim b10, V14_29 c i M2 hM2 M3 hM3 tbl hT sim x2 x3 b9 b10 a12 a13 a14 a15 a16 a17, mk_read M3 hM3 x3 29 (by decide)]
  try rfl
theorem V12_31 : kernelRunB.sl.v2699 c M3 hM3 x3 a12 = (rowsOf c tbl i sim x2 x3 (accOf c a12 a13 a14 a15 a16 a17) 31).m := by
  unfold kernelRunB.sl.v2699 kernelRunB.sl.H12_31
  rw [View.readCov_cons_toLoadRect]
  refine Eq.trans ?_ (rowsOf_m c tbl i sim x2 x3 (accOf c a12 a13 a14 a15 a16 a17) 30 (by decide)).symm
  unfold kernelRunB.sl.r_281
  simp only [V12_30 c i M2 hM2 M3 hM3 tbl hT sim x2 x3 b9 b10 a12 a13 a14 a15 a16 a17, mk_read M3 hM3 x3 30 (by decide)]
  try rfl
theorem V13_31 : kernelRunB.sl.v2704 c i M2 hM2 M3 hM3 tbl x2 x3 a13 = (rowsOf c tbl i sim x2 x3 (accOf c a12 a13 a14 a15 a16 a17) 31).logp := by
  unfold kernelRunB.sl.v2704 kernelRunB.sl.H13_31
  rw [View.readCov_cons_toLoadRect]
  refine Eq.trans ?_ (rowsOf_logp c tbl i sim x2 x3 (accOf c a12 a13 a14 a15 a16 a17) 30 (by decide)).symm
  unfold kernelRunB.sl.r_281 kernelRunB.sl.r_285
  simp only [W_r_280 c i tbl, V13_30 c i M2 hM2 M3 hM3 tbl hT sim x2 x3 b9 b10 a12 a13 a14 a15 a16 a17, in_read M2 hM2 x2 30 (by decide), mk_read M3 hM3 x3 30 (by decide)]
  try rfl
theorem V14_31 : kernelRunB.sl.v2710 c i M3 hM3 tbl hT sim x3 b9 b10 a14 = (rowsOf c tbl i sim x2 x3 (accOf c a12 a13 a14 a15 a16 a17) 31).w := by
  unfold kernelRunB.sl.v2710 kernelRunB.sl.H14_31
  rw [View.readCov_cons_toLoadRect]
  refine Eq.trans ?_ (rowsOf_w c tbl i sim x2 x3 (accOf c a12 a13 a14 a15 a16 a17) 30 (by decide)).symm
  unfold kernelRunB.sl.r_283
  simp only [S_v2569 c i tbl hT sim b9, V14_30 c i M2 hM2 M3 hM3 tbl hT sim x2 x3 b9 b10 a12 a13 a14 a15 a16 a17, mk_read M3 hM3 x3 30 (by decide)]
  try rfl
theorem V12_32 : kernelRunB.sl.v2784 c M3 hM3 x3 a12 = (rowsOf c tbl i sim x2 x3 (accOf c a12 a13 a14 a15 a16 a17) 32).m := by
  unfold kernelRunB.sl.v2784 kernelRunB.sl.H12_32
  rw [View.readCov_cons_toLoadRect]
  refine Eq.trans ?_ (rowsOf_m c tbl i sim x2 x3 (accOf c a12 a13 a14 a15 a16 a17) 31 (by decide)).symm
  unfold kernelRunB.sl.r_291
  simp only [V12_31 c i M2 hM2 M3 hM3 tbl hT sim x2 x3 b9 b10 a12 a13 a14 a15 a16 a17, mk_read M3 hM3 x3 31 (by decide)]
  try rfl
theorem V13_32 : kernelRunB.sl.v2789 c i M2 hM2 M3 hM3 tbl x2 x3 a13 = (rowsOf c tbl i sim x2 x3 (accOf c a12 a13 a14 a15 a16 a17) 32).logp := by
  unfold kernelRunB.sl.v2789 kernelRunB.sl.H13_32
  rw [View.readCov_cons_toLoadRect]
  refine Eq.trans ?_ (rowsOf_logp c tbl i sim x2 x3 (accOf c a12 a13 a14 a15 a16 a17) 31 (by decide)).symm
  unfold kernelRunB.sl.r_290 kernelRunB.sl.r_291
  simp only [W_r_289 c i tbl, V13_31 c i M2 hM2 M3 hM3 tbl hT sim x2 x3 b9 b10 a12 a13 a14 a15 a16 a17, in_read M2 hM2 x2 31 (by decide), mk_read M3 hM3 x3 31 (by decide)]
  try rfl
theorem V14_32 : kernelRunB.sl.v2795 c i M3 hM3 tbl hT sim x3 b9 b10 a14 = (rowsOf c tbl i sim x2 x3 (accOf c a12 a13 a14 a15 a16 a17) 32).w := by
  unfold kernelRunB.sl.v2795 kernelRunB.sl.H14_32
  rw [View.readCov_cons_toLoadRect]
  refine Eq.trans ?_ (rowsOf_w c tbl i sim x2 x3 (accOf c a12 a13 a14 a15 a16 a17) 31 (by decide)).symm
  unfold kernelRunB.sl.r_297 kernelRunB.sl.r_291 kernelRunB.sl.r_292 kernelRunB.sl.r_293
  simp only [S_v2654 c i tbl hT sim b10, V14_31 c i M2 hM2 M3 hM3 tbl hT sim x2 x3 b9 b10 a12 a13 a14 a15 a16 a17, mk_read M3 hM3 x3 31 (by decide)]
  try rfl
theorem V12_33 : kernelRunB.sl.v2869 c M3 hM3 x3 a12 = (rowsOf c tbl i sim x2 x3 (accOf c a12 a13 a14 a15 a16 a17) 33).m := by
  unfold kernelRunB.sl.v2869 kernelRunB.sl.H12_33
  rw [View.readCov_cons_toLoadRect]
  refine Eq.trans ?_ (rowsOf_m c tbl i sim x2 x3 (accOf c a12 a13 a14 a15 a16 a17) 32 (by decide)).symm
  unfold kernelRunB.sl.r_308 kernelRunB.sl.r_300
  simp only [V12_32 c i M2 hM2 M3 hM3 tbl hT sim x2 x3 b9 b10 a12 a13 a14 a15 a16 a17, mk_read M3 hM3 x3 32 (by decide)]
  try rfl
theorem V13_33 : kernelRunB.sl.v2874 c i M2 hM2 M3 hM3 tbl x2 x3 a13 = (rowsOf c tbl i sim x2 x3 (accOf c a12 a13 a14 a15 a16 a17) 33).logp := by
  unfold kernelRunB.sl.v2874 kernelRunB.sl.H13_33
  rw [View.readCov_cons_toLoadRect]
  refine Eq.trans ?_ (rowsOf_logp c tbl i sim x2 x3 (accOf c a12 a13 a14 a15 a16 a17) 32 (by decide)).symm
  unfold kernelRunB.sl.r_302 kernelRunB.sl.r_305 kernelRunB.sl.r_300 kernelRunB.sl.r_299
  simp only [W_r_301 c i tbl, V13_32 c i M2 hM2 M3 hM3 tbl hT sim x2 x3 b9 b10 a12 a13 a14 a15 a16 a17, in_read M2 hM2 x2 32 (by decide), mk_read M3 hM3 x3 32 (by decide)]
  try rfl
theorem V14_33 : kernelRunB.sl.v2880 c i M3 hM3 tbl hT sim x3 b9 b10 a14 = (rowsOf c tbl i sim x2 x3 (accOf c a12 a13 a14 a15 a16 a17) 33).w := by
  unfold kernelRunB.sl.v2880 kernelRunB.sl.H14_33
  rw [View.readCov_cons_toLoadRect]
  refine Eq.trans ?_ (rowsOf_w c tbl i sim x2 x3 (accOf c a12 a13 a14 a15 a16 a17) 32 (by decide)).symm
  unfold kernelRunB.sl.r_303 kernelRunB.sl.r_300
  simp only [S_v2739 c i tbl hT sim b9, V14_32 c i M2 hM2 M3 hM3 tbl hT sim x2 x3 b9 b10 a12 a13 a14 a15 a16 a17, mk_read M3 hM3 x3 32 (by decide)]
  try rfl
theorem V12_34 : kernelRunB.sl.v2954 c M3 hM3 x3 a12 = (rowsOf c tbl i sim x2 x3 (accOf c a12 a13 a14 a15 a16 a17) 34).m := by
  unfold kernelRunB.sl.v2954 kernelRunB.sl.H12_34
  rw [View.readCov_cons_toLoadRect]
  refine Eq.trans ?_ (rowsOf_m c tbl i sim x2 x3 (accOf c a12 a13 a14 a15 a16 a17) 33 (by decide)).symm
  unfold kernelRunB.sl.r_312
  simp only [V12_33 c i M2 hM2 M3 hM3 tbl hT sim x2 x3 b9 b10 a12 a13 a14 a15 a16 a17, mk_read M3 hM3 x3 33 (by decide)]
  try rfl
theorem V13_34 : kernelRunB.sl.v2959 c i M2 hM2 M3 hM3 tbl x2 x3 a13 = (rowsOf c tbl i sim x2 x3 (accOf c a12 a13 a14 a15 a16 a17) 34).logp := by
  unfold kernelRunB.sl.v2959 kernelRunB.sl.H13_34
  rw [View.readCov_cons_toLoadRect]
  refine Eq.trans ?_ (rowsOf_logp c tbl i sim x2 x3 (accOf c a12 a13 a14 a15 a16 a17) 33 (by decide)).symm
  unfold kernelRunB.sl.r_311 kernelRunB.sl.r_312 kernelRunB.sl.r_316
  simp only [W_r_310 c i tbl, V13_33 c i M2 hM2 M3 hM3 tbl hT sim x2 x3 b9 b10 a12 a13 a14 a15 a16 a17, in_read M2 hM2 x2 33 (by decide), mk_read M3 hM3 x3 33 (by decide)]
  try rfl
theorem V14_34 : kernelRunB.sl.v2965 c i M3 hM3 tbl hT sim x3 b9 b10 a14 = (rowsOf c tbl i sim x2 x3 (accOf c a12 a13 a14 a15 a16 a17) 34).w := by
  unfold kernelRunB.sl.v2965 kernelRunB.sl.H14_34
  rw [View.readCov_cons_toLoadRect]
  refine Eq.trans ?_ (rowsOf_w c tbl i sim x2 x3 (accOf c a12 a13 a14 a15 a16 a17) 33 (by decide)).symm
  unfold kernelRunB.sl.r_314
  simp only [S_v2824 c i tbl hT sim b10, V14_33 c i M2 hM2 M3 hM3 tbl hT sim x2 x3 b9 b10 a12 a13 a14 a15 a16 a17, mk_read M3 hM3 x3 33 (by decide)]
  try rfl
theorem V12_35 : kernelRunB.sl.v3039 c M3 hM3 x3 a12 = (rowsOf c tbl i sim x2 x3 (accOf c a12 a13 a14 a15 a16 a17) 35).m := by
  unfold kernelRunB.sl.v3039 kernelRunB.sl.H12_35
  rw [View.readCov_cons_toLoadRect]
  refine Eq.trans ?_ (rowsOf_m c tbl i sim x2 x3 (accOf c a12 a13 a14 a15 a16 a17) 34 (by decide)).symm
  unfold kernelRunB.sl.r_322
  simp only [V12_34 c i M2 hM2 M3 hM3 tbl hT sim x2 x3 b9 b10 a12 a13 a14 a15 a16 a17, mk_read M3 hM3 x3 34 (by decide)]
  try rfl
theorem V13_35 : kernelRunB.sl.v3044 c i M2 hM2 M3 hM3 tbl x2 x3 a13 = (rowsOf c tbl i sim x2 x3 (accOf c a12 a13 a14 a15 a16 a17) 35).logp := by
  unfold kernelRunB.sl.v3044 kernelRunB.sl.H13_35
  rw [View.readCov_cons_toLoadRect]
  refine Eq.trans ?_ (rowsOf_logp c tbl i sim x2 x3 (accOf c a12 a13 a14 a15 a16 a17) 34 (by decide)).symm
  unfold kernelRunB.sl.r_321 kernelRunB.sl.r_322
  simp only [W_r_320 c i tbl, V13_34 c i M2 hM2 M3 hM3 tbl hT sim x2 x3 b9 b10 a12 a13 a14 a15 a16 a17, in_read M2 hM2 x2 34 (by decide), mk_read M3 hM3 x3 34 (by decide)]
  try rfl
theorem V14_35 : kernelRunB.sl.v3050 c i M3 hM3 tbl hT sim x3 b9 b10 a14 = (rowsOf c tbl i sim x2 x3 (accOf c a12 a13 a14 a15 a16 a17) 35).w := by
  unfold kernelRunB.sl.v3050 kernelRunB.sl.H14_35
  rw [View.readCov_cons_toLoadRect]
  refine Eq.trans ?_ (rowsOf_w c tbl i sim x2 x3 (accOf c a12 a13 a14 a15 a16 a17) 34 (by decide)).symm
  unfold kernelRunB.sl.r_328 kernelRunB.sl.r_322 kernelRunB.sl.r_323 kernelRunB.sl.r_324
  simp only [S_v2909 c i tbl hT sim b9, V14_34 c i M2 hM2 M3 hM3 tbl hT sim x2 x3 b9 b10 a12 a13 a14 a15 a16 a17, mk_read M3 hM3 x3 34 (by decide)]
  try rfl
theorem V12_36 : kernelRunB.sl.v3124 c M3 hM3 x3 a12 = (rowsOf c tbl i sim x2 x3 (accOf c a12 a13 a14 a15 a16 a17) 36).m := by
  unfold kernelRunB.sl.v3124 kernelRunB.sl.H12_36
  rw [View.readCov_cons_toLoadRect]
  refine Eq.trans ?_ (rowsOf_m c tbl i sim x2 x3 (accOf c a12 a13 a14 a15 a16 a17) 35 (by decide)).symm
  unfold kernelRunB.sl.r_338
  simp only [V12_35 c i M2 hM2 M3 hM3 tbl hT sim x2 x3 b9 b10 a12 a13 a14 a15 a16 a17, mk_read M3 hM3 x3 35 (by decide)]
  try rfl
theorem V13_36 : kernelRunB.sl.v3129 c i M2 hM2 M3 hM3 tbl x2 x3 a13 = (rowsOf c tbl i sim x2 x3 (accOf c a12 a13 a14 a15 a16 a17) 36).logp := by
  unfold kernelRunB.sl.v3129 kernelRunB.sl.H13_36
  rw [View.readCov_cons_toLoadRect]
  refine Eq.trans ?_ (rowsOf_logp c tbl i sim x2 x3 (accOf c a12 a13 a14 a15 a16 a17) 35 (by decide)).symm
  unfold kernelRunB.sl.r_332 kernelRunB.sl.r_335 kernelRunB.sl.r_330
  simp only [W_r_331 c i tbl, V13_35 c i M2 hM2 M3 hM3 tbl hT sim x2 x3 b9 b10 a12 a13 a14 a15 a16 a17, in_read M2 hM2 x2 35 (by decide), mk_read M3 hM3 x3 35 (by decide)]
  try rfl
theorem V14_36 : kernelRunB.sl.v3135 c i M3 hM3 tbl hT sim x3 b9 b10 a14 = (rowsOf c tbl i sim x2 x3 (accOf c a12 a13 a14 a15 a16 a17) 36).w := by
  unfold kernelRunB.sl.v3135 kernelRunB.sl.H14_36
  rw [View.readCov_cons_toLoadRect]
  refine Eq.trans ?_ (rowsOf_w c tbl i sim x2 x3 (accOf c a12 a13 a14 a15 a16 a17) 35 (by decide)).symm
  unfold kernelRunB.sl.r_333
  simp only [S_v2994 c i tbl hT sim b10, V14_35 c i M2 hM2 M3 hM3 tbl hT sim x2 x3 b9 b10 a12 a13 a14 a15 a16 a17, mk_read M3 hM3 x3 35 (by decide)]
  try rfl
theorem V12_37 : kernelRunB.sl.v3209 c M3 hM3 x3 a12 = (rowsOf c tbl i sim x2 x3 (accOf c a12 a13 a14 a15 a16 a17) 37).m := by
  unfold kernelRunB.sl.v3209 kernelRunB.sl.H12_37
  rw [View.readCov_cons_toLoadRect]
  refine Eq.trans ?_ (rowsOf_m c tbl i sim x2 x3 (accOf c a12 a13 a14 a15 a16 a17) 36 (by decide)).symm
  unfold kernelRunB.sl.r_342
  simp only [V12_36 c i M2 hM2 M3 hM3 tbl hT sim x2 x3 b9 b10 a12 a13 a14 a15 a16 a17, mk_read M3 hM3 x3 36 (by decide)]
  try rfl
theorem V13_37 : kernelRunB.sl.v3214 c i M2 hM2 M3 hM3 tbl x2 x3 a13 = (rowsOf c tbl i sim x2 x3 (accOf c a12 a13 a14 a15 a16 a17) 37).logp := by
  unfold kernelRunB.sl.v3214 kernelRunB.sl.H13_37
  rw [View.readCov_cons_toLoadRect]
  refine Eq.trans ?_ (rowsOf_logp c tbl i sim x2 x3 (accOf c a12 a13 a14 a15 a16 a17) 36 (by decide)).symm
  unfold kernelRunB.sl.r_341 kernelRunB.sl.r_342
  simp only [W_r_340 c i tbl, V13_36 c i M2 hM2 M3 hM3 tbl hT sim x2 x3 b9 b10 a12 a13 a14 a15 a16 a17, in_read M2 hM2 x2 36 (by decide), mk_read M3 hM3 x3 36 (by decide)]
  try rfl
theorem V14_37 : kernelRunB.sl.v3220 c i M3 hM3 tbl hT sim x3 b9 b10 a14 = (rowsOf c tbl i sim x2 x3 (accOf c a12 a13 a14 a15 a16 a17) 37).w := by
  unfold kernelRunB.sl.v3220 kernelRunB.sl.H14_37
  rw [View.readCov_cons_toLoadRect]
  refine Eq.trans ?_ (rowsOf_w c tbl i sim x2 x3 (accOf c a12 a13 a14 a15 a16 a17) 36 (by decide)).symm
  unfold kernelRunB.sl.r_344
  simp only [S_v3079 c i tbl hT sim b9, V14_36 c i M2 hM2 M3 hM3 tbl hT sim x2 x3 b9 b10 a12 a13 a14 a15 a16 a17, mk_read M3 hM3 x3 36 (by decide)]
  try rfl
theorem V12_38 : kernelRunB.sl.v3294 c M3 hM3 x3 a12 = (rowsOf c tbl i sim x2 x3 (accOf c a12 a13 a14 a15 a16 a17) 38).m := by
  unfold kernelRunB.sl.v3294 kernelRunB.sl.H12_38
  rw [View.readCov_cons_toLoadRect]
  refine Eq.trans ?_ (rowsOf_m c tbl i sim x2 x3 (accOf c a12 a13 a14 a15 a16 a17) 37 (by decide)).symm
  unfold kernelRunB.sl.r_351
  simp only [V12_37 c i M2 hM2 M3 hM3 tbl hT sim x2 x3 b9 b10 a12 a13 a14 a15 a16 a17, mk_read M3 hM3 x3 37 (by decide)]
  try rfl
theorem V13_38 : kernelRunB.sl.v3299 c i M2 hM2 M3 hM3 tbl x2 x3 a13 = (rowsOf c tbl i sim x2 x3 (accOf c a12 a13 a14 a15 a16 a17) 38).logp := by
  unfold kernelRunB.sl.v3299 kernelRunB.sl.H13_38
  rw [View.readCov_cons_toLoadRect]
  refine Eq.trans ?_ (rowsOf_logp c tbl i sim x2 x3 (accOf c a12 a13 a14 a15 a16 a17) 37 (by decide)).symm
  unfold kernelRunB.sl.r_350 kernelRunB.sl.r_351
  simp only [W_r_349 c i tbl, V13_37 c i M2 hM2 M3 hM3 tbl hT sim x2 x3 b9 b10 a12 a13 a14 a15 a16 a17, in_read M2 hM2 x2 37 (by decide), mk_read M3 hM3 x3 37 (by decide)]
  try rfl
theorem V14_38 : kernelRunB.sl.v3305 c i M3 hM3 tbl hT sim x3 b9 b10 a14 = (rowsOf c tbl i sim x2 x3 (accOf c a12 a13 a14 a15 a16 a17) 38).w := by
  unfold kernelRunB.sl.v3305 kernelRunB.sl.H14_38
  rw [View.readCov_cons_toLoadRect]
  refine Eq.trans ?_ (rowsOf_w c tbl i sim x2 x3 (accOf c a12 a13 a14 a15 a16 a17) 37 (by decide)).symm
  unfold kernelRunB.sl.r_354 kernelRunB.sl.r_351 kernelRunB.sl.r_352 kernelRunB.sl.r_353 kernelRunB.sl.cst_781
  simp only [S_v3164 c i tbl hT sim b10, V14_37 c i M2 hM2 M3 hM3 tbl hT sim x2 x3 b9 b10 a12 a13 a14 a15 a16 a17, mk_read M3 hM3 x3 37 (by decide)]
  try rfl
theorem V12_39 : kernelRunB.sl.v3379 c M3 hM3 x3 a12 = (rowsOf c tbl i sim x2 x3 (accOf c a12 a13 a14 a15 a16 a17) 39).m := by
  unfold kernelRunB.sl.v3379 kernelRunB.sl.H12_39
  rw [View.readCov_cons_toLoadRect]
  refine Eq.trans ?_ (rowsOf_m c tbl i sim x2 x3 (accOf c a12 a13 a14 a15 a16 a17) 38 (by decide)).symm
  unfold kernelRunB.sl.r_360
  simp only [V12_38 c i M2 hM2 M3 hM3 tbl hT sim x2 x3 b9 b10 a12 a13 a14 a15 a16 a17, mk_read M3 hM3 x3 38 (by decide)]
  try rfl
theorem V13_39 : kernelRunB.sl.v3384 c i M2 hM2 M3 hM3 tbl x2 x3 a13 = (rowsOf c tbl i sim x2 x3 (accOf c a12 a13 a14 a15 a16 a17) 39).logp := by
  unfold kernelRunB.sl.v3384 kernelRunB.sl.H13_39
  rw [View.readCov_cons_toLoadRect]
  refine Eq.trans ?_ (rowsOf_logp c tbl i sim x2 x3 (accOf c a12 a13 a14 a15 a16 a17) 38 (by decide)).symm
  unfold kernelRunB.sl.r_360 kernelRunB.sl.r_363
  simp only [W_r_359 c i tbl, V13_38 c i M2 hM2 M3 hM3 tbl hT sim x2 x3 b9 b10 a12 a13 a14 a15 a16 a17, in_read M2 hM2 x2 38 (by decide), mk_read M3 hM3 x3 38 (by decide)]
  try rfl
theorem V14_39 : kernelRunB.sl.v3390 c i M3 hM3 tbl hT sim x3 b9 b10 a14 = (rowsOf c tbl i sim x2 x3 (accOf c a12 a13 a14 a15 a16 a17) 39).w := by
  unfold kernelRunB.sl.v3390 kernelRunB.sl.H14_39
  rw [View.readCov_cons_toLoadRect]
  refine Eq.trans ?_ (rowsOf_w c tbl i sim x2 x3 (accOf c a12 a13 a14 a15 a16 a17) 38 (by decide)).symm
  unfold kernelRunB.sl.r_361
  simp only [V14_38 c i M2 hM2 M3 hM3 tbl hT sim x2 x3 b9 b10 a12 a13 a14 a15 a16 a17, S_v_1 c i tbl hT sim b9, mk_read M3 hM3 x3 38 (by decide)]
  try rfl
theorem V12_40 : kernelRunB.sl.v3464 c M3 hM3 x3 a12 = (rowsOf c tbl i sim x2 x3 (accOf c a12 a13 a14 a15 a16 a17) 40).m := by
  unfold kernelRunB.sl.v3464 kernelRunB.sl.H12_40
  rw [View.readCov_cons_toLoadRect]
  refine Eq.trans ?_ (rowsOf_m c tbl i sim x2 x3 (accOf c a12 a13 a14 a15 a16 a17) 39 (by decide)).symm
  unfold kernelRunB.sl.r_369
  simp only [V12_39 c i M2 hM2 M3 hM3 tbl hT sim x2 x3 b9 b10 a12 a13 a14 a15 a16 a17, mk_read M3 hM3 x3 39 (by decide)]
  try rfl
theorem V13_40 : kernelRunB.sl.v3469 c i M2 hM2 M3 hM3 tbl x2 x3 a13 = (rowsOf c tbl i sim x2 x3 (accOf c a12 a13 a14 a15 a16 a17) 40).logp := by
  unfold kernelRunB.sl.v3469 kernelRunB.sl.H13_40
  rw [View.readCov_cons_toLoadRect]
  refine Eq.trans ?_ (rowsOf_logp c tbl i sim x2 x3 (accOf c a12 a13 a14 a15 a16 a17) 39 (by decide)).symm
  unfold kernelRunB.sl.r_368 kernelRunB.sl.r_369
  simp only [W_r_367 c i tbl, V13_39 c i M2 hM2 M3 hM3 tbl hT sim x2 x3 b9 b10 a12 a13 a14 a15 a16 a17, in_read M2 hM2 x2 39 (by decide), mk_read M3 hM3 x3 39 (by decide)]
  try rfl
theorem V14_40 : kernelRunB.sl.v3475 c i M3 hM3 tbl hT sim x3 b9 b10 a14 = (rowsOf c tbl i sim x2 x3 (accOf c a12 a13 a14 a15 a16 a17) 40).w := by
  unfold kernelRunB.sl.v3475 kernelRunB.sl.H14_40
  rw [View.readCov_cons_toLoadRect]
  refine Eq.trans ?_ (rowsOf_w c tbl i sim x2 x3 (accOf c a12 a13 a14 a15 a16 a17) 39 (by decide)).symm
  unfold kernelRunB.sl.r_371
  simp only [S_v3334 c i tbl hT sim b10, V14_39 c i M2 hM2 M3 hM3 tbl hT sim x2 x3 b9 b10 a12 a13 a14 a15 a16 a17, mk_read M3 hM3 x3 39 (by decide)]
  try rfl
theorem V12_41 : kernelRunB.sl.v3549 c M3 hM3 x3 a12 = (rowsOf c tbl i sim x2 x3 (accOf c a12 a13 a14 a15 a16 a17) 41).m := by
  unfold kernelRunB.sl.v3549 kernelRunB.sl.H12_41
  rw [View.readCov_cons_toLoadRect]
  refine Eq.trans ?_ (rowsOf_m c tbl i sim x2 x3 (accOf c a12 a13 a14 a15 a16 a17) 40 (by decide)).symm
  unfold kernelRunB.sl.r_378
  simp only [V12_40 c i M2 hM2 M3 hM3 tbl hT sim x2 x3 b9 b10 a12 a13 a14 a15 a16 a17, mk_read M3 hM3 x3 40 (by decide)]
  try rfl
theorem V13_41 : kernelRunB.sl.v3554 c i M2 hM2 M3 hM3 tbl x2 x3 a13 = (rowsOf c tbl i sim x2 x3 (accOf c a12 a13 a14 a15 a16 a17) 41).logp := by
  unfold kernelRunB.sl.v3554 kernelRunB.sl.H13_41
  rw [View.readCov_cons_toLoadRect]
  refine Eq.trans ?_ (rowsOf_logp c tbl i sim x2 x3 (accOf c a12 a13 a14 a15 a16 a17) 40 (by decide)).symm
  unfold kernelRunB.sl.r_384 kernelRunB.sl.r_377 kernelRunB.sl.r_378
  simp only [W_r_376 c i tbl, V13_40 c i M2 hM2 M3 hM3 tbl hT sim x2 x3 b9 b10 a12 a13 a14 a15 a16 a17, in_read M2 hM2 x2 40 (by decide), mk_read M3 hM3 x3 40 (by decide)]
  try rfl
theorem V14_41 : kernelRunB.sl.v3560 c i M3 hM3 tbl hT sim x3 b9 b10 a14 = (rowsOf c tbl i sim x2 x3 (accOf c a12 a13 a14 a15 a16 a17) 41).w := by
  unfold kernelRunB.sl.v3560 kernelRunB.sl.H14_41
  rw [View.readCov_cons_toLoadRect]
  refine Eq.trans ?_ (rowsOf_w c tbl i sim x2 x3 (accOf c a12 a13 a14 a15 a16 a17) 40 (by decide)).symm
  unfold kernelRunB.sl.r_380 kernelRunB.sl.r_378 kernelRunB.sl.r_379 kernelRunB.sl.cst_15
  simp only [S_v3419 c i tbl hT sim b9, V14_40 c i M2 hM2 M3 hM3 tbl hT sim x2 x3 b9 b10 a12 a13 a14 a15 a16 a17, mk_read M3 hM3 x3 40 (by decide)]
  try rfl
theorem V12_42 : kernelRunB.sl.v3634 c M3 hM3 x3 a12 = (rowsOf c tbl i sim x2 x3 (accOf c a12 a13 a14 a15 a16 a17) 42).m := by
  unfold kernelRunB.sl.v3634 kernelRunB.sl.H12_42
  rw [View.readCov_cons_toLoadRect]
  refine Eq.trans ?_ (rowsOf_m c tbl i sim x2 x3 (accOf c a12 a13 a14 a15 a16 a17) 41 (by decide)).symm
  unfold kernelRunB.sl.r_387
  simp only [V12_41 c i M2 hM2 M3 hM3 tbl hT sim x2 x3 b9 b10 a12 a13 a14 a15 a16 a17, mk_read M3 hM3 x3 41 (by decide)]
  try rfl
theorem V13_42 : kernelRunB.sl.v3639 c i M2 hM2 M3 hM3 tbl x2 x3 a13 = (rowsOf c tbl i sim x2 x3 (accOf c a12 a13 a14 a15 a16 a17) 42).logp := by
  unfold kernelRunB.sl.v3639 kernelRunB.sl.H13_42
  rw [View.readCov_cons_toLoadRect]
  refine Eq.trans ?_ (rowsOf_logp c tbl i sim x2 x3 (accOf c a12 a13 a14 a15 a16 a17) 41 (by decide)).symm
  unfold kernelRunB.sl.r_387 kernelRunB.sl.r_390
  simp only [W_r_386 c i tbl, V13_41 c i M2 hM2 M3 hM3 tbl hT sim x2 x3 b9 b10 a12 a13 a14 a15 a16 a17, in_read M2 hM2 x2 41 (by decide), mk_read M3 hM3 x3 41 (by decide)]
  try rfl
theorem V14_42 : kernelRunB.sl.v3645 c i M3 hM3 tbl hT sim x3 b9 b10 a14 = (rowsOf c tbl i sim x2 x3 (accOf c a12 a13 a14 a15 a16 a17) 42).w := by
  unfold kernelRunB.sl.v3645 kernelRunB.sl.H14_42
  rw [View.readCov_cons_toLoadRect]
  refine Eq.trans ?_ (rowsOf_w c tbl i sim x2 x3 (accOf c a12 a13 a14 a15 a16 a17) 41 (by decide)).symm
  unfold kernelRunB.sl.r_388
  simp only [S_v3504 c i tbl hT sim b10, V14_41 c i M2 hM2 M3 hM3 tbl hT sim x2 x3 b9 b10 a12 a13 a14 a15 a16 a17, mk_read M3 hM3 x3 41 (by decide)]
  try rfl
theorem V12_43 : kernelRunB.sl.v3719 c M3 hM3 x3 a12 = (rowsOf c tbl i sim x2 x3 (accOf c a12 a13 a14 a15 a16 a17) 43).m := by
  unfold kernelRunB.sl.v3719 kernelRunB.sl.H12_43
  rw [View.readCov_cons_toLoadRect]
  refine Eq.trans ?_ (rowsOf_m c tbl i sim x2 x3 (accOf c a12 a13 a14 a15 a16 a17) 42 (by decide)).symm
  unfold kernelRunB.sl.r_397
  simp only [V12_42 c i M2 hM2 M3 hM3 tbl hT sim x2 x3 b9 b10 a12 a13 a14 a15 a16 a17, mk_read M3 hM3 x3 42 (by decide)]
  try rfl
theorem V13_43 : kernelRunB.sl.v3724 c i M2 hM2 M3 hM3 tbl x2 x3 a13 = (rowsOf c tbl i sim x2 x3 (accOf c a12 a13 a14 a15 a16 a17) 43).logp := by
  unfold kernelRunB.sl.v3724 kernelRunB.sl.H13_43
  rw [View.readCov_cons_toLoadRect]
  refine Eq.trans ?_ (rowsOf_logp c tbl i sim x2 x3 (accOf c a12 a13 a14 a15 a16 a17) 42 (by decide)).symm
  unfold kernelRunB.sl.r_396 kernelRunB.sl.r_397
  simp only [W_r_395 c i tbl, V13_42 c i M2 hM2 M3 hM3 tbl hT sim x2 x3 b9 b10 a12 a13 a14 a15 a16 a17, in_read M2 hM2 x2 42 (by decide), mk_read M3 hM3 x3 42 (by decide)]
  try rfl
theorem V14_43 : kernelRunB.sl.v3730 c i M3 hM3 tbl hT sim x3 b9 b10 a14 = (rowsOf c tbl i sim x2 x3 (accOf c a12 a13 a14 a15 a16 a17) 43).w := by
  unfold kernelRunB.sl.v3730 kernelRunB.sl.H14_43
  rw [View.readCov_cons_toLoadRect]
  refine Eq.trans ?_ (rowsOf_w c tbl i sim x2 x3 (accOf c a12 a13 a14 a15 a16 a17) 42 (by decide)).symm
  unfold kernelRunB.sl.r_400
  simp only [S_v3589 c i tbl hT sim b9, V14_42 c i M2 hM2 M3 hM3 tbl hT sim x2 x3 b9 b10 a12 a13 a14 a15 a16 a17, mk_read M3 hM3 x3 42 (by decide)]
  try rfl
theorem V12_44 : kernelRunB.sl.v3804 c M3 hM3 x3 a12 = (rowsOf c tbl i sim x2 x3 (accOf c a12 a13 a14 a15 a16 a17) 44).m := by
  unfold kernelRunB.sl.v3804 kernelRunB.sl.H12_44
  rw [View.readCov_cons_toLoadRect]
  refine Eq.trans ?_ (rowsOf_m c tbl i sim x2 x3 (accOf c a12 a13 a14 a15 a16 a17) 43 (by decide)).symm
  unfold kernelRunB.sl.r_407
  simp only [V12_43 c i M2 hM2 M3 hM3 tbl hT sim x2 x3 b9 b10 a12 a13 a14 a15 a16 a17, mk_read M3 hM3 x3 43 (by decide)]
  try rfl
theorem V13_44 : kernelRunB.sl.v3809 c i M2 hM2 M3 hM3 tbl x2 x3 a13 = (rowsOf c tbl i sim x2 x3 (accOf c a12 a13 a14 a15 a16 a17) 44).logp := by
  unfold kernelRunB.sl.v3809 kernelRunB.sl.H13_44
  rw [View.readCov_cons_toLoadRect]
  refine Eq.trans ?_ (rowsOf_logp c tbl i sim x2 x3 (accOf c a12 a13 a14 a15 a16 a17) 43 (by decide)).symm
  unfold kernelRunB.sl.r_413 kernelRunB.sl.r_406 kernelRunB.sl.r_407
  simp only [W_r_405 c i tbl, V13_43 c i M2 hM2 M3 hM3 tbl hT sim x2 x3 b9 b10 a12 a13 a14 a15 a16 a17, in_read M2 hM2 x2 43 (by decide), mk_read M3 hM3 x3 43 (by decide)]
  try rfl
theorem V14_44 : kernelRunB.sl.v3815 c i M3 hM3 tbl hT sim x3 b9 b10 a14 = (rowsOf c tbl i sim x2 x3 (accOf c a12 a13 a14 a15 a16 a17) 44).w := by
  unfold kernelRunB.sl.v3815 kernelRunB.sl.H14_44
  rw [View.readCov_cons_toLoadRect]
  refine Eq.trans ?_ (rowsOf_w c tbl i sim x2 x3 (accOf c a12 a13 a14 a15 a16 a17) 43 (by decide)).symm
  unfold kernelRunB.sl.r_409 kernelRunB.sl.r_407 kernelRunB.sl.r_408
  simp only [S_v3674 c i tbl hT sim b10, V14_43 c i M2 hM2 M3 hM3 tbl hT sim x2 x3 b9 b10 a12 a13 a14 a15 a16 a17, mk_read M3 hM3 x3 43 (by decide)]
  try rfl
theorem V12_45 : kernelRunB.sl.v3889 c M3 hM3 x3 a12 = (rowsOf c tbl i sim x2 x3 (accOf c a12 a13 a14 a15 a16 a17) 45).m := by
  unfold kernelRunB.sl.v3889 kernelRunB.sl.H12_45
  rw [View.readCov_cons_toLoadRect]
  refine Eq.trans ?_ (rowsOf_m c tbl i sim x2 x3 (accOf c a12 a13 a14 a15 a16 a17) 44 (by decide)).symm
  unfold kernelRunB.sl.r_416
  simp only [V12_44 c i M2 hM2 M3 hM3 tbl hT sim x2 x3 b9 b10 a12 a13 a14 a15 a16 a17, mk_read M3 hM3 x3 44 (by decide)]
  try rfl
theorem V13_45 : kernelRunB.sl.v3894 c i M2 hM2 M3 hM3 tbl x2 x3 a13 = (rowsOf c tbl i sim x2 x3 (accOf c a12 a13 a14 a15 a16 a17) 45).logp := by
  unfold kernelRunB.sl.v3894 kernelRunB.sl.H13_45
  rw [View.readCov_cons_toLoadRect]
  refine Eq.trans ?_ (rowsOf_logp c tbl i sim x2 x3 (accOf c a12 a13 a14 a15 a16 a17) 44 (by decide)).symm
  unfold kernelRunB.sl.r_416 kernelRunB.sl.r_420
  simp only [W_r_415 c i tbl, V13_44 c i M2 hM2 M3 hM3 tbl hT sim x2 x3 b9 b10 a12 a13 a14 a15 a16 a17, in_read M2 hM2 x2 44 (by decide), mk_read M3 hM3 x3 44 (by decide)]
  try rfl
theorem V14_45 : kernelRunB.sl.v3900 c i M3 hM3 tbl hT sim x3 b9 b10 a14 = (rowsOf c tbl i sim x2 x3 (accOf c a12 a13 a14 a15 a16 a17) 45).w := by
  unfold kernelRunB.sl.v3900 kernelRunB.sl.H14_45
  rw [View.readCov_cons_toLoadRect]
  refine Eq.trans ?_ (rowsOf_w c tbl i sim x2 x3 (accOf c a12 a13 a14 a15 a16 a17) 44 (by decide)).symm
  unfold kernelRunB.sl.r_418
  simp only [S_v3759 c i tbl hT sim b9, V14_44 c i M2 hM2 M3 hM3 tbl hT sim x2 x3 b9 b10 a12 a13 a14 a15 a16 a17, mk_read M3 hM3 x3 44 (by decide)]
  try rfl
theorem V12_46 : kernelRunB.sl.v3974 c M3 hM3 x3 a12 = (rowsOf c tbl i sim x2 x3 (accOf c a12 a13 a14 a15 a16 a17) 46).m := by
  unfold kernelRunB.sl.v3974 kernelRunB.sl.H12_46
  rw [View.readCov_cons_toLoadRect]
  refine Eq.trans ?_ (rowsOf_m c tbl i sim x2 x3 (accOf c a12 a13 a14 a15 a16 a17) 45 (by decide)).symm
  unfold kernelRunB.sl.r_426
  simp only [V12_45 c i M2 hM2 M3 hM3 tbl hT sim x2 x3 b9 b10 a12 a13 a14 a15 a16 a17, mk_read M3 hM3 x3 45 (by decide)]
  try rfl
theorem V13_46 : kernelRunB.sl.v3979 c i M2 hM2 M3 hM3 tbl x2 x3 a13 = (rowsOf c tbl i sim x2 x3 (accOf c a12 a13 a14 a15 a16 a17) 46).logp := by
  unfold kernelRunB.sl.v3979 kernelRunB.sl.H13_46
  rw [View.readCov_cons_toLoadRect]
  refine Eq.trans ?_ (rowsOf_logp c tbl i sim x2 x3 (accOf c a12 a13 a14 a15 a16 a17) 45 (by decide)).symm
  unfold kernelRunB.sl.r_425 kernelRunB.sl.r_426
  simp only [W_r_424 c i tbl, V13_45 c i M2 hM2 M3 hM3 tbl hT sim x2 x3 b9 b10 a12 a13 a14 a15 a16 a17, in_read M2 hM2 x2 45 (by decide), mk_read M3 hM3 x3 45 (by decide)]
  try rfl
theorem V14_46 : kernelRunB.sl.v3985 c i M3 hM3 tbl hT sim x3 b9 b10 a14 = (rowsOf c tbl i sim x2 x3 (accOf c a12 a13 a14 a15 a16 a17) 46).w := by
  unfold kernelRunB.sl.v3985 kernelRunB.sl.H14_46
  rw [View.readCov_cons_toLoadRect]
  refine Eq.trans ?_ (rowsOf_w c tbl i sim x2 x3 (accOf c a12 a13 a14 a15 a16 a17) 45 (by decide)).symm
  unfold kernelRunB.sl.r_428
  simp only [S_v3844 c i tbl hT sim b10, V14_45 c i M2 hM2 M3 hM3 tbl hT sim x2 x3 b9 b10 a12 a13 a14 a15 a16 a17, mk_read M3 hM3 x3 45 (by decide)]
  try rfl
theorem V12_47 : kernelRunB.sl.v4059 c M3 hM3 x3 a12 = (rowsOf c tbl i sim x2 x3 (accOf c a12 a13 a14 a15 a16 a17) 47).m := by
  unfold kernelRunB.sl.v4059 kernelRunB.sl.H12_47
  rw [View.readCov_cons_toLoadRect]
  refine Eq.trans ?_ (rowsOf_m c tbl i sim x2 x3 (accOf c a12 a13 a14 a15 a16 a17) 46 (by decide)).symm
  unfold kernelRunB.sl.r_435
  simp only [V12_46 c i M2 hM2 M3 hM3 tbl hT sim x2 x3 b9 b10 a12 a13 a14 a15 a16 a17, mk_read M3 hM3 x3 46 (by decide)]
  try rfl
theorem V13_47 : kernelRunB.sl.v4064 c i M2 hM2 M3 hM3 tbl x2 x3 a13 = (rowsOf c tbl i sim x2 x3 (accOf c a12 a13 a14 a15 a16 a17) 47).logp := by
  unfold kernelRunB.sl.v4064 kernelRunB.sl.H13_47
  rw [View.readCov_cons_toLoadRect]
  refine Eq.trans ?_ (rowsOf_logp c tbl i sim x2 x3 (accOf c a12 a13 a14 a15 a16 a17) 46 (by decide)).symm
  unfold kernelRunB.sl.r_440 kernelRunB.sl.r_434 kernelRunB.sl.r_435
  simp only [W_r_433 c i tbl, V13_46 c i M2 hM2 M3 hM3 tbl hT sim x2 x3 b9 b10 a12 a13 a14 a15 a16 a17, in_read M2 hM2 x2 46 (by decide), mk_read M3 hM3 x3 46 (by decide)]
  try rfl
theorem V14_47 : kernelRunB.sl.v4070 c i M3 hM3 tbl hT sim x3 b9 b10 a14 = (rowsOf c tbl i sim x2 x3 (accOf c a12 a13 a14 a15 a16 a17) 47).w := by
  unfold kernelRunB.sl.v4070 kernelRunB.sl.H14_47
  rw [View.readCov_cons_toLoadRect]
  refine Eq.trans ?_ (rowsOf_w c tbl i sim x2 x3 (accOf c a12 a13 a14 a15 a16 a17) 46 (by decide)).symm
  unfold kernelRunB.sl.r_436 kernelRunB.sl.r_435 kernelRunB.sl.cst_284
  simp only [S_v3929 c i tbl hT sim b9, V14_46 c i M2 hM2 M3 hM3 tbl hT sim x2 x3 b9 b10 a12 a13 a14 a15 a16 a17, mk_read M3 hM3 x3 46 (by decide)]
  try rfl
theorem V12_48 : kernelRunB.sl.v4144 c M3 hM3 x3 a12 = (rowsOf c tbl i sim x2 x3 (accOf c a12 a13 a14 a15 a16 a17) 48).m := by
  unfold kernelRunB.sl.v4144 kernelRunB.sl.H12_48
  rw [View.readCov_cons_toLoadRect]
  refine Eq.trans ?_ (rowsOf_m c tbl i sim x2 x3 (accOf c a12 a13 a14 a15 a16 a17) 47 (by decide)).symm
  unfold kernelRunB.sl.r_443
  simp only [V12_47 c i M2 hM2 M3 hM3 tbl hT sim x2 x3 b9 b10 a12 a13 a14 a15 a16 a17, mk_read M3 hM3 x3 47 (by decide)]
  try rfl
theorem V13_48 : kernelRunB.sl.v4149 c i M2 hM2 M3 hM3 tbl x2 x3 a13 = (rowsOf c tbl i sim x2 x3 (accOf c a12 a13 a14 a15 a16 a17) 48).logp := by
  unfold kernelRunB.sl.v4149 kernelRunB.sl.H13_48
  rw [View.readCov_cons_toLoadRect]
  refine Eq.trans ?_ (rowsOf_logp c tbl i sim x2 x3 (accOf c a12 a13 a14 a15 a16 a17) 47 (by decide)).symm
  unfold kernelRunB.sl.r_443 kernelRunB.sl.r_447
  simp only [W_r_442 c i tbl, V13_47 c i M2 hM2 M3 hM3 tbl hT sim x2 x3 b9 b10 a12 a13 a14 a15 a16 a17, in_read M2 hM2 x2 47 (by decide), mk_read M3 hM3 x3 47 (by decide)]
  try rfl
theorem V14_48 : kernelRunB.sl.v4155 c i M3 hM3 tbl hT sim x3 b9 b10 a14 = (rowsOf c tbl i sim x2 x3 (accOf c a12 a13 a14 a15 a16 a17) 48).w := by
  unfold kernelRunB.sl.v4155 kernelRunB.sl.H14_48
  rw [View.readCov_cons_toLoadRect]
  refine Eq.trans ?_ (rowsOf_w c tbl i sim x2 x3 (accOf c a12 a13 a14 a15 a16 a17) 47 (by decide)).symm
  unfold kernelRunB.sl.r_445
  simp only [S_v4014 c i tbl hT sim b10, V14_47 c i M2 hM2 M3 hM3 tbl hT sim x2 x3 b9 b10 a12 a13 a14 a15 a16 a17, mk_read M3 hM3 x3 47 (by decide)]
  try rfl
theorem V12_49 : kernelRunB.sl.v4229 c M3 hM3 x3 a12 = (rowsOf c tbl i sim x2 x3 (accOf c a12 a13 a14 a15 a16 a17) 49).m := by
  unfold kernelRunB.sl.v4229 kernelRunB.sl.H12_49
  rw [View.readCov_cons_toLoadRect]
  refine Eq.trans ?_ (rowsOf_m c tbl i sim x2 x3 (accOf c a12 a13 a14 a15 a16 a17) 48 (by decide)).symm
  unfold kernelRunB.sl.r_452
  simp only [V12_48 c i M2 hM2 M3 hM3 tbl hT sim x2 x3 b9 b10 a12 a13 a14 a15 a16 a17, mk_read M3 hM3 x3 48 (by decide)]
  try rfl
theorem V13_49 : kernelRunB.sl.v4234 c i M2 hM2 M3 hM3 tbl x2 x3 a13 = (rowsOf c tbl i sim x2 x3 (accOf c a12 a13 a14 a15 a16 a17) 49).logp := by
  unfold kernelRunB.sl.v4234 kernelRunB.sl.H13_49
  rw [View.readCov_cons_toLoadRect]
  refine Eq.trans ?_ (rowsOf_logp c tbl i sim x2 x3 (accOf c a12 a13 a14 a15 a16 a17) 48 (by decide)).symm
  unfold kernelRunB.sl.r_451 kernelRunB.sl.r_452
  simp only [W_r_450 c i tbl, V13_48 c i M2 hM2 M3 hM3 tbl hT sim x2 x3 b9 b10 a12 a13 a14 a15 a16 a17, in_read M2 hM2 x2 48 (by decide), mk_read M3 hM3 x3 48 (by decide)]
  try rfl
theorem V14_49 : kernelRunB.sl.v4240 c i M3 hM3 tbl hT sim x3 b9 b10 a14 = (rowsOf c tbl i sim x2 x3 (accOf c a12 a13 a14 a15 a16 a17) 49).w := by
  unfold kernelRunB.sl.v4240 kernelRunB.sl.H14_49
  rw [View.readCov_cons_toLoadRect]
  refine Eq.trans ?_ (rowsOf_w c tbl i sim x2 x3 (accOf c a12 a13 a14 a15 a16 a17) 48 (by decide)).symm
  unfold kernelRunB.sl.r_452 kernelRunB.sl.r_453
  simp only [S_v4099 c i tbl hT sim b9, V14_48 c i M2 hM2 M3 hM3 tbl hT sim x2 x3 b9 b10 a12 a13 a14 a15 a16 a17, mk_read M3 hM3 x3 48 (by decide)]
  try rfl
theorem V12_50 : kernelRunB.sl.v4314 c M3 hM3 x3 a12 = (rowsOf c tbl i sim x2 x3 (accOf c a12 a13 a14 a15 a16 a17) 50).m := by
  unfold kernelRunB.sl.v4314 kernelRunB.sl.H12_50
  rw [View.readCov_cons_toLoadRect]
  refine Eq.trans ?_ (rowsOf_m c tbl i sim x2 x3 (accOf c a12 a13 a14 a15 a16 a17) 49 (by decide)).symm
  unfold kernelRunB.sl.r_459
  simp only [V12_49 c i M2 hM2 M3 hM3 tbl hT sim x2 x3 b9 b10 a12 a13 a14 a15 a16 a17, mk_read M3 hM3 x3 49 (by decide)]
  try rfl
theorem V13_50 : kernelRunB.sl.v4319 c i M2 hM2 M3 hM3 tbl x2 x3 a13 = (rowsOf c tbl i sim x2 x3 (accOf c a12 a13 a14 a15 a16 a17) 50).logp := by
  unfold kernelRunB.sl.v4319 kernelRunB.sl.H13_50
  rw [View.readCov_cons_toLoadRect]
  refine Eq.trans ?_ (rowsOf_logp c tbl i sim x2 x3 (accOf c a12 a13 a14 a15 a16 a17) 49 (by decide)).symm
  unfold kernelRunB.sl.r_459 kernelRunB.sl.r_463 kernelRunB.sl.r_458
  simp only [W_r_460 c i tbl, V13_49 c i M2 hM2 M3 hM3 tbl hT sim x2 x3 b9 b10 a12 a13 a14 a15 a16 a17, in_read M2 hM2 x2 49 (by decide), mk_read M3 hM3 x3 49 (by decide)]
  try rfl
theorem V14_50 : kernelRunB.sl.v4325 c i M3 hM3 tbl hT sim x3 b9 b10 a14 = (rowsOf c tbl i sim x2 x3 (accOf c a12 a13 a14 a15 a16 a17) 50).w := by
  unfold kernelRunB.sl.v4325 kernelRunB.sl.H14_50
  rw [View.readCov_cons_toLoadRect]
  refine Eq.trans ?_ (rowsOf_w c tbl i sim x2 x3 (accOf c a12 a13 a14 a15 a16 a17) 49 (by decide)).symm
  unfold kernelRunB.sl.r_461 kernelRunB.sl.r_459
  simp only [S_v4184 c i tbl hT sim b10, V14_49 c i M2 hM2 M3 hM3 tbl hT sim x2 x3 b9 b10 a12 a13 a14 a15 a16 a17, mk_read M3 hM3 x3 49 (by decide)]
  try rfl
theorem V12_51 : kernelRunB.sl.v4399 c M3 hM3 x3 a12 = (rowsOf c tbl i sim x2 x3 (accOf c a12 a13 a14 a15 a16 a17) 51).m := by
  unfold kernelRunB.sl.v4399 kernelRunB.sl.H12_51
  rw [View.readCov_cons_toLoadRect]
  refine Eq.trans ?_ (rowsOf_m c tbl i sim x2 x3 (accOf c a12 a13 a14 a15 a16 a17) 50 (by decide)).symm
  unfold kernelRunB.sl.r_468
  simp only [V12_50 c i M2 hM2 M3 hM3 tbl hT sim x2 x3 b9 b10 a12 a13 a14 a15 a16 a17, mk_read M3 hM3 x3 50 (by decide)]
  try rfl
theorem V13_51 : kernelRunB.sl.v4404 c i M2 hM2 M3 hM3 tbl x2 x3 a13 = (rowsOf c tbl i sim x2 x3 (accOf c a12 a13 a14 a15 a16 a17) 51).logp := by
  unfold kernelRunB.sl.v4404 kernelRunB.sl.H13_51
  rw [View.readCov_cons_toLoadRect]
  refine Eq.trans ?_ (rowsOf_logp c tbl i sim x2 x3 (accOf c a12 a13 a14 a15 a16 a17) 50 (by decide)).symm
  unfold kernelRunB.sl.r_468 kernelRunB.sl.r_472
  simp only [W_r_467 c i tbl, V13_50 c i M2 hM2 M3 hM3 tbl hT sim x2 x3 b9 b10 a12 a13 a14 a15 a16 a17, in_read M2 hM2 x2 50 (by decide), mk_read M3 hM3 x3 50 (by decide)]
  try rfl
theorem V14_51 : kernelRunB.sl.v4410 c i M3 hM3 tbl hT sim x3 b9 b10 a14 = (rowsOf c tbl i sim x2 x3 (accOf c a12 a13 a14 a15 a16 a17) 51).w := by
  unfold kernelRunB.sl.v4410 kernelRunB.sl.H14_51
  rw [View.readCov_cons_toLoadRect]
  refine Eq.trans ?_ (rowsOf_w c tbl i sim x2 x3 (accOf c a12 a13 a14 a15 a16 a17) 50 (by decide)).symm
  unfold kernelRunB.sl.r_470
  simp only [S_v4269 c i tbl hT sim b9, V14_50 c i M2 hM2 M3 hM3 tbl hT sim x2 x3 b9 b10 a12 a13 a14 a15 a16 a17, mk_read M3 hM3 x3 50 (by decide)]
  try rfl
theorem V12_52 : kernelRunB.sl.v4484 c M3 hM3 x3 a12 = (rowsOf c tbl i sim x2 x3 (accOf c a12 a13 a14 a15 a16 a17) 52).m := by
  unfold kernelRunB.sl.v4484 kernelRunB.sl.H12_52
  rw [View.readCov_cons_toLoadRect]
  refine Eq.trans ?_ (rowsOf_m c tbl i sim x2 x3 (accOf c a12 a13 a14 a15 a16 a17) 51 (by decide)).symm
  unfold kernelRunB.sl.r_478
  simp only [V12_51 c i M2 hM2 M3 hM3 tbl hT sim x2 x3 b9 b10 a12 a13 a14 a15 a16 a17, mk_read M3 hM3 x3 51 (by decide)]
  try rfl
theorem V13_52 : kernelRunB.sl.v4489 c i M2 hM2 M3 hM3 tbl x2 x3 a13 = (rowsOf c tbl i sim x2 x3 (accOf c a12 a13 a14 a15 a16 a17) 52).logp := by
  unfold kernelRunB.sl.v4489 kernelRunB.sl.H13_52
  rw [View.readCov_cons_toLoadRect]
  refine Eq.trans ?_ (rowsOf_logp c tbl i sim x2 x3 (accOf c a12 a13 a14 a15 a16 a17) 51 (by decide)).symm
  unfold kernelRunB.sl.r_477 kernelRunB.sl.r_478
  simp only [W_r_476 c i tbl, V13_51 c i M2 hM2 M3 hM3 tbl hT sim x2 x3 b9 b10 a12 a13 a14 a15 a16 a17, in_read M2 hM2 x2 51 (by decide), mk_read M3 hM3 x3 51 (by decide)]
  try rfl
theorem V14_52 : kernelRunB.sl.v4495 c i M3 hM3 tbl hT sim x3 b9 b10 a14 = (rowsOf c tbl i sim x2 x3 (accOf c a12 a13 a14 a15 a16 a17) 52).w := by
  unfold kernelRunB.sl.v4495 kernelRunB.sl.H14_52
  rw [View.readCov_cons_toLoadRect]
  refine Eq.trans ?_ (rowsOf_w c tbl i sim x2 x3 (accOf c a12 a13 a14 a15 a16 a17) 51 (by decide)).symm
  unfold kernelRunB.sl.r_484 kernelRunB.sl.r_478 kernelRunB.sl.r_479 kernelRunB.sl.r_480
  simp only [S_v4354 c i tbl hT sim b10, V14_51 c i M2 hM2 M3 hM3 tbl hT sim x2 x3 b9 b10 a12 a13 a14 a15 a16 a17, mk_read M3 hM3 x3 51 (by decide)]
  try rfl
theorem V12_53 : kernelRunB.sl.v4569 c M3 hM3 x3 a12 = (rowsOf c tbl i sim x2 x3 (accOf c a12 a13 a14 a15 a16 a17) 53).m := by
  unfold kernelRunB.sl.v4569 kernelRunB.sl.H12_53
  rw [View.readCov_cons_toLoadRect]
  refine Eq.trans ?_ (rowsOf_m c tbl i sim x2 x3 (accOf c a12 a13 a14 a15 a16 a17) 52 (by decide)).symm
  unfold kernelRunB.sl.r_495 kernelRunB.sl.r_487
  simp only [V12_52 c i M2 hM2 M3 hM3 tbl hT sim x2 x3 b9 b10 a12 a13 a14 a15 a16 a17, mk_read M3 hM3 x3 52 (by decide)]
  try rfl
theorem V13_53 : kernelRunB.sl.v4574 c i M2 hM2 M3 hM3 tbl x2 x3 a13 = (rowsOf c tbl i sim x2 x3 (accOf c a12 a13 a14 a15 a16 a17) 53).logp := by
  unfold kernelRunB.sl.v4574 kernelRunB.sl.H13_53
  rw [View.readCov_cons_toLoadRect]
  refine Eq.trans ?_ (rowsOf_logp c tbl i sim x2 x3 (accOf c a12 a13 a14 a15 a16 a17) 52 (by decide)).symm
  unfold kernelRunB.sl.r_489 kernelRunB.sl.r_492 kernelRunB.sl.r_487 kernelRunB.sl.r_486
  simp only [W_r_488 c i tbl, V13_52 c i M2 hM2 M3 hM3 tbl hT sim x2 x3 b9 b10 a12 a13 a14 a15 a16 a17, in_read M2 hM2 x2 52 (by decide), mk_read M3 hM3 x3 52 (by decide)]
  try rfl
theorem V14_53 : kernelRunB.sl.v4580 c i M3 hM3 tbl hT sim x3 b9 b10 a14 = (rowsOf c tbl i sim x2 x3 (accOf c a12 a13 a14 a15 a16 a17) 53).w := by
  unfold kernelRunB.sl.v4580 kernelRunB.sl.H14_53
  rw [View.readCov_cons_toLoadRect]
  refine Eq.trans ?_ (rowsOf_w c tbl i sim x2 x3 (accOf c a12 a13 a14 a15 a16 a17) 52 (by decide)).symm
  unfold kernelRunB.sl.r_490 kernelRunB.sl.r_487
  simp only [S_v4439 c i tbl hT sim b9, V14_52 c i M2 hM2 M3 hM3 tbl hT sim x2 x3 b9 b10 a12 a13 a14 a15 a16 a17, mk_read M3 hM3 x3 52 (by decide)]
  try rfl
theorem V12_54 : kernelRunB.sl.v4654 c M3 hM3 x3 a12 = (rowsOf c tbl i sim x2 x3 (accOf c a12 a13 a14 a15 a16 a17) 54).m := by
  unfold kernelRunB.sl.v4654 kernelRunB.sl.H12_54
  rw [View.readCov_cons_toLoadRect]
  refine Eq.trans ?_ (rowsOf_m c tbl i sim x2 x3 (accOf c a12 a13 a14 a15 a16 a17) 53 (by decide)).symm
  unfold kernelRunB.sl.r_499
  simp only [V12_53 c i M2 hM2 M3 hM3 tbl hT sim x2 x3 b9 b10 a12 a13 a14 a15 a16 a17, mk_read M3 hM3 x3 53 (by decide)]
  try rfl
theorem V13_54 : kernelRunB.sl.v4659 c i M2 hM2 M3 hM3 tbl x2 x3 a13 = (rowsOf c tbl i sim x2 x3 (accOf c a12 a13 a14 a15 a16 a17) 54).logp := by
  unfold kernelRunB.sl.v4659 kernelRunB.sl.H13_54
  rw [View.readCov_cons_toLoadRect]
  refine Eq.trans ?_ (rowsOf_logp c tbl i sim x2 x3 (accOf c a12 a13 a14 a15 a16 a17) 53 (by decide)).symm
  unfold kernelRunB.sl.r_498 kernelRunB.sl.r_499 kernelRunB.sl.r_503
  simp only [W_r_497 c i tbl, V13_53 c i M2 hM2 M3 hM3 tbl hT sim x2 x3 b9 b10 a12 a13 a14 a15 a16 a17, in_read M2 hM2 x2 53 (by decide), mk_read M3 hM3 x3 53 (by decide)]
  try rfl
theorem V14_54 : kernelRunB.sl.v4665 c i M3 hM3 tbl hT sim x3 b9 b10 a14 = (rowsOf c tbl i sim x2 x3 (accOf c a12 a13 a14 a15 a16 a17) 54).w := by
  unfold kernelRunB.sl.v4665 kernelRunB.sl.H14_54
  rw [View.readCov_cons_toLoadRect]
  refine Eq.trans ?_ (rowsOf_w c tbl i sim x2 x3 (accOf c a12 a13 a14 a15 a16 a17) 53 (by decide)).symm
  unfold kernelRunB.sl.r_501
  simp only [S_v4524 c i tbl hT sim b10, V14_53 c i M2 hM2 M3 hM3 tbl hT sim x2 x3 b9 b10 a12 a13 a14 a15 a16 a17, mk_read M3 hM3 x3 53 (by decide)]
  try rfl
theorem V12_55 : kernelRunB.sl.v4739 c M3 hM3 x3 a12 = (rowsOf c tbl i sim x2 x3 (accOf c a12 a13 a14 a15 a16 a17) 55).m := by
  unfold kernelRunB.sl.v4739 kernelRunB.sl.H12_55
  rw [View.readCov_cons_toLoadRect]
  refine Eq.trans ?_ (rowsOf_m c tbl i sim x2 x3 (accOf c a12 a13 a14 a15 a16 a17) 54 (by decide)).symm
  unfold kernelRunB.sl.r_509
  simp only [V12_54 c i M2 hM2 M3 hM3 tbl hT sim x2 x3 b9 b10 a12 a13 a14 a15 a16 a17, mk_read M3 hM3 x3 54 (by decide)]
  try rfl
theorem V13_55 : kernelRunB.sl.v4744 c i M2 hM2 M3 hM3 tbl x2 x3 a13 = (rowsOf c tbl i sim x2 x3 (accOf c a12 a13 a14 a15 a16 a17) 55).logp := by
  unfold kernelRunB.sl.v4744 kernelRunB.sl.H13_55
  rw [View.readCov_cons_toLoadRect]
  refine Eq.trans ?_ (rowsOf_logp c tbl i sim x2 x3 (accOf c a12 a13 a14 a15 a16 a17) 54 (by decide)).symm
  unfold kernelRunB.sl.r_508 kernelRunB.sl.r_509
  simp only [W_r_507 c i tbl, V13_54 c i M2 hM2 M3 hM3 tbl hT sim x2 x3 b9 b10 a12 a13 a14 a15 a16 a17, in_read M2 hM2 x2 54 (by decide), mk_read M3 hM3 x3 54 (by decide)]
  try rfl
theorem V14_55 : kernelRunB.sl.v4750 c i M3 hM3 tbl hT sim x3 b9 b10 a14 = (rowsOf c tbl i sim x2 x3 (accOf c a12 a13 a14 a15 a16 a17) 55).w := by
  unfold kernelRunB.sl.v4750 kernelRunB.sl.H14_55
  rw [View.readCov_cons_toLoadRect]
  refine Eq.trans ?_ (rowsOf_w c tbl i sim x2 x3 (accOf c a12 a13 a14 a15 a16 a17) 54 (by decide)).symm
  unfold kernelRunB.sl.r_515 kernelRunB.sl.r_509 kernelRunB.sl.r_510 kernelRunB.sl.r_511
  simp only [S_v4609 c i tbl hT sim b9, V14_54 c i M2 hM2 M3 hM3 tbl hT sim x2 x3 b9 b10 a12 a13 a14 a15 a16 a17, mk_read M3 hM3 x3 54 (by decide)]
  try rfl
theorem V12_56 : kernelRunB.sl.v4824 c M3 hM3 x3 a12 = (rowsOf c tbl i sim x2 x3 (accOf c a12 a13 a14 a15 a16 a17) 56).m := by
  unfold kernelRunB.sl.v4824 kernelRunB.sl.H12_56
  rw [View.readCov_cons_toLoadRect]
  refine Eq.trans ?_ (rowsOf_m c tbl i sim x2 x3 (accOf c a12 a13 a14 a15 a16 a17) 55 (by decide)).symm
  unfold kernelRunB.sl.r_525
  simp only [V12_55 c i M2 hM2 M3 hM3 tbl hT sim x2 x3 b9 b10 a12 a13 a14 a15 a16 a17, mk_read M3 hM3 x3 55 (by decide)]
  try rfl
theorem V13_56 : kernelRunB.sl.v4829 c i M2 hM2 M3 hM3 tbl x2 x3 a13 = (rowsOf c tbl i sim x2 x3 (accOf c a12 a13 a14 a15 a16 a17) 56).logp := by
  unfold kernelRunB.sl.v4829 kernelRunB.sl.H13_56
  rw [View.readCov_cons_toLoadRect]
  refine Eq.trans ?_ (rowsOf_logp c tbl i sim x2 x3 (accOf c a12 a13 a14 a15 a16 a17) 55 (by decide)).symm
  unfold kernelRunB.sl.r_519 kernelRunB.sl.r_522 kernelRunB.sl.r_517
  simp only [W_r_518 c i tbl, V13_55 c i M2 hM2 M3 hM3 tbl hT sim x2 x3 b9 b10 a12 a13 a14 a15 a16 a17, in_read M2 hM2 x2 55 (by decide), mk_read M3 hM3 x3 55 (by decide)]
  try rfl
theorem V14_56 : kernelRunB.sl.v4835 c i M3 hM3 tbl hT sim x3 b9 b10 a14 = (rowsOf c tbl i sim x2 x3 (accOf c a12 a13 a14 a15 a16 a17) 56).w := by
  unfold kernelRunB.sl.v4835 kernelRunB.sl.H14_56
  rw [View.readCov_cons_toLoadRect]
  refine Eq.trans ?_ (rowsOf_w c tbl i sim x2 x3 (accOf c a12 a13 a14 a15 a16 a17) 55 (by decide)).symm
  unfold kernelRunB.sl.r_520
  simp only [S_v4694 c i tbl hT sim b10, V14_55 c i M2 hM2 M3 hM3 tbl hT sim x2 x3 b9 b10 a12 a13 a14 a15 a16 a17, mk_read M3 hM3 x3 55 (by decide)]
  try rfl
theorem V12_57 : kernelRunB.sl.v4909 c M3 hM3 x3 a12 = (rowsOf c tbl i sim x2 x3 (accOf c a12 a13 a14 a15 a16 a17) 57).m := by
  unfold kernelRunB.sl.v4909 kernelRunB.sl.H12_57
  rw [View.readCov_cons_toLoadRect]
  refine Eq.trans ?_ (rowsOf_m c tbl i sim x2 x3 (accOf c a12 a13 a14 a15 a16 a17) 56 (by decide)).symm
  unfold kernelRunB.sl.r_529
  simp only [V12_56 c i M2 hM2 M3 hM3 tbl hT sim x2 x3 b9 b10 a12 a13 a14 a15 a16 a17, mk_read M3 hM3 x3 56 (by decide)]
  try rfl
theorem V13_57 : kernelRunB.sl.v4914 c i M2 hM2 M3 hM3 tbl x2 x3 a13 = (rowsOf c tbl i sim x2 x3 (accOf c a12 a13 a14 a15 a16 a17) 57).logp := by
  unfold kernelRunB.sl.v4914 kernelRunB.sl.H13_57
  rw [View.readCov_cons_toLoadRect]
  refine Eq.trans ?_ (rowsOf_logp c tbl i sim x2 x3 (accOf c a12 a13 a14 a15 a16 a17) 56 (by decide)).symm
  unfold kernelRunB.sl.r_528 kernelRunB.sl.r_529
  simp only [W_r_527 c i tbl, V13_56 c i M2 hM2 M3 hM3 tbl hT sim x2 x3 b9 b10 a12 a13 a14 a15 a16 a17, in_read M2 hM2 x2 56 (by decide), mk_read M3 hM3 x3 56 (by decide)]
  try rfl
theorem V14_57 : kernelRunB.sl.v4920 c i M3 hM3 tbl hT sim x3 b9 b10 a14 = (rowsOf c tbl i sim x2 x3 (accOf c a12 a13 a14 a15 a16 a17) 57).w := by
  unfold kernelRunB.sl.v4920 kernelRunB.sl.H14_57
  rw [View.readCov_cons_toLoadRect]
  refine Eq.trans ?_ (rowsOf_w c tbl i sim x2 x3 (accOf c a12 a13 a14 a15 a16 a17) 56 (by decide)).symm
  unfold kernelRunB.sl.r_531
  simp only [S_v4779 c i tbl hT sim b9, V14_56 c i M2 hM2 M3 hM3 tbl hT sim x2 x3 b9 b10 a12 a13 a14 a15 a16 a17, mk_read M3 hM3 x3 56 (by decide)]
  try rfl
theorem V12_58 : kernelRunB.sl.v4994 c M3 hM3 x3 a12 = (rowsOf c tbl i sim x2 x3 (accOf c a12 a13 a14 a15 a16 a17) 58).m := by
  unfold kernelRunB.sl.v4994 kernelRunB.sl.H12_58
  rw [View.readCov_cons_toLoadRect]
  refine Eq.trans ?_ (rowsOf_m c tbl i sim x2 x3 (accOf c a12 a13 a14 a15 a16 a17) 57 (by decide)).symm
  unfold kernelRunB.sl.r_538
  simp only [V12_57 c i M2 hM2 M3 hM3 tbl hT sim x2 x3 b9 b10 a12 a13 a14 a15 a16 a17, mk_read M3 hM3 x3 57 (by decide)]
  try rfl
theorem V13_58 : kernelRunB.sl.v4999 c i M2 hM2 M3 hM3 tbl x2 x3 a13 = (rowsOf c tbl i sim x2 x3 (accOf c a12 a13 a14 a15 a16 a17) 58).logp := by
  unfold kernelRunB.sl.v4999 kernelRunB.sl.H13_58
  rw [View.readCov_cons_toLoadRect]
  refine Eq.trans ?_ (rowsOf_logp c tbl i sim x2 x3 (accOf c a12 a13 a14 a15 a16 a17) 57 (by decide)).symm
  unfold kernelRunB.sl.r_537 kernelRunB.sl.r_538
  simp only [W_r_536 c i tbl, V13_57 c i M2 hM2 M3 hM3 tbl hT sim x2 x3 b9 b10 a12 a13 a14 a15 a16 a17, in_read M2 hM2 x2 57 (by decide), mk_read M3 hM3 x3 57 (by decide)]
  try rfl
theorem V14_58 : kernelRunB.sl.v5005 c i M3 hM3 tbl hT sim x3 b9 b10 a14 = (rowsOf c tbl i sim x2 x3 (accOf c a12 a13 a14 a15 a16 a17) 58).w := by
  unfold kernelRunB.sl.v5005 kernelRunB.sl.H14_58
  rw [View.readCov_cons_toLoadRect]
  refine Eq.trans ?_ (rowsOf_w c tbl i sim x2 x3 (accOf c a12 a13 a14 a15 a16 a17) 57 (by decide)).symm
  unfold kernelRunB.sl.r_541 kernelRunB.sl.r_538 kernelRunB.sl.r_539 kernelRunB.sl.r_540 kernelRunB.sl.cst_781
  simp only [S_v4864 c i tbl hT sim b10, V14_57 c i M2 hM2 M3 hM3 tbl hT sim x2 x3 b9 b10 a12 a13 a14 a15 a16 a17, mk_read M3 hM3 x3 57 (by decide)]
  try rfl
theorem V12_59 : kernelRunB.sl.v5079 c M3 hM3 x3 a12 = (rowsOf c tbl i sim x2 x3 (accOf c a12 a13 a14 a15 a16 a17) 59).m := by
  unfold kernelRunB.sl.v5079 kernelRunB.sl.H12_59
  rw [View.readCov_cons_toLoadRect]
  refine Eq.trans ?_ (rowsOf_m c tbl i sim x2 x3 (accOf c a12 a13 a14 a15 a16 a17) 58 (by decide)).symm
  unfold kernelRunB.sl.r_547
  simp only [V12_58 c i M2 hM2 M3 hM3 tbl hT sim x2 x3 b9 b10 a12 a13 a14 a15 a16 a17, mk_read M3 hM3 x3 58 (by decide)]
  try rfl
theorem V13_59 : kernelRunB.sl.v5084 c i M2 hM2 M3 hM3 tbl x2 x3 a13 = (rowsOf c tbl i sim x2 x3 (accOf c a12 a13 a14 a15 a16 a17) 59).logp := by
  unfold kernelRunB.sl.v5084 kernelRunB.sl.H13_59
  rw [View.readCov_cons_toLoadRect]
  refine Eq.trans ?_ (rowsOf_logp c tbl i sim x2 x3 (accOf c a12 a13 a14 a15 a16 a17) 58 (by decide)).symm
  unfold kernelRunB.sl.r_547 kernelRunB.sl.r_550
  simp only [W_r_546 c i tbl, V13_58 c i M2 hM2 M3 hM3 tbl hT sim x2 x3 b9 b10 a12 a13 a14 a15 a16 a17, in_read M2 hM2 x2 58 (by decide), mk_read M3 hM3 x3 58 (by decide)]
  try rfl
theorem V14_59 : kernelRunB.sl.v5090 c i M3 hM3 tbl hT sim x3 b9 b10 a14 = (rowsOf c tbl i sim x2 x3 (accOf c a12 a13 a14 a15 a16 a17) 59).w := by
  unfold kernelRunB.sl.v5090 kernelRunB.sl.H14_59
  rw [View.readCov_cons_toLoadRect]
  refine Eq.trans ?_ (rowsOf_w c tbl i sim x2 x3 (accOf c a12 a13 a14 a15 a16 a17) 58 (by decide)).symm
  unfold kernelRunB.sl.r_548
  simp only [V14_58 c i M2 hM2 M3 hM3 tbl hT sim x2 x3 b9 b10 a12 a13 a14 a15 a16 a17, S_v_2 c i tbl hT sim b9, mk_read M3 hM3 x3 58 (by decide)]
  try rfl
theorem V12_60 : kernelRunB.sl.v5164 c M3 hM3 x3 a12 = (rowsOf c tbl i sim x2 x3 (accOf c a12 a13 a14 a15 a16 a17) 60).m := by
  unfold kernelRunB.sl.v5164 kernelRunB.sl.H12_60
  rw [View.readCov_cons_toLoadRect]
  refine Eq.trans ?_ (rowsOf_m c tbl i sim x2 x3 (accOf c a12 a13 a14 a15 a16 a17) 59 (by decide)).symm
  unfold kernelRunB.sl.r_556
  simp only [V12_59 c i M2 hM2 M3 hM3 tbl hT sim x2 x3 b9 b10 a12 a13 a14 a15 a16 a17, mk_read M3 hM3 x3 59 (by decide)]
  try rfl
theorem V13_60 : kernelRunB.sl.v5169 c i M2 hM2 M3 hM3 tbl x2 x3 a13 = (rowsOf c tbl i sim x2 x3 (accOf c a12 a13 a14 a15 a16 a17) 60).logp := by
  unfold kernelRunB.sl.v5169 kernelRunB.sl.H13_60
  rw [View.readCov_cons_toLoadRect]
  refine Eq.trans ?_ (rowsOf_logp c tbl i sim x2 x3 (accOf c a12 a13 a14 a15 a16 a17) 59 (by decide)).symm
  unfold kernelRunB.sl.r_555 kernelRunB.sl.r_556
  simp only [W_r_554 c i tbl, V13_59 c i M2 hM2 M3 hM3 tbl hT sim x2 x3 b9 b10 a12 a13 a14 a15 a16 a17, in_read M2 hM2 x2 59 (by decide), mk_read M3 hM3 x3 59 (by decide)]
  try rfl
theorem V14_60 : kernelRunB.sl.v5175 c i M3 hM3 tbl hT sim x3 b9 b10 a14 = (rowsOf c tbl i sim x2 x3 (accOf c a12 a13 a14 a15 a16 a17) 60).w := by
  unfold kernelRunB.sl.v5175 kernelRunB.sl.H14_60
  rw [View.readCov_cons_toLoadRect]
  refine Eq.trans ?_ (rowsOf_w c tbl i sim x2 x3 (accOf c a12 a13 a14 a15 a16 a17) 59 (by decide)).symm
  unfold kernelRunB.sl.r_558
  simp only [S_v5034 c i tbl hT sim b10, V14_59 c i M2 hM2 M3 hM3 tbl hT sim x2 x3 b9 b10 a12 a13 a14 a15 a16 a17, mk_read M3 hM3 x3 59 (by decide)]
  try rfl
theorem V12_61 : kernelRunB.sl.v5249 c M3 hM3 x3 a12 = (rowsOf c tbl i sim x2 x3 (accOf c a12 a13 a14 a15 a16 a17) 61).m := by
  unfold kernelRunB.sl.v5249 kernelRunB.sl.H12_61
  rw [View.readCov_cons_toLoadRect]
  refine Eq.trans ?_ (rowsOf_m c tbl i sim x2 x3 (accOf c a12 a13 a14 a15 a16 a17) 60 (by decide)).symm
  unfold kernelRunB.sl.r_565
  simp only [V12_60 c i M2 hM2 M3 hM3 tbl hT sim x2 x3 b9 b10 a12 a13 a14 a15 a16 a17, mk_read M3 hM3 x3 60 (by decide)]
  try rfl
theorem V13_61 : kernelRunB.sl.v5254 c i M2 hM2 M3 hM3 tbl x2 x3 a13 = (rowsOf c tbl i sim x2 x3 (accOf c a12 a13 a14 a15 a16 a17) 61).logp := by
  unfold kernelRunB.sl.v5254 kernelRunB.sl.H13_61
  rw [View.readCov_cons_toLoadRect]
  refine Eq.trans ?_ (rowsOf_logp c tbl i sim x2 x3 (accOf c a12 a13 a14 a15 a16 a17) 60 (by decide)).symm
  unfold kernelRunB.sl.r_571 kernelRunB.sl.r_564 kernelRunB.sl.r_565
  simp only [W_r_563 c i tbl, V13_60 c i M2 hM2 M3 hM3 tbl hT sim x2 x3 b9 b10 a12 a13 a14 a15 a16 a17, in_read M2 hM2 x2 60 (by decide), mk_read M3 hM3 x3 60 (by decide)]
  try rfl
theorem V14_61 : kernelRunB.sl.v5260 c i M3 hM3 tbl hT sim x3 b9 b10 a14 = (rowsOf c tbl i sim x2 x3 (accOf c a12 a13 a14 a15 a16 a17) 61).w := by
  unfold kernelRunB.sl.v5260 kernelRunB.sl.H14_61
  rw [View.readCov_cons_toLoadRect]
  refine Eq.trans ?_ (rowsOf_w c tbl i sim x2 x3 (accOf c a12 a13 a14 a15 a16 a17) 60 (by decide)).symm
  unfold kernelRunB.sl.r_567 kernelRunB.sl.r_565 kernelRunB.sl.r_566 kernelRunB.sl.cst_15
  simp only [S_v5119 c i tbl hT sim b9, V14_60 c i M2 hM2 M3 hM3 tbl hT sim x2 x3 b9 b10 a12 a13 a14 a15 a16 a17, mk_read M3 hM3 x3 60 (by decide)]
  try rfl
theorem V12_62 : kernelRunB.sl.v5334 c M3 hM3 x3 a12 = (rowsOf c tbl i sim x2 x3 (accOf c a12 a13 a14 a15 a16 a17) 62).m := by
  unfold kernelRunB.sl.v5334 kernelRunB.sl.H12_62
  rw [View.readCov_cons_toLoadRect]
  refine Eq.trans ?_ (rowsOf_m c tbl i sim x2 x3 (accOf c a12 a13 a14 a15 a16 a17) 61 (by decide)).symm
  unfold kernelRunB.sl.r_574
  simp only [V12_61 c i M2 hM2 M3 hM3 tbl hT sim x2 x3 b9 b10 a12 a13 a14 a15 a16 a17, mk_read M3 hM3 x3 61 (by decide)]
  try rfl
theorem V13_62 : kernelRunB.sl.v5339 c i M2 hM2 M3 hM3 tbl x2 x3 a13 = (rowsOf c tbl i sim x2 x3 (accOf c a12 a13 a14 a15 a16 a17) 62).logp := by
  unfold kernelRunB.sl.v5339 kernelRunB.sl.H13_62
  rw [View.readCov_cons_toLoadRect]
  refine Eq.trans ?_ (rowsOf_logp c tbl i sim x2 x3 (accOf c a12 a13 a14 a15 a16 a17) 61 (by decide)).symm
  unfold kernelRunB.sl.r_574 kernelRunB.sl.r_577
  simp only [W_r_573 c i tbl, V13_61 c i M2 hM2 M3 hM3 tbl hT sim x2 x3 b9 b10 a12 a13 a14 a15 a16 a17, in_read M2 hM2 x2 61 (by decide), mk_read M3 hM3 x3 61 (by decide)]
  try rfl
theorem V14_62 : kernelRunB.sl.v5345 c i M3 hM3 tbl hT sim x3 b9 b10 a14 = (rowsOf c tbl i sim x2 x3 (accOf c a12 a13 a14 a15 a16 a17) 62).w := by
  unfold kernelRunB.sl.v5345 kernelRunB.sl.H14_62
  rw [View.readCov_cons_toLoadRect]
  refine Eq.trans ?_ (rowsOf_w c tbl i sim x2 x3 (accOf c a12 a13 a14 a15 a16 a17) 61 (by decide)).symm
  unfold kernelRunB.sl.r_575
  simp only [S_v5204 c i tbl hT sim b10, V14_61 c i M2 hM2 M3 hM3 tbl hT sim x2 x3 b9 b10 a12 a13 a14 a15 a16 a17, mk_read M3 hM3 x3 61 (by decide)]
  try rfl
theorem V12_63 : kernelRunB.sl.v5413 c M3 hM3 x3 a12 = (rowsOf c tbl i sim x2 x3 (accOf c a12 a13 a14 a15 a16 a17) 63).m := by
  unfold kernelRunB.sl.v5413 kernelRunB.sl.H12_63
  rw [View.readCov_cons_toLoadRect]
  refine Eq.trans ?_ (rowsOf_m c tbl i sim x2 x3 (accOf c a12 a13 a14 a15 a16 a17) 62 (by decide)).symm
  unfold kernelRunB.sl.r_584
  simp only [V12_62 c i M2 hM2 M3 hM3 tbl hT sim x2 x3 b9 b10 a12 a13 a14 a15 a16 a17, mk_read M3 hM3 x3 62 (by decide)]
  try rfl
theorem V13_63 : kernelRunB.sl.v5418 c i M2 hM2 M3 hM3 tbl x2 x3 a13 = (rowsOf c tbl i sim x2 x3 (accOf c a12 a13 a14 a15 a16 a17) 63).logp := by
  unfold kernelRunB.sl.v5418 kernelRunB.sl.H13_63
  rw [View.readCov_cons_toLoadRect]
  refine Eq.trans ?_ (rowsOf_logp c tbl i sim x2 x3 (accOf c a12 a13 a14 a15 a16 a17) 62 (by decide)).symm
  unfold kernelRunB.sl.r_583 kernelRunB.sl.r_584
  simp only [W_r_582 c i tbl, V13_62 c i M2 hM2 M3 hM3 tbl hT sim x2 x3 b9 b10 a12 a13 a14 a15 a16 a17, in_read M2 hM2 x2 62 (by decide), mk_read M3 hM3 x3 62 (by decide)]
  try rfl
theorem V14_63 : kernelRunB.sl.v5424 c i M3 hM3 tbl hT sim x3 b9 b10 a14 = (rowsOf c tbl i sim x2 x3 (accOf c a12 a13 a14 a15 a16 a17) 63).w := by
  unfold kernelRunB.sl.v5424 kernelRunB.sl.H14_63
  rw [View.readCov_cons_toLoadRect]
  refine Eq.trans ?_ (rowsOf_w c tbl i sim x2 x3 (accOf c a12 a13 a14 a15 a16 a17) 62 (by decide)).symm
  unfold kernelRunB.sl.r_587
  simp only [S_v5289 c i tbl hT sim b9, V14_62 c i M2 hM2 M3 hM3 tbl hT sim x2 x3 b9 b10 a12 a13 a14 a15 a16 a17, mk_read M3 hM3 x3 62 (by decide)]
  try rfl
theorem L12_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : ¬ C2 i) : (kernelRunB c i M2 hM2 M3 hM3 M5 hM5 M6 hM6 M7 hM7 M8 hM8 tbl hT sim x2 x3 b9 b10 a12 a13 a14 a15 a16 a17 h1 h2).1 = ⟨Rect.unit ![0, 0] S1x1.size inb_S1x1_S1x1_0_0, k0_pay964 (kernelRunB.sl.r_593 c M3 hM3 x3) (kernelRunB.sl.v5413 c M3 hM3 x3 a12)⟩ :: kernelRunB.sl.H12_63 c M3 hM3 x3 a12 := rfl
theorem V12_64 : View.readAt (Elt F) (Memref.whole cc0_scratch3).view (Rect.unit ![0, 0] S1x1.size inb_S1x1_S1x1_0_0).toLoadRect ((Memref.whole cc0_scratch3).view.writes (Elt F) a12 (⟨Rect.unit ![0, 0] S1x1.size inb_S1x1_S1x1_0_0, k0_pay964 (kernelRunB.sl.r_593 c M3 hM3 x3) (kernelRunB.sl.v5413 c M3 hM3 x3 a12)⟩ :: kernelRunB.sl.H12_63 c M3 hM3 x3 a12)) = (rowsOf c tbl i sim x2 x3 (accOf c a12 a13 a14 a15 a16 a17) 64).m := by
  rw [read_last_write]
  refine Eq.trans ?_ (rowsOf_m c tbl i sim x2 x3 (accOf c a12 a13 a14 a15 a16 a17) 63 (by decide)).symm
  unfold kernelRunB.sl.r_593
  simp only [V12_63 c i M2 hM2 M3 hM3 tbl hT sim x2 x3 b9 b10 a12 a13 a14 a15 a16 a17, mk_read M3 hM3 x3 63 (by decide)]
  try rfl
theorem L13_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : ¬ C2 i) : (kernelRunB c i M2 hM2 M3 hM3 M5 hM5 M6 hM6 M7 hM7 M8 hM8 tbl hT sim x2 x3 b9 b10 a12 a13 a14 a15 a16 a17 h1 h2).2.1 = ⟨Rect.unit ![0, 0] S1x1.size inb_S1x1_S1x1_0_0, k0_pay965 (kernelRunB.sl.r_592 c M2 hM2 x2) (kernelRunB.sl.r_593 c M3 hM3 x3) (kernelRunB.sl.r_591 c i tbl) (kernelRunB.sl.v5418 c i M2 hM2 M3 hM3 tbl x2 x3 a13)⟩ :: kernelRunB.sl.H13_63 c i M2 hM2 M3 hM3 tbl x2 x3 a13 := rfl
theorem V13_64 : View.readAt (Elt F) (Memref.whole cc0_scratch4).view (Rect.unit ![0, 0] S1x1.size inb_S1x1_S1x1_0_0).toLoadRect ((Memref.whole cc0_scratch4).view.writes (Elt F) a13 (⟨Rect.unit ![0, 0] S1x1.size inb_S1x1_S1x1_0_0, k0_pay965 (kernelRunB.sl.r_592 c M2 hM2 x2) (kernelRunB.sl.r_593 c M3 hM3 x3) (kernelRunB.sl.r_591 c i tbl) (kernelRunB.sl.v5418 c i M2 hM2 M3 hM3 tbl x2 x3 a13)⟩ :: kernelRunB.sl.H13_63 c i M2 hM2 M3 hM3 tbl x2 x3 a13)) = (rowsOf c tbl i sim x2 x3 (accOf c a12 a13 a14 a15 a16 a17) 64).logp := by
  rw [read_last_write]
  refine Eq.trans ?_ (rowsOf_logp c tbl i sim x2 x3 (accOf c a12 a13 a14 a15 a16 a17) 63 (by decide)).symm
  unfold kernelRunB.sl.r_592 kernelRunB.sl.r_593
  simp only [W_r_591 c i tbl, V13_63 c i M2 hM2 M3 hM3 tbl hT sim x2 x3 b9 b10 a12 a13 a14 a15 a16 a17, in_read M2 hM2 x2 63 (by decide), mk_read M3 hM3 x3 63 (by decide)]
  try rfl
theorem L14_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : ¬ C2 i) : (kernelRunB c i M2 hM2 M3 hM3 M5 hM5 M6 hM6 M7 hM7 M8 hM8 tbl hT sim x2 x3 b9 b10 a12 a13 a14 a15 a16 a17 h1 h2).2.2.1 = ⟨Rect.unit ![0, 0] S1x1.size inb_S1x1_S1x1_0_0, k0_pay967 (kernelRunB.sl.r_599 c i M3 hM3 tbl hT sim x3 b9 b10 a14)⟩ :: kernelRunB.sl.H14_63 c i M3 hM3 tbl hT sim x3 b9 b10 a14 := rfl
theorem V14_64 : View.readAt (Elt F) (Memref.whole cc0_scratch5).view (Rect.unit ![0, 0] S1x1.size inb_S1x1_S1x1_0_0).toLoadRect ((Memref.whole cc0_scratch5).view.writes (Elt F) a14 (⟨Rect.unit ![0, 0] S1x1.size inb_S1x1_S1x1_0_0, k0_pay967 (kernelRunB.sl.r_599 c i M3 hM3 tbl hT sim x3 b9 b10 a14)⟩ :: kernelRunB.sl.H14_63 c i M3 hM3 tbl hT sim x3 b9 b10 a14)) = (rowsOf c tbl i sim x2 x3 (accOf c a12 a13 a14 a15 a16 a17) 64).w := by
  rw [read_last_write]
  refine Eq.trans ?_ (rowsOf_w c tbl i sim x2 x3 (accOf c a12 a13 a14 a15 a16 a17) 63 (by decide)).symm
  unfold kernelRunB.sl.r_599 kernelRunB.sl.r_593 kernelRunB.sl.r_594 kernelRunB.sl.r_595
  simp only [S_v5368 c i tbl hT sim b10, V14_63 c i M2 hM2 M3 hM3 tbl hT sim x2 x3 b9 b10 a12 a13 a14 a15 a16 a17, mk_read M3 hM3 x3 63 (by decide)]
  try rfl
end TabB

end Cert.Proof.K

end
-- ==== Proof.KStepBTabV2.lean ====
import proofs.«419560_j5755256177164_3_alg».proof.Proof.KStepBTabW

/-!
  The table of case B: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.K

open Cert.Kernel Cert.Kernel.Gen
open Idealize.ShloMosaic Idealize.ShloMosaic.TcCoe
open Idealize.SL Idealize.SL.Sem

variable {F : FTy → Type} [FloatOps F]

namespace TabB

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

include c i M2 hM2 M3 hM3 tbl hT sim x2 x3 b9 b10 a12 a13 a14 a15 a16 a17

theorem V15_1 : kernelRunB.sl.v165 c i M2 hM2 M3 hM3 tbl hT sim x2 x3 b9 a15 = (rowsOf c tbl i sim x2 x3 (accOf c a12 a13 a14 a15 a16 a17) 1).nf := by
  unfold kernelRunB.sl.v165 kernelRunB.sl.H15_1
  rw [View.readCov_cons_toLoadRect]
  refine Eq.trans ?_ (rowsOf_nf c tbl i sim x2 x3 (accOf c a12 a13 a14 a15 a16 a17) 0 (by decide)).symm
  unfold kernelRunB.sl.r_7 kernelRunB.sl.r_3 kernelRunB.sl.r_4 kernelRunB.sl.r_5 kernelRunB.sl.cst_15
  simp only [S_v19 c i tbl hT sim b9, in_read M2 hM2 x2 0 (by decide), mk_read M3 hM3 x3 0 (by decide)]
  try rfl
theorem V16_1 : kernelRunB.sl.v170 c i tbl hT sim b9 a16 = (rowsOf c tbl i sim x2 x3 (accOf c a12 a13 a14 a15 a16 a17) 1).s := by
  unfold kernelRunB.sl.v170 kernelRunB.sl.H16_1
  rw [View.readCov_cons_toLoadRect]
  refine Eq.trans ?_ (rowsOf_s c tbl i sim x2 x3 (accOf c a12 a13 a14 a15 a16 a17) 0 (by decide)).symm
  unfold kernelRunB.sl.r_8 kernelRunB.sl.r_5 kernelRunB.sl.cst_15
  simp only [S_v19 c i tbl hT sim b9]
  try rfl
theorem V17_1 : kernelRunB.sl.v175 c i tbl hT sim b9 a17 = (rowsOf c tbl i sim x2 x3 (accOf c a12 a13 a14 a15 a16 a17) 1).q := by
  unfold kernelRunB.sl.v175 kernelRunB.sl.H17_1
  rw [View.readCov_cons_toLoadRect]
  refine Eq.trans ?_ (rowsOf_q c tbl i sim x2 x3 (accOf c a12 a13 a14 a15 a16 a17) 0 (by decide)).symm
  unfold kernelRunB.sl.r_9 kernelRunB.sl.r_5 kernelRunB.sl.cst_15
  simp only [S_v19 c i tbl hT sim b9]
  try rfl
theorem V15_2 : kernelRunB.sl.v250 c i M2 hM2 M3 hM3 tbl hT sim x2 x3 b9 b10 a15 = (rowsOf c tbl i sim x2 x3 (accOf c a12 a13 a14 a15 a16 a17) 2).nf := by
  unfold kernelRunB.sl.v250 kernelRunB.sl.H15_2
  rw [View.readCov_cons_toLoadRect]
  refine Eq.trans ?_ (rowsOf_nf c tbl i sim x2 x3 (accOf c a12 a13 a14 a15 a16 a17) 1 (by decide)).symm
  unfold kernelRunB.sl.r_15
  simp only [S_v104 c i tbl hT sim b10, V15_1 c i M2 hM2 M3 hM3 tbl hT sim x2 x3 b9 b10 a12 a13 a14 a15 a16 a17, in_read M2 hM2 x2 1 (by decide), mk_read M3 hM3 x3 1 (by decide)]
  try rfl
theorem V16_2 : kernelRunB.sl.v255 c i tbl hT sim b9 b10 a16 = (rowsOf c tbl i sim x2 x3 (accOf c a12 a13 a14 a15 a16 a17) 2).s := by
  unfold kernelRunB.sl.v255 kernelRunB.sl.H16_2
  rw [View.readCov_cons_toLoadRect]
  refine Eq.trans ?_ (rowsOf_s c tbl i sim x2 x3 (accOf c a12 a13 a14 a15 a16 a17) 1 (by decide)).symm
  unfold kernelRunB.sl.r_17
  simp only [S_v104 c i tbl hT sim b10, V16_1 c i M2 hM2 M3 hM3 tbl hT sim x2 x3 b9 b10 a12 a13 a14 a15 a16 a17]
  try rfl
theorem V17_2 : kernelRunB.sl.v260 c i tbl hT sim b9 b10 a17 = (rowsOf c tbl i sim x2 x3 (accOf c a12 a13 a14 a15 a16 a17) 2).q := by
  unfold kernelRunB.sl.v260 kernelRunB.sl.H17_2
  rw [View.readCov_cons_toLoadRect]
  refine Eq.trans ?_ (rowsOf_q c tbl i sim x2 x3 (accOf c a12 a13 a14 a15 a16 a17) 1 (by decide)).symm
  unfold kernelRunB.sl.r_19 kernelRunB.sl.r_18
  simp only [S_v104 c i tbl hT sim b10, V17_1 c i M2 hM2 M3 hM3 tbl hT sim x2 x3 b9 b10 a12 a13 a14 a15 a16 a17]
  try rfl
theorem V15_3 : kernelRunB.sl.v335 c i M2 hM2 M3 hM3 tbl hT sim x2 x3 b9 b10 a15 = (rowsOf c tbl i sim x2 x3 (accOf c a12 a13 a14 a15 a16 a17) 3).nf := by
  unfold kernelRunB.sl.v335 kernelRunB.sl.H15_3
  rw [View.readCov_cons_toLoadRect]
  refine Eq.trans ?_ (rowsOf_nf c tbl i sim x2 x3 (accOf c a12 a13 a14 a15 a16 a17) 2 (by decide)).symm
  unfold kernelRunB.sl.r_29 kernelRunB.sl.r_22 kernelRunB.sl.r_25 kernelRunB.sl.cst_109
  simp only [S_v189 c i tbl hT sim b9, V15_2 c i M2 hM2 M3 hM3 tbl hT sim x2 x3 b9 b10 a12 a13 a14 a15 a16 a17, in_read M2 hM2 x2 2 (by decide), mk_read M3 hM3 x3 2 (by decide)]
  try rfl
theorem V16_3 : kernelRunB.sl.v340 c i tbl hT sim b9 b10 a16 = (rowsOf c tbl i sim x2 x3 (accOf c a12 a13 a14 a15 a16 a17) 3).s := by
  unfold kernelRunB.sl.v340 kernelRunB.sl.H16_3
  rw [View.readCov_cons_toLoadRect]
  refine Eq.trans ?_ (rowsOf_s c tbl i sim x2 x3 (accOf c a12 a13 a14 a15 a16 a17) 2 (by decide)).symm
  unfold kernelRunB.sl.r_27 kernelRunB.sl.r_24
  simp only [S_v189 c i tbl hT sim b9, V16_2 c i M2 hM2 M3 hM3 tbl hT sim x2 x3 b9 b10 a12 a13 a14 a15 a16 a17]
  try rfl
theorem V17_3 : kernelRunB.sl.v345 c i tbl hT sim b9 b10 a17 = (rowsOf c tbl i sim x2 x3 (accOf c a12 a13 a14 a15 a16 a17) 3).q := by
  unfold kernelRunB.sl.v345 kernelRunB.sl.H17_3
  rw [View.readCov_cons_toLoadRect]
  refine Eq.trans ?_ (rowsOf_q c tbl i sim x2 x3 (accOf c a12 a13 a14 a15 a16 a17) 2 (by decide)).symm
  unfold kernelRunB.sl.r_28 kernelRunB.sl.r_24
  simp only [S_v189 c i tbl hT sim b9, V17_2 c i M2 hM2 M3 hM3 tbl hT sim x2 x3 b9 b10 a12 a13 a14 a15 a16 a17]
  try rfl
theorem V15_4 : kernelRunB.sl.v420 c i M2 hM2 M3 hM3 tbl hT sim x2 x3 b9 b10 a15 = (rowsOf c tbl i sim x2 x3 (accOf c a12 a13 a14 a15 a16 a17) 4).nf := by
  unfold kernelRunB.sl.v420 kernelRunB.sl.H15_4
  rw [View.readCov_cons_toLoadRect]
  refine Eq.trans ?_ (rowsOf_nf c tbl i sim x2 x3 (accOf c a12 a13 a14 a15 a16 a17) 3 (by decide)).symm
  unfold kernelRunB.sl.r_36 kernelRunB.sl.r_32 kernelRunB.sl.r_33 kernelRunB.sl.r_34
  simp only [S_v274 c i tbl hT sim b10, V15_3 c i M2 hM2 M3 hM3 tbl hT sim x2 x3 b9 b10 a12 a13 a14 a15 a16 a17, in_read M2 hM2 x2 3 (by decide), mk_read M3 hM3 x3 3 (by decide)]
  try rfl
theorem V16_4 : kernelRunB.sl.v425 c i tbl hT sim b9 b10 a16 = (rowsOf c tbl i sim x2 x3 (accOf c a12 a13 a14 a15 a16 a17) 4).s := by
  unfold kernelRunB.sl.v425 kernelRunB.sl.H16_4
  rw [View.readCov_cons_toLoadRect]
  refine Eq.trans ?_ (rowsOf_s c tbl i sim x2 x3 (accOf c a12 a13 a14 a15 a16 a17) 3 (by decide)).symm
  unfold kernelRunB.sl.r_37 kernelRunB.sl.r_34
  simp only [S_v274 c i tbl hT sim b10, V16_3 c i M2 hM2 M3 hM3 tbl hT sim x2 x3 b9 b10 a12 a13 a14 a15 a16 a17]
  try rfl
theorem V17_4 : kernelRunB.sl.v430 c i tbl hT sim b9 b10 a17 = (rowsOf c tbl i sim x2 x3 (accOf c a12 a13 a14 a15 a16 a17) 4).q := by
  unfold kernelRunB.sl.v430 kernelRunB.sl.H17_4
  rw [View.readCov_cons_toLoadRect]
  refine Eq.trans ?_ (rowsOf_q c tbl i sim x2 x3 (accOf c a12 a13 a14 a15 a16 a17) 3 (by decide)).symm
  unfold kernelRunB.sl.r_38 kernelRunB.sl.r_34
  simp only [S_v274 c i tbl hT sim b10, V17_3 c i M2 hM2 M3 hM3 tbl hT sim x2 x3 b9 b10 a12 a13 a14 a15 a16 a17]
  try rfl
theorem V15_5 : kernelRunB.sl.v505 c i M2 hM2 M3 hM3 tbl hT sim x2 x3 b9 b10 a15 = (rowsOf c tbl i sim x2 x3 (accOf c a12 a13 a14 a15 a16 a17) 5).nf := by
  unfold kernelRunB.sl.v505 kernelRunB.sl.H15_5
  rw [View.readCov_cons_toLoadRect]
  refine Eq.trans ?_ (rowsOf_nf c tbl i sim x2 x3 (accOf c a12 a13 a14 a15 a16 a17) 4 (by decide)).symm
  unfold kernelRunB.sl.r_45
  simp only [S_v359 c i tbl hT sim b9, V15_4 c i M2 hM2 M3 hM3 tbl hT sim x2 x3 b9 b10 a12 a13 a14 a15 a16 a17, in_read M2 hM2 x2 4 (by decide), mk_read M3 hM3 x3 4 (by decide)]
  try rfl
theorem V16_5 : kernelRunB.sl.v510 c i tbl hT sim b9 b10 a16 = (rowsOf c tbl i sim x2 x3 (accOf c a12 a13 a14 a15 a16 a17) 5).s := by
  unfold kernelRunB.sl.v510 kernelRunB.sl.H16_5
  rw [View.readCov_cons_toLoadRect]
  refine Eq.trans ?_ (rowsOf_s c tbl i sim x2 x3 (accOf c a12 a13 a14 a15 a16 a17) 4 (by decide)).symm
  unfold kernelRunB.sl.r_47
  simp only [S_v359 c i tbl hT sim b9, V16_4 c i M2 hM2 M3 hM3 tbl hT sim x2 x3 b9 b10 a12 a13 a14 a15 a16 a17]
  try rfl
theorem V17_5 : kernelRunB.sl.v515 c i tbl hT sim b9 b10 a17 = (rowsOf c tbl i sim x2 x3 (accOf c a12 a13 a14 a15 a16 a17) 5).q := by
  unfold kernelRunB.sl.v515 kernelRunB.sl.H17_5
  rw [View.readCov_cons_toLoadRect]
  refine Eq.trans ?_ (rowsOf_q c tbl i sim x2 x3 (accOf c a12 a13 a14 a15 a16 a17) 4 (by decide)).symm
  unfold kernelRunB.sl.r_48 kernelRunB.sl.r_43
  simp only [S_v359 c i tbl hT sim b9, V17_4 c i M2 hM2 M3 hM3 tbl hT sim x2 x3 b9 b10 a12 a13 a14 a15 a16 a17]
  try rfl
theorem V15_6 : kernelRunB.sl.v590 c i M2 hM2 M3 hM3 tbl hT sim x2 x3 b9 b10 a15 = (rowsOf c tbl i sim x2 x3 (accOf c a12 a13 a14 a15 a16 a17) 6).nf := by
  unfold kernelRunB.sl.v590 kernelRunB.sl.H15_6
  rw [View.readCov_cons_toLoadRect]
  refine Eq.trans ?_ (rowsOf_nf c tbl i sim x2 x3 (accOf c a12 a13 a14 a15 a16 a17) 5 (by decide)).symm
  unfold kernelRunB.sl.r_57 kernelRunB.sl.r_51 kernelRunB.sl.r_54
  simp only [S_v444 c i tbl hT sim b10, V15_5 c i M2 hM2 M3 hM3 tbl hT sim x2 x3 b9 b10 a12 a13 a14 a15 a16 a17, in_read M2 hM2 x2 5 (by decide), mk_read M3 hM3 x3 5 (by decide)]
  try rfl
theorem V16_6 : kernelRunB.sl.v595 c i tbl hT sim b9 b10 a16 = (rowsOf c tbl i sim x2 x3 (accOf c a12 a13 a14 a15 a16 a17) 6).s := by
  unfold kernelRunB.sl.v595 kernelRunB.sl.H16_6
  rw [View.readCov_cons_toLoadRect]
  refine Eq.trans ?_ (rowsOf_s c tbl i sim x2 x3 (accOf c a12 a13 a14 a15 a16 a17) 5 (by decide)).symm
  unfold kernelRunB.sl.r_55 kernelRunB.sl.r_53
  simp only [S_v444 c i tbl hT sim b10, V16_5 c i M2 hM2 M3 hM3 tbl hT sim x2 x3 b9 b10 a12 a13 a14 a15 a16 a17]
  try rfl
theorem V17_6 : kernelRunB.sl.v600 c i tbl hT sim b9 b10 a17 = (rowsOf c tbl i sim x2 x3 (accOf c a12 a13 a14 a15 a16 a17) 6).q := by
  unfold kernelRunB.sl.v600 kernelRunB.sl.H17_6
  rw [View.readCov_cons_toLoadRect]
  refine Eq.trans ?_ (rowsOf_q c tbl i sim x2 x3 (accOf c a12 a13 a14 a15 a16 a17) 5 (by decide)).symm
  unfold kernelRunB.sl.r_56 kernelRunB.sl.r_53
  simp only [S_v444 c i tbl hT sim b10, V17_5 c i M2 hM2 M3 hM3 tbl hT sim x2 x3 b9 b10 a12 a13 a14 a15 a16 a17]
  try rfl
theorem V15_7 : kernelRunB.sl.v675 c i M2 hM2 M3 hM3 tbl hT sim x2 x3 b9 b10 a15 = (rowsOf c tbl i sim x2 x3 (accOf c a12 a13 a14 a15 a16 a17) 7).nf := by
  unfold kernelRunB.sl.v675 kernelRunB.sl.H15_7
  rw [View.readCov_cons_toLoadRect]
  refine Eq.trans ?_ (rowsOf_nf c tbl i sim x2 x3 (accOf c a12 a13 a14 a15 a16 a17) 6 (by decide)).symm
  unfold kernelRunB.sl.r_63 kernelRunB.sl.r_60 kernelRunB.sl.r_61 kernelRunB.sl.cst_284
  simp only [S_v529 c i tbl hT sim b9, V15_6 c i M2 hM2 M3 hM3 tbl hT sim x2 x3 b9 b10 a12 a13 a14 a15 a16 a17, in_read M2 hM2 x2 6 (by decide), mk_read M3 hM3 x3 6 (by decide)]
  try rfl
theorem V16_7 : kernelRunB.sl.v680 c i tbl hT sim b9 b10 a16 = (rowsOf c tbl i sim x2 x3 (accOf c a12 a13 a14 a15 a16 a17) 7).s := by
  unfold kernelRunB.sl.v680 kernelRunB.sl.H16_7
  rw [View.readCov_cons_toLoadRect]
  refine Eq.trans ?_ (rowsOf_s c tbl i sim x2 x3 (accOf c a12 a13 a14 a15 a16 a17) 6 (by decide)).symm
  unfold kernelRunB.sl.r_64 kernelRunB.sl.cst_284
  simp only [S_v529 c i tbl hT sim b9, V16_6 c i M2 hM2 M3 hM3 tbl hT sim x2 x3 b9 b10 a12 a13 a14 a15 a16 a17]
  try rfl
theorem V17_7 : kernelRunB.sl.v685 c i tbl hT sim b9 b10 a17 = (rowsOf c tbl i sim x2 x3 (accOf c a12 a13 a14 a15 a16 a17) 7).q := by
  unfold kernelRunB.sl.v685 kernelRunB.sl.H17_7
  rw [View.readCov_cons_toLoadRect]
  refine Eq.trans ?_ (rowsOf_q c tbl i sim x2 x3 (accOf c a12 a13 a14 a15 a16 a17) 6 (by decide)).symm
  unfold kernelRunB.sl.r_65 kernelRunB.sl.cst_284
  simp only [S_v529 c i tbl hT sim b9, V17_6 c i M2 hM2 M3 hM3 tbl hT sim x2 x3 b9 b10 a12 a13 a14 a15 a16 a17]
  try rfl
theorem V15_8 : kernelRunB.sl.v760 c i M2 hM2 M3 hM3 tbl hT sim x2 x3 b9 b10 a15 = (rowsOf c tbl i sim x2 x3 (accOf c a12 a13 a14 a15 a16 a17) 8).nf := by
  unfold kernelRunB.sl.v760 kernelRunB.sl.H15_8
  rw [View.readCov_cons_toLoadRect]
  refine Eq.trans ?_ (rowsOf_nf c tbl i sim x2 x3 (accOf c a12 a13 a14 a15 a16 a17) 7 (by decide)).symm
  unfold kernelRunB.sl.r_72
  simp only [S_v614 c i tbl hT sim b10, V15_7 c i M2 hM2 M3 hM3 tbl hT sim x2 x3 b9 b10 a12 a13 a14 a15 a16 a17, in_read M2 hM2 x2 7 (by decide), mk_read M3 hM3 x3 7 (by decide)]
  try rfl
theorem V16_8 : kernelRunB.sl.v765 c i tbl hT sim b9 b10 a16 = (rowsOf c tbl i sim x2 x3 (accOf c a12 a13 a14 a15 a16 a17) 8).s := by
  unfold kernelRunB.sl.v765 kernelRunB.sl.H16_8
  rw [View.readCov_cons_toLoadRect]
  refine Eq.trans ?_ (rowsOf_s c tbl i sim x2 x3 (accOf c a12 a13 a14 a15 a16 a17) 7 (by decide)).symm
  unfold kernelRunB.sl.r_70
  simp only [S_v614 c i tbl hT sim b10, V16_7 c i M2 hM2 M3 hM3 tbl hT sim x2 x3 b9 b10 a12 a13 a14 a15 a16 a17]
  try rfl
theorem V17_8 : kernelRunB.sl.v770 c i tbl hT sim b9 b10 a17 = (rowsOf c tbl i sim x2 x3 (accOf c a12 a13 a14 a15 a16 a17) 8).q := by
  unfold kernelRunB.sl.v770 kernelRunB.sl.H17_8
  rw [View.readCov_cons_toLoadRect]
  refine Eq.trans ?_ (rowsOf_q c tbl i sim x2 x3 (accOf c a12 a13 a14 a15 a16 a17) 7 (by decide)).symm
  unfold kernelRunB.sl.r_74 kernelRunB.sl.r_70
  simp only [S_v614 c i tbl hT sim b10, V17_7 c i M2 hM2 M3 hM3 tbl hT sim x2 x3 b9 b10 a12 a13 a14 a15 a16 a17]
  try rfl
theorem V15_9 : kernelRunB.sl.v845 c i M2 hM2 M3 hM3 tbl hT sim x2 x3 b9 b10 a15 = (rowsOf c tbl i sim x2 x3 (accOf c a12 a13 a14 a15 a16 a17) 9).nf := by
  unfold kernelRunB.sl.v845 kernelRunB.sl.H15_9
  rw [View.readCov_cons_toLoadRect]
  refine Eq.trans ?_ (rowsOf_nf c tbl i sim x2 x3 (accOf c a12 a13 a14 a15 a16 a17) 8 (by decide)).symm
  unfold kernelRunB.sl.r_80 kernelRunB.sl.r_77 kernelRunB.sl.r_78 kernelRunB.sl.r_79
  simp only [S_v699 c i tbl hT sim b9, V15_8 c i M2 hM2 M3 hM3 tbl hT sim x2 x3 b9 b10 a12 a13 a14 a15 a16 a17, in_read M2 hM2 x2 8 (by decide), mk_read M3 hM3 x3 8 (by decide)]
  try rfl
theorem V16_9 : kernelRunB.sl.v850 c i tbl hT sim b9 b10 a16 = (rowsOf c tbl i sim x2 x3 (accOf c a12 a13 a14 a15 a16 a17) 9).s := by
  unfold kernelRunB.sl.v850 kernelRunB.sl.H16_9
  rw [View.readCov_cons_toLoadRect]
  refine Eq.trans ?_ (rowsOf_s c tbl i sim x2 x3 (accOf c a12 a13 a14 a15 a16 a17) 8 (by decide)).symm
  unfold kernelRunB.sl.r_81 kernelRunB.sl.r_79
  simp only [S_v699 c i tbl hT sim b9, V16_8 c i M2 hM2 M3 hM3 tbl hT sim x2 x3 b9 b10 a12 a13 a14 a15 a16 a17]
  try rfl
theorem V17_9 : kernelRunB.sl.v855 c i tbl hT sim b9 b10 a17 = (rowsOf c tbl i sim x2 x3 (accOf c a12 a13 a14 a15 a16 a17) 9).q := by
  unfold kernelRunB.sl.v855 kernelRunB.sl.H17_9
  rw [View.readCov_cons_toLoadRect]
  refine Eq.trans ?_ (rowsOf_q c tbl i sim x2 x3 (accOf c a12 a13 a14 a15 a16 a17) 8 (by decide)).symm
  unfold kernelRunB.sl.r_82 kernelRunB.sl.r_79
  simp only [S_v699 c i tbl hT sim b9, V17_8 c i M2 hM2 M3 hM3 tbl hT sim x2 x3 b9 b10 a12 a13 a14 a15 a16 a17]
  try rfl
theorem V15_10 : kernelRunB.sl.v930 c i M2 hM2 M3 hM3 tbl hT sim x2 x3 b9 b10 a15 = (rowsOf c tbl i sim x2 x3 (accOf c a12 a13 a14 a15 a16 a17) 10).nf := by
  unfold kernelRunB.sl.v930 kernelRunB.sl.H15_10
  rw [View.readCov_cons_toLoadRect]
  refine Eq.trans ?_ (rowsOf_nf c tbl i sim x2 x3 (accOf c a12 a13 a14 a15 a16 a17) 9 (by decide)).symm
  unfold kernelRunB.sl.r_88 kernelRunB.sl.r_84 kernelRunB.sl.r_85
  simp only [S_v784 c i tbl hT sim b10, V15_9 c i M2 hM2 M3 hM3 tbl hT sim x2 x3 b9 b10 a12 a13 a14 a15 a16 a17, in_read M2 hM2 x2 9 (by decide), mk_read M3 hM3 x3 9 (by decide)]
  try rfl
theorem V16_10 : kernelRunB.sl.v935 c i tbl hT sim b9 b10 a16 = (rowsOf c tbl i sim x2 x3 (accOf c a12 a13 a14 a15 a16 a17) 10).s := by
  unfold kernelRunB.sl.v935 kernelRunB.sl.H16_10
  rw [View.readCov_cons_toLoadRect]
  refine Eq.trans ?_ (rowsOf_s c tbl i sim x2 x3 (accOf c a12 a13 a14 a15 a16 a17) 9 (by decide)).symm
  unfold kernelRunB.sl.r_90
  simp only [S_v784 c i tbl hT sim b10, V16_9 c i M2 hM2 M3 hM3 tbl hT sim x2 x3 b9 b10 a12 a13 a14 a15 a16 a17]
  try rfl
theorem V17_10 : kernelRunB.sl.v940 c i tbl hT sim b9 b10 a17 = (rowsOf c tbl i sim x2 x3 (accOf c a12 a13 a14 a15 a16 a17) 10).q := by
  unfold kernelRunB.sl.v940 kernelRunB.sl.H17_10
  rw [View.readCov_cons_toLoadRect]
  refine Eq.trans ?_ (rowsOf_q c tbl i sim x2 x3 (accOf c a12 a13 a14 a15 a16 a17) 9 (by decide)).symm
  unfold kernelRunB.sl.r_91
  simp only [S_v784 c i tbl hT sim b10, V17_9 c i M2 hM2 M3 hM3 tbl hT sim x2 x3 b9 b10 a12 a13 a14 a15 a16 a17]
  try rfl
theorem V15_11 : kernelRunB.sl.v1015 c i M2 hM2 M3 hM3 tbl hT sim x2 x3 b9 b10 a15 = (rowsOf c tbl i sim x2 x3 (accOf c a12 a13 a14 a15 a16 a17) 11).nf := by
  unfold kernelRunB.sl.v1015 kernelRunB.sl.H15_11
  rw [View.readCov_cons_toLoadRect]
  refine Eq.trans ?_ (rowsOf_nf c tbl i sim x2 x3 (accOf c a12 a13 a14 a15 a16 a17) 10 (by decide)).symm
  unfold kernelRunB.sl.r_97
  simp only [S_v869 c i tbl hT sim b9, V15_10 c i M2 hM2 M3 hM3 tbl hT sim x2 x3 b9 b10 a12 a13 a14 a15 a16 a17, in_read M2 hM2 x2 10 (by decide), mk_read M3 hM3 x3 10 (by decide)]
  try rfl
theorem V16_11 : kernelRunB.sl.v1020 c i tbl hT sim b9 b10 a16 = (rowsOf c tbl i sim x2 x3 (accOf c a12 a13 a14 a15 a16 a17) 11).s := by
  unfold kernelRunB.sl.v1020 kernelRunB.sl.H16_11
  rw [View.readCov_cons_toLoadRect]
  refine Eq.trans ?_ (rowsOf_s c tbl i sim x2 x3 (accOf c a12 a13 a14 a15 a16 a17) 10 (by decide)).symm
  unfold kernelRunB.sl.r_100 kernelRunB.sl.r_95
  simp only [S_v869 c i tbl hT sim b9, V16_10 c i M2 hM2 M3 hM3 tbl hT sim x2 x3 b9 b10 a12 a13 a14 a15 a16 a17]
  try rfl
theorem V17_11 : kernelRunB.sl.v1025 c i tbl hT sim b9 b10 a17 = (rowsOf c tbl i sim x2 x3 (accOf c a12 a13 a14 a15 a16 a17) 11).q := by
  unfold kernelRunB.sl.v1025 kernelRunB.sl.H17_11
  rw [View.readCov_cons_toLoadRect]
  refine Eq.trans ?_ (rowsOf_q c tbl i sim x2 x3 (accOf c a12 a13 a14 a15 a16 a17) 10 (by decide)).symm
  unfold kernelRunB.sl.r_99 kernelRunB.sl.r_95
  simp only [S_v869 c i tbl hT sim b9, V17_10 c i M2 hM2 M3 hM3 tbl hT sim x2 x3 b9 b10 a12 a13 a14 a15 a16 a17]
  try rfl
theorem V15_12 : kernelRunB.sl.v1100 c i M2 hM2 M3 hM3 tbl hT sim x2 x3 b9 b10 a15 = (rowsOf c tbl i sim x2 x3 (accOf c a12 a13 a14 a15 a16 a17) 12).nf := by
  unfold kernelRunB.sl.v1100 kernelRunB.sl.H15_12
  rw [View.readCov_cons_toLoadRect]
  refine Eq.trans ?_ (rowsOf_nf c tbl i sim x2 x3 (accOf c a12 a13 a14 a15 a16 a17) 11 (by decide)).symm
  unfold kernelRunB.sl.r_107 kernelRunB.sl.r_103 kernelRunB.sl.r_104 kernelRunB.sl.r_105 kernelRunB.sl.r_106
  simp only [V15_11 c i M2 hM2 M3 hM3 tbl hT sim x2 x3 b9 b10 a12 a13 a14 a15 a16 a17, S_v954 c i tbl hT sim b10, in_read M2 hM2 x2 11 (by decide), mk_read M3 hM3 x3 11 (by decide)]
  try rfl
theorem V16_12 : kernelRunB.sl.v1105 c i tbl hT sim b9 b10 a16 = (rowsOf c tbl i sim x2 x3 (accOf c a12 a13 a14 a15 a16 a17) 12).s := by
  unfold kernelRunB.sl.v1105 kernelRunB.sl.H16_12
  rw [View.readCov_cons_toLoadRect]
  refine Eq.trans ?_ (rowsOf_s c tbl i sim x2 x3 (accOf c a12 a13 a14 a15 a16 a17) 11 (by decide)).symm
  unfold kernelRunB.sl.r_108 kernelRunB.sl.r_105 kernelRunB.sl.r_106
  simp only [V16_11 c i M2 hM2 M3 hM3 tbl hT sim x2 x3 b9 b10 a12 a13 a14 a15 a16 a17, S_v954 c i tbl hT sim b10]
  try rfl
theorem V17_12 : kernelRunB.sl.v1110 c i tbl hT sim b9 b10 a17 = (rowsOf c tbl i sim x2 x3 (accOf c a12 a13 a14 a15 a16 a17) 12).q := by
  unfold kernelRunB.sl.v1110 kernelRunB.sl.H17_12
  rw [View.readCov_cons_toLoadRect]
  refine Eq.trans ?_ (rowsOf_q c tbl i sim x2 x3 (accOf c a12 a13 a14 a15 a16 a17) 11 (by decide)).symm
  unfold kernelRunB.sl.r_109 kernelRunB.sl.r_105 kernelRunB.sl.r_106
  simp only [V17_11 c i M2 hM2 M3 hM3 tbl hT sim x2 x3 b9 b10 a12 a13 a14 a15 a16 a17, S_v954 c i tbl hT sim b10]
  try rfl
theorem V15_13 : kernelRunB.sl.v1185 c i M2 hM2 M3 hM3 tbl hT sim x2 x3 b9 b10 a15 = (rowsOf c tbl i sim x2 x3 (accOf c a12 a13 a14 a15 a16 a17) 13).nf := by
  unfold kernelRunB.sl.v1185 kernelRunB.sl.H15_13
  rw [View.readCov_cons_toLoadRect]
  refine Eq.trans ?_ (rowsOf_nf c tbl i sim x2 x3 (accOf c a12 a13 a14 a15 a16 a17) 12 (by decide)).symm
  unfold kernelRunB.sl.r_117 kernelRunB.sl.r_112 kernelRunB.sl.r_113
  simp only [S_v1039 c i tbl hT sim b9, V15_12 c i M2 hM2 M3 hM3 tbl hT sim x2 x3 b9 b10 a12 a13 a14 a15 a16 a17, in_read M2 hM2 x2 12 (by decide), mk_read M3 hM3 x3 12 (by decide)]
  try rfl
theorem V16_13 : kernelRunB.sl.v1190 c i tbl hT sim b9 b10 a16 = (rowsOf c tbl i sim x2 x3 (accOf c a12 a13 a14 a15 a16 a17) 13).s := by
  unfold kernelRunB.sl.v1190 kernelRunB.sl.H16_13
  rw [View.readCov_cons_toLoadRect]
  refine Eq.trans ?_ (rowsOf_s c tbl i sim x2 x3 (accOf c a12 a13 a14 a15 a16 a17) 12 (by decide)).symm
  unfold kernelRunB.sl.r_119
  simp only [S_v1039 c i tbl hT sim b9, V16_12 c i M2 hM2 M3 hM3 tbl hT sim x2 x3 b9 b10 a12 a13 a14 a15 a16 a17]
  try rfl
theorem V17_13 : kernelRunB.sl.v1195 c i tbl hT sim b9 b10 a17 = (rowsOf c tbl i sim x2 x3 (accOf c a12 a13 a14 a15 a16 a17) 13).q := by
  unfold kernelRunB.sl.v1195 kernelRunB.sl.H17_13
  rw [View.readCov_cons_toLoadRect]
  refine Eq.trans ?_ (rowsOf_q c tbl i sim x2 x3 (accOf c a12 a13 a14 a15 a16 a17) 12 (by decide)).symm
  unfold kernelRunB.sl.r_120
  simp only [S_v1039 c i tbl hT sim b9, V17_12 c i M2 hM2 M3 hM3 tbl hT sim x2 x3 b9 b10 a12 a13 a14 a15 a16 a17]
  try rfl
theorem V15_14 : kernelRunB.sl.v1270 c i M2 hM2 M3 hM3 tbl hT sim x2 x3 b9 b10 a15 = (rowsOf c tbl i sim x2 x3 (accOf c a12 a13 a14 a15 a16 a17) 14).nf := by
  unfold kernelRunB.sl.v1270 kernelRunB.sl.H15_14
  rw [View.readCov_cons_toLoadRect]
  refine Eq.trans ?_ (rowsOf_nf c tbl i sim x2 x3 (accOf c a12 a13 a14 a15 a16 a17) 13 (by decide)).symm
  unfold kernelRunB.sl.r_128
  simp only [S_v1124 c i tbl hT sim b10, V15_13 c i M2 hM2 M3 hM3 tbl hT sim x2 x3 b9 b10 a12 a13 a14 a15 a16 a17, in_read M2 hM2 x2 13 (by decide), mk_read M3 hM3 x3 13 (by decide)]
  try rfl
theorem V16_14 : kernelRunB.sl.v1275 c i tbl hT sim b9 b10 a16 = (rowsOf c tbl i sim x2 x3 (accOf c a12 a13 a14 a15 a16 a17) 14).s := by
  unfold kernelRunB.sl.v1275 kernelRunB.sl.H16_14
  rw [View.readCov_cons_toLoadRect]
  refine Eq.trans ?_ (rowsOf_s c tbl i sim x2 x3 (accOf c a12 a13 a14 a15 a16 a17) 13 (by decide)).symm
  unfold kernelRunB.sl.r_131 kernelRunB.sl.r_126
  simp only [S_v1124 c i tbl hT sim b10, V16_13 c i M2 hM2 M3 hM3 tbl hT sim x2 x3 b9 b10 a12 a13 a14 a15 a16 a17]
  try rfl
theorem V17_14 : kernelRunB.sl.v1280 c i tbl hT sim b9 b10 a17 = (rowsOf c tbl i sim x2 x3 (accOf c a12 a13 a14 a15 a16 a17) 14).q := by
  unfold kernelRunB.sl.v1280 kernelRunB.sl.H17_14
  rw [View.readCov_cons_toLoadRect]
  refine Eq.trans ?_ (rowsOf_q c tbl i sim x2 x3 (accOf c a12 a13 a14 a15 a16 a17) 13 (by decide)).symm
  unfold kernelRunB.sl.r_130 kernelRunB.sl.r_126
  simp only [S_v1124 c i tbl hT sim b10, V17_13 c i M2 hM2 M3 hM3 tbl hT sim x2 x3 b9 b10 a12 a13 a14 a15 a16 a17]
  try rfl
theorem V15_15 : kernelRunB.sl.v1355 c i M2 hM2 M3 hM3 tbl hT sim x2 x3 b9 b10 a15 = (rowsOf c tbl i sim x2 x3 (accOf c a12 a13 a14 a15 a16 a17) 15).nf := by
  unfold kernelRunB.sl.v1355 kernelRunB.sl.H15_15
  rw [View.readCov_cons_toLoadRect]
  refine Eq.trans ?_ (rowsOf_nf c tbl i sim x2 x3 (accOf c a12 a13 a14 a15 a16 a17) 14 (by decide)).symm
  unfold kernelRunB.sl.r_138 kernelRunB.sl.r_134 kernelRunB.sl.r_135 kernelRunB.sl.r_136 kernelRunB.sl.r_137
  simp only [S_v1209 c i tbl hT sim b9, V15_14 c i M2 hM2 M3 hM3 tbl hT sim x2 x3 b9 b10 a12 a13 a14 a15 a16 a17, in_read M2 hM2 x2 14 (by decide), mk_read M3 hM3 x3 14 (by decide)]
  try rfl
theorem V16_15 : kernelRunB.sl.v1360 c i tbl hT sim b9 b10 a16 = (rowsOf c tbl i sim x2 x3 (accOf c a12 a13 a14 a15 a16 a17) 15).s := by
  unfold kernelRunB.sl.v1360 kernelRunB.sl.H16_15
  rw [View.readCov_cons_toLoadRect]
  refine Eq.trans ?_ (rowsOf_s c tbl i sim x2 x3 (accOf c a12 a13 a14 a15 a16 a17) 14 (by decide)).symm
  unfold kernelRunB.sl.r_139 kernelRunB.sl.r_136 kernelRunB.sl.r_137
  simp only [S_v1209 c i tbl hT sim b9, V16_14 c i M2 hM2 M3 hM3 tbl hT sim x2 x3 b9 b10 a12 a13 a14 a15 a16 a17]
  try rfl
theorem V17_15 : kernelRunB.sl.v1365 c i tbl hT sim b9 b10 a17 = (rowsOf c tbl i sim x2 x3 (accOf c a12 a13 a14 a15 a16 a17) 15).q := by
  unfold kernelRunB.sl.v1365 kernelRunB.sl.H17_15
  rw [View.readCov_cons_toLoadRect]
  refine Eq.trans ?_ (rowsOf_q c tbl i sim x2 x3 (accOf c a12 a13 a14 a15 a16 a17) 14 (by decide)).symm
  unfold kernelRunB.sl.r_140 kernelRunB.sl.r_136 kernelRunB.sl.r_137
  simp only [S_v1209 c i tbl hT sim b9, V17_14 c i M2 hM2 M3 hM3 tbl hT sim x2 x3 b9 b10 a12 a13 a14 a15 a16 a17]
  try rfl
theorem V15_16 : kernelRunB.sl.v1440 c i M2 hM2 M3 hM3 tbl hT sim x2 x3 b9 b10 a15 = (rowsOf c tbl i sim x2 x3 (accOf c a12 a13 a14 a15 a16 a17) 16).nf := by
  unfold kernelRunB.sl.v1440 kernelRunB.sl.H15_16
  rw [View.readCov_cons_toLoadRect]
  refine Eq.trans ?_ (rowsOf_nf c tbl i sim x2 x3 (accOf c a12 a13 a14 a15 a16 a17) 15 (by decide)).symm
  unfold kernelRunB.sl.r_147 kernelRunB.sl.r_143
  simp only [S_v1294 c i tbl hT sim b10, V15_15 c i M2 hM2 M3 hM3 tbl hT sim x2 x3 b9 b10 a12 a13 a14 a15 a16 a17, in_read M2 hM2 x2 15 (by decide), mk_read M3 hM3 x3 15 (by decide)]
  try rfl
theorem V16_16 : kernelRunB.sl.v1445 c i tbl hT sim b9 b10 a16 = (rowsOf c tbl i sim x2 x3 (accOf c a12 a13 a14 a15 a16 a17) 16).s := by
  unfold kernelRunB.sl.v1445 kernelRunB.sl.H16_16
  rw [View.readCov_cons_toLoadRect]
  refine Eq.trans ?_ (rowsOf_s c tbl i sim x2 x3 (accOf c a12 a13 a14 a15 a16 a17) 15 (by decide)).symm
  unfold kernelRunB.sl.r_149
  simp only [S_v1294 c i tbl hT sim b10, V16_15 c i M2 hM2 M3 hM3 tbl hT sim x2 x3 b9 b10 a12 a13 a14 a15 a16 a17]
  try rfl
theorem V17_16 : kernelRunB.sl.v1450 c i tbl hT sim b9 b10 a17 = (rowsOf c tbl i sim x2 x3 (accOf c a12 a13 a14 a15 a16 a17) 16).q := by
  unfold kernelRunB.sl.v1450 kernelRunB.sl.H17_16
  rw [View.readCov_cons_toLoadRect]
  refine Eq.trans ?_ (rowsOf_q c tbl i sim x2 x3 (accOf c a12 a13 a14 a15 a16 a17) 15 (by decide)).symm
  unfold kernelRunB.sl.r_150
  simp only [S_v1294 c i tbl hT sim b10, V17_15 c i M2 hM2 M3 hM3 tbl hT sim x2 x3 b9 b10 a12 a13 a14 a15 a16 a17]
  try rfl
theorem V15_17 : kernelRunB.sl.v1525 c i M2 hM2 M3 hM3 tbl hT sim x2 x3 b9 b10 a15 = (rowsOf c tbl i sim x2 x3 (accOf c a12 a13 a14 a15 a16 a17) 17).nf := by
  unfold kernelRunB.sl.v1525 kernelRunB.sl.H15_17
  rw [View.readCov_cons_toLoadRect]
  refine Eq.trans ?_ (rowsOf_nf c tbl i sim x2 x3 (accOf c a12 a13 a14 a15 a16 a17) 16 (by decide)).symm
  unfold kernelRunB.sl.r_158
  simp only [S_v1379 c i tbl hT sim b9, V15_16 c i M2 hM2 M3 hM3 tbl hT sim x2 x3 b9 b10 a12 a13 a14 a15 a16 a17, in_read M2 hM2 x2 16 (by decide), mk_read M3 hM3 x3 16 (by decide)]
  try rfl
theorem V16_17 : kernelRunB.sl.v1530 c i tbl hT sim b9 b10 a16 = (rowsOf c tbl i sim x2 x3 (accOf c a12 a13 a14 a15 a16 a17) 17).s := by
  unfold kernelRunB.sl.v1530 kernelRunB.sl.H16_17
  rw [View.readCov_cons_toLoadRect]
  refine Eq.trans ?_ (rowsOf_s c tbl i sim x2 x3 (accOf c a12 a13 a14 a15 a16 a17) 16 (by decide)).symm
  unfold kernelRunB.sl.r_159 kernelRunB.sl.r_156
  simp only [S_v1379 c i tbl hT sim b9, V16_16 c i M2 hM2 M3 hM3 tbl hT sim x2 x3 b9 b10 a12 a13 a14 a15 a16 a17]
  try rfl
theorem V17_17 : kernelRunB.sl.v1535 c i tbl hT sim b9 b10 a17 = (rowsOf c tbl i sim x2 x3 (accOf c a12 a13 a14 a15 a16 a17) 17).q := by
  unfold kernelRunB.sl.v1535 kernelRunB.sl.H17_17
  rw [View.readCov_cons_toLoadRect]
  refine Eq.trans ?_ (rowsOf_q c tbl i sim x2 x3 (accOf c a12 a13 a14 a15 a16 a17) 16 (by decide)).symm
  unfold kernelRunB.sl.r_160 kernelRunB.sl.r_156
  simp only [S_v1379 c i tbl hT sim b9, V17_16 c i M2 hM2 M3 hM3 tbl hT sim x2 x3 b9 b10 a12 a13 a14 a15 a16 a17]
  try rfl
theorem V15_18 : kernelRunB.sl.v1610 c i M2 hM2 M3 hM3 tbl hT sim x2 x3 b9 b10 a15 = (rowsOf c tbl i sim x2 x3 (accOf c a12 a13 a14 a15 a16 a17) 18).nf := by
  unfold kernelRunB.sl.v1610 kernelRunB.sl.H15_18
  rw [View.readCov_cons_toLoadRect]
  refine Eq.trans ?_ (rowsOf_nf c tbl i sim x2 x3 (accOf c a12 a13 a14 a15 a16 a17) 17 (by decide)).symm
  unfold kernelRunB.sl.r_168 kernelRunB.sl.r_163 kernelRunB.sl.r_164 kernelRunB.sl.r_165 kernelRunB.sl.r_166 kernelRunB.sl.cst_781
  simp only [S_v1464 c i tbl hT sim b10, V15_17 c i M2 hM2 M3 hM3 tbl hT sim x2 x3 b9 b10 a12 a13 a14 a15 a16 a17, in_read M2 hM2 x2 17 (by decide), mk_read M3 hM3 x3 17 (by decide)]
  try rfl
theorem V16_18 : kernelRunB.sl.v1615 c i tbl hT sim b9 b10 a16 = (rowsOf c tbl i sim x2 x3 (accOf c a12 a13 a14 a15 a16 a17) 18).s := by
  unfold kernelRunB.sl.v1615 kernelRunB.sl.H16_18
  rw [View.readCov_cons_toLoadRect]
  refine Eq.trans ?_ (rowsOf_s c tbl i sim x2 x3 (accOf c a12 a13 a14 a15 a16 a17) 17 (by decide)).symm
  unfold kernelRunB.sl.r_169 kernelRunB.sl.r_165 kernelRunB.sl.r_166 kernelRunB.sl.cst_781
  simp only [S_v1464 c i tbl hT sim b10, V16_17 c i M2 hM2 M3 hM3 tbl hT sim x2 x3 b9 b10 a12 a13 a14 a15 a16 a17]
  try rfl
theorem V17_18 : kernelRunB.sl.v1620 c i tbl hT sim b9 b10 a17 = (rowsOf c tbl i sim x2 x3 (accOf c a12 a13 a14 a15 a16 a17) 18).q := by
  unfold kernelRunB.sl.v1620 kernelRunB.sl.H17_18
  rw [View.readCov_cons_toLoadRect]
  refine Eq.trans ?_ (rowsOf_q c tbl i sim x2 x3 (accOf c a12 a13 a14 a15 a16 a17) 17 (by decide)).symm
  unfold kernelRunB.sl.r_170 kernelRunB.sl.r_165 kernelRunB.sl.r_166 kernelRunB.sl.cst_781
  simp only [S_v1464 c i tbl hT sim b10, V17_17 c i M2 hM2 M3 hM3 tbl hT sim x2 x3 b9 b10 a12 a13 a14 a15 a16 a17]
  try rfl
theorem V15_19 : kernelRunB.sl.v1695 c i M2 hM2 M3 hM3 tbl hT sim x2 x3 b9 b10 a15 = (rowsOf c tbl i sim x2 x3 (accOf c a12 a13 a14 a15 a16 a17) 19).nf := by
  unfold kernelRunB.sl.v1695 kernelRunB.sl.H15_19
  rw [View.readCov_cons_toLoadRect]
  refine Eq.trans ?_ (rowsOf_nf c tbl i sim x2 x3 (accOf c a12 a13 a14 a15 a16 a17) 18 (by decide)).symm
  unfold kernelRunB.sl.r_175
  simp only [S_v c i tbl hT sim b9, V15_18 c i M2 hM2 M3 hM3 tbl hT sim x2 x3 b9 b10 a12 a13 a14 a15 a16 a17, in_read M2 hM2 x2 18 (by decide), mk_read M3 hM3 x3 18 (by decide)]
  try rfl
theorem V16_19 : kernelRunB.sl.v1700 c i tbl hT sim b9 b10 a16 = (rowsOf c tbl i sim x2 x3 (accOf c a12 a13 a14 a15 a16 a17) 19).s := by
  unfold kernelRunB.sl.v1700 kernelRunB.sl.H16_19
  rw [View.readCov_cons_toLoadRect]
  refine Eq.trans ?_ (rowsOf_s c tbl i sim x2 x3 (accOf c a12 a13 a14 a15 a16 a17) 18 (by decide)).symm
  unfold kernelRunB.sl.r_177
  simp only [S_v c i tbl hT sim b9, V16_18 c i M2 hM2 M3 hM3 tbl hT sim x2 x3 b9 b10 a12 a13 a14 a15 a16 a17]
  try rfl
theorem V17_19 : kernelRunB.sl.v1705 c i tbl hT sim b9 b10 a17 = (rowsOf c tbl i sim x2 x3 (accOf c a12 a13 a14 a15 a16 a17) 19).q := by
  unfold kernelRunB.sl.v1705 kernelRunB.sl.H17_19
  rw [View.readCov_cons_toLoadRect]
  refine Eq.trans ?_ (rowsOf_q c tbl i sim x2 x3 (accOf c a12 a13 a14 a15 a16 a17) 18 (by decide)).symm
  unfold kernelRunB.sl.r_178
  simp only [S_v c i tbl hT sim b9, V17_18 c i M2 hM2 M3 hM3 tbl hT sim x2 x3 b9 b10 a12 a13 a14 a15 a16 a17]
  try rfl
theorem V15_20 : kernelRunB.sl.v1780 c i M2 hM2 M3 hM3 tbl hT sim x2 x3 b9 b10 a15 = (rowsOf c tbl i sim x2 x3 (accOf c a12 a13 a14 a15 a16 a17) 20).nf := by
  unfold kernelRunB.sl.v1780 kernelRunB.sl.H15_20
  rw [View.readCov_cons_toLoadRect]
  refine Eq.trans ?_ (rowsOf_nf c tbl i sim x2 x3 (accOf c a12 a13 a14 a15 a16 a17) 19 (by decide)).symm
  unfold kernelRunB.sl.r_185
  simp only [S_v1634 c i tbl hT sim b10, V15_19 c i M2 hM2 M3 hM3 tbl hT sim x2 x3 b9 b10 a12 a13 a14 a15 a16 a17, in_read M2 hM2 x2 19 (by decide), mk_read M3 hM3 x3 19 (by decide)]
  try rfl
theorem V16_20 : kernelRunB.sl.v1785 c i tbl hT sim b9 b10 a16 = (rowsOf c tbl i sim x2 x3 (accOf c a12 a13 a14 a15 a16 a17) 20).s := by
  unfold kernelRunB.sl.v1785 kernelRunB.sl.H16_20
  rw [View.readCov_cons_toLoadRect]
  refine Eq.trans ?_ (rowsOf_s c tbl i sim x2 x3 (accOf c a12 a13 a14 a15 a16 a17) 19 (by decide)).symm
  unfold kernelRunB.sl.r_186 kernelRunB.sl.r_183
  simp only [S_v1634 c i tbl hT sim b10, V16_19 c i M2 hM2 M3 hM3 tbl hT sim x2 x3 b9 b10 a12 a13 a14 a15 a16 a17]
  try rfl
theorem V17_20 : kernelRunB.sl.v1790 c i tbl hT sim b9 b10 a17 = (rowsOf c tbl i sim x2 x3 (accOf c a12 a13 a14 a15 a16 a17) 20).q := by
  unfold kernelRunB.sl.v1790 kernelRunB.sl.H17_20
  rw [View.readCov_cons_toLoadRect]
  refine Eq.trans ?_ (rowsOf_q c tbl i sim x2 x3 (accOf c a12 a13 a14 a15 a16 a17) 19 (by decide)).symm
  unfold kernelRunB.sl.r_187 kernelRunB.sl.r_183
  simp only [S_v1634 c i tbl hT sim b10, V17_19 c i M2 hM2 M3 hM3 tbl hT sim x2 x3 b9 b10 a12 a13 a14 a15 a16 a17]
  try rfl
theorem V15_21 : kernelRunB.sl.v1865 c i M2 hM2 M3 hM3 tbl hT sim x2 x3 b9 b10 a15 = (rowsOf c tbl i sim x2 x3 (accOf c a12 a13 a14 a15 a16 a17) 21).nf := by
  unfold kernelRunB.sl.v1865 kernelRunB.sl.H15_21
  rw [View.readCov_cons_toLoadRect]
  refine Eq.trans ?_ (rowsOf_nf c tbl i sim x2 x3 (accOf c a12 a13 a14 a15 a16 a17) 20 (by decide)).symm
  unfold kernelRunB.sl.r_194 kernelRunB.sl.r_190 kernelRunB.sl.r_191 kernelRunB.sl.r_192 kernelRunB.sl.cst_15
  simp only [S_v1719 c i tbl hT sim b9, V15_20 c i M2 hM2 M3 hM3 tbl hT sim x2 x3 b9 b10 a12 a13 a14 a15 a16 a17, in_read M2 hM2 x2 20 (by decide), mk_read M3 hM3 x3 20 (by decide)]
  try rfl
theorem V16_21 : kernelRunB.sl.v1870 c i tbl hT sim b9 b10 a16 = (rowsOf c tbl i sim x2 x3 (accOf c a12 a13 a14 a15 a16 a17) 21).s := by
  unfold kernelRunB.sl.v1870 kernelRunB.sl.H16_21
  rw [View.readCov_cons_toLoadRect]
  refine Eq.trans ?_ (rowsOf_s c tbl i sim x2 x3 (accOf c a12 a13 a14 a15 a16 a17) 20 (by decide)).symm
  unfold kernelRunB.sl.r_195 kernelRunB.sl.r_192 kernelRunB.sl.cst_15
  simp only [S_v1719 c i tbl hT sim b9, V16_20 c i M2 hM2 M3 hM3 tbl hT sim x2 x3 b9 b10 a12 a13 a14 a15 a16 a17]
  try rfl
theorem V17_21 : kernelRunB.sl.v1875 c i tbl hT sim b9 b10 a17 = (rowsOf c tbl i sim x2 x3 (accOf c a12 a13 a14 a15 a16 a17) 21).q := by
  unfold kernelRunB.sl.v1875 kernelRunB.sl.H17_21
  rw [View.readCov_cons_toLoadRect]
  refine Eq.trans ?_ (rowsOf_q c tbl i sim x2 x3 (accOf c a12 a13 a14 a15 a16 a17) 20 (by decide)).symm
  unfold kernelRunB.sl.r_196 kernelRunB.sl.r_192 kernelRunB.sl.cst_15
  simp only [S_v1719 c i tbl hT sim b9, V17_20 c i M2 hM2 M3 hM3 tbl hT sim x2 x3 b9 b10 a12 a13 a14 a15 a16 a17]
  try rfl
theorem V15_22 : kernelRunB.sl.v1950 c i M2 hM2 M3 hM3 tbl hT sim x2 x3 b9 b10 a15 = (rowsOf c tbl i sim x2 x3 (accOf c a12 a13 a14 a15 a16 a17) 22).nf := by
  unfold kernelRunB.sl.v1950 kernelRunB.sl.H15_22
  rw [View.readCov_cons_toLoadRect]
  refine Eq.trans ?_ (rowsOf_nf c tbl i sim x2 x3 (accOf c a12 a13 a14 a15 a16 a17) 21 (by decide)).symm
  unfold kernelRunB.sl.r_202
  simp only [S_v1804 c i tbl hT sim b10, V15_21 c i M2 hM2 M3 hM3 tbl hT sim x2 x3 b9 b10 a12 a13 a14 a15 a16 a17, in_read M2 hM2 x2 21 (by decide), mk_read M3 hM3 x3 21 (by decide)]
  try rfl
theorem V16_22 : kernelRunB.sl.v1955 c i tbl hT sim b9 b10 a16 = (rowsOf c tbl i sim x2 x3 (accOf c a12 a13 a14 a15 a16 a17) 22).s := by
  unfold kernelRunB.sl.v1955 kernelRunB.sl.H16_22
  rw [View.readCov_cons_toLoadRect]
  refine Eq.trans ?_ (rowsOf_s c tbl i sim x2 x3 (accOf c a12 a13 a14 a15 a16 a17) 21 (by decide)).symm
  unfold kernelRunB.sl.r_204
  simp only [S_v1804 c i tbl hT sim b10, V16_21 c i M2 hM2 M3 hM3 tbl hT sim x2 x3 b9 b10 a12 a13 a14 a15 a16 a17]
  try rfl
theorem V17_22 : kernelRunB.sl.v1960 c i tbl hT sim b9 b10 a17 = (rowsOf c tbl i sim x2 x3 (accOf c a12 a13 a14 a15 a16 a17) 22).q := by
  unfold kernelRunB.sl.v1960 kernelRunB.sl.H17_22
  rw [View.readCov_cons_toLoadRect]
  refine Eq.trans ?_ (rowsOf_q c tbl i sim x2 x3 (accOf c a12 a13 a14 a15 a16 a17) 21 (by decide)).symm
  unfold kernelRunB.sl.r_206 kernelRunB.sl.r_205
  simp only [S_v1804 c i tbl hT sim b10, V17_21 c i M2 hM2 M3 hM3 tbl hT sim x2 x3 b9 b10 a12 a13 a14 a15 a16 a17]
  try rfl
theorem V15_23 : kernelRunB.sl.v2035 c i M2 hM2 M3 hM3 tbl hT sim x2 x3 b9 b10 a15 = (rowsOf c tbl i sim x2 x3 (accOf c a12 a13 a14 a15 a16 a17) 23).nf := by
  unfold kernelRunB.sl.v2035 kernelRunB.sl.H15_23
  rw [View.readCov_cons_toLoadRect]
  refine Eq.trans ?_ (rowsOf_nf c tbl i sim x2 x3 (accOf c a12 a13 a14 a15 a16 a17) 22 (by decide)).symm
  unfold kernelRunB.sl.r_216 kernelRunB.sl.r_209 kernelRunB.sl.r_212 kernelRunB.sl.cst_109
  simp only [S_v1889 c i tbl hT sim b9, V15_22 c i M2 hM2 M3 hM3 tbl hT sim x2 x3 b9 b10 a12 a13 a14 a15 a16 a17, in_read M2 hM2 x2 22 (by decide), mk_read M3 hM3 x3 22 (by decide)]
  try rfl
theorem V16_23 : kernelRunB.sl.v2040 c i tbl hT sim b9 b10 a16 = (rowsOf c tbl i sim x2 x3 (accOf c a12 a13 a14 a15 a16 a17) 23).s := by
  unfold kernelRunB.sl.v2040 kernelRunB.sl.H16_23
  rw [View.readCov_cons_toLoadRect]
  refine Eq.trans ?_ (rowsOf_s c tbl i sim x2 x3 (accOf c a12 a13 a14 a15 a16 a17) 22 (by decide)).symm
  unfold kernelRunB.sl.r_214 kernelRunB.sl.r_211
  simp only [S_v1889 c i tbl hT sim b9, V16_22 c i M2 hM2 M3 hM3 tbl hT sim x2 x3 b9 b10 a12 a13 a14 a15 a16 a17]
  try rfl
theorem V17_23 : kernelRunB.sl.v2045 c i tbl hT sim b9 b10 a17 = (rowsOf c tbl i sim x2 x3 (accOf c a12 a13 a14 a15 a16 a17) 23).q := by
  unfold kernelRunB.sl.v2045 kernelRunB.sl.H17_23
  rw [View.readCov_cons_toLoadRect]
  refine Eq.trans ?_ (rowsOf_q c tbl i sim x2 x3 (accOf c a12 a13 a14 a15 a16 a17) 22 (by decide)).symm
  unfold kernelRunB.sl.r_215 kernelRunB.sl.r_211
  simp only [S_v1889 c i tbl hT sim b9, V17_22 c i M2 hM2 M3 hM3 tbl hT sim x2 x3 b9 b10 a12 a13 a14 a15 a16 a17]
  try rfl
theorem V15_24 : kernelRunB.sl.v2120 c i M2 hM2 M3 hM3 tbl hT sim x2 x3 b9 b10 a15 = (rowsOf c tbl i sim x2 x3 (accOf c a12 a13 a14 a15 a16 a17) 24).nf := by
  unfold kernelRunB.sl.v2120 kernelRunB.sl.H15_24
  rw [View.readCov_cons_toLoadRect]
  refine Eq.trans ?_ (rowsOf_nf c tbl i sim x2 x3 (accOf c a12 a13 a14 a15 a16 a17) 23 (by decide)).symm
  unfold kernelRunB.sl.r_223 kernelRunB.sl.r_219 kernelRunB.sl.r_220 kernelRunB.sl.r_221
  simp only [S_v1974 c i tbl hT sim b10, V15_23 c i M2 hM2 M3 hM3 tbl hT sim x2 x3 b9 b10 a12 a13 a14 a15 a16 a17, in_read M2 hM2 x2 23 (by decide), mk_read M3 hM3 x3 23 (by decide)]
  try rfl
theorem V16_24 : kernelRunB.sl.v2125 c i tbl hT sim b9 b10 a16 = (rowsOf c tbl i sim x2 x3 (accOf c a12 a13 a14 a15 a16 a17) 24).s := by
  unfold kernelRunB.sl.v2125 kernelRunB.sl.H16_24
  rw [View.readCov_cons_toLoadRect]
  refine Eq.trans ?_ (rowsOf_s c tbl i sim x2 x3 (accOf c a12 a13 a14 a15 a16 a17) 23 (by decide)).symm
  unfold kernelRunB.sl.r_224 kernelRunB.sl.r_221
  simp only [S_v1974 c i tbl hT sim b10, V16_23 c i M2 hM2 M3 hM3 tbl hT sim x2 x3 b9 b10 a12 a13 a14 a15 a16 a17]
  try rfl
theorem V17_24 : kernelRunB.sl.v2130 c i tbl hT sim b9 b10 a17 = (rowsOf c tbl i sim x2 x3 (accOf c a12 a13 a14 a15 a16 a17) 24).q := by
  unfold kernelRunB.sl.v2130 kernelRunB.sl.H17_24
  rw [View.readCov_cons_toLoadRect]
  refine Eq.trans ?_ (rowsOf_q c tbl i sim x2 x3 (accOf c a12 a13 a14 a15 a16 a17) 23 (by decide)).symm
  unfold kernelRunB.sl.r_225 kernelRunB.sl.r_221
  simp only [S_v1974 c i tbl hT sim b10, V17_23 c i M2 hM2 M3 hM3 tbl hT sim x2 x3 b9 b10 a12 a13 a14 a15 a16 a17]
  try rfl
theorem V15_25 : kernelRunB.sl.v2205 c i M2 hM2 M3 hM3 tbl hT sim x2 x3 b9 b10 a15 = (rowsOf c tbl i sim x2 x3 (accOf c a12 a13 a14 a15 a16 a17) 25).nf := by
  unfold kernelRunB.sl.v2205 kernelRunB.sl.H15_25
  rw [View.readCov_cons_toLoadRect]
  refine Eq.trans ?_ (rowsOf_nf c tbl i sim x2 x3 (accOf c a12 a13 a14 a15 a16 a17) 24 (by decide)).symm
  unfold kernelRunB.sl.r_232
  simp only [S_v2059 c i tbl hT sim b9, V15_24 c i M2 hM2 M3 hM3 tbl hT sim x2 x3 b9 b10 a12 a13 a14 a15 a16 a17, in_read M2 hM2 x2 24 (by decide), mk_read M3 hM3 x3 24 (by decide)]
  try rfl
theorem V16_25 : kernelRunB.sl.v2210 c i tbl hT sim b9 b10 a16 = (rowsOf c tbl i sim x2 x3 (accOf c a12 a13 a14 a15 a16 a17) 25).s := by
  unfold kernelRunB.sl.v2210 kernelRunB.sl.H16_25
  rw [View.readCov_cons_toLoadRect]
  refine Eq.trans ?_ (rowsOf_s c tbl i sim x2 x3 (accOf c a12 a13 a14 a15 a16 a17) 24 (by decide)).symm
  unfold kernelRunB.sl.r_234
  simp only [S_v2059 c i tbl hT sim b9, V16_24 c i M2 hM2 M3 hM3 tbl hT sim x2 x3 b9 b10 a12 a13 a14 a15 a16 a17]
  try rfl
theorem V17_25 : kernelRunB.sl.v2215 c i tbl hT sim b9 b10 a17 = (rowsOf c tbl i sim x2 x3 (accOf c a12 a13 a14 a15 a16 a17) 25).q := by
  unfold kernelRunB.sl.v2215 kernelRunB.sl.H17_25
  rw [View.readCov_cons_toLoadRect]
  refine Eq.trans ?_ (rowsOf_q c tbl i sim x2 x3 (accOf c a12 a13 a14 a15 a16 a17) 24 (by decide)).symm
  unfold kernelRunB.sl.r_235 kernelRunB.sl.r_230
  simp only [S_v2059 c i tbl hT sim b9, V17_24 c i M2 hM2 M3 hM3 tbl hT sim x2 x3 b9 b10 a12 a13 a14 a15 a16 a17]
  try rfl
theorem V15_26 : kernelRunB.sl.v2290 c i M2 hM2 M3 hM3 tbl hT sim x2 x3 b9 b10 a15 = (rowsOf c tbl i sim x2 x3 (accOf c a12 a13 a14 a15 a16 a17) 26).nf := by
  unfold kernelRunB.sl.v2290 kernelRunB.sl.H15_26
  rw [View.readCov_cons_toLoadRect]
  refine Eq.trans ?_ (rowsOf_nf c tbl i sim x2 x3 (accOf c a12 a13 a14 a15 a16 a17) 25 (by decide)).symm
  unfold kernelRunB.sl.r_244 kernelRunB.sl.r_238 kernelRunB.sl.r_241
  simp only [S_v2144 c i tbl hT sim b10, V15_25 c i M2 hM2 M3 hM3 tbl hT sim x2 x3 b9 b10 a12 a13 a14 a15 a16 a17, in_read M2 hM2 x2 25 (by decide), mk_read M3 hM3 x3 25 (by decide)]
  try rfl
theorem V16_26 : kernelRunB.sl.v2295 c i tbl hT sim b9 b10 a16 = (rowsOf c tbl i sim x2 x3 (accOf c a12 a13 a14 a15 a16 a17) 26).s := by
  unfold kernelRunB.sl.v2295 kernelRunB.sl.H16_26
  rw [View.readCov_cons_toLoadRect]
  refine Eq.trans ?_ (rowsOf_s c tbl i sim x2 x3 (accOf c a12 a13 a14 a15 a16 a17) 25 (by decide)).symm
  unfold kernelRunB.sl.r_242 kernelRunB.sl.r_240
  simp only [S_v2144 c i tbl hT sim b10, V16_25 c i M2 hM2 M3 hM3 tbl hT sim x2 x3 b9 b10 a12 a13 a14 a15 a16 a17]
  try rfl
theorem V17_26 : kernelRunB.sl.v2300 c i tbl hT sim b9 b10 a17 = (rowsOf c tbl i sim x2 x3 (accOf c a12 a13 a14 a15 a16 a17) 26).q := by
  unfold kernelRunB.sl.v2300 kernelRunB.sl.H17_26
  rw [View.readCov_cons_toLoadRect]
  refine Eq.trans ?_ (rowsOf_q c tbl i sim x2 x3 (accOf c a12 a13 a14 a15 a16 a17) 25 (by decide)).symm
  unfold kernelRunB.sl.r_243 kernelRunB.sl.r_240
  simp only [S_v2144 c i tbl hT sim b10, V17_25 c i M2 hM2 M3 hM3 tbl hT sim x2 x3 b9 b10 a12 a13 a14 a15 a16 a17]
  try rfl
theorem V15_27 : kernelRunB.sl.v2375 c i M2 hM2 M3 hM3 tbl hT sim x2 x3 b9 b10 a15 = (rowsOf c tbl i sim x2 x3 (accOf c a12 a13 a14 a15 a16 a17) 27).nf := by
  unfold kernelRunB.sl.v2375 kernelRunB.sl.H15_27
  rw [View.readCov_cons_toLoadRect]
  refine Eq.trans ?_ (rowsOf_nf c tbl i sim x2 x3 (accOf c a12 a13 a14 a15 a16 a17) 26 (by decide)).symm
  unfold kernelRunB.sl.r_250 kernelRunB.sl.r_247 kernelRunB.sl.r_248 kernelRunB.sl.cst_284
  simp only [S_v2229 c i tbl hT sim b9, V15_26 c i M2 hM2 M3 hM3 tbl hT sim x2 x3 b9 b10 a12 a13 a14 a15 a16 a17, in_read M2 hM2 x2 26 (by decide), mk_read M3 hM3 x3 26 (by decide)]
  try rfl
theorem V16_27 : kernelRunB.sl.v2380 c i tbl hT sim b9 b10 a16 = (rowsOf c tbl i sim x2 x3 (accOf c a12 a13 a14 a15 a16 a17) 27).s := by
  unfold kernelRunB.sl.v2380 kernelRunB.sl.H16_27
  rw [View.readCov_cons_toLoadRect]
  refine Eq.trans ?_ (rowsOf_s c tbl i sim x2 x3 (accOf c a12 a13 a14 a15 a16 a17) 26 (by decide)).symm
  unfold kernelRunB.sl.r_251 kernelRunB.sl.cst_284
  simp only [S_v2229 c i tbl hT sim b9, V16_26 c i M2 hM2 M3 hM3 tbl hT sim x2 x3 b9 b10 a12 a13 a14 a15 a16 a17]
  try rfl
theorem V17_27 : kernelRunB.sl.v2385 c i tbl hT sim b9 b10 a17 = (rowsOf c tbl i sim x2 x3 (accOf c a12 a13 a14 a15 a16 a17) 27).q := by
  unfold kernelRunB.sl.v2385 kernelRunB.sl.H17_27
  rw [View.readCov_cons_toLoadRect]
  refine Eq.trans ?_ (rowsOf_q c tbl i sim x2 x3 (accOf c a12 a13 a14 a15 a16 a17) 26 (by decide)).symm
  unfold kernelRunB.sl.r_252 kernelRunB.sl.cst_284
  simp only [S_v2229 c i tbl hT sim b9, V17_26 c i M2 hM2 M3 hM3 tbl hT sim x2 x3 b9 b10 a12 a13 a14 a15 a16 a17]
  try rfl
theorem V15_28 : kernelRunB.sl.v2460 c i M2 hM2 M3 hM3 tbl hT sim x2 x3 b9 b10 a15 = (rowsOf c tbl i sim x2 x3 (accOf c a12 a13 a14 a15 a16 a17) 28).nf := by
  unfold kernelRunB.sl.v2460 kernelRunB.sl.H15_28
  rw [View.readCov_cons_toLoadRect]
  refine Eq.trans ?_ (rowsOf_nf c tbl i sim x2 x3 (accOf c a12 a13 a14 a15 a16 a17) 27 (by decide)).symm
  unfold kernelRunB.sl.r_259
  simp only [S_v2314 c i tbl hT sim b10, V15_27 c i M2 hM2 M3 hM3 tbl hT sim x2 x3 b9 b10 a12 a13 a14 a15 a16 a17, in_read M2 hM2 x2 27 (by decide), mk_read M3 hM3 x3 27 (by decide)]
  try rfl
theorem V16_28 : kernelRunB.sl.v2465 c i tbl hT sim b9 b10 a16 = (rowsOf c tbl i sim x2 x3 (accOf c a12 a13 a14 a15 a16 a17) 28).s := by
  unfold kernelRunB.sl.v2465 kernelRunB.sl.H16_28
  rw [View.readCov_cons_toLoadRect]
  refine Eq.trans ?_ (rowsOf_s c tbl i sim x2 x3 (accOf c a12 a13 a14 a15 a16 a17) 27 (by decide)).symm
  unfold kernelRunB.sl.r_257
  simp only [S_v2314 c i tbl hT sim b10, V16_27 c i M2 hM2 M3 hM3 tbl hT sim x2 x3 b9 b10 a12 a13 a14 a15 a16 a17]
  try rfl
theorem V17_28 : kernelRunB.sl.v2470 c i tbl hT sim b9 b10 a17 = (rowsOf c tbl i sim x2 x3 (accOf c a12 a13 a14 a15 a16 a17) 28).q := by
  unfold kernelRunB.sl.v2470 kernelRunB.sl.H17_28
  rw [View.readCov_cons_toLoadRect]
  refine Eq.trans ?_ (rowsOf_q c tbl i sim x2 x3 (accOf c a12 a13 a14 a15 a16 a17) 27 (by decide)).symm
  unfold kernelRunB.sl.r_261 kernelRunB.sl.r_257
  simp only [S_v2314 c i tbl hT sim b10, V17_27 c i M2 hM2 M3 hM3 tbl hT sim x2 x3 b9 b10 a12 a13 a14 a15 a16 a17]
  try rfl
theorem V15_29 : kernelRunB.sl.v2545 c i M2 hM2 M3 hM3 tbl hT sim x2 x3 b9 b10 a15 = (rowsOf c tbl i sim x2 x3 (accOf c a12 a13 a14 a15 a16 a17) 29).nf := by
  unfold kernelRunB.sl.v2545 kernelRunB.sl.H15_29
  rw [View.readCov_cons_toLoadRect]
  refine Eq.trans ?_ (rowsOf_nf c tbl i sim x2 x3 (accOf c a12 a13 a14 a15 a16 a17) 28 (by decide)).symm
  unfold kernelRunB.sl.r_267 kernelRunB.sl.r_264 kernelRunB.sl.r_265 kernelRunB.sl.r_266
  simp only [S_v2399 c i tbl hT sim b9, V15_28 c i M2 hM2 M3 hM3 tbl hT sim x2 x3 b9 b10 a12 a13 a14 a15 a16 a17, in_read M2 hM2 x2 28 (by decide), mk_read M3 hM3 x3 28 (by decide)]
  try rfl
theorem V16_29 : kernelRunB.sl.v2550 c i tbl hT sim b9 b10 a16 = (rowsOf c tbl i sim x2 x3 (accOf c a12 a13 a14 a15 a16 a17) 29).s := by
  unfold kernelRunB.sl.v2550 kernelRunB.sl.H16_29
  rw [View.readCov_cons_toLoadRect]
  refine Eq.trans ?_ (rowsOf_s c tbl i sim x2 x3 (accOf c a12 a13 a14 a15 a16 a17) 28 (by decide)).symm
  unfold kernelRunB.sl.r_268 kernelRunB.sl.r_266
  simp only [S_v2399 c i tbl hT sim b9, V16_28 c i M2 hM2 M3 hM3 tbl hT sim x2 x3 b9 b10 a12 a13 a14 a15 a16 a17]
  try rfl
theorem V17_29 : kernelRunB.sl.v2555 c i tbl hT sim b9 b10 a17 = (rowsOf c tbl i sim x2 x3 (accOf c a12 a13 a14 a15 a16 a17) 29).q := by
  unfold kernelRunB.sl.v2555 kernelRunB.sl.H17_29
  rw [View.readCov_cons_toLoadRect]
  refine Eq.trans ?_ (rowsOf_q c tbl i sim x2 x3 (accOf c a12 a13 a14 a15 a16 a17) 28 (by decide)).symm
  unfold kernelRunB.sl.r_269 kernelRunB.sl.r_266
  simp only [S_v2399 c i tbl hT sim b9, V17_28 c i M2 hM2 M3 hM3 tbl hT sim x2 x3 b9 b10 a12 a13 a14 a15 a16 a17]
  try rfl
theorem V15_30 : kernelRunB.sl.v2630 c i M2 hM2 M3 hM3 tbl hT sim x2 x3 b9 b10 a15 = (rowsOf c tbl i sim x2 x3 (accOf c a12 a13 a14 a15 a16 a17) 30).nf := by
  unfold kernelRunB.sl.v2630 kernelRunB.sl.H15_30
  rw [View.readCov_cons_toLoadRect]
  refine Eq.trans ?_ (rowsOf_nf c tbl i sim x2 x3 (accOf c a12 a13 a14 a15 a16 a17) 29 (by decide)).symm
  unfold kernelRunB.sl.r_275 kernelRunB.sl.r_271 kernelRunB.sl.r_272
  simp only [S_v2484 c i tbl hT sim b10, V15_29 c i M2 hM2 M3 hM3 tbl hT sim x2 x3 b9 b10 a12 a13 a14 a15 a16 a17, in_read M2 hM2 x2 29 (by decide), mk_read M3 hM3 x3 29 (by decide)]
  try rfl
theorem V16_30 : kernelRunB.sl.v2635 c i tbl hT sim b9 b10 a16 = (rowsOf c tbl i sim x2 x3 (accOf c a12 a13 a14 a15 a16 a17) 30).s := by
  unfold kernelRunB.sl.v2635 kernelRunB.sl.H16_30
  rw [View.readCov_cons_toLoadRect]
  refine Eq.trans ?_ (rowsOf_s c tbl i sim x2 x3 (accOf c a12 a13 a14 a15 a16 a17) 29 (by decide)).symm
  unfold kernelRunB.sl.r_277
  simp only [S_v2484 c i tbl hT sim b10, V16_29 c i M2 hM2 M3 hM3 tbl hT sim x2 x3 b9 b10 a12 a13 a14 a15 a16 a17]
  try rfl
theorem V17_30 : kernelRunB.sl.v2640 c i tbl hT sim b9 b10 a17 = (rowsOf c tbl i sim x2 x3 (accOf c a12 a13 a14 a15 a16 a17) 30).q := by
  unfold kernelRunB.sl.v2640 kernelRunB.sl.H17_30
  rw [View.readCov_cons_toLoadRect]
  refine Eq.trans ?_ (rowsOf_q c tbl i sim x2 x3 (accOf c a12 a13 a14 a15 a16 a17) 29 (by decide)).symm
  unfold kernelRunB.sl.r_278
  simp only [S_v2484 c i tbl hT sim b10, V17_29 c i M2 hM2 M3 hM3 tbl hT sim x2 x3 b9 b10 a12 a13 a14 a15 a16 a17]
  try rfl
theorem V15_31 : kernelRunB.sl.v2715 c i M2 hM2 M3 hM3 tbl hT sim x2 x3 b9 b10 a15 = (rowsOf c tbl i sim x2 x3 (accOf c a12 a13 a14 a15 a16 a17) 31).nf := by
  unfold kernelRunB.sl.v2715 kernelRunB.sl.H15_31
  rw [View.readCov_cons_toLoadRect]
  refine Eq.trans ?_ (rowsOf_nf c tbl i sim x2 x3 (accOf c a12 a13 a14 a15 a16 a17) 30 (by decide)).symm
  unfold kernelRunB.sl.r_284
  simp only [S_v2569 c i tbl hT sim b9, V15_30 c i M2 hM2 M3 hM3 tbl hT sim x2 x3 b9 b10 a12 a13 a14 a15 a16 a17, in_read M2 hM2 x2 30 (by decide), mk_read M3 hM3 x3 30 (by decide)]
  try rfl
theorem V16_31 : kernelRunB.sl.v2720 c i tbl hT sim b9 b10 a16 = (rowsOf c tbl i sim x2 x3 (accOf c a12 a13 a14 a15 a16 a17) 31).s := by
  unfold kernelRunB.sl.v2720 kernelRunB.sl.H16_31
  rw [View.readCov_cons_toLoadRect]
  refine Eq.trans ?_ (rowsOf_s c tbl i sim x2 x3 (accOf c a12 a13 a14 a15 a16 a17) 30 (by decide)).symm
  unfold kernelRunB.sl.r_287 kernelRunB.sl.r_282
  simp only [S_v2569 c i tbl hT sim b9, V16_30 c i M2 hM2 M3 hM3 tbl hT sim x2 x3 b9 b10 a12 a13 a14 a15 a16 a17]
  try rfl
theorem V17_31 : kernelRunB.sl.v2725 c i tbl hT sim b9 b10 a17 = (rowsOf c tbl i sim x2 x3 (accOf c a12 a13 a14 a15 a16 a17) 31).q := by
  unfold kernelRunB.sl.v2725 kernelRunB.sl.H17_31
  rw [View.readCov_cons_toLoadRect]
  refine Eq.trans ?_ (rowsOf_q c tbl i sim x2 x3 (accOf c a12 a13 a14 a15 a16 a17) 30 (by decide)).symm
  unfold kernelRunB.sl.r_286 kernelRunB.sl.r_282
  simp only [S_v2569 c i tbl hT sim b9, V17_30 c i M2 hM2 M3 hM3 tbl hT sim x2 x3 b9 b10 a12 a13 a14 a15 a16 a17]
  try rfl
theorem V15_32 : kernelRunB.sl.v2800 c i M2 hM2 M3 hM3 tbl hT sim x2 x3 b9 b10 a15 = (rowsOf c tbl i sim x2 x3 (accOf c a12 a13 a14 a15 a16 a17) 32).nf := by
  unfold kernelRunB.sl.v2800 kernelRunB.sl.H15_32
  rw [View.readCov_cons_toLoadRect]
  refine Eq.trans ?_ (rowsOf_nf c tbl i sim x2 x3 (accOf c a12 a13 a14 a15 a16 a17) 31 (by decide)).symm
  unfold kernelRunB.sl.r_294 kernelRunB.sl.r_290 kernelRunB.sl.r_291 kernelRunB.sl.r_292 kernelRunB.sl.r_293
  simp only [S_v2654 c i tbl hT sim b10, V15_31 c i M2 hM2 M3 hM3 tbl hT sim x2 x3 b9 b10 a12 a13 a14 a15 a16 a17, in_read M2 hM2 x2 31 (by decide), mk_read M3 hM3 x3 31 (by decide)]
  try rfl
theorem V16_32 : kernelRunB.sl.v2805 c i tbl hT sim b9 b10 a16 = (rowsOf c tbl i sim x2 x3 (accOf c a12 a13 a14 a15 a16 a17) 32).s := by
  unfold kernelRunB.sl.v2805 kernelRunB.sl.H16_32
  rw [View.readCov_cons_toLoadRect]
  refine Eq.trans ?_ (rowsOf_s c tbl i sim x2 x3 (accOf c a12 a13 a14 a15 a16 a17) 31 (by decide)).symm
  unfold kernelRunB.sl.r_295 kernelRunB.sl.r_292 kernelRunB.sl.r_293
  simp only [S_v2654 c i tbl hT sim b10, V16_31 c i M2 hM2 M3 hM3 tbl hT sim x2 x3 b9 b10 a12 a13 a14 a15 a16 a17]
  try rfl
theorem V17_32 : kernelRunB.sl.v2810 c i tbl hT sim b9 b10 a17 = (rowsOf c tbl i sim x2 x3 (accOf c a12 a13 a14 a15 a16 a17) 32).q := by
  unfold kernelRunB.sl.v2810 kernelRunB.sl.H17_32
  rw [View.readCov_cons_toLoadRect]
  refine Eq.trans ?_ (rowsOf_q c tbl i sim x2 x3 (accOf c a12 a13 a14 a15 a16 a17) 31 (by decide)).symm
  unfold kernelRunB.sl.r_296 kernelRunB.sl.r_292 kernelRunB.sl.r_293
  simp only [S_v2654 c i tbl hT sim b10, V17_31 c i M2 hM2 M3 hM3 tbl hT sim x2 x3 b9 b10 a12 a13 a14 a15 a16 a17]
  try rfl
theorem V15_33 : kernelRunB.sl.v2885 c i M2 hM2 M3 hM3 tbl hT sim x2 x3 b9 b10 a15 = (rowsOf c tbl i sim x2 x3 (accOf c a12 a13 a14 a15 a16 a17) 33).nf := by
  unfold kernelRunB.sl.v2885 kernelRunB.sl.H15_33
  rw [View.readCov_cons_toLoadRect]
  refine Eq.trans ?_ (rowsOf_nf c tbl i sim x2 x3 (accOf c a12 a13 a14 a15 a16 a17) 32 (by decide)).symm
  unfold kernelRunB.sl.r_304 kernelRunB.sl.r_299 kernelRunB.sl.r_300
  simp only [S_v2739 c i tbl hT sim b9, V15_32 c i M2 hM2 M3 hM3 tbl hT sim x2 x3 b9 b10 a12 a13 a14 a15 a16 a17, in_read M2 hM2 x2 32 (by decide), mk_read M3 hM3 x3 32 (by decide)]
  try rfl
theorem V16_33 : kernelRunB.sl.v2890 c i tbl hT sim b9 b10 a16 = (rowsOf c tbl i sim x2 x3 (accOf c a12 a13 a14 a15 a16 a17) 33).s := by
  unfold kernelRunB.sl.v2890 kernelRunB.sl.H16_33
  rw [View.readCov_cons_toLoadRect]
  refine Eq.trans ?_ (rowsOf_s c tbl i sim x2 x3 (accOf c a12 a13 a14 a15 a16 a17) 32 (by decide)).symm
  unfold kernelRunB.sl.r_306
  simp only [S_v2739 c i tbl hT sim b9, V16_32 c i M2 hM2 M3 hM3 tbl hT sim x2 x3 b9 b10 a12 a13 a14 a15 a16 a17]
  try rfl
theorem V17_33 : kernelRunB.sl.v2895 c i tbl hT sim b9 b10 a17 = (rowsOf c tbl i sim x2 x3 (accOf c a12 a13 a14 a15 a16 a17) 33).q := by
  unfold kernelRunB.sl.v2895 kernelRunB.sl.H17_33
  rw [View.readCov_cons_toLoadRect]
  refine Eq.trans ?_ (rowsOf_q c tbl i sim x2 x3 (accOf c a12 a13 a14 a15 a16 a17) 32 (by decide)).symm
  unfold kernelRunB.sl.r_307
  simp only [S_v2739 c i tbl hT sim b9, V17_32 c i M2 hM2 M3 hM3 tbl hT sim x2 x3 b9 b10 a12 a13 a14 a15 a16 a17]
  try rfl
theorem V15_34 : kernelRunB.sl.v2970 c i M2 hM2 M3 hM3 tbl hT sim x2 x3 b9 b10 a15 = (rowsOf c tbl i sim x2 x3 (accOf c a12 a13 a14 a15 a16 a17) 34).nf := by
  unfold kernelRunB.sl.v2970 kernelRunB.sl.H15_34
  rw [View.readCov_cons_toLoadRect]
  refine Eq.trans ?_ (rowsOf_nf c tbl i sim x2 x3 (accOf c a12 a13 a14 a15 a16 a17) 33 (by decide)).symm
  unfold kernelRunB.sl.r_315
  simp only [S_v2824 c i tbl hT sim b10, V15_33 c i M2 hM2 M3 hM3 tbl hT sim x2 x3 b9 b10 a12 a13 a14 a15 a16 a17, in_read M2 hM2 x2 33 (by decide), mk_read M3 hM3 x3 33 (by decide)]
  try rfl
theorem V16_34 : kernelRunB.sl.v2975 c i tbl hT sim b9 b10 a16 = (rowsOf c tbl i sim x2 x3 (accOf c a12 a13 a14 a15 a16 a17) 34).s := by
  unfold kernelRunB.sl.v2975 kernelRunB.sl.H16_34
  rw [View.readCov_cons_toLoadRect]
  refine Eq.trans ?_ (rowsOf_s c tbl i sim x2 x3 (accOf c a12 a13 a14 a15 a16 a17) 33 (by decide)).symm
  unfold kernelRunB.sl.r_318 kernelRunB.sl.r_313
  simp only [S_v2824 c i tbl hT sim b10, V16_33 c i M2 hM2 M3 hM3 tbl hT sim x2 x3 b9 b10 a12 a13 a14 a15 a16 a17]
  try rfl
theorem V17_34 : kernelRunB.sl.v2980 c i tbl hT sim b9 b10 a17 = (rowsOf c tbl i sim x2 x3 (accOf c a12 a13 a14 a15 a16 a17) 34).q := by
  unfold kernelRunB.sl.v2980 kernelRunB.sl.H17_34
  rw [View.readCov_cons_toLoadRect]
  refine Eq.trans ?_ (rowsOf_q c tbl i sim x2 x3 (accOf c a12 a13 a14 a15 a16 a17) 33 (by decide)).symm
  unfold kernelRunB.sl.r_317 kernelRunB.sl.r_313
  simp only [S_v2824 c i tbl hT sim b10, V17_33 c i M2 hM2 M3 hM3 tbl hT sim x2 x3 b9 b10 a12 a13 a14 a15 a16 a17]
  try rfl
theorem V15_35 : kernelRunB.sl.v3055 c i M2 hM2 M3 hM3 tbl hT sim x2 x3 b9 b10 a15 = (rowsOf c tbl i sim x2 x3 (accOf c a12 a13 a14 a15 a16 a17) 35).nf := by
  unfold kernelRunB.sl.v3055 kernelRunB.sl.H15_35
  rw [View.readCov_cons_toLoadRect]
  refine Eq.trans ?_ (rowsOf_nf c tbl i sim x2 x3 (accOf c a12 a13 a14 a15 a16 a17) 34 (by decide)).symm
  unfold kernelRunB.sl.r_325 kernelRunB.sl.r_321 kernelRunB.sl.r_322 kernelRunB.sl.r_323 kernelRunB.sl.r_324
  simp only [S_v2909 c i tbl hT sim b9, V15_34 c i M2 hM2 M3 hM3 tbl hT sim x2 x3 b9 b10 a12 a13 a14 a15 a16 a17, in_read M2 hM2 x2 34 (by decide), mk_read M3 hM3 x3 34 (by decide)]
  try rfl
theorem V16_35 : kernelRunB.sl.v3060 c i tbl hT sim b9 b10 a16 = (rowsOf c tbl i sim x2 x3 (accOf c a12 a13 a14 a15 a16 a17) 35).s := by
  unfold kernelRunB.sl.v3060 kernelRunB.sl.H16_35
  rw [View.readCov_cons_toLoadRect]
  refine Eq.trans ?_ (rowsOf_s c tbl i sim x2 x3 (accOf c a12 a13 a14 a15 a16 a17) 34 (by decide)).symm
  unfold kernelRunB.sl.r_326 kernelRunB.sl.r_323 kernelRunB.sl.r_324
  simp only [S_v2909 c i tbl hT sim b9, V16_34 c i M2 hM2 M3 hM3 tbl hT sim x2 x3 b9 b10 a12 a13 a14 a15 a16 a17]
  try rfl
theorem V17_35 : kernelRunB.sl.v3065 c i tbl hT sim b9 b10 a17 = (rowsOf c tbl i sim x2 x3 (accOf c a12 a13 a14 a15 a16 a17) 35).q := by
  unfold kernelRunB.sl.v3065 kernelRunB.sl.H17_35
  rw [View.readCov_cons_toLoadRect]
  refine Eq.trans ?_ (rowsOf_q c tbl i sim x2 x3 (accOf c a12 a13 a14 a15 a16 a17) 34 (by decide)).symm
  unfold kernelRunB.sl.r_327 kernelRunB.sl.r_323 kernelRunB.sl.r_324
  simp only [S_v2909 c i tbl hT sim b9, V17_34 c i M2 hM2 M3 hM3 tbl hT sim x2 x3 b9 b10 a12 a13 a14 a15 a16 a17]
  try rfl
theorem V15_36 : kernelRunB.sl.v3140 c i M2 hM2 M3 hM3 tbl hT sim x2 x3 b9 b10 a15 = (rowsOf c tbl i sim x2 x3 (accOf c a12 a13 a14 a15 a16 a17) 36).nf := by
  unfold kernelRunB.sl.v3140 kernelRunB.sl.H15_36
  rw [View.readCov_cons_toLoadRect]
  refine Eq.trans ?_ (rowsOf_nf c tbl i sim x2 x3 (accOf c a12 a13 a14 a15 a16 a17) 35 (by decide)).symm
  unfold kernelRunB.sl.r_334 kernelRunB.sl.r_330
  simp only [S_v2994 c i tbl hT sim b10, V15_35 c i M2 hM2 M3 hM3 tbl hT sim x2 x3 b9 b10 a12 a13 a14 a15 a16 a17, in_read M2 hM2 x2 35 (by decide), mk_read M3 hM3 x3 35 (by decide)]
  try rfl
theorem V16_36 : kernelRunB.sl.v3145 c i tbl hT sim b9 b10 a16 = (rowsOf c tbl i sim x2 x3 (accOf c a12 a13 a14 a15 a16 a17) 36).s := by
  unfold kernelRunB.sl.v3145 kernelRunB.sl.H16_36
  rw [View.readCov_cons_toLoadRect]
  refine Eq.trans ?_ (rowsOf_s c tbl i sim x2 x3 (accOf c a12 a13 a14 a15 a16 a17) 35 (by decide)).symm
  unfold kernelRunB.sl.r_336
  simp only [S_v2994 c i tbl hT sim b10, V16_35 c i M2 hM2 M3 hM3 tbl hT sim x2 x3 b9 b10 a12 a13 a14 a15 a16 a17]
  try rfl
theorem V17_36 : kernelRunB.sl.v3150 c i tbl hT sim b9 b10 a17 = (rowsOf c tbl i sim x2 x3 (accOf c a12 a13 a14 a15 a16 a17) 36).q := by
  unfold kernelRunB.sl.v3150 kernelRunB.sl.H17_36
  rw [View.readCov_cons_toLoadRect]
  refine Eq.trans ?_ (rowsOf_q c tbl i sim x2 x3 (accOf c a12 a13 a14 a15 a16 a17) 35 (by decide)).symm
  unfold kernelRunB.sl.r_337
  simp only [S_v2994 c i tbl hT sim b10, V17_35 c i M2 hM2 M3 hM3 tbl hT sim x2 x3 b9 b10 a12 a13 a14 a15 a16 a17]
  try rfl
theorem V15_37 : kernelRunB.sl.v3225 c i M2 hM2 M3 hM3 tbl hT sim x2 x3 b9 b10 a15 = (rowsOf c tbl i sim x2 x3 (accOf c a12 a13 a14 a15 a16 a17) 37).nf := by
  unfold kernelRunB.sl.v3225 kernelRunB.sl.H15_37
  rw [View.readCov_cons_toLoadRect]
  refine Eq.trans ?_ (rowsOf_nf c tbl i sim x2 x3 (accOf c a12 a13 a14 a15 a16 a17) 36 (by decide)).symm
  unfold kernelRunB.sl.r_345
  simp only [S_v3079 c i tbl hT sim b9, V15_36 c i M2 hM2 M3 hM3 tbl hT sim x2 x3 b9 b10 a12 a13 a14 a15 a16 a17, in_read M2 hM2 x2 36 (by decide), mk_read M3 hM3 x3 36 (by decide)]
  try rfl
theorem V16_37 : kernelRunB.sl.v3230 c i tbl hT sim b9 b10 a16 = (rowsOf c tbl i sim x2 x3 (accOf c a12 a13 a14 a15 a16 a17) 37).s := by
  unfold kernelRunB.sl.v3230 kernelRunB.sl.H16_37
  rw [View.readCov_cons_toLoadRect]
  refine Eq.trans ?_ (rowsOf_s c tbl i sim x2 x3 (accOf c a12 a13 a14 a15 a16 a17) 36 (by decide)).symm
  unfold kernelRunB.sl.r_346 kernelRunB.sl.r_343
  simp only [S_v3079 c i tbl hT sim b9, V16_36 c i M2 hM2 M3 hM3 tbl hT sim x2 x3 b9 b10 a12 a13 a14 a15 a16 a17]
  try rfl
theorem V17_37 : kernelRunB.sl.v3235 c i tbl hT sim b9 b10 a17 = (rowsOf c tbl i sim x2 x3 (accOf c a12 a13 a14 a15 a16 a17) 37).q := by
  unfold kernelRunB.sl.v3235 kernelRunB.sl.H17_37
  rw [View.readCov_cons_toLoadRect]
  refine Eq.trans ?_ (rowsOf_q c tbl i sim x2 x3 (accOf c a12 a13 a14 a15 a16 a17) 36 (by decide)).symm
  unfold kernelRunB.sl.r_347 kernelRunB.sl.r_343
  simp only [S_v3079 c i tbl hT sim b9, V17_36 c i M2 hM2 M3 hM3 tbl hT sim x2 x3 b9 b10 a12 a13 a14 a15 a16 a17]
  try rfl
theorem V15_38 : kernelRunB.sl.v3310 c i M2 hM2 M3 hM3 tbl hT sim x2 x3 b9 b10 a15 = (rowsOf c tbl i sim x2 x3 (accOf c a12 a13 a14 a15 a16 a17) 38).nf := by
  unfold kernelRunB.sl.v3310 kernelRunB.sl.H15_38
  rw [View.readCov_cons_toLoadRect]
  refine Eq.trans ?_ (rowsOf_nf c tbl i sim x2 x3 (accOf c a12 a13 a14 a15 a16 a17) 37 (by decide)).symm
  unfold kernelRunB.sl.r_355 kernelRunB.sl.r_350 kernelRunB.sl.r_351 kernelRunB.sl.r_352 kernelRunB.sl.r_353 kernelRunB.sl.cst_781
  simp only [S_v3164 c i tbl hT sim b10, V15_37 c i M2 hM2 M3 hM3 tbl hT sim x2 x3 b9 b10 a12 a13 a14 a15 a16 a17, in_read M2 hM2 x2 37 (by decide), mk_read M3 hM3 x3 37 (by decide)]
  try rfl
theorem V16_38 : kernelRunB.sl.v3315 c i tbl hT sim b9 b10 a16 = (rowsOf c tbl i sim x2 x3 (accOf c a12 a13 a14 a15 a16 a17) 38).s := by
  unfold kernelRunB.sl.v3315 kernelRunB.sl.H16_38
  rw [View.readCov_cons_toLoadRect]
  refine Eq.trans ?_ (rowsOf_s c tbl i sim x2 x3 (accOf c a12 a13 a14 a15 a16 a17) 37 (by decide)).symm
  unfold kernelRunB.sl.r_356 kernelRunB.sl.r_352 kernelRunB.sl.r_353 kernelRunB.sl.cst_781
  simp only [S_v3164 c i tbl hT sim b10, V16_37 c i M2 hM2 M3 hM3 tbl hT sim x2 x3 b9 b10 a12 a13 a14 a15 a16 a17]
  try rfl
theorem V17_38 : kernelRunB.sl.v3320 c i tbl hT sim b9 b10 a17 = (rowsOf c tbl i sim x2 x3 (accOf c a12 a13 a14 a15 a16 a17) 38).q := by
  unfold kernelRunB.sl.v3320 kernelRunB.sl.H17_38
  rw [View.readCov_cons_toLoadRect]
  refine Eq.trans ?_ (rowsOf_q c tbl i sim x2 x3 (accOf c a12 a13 a14 a15 a16 a17) 37 (by decide)).symm
  unfold kernelRunB.sl.r_357 kernelRunB.sl.r_352 kernelRunB.sl.r_353 kernelRunB.sl.cst_781
  simp only [S_v3164 c i tbl hT sim b10, V17_37 c i M2 hM2 M3 hM3 tbl hT sim x2 x3 b9 b10 a12 a13 a14 a15 a16 a17]
  try rfl
theorem V15_39 : kernelRunB.sl.v3395 c i M2 hM2 M3 hM3 tbl hT sim x2 x3 b9 b10 a15 = (rowsOf c tbl i sim x2 x3 (accOf c a12 a13 a14 a15 a16 a17) 39).nf := by
  unfold kernelRunB.sl.v3395 kernelRunB.sl.H15_39
  rw [View.readCov_cons_toLoadRect]
  refine Eq.trans ?_ (rowsOf_nf c tbl i sim x2 x3 (accOf c a12 a13 a14 a15 a16 a17) 38 (by decide)).symm
  unfold kernelRunB.sl.r_362
  simp only [V15_38 c i M2 hM2 M3 hM3 tbl hT sim x2 x3 b9 b10 a12 a13 a14 a15 a16 a17, S_v_1 c i tbl hT sim b9, in_read M2 hM2 x2 38 (by decide), mk_read M3 hM3 x3 38 (by decide)]
  try rfl
theorem V16_39 : kernelRunB.sl.v3400 c i tbl hT sim b9 b10 a16 = (rowsOf c tbl i sim x2 x3 (accOf c a12 a13 a14 a15 a16 a17) 39).s := by
  unfold kernelRunB.sl.v3400 kernelRunB.sl.H16_39
  rw [View.readCov_cons_toLoadRect]
  refine Eq.trans ?_ (rowsOf_s c tbl i sim x2 x3 (accOf c a12 a13 a14 a15 a16 a17) 38 (by decide)).symm
  unfold kernelRunB.sl.r_364
  simp only [V16_38 c i M2 hM2 M3 hM3 tbl hT sim x2 x3 b9 b10 a12 a13 a14 a15 a16 a17, S_v_1 c i tbl hT sim b9]
  try rfl
theorem V17_39 : kernelRunB.sl.v3405 c i tbl hT sim b9 b10 a17 = (rowsOf c tbl i sim x2 x3 (accOf c a12 a13 a14 a15 a16 a17) 39).q := by
  unfold kernelRunB.sl.v3405 kernelRunB.sl.H17_39
  rw [View.readCov_cons_toLoadRect]
  refine Eq.trans ?_ (rowsOf_q c tbl i sim x2 x3 (accOf c a12 a13 a14 a15 a16 a17) 38 (by decide)).symm
  unfold kernelRunB.sl.r_365
  simp only [V17_38 c i M2 hM2 M3 hM3 tbl hT sim x2 x3 b9 b10 a12 a13 a14 a15 a16 a17, S_v_1 c i tbl hT sim b9]
  try rfl
theorem V15_40 : kernelRunB.sl.v3480 c i M2 hM2 M3 hM3 tbl hT sim x2 x3 b9 b10 a15 = (rowsOf c tbl i sim x2 x3 (accOf c a12 a13 a14 a15 a16 a17) 40).nf := by
  unfold kernelRunB.sl.v3480 kernelRunB.sl.H15_40
  rw [View.readCov_cons_toLoadRect]
  refine Eq.trans ?_ (rowsOf_nf c tbl i sim x2 x3 (accOf c a12 a13 a14 a15 a16 a17) 39 (by decide)).symm
  unfold kernelRunB.sl.r_372
  simp only [S_v3334 c i tbl hT sim b10, V15_39 c i M2 hM2 M3 hM3 tbl hT sim x2 x3 b9 b10 a12 a13 a14 a15 a16 a17, in_read M2 hM2 x2 39 (by decide), mk_read M3 hM3 x3 39 (by decide)]
  try rfl
theorem V16_40 : kernelRunB.sl.v3485 c i tbl hT sim b9 b10 a16 = (rowsOf c tbl i sim x2 x3 (accOf c a12 a13 a14 a15 a16 a17) 40).s := by
  unfold kernelRunB.sl.v3485 kernelRunB.sl.H16_40
  rw [View.readCov_cons_toLoadRect]
  refine Eq.trans ?_ (rowsOf_s c tbl i sim x2 x3 (accOf c a12 a13 a14 a15 a16 a17) 39 (by decide)).symm
  unfold kernelRunB.sl.r_373 kernelRunB.sl.r_370
  simp only [S_v3334 c i tbl hT sim b10, V16_39 c i M2 hM2 M3 hM3 tbl hT sim x2 x3 b9 b10 a12 a13 a14 a15 a16 a17]
  try rfl
theorem V17_40 : kernelRunB.sl.v3490 c i tbl hT sim b9 b10 a17 = (rowsOf c tbl i sim x2 x3 (accOf c a12 a13 a14 a15 a16 a17) 40).q := by
  unfold kernelRunB.sl.v3490 kernelRunB.sl.H17_40
  rw [View.readCov_cons_toLoadRect]
  refine Eq.trans ?_ (rowsOf_q c tbl i sim x2 x3 (accOf c a12 a13 a14 a15 a16 a17) 39 (by decide)).symm
  unfold kernelRunB.sl.r_374 kernelRunB.sl.r_370
  simp only [S_v3334 c i tbl hT sim b10, V17_39 c i M2 hM2 M3 hM3 tbl hT sim x2 x3 b9 b10 a12 a13 a14 a15 a16 a17]
  try rfl
theorem V15_41 : kernelRunB.sl.v3565 c i M2 hM2 M3 hM3 tbl hT sim x2 x3 b9 b10 a15 = (rowsOf c tbl i sim x2 x3 (accOf c a12 a13 a14 a15 a16 a17) 41).nf := by
  unfold kernelRunB.sl.v3565 kernelRunB.sl.H15_41
  rw [View.readCov_cons_toLoadRect]
  refine Eq.trans ?_ (rowsOf_nf c tbl i sim x2 x3 (accOf c a12 a13 a14 a15 a16 a17) 40 (by decide)).symm
  unfold kernelRunB.sl.r_381 kernelRunB.sl.r_377 kernelRunB.sl.r_378 kernelRunB.sl.r_379 kernelRunB.sl.cst_15
  simp only [S_v3419 c i tbl hT sim b9, V15_40 c i M2 hM2 M3 hM3 tbl hT sim x2 x3 b9 b10 a12 a13 a14 a15 a16 a17, in_read M2 hM2 x2 40 (by decide), mk_read M3 hM3 x3 40 (by decide)]
  try rfl
theorem V16_41 : kernelRunB.sl.v3570 c i tbl hT sim b9 b10 a16 = (rowsOf c tbl i sim x2 x3 (accOf c a12 a13 a14 a15 a16 a17) 41).s := by
  unfold kernelRunB.sl.v3570 kernelRunB.sl.H16_41
  rw [View.readCov_cons_toLoadRect]
  refine Eq.trans ?_ (rowsOf_s c tbl i sim x2 x3 (accOf c a12 a13 a14 a15 a16 a17) 40 (by decide)).symm
  unfold kernelRunB.sl.r_382 kernelRunB.sl.r_379 kernelRunB.sl.cst_15
  simp only [S_v3419 c i tbl hT sim b9, V16_40 c i M2 hM2 M3 hM3 tbl hT sim x2 x3 b9 b10 a12 a13 a14 a15 a16 a17]
  try rfl
theorem V17_41 : kernelRunB.sl.v3575 c i tbl hT sim b9 b10 a17 = (rowsOf c tbl i sim x2 x3 (accOf c a12 a13 a14 a15 a16 a17) 41).q := by
  unfold kernelRunB.sl.v3575 kernelRunB.sl.H17_41
  rw [View.readCov_cons_toLoadRect]
  refine Eq.trans ?_ (rowsOf_q c tbl i sim x2 x3 (accOf c a12 a13 a14 a15 a16 a17) 40 (by decide)).symm
  unfold kernelRunB.sl.r_383 kernelRunB.sl.r_379 kernelRunB.sl.cst_15
  simp only [S_v3419 c i tbl hT sim b9, V17_40 c i M2 hM2 M3 hM3 tbl hT sim x2 x3 b9 b10 a12 a13 a14 a15 a16 a17]
  try rfl
theorem V15_42 : kernelRunB.sl.v3650 c i M2 hM2 M3 hM3 tbl hT sim x2 x3 b9 b10 a15 = (rowsOf c tbl i sim x2 x3 (accOf c a12 a13 a14 a15 a16 a17) 42).nf := by
  unfold kernelRunB.sl.v3650 kernelRunB.sl.H15_42
  rw [View.readCov_cons_toLoadRect]
  refine Eq.trans ?_ (rowsOf_nf c tbl i sim x2 x3 (accOf c a12 a13 a14 a15 a16 a17) 41 (by decide)).symm
  unfold kernelRunB.sl.r_389
  simp only [S_v3504 c i tbl hT sim b10, V15_41 c i M2 hM2 M3 hM3 tbl hT sim x2 x3 b9 b10 a12 a13 a14 a15 a16 a17, in_read M2 hM2 x2 41 (by decide), mk_read M3 hM3 x3 41 (by decide)]
  try rfl
theorem V16_42 : kernelRunB.sl.v3655 c i tbl hT sim b9 b10 a16 = (rowsOf c tbl i sim x2 x3 (accOf c a12 a13 a14 a15 a16 a17) 42).s := by
  unfold kernelRunB.sl.v3655 kernelRunB.sl.H16_42
  rw [View.readCov_cons_toLoadRect]
  refine Eq.trans ?_ (rowsOf_s c tbl i sim x2 x3 (accOf c a12 a13 a14 a15 a16 a17) 41 (by decide)).symm
  unfold kernelRunB.sl.r_391
  simp only [S_v3504 c i tbl hT sim b10, V16_41 c i M2 hM2 M3 hM3 tbl hT sim x2 x3 b9 b10 a12 a13 a14 a15 a16 a17]
  try rfl
theorem V17_42 : kernelRunB.sl.v3660 c i tbl hT sim b9 b10 a17 = (rowsOf c tbl i sim x2 x3 (accOf c a12 a13 a14 a15 a16 a17) 42).q := by
  unfold kernelRunB.sl.v3660 kernelRunB.sl.H17_42
  rw [View.readCov_cons_toLoadRect]
  refine Eq.trans ?_ (rowsOf_q c tbl i sim x2 x3 (accOf c a12 a13 a14 a15 a16 a17) 41 (by decide)).symm
  unfold kernelRunB.sl.r_393 kernelRunB.sl.r_392
  simp only [S_v3504 c i tbl hT sim b10, V17_41 c i M2 hM2 M3 hM3 tbl hT sim x2 x3 b9 b10 a12 a13 a14 a15 a16 a17]
  try rfl
theorem V15_43 : kernelRunB.sl.v3735 c i M2 hM2 M3 hM3 tbl hT sim x2 x3 b9 b10 a15 = (rowsOf c tbl i sim x2 x3 (accOf c a12 a13 a14 a15 a16 a17) 43).nf := by
  unfold kernelRunB.sl.v3735 kernelRunB.sl.H15_43
  rw [View.readCov_cons_toLoadRect]
  refine Eq.trans ?_ (rowsOf_nf c tbl i sim x2 x3 (accOf c a12 a13 a14 a15 a16 a17) 42 (by decide)).symm
  unfold kernelRunB.sl.r_403 kernelRunB.sl.r_396 kernelRunB.sl.r_399 kernelRunB.sl.cst_109
  simp only [S_v3589 c i tbl hT sim b9, V15_42 c i M2 hM2 M3 hM3 tbl hT sim x2 x3 b9 b10 a12 a13 a14 a15 a16 a17, in_read M2 hM2 x2 42 (by decide), mk_read M3 hM3 x3 42 (by decide)]
  try rfl
theorem V16_43 : kernelRunB.sl.v3740 c i tbl hT sim b9 b10 a16 = (rowsOf c tbl i sim x2 x3 (accOf c a12 a13 a14 a15 a16 a17) 43).s := by
  unfold kernelRunB.sl.v3740 kernelRunB.sl.H16_43
  rw [View.readCov_cons_toLoadRect]
  refine Eq.trans ?_ (rowsOf_s c tbl i sim x2 x3 (accOf c a12 a13 a14 a15 a16 a17) 42 (by decide)).symm
  unfold kernelRunB.sl.r_401 kernelRunB.sl.r_398
  simp only [S_v3589 c i tbl hT sim b9, V16_42 c i M2 hM2 M3 hM3 tbl hT sim x2 x3 b9 b10 a12 a13 a14 a15 a16 a17]
  try rfl
theorem V17_43 : kernelRunB.sl.v3745 c i tbl hT sim b9 b10 a17 = (rowsOf c tbl i sim x2 x3 (accOf c a12 a13 a14 a15 a16 a17) 43).q := by
  unfold kernelRunB.sl.v3745 kernelRunB.sl.H17_43
  rw [View.readCov_cons_toLoadRect]
  refine Eq.trans ?_ (rowsOf_q c tbl i sim x2 x3 (accOf c a12 a13 a14 a15 a16 a17) 42 (by decide)).symm
  unfold kernelRunB.sl.r_402 kernelRunB.sl.r_398
  simp only [S_v3589 c i tbl hT sim b9, V17_42 c i M2 hM2 M3 hM3 tbl hT sim x2 x3 b9 b10 a12 a13 a14 a15 a16 a17]
  try rfl
theorem V15_44 : kernelRunB.sl.v3820 c i M2 hM2 M3 hM3 tbl hT sim x2 x3 b9 b10 a15 = (rowsOf c tbl i sim x2 x3 (accOf c a12 a13 a14 a15 a16 a17) 44).nf := by
  unfold kernelRunB.sl.v3820 kernelRunB.sl.H15_44
  rw [View.readCov_cons_toLoadRect]
  refine Eq.trans ?_ (rowsOf_nf c tbl i sim x2 x3 (accOf c a12 a13 a14 a15 a16 a17) 43 (by decide)).symm
  unfold kernelRunB.sl.r_410 kernelRunB.sl.r_406 kernelRunB.sl.r_407 kernelRunB.sl.r_408
  simp only [S_v3674 c i tbl hT sim b10, V15_43 c i M2 hM2 M3 hM3 tbl hT sim x2 x3 b9 b10 a12 a13 a14 a15 a16 a17, in_read M2 hM2 x2 43 (by decide), mk_read M3 hM3 x3 43 (by decide)]
  try rfl
theorem V16_44 : kernelRunB.sl.v3825 c i tbl hT sim b9 b10 a16 = (rowsOf c tbl i sim x2 x3 (accOf c a12 a13 a14 a15 a16 a17) 44).s := by
  unfold kernelRunB.sl.v3825 kernelRunB.sl.H16_44
  rw [View.readCov_cons_toLoadRect]
  refine Eq.trans ?_ (rowsOf_s c tbl i sim x2 x3 (accOf c a12 a13 a14 a15 a16 a17) 43 (by decide)).symm
  unfold kernelRunB.sl.r_411 kernelRunB.sl.r_408
  simp only [S_v3674 c i tbl hT sim b10, V16_43 c i M2 hM2 M3 hM3 tbl hT sim x2 x3 b9 b10 a12 a13 a14 a15 a16 a17]
  try rfl
theorem V17_44 : kernelRunB.sl.v3830 c i tbl hT sim b9 b10 a17 = (rowsOf c tbl i sim x2 x3 (accOf c a12 a13 a14 a15 a16 a17) 44).q := by
  unfold kernelRunB.sl.v3830 kernelRunB.sl.H17_44
  rw [View.readCov_cons_toLoadRect]
  refine Eq.trans ?_ (rowsOf_q c tbl i sim x2 x3 (accOf c a12 a13 a14 a15 a16 a17) 43 (by decide)).symm
  unfold kernelRunB.sl.r_412 kernelRunB.sl.r_408
  simp only [S_v3674 c i tbl hT sim b10, V17_43 c i M2 hM2 M3 hM3 tbl hT sim x2 x3 b9 b10 a12 a13 a14 a15 a16 a17]
  try rfl
theorem V15_45 : kernelRunB.sl.v3905 c i M2 hM2 M3 hM3 tbl hT sim x2 x3 b9 b10 a15 = (rowsOf c tbl i sim x2 x3 (accOf c a12 a13 a14 a15 a16 a17) 45).nf := by
  unfold kernelRunB.sl.v3905 kernelRunB.sl.H15_45
  rw [View.readCov_cons_toLoadRect]
  refine Eq.trans ?_ (rowsOf_nf c tbl i sim x2 x3 (accOf c a12 a13 a14 a15 a16 a17) 44 (by decide)).symm
  unfold kernelRunB.sl.r_419
  simp only [S_v3759 c i tbl hT sim b9, V15_44 c i M2 hM2 M3 hM3 tbl hT sim x2 x3 b9 b10 a12 a13 a14 a15 a16 a17, in_read M2 hM2 x2 44 (by decide), mk_read M3 hM3 x3 44 (by decide)]
  try rfl
theorem V16_45 : kernelRunB.sl.v3910 c i tbl hT sim b9 b10 a16 = (rowsOf c tbl i sim x2 x3 (accOf c a12 a13 a14 a15 a16 a17) 45).s := by
  unfold kernelRunB.sl.v3910 kernelRunB.sl.H16_45
  rw [View.readCov_cons_toLoadRect]
  refine Eq.trans ?_ (rowsOf_s c tbl i sim x2 x3 (accOf c a12 a13 a14 a15 a16 a17) 44 (by decide)).symm
  unfold kernelRunB.sl.r_421
  simp only [S_v3759 c i tbl hT sim b9, V16_44 c i M2 hM2 M3 hM3 tbl hT sim x2 x3 b9 b10 a12 a13 a14 a15 a16 a17]
  try rfl
theorem V17_45 : kernelRunB.sl.v3915 c i tbl hT sim b9 b10 a17 = (rowsOf c tbl i sim x2 x3 (accOf c a12 a13 a14 a15 a16 a17) 45).q := by
  unfold kernelRunB.sl.v3915 kernelRunB.sl.H17_45
  rw [View.readCov_cons_toLoadRect]
  refine Eq.trans ?_ (rowsOf_q c tbl i sim x2 x3 (accOf c a12 a13 a14 a15 a16 a17) 44 (by decide)).symm
  unfold kernelRunB.sl.r_422 kernelRunB.sl.r_417
  simp only [S_v3759 c i tbl hT sim b9, V17_44 c i M2 hM2 M3 hM3 tbl hT sim x2 x3 b9 b10 a12 a13 a14 a15 a16 a17]
  try rfl
theorem V15_46 : kernelRunB.sl.v3990 c i M2 hM2 M3 hM3 tbl hT sim x2 x3 b9 b10 a15 = (rowsOf c tbl i sim x2 x3 (accOf c a12 a13 a14 a15 a16 a17) 46).nf := by
  unfold kernelRunB.sl.v3990 kernelRunB.sl.H15_46
  rw [View.readCov_cons_toLoadRect]
  refine Eq.trans ?_ (rowsOf_nf c tbl i sim x2 x3 (accOf c a12 a13 a14 a15 a16 a17) 45 (by decide)).symm
  unfold kernelRunB.sl.r_431 kernelRunB.sl.r_425 kernelRunB.sl.r_428
  simp only [S_v3844 c i tbl hT sim b10, V15_45 c i M2 hM2 M3 hM3 tbl hT sim x2 x3 b9 b10 a12 a13 a14 a15 a16 a17, in_read M2 hM2 x2 45 (by decide), mk_read M3 hM3 x3 45 (by decide)]
  try rfl
theorem V16_46 : kernelRunB.sl.v3995 c i tbl hT sim b9 b10 a16 = (rowsOf c tbl i sim x2 x3 (accOf c a12 a13 a14 a15 a16 a17) 46).s := by
  unfold kernelRunB.sl.v3995 kernelRunB.sl.H16_46
  rw [View.readCov_cons_toLoadRect]
  refine Eq.trans ?_ (rowsOf_s c tbl i sim x2 x3 (accOf c a12 a13 a14 a15 a16 a17) 45 (by decide)).symm
  unfold kernelRunB.sl.r_429 kernelRunB.sl.r_427
  simp only [S_v3844 c i tbl hT sim b10, V16_45 c i M2 hM2 M3 hM3 tbl hT sim x2 x3 b9 b10 a12 a13 a14 a15 a16 a17]
  try rfl
theorem V17_46 : kernelRunB.sl.v4000 c i tbl hT sim b9 b10 a17 = (rowsOf c tbl i sim x2 x3 (accOf c a12 a13 a14 a15 a16 a17) 46).q := by
  unfold kernelRunB.sl.v4000 kernelRunB.sl.H17_46
  rw [View.readCov_cons_toLoadRect]
  refine Eq.trans ?_ (rowsOf_q c tbl i sim x2 x3 (accOf c a12 a13 a14 a15 a16 a17) 45 (by decide)).symm
  unfold kernelRunB.sl.r_430 kernelRunB.sl.r_427
  simp only [S_v3844 c i tbl hT sim b10, V17_45 c i M2 hM2 M3 hM3 tbl hT sim x2 x3 b9 b10 a12 a13 a14 a15 a16 a17]
  try rfl
theorem V15_47 : kernelRunB.sl.v4075 c i M2 hM2 M3 hM3 tbl hT sim x2 x3 b9 b10 a15 = (rowsOf c tbl i sim x2 x3 (accOf c a12 a13 a14 a15 a16 a17) 47).nf := by
  unfold kernelRunB.sl.v4075 kernelRunB.sl.H15_47
  rw [View.readCov_cons_toLoadRect]
  refine Eq.trans ?_ (rowsOf_nf c tbl i sim x2 x3 (accOf c a12 a13 a14 a15 a16 a17) 46 (by decide)).symm
  unfold kernelRunB.sl.r_437 kernelRunB.sl.r_434 kernelRunB.sl.r_435 kernelRunB.sl.cst_284
  simp only [S_v3929 c i tbl hT sim b9, V15_46 c i M2 hM2 M3 hM3 tbl hT sim x2 x3 b9 b10 a12 a13 a14 a15 a16 a17, in_read M2 hM2 x2 46 (by decide), mk_read M3 hM3 x3 46 (by decide)]
  try rfl
theorem V16_47 : kernelRunB.sl.v4080 c i tbl hT sim b9 b10 a16 = (rowsOf c tbl i sim x2 x3 (accOf c a12 a13 a14 a15 a16 a17) 47).s := by
  unfold kernelRunB.sl.v4080 kernelRunB.sl.H16_47
  rw [View.readCov_cons_toLoadRect]
  refine Eq.trans ?_ (rowsOf_s c tbl i sim x2 x3 (accOf c a12 a13 a14 a15 a16 a17) 46 (by decide)).symm
  unfold kernelRunB.sl.r_438 kernelRunB.sl.cst_284
  simp only [S_v3929 c i tbl hT sim b9, V16_46 c i M2 hM2 M3 hM3 tbl hT sim x2 x3 b9 b10 a12 a13 a14 a15 a16 a17]
  try rfl
theorem V17_47 : kernelRunB.sl.v4085 c i tbl hT sim b9 b10 a17 = (rowsOf c tbl i sim x2 x3 (accOf c a12 a13 a14 a15 a16 a17) 47).q := by
  unfold kernelRunB.sl.v4085 kernelRunB.sl.H17_47
  rw [View.readCov_cons_toLoadRect]
  refine Eq.trans ?_ (rowsOf_q c tbl i sim x2 x3 (accOf c a12 a13 a14 a15 a16 a17) 46 (by decide)).symm
  unfold kernelRunB.sl.r_439 kernelRunB.sl.cst_284
  simp only [S_v3929 c i tbl hT sim b9, V17_46 c i M2 hM2 M3 hM3 tbl hT sim x2 x3 b9 b10 a12 a13 a14 a15 a16 a17]
  try rfl
theorem V15_48 : kernelRunB.sl.v4160 c i M2 hM2 M3 hM3 tbl hT sim x2 x3 b9 b10 a15 = (rowsOf c tbl i sim x2 x3 (accOf c a12 a13 a14 a15 a16 a17) 48).nf := by
  unfold kernelRunB.sl.v4160 kernelRunB.sl.H15_48
  rw [View.readCov_cons_toLoadRect]
  refine Eq.trans ?_ (rowsOf_nf c tbl i sim x2 x3 (accOf c a12 a13 a14 a15 a16 a17) 47 (by decide)).symm
  unfold kernelRunB.sl.r_446
  simp only [S_v4014 c i tbl hT sim b10, V15_47 c i M2 hM2 M3 hM3 tbl hT sim x2 x3 b9 b10 a12 a13 a14 a15 a16 a17, in_read M2 hM2 x2 47 (by decide), mk_read M3 hM3 x3 47 (by decide)]
  try rfl
theorem V16_48 : kernelRunB.sl.v4165 c i tbl hT sim b9 b10 a16 = (rowsOf c tbl i sim x2 x3 (accOf c a12 a13 a14 a15 a16 a17) 48).s := by
  unfold kernelRunB.sl.v4165 kernelRunB.sl.H16_48
  rw [View.readCov_cons_toLoadRect]
  refine Eq.trans ?_ (rowsOf_s c tbl i sim x2 x3 (accOf c a12 a13 a14 a15 a16 a17) 47 (by decide)).symm
  unfold kernelRunB.sl.r_444
  simp only [S_v4014 c i tbl hT sim b10, V16_47 c i M2 hM2 M3 hM3 tbl hT sim x2 x3 b9 b10 a12 a13 a14 a15 a16 a17]
  try rfl
theorem V17_48 : kernelRunB.sl.v4170 c i tbl hT sim b9 b10 a17 = (rowsOf c tbl i sim x2 x3 (accOf c a12 a13 a14 a15 a16 a17) 48).q := by
  unfold kernelRunB.sl.v4170 kernelRunB.sl.H17_48
  rw [View.readCov_cons_toLoadRect]
  refine Eq.trans ?_ (rowsOf_q c tbl i sim x2 x3 (accOf c a12 a13 a14 a15 a16 a17) 47 (by decide)).symm
  unfold kernelRunB.sl.r_448 kernelRunB.sl.r_444
  simp only [S_v4014 c i tbl hT sim b10, V17_47 c i M2 hM2 M3 hM3 tbl hT sim x2 x3 b9 b10 a12 a13 a14 a15 a16 a17]
  try rfl
theorem V15_49 : kernelRunB.sl.v4245 c i M2 hM2 M3 hM3 tbl hT sim x2 x3 b9 b10 a15 = (rowsOf c tbl i sim x2 x3 (accOf c a12 a13 a14 a15 a16 a17) 49).nf := by
  unfold kernelRunB.sl.v4245 kernelRunB.sl.H15_49
  rw [View.readCov_cons_toLoadRect]
  refine Eq.trans ?_ (rowsOf_nf c tbl i sim x2 x3 (accOf c a12 a13 a14 a15 a16 a17) 48 (by decide)).symm
  unfold kernelRunB.sl.r_454 kernelRunB.sl.r_451 kernelRunB.sl.r_452 kernelRunB.sl.r_453
  simp only [S_v4099 c i tbl hT sim b9, V15_48 c i M2 hM2 M3 hM3 tbl hT sim x2 x3 b9 b10 a12 a13 a14 a15 a16 a17, in_read M2 hM2 x2 48 (by decide), mk_read M3 hM3 x3 48 (by decide)]
  try rfl
theorem V16_49 : kernelRunB.sl.v4250 c i tbl hT sim b9 b10 a16 = (rowsOf c tbl i sim x2 x3 (accOf c a12 a13 a14 a15 a16 a17) 49).s := by
  unfold kernelRunB.sl.v4250 kernelRunB.sl.H16_49
  rw [View.readCov_cons_toLoadRect]
  refine Eq.trans ?_ (rowsOf_s c tbl i sim x2 x3 (accOf c a12 a13 a14 a15 a16 a17) 48 (by decide)).symm
  unfold kernelRunB.sl.r_455 kernelRunB.sl.r_453
  simp only [S_v4099 c i tbl hT sim b9, V16_48 c i M2 hM2 M3 hM3 tbl hT sim x2 x3 b9 b10 a12 a13 a14 a15 a16 a17]
  try rfl
theorem V17_49 : kernelRunB.sl.v4255 c i tbl hT sim b9 b10 a17 = (rowsOf c tbl i sim x2 x3 (accOf c a12 a13 a14 a15 a16 a17) 49).q := by
  unfold kernelRunB.sl.v4255 kernelRunB.sl.H17_49
  rw [View.readCov_cons_toLoadRect]
  refine Eq.trans ?_ (rowsOf_q c tbl i sim x2 x3 (accOf c a12 a13 a14 a15 a16 a17) 48 (by decide)).symm
  unfold kernelRunB.sl.r_456 kernelRunB.sl.r_453
  simp only [S_v4099 c i tbl hT sim b9, V17_48 c i M2 hM2 M3 hM3 tbl hT sim x2 x3 b9 b10 a12 a13 a14 a15 a16 a17]
  try rfl
theorem V15_50 : kernelRunB.sl.v4330 c i M2 hM2 M3 hM3 tbl hT sim x2 x3 b9 b10 a15 = (rowsOf c tbl i sim x2 x3 (accOf c a12 a13 a14 a15 a16 a17) 50).nf := by
  unfold kernelRunB.sl.v4330 kernelRunB.sl.H15_50
  rw [View.readCov_cons_toLoadRect]
  refine Eq.trans ?_ (rowsOf_nf c tbl i sim x2 x3 (accOf c a12 a13 a14 a15 a16 a17) 49 (by decide)).symm
  unfold kernelRunB.sl.r_462 kernelRunB.sl.r_458 kernelRunB.sl.r_459
  simp only [S_v4184 c i tbl hT sim b10, V15_49 c i M2 hM2 M3 hM3 tbl hT sim x2 x3 b9 b10 a12 a13 a14 a15 a16 a17, in_read M2 hM2 x2 49 (by decide), mk_read M3 hM3 x3 49 (by decide)]
  try rfl
theorem V16_50 : kernelRunB.sl.v4335 c i tbl hT sim b9 b10 a16 = (rowsOf c tbl i sim x2 x3 (accOf c a12 a13 a14 a15 a16 a17) 50).s := by
  unfold kernelRunB.sl.v4335 kernelRunB.sl.H16_50
  rw [View.readCov_cons_toLoadRect]
  refine Eq.trans ?_ (rowsOf_s c tbl i sim x2 x3 (accOf c a12 a13 a14 a15 a16 a17) 49 (by decide)).symm
  unfold kernelRunB.sl.r_464
  simp only [S_v4184 c i tbl hT sim b10, V16_49 c i M2 hM2 M3 hM3 tbl hT sim x2 x3 b9 b10 a12 a13 a14 a15 a16 a17]
  try rfl
theorem V17_50 : kernelRunB.sl.v4340 c i tbl hT sim b9 b10 a17 = (rowsOf c tbl i sim x2 x3 (accOf c a12 a13 a14 a15 a16 a17) 50).q := by
  unfold kernelRunB.sl.v4340 kernelRunB.sl.H17_50
  rw [View.readCov_cons_toLoadRect]
  refine Eq.trans ?_ (rowsOf_q c tbl i sim x2 x3 (accOf c a12 a13 a14 a15 a16 a17) 49 (by decide)).symm
  unfold kernelRunB.sl.r_465
  simp only [S_v4184 c i tbl hT sim b10, V17_49 c i M2 hM2 M3 hM3 tbl hT sim x2 x3 b9 b10 a12 a13 a14 a15 a16 a17]
  try rfl
theorem V15_51 : kernelRunB.sl.v4415 c i M2 hM2 M3 hM3 tbl hT sim x2 x3 b9 b10 a15 = (rowsOf c tbl i sim x2 x3 (accOf c a12 a13 a14 a15 a16 a17) 51).nf := by
  unfold kernelRunB.sl.v4415 kernelRunB.sl.H15_51
  rw [View.readCov_cons_toLoadRect]
  refine Eq.trans ?_ (rowsOf_nf c tbl i sim x2 x3 (accOf c a12 a13 a14 a15 a16 a17) 50 (by decide)).symm
  unfold kernelRunB.sl.r_471
  simp only [S_v4269 c i tbl hT sim b9, V15_50 c i M2 hM2 M3 hM3 tbl hT sim x2 x3 b9 b10 a12 a13 a14 a15 a16 a17, in_read M2 hM2 x2 50 (by decide), mk_read M3 hM3 x3 50 (by decide)]
  try rfl
theorem V16_51 : kernelRunB.sl.v4420 c i tbl hT sim b9 b10 a16 = (rowsOf c tbl i sim x2 x3 (accOf c a12 a13 a14 a15 a16 a17) 51).s := by
  unfold kernelRunB.sl.v4420 kernelRunB.sl.H16_51
  rw [View.readCov_cons_toLoadRect]
  refine Eq.trans ?_ (rowsOf_s c tbl i sim x2 x3 (accOf c a12 a13 a14 a15 a16 a17) 50 (by decide)).symm
  unfold kernelRunB.sl.r_474 kernelRunB.sl.r_469
  simp only [S_v4269 c i tbl hT sim b9, V16_50 c i M2 hM2 M3 hM3 tbl hT sim x2 x3 b9 b10 a12 a13 a14 a15 a16 a17]
  try rfl
theorem V17_51 : kernelRunB.sl.v4425 c i tbl hT sim b9 b10 a17 = (rowsOf c tbl i sim x2 x3 (accOf c a12 a13 a14 a15 a16 a17) 51).q := by
  unfold kernelRunB.sl.v4425 kernelRunB.sl.H17_51
  rw [View.readCov_cons_toLoadRect]
  refine Eq.trans ?_ (rowsOf_q c tbl i sim x2 x3 (accOf c a12 a13 a14 a15 a16 a17) 50 (by decide)).symm
  unfold kernelRunB.sl.r_473 kernelRunB.sl.r_469
  simp only [S_v4269 c i tbl hT sim b9, V17_50 c i M2 hM2 M3 hM3 tbl hT sim x2 x3 b9 b10 a12 a13 a14 a15 a16 a17]
  try rfl
theorem V15_52 : kernelRunB.sl.v4500 c i M2 hM2 M3 hM3 tbl hT sim x2 x3 b9 b10 a15 = (rowsOf c tbl i sim x2 x3 (accOf c a12 a13 a14 a15 a16 a17) 52).nf := by
  unfold kernelRunB.sl.v4500 kernelRunB.sl.H15_52
  rw [View.readCov_cons_toLoadRect]
  refine Eq.trans ?_ (rowsOf_nf c tbl i sim x2 x3 (accOf c a12 a13 a14 a15 a16 a17) 51 (by decide)).symm
  unfold kernelRunB.sl.r_481 kernelRunB.sl.r_477 kernelRunB.sl.r_478 kernelRunB.sl.r_479 kernelRunB.sl.r_480
  simp only [S_v4354 c i tbl hT sim b10, V15_51 c i M2 hM2 M3 hM3 tbl hT sim x2 x3 b9 b10 a12 a13 a14 a15 a16 a17, in_read M2 hM2 x2 51 (by decide), mk_read M3 hM3 x3 51 (by decide)]
  try rfl
theorem V16_52 : kernelRunB.sl.v4505 c i tbl hT sim b9 b10 a16 = (rowsOf c tbl i sim x2 x3 (accOf c a12 a13 a14 a15 a16 a17) 52).s := by
  unfold kernelRunB.sl.v4505 kernelRunB.sl.H16_52
  rw [View.readCov_cons_toLoadRect]
  refine Eq.trans ?_ (rowsOf_s c tbl i sim x2 x3 (accOf c a12 a13 a14 a15 a16 a17) 51 (by decide)).symm
  unfold kernelRunB.sl.r_482 kernelRunB.sl.r_479 kernelRunB.sl.r_480
  simp only [S_v4354 c i tbl hT sim b10, V16_51 c i M2 hM2 M3 hM3 tbl hT sim x2 x3 b9 b10 a12 a13 a14 a15 a16 a17]
  try rfl
theorem V17_52 : kernelRunB.sl.v4510 c i tbl hT sim b9 b10 a17 = (rowsOf c tbl i sim x2 x3 (accOf c a12 a13 a14 a15 a16 a17) 52).q := by
  unfold kernelRunB.sl.v4510 kernelRunB.sl.H17_52
  rw [View.readCov_cons_toLoadRect]
  refine Eq.trans ?_ (rowsOf_q c tbl i sim x2 x3 (accOf c a12 a13 a14 a15 a16 a17) 51 (by decide)).symm
  unfold kernelRunB.sl.r_483 kernelRunB.sl.r_479 kernelRunB.sl.r_480
  simp only [S_v4354 c i tbl hT sim b10, V17_51 c i M2 hM2 M3 hM3 tbl hT sim x2 x3 b9 b10 a12 a13 a14 a15 a16 a17]
  try rfl
theorem V15_53 : kernelRunB.sl.v4585 c i M2 hM2 M3 hM3 tbl hT sim x2 x3 b9 b10 a15 = (rowsOf c tbl i sim x2 x3 (accOf c a12 a13 a14 a15 a16 a17) 53).nf := by
  unfold kernelRunB.sl.v4585 kernelRunB.sl.H15_53
  rw [View.readCov_cons_toLoadRect]
  refine Eq.trans ?_ (rowsOf_nf c tbl i sim x2 x3 (accOf c a12 a13 a14 a15 a16 a17) 52 (by decide)).symm
  unfold kernelRunB.sl.r_491 kernelRunB.sl.r_486 kernelRunB.sl.r_487
  simp only [S_v4439 c i tbl hT sim b9, V15_52 c i M2 hM2 M3 hM3 tbl hT sim x2 x3 b9 b10 a12 a13 a14 a15 a16 a17, in_read M2 hM2 x2 52 (by decide), mk_read M3 hM3 x3 52 (by decide)]
  try rfl
theorem V16_53 : kernelRunB.sl.v4590 c i tbl hT sim b9 b10 a16 = (rowsOf c tbl i sim x2 x3 (accOf c a12 a13 a14 a15 a16 a17) 53).s := by
  unfold kernelRunB.sl.v4590 kernelRunB.sl.H16_53
  rw [View.readCov_cons_toLoadRect]
  refine Eq.trans ?_ (rowsOf_s c tbl i sim x2 x3 (accOf c a12 a13 a14 a15 a16 a17) 52 (by decide)).symm
  unfold kernelRunB.sl.r_493
  simp only [S_v4439 c i tbl hT sim b9, V16_52 c i M2 hM2 M3 hM3 tbl hT sim x2 x3 b9 b10 a12 a13 a14 a15 a16 a17]
  try rfl
theorem V17_53 : kernelRunB.sl.v4595 c i tbl hT sim b9 b10 a17 = (rowsOf c tbl i sim x2 x3 (accOf c a12 a13 a14 a15 a16 a17) 53).q := by
  unfold kernelRunB.sl.v4595 kernelRunB.sl.H17_53
  rw [View.readCov_cons_toLoadRect]
  refine Eq.trans ?_ (rowsOf_q c tbl i sim x2 x3 (accOf c a12 a13 a14 a15 a16 a17) 52 (by decide)).symm
  unfold kernelRunB.sl.r_494
  simp only [S_v4439 c i tbl hT sim b9, V17_52 c i M2 hM2 M3 hM3 tbl hT sim x2 x3 b9 b10 a12 a13 a14 a15 a16 a17]
  try rfl
theorem V15_54 : kernelRunB.sl.v4670 c i M2 hM2 M3 hM3 tbl hT sim x2 x3 b9 b10 a15 = (rowsOf c tbl i sim x2 x3 (accOf c a12 a13 a14 a15 a16 a17) 54).nf := by
  unfold kernelRunB.sl.v4670 kernelRunB.sl.H15_54
  rw [View.readCov_cons_toLoadRect]
  refine Eq.trans ?_ (rowsOf_nf c tbl i sim x2 x3 (accOf c a12 a13 a14 a15 a16 a17) 53 (by decide)).symm
  unfold kernelRunB.sl.r_502
  simp only [S_v4524 c i tbl hT sim b10, V15_53 c i M2 hM2 M3 hM3 tbl hT sim x2 x3 b9 b10 a12 a13 a14 a15 a16 a17, in_read M2 hM2 x2 53 (by decide), mk_read M3 hM3 x3 53 (by decide)]
  try rfl
theorem V16_54 : kernelRunB.sl.v4675 c i tbl hT sim b9 b10 a16 = (rowsOf c tbl i sim x2 x3 (accOf c a12 a13 a14 a15 a16 a17) 54).s := by
  unfold kernelRunB.sl.v4675 kernelRunB.sl.H16_54
  rw [View.readCov_cons_toLoadRect]
  refine Eq.trans ?_ (rowsOf_s c tbl i sim x2 x3 (accOf c a12 a13 a14 a15 a16 a17) 53 (by decide)).symm
  unfold kernelRunB.sl.r_505 kernelRunB.sl.r_500
  simp only [S_v4524 c i tbl hT sim b10, V16_53 c i M2 hM2 M3 hM3 tbl hT sim x2 x3 b9 b10 a12 a13 a14 a15 a16 a17]
  try rfl
theorem V17_54 : kernelRunB.sl.v4680 c i tbl hT sim b9 b10 a17 = (rowsOf c tbl i sim x2 x3 (accOf c a12 a13 a14 a15 a16 a17) 54).q := by
  unfold kernelRunB.sl.v4680 kernelRunB.sl.H17_54
  rw [View.readCov_cons_toLoadRect]
  refine Eq.trans ?_ (rowsOf_q c tbl i sim x2 x3 (accOf c a12 a13 a14 a15 a16 a17) 53 (by decide)).symm
  unfold kernelRunB.sl.r_504 kernelRunB.sl.r_500
  simp only [S_v4524 c i tbl hT sim b10, V17_53 c i M2 hM2 M3 hM3 tbl hT sim x2 x3 b9 b10 a12 a13 a14 a15 a16 a17]
  try rfl
theorem V15_55 : kernelRunB.sl.v4755 c i M2 hM2 M3 hM3 tbl hT sim x2 x3 b9 b10 a15 = (rowsOf c tbl i sim x2 x3 (accOf c a12 a13 a14 a15 a16 a17) 55).nf := by
  unfold kernelRunB.sl.v4755 kernelRunB.sl.H15_55
  rw [View.readCov_cons_toLoadRect]
  refine Eq.trans ?_ (rowsOf_nf c tbl i sim x2 x3 (accOf c a12 a13 a14 a15 a16 a17) 54 (by decide)).symm
  unfold kernelRunB.sl.r_512 kernelRunB.sl.r_508 kernelRunB.sl.r_509 kernelRunB.sl.r_510 kernelRunB.sl.r_511
  simp only [S_v4609 c i tbl hT sim b9, V15_54 c i M2 hM2 M3 hM3 tbl hT sim x2 x3 b9 b10 a12 a13 a14 a15 a16 a17, in_read M2 hM2 x2 54 (by decide), mk_read M3 hM3 x3 54 (by decide)]
  try rfl
theorem V16_55 : kernelRunB.sl.v4760 c i tbl hT sim b9 b10 a16 = (rowsOf c tbl i sim x2 x3 (accOf c a12 a13 a14 a15 a16 a17) 55).s := by
  unfold kernelRunB.sl.v4760 kernelRunB.sl.H16_55
  rw [View.readCov_cons_toLoadRect]
  refine Eq.trans ?_ (rowsOf_s c tbl i sim x2 x3 (accOf c a12 a13 a14 a15 a16 a17) 54 (by decide)).symm
  unfold kernelRunB.sl.r_513 kernelRunB.sl.r_510 kernelRunB.sl.r_511
  simp only [S_v4609 c i tbl hT sim b9, V16_54 c i M2 hM2 M3 hM3 tbl hT sim x2 x3 b9 b10 a12 a13 a14 a15 a16 a17]
  try rfl
theorem V17_55 : kernelRunB.sl.v4765 c i tbl hT sim b9 b10 a17 = (rowsOf c tbl i sim x2 x3 (accOf c a12 a13 a14 a15 a16 a17) 55).q := by
  unfold kernelRunB.sl.v4765 kernelRunB.sl.H17_55
  rw [View.readCov_cons_toLoadRect]
  refine Eq.trans ?_ (rowsOf_q c tbl i sim x2 x3 (accOf c a12 a13 a14 a15 a16 a17) 54 (by decide)).symm
  unfold kernelRunB.sl.r_514 kernelRunB.sl.r_510 kernelRunB.sl.r_511
  simp only [S_v4609 c i tbl hT sim b9, V17_54 c i M2 hM2 M3 hM3 tbl hT sim x2 x3 b9 b10 a12 a13 a14 a15 a16 a17]
  try rfl
theorem V15_56 : kernelRunB.sl.v4840 c i M2 hM2 M3 hM3 tbl hT sim x2 x3 b9 b10 a15 = (rowsOf c tbl i sim x2 x3 (accOf c a12 a13 a14 a15 a16 a17) 56).nf := by
  unfold kernelRunB.sl.v4840 kernelRunB.sl.H15_56
  rw [View.readCov_cons_toLoadRect]
  refine Eq.trans ?_ (rowsOf_nf c tbl i sim x2 x3 (accOf c a12 a13 a14 a15 a16 a17) 55 (by decide)).symm
  unfold kernelRunB.sl.r_521 kernelRunB.sl.r_517
  simp only [S_v4694 c i tbl hT sim b10, V15_55 c i M2 hM2 M3 hM3 tbl hT sim x2 x3 b9 b10 a12 a13 a14 a15 a16 a17, in_read M2 hM2 x2 55 (by decide), mk_read M3 hM3 x3 55 (by decide)]
  try rfl
theorem V16_56 : kernelRunB.sl.v4845 c i tbl hT sim b9 b10 a16 = (rowsOf c tbl i sim x2 x3 (accOf c a12 a13 a14 a15 a16 a17) 56).s := by
  unfold kernelRunB.sl.v4845 kernelRunB.sl.H16_56
  rw [View.readCov_cons_toLoadRect]
  refine Eq.trans ?_ (rowsOf_s c tbl i sim x2 x3 (accOf c a12 a13 a14 a15 a16 a17) 55 (by decide)).symm
  unfold kernelRunB.sl.r_523
  simp only [S_v4694 c i tbl hT sim b10, V16_55 c i M2 hM2 M3 hM3 tbl hT sim x2 x3 b9 b10 a12 a13 a14 a15 a16 a17]
  try rfl
theorem V17_56 : kernelRunB.sl.v4850 c i tbl hT sim b9 b10 a17 = (rowsOf c tbl i sim x2 x3 (accOf c a12 a13 a14 a15 a16 a17) 56).q := by
  unfold kernelRunB.sl.v4850 kernelRunB.sl.H17_56
  rw [View.readCov_cons_toLoadRect]
  refine Eq.trans ?_ (rowsOf_q c tbl i sim x2 x3 (accOf c a12 a13 a14 a15 a16 a17) 55 (by decide)).symm
  unfold kernelRunB.sl.r_524
  simp only [S_v4694 c i tbl hT sim b10, V17_55 c i M2 hM2 M3 hM3 tbl hT sim x2 x3 b9 b10 a12 a13 a14 a15 a16 a17]
  try rfl
theorem V15_57 : kernelRunB.sl.v4925 c i M2 hM2 M3 hM3 tbl hT sim x2 x3 b9 b10 a15 = (rowsOf c tbl i sim x2 x3 (accOf c a12 a13 a14 a15 a16 a17) 57).nf := by
  unfold kernelRunB.sl.v4925 kernelRunB.sl.H15_57
  rw [View.readCov_cons_toLoadRect]
  refine Eq.trans ?_ (rowsOf_nf c tbl i sim x2 x3 (accOf c a12 a13 a14 a15 a16 a17) 56 (by decide)).symm
  unfold kernelRunB.sl.r_532
  simp only [S_v4779 c i tbl hT sim b9, V15_56 c i M2 hM2 M3 hM3 tbl hT sim x2 x3 b9 b10 a12 a13 a14 a15 a16 a17, in_read M2 hM2 x2 56 (by decide), mk_read M3 hM3 x3 56 (by decide)]
  try rfl
theorem V16_57 : kernelRunB.sl.v4930 c i tbl hT sim b9 b10 a16 = (rowsOf c tbl i sim x2 x3 (accOf c a12 a13 a14 a15 a16 a17) 57).s := by
  unfold kernelRunB.sl.v4930 kernelRunB.sl.H16_57
  rw [View.readCov_cons_toLoadRect]
  refine Eq.trans ?_ (rowsOf_s c tbl i sim x2 x3 (accOf c a12 a13 a14 a15 a16 a17) 56 (by decide)).symm
  unfold kernelRunB.sl.r_533 kernelRunB.sl.r_530
  simp only [S_v4779 c i tbl hT sim b9, V16_56 c i M2 hM2 M3 hM3 tbl hT sim x2 x3 b9 b10 a12 a13 a14 a15 a16 a17]
  try rfl
theorem V17_57 : kernelRunB.sl.v4935 c i tbl hT sim b9 b10 a17 = (rowsOf c tbl i sim x2 x3 (accOf c a12 a13 a14 a15 a16 a17) 57).q := by
  unfold kernelRunB.sl.v4935 kernelRunB.sl.H17_57
  rw [View.readCov_cons_toLoadRect]
  refine Eq.trans ?_ (rowsOf_q c tbl i sim x2 x3 (accOf c a12 a13 a14 a15 a16 a17) 56 (by decide)).symm
  unfold kernelRunB.sl.r_534 kernelRunB.sl.r_530
  simp only [S_v4779 c i tbl hT sim b9, V17_56 c i M2 hM2 M3 hM3 tbl hT sim x2 x3 b9 b10 a12 a13 a14 a15 a16 a17]
  try rfl
theorem V15_58 : kernelRunB.sl.v5010 c i M2 hM2 M3 hM3 tbl hT sim x2 x3 b9 b10 a15 = (rowsOf c tbl i sim x2 x3 (accOf c a12 a13 a14 a15 a16 a17) 58).nf := by
  unfold kernelRunB.sl.v5010 kernelRunB.sl.H15_58
  rw [View.readCov_cons_toLoadRect]
  refine Eq.trans ?_ (rowsOf_nf c tbl i sim x2 x3 (accOf c a12 a13 a14 a15 a16 a17) 57 (by decide)).symm
  unfold kernelRunB.sl.r_542 kernelRunB.sl.r_537 kernelRunB.sl.r_538 kernelRunB.sl.r_539 kernelRunB.sl.r_540 kernelRunB.sl.cst_781
  simp only [S_v4864 c i tbl hT sim b10, V15_57 c i M2 hM2 M3 hM3 tbl hT sim x2 x3 b9 b10 a12 a13 a14 a15 a16 a17, in_read M2 hM2 x2 57 (by decide), mk_read M3 hM3 x3 57 (by decide)]
  try rfl
theorem V16_58 : kernelRunB.sl.v5015 c i tbl hT sim b9 b10 a16 = (rowsOf c tbl i sim x2 x3 (accOf c a12 a13 a14 a15 a16 a17) 58).s := by
  unfold kernelRunB.sl.v5015 kernelRunB.sl.H16_58
  rw [View.readCov_cons_toLoadRect]
  refine Eq.trans ?_ (rowsOf_s c tbl i sim x2 x3 (accOf c a12 a13 a14 a15 a16 a17) 57 (by decide)).symm
  unfold kernelRunB.sl.r_543 kernelRunB.sl.r_539 kernelRunB.sl.r_540 kernelRunB.sl.cst_781
  simp only [S_v4864 c i tbl hT sim b10, V16_57 c i M2 hM2 M3 hM3 tbl hT sim x2 x3 b9 b10 a12 a13 a14 a15 a16 a17]
  try rfl
theorem V17_58 : kernelRunB.sl.v5020 c i tbl hT sim b9 b10 a17 = (rowsOf c tbl i sim x2 x3 (accOf c a12 a13 a14 a15 a16 a17) 58).q := by
  unfold kernelRunB.sl.v5020 kernelRunB.sl.H17_58
  rw [View.readCov_cons_toLoadRect]
  refine Eq.trans ?_ (rowsOf_q c tbl i sim x2 x3 (accOf c a12 a13 a14 a15 a16 a17) 57 (by decide)).symm
  unfold kernelRunB.sl.r_544 kernelRunB.sl.r_539 kernelRunB.sl.r_540 kernelRunB.sl.cst_781
  simp only [S_v4864 c i tbl hT sim b10, V17_57 c i M2 hM2 M3 hM3 tbl hT sim x2 x3 b9 b10 a12 a13 a14 a15 a16 a17]
  try rfl
theorem V15_59 : kernelRunB.sl.v5095 c i M2 hM2 M3 hM3 tbl hT sim x2 x3 b9 b10 a15 = (rowsOf c tbl i sim x2 x3 (accOf c a12 a13 a14 a15 a16 a17) 59).nf := by
  unfold kernelRunB.sl.v5095 kernelRunB.sl.H15_59
  rw [View.readCov_cons_toLoadRect]
  refine Eq.trans ?_ (rowsOf_nf c tbl i sim x2 x3 (accOf c a12 a13 a14 a15 a16 a17) 58 (by decide)).symm
  unfold kernelRunB.sl.r_549
  simp only [V15_58 c i M2 hM2 M3 hM3 tbl hT sim x2 x3 b9 b10 a12 a13 a14 a15 a16 a17, S_v_2 c i tbl hT sim b9, in_read M2 hM2 x2 58 (by decide), mk_read M3 hM3 x3 58 (by decide)]
  try rfl
theorem V16_59 : kernelRunB.sl.v5100 c i tbl hT sim b9 b10 a16 = (rowsOf c tbl i sim x2 x3 (accOf c a12 a13 a14 a15 a16 a17) 59).s := by
  unfold kernelRunB.sl.v5100 kernelRunB.sl.H16_59
  rw [View.readCov_cons_toLoadRect]
  refine Eq.trans ?_ (rowsOf_s c tbl i sim x2 x3 (accOf c a12 a13 a14 a15 a16 a17) 58 (by decide)).symm
  unfold kernelRunB.sl.r_551
  simp only [V16_58 c i M2 hM2 M3 hM3 tbl hT sim x2 x3 b9 b10 a12 a13 a14 a15 a16 a17, S_v_2 c i tbl hT sim b9]
  try rfl
theorem V17_59 : kernelRunB.sl.v5105 c i tbl hT sim b9 b10 a17 = (rowsOf c tbl i sim x2 x3 (accOf c a12 a13 a14 a15 a16 a17) 59).q := by
  unfold kernelRunB.sl.v5105 kernelRunB.sl.H17_59
  rw [View.readCov_cons_toLoadRect]
  refine Eq.trans ?_ (rowsOf_q c tbl i sim x2 x3 (accOf c a12 a13 a14 a15 a16 a17) 58 (by decide)).symm
  unfold kernelRunB.sl.r_552
  simp only [V17_58 c i M2 hM2 M3 hM3 tbl hT sim x2 x3 b9 b10 a12 a13 a14 a15 a16 a17, S_v_2 c i tbl hT sim b9]
  try rfl
theorem V15_60 : kernelRunB.sl.v5180 c i M2 hM2 M3 hM3 tbl hT sim x2 x3 b9 b10 a15 = (rowsOf c tbl i sim x2 x3 (accOf c a12 a13 a14 a15 a16 a17) 60).nf := by
  unfold kernelRunB.sl.v5180 kernelRunB.sl.H15_60
  rw [View.readCov_cons_toLoadRect]
  refine Eq.trans ?_ (rowsOf_nf c tbl i sim x2 x3 (accOf c a12 a13 a14 a15 a16 a17) 59 (by decide)).symm
  unfold kernelRunB.sl.r_559
  simp only [S_v5034 c i tbl hT sim b10, V15_59 c i M2 hM2 M3 hM3 tbl hT sim x2 x3 b9 b10 a12 a13 a14 a15 a16 a17, in_read M2 hM2 x2 59 (by decide), mk_read M3 hM3 x3 59 (by decide)]
  try rfl
theorem V16_60 : kernelRunB.sl.v5185 c i tbl hT sim b9 b10 a16 = (rowsOf c tbl i sim x2 x3 (accOf c a12 a13 a14 a15 a16 a17) 60).s := by
  unfold kernelRunB.sl.v5185 kernelRunB.sl.H16_60
  rw [View.readCov_cons_toLoadRect]
  refine Eq.trans ?_ (rowsOf_s c tbl i sim x2 x3 (accOf c a12 a13 a14 a15 a16 a17) 59 (by decide)).symm
  unfold kernelRunB.sl.r_560 kernelRunB.sl.r_557
  simp only [S_v5034 c i tbl hT sim b10, V16_59 c i M2 hM2 M3 hM3 tbl hT sim x2 x3 b9 b10 a12 a13 a14 a15 a16 a17]
  try rfl
theorem V17_60 : kernelRunB.sl.v5190 c i tbl hT sim b9 b10 a17 = (rowsOf c tbl i sim x2 x3 (accOf c a12 a13 a14 a15 a16 a17) 60).q := by
  unfold kernelRunB.sl.v5190 kernelRunB.sl.H17_60
  rw [View.readCov_cons_toLoadRect]
  refine Eq.trans ?_ (rowsOf_q c tbl i sim x2 x3 (accOf c a12 a13 a14 a15 a16 a17) 59 (by decide)).symm
  unfold kernelRunB.sl.r_561 kernelRunB.sl.r_557
  simp only [S_v5034 c i tbl hT sim b10, V17_59 c i M2 hM2 M3 hM3 tbl hT sim x2 x3 b9 b10 a12 a13 a14 a15 a16 a17]
  try rfl
theorem V15_61 : kernelRunB.sl.v5265 c i M2 hM2 M3 hM3 tbl hT sim x2 x3 b9 b10 a15 = (rowsOf c tbl i sim x2 x3 (accOf c a12 a13 a14 a15 a16 a17) 61).nf := by
  unfold kernelRunB.sl.v5265 kernelRunB.sl.H15_61
  rw [View.readCov_cons_toLoadRect]
  refine Eq.trans ?_ (rowsOf_nf c tbl i sim x2 x3 (accOf c a12 a13 a14 a15 a16 a17) 60 (by decide)).symm
  unfold kernelRunB.sl.r_568 kernelRunB.sl.r_564 kernelRunB.sl.r_565 kernelRunB.sl.r_566 kernelRunB.sl.cst_15
  simp only [S_v5119 c i tbl hT sim b9, V15_60 c i M2 hM2 M3 hM3 tbl hT sim x2 x3 b9 b10 a12 a13 a14 a15 a16 a17, in_read M2 hM2 x2 60 (by decide), mk_read M3 hM3 x3 60 (by decide)]
  try rfl
theorem V16_61 : kernelRunB.sl.v5270 c i tbl hT sim b9 b10 a16 = (rowsOf c tbl i sim x2 x3 (accOf c a12 a13 a14 a15 a16 a17) 61).s := by
  unfold kernelRunB.sl.v5270 kernelRunB.sl.H16_61
  rw [View.readCov_cons_toLoadRect]
  refine Eq.trans ?_ (rowsOf_s c tbl i sim x2 x3 (accOf c a12 a13 a14 a15 a16 a17) 60 (by decide)).symm
  unfold kernelRunB.sl.r_569 kernelRunB.sl.r_566 kernelRunB.sl.cst_15
  simp only [S_v5119 c i tbl hT sim b9, V16_60 c i M2 hM2 M3 hM3 tbl hT sim x2 x3 b9 b10 a12 a13 a14 a15 a16 a17]
  try rfl
theorem V17_61 : kernelRunB.sl.v5275 c i tbl hT sim b9 b10 a17 = (rowsOf c tbl i sim x2 x3 (accOf c a12 a13 a14 a15 a16 a17) 61).q := by
  unfold kernelRunB.sl.v5275 kernelRunB.sl.H17_61
  rw [View.readCov_cons_toLoadRect]
  refine Eq.trans ?_ (rowsOf_q c tbl i sim x2 x3 (accOf c a12 a13 a14 a15 a16 a17) 60 (by decide)).symm
  unfold kernelRunB.sl.r_570 kernelRunB.sl.r_566 kernelRunB.sl.cst_15
  simp only [S_v5119 c i tbl hT sim b9, V17_60 c i M2 hM2 M3 hM3 tbl hT sim x2 x3 b9 b10 a12 a13 a14 a15 a16 a17]
  try rfl
theorem V15_62 : kernelRunB.sl.v5350 c i M2 hM2 M3 hM3 tbl hT sim x2 x3 b9 b10 a15 = (rowsOf c tbl i sim x2 x3 (accOf c a12 a13 a14 a15 a16 a17) 62).nf := by
  unfold kernelRunB.sl.v5350 kernelRunB.sl.H15_62
  rw [View.readCov_cons_toLoadRect]
  refine Eq.trans ?_ (rowsOf_nf c tbl i sim x2 x3 (accOf c a12 a13 a14 a15 a16 a17) 61 (by decide)).symm
  unfold kernelRunB.sl.r_576
  simp only [S_v5204 c i tbl hT sim b10, V15_61 c i M2 hM2 M3 hM3 tbl hT sim x2 x3 b9 b10 a12 a13 a14 a15 a16 a17, in_read M2 hM2 x2 61 (by decide), mk_read M3 hM3 x3 61 (by decide)]
  try rfl
theorem V16_62 : kernelRunB.sl.v5355 c i tbl hT sim b9 b10 a16 = (rowsOf c tbl i sim x2 x3 (accOf c a12 a13 a14 a15 a16 a17) 62).s := by
  unfold kernelRunB.sl.v5355 kernelRunB.sl.H16_62
  rw [View.readCov_cons_toLoadRect]
  refine Eq.trans ?_ (rowsOf_s c tbl i sim x2 x3 (accOf c a12 a13 a14 a15 a16 a17) 61 (by decide)).symm
  unfold kernelRunB.sl.r_578
  simp only [S_v5204 c i tbl hT sim b10, V16_61 c i M2 hM2 M3 hM3 tbl hT sim x2 x3 b9 b10 a12 a13 a14 a15 a16 a17]
  try rfl
theorem V17_62 : kernelRunB.sl.v5360 c i tbl hT sim b9 b10 a17 = (rowsOf c tbl i sim x2 x3 (accOf c a12 a13 a14 a15 a16 a17) 62).q := by
  unfold kernelRunB.sl.v5360 kernelRunB.sl.H17_62
  rw [View.readCov_cons_toLoadRect]
  refine Eq.trans ?_ (rowsOf_q c tbl i sim x2 x3 (accOf c a12 a13 a14 a15 a16 a17) 61 (by decide)).symm
  unfold kernelRunB.sl.r_580 kernelRunB.sl.r_579
  simp only [S_v5204 c i tbl hT sim b10, V17_61 c i M2 hM2 M3 hM3 tbl hT sim x2 x3 b9 b10 a12 a13 a14 a15 a16 a17]
  try rfl
theorem V15_63 : kernelRunB.sl.v5429 c i M2 hM2 M3 hM3 tbl hT sim x2 x3 b9 b10 a15 = (rowsOf c tbl i sim x2 x3 (accOf c a12 a13 a14 a15 a16 a17) 63).nf := by
  unfold kernelRunB.sl.v5429 kernelRunB.sl.H15_63
  rw [View.readCov_cons_toLoadRect]
  refine Eq.trans ?_ (rowsOf_nf c tbl i sim x2 x3 (accOf c a12 a13 a14 a15 a16 a17) 62 (by decide)).symm
  unfold kernelRunB.sl.r_590 kernelRunB.sl.r_583 kernelRunB.sl.r_586 kernelRunB.sl.cst_109
  simp only [S_v5289 c i tbl hT sim b9, V15_62 c i M2 hM2 M3 hM3 tbl hT sim x2 x3 b9 b10 a12 a13 a14 a15 a16 a17, in_read M2 hM2 x2 62 (by decide), mk_read M3 hM3 x3 62 (by decide)]
  try rfl
theorem V16_63 : kernelRunB.sl.v5434 c i tbl hT sim b9 b10 a16 = (rowsOf c tbl i sim x2 x3 (accOf c a12 a13 a14 a15 a16 a17) 63).s := by
  unfold kernelRunB.sl.v5434 kernelRunB.sl.H16_63
  rw [View.readCov_cons_toLoadRect]
  refine Eq.trans ?_ (rowsOf_s c tbl i sim x2 x3 (accOf c a12 a13 a14 a15 a16 a17) 62 (by decide)).symm
  unfold kernelRunB.sl.r_588 kernelRunB.sl.r_585
  simp only [S_v5289 c i tbl hT sim b9, V16_62 c i M2 hM2 M3 hM3 tbl hT sim x2 x3 b9 b10 a12 a13 a14 a15 a16 a17]
  try rfl
theorem V17_63 : kernelRunB.sl.v5439 c i tbl hT sim b9 b10 a17 = (rowsOf c tbl i sim x2 x3 (accOf c a12 a13 a14 a15 a16 a17) 63).q := by
  unfold kernelRunB.sl.v5439 kernelRunB.sl.H17_63
  rw [View.readCov_cons_toLoadRect]
  refine Eq.trans ?_ (rowsOf_q c tbl i sim x2 x3 (accOf c a12 a13 a14 a15 a16 a17) 62 (by decide)).symm
  unfold kernelRunB.sl.r_589 kernelRunB.sl.r_585
  simp only [S_v5289 c i tbl hT sim b9, V17_62 c i M2 hM2 M3 hM3 tbl hT sim x2 x3 b9 b10 a12 a13 a14 a15 a16 a17]
  try rfl
theorem L15_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : ¬ C2 i) : (kernelRunB c i M2 hM2 M3 hM3 M5 hM5 M6 hM6 M7 hM7 M8 hM8 tbl hT sim x2 x3 b9 b10 a12 a13 a14 a15 a16 a17 h1 h2).2.2.2.1 = ⟨Rect.unit ![0, 0] S1x1.size inb_S1x1_S1x1_0_0, k0_pay968 (kernelRunB.sl.r_596 c i M2 hM2 M3 hM3 tbl hT sim x2 x3 b10) (kernelRunB.sl.v5429 c i M2 hM2 M3 hM3 tbl hT sim x2 x3 b9 b10 a15)⟩ :: kernelRunB.sl.H15_63 c i M2 hM2 M3 hM3 tbl hT sim x2 x3 b9 b10 a15 := rfl
theorem V15_64 : View.readAt (Elt F) (Memref.whole cc0_scratch6).view (Rect.unit ![0, 0] S1x1.size inb_S1x1_S1x1_0_0).toLoadRect ((Memref.whole cc0_scratch6).view.writes (Elt F) a15 (⟨Rect.unit ![0, 0] S1x1.size inb_S1x1_S1x1_0_0, k0_pay968 (kernelRunB.sl.r_596 c i M2 hM2 M3 hM3 tbl hT sim x2 x3 b10) (kernelRunB.sl.v5429 c i M2 hM2 M3 hM3 tbl hT sim x2 x3 b9 b10 a15)⟩ :: kernelRunB.sl.H15_63 c i M2 hM2 M3 hM3 tbl hT sim x2 x3 b9 b10 a15)) = (rowsOf c tbl i sim x2 x3 (accOf c a12 a13 a14 a15 a16 a17) 64).nf := by
  rw [read_last_write]
  refine Eq.trans ?_ (rowsOf_nf c tbl i sim x2 x3 (accOf c a12 a13 a14 a15 a16 a17) 63 (by decide)).symm
  unfold kernelRunB.sl.r_596 kernelRunB.sl.r_592 kernelRunB.sl.r_593 kernelRunB.sl.r_594 kernelRunB.sl.r_595
  simp only [S_v5368 c i tbl hT sim b10, V15_63 c i M2 hM2 M3 hM3 tbl hT sim x2 x3 b9 b10 a12 a13 a14 a15 a16 a17, in_read M2 hM2 x2 63 (by decide), mk_read M3 hM3 x3 63 (by decide)]
  try rfl
theorem L16_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : ¬ C2 i) : (kernelRunB c i M2 hM2 M3 hM3 M5 hM5 M6 hM6 M7 hM7 M8 hM8 tbl hT sim x2 x3 b9 b10 a12 a13 a14 a15 a16 a17 h1 h2).2.2.2.2.1 = ⟨Rect.unit ![0, 0] S1x1.size inb_S1x1_S1x1_0_0, k0_pay969 (kernelRunB.sl.r_597 c i tbl hT sim b10) (kernelRunB.sl.v5434 c i tbl hT sim b9 b10 a16)⟩ :: kernelRunB.sl.H16_63 c i tbl hT sim b9 b10 a16 := rfl
theorem V16_64 : View.readAt (Elt F) (Memref.whole cc0_scratch7).view (Rect.unit ![0, 0] S1x1.size inb_S1x1_S1x1_0_0).toLoadRect ((Memref.whole cc0_scratch7).view.writes (Elt F) a16 (⟨Rect.unit ![0, 0] S1x1.size inb_S1x1_S1x1_0_0, k0_pay969 (kernelRunB.sl.r_597 c i tbl hT sim b10) (kernelRunB.sl.v5434 c i tbl hT sim b9 b10 a16)⟩ :: kernelRunB.sl.H16_63 c i tbl hT sim b9 b10 a16)) = (rowsOf c tbl i sim x2 x3 (accOf c a12 a13 a14 a15 a16 a17) 64).s := by
  rw [read_last_write]
  refine Eq.trans ?_ (rowsOf_s c tbl i sim x2 x3 (accOf c a12 a13 a14 a15 a16 a17) 63 (by decide)).symm
  unfold kernelRunB.sl.r_597 kernelRunB.sl.r_594 kernelRunB.sl.r_595
  simp only [S_v5368 c i tbl hT sim b10, V16_63 c i M2 hM2 M3 hM3 tbl hT sim x2 x3 b9 b10 a12 a13 a14 a15 a16 a17]
  try rfl
theorem L17_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : ¬ C2 i) : (kernelRunB c i M2 hM2 M3 hM3 M5 hM5 M6 hM6 M7 hM7 M8 hM8 tbl hT sim x2 x3 b9 b10 a12 a13 a14 a15 a16 a17 h1 h2).2.2.2.2.2.1 = ⟨Rect.unit ![0, 0] S1x1.size inb_S1x1_S1x1_0_0, k0_pay1 (kernelRunB.sl.r_600 c i tbl hT sim b9 b10 a17)⟩ :: kernelRunB.sl.H17_63 c i tbl hT sim b9 b10 a17 := rfl
theorem V17_64 : View.readAt (Elt F) (Memref.whole cc0_scratch8).view (Rect.unit ![0, 0] S1x1.size inb_S1x1_S1x1_0_0).toLoadRect ((Memref.whole cc0_scratch8).view.writes (Elt F) a17 (⟨Rect.unit ![0, 0] S1x1.size inb_S1x1_S1x1_0_0, k0_pay1 (kernelRunB.sl.r_600 c i tbl hT sim b9 b10 a17)⟩ :: kernelRunB.sl.H17_63 c i tbl hT sim b9 b10 a17)) = (rowsOf c tbl i sim x2 x3 (accOf c a12 a13 a14 a15 a16 a17) 64).q := by
  rw [read_last_write]
  refine Eq.trans ?_ (rowsOf_q c tbl i sim x2 x3 (accOf c a12 a13 a14 a15 a16 a17) 63 (by decide)).symm
  unfold kernelRunB.sl.r_600 kernelRunB.sl.r_598 kernelRunB.sl.r_594 kernelRunB.sl.r_595
  simp only [S_v5368 c i tbl hT sim b10, V17_63 c i M2 hM2 M3 hM3 tbl hT sim x2 x3 b9 b10 a12 a13 a14 a15 a16 a17]
  try rfl
end TabB

end Cert.Proof.K

end
-- ==== Proof.KStepB.lean ====
/-
  Case B of the kernel body's run at one grid point: what the run found in the six accumulator buffers is the
  point's clean step. Each found list ends with a write through the whole one-by-one buffer, so the buffer reads
  back as that write's payload; the payload is the running sum after sixty-four rows (the table's last line for
  that sum); and the sixty-four rows, one at a time, are the point's step.
-/
import proofs.«419560_j5755256177164_3_alg».proof.Proof.KRunB
import proofs.«419560_j5755256177164_3_alg».proof.Proof.KStepLib
import proofs.«419560_j5755256177164_3_alg».proof.Proof.KStepBTabV1
import proofs.«419560_j5755256177164_3_alg».proof.Proof.KStepBTabV2

set_option maxRecDepth 65536

noncomputable section

namespace Cert.Proof.K

open Cert.Kernel Cert.Kernel.Gen
open Idealize.ShloMosaic Idealize.ShloMosaic.TcCoe
open Idealize.SL Idealize.SL.Sem

variable {F : FTy → Type} [FloatOps F]

theorem stepB_eq (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))
    (h1 : ¬ C1 i) (h2 : ¬ C2 i) :
    accOf c
      ((Memref.whole cc0_scratch3).view.writes (Elt F) a12 (kernelRunB c i M2 hM2 M3 hM3 M5 hM5 M6 hM6 M7 hM7 M8 hM8 tbl hT sim x2 x3 b9 b10 a12 a13 a14 a15 a16 a17 h1 h2).1)
      ((Memref.whole cc0_scratch4).view.writes (Elt F) a13 (kernelRunB c i M2 hM2 M3 hM3 M5 hM5 M6 hM6 M7 hM7 M8 hM8 tbl hT sim x2 x3 b9 b10 a12 a13 a14 a15 a16 a17 h1 h2).2.1)
      ((Memref.whole cc0_scratch5).view.writes (Elt F) a14 (kernelRunB c i M2 hM2 M3 hM3 M5 hM5 M6 hM6 M7 hM7 M8 hM8 tbl hT sim x2 x3 b9 b10 a12 a13 a14 a15 a16 a17 h1 h2).2.2.1)
      ((Memref.whole cc0_scratch6).view.writes (Elt F) a15 (kernelRunB c i M2 hM2 M3 hM3 M5 hM5 M6 hM6 M7 hM7 M8 hM8 tbl hT sim x2 x3 b9 b10 a12 a13 a14 a15 a16 a17 h1 h2).2.2.2.1)
      ((Memref.whole cc0_scratch7).view.writes (Elt F) a16 (kernelRunB c i M2 hM2 M3 hM3 M5 hM5 M6 hM6 M7 hM7 M8 hM8 tbl hT sim x2 x3 b9 b10 a12 a13 a14 a15 a16 a17 h1 h2).2.2.2.2.1)
      ((Memref.whole cc0_scratch8).view.writes (Elt F) a17 (kernelRunB c i M2 hM2 M3 hM3 M5 hM5 M6 hM6 M7 hM7 M8 hM8 tbl hT sim x2 x3 b9 b10 a12 a13 a14 a15 a16 a17 h1 h2).2.2.2.2.2.1)
      = pointOf c tbl i sim x2 x3 (accOf c a12 a13 a14 a15 a16 a17) := by
  have e12 : View.readAt (Elt F) (Memref.whole cc0_scratch3).view (Rect.unit ![0, 0] S1x1.size inb_S1x1_S1x1_0_0).toLoadRect
      ((Memref.whole cc0_scratch3).view.writes (Elt F) a12 (kernelRunB c i M2 hM2 M3 hM3 M5 hM5 M6 hM6 M7 hM7 M8 hM8 tbl hT sim x2 x3 b9 b10 a12 a13 a14 a15 a16 a17 h1 h2).1)
      = (rowsOf c tbl i sim x2 x3 (accOf c a12 a13 a14 a15 a16 a17) 64).m :=
    (congrArg (fun L => View.readAt (Elt F) (Memref.whole cc0_scratch3).view (Rect.unit ![0, 0] S1x1.size inb_S1x1_S1x1_0_0).toLoadRect
      ((Memref.whole cc0_scratch3).view.writes (Elt F) a12 L))
      (TabB.L12_eq c i M2 hM2 M3 hM3 tbl hT sim x2 x3 b9 b10 a12 a13 a14 a15 a16 a17 M5 hM5 M6 hM6 M7 hM7 M8 hM8 h1 h2)).trans (TabB.V12_64 c i M2 hM2 M3 hM3 tbl hT sim x2 x3 b9 b10 a12 a13 a14 a15 a16 a17)
  have e13 : View.readAt (Elt F) (Memref.whole cc0_scratch4).view (Rect.unit ![0, 0] S1x1.size inb_S1x1_S1x1_0_0).toLoadRect
      ((Memref.whole cc0_scratch4).view.writes (Elt F) a13 (kernelRunB c i M2 hM2 M3 hM3 M5 hM5 M6 hM6 M7 hM7 M8 hM8 tbl hT sim x2 x3 b9 b10 a12 a13 a14 a15 a16 a17 h1 h2).2.1)
      = (rowsOf c tbl i sim x2 x3 (accOf c a12 a13 a14 a15 a16 a17) 64).logp :=
    (congrArg (fun L => View.readAt (Elt F) (Memref.whole cc0_scratch4).view (Rect.unit ![0, 0] S1x1.size inb_S1x1_S1x1_0_0).toLoadRect
      ((Memref.whole cc0_scratch4).view.writes (Elt F) a13 L))
      (TabB.L13_eq c i M2 hM2 M3 hM3 tbl hT sim x2 x3 b9 b10 a12 a13 a14 a15 a16 a17 M5 hM5 M6 hM6 M7 hM7 M8 hM8 h1 h2)).trans (TabB.V13_64 c i M2 hM2 M3 hM3 tbl hT sim x2 x3 b9 b10 a12 a13 a14 a15 a16 a17)
  have e14 : View.readAt (Elt F) (Memref.whole cc0_scratch5).view (Rect.unit ![0, 0] S1x1.size inb_S1x1_S1x1_0_0).toLoadRect
      ((Memref.whole cc0_scratch5).view.writes (Elt F) a14 (kernelRunB c i M2 hM2 M3 hM3 M5 hM5 M6 hM6 M7 hM7 M8 hM8 tbl hT sim x2 x3 b9 b10 a12 a13 a14 a15 a16 a17 h1 h2).2.2.1)
      = (rowsOf c tbl i sim x2 x3 (accOf c a12 a13 a14 a15 a16 a17) 64).w :=
    (congrArg (fun L => View.readAt (Elt F) (Memref.whole cc0_scratch5).view (Rect.unit ![0, 0] S1x1.size inb_S1x1_S1x1_0_0).toLoadRect
      ((Memref.whole cc0_scratch5).view.writes (Elt F) a14 L))
      (TabB.L14_eq c i M2 hM2 M3 hM3 tbl hT sim x2 x3 b9 b10 a12 a13 a14 a15 a16 a17 M5 hM5 M6 hM6 M7 hM7 M8 hM8 h1 h2)).trans (TabB.V14_64 c i M2 hM2 M3 hM3 tbl hT sim x2 x3 b9 b10 a12 a13 a14 a15 a16 a17)
  have e15 : View.readAt (Elt F) (Memref.whole cc0_scratch6).view (Rect.unit ![0, 0] S1x1.size inb_S1x1_S1x1_0_0).toLoadRect
      ((Memref.whole cc0_scratch6).view.writes (Elt F) a15 (kernelRunB c i M2 hM2 M3 hM3 M5 hM5 M6 hM6 M7 hM7 M8 hM8 tbl hT sim x2 x3 b9 b10 a12 a13 a14 a15 a16 a17 h1 h2).2.2.2.1)
      = (rowsOf c tbl i sim x2 x3 (accOf c a12 a13 a14 a15 a16 a17) 64).nf :=
    (congrArg (fun L => View.readAt (Elt F) (Memref.whole cc0_scratch6).view (Rect.unit ![0, 0] S1x1.size inb_S1x1_S1x1_0_0).toLoadRect
      ((Memref.whole cc0_scratch6).view.writes (Elt F) a15 L))
      (TabB.L15_eq c i M2 hM2 M3 hM3 tbl hT sim x2 x3 b9 b10 a12 a13 a14 a15 a16 a17 M5 hM5 M6 hM6 M7 hM7 M8 hM8 h1 h2)).trans (TabB.V15_64 c i M2 hM2 M3 hM3 tbl hT sim x2 x3 b9 b10 a12 a13 a14 a15 a16 a17)
  have e16 : View.readAt (Elt F) (Memref.whole cc0_scratch7).view (Rect.unit ![0, 0] S1x1.size inb_S1x1_S1x1_0_0).toLoadRect
      ((Memref.whole cc0_scratch7).view.writes (Elt F) a16 (kernelRunB c i M2 hM2 M3 hM3 M5 hM5 M6 hM6 M7 hM7 M8 hM8 tbl hT sim x2 x3 b9 b10 a12 a13 a14 a15 a16 a17 h1 h2).2.2.2.2.1)
      = (rowsOf c tbl i sim x2 x3 (accOf c a12 a13 a14 a15 a16 a17) 64).s :=
    (congrArg (fun L => View.readAt (Elt F) (Memref.whole cc0_scratch7).view (Rect.unit ![0, 0] S1x1.size inb_S1x1_S1x1_0_0).toLoadRect
      ((Memref.whole cc0_scratch7).view.writes (Elt F) a16 L))
      (TabB.L16_eq c i M2 hM2 M3 hM3 tbl hT sim x2 x3 b9 b10 a12 a13 a14 a15 a16 a17 M5 hM5 M6 hM6 M7 hM7 M8 hM8 h1 h2)).trans (TabB.V16_64 c i M2 hM2 M3 hM3 tbl hT sim x2 x3 b9 b10 a12 a13 a14 a15 a16 a17)
  have e17 : View.readAt (Elt F) (Memref.whole cc0_scratch8).view (Rect.unit ![0, 0] S1x1.size inb_S1x1_S1x1_0_0).toLoadRect
      ((Memref.whole cc0_scratch8).view.writes (Elt F) a17 (kernelRunB c i M2 hM2 M3 hM3 M5 hM5 M6 hM6 M7 hM7 M8 hM8 tbl hT sim x2 x3 b9 b10 a12 a13 a14 a15 a16 a17 h1 h2).2.2.2.2.2.1)
      = (rowsOf c tbl i sim x2 x3 (accOf c a12 a13 a14 a15 a16 a17) 64).q :=
    (congrArg (fun L => View.readAt (Elt F) (Memref.whole cc0_scratch8).view (Rect.unit ![0, 0] S1x1.size inb_S1x1_S1x1_0_0).toLoadRect
      ((Memref.whole cc0_scratch8).view.writes (Elt F) a17 L))
      (TabB.L17_eq c i M2 hM2 M3 hM3 tbl hT sim x2 x3 b9 b10 a12 a13 a14 a15 a16 a17 M5 hM5 M6 hM6 M7 hM7 M8 hM8 h1 h2)).trans (TabB.V17_64 c i M2 hM2 M3 hM3 tbl hT sim x2 x3 b9 b10 a12 a13 a14 a15 a16 a17)
  refine Eq.trans ?_ (pointOf_eq_rowsOf c tbl i sim x2 x3 (accOf c a12 a13 a14 a15 a16 a17)).symm
  exact Acc.ext6 e12 e13 e14 e15 e16 e17

end Cert.Proof.K

end
-- ==== Proof.KStepCTabW.lean ====
import proofs.«419560_j5755256177164_3_alg».proof.Proof.KRunC
import proofs.«419560_j5755256177164_3_alg».proof.Proof.KStepLib

/-!
  The table of case C: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.K

open Cert.Kernel Cert.Kernel.Gen
open Idealize.ShloMosaic Idealize.ShloMosaic.TcCoe
open Idealize.SL Idealize.SL.Sem

variable {F : FTy → Type} [FloatOps F]

namespace TabC

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

theorem W_r : kernelRunC.sl.r c i tbl = wordAt c tbl i ⟨0, by decide⟩ := by
  unfold kernelRunC.sl.r; exact word_of_off c tbl i ⟨0, by decide⟩ _ _ _ (k0_off1_eq i)
theorem W_r_2 : kernelRunC.sl.r_2 c i tbl = wordAt c tbl i ⟨0, by decide⟩ := by
  unfold kernelRunC.sl.r_2; exact word_of_off c tbl i ⟨0, by decide⟩ _ _ _ (k0_off5_eq i ⟨0, by decide⟩)
theorem W_r_1 : kernelRunC.sl.r_1 c i tbl = wordAt c tbl i ⟨1, by decide⟩ := by
  unfold kernelRunC.sl.r_1; exact word_of_off c tbl i ⟨1, by decide⟩ _ _ _ (k0_off3_eq i)
theorem W_r_12 : kernelRunC.sl.r_12 c i tbl = wordAt c tbl i ⟨1, by decide⟩ := by
  unfold kernelRunC.sl.r_12; exact word_of_off c tbl i ⟨1, by decide⟩ _ _ _ (k0_off7_eq i ⟨0, by decide⟩)
theorem W_r_11 : kernelRunC.sl.r_11 c i tbl = wordAt c tbl i ⟨2, by decide⟩ := by
  unfold kernelRunC.sl.r_11; exact word_of_off c tbl i ⟨2, by decide⟩ _ _ _ (k0_off5_eq i ⟨1, by decide⟩)
theorem W_r_21 : kernelRunC.sl.r_21 c i tbl = wordAt c tbl i ⟨2, by decide⟩ := by
  unfold kernelRunC.sl.r_21; exact word_of_off c tbl i ⟨2, by decide⟩ _ _ _ (k0_off9_eq i ⟨0, by decide⟩)
theorem W_r_20 : kernelRunC.sl.r_20 c i tbl = wordAt c tbl i ⟨3, by decide⟩ := by
  unfold kernelRunC.sl.r_20; exact word_of_off c tbl i ⟨3, by decide⟩ _ _ _ (k0_off7_eq i ⟨1, by decide⟩)
theorem W_r_31 : kernelRunC.sl.r_31 c i tbl = wordAt c tbl i ⟨3, by decide⟩ := by
  unfold kernelRunC.sl.r_31; exact word_of_off c tbl i ⟨3, by decide⟩ _ _ _ (k0_off11_eq i ⟨0, by decide⟩)
theorem W_r_30 : kernelRunC.sl.r_30 c i tbl = wordAt c tbl i ⟨4, by decide⟩ := by
  unfold kernelRunC.sl.r_30; exact word_of_off c tbl i ⟨4, by decide⟩ _ _ _ (k0_off9_eq i ⟨1, by decide⟩)
theorem W_r_41 : kernelRunC.sl.r_41 c i tbl = wordAt c tbl i ⟨4, by decide⟩ := by
  unfold kernelRunC.sl.r_41; exact word_of_off c tbl i ⟨4, by decide⟩ _ _ _ (k0_off13_eq i ⟨0, by decide⟩)
theorem W_r_40 : kernelRunC.sl.r_40 c i tbl = wordAt c tbl i ⟨5, by decide⟩ := by
  unfold kernelRunC.sl.r_40; exact word_of_off c tbl i ⟨5, by decide⟩ _ _ _ (k0_off11_eq i ⟨1, by decide⟩)
theorem W_r_50 : kernelRunC.sl.r_50 c i tbl = wordAt c tbl i ⟨5, by decide⟩ := by
  unfold kernelRunC.sl.r_50; exact word_of_off c tbl i ⟨5, by decide⟩ _ _ _ (k0_off15_eq i ⟨0, by decide⟩)
theorem W_r_49 : kernelRunC.sl.r_49 c i tbl = wordAt c tbl i ⟨6, by decide⟩ := by
  unfold kernelRunC.sl.r_49; exact word_of_off c tbl i ⟨6, by decide⟩ _ _ _ (k0_off13_eq i ⟨1, by decide⟩)
theorem W_r_59 : kernelRunC.sl.r_59 c i tbl = wordAt c tbl i ⟨6, by decide⟩ := by
  unfold kernelRunC.sl.r_59; exact word_of_off c tbl i ⟨6, by decide⟩ _ _ _ (k0_off17_eq i ⟨0, by decide⟩)
theorem W_r_58 : kernelRunC.sl.r_58 c i tbl = wordAt c tbl i ⟨7, by decide⟩ := by
  unfold kernelRunC.sl.r_58; exact word_of_off c tbl i ⟨7, by decide⟩ _ _ _ (k0_off15_eq i ⟨1, by decide⟩)
theorem W_r_68 : kernelRunC.sl.r_68 c i tbl = wordAt c tbl i ⟨7, by decide⟩ := by
  unfold kernelRunC.sl.r_68; exact word_of_off c tbl i ⟨7, by decide⟩ _ _ _ (k0_off19_eq i ⟨0, by decide⟩)
theorem W_r_67 : kernelRunC.sl.r_67 c i tbl = wordAt c tbl i ⟨8, by decide⟩ := by
  unfold kernelRunC.sl.r_67; exact word_of_off c tbl i ⟨8, by decide⟩ _ _ _ (k0_off17_eq i ⟨1, by decide⟩)
theorem W_r_76 : kernelRunC.sl.r_76 c i tbl = wordAt c tbl i ⟨8, by decide⟩ := by
  unfold kernelRunC.sl.r_76; exact word_of_off c tbl i ⟨8, by decide⟩ _ _ _ (k0_off21_eq i ⟨0, by decide⟩)
theorem W_r_75 : kernelRunC.sl.r_75 c i tbl = wordAt c tbl i ⟨9, by decide⟩ := by
  unfold kernelRunC.sl.r_75; exact word_of_off c tbl i ⟨9, by decide⟩ _ _ _ (k0_off19_eq i ⟨1, by decide⟩)
theorem W_r_86 : kernelRunC.sl.r_86 c i tbl = wordAt c tbl i ⟨9, by decide⟩ := by
  unfold kernelRunC.sl.r_86; exact word_of_off c tbl i ⟨9, by decide⟩ _ _ _ (k0_off23_eq i ⟨0, by decide⟩)
theorem W_r_83 : kernelRunC.sl.r_83 c i tbl = wordAt c tbl i ⟨10, by decide⟩ := by
  unfold kernelRunC.sl.r_83; exact word_of_off c tbl i ⟨10, by decide⟩ _ _ _ (k0_off21_eq i ⟨1, by decide⟩)
theorem W_r_93 : kernelRunC.sl.r_93 c i tbl = wordAt c tbl i ⟨10, by decide⟩ := by
  unfold kernelRunC.sl.r_93; exact word_of_off c tbl i ⟨10, by decide⟩ _ _ _ (k0_off25_eq i ⟨0, by decide⟩)
theorem W_r_102 : kernelRunC.sl.r_102 c i tbl = wordAt c tbl i ⟨11, by decide⟩ := by
  unfold kernelRunC.sl.r_102; exact word_of_off c tbl i ⟨11, by decide⟩ _ _ _ (k0_off27_eq i ⟨0, by decide⟩)
theorem W_r_92 : kernelRunC.sl.r_92 c i tbl = wordAt c tbl i ⟨11, by decide⟩ := by
  unfold kernelRunC.sl.r_92; exact word_of_off c tbl i ⟨11, by decide⟩ _ _ _ (k0_off23_eq i ⟨1, by decide⟩)
theorem W_r_101 : kernelRunC.sl.r_101 c i tbl = wordAt c tbl i ⟨12, by decide⟩ := by
  unfold kernelRunC.sl.r_101; exact word_of_off c tbl i ⟨12, by decide⟩ _ _ _ (k0_off25_eq i ⟨1, by decide⟩)
theorem W_r_114 : kernelRunC.sl.r_114 c i tbl = wordAt c tbl i ⟨12, by decide⟩ := by
  unfold kernelRunC.sl.r_114; exact word_of_off c tbl i ⟨12, by decide⟩ _ _ _ (k0_off29_eq i ⟨0, by decide⟩)
theorem W_r_111 : kernelRunC.sl.r_111 c i tbl = wordAt c tbl i ⟨13, by decide⟩ := by
  unfold kernelRunC.sl.r_111; exact word_of_off c tbl i ⟨13, by decide⟩ _ _ _ (k0_off27_eq i ⟨1, by decide⟩)
theorem W_r_123 : kernelRunC.sl.r_123 c i tbl = wordAt c tbl i ⟨13, by decide⟩ := by
  unfold kernelRunC.sl.r_123; exact word_of_off c tbl i ⟨13, by decide⟩ _ _ _ (k0_off31_eq i ⟨0, by decide⟩)
theorem W_r_122 : kernelRunC.sl.r_122 c i tbl = wordAt c tbl i ⟨14, by decide⟩ := by
  unfold kernelRunC.sl.r_122; exact word_of_off c tbl i ⟨14, by decide⟩ _ _ _ (k0_off29_eq i ⟨1, by decide⟩)
theorem W_r_133 : kernelRunC.sl.r_133 c i tbl = wordAt c tbl i ⟨14, by decide⟩ := by
  unfold kernelRunC.sl.r_133; exact word_of_off c tbl i ⟨14, by decide⟩ _ _ _ (k0_off33_eq i ⟨0, by decide⟩)
theorem W_r_132 : kernelRunC.sl.r_132 c i tbl = wordAt c tbl i ⟨15, by decide⟩ := by
  unfold kernelRunC.sl.r_132; exact word_of_off c tbl i ⟨15, by decide⟩ _ _ _ (k0_off31_eq i ⟨1, by decide⟩)
theorem W_r_144 : kernelRunC.sl.r_144 c i tbl = wordAt c tbl i ⟨15, by decide⟩ := by
  unfold kernelRunC.sl.r_144; exact word_of_off c tbl i ⟨15, by decide⟩ _ _ _ (k0_off35_eq i ⟨0, by decide⟩)
theorem W_r_142 : kernelRunC.sl.r_142 c i tbl = wordAt c tbl i ⟨16, by decide⟩ := by
  unfold kernelRunC.sl.r_142; exact word_of_off c tbl i ⟨16, by decide⟩ _ _ _ (k0_off33_eq i ⟨1, by decide⟩)
theorem W_r_153 : kernelRunC.sl.r_153 c i tbl = wordAt c tbl i ⟨16, by decide⟩ := by
  unfold kernelRunC.sl.r_153; exact word_of_off c tbl i ⟨16, by decide⟩ _ _ _ (k0_off37_eq i ⟨0, by decide⟩)
theorem W_r_152 : kernelRunC.sl.r_152 c i tbl = wordAt c tbl i ⟨17, by decide⟩ := by
  unfold kernelRunC.sl.r_152; exact word_of_off c tbl i ⟨17, by decide⟩ _ _ _ (k0_off35_eq i ⟨1, by decide⟩)
theorem W_r_162 : kernelRunC.sl.r_162 c i tbl = wordAt c tbl i ⟨17, by decide⟩ := by
  unfold kernelRunC.sl.r_162; exact word_of_off c tbl i ⟨17, by decide⟩ _ _ _ (k0_off39_eq i ⟨0, by decide⟩)
theorem W_r_161 : kernelRunC.sl.r_161 c i tbl = wordAt c tbl i ⟨18, by decide⟩ := by
  unfold kernelRunC.sl.r_161; exact word_of_off c tbl i ⟨18, by decide⟩ _ _ _ (k0_off37_eq i ⟨1, by decide⟩)
theorem W_r_172 : kernelRunC.sl.r_172 c i tbl = wordAt c tbl i ⟨18, by decide⟩ := by
  unfold kernelRunC.sl.r_172; exact word_of_off c tbl i ⟨18, by decide⟩ _ _ _ (k0_off41_eq i ⟨0, by decide⟩)
theorem W_r_171 : kernelRunC.sl.r_171 c i tbl = wordAt c tbl i ⟨19, by decide⟩ := by
  unfold kernelRunC.sl.r_171; exact word_of_off c tbl i ⟨19, by decide⟩ _ _ _ (k0_off39_eq i ⟨1, by decide⟩)
theorem W_r_180 : kernelRunC.sl.r_180 c i tbl = wordAt c tbl i ⟨19, by decide⟩ := by
  unfold kernelRunC.sl.r_180; exact word_of_off c tbl i ⟨19, by decide⟩ _ _ _ (k0_off43_eq i ⟨0, by decide⟩)
theorem W_r_179 : kernelRunC.sl.r_179 c i tbl = wordAt c tbl i ⟨20, by decide⟩ := by
  unfold kernelRunC.sl.r_179; exact word_of_off c tbl i ⟨20, by decide⟩ _ _ _ (k0_off41_eq i ⟨1, by decide⟩)
theorem W_r_189 : kernelRunC.sl.r_189 c i tbl = wordAt c tbl i ⟨20, by decide⟩ := by
  unfold kernelRunC.sl.r_189; exact word_of_off c tbl i ⟨20, by decide⟩ _ _ _ (k0_off45_eq i ⟨0, by decide⟩)
theorem W_r_188 : kernelRunC.sl.r_188 c i tbl = wordAt c tbl i ⟨21, by decide⟩ := by
  unfold kernelRunC.sl.r_188; exact word_of_off c tbl i ⟨21, by decide⟩ _ _ _ (k0_off43_eq i ⟨1, by decide⟩)
theorem W_r_199 : kernelRunC.sl.r_199 c i tbl = wordAt c tbl i ⟨21, by decide⟩ := by
  unfold kernelRunC.sl.r_199; exact word_of_off c tbl i ⟨21, by decide⟩ _ _ _ (k0_off47_eq i ⟨0, by decide⟩)
theorem W_r_198 : kernelRunC.sl.r_198 c i tbl = wordAt c tbl i ⟨22, by decide⟩ := by
  unfold kernelRunC.sl.r_198; exact word_of_off c tbl i ⟨22, by decide⟩ _ _ _ (k0_off45_eq i ⟨1, by decide⟩)
theorem W_r_208 : kernelRunC.sl.r_208 c i tbl = wordAt c tbl i ⟨22, by decide⟩ := by
  unfold kernelRunC.sl.r_208; exact word_of_off c tbl i ⟨22, by decide⟩ _ _ _ (k0_off49_eq i ⟨0, by decide⟩)
theorem W_r_207 : kernelRunC.sl.r_207 c i tbl = wordAt c tbl i ⟨23, by decide⟩ := by
  unfold kernelRunC.sl.r_207; exact word_of_off c tbl i ⟨23, by decide⟩ _ _ _ (k0_off47_eq i ⟨1, by decide⟩)
theorem W_r_218 : kernelRunC.sl.r_218 c i tbl = wordAt c tbl i ⟨23, by decide⟩ := by
  unfold kernelRunC.sl.r_218; exact word_of_off c tbl i ⟨23, by decide⟩ _ _ _ (k0_off51_eq i ⟨0, by decide⟩)
theorem W_r_217 : kernelRunC.sl.r_217 c i tbl = wordAt c tbl i ⟨24, by decide⟩ := by
  unfold kernelRunC.sl.r_217; exact word_of_off c tbl i ⟨24, by decide⟩ _ _ _ (k0_off49_eq i ⟨1, by decide⟩)
theorem W_r_228 : kernelRunC.sl.r_228 c i tbl = wordAt c tbl i ⟨24, by decide⟩ := by
  unfold kernelRunC.sl.r_228; exact word_of_off c tbl i ⟨24, by decide⟩ _ _ _ (k0_off53_eq i ⟨0, by decide⟩)
theorem W_r_227 : kernelRunC.sl.r_227 c i tbl = wordAt c tbl i ⟨25, by decide⟩ := by
  unfold kernelRunC.sl.r_227; exact word_of_off c tbl i ⟨25, by decide⟩ _ _ _ (k0_off51_eq i ⟨1, by decide⟩)
theorem W_r_237 : kernelRunC.sl.r_237 c i tbl = wordAt c tbl i ⟨25, by decide⟩ := by
  unfold kernelRunC.sl.r_237; exact word_of_off c tbl i ⟨25, by decide⟩ _ _ _ (k0_off55_eq i ⟨0, by decide⟩)
theorem W_r_236 : kernelRunC.sl.r_236 c i tbl = wordAt c tbl i ⟨26, by decide⟩ := by
  unfold kernelRunC.sl.r_236; exact word_of_off c tbl i ⟨26, by decide⟩ _ _ _ (k0_off53_eq i ⟨1, by decide⟩)
theorem W_r_246 : kernelRunC.sl.r_246 c i tbl = wordAt c tbl i ⟨26, by decide⟩ := by
  unfold kernelRunC.sl.r_246; exact word_of_off c tbl i ⟨26, by decide⟩ _ _ _ (k0_off57_eq i ⟨0, by decide⟩)
theorem W_r_245 : kernelRunC.sl.r_245 c i tbl = wordAt c tbl i ⟨27, by decide⟩ := by
  unfold kernelRunC.sl.r_245; exact word_of_off c tbl i ⟨27, by decide⟩ _ _ _ (k0_off55_eq i ⟨1, by decide⟩)
theorem W_r_255 : kernelRunC.sl.r_255 c i tbl = wordAt c tbl i ⟨27, by decide⟩ := by
  unfold kernelRunC.sl.r_255; exact word_of_off c tbl i ⟨27, by decide⟩ _ _ _ (k0_off59_eq i ⟨0, by decide⟩)
theorem W_r_254 : kernelRunC.sl.r_254 c i tbl = wordAt c tbl i ⟨28, by decide⟩ := by
  unfold kernelRunC.sl.r_254; exact word_of_off c tbl i ⟨28, by decide⟩ _ _ _ (k0_off57_eq i ⟨1, by decide⟩)
theorem W_r_263 : kernelRunC.sl.r_263 c i tbl = wordAt c tbl i ⟨28, by decide⟩ := by
  unfold kernelRunC.sl.r_263; exact word_of_off c tbl i ⟨28, by decide⟩ _ _ _ (k0_off61_eq i ⟨0, by decide⟩)
theorem W_r_262 : kernelRunC.sl.r_262 c i tbl = wordAt c tbl i ⟨29, by decide⟩ := by
  unfold kernelRunC.sl.r_262; exact word_of_off c tbl i ⟨29, by decide⟩ _ _ _ (k0_off59_eq i ⟨1, by decide⟩)
theorem W_r_273 : kernelRunC.sl.r_273 c i tbl = wordAt c tbl i ⟨29, by decide⟩ := by
  unfold kernelRunC.sl.r_273; exact word_of_off c tbl i ⟨29, by decide⟩ _ _ _ (k0_off63_eq i ⟨0, by decide⟩)
theorem W_r_270 : kernelRunC.sl.r_270 c i tbl = wordAt c tbl i ⟨30, by decide⟩ := by
  unfold kernelRunC.sl.r_270; exact word_of_off c tbl i ⟨30, by decide⟩ _ _ _ (k0_off61_eq i ⟨1, by decide⟩)
theorem W_r_280 : kernelRunC.sl.r_280 c i tbl = wordAt c tbl i ⟨30, by decide⟩ := by
  unfold kernelRunC.sl.r_280; exact word_of_off c tbl i ⟨30, by decide⟩ _ _ _ (k0_off65_eq i ⟨0, by decide⟩)
theorem W_r_279 : kernelRunC.sl.r_279 c i tbl = wordAt c tbl i ⟨31, by decide⟩ := by
  unfold kernelRunC.sl.r_279; exact word_of_off c tbl i ⟨31, by decide⟩ _ _ _ (k0_off63_eq i ⟨1, by decide⟩)
theorem W_r_289 : kernelRunC.sl.r_289 c i tbl = wordAt c tbl i ⟨31, by decide⟩ := by
  unfold kernelRunC.sl.r_289; exact word_of_off c tbl i ⟨31, by decide⟩ _ _ _ (k0_off67_eq i ⟨0, by decide⟩)
theorem W_r_288 : kernelRunC.sl.r_288 c i tbl = wordAt c tbl i ⟨32, by decide⟩ := by
  unfold kernelRunC.sl.r_288; exact word_of_off c tbl i ⟨32, by decide⟩ _ _ _ (k0_off65_eq i ⟨1, by decide⟩)
theorem W_r_301 : kernelRunC.sl.r_301 c i tbl = wordAt c tbl i ⟨32, by decide⟩ := by
  unfold kernelRunC.sl.r_301; exact word_of_off c tbl i ⟨32, by decide⟩ _ _ _ (k0_off69_eq i ⟨0, by decide⟩)
theorem W_r_298 : kernelRunC.sl.r_298 c i tbl = wordAt c tbl i ⟨33, by decide⟩ := by
  unfold kernelRunC.sl.r_298; exact word_of_off c tbl i ⟨33, by decide⟩ _ _ _ (k0_off67_eq i ⟨1, by decide⟩)
theorem W_r_310 : kernelRunC.sl.r_310 c i tbl = wordAt c tbl i ⟨33, by decide⟩ := by
  unfold kernelRunC.sl.r_310; exact word_of_off c tbl i ⟨33, by decide⟩ _ _ _ (k0_off71_eq i ⟨0, by decide⟩)
theorem W_r_309 : kernelRunC.sl.r_309 c i tbl = wordAt c tbl i ⟨34, by decide⟩ := by
  unfold kernelRunC.sl.r_309; exact word_of_off c tbl i ⟨34, by decide⟩ _ _ _ (k0_off69_eq i ⟨1, by decide⟩)
theorem W_r_320 : kernelRunC.sl.r_320 c i tbl = wordAt c tbl i ⟨34, by decide⟩ := by
  unfold kernelRunC.sl.r_320; exact word_of_off c tbl i ⟨34, by decide⟩ _ _ _ (k0_off73_eq i ⟨0, by decide⟩)
theorem W_r_319 : kernelRunC.sl.r_319 c i tbl = wordAt c tbl i ⟨35, by decide⟩ := by
  unfold kernelRunC.sl.r_319; exact word_of_off c tbl i ⟨35, by decide⟩ _ _ _ (k0_off71_eq i ⟨1, by decide⟩)
theorem W_r_331 : kernelRunC.sl.r_331 c i tbl = wordAt c tbl i ⟨35, by decide⟩ := by
  unfold kernelRunC.sl.r_331; exact word_of_off c tbl i ⟨35, by decide⟩ _ _ _ (k0_off75_eq i ⟨0, by decide⟩)
theorem W_r_329 : kernelRunC.sl.r_329 c i tbl = wordAt c tbl i ⟨36, by decide⟩ := by
  unfold kernelRunC.sl.r_329; exact word_of_off c tbl i ⟨36, by decide⟩ _ _ _ (k0_off73_eq i ⟨1, by decide⟩)
theorem W_r_340 : kernelRunC.sl.r_340 c i tbl = wordAt c tbl i ⟨36, by decide⟩ := by
  unfold kernelRunC.sl.r_340; exact word_of_off c tbl i ⟨36, by decide⟩ _ _ _ (k0_off77_eq i ⟨0, by decide⟩)
theorem W_r_339 : kernelRunC.sl.r_339 c i tbl = wordAt c tbl i ⟨37, by decide⟩ := by
  unfold kernelRunC.sl.r_339; exact word_of_off c tbl i ⟨37, by decide⟩ _ _ _ (k0_off75_eq i ⟨1, by decide⟩)
theorem W_r_349 : kernelRunC.sl.r_349 c i tbl = wordAt c tbl i ⟨37, by decide⟩ := by
  unfold kernelRunC.sl.r_349; exact word_of_off c tbl i ⟨37, by decide⟩ _ _ _ (k0_off79_eq i ⟨0, by decide⟩)
theorem W_r_348 : kernelRunC.sl.r_348 c i tbl = wordAt c tbl i ⟨38, by decide⟩ := by
  unfold kernelRunC.sl.r_348; exact word_of_off c tbl i ⟨38, by decide⟩ _ _ _ (k0_off77_eq i ⟨1, by decide⟩)
theorem W_r_359 : kernelRunC.sl.r_359 c i tbl = wordAt c tbl i ⟨38, by decide⟩ := by
  unfold kernelRunC.sl.r_359; exact word_of_off c tbl i ⟨38, by decide⟩ _ _ _ (k0_off81_eq i ⟨0, by decide⟩)
theorem W_r_358 : kernelRunC.sl.r_358 c i tbl = wordAt c tbl i ⟨39, by decide⟩ := by
  unfold kernelRunC.sl.r_358; exact word_of_off c tbl i ⟨39, by decide⟩ _ _ _ (k0_off79_eq i ⟨1, by decide⟩)
theorem W_r_367 : kernelRunC.sl.r_367 c i tbl = wordAt c tbl i ⟨39, by decide⟩ := by
  unfold kernelRunC.sl.r_367; exact word_of_off c tbl i ⟨39, by decide⟩ _ _ _ (k0_off83_eq i ⟨0, by decide⟩)
theorem W_r_366 : kernelRunC.sl.r_366 c i tbl = wordAt c tbl i ⟨40, by decide⟩ := by
  unfold kernelRunC.sl.r_366; exact word_of_off c tbl i ⟨40, by decide⟩ _ _ _ (k0_off81_eq i ⟨1, by decide⟩)
theorem W_r_376 : kernelRunC.sl.r_376 c i tbl = wordAt c tbl i ⟨40, by decide⟩ := by
  unfold kernelRunC.sl.r_376; exact word_of_off c tbl i ⟨40, by decide⟩ _ _ _ (k0_off85_eq i ⟨0, by decide⟩)
theorem W_r_375 : kernelRunC.sl.r_375 c i tbl = wordAt c tbl i ⟨41, by decide⟩ := by
  unfold kernelRunC.sl.r_375; exact word_of_off c tbl i ⟨41, by decide⟩ _ _ _ (k0_off83_eq i ⟨1, by decide⟩)
theorem W_r_386 : kernelRunC.sl.r_386 c i tbl = wordAt c tbl i ⟨41, by decide⟩ := by
  unfold kernelRunC.sl.r_386; exact word_of_off c tbl i ⟨41, by decide⟩ _ _ _ (k0_off87_eq i ⟨0, by decide⟩)
theorem W_r_385 : kernelRunC.sl.r_385 c i tbl = wordAt c tbl i ⟨42, by decide⟩ := by
  unfold kernelRunC.sl.r_385; exact word_of_off c tbl i ⟨42, by decide⟩ _ _ _ (k0_off85_eq i ⟨1, by decide⟩)
theorem W_r_395 : kernelRunC.sl.r_395 c i tbl = wordAt c tbl i ⟨42, by decide⟩ := by
  unfold kernelRunC.sl.r_395; exact word_of_off c tbl i ⟨42, by decide⟩ _ _ _ (k0_off89_eq i ⟨0, by decide⟩)
theorem W_r_394 : kernelRunC.sl.r_394 c i tbl = wordAt c tbl i ⟨43, by decide⟩ := by
  unfold kernelRunC.sl.r_394; exact word_of_off c tbl i ⟨43, by decide⟩ _ _ _ (k0_off87_eq i ⟨1, by decide⟩)
theorem W_r_405 : kernelRunC.sl.r_405 c i tbl = wordAt c tbl i ⟨43, by decide⟩ := by
  unfold kernelRunC.sl.r_405; exact word_of_off c tbl i ⟨43, by decide⟩ _ _ _ (k0_off91_eq i ⟨0, by decide⟩)
theorem W_r_404 : kernelRunC.sl.r_404 c i tbl = wordAt c tbl i ⟨44, by decide⟩ := by
  unfold kernelRunC.sl.r_404; exact word_of_off c tbl i ⟨44, by decide⟩ _ _ _ (k0_off89_eq i ⟨1, by decide⟩)
theorem W_r_415 : kernelRunC.sl.r_415 c i tbl = wordAt c tbl i ⟨44, by decide⟩ := by
  unfold kernelRunC.sl.r_415; exact word_of_off c tbl i ⟨44, by decide⟩ _ _ _ (k0_off93_eq i ⟨0, by decide⟩)
theorem W_r_414 : kernelRunC.sl.r_414 c i tbl = wordAt c tbl i ⟨45, by decide⟩ := by
  unfold kernelRunC.sl.r_414; exact word_of_off c tbl i ⟨45, by decide⟩ _ _ _ (k0_off91_eq i ⟨1, by decide⟩)
theorem W_r_424 : kernelRunC.sl.r_424 c i tbl = wordAt c tbl i ⟨45, by decide⟩ := by
  unfold kernelRunC.sl.r_424; exact word_of_off c tbl i ⟨45, by decide⟩ _ _ _ (k0_off95_eq i ⟨0, by decide⟩)
theorem W_r_423 : kernelRunC.sl.r_423 c i tbl = wordAt c tbl i ⟨46, by decide⟩ := by
  unfold kernelRunC.sl.r_423; exact word_of_off c tbl i ⟨46, by decide⟩ _ _ _ (k0_off93_eq i ⟨1, by decide⟩)
theorem W_r_433 : kernelRunC.sl.r_433 c i tbl = wordAt c tbl i ⟨46, by decide⟩ := by
  unfold kernelRunC.sl.r_433; exact word_of_off c tbl i ⟨46, by decide⟩ _ _ _ (k0_off97_eq i ⟨0, by decide⟩)
theorem W_r_432 : kernelRunC.sl.r_432 c i tbl = wordAt c tbl i ⟨47, by decide⟩ := by
  unfold kernelRunC.sl.r_432; exact word_of_off c tbl i ⟨47, by decide⟩ _ _ _ (k0_off95_eq i ⟨1, by decide⟩)
theorem W_r_442 : kernelRunC.sl.r_442 c i tbl = wordAt c tbl i ⟨47, by decide⟩ := by
  unfold kernelRunC.sl.r_442; exact word_of_off c tbl i ⟨47, by decide⟩ _ _ _ (k0_off99_eq i ⟨0, by decide⟩)
theorem W_r_441 : kernelRunC.sl.r_441 c i tbl = wordAt c tbl i ⟨48, by decide⟩ := by
  unfold kernelRunC.sl.r_441; exact word_of_off c tbl i ⟨48, by decide⟩ _ _ _ (k0_off97_eq i ⟨1, by decide⟩)
theorem W_r_450 : kernelRunC.sl.r_450 c i tbl = wordAt c tbl i ⟨48, by decide⟩ := by
  unfold kernelRunC.sl.r_450; exact word_of_off c tbl i ⟨48, by decide⟩ _ _ _ (k0_off101_eq i ⟨0, by decide⟩)
theorem W_r_449 : kernelRunC.sl.r_449 c i tbl = wordAt c tbl i ⟨49, by decide⟩ := by
  unfold kernelRunC.sl.r_449; exact word_of_off c tbl i ⟨49, by decide⟩ _ _ _ (k0_off99_eq i ⟨1, by decide⟩)
theorem W_r_460 : kernelRunC.sl.r_460 c i tbl = wordAt c tbl i ⟨49, by decide⟩ := by
  unfold kernelRunC.sl.r_460; exact word_of_off c tbl i ⟨49, by decide⟩ _ _ _ (k0_off103_eq i ⟨0, by decide⟩)
theorem W_r_457 : kernelRunC.sl.r_457 c i tbl = wordAt c tbl i ⟨50, by decide⟩ := by
  unfold kernelRunC.sl.r_457; exact word_of_off c tbl i ⟨50, by decide⟩ _ _ _ (k0_off101_eq i ⟨1, by decide⟩)
theorem W_r_467 : kernelRunC.sl.r_467 c i tbl = wordAt c tbl i ⟨50, by decide⟩ := by
  unfold kernelRunC.sl.r_467; exact word_of_off c tbl i ⟨50, by decide⟩ _ _ _ (k0_off105_eq i ⟨0, by decide⟩)
theorem W_r_466 : kernelRunC.sl.r_466 c i tbl = wordAt c tbl i ⟨51, by decide⟩ := by
  unfold kernelRunC.sl.r_466; exact word_of_off c tbl i ⟨51, by decide⟩ _ _ _ (k0_off103_eq i ⟨1, by decide⟩)
theorem W_r_476 : kernelRunC.sl.r_476 c i tbl = wordAt c tbl i ⟨51, by decide⟩ := by
  unfold kernelRunC.sl.r_476; exact word_of_off c tbl i ⟨51, by decide⟩ _ _ _ (k0_off107_eq i ⟨0, by decide⟩)
theorem W_r_475 : kernelRunC.sl.r_475 c i tbl = wordAt c tbl i ⟨52, by decide⟩ := by
  unfold kernelRunC.sl.r_475; exact word_of_off c tbl i ⟨52, by decide⟩ _ _ _ (k0_off105_eq i ⟨1, by decide⟩)
theorem W_r_488 : kernelRunC.sl.r_488 c i tbl = wordAt c tbl i ⟨52, by decide⟩ := by
  unfold kernelRunC.sl.r_488; exact word_of_off c tbl i ⟨52, by decide⟩ _ _ _ (k0_off109_eq i ⟨0, by decide⟩)
theorem W_r_485 : kernelRunC.sl.r_485 c i tbl = wordAt c tbl i ⟨53, by decide⟩ := by
  unfold kernelRunC.sl.r_485; exact word_of_off c tbl i ⟨53, by decide⟩ _ _ _ (k0_off107_eq i ⟨1, by decide⟩)
theorem W_r_497 : kernelRunC.sl.r_497 c i tbl = wordAt c tbl i ⟨53, by decide⟩ := by
  unfold kernelRunC.sl.r_497; exact word_of_off c tbl i ⟨53, by decide⟩ _ _ _ (k0_off111_eq i ⟨0, by decide⟩)
theorem W_r_496 : kernelRunC.sl.r_496 c i tbl = wordAt c tbl i ⟨54, by decide⟩ := by
  unfold kernelRunC.sl.r_496; exact word_of_off c tbl i ⟨54, by decide⟩ _ _ _ (k0_off109_eq i ⟨1, by decide⟩)
theorem W_r_507 : kernelRunC.sl.r_507 c i tbl = wordAt c tbl i ⟨54, by decide⟩ := by
  unfold kernelRunC.sl.r_507; exact word_of_off c tbl i ⟨54, by decide⟩ _ _ _ (k0_off113_eq i ⟨0, by decide⟩)
theorem W_r_506 : kernelRunC.sl.r_506 c i tbl = wordAt c tbl i ⟨55, by decide⟩ := by
  unfold kernelRunC.sl.r_506; exact word_of_off c tbl i ⟨55, by decide⟩ _ _ _ (k0_off111_eq i ⟨1, by decide⟩)
theorem W_r_518 : kernelRunC.sl.r_518 c i tbl = wordAt c tbl i ⟨55, by decide⟩ := by
  unfold kernelRunC.sl.r_518; exact word_of_off c tbl i ⟨55, by decide⟩ _ _ _ (k0_off115_eq i ⟨0, by decide⟩)
theorem W_r_516 : kernelRunC.sl.r_516 c i tbl = wordAt c tbl i ⟨56, by decide⟩ := by
  unfold kernelRunC.sl.r_516; exact word_of_off c tbl i ⟨56, by decide⟩ _ _ _ (k0_off113_eq i ⟨1, by decide⟩)
theorem W_r_527 : kernelRunC.sl.r_527 c i tbl = wordAt c tbl i ⟨56, by decide⟩ := by
  unfold kernelRunC.sl.r_527; exact word_of_off c tbl i ⟨56, by decide⟩ _ _ _ (k0_off117_eq i ⟨0, by decide⟩)
theorem W_r_526 : kernelRunC.sl.r_526 c i tbl = wordAt c tbl i ⟨57, by decide⟩ := by
  unfold kernelRunC.sl.r_526; exact word_of_off c tbl i ⟨57, by decide⟩ _ _ _ (k0_off115_eq i ⟨1, by decide⟩)
theorem W_r_536 : kernelRunC.sl.r_536 c i tbl = wordAt c tbl i ⟨57, by decide⟩ := by
  unfold kernelRunC.sl.r_536; exact word_of_off c tbl i ⟨57, by decide⟩ _ _ _ (k0_off119_eq i ⟨0, by decide⟩)
theorem W_r_535 : kernelRunC.sl.r_535 c i tbl = wordAt c tbl i ⟨58, by decide⟩ := by
  unfold kernelRunC.sl.r_535; exact word_of_off c tbl i ⟨58, by decide⟩ _ _ _ (k0_off117_eq i ⟨1, by decide⟩)
theorem W_r_546 : kernelRunC.sl.r_546 c i tbl = wordAt c tbl i ⟨58, by decide⟩ := by
  unfold kernelRunC.sl.r_546; exact word_of_off c tbl i ⟨58, by decide⟩ _ _ _ (k0_off121_eq i ⟨0, by decide⟩)
theorem W_r_545 : kernelRunC.sl.r_545 c i tbl = wordAt c tbl i ⟨59, by decide⟩ := by
  unfold kernelRunC.sl.r_545; exact word_of_off c tbl i ⟨59, by decide⟩ _ _ _ (k0_off119_eq i ⟨1, by decide⟩)
theorem W_r_554 : kernelRunC.sl.r_554 c i tbl = wordAt c tbl i ⟨59, by decide⟩ := by
  unfold kernelRunC.sl.r_554; exact word_of_off c tbl i ⟨59, by decide⟩ _ _ _ (k0_off123_eq i ⟨0, by decide⟩)
theorem W_r_553 : kernelRunC.sl.r_553 c i tbl = wordAt c tbl i ⟨60, by decide⟩ := by
  unfold kernelRunC.sl.r_553; exact word_of_off c tbl i ⟨60, by decide⟩ _ _ _ (k0_off121_eq i ⟨1, by decide⟩)
theorem W_r_563 : kernelRunC.sl.r_563 c i tbl = wordAt c tbl i ⟨60, by decide⟩ := by
  unfold kernelRunC.sl.r_563; exact word_of_off c tbl i ⟨60, by decide⟩ _ _ _ (k0_off125_eq i ⟨0, by decide⟩)
theorem W_r_562 : kernelRunC.sl.r_562 c i tbl = wordAt c tbl i ⟨61, by decide⟩ := by
  unfold kernelRunC.sl.r_562; exact word_of_off c tbl i ⟨61, by decide⟩ _ _ _ (k0_off123_eq i ⟨1, by decide⟩)
theorem W_r_573 : kernelRunC.sl.r_573 c i tbl = wordAt c tbl i ⟨61, by decide⟩ := by
  unfold kernelRunC.sl.r_573; exact word_of_off c tbl i ⟨61, by decide⟩ _ _ _ (k0_off127_eq i ⟨0, by decide⟩)
theorem W_r_572 : kernelRunC.sl.r_572 c i tbl = wordAt c tbl i ⟨62, by decide⟩ := by
  unfold kernelRunC.sl.r_572; exact word_of_off c tbl i ⟨62, by decide⟩ _ _ _ (k0_off125_eq i ⟨1, by decide⟩)
theorem W_r_582 : kernelRunC.sl.r_582 c i tbl = wordAt c tbl i ⟨62, by decide⟩ := by
  unfold kernelRunC.sl.r_582; exact word_of_off c tbl i ⟨62, by decide⟩ _ _ _ (k0_off129_eq i ⟨0, by decide⟩)
theorem W_r_581 : kernelRunC.sl.r_581 c i tbl = wordAt c tbl i ⟨63, by decide⟩ := by
  unfold kernelRunC.sl.r_581; exact word_of_off c tbl i ⟨63, by decide⟩ _ _ _ (k0_off127_eq i ⟨1, by decide⟩)
theorem W_r_591 : kernelRunC.sl.r_591 c i tbl = wordAt c tbl i ⟨63, by decide⟩ := by
  unfold kernelRunC.sl.r_591; exact word_of_off c tbl i ⟨63, by decide⟩ _ _ _ (k0_off129_eq i ⟨1, by decide⟩)
theorem D_dma1 : kernelRunC.sl.dma1 c i tbl hT sim = simRow c sim (wordAt c tbl i ⟨0, by decide⟩) := by
  unfold kernelRunC.sl.dma1; exact (copy_eq_simRow c sim (kernelRunC.sl.r c i tbl) (hT _) _ rfl _ _).trans (congrArg (simRow c sim) (W_r c i tbl))
theorem D_dma2 : kernelRunC.sl.dma2 c i tbl hT sim = simRow c sim (wordAt c tbl i ⟨1, by decide⟩) := by
  unfold kernelRunC.sl.dma2; exact (copy_eq_simRow c sim (kernelRunC.sl.r_1 c i tbl) (hT _) _ rfl _ _).trans (congrArg (simRow c sim) (W_r_1 c i tbl))
theorem D_dma25 : kernelRunC.sl.dma25 c i tbl hT sim = simRow c sim (wordAt c tbl i ⟨2, by decide⟩) := by
  unfold kernelRunC.sl.dma25; exact (copy_eq_simRow c sim (kernelRunC.sl.r_11 c i tbl) (hT _) _ rfl _ _).trans (congrArg (simRow c sim) (W_r_11 c i tbl))
theorem D_dma48 : kernelRunC.sl.dma48 c i tbl hT sim = simRow c sim (wordAt c tbl i ⟨3, by decide⟩) := by
  unfold kernelRunC.sl.dma48; exact (copy_eq_simRow c sim (kernelRunC.sl.r_20 c i tbl) (hT _) _ rfl _ _).trans (congrArg (simRow c sim) (W_r_20 c i tbl))
theorem D_dma71 : kernelRunC.sl.dma71 c i tbl hT sim = simRow c sim (wordAt c tbl i ⟨4, by decide⟩) := by
  unfold kernelRunC.sl.dma71; exact (copy_eq_simRow c sim (kernelRunC.sl.r_30 c i tbl) (hT _) _ rfl _ _).trans (congrArg (simRow c sim) (W_r_30 c i tbl))
theorem D_dma94 : kernelRunC.sl.dma94 c i tbl hT sim = simRow c sim (wordAt c tbl i ⟨5, by decide⟩) := by
  unfold kernelRunC.sl.dma94; exact (copy_eq_simRow c sim (kernelRunC.sl.r_40 c i tbl) (hT _) _ rfl _ _).trans (congrArg (simRow c sim) (W_r_40 c i tbl))
theorem D_dma117 : kernelRunC.sl.dma117 c i tbl hT sim = simRow c sim (wordAt c tbl i ⟨6, by decide⟩) := by
  unfold kernelRunC.sl.dma117; exact (copy_eq_simRow c sim (kernelRunC.sl.r_49 c i tbl) (hT _) _ rfl _ _).trans (congrArg (simRow c sim) (W_r_49 c i tbl))
theorem D_dma140 : kernelRunC.sl.dma140 c i tbl hT sim = simRow c sim (wordAt c tbl i ⟨7, by decide⟩) := by
  unfold kernelRunC.sl.dma140; exact (copy_eq_simRow c sim (kernelRunC.sl.r_58 c i tbl) (hT _) _ rfl _ _).trans (congrArg (simRow c sim) (W_r_58 c i tbl))
theorem D_dma163 : kernelRunC.sl.dma163 c i tbl hT sim = simRow c sim (wordAt c tbl i ⟨8, by decide⟩) := by
  unfold kernelRunC.sl.dma163; exact (copy_eq_simRow c sim (kernelRunC.sl.r_67 c i tbl) (hT _) _ rfl _ _).trans (congrArg (simRow c sim) (W_r_67 c i tbl))
theorem D_dma186 : kernelRunC.sl.dma186 c i tbl hT sim = simRow c sim (wordAt c tbl i ⟨9, by decide⟩) := by
  unfold kernelRunC.sl.dma186; exact (copy_eq_simRow c sim (kernelRunC.sl.r_75 c i tbl) (hT _) _ rfl _ _).trans (congrArg (simRow c sim) (W_r_75 c i tbl))
theorem D_dma209 : kernelRunC.sl.dma209 c i tbl hT sim = simRow c sim (wordAt c tbl i ⟨10, by decide⟩) := by
  unfold kernelRunC.sl.dma209; exact (copy_eq_simRow c sim (kernelRunC.sl.r_83 c i tbl) (hT _) _ rfl _ _).trans (congrArg (simRow c sim) (W_r_83 c i tbl))
theorem D_dma232 : kernelRunC.sl.dma232 c i tbl hT sim = simRow c sim (wordAt c tbl i ⟨11, by decide⟩) := by
  unfold kernelRunC.sl.dma232; exact (copy_eq_simRow c sim (kernelRunC.sl.r_92 c i tbl) (hT _) _ rfl _ _).trans (congrArg (simRow c sim) (W_r_92 c i tbl))
theorem D_dma255 : kernelRunC.sl.dma255 c i tbl hT sim = simRow c sim (wordAt c tbl i ⟨12, by decide⟩) := by
  unfold kernelRunC.sl.dma255; exact (copy_eq_simRow c sim (kernelRunC.sl.r_101 c i tbl) (hT _) _ rfl _ _).trans (congrArg (simRow c sim) (W_r_101 c i tbl))
theorem D_dma278 : kernelRunC.sl.dma278 c i tbl hT sim = simRow c sim (wordAt c tbl i ⟨13, by decide⟩) := by
  unfold kernelRunC.sl.dma278; exact (copy_eq_simRow c sim (kernelRunC.sl.r_111 c i tbl) (hT _) _ rfl _ _).trans (congrArg (simRow c sim) (W_r_111 c i tbl))
theorem D_dma301 : kernelRunC.sl.dma301 c i tbl hT sim = simRow c sim (wordAt c tbl i ⟨14, by decide⟩) := by
  unfold kernelRunC.sl.dma301; exact (copy_eq_simRow c sim (kernelRunC.sl.r_122 c i tbl) (hT _) _ rfl _ _).trans (congrArg (simRow c sim) (W_r_122 c i tbl))
theorem D_dma324 : kernelRunC.sl.dma324 c i tbl hT sim = simRow c sim (wordAt c tbl i ⟨15, by decide⟩) := by
  unfold kernelRunC.sl.dma324; exact (copy_eq_simRow c sim (kernelRunC.sl.r_132 c i tbl) (hT _) _ rfl _ _).trans (congrArg (simRow c sim) (W_r_132 c i tbl))
theorem D_dma347 : kernelRunC.sl.dma347 c i tbl hT sim = simRow c sim (wordAt c tbl i ⟨16, by decide⟩) := by
  unfold kernelRunC.sl.dma347; exact (copy_eq_simRow c sim (kernelRunC.sl.r_142 c i tbl) (hT _) _ rfl _ _).trans (congrArg (simRow c sim) (W_r_142 c i tbl))
theorem D_dma370 : kernelRunC.sl.dma370 c i tbl hT sim = simRow c sim (wordAt c tbl i ⟨17, by decide⟩) := by
  unfold kernelRunC.sl.dma370; exact (copy_eq_simRow c sim (kernelRunC.sl.r_152 c i tbl) (hT _) _ rfl _ _).trans (congrArg (simRow c sim) (W_r_152 c i tbl))
theorem D_dma393 : kernelRunC.sl.dma393 c i tbl hT sim = simRow c sim (wordAt c tbl i ⟨18, by decide⟩) := by
  unfold kernelRunC.sl.dma393; exact (copy_eq_simRow c sim (kernelRunC.sl.r_161 c i tbl) (hT _) _ rfl _ _).trans (congrArg (simRow c sim) (W_r_161 c i tbl))
theorem D_dma416 : kernelRunC.sl.dma416 c i tbl hT sim = simRow c sim (wordAt c tbl i ⟨19, by decide⟩) := by
  unfold kernelRunC.sl.dma416; exact (copy_eq_simRow c sim (kernelRunC.sl.r_171 c i tbl) (hT _) _ rfl _ _).trans (congrArg (simRow c sim) (W_r_171 c i tbl))
theorem D_dma439 : kernelRunC.sl.dma439 c i tbl hT sim = simRow c sim (wordAt c tbl i ⟨20, by decide⟩) := by
  unfold kernelRunC.sl.dma439; exact (copy_eq_simRow c sim (kernelRunC.sl.r_179 c i tbl) (hT _) _ rfl _ _).trans (congrArg (simRow c sim) (W_r_179 c i tbl))
theorem D_dma462 : kernelRunC.sl.dma462 c i tbl hT sim = simRow c sim (wordAt c tbl i ⟨21, by decide⟩) := by
  unfold kernelRunC.sl.dma462; exact (copy_eq_simRow c sim (kernelRunC.sl.r_188 c i tbl) (hT _) _ rfl _ _).trans (congrArg (simRow c sim) (W_r_188 c i tbl))
theorem D_dma485 : kernelRunC.sl.dma485 c i tbl hT sim = simRow c sim (wordAt c tbl i ⟨22, by decide⟩) := by
  unfold kernelRunC.sl.dma485; exact (copy_eq_simRow c sim (kernelRunC.sl.r_198 c i tbl) (hT _) _ rfl _ _).trans (congrArg (simRow c sim) (W_r_198 c i tbl))
theorem D_dma508 : kernelRunC.sl.dma508 c i tbl hT sim = simRow c sim (wordAt c tbl i ⟨23, by decide⟩) := by
  unfold kernelRunC.sl.dma508; exact (copy_eq_simRow c sim (kernelRunC.sl.r_207 c i tbl) (hT _) _ rfl _ _).trans (congrArg (simRow c sim) (W_r_207 c i tbl))
theorem D_dma531 : kernelRunC.sl.dma531 c i tbl hT sim = simRow c sim (wordAt c tbl i ⟨24, by decide⟩) := by
  unfold kernelRunC.sl.dma531; exact (copy_eq_simRow c sim (kernelRunC.sl.r_217 c i tbl) (hT _) _ rfl _ _).trans (congrArg (simRow c sim) (W_r_217 c i tbl))
theorem D_dma554 : kernelRunC.sl.dma554 c i tbl hT sim = simRow c sim (wordAt c tbl i ⟨25, by decide⟩) := by
  unfold kernelRunC.sl.dma554; exact (copy_eq_simRow c sim (kernelRunC.sl.r_227 c i tbl) (hT _) _ rfl _ _).trans (congrArg (simRow c sim) (W_r_227 c i tbl))
theorem D_dma577 : kernelRunC.sl.dma577 c i tbl hT sim = simRow c sim (wordAt c tbl i ⟨26, by decide⟩) := by
  unfold kernelRunC.sl.dma577; exact (copy_eq_simRow c sim (kernelRunC.sl.r_236 c i tbl) (hT _) _ rfl _ _).trans (congrArg (simRow c sim) (W_r_236 c i tbl))
theorem D_dma600 : kernelRunC.sl.dma600 c i tbl hT sim = simRow c sim (wordAt c tbl i ⟨27, by decide⟩) := by
  unfold kernelRunC.sl.dma600; exact (copy_eq_simRow c sim (kernelRunC.sl.r_245 c i tbl) (hT _) _ rfl _ _).trans (congrArg (simRow c sim) (W_r_245 c i tbl))
theorem D_dma623 : kernelRunC.sl.dma623 c i tbl hT sim = simRow c sim (wordAt c tbl i ⟨28, by decide⟩) := by
  unfold kernelRunC.sl.dma623; exact (copy_eq_simRow c sim (kernelRunC.sl.r_254 c i tbl) (hT _) _ rfl _ _).trans (congrArg (simRow c sim) (W_r_254 c i tbl))
theorem D_dma646 : kernelRunC.sl.dma646 c i tbl hT sim = simRow c sim (wordAt c tbl i ⟨29, by decide⟩) := by
  unfold kernelRunC.sl.dma646; exact (copy_eq_simRow c sim (kernelRunC.sl.r_262 c i tbl) (hT _) _ rfl _ _).trans (congrArg (simRow c sim) (W_r_262 c i tbl))
theorem D_dma669 : kernelRunC.sl.dma669 c i tbl hT sim = simRow c sim (wordAt c tbl i ⟨30, by decide⟩) := by
  unfold kernelRunC.sl.dma669; exact (copy_eq_simRow c sim (kernelRunC.sl.r_270 c i tbl) (hT _) _ rfl _ _).trans (congrArg (simRow c sim) (W_r_270 c i tbl))
theorem D_dma692 : kernelRunC.sl.dma692 c i tbl hT sim = simRow c sim (wordAt c tbl i ⟨31, by decide⟩) := by
  unfold kernelRunC.sl.dma692; exact (copy_eq_simRow c sim (kernelRunC.sl.r_279 c i tbl) (hT _) _ rfl _ _).trans (congrArg (simRow c sim) (W_r_279 c i tbl))
theorem D_dma715 : kernelRunC.sl.dma715 c i tbl hT sim = simRow c sim (wordAt c tbl i ⟨32, by decide⟩) := by
  unfold kernelRunC.sl.dma715; exact (copy_eq_simRow c sim (kernelRunC.sl.r_288 c i tbl) (hT _) _ rfl _ _).trans (congrArg (simRow c sim) (W_r_288 c i tbl))
theorem D_dma738 : kernelRunC.sl.dma738 c i tbl hT sim = simRow c sim (wordAt c tbl i ⟨33, by decide⟩) := by
  unfold kernelRunC.sl.dma738; exact (copy_eq_simRow c sim (kernelRunC.sl.r_298 c i tbl) (hT _) _ rfl _ _).trans (congrArg (simRow c sim) (W_r_298 c i tbl))
theorem D_dma761 : kernelRunC.sl.dma761 c i tbl hT sim = simRow c sim (wordAt c tbl i ⟨34, by decide⟩) := by
  unfold kernelRunC.sl.dma761; exact (copy_eq_simRow c sim (kernelRunC.sl.r_309 c i tbl) (hT _) _ rfl _ _).trans (congrArg (simRow c sim) (W_r_309 c i tbl))
theorem D_dma784 : kernelRunC.sl.dma784 c i tbl hT sim = simRow c sim (wordAt c tbl i ⟨35, by decide⟩) := by
  unfold kernelRunC.sl.dma784; exact (copy_eq_simRow c sim (kernelRunC.sl.r_319 c i tbl) (hT _) _ rfl _ _).trans (congrArg (simRow c sim) (W_r_319 c i tbl))
theorem D_dma807 : kernelRunC.sl.dma807 c i tbl hT sim = simRow c sim (wordAt c tbl i ⟨36, by decide⟩) := by
  unfold kernelRunC.sl.dma807; exact (copy_eq_simRow c sim (kernelRunC.sl.r_329 c i tbl) (hT _) _ rfl _ _).trans (congrArg (simRow c sim) (W_r_329 c i tbl))
theorem D_dma830 : kernelRunC.sl.dma830 c i tbl hT sim = simRow c sim (wordAt c tbl i ⟨37, by decide⟩) := by
  unfold kernelRunC.sl.dma830; exact (copy_eq_simRow c sim (kernelRunC.sl.r_339 c i tbl) (hT _) _ rfl _ _).trans (congrArg (simRow c sim) (W_r_339 c i tbl))
theorem D_dma853 : kernelRunC.sl.dma853 c i tbl hT sim = simRow c sim (wordAt c tbl i ⟨38, by decide⟩) := by
  unfold kernelRunC.sl.dma853; exact (copy_eq_simRow c sim (kernelRunC.sl.r_348 c i tbl) (hT _) _ rfl _ _).trans (congrArg (simRow c sim) (W_r_348 c i tbl))
theorem D_dma876 : kernelRunC.sl.dma876 c i tbl hT sim = simRow c sim (wordAt c tbl i ⟨39, by decide⟩) := by
  unfold kernelRunC.sl.dma876; exact (copy_eq_simRow c sim (kernelRunC.sl.r_358 c i tbl) (hT _) _ rfl _ _).trans (congrArg (simRow c sim) (W_r_358 c i tbl))
theorem D_dma899 : kernelRunC.sl.dma899 c i tbl hT sim = simRow c sim (wordAt c tbl i ⟨40, by decide⟩) := by
  unfold kernelRunC.sl.dma899; exact (copy_eq_simRow c sim (kernelRunC.sl.r_366 c i tbl) (hT _) _ rfl _ _).trans (congrArg (simRow c sim) (W_r_366 c i tbl))
theorem D_dma922 : kernelRunC.sl.dma922 c i tbl hT sim = simRow c sim (wordAt c tbl i ⟨41, by decide⟩) := by
  unfold kernelRunC.sl.dma922; exact (copy_eq_simRow c sim (kernelRunC.sl.r_375 c i tbl) (hT _) _ rfl _ _).trans (congrArg (simRow c sim) (W_r_375 c i tbl))
theorem D_dma945 : kernelRunC.sl.dma945 c i tbl hT sim = simRow c sim (wordAt c tbl i ⟨42, by decide⟩) := by
  unfold kernelRunC.sl.dma945; exact (copy_eq_simRow c sim (kernelRunC.sl.r_385 c i tbl) (hT _) _ rfl _ _).trans (congrArg (simRow c sim) (W_r_385 c i tbl))
theorem D_dma968 : kernelRunC.sl.dma968 c i tbl hT sim = simRow c sim (wordAt c tbl i ⟨43, by decide⟩) := by
  unfold kernelRunC.sl.dma968; exact (copy_eq_simRow c sim (kernelRunC.sl.r_394 c i tbl) (hT _) _ rfl _ _).trans (congrArg (simRow c sim) (W_r_394 c i tbl))
theorem D_dma991 : kernelRunC.sl.dma991 c i tbl hT sim = simRow c sim (wordAt c tbl i ⟨44, by decide⟩) := by
  unfold kernelRunC.sl.dma991; exact (copy_eq_simRow c sim (kernelRunC.sl.r_404 c i tbl) (hT _) _ rfl _ _).trans (congrArg (simRow c sim) (W_r_404 c i tbl))
theorem D_dma1014 : kernelRunC.sl.dma1014 c i tbl hT sim = simRow c sim (wordAt c tbl i ⟨45, by decide⟩) := by
  unfold kernelRunC.sl.dma1014; exact (copy_eq_simRow c sim (kernelRunC.sl.r_414 c i tbl) (hT _) _ rfl _ _).trans (congrArg (simRow c sim) (W_r_414 c i tbl))
theorem D_dma1037 : kernelRunC.sl.dma1037 c i tbl hT sim = simRow c sim (wordAt c tbl i ⟨46, by decide⟩) := by
  unfold kernelRunC.sl.dma1037; exact (copy_eq_simRow c sim (kernelRunC.sl.r_423 c i tbl) (hT _) _ rfl _ _).trans (congrArg (simRow c sim) (W_r_423 c i tbl))
theorem D_dma1060 : kernelRunC.sl.dma1060 c i tbl hT sim = simRow c sim (wordAt c tbl i ⟨47, by decide⟩) := by
  unfold kernelRunC.sl.dma1060; exact (copy_eq_simRow c sim (kernelRunC.sl.r_432 c i tbl) (hT _) _ rfl _ _).trans (congrArg (simRow c sim) (W_r_432 c i tbl))
theorem D_dma1083 : kernelRunC.sl.dma1083 c i tbl hT sim = simRow c sim (wordAt c tbl i ⟨48, by decide⟩) := by
  unfold kernelRunC.sl.dma1083; exact (copy_eq_simRow c sim (kernelRunC.sl.r_441 c i tbl) (hT _) _ rfl _ _).trans (congrArg (simRow c sim) (W_r_441 c i tbl))
theorem D_dma1106 : kernelRunC.sl.dma1106 c i tbl hT sim = simRow c sim (wordAt c tbl i ⟨49, by decide⟩) := by
  unfold kernelRunC.sl.dma1106; exact (copy_eq_simRow c sim (kernelRunC.sl.r_449 c i tbl) (hT _) _ rfl _ _).trans (congrArg (simRow c sim) (W_r_449 c i tbl))
theorem D_dma1129 : kernelRunC.sl.dma1129 c i tbl hT sim = simRow c sim (wordAt c tbl i ⟨50, by decide⟩) := by
  unfold kernelRunC.sl.dma1129; exact (copy_eq_simRow c sim (kernelRunC.sl.r_457 c i tbl) (hT _) _ rfl _ _).trans (congrArg (simRow c sim) (W_r_457 c i tbl))
theorem D_dma1152 : kernelRunC.sl.dma1152 c i tbl hT sim = simRow c sim (wordAt c tbl i ⟨51, by decide⟩) := by
  unfold kernelRunC.sl.dma1152; exact (copy_eq_simRow c sim (kernelRunC.sl.r_466 c i tbl) (hT _) _ rfl _ _).trans (congrArg (simRow c sim) (W_r_466 c i tbl))
theorem D_dma1175 : kernelRunC.sl.dma1175 c i tbl hT sim = simRow c sim (wordAt c tbl i ⟨52, by decide⟩) := by
  unfold kernelRunC.sl.dma1175; exact (copy_eq_simRow c sim (kernelRunC.sl.r_475 c i tbl) (hT _) _ rfl _ _).trans (congrArg (simRow c sim) (W_r_475 c i tbl))
theorem D_dma1198 : kernelRunC.sl.dma1198 c i tbl hT sim = simRow c sim (wordAt c tbl i ⟨53, by decide⟩) := by
  unfold kernelRunC.sl.dma1198; exact (copy_eq_simRow c sim (kernelRunC.sl.r_485 c i tbl) (hT _) _ rfl _ _).trans (congrArg (simRow c sim) (W_r_485 c i tbl))
theorem D_dma1221 : kernelRunC.sl.dma1221 c i tbl hT sim = simRow c sim (wordAt c tbl i ⟨54, by decide⟩) := by
  unfold kernelRunC.sl.dma1221; exact (copy_eq_simRow c sim (kernelRunC.sl.r_496 c i tbl) (hT _) _ rfl _ _).trans (congrArg (simRow c sim) (W_r_496 c i tbl))
theorem D_dma1244 : kernelRunC.sl.dma1244 c i tbl hT sim = simRow c sim (wordAt c tbl i ⟨55, by decide⟩) := by
  unfold kernelRunC.sl.dma1244; exact (copy_eq_simRow c sim (kernelRunC.sl.r_506 c i tbl) (hT _) _ rfl _ _).trans (congrArg (simRow c sim) (W_r_506 c i tbl))
theorem D_dma1267 : kernelRunC.sl.dma1267 c i tbl hT sim = simRow c sim (wordAt c tbl i ⟨56, by decide⟩) := by
  unfold kernelRunC.sl.dma1267; exact (copy_eq_simRow c sim (kernelRunC.sl.r_516 c i tbl) (hT _) _ rfl _ _).trans (congrArg (simRow c sim) (W_r_516 c i tbl))
theorem D_dma1290 : kernelRunC.sl.dma1290 c i tbl hT sim = simRow c sim (wordAt c tbl i ⟨57, by decide⟩) := by
  unfold kernelRunC.sl.dma1290; exact (copy_eq_simRow c sim (kernelRunC.sl.r_526 c i tbl) (hT _) _ rfl _ _).trans (congrArg (simRow c sim) (W_r_526 c i tbl))
theorem D_dma1313 : kernelRunC.sl.dma1313 c i tbl hT sim = simRow c sim (wordAt c tbl i ⟨58, by decide⟩) := by
  unfold kernelRunC.sl.dma1313; exact (copy_eq_simRow c sim (kernelRunC.sl.r_535 c i tbl) (hT _) _ rfl _ _).trans (congrArg (simRow c sim) (W_r_535 c i tbl))
theorem D_dma1336 : kernelRunC.sl.dma1336 c i tbl hT sim = simRow c sim (wordAt c tbl i ⟨59, by decide⟩) := by
  unfold kernelRunC.sl.dma1336; exact (copy_eq_simRow c sim (kernelRunC.sl.r_545 c i tbl) (hT _) _ rfl _ _).trans (congrArg (simRow c sim) (W_r_545 c i tbl))
theorem D_dma1359 : kernelRunC.sl.dma1359 c i tbl hT sim = simRow c sim (wordAt c tbl i ⟨60, by decide⟩) := by
  unfold kernelRunC.sl.dma1359; exact (copy_eq_simRow c sim (kernelRunC.sl.r_553 c i tbl) (hT _) _ rfl _ _).trans (congrArg (simRow c sim) (W_r_553 c i tbl))
theorem D_dma1382 : kernelRunC.sl.dma1382 c i tbl hT sim = simRow c sim (wordAt c tbl i ⟨61, by decide⟩) := by
  unfold kernelRunC.sl.dma1382; exact (copy_eq_simRow c sim (kernelRunC.sl.r_562 c i tbl) (hT _) _ rfl _ _).trans (congrArg (simRow c sim) (W_r_562 c i tbl))
theorem D_dma1405 : kernelRunC.sl.dma1405 c i tbl hT sim = simRow c sim (wordAt c tbl i ⟨62, by decide⟩) := by
  unfold kernelRunC.sl.dma1405; exact (copy_eq_simRow c sim (kernelRunC.sl.r_572 c i tbl) (hT _) _ rfl _ _).trans (congrArg (simRow c sim) (W_r_572 c i tbl))
theorem D_dma1428 : kernelRunC.sl.dma1428 c i tbl hT sim = simRow c sim (wordAt c tbl i ⟨63, by decide⟩) := by
  unfold kernelRunC.sl.dma1428; exact (copy_eq_simRow c sim (kernelRunC.sl.r_581 c i tbl) (hT _) _ rfl _ _).trans (congrArg (simRow c sim) (W_r_581 c i tbl))
theorem S_v19 : kernelRunC.sl.v19 c i tbl hT sim b9 = simRow c sim (wordAt c tbl i ⟨0, by decide⟩) := by
  unfold kernelRunC.sl.v19; exact (load_after_fill cc0_scratch0 _ _ (by decide) _).trans (D_dma1 c i tbl hT sim)
theorem S_v104 : kernelRunC.sl.v104 c i tbl hT sim b10 = simRow c sim (wordAt c tbl i ⟨1, by decide⟩) := by
  unfold kernelRunC.sl.v104; exact (load_after_fill cc0_scratch1 _ _ (by decide) _).trans (D_dma2 c i tbl hT sim)
theorem S_v189 : kernelRunC.sl.v189 c i tbl hT sim b9 = simRow c sim (wordAt c tbl i ⟨2, by decide⟩) := by
  unfold kernelRunC.sl.v189; exact (load_after_fill cc0_scratch0 _ _ (by decide) _).trans (D_dma25 c i tbl hT sim)
theorem S_v274 : kernelRunC.sl.v274 c i tbl hT sim b10 = simRow c sim (wordAt c tbl i ⟨3, by decide⟩) := by
  unfold kernelRunC.sl.v274; exact (load_after_fill cc0_scratch1 _ _ (by decide) _).trans (D_dma48 c i tbl hT sim)
theorem S_v359 : kernelRunC.sl.v359 c i tbl hT sim b9 = simRow c sim (wordAt c tbl i ⟨4, by decide⟩) := by
  unfold kernelRunC.sl.v359; exact (load_after_fill cc0_scratch0 _ _ (by decide) _).trans (D_dma71 c i tbl hT sim)
theorem S_v444 : kernelRunC.sl.v444 c i tbl hT sim b10 = simRow c sim (wordAt c tbl i ⟨5, by decide⟩) := by
  unfold kernelRunC.sl.v444; exact (load_after_fill cc0_scratch1 _ _ (by decide) _).trans (D_dma94 c i tbl hT sim)
theorem S_v529 : kernelRunC.sl.v529 c i tbl hT sim b9 = simRow c sim (wordAt c tbl i ⟨6, by decide⟩) := by
  unfold kernelRunC.sl.v529; exact (load_after_fill cc0_scratch0 _ _ (by decide) _).trans (D_dma117 c i tbl hT sim)
theorem S_v614 : kernelRunC.sl.v614 c i tbl hT sim b10 = simRow c sim (wordAt c tbl i ⟨7, by decide⟩) := by
  unfold kernelRunC.sl.v614; exact (load_after_fill cc0_scratch1 _ _ (by decide) _).trans (D_dma140 c i tbl hT sim)
theorem S_v699 : kernelRunC.sl.v699 c i tbl hT sim b9 = simRow c sim (wordAt c tbl i ⟨8, by decide⟩) := by
  unfold kernelRunC.sl.v699; exact (load_after_fill cc0_scratch0 _ _ (by decide) _).trans (D_dma163 c i tbl hT sim)
theorem S_v784 : kernelRunC.sl.v784 c i tbl hT sim b10 = simRow c sim (wordAt c tbl i ⟨9, by decide⟩) := by
  unfold kernelRunC.sl.v784; exact (load_after_fill cc0_scratch1 _ _ (by decide) _).trans (D_dma186 c i tbl hT sim)
theorem S_v869 : kernelRunC.sl.v869 c i tbl hT sim b9 = simRow c sim (wordAt c tbl i ⟨10, by decide⟩) := by
  unfold kernelRunC.sl.v869; exact (load_after_fill cc0_scratch0 _ _ (by decide) _).trans (D_dma209 c i tbl hT sim)
theorem S_v954 : kernelRunC.sl.v954 c i tbl hT sim b10 = simRow c sim (wordAt c tbl i ⟨11, by decide⟩) := by
  unfold kernelRunC.sl.v954; exact (load_after_fill cc0_scratch1 _ _ (by decide) _).trans (D_dma232 c i tbl hT sim)
theorem S_v1039 : kernelRunC.sl.v1039 c i tbl hT sim b9 = simRow c sim (wordAt c tbl i ⟨12, by decide⟩) := by
  unfold kernelRunC.sl.v1039; exact (load_after_fill cc0_scratch0 _ _ (by decide) _).trans (D_dma255 c i tbl hT sim)
theorem S_v1124 : kernelRunC.sl.v1124 c i tbl hT sim b10 = simRow c sim (wordAt c tbl i ⟨13, by decide⟩) := by
  unfold kernelRunC.sl.v1124; exact (load_after_fill cc0_scratch1 _ _ (by decide) _).trans (D_dma278 c i tbl hT sim)
theorem S_v1209 : kernelRunC.sl.v1209 c i tbl hT sim b9 = simRow c sim (wordAt c tbl i ⟨14, by decide⟩) := by
  unfold kernelRunC.sl.v1209; exact (load_after_fill cc0_scratch0 _ _ (by decide) _).trans (D_dma301 c i tbl hT sim)
theorem S_v1294 : kernelRunC.sl.v1294 c i tbl hT sim b10 = simRow c sim (wordAt c tbl i ⟨15, by decide⟩) := by
  unfold kernelRunC.sl.v1294; exact (load_after_fill cc0_scratch1 _ _ (by decide) _).trans (D_dma324 c i tbl hT sim)
theorem S_v1379 : kernelRunC.sl.v1379 c i tbl hT sim b9 = simRow c sim (wordAt c tbl i ⟨16, by decide⟩) := by
  unfold kernelRunC.sl.v1379; exact (load_after_fill cc0_scratch0 _ _ (by decide) _).trans (D_dma347 c i tbl hT sim)
theorem S_v1464 : kernelRunC.sl.v1464 c i tbl hT sim b10 = simRow c sim (wordAt c tbl i ⟨17, by decide⟩) := by
  unfold kernelRunC.sl.v1464; exact (load_after_fill cc0_scratch1 _ _ (by decide) _).trans (D_dma370 c i tbl hT sim)
theorem S_v : kernelRunC.sl.v c i tbl hT sim b9 = simRow c sim (wordAt c tbl i ⟨18, by decide⟩) := by
  unfold kernelRunC.sl.v; exact (load_after_fill cc0_scratch0 _ _ (by decide) _).trans (D_dma393 c i tbl hT sim)
theorem S_v1634 : kernelRunC.sl.v1634 c i tbl hT sim b10 = simRow c sim (wordAt c tbl i ⟨19, by decide⟩) := by
  unfold kernelRunC.sl.v1634; exact (load_after_fill cc0_scratch1 _ _ (by decide) _).trans (D_dma416 c i tbl hT sim)
theorem S_v1719 : kernelRunC.sl.v1719 c i tbl hT sim b9 = simRow c sim (wordAt c tbl i ⟨20, by decide⟩) := by
  unfold kernelRunC.sl.v1719; exact (load_after_fill cc0_scratch0 _ _ (by decide) _).trans (D_dma439 c i tbl hT sim)
theorem S_v1804 : kernelRunC.sl.v1804 c i tbl hT sim b10 = simRow c sim (wordAt c tbl i ⟨21, by decide⟩) := by
  unfold kernelRunC.sl.v1804; exact (load_after_fill cc0_scratch1 _ _ (by decide) _).trans (D_dma462 c i tbl hT sim)
theorem S_v1889 : kernelRunC.sl.v1889 c i tbl hT sim b9 = simRow c sim (wordAt c tbl i ⟨22, by decide⟩) := by
  unfold kernelRunC.sl.v1889; exact (load_after_fill cc0_scratch0 _ _ (by decide) _).trans (D_dma485 c i tbl hT sim)
theorem S_v1974 : kernelRunC.sl.v1974 c i tbl hT sim b10 = simRow c sim (wordAt c tbl i ⟨23, by decide⟩) := by
  unfold kernelRunC.sl.v1974; exact (load_after_fill cc0_scratch1 _ _ (by decide) _).trans (D_dma508 c i tbl hT sim)
theorem S_v2059 : kernelRunC.sl.v2059 c i tbl hT sim b9 = simRow c sim (wordAt c tbl i ⟨24, by decide⟩) := by
  unfold kernelRunC.sl.v2059; exact (load_after_fill cc0_scratch0 _ _ (by decide) _).trans (D_dma531 c i tbl hT sim)
theorem S_v2144 : kernelRunC.sl.v2144 c i tbl hT sim b10 = simRow c sim (wordAt c tbl i ⟨25, by decide⟩) := by
  unfold kernelRunC.sl.v2144; exact (load_after_fill cc0_scratch1 _ _ (by decide) _).trans (D_dma554 c i tbl hT sim)
theorem S_v2229 : kernelRunC.sl.v2229 c i tbl hT sim b9 = simRow c sim (wordAt c tbl i ⟨26, by decide⟩) := by
  unfold kernelRunC.sl.v2229; exact (load_after_fill cc0_scratch0 _ _ (by decide) _).trans (D_dma577 c i tbl hT sim)
theorem S_v2314 : kernelRunC.sl.v2314 c i tbl hT sim b10 = simRow c sim (wordAt c tbl i ⟨27, by decide⟩) := by
  unfold kernelRunC.sl.v2314; exact (load_after_fill cc0_scratch1 _ _ (by decide) _).trans (D_dma600 c i tbl hT sim)
theorem S_v2399 : kernelRunC.sl.v2399 c i tbl hT sim b9 = simRow c sim (wordAt c tbl i ⟨28, by decide⟩) := by
  unfold kernelRunC.sl.v2399; exact (load_after_fill cc0_scratch0 _ _ (by decide) _).trans (D_dma623 c i tbl hT sim)
theorem S_v2484 : kernelRunC.sl.v2484 c i tbl hT sim b10 = simRow c sim (wordAt c tbl i ⟨29, by decide⟩) := by
  unfold kernelRunC.sl.v2484; exact (load_after_fill cc0_scratch1 _ _ (by decide) _).trans (D_dma646 c i tbl hT sim)
theorem S_v2569 : kernelRunC.sl.v2569 c i tbl hT sim b9 = simRow c sim (wordAt c tbl i ⟨30, by decide⟩) := by
  unfold kernelRunC.sl.v2569; exact (load_after_fill cc0_scratch0 _ _ (by decide) _).trans (D_dma669 c i tbl hT sim)
theorem S_v2654 : kernelRunC.sl.v2654 c i tbl hT sim b10 = simRow c sim (wordAt c tbl i ⟨31, by decide⟩) := by
  unfold kernelRunC.sl.v2654; exact (load_after_fill cc0_scratch1 _ _ (by decide) _).trans (D_dma692 c i tbl hT sim)
theorem S_v2739 : kernelRunC.sl.v2739 c i tbl hT sim b9 = simRow c sim (wordAt c tbl i ⟨32, by decide⟩) := by
  unfold kernelRunC.sl.v2739; exact (load_after_fill cc0_scratch0 _ _ (by decide) _).trans (D_dma715 c i tbl hT sim)
theorem S_v2824 : kernelRunC.sl.v2824 c i tbl hT sim b10 = simRow c sim (wordAt c tbl i ⟨33, by decide⟩) := by
  unfold kernelRunC.sl.v2824; exact (load_after_fill cc0_scratch1 _ _ (by decide) _).trans (D_dma738 c i tbl hT sim)
theorem S_v2909 : kernelRunC.sl.v2909 c i tbl hT sim b9 = simRow c sim (wordAt c tbl i ⟨34, by decide⟩) := by
  unfold kernelRunC.sl.v2909; exact (load_after_fill cc0_scratch0 _ _ (by decide) _).trans (D_dma761 c i tbl hT sim)
theorem S_v2994 : kernelRunC.sl.v2994 c i tbl hT sim b10 = simRow c sim (wordAt c tbl i ⟨35, by decide⟩) := by
  unfold kernelRunC.sl.v2994; exact (load_after_fill cc0_scratch1 _ _ (by decide) _).trans (D_dma784 c i tbl hT sim)
theorem S_v3079 : kernelRunC.sl.v3079 c i tbl hT sim b9 = simRow c sim (wordAt c tbl i ⟨36, by decide⟩) := by
  unfold kernelRunC.sl.v3079; exact (load_after_fill cc0_scratch0 _ _ (by decide) _).trans (D_dma807 c i tbl hT sim)
theorem S_v3164 : kernelRunC.sl.v3164 c i tbl hT sim b10 = simRow c sim (wordAt c tbl i ⟨37, by decide⟩) := by
  unfold kernelRunC.sl.v3164; exact (load_after_fill cc0_scratch1 _ _ (by decide) _).trans (D_dma830 c i tbl hT sim)
theorem S_v_1 : kernelRunC.sl.v_1 c i tbl hT sim b9 = simRow c sim (wordAt c tbl i ⟨38, by decide⟩) := by
  unfold kernelRunC.sl.v_1; exact (load_after_fill cc0_scratch0 _ _ (by decide) _).trans (D_dma853 c i tbl hT sim)
theorem S_v3334 : kernelRunC.sl.v3334 c i tbl hT sim b10 = simRow c sim (wordAt c tbl i ⟨39, by decide⟩) := by
  unfold kernelRunC.sl.v3334; exact (load_after_fill cc0_scratch1 _ _ (by decide) _).trans (D_dma876 c i tbl hT sim)
theorem S_v3419 : kernelRunC.sl.v3419 c i tbl hT sim b9 = simRow c sim (wordAt c tbl i ⟨40, by decide⟩) := by
  unfold kernelRunC.sl.v3419; exact (load_after_fill cc0_scratch0 _ _ (by decide) _).trans (D_dma899 c i tbl hT sim)
theorem S_v3504 : kernelRunC.sl.v3504 c i tbl hT sim b10 = simRow c sim (wordAt c tbl i ⟨41, by decide⟩) := by
  unfold kernelRunC.sl.v3504; exact (load_after_fill cc0_scratch1 _ _ (by decide) _).trans (D_dma922 c i tbl hT sim)
theorem S_v3589 : kernelRunC.sl.v3589 c i tbl hT sim b9 = simRow c sim (wordAt c tbl i ⟨42, by decide⟩) := by
  unfold kernelRunC.sl.v3589; exact (load_after_fill cc0_scratch0 _ _ (by decide) _).trans (D_dma945 c i tbl hT sim)
theorem S_v3674 : kernelRunC.sl.v3674 c i tbl hT sim b10 = simRow c sim (wordAt c tbl i ⟨43, by decide⟩) := by
  unfold kernelRunC.sl.v3674; exact (load_after_fill cc0_scratch1 _ _ (by decide) _).trans (D_dma968 c i tbl hT sim)
theorem S_v3759 : kernelRunC.sl.v3759 c i tbl hT sim b9 = simRow c sim (wordAt c tbl i ⟨44, by decide⟩) := by
  unfold kernelRunC.sl.v3759; exact (load_after_fill cc0_scratch0 _ _ (by decide) _).trans (D_dma991 c i tbl hT sim)
theorem S_v3844 : kernelRunC.sl.v3844 c i tbl hT sim b10 = simRow c sim (wordAt c tbl i ⟨45, by decide⟩) := by
  unfold kernelRunC.sl.v3844; exact (load_after_fill cc0_scratch1 _ _ (by decide) _).trans (D_dma1014 c i tbl hT sim)
theorem S_v3929 : kernelRunC.sl.v3929 c i tbl hT sim b9 = simRow c sim (wordAt c tbl i ⟨46, by decide⟩) := by
  unfold kernelRunC.sl.v3929; exact (load_after_fill cc0_scratch0 _ _ (by decide) _).trans (D_dma1037 c i tbl hT sim)
theorem S_v4014 : kernelRunC.sl.v4014 c i tbl hT sim b10 = simRow c sim (wordAt c tbl i ⟨47, by decide⟩) := by
  unfold kernelRunC.sl.v4014; exact (load_after_fill cc0_scratch1 _ _ (by decide) _).trans (D_dma1060 c i tbl hT sim)
theorem S_v4099 : kernelRunC.sl.v4099 c i tbl hT sim b9 = simRow c sim (wordAt c tbl i ⟨48, by decide⟩) := by
  unfold kernelRunC.sl.v4099; exact (load_after_fill cc0_scratch0 _ _ (by decide) _).trans (D_dma1083 c i tbl hT sim)
theorem S_v4184 : kernelRunC.sl.v4184 c i tbl hT sim b10 = simRow c sim (wordAt c tbl i ⟨49, by decide⟩) := by
  unfold kernelRunC.sl.v4184; exact (load_after_fill cc0_scratch1 _ _ (by decide) _).trans (D_dma1106 c i tbl hT sim)
theorem S_v4269 : kernelRunC.sl.v4269 c i tbl hT sim b9 = simRow c sim (wordAt c tbl i ⟨50, by decide⟩) := by
  unfold kernelRunC.sl.v4269; exact (load_after_fill cc0_scratch0 _ _ (by decide) _).trans (D_dma1129 c i tbl hT sim)
theorem S_v4354 : kernelRunC.sl.v4354 c i tbl hT sim b10 = simRow c sim (wordAt c tbl i ⟨51, by decide⟩) := by
  unfold kernelRunC.sl.v4354; exact (load_after_fill cc0_scratch1 _ _ (by decide) _).trans (D_dma1152 c i tbl hT sim)
theorem S_v4439 : kernelRunC.sl.v4439 c i tbl hT sim b9 = simRow c sim (wordAt c tbl i ⟨52, by decide⟩) := by
  unfold kernelRunC.sl.v4439; exact (load_after_fill cc0_scratch0 _ _ (by decide) _).trans (D_dma1175 c i tbl hT sim)
theorem S_v4524 : kernelRunC.sl.v4524 c i tbl hT sim b10 = simRow c sim (wordAt c tbl i ⟨53, by decide⟩) := by
  unfold kernelRunC.sl.v4524; exact (load_after_fill cc0_scratch1 _ _ (by decide) _).trans (D_dma1198 c i tbl hT sim)
theorem S_v4609 : kernelRunC.sl.v4609 c i tbl hT sim b9 = simRow c sim (wordAt c tbl i ⟨54, by decide⟩) := by
  unfold kernelRunC.sl.v4609; exact (load_after_fill cc0_scratch0 _ _ (by decide) _).trans (D_dma1221 c i tbl hT sim)
theorem S_v4694 : kernelRunC.sl.v4694 c i tbl hT sim b10 = simRow c sim (wordAt c tbl i ⟨55, by decide⟩) := by
  unfold kernelRunC.sl.v4694; exact (load_after_fill cc0_scratch1 _ _ (by decide) _).trans (D_dma1244 c i tbl hT sim)
theorem S_v4779 : kernelRunC.sl.v4779 c i tbl hT sim b9 = simRow c sim (wordAt c tbl i ⟨56, by decide⟩) := by
  unfold kernelRunC.sl.v4779; exact (load_after_fill cc0_scratch0 _ _ (by decide) _).trans (D_dma1267 c i tbl hT sim)
theorem S_v4864 : kernelRunC.sl.v4864 c i tbl hT sim b10 = simRow c sim (wordAt c tbl i ⟨57, by decide⟩) := by
  unfold kernelRunC.sl.v4864; exact (load_after_fill cc0_scratch1 _ _ (by decide) _).trans (D_dma1290 c i tbl hT sim)
theorem S_v_2 : kernelRunC.sl.v_2 c i tbl hT sim b9 = simRow c sim (wordAt c tbl i ⟨58, by decide⟩) := by
  unfold kernelRunC.sl.v_2; exact (load_after_fill cc0_scratch0 _ _ (by decide) _).trans (D_dma1313 c i tbl hT sim)
theorem S_v5034 : kernelRunC.sl.v5034 c i tbl hT sim b10 = simRow c sim (wordAt c tbl i ⟨59, by decide⟩) := by
  unfold kernelRunC.sl.v5034; exact (load_after_fill cc0_scratch1 _ _ (by decide) _).trans (D_dma1336 c i tbl hT sim)
theorem S_v5119 : kernelRunC.sl.v5119 c i tbl hT sim b9 = simRow c sim (wordAt c tbl i ⟨60, by decide⟩) := by
  unfold kernelRunC.sl.v5119; exact (load_after_fill cc0_scratch0 _ _ (by decide) _).trans (D_dma1359 c i tbl hT sim)
theorem S_v5204 : kernelRunC.sl.v5204 c i tbl hT sim b10 = simRow c sim (wordAt c tbl i ⟨61, by decide⟩) := by
  unfold kernelRunC.sl.v5204; exact (load_after_fill cc0_scratch1 _ _ (by decide) _).trans (D_dma1382 c i tbl hT sim)
theorem S_v5289 : kernelRunC.sl.v5289 c i tbl hT sim b9 = simRow c sim (wordAt c tbl i ⟨62, by decide⟩) := by
  unfold kernelRunC.sl.v5289; exact (load_after_fill cc0_scratch0 _ _ (by decide) _).trans (D_dma1405 c i tbl hT sim)
theorem S_v5368 : kernelRunC.sl.v5368 c i tbl hT sim b10 = simRow c sim (wordAt c tbl i ⟨63, by decide⟩) := by
  unfold kernelRunC.sl.v5368; exact (load_after_fill cc0_scratch1 _ _ (by decide) _).trans (D_dma1428 c i tbl hT sim)
end TabC

end Cert.Proof.K

end
-- ==== Proof.KStepCTabV1.lean ====
import proofs.«419560_j5755256177164_3_alg».proof.Proof.KStepCTabW

/-!
  The table of case C: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.K

open Cert.Kernel Cert.Kernel.Gen
open Idealize.ShloMosaic Idealize.ShloMosaic.TcCoe
open Idealize.SL Idealize.SL.Sem

variable {F : FTy → Type} [FloatOps F]

namespace TabC

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

include c i M2 hM2 M3 hM3 tbl hT sim x2 x3 b9 b10 a12 a13 a14 a15 a16 a17

theorem V12_1 : kernelRunC.sl.v149 c M3 hM3 x3 a12 = (rowsOf c tbl i sim x2 x3 (accOf c a12 a13 a14 a15 a16 a17) 1).m := by
  unfold kernelRunC.sl.v149 kernelRunC.sl.H12_1
  rw [View.readCov_cons_toLoadRect]
  refine Eq.trans ?_ (rowsOf_m c tbl i sim x2 x3 (accOf c a12 a13 a14 a15 a16 a17) 0 (by decide)).symm
  unfold kernelRunC.sl.r_4
  simp only [mk_read M3 hM3 x3 0 (by decide)]
  try rfl
theorem V13_1 : kernelRunC.sl.v154 c i M2 hM2 M3 hM3 tbl x2 x3 a13 = (rowsOf c tbl i sim x2 x3 (accOf c a12 a13 a14 a15 a16 a17) 1).logp := by
  unfold kernelRunC.sl.v154 kernelRunC.sl.H13_1
  rw [View.readCov_cons_toLoadRect]
  refine Eq.trans ?_ (rowsOf_logp c tbl i sim x2 x3 (accOf c a12 a13 a14 a15 a16 a17) 0 (by decide)).symm
  unfold kernelRunC.sl.r_10 kernelRunC.sl.r_3 kernelRunC.sl.r_4
  simp only [W_r_2 c i tbl, in_read M2 hM2 x2 0 (by decide), mk_read M3 hM3 x3 0 (by decide)]
  try rfl
theorem V14_1 : kernelRunC.sl.v160 c i M3 hM3 tbl hT sim x3 b9 a14 = (rowsOf c tbl i sim x2 x3 (accOf c a12 a13 a14 a15 a16 a17) 1).w := by
  unfold kernelRunC.sl.v160 kernelRunC.sl.H14_1
  rw [View.readCov_cons_toLoadRect]
  refine Eq.trans ?_ (rowsOf_w c tbl i sim x2 x3 (accOf c a12 a13 a14 a15 a16 a17) 0 (by decide)).symm
  unfold kernelRunC.sl.r_6 kernelRunC.sl.r_4 kernelRunC.sl.r_5 kernelRunC.sl.cst_15
  simp only [S_v19 c i tbl hT sim b9, mk_read M3 hM3 x3 0 (by decide)]
  try rfl
theorem V12_2 : kernelRunC.sl.v234 c M3 hM3 x3 a12 = (rowsOf c tbl i sim x2 x3 (accOf c a12 a13 a14 a15 a16 a17) 2).m := by
  unfold kernelRunC.sl.v234 kernelRunC.sl.H12_2
  rw [View.readCov_cons_toLoadRect]
  refine Eq.trans ?_ (rowsOf_m c tbl i sim x2 x3 (accOf c a12 a13 a14 a15 a16 a17) 1 (by decide)).symm
  unfold kernelRunC.sl.r_13
  simp only [V12_1 c i M2 hM2 M3 hM3 tbl hT sim x2 x3 b9 b10 a12 a13 a14 a15 a16 a17, mk_read M3 hM3 x3 1 (by decide)]
  try rfl
theorem V13_2 : kernelRunC.sl.v239 c i M2 hM2 M3 hM3 tbl x2 x3 a13 = (rowsOf c tbl i sim x2 x3 (accOf c a12 a13 a14 a15 a16 a17) 2).logp := by
  unfold kernelRunC.sl.v239 kernelRunC.sl.H13_2
  rw [View.readCov_cons_toLoadRect]
  refine Eq.trans ?_ (rowsOf_logp c tbl i sim x2 x3 (accOf c a12 a13 a14 a15 a16 a17) 1 (by decide)).symm
  unfold kernelRunC.sl.r_13 kernelRunC.sl.r_16
  simp only [W_r_12 c i tbl, V13_1 c i M2 hM2 M3 hM3 tbl hT sim x2 x3 b9 b10 a12 a13 a14 a15 a16 a17, in_read M2 hM2 x2 1 (by decide), mk_read M3 hM3 x3 1 (by decide)]
  try rfl
theorem V14_2 : kernelRunC.sl.v245 c i M3 hM3 tbl hT sim x3 b9 b10 a14 = (rowsOf c tbl i sim x2 x3 (accOf c a12 a13 a14 a15 a16 a17) 2).w := by
  unfold kernelRunC.sl.v245 kernelRunC.sl.H14_2
  rw [View.readCov_cons_toLoadRect]
  refine Eq.trans ?_ (rowsOf_w c tbl i sim x2 x3 (accOf c a12 a13 a14 a15 a16 a17) 1 (by decide)).symm
  unfold kernelRunC.sl.r_14
  simp only [S_v104 c i tbl hT sim b10, V14_1 c i M2 hM2 M3 hM3 tbl hT sim x2 x3 b9 b10 a12 a13 a14 a15 a16 a17, mk_read M3 hM3 x3 1 (by decide)]
  try rfl
theorem V12_3 : kernelRunC.sl.v319 c M3 hM3 x3 a12 = (rowsOf c tbl i sim x2 x3 (accOf c a12 a13 a14 a15 a16 a17) 3).m := by
  unfold kernelRunC.sl.v319 kernelRunC.sl.H12_3
  rw [View.readCov_cons_toLoadRect]
  refine Eq.trans ?_ (rowsOf_m c tbl i sim x2 x3 (accOf c a12 a13 a14 a15 a16 a17) 2 (by decide)).symm
  unfold kernelRunC.sl.r_23
  simp only [V12_2 c i M2 hM2 M3 hM3 tbl hT sim x2 x3 b9 b10 a12 a13 a14 a15 a16 a17, mk_read M3 hM3 x3 2 (by decide)]
  try rfl
theorem V13_3 : kernelRunC.sl.v324 c i M2 hM2 M3 hM3 tbl x2 x3 a13 = (rowsOf c tbl i sim x2 x3 (accOf c a12 a13 a14 a15 a16 a17) 3).logp := by
  unfold kernelRunC.sl.v324 kernelRunC.sl.H13_3
  rw [View.readCov_cons_toLoadRect]
  refine Eq.trans ?_ (rowsOf_logp c tbl i sim x2 x3 (accOf c a12 a13 a14 a15 a16 a17) 2 (by decide)).symm
  unfold kernelRunC.sl.r_22 kernelRunC.sl.r_23
  simp only [W_r_21 c i tbl, V13_2 c i M2 hM2 M3 hM3 tbl hT sim x2 x3 b9 b10 a12 a13 a14 a15 a16 a17, in_read M2 hM2 x2 2 (by decide), mk_read M3 hM3 x3 2 (by decide)]
  try rfl
theorem V14_3 : kernelRunC.sl.v330 c i M3 hM3 tbl hT sim x3 b9 b10 a14 = (rowsOf c tbl i sim x2 x3 (accOf c a12 a13 a14 a15 a16 a17) 3).w := by
  unfold kernelRunC.sl.v330 kernelRunC.sl.H14_3
  rw [View.readCov_cons_toLoadRect]
  refine Eq.trans ?_ (rowsOf_w c tbl i sim x2 x3 (accOf c a12 a13 a14 a15 a16 a17) 2 (by decide)).symm
  unfold kernelRunC.sl.r_26
  simp only [S_v189 c i tbl hT sim b9, V14_2 c i M2 hM2 M3 hM3 tbl hT sim x2 x3 b9 b10 a12 a13 a14 a15 a16 a17, mk_read M3 hM3 x3 2 (by decide)]
  try rfl
theorem V12_4 : kernelRunC.sl.v404 c M3 hM3 x3 a12 = (rowsOf c tbl i sim x2 x3 (accOf c a12 a13 a14 a15 a16 a17) 4).m := by
  unfold kernelRunC.sl.v404 kernelRunC.sl.H12_4
  rw [View.readCov_cons_toLoadRect]
  refine Eq.trans ?_ (rowsOf_m c tbl i sim x2 x3 (accOf c a12 a13 a14 a15 a16 a17) 3 (by decide)).symm
  unfold kernelRunC.sl.r_33
  simp only [V12_3 c i M2 hM2 M3 hM3 tbl hT sim x2 x3 b9 b10 a12 a13 a14 a15 a16 a17, mk_read M3 hM3 x3 3 (by decide)]
  try rfl
theorem V13_4 : kernelRunC.sl.v409 c i M2 hM2 M3 hM3 tbl x2 x3 a13 = (rowsOf c tbl i sim x2 x3 (accOf c a12 a13 a14 a15 a16 a17) 4).logp := by
  unfold kernelRunC.sl.v409 kernelRunC.sl.H13_4
  rw [View.readCov_cons_toLoadRect]
  refine Eq.trans ?_ (rowsOf_logp c tbl i sim x2 x3 (accOf c a12 a13 a14 a15 a16 a17) 3 (by decide)).symm
  unfold kernelRunC.sl.r_39 kernelRunC.sl.r_32 kernelRunC.sl.r_33
  simp only [W_r_31 c i tbl, V13_3 c i M2 hM2 M3 hM3 tbl hT sim x2 x3 b9 b10 a12 a13 a14 a15 a16 a17, in_read M2 hM2 x2 3 (by decide), mk_read M3 hM3 x3 3 (by decide)]
  try rfl
theorem V14_4 : kernelRunC.sl.v415 c i M3 hM3 tbl hT sim x3 b9 b10 a14 = (rowsOf c tbl i sim x2 x3 (accOf c a12 a13 a14 a15 a16 a17) 4).w := by
  unfold kernelRunC.sl.v415 kernelRunC.sl.H14_4
  rw [View.readCov_cons_toLoadRect]
  refine Eq.trans ?_ (rowsOf_w c tbl i sim x2 x3 (accOf c a12 a13 a14 a15 a16 a17) 3 (by decide)).symm
  unfold kernelRunC.sl.r_35 kernelRunC.sl.r_33 kernelRunC.sl.r_34
  simp only [S_v274 c i tbl hT sim b10, V14_3 c i M2 hM2 M3 hM3 tbl hT sim x2 x3 b9 b10 a12 a13 a14 a15 a16 a17, mk_read M3 hM3 x3 3 (by decide)]
  try rfl
theorem V12_5 : kernelRunC.sl.v489 c M3 hM3 x3 a12 = (rowsOf c tbl i sim x2 x3 (accOf c a12 a13 a14 a15 a16 a17) 5).m := by
  unfold kernelRunC.sl.v489 kernelRunC.sl.H12_5
  rw [View.readCov_cons_toLoadRect]
  refine Eq.trans ?_ (rowsOf_m c tbl i sim x2 x3 (accOf c a12 a13 a14 a15 a16 a17) 4 (by decide)).symm
  unfold kernelRunC.sl.r_42
  simp only [V12_4 c i M2 hM2 M3 hM3 tbl hT sim x2 x3 b9 b10 a12 a13 a14 a15 a16 a17, mk_read M3 hM3 x3 4 (by decide)]
  try rfl
theorem V13_5 : kernelRunC.sl.v494 c i M2 hM2 M3 hM3 tbl x2 x3 a13 = (rowsOf c tbl i sim x2 x3 (accOf c a12 a13 a14 a15 a16 a17) 5).logp := by
  unfold kernelRunC.sl.v494 kernelRunC.sl.H13_5
  rw [View.readCov_cons_toLoadRect]
  refine Eq.trans ?_ (rowsOf_logp c tbl i sim x2 x3 (accOf c a12 a13 a14 a15 a16 a17) 4 (by decide)).symm
  unfold kernelRunC.sl.r_42 kernelRunC.sl.r_46
  simp only [W_r_41 c i tbl, V13_4 c i M2 hM2 M3 hM3 tbl hT sim x2 x3 b9 b10 a12 a13 a14 a15 a16 a17, in_read M2 hM2 x2 4 (by decide), mk_read M3 hM3 x3 4 (by decide)]
  try rfl
theorem V14_5 : kernelRunC.sl.v500 c i M3 hM3 tbl hT sim x3 b9 b10 a14 = (rowsOf c tbl i sim x2 x3 (accOf c a12 a13 a14 a15 a16 a17) 5).w := by
  unfold kernelRunC.sl.v500 kernelRunC.sl.H14_5
  rw [View.readCov_cons_toLoadRect]
  refine Eq.trans ?_ (rowsOf_w c tbl i sim x2 x3 (accOf c a12 a13 a14 a15 a16 a17) 4 (by decide)).symm
  unfold kernelRunC.sl.r_44
  simp only [S_v359 c i tbl hT sim b9, V14_4 c i M2 hM2 M3 hM3 tbl hT sim x2 x3 b9 b10 a12 a13 a14 a15 a16 a17, mk_read M3 hM3 x3 4 (by decide)]
  try rfl
theorem V12_6 : kernelRunC.sl.v574 c M3 hM3 x3 a12 = (rowsOf c tbl i sim x2 x3 (accOf c a12 a13 a14 a15 a16 a17) 6).m := by
  unfold kernelRunC.sl.v574 kernelRunC.sl.H12_6
  rw [View.readCov_cons_toLoadRect]
  refine Eq.trans ?_ (rowsOf_m c tbl i sim x2 x3 (accOf c a12 a13 a14 a15 a16 a17) 5 (by decide)).symm
  unfold kernelRunC.sl.r_52
  simp only [V12_5 c i M2 hM2 M3 hM3 tbl hT sim x2 x3 b9 b10 a12 a13 a14 a15 a16 a17, mk_read M3 hM3 x3 5 (by decide)]
  try rfl
theorem V13_6 : kernelRunC.sl.v579 c i M2 hM2 M3 hM3 tbl x2 x3 a13 = (rowsOf c tbl i sim x2 x3 (accOf c a12 a13 a14 a15 a16 a17) 6).logp := by
  unfold kernelRunC.sl.v579 kernelRunC.sl.H13_6
  rw [View.readCov_cons_toLoadRect]
  refine Eq.trans ?_ (rowsOf_logp c tbl i sim x2 x3 (accOf c a12 a13 a14 a15 a16 a17) 5 (by decide)).symm
  unfold kernelRunC.sl.r_51 kernelRunC.sl.r_52
  simp only [W_r_50 c i tbl, V13_5 c i M2 hM2 M3 hM3 tbl hT sim x2 x3 b9 b10 a12 a13 a14 a15 a16 a17, in_read M2 hM2 x2 5 (by decide), mk_read M3 hM3 x3 5 (by decide)]
  try rfl
theorem V14_6 : kernelRunC.sl.v585 c i M3 hM3 tbl hT sim x3 b9 b10 a14 = (rowsOf c tbl i sim x2 x3 (accOf c a12 a13 a14 a15 a16 a17) 6).w := by
  unfold kernelRunC.sl.v585 kernelRunC.sl.H14_6
  rw [View.readCov_cons_toLoadRect]
  refine Eq.trans ?_ (rowsOf_w c tbl i sim x2 x3 (accOf c a12 a13 a14 a15 a16 a17) 5 (by decide)).symm
  unfold kernelRunC.sl.r_54
  simp only [S_v444 c i tbl hT sim b10, V14_5 c i M2 hM2 M3 hM3 tbl hT sim x2 x3 b9 b10 a12 a13 a14 a15 a16 a17, mk_read M3 hM3 x3 5 (by decide)]
  try rfl
theorem V12_7 : kernelRunC.sl.v659 c M3 hM3 x3 a12 = (rowsOf c tbl i sim x2 x3 (accOf c a12 a13 a14 a15 a16 a17) 7).m := by
  unfold kernelRunC.sl.v659 kernelRunC.sl.H12_7
  rw [View.readCov_cons_toLoadRect]
  refine Eq.trans ?_ (rowsOf_m c tbl i sim x2 x3 (accOf c a12 a13 a14 a15 a16 a17) 6 (by decide)).symm
  unfold kernelRunC.sl.r_61
  simp only [V12_6 c i M2 hM2 M3 hM3 tbl hT sim x2 x3 b9 b10 a12 a13 a14 a15 a16 a17, mk_read M3 hM3 x3 6 (by decide)]
  try rfl
theorem V13_7 : kernelRunC.sl.v664 c i M2 hM2 M3 hM3 tbl x2 x3 a13 = (rowsOf c tbl i sim x2 x3 (accOf c a12 a13 a14 a15 a16 a17) 7).logp := by
  unfold kernelRunC.sl.v664 kernelRunC.sl.H13_7
  rw [View.readCov_cons_toLoadRect]
  refine Eq.trans ?_ (rowsOf_logp c tbl i sim x2 x3 (accOf c a12 a13 a14 a15 a16 a17) 6 (by decide)).symm
  unfold kernelRunC.sl.r_66 kernelRunC.sl.r_60 kernelRunC.sl.r_61
  simp only [W_r_59 c i tbl, V13_6 c i M2 hM2 M3 hM3 tbl hT sim x2 x3 b9 b10 a12 a13 a14 a15 a16 a17, in_read M2 hM2 x2 6 (by decide), mk_read M3 hM3 x3 6 (by decide)]
  try rfl
theorem V14_7 : kernelRunC.sl.v670 c i M3 hM3 tbl hT sim x3 b9 b10 a14 = (rowsOf c tbl i sim x2 x3 (accOf c a12 a13 a14 a15 a16 a17) 7).w := by
  unfold kernelRunC.sl.v670 kernelRunC.sl.H14_7
  rw [View.readCov_cons_toLoadRect]
  refine Eq.trans ?_ (rowsOf_w c tbl i sim x2 x3 (accOf c a12 a13 a14 a15 a16 a17) 6 (by decide)).symm
  unfold kernelRunC.sl.r_62 kernelRunC.sl.r_61 kernelRunC.sl.cst_284
  simp only [S_v529 c i tbl hT sim b9, V14_6 c i M2 hM2 M3 hM3 tbl hT sim x2 x3 b9 b10 a12 a13 a14 a15 a16 a17, mk_read M3 hM3 x3 6 (by decide)]
  try rfl
theorem V12_8 : kernelRunC.sl.v744 c M3 hM3 x3 a12 = (rowsOf c tbl i sim x2 x3 (accOf c a12 a13 a14 a15 a16 a17) 8).m := by
  unfold kernelRunC.sl.v744 kernelRunC.sl.H12_8
  rw [View.readCov_cons_toLoadRect]
  refine Eq.trans ?_ (rowsOf_m c tbl i sim x2 x3 (accOf c a12 a13 a14 a15 a16 a17) 7 (by decide)).symm
  unfold kernelRunC.sl.r_69
  simp only [V12_7 c i M2 hM2 M3 hM3 tbl hT sim x2 x3 b9 b10 a12 a13 a14 a15 a16 a17, mk_read M3 hM3 x3 7 (by decide)]
  try rfl
theorem V13_8 : kernelRunC.sl.v749 c i M2 hM2 M3 hM3 tbl x2 x3 a13 = (rowsOf c tbl i sim x2 x3 (accOf c a12 a13 a14 a15 a16 a17) 8).logp := by
  unfold kernelRunC.sl.v749 kernelRunC.sl.H13_8
  rw [View.readCov_cons_toLoadRect]
  refine Eq.trans ?_ (rowsOf_logp c tbl i sim x2 x3 (accOf c a12 a13 a14 a15 a16 a17) 7 (by decide)).symm
  unfold kernelRunC.sl.r_69 kernelRunC.sl.r_73
  simp only [W_r_68 c i tbl, V13_7 c i M2 hM2 M3 hM3 tbl hT sim x2 x3 b9 b10 a12 a13 a14 a15 a16 a17, in_read M2 hM2 x2 7 (by decide), mk_read M3 hM3 x3 7 (by decide)]
  try rfl
theorem V14_8 : kernelRunC.sl.v755 c i M3 hM3 tbl hT sim x3 b9 b10 a14 = (rowsOf c tbl i sim x2 x3 (accOf c a12 a13 a14 a15 a16 a17) 8).w := by
  unfold kernelRunC.sl.v755 kernelRunC.sl.H14_8
  rw [View.readCov_cons_toLoadRect]
  refine Eq.trans ?_ (rowsOf_w c tbl i sim x2 x3 (accOf c a12 a13 a14 a15 a16 a17) 7 (by decide)).symm
  unfold kernelRunC.sl.r_71
  simp only [S_v614 c i tbl hT sim b10, V14_7 c i M2 hM2 M3 hM3 tbl hT sim x2 x3 b9 b10 a12 a13 a14 a15 a16 a17, mk_read M3 hM3 x3 7 (by decide)]
  try rfl
theorem V12_9 : kernelRunC.sl.v829 c M3 hM3 x3 a12 = (rowsOf c tbl i sim x2 x3 (accOf c a12 a13 a14 a15 a16 a17) 9).m := by
  unfold kernelRunC.sl.v829 kernelRunC.sl.H12_9
  rw [View.readCov_cons_toLoadRect]
  refine Eq.trans ?_ (rowsOf_m c tbl i sim x2 x3 (accOf c a12 a13 a14 a15 a16 a17) 8 (by decide)).symm
  unfold kernelRunC.sl.r_78
  simp only [V12_8 c i M2 hM2 M3 hM3 tbl hT sim x2 x3 b9 b10 a12 a13 a14 a15 a16 a17, mk_read M3 hM3 x3 8 (by decide)]
  try rfl
theorem V13_9 : kernelRunC.sl.v834 c i M2 hM2 M3 hM3 tbl x2 x3 a13 = (rowsOf c tbl i sim x2 x3 (accOf c a12 a13 a14 a15 a16 a17) 9).logp := by
  unfold kernelRunC.sl.v834 kernelRunC.sl.H13_9
  rw [View.readCov_cons_toLoadRect]
  refine Eq.trans ?_ (rowsOf_logp c tbl i sim x2 x3 (accOf c a12 a13 a14 a15 a16 a17) 8 (by decide)).symm
  unfold kernelRunC.sl.r_77 kernelRunC.sl.r_78
  simp only [W_r_76 c i tbl, V13_8 c i M2 hM2 M3 hM3 tbl hT sim x2 x3 b9 b10 a12 a13 a14 a15 a16 a17, in_read M2 hM2 x2 8 (by decide), mk_read M3 hM3 x3 8 (by decide)]
  try rfl
theorem V14_9 : kernelRunC.sl.v840 c i M3 hM3 tbl hT sim x3 b9 b10 a14 = (rowsOf c tbl i sim x2 x3 (accOf c a12 a13 a14 a15 a16 a17) 9).w := by
  unfold kernelRunC.sl.v840 kernelRunC.sl.H14_9
  rw [View.readCov_cons_toLoadRect]
  refine Eq.trans ?_ (rowsOf_w c tbl i sim x2 x3 (accOf c a12 a13 a14 a15 a16 a17) 8 (by decide)).symm
  unfold kernelRunC.sl.r_78 kernelRunC.sl.r_79
  simp only [S_v699 c i tbl hT sim b9, V14_8 c i M2 hM2 M3 hM3 tbl hT sim x2 x3 b9 b10 a12 a13 a14 a15 a16 a17, mk_read M3 hM3 x3 8 (by decide)]
  try rfl
theorem V12_10 : kernelRunC.sl.v914 c M3 hM3 x3 a12 = (rowsOf c tbl i sim x2 x3 (accOf c a12 a13 a14 a15 a16 a17) 10).m := by
  unfold kernelRunC.sl.v914 kernelRunC.sl.H12_10
  rw [View.readCov_cons_toLoadRect]
  refine Eq.trans ?_ (rowsOf_m c tbl i sim x2 x3 (accOf c a12 a13 a14 a15 a16 a17) 9 (by decide)).symm
  unfold kernelRunC.sl.r_85
  simp only [V12_9 c i M2 hM2 M3 hM3 tbl hT sim x2 x3 b9 b10 a12 a13 a14 a15 a16 a17, mk_read M3 hM3 x3 9 (by decide)]
  try rfl
theorem V13_10 : kernelRunC.sl.v919 c i M2 hM2 M3 hM3 tbl x2 x3 a13 = (rowsOf c tbl i sim x2 x3 (accOf c a12 a13 a14 a15 a16 a17) 10).logp := by
  unfold kernelRunC.sl.v919 kernelRunC.sl.H13_10
  rw [View.readCov_cons_toLoadRect]
  refine Eq.trans ?_ (rowsOf_logp c tbl i sim x2 x3 (accOf c a12 a13 a14 a15 a16 a17) 9 (by decide)).symm
  unfold kernelRunC.sl.r_85 kernelRunC.sl.r_89 kernelRunC.sl.r_84
  simp only [W_r_86 c i tbl, V13_9 c i M2 hM2 M3 hM3 tbl hT sim x2 x3 b9 b10 a12 a13 a14 a15 a16 a17, in_read M2 hM2 x2 9 (by decide), mk_read M3 hM3 x3 9 (by decide)]
  try rfl
theorem V14_10 : kernelRunC.sl.v925 c i M3 hM3 tbl hT sim x3 b9 b10 a14 = (rowsOf c tbl i sim x2 x3 (accOf c a12 a13 a14 a15 a16 a17) 10).w := by
  unfold kernelRunC.sl.v925 kernelRunC.sl.H14_10
  rw [View.readCov_cons_toLoadRect]
  refine Eq.trans ?_ (rowsOf_w c tbl i sim x2 x3 (accOf c a12 a13 a14 a15 a16 a17) 9 (by decide)).symm
  unfold kernelRunC.sl.r_87 kernelRunC.sl.r_85
  simp only [S_v784 c i tbl hT sim b10, V14_9 c i M2 hM2 M3 hM3 tbl hT sim x2 x3 b9 b10 a12 a13 a14 a15 a16 a17, mk_read M3 hM3 x3 9 (by decide)]
  try rfl
theorem V12_11 : kernelRunC.sl.v999 c M3 hM3 x3 a12 = (rowsOf c tbl i sim x2 x3 (accOf c a12 a13 a14 a15 a16 a17) 11).m := by
  unfold kernelRunC.sl.v999 kernelRunC.sl.H12_11
  rw [View.readCov_cons_toLoadRect]
  refine Eq.trans ?_ (rowsOf_m c tbl i sim x2 x3 (accOf c a12 a13 a14 a15 a16 a17) 10 (by decide)).symm
  unfold kernelRunC.sl.r_94
  simp only [V12_10 c i M2 hM2 M3 hM3 tbl hT sim x2 x3 b9 b10 a12 a13 a14 a15 a16 a17, mk_read M3 hM3 x3 10 (by decide)]
  try rfl
theorem V13_11 : kernelRunC.sl.v1004 c i M2 hM2 M3 hM3 tbl x2 x3 a13 = (rowsOf c tbl i sim x2 x3 (accOf c a12 a13 a14 a15 a16 a17) 11).logp := by
  unfold kernelRunC.sl.v1004 kernelRunC.sl.H13_11
  rw [View.readCov_cons_toLoadRect]
  refine Eq.trans ?_ (rowsOf_logp c tbl i sim x2 x3 (accOf c a12 a13 a14 a15 a16 a17) 10 (by decide)).symm
  unfold kernelRunC.sl.r_94 kernelRunC.sl.r_98
  simp only [W_r_93 c i tbl, V13_10 c i M2 hM2 M3 hM3 tbl hT sim x2 x3 b9 b10 a12 a13 a14 a15 a16 a17, in_read M2 hM2 x2 10 (by decide), mk_read M3 hM3 x3 10 (by decide)]
  try rfl
theorem V14_11 : kernelRunC.sl.v1010 c i M3 hM3 tbl hT sim x3 b9 b10 a14 = (rowsOf c tbl i sim x2 x3 (accOf c a12 a13 a14 a15 a16 a17) 11).w := by
  unfold kernelRunC.sl.v1010 kernelRunC.sl.H14_11
  rw [View.readCov_cons_toLoadRect]
  refine Eq.trans ?_ (rowsOf_w c tbl i sim x2 x3 (accOf c a12 a13 a14 a15 a16 a17) 10 (by decide)).symm
  unfold kernelRunC.sl.r_96
  simp only [S_v869 c i tbl hT sim b9, V14_10 c i M2 hM2 M3 hM3 tbl hT sim x2 x3 b9 b10 a12 a13 a14 a15 a16 a17, mk_read M3 hM3 x3 10 (by decide)]
  try rfl
theorem V12_12 : kernelRunC.sl.v1084 c M3 hM3 x3 a12 = (rowsOf c tbl i sim x2 x3 (accOf c a12 a13 a14 a15 a16 a17) 12).m := by
  unfold kernelRunC.sl.v1084 kernelRunC.sl.H12_12
  rw [View.readCov_cons_toLoadRect]
  refine Eq.trans ?_ (rowsOf_m c tbl i sim x2 x3 (accOf c a12 a13 a14 a15 a16 a17) 11 (by decide)).symm
  unfold kernelRunC.sl.r_104
  simp only [V12_11 c i M2 hM2 M3 hM3 tbl hT sim x2 x3 b9 b10 a12 a13 a14 a15 a16 a17, mk_read M3 hM3 x3 11 (by decide)]
  try rfl
theorem V13_12 : kernelRunC.sl.v1089 c i M2 hM2 M3 hM3 tbl x2 x3 a13 = (rowsOf c tbl i sim x2 x3 (accOf c a12 a13 a14 a15 a16 a17) 12).logp := by
  unfold kernelRunC.sl.v1089 kernelRunC.sl.H13_12
  rw [View.readCov_cons_toLoadRect]
  refine Eq.trans ?_ (rowsOf_logp c tbl i sim x2 x3 (accOf c a12 a13 a14 a15 a16 a17) 11 (by decide)).symm
  unfold kernelRunC.sl.r_103 kernelRunC.sl.r_104
  simp only [W_r_102 c i tbl, V13_11 c i M2 hM2 M3 hM3 tbl hT sim x2 x3 b9 b10 a12 a13 a14 a15 a16 a17, in_read M2 hM2 x2 11 (by decide), mk_read M3 hM3 x3 11 (by decide)]
  try rfl
theorem V14_12 : kernelRunC.sl.v1095 c i M3 hM3 tbl hT sim x3 b9 b10 a14 = (rowsOf c tbl i sim x2 x3 (accOf c a12 a13 a14 a15 a16 a17) 12).w := by
  unfold kernelRunC.sl.v1095 kernelRunC.sl.H14_12
  rw [View.readCov_cons_toLoadRect]
  refine Eq.trans ?_ (rowsOf_w c tbl i sim x2 x3 (accOf c a12 a13 a14 a15 a16 a17) 11 (by decide)).symm
  unfold kernelRunC.sl.r_110 kernelRunC.sl.r_104 kernelRunC.sl.r_105 kernelRunC.sl.r_106
  simp only [V14_11 c i M2 hM2 M3 hM3 tbl hT sim x2 x3 b9 b10 a12 a13 a14 a15 a16 a17, S_v954 c i tbl hT sim b10, mk_read M3 hM3 x3 11 (by decide)]
  try rfl
theorem V12_13 : kernelRunC.sl.v1169 c M3 hM3 x3 a12 = (rowsOf c tbl i sim x2 x3 (accOf c a12 a13 a14 a15 a16 a17) 13).m := by
  unfold kernelRunC.sl.v1169 kernelRunC.sl.H12_13
  rw [View.readCov_cons_toLoadRect]
  refine Eq.trans ?_ (rowsOf_m c tbl i sim x2 x3 (accOf c a12 a13 a14 a15 a16 a17) 12 (by decide)).symm
  unfold kernelRunC.sl.r_121 kernelRunC.sl.r_113
  simp only [V12_12 c i M2 hM2 M3 hM3 tbl hT sim x2 x3 b9 b10 a12 a13 a14 a15 a16 a17, mk_read M3 hM3 x3 12 (by decide)]
  try rfl
theorem V13_13 : kernelRunC.sl.v1174 c i M2 hM2 M3 hM3 tbl x2 x3 a13 = (rowsOf c tbl i sim x2 x3 (accOf c a12 a13 a14 a15 a16 a17) 13).logp := by
  unfold kernelRunC.sl.v1174 kernelRunC.sl.H13_13
  rw [View.readCov_cons_toLoadRect]
  refine Eq.trans ?_ (rowsOf_logp c tbl i sim x2 x3 (accOf c a12 a13 a14 a15 a16 a17) 12 (by decide)).symm
  unfold kernelRunC.sl.r_115 kernelRunC.sl.r_118 kernelRunC.sl.r_113 kernelRunC.sl.r_112
  simp only [W_r_114 c i tbl, V13_12 c i M2 hM2 M3 hM3 tbl hT sim x2 x3 b9 b10 a12 a13 a14 a15 a16 a17, in_read M2 hM2 x2 12 (by decide), mk_read M3 hM3 x3 12 (by decide)]
  try rfl
theorem V14_13 : kernelRunC.sl.v1180 c i M3 hM3 tbl hT sim x3 b9 b10 a14 = (rowsOf c tbl i sim x2 x3 (accOf c a12 a13 a14 a15 a16 a17) 13).w := by
  unfold kernelRunC.sl.v1180 kernelRunC.sl.H14_13
  rw [View.readCov_cons_toLoadRect]
  refine Eq.trans ?_ (rowsOf_w c tbl i sim x2 x3 (accOf c a12 a13 a14 a15 a16 a17) 12 (by decide)).symm
  unfold kernelRunC.sl.r_116 kernelRunC.sl.r_113
  simp only [S_v1039 c i tbl hT sim b9, V14_12 c i M2 hM2 M3 hM3 tbl hT sim x2 x3 b9 b10 a12 a13 a14 a15 a16 a17, mk_read M3 hM3 x3 12 (by decide)]
  try rfl
theorem V12_14 : kernelRunC.sl.v1254 c M3 hM3 x3 a12 = (rowsOf c tbl i sim x2 x3 (accOf c a12 a13 a14 a15 a16 a17) 14).m := by
  unfold kernelRunC.sl.v1254 kernelRunC.sl.H12_14
  rw [View.readCov_cons_toLoadRect]
  refine Eq.trans ?_ (rowsOf_m c tbl i sim x2 x3 (accOf c a12 a13 a14 a15 a16 a17) 13 (by decide)).symm
  unfold kernelRunC.sl.r_125
  simp only [V12_13 c i M2 hM2 M3 hM3 tbl hT sim x2 x3 b9 b10 a12 a13 a14 a15 a16 a17, mk_read M3 hM3 x3 13 (by decide)]
  try rfl
theorem V13_14 : kernelRunC.sl.v1259 c i M2 hM2 M3 hM3 tbl x2 x3 a13 = (rowsOf c tbl i sim x2 x3 (accOf c a12 a13 a14 a15 a16 a17) 14).logp := by
  unfold kernelRunC.sl.v1259 kernelRunC.sl.H13_14
  rw [View.readCov_cons_toLoadRect]
  refine Eq.trans ?_ (rowsOf_logp c tbl i sim x2 x3 (accOf c a12 a13 a14 a15 a16 a17) 13 (by decide)).symm
  unfold kernelRunC.sl.r_124 kernelRunC.sl.r_125 kernelRunC.sl.r_129
  simp only [W_r_123 c i tbl, V13_13 c i M2 hM2 M3 hM3 tbl hT sim x2 x3 b9 b10 a12 a13 a14 a15 a16 a17, in_read M2 hM2 x2 13 (by decide), mk_read M3 hM3 x3 13 (by decide)]
  try rfl
theorem V14_14 : kernelRunC.sl.v1265 c i M3 hM3 tbl hT sim x3 b9 b10 a14 = (rowsOf c tbl i sim x2 x3 (accOf c a12 a13 a14 a15 a16 a17) 14).w := by
  unfold kernelRunC.sl.v1265 kernelRunC.sl.H14_14
  rw [View.readCov_cons_toLoadRect]
  refine Eq.trans ?_ (rowsOf_w c tbl i sim x2 x3 (accOf c a12 a13 a14 a15 a16 a17) 13 (by decide)).symm
  unfold kernelRunC.sl.r_127
  simp only [S_v1124 c i tbl hT sim b10, V14_13 c i M2 hM2 M3 hM3 tbl hT sim x2 x3 b9 b10 a12 a13 a14 a15 a16 a17, mk_read M3 hM3 x3 13 (by decide)]
  try rfl
theorem V12_15 : kernelRunC.sl.v1339 c M3 hM3 x3 a12 = (rowsOf c tbl i sim x2 x3 (accOf c a12 a13 a14 a15 a16 a17) 15).m := by
  unfold kernelRunC.sl.v1339 kernelRunC.sl.H12_15
  rw [View.readCov_cons_toLoadRect]
  refine Eq.trans ?_ (rowsOf_m c tbl i sim x2 x3 (accOf c a12 a13 a14 a15 a16 a17) 14 (by decide)).symm
  unfold kernelRunC.sl.r_135
  simp only [V12_14 c i M2 hM2 M3 hM3 tbl hT sim x2 x3 b9 b10 a12 a13 a14 a15 a16 a17, mk_read M3 hM3 x3 14 (by decide)]
  try rfl
theorem V13_15 : kernelRunC.sl.v1344 c i M2 hM2 M3 hM3 tbl x2 x3 a13 = (rowsOf c tbl i sim x2 x3 (accOf c a12 a13 a14 a15 a16 a17) 15).logp := by
  unfold kernelRunC.sl.v1344 kernelRunC.sl.H13_15
  rw [View.readCov_cons_toLoadRect]
  refine Eq.trans ?_ (rowsOf_logp c tbl i sim x2 x3 (accOf c a12 a13 a14 a15 a16 a17) 14 (by decide)).symm
  unfold kernelRunC.sl.r_134 kernelRunC.sl.r_135
  simp only [W_r_133 c i tbl, V13_14 c i M2 hM2 M3 hM3 tbl hT sim x2 x3 b9 b10 a12 a13 a14 a15 a16 a17, in_read M2 hM2 x2 14 (by decide), mk_read M3 hM3 x3 14 (by decide)]
  try rfl
theorem V14_15 : kernelRunC.sl.v1350 c i M3 hM3 tbl hT sim x3 b9 b10 a14 = (rowsOf c tbl i sim x2 x3 (accOf c a12 a13 a14 a15 a16 a17) 15).w := by
  unfold kernelRunC.sl.v1350 kernelRunC.sl.H14_15
  rw [View.readCov_cons_toLoadRect]
  refine Eq.trans ?_ (rowsOf_w c tbl i sim x2 x3 (accOf c a12 a13 a14 a15 a16 a17) 14 (by decide)).symm
  unfold kernelRunC.sl.r_141 kernelRunC.sl.r_135 kernelRunC.sl.r_136 kernelRunC.sl.r_137
  simp only [S_v1209 c i tbl hT sim b9, V14_14 c i M2 hM2 M3 hM3 tbl hT sim x2 x3 b9 b10 a12 a13 a14 a15 a16 a17, mk_read M3 hM3 x3 14 (by decide)]
  try rfl
theorem V12_16 : kernelRunC.sl.v1424 c M3 hM3 x3 a12 = (rowsOf c tbl i sim x2 x3 (accOf c a12 a13 a14 a15 a16 a17) 16).m := by
  unfold kernelRunC.sl.v1424 kernelRunC.sl.H12_16
  rw [View.readCov_cons_toLoadRect]
  refine Eq.trans ?_ (rowsOf_m c tbl i sim x2 x3 (accOf c a12 a13 a14 a15 a16 a17) 15 (by decide)).symm
  unfold kernelRunC.sl.r_151
  simp only [V12_15 c i M2 hM2 M3 hM3 tbl hT sim x2 x3 b9 b10 a12 a13 a14 a15 a16 a17, mk_read M3 hM3 x3 15 (by decide)]
  try rfl
theorem V13_16 : kernelRunC.sl.v1429 c i M2 hM2 M3 hM3 tbl x2 x3 a13 = (rowsOf c tbl i sim x2 x3 (accOf c a12 a13 a14 a15 a16 a17) 16).logp := by
  unfold kernelRunC.sl.v1429 kernelRunC.sl.H13_16
  rw [View.readCov_cons_toLoadRect]
  refine Eq.trans ?_ (rowsOf_logp c tbl i sim x2 x3 (accOf c a12 a13 a14 a15 a16 a17) 15 (by decide)).symm
  unfold kernelRunC.sl.r_145 kernelRunC.sl.r_148 kernelRunC.sl.r_143
  simp only [W_r_144 c i tbl, V13_15 c i M2 hM2 M3 hM3 tbl hT sim x2 x3 b9 b10 a12 a13 a14 a15 a16 a17, in_read M2 hM2 x2 15 (by decide), mk_read M3 hM3 x3 15 (by decide)]
  try rfl
theorem V14_16 : kernelRunC.sl.v1435 c i M3 hM3 tbl hT sim x3 b9 b10 a14 = (rowsOf c tbl i sim x2 x3 (accOf c a12 a13 a14 a15 a16 a17) 16).w := by
  unfold kernelRunC.sl.v1435 kernelRunC.sl.H14_16
  rw [View.readCov_cons_toLoadRect]
  refine Eq.trans ?_ (rowsOf_w c tbl i sim x2 x3 (accOf c a12 a13 a14 a15 a16 a17) 15 (by decide)).symm
  unfold kernelRunC.sl.r_146
  simp only [S_v1294 c i tbl hT sim b10, V14_15 c i M2 hM2 M3 hM3 tbl hT sim x2 x3 b9 b10 a12 a13 a14 a15 a16 a17, mk_read M3 hM3 x3 15 (by decide)]
  try rfl
theorem V12_17 : kernelRunC.sl.v1509 c M3 hM3 x3 a12 = (rowsOf c tbl i sim x2 x3 (accOf c a12 a13 a14 a15 a16 a17) 17).m := by
  unfold kernelRunC.sl.v1509 kernelRunC.sl.H12_17
  rw [View.readCov_cons_toLoadRect]
  refine Eq.trans ?_ (rowsOf_m c tbl i sim x2 x3 (accOf c a12 a13 a14 a15 a16 a17) 16 (by decide)).symm
  unfold kernelRunC.sl.r_155
  simp only [V12_16 c i M2 hM2 M3 hM3 tbl hT sim x2 x3 b9 b10 a12 a13 a14 a15 a16 a17, mk_read M3 hM3 x3 16 (by decide)]
  try rfl
theorem V13_17 : kernelRunC.sl.v1514 c i M2 hM2 M3 hM3 tbl x2 x3 a13 = (rowsOf c tbl i sim x2 x3 (accOf c a12 a13 a14 a15 a16 a17) 17).logp := by
  unfold kernelRunC.sl.v1514 kernelRunC.sl.H13_17
  rw [View.readCov_cons_toLoadRect]
  refine Eq.trans ?_ (rowsOf_logp c tbl i sim x2 x3 (accOf c a12 a13 a14 a15 a16 a17) 16 (by decide)).symm
  unfold kernelRunC.sl.r_154 kernelRunC.sl.r_155
  simp only [W_r_153 c i tbl, V13_16 c i M2 hM2 M3 hM3 tbl hT sim x2 x3 b9 b10 a12 a13 a14 a15 a16 a17, in_read M2 hM2 x2 16 (by decide), mk_read M3 hM3 x3 16 (by decide)]
  try rfl
theorem V14_17 : kernelRunC.sl.v1520 c i M3 hM3 tbl hT sim x3 b9 b10 a14 = (rowsOf c tbl i sim x2 x3 (accOf c a12 a13 a14 a15 a16 a17) 17).w := by
  unfold kernelRunC.sl.v1520 kernelRunC.sl.H14_17
  rw [View.readCov_cons_toLoadRect]
  refine Eq.trans ?_ (rowsOf_w c tbl i sim x2 x3 (accOf c a12 a13 a14 a15 a16 a17) 16 (by decide)).symm
  unfold kernelRunC.sl.r_157
  simp only [S_v1379 c i tbl hT sim b9, V14_16 c i M2 hM2 M3 hM3 tbl hT sim x2 x3 b9 b10 a12 a13 a14 a15 a16 a17, mk_read M3 hM3 x3 16 (by decide)]
  try rfl
theorem V12_18 : kernelRunC.sl.v1594 c M3 hM3 x3 a12 = (rowsOf c tbl i sim x2 x3 (accOf c a12 a13 a14 a15 a16 a17) 18).m := by
  unfold kernelRunC.sl.v1594 kernelRunC.sl.H12_18
  rw [View.readCov_cons_toLoadRect]
  refine Eq.trans ?_ (rowsOf_m c tbl i sim x2 x3 (accOf c a12 a13 a14 a15 a16 a17) 17 (by decide)).symm
  unfold kernelRunC.sl.r_164
  simp only [V12_17 c i M2 hM2 M3 hM3 tbl hT sim x2 x3 b9 b10 a12 a13 a14 a15 a16 a17, mk_read M3 hM3 x3 17 (by decide)]
  try rfl
theorem V13_18 : kernelRunC.sl.v1599 c i M2 hM2 M3 hM3 tbl x2 x3 a13 = (rowsOf c tbl i sim x2 x3 (accOf c a12 a13 a14 a15 a16 a17) 18).logp := by
  unfold kernelRunC.sl.v1599 kernelRunC.sl.H13_18
  rw [View.readCov_cons_toLoadRect]
  refine Eq.trans ?_ (rowsOf_logp c tbl i sim x2 x3 (accOf c a12 a13 a14 a15 a16 a17) 17 (by decide)).symm
  unfold kernelRunC.sl.r_163 kernelRunC.sl.r_164
  simp only [W_r_162 c i tbl, V13_17 c i M2 hM2 M3 hM3 tbl hT sim x2 x3 b9 b10 a12 a13 a14 a15 a16 a17, in_read M2 hM2 x2 17 (by decide), mk_read M3 hM3 x3 17 (by decide)]
  try rfl
theorem V14_18 : kernelRunC.sl.v1605 c i M3 hM3 tbl hT sim x3 b9 b10 a14 = (rowsOf c tbl i sim x2 x3 (accOf c a12 a13 a14 a15 a16 a17) 18).w := by
  unfold kernelRunC.sl.v1605 kernelRunC.sl.H14_18
  rw [View.readCov_cons_toLoadRect]
  refine Eq.trans ?_ (rowsOf_w c tbl i sim x2 x3 (accOf c a12 a13 a14 a15 a16 a17) 17 (by decide)).symm
  unfold kernelRunC.sl.r_167 kernelRunC.sl.r_164 kernelRunC.sl.r_165 kernelRunC.sl.r_166 kernelRunC.sl.cst_781
  simp only [S_v1464 c i tbl hT sim b10, V14_17 c i M2 hM2 M3 hM3 tbl hT sim x2 x3 b9 b10 a12 a13 a14 a15 a16 a17, mk_read M3 hM3 x3 17 (by decide)]
  try rfl
theorem V12_19 : kernelRunC.sl.v1679 c M3 hM3 x3 a12 = (rowsOf c tbl i sim x2 x3 (accOf c a12 a13 a14 a15 a16 a17) 19).m := by
  unfold kernelRunC.sl.v1679 kernelRunC.sl.H12_19
  rw [View.readCov_cons_toLoadRect]
  refine Eq.trans ?_ (rowsOf_m c tbl i sim x2 x3 (accOf c a12 a13 a14 a15 a16 a17) 18 (by decide)).symm
  unfold kernelRunC.sl.r_173
  simp only [V12_18 c i M2 hM2 M3 hM3 tbl hT sim x2 x3 b9 b10 a12 a13 a14 a15 a16 a17, mk_read M3 hM3 x3 18 (by decide)]
  try rfl
theorem V13_19 : kernelRunC.sl.v1684 c i M2 hM2 M3 hM3 tbl x2 x3 a13 = (rowsOf c tbl i sim x2 x3 (accOf c a12 a13 a14 a15 a16 a17) 19).logp := by
  unfold kernelRunC.sl.v1684 kernelRunC.sl.H13_19
  rw [View.readCov_cons_toLoadRect]
  refine Eq.trans ?_ (rowsOf_logp c tbl i sim x2 x3 (accOf c a12 a13 a14 a15 a16 a17) 18 (by decide)).symm
  unfold kernelRunC.sl.r_173 kernelRunC.sl.r_176
  simp only [W_r_172 c i tbl, V13_18 c i M2 hM2 M3 hM3 tbl hT sim x2 x3 b9 b10 a12 a13 a14 a15 a16 a17, in_read M2 hM2 x2 18 (by decide), mk_read M3 hM3 x3 18 (by decide)]
  try rfl
theorem V14_19 : kernelRunC.sl.v1690 c i M3 hM3 tbl hT sim x3 b9 b10 a14 = (rowsOf c tbl i sim x2 x3 (accOf c a12 a13 a14 a15 a16 a17) 19).w := by
  unfold kernelRunC.sl.v1690 kernelRunC.sl.H14_19
  rw [View.readCov_cons_toLoadRect]
  refine Eq.trans ?_ (rowsOf_w c tbl i sim x2 x3 (accOf c a12 a13 a14 a15 a16 a17) 18 (by decide)).symm
  unfold kernelRunC.sl.r_174
  simp only [S_v c i tbl hT sim b9, V14_18 c i M2 hM2 M3 hM3 tbl hT sim x2 x3 b9 b10 a12 a13 a14 a15 a16 a17, mk_read M3 hM3 x3 18 (by decide)]
  try rfl
theorem V12_20 : kernelRunC.sl.v1764 c M3 hM3 x3 a12 = (rowsOf c tbl i sim x2 x3 (accOf c a12 a13 a14 a15 a16 a17) 20).m := by
  unfold kernelRunC.sl.v1764 kernelRunC.sl.H12_20
  rw [View.readCov_cons_toLoadRect]
  refine Eq.trans ?_ (rowsOf_m c tbl i sim x2 x3 (accOf c a12 a13 a14 a15 a16 a17) 19 (by decide)).symm
  unfold kernelRunC.sl.r_182
  simp only [V12_19 c i M2 hM2 M3 hM3 tbl hT sim x2 x3 b9 b10 a12 a13 a14 a15 a16 a17, mk_read M3 hM3 x3 19 (by decide)]
  try rfl
theorem V13_20 : kernelRunC.sl.v1769 c i M2 hM2 M3 hM3 tbl x2 x3 a13 = (rowsOf c tbl i sim x2 x3 (accOf c a12 a13 a14 a15 a16 a17) 20).logp := by
  unfold kernelRunC.sl.v1769 kernelRunC.sl.H13_20
  rw [View.readCov_cons_toLoadRect]
  refine Eq.trans ?_ (rowsOf_logp c tbl i sim x2 x3 (accOf c a12 a13 a14 a15 a16 a17) 19 (by decide)).symm
  unfold kernelRunC.sl.r_181 kernelRunC.sl.r_182
  simp only [W_r_180 c i tbl, V13_19 c i M2 hM2 M3 hM3 tbl hT sim x2 x3 b9 b10 a12 a13 a14 a15 a16 a17, in_read M2 hM2 x2 19 (by decide), mk_read M3 hM3 x3 19 (by decide)]
  try rfl
theorem V14_20 : kernelRunC.sl.v1775 c i M3 hM3 tbl hT sim x3 b9 b10 a14 = (rowsOf c tbl i sim x2 x3 (accOf c a12 a13 a14 a15 a16 a17) 20).w := by
  unfold kernelRunC.sl.v1775 kernelRunC.sl.H14_20
  rw [View.readCov_cons_toLoadRect]
  refine Eq.trans ?_ (rowsOf_w c tbl i sim x2 x3 (accOf c a12 a13 a14 a15 a16 a17) 19 (by decide)).symm
  unfold kernelRunC.sl.r_184
  simp only [S_v1634 c i tbl hT sim b10, V14_19 c i M2 hM2 M3 hM3 tbl hT sim x2 x3 b9 b10 a12 a13 a14 a15 a16 a17, mk_read M3 hM3 x3 19 (by decide)]
  try rfl
theorem V12_21 : kernelRunC.sl.v1849 c M3 hM3 x3 a12 = (rowsOf c tbl i sim x2 x3 (accOf c a12 a13 a14 a15 a16 a17) 21).m := by
  unfold kernelRunC.sl.v1849 kernelRunC.sl.H12_21
  rw [View.readCov_cons_toLoadRect]
  refine Eq.trans ?_ (rowsOf_m c tbl i sim x2 x3 (accOf c a12 a13 a14 a15 a16 a17) 20 (by decide)).symm
  unfold kernelRunC.sl.r_191
  simp only [V12_20 c i M2 hM2 M3 hM3 tbl hT sim x2 x3 b9 b10 a12 a13 a14 a15 a16 a17, mk_read M3 hM3 x3 20 (by decide)]
  try rfl
theorem V13_21 : kernelRunC.sl.v1854 c i M2 hM2 M3 hM3 tbl x2 x3 a13 = (rowsOf c tbl i sim x2 x3 (accOf c a12 a13 a14 a15 a16 a17) 21).logp := by
  unfold kernelRunC.sl.v1854 kernelRunC.sl.H13_21
  rw [View.readCov_cons_toLoadRect]
  refine Eq.trans ?_ (rowsOf_logp c tbl i sim x2 x3 (accOf c a12 a13 a14 a15 a16 a17) 20 (by decide)).symm
  unfold kernelRunC.sl.r_197 kernelRunC.sl.r_190 kernelRunC.sl.r_191
  simp only [W_r_189 c i tbl, V13_20 c i M2 hM2 M3 hM3 tbl hT sim x2 x3 b9 b10 a12 a13 a14 a15 a16 a17, in_read M2 hM2 x2 20 (by decide), mk_read M3 hM3 x3 20 (by decide)]
  try rfl
theorem V14_21 : kernelRunC.sl.v1860 c i M3 hM3 tbl hT sim x3 b9 b10 a14 = (rowsOf c tbl i sim x2 x3 (accOf c a12 a13 a14 a15 a16 a17) 21).w := by
  unfold kernelRunC.sl.v1860 kernelRunC.sl.H14_21
  rw [View.readCov_cons_toLoadRect]
  refine Eq.trans ?_ (rowsOf_w c tbl i sim x2 x3 (accOf c a12 a13 a14 a15 a16 a17) 20 (by decide)).symm
  unfold kernelRunC.sl.r_193 kernelRunC.sl.r_191 kernelRunC.sl.r_192 kernelRunC.sl.cst_15
  simp only [S_v1719 c i tbl hT sim b9, V14_20 c i M2 hM2 M3 hM3 tbl hT sim x2 x3 b9 b10 a12 a13 a14 a15 a16 a17, mk_read M3 hM3 x3 20 (by decide)]
  try rfl
theorem V12_22 : kernelRunC.sl.v1934 c M3 hM3 x3 a12 = (rowsOf c tbl i sim x2 x3 (accOf c a12 a13 a14 a15 a16 a17) 22).m := by
  unfold kernelRunC.sl.v1934 kernelRunC.sl.H12_22
  rw [View.readCov_cons_toLoadRect]
  refine Eq.trans ?_ (rowsOf_m c tbl i sim x2 x3 (accOf c a12 a13 a14 a15 a16 a17) 21 (by decide)).symm
  unfold kernelRunC.sl.r_200
  simp only [V12_21 c i M2 hM2 M3 hM3 tbl hT sim x2 x3 b9 b10 a12 a13 a14 a15 a16 a17, mk_read M3 hM3 x3 21 (by decide)]
  try rfl
theorem V13_22 : kernelRunC.sl.v1939 c i M2 hM2 M3 hM3 tbl x2 x3 a13 = (rowsOf c tbl i sim x2 x3 (accOf c a12 a13 a14 a15 a16 a17) 22).logp := by
  unfold kernelRunC.sl.v1939 kernelRunC.sl.H13_22
  rw [View.readCov_cons_toLoadRect]
  refine Eq.trans ?_ (rowsOf_logp c tbl i sim x2 x3 (accOf c a12 a13 a14 a15 a16 a17) 21 (by decide)).symm
  unfold kernelRunC.sl.r_200 kernelRunC.sl.r_203
  simp only [W_r_199 c i tbl, V13_21 c i M2 hM2 M3 hM3 tbl hT sim x2 x3 b9 b10 a12 a13 a14 a15 a16 a17, in_read M2 hM2 x2 21 (by decide), mk_read M3 hM3 x3 21 (by decide)]
  try rfl
theorem V14_22 : kernelRunC.sl.v1945 c i M3 hM3 tbl hT sim x3 b9 b10 a14 = (rowsOf c tbl i sim x2 x3 (accOf c a12 a13 a14 a15 a16 a17) 22).w := by
  unfold kernelRunC.sl.v1945 kernelRunC.sl.H14_22
  rw [View.readCov_cons_toLoadRect]
  refine Eq.trans ?_ (rowsOf_w c tbl i sim x2 x3 (accOf c a12 a13 a14 a15 a16 a17) 21 (by decide)).symm
  unfold kernelRunC.sl.r_201
  simp only [S_v1804 c i tbl hT sim b10, V14_21 c i M2 hM2 M3 hM3 tbl hT sim x2 x3 b9 b10 a12 a13 a14 a15 a16 a17, mk_read M3 hM3 x3 21 (by decide)]
  try rfl
theorem V12_23 : kernelRunC.sl.v2019 c M3 hM3 x3 a12 = (rowsOf c tbl i sim x2 x3 (accOf c a12 a13 a14 a15 a16 a17) 23).m := by
  unfold kernelRunC.sl.v2019 kernelRunC.sl.H12_23
  rw [View.readCov_cons_toLoadRect]
  refine Eq.trans ?_ (rowsOf_m c tbl i sim x2 x3 (accOf c a12 a13 a14 a15 a16 a17) 22 (by decide)).symm
  unfold kernelRunC.sl.r_210
  simp only [V12_22 c i M2 hM2 M3 hM3 tbl hT sim x2 x3 b9 b10 a12 a13 a14 a15 a16 a17, mk_read M3 hM3 x3 22 (by decide)]
  try rfl
theorem V13_23 : kernelRunC.sl.v2024 c i M2 hM2 M3 hM3 tbl x2 x3 a13 = (rowsOf c tbl i sim x2 x3 (accOf c a12 a13 a14 a15 a16 a17) 23).logp := by
  unfold kernelRunC.sl.v2024 kernelRunC.sl.H13_23
  rw [View.readCov_cons_toLoadRect]
  refine Eq.trans ?_ (rowsOf_logp c tbl i sim x2 x3 (accOf c a12 a13 a14 a15 a16 a17) 22 (by decide)).symm
  unfold kernelRunC.sl.r_209 kernelRunC.sl.r_210
  simp only [W_r_208 c i tbl, V13_22 c i M2 hM2 M3 hM3 tbl hT sim x2 x3 b9 b10 a12 a13 a14 a15 a16 a17, in_read M2 hM2 x2 22 (by decide), mk_read M3 hM3 x3 22 (by decide)]
  try rfl
theorem V14_23 : kernelRunC.sl.v2030 c i M3 hM3 tbl hT sim x3 b9 b10 a14 = (rowsOf c tbl i sim x2 x3 (accOf c a12 a13 a14 a15 a16 a17) 23).w := by
  unfold kernelRunC.sl.v2030 kernelRunC.sl.H14_23
  rw [View.readCov_cons_toLoadRect]
  refine Eq.trans ?_ (rowsOf_w c tbl i sim x2 x3 (accOf c a12 a13 a14 a15 a16 a17) 22 (by decide)).symm
  unfold kernelRunC.sl.r_213
  simp only [S_v1889 c i tbl hT sim b9, V14_22 c i M2 hM2 M3 hM3 tbl hT sim x2 x3 b9 b10 a12 a13 a14 a15 a16 a17, mk_read M3 hM3 x3 22 (by decide)]
  try rfl
theorem V12_24 : kernelRunC.sl.v2104 c M3 hM3 x3 a12 = (rowsOf c tbl i sim x2 x3 (accOf c a12 a13 a14 a15 a16 a17) 24).m := by
  unfold kernelRunC.sl.v2104 kernelRunC.sl.H12_24
  rw [View.readCov_cons_toLoadRect]
  refine Eq.trans ?_ (rowsOf_m c tbl i sim x2 x3 (accOf c a12 a13 a14 a15 a16 a17) 23 (by decide)).symm
  unfold kernelRunC.sl.r_220
  simp only [V12_23 c i M2 hM2 M3 hM3 tbl hT sim x2 x3 b9 b10 a12 a13 a14 a15 a16 a17, mk_read M3 hM3 x3 23 (by decide)]
  try rfl
theorem V13_24 : kernelRunC.sl.v2109 c i M2 hM2 M3 hM3 tbl x2 x3 a13 = (rowsOf c tbl i sim x2 x3 (accOf c a12 a13 a14 a15 a16 a17) 24).logp := by
  unfold kernelRunC.sl.v2109 kernelRunC.sl.H13_24
  rw [View.readCov_cons_toLoadRect]
  refine Eq.trans ?_ (rowsOf_logp c tbl i sim x2 x3 (accOf c a12 a13 a14 a15 a16 a17) 23 (by decide)).symm
  unfold kernelRunC.sl.r_226 kernelRunC.sl.r_219 kernelRunC.sl.r_220
  simp only [W_r_218 c i tbl, V13_23 c i M2 hM2 M3 hM3 tbl hT sim x2 x3 b9 b10 a12 a13 a14 a15 a16 a17, in_read M2 hM2 x2 23 (by decide), mk_read M3 hM3 x3 23 (by decide)]
  try rfl
theorem V14_24 : kernelRunC.sl.v2115 c i M3 hM3 tbl hT sim x3 b9 b10 a14 = (rowsOf c tbl i sim x2 x3 (accOf c a12 a13 a14 a15 a16 a17) 24).w := by
  unfold kernelRunC.sl.v2115 kernelRunC.sl.H14_24
  rw [View.readCov_cons_toLoadRect]
  refine Eq.trans ?_ (rowsOf_w c tbl i sim x2 x3 (accOf c a12 a13 a14 a15 a16 a17) 23 (by decide)).symm
  unfold kernelRunC.sl.r_222 kernelRunC.sl.r_220 kernelRunC.sl.r_221
  simp only [S_v1974 c i tbl hT sim b10, V14_23 c i M2 hM2 M3 hM3 tbl hT sim x2 x3 b9 b10 a12 a13 a14 a15 a16 a17, mk_read M3 hM3 x3 23 (by decide)]
  try rfl
theorem V12_25 : kernelRunC.sl.v2189 c M3 hM3 x3 a12 = (rowsOf c tbl i sim x2 x3 (accOf c a12 a13 a14 a15 a16 a17) 25).m := by
  unfold kernelRunC.sl.v2189 kernelRunC.sl.H12_25
  rw [View.readCov_cons_toLoadRect]
  refine Eq.trans ?_ (rowsOf_m c tbl i sim x2 x3 (accOf c a12 a13 a14 a15 a16 a17) 24 (by decide)).symm
  unfold kernelRunC.sl.r_229
  simp only [V12_24 c i M2 hM2 M3 hM3 tbl hT sim x2 x3 b9 b10 a12 a13 a14 a15 a16 a17, mk_read M3 hM3 x3 24 (by decide)]
  try rfl
theorem V13_25 : kernelRunC.sl.v2194 c i M2 hM2 M3 hM3 tbl x2 x3 a13 = (rowsOf c tbl i sim x2 x3 (accOf c a12 a13 a14 a15 a16 a17) 25).logp := by
  unfold kernelRunC.sl.v2194 kernelRunC.sl.H13_25
  rw [View.readCov_cons_toLoadRect]
  refine Eq.trans ?_ (rowsOf_logp c tbl i sim x2 x3 (accOf c a12 a13 a14 a15 a16 a17) 24 (by decide)).symm
  unfold kernelRunC.sl.r_229 kernelRunC.sl.r_233
  simp only [W_r_228 c i tbl, V13_24 c i M2 hM2 M3 hM3 tbl hT sim x2 x3 b9 b10 a12 a13 a14 a15 a16 a17, in_read M2 hM2 x2 24 (by decide), mk_read M3 hM3 x3 24 (by decide)]
  try rfl
theorem V14_25 : kernelRunC.sl.v2200 c i M3 hM3 tbl hT sim x3 b9 b10 a14 = (rowsOf c tbl i sim x2 x3 (accOf c a12 a13 a14 a15 a16 a17) 25).w := by
  unfold kernelRunC.sl.v2200 kernelRunC.sl.H14_25
  rw [View.readCov_cons_toLoadRect]
  refine Eq.trans ?_ (rowsOf_w c tbl i sim x2 x3 (accOf c a12 a13 a14 a15 a16 a17) 24 (by decide)).symm
  unfold kernelRunC.sl.r_231
  simp only [S_v2059 c i tbl hT sim b9, V14_24 c i M2 hM2 M3 hM3 tbl hT sim x2 x3 b9 b10 a12 a13 a14 a15 a16 a17, mk_read M3 hM3 x3 24 (by decide)]
  try rfl
theorem V12_26 : kernelRunC.sl.v2274 c M3 hM3 x3 a12 = (rowsOf c tbl i sim x2 x3 (accOf c a12 a13 a14 a15 a16 a17) 26).m := by
  unfold kernelRunC.sl.v2274 kernelRunC.sl.H12_26
  rw [View.readCov_cons_toLoadRect]
  refine Eq.trans ?_ (rowsOf_m c tbl i sim x2 x3 (accOf c a12 a13 a14 a15 a16 a17) 25 (by decide)).symm
  unfold kernelRunC.sl.r_239
  simp only [V12_25 c i M2 hM2 M3 hM3 tbl hT sim x2 x3 b9 b10 a12 a13 a14 a15 a16 a17, mk_read M3 hM3 x3 25 (by decide)]
  try rfl
theorem V13_26 : kernelRunC.sl.v2279 c i M2 hM2 M3 hM3 tbl x2 x3 a13 = (rowsOf c tbl i sim x2 x3 (accOf c a12 a13 a14 a15 a16 a17) 26).logp := by
  unfold kernelRunC.sl.v2279 kernelRunC.sl.H13_26
  rw [View.readCov_cons_toLoadRect]
  refine Eq.trans ?_ (rowsOf_logp c tbl i sim x2 x3 (accOf c a12 a13 a14 a15 a16 a17) 25 (by decide)).symm
  unfold kernelRunC.sl.r_238 kernelRunC.sl.r_239
  simp only [W_r_237 c i tbl, V13_25 c i M2 hM2 M3 hM3 tbl hT sim x2 x3 b9 b10 a12 a13 a14 a15 a16 a17, in_read M2 hM2 x2 25 (by decide), mk_read M3 hM3 x3 25 (by decide)]
  try rfl
theorem V14_26 : kernelRunC.sl.v2285 c i M3 hM3 tbl hT sim x3 b9 b10 a14 = (rowsOf c tbl i sim x2 x3 (accOf c a12 a13 a14 a15 a16 a17) 26).w := by
  unfold kernelRunC.sl.v2285 kernelRunC.sl.H14_26
  rw [View.readCov_cons_toLoadRect]
  refine Eq.trans ?_ (rowsOf_w c tbl i sim x2 x3 (accOf c a12 a13 a14 a15 a16 a17) 25 (by decide)).symm
  unfold kernelRunC.sl.r_241
  simp only [S_v2144 c i tbl hT sim b10, V14_25 c i M2 hM2 M3 hM3 tbl hT sim x2 x3 b9 b10 a12 a13 a14 a15 a16 a17, mk_read M3 hM3 x3 25 (by decide)]
  try rfl
theorem V12_27 : kernelRunC.sl.v2359 c M3 hM3 x3 a12 = (rowsOf c tbl i sim x2 x3 (accOf c a12 a13 a14 a15 a16 a17) 27).m := by
  unfold kernelRunC.sl.v2359 kernelRunC.sl.H12_27
  rw [View.readCov_cons_toLoadRect]
  refine Eq.trans ?_ (rowsOf_m c tbl i sim x2 x3 (accOf c a12 a13 a14 a15 a16 a17) 26 (by decide)).symm
  unfold kernelRunC.sl.r_248
  simp only [V12_26 c i M2 hM2 M3 hM3 tbl hT sim x2 x3 b9 b10 a12 a13 a14 a15 a16 a17, mk_read M3 hM3 x3 26 (by decide)]
  try rfl
theorem V13_27 : kernelRunC.sl.v2364 c i M2 hM2 M3 hM3 tbl x2 x3 a13 = (rowsOf c tbl i sim x2 x3 (accOf c a12 a13 a14 a15 a16 a17) 27).logp := by
  unfold kernelRunC.sl.v2364 kernelRunC.sl.H13_27
  rw [View.readCov_cons_toLoadRect]
  refine Eq.trans ?_ (rowsOf_logp c tbl i sim x2 x3 (accOf c a12 a13 a14 a15 a16 a17) 26 (by decide)).symm
  unfold kernelRunC.sl.r_253 kernelRunC.sl.r_247 kernelRunC.sl.r_248
  simp only [W_r_246 c i tbl, V13_26 c i M2 hM2 M3 hM3 tbl hT sim x2 x3 b9 b10 a12 a13 a14 a15 a16 a17, in_read M2 hM2 x2 26 (by decide), mk_read M3 hM3 x3 26 (by decide)]
  try rfl
theorem V14_27 : kernelRunC.sl.v2370 c i M3 hM3 tbl hT sim x3 b9 b10 a14 = (rowsOf c tbl i sim x2 x3 (accOf c a12 a13 a14 a15 a16 a17) 27).w := by
  unfold kernelRunC.sl.v2370 kernelRunC.sl.H14_27
  rw [View.readCov_cons_toLoadRect]
  refine Eq.trans ?_ (rowsOf_w c tbl i sim x2 x3 (accOf c a12 a13 a14 a15 a16 a17) 26 (by decide)).symm
  unfold kernelRunC.sl.r_249 kernelRunC.sl.r_248 kernelRunC.sl.cst_284
  simp only [S_v2229 c i tbl hT sim b9, V14_26 c i M2 hM2 M3 hM3 tbl hT sim x2 x3 b9 b10 a12 a13 a14 a15 a16 a17, mk_read M3 hM3 x3 26 (by decide)]
  try rfl
theorem V12_28 : kernelRunC.sl.v2444 c M3 hM3 x3 a12 = (rowsOf c tbl i sim x2 x3 (accOf c a12 a13 a14 a15 a16 a17) 28).m := by
  unfold kernelRunC.sl.v2444 kernelRunC.sl.H12_28
  rw [View.readCov_cons_toLoadRect]
  refine Eq.trans ?_ (rowsOf_m c tbl i sim x2 x3 (accOf c a12 a13 a14 a15 a16 a17) 27 (by decide)).symm
  unfold kernelRunC.sl.r_256
  simp only [V12_27 c i M2 hM2 M3 hM3 tbl hT sim x2 x3 b9 b10 a12 a13 a14 a15 a16 a17, mk_read M3 hM3 x3 27 (by decide)]
  try rfl
theorem V13_28 : kernelRunC.sl.v2449 c i M2 hM2 M3 hM3 tbl x2 x3 a13 = (rowsOf c tbl i sim x2 x3 (accOf c a12 a13 a14 a15 a16 a17) 28).logp := by
  unfold kernelRunC.sl.v2449 kernelRunC.sl.H13_28
  rw [View.readCov_cons_toLoadRect]
  refine Eq.trans ?_ (rowsOf_logp c tbl i sim x2 x3 (accOf c a12 a13 a14 a15 a16 a17) 27 (by decide)).symm
  unfold kernelRunC.sl.r_256 kernelRunC.sl.r_260
  simp only [W_r_255 c i tbl, V13_27 c i M2 hM2 M3 hM3 tbl hT sim x2 x3 b9 b10 a12 a13 a14 a15 a16 a17, in_read M2 hM2 x2 27 (by decide), mk_read M3 hM3 x3 27 (by decide)]
  try rfl
theorem V14_28 : kernelRunC.sl.v2455 c i M3 hM3 tbl hT sim x3 b9 b10 a14 = (rowsOf c tbl i sim x2 x3 (accOf c a12 a13 a14 a15 a16 a17) 28).w := by
  unfold kernelRunC.sl.v2455 kernelRunC.sl.H14_28
  rw [View.readCov_cons_toLoadRect]
  refine Eq.trans ?_ (rowsOf_w c tbl i sim x2 x3 (accOf c a12 a13 a14 a15 a16 a17) 27 (by decide)).symm
  unfold kernelRunC.sl.r_258
  simp only [S_v2314 c i tbl hT sim b10, V14_27 c i M2 hM2 M3 hM3 tbl hT sim x2 x3 b9 b10 a12 a13 a14 a15 a16 a17, mk_read M3 hM3 x3 27 (by decide)]
  try rfl
theorem V12_29 : kernelRunC.sl.v2529 c M3 hM3 x3 a12 = (rowsOf c tbl i sim x2 x3 (accOf c a12 a13 a14 a15 a16 a17) 29).m := by
  unfold kernelRunC.sl.v2529 kernelRunC.sl.H12_29
  rw [View.readCov_cons_toLoadRect]
  refine Eq.trans ?_ (rowsOf_m c tbl i sim x2 x3 (accOf c a12 a13 a14 a15 a16 a17) 28 (by decide)).symm
  unfold kernelRunC.sl.r_265
  simp only [V12_28 c i M2 hM2 M3 hM3 tbl hT sim x2 x3 b9 b10 a12 a13 a14 a15 a16 a17, mk_read M3 hM3 x3 28 (by decide)]
  try rfl
theorem V13_29 : kernelRunC.sl.v2534 c i M2 hM2 M3 hM3 tbl x2 x3 a13 = (rowsOf c tbl i sim x2 x3 (accOf c a12 a13 a14 a15 a16 a17) 29).logp := by
  unfold kernelRunC.sl.v2534 kernelRunC.sl.H13_29
  rw [View.readCov_cons_toLoadRect]
  refine Eq.trans ?_ (rowsOf_logp c tbl i sim x2 x3 (accOf c a12 a13 a14 a15 a16 a17) 28 (by decide)).symm
  unfold kernelRunC.sl.r_264 kernelRunC.sl.r_265
  simp only [W_r_263 c i tbl, V13_28 c i M2 hM2 M3 hM3 tbl hT sim x2 x3 b9 b10 a12 a13 a14 a15 a16 a17, in_read M2 hM2 x2 28 (by decide), mk_read M3 hM3 x3 28 (by decide)]
  try rfl
theorem V14_29 : kernelRunC.sl.v2540 c i M3 hM3 tbl hT sim x3 b9 b10 a14 = (rowsOf c tbl i sim x2 x3 (accOf c a12 a13 a14 a15 a16 a17) 29).w := by
  unfold kernelRunC.sl.v2540 kernelRunC.sl.H14_29
  rw [View.readCov_cons_toLoadRect]
  refine Eq.trans ?_ (rowsOf_w c tbl i sim x2 x3 (accOf c a12 a13 a14 a15 a16 a17) 28 (by decide)).symm
  unfold kernelRunC.sl.r_265 kernelRunC.sl.r_266
  simp only [S_v2399 c i tbl hT sim b9, V14_28 c i M2 hM2 M3 hM3 tbl hT sim x2 x3 b9 b10 a12 a13 a14 a15 a16 a17, mk_read M3 hM3 x3 28 (by decide)]
  try rfl
theorem V12_30 : kernelRunC.sl.v2614 c M3 hM3 x3 a12 = (rowsOf c tbl i sim x2 x3 (accOf c a12 a13 a14 a15 a16 a17) 30).m := by
  unfold kernelRunC.sl.v2614 kernelRunC.sl.H12_30
  rw [View.readCov_cons_toLoadRect]
  refine Eq.trans ?_ (rowsOf_m c tbl i sim x2 x3 (accOf c a12 a13 a14 a15 a16 a17) 29 (by decide)).symm
  unfold kernelRunC.sl.r_272
  simp only [V12_29 c i M2 hM2 M3 hM3 tbl hT sim x2 x3 b9 b10 a12 a13 a14 a15 a16 a17, mk_read M3 hM3 x3 29 (by decide)]
  try rfl
theorem V13_30 : kernelRunC.sl.v2619 c i M2 hM2 M3 hM3 tbl x2 x3 a13 = (rowsOf c tbl i sim x2 x3 (accOf c a12 a13 a14 a15 a16 a17) 30).logp := by
  unfold kernelRunC.sl.v2619 kernelRunC.sl.H13_30
  rw [View.readCov_cons_toLoadRect]
  refine Eq.trans ?_ (rowsOf_logp c tbl i sim x2 x3 (accOf c a12 a13 a14 a15 a16 a17) 29 (by decide)).symm
  unfold kernelRunC.sl.r_272 kernelRunC.sl.r_276 kernelRunC.sl.r_271
  simp only [W_r_273 c i tbl, V13_29 c i M2 hM2 M3 hM3 tbl hT sim x2 x3 b9 b10 a12 a13 a14 a15 a16 a17, in_read M2 hM2 x2 29 (by decide), mk_read M3 hM3 x3 29 (by decide)]
  try rfl
theorem V14_30 : kernelRunC.sl.v2625 c i M3 hM3 tbl hT sim x3 b9 b10 a14 = (rowsOf c tbl i sim x2 x3 (accOf c a12 a13 a14 a15 a16 a17) 30).w := by
  unfold kernelRunC.sl.v2625 kernelRunC.sl.H14_30
  rw [View.readCov_cons_toLoadRect]
  refine Eq.trans ?_ (rowsOf_w c tbl i sim x2 x3 (accOf c a12 a13 a14 a15 a16 a17) 29 (by decide)).symm
  unfold kernelRunC.sl.r_274 kernelRunC.sl.r_272
  simp only [S_v2484 c i tbl hT sim b10, V14_29 c i M2 hM2 M3 hM3 tbl hT sim x2 x3 b9 b10 a12 a13 a14 a15 a16 a17, mk_read M3 hM3 x3 29 (by decide)]
  try rfl
theorem V12_31 : kernelRunC.sl.v2699 c M3 hM3 x3 a12 = (rowsOf c tbl i sim x2 x3 (accOf c a12 a13 a14 a15 a16 a17) 31).m := by
  unfold kernelRunC.sl.v2699 kernelRunC.sl.H12_31
  rw [View.readCov_cons_toLoadRect]
  refine Eq.trans ?_ (rowsOf_m c tbl i sim x2 x3 (accOf c a12 a13 a14 a15 a16 a17) 30 (by decide)).symm
  unfold kernelRunC.sl.r_281
  simp only [V12_30 c i M2 hM2 M3 hM3 tbl hT sim x2 x3 b9 b10 a12 a13 a14 a15 a16 a17, mk_read M3 hM3 x3 30 (by decide)]
  try rfl
theorem V13_31 : kernelRunC.sl.v2704 c i M2 hM2 M3 hM3 tbl x2 x3 a13 = (rowsOf c tbl i sim x2 x3 (accOf c a12 a13 a14 a15 a16 a17) 31).logp := by
  unfold kernelRunC.sl.v2704 kernelRunC.sl.H13_31
  rw [View.readCov_cons_toLoadRect]
  refine Eq.trans ?_ (rowsOf_logp c tbl i sim x2 x3 (accOf c a12 a13 a14 a15 a16 a17) 30 (by decide)).symm
  unfold kernelRunC.sl.r_281 kernelRunC.sl.r_285
  simp only [W_r_280 c i tbl, V13_30 c i M2 hM2 M3 hM3 tbl hT sim x2 x3 b9 b10 a12 a13 a14 a15 a16 a17, in_read M2 hM2 x2 30 (by decide), mk_read M3 hM3 x3 30 (by decide)]
  try rfl
theorem V14_31 : kernelRunC.sl.v2710 c i M3 hM3 tbl hT sim x3 b9 b10 a14 = (rowsOf c tbl i sim x2 x3 (accOf c a12 a13 a14 a15 a16 a17) 31).w := by
  unfold kernelRunC.sl.v2710 kernelRunC.sl.H14_31
  rw [View.readCov_cons_toLoadRect]
  refine Eq.trans ?_ (rowsOf_w c tbl i sim x2 x3 (accOf c a12 a13 a14 a15 a16 a17) 30 (by decide)).symm
  unfold kernelRunC.sl.r_283
  simp only [S_v2569 c i tbl hT sim b9, V14_30 c i M2 hM2 M3 hM3 tbl hT sim x2 x3 b9 b10 a12 a13 a14 a15 a16 a17, mk_read M3 hM3 x3 30 (by decide)]
  try rfl
theorem V12_32 : kernelRunC.sl.v2784 c M3 hM3 x3 a12 = (rowsOf c tbl i sim x2 x3 (accOf c a12 a13 a14 a15 a16 a17) 32).m := by
  unfold kernelRunC.sl.v2784 kernelRunC.sl.H12_32
  rw [View.readCov_cons_toLoadRect]
  refine Eq.trans ?_ (rowsOf_m c tbl i sim x2 x3 (accOf c a12 a13 a14 a15 a16 a17) 31 (by decide)).symm
  unfold kernelRunC.sl.r_291
  simp only [V12_31 c i M2 hM2 M3 hM3 tbl hT sim x2 x3 b9 b10 a12 a13 a14 a15 a16 a17, mk_read M3 hM3 x3 31 (by decide)]
  try rfl
theorem V13_32 : kernelRunC.sl.v2789 c i M2 hM2 M3 hM3 tbl x2 x3 a13 = (rowsOf c tbl i sim x2 x3 (accOf c a12 a13 a14 a15 a16 a17) 32).logp := by
  unfold kernelRunC.sl.v2789 kernelRunC.sl.H13_32
  rw [View.readCov_cons_toLoadRect]
  refine Eq.trans ?_ (rowsOf_logp c tbl i sim x2 x3 (accOf c a12 a13 a14 a15 a16 a17) 31 (by decide)).symm
  unfold kernelRunC.sl.r_290 kernelRunC.sl.r_291
  simp only [W_r_289 c i tbl, V13_31 c i M2 hM2 M3 hM3 tbl hT sim x2 x3 b9 b10 a12 a13 a14 a15 a16 a17, in_read M2 hM2 x2 31 (by decide), mk_read M3 hM3 x3 31 (by decide)]
  try rfl
theorem V14_32 : kernelRunC.sl.v2795 c i M3 hM3 tbl hT sim x3 b9 b10 a14 = (rowsOf c tbl i sim x2 x3 (accOf c a12 a13 a14 a15 a16 a17) 32).w := by
  unfold kernelRunC.sl.v2795 kernelRunC.sl.H14_32
  rw [View.readCov_cons_toLoadRect]
  refine Eq.trans ?_ (rowsOf_w c tbl i sim x2 x3 (accOf c a12 a13 a14 a15 a16 a17) 31 (by decide)).symm
  unfold kernelRunC.sl.r_297 kernelRunC.sl.r_291 kernelRunC.sl.r_292 kernelRunC.sl.r_293
  simp only [S_v2654 c i tbl hT sim b10, V14_31 c i M2 hM2 M3 hM3 tbl hT sim x2 x3 b9 b10 a12 a13 a14 a15 a16 a17, mk_read M3 hM3 x3 31 (by decide)]
  try rfl
theorem V12_33 : kernelRunC.sl.v2869 c M3 hM3 x3 a12 = (rowsOf c tbl i sim x2 x3 (accOf c a12 a13 a14 a15 a16 a17) 33).m := by
  unfold kernelRunC.sl.v2869 kernelRunC.sl.H12_33
  rw [View.readCov_cons_toLoadRect]
  refine Eq.trans ?_ (rowsOf_m c tbl i sim x2 x3 (accOf c a12 a13 a14 a15 a16 a17) 32 (by decide)).symm
  unfold kernelRunC.sl.r_308 kernelRunC.sl.r_300
  simp only [V12_32 c i M2 hM2 M3 hM3 tbl hT sim x2 x3 b9 b10 a12 a13 a14 a15 a16 a17, mk_read M3 hM3 x3 32 (by decide)]
  try rfl
theorem V13_33 : kernelRunC.sl.v2874 c i M2 hM2 M3 hM3 tbl x2 x3 a13 = (rowsOf c tbl i sim x2 x3 (accOf c a12 a13 a14 a15 a16 a17) 33).logp := by
  unfold kernelRunC.sl.v2874 kernelRunC.sl.H13_33
  rw [View.readCov_cons_toLoadRect]
  refine Eq.trans ?_ (rowsOf_logp c tbl i sim x2 x3 (accOf c a12 a13 a14 a15 a16 a17) 32 (by decide)).symm
  unfold kernelRunC.sl.r_302 kernelRunC.sl.r_305 kernelRunC.sl.r_300 kernelRunC.sl.r_299
  simp only [W_r_301 c i tbl, V13_32 c i M2 hM2 M3 hM3 tbl hT sim x2 x3 b9 b10 a12 a13 a14 a15 a16 a17, in_read M2 hM2 x2 32 (by decide), mk_read M3 hM3 x3 32 (by decide)]
  try rfl
theorem V14_33 : kernelRunC.sl.v2880 c i M3 hM3 tbl hT sim x3 b9 b10 a14 = (rowsOf c tbl i sim x2 x3 (accOf c a12 a13 a14 a15 a16 a17) 33).w := by
  unfold kernelRunC.sl.v2880 kernelRunC.sl.H14_33
  rw [View.readCov_cons_toLoadRect]
  refine Eq.trans ?_ (rowsOf_w c tbl i sim x2 x3 (accOf c a12 a13 a14 a15 a16 a17) 32 (by decide)).symm
  unfold kernelRunC.sl.r_303 kernelRunC.sl.r_300
  simp only [S_v2739 c i tbl hT sim b9, V14_32 c i M2 hM2 M3 hM3 tbl hT sim x2 x3 b9 b10 a12 a13 a14 a15 a16 a17, mk_read M3 hM3 x3 32 (by decide)]
  try rfl
theorem V12_34 : kernelRunC.sl.v2954 c M3 hM3 x3 a12 = (rowsOf c tbl i sim x2 x3 (accOf c a12 a13 a14 a15 a16 a17) 34).m := by
  unfold kernelRunC.sl.v2954 kernelRunC.sl.H12_34
  rw [View.readCov_cons_toLoadRect]
  refine Eq.trans ?_ (rowsOf_m c tbl i sim x2 x3 (accOf c a12 a13 a14 a15 a16 a17) 33 (by decide)).symm
  unfold kernelRunC.sl.r_312
  simp only [V12_33 c i M2 hM2 M3 hM3 tbl hT sim x2 x3 b9 b10 a12 a13 a14 a15 a16 a17, mk_read M3 hM3 x3 33 (by decide)]
  try rfl
theorem V13_34 : kernelRunC.sl.v2959 c i M2 hM2 M3 hM3 tbl x2 x3 a13 = (rowsOf c tbl i sim x2 x3 (accOf c a12 a13 a14 a15 a16 a17) 34).logp := by
  unfold kernelRunC.sl.v2959 kernelRunC.sl.H13_34
  rw [View.readCov_cons_toLoadRect]
  refine Eq.trans ?_ (rowsOf_logp c tbl i sim x2 x3 (accOf c a12 a13 a14 a15 a16 a17) 33 (by decide)).symm
  unfold kernelRunC.sl.r_311 kernelRunC.sl.r_312 kernelRunC.sl.r_316
  simp only [W_r_310 c i tbl, V13_33 c i M2 hM2 M3 hM3 tbl hT sim x2 x3 b9 b10 a12 a13 a14 a15 a16 a17, in_read M2 hM2 x2 33 (by decide), mk_read M3 hM3 x3 33 (by decide)]
  try rfl
theorem V14_34 : kernelRunC.sl.v2965 c i M3 hM3 tbl hT sim x3 b9 b10 a14 = (rowsOf c tbl i sim x2 x3 (accOf c a12 a13 a14 a15 a16 a17) 34).w := by
  unfold kernelRunC.sl.v2965 kernelRunC.sl.H14_34
  rw [View.readCov_cons_toLoadRect]
  refine Eq.trans ?_ (rowsOf_w c tbl i sim x2 x3 (accOf c a12 a13 a14 a15 a16 a17) 33 (by decide)).symm
  unfold kernelRunC.sl.r_314
  simp only [S_v2824 c i tbl hT sim b10, V14_33 c i M2 hM2 M3 hM3 tbl hT sim x2 x3 b9 b10 a12 a13 a14 a15 a16 a17, mk_read M3 hM3 x3 33 (by decide)]
  try rfl
theorem V12_35 : kernelRunC.sl.v3039 c M3 hM3 x3 a12 = (rowsOf c tbl i sim x2 x3 (accOf c a12 a13 a14 a15 a16 a17) 35).m := by
  unfold kernelRunC.sl.v3039 kernelRunC.sl.H12_35
  rw [View.readCov_cons_toLoadRect]
  refine Eq.trans ?_ (rowsOf_m c tbl i sim x2 x3 (accOf c a12 a13 a14 a15 a16 a17) 34 (by decide)).symm
  unfold kernelRunC.sl.r_322
  simp only [V12_34 c i M2 hM2 M3 hM3 tbl hT sim x2 x3 b9 b10 a12 a13 a14 a15 a16 a17, mk_read M3 hM3 x3 34 (by decide)]
  try rfl
theorem V13_35 : kernelRunC.sl.v3044 c i M2 hM2 M3 hM3 tbl x2 x3 a13 = (rowsOf c tbl i sim x2 x3 (accOf c a12 a13 a14 a15 a16 a17) 35).logp := by
  unfold kernelRunC.sl.v3044 kernelRunC.sl.H13_35
  rw [View.readCov_cons_toLoadRect]
  refine Eq.trans ?_ (rowsOf_logp c tbl i sim x2 x3 (accOf c a12 a13 a14 a15 a16 a17) 34 (by decide)).symm
  unfold kernelRunC.sl.r_321 kernelRunC.sl.r_322
  simp only [W_r_320 c i tbl, V13_34 c i M2 hM2 M3 hM3 tbl hT sim x2 x3 b9 b10 a12 a13 a14 a15 a16 a17, in_read M2 hM2 x2 34 (by decide), mk_read M3 hM3 x3 34 (by decide)]
  try rfl
theorem V14_35 : kernelRunC.sl.v3050 c i M3 hM3 tbl hT sim x3 b9 b10 a14 = (rowsOf c tbl i sim x2 x3 (accOf c a12 a13 a14 a15 a16 a17) 35).w := by
  unfold kernelRunC.sl.v3050 kernelRunC.sl.H14_35
  rw [View.readCov_cons_toLoadRect]
  refine Eq.trans ?_ (rowsOf_w c tbl i sim x2 x3 (accOf c a12 a13 a14 a15 a16 a17) 34 (by decide)).symm
  unfold kernelRunC.sl.r_328 kernelRunC.sl.r_322 kernelRunC.sl.r_323 kernelRunC.sl.r_324
  simp only [S_v2909 c i tbl hT sim b9, V14_34 c i M2 hM2 M3 hM3 tbl hT sim x2 x3 b9 b10 a12 a13 a14 a15 a16 a17, mk_read M3 hM3 x3 34 (by decide)]
  try rfl
theorem V12_36 : kernelRunC.sl.v3124 c M3 hM3 x3 a12 = (rowsOf c tbl i sim x2 x3 (accOf c a12 a13 a14 a15 a16 a17) 36).m := by
  unfold kernelRunC.sl.v3124 kernelRunC.sl.H12_36
  rw [View.readCov_cons_toLoadRect]
  refine Eq.trans ?_ (rowsOf_m c tbl i sim x2 x3 (accOf c a12 a13 a14 a15 a16 a17) 35 (by decide)).symm
  unfold kernelRunC.sl.r_338
  simp only [V12_35 c i M2 hM2 M3 hM3 tbl hT sim x2 x3 b9 b10 a12 a13 a14 a15 a16 a17, mk_read M3 hM3 x3 35 (by decide)]
  try rfl
theorem V13_36 : kernelRunC.sl.v3129 c i M2 hM2 M3 hM3 tbl x2 x3 a13 = (rowsOf c tbl i sim x2 x3 (accOf c a12 a13 a14 a15 a16 a17) 36).logp := by
  unfold kernelRunC.sl.v3129 kernelRunC.sl.H13_36
  rw [View.readCov_cons_toLoadRect]
  refine Eq.trans ?_ (rowsOf_logp c tbl i sim x2 x3 (accOf c a12 a13 a14 a15 a16 a17) 35 (by decide)).symm
  unfold kernelRunC.sl.r_332 kernelRunC.sl.r_335 kernelRunC.sl.r_330
  simp only [W_r_331 c i tbl, V13_35 c i M2 hM2 M3 hM3 tbl hT sim x2 x3 b9 b10 a12 a13 a14 a15 a16 a17, in_read M2 hM2 x2 35 (by decide), mk_read M3 hM3 x3 35 (by decide)]
  try rfl
theorem V14_36 : kernelRunC.sl.v3135 c i M3 hM3 tbl hT sim x3 b9 b10 a14 = (rowsOf c tbl i sim x2 x3 (accOf c a12 a13 a14 a15 a16 a17) 36).w := by
  unfold kernelRunC.sl.v3135 kernelRunC.sl.H14_36
  rw [View.readCov_cons_toLoadRect]
  refine Eq.trans ?_ (rowsOf_w c tbl i sim x2 x3 (accOf c a12 a13 a14 a15 a16 a17) 35 (by decide)).symm
  unfold kernelRunC.sl.r_333
  simp only [S_v2994 c i tbl hT sim b10, V14_35 c i M2 hM2 M3 hM3 tbl hT sim x2 x3 b9 b10 a12 a13 a14 a15 a16 a17, mk_read M3 hM3 x3 35 (by decide)]
  try rfl
theorem V12_37 : kernelRunC.sl.v3209 c M3 hM3 x3 a12 = (rowsOf c tbl i sim x2 x3 (accOf c a12 a13 a14 a15 a16 a17) 37).m := by
  unfold kernelRunC.sl.v3209 kernelRunC.sl.H12_37
  rw [View.readCov_cons_toLoadRect]
  refine Eq.trans ?_ (rowsOf_m c tbl i sim x2 x3 (accOf c a12 a13 a14 a15 a16 a17) 36 (by decide)).symm
  unfold kernelRunC.sl.r_342
  simp only [V12_36 c i M2 hM2 M3 hM3 tbl hT sim x2 x3 b9 b10 a12 a13 a14 a15 a16 a17, mk_read M3 hM3 x3 36 (by decide)]
  try rfl
theorem V13_37 : kernelRunC.sl.v3214 c i M2 hM2 M3 hM3 tbl x2 x3 a13 = (rowsOf c tbl i sim x2 x3 (accOf c a12 a13 a14 a15 a16 a17) 37).logp := by
  unfold kernelRunC.sl.v3214 kernelRunC.sl.H13_37
  rw [View.readCov_cons_toLoadRect]
  refine Eq.trans ?_ (rowsOf_logp c tbl i sim x2 x3 (accOf c a12 a13 a14 a15 a16 a17) 36 (by decide)).symm
  unfold kernelRunC.sl.r_341 kernelRunC.sl.r_342
  simp only [W_r_340 c i tbl, V13_36 c i M2 hM2 M3 hM3 tbl hT sim x2 x3 b9 b10 a12 a13 a14 a15 a16 a17, in_read M2 hM2 x2 36 (by decide), mk_read M3 hM3 x3 36 (by decide)]
  try rfl
theorem V14_37 : kernelRunC.sl.v3220 c i M3 hM3 tbl hT sim x3 b9 b10 a14 = (rowsOf c tbl i sim x2 x3 (accOf c a12 a13 a14 a15 a16 a17) 37).w := by
  unfold kernelRunC.sl.v3220 kernelRunC.sl.H14_37
  rw [View.readCov_cons_toLoadRect]
  refine Eq.trans ?_ (rowsOf_w c tbl i sim x2 x3 (accOf c a12 a13 a14 a15 a16 a17) 36 (by decide)).symm
  unfold kernelRunC.sl.r_344
  simp only [S_v3079 c i tbl hT sim b9, V14_36 c i M2 hM2 M3 hM3 tbl hT sim x2 x3 b9 b10 a12 a13 a14 a15 a16 a17, mk_read M3 hM3 x3 36 (by decide)]
  try rfl
theorem V12_38 : kernelRunC.sl.v3294 c M3 hM3 x3 a12 = (rowsOf c tbl i sim x2 x3 (accOf c a12 a13 a14 a15 a16 a17) 38).m := by
  unfold kernelRunC.sl.v3294 kernelRunC.sl.H12_38
  rw [View.readCov_cons_toLoadRect]
  refine Eq.trans ?_ (rowsOf_m c tbl i sim x2 x3 (accOf c a12 a13 a14 a15 a16 a17) 37 (by decide)).symm
  unfold kernelRunC.sl.r_351
  simp only [V12_37 c i M2 hM2 M3 hM3 tbl hT sim x2 x3 b9 b10 a12 a13 a14 a15 a16 a17, mk_read M3 hM3 x3 37 (by decide)]
  try rfl
theorem V13_38 : kernelRunC.sl.v3299 c i M2 hM2 M3 hM3 tbl x2 x3 a13 = (rowsOf c tbl i sim x2 x3 (accOf c a12 a13 a14 a15 a16 a17) 38).logp := by
  unfold kernelRunC.sl.v3299 kernelRunC.sl.H13_38
  rw [View.readCov_cons_toLoadRect]
  refine Eq.trans ?_ (rowsOf_logp c tbl i sim x2 x3 (accOf c a12 a13 a14 a15 a16 a17) 37 (by decide)).symm
  unfold kernelRunC.sl.r_350 kernelRunC.sl.r_351
  simp only [W_r_349 c i tbl, V13_37 c i M2 hM2 M3 hM3 tbl hT sim x2 x3 b9 b10 a12 a13 a14 a15 a16 a17, in_read M2 hM2 x2 37 (by decide), mk_read M3 hM3 x3 37 (by decide)]
  try rfl
theorem V14_38 : kernelRunC.sl.v3305 c i M3 hM3 tbl hT sim x3 b9 b10 a14 = (rowsOf c tbl i sim x2 x3 (accOf c a12 a13 a14 a15 a16 a17) 38).w := by
  unfold kernelRunC.sl.v3305 kernelRunC.sl.H14_38
  rw [View.readCov_cons_toLoadRect]
  refine Eq.trans ?_ (rowsOf_w c tbl i sim x2 x3 (accOf c a12 a13 a14 a15 a16 a17) 37 (by decide)).symm
  unfold kernelRunC.sl.r_354 kernelRunC.sl.r_351 kernelRunC.sl.r_352 kernelRunC.sl.r_353 kernelRunC.sl.cst_781
  simp only [S_v3164 c i tbl hT sim b10, V14_37 c i M2 hM2 M3 hM3 tbl hT sim x2 x3 b9 b10 a12 a13 a14 a15 a16 a17, mk_read M3 hM3 x3 37 (by decide)]
  try rfl
theorem V12_39 : kernelRunC.sl.v3379 c M3 hM3 x3 a12 = (rowsOf c tbl i sim x2 x3 (accOf c a12 a13 a14 a15 a16 a17) 39).m := by
  unfold kernelRunC.sl.v3379 kernelRunC.sl.H12_39
  rw [View.readCov_cons_toLoadRect]
  refine Eq.trans ?_ (rowsOf_m c tbl i sim x2 x3 (accOf c a12 a13 a14 a15 a16 a17) 38 (by decide)).symm
  unfold kernelRunC.sl.r_360
  simp only [V12_38 c i M2 hM2 M3 hM3 tbl hT sim x2 x3 b9 b10 a12 a13 a14 a15 a16 a17, mk_read M3 hM3 x3 38 (by decide)]
  try rfl
theorem V13_39 : kernelRunC.sl.v3384 c i M2 hM2 M3 hM3 tbl x2 x3 a13 = (rowsOf c tbl i sim x2 x3 (accOf c a12 a13 a14 a15 a16 a17) 39).logp := by
  unfold kernelRunC.sl.v3384 kernelRunC.sl.H13_39
  rw [View.readCov_cons_toLoadRect]
  refine Eq.trans ?_ (rowsOf_logp c tbl i sim x2 x3 (accOf c a12 a13 a14 a15 a16 a17) 38 (by decide)).symm
  unfold kernelRunC.sl.r_360 kernelRunC.sl.r_363
  simp only [W_r_359 c i tbl, V13_38 c i M2 hM2 M3 hM3 tbl hT sim x2 x3 b9 b10 a12 a13 a14 a15 a16 a17, in_read M2 hM2 x2 38 (by decide), mk_read M3 hM3 x3 38 (by decide)]
  try rfl
theorem V14_39 : kernelRunC.sl.v3390 c i M3 hM3 tbl hT sim x3 b9 b10 a14 = (rowsOf c tbl i sim x2 x3 (accOf c a12 a13 a14 a15 a16 a17) 39).w := by
  unfold kernelRunC.sl.v3390 kernelRunC.sl.H14_39
  rw [View.readCov_cons_toLoadRect]
  refine Eq.trans ?_ (rowsOf_w c tbl i sim x2 x3 (accOf c a12 a13 a14 a15 a16 a17) 38 (by decide)).symm
  unfold kernelRunC.sl.r_361
  simp only [V14_38 c i M2 hM2 M3 hM3 tbl hT sim x2 x3 b9 b10 a12 a13 a14 a15 a16 a17, S_v_1 c i tbl hT sim b9, mk_read M3 hM3 x3 38 (by decide)]
  try rfl
theorem V12_40 : kernelRunC.sl.v3464 c M3 hM3 x3 a12 = (rowsOf c tbl i sim x2 x3 (accOf c a12 a13 a14 a15 a16 a17) 40).m := by
  unfold kernelRunC.sl.v3464 kernelRunC.sl.H12_40
  rw [View.readCov_cons_toLoadRect]
  refine Eq.trans ?_ (rowsOf_m c tbl i sim x2 x3 (accOf c a12 a13 a14 a15 a16 a17) 39 (by decide)).symm
  unfold kernelRunC.sl.r_369
  simp only [V12_39 c i M2 hM2 M3 hM3 tbl hT sim x2 x3 b9 b10 a12 a13 a14 a15 a16 a17, mk_read M3 hM3 x3 39 (by decide)]
  try rfl
theorem V13_40 : kernelRunC.sl.v3469 c i M2 hM2 M3 hM3 tbl x2 x3 a13 = (rowsOf c tbl i sim x2 x3 (accOf c a12 a13 a14 a15 a16 a17) 40).logp := by
  unfold kernelRunC.sl.v3469 kernelRunC.sl.H13_40
  rw [View.readCov_cons_toLoadRect]
  refine Eq.trans ?_ (rowsOf_logp c tbl i sim x2 x3 (accOf c a12 a13 a14 a15 a16 a17) 39 (by decide)).symm
  unfold kernelRunC.sl.r_368 kernelRunC.sl.r_369
  simp only [W_r_367 c i tbl, V13_39 c i M2 hM2 M3 hM3 tbl hT sim x2 x3 b9 b10 a12 a13 a14 a15 a16 a17, in_read M2 hM2 x2 39 (by decide), mk_read M3 hM3 x3 39 (by decide)]
  try rfl
theorem V14_40 : kernelRunC.sl.v3475 c i M3 hM3 tbl hT sim x3 b9 b10 a14 = (rowsOf c tbl i sim x2 x3 (accOf c a12 a13 a14 a15 a16 a17) 40).w := by
  unfold kernelRunC.sl.v3475 kernelRunC.sl.H14_40
  rw [View.readCov_cons_toLoadRect]
  refine Eq.trans ?_ (rowsOf_w c tbl i sim x2 x3 (accOf c a12 a13 a14 a15 a16 a17) 39 (by decide)).symm
  unfold kernelRunC.sl.r_371
  simp only [S_v3334 c i tbl hT sim b10, V14_39 c i M2 hM2 M3 hM3 tbl hT sim x2 x3 b9 b10 a12 a13 a14 a15 a16 a17, mk_read M3 hM3 x3 39 (by decide)]
  try rfl
theorem V12_41 : kernelRunC.sl.v3549 c M3 hM3 x3 a12 = (rowsOf c tbl i sim x2 x3 (accOf c a12 a13 a14 a15 a16 a17) 41).m := by
  unfold kernelRunC.sl.v3549 kernelRunC.sl.H12_41
  rw [View.readCov_cons_toLoadRect]
  refine Eq.trans ?_ (rowsOf_m c tbl i sim x2 x3 (accOf c a12 a13 a14 a15 a16 a17) 40 (by decide)).symm
  unfold kernelRunC.sl.r_378
  simp only [V12_40 c i M2 hM2 M3 hM3 tbl hT sim x2 x3 b9 b10 a12 a13 a14 a15 a16 a17, mk_read M3 hM3 x3 40 (by decide)]
  try rfl
theorem V13_41 : kernelRunC.sl.v3554 c i M2 hM2 M3 hM3 tbl x2 x3 a13 = (rowsOf c tbl i sim x2 x3 (accOf c a12 a13 a14 a15 a16 a17) 41).logp := by
  unfold kernelRunC.sl.v3554 kernelRunC.sl.H13_41
  rw [View.readCov_cons_toLoadRect]
  refine Eq.trans ?_ (rowsOf_logp c tbl i sim x2 x3 (accOf c a12 a13 a14 a15 a16 a17) 40 (by decide)).symm
  unfold kernelRunC.sl.r_384 kernelRunC.sl.r_377 kernelRunC.sl.r_378
  simp only [W_r_376 c i tbl, V13_40 c i M2 hM2 M3 hM3 tbl hT sim x2 x3 b9 b10 a12 a13 a14 a15 a16 a17, in_read M2 hM2 x2 40 (by decide), mk_read M3 hM3 x3 40 (by decide)]
  try rfl
theorem V14_41 : kernelRunC.sl.v3560 c i M3 hM3 tbl hT sim x3 b9 b10 a14 = (rowsOf c tbl i sim x2 x3 (accOf c a12 a13 a14 a15 a16 a17) 41).w := by
  unfold kernelRunC.sl.v3560 kernelRunC.sl.H14_41
  rw [View.readCov_cons_toLoadRect]
  refine Eq.trans ?_ (rowsOf_w c tbl i sim x2 x3 (accOf c a12 a13 a14 a15 a16 a17) 40 (by decide)).symm
  unfold kernelRunC.sl.r_380 kernelRunC.sl.r_378 kernelRunC.sl.r_379 kernelRunC.sl.cst_15
  simp only [S_v3419 c i tbl hT sim b9, V14_40 c i M2 hM2 M3 hM3 tbl hT sim x2 x3 b9 b10 a12 a13 a14 a15 a16 a17, mk_read M3 hM3 x3 40 (by decide)]
  try rfl
theorem V12_42 : kernelRunC.sl.v3634 c M3 hM3 x3 a12 = (rowsOf c tbl i sim x2 x3 (accOf c a12 a13 a14 a15 a16 a17) 42).m := by
  unfold kernelRunC.sl.v3634 kernelRunC.sl.H12_42
  rw [View.readCov_cons_toLoadRect]
  refine Eq.trans ?_ (rowsOf_m c tbl i sim x2 x3 (accOf c a12 a13 a14 a15 a16 a17) 41 (by decide)).symm
  unfold kernelRunC.sl.r_387
  simp only [V12_41 c i M2 hM2 M3 hM3 tbl hT sim x2 x3 b9 b10 a12 a13 a14 a15 a16 a17, mk_read M3 hM3 x3 41 (by decide)]
  try rfl
theorem V13_42 : kernelRunC.sl.v3639 c i M2 hM2 M3 hM3 tbl x2 x3 a13 = (rowsOf c tbl i sim x2 x3 (accOf c a12 a13 a14 a15 a16 a17) 42).logp := by
  unfold kernelRunC.sl.v3639 kernelRunC.sl.H13_42
  rw [View.readCov_cons_toLoadRect]
  refine Eq.trans ?_ (rowsOf_logp c tbl i sim x2 x3 (accOf c a12 a13 a14 a15 a16 a17) 41 (by decide)).symm
  unfold kernelRunC.sl.r_387 kernelRunC.sl.r_390
  simp only [W_r_386 c i tbl, V13_41 c i M2 hM2 M3 hM3 tbl hT sim x2 x3 b9 b10 a12 a13 a14 a15 a16 a17, in_read M2 hM2 x2 41 (by decide), mk_read M3 hM3 x3 41 (by decide)]
  try rfl
theorem V14_42 : kernelRunC.sl.v3645 c i M3 hM3 tbl hT sim x3 b9 b10 a14 = (rowsOf c tbl i sim x2 x3 (accOf c a12 a13 a14 a15 a16 a17) 42).w := by
  unfold kernelRunC.sl.v3645 kernelRunC.sl.H14_42
  rw [View.readCov_cons_toLoadRect]
  refine Eq.trans ?_ (rowsOf_w c tbl i sim x2 x3 (accOf c a12 a13 a14 a15 a16 a17) 41 (by decide)).symm
  unfold kernelRunC.sl.r_388
  simp only [S_v3504 c i tbl hT sim b10, V14_41 c i M2 hM2 M3 hM3 tbl hT sim x2 x3 b9 b10 a12 a13 a14 a15 a16 a17, mk_read M3 hM3 x3 41 (by decide)]
  try rfl
theorem V12_43 : kernelRunC.sl.v3719 c M3 hM3 x3 a12 = (rowsOf c tbl i sim x2 x3 (accOf c a12 a13 a14 a15 a16 a17) 43).m := by
  unfold kernelRunC.sl.v3719 kernelRunC.sl.H12_43
  rw [View.readCov_cons_toLoadRect]
  refine Eq.trans ?_ (rowsOf_m c tbl i sim x2 x3 (accOf c a12 a13 a14 a15 a16 a17) 42 (by decide)).symm
  unfold kernelRunC.sl.r_397
  simp only [V12_42 c i M2 hM2 M3 hM3 tbl hT sim x2 x3 b9 b10 a12 a13 a14 a15 a16 a17, mk_read M3 hM3 x3 42 (by decide)]
  try rfl
theorem V13_43 : kernelRunC.sl.v3724 c i M2 hM2 M3 hM3 tbl x2 x3 a13 = (rowsOf c tbl i sim x2 x3 (accOf c a12 a13 a14 a15 a16 a17) 43).logp := by
  unfold kernelRunC.sl.v3724 kernelRunC.sl.H13_43
  rw [View.readCov_cons_toLoadRect]
  refine Eq.trans ?_ (rowsOf_logp c tbl i sim x2 x3 (accOf c a12 a13 a14 a15 a16 a17) 42 (by decide)).symm
  unfold kernelRunC.sl.r_396 kernelRunC.sl.r_397
  simp only [W_r_395 c i tbl, V13_42 c i M2 hM2 M3 hM3 tbl hT sim x2 x3 b9 b10 a12 a13 a14 a15 a16 a17, in_read M2 hM2 x2 42 (by decide), mk_read M3 hM3 x3 42 (by decide)]
  try rfl
theorem V14_43 : kernelRunC.sl.v3730 c i M3 hM3 tbl hT sim x3 b9 b10 a14 = (rowsOf c tbl i sim x2 x3 (accOf c a12 a13 a14 a15 a16 a17) 43).w := by
  unfold kernelRunC.sl.v3730 kernelRunC.sl.H14_43
  rw [View.readCov_cons_toLoadRect]
  refine Eq.trans ?_ (rowsOf_w c tbl i sim x2 x3 (accOf c a12 a13 a14 a15 a16 a17) 42 (by decide)).symm
  unfold kernelRunC.sl.r_400
  simp only [S_v3589 c i tbl hT sim b9, V14_42 c i M2 hM2 M3 hM3 tbl hT sim x2 x3 b9 b10 a12 a13 a14 a15 a16 a17, mk_read M3 hM3 x3 42 (by decide)]
  try rfl
theorem V12_44 : kernelRunC.sl.v3804 c M3 hM3 x3 a12 = (rowsOf c tbl i sim x2 x3 (accOf c a12 a13 a14 a15 a16 a17) 44).m := by
  unfold kernelRunC.sl.v3804 kernelRunC.sl.H12_44
  rw [View.readCov_cons_toLoadRect]
  refine Eq.trans ?_ (rowsOf_m c tbl i sim x2 x3 (accOf c a12 a13 a14 a15 a16 a17) 43 (by decide)).symm
  unfold kernelRunC.sl.r_407
  simp only [V12_43 c i M2 hM2 M3 hM3 tbl hT sim x2 x3 b9 b10 a12 a13 a14 a15 a16 a17, mk_read M3 hM3 x3 43 (by decide)]
  try rfl
theorem V13_44 : kernelRunC.sl.v3809 c i M2 hM2 M3 hM3 tbl x2 x3 a13 = (rowsOf c tbl i sim x2 x3 (accOf c a12 a13 a14 a15 a16 a17) 44).logp := by
  unfold kernelRunC.sl.v3809 kernelRunC.sl.H13_44
  rw [View.readCov_cons_toLoadRect]
  refine Eq.trans ?_ (rowsOf_logp c tbl i sim x2 x3 (accOf c a12 a13 a14 a15 a16 a17) 43 (by decide)).symm
  unfold kernelRunC.sl.r_413 kernelRunC.sl.r_406 kernelRunC.sl.r_407
  simp only [W_r_405 c i tbl, V13_43 c i M2 hM2 M3 hM3 tbl hT sim x2 x3 b9 b10 a12 a13 a14 a15 a16 a17, in_read M2 hM2 x2 43 (by decide), mk_read M3 hM3 x3 43 (by decide)]
  try rfl
theorem V14_44 : kernelRunC.sl.v3815 c i M3 hM3 tbl hT sim x3 b9 b10 a14 = (rowsOf c tbl i sim x2 x3 (accOf c a12 a13 a14 a15 a16 a17) 44).w := by
  unfold kernelRunC.sl.v3815 kernelRunC.sl.H14_44
  rw [View.readCov_cons_toLoadRect]
  refine Eq.trans ?_ (rowsOf_w c tbl i sim x2 x3 (accOf c a12 a13 a14 a15 a16 a17) 43 (by decide)).symm
  unfold kernelRunC.sl.r_409 kernelRunC.sl.r_407 kernelRunC.sl.r_408
  simp only [S_v3674 c i tbl hT sim b10, V14_43 c i M2 hM2 M3 hM3 tbl hT sim x2 x3 b9 b10 a12 a13 a14 a15 a16 a17, mk_read M3 hM3 x3 43 (by decide)]
  try rfl
theorem V12_45 : kernelRunC.sl.v3889 c M3 hM3 x3 a12 = (rowsOf c tbl i sim x2 x3 (accOf c a12 a13 a14 a15 a16 a17) 45).m := by
  unfold kernelRunC.sl.v3889 kernelRunC.sl.H12_45
  rw [View.readCov_cons_toLoadRect]
  refine Eq.trans ?_ (rowsOf_m c tbl i sim x2 x3 (accOf c a12 a13 a14 a15 a16 a17) 44 (by decide)).symm
  unfold kernelRunC.sl.r_416
  simp only [V12_44 c i M2 hM2 M3 hM3 tbl hT sim x2 x3 b9 b10 a12 a13 a14 a15 a16 a17, mk_read M3 hM3 x3 44 (by decide)]
  try rfl
theorem V13_45 : kernelRunC.sl.v3894 c i M2 hM2 M3 hM3 tbl x2 x3 a13 = (rowsOf c tbl i sim x2 x3 (accOf c a12 a13 a14 a15 a16 a17) 45).logp := by
  unfold kernelRunC.sl.v3894 kernelRunC.sl.H13_45
  rw [View.readCov_cons_toLoadRect]
  refine Eq.trans ?_ (rowsOf_logp c tbl i sim x2 x3 (accOf c a12 a13 a14 a15 a16 a17) 44 (by decide)).symm
  unfold kernelRunC.sl.r_416 kernelRunC.sl.r_420
  simp only [W_r_415 c i tbl, V13_44 c i M2 hM2 M3 hM3 tbl hT sim x2 x3 b9 b10 a12 a13 a14 a15 a16 a17, in_read M2 hM2 x2 44 (by decide), mk_read M3 hM3 x3 44 (by decide)]
  try rfl
theorem V14_45 : kernelRunC.sl.v3900 c i M3 hM3 tbl hT sim x3 b9 b10 a14 = (rowsOf c tbl i sim x2 x3 (accOf c a12 a13 a14 a15 a16 a17) 45).w := by
  unfold kernelRunC.sl.v3900 kernelRunC.sl.H14_45
  rw [View.readCov_cons_toLoadRect]
  refine Eq.trans ?_ (rowsOf_w c tbl i sim x2 x3 (accOf c a12 a13 a14 a15 a16 a17) 44 (by decide)).symm
  unfold kernelRunC.sl.r_418
  simp only [S_v3759 c i tbl hT sim b9, V14_44 c i M2 hM2 M3 hM3 tbl hT sim x2 x3 b9 b10 a12 a13 a14 a15 a16 a17, mk_read M3 hM3 x3 44 (by decide)]
  try rfl
theorem V12_46 : kernelRunC.sl.v3974 c M3 hM3 x3 a12 = (rowsOf c tbl i sim x2 x3 (accOf c a12 a13 a14 a15 a16 a17) 46).m := by
  unfold kernelRunC.sl.v3974 kernelRunC.sl.H12_46
  rw [View.readCov_cons_toLoadRect]
  refine Eq.trans ?_ (rowsOf_m c tbl i sim x2 x3 (accOf c a12 a13 a14 a15 a16 a17) 45 (by decide)).symm
  unfold kernelRunC.sl.r_426
  simp only [V12_45 c i M2 hM2 M3 hM3 tbl hT sim x2 x3 b9 b10 a12 a13 a14 a15 a16 a17, mk_read M3 hM3 x3 45 (by decide)]
  try rfl
theorem V13_46 : kernelRunC.sl.v3979 c i M2 hM2 M3 hM3 tbl x2 x3 a13 = (rowsOf c tbl i sim x2 x3 (accOf c a12 a13 a14 a15 a16 a17) 46).logp := by
  unfold kernelRunC.sl.v3979 kernelRunC.sl.H13_46
  rw [View.readCov_cons_toLoadRect]
  refine Eq.trans ?_ (rowsOf_logp c tbl i sim x2 x3 (accOf c a12 a13 a14 a15 a16 a17) 45 (by decide)).symm
  unfold kernelRunC.sl.r_425 kernelRunC.sl.r_426
  simp only [W_r_424 c i tbl, V13_45 c i M2 hM2 M3 hM3 tbl hT sim x2 x3 b9 b10 a12 a13 a14 a15 a16 a17, in_read M2 hM2 x2 45 (by decide), mk_read M3 hM3 x3 45 (by decide)]
  try rfl
theorem V14_46 : kernelRunC.sl.v3985 c i M3 hM3 tbl hT sim x3 b9 b10 a14 = (rowsOf c tbl i sim x2 x3 (accOf c a12 a13 a14 a15 a16 a17) 46).w := by
  unfold kernelRunC.sl.v3985 kernelRunC.sl.H14_46
  rw [View.readCov_cons_toLoadRect]
  refine Eq.trans ?_ (rowsOf_w c tbl i sim x2 x3 (accOf c a12 a13 a14 a15 a16 a17) 45 (by decide)).symm
  unfold kernelRunC.sl.r_428
  simp only [S_v3844 c i tbl hT sim b10, V14_45 c i M2 hM2 M3 hM3 tbl hT sim x2 x3 b9 b10 a12 a13 a14 a15 a16 a17, mk_read M3 hM3 x3 45 (by decide)]
  try rfl
theorem V12_47 : kernelRunC.sl.v4059 c M3 hM3 x3 a12 = (rowsOf c tbl i sim x2 x3 (accOf c a12 a13 a14 a15 a16 a17) 47).m := by
  unfold kernelRunC.sl.v4059 kernelRunC.sl.H12_47
  rw [View.readCov_cons_toLoadRect]
  refine Eq.trans ?_ (rowsOf_m c tbl i sim x2 x3 (accOf c a12 a13 a14 a15 a16 a17) 46 (by decide)).symm
  unfold kernelRunC.sl.r_435
  simp only [V12_46 c i M2 hM2 M3 hM3 tbl hT sim x2 x3 b9 b10 a12 a13 a14 a15 a16 a17, mk_read M3 hM3 x3 46 (by decide)]
  try rfl
theorem V13_47 : kernelRunC.sl.v4064 c i M2 hM2 M3 hM3 tbl x2 x3 a13 = (rowsOf c tbl i sim x2 x3 (accOf c a12 a13 a14 a15 a16 a17) 47).logp := by
  unfold kernelRunC.sl.v4064 kernelRunC.sl.H13_47
  rw [View.readCov_cons_toLoadRect]
  refine Eq.trans ?_ (rowsOf_logp c tbl i sim x2 x3 (accOf c a12 a13 a14 a15 a16 a17) 46 (by decide)).symm
  unfold kernelRunC.sl.r_440 kernelRunC.sl.r_434 kernelRunC.sl.r_435
  simp only [W_r_433 c i tbl, V13_46 c i M2 hM2 M3 hM3 tbl hT sim x2 x3 b9 b10 a12 a13 a14 a15 a16 a17, in_read M2 hM2 x2 46 (by decide), mk_read M3 hM3 x3 46 (by decide)]
  try rfl
theorem V14_47 : kernelRunC.sl.v4070 c i M3 hM3 tbl hT sim x3 b9 b10 a14 = (rowsOf c tbl i sim x2 x3 (accOf c a12 a13 a14 a15 a16 a17) 47).w := by
  unfold kernelRunC.sl.v4070 kernelRunC.sl.H14_47
  rw [View.readCov_cons_toLoadRect]
  refine Eq.trans ?_ (rowsOf_w c tbl i sim x2 x3 (accOf c a12 a13 a14 a15 a16 a17) 46 (by decide)).symm
  unfold kernelRunC.sl.r_436 kernelRunC.sl.r_435 kernelRunC.sl.cst_284
  simp only [S_v3929 c i tbl hT sim b9, V14_46 c i M2 hM2 M3 hM3 tbl hT sim x2 x3 b9 b10 a12 a13 a14 a15 a16 a17, mk_read M3 hM3 x3 46 (by decide)]
  try rfl
theorem V12_48 : kernelRunC.sl.v4144 c M3 hM3 x3 a12 = (rowsOf c tbl i sim x2 x3 (accOf c a12 a13 a14 a15 a16 a17) 48).m := by
  unfold kernelRunC.sl.v4144 kernelRunC.sl.H12_48
  rw [View.readCov_cons_toLoadRect]
  refine Eq.trans ?_ (rowsOf_m c tbl i sim x2 x3 (accOf c a12 a13 a14 a15 a16 a17) 47 (by decide)).symm
  unfold kernelRunC.sl.r_443
  simp only [V12_47 c i M2 hM2 M3 hM3 tbl hT sim x2 x3 b9 b10 a12 a13 a14 a15 a16 a17, mk_read M3 hM3 x3 47 (by decide)]
  try rfl
theorem V13_48 : kernelRunC.sl.v4149 c i M2 hM2 M3 hM3 tbl x2 x3 a13 = (rowsOf c tbl i sim x2 x3 (accOf c a12 a13 a14 a15 a16 a17) 48).logp := by
  unfold kernelRunC.sl.v4149 kernelRunC.sl.H13_48
  rw [View.readCov_cons_toLoadRect]
  refine Eq.trans ?_ (rowsOf_logp c tbl i sim x2 x3 (accOf c a12 a13 a14 a15 a16 a17) 47 (by decide)).symm
  unfold kernelRunC.sl.r_443 kernelRunC.sl.r_447
  simp only [W_r_442 c i tbl, V13_47 c i M2 hM2 M3 hM3 tbl hT sim x2 x3 b9 b10 a12 a13 a14 a15 a16 a17, in_read M2 hM2 x2 47 (by decide), mk_read M3 hM3 x3 47 (by decide)]
  try rfl
theorem V14_48 : kernelRunC.sl.v4155 c i M3 hM3 tbl hT sim x3 b9 b10 a14 = (rowsOf c tbl i sim x2 x3 (accOf c a12 a13 a14 a15 a16 a17) 48).w := by
  unfold kernelRunC.sl.v4155 kernelRunC.sl.H14_48
  rw [View.readCov_cons_toLoadRect]
  refine Eq.trans ?_ (rowsOf_w c tbl i sim x2 x3 (accOf c a12 a13 a14 a15 a16 a17) 47 (by decide)).symm
  unfold kernelRunC.sl.r_445
  simp only [S_v4014 c i tbl hT sim b10, V14_47 c i M2 hM2 M3 hM3 tbl hT sim x2 x3 b9 b10 a12 a13 a14 a15 a16 a17, mk_read M3 hM3 x3 47 (by decide)]
  try rfl
theorem V12_49 : kernelRunC.sl.v4229 c M3 hM3 x3 a12 = (rowsOf c tbl i sim x2 x3 (accOf c a12 a13 a14 a15 a16 a17) 49).m := by
  unfold kernelRunC.sl.v4229 kernelRunC.sl.H12_49
  rw [View.readCov_cons_toLoadRect]
  refine Eq.trans ?_ (rowsOf_m c tbl i sim x2 x3 (accOf c a12 a13 a14 a15 a16 a17) 48 (by decide)).symm
  unfold kernelRunC.sl.r_452
  simp only [V12_48 c i M2 hM2 M3 hM3 tbl hT sim x2 x3 b9 b10 a12 a13 a14 a15 a16 a17, mk_read M3 hM3 x3 48 (by decide)]
  try rfl
theorem V13_49 : kernelRunC.sl.v4234 c i M2 hM2 M3 hM3 tbl x2 x3 a13 = (rowsOf c tbl i sim x2 x3 (accOf c a12 a13 a14 a15 a16 a17) 49).logp := by
  unfold kernelRunC.sl.v4234 kernelRunC.sl.H13_49
  rw [View.readCov_cons_toLoadRect]
  refine Eq.trans ?_ (rowsOf_logp c tbl i sim x2 x3 (accOf c a12 a13 a14 a15 a16 a17) 48 (by decide)).symm
  unfold kernelRunC.sl.r_451 kernelRunC.sl.r_452
  simp only [W_r_450 c i tbl, V13_48 c i M2 hM2 M3 hM3 tbl hT sim x2 x3 b9 b10 a12 a13 a14 a15 a16 a17, in_read M2 hM2 x2 48 (by decide), mk_read M3 hM3 x3 48 (by decide)]
  try rfl
theorem V14_49 : kernelRunC.sl.v4240 c i M3 hM3 tbl hT sim x3 b9 b10 a14 = (rowsOf c tbl i sim x2 x3 (accOf c a12 a13 a14 a15 a16 a17) 49).w := by
  unfold kernelRunC.sl.v4240 kernelRunC.sl.H14_49
  rw [View.readCov_cons_toLoadRect]
  refine Eq.trans ?_ (rowsOf_w c tbl i sim x2 x3 (accOf c a12 a13 a14 a15 a16 a17) 48 (by decide)).symm
  unfold kernelRunC.sl.r_452 kernelRunC.sl.r_453
  simp only [S_v4099 c i tbl hT sim b9, V14_48 c i M2 hM2 M3 hM3 tbl hT sim x2 x3 b9 b10 a12 a13 a14 a15 a16 a17, mk_read M3 hM3 x3 48 (by decide)]
  try rfl
theorem V12_50 : kernelRunC.sl.v4314 c M3 hM3 x3 a12 = (rowsOf c tbl i sim x2 x3 (accOf c a12 a13 a14 a15 a16 a17) 50).m := by
  unfold kernelRunC.sl.v4314 kernelRunC.sl.H12_50
  rw [View.readCov_cons_toLoadRect]
  refine Eq.trans ?_ (rowsOf_m c tbl i sim x2 x3 (accOf c a12 a13 a14 a15 a16 a17) 49 (by decide)).symm
  unfold kernelRunC.sl.r_459
  simp only [V12_49 c i M2 hM2 M3 hM3 tbl hT sim x2 x3 b9 b10 a12 a13 a14 a15 a16 a17, mk_read M3 hM3 x3 49 (by decide)]
  try rfl
theorem V13_50 : kernelRunC.sl.v4319 c i M2 hM2 M3 hM3 tbl x2 x3 a13 = (rowsOf c tbl i sim x2 x3 (accOf c a12 a13 a14 a15 a16 a17) 50).logp := by
  unfold kernelRunC.sl.v4319 kernelRunC.sl.H13_50
  rw [View.readCov_cons_toLoadRect]
  refine Eq.trans ?_ (rowsOf_logp c tbl i sim x2 x3 (accOf c a12 a13 a14 a15 a16 a17) 49 (by decide)).symm
  unfold kernelRunC.sl.r_459 kernelRunC.sl.r_463 kernelRunC.sl.r_458
  simp only [W_r_460 c i tbl, V13_49 c i M2 hM2 M3 hM3 tbl hT sim x2 x3 b9 b10 a12 a13 a14 a15 a16 a17, in_read M2 hM2 x2 49 (by decide), mk_read M3 hM3 x3 49 (by decide)]
  try rfl
theorem V14_50 : kernelRunC.sl.v4325 c i M3 hM3 tbl hT sim x3 b9 b10 a14 = (rowsOf c tbl i sim x2 x3 (accOf c a12 a13 a14 a15 a16 a17) 50).w := by
  unfold kernelRunC.sl.v4325 kernelRunC.sl.H14_50
  rw [View.readCov_cons_toLoadRect]
  refine Eq.trans ?_ (rowsOf_w c tbl i sim x2 x3 (accOf c a12 a13 a14 a15 a16 a17) 49 (by decide)).symm
  unfold kernelRunC.sl.r_461 kernelRunC.sl.r_459
  simp only [S_v4184 c i tbl hT sim b10, V14_49 c i M2 hM2 M3 hM3 tbl hT sim x2 x3 b9 b10 a12 a13 a14 a15 a16 a17, mk_read M3 hM3 x3 49 (by decide)]
  try rfl
theorem V12_51 : kernelRunC.sl.v4399 c M3 hM3 x3 a12 = (rowsOf c tbl i sim x2 x3 (accOf c a12 a13 a14 a15 a16 a17) 51).m := by
  unfold kernelRunC.sl.v4399 kernelRunC.sl.H12_51
  rw [View.readCov_cons_toLoadRect]
  refine Eq.trans ?_ (rowsOf_m c tbl i sim x2 x3 (accOf c a12 a13 a14 a15 a16 a17) 50 (by decide)).symm
  unfold kernelRunC.sl.r_468
  simp only [V12_50 c i M2 hM2 M3 hM3 tbl hT sim x2 x3 b9 b10 a12 a13 a14 a15 a16 a17, mk_read M3 hM3 x3 50 (by decide)]
  try rfl
theorem V13_51 : kernelRunC.sl.v4404 c i M2 hM2 M3 hM3 tbl x2 x3 a13 = (rowsOf c tbl i sim x2 x3 (accOf c a12 a13 a14 a15 a16 a17) 51).logp := by
  unfold kernelRunC.sl.v4404 kernelRunC.sl.H13_51
  rw [View.readCov_cons_toLoadRect]
  refine Eq.trans ?_ (rowsOf_logp c tbl i sim x2 x3 (accOf c a12 a13 a14 a15 a16 a17) 50 (by decide)).symm
  unfold kernelRunC.sl.r_468 kernelRunC.sl.r_472
  simp only [W_r_467 c i tbl, V13_50 c i M2 hM2 M3 hM3 tbl hT sim x2 x3 b9 b10 a12 a13 a14 a15 a16 a17, in_read M2 hM2 x2 50 (by decide), mk_read M3 hM3 x3 50 (by decide)]
  try rfl
theorem V14_51 : kernelRunC.sl.v4410 c i M3 hM3 tbl hT sim x3 b9 b10 a14 = (rowsOf c tbl i sim x2 x3 (accOf c a12 a13 a14 a15 a16 a17) 51).w := by
  unfold kernelRunC.sl.v4410 kernelRunC.sl.H14_51
  rw [View.readCov_cons_toLoadRect]
  refine Eq.trans ?_ (rowsOf_w c tbl i sim x2 x3 (accOf c a12 a13 a14 a15 a16 a17) 50 (by decide)).symm
  unfold kernelRunC.sl.r_470
  simp only [S_v4269 c i tbl hT sim b9, V14_50 c i M2 hM2 M3 hM3 tbl hT sim x2 x3 b9 b10 a12 a13 a14 a15 a16 a17, mk_read M3 hM3 x3 50 (by decide)]
  try rfl
theorem V12_52 : kernelRunC.sl.v4484 c M3 hM3 x3 a12 = (rowsOf c tbl i sim x2 x3 (accOf c a12 a13 a14 a15 a16 a17) 52).m := by
  unfold kernelRunC.sl.v4484 kernelRunC.sl.H12_52
  rw [View.readCov_cons_toLoadRect]
  refine Eq.trans ?_ (rowsOf_m c tbl i sim x2 x3 (accOf c a12 a13 a14 a15 a16 a17) 51 (by decide)).symm
  unfold kernelRunC.sl.r_478
  simp only [V12_51 c i M2 hM2 M3 hM3 tbl hT sim x2 x3 b9 b10 a12 a13 a14 a15 a16 a17, mk_read M3 hM3 x3 51 (by decide)]
  try rfl
theorem V13_52 : kernelRunC.sl.v4489 c i M2 hM2 M3 hM3 tbl x2 x3 a13 = (rowsOf c tbl i sim x2 x3 (accOf c a12 a13 a14 a15 a16 a17) 52).logp := by
  unfold kernelRunC.sl.v4489 kernelRunC.sl.H13_52
  rw [View.readCov_cons_toLoadRect]
  refine Eq.trans ?_ (rowsOf_logp c tbl i sim x2 x3 (accOf c a12 a13 a14 a15 a16 a17) 51 (by decide)).symm
  unfold kernelRunC.sl.r_477 kernelRunC.sl.r_478
  simp only [W_r_476 c i tbl, V13_51 c i M2 hM2 M3 hM3 tbl hT sim x2 x3 b9 b10 a12 a13 a14 a15 a16 a17, in_read M2 hM2 x2 51 (by decide), mk_read M3 hM3 x3 51 (by decide)]
  try rfl
theorem V14_52 : kernelRunC.sl.v4495 c i M3 hM3 tbl hT sim x3 b9 b10 a14 = (rowsOf c tbl i sim x2 x3 (accOf c a12 a13 a14 a15 a16 a17) 52).w := by
  unfold kernelRunC.sl.v4495 kernelRunC.sl.H14_52
  rw [View.readCov_cons_toLoadRect]
  refine Eq.trans ?_ (rowsOf_w c tbl i sim x2 x3 (accOf c a12 a13 a14 a15 a16 a17) 51 (by decide)).symm
  unfold kernelRunC.sl.r_484 kernelRunC.sl.r_478 kernelRunC.sl.r_479 kernelRunC.sl.r_480
  simp only [S_v4354 c i tbl hT sim b10, V14_51 c i M2 hM2 M3 hM3 tbl hT sim x2 x3 b9 b10 a12 a13 a14 a15 a16 a17, mk_read M3 hM3 x3 51 (by decide)]
  try rfl
theorem V12_53 : kernelRunC.sl.v4569 c M3 hM3 x3 a12 = (rowsOf c tbl i sim x2 x3 (accOf c a12 a13 a14 a15 a16 a17) 53).m := by
  unfold kernelRunC.sl.v4569 kernelRunC.sl.H12_53
  rw [View.readCov_cons_toLoadRect]
  refine Eq.trans ?_ (rowsOf_m c tbl i sim x2 x3 (accOf c a12 a13 a14 a15 a16 a17) 52 (by decide)).symm
  unfold kernelRunC.sl.r_495 kernelRunC.sl.r_487
  simp only [V12_52 c i M2 hM2 M3 hM3 tbl hT sim x2 x3 b9 b10 a12 a13 a14 a15 a16 a17, mk_read M3 hM3 x3 52 (by decide)]
  try rfl
theorem V13_53 : kernelRunC.sl.v4574 c i M2 hM2 M3 hM3 tbl x2 x3 a13 = (rowsOf c tbl i sim x2 x3 (accOf c a12 a13 a14 a15 a16 a17) 53).logp := by
  unfold kernelRunC.sl.v4574 kernelRunC.sl.H13_53
  rw [View.readCov_cons_toLoadRect]
  refine Eq.trans ?_ (rowsOf_logp c tbl i sim x2 x3 (accOf c a12 a13 a14 a15 a16 a17) 52 (by decide)).symm
  unfold kernelRunC.sl.r_489 kernelRunC.sl.r_492 kernelRunC.sl.r_487 kernelRunC.sl.r_486
  simp only [W_r_488 c i tbl, V13_52 c i M2 hM2 M3 hM3 tbl hT sim x2 x3 b9 b10 a12 a13 a14 a15 a16 a17, in_read M2 hM2 x2 52 (by decide), mk_read M3 hM3 x3 52 (by decide)]
  try rfl
theorem V14_53 : kernelRunC.sl.v4580 c i M3 hM3 tbl hT sim x3 b9 b10 a14 = (rowsOf c tbl i sim x2 x3 (accOf c a12 a13 a14 a15 a16 a17) 53).w := by
  unfold kernelRunC.sl.v4580 kernelRunC.sl.H14_53
  rw [View.readCov_cons_toLoadRect]
  refine Eq.trans ?_ (rowsOf_w c tbl i sim x2 x3 (accOf c a12 a13 a14 a15 a16 a17) 52 (by decide)).symm
  unfold kernelRunC.sl.r_490 kernelRunC.sl.r_487
  simp only [S_v4439 c i tbl hT sim b9, V14_52 c i M2 hM2 M3 hM3 tbl hT sim x2 x3 b9 b10 a12 a13 a14 a15 a16 a17, mk_read M3 hM3 x3 52 (by decide)]
  try rfl
theorem V12_54 : kernelRunC.sl.v4654 c M3 hM3 x3 a12 = (rowsOf c tbl i sim x2 x3 (accOf c a12 a13 a14 a15 a16 a17) 54).m := by
  unfold kernelRunC.sl.v4654 kernelRunC.sl.H12_54
  rw [View.readCov_cons_toLoadRect]
  refine Eq.trans ?_ (rowsOf_m c tbl i sim x2 x3 (accOf c a12 a13 a14 a15 a16 a17) 53 (by decide)).symm
  unfold kernelRunC.sl.r_499
  simp only [V12_53 c i M2 hM2 M3 hM3 tbl hT sim x2 x3 b9 b10 a12 a13 a14 a15 a16 a17, mk_read M3 hM3 x3 53 (by decide)]
  try rfl
theorem V13_54 : kernelRunC.sl.v4659 c i M2 hM2 M3 hM3 tbl x2 x3 a13 = (rowsOf c tbl i sim x2 x3 (accOf c a12 a13 a14 a15 a16 a17) 54).logp := by
  unfold kernelRunC.sl.v4659 kernelRunC.sl.H13_54
  rw [View.readCov_cons_toLoadRect]
  refine Eq.trans ?_ (rowsOf_logp c tbl i sim x2 x3 (accOf c a12 a13 a14 a15 a16 a17) 53 (by decide)).symm
  unfold kernelRunC.sl.r_498 kernelRunC.sl.r_499 kernelRunC.sl.r_503
  simp only [W_r_497 c i tbl, V13_53 c i M2 hM2 M3 hM3 tbl hT sim x2 x3 b9 b10 a12 a13 a14 a15 a16 a17, in_read M2 hM2 x2 53 (by decide), mk_read M3 hM3 x3 53 (by decide)]
  try rfl
theorem V14_54 : kernelRunC.sl.v4665 c i M3 hM3 tbl hT sim x3 b9 b10 a14 = (rowsOf c tbl i sim x2 x3 (accOf c a12 a13 a14 a15 a16 a17) 54).w := by
  unfold kernelRunC.sl.v4665 kernelRunC.sl.H14_54
  rw [View.readCov_cons_toLoadRect]
  refine Eq.trans ?_ (rowsOf_w c tbl i sim x2 x3 (accOf c a12 a13 a14 a15 a16 a17) 53 (by decide)).symm
  unfold kernelRunC.sl.r_501
  simp only [S_v4524 c i tbl hT sim b10, V14_53 c i M2 hM2 M3 hM3 tbl hT sim x2 x3 b9 b10 a12 a13 a14 a15 a16 a17, mk_read M3 hM3 x3 53 (by decide)]
  try rfl
theorem V12_55 : kernelRunC.sl.v4739 c M3 hM3 x3 a12 = (rowsOf c tbl i sim x2 x3 (accOf c a12 a13 a14 a15 a16 a17) 55).m := by
  unfold kernelRunC.sl.v4739 kernelRunC.sl.H12_55
  rw [View.readCov_cons_toLoadRect]
  refine Eq.trans ?_ (rowsOf_m c tbl i sim x2 x3 (accOf c a12 a13 a14 a15 a16 a17) 54 (by decide)).symm
  unfold kernelRunC.sl.r_509
  simp only [V12_54 c i M2 hM2 M3 hM3 tbl hT sim x2 x3 b9 b10 a12 a13 a14 a15 a16 a17, mk_read M3 hM3 x3 54 (by decide)]
  try rfl
theorem V13_55 : kernelRunC.sl.v4744 c i M2 hM2 M3 hM3 tbl x2 x3 a13 = (rowsOf c tbl i sim x2 x3 (accOf c a12 a13 a14 a15 a16 a17) 55).logp := by
  unfold kernelRunC.sl.v4744 kernelRunC.sl.H13_55
  rw [View.readCov_cons_toLoadRect]
  refine Eq.trans ?_ (rowsOf_logp c tbl i sim x2 x3 (accOf c a12 a13 a14 a15 a16 a17) 54 (by decide)).symm
  unfold kernelRunC.sl.r_508 kernelRunC.sl.r_509
  simp only [W_r_507 c i tbl, V13_54 c i M2 hM2 M3 hM3 tbl hT sim x2 x3 b9 b10 a12 a13 a14 a15 a16 a17, in_read M2 hM2 x2 54 (by decide), mk_read M3 hM3 x3 54 (by decide)]
  try rfl
theorem V14_55 : kernelRunC.sl.v4750 c i M3 hM3 tbl hT sim x3 b9 b10 a14 = (rowsOf c tbl i sim x2 x3 (accOf c a12 a13 a14 a15 a16 a17) 55).w := by
  unfold kernelRunC.sl.v4750 kernelRunC.sl.H14_55
  rw [View.readCov_cons_toLoadRect]
  refine Eq.trans ?_ (rowsOf_w c tbl i sim x2 x3 (accOf c a12 a13 a14 a15 a16 a17) 54 (by decide)).symm
  unfold kernelRunC.sl.r_515 kernelRunC.sl.r_509 kernelRunC.sl.r_510 kernelRunC.sl.r_511
  simp only [S_v4609 c i tbl hT sim b9, V14_54 c i M2 hM2 M3 hM3 tbl hT sim x2 x3 b9 b10 a12 a13 a14 a15 a16 a17, mk_read M3 hM3 x3 54 (by decide)]
  try rfl
theorem V12_56 : kernelRunC.sl.v4824 c M3 hM3 x3 a12 = (rowsOf c tbl i sim x2 x3 (accOf c a12 a13 a14 a15 a16 a17) 56).m := by
  unfold kernelRunC.sl.v4824 kernelRunC.sl.H12_56
  rw [View.readCov_cons_toLoadRect]
  refine Eq.trans ?_ (rowsOf_m c tbl i sim x2 x3 (accOf c a12 a13 a14 a15 a16 a17) 55 (by decide)).symm
  unfold kernelRunC.sl.r_525
  simp only [V12_55 c i M2 hM2 M3 hM3 tbl hT sim x2 x3 b9 b10 a12 a13 a14 a15 a16 a17, mk_read M3 hM3 x3 55 (by decide)]
  try rfl
theorem V13_56 : kernelRunC.sl.v4829 c i M2 hM2 M3 hM3 tbl x2 x3 a13 = (rowsOf c tbl i sim x2 x3 (accOf c a12 a13 a14 a15 a16 a17) 56).logp := by
  unfold kernelRunC.sl.v4829 kernelRunC.sl.H13_56
  rw [View.readCov_cons_toLoadRect]
  refine Eq.trans ?_ (rowsOf_logp c tbl i sim x2 x3 (accOf c a12 a13 a14 a15 a16 a17) 55 (by decide)).symm
  unfold kernelRunC.sl.r_519 kernelRunC.sl.r_522 kernelRunC.sl.r_517
  simp only [W_r_518 c i tbl, V13_55 c i M2 hM2 M3 hM3 tbl hT sim x2 x3 b9 b10 a12 a13 a14 a15 a16 a17, in_read M2 hM2 x2 55 (by decide), mk_read M3 hM3 x3 55 (by decide)]
  try rfl
theorem V14_56 : kernelRunC.sl.v4835 c i M3 hM3 tbl hT sim x3 b9 b10 a14 = (rowsOf c tbl i sim x2 x3 (accOf c a12 a13 a14 a15 a16 a17) 56).w := by
  unfold kernelRunC.sl.v4835 kernelRunC.sl.H14_56
  rw [View.readCov_cons_toLoadRect]
  refine Eq.trans ?_ (rowsOf_w c tbl i sim x2 x3 (accOf c a12 a13 a14 a15 a16 a17) 55 (by decide)).symm
  unfold kernelRunC.sl.r_520
  simp only [S_v4694 c i tbl hT sim b10, V14_55 c i M2 hM2 M3 hM3 tbl hT sim x2 x3 b9 b10 a12 a13 a14 a15 a16 a17, mk_read M3 hM3 x3 55 (by decide)]
  try rfl
theorem V12_57 : kernelRunC.sl.v4909 c M3 hM3 x3 a12 = (rowsOf c tbl i sim x2 x3 (accOf c a12 a13 a14 a15 a16 a17) 57).m := by
  unfold kernelRunC.sl.v4909 kernelRunC.sl.H12_57
  rw [View.readCov_cons_toLoadRect]
  refine Eq.trans ?_ (rowsOf_m c tbl i sim x2 x3 (accOf c a12 a13 a14 a15 a16 a17) 56 (by decide)).symm
  unfold kernelRunC.sl.r_529
  simp only [V12_56 c i M2 hM2 M3 hM3 tbl hT sim x2 x3 b9 b10 a12 a13 a14 a15 a16 a17, mk_read M3 hM3 x3 56 (by decide)]
  try rfl
theorem V13_57 : kernelRunC.sl.v4914 c i M2 hM2 M3 hM3 tbl x2 x3 a13 = (rowsOf c tbl i sim x2 x3 (accOf c a12 a13 a14 a15 a16 a17) 57).logp := by
  unfold kernelRunC.sl.v4914 kernelRunC.sl.H13_57
  rw [View.readCov_cons_toLoadRect]
  refine Eq.trans ?_ (rowsOf_logp c tbl i sim x2 x3 (accOf c a12 a13 a14 a15 a16 a17) 56 (by decide)).symm
  unfold kernelRunC.sl.r_528 kernelRunC.sl.r_529
  simp only [W_r_527 c i tbl, V13_56 c i M2 hM2 M3 hM3 tbl hT sim x2 x3 b9 b10 a12 a13 a14 a15 a16 a17, in_read M2 hM2 x2 56 (by decide), mk_read M3 hM3 x3 56 (by decide)]
  try rfl
theorem V14_57 : kernelRunC.sl.v4920 c i M3 hM3 tbl hT sim x3 b9 b10 a14 = (rowsOf c tbl i sim x2 x3 (accOf c a12 a13 a14 a15 a16 a17) 57).w := by
  unfold kernelRunC.sl.v4920 kernelRunC.sl.H14_57
  rw [View.readCov_cons_toLoadRect]
  refine Eq.trans ?_ (rowsOf_w c tbl i sim x2 x3 (accOf c a12 a13 a14 a15 a16 a17) 56 (by decide)).symm
  unfold kernelRunC.sl.r_531
  simp only [S_v4779 c i tbl hT sim b9, V14_56 c i M2 hM2 M3 hM3 tbl hT sim x2 x3 b9 b10 a12 a13 a14 a15 a16 a17, mk_read M3 hM3 x3 56 (by decide)]
  try rfl
theorem V12_58 : kernelRunC.sl.v4994 c M3 hM3 x3 a12 = (rowsOf c tbl i sim x2 x3 (accOf c a12 a13 a14 a15 a16 a17) 58).m := by
  unfold kernelRunC.sl.v4994 kernelRunC.sl.H12_58
  rw [View.readCov_cons_toLoadRect]
  refine Eq.trans ?_ (rowsOf_m c tbl i sim x2 x3 (accOf c a12 a13 a14 a15 a16 a17) 57 (by decide)).symm
  unfold kernelRunC.sl.r_538
  simp only [V12_57 c i M2 hM2 M3 hM3 tbl hT sim x2 x3 b9 b10 a12 a13 a14 a15 a16 a17, mk_read M3 hM3 x3 57 (by decide)]
  try rfl
theorem V13_58 : kernelRunC.sl.v4999 c i M2 hM2 M3 hM3 tbl x2 x3 a13 = (rowsOf c tbl i sim x2 x3 (accOf c a12 a13 a14 a15 a16 a17) 58).logp := by
  unfold kernelRunC.sl.v4999 kernelRunC.sl.H13_58
  rw [View.readCov_cons_toLoadRect]
  refine Eq.trans ?_ (rowsOf_logp c tbl i sim x2 x3 (accOf c a12 a13 a14 a15 a16 a17) 57 (by decide)).symm
  unfold kernelRunC.sl.r_537 kernelRunC.sl.r_538
  simp only [W_r_536 c i tbl, V13_57 c i M2 hM2 M3 hM3 tbl hT sim x2 x3 b9 b10 a12 a13 a14 a15 a16 a17, in_read M2 hM2 x2 57 (by decide), mk_read M3 hM3 x3 57 (by decide)]
  try rfl
theorem V14_58 : kernelRunC.sl.v5005 c i M3 hM3 tbl hT sim x3 b9 b10 a14 = (rowsOf c tbl i sim x2 x3 (accOf c a12 a13 a14 a15 a16 a17) 58).w := by
  unfold kernelRunC.sl.v5005 kernelRunC.sl.H14_58
  rw [View.readCov_cons_toLoadRect]
  refine Eq.trans ?_ (rowsOf_w c tbl i sim x2 x3 (accOf c a12 a13 a14 a15 a16 a17) 57 (by decide)).symm
  unfold kernelRunC.sl.r_541 kernelRunC.sl.r_538 kernelRunC.sl.r_539 kernelRunC.sl.r_540 kernelRunC.sl.cst_781
  simp only [S_v4864 c i tbl hT sim b10, V14_57 c i M2 hM2 M3 hM3 tbl hT sim x2 x3 b9 b10 a12 a13 a14 a15 a16 a17, mk_read M3 hM3 x3 57 (by decide)]
  try rfl
theorem V12_59 : kernelRunC.sl.v5079 c M3 hM3 x3 a12 = (rowsOf c tbl i sim x2 x3 (accOf c a12 a13 a14 a15 a16 a17) 59).m := by
  unfold kernelRunC.sl.v5079 kernelRunC.sl.H12_59
  rw [View.readCov_cons_toLoadRect]
  refine Eq.trans ?_ (rowsOf_m c tbl i sim x2 x3 (accOf c a12 a13 a14 a15 a16 a17) 58 (by decide)).symm
  unfold kernelRunC.sl.r_547
  simp only [V12_58 c i M2 hM2 M3 hM3 tbl hT sim x2 x3 b9 b10 a12 a13 a14 a15 a16 a17, mk_read M3 hM3 x3 58 (by decide)]
  try rfl
theorem V13_59 : kernelRunC.sl.v5084 c i M2 hM2 M3 hM3 tbl x2 x3 a13 = (rowsOf c tbl i sim x2 x3 (accOf c a12 a13 a14 a15 a16 a17) 59).logp := by
  unfold kernelRunC.sl.v5084 kernelRunC.sl.H13_59
  rw [View.readCov_cons_toLoadRect]
  refine Eq.trans ?_ (rowsOf_logp c tbl i sim x2 x3 (accOf c a12 a13 a14 a15 a16 a17) 58 (by decide)).symm
  unfold kernelRunC.sl.r_547 kernelRunC.sl.r_550
  simp only [W_r_546 c i tbl, V13_58 c i M2 hM2 M3 hM3 tbl hT sim x2 x3 b9 b10 a12 a13 a14 a15 a16 a17, in_read M2 hM2 x2 58 (by decide), mk_read M3 hM3 x3 58 (by decide)]
  try rfl
theorem V14_59 : kernelRunC.sl.v5090 c i M3 hM3 tbl hT sim x3 b9 b10 a14 = (rowsOf c tbl i sim x2 x3 (accOf c a12 a13 a14 a15 a16 a17) 59).w := by
  unfold kernelRunC.sl.v5090 kernelRunC.sl.H14_59
  rw [View.readCov_cons_toLoadRect]
  refine Eq.trans ?_ (rowsOf_w c tbl i sim x2 x3 (accOf c a12 a13 a14 a15 a16 a17) 58 (by decide)).symm
  unfold kernelRunC.sl.r_548
  simp only [V14_58 c i M2 hM2 M3 hM3 tbl hT sim x2 x3 b9 b10 a12 a13 a14 a15 a16 a17, S_v_2 c i tbl hT sim b9, mk_read M3 hM3 x3 58 (by decide)]
  try rfl
theorem V12_60 : kernelRunC.sl.v5164 c M3 hM3 x3 a12 = (rowsOf c tbl i sim x2 x3 (accOf c a12 a13 a14 a15 a16 a17) 60).m := by
  unfold kernelRunC.sl.v5164 kernelRunC.sl.H12_60
  rw [View.readCov_cons_toLoadRect]
  refine Eq.trans ?_ (rowsOf_m c tbl i sim x2 x3 (accOf c a12 a13 a14 a15 a16 a17) 59 (by decide)).symm
  unfold kernelRunC.sl.r_556
  simp only [V12_59 c i M2 hM2 M3 hM3 tbl hT sim x2 x3 b9 b10 a12 a13 a14 a15 a16 a17, mk_read M3 hM3 x3 59 (by decide)]
  try rfl
theorem V13_60 : kernelRunC.sl.v5169 c i M2 hM2 M3 hM3 tbl x2 x3 a13 = (rowsOf c tbl i sim x2 x3 (accOf c a12 a13 a14 a15 a16 a17) 60).logp := by
  unfold kernelRunC.sl.v5169 kernelRunC.sl.H13_60
  rw [View.readCov_cons_toLoadRect]
  refine Eq.trans ?_ (rowsOf_logp c tbl i sim x2 x3 (accOf c a12 a13 a14 a15 a16 a17) 59 (by decide)).symm
  unfold kernelRunC.sl.r_555 kernelRunC.sl.r_556
  simp only [W_r_554 c i tbl, V13_59 c i M2 hM2 M3 hM3 tbl hT sim x2 x3 b9 b10 a12 a13 a14 a15 a16 a17, in_read M2 hM2 x2 59 (by decide), mk_read M3 hM3 x3 59 (by decide)]
  try rfl
theorem V14_60 : kernelRunC.sl.v5175 c i M3 hM3 tbl hT sim x3 b9 b10 a14 = (rowsOf c tbl i sim x2 x3 (accOf c a12 a13 a14 a15 a16 a17) 60).w := by
  unfold kernelRunC.sl.v5175 kernelRunC.sl.H14_60
  rw [View.readCov_cons_toLoadRect]
  refine Eq.trans ?_ (rowsOf_w c tbl i sim x2 x3 (accOf c a12 a13 a14 a15 a16 a17) 59 (by decide)).symm
  unfold kernelRunC.sl.r_558
  simp only [S_v5034 c i tbl hT sim b10, V14_59 c i M2 hM2 M3 hM3 tbl hT sim x2 x3 b9 b10 a12 a13 a14 a15 a16 a17, mk_read M3 hM3 x3 59 (by decide)]
  try rfl
theorem V12_61 : kernelRunC.sl.v5249 c M3 hM3 x3 a12 = (rowsOf c tbl i sim x2 x3 (accOf c a12 a13 a14 a15 a16 a17) 61).m := by
  unfold kernelRunC.sl.v5249 kernelRunC.sl.H12_61
  rw [View.readCov_cons_toLoadRect]
  refine Eq.trans ?_ (rowsOf_m c tbl i sim x2 x3 (accOf c a12 a13 a14 a15 a16 a17) 60 (by decide)).symm
  unfold kernelRunC.sl.r_565
  simp only [V12_60 c i M2 hM2 M3 hM3 tbl hT sim x2 x3 b9 b10 a12 a13 a14 a15 a16 a17, mk_read M3 hM3 x3 60 (by decide)]
  try rfl
theorem V13_61 : kernelRunC.sl.v5254 c i M2 hM2 M3 hM3 tbl x2 x3 a13 = (rowsOf c tbl i sim x2 x3 (accOf c a12 a13 a14 a15 a16 a17) 61).logp := by
  unfold kernelRunC.sl.v5254 kernelRunC.sl.H13_61
  rw [View.readCov_cons_toLoadRect]
  refine Eq.trans ?_ (rowsOf_logp c tbl i sim x2 x3 (accOf c a12 a13 a14 a15 a16 a17) 60 (by decide)).symm
  unfold kernelRunC.sl.r_571 kernelRunC.sl.r_564 kernelRunC.sl.r_565
  simp only [W_r_563 c i tbl, V13_60 c i M2 hM2 M3 hM3 tbl hT sim x2 x3 b9 b10 a12 a13 a14 a15 a16 a17, in_read M2 hM2 x2 60 (by decide), mk_read M3 hM3 x3 60 (by decide)]
  try rfl
theorem V14_61 : kernelRunC.sl.v5260 c i M3 hM3 tbl hT sim x3 b9 b10 a14 = (rowsOf c tbl i sim x2 x3 (accOf c a12 a13 a14 a15 a16 a17) 61).w := by
  unfold kernelRunC.sl.v5260 kernelRunC.sl.H14_61
  rw [View.readCov_cons_toLoadRect]
  refine Eq.trans ?_ (rowsOf_w c tbl i sim x2 x3 (accOf c a12 a13 a14 a15 a16 a17) 60 (by decide)).symm
  unfold kernelRunC.sl.r_567 kernelRunC.sl.r_565 kernelRunC.sl.r_566 kernelRunC.sl.cst_15
  simp only [S_v5119 c i tbl hT sim b9, V14_60 c i M2 hM2 M3 hM3 tbl hT sim x2 x3 b9 b10 a12 a13 a14 a15 a16 a17, mk_read M3 hM3 x3 60 (by decide)]
  try rfl
theorem V12_62 : kernelRunC.sl.v5334 c M3 hM3 x3 a12 = (rowsOf c tbl i sim x2 x3 (accOf c a12 a13 a14 a15 a16 a17) 62).m := by
  unfold kernelRunC.sl.v5334 kernelRunC.sl.H12_62
  rw [View.readCov_cons_toLoadRect]
  refine Eq.trans ?_ (rowsOf_m c tbl i sim x2 x3 (accOf c a12 a13 a14 a15 a16 a17) 61 (by decide)).symm
  unfold kernelRunC.sl.r_574
  simp only [V12_61 c i M2 hM2 M3 hM3 tbl hT sim x2 x3 b9 b10 a12 a13 a14 a15 a16 a17, mk_read M3 hM3 x3 61 (by decide)]
  try rfl
theorem V13_62 : kernelRunC.sl.v5339 c i M2 hM2 M3 hM3 tbl x2 x3 a13 = (rowsOf c tbl i sim x2 x3 (accOf c a12 a13 a14 a15 a16 a17) 62).logp := by
  unfold kernelRunC.sl.v5339 kernelRunC.sl.H13_62
  rw [View.readCov_cons_toLoadRect]
  refine Eq.trans ?_ (rowsOf_logp c tbl i sim x2 x3 (accOf c a12 a13 a14 a15 a16 a17) 61 (by decide)).symm
  unfold kernelRunC.sl.r_574 kernelRunC.sl.r_577
  simp only [W_r_573 c i tbl, V13_61 c i M2 hM2 M3 hM3 tbl hT sim x2 x3 b9 b10 a12 a13 a14 a15 a16 a17, in_read M2 hM2 x2 61 (by decide), mk_read M3 hM3 x3 61 (by decide)]
  try rfl
theorem V14_62 : kernelRunC.sl.v5345 c i M3 hM3 tbl hT sim x3 b9 b10 a14 = (rowsOf c tbl i sim x2 x3 (accOf c a12 a13 a14 a15 a16 a17) 62).w := by
  unfold kernelRunC.sl.v5345 kernelRunC.sl.H14_62
  rw [View.readCov_cons_toLoadRect]
  refine Eq.trans ?_ (rowsOf_w c tbl i sim x2 x3 (accOf c a12 a13 a14 a15 a16 a17) 61 (by decide)).symm
  unfold kernelRunC.sl.r_575
  simp only [S_v5204 c i tbl hT sim b10, V14_61 c i M2 hM2 M3 hM3 tbl hT sim x2 x3 b9 b10 a12 a13 a14 a15 a16 a17, mk_read M3 hM3 x3 61 (by decide)]
  try rfl
theorem V12_63 : kernelRunC.sl.v5413 c M3 hM3 x3 a12 = (rowsOf c tbl i sim x2 x3 (accOf c a12 a13 a14 a15 a16 a17) 63).m := by
  unfold kernelRunC.sl.v5413 kernelRunC.sl.H12_63
  rw [View.readCov_cons_toLoadRect]
  refine Eq.trans ?_ (rowsOf_m c tbl i sim x2 x3 (accOf c a12 a13 a14 a15 a16 a17) 62 (by decide)).symm
  unfold kernelRunC.sl.r_584
  simp only [V12_62 c i M2 hM2 M3 hM3 tbl hT sim x2 x3 b9 b10 a12 a13 a14 a15 a16 a17, mk_read M3 hM3 x3 62 (by decide)]
  try rfl
theorem V13_63 : kernelRunC.sl.v5418 c i M2 hM2 M3 hM3 tbl x2 x3 a13 = (rowsOf c tbl i sim x2 x3 (accOf c a12 a13 a14 a15 a16 a17) 63).logp := by
  unfold kernelRunC.sl.v5418 kernelRunC.sl.H13_63
  rw [View.readCov_cons_toLoadRect]
  refine Eq.trans ?_ (rowsOf_logp c tbl i sim x2 x3 (accOf c a12 a13 a14 a15 a16 a17) 62 (by decide)).symm
  unfold kernelRunC.sl.r_583 kernelRunC.sl.r_584
  simp only [W_r_582 c i tbl, V13_62 c i M2 hM2 M3 hM3 tbl hT sim x2 x3 b9 b10 a12 a13 a14 a15 a16 a17, in_read M2 hM2 x2 62 (by decide), mk_read M3 hM3 x3 62 (by decide)]
  try rfl
theorem V14_63 : kernelRunC.sl.v5424 c i M3 hM3 tbl hT sim x3 b9 b10 a14 = (rowsOf c tbl i sim x2 x3 (accOf c a12 a13 a14 a15 a16 a17) 63).w := by
  unfold kernelRunC.sl.v5424 kernelRunC.sl.H14_63
  rw [View.readCov_cons_toLoadRect]
  refine Eq.trans ?_ (rowsOf_w c tbl i sim x2 x3 (accOf c a12 a13 a14 a15 a16 a17) 62 (by decide)).symm
  unfold kernelRunC.sl.r_587
  simp only [S_v5289 c i tbl hT sim b9, V14_62 c i M2 hM2 M3 hM3 tbl hT sim x2 x3 b9 b10 a12 a13 a14 a15 a16 a17, mk_read M3 hM3 x3 62 (by decide)]
  try rfl
theorem L12_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.2.2.2.1 = kernelRunC.sl.H12_64 c M3 hM3 x3 a12 := rfl
theorem V12_64v : kernelRunC.sl.v5450 c M3 hM3 x3 a12 = (rowsOf c tbl i sim x2 x3 (accOf c a12 a13 a14 a15 a16 a17) 64).m := by
  unfold kernelRunC.sl.v5450 kernelRunC.sl.H12_64
  rw [View.readCov_cons_toLoadRect]
  refine Eq.trans ?_ (rowsOf_m c tbl i sim x2 x3 (accOf c a12 a13 a14 a15 a16 a17) 63 (by decide)).symm
  unfold kernelRunC.sl.r_593
  simp only [V12_63 c i M2 hM2 M3 hM3 tbl hT sim x2 x3 b9 b10 a12 a13 a14 a15 a16 a17, mk_read M3 hM3 x3 63 (by decide)]
  try rfl
theorem V12_64 : View.readAt (Elt F) (Memref.whole cc0_scratch3).view (Rect.unit ![0, 0] S1x1.size inb_S1x1_S1x1_0_0).toLoadRect ((Memref.whole cc0_scratch3).view.writes (Elt F) a12 (kernelRunC.sl.H12_64 c M3 hM3 x3 a12)) = (rowsOf c tbl i sim x2 x3 (accOf c a12 a13 a14 a15 a16 a17) 64).m := by
  unfold kernelRunC.sl.H12_64
  rw [read_last_write]
  refine Eq.trans ?_ (rowsOf_m c tbl i sim x2 x3 (accOf c a12 a13 a14 a15 a16 a17) 63 (by decide)).symm
  unfold kernelRunC.sl.r_593
  simp only [V12_63 c i M2 hM2 M3 hM3 tbl hT sim x2 x3 b9 b10 a12 a13 a14 a15 a16 a17, mk_read M3 hM3 x3 63 (by decide)]
  try rfl
theorem L13_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.2.2.2.2.1 = kernelRunC.sl.H13_64 c i M2 hM2 M3 hM3 tbl x2 x3 a13 := rfl
theorem V13_64v : kernelRunC.sl.v5447 c i M2 hM2 M3 hM3 tbl x2 x3 a13 = (rowsOf c tbl i sim x2 x3 (accOf c a12 a13 a14 a15 a16 a17) 64).logp := by
  unfold kernelRunC.sl.v5447 kernelRunC.sl.H13_64
  rw [View.readCov_cons_toLoadRect]
  refine Eq.trans ?_ (rowsOf_logp c tbl i sim x2 x3 (accOf c a12 a13 a14 a15 a16 a17) 63 (by decide)).symm
  unfold kernelRunC.sl.r_592 kernelRunC.sl.r_593
  simp only [W_r_591 c i tbl, V13_63 c i M2 hM2 M3 hM3 tbl hT sim x2 x3 b9 b10 a12 a13 a14 a15 a16 a17, in_read M2 hM2 x2 63 (by decide), mk_read M3 hM3 x3 63 (by decide)]
  try rfl
theorem V13_64 : View.readAt (Elt F) (Memref.whole cc0_scratch4).view (Rect.unit ![0, 0] S1x1.size inb_S1x1_S1x1_0_0).toLoadRect ((Memref.whole cc0_scratch4).view.writes (Elt F) a13 (kernelRunC.sl.H13_64 c i M2 hM2 M3 hM3 tbl x2 x3 a13)) = (rowsOf c tbl i sim x2 x3 (accOf c a12 a13 a14 a15 a16 a17) 64).logp := by
  unfold kernelRunC.sl.H13_64
  rw [read_last_write]
  refine Eq.trans ?_ (rowsOf_logp c tbl i sim x2 x3 (accOf c a12 a13 a14 a15 a16 a17) 63 (by decide)).symm
  unfold kernelRunC.sl.r_592 kernelRunC.sl.r_593
  simp only [W_r_591 c i tbl, V13_63 c i M2 hM2 M3 hM3 tbl hT sim x2 x3 b9 b10 a12 a13 a14 a15 a16 a17, in_read M2 hM2 x2 63 (by decide), mk_read M3 hM3 x3 63 (by decide)]
  try rfl
theorem L14_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.2.2.2.2.2.1 = kernelRunC.sl.H14_64 c i M3 hM3 tbl hT sim x3 b9 b10 a14 := rfl
theorem V14_64v : kernelRunC.sl.v5453 c i M3 hM3 tbl hT sim x3 b9 b10 a14 = (rowsOf c tbl i sim x2 x3 (accOf c a12 a13 a14 a15 a16 a17) 64).w := by
  unfold kernelRunC.sl.v5453 kernelRunC.sl.H14_64
  rw [View.readCov_cons_toLoadRect]
  refine Eq.trans ?_ (rowsOf_w c tbl i sim x2 x3 (accOf c a12 a13 a14 a15 a16 a17) 63 (by decide)).symm
  unfold kernelRunC.sl.r_599 kernelRunC.sl.r_593 kernelRunC.sl.r_594 kernelRunC.sl.r_595
  simp only [S_v5368 c i tbl hT sim b10, V14_63 c i M2 hM2 M3 hM3 tbl hT sim x2 x3 b9 b10 a12 a13 a14 a15 a16 a17, mk_read M3 hM3 x3 63 (by decide)]
  try rfl
theorem V14_64 : View.readAt (Elt F) (Memref.whole cc0_scratch5).view (Rect.unit ![0, 0] S1x1.size inb_S1x1_S1x1_0_0).toLoadRect ((Memref.whole cc0_scratch5).view.writes (Elt F) a14 (kernelRunC.sl.H14_64 c i M3 hM3 tbl hT sim x3 b9 b10 a14)) = (rowsOf c tbl i sim x2 x3 (accOf c a12 a13 a14 a15 a16 a17) 64).w := by
  unfold kernelRunC.sl.H14_64
  rw [read_last_write]
  refine Eq.trans ?_ (rowsOf_w c tbl i sim x2 x3 (accOf c a12 a13 a14 a15 a16 a17) 63 (by decide)).symm
  unfold kernelRunC.sl.r_599 kernelRunC.sl.r_593 kernelRunC.sl.r_594 kernelRunC.sl.r_595
  simp only [S_v5368 c i tbl hT sim b10, V14_63 c i M2 hM2 M3 hM3 tbl hT sim x2 x3 b9 b10 a12 a13 a14 a15 a16 a17, mk_read M3 hM3 x3 63 (by decide)]
  try rfl
end TabC

end Cert.Proof.K

end
-- ==== Proof.KStepCTabV2.lean ====
import proofs.«419560_j5755256177164_3_alg».proof.Proof.KStepCTabW

/-!
  The table of case C: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.K

open Cert.Kernel Cert.Kernel.Gen
open Idealize.ShloMosaic Idealize.ShloMosaic.TcCoe
open Idealize.SL Idealize.SL.Sem

variable {F : FTy → Type} [FloatOps F]

namespace TabC

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

include c i M2 hM2 M3 hM3 tbl hT sim x2 x3 b9 b10 a12 a13 a14 a15 a16 a17

theorem V15_1 : kernelRunC.sl.v165 c i M2 hM2 M3 hM3 tbl hT sim x2 x3 b9 a15 = (rowsOf c tbl i sim x2 x3 (accOf c a12 a13 a14 a15 a16 a17) 1).nf := by
  unfold kernelRunC.sl.v165 kernelRunC.sl.H15_1
  rw [View.readCov_cons_toLoadRect]
  refine Eq.trans ?_ (rowsOf_nf c tbl i sim x2 x3 (accOf c a12 a13 a14 a15 a16 a17) 0 (by decide)).symm
  unfold kernelRunC.sl.r_7 kernelRunC.sl.r_3 kernelRunC.sl.r_4 kernelRunC.sl.r_5 kernelRunC.sl.cst_15
  simp only [S_v19 c i tbl hT sim b9, in_read M2 hM2 x2 0 (by decide), mk_read M3 hM3 x3 0 (by decide)]
  try rfl
theorem V16_1 : kernelRunC.sl.v170 c i tbl hT sim b9 a16 = (rowsOf c tbl i sim x2 x3 (accOf c a12 a13 a14 a15 a16 a17) 1).s := by
  unfold kernelRunC.sl.v170 kernelRunC.sl.H16_1
  rw [View.readCov_cons_toLoadRect]
  refine Eq.trans ?_ (rowsOf_s c tbl i sim x2 x3 (accOf c a12 a13 a14 a15 a16 a17) 0 (by decide)).symm
  unfold kernelRunC.sl.r_8 kernelRunC.sl.r_5 kernelRunC.sl.cst_15
  simp only [S_v19 c i tbl hT sim b9]
  try rfl
theorem V17_1 : kernelRunC.sl.v175 c i tbl hT sim b9 a17 = (rowsOf c tbl i sim x2 x3 (accOf c a12 a13 a14 a15 a16 a17) 1).q := by
  unfold kernelRunC.sl.v175 kernelRunC.sl.H17_1
  rw [View.readCov_cons_toLoadRect]
  refine Eq.trans ?_ (rowsOf_q c tbl i sim x2 x3 (accOf c a12 a13 a14 a15 a16 a17) 0 (by decide)).symm
  unfold kernelRunC.sl.r_9 kernelRunC.sl.r_5 kernelRunC.sl.cst_15
  simp only [S_v19 c i tbl hT sim b9]
  try rfl
theorem V15_2 : kernelRunC.sl.v250 c i M2 hM2 M3 hM3 tbl hT sim x2 x3 b9 b10 a15 = (rowsOf c tbl i sim x2 x3 (accOf c a12 a13 a14 a15 a16 a17) 2).nf := by
  unfold kernelRunC.sl.v250 kernelRunC.sl.H15_2
  rw [View.readCov_cons_toLoadRect]
  refine Eq.trans ?_ (rowsOf_nf c tbl i sim x2 x3 (accOf c a12 a13 a14 a15 a16 a17) 1 (by decide)).symm
  unfold kernelRunC.sl.r_15
  simp only [S_v104 c i tbl hT sim b10, V15_1 c i M2 hM2 M3 hM3 tbl hT sim x2 x3 b9 b10 a12 a13 a14 a15 a16 a17, in_read M2 hM2 x2 1 (by decide), mk_read M3 hM3 x3 1 (by decide)]
  try rfl
theorem V16_2 : kernelRunC.sl.v255 c i tbl hT sim b9 b10 a16 = (rowsOf c tbl i sim x2 x3 (accOf c a12 a13 a14 a15 a16 a17) 2).s := by
  unfold kernelRunC.sl.v255 kernelRunC.sl.H16_2
  rw [View.readCov_cons_toLoadRect]
  refine Eq.trans ?_ (rowsOf_s c tbl i sim x2 x3 (accOf c a12 a13 a14 a15 a16 a17) 1 (by decide)).symm
  unfold kernelRunC.sl.r_17
  simp only [S_v104 c i tbl hT sim b10, V16_1 c i M2 hM2 M3 hM3 tbl hT sim x2 x3 b9 b10 a12 a13 a14 a15 a16 a17]
  try rfl
theorem V17_2 : kernelRunC.sl.v260 c i tbl hT sim b9 b10 a17 = (rowsOf c tbl i sim x2 x3 (accOf c a12 a13 a14 a15 a16 a17) 2).q := by
  unfold kernelRunC.sl.v260 kernelRunC.sl.H17_2
  rw [View.readCov_cons_toLoadRect]
  refine Eq.trans ?_ (rowsOf_q c tbl i sim x2 x3 (accOf c a12 a13 a14 a15 a16 a17) 1 (by decide)).symm
  unfold kernelRunC.sl.r_19 kernelRunC.sl.r_18
  simp only [S_v104 c i tbl hT sim b10, V17_1 c i M2 hM2 M3 hM3 tbl hT sim x2 x3 b9 b10 a12 a13 a14 a15 a16 a17]
  try rfl
theorem V15_3 : kernelRunC.sl.v335 c i M2 hM2 M3 hM3 tbl hT sim x2 x3 b9 b10 a15 = (rowsOf c tbl i sim x2 x3 (accOf c a12 a13 a14 a15 a16 a17) 3).nf := by
  unfold kernelRunC.sl.v335 kernelRunC.sl.H15_3
  rw [View.readCov_cons_toLoadRect]
  refine Eq.trans ?_ (rowsOf_nf c tbl i sim x2 x3 (accOf c a12 a13 a14 a15 a16 a17) 2 (by decide)).symm
  unfold kernelRunC.sl.r_29 kernelRunC.sl.r_22 kernelRunC.sl.r_25 kernelRunC.sl.cst_109
  simp only [S_v189 c i tbl hT sim b9, V15_2 c i M2 hM2 M3 hM3 tbl hT sim x2 x3 b9 b10 a12 a13 a14 a15 a16 a17, in_read M2 hM2 x2 2 (by decide), mk_read M3 hM3 x3 2 (by decide)]
  try rfl
theorem V16_3 : kernelRunC.sl.v340 c i tbl hT sim b9 b10 a16 = (rowsOf c tbl i sim x2 x3 (accOf c a12 a13 a14 a15 a16 a17) 3).s := by
  unfold kernelRunC.sl.v340 kernelRunC.sl.H16_3
  rw [View.readCov_cons_toLoadRect]
  refine Eq.trans ?_ (rowsOf_s c tbl i sim x2 x3 (accOf c a12 a13 a14 a15 a16 a17) 2 (by decide)).symm
  unfold kernelRunC.sl.r_27 kernelRunC.sl.r_24
  simp only [S_v189 c i tbl hT sim b9, V16_2 c i M2 hM2 M3 hM3 tbl hT sim x2 x3 b9 b10 a12 a13 a14 a15 a16 a17]
  try rfl
theorem V17_3 : kernelRunC.sl.v345 c i tbl hT sim b9 b10 a17 = (rowsOf c tbl i sim x2 x3 (accOf c a12 a13 a14 a15 a16 a17) 3).q := by
  unfold kernelRunC.sl.v345 kernelRunC.sl.H17_3
  rw [View.readCov_cons_toLoadRect]
  refine Eq.trans ?_ (rowsOf_q c tbl i sim x2 x3 (accOf c a12 a13 a14 a15 a16 a17) 2 (by decide)).symm
  unfold kernelRunC.sl.r_28 kernelRunC.sl.r_24
  simp only [S_v189 c i tbl hT sim b9, V17_2 c i M2 hM2 M3 hM3 tbl hT sim x2 x3 b9 b10 a12 a13 a14 a15 a16 a17]
  try rfl
theorem V15_4 : kernelRunC.sl.v420 c i M2 hM2 M3 hM3 tbl hT sim x2 x3 b9 b10 a15 = (rowsOf c tbl i sim x2 x3 (accOf c a12 a13 a14 a15 a16 a17) 4).nf := by
  unfold kernelRunC.sl.v420 kernelRunC.sl.H15_4
  rw [View.readCov_cons_toLoadRect]
  refine Eq.trans ?_ (rowsOf_nf c tbl i sim x2 x3 (accOf c a12 a13 a14 a15 a16 a17) 3 (by decide)).symm
  unfold kernelRunC.sl.r_36 kernelRunC.sl.r_32 kernelRunC.sl.r_33 kernelRunC.sl.r_34
  simp only [S_v274 c i tbl hT sim b10, V15_3 c i M2 hM2 M3 hM3 tbl hT sim x2 x3 b9 b10 a12 a13 a14 a15 a16 a17, in_read M2 hM2 x2 3 (by decide), mk_read M3 hM3 x3 3 (by decide)]
  try rfl
theorem V16_4 : kernelRunC.sl.v425 c i tbl hT sim b9 b10 a16 = (rowsOf c tbl i sim x2 x3 (accOf c a12 a13 a14 a15 a16 a17) 4).s := by
  unfold kernelRunC.sl.v425 kernelRunC.sl.H16_4
  rw [View.readCov_cons_toLoadRect]
  refine Eq.trans ?_ (rowsOf_s c tbl i sim x2 x3 (accOf c a12 a13 a14 a15 a16 a17) 3 (by decide)).symm
  unfold kernelRunC.sl.r_37 kernelRunC.sl.r_34
  simp only [S_v274 c i tbl hT sim b10, V16_3 c i M2 hM2 M3 hM3 tbl hT sim x2 x3 b9 b10 a12 a13 a14 a15 a16 a17]
  try rfl
theorem V17_4 : kernelRunC.sl.v430 c i tbl hT sim b9 b10 a17 = (rowsOf c tbl i sim x2 x3 (accOf c a12 a13 a14 a15 a16 a17) 4).q := by
  unfold kernelRunC.sl.v430 kernelRunC.sl.H17_4
  rw [View.readCov_cons_toLoadRect]
  refine Eq.trans ?_ (rowsOf_q c tbl i sim x2 x3 (accOf c a12 a13 a14 a15 a16 a17) 3 (by decide)).symm
  unfold kernelRunC.sl.r_38 kernelRunC.sl.r_34
  simp only [S_v274 c i tbl hT sim b10, V17_3 c i M2 hM2 M3 hM3 tbl hT sim x2 x3 b9 b10 a12 a13 a14 a15 a16 a17]
  try rfl
theorem V15_5 : kernelRunC.sl.v505 c i M2 hM2 M3 hM3 tbl hT sim x2 x3 b9 b10 a15 = (rowsOf c tbl i sim x2 x3 (accOf c a12 a13 a14 a15 a16 a17) 5).nf := by
  unfold kernelRunC.sl.v505 kernelRunC.sl.H15_5
  rw [View.readCov_cons_toLoadRect]
  refine Eq.trans ?_ (rowsOf_nf c tbl i sim x2 x3 (accOf c a12 a13 a14 a15 a16 a17) 4 (by decide)).symm
  unfold kernelRunC.sl.r_45
  simp only [S_v359 c i tbl hT sim b9, V15_4 c i M2 hM2 M3 hM3 tbl hT sim x2 x3 b9 b10 a12 a13 a14 a15 a16 a17, in_read M2 hM2 x2 4 (by decide), mk_read M3 hM3 x3 4 (by decide)]
  try rfl
theorem V16_5 : kernelRunC.sl.v510 c i tbl hT sim b9 b10 a16 = (rowsOf c tbl i sim x2 x3 (accOf c a12 a13 a14 a15 a16 a17) 5).s := by
  unfold kernelRunC.sl.v510 kernelRunC.sl.H16_5
  rw [View.readCov_cons_toLoadRect]
  refine Eq.trans ?_ (rowsOf_s c tbl i sim x2 x3 (accOf c a12 a13 a14 a15 a16 a17) 4 (by decide)).symm
  unfold kernelRunC.sl.r_47
  simp only [S_v359 c i tbl hT sim b9, V16_4 c i M2 hM2 M3 hM3 tbl hT sim x2 x3 b9 b10 a12 a13 a14 a15 a16 a17]
  try rfl
theorem V17_5 : kernelRunC.sl.v515 c i tbl hT sim b9 b10 a17 = (rowsOf c tbl i sim x2 x3 (accOf c a12 a13 a14 a15 a16 a17) 5).q := by
  unfold kernelRunC.sl.v515 kernelRunC.sl.H17_5
  rw [View.readCov_cons_toLoadRect]
  refine Eq.trans ?_ (rowsOf_q c tbl i sim x2 x3 (accOf c a12 a13 a14 a15 a16 a17) 4 (by decide)).symm
  unfold kernelRunC.sl.r_48 kernelRunC.sl.r_43
  simp only [S_v359 c i tbl hT sim b9, V17_4 c i M2 hM2 M3 hM3 tbl hT sim x2 x3 b9 b10 a12 a13 a14 a15 a16 a17]
  try rfl
theorem V15_6 : kernelRunC.sl.v590 c i M2 hM2 M3 hM3 tbl hT sim x2 x3 b9 b10 a15 = (rowsOf c tbl i sim x2 x3 (accOf c a12 a13 a14 a15 a16 a17) 6).nf := by
  unfold kernelRunC.sl.v590 kernelRunC.sl.H15_6
  rw [View.readCov_cons_toLoadRect]
  refine Eq.trans ?_ (rowsOf_nf c tbl i sim x2 x3 (accOf c a12 a13 a14 a15 a16 a17) 5 (by decide)).symm
  unfold kernelRunC.sl.r_57 kernelRunC.sl.r_51 kernelRunC.sl.r_54
  simp only [S_v444 c i tbl hT sim b10, V15_5 c i M2 hM2 M3 hM3 tbl hT sim x2 x3 b9 b10 a12 a13 a14 a15 a16 a17, in_read M2 hM2 x2 5 (by decide), mk_read M3 hM3 x3 5 (by decide)]
  try rfl
theorem V16_6 : kernelRunC.sl.v595 c i tbl hT sim b9 b10 a16 = (rowsOf c tbl i sim x2 x3 (accOf c a12 a13 a14 a15 a16 a17) 6).s := by
  unfold kernelRunC.sl.v595 kernelRunC.sl.H16_6
  rw [View.readCov_cons_toLoadRect]
  refine Eq.trans ?_ (rowsOf_s c tbl i sim x2 x3 (accOf c a12 a13 a14 a15 a16 a17) 5 (by decide)).symm
  unfold kernelRunC.sl.r_55 kernelRunC.sl.r_53
  simp only [S_v444 c i tbl hT sim b10, V16_5 c i M2 hM2 M3 hM3 tbl hT sim x2 x3 b9 b10 a12 a13 a14 a15 a16 a17]
  try rfl
theorem V17_6 : kernelRunC.sl.v600 c i tbl hT sim b9 b10 a17 = (rowsOf c tbl i sim x2 x3 (accOf c a12 a13 a14 a15 a16 a17) 6).q := by
  unfold kernelRunC.sl.v600 kernelRunC.sl.H17_6
  rw [View.readCov_cons_toLoadRect]
  refine Eq.trans ?_ (rowsOf_q c tbl i sim x2 x3 (accOf c a12 a13 a14 a15 a16 a17) 5 (by decide)).symm
  unfold kernelRunC.sl.r_56 kernelRunC.sl.r_53
  simp only [S_v444 c i tbl hT sim b10, V17_5 c i M2 hM2 M3 hM3 tbl hT sim x2 x3 b9 b10 a12 a13 a14 a15 a16 a17]
  try rfl
theorem V15_7 : kernelRunC.sl.v675 c i M2 hM2 M3 hM3 tbl hT sim x2 x3 b9 b10 a15 = (rowsOf c tbl i sim x2 x3 (accOf c a12 a13 a14 a15 a16 a17) 7).nf := by
  unfold kernelRunC.sl.v675 kernelRunC.sl.H15_7
  rw [View.readCov_cons_toLoadRect]
  refine Eq.trans ?_ (rowsOf_nf c tbl i sim x2 x3 (accOf c a12 a13 a14 a15 a16 a17) 6 (by decide)).symm
  unfold kernelRunC.sl.r_63 kernelRunC.sl.r_60 kernelRunC.sl.r_61 kernelRunC.sl.cst_284
  simp only [S_v529 c i tbl hT sim b9, V15_6 c i M2 hM2 M3 hM3 tbl hT sim x2 x3 b9 b10 a12 a13 a14 a15 a16 a17, in_read M2 hM2 x2 6 (by decide), mk_read M3 hM3 x3 6 (by decide)]
  try rfl
theorem V16_7 : kernelRunC.sl.v680 c i tbl hT sim b9 b10 a16 = (rowsOf c tbl i sim x2 x3 (accOf c a12 a13 a14 a15 a16 a17) 7).s := by
  unfold kernelRunC.sl.v680 kernelRunC.sl.H16_7
  rw [View.readCov_cons_toLoadRect]
  refine Eq.trans ?_ (rowsOf_s c tbl i sim x2 x3 (accOf c a12 a13 a14 a15 a16 a17) 6 (by decide)).symm
  unfold kernelRunC.sl.r_64 kernelRunC.sl.cst_284
  simp only [S_v529 c i tbl hT sim b9, V16_6 c i M2 hM2 M3 hM3 tbl hT sim x2 x3 b9 b10 a12 a13 a14 a15 a16 a17]
  try rfl
theorem V17_7 : kernelRunC.sl.v685 c i tbl hT sim b9 b10 a17 = (rowsOf c tbl i sim x2 x3 (accOf c a12 a13 a14 a15 a16 a17) 7).q := by
  unfold kernelRunC.sl.v685 kernelRunC.sl.H17_7
  rw [View.readCov_cons_toLoadRect]
  refine Eq.trans ?_ (rowsOf_q c tbl i sim x2 x3 (accOf c a12 a13 a14 a15 a16 a17) 6 (by decide)).symm
  unfold kernelRunC.sl.r_65 kernelRunC.sl.cst_284
  simp only [S_v529 c i tbl hT sim b9, V17_6 c i M2 hM2 M3 hM3 tbl hT sim x2 x3 b9 b10 a12 a13 a14 a15 a16 a17]
  try rfl
theorem V15_8 : kernelRunC.sl.v760 c i M2 hM2 M3 hM3 tbl hT sim x2 x3 b9 b10 a15 = (rowsOf c tbl i sim x2 x3 (accOf c a12 a13 a14 a15 a16 a17) 8).nf := by
  unfold kernelRunC.sl.v760 kernelRunC.sl.H15_8
  rw [View.readCov_cons_toLoadRect]
  refine Eq.trans ?_ (rowsOf_nf c tbl i sim x2 x3 (accOf c a12 a13 a14 a15 a16 a17) 7 (by decide)).symm
  unfold kernelRunC.sl.r_72
  simp only [S_v614 c i tbl hT sim b10, V15_7 c i M2 hM2 M3 hM3 tbl hT sim x2 x3 b9 b10 a12 a13 a14 a15 a16 a17, in_read M2 hM2 x2 7 (by decide), mk_read M3 hM3 x3 7 (by decide)]
  try rfl
theorem V16_8 : kernelRunC.sl.v765 c i tbl hT sim b9 b10 a16 = (rowsOf c tbl i sim x2 x3 (accOf c a12 a13 a14 a15 a16 a17) 8).s := by
  unfold kernelRunC.sl.v765 kernelRunC.sl.H16_8
  rw [View.readCov_cons_toLoadRect]
  refine Eq.trans ?_ (rowsOf_s c tbl i sim x2 x3 (accOf c a12 a13 a14 a15 a16 a17) 7 (by decide)).symm
  unfold kernelRunC.sl.r_70
  simp only [S_v614 c i tbl hT sim b10, V16_7 c i M2 hM2 M3 hM3 tbl hT sim x2 x3 b9 b10 a12 a13 a14 a15 a16 a17]
  try rfl
theorem V17_8 : kernelRunC.sl.v770 c i tbl hT sim b9 b10 a17 = (rowsOf c tbl i sim x2 x3 (accOf c a12 a13 a14 a15 a16 a17) 8).q := by
  unfold kernelRunC.sl.v770 kernelRunC.sl.H17_8
  rw [View.readCov_cons_toLoadRect]
  refine Eq.trans ?_ (rowsOf_q c tbl i sim x2 x3 (accOf c a12 a13 a14 a15 a16 a17) 7 (by decide)).symm
  unfold kernelRunC.sl.r_74 kernelRunC.sl.r_70
  simp only [S_v614 c i tbl hT sim b10, V17_7 c i M2 hM2 M3 hM3 tbl hT sim x2 x3 b9 b10 a12 a13 a14 a15 a16 a17]
  try rfl
theorem V15_9 : kernelRunC.sl.v845 c i M2 hM2 M3 hM3 tbl hT sim x2 x3 b9 b10 a15 = (rowsOf c tbl i sim x2 x3 (accOf c a12 a13 a14 a15 a16 a17) 9).nf := by
  unfold kernelRunC.sl.v845 kernelRunC.sl.H15_9
  rw [View.readCov_cons_toLoadRect]
  refine Eq.trans ?_ (rowsOf_nf c tbl i sim x2 x3 (accOf c a12 a13 a14 a15 a16 a17) 8 (by decide)).symm
  unfold kernelRunC.sl.r_80 kernelRunC.sl.r_77 kernelRunC.sl.r_78 kernelRunC.sl.r_79
  simp only [S_v699 c i tbl hT sim b9, V15_8 c i M2 hM2 M3 hM3 tbl hT sim x2 x3 b9 b10 a12 a13 a14 a15 a16 a17, in_read M2 hM2 x2 8 (by decide), mk_read M3 hM3 x3 8 (by decide)]
  try rfl
theorem V16_9 : kernelRunC.sl.v850 c i tbl hT sim b9 b10 a16 = (rowsOf c tbl i sim x2 x3 (accOf c a12 a13 a14 a15 a16 a17) 9).s := by
  unfold kernelRunC.sl.v850 kernelRunC.sl.H16_9
  rw [View.readCov_cons_toLoadRect]
  refine Eq.trans ?_ (rowsOf_s c tbl i sim x2 x3 (accOf c a12 a13 a14 a15 a16 a17) 8 (by decide)).symm
  unfold kernelRunC.sl.r_81 kernelRunC.sl.r_79
  simp only [S_v699 c i tbl hT sim b9, V16_8 c i M2 hM2 M3 hM3 tbl hT sim x2 x3 b9 b10 a12 a13 a14 a15 a16 a17]
  try rfl
theorem V17_9 : kernelRunC.sl.v855 c i tbl hT sim b9 b10 a17 = (rowsOf c tbl i sim x2 x3 (accOf c a12 a13 a14 a15 a16 a17) 9).q := by
  unfold kernelRunC.sl.v855 kernelRunC.sl.H17_9
  rw [View.readCov_cons_toLoadRect]
  refine Eq.trans ?_ (rowsOf_q c tbl i sim x2 x3 (accOf c a12 a13 a14 a15 a16 a17) 8 (by decide)).symm
  unfold kernelRunC.sl.r_82 kernelRunC.sl.r_79
  simp only [S_v699 c i tbl hT sim b9, V17_8 c i M2 hM2 M3 hM3 tbl hT sim x2 x3 b9 b10 a12 a13 a14 a15 a16 a17]
  try rfl
theorem V15_10 : kernelRunC.sl.v930 c i M2 hM2 M3 hM3 tbl hT sim x2 x3 b9 b10 a15 = (rowsOf c tbl i sim x2 x3 (accOf c a12 a13 a14 a15 a16 a17) 10).nf := by
  unfold kernelRunC.sl.v930 kernelRunC.sl.H15_10
  rw [View.readCov_cons_toLoadRect]
  refine Eq.trans ?_ (rowsOf_nf c tbl i sim x2 x3 (accOf c a12 a13 a14 a15 a16 a17) 9 (by decide)).symm
  unfold kernelRunC.sl.r_88 kernelRunC.sl.r_84 kernelRunC.sl.r_85
  simp only [S_v784 c i tbl hT sim b10, V15_9 c i M2 hM2 M3 hM3 tbl hT sim x2 x3 b9 b10 a12 a13 a14 a15 a16 a17, in_read M2 hM2 x2 9 (by decide), mk_read M3 hM3 x3 9 (by decide)]
  try rfl
theorem V16_10 : kernelRunC.sl.v935 c i tbl hT sim b9 b10 a16 = (rowsOf c tbl i sim x2 x3 (accOf c a12 a13 a14 a15 a16 a17) 10).s := by
  unfold kernelRunC.sl.v935 kernelRunC.sl.H16_10
  rw [View.readCov_cons_toLoadRect]
  refine Eq.trans ?_ (rowsOf_s c tbl i sim x2 x3 (accOf c a12 a13 a14 a15 a16 a17) 9 (by decide)).symm
  unfold kernelRunC.sl.r_90
  simp only [S_v784 c i tbl hT sim b10, V16_9 c i M2 hM2 M3 hM3 tbl hT sim x2 x3 b9 b10 a12 a13 a14 a15 a16 a17]
  try rfl
theorem V17_10 : kernelRunC.sl.v940 c i tbl hT sim b9 b10 a17 = (rowsOf c tbl i sim x2 x3 (accOf c a12 a13 a14 a15 a16 a17) 10).q := by
  unfold kernelRunC.sl.v940 kernelRunC.sl.H17_10
  rw [View.readCov_cons_toLoadRect]
  refine Eq.trans ?_ (rowsOf_q c tbl i sim x2 x3 (accOf c a12 a13 a14 a15 a16 a17) 9 (by decide)).symm
  unfold kernelRunC.sl.r_91
  simp only [S_v784 c i tbl hT sim b10, V17_9 c i M2 hM2 M3 hM3 tbl hT sim x2 x3 b9 b10 a12 a13 a14 a15 a16 a17]
  try rfl
theorem V15_11 : kernelRunC.sl.v1015 c i M2 hM2 M3 hM3 tbl hT sim x2 x3 b9 b10 a15 = (rowsOf c tbl i sim x2 x3 (accOf c a12 a13 a14 a15 a16 a17) 11).nf := by
  unfold kernelRunC.sl.v1015 kernelRunC.sl.H15_11
  rw [View.readCov_cons_toLoadRect]
  refine Eq.trans ?_ (rowsOf_nf c tbl i sim x2 x3 (accOf c a12 a13 a14 a15 a16 a17) 10 (by decide)).symm
  unfold kernelRunC.sl.r_97
  simp only [S_v869 c i tbl hT sim b9, V15_10 c i M2 hM2 M3 hM3 tbl hT sim x2 x3 b9 b10 a12 a13 a14 a15 a16 a17, in_read M2 hM2 x2 10 (by decide), mk_read M3 hM3 x3 10 (by decide)]
  try rfl
theorem V16_11 : kernelRunC.sl.v1020 c i tbl hT sim b9 b10 a16 = (rowsOf c tbl i sim x2 x3 (accOf c a12 a13 a14 a15 a16 a17) 11).s := by
  unfold kernelRunC.sl.v1020 kernelRunC.sl.H16_11
  rw [View.readCov_cons_toLoadRect]
  refine Eq.trans ?_ (rowsOf_s c tbl i sim x2 x3 (accOf c a12 a13 a14 a15 a16 a17) 10 (by decide)).symm
  unfold kernelRunC.sl.r_100 kernelRunC.sl.r_95
  simp only [S_v869 c i tbl hT sim b9, V16_10 c i M2 hM2 M3 hM3 tbl hT sim x2 x3 b9 b10 a12 a13 a14 a15 a16 a17]
  try rfl
theorem V17_11 : kernelRunC.sl.v1025 c i tbl hT sim b9 b10 a17 = (rowsOf c tbl i sim x2 x3 (accOf c a12 a13 a14 a15 a16 a17) 11).q := by
  unfold kernelRunC.sl.v1025 kernelRunC.sl.H17_11
  rw [View.readCov_cons_toLoadRect]
  refine Eq.trans ?_ (rowsOf_q c tbl i sim x2 x3 (accOf c a12 a13 a14 a15 a16 a17) 10 (by decide)).symm
  unfold kernelRunC.sl.r_99 kernelRunC.sl.r_95
  simp only [S_v869 c i tbl hT sim b9, V17_10 c i M2 hM2 M3 hM3 tbl hT sim x2 x3 b9 b10 a12 a13 a14 a15 a16 a17]
  try rfl
theorem V15_12 : kernelRunC.sl.v1100 c i M2 hM2 M3 hM3 tbl hT sim x2 x3 b9 b10 a15 = (rowsOf c tbl i sim x2 x3 (accOf c a12 a13 a14 a15 a16 a17) 12).nf := by
  unfold kernelRunC.sl.v1100 kernelRunC.sl.H15_12
  rw [View.readCov_cons_toLoadRect]
  refine Eq.trans ?_ (rowsOf_nf c tbl i sim x2 x3 (accOf c a12 a13 a14 a15 a16 a17) 11 (by decide)).symm
  unfold kernelRunC.sl.r_107 kernelRunC.sl.r_103 kernelRunC.sl.r_104 kernelRunC.sl.r_105 kernelRunC.sl.r_106
  simp only [V15_11 c i M2 hM2 M3 hM3 tbl hT sim x2 x3 b9 b10 a12 a13 a14 a15 a16 a17, S_v954 c i tbl hT sim b10, in_read M2 hM2 x2 11 (by decide), mk_read M3 hM3 x3 11 (by decide)]
  try rfl
theorem V16_12 : kernelRunC.sl.v1105 c i tbl hT sim b9 b10 a16 = (rowsOf c tbl i sim x2 x3 (accOf c a12 a13 a14 a15 a16 a17) 12).s := by
  unfold kernelRunC.sl.v1105 kernelRunC.sl.H16_12
  rw [View.readCov_cons_toLoadRect]
  refine Eq.trans ?_ (rowsOf_s c tbl i sim x2 x3 (accOf c a12 a13 a14 a15 a16 a17) 11 (by decide)).symm
  unfold kernelRunC.sl.r_108 kernelRunC.sl.r_105 kernelRunC.sl.r_106
  simp only [V16_11 c i M2 hM2 M3 hM3 tbl hT sim x2 x3 b9 b10 a12 a13 a14 a15 a16 a17, S_v954 c i tbl hT sim b10]
  try rfl
theorem V17_12 : kernelRunC.sl.v1110 c i tbl hT sim b9 b10 a17 = (rowsOf c tbl i sim x2 x3 (accOf c a12 a13 a14 a15 a16 a17) 12).q := by
  unfold kernelRunC.sl.v1110 kernelRunC.sl.H17_12
  rw [View.readCov_cons_toLoadRect]
  refine Eq.trans ?_ (rowsOf_q c tbl i sim x2 x3 (accOf c a12 a13 a14 a15 a16 a17) 11 (by decide)).symm
  unfold kernelRunC.sl.r_109 kernelRunC.sl.r_105 kernelRunC.sl.r_106
  simp only [V17_11 c i M2 hM2 M3 hM3 tbl hT sim x2 x3 b9 b10 a12 a13 a14 a15 a16 a17, S_v954 c i tbl hT sim b10]
  try rfl
theorem V15_13 : kernelRunC.sl.v1185 c i M2 hM2 M3 hM3 tbl hT sim x2 x3 b9 b10 a15 = (rowsOf c tbl i sim x2 x3 (accOf c a12 a13 a14 a15 a16 a17) 13).nf := by
  unfold kernelRunC.sl.v1185 kernelRunC.sl.H15_13
  rw [View.readCov_cons_toLoadRect]
  refine Eq.trans ?_ (rowsOf_nf c tbl i sim x2 x3 (accOf c a12 a13 a14 a15 a16 a17) 12 (by decide)).symm
  unfold kernelRunC.sl.r_117 kernelRunC.sl.r_112 kernelRunC.sl.r_113
  simp only [S_v1039 c i tbl hT sim b9, V15_12 c i M2 hM2 M3 hM3 tbl hT sim x2 x3 b9 b10 a12 a13 a14 a15 a16 a17, in_read M2 hM2 x2 12 (by decide), mk_read M3 hM3 x3 12 (by decide)]
  try rfl
theorem V16_13 : kernelRunC.sl.v1190 c i tbl hT sim b9 b10 a16 = (rowsOf c tbl i sim x2 x3 (accOf c a12 a13 a14 a15 a16 a17) 13).s := by
  unfold kernelRunC.sl.v1190 kernelRunC.sl.H16_13
  rw [View.readCov_cons_toLoadRect]
  refine Eq.trans ?_ (rowsOf_s c tbl i sim x2 x3 (accOf c a12 a13 a14 a15 a16 a17) 12 (by decide)).symm
  unfold kernelRunC.sl.r_119
  simp only [S_v1039 c i tbl hT sim b9, V16_12 c i M2 hM2 M3 hM3 tbl hT sim x2 x3 b9 b10 a12 a13 a14 a15 a16 a17]
  try rfl
theorem V17_13 : kernelRunC.sl.v1195 c i tbl hT sim b9 b10 a17 = (rowsOf c tbl i sim x2 x3 (accOf c a12 a13 a14 a15 a16 a17) 13).q := by
  unfold kernelRunC.sl.v1195 kernelRunC.sl.H17_13
  rw [View.readCov_cons_toLoadRect]
  refine Eq.trans ?_ (rowsOf_q c tbl i sim x2 x3 (accOf c a12 a13 a14 a15 a16 a17) 12 (by decide)).symm
  unfold kernelRunC.sl.r_120
  simp only [S_v1039 c i tbl hT sim b9, V17_12 c i M2 hM2 M3 hM3 tbl hT sim x2 x3 b9 b10 a12 a13 a14 a15 a16 a17]
  try rfl
theorem V15_14 : kernelRunC.sl.v1270 c i M2 hM2 M3 hM3 tbl hT sim x2 x3 b9 b10 a15 = (rowsOf c tbl i sim x2 x3 (accOf c a12 a13 a14 a15 a16 a17) 14).nf := by
  unfold kernelRunC.sl.v1270 kernelRunC.sl.H15_14
  rw [View.readCov_cons_toLoadRect]
  refine Eq.trans ?_ (rowsOf_nf c tbl i sim x2 x3 (accOf c a12 a13 a14 a15 a16 a17) 13 (by decide)).symm
  unfold kernelRunC.sl.r_128
  simp only [S_v1124 c i tbl hT sim b10, V15_13 c i M2 hM2 M3 hM3 tbl hT sim x2 x3 b9 b10 a12 a13 a14 a15 a16 a17, in_read M2 hM2 x2 13 (by decide), mk_read M3 hM3 x3 13 (by decide)]
  try rfl
theorem V16_14 : kernelRunC.sl.v1275 c i tbl hT sim b9 b10 a16 = (rowsOf c tbl i sim x2 x3 (accOf c a12 a13 a14 a15 a16 a17) 14).s := by
  unfold kernelRunC.sl.v1275 kernelRunC.sl.H16_14
  rw [View.readCov_cons_toLoadRect]
  refine Eq.trans ?_ (rowsOf_s c tbl i sim x2 x3 (accOf c a12 a13 a14 a15 a16 a17) 13 (by decide)).symm
  unfold kernelRunC.sl.r_131 kernelRunC.sl.r_126
  simp only [S_v1124 c i tbl hT sim b10, V16_13 c i M2 hM2 M3 hM3 tbl hT sim x2 x3 b9 b10 a12 a13 a14 a15 a16 a17]
  try rfl
theorem V17_14 : kernelRunC.sl.v1280 c i tbl hT sim b9 b10 a17 = (rowsOf c tbl i sim x2 x3 (accOf c a12 a13 a14 a15 a16 a17) 14).q := by
  unfold kernelRunC.sl.v1280 kernelRunC.sl.H17_14
  rw [View.readCov_cons_toLoadRect]
  refine Eq.trans ?_ (rowsOf_q c tbl i sim x2 x3 (accOf c a12 a13 a14 a15 a16 a17) 13 (by decide)).symm
  unfold kernelRunC.sl.r_130 kernelRunC.sl.r_126
  simp only [S_v1124 c i tbl hT sim b10, V17_13 c i M2 hM2 M3 hM3 tbl hT sim x2 x3 b9 b10 a12 a13 a14 a15 a16 a17]
  try rfl
theorem V15_15 : kernelRunC.sl.v1355 c i M2 hM2 M3 hM3 tbl hT sim x2 x3 b9 b10 a15 = (rowsOf c tbl i sim x2 x3 (accOf c a12 a13 a14 a15 a16 a17) 15).nf := by
  unfold kernelRunC.sl.v1355 kernelRunC.sl.H15_15
  rw [View.readCov_cons_toLoadRect]
  refine Eq.trans ?_ (rowsOf_nf c tbl i sim x2 x3 (accOf c a12 a13 a14 a15 a16 a17) 14 (by decide)).symm
  unfold kernelRunC.sl.r_138 kernelRunC.sl.r_134 kernelRunC.sl.r_135 kernelRunC.sl.r_136 kernelRunC.sl.r_137
  simp only [S_v1209 c i tbl hT sim b9, V15_14 c i M2 hM2 M3 hM3 tbl hT sim x2 x3 b9 b10 a12 a13 a14 a15 a16 a17, in_read M2 hM2 x2 14 (by decide), mk_read M3 hM3 x3 14 (by decide)]
  try rfl
theorem V16_15 : kernelRunC.sl.v1360 c i tbl hT sim b9 b10 a16 = (rowsOf c tbl i sim x2 x3 (accOf c a12 a13 a14 a15 a16 a17) 15).s := by
  unfold kernelRunC.sl.v1360 kernelRunC.sl.H16_15
  rw [View.readCov_cons_toLoadRect]
  refine Eq.trans ?_ (rowsOf_s c tbl i sim x2 x3 (accOf c a12 a13 a14 a15 a16 a17) 14 (by decide)).symm
  unfold kernelRunC.sl.r_139 kernelRunC.sl.r_136 kernelRunC.sl.r_137
  simp only [S_v1209 c i tbl hT sim b9, V16_14 c i M2 hM2 M3 hM3 tbl hT sim x2 x3 b9 b10 a12 a13 a14 a15 a16 a17]
  try rfl
theorem V17_15 : kernelRunC.sl.v1365 c i tbl hT sim b9 b10 a17 = (rowsOf c tbl i sim x2 x3 (accOf c a12 a13 a14 a15 a16 a17) 15).q := by
  unfold kernelRunC.sl.v1365 kernelRunC.sl.H17_15
  rw [View.readCov_cons_toLoadRect]
  refine Eq.trans ?_ (rowsOf_q c tbl i sim x2 x3 (accOf c a12 a13 a14 a15 a16 a17) 14 (by decide)).symm
  unfold kernelRunC.sl.r_140 kernelRunC.sl.r_136 kernelRunC.sl.r_137
  simp only [S_v1209 c i tbl hT sim b9, V17_14 c i M2 hM2 M3 hM3 tbl hT sim x2 x3 b9 b10 a12 a13 a14 a15 a16 a17]
  try rfl
theorem V15_16 : kernelRunC.sl.v1440 c i M2 hM2 M3 hM3 tbl hT sim x2 x3 b9 b10 a15 = (rowsOf c tbl i sim x2 x3 (accOf c a12 a13 a14 a15 a16 a17) 16).nf := by
  unfold kernelRunC.sl.v1440 kernelRunC.sl.H15_16
  rw [View.readCov_cons_toLoadRect]
  refine Eq.trans ?_ (rowsOf_nf c tbl i sim x2 x3 (accOf c a12 a13 a14 a15 a16 a17) 15 (by decide)).symm
  unfold kernelRunC.sl.r_147 kernelRunC.sl.r_143
  simp only [S_v1294 c i tbl hT sim b10, V15_15 c i M2 hM2 M3 hM3 tbl hT sim x2 x3 b9 b10 a12 a13 a14 a15 a16 a17, in_read M2 hM2 x2 15 (by decide), mk_read M3 hM3 x3 15 (by decide)]
  try rfl
theorem V16_16 : kernelRunC.sl.v1445 c i tbl hT sim b9 b10 a16 = (rowsOf c tbl i sim x2 x3 (accOf c a12 a13 a14 a15 a16 a17) 16).s := by
  unfold kernelRunC.sl.v1445 kernelRunC.sl.H16_16
  rw [View.readCov_cons_toLoadRect]
  refine Eq.trans ?_ (rowsOf_s c tbl i sim x2 x3 (accOf c a12 a13 a14 a15 a16 a17) 15 (by decide)).symm
  unfold kernelRunC.sl.r_149
  simp only [S_v1294 c i tbl hT sim b10, V16_15 c i M2 hM2 M3 hM3 tbl hT sim x2 x3 b9 b10 a12 a13 a14 a15 a16 a17]
  try rfl
theorem V17_16 : kernelRunC.sl.v1450 c i tbl hT sim b9 b10 a17 = (rowsOf c tbl i sim x2 x3 (accOf c a12 a13 a14 a15 a16 a17) 16).q := by
  unfold kernelRunC.sl.v1450 kernelRunC.sl.H17_16
  rw [View.readCov_cons_toLoadRect]
  refine Eq.trans ?_ (rowsOf_q c tbl i sim x2 x3 (accOf c a12 a13 a14 a15 a16 a17) 15 (by decide)).symm
  unfold kernelRunC.sl.r_150
  simp only [S_v1294 c i tbl hT sim b10, V17_15 c i M2 hM2 M3 hM3 tbl hT sim x2 x3 b9 b10 a12 a13 a14 a15 a16 a17]
  try rfl
theorem V15_17 : kernelRunC.sl.v1525 c i M2 hM2 M3 hM3 tbl hT sim x2 x3 b9 b10 a15 = (rowsOf c tbl i sim x2 x3 (accOf c a12 a13 a14 a15 a16 a17) 17).nf := by
  unfold kernelRunC.sl.v1525 kernelRunC.sl.H15_17
  rw [View.readCov_cons_toLoadRect]
  refine Eq.trans ?_ (rowsOf_nf c tbl i sim x2 x3 (accOf c a12 a13 a14 a15 a16 a17) 16 (by decide)).symm
  unfold kernelRunC.sl.r_158
  simp only [S_v1379 c i tbl hT sim b9, V15_16 c i M2 hM2 M3 hM3 tbl hT sim x2 x3 b9 b10 a12 a13 a14 a15 a16 a17, in_read M2 hM2 x2 16 (by decide), mk_read M3 hM3 x3 16 (by decide)]
  try rfl
theorem V16_17 : kernelRunC.sl.v1530 c i tbl hT sim b9 b10 a16 = (rowsOf c tbl i sim x2 x3 (accOf c a12 a13 a14 a15 a16 a17) 17).s := by
  unfold kernelRunC.sl.v1530 kernelRunC.sl.H16_17
  rw [View.readCov_cons_toLoadRect]
  refine Eq.trans ?_ (rowsOf_s c tbl i sim x2 x3 (accOf c a12 a13 a14 a15 a16 a17) 16 (by decide)).symm
  unfold kernelRunC.sl.r_159 kernelRunC.sl.r_156
  simp only [S_v1379 c i tbl hT sim b9, V16_16 c i M2 hM2 M3 hM3 tbl hT sim x2 x3 b9 b10 a12 a13 a14 a15 a16 a17]
  try rfl
theorem V17_17 : kernelRunC.sl.v1535 c i tbl hT sim b9 b10 a17 = (rowsOf c tbl i sim x2 x3 (accOf c a12 a13 a14 a15 a16 a17) 17).q := by
  unfold kernelRunC.sl.v1535 kernelRunC.sl.H17_17
  rw [View.readCov_cons_toLoadRect]
  refine Eq.trans ?_ (rowsOf_q c tbl i sim x2 x3 (accOf c a12 a13 a14 a15 a16 a17) 16 (by decide)).symm
  unfold kernelRunC.sl.r_160 kernelRunC.sl.r_156
  simp only [S_v1379 c i tbl hT sim b9, V17_16 c i M2 hM2 M3 hM3 tbl hT sim x2 x3 b9 b10 a12 a13 a14 a15 a16 a17]
  try rfl
theorem V15_18 : kernelRunC.sl.v1610 c i M2 hM2 M3 hM3 tbl hT sim x2 x3 b9 b10 a15 = (rowsOf c tbl i sim x2 x3 (accOf c a12 a13 a14 a15 a16 a17) 18).nf := by
  unfold kernelRunC.sl.v1610 kernelRunC.sl.H15_18
  rw [View.readCov_cons_toLoadRect]
  refine Eq.trans ?_ (rowsOf_nf c tbl i sim x2 x3 (accOf c a12 a13 a14 a15 a16 a17) 17 (by decide)).symm
  unfold kernelRunC.sl.r_168 kernelRunC.sl.r_163 kernelRunC.sl.r_164 kernelRunC.sl.r_165 kernelRunC.sl.r_166 kernelRunC.sl.cst_781
  simp only [S_v1464 c i tbl hT sim b10, V15_17 c i M2 hM2 M3 hM3 tbl hT sim x2 x3 b9 b10 a12 a13 a14 a15 a16 a17, in_read M2 hM2 x2 17 (by decide), mk_read M3 hM3 x3 17 (by decide)]
  try rfl
theorem V16_18 : kernelRunC.sl.v1615 c i tbl hT sim b9 b10 a16 = (rowsOf c tbl i sim x2 x3 (accOf c a12 a13 a14 a15 a16 a17) 18).s := by
  unfold kernelRunC.sl.v1615 kernelRunC.sl.H16_18
  rw [View.readCov_cons_toLoadRect]
  refine Eq.trans ?_ (rowsOf_s c tbl i sim x2 x3 (accOf c a12 a13 a14 a15 a16 a17) 17 (by decide)).symm
  unfold kernelRunC.sl.r_169 kernelRunC.sl.r_165 kernelRunC.sl.r_166 kernelRunC.sl.cst_781
  simp only [S_v1464 c i tbl hT sim b10, V16_17 c i M2 hM2 M3 hM3 tbl hT sim x2 x3 b9 b10 a12 a13 a14 a15 a16 a17]
  try rfl
theorem V17_18 : kernelRunC.sl.v1620 c i tbl hT sim b9 b10 a17 = (rowsOf c tbl i sim x2 x3 (accOf c a12 a13 a14 a15 a16 a17) 18).q := by
  unfold kernelRunC.sl.v1620 kernelRunC.sl.H17_18
  rw [View.readCov_cons_toLoadRect]
  refine Eq.trans ?_ (rowsOf_q c tbl i sim x2 x3 (accOf c a12 a13 a14 a15 a16 a17) 17 (by decide)).symm
  unfold kernelRunC.sl.r_170 kernelRunC.sl.r_165 kernelRunC.sl.r_166 kernelRunC.sl.cst_781
  simp only [S_v1464 c i tbl hT sim b10, V17_17 c i M2 hM2 M3 hM3 tbl hT sim x2 x3 b9 b10 a12 a13 a14 a15 a16 a17]
  try rfl
theorem V15_19 : kernelRunC.sl.v1695 c i M2 hM2 M3 hM3 tbl hT sim x2 x3 b9 b10 a15 = (rowsOf c tbl i sim x2 x3 (accOf c a12 a13 a14 a15 a16 a17) 19).nf := by
  unfold kernelRunC.sl.v1695 kernelRunC.sl.H15_19
  rw [View.readCov_cons_toLoadRect]
  refine Eq.trans ?_ (rowsOf_nf c tbl i sim x2 x3 (accOf c a12 a13 a14 a15 a16 a17) 18 (by decide)).symm
  unfold kernelRunC.sl.r_175
  simp only [S_v c i tbl hT sim b9, V15_18 c i M2 hM2 M3 hM3 tbl hT sim x2 x3 b9 b10 a12 a13 a14 a15 a16 a17, in_read M2 hM2 x2 18 (by decide), mk_read M3 hM3 x3 18 (by decide)]
  try rfl
theorem V16_19 : kernelRunC.sl.v1700 c i tbl hT sim b9 b10 a16 = (rowsOf c tbl i sim x2 x3 (accOf c a12 a13 a14 a15 a16 a17) 19).s := by
  unfold kernelRunC.sl.v1700 kernelRunC.sl.H16_19
  rw [View.readCov_cons_toLoadRect]
  refine Eq.trans ?_ (rowsOf_s c tbl i sim x2 x3 (accOf c a12 a13 a14 a15 a16 a17) 18 (by decide)).symm
  unfold kernelRunC.sl.r_177
  simp only [S_v c i tbl hT sim b9, V16_18 c i M2 hM2 M3 hM3 tbl hT sim x2 x3 b9 b10 a12 a13 a14 a15 a16 a17]
  try rfl
theorem V17_19 : kernelRunC.sl.v1705 c i tbl hT sim b9 b10 a17 = (rowsOf c tbl i sim x2 x3 (accOf c a12 a13 a14 a15 a16 a17) 19).q := by
  unfold kernelRunC.sl.v1705 kernelRunC.sl.H17_19
  rw [View.readCov_cons_toLoadRect]
  refine Eq.trans ?_ (rowsOf_q c tbl i sim x2 x3 (accOf c a12 a13 a14 a15 a16 a17) 18 (by decide)).symm
  unfold kernelRunC.sl.r_178
  simp only [S_v c i tbl hT sim b9, V17_18 c i M2 hM2 M3 hM3 tbl hT sim x2 x3 b9 b10 a12 a13 a14 a15 a16 a17]
  try rfl
theorem V15_20 : kernelRunC.sl.v1780 c i M2 hM2 M3 hM3 tbl hT sim x2 x3 b9 b10 a15 = (rowsOf c tbl i sim x2 x3 (accOf c a12 a13 a14 a15 a16 a17) 20).nf := by
  unfold kernelRunC.sl.v1780 kernelRunC.sl.H15_20
  rw [View.readCov_cons_toLoadRect]
  refine Eq.trans ?_ (rowsOf_nf c tbl i sim x2 x3 (accOf c a12 a13 a14 a15 a16 a17) 19 (by decide)).symm
  unfold kernelRunC.sl.r_185
  simp only [S_v1634 c i tbl hT sim b10, V15_19 c i M2 hM2 M3 hM3 tbl hT sim x2 x3 b9 b10 a12 a13 a14 a15 a16 a17, in_read M2 hM2 x2 19 (by decide), mk_read M3 hM3 x3 19 (by decide)]
  try rfl
theorem V16_20 : kernelRunC.sl.v1785 c i tbl hT sim b9 b10 a16 = (rowsOf c tbl i sim x2 x3 (accOf c a12 a13 a14 a15 a16 a17) 20).s := by
  unfold kernelRunC.sl.v1785 kernelRunC.sl.H16_20
  rw [View.readCov_cons_toLoadRect]
  refine Eq.trans ?_ (rowsOf_s c tbl i sim x2 x3 (accOf c a12 a13 a14 a15 a16 a17) 19 (by decide)).symm
  unfold kernelRunC.sl.r_186 kernelRunC.sl.r_183
  simp only [S_v1634 c i tbl hT sim b10, V16_19 c i M2 hM2 M3 hM3 tbl hT sim x2 x3 b9 b10 a12 a13 a14 a15 a16 a17]
  try rfl
theorem V17_20 : kernelRunC.sl.v1790 c i tbl hT sim b9 b10 a17 = (rowsOf c tbl i sim x2 x3 (accOf c a12 a13 a14 a15 a16 a17) 20).q := by
  unfold kernelRunC.sl.v1790 kernelRunC.sl.H17_20
  rw [View.readCov_cons_toLoadRect]
  refine Eq.trans ?_ (rowsOf_q c tbl i sim x2 x3 (accOf c a12 a13 a14 a15 a16 a17) 19 (by decide)).symm
  unfold kernelRunC.sl.r_187 kernelRunC.sl.r_183
  simp only [S_v1634 c i tbl hT sim b10, V17_19 c i M2 hM2 M3 hM3 tbl hT sim x2 x3 b9 b10 a12 a13 a14 a15 a16 a17]
  try rfl
theorem V15_21 : kernelRunC.sl.v1865 c i M2 hM2 M3 hM3 tbl hT sim x2 x3 b9 b10 a15 = (rowsOf c tbl i sim x2 x3 (accOf c a12 a13 a14 a15 a16 a17) 21).nf := by
  unfold kernelRunC.sl.v1865 kernelRunC.sl.H15_21
  rw [View.readCov_cons_toLoadRect]
  refine Eq.trans ?_ (rowsOf_nf c tbl i sim x2 x3 (accOf c a12 a13 a14 a15 a16 a17) 20 (by decide)).symm
  unfold kernelRunC.sl.r_194 kernelRunC.sl.r_190 kernelRunC.sl.r_191 kernelRunC.sl.r_192 kernelRunC.sl.cst_15
  simp only [S_v1719 c i tbl hT sim b9, V15_20 c i M2 hM2 M3 hM3 tbl hT sim x2 x3 b9 b10 a12 a13 a14 a15 a16 a17, in_read M2 hM2 x2 20 (by decide), mk_read M3 hM3 x3 20 (by decide)]
  try rfl
theorem V16_21 : kernelRunC.sl.v1870 c i tbl hT sim b9 b10 a16 = (rowsOf c tbl i sim x2 x3 (accOf c a12 a13 a14 a15 a16 a17) 21).s := by
  unfold kernelRunC.sl.v1870 kernelRunC.sl.H16_21
  rw [View.readCov_cons_toLoadRect]
  refine Eq.trans ?_ (rowsOf_s c tbl i sim x2 x3 (accOf c a12 a13 a14 a15 a16 a17) 20 (by decide)).symm
  unfold kernelRunC.sl.r_195 kernelRunC.sl.r_192 kernelRunC.sl.cst_15
  simp only [S_v1719 c i tbl hT sim b9, V16_20 c i M2 hM2 M3 hM3 tbl hT sim x2 x3 b9 b10 a12 a13 a14 a15 a16 a17]
  try rfl
theorem V17_21 : kernelRunC.sl.v1875 c i tbl hT sim b9 b10 a17 = (rowsOf c tbl i sim x2 x3 (accOf c a12 a13 a14 a15 a16 a17) 21).q := by
  unfold kernelRunC.sl.v1875 kernelRunC.sl.H17_21
  rw [View.readCov_cons_toLoadRect]
  refine Eq.trans ?_ (rowsOf_q c tbl i sim x2 x3 (accOf c a12 a13 a14 a15 a16 a17) 20 (by decide)).symm
  unfold kernelRunC.sl.r_196 kernelRunC.sl.r_192 kernelRunC.sl.cst_15
  simp only [S_v1719 c i tbl hT sim b9, V17_20 c i M2 hM2 M3 hM3 tbl hT sim x2 x3 b9 b10 a12 a13 a14 a15 a16 a17]
  try rfl
theorem V15_22 : kernelRunC.sl.v1950 c i M2 hM2 M3 hM3 tbl hT sim x2 x3 b9 b10 a15 = (rowsOf c tbl i sim x2 x3 (accOf c a12 a13 a14 a15 a16 a17) 22).nf := by
  unfold kernelRunC.sl.v1950 kernelRunC.sl.H15_22
  rw [View.readCov_cons_toLoadRect]
  refine Eq.trans ?_ (rowsOf_nf c tbl i sim x2 x3 (accOf c a12 a13 a14 a15 a16 a17) 21 (by decide)).symm
  unfold kernelRunC.sl.r_202
  simp only [S_v1804 c i tbl hT sim b10, V15_21 c i M2 hM2 M3 hM3 tbl hT sim x2 x3 b9 b10 a12 a13 a14 a15 a16 a17, in_read M2 hM2 x2 21 (by decide), mk_read M3 hM3 x3 21 (by decide)]
  try rfl
theorem V16_22 : kernelRunC.sl.v1955 c i tbl hT sim b9 b10 a16 = (rowsOf c tbl i sim x2 x3 (accOf c a12 a13 a14 a15 a16 a17) 22).s := by
  unfold kernelRunC.sl.v1955 kernelRunC.sl.H16_22
  rw [View.readCov_cons_toLoadRect]
  refine Eq.trans ?_ (rowsOf_s c tbl i sim x2 x3 (accOf c a12 a13 a14 a15 a16 a17) 21 (by decide)).symm
  unfold kernelRunC.sl.r_204
  simp only [S_v1804 c i tbl hT sim b10, V16_21 c i M2 hM2 M3 hM3 tbl hT sim x2 x3 b9 b10 a12 a13 a14 a15 a16 a17]
  try rfl
theorem V17_22 : kernelRunC.sl.v1960 c i tbl hT sim b9 b10 a17 = (rowsOf c tbl i sim x2 x3 (accOf c a12 a13 a14 a15 a16 a17) 22).q := by
  unfold kernelRunC.sl.v1960 kernelRunC.sl.H17_22
  rw [View.readCov_cons_toLoadRect]
  refine Eq.trans ?_ (rowsOf_q c tbl i sim x2 x3 (accOf c a12 a13 a14 a15 a16 a17) 21 (by decide)).symm
  unfold kernelRunC.sl.r_206 kernelRunC.sl.r_205
  simp only [S_v1804 c i tbl hT sim b10, V17_21 c i M2 hM2 M3 hM3 tbl hT sim x2 x3 b9 b10 a12 a13 a14 a15 a16 a17]
  try rfl
theorem V15_23 : kernelRunC.sl.v2035 c i M2 hM2 M3 hM3 tbl hT sim x2 x3 b9 b10 a15 = (rowsOf c tbl i sim x2 x3 (accOf c a12 a13 a14 a15 a16 a17) 23).nf := by
  unfold kernelRunC.sl.v2035 kernelRunC.sl.H15_23
  rw [View.readCov_cons_toLoadRect]
  refine Eq.trans ?_ (rowsOf_nf c tbl i sim x2 x3 (accOf c a12 a13 a14 a15 a16 a17) 22 (by decide)).symm
  unfold kernelRunC.sl.r_216 kernelRunC.sl.r_209 kernelRunC.sl.r_212 kernelRunC.sl.cst_109
  simp only [S_v1889 c i tbl hT sim b9, V15_22 c i M2 hM2 M3 hM3 tbl hT sim x2 x3 b9 b10 a12 a13 a14 a15 a16 a17, in_read M2 hM2 x2 22 (by decide), mk_read M3 hM3 x3 22 (by decide)]
  try rfl
theorem V16_23 : kernelRunC.sl.v2040 c i tbl hT sim b9 b10 a16 = (rowsOf c tbl i sim x2 x3 (accOf c a12 a13 a14 a15 a16 a17) 23).s := by
  unfold kernelRunC.sl.v2040 kernelRunC.sl.H16_23
  rw [View.readCov_cons_toLoadRect]
  refine Eq.trans ?_ (rowsOf_s c tbl i sim x2 x3 (accOf c a12 a13 a14 a15 a16 a17) 22 (by decide)).symm
  unfold kernelRunC.sl.r_214 kernelRunC.sl.r_211
  simp only [S_v1889 c i tbl hT sim b9, V16_22 c i M2 hM2 M3 hM3 tbl hT sim x2 x3 b9 b10 a12 a13 a14 a15 a16 a17]
  try rfl
theorem V17_23 : kernelRunC.sl.v2045 c i tbl hT sim b9 b10 a17 = (rowsOf c tbl i sim x2 x3 (accOf c a12 a13 a14 a15 a16 a17) 23).q := by
  unfold kernelRunC.sl.v2045 kernelRunC.sl.H17_23
  rw [View.readCov_cons_toLoadRect]
  refine Eq.trans ?_ (rowsOf_q c tbl i sim x2 x3 (accOf c a12 a13 a14 a15 a16 a17) 22 (by decide)).symm
  unfold kernelRunC.sl.r_215 kernelRunC.sl.r_211
  simp only [S_v1889 c i tbl hT sim b9, V17_22 c i M2 hM2 M3 hM3 tbl hT sim x2 x3 b9 b10 a12 a13 a14 a15 a16 a17]
  try rfl
theorem V15_24 : kernelRunC.sl.v2120 c i M2 hM2 M3 hM3 tbl hT sim x2 x3 b9 b10 a15 = (rowsOf c tbl i sim x2 x3 (accOf c a12 a13 a14 a15 a16 a17) 24).nf := by
  unfold kernelRunC.sl.v2120 kernelRunC.sl.H15_24
  rw [View.readCov_cons_toLoadRect]
  refine Eq.trans ?_ (rowsOf_nf c tbl i sim x2 x3 (accOf c a12 a13 a14 a15 a16 a17) 23 (by decide)).symm
  unfold kernelRunC.sl.r_223 kernelRunC.sl.r_219 kernelRunC.sl.r_220 kernelRunC.sl.r_221
  simp only [S_v1974 c i tbl hT sim b10, V15_23 c i M2 hM2 M3 hM3 tbl hT sim x2 x3 b9 b10 a12 a13 a14 a15 a16 a17, in_read M2 hM2 x2 23 (by decide), mk_read M3 hM3 x3 23 (by decide)]
  try rfl
theorem V16_24 : kernelRunC.sl.v2125 c i tbl hT sim b9 b10 a16 = (rowsOf c tbl i sim x2 x3 (accOf c a12 a13 a14 a15 a16 a17) 24).s := by
  unfold kernelRunC.sl.v2125 kernelRunC.sl.H16_24
  rw [View.readCov_cons_toLoadRect]
  refine Eq.trans ?_ (rowsOf_s c tbl i sim x2 x3 (accOf c a12 a13 a14 a15 a16 a17) 23 (by decide)).symm
  unfold kernelRunC.sl.r_224 kernelRunC.sl.r_221
  simp only [S_v1974 c i tbl hT sim b10, V16_23 c i M2 hM2 M3 hM3 tbl hT sim x2 x3 b9 b10 a12 a13 a14 a15 a16 a17]
  try rfl
theorem V17_24 : kernelRunC.sl.v2130 c i tbl hT sim b9 b10 a17 = (rowsOf c tbl i sim x2 x3 (accOf c a12 a13 a14 a15 a16 a17) 24).q := by
  unfold kernelRunC.sl.v2130 kernelRunC.sl.H17_24
  rw [View.readCov_cons_toLoadRect]
  refine Eq.trans ?_ (rowsOf_q c tbl i sim x2 x3 (accOf c a12 a13 a14 a15 a16 a17) 23 (by decide)).symm
  unfold kernelRunC.sl.r_225 kernelRunC.sl.r_221
  simp only [S_v1974 c i tbl hT sim b10, V17_23 c i M2 hM2 M3 hM3 tbl hT sim x2 x3 b9 b10 a12 a13 a14 a15 a16 a17]
  try rfl
theorem V15_25 : kernelRunC.sl.v2205 c i M2 hM2 M3 hM3 tbl hT sim x2 x3 b9 b10 a15 = (rowsOf c tbl i sim x2 x3 (accOf c a12 a13 a14 a15 a16 a17) 25).nf := by
  unfold kernelRunC.sl.v2205 kernelRunC.sl.H15_25
  rw [View.readCov_cons_toLoadRect]
  refine Eq.trans ?_ (rowsOf_nf c tbl i sim x2 x3 (accOf c a12 a13 a14 a15 a16 a17) 24 (by decide)).symm
  unfold kernelRunC.sl.r_232
  simp only [S_v2059 c i tbl hT sim b9, V15_24 c i M2 hM2 M3 hM3 tbl hT sim x2 x3 b9 b10 a12 a13 a14 a15 a16 a17, in_read M2 hM2 x2 24 (by decide), mk_read M3 hM3 x3 24 (by decide)]
  try rfl
theorem V16_25 : kernelRunC.sl.v2210 c i tbl hT sim b9 b10 a16 = (rowsOf c tbl i sim x2 x3 (accOf c a12 a13 a14 a15 a16 a17) 25).s := by
  unfold kernelRunC.sl.v2210 kernelRunC.sl.H16_25
  rw [View.readCov_cons_toLoadRect]
  refine Eq.trans ?_ (rowsOf_s c tbl i sim x2 x3 (accOf c a12 a13 a14 a15 a16 a17) 24 (by decide)).symm
  unfold kernelRunC.sl.r_234
  simp only [S_v2059 c i tbl hT sim b9, V16_24 c i M2 hM2 M3 hM3 tbl hT sim x2 x3 b9 b10 a12 a13 a14 a15 a16 a17]
  try rfl
theorem V17_25 : kernelRunC.sl.v2215 c i tbl hT sim b9 b10 a17 = (rowsOf c tbl i sim x2 x3 (accOf c a12 a13 a14 a15 a16 a17) 25).q := by
  unfold kernelRunC.sl.v2215 kernelRunC.sl.H17_25
  rw [View.readCov_cons_toLoadRect]
  refine Eq.trans ?_ (rowsOf_q c tbl i sim x2 x3 (accOf c a12 a13 a14 a15 a16 a17) 24 (by decide)).symm
  unfold kernelRunC.sl.r_235 kernelRunC.sl.r_230
  simp only [S_v2059 c i tbl hT sim b9, V17_24 c i M2 hM2 M3 hM3 tbl hT sim x2 x3 b9 b10 a12 a13 a14 a15 a16 a17]
  try rfl
theorem V15_26 : kernelRunC.sl.v2290 c i M2 hM2 M3 hM3 tbl hT sim x2 x3 b9 b10 a15 = (rowsOf c tbl i sim x2 x3 (accOf c a12 a13 a14 a15 a16 a17) 26).nf := by
  unfold kernelRunC.sl.v2290 kernelRunC.sl.H15_26
  rw [View.readCov_cons_toLoadRect]
  refine Eq.trans ?_ (rowsOf_nf c tbl i sim x2 x3 (accOf c a12 a13 a14 a15 a16 a17) 25 (by decide)).symm
  unfold kernelRunC.sl.r_244 kernelRunC.sl.r_238 kernelRunC.sl.r_241
  simp only [S_v2144 c i tbl hT sim b10, V15_25 c i M2 hM2 M3 hM3 tbl hT sim x2 x3 b9 b10 a12 a13 a14 a15 a16 a17, in_read M2 hM2 x2 25 (by decide), mk_read M3 hM3 x3 25 (by decide)]
  try rfl
theorem V16_26 : kernelRunC.sl.v2295 c i tbl hT sim b9 b10 a16 = (rowsOf c tbl i sim x2 x3 (accOf c a12 a13 a14 a15 a16 a17) 26).s := by
  unfold kernelRunC.sl.v2295 kernelRunC.sl.H16_26
  rw [View.readCov_cons_toLoadRect]
  refine Eq.trans ?_ (rowsOf_s c tbl i sim x2 x3 (accOf c a12 a13 a14 a15 a16 a17) 25 (by decide)).symm
  unfold kernelRunC.sl.r_242 kernelRunC.sl.r_240
  simp only [S_v2144 c i tbl hT sim b10, V16_25 c i M2 hM2 M3 hM3 tbl hT sim x2 x3 b9 b10 a12 a13 a14 a15 a16 a17]
  try rfl
theorem V17_26 : kernelRunC.sl.v2300 c i tbl hT sim b9 b10 a17 = (rowsOf c tbl i sim x2 x3 (accOf c a12 a13 a14 a15 a16 a17) 26).q := by
  unfold kernelRunC.sl.v2300 kernelRunC.sl.H17_26
  rw [View.readCov_cons_toLoadRect]
  refine Eq.trans ?_ (rowsOf_q c tbl i sim x2 x3 (accOf c a12 a13 a14 a15 a16 a17) 25 (by decide)).symm
  unfold kernelRunC.sl.r_243 kernelRunC.sl.r_240
  simp only [S_v2144 c i tbl hT sim b10, V17_25 c i M2 hM2 M3 hM3 tbl hT sim x2 x3 b9 b10 a12 a13 a14 a15 a16 a17]
  try rfl
theorem V15_27 : kernelRunC.sl.v2375 c i M2 hM2 M3 hM3 tbl hT sim x2 x3 b9 b10 a15 = (rowsOf c tbl i sim x2 x3 (accOf c a12 a13 a14 a15 a16 a17) 27).nf := by
  unfold kernelRunC.sl.v2375 kernelRunC.sl.H15_27
  rw [View.readCov_cons_toLoadRect]
  refine Eq.trans ?_ (rowsOf_nf c tbl i sim x2 x3 (accOf c a12 a13 a14 a15 a16 a17) 26 (by decide)).symm
  unfold kernelRunC.sl.r_250 kernelRunC.sl.r_247 kernelRunC.sl.r_248 kernelRunC.sl.cst_284
  simp only [S_v2229 c i tbl hT sim b9, V15_26 c i M2 hM2 M3 hM3 tbl hT sim x2 x3 b9 b10 a12 a13 a14 a15 a16 a17, in_read M2 hM2 x2 26 (by decide), mk_read M3 hM3 x3 26 (by decide)]
  try rfl
theorem V16_27 : kernelRunC.sl.v2380 c i tbl hT sim b9 b10 a16 = (rowsOf c tbl i sim x2 x3 (accOf c a12 a13 a14 a15 a16 a17) 27).s := by
  unfold kernelRunC.sl.v2380 kernelRunC.sl.H16_27
  rw [View.readCov_cons_toLoadRect]
  refine Eq.trans ?_ (rowsOf_s c tbl i sim x2 x3 (accOf c a12 a13 a14 a15 a16 a17) 26 (by decide)).symm
  unfold kernelRunC.sl.r_251 kernelRunC.sl.cst_284
  simp only [S_v2229 c i tbl hT sim b9, V16_26 c i M2 hM2 M3 hM3 tbl hT sim x2 x3 b9 b10 a12 a13 a14 a15 a16 a17]
  try rfl
theorem V17_27 : kernelRunC.sl.v2385 c i tbl hT sim b9 b10 a17 = (rowsOf c tbl i sim x2 x3 (accOf c a12 a13 a14 a15 a16 a17) 27).q := by
  unfold kernelRunC.sl.v2385 kernelRunC.sl.H17_27
  rw [View.readCov_cons_toLoadRect]
  refine Eq.trans ?_ (rowsOf_q c tbl i sim x2 x3 (accOf c a12 a13 a14 a15 a16 a17) 26 (by decide)).symm
  unfold kernelRunC.sl.r_252 kernelRunC.sl.cst_284
  simp only [S_v2229 c i tbl hT sim b9, V17_26 c i M2 hM2 M3 hM3 tbl hT sim x2 x3 b9 b10 a12 a13 a14 a15 a16 a17]
  try rfl
theorem V15_28 : kernelRunC.sl.v2460 c i M2 hM2 M3 hM3 tbl hT sim x2 x3 b9 b10 a15 = (rowsOf c tbl i sim x2 x3 (accOf c a12 a13 a14 a15 a16 a17) 28).nf := by
  unfold kernelRunC.sl.v2460 kernelRunC.sl.H15_28
  rw [View.readCov_cons_toLoadRect]
  refine Eq.trans ?_ (rowsOf_nf c tbl i sim x2 x3 (accOf c a12 a13 a14 a15 a16 a17) 27 (by decide)).symm
  unfold kernelRunC.sl.r_259
  simp only [S_v2314 c i tbl hT sim b10, V15_27 c i M2 hM2 M3 hM3 tbl hT sim x2 x3 b9 b10 a12 a13 a14 a15 a16 a17, in_read M2 hM2 x2 27 (by decide), mk_read M3 hM3 x3 27 (by decide)]
  try rfl
theorem V16_28 : kernelRunC.sl.v2465 c i tbl hT sim b9 b10 a16 = (rowsOf c tbl i sim x2 x3 (accOf c a12 a13 a14 a15 a16 a17) 28).s := by
  unfold kernelRunC.sl.v2465 kernelRunC.sl.H16_28
  rw [View.readCov_cons_toLoadRect]
  refine Eq.trans ?_ (rowsOf_s c tbl i sim x2 x3 (accOf c a12 a13 a14 a15 a16 a17) 27 (by decide)).symm
  unfold kernelRunC.sl.r_257
  simp only [S_v2314 c i tbl hT sim b10, V16_27 c i M2 hM2 M3 hM3 tbl hT sim x2 x3 b9 b10 a12 a13 a14 a15 a16 a17]
  try rfl
theorem V17_28 : kernelRunC.sl.v2470 c i tbl hT sim b9 b10 a17 = (rowsOf c tbl i sim x2 x3 (accOf c a12 a13 a14 a15 a16 a17) 28).q := by
  unfold kernelRunC.sl.v2470 kernelRunC.sl.H17_28
  rw [View.readCov_cons_toLoadRect]
  refine Eq.trans ?_ (rowsOf_q c tbl i sim x2 x3 (accOf c a12 a13 a14 a15 a16 a17) 27 (by decide)).symm
  unfold kernelRunC.sl.r_261 kernelRunC.sl.r_257
  simp only [S_v2314 c i tbl hT sim b10, V17_27 c i M2 hM2 M3 hM3 tbl hT sim x2 x3 b9 b10 a12 a13 a14 a15 a16 a17]
  try rfl
theorem V15_29 : kernelRunC.sl.v2545 c i M2 hM2 M3 hM3 tbl hT sim x2 x3 b9 b10 a15 = (rowsOf c tbl i sim x2 x3 (accOf c a12 a13 a14 a15 a16 a17) 29).nf := by
  unfold kernelRunC.sl.v2545 kernelRunC.sl.H15_29
  rw [View.readCov_cons_toLoadRect]
  refine Eq.trans ?_ (rowsOf_nf c tbl i sim x2 x3 (accOf c a12 a13 a14 a15 a16 a17) 28 (by decide)).symm
  unfold kernelRunC.sl.r_267 kernelRunC.sl.r_264 kernelRunC.sl.r_265 kernelRunC.sl.r_266
  simp only [S_v2399 c i tbl hT sim b9, V15_28 c i M2 hM2 M3 hM3 tbl hT sim x2 x3 b9 b10 a12 a13 a14 a15 a16 a17, in_read M2 hM2 x2 28 (by decide), mk_read M3 hM3 x3 28 (by decide)]
  try rfl
theorem V16_29 : kernelRunC.sl.v2550 c i tbl hT sim b9 b10 a16 = (rowsOf c tbl i sim x2 x3 (accOf c a12 a13 a14 a15 a16 a17) 29).s := by
  unfold kernelRunC.sl.v2550 kernelRunC.sl.H16_29
  rw [View.readCov_cons_toLoadRect]
  refine Eq.trans ?_ (rowsOf_s c tbl i sim x2 x3 (accOf c a12 a13 a14 a15 a16 a17) 28 (by decide)).symm
  unfold kernelRunC.sl.r_268 kernelRunC.sl.r_266
  simp only [S_v2399 c i tbl hT sim b9, V16_28 c i M2 hM2 M3 hM3 tbl hT sim x2 x3 b9 b10 a12 a13 a14 a15 a16 a17]
  try rfl
theorem V17_29 : kernelRunC.sl.v2555 c i tbl hT sim b9 b10 a17 = (rowsOf c tbl i sim x2 x3 (accOf c a12 a13 a14 a15 a16 a17) 29).q := by
  unfold kernelRunC.sl.v2555 kernelRunC.sl.H17_29
  rw [View.readCov_cons_toLoadRect]
  refine Eq.trans ?_ (rowsOf_q c tbl i sim x2 x3 (accOf c a12 a13 a14 a15 a16 a17) 28 (by decide)).symm
  unfold kernelRunC.sl.r_269 kernelRunC.sl.r_266
  simp only [S_v2399 c i tbl hT sim b9, V17_28 c i M2 hM2 M3 hM3 tbl hT sim x2 x3 b9 b10 a12 a13 a14 a15 a16 a17]
  try rfl
theorem V15_30 : kernelRunC.sl.v2630 c i M2 hM2 M3 hM3 tbl hT sim x2 x3 b9 b10 a15 = (rowsOf c tbl i sim x2 x3 (accOf c a12 a13 a14 a15 a16 a17) 30).nf := by
  unfold kernelRunC.sl.v2630 kernelRunC.sl.H15_30
  rw [View.readCov_cons_toLoadRect]
  refine Eq.trans ?_ (rowsOf_nf c tbl i sim x2 x3 (accOf c a12 a13 a14 a15 a16 a17) 29 (by decide)).symm
  unfold kernelRunC.sl.r_275 kernelRunC.sl.r_271 kernelRunC.sl.r_272
  simp only [S_v2484 c i tbl hT sim b10, V15_29 c i M2 hM2 M3 hM3 tbl hT sim x2 x3 b9 b10 a12 a13 a14 a15 a16 a17, in_read M2 hM2 x2 29 (by decide), mk_read M3 hM3 x3 29 (by decide)]
  try rfl
theorem V16_30 : kernelRunC.sl.v2635 c i tbl hT sim b9 b10 a16 = (rowsOf c tbl i sim x2 x3 (accOf c a12 a13 a14 a15 a16 a17) 30).s := by
  unfold kernelRunC.sl.v2635 kernelRunC.sl.H16_30
  rw [View.readCov_cons_toLoadRect]
  refine Eq.trans ?_ (rowsOf_s c tbl i sim x2 x3 (accOf c a12 a13 a14 a15 a16 a17) 29 (by decide)).symm
  unfold kernelRunC.sl.r_277
  simp only [S_v2484 c i tbl hT sim b10, V16_29 c i M2 hM2 M3 hM3 tbl hT sim x2 x3 b9 b10 a12 a13 a14 a15 a16 a17]
  try rfl
theorem V17_30 : kernelRunC.sl.v2640 c i tbl hT sim b9 b10 a17 = (rowsOf c tbl i sim x2 x3 (accOf c a12 a13 a14 a15 a16 a17) 30).q := by
  unfold kernelRunC.sl.v2640 kernelRunC.sl.H17_30
  rw [View.readCov_cons_toLoadRect]
  refine Eq.trans ?_ (rowsOf_q c tbl i sim x2 x3 (accOf c a12 a13 a14 a15 a16 a17) 29 (by decide)).symm
  unfold kernelRunC.sl.r_278
  simp only [S_v2484 c i tbl hT sim b10, V17_29 c i M2 hM2 M3 hM3 tbl hT sim x2 x3 b9 b10 a12 a13 a14 a15 a16 a17]
  try rfl
theorem V15_31 : kernelRunC.sl.v2715 c i M2 hM2 M3 hM3 tbl hT sim x2 x3 b9 b10 a15 = (rowsOf c tbl i sim x2 x3 (accOf c a12 a13 a14 a15 a16 a17) 31).nf := by
  unfold kernelRunC.sl.v2715 kernelRunC.sl.H15_31
  rw [View.readCov_cons_toLoadRect]
  refine Eq.trans ?_ (rowsOf_nf c tbl i sim x2 x3 (accOf c a12 a13 a14 a15 a16 a17) 30 (by decide)).symm
  unfold kernelRunC.sl.r_284
  simp only [S_v2569 c i tbl hT sim b9, V15_30 c i M2 hM2 M3 hM3 tbl hT sim x2 x3 b9 b10 a12 a13 a14 a15 a16 a17, in_read M2 hM2 x2 30 (by decide), mk_read M3 hM3 x3 30 (by decide)]
  try rfl
theorem V16_31 : kernelRunC.sl.v2720 c i tbl hT sim b9 b10 a16 = (rowsOf c tbl i sim x2 x3 (accOf c a12 a13 a14 a15 a16 a17) 31).s := by
  unfold kernelRunC.sl.v2720 kernelRunC.sl.H16_31
  rw [View.readCov_cons_toLoadRect]
  refine Eq.trans ?_ (rowsOf_s c tbl i sim x2 x3 (accOf c a12 a13 a14 a15 a16 a17) 30 (by decide)).symm
  unfold kernelRunC.sl.r_287 kernelRunC.sl.r_282
  simp only [S_v2569 c i tbl hT sim b9, V16_30 c i M2 hM2 M3 hM3 tbl hT sim x2 x3 b9 b10 a12 a13 a14 a15 a16 a17]
  try rfl
theorem V17_31 : kernelRunC.sl.v2725 c i tbl hT sim b9 b10 a17 = (rowsOf c tbl i sim x2 x3 (accOf c a12 a13 a14 a15 a16 a17) 31).q := by
  unfold kernelRunC.sl.v2725 kernelRunC.sl.H17_31
  rw [View.readCov_cons_toLoadRect]
  refine Eq.trans ?_ (rowsOf_q c tbl i sim x2 x3 (accOf c a12 a13 a14 a15 a16 a17) 30 (by decide)).symm
  unfold kernelRunC.sl.r_286 kernelRunC.sl.r_282
  simp only [S_v2569 c i tbl hT sim b9, V17_30 c i M2 hM2 M3 hM3 tbl hT sim x2 x3 b9 b10 a12 a13 a14 a15 a16 a17]
  try rfl
theorem V15_32 : kernelRunC.sl.v2800 c i M2 hM2 M3 hM3 tbl hT sim x2 x3 b9 b10 a15 = (rowsOf c tbl i sim x2 x3 (accOf c a12 a13 a14 a15 a16 a17) 32).nf := by
  unfold kernelRunC.sl.v2800 kernelRunC.sl.H15_32
  rw [View.readCov_cons_toLoadRect]
  refine Eq.trans ?_ (rowsOf_nf c tbl i sim x2 x3 (accOf c a12 a13 a14 a15 a16 a17) 31 (by decide)).symm
  unfold kernelRunC.sl.r_294 kernelRunC.sl.r_290 kernelRunC.sl.r_291 kernelRunC.sl.r_292 kernelRunC.sl.r_293
  simp only [S_v2654 c i tbl hT sim b10, V15_31 c i M2 hM2 M3 hM3 tbl hT sim x2 x3 b9 b10 a12 a13 a14 a15 a16 a17, in_read M2 hM2 x2 31 (by decide), mk_read M3 hM3 x3 31 (by decide)]
  try rfl
theorem V16_32 : kernelRunC.sl.v2805 c i tbl hT sim b9 b10 a16 = (rowsOf c tbl i sim x2 x3 (accOf c a12 a13 a14 a15 a16 a17) 32).s := by
  unfold kernelRunC.sl.v2805 kernelRunC.sl.H16_32
  rw [View.readCov_cons_toLoadRect]
  refine Eq.trans ?_ (rowsOf_s c tbl i sim x2 x3 (accOf c a12 a13 a14 a15 a16 a17) 31 (by decide)).symm
  unfold kernelRunC.sl.r_295 kernelRunC.sl.r_292 kernelRunC.sl.r_293
  simp only [S_v2654 c i tbl hT sim b10, V16_31 c i M2 hM2 M3 hM3 tbl hT sim x2 x3 b9 b10 a12 a13 a14 a15 a16 a17]
  try rfl
theorem V17_32 : kernelRunC.sl.v2810 c i tbl hT sim b9 b10 a17 = (rowsOf c tbl i sim x2 x3 (accOf c a12 a13 a14 a15 a16 a17) 32).q := by
  unfold kernelRunC.sl.v2810 kernelRunC.sl.H17_32
  rw [View.readCov_cons_toLoadRect]
  refine Eq.trans ?_ (rowsOf_q c tbl i sim x2 x3 (accOf c a12 a13 a14 a15 a16 a17) 31 (by decide)).symm
  unfold kernelRunC.sl.r_296 kernelRunC.sl.r_292 kernelRunC.sl.r_293
  simp only [S_v2654 c i tbl hT sim b10, V17_31 c i M2 hM2 M3 hM3 tbl hT sim x2 x3 b9 b10 a12 a13 a14 a15 a16 a17]
  try rfl
theorem V15_33 : kernelRunC.sl.v2885 c i M2 hM2 M3 hM3 tbl hT sim x2 x3 b9 b10 a15 = (rowsOf c tbl i sim x2 x3 (accOf c a12 a13 a14 a15 a16 a17) 33).nf := by
  unfold kernelRunC.sl.v2885 kernelRunC.sl.H15_33
  rw [View.readCov_cons_toLoadRect]
  refine Eq.trans ?_ (rowsOf_nf c tbl i sim x2 x3 (accOf c a12 a13 a14 a15 a16 a17) 32 (by decide)).symm
  unfold kernelRunC.sl.r_304 kernelRunC.sl.r_299 kernelRunC.sl.r_300
  simp only [S_v2739 c i tbl hT sim b9, V15_32 c i M2 hM2 M3 hM3 tbl hT sim x2 x3 b9 b10 a12 a13 a14 a15 a16 a17, in_read M2 hM2 x2 32 (by decide), mk_read M3 hM3 x3 32 (by decide)]
  try rfl
theorem V16_33 : kernelRunC.sl.v2890 c i tbl hT sim b9 b10 a16 = (rowsOf c tbl i sim x2 x3 (accOf c a12 a13 a14 a15 a16 a17) 33).s := by
  unfold kernelRunC.sl.v2890 kernelRunC.sl.H16_33
  rw [View.readCov_cons_toLoadRect]
  refine Eq.trans ?_ (rowsOf_s c tbl i sim x2 x3 (accOf c a12 a13 a14 a15 a16 a17) 32 (by decide)).symm
  unfold kernelRunC.sl.r_306
  simp only [S_v2739 c i tbl hT sim b9, V16_32 c i M2 hM2 M3 hM3 tbl hT sim x2 x3 b9 b10 a12 a13 a14 a15 a16 a17]
  try rfl
theorem V17_33 : kernelRunC.sl.v2895 c i tbl hT sim b9 b10 a17 = (rowsOf c tbl i sim x2 x3 (accOf c a12 a13 a14 a15 a16 a17) 33).q := by
  unfold kernelRunC.sl.v2895 kernelRunC.sl.H17_33
  rw [View.readCov_cons_toLoadRect]
  refine Eq.trans ?_ (rowsOf_q c tbl i sim x2 x3 (accOf c a12 a13 a14 a15 a16 a17) 32 (by decide)).symm
  unfold kernelRunC.sl.r_307
  simp only [S_v2739 c i tbl hT sim b9, V17_32 c i M2 hM2 M3 hM3 tbl hT sim x2 x3 b9 b10 a12 a13 a14 a15 a16 a17]
  try rfl
theorem V15_34 : kernelRunC.sl.v2970 c i M2 hM2 M3 hM3 tbl hT sim x2 x3 b9 b10 a15 = (rowsOf c tbl i sim x2 x3 (accOf c a12 a13 a14 a15 a16 a17) 34).nf := by
  unfold kernelRunC.sl.v2970 kernelRunC.sl.H15_34
  rw [View.readCov_cons_toLoadRect]
  refine Eq.trans ?_ (rowsOf_nf c tbl i sim x2 x3 (accOf c a12 a13 a14 a15 a16 a17) 33 (by decide)).symm
  unfold kernelRunC.sl.r_315
  simp only [S_v2824 c i tbl hT sim b10, V15_33 c i M2 hM2 M3 hM3 tbl hT sim x2 x3 b9 b10 a12 a13 a14 a15 a16 a17, in_read M2 hM2 x2 33 (by decide), mk_read M3 hM3 x3 33 (by decide)]
  try rfl
theorem V16_34 : kernelRunC.sl.v2975 c i tbl hT sim b9 b10 a16 = (rowsOf c tbl i sim x2 x3 (accOf c a12 a13 a14 a15 a16 a17) 34).s := by
  unfold kernelRunC.sl.v2975 kernelRunC.sl.H16_34
  rw [View.readCov_cons_toLoadRect]
  refine Eq.trans ?_ (rowsOf_s c tbl i sim x2 x3 (accOf c a12 a13 a14 a15 a16 a17) 33 (by decide)).symm
  unfold kernelRunC.sl.r_318 kernelRunC.sl.r_313
  simp only [S_v2824 c i tbl hT sim b10, V16_33 c i M2 hM2 M3 hM3 tbl hT sim x2 x3 b9 b10 a12 a13 a14 a15 a16 a17]
  try rfl
theorem V17_34 : kernelRunC.sl.v2980 c i tbl hT sim b9 b10 a17 = (rowsOf c tbl i sim x2 x3 (accOf c a12 a13 a14 a15 a16 a17) 34).q := by
  unfold kernelRunC.sl.v2980 kernelRunC.sl.H17_34
  rw [View.readCov_cons_toLoadRect]
  refine Eq.trans ?_ (rowsOf_q c tbl i sim x2 x3 (accOf c a12 a13 a14 a15 a16 a17) 33 (by decide)).symm
  unfold kernelRunC.sl.r_317 kernelRunC.sl.r_313
  simp only [S_v2824 c i tbl hT sim b10, V17_33 c i M2 hM2 M3 hM3 tbl hT sim x2 x3 b9 b10 a12 a13 a14 a15 a16 a17]
  try rfl
theorem V15_35 : kernelRunC.sl.v3055 c i M2 hM2 M3 hM3 tbl hT sim x2 x3 b9 b10 a15 = (rowsOf c tbl i sim x2 x3 (accOf c a12 a13 a14 a15 a16 a17) 35).nf := by
  unfold kernelRunC.sl.v3055 kernelRunC.sl.H15_35
  rw [View.readCov_cons_toLoadRect]
  refine Eq.trans ?_ (rowsOf_nf c tbl i sim x2 x3 (accOf c a12 a13 a14 a15 a16 a17) 34 (by decide)).symm
  unfold kernelRunC.sl.r_325 kernelRunC.sl.r_321 kernelRunC.sl.r_322 kernelRunC.sl.r_323 kernelRunC.sl.r_324
  simp only [S_v2909 c i tbl hT sim b9, V15_34 c i M2 hM2 M3 hM3 tbl hT sim x2 x3 b9 b10 a12 a13 a14 a15 a16 a17, in_read M2 hM2 x2 34 (by decide), mk_read M3 hM3 x3 34 (by decide)]
  try rfl
theorem V16_35 : kernelRunC.sl.v3060 c i tbl hT sim b9 b10 a16 = (rowsOf c tbl i sim x2 x3 (accOf c a12 a13 a14 a15 a16 a17) 35).s := by
  unfold kernelRunC.sl.v3060 kernelRunC.sl.H16_35
  rw [View.readCov_cons_toLoadRect]
  refine Eq.trans ?_ (rowsOf_s c tbl i sim x2 x3 (accOf c a12 a13 a14 a15 a16 a17) 34 (by decide)).symm
  unfold kernelRunC.sl.r_326 kernelRunC.sl.r_323 kernelRunC.sl.r_324
  simp only [S_v2909 c i tbl hT sim b9, V16_34 c i M2 hM2 M3 hM3 tbl hT sim x2 x3 b9 b10 a12 a13 a14 a15 a16 a17]
  try rfl
theorem V17_35 : kernelRunC.sl.v3065 c i tbl hT sim b9 b10 a17 = (rowsOf c tbl i sim x2 x3 (accOf c a12 a13 a14 a15 a16 a17) 35).q := by
  unfold kernelRunC.sl.v3065 kernelRunC.sl.H17_35
  rw [View.readCov_cons_toLoadRect]
  refine Eq.trans ?_ (rowsOf_q c tbl i sim x2 x3 (accOf c a12 a13 a14 a15 a16 a17) 34 (by decide)).symm
  unfold kernelRunC.sl.r_327 kernelRunC.sl.r_323 kernelRunC.sl.r_324
  simp only [S_v2909 c i tbl hT sim b9, V17_34 c i M2 hM2 M3 hM3 tbl hT sim x2 x3 b9 b10 a12 a13 a14 a15 a16 a17]
  try rfl
theorem V15_36 : kernelRunC.sl.v3140 c i M2 hM2 M3 hM3 tbl hT sim x2 x3 b9 b10 a15 = (rowsOf c tbl i sim x2 x3 (accOf c a12 a13 a14 a15 a16 a17) 36).nf := by
  unfold kernelRunC.sl.v3140 kernelRunC.sl.H15_36
  rw [View.readCov_cons_toLoadRect]
  refine Eq.trans ?_ (rowsOf_nf c tbl i sim x2 x3 (accOf c a12 a13 a14 a15 a16 a17) 35 (by decide)).symm
  unfold kernelRunC.sl.r_334 kernelRunC.sl.r_330
  simp only [S_v2994 c i tbl hT sim b10, V15_35 c i M2 hM2 M3 hM3 tbl hT sim x2 x3 b9 b10 a12 a13 a14 a15 a16 a17, in_read M2 hM2 x2 35 (by decide), mk_read M3 hM3 x3 35 (by decide)]
  try rfl
theorem V16_36 : kernelRunC.sl.v3145 c i tbl hT sim b9 b10 a16 = (rowsOf c tbl i sim x2 x3 (accOf c a12 a13 a14 a15 a16 a17) 36).s := by
  unfold kernelRunC.sl.v3145 kernelRunC.sl.H16_36
  rw [View.readCov_cons_toLoadRect]
  refine Eq.trans ?_ (rowsOf_s c tbl i sim x2 x3 (accOf c a12 a13 a14 a15 a16 a17) 35 (by decide)).symm
  unfold kernelRunC.sl.r_336
  simp only [S_v2994 c i tbl hT sim b10, V16_35 c i M2 hM2 M3 hM3 tbl hT sim x2 x3 b9 b10 a12 a13 a14 a15 a16 a17]
  try rfl
theorem V17_36 : kernelRunC.sl.v3150 c i tbl hT sim b9 b10 a17 = (rowsOf c tbl i sim x2 x3 (accOf c a12 a13 a14 a15 a16 a17) 36).q := by
  unfold kernelRunC.sl.v3150 kernelRunC.sl.H17_36
  rw [View.readCov_cons_toLoadRect]
  refine Eq.trans ?_ (rowsOf_q c tbl i sim x2 x3 (accOf c a12 a13 a14 a15 a16 a17) 35 (by decide)).symm
  unfold kernelRunC.sl.r_337
  simp only [S_v2994 c i tbl hT sim b10, V17_35 c i M2 hM2 M3 hM3 tbl hT sim x2 x3 b9 b10 a12 a13 a14 a15 a16 a17]
  try rfl
theorem V15_37 : kernelRunC.sl.v3225 c i M2 hM2 M3 hM3 tbl hT sim x2 x3 b9 b10 a15 = (rowsOf c tbl i sim x2 x3 (accOf c a12 a13 a14 a15 a16 a17) 37).nf := by
  unfold kernelRunC.sl.v3225 kernelRunC.sl.H15_37
  rw [View.readCov_cons_toLoadRect]
  refine Eq.trans ?_ (rowsOf_nf c tbl i sim x2 x3 (accOf c a12 a13 a14 a15 a16 a17) 36 (by decide)).symm
  unfold kernelRunC.sl.r_345
  simp only [S_v3079 c i tbl hT sim b9, V15_36 c i M2 hM2 M3 hM3 tbl hT sim x2 x3 b9 b10 a12 a13 a14 a15 a16 a17, in_read M2 hM2 x2 36 (by decide), mk_read M3 hM3 x3 36 (by decide)]
  try rfl
theorem V16_37 : kernelRunC.sl.v3230 c i tbl hT sim b9 b10 a16 = (rowsOf c tbl i sim x2 x3 (accOf c a12 a13 a14 a15 a16 a17) 37).s := by
  unfold kernelRunC.sl.v3230 kernelRunC.sl.H16_37
  rw [View.readCov_cons_toLoadRect]
  refine Eq.trans ?_ (rowsOf_s c tbl i sim x2 x3 (accOf c a12 a13 a14 a15 a16 a17) 36 (by decide)).symm
  unfold kernelRunC.sl.r_346 kernelRunC.sl.r_343
  simp only [S_v3079 c i tbl hT sim b9, V16_36 c i M2 hM2 M3 hM3 tbl hT sim x2 x3 b9 b10 a12 a13 a14 a15 a16 a17]
  try rfl
theorem V17_37 : kernelRunC.sl.v3235 c i tbl hT sim b9 b10 a17 = (rowsOf c tbl i sim x2 x3 (accOf c a12 a13 a14 a15 a16 a17) 37).q := by
  unfold kernelRunC.sl.v3235 kernelRunC.sl.H17_37
  rw [View.readCov_cons_toLoadRect]
  refine Eq.trans ?_ (rowsOf_q c tbl i sim x2 x3 (accOf c a12 a13 a14 a15 a16 a17) 36 (by decide)).symm
  unfold kernelRunC.sl.r_347 kernelRunC.sl.r_343
  simp only [S_v3079 c i tbl hT sim b9, V17_36 c i M2 hM2 M3 hM3 tbl hT sim x2 x3 b9 b10 a12 a13 a14 a15 a16 a17]
  try rfl
theorem V15_38 : kernelRunC.sl.v3310 c i M2 hM2 M3 hM3 tbl hT sim x2 x3 b9 b10 a15 = (rowsOf c tbl i sim x2 x3 (accOf c a12 a13 a14 a15 a16 a17) 38).nf := by
  unfold kernelRunC.sl.v3310 kernelRunC.sl.H15_38
  rw [View.readCov_cons_toLoadRect]
  refine Eq.trans ?_ (rowsOf_nf c tbl i sim x2 x3 (accOf c a12 a13 a14 a15 a16 a17) 37 (by decide)).symm
  unfold kernelRunC.sl.r_355 kernelRunC.sl.r_350 kernelRunC.sl.r_351 kernelRunC.sl.r_352 kernelRunC.sl.r_353 kernelRunC.sl.cst_781
  simp only [S_v3164 c i tbl hT sim b10, V15_37 c i M2 hM2 M3 hM3 tbl hT sim x2 x3 b9 b10 a12 a13 a14 a15 a16 a17, in_read M2 hM2 x2 37 (by decide), mk_read M3 hM3 x3 37 (by decide)]
  try rfl
theorem V16_38 : kernelRunC.sl.v3315 c i tbl hT sim b9 b10 a16 = (rowsOf c tbl i sim x2 x3 (accOf c a12 a13 a14 a15 a16 a17) 38).s := by
  unfold kernelRunC.sl.v3315 kernelRunC.sl.H16_38
  rw [View.readCov_cons_toLoadRect]
  refine Eq.trans ?_ (rowsOf_s c tbl i sim x2 x3 (accOf c a12 a13 a14 a15 a16 a17) 37 (by decide)).symm
  unfold kernelRunC.sl.r_356 kernelRunC.sl.r_352 kernelRunC.sl.r_353 kernelRunC.sl.cst_781
  simp only [S_v3164 c i tbl hT sim b10, V16_37 c i M2 hM2 M3 hM3 tbl hT sim x2 x3 b9 b10 a12 a13 a14 a15 a16 a17]
  try rfl
theorem V17_38 : kernelRunC.sl.v3320 c i tbl hT sim b9 b10 a17 = (rowsOf c tbl i sim x2 x3 (accOf c a12 a13 a14 a15 a16 a17) 38).q := by
  unfold kernelRunC.sl.v3320 kernelRunC.sl.H17_38
  rw [View.readCov_cons_toLoadRect]
  refine Eq.trans ?_ (rowsOf_q c tbl i sim x2 x3 (accOf c a12 a13 a14 a15 a16 a17) 37 (by decide)).symm
  unfold kernelRunC.sl.r_357 kernelRunC.sl.r_352 kernelRunC.sl.r_353 kernelRunC.sl.cst_781
  simp only [S_v3164 c i tbl hT sim b10, V17_37 c i M2 hM2 M3 hM3 tbl hT sim x2 x3 b9 b10 a12 a13 a14 a15 a16 a17]
  try rfl
theorem V15_39 : kernelRunC.sl.v3395 c i M2 hM2 M3 hM3 tbl hT sim x2 x3 b9 b10 a15 = (rowsOf c tbl i sim x2 x3 (accOf c a12 a13 a14 a15 a16 a17) 39).nf := by
  unfold kernelRunC.sl.v3395 kernelRunC.sl.H15_39
  rw [View.readCov_cons_toLoadRect]
  refine Eq.trans ?_ (rowsOf_nf c tbl i sim x2 x3 (accOf c a12 a13 a14 a15 a16 a17) 38 (by decide)).symm
  unfold kernelRunC.sl.r_362
  simp only [V15_38 c i M2 hM2 M3 hM3 tbl hT sim x2 x3 b9 b10 a12 a13 a14 a15 a16 a17, S_v_1 c i tbl hT sim b9, in_read M2 hM2 x2 38 (by decide), mk_read M3 hM3 x3 38 (by decide)]
  try rfl
theorem V16_39 : kernelRunC.sl.v3400 c i tbl hT sim b9 b10 a16 = (rowsOf c tbl i sim x2 x3 (accOf c a12 a13 a14 a15 a16 a17) 39).s := by
  unfold kernelRunC.sl.v3400 kernelRunC.sl.H16_39
  rw [View.readCov_cons_toLoadRect]
  refine Eq.trans ?_ (rowsOf_s c tbl i sim x2 x3 (accOf c a12 a13 a14 a15 a16 a17) 38 (by decide)).symm
  unfold kernelRunC.sl.r_364
  simp only [V16_38 c i M2 hM2 M3 hM3 tbl hT sim x2 x3 b9 b10 a12 a13 a14 a15 a16 a17, S_v_1 c i tbl hT sim b9]
  try rfl
theorem V17_39 : kernelRunC.sl.v3405 c i tbl hT sim b9 b10 a17 = (rowsOf c tbl i sim x2 x3 (accOf c a12 a13 a14 a15 a16 a17) 39).q := by
  unfold kernelRunC.sl.v3405 kernelRunC.sl.H17_39
  rw [View.readCov_cons_toLoadRect]
  refine Eq.trans ?_ (rowsOf_q c tbl i sim x2 x3 (accOf c a12 a13 a14 a15 a16 a17) 38 (by decide)).symm
  unfold kernelRunC.sl.r_365
  simp only [V17_38 c i M2 hM2 M3 hM3 tbl hT sim x2 x3 b9 b10 a12 a13 a14 a15 a16 a17, S_v_1 c i tbl hT sim b9]
  try rfl
theorem V15_40 : kernelRunC.sl.v3480 c i M2 hM2 M3 hM3 tbl hT sim x2 x3 b9 b10 a15 = (rowsOf c tbl i sim x2 x3 (accOf c a12 a13 a14 a15 a16 a17) 40).nf := by
  unfold kernelRunC.sl.v3480 kernelRunC.sl.H15_40
  rw [View.readCov_cons_toLoadRect]
  refine Eq.trans ?_ (rowsOf_nf c tbl i sim x2 x3 (accOf c a12 a13 a14 a15 a16 a17) 39 (by decide)).symm
  unfold kernelRunC.sl.r_372
  simp only [S_v3334 c i tbl hT sim b10, V15_39 c i M2 hM2 M3 hM3 tbl hT sim x2 x3 b9 b10 a12 a13 a14 a15 a16 a17, in_read M2 hM2 x2 39 (by decide), mk_read M3 hM3 x3 39 (by decide)]
  try rfl
theorem V16_40 : kernelRunC.sl.v3485 c i tbl hT sim b9 b10 a16 = (rowsOf c tbl i sim x2 x3 (accOf c a12 a13 a14 a15 a16 a17) 40).s := by
  unfold kernelRunC.sl.v3485 kernelRunC.sl.H16_40
  rw [View.readCov_cons_toLoadRect]
  refine Eq.trans ?_ (rowsOf_s c tbl i sim x2 x3 (accOf c a12 a13 a14 a15 a16 a17) 39 (by decide)).symm
  unfold kernelRunC.sl.r_373 kernelRunC.sl.r_370
  simp only [S_v3334 c i tbl hT sim b10, V16_39 c i M2 hM2 M3 hM3 tbl hT sim x2 x3 b9 b10 a12 a13 a14 a15 a16 a17]
  try rfl
theorem V17_40 : kernelRunC.sl.v3490 c i tbl hT sim b9 b10 a17 = (rowsOf c tbl i sim x2 x3 (accOf c a12 a13 a14 a15 a16 a17) 40).q := by
  unfold kernelRunC.sl.v3490 kernelRunC.sl.H17_40
  rw [View.readCov_cons_toLoadRect]
  refine Eq.trans ?_ (rowsOf_q c tbl i sim x2 x3 (accOf c a12 a13 a14 a15 a16 a17) 39 (by decide)).symm
  unfold kernelRunC.sl.r_374 kernelRunC.sl.r_370
  simp only [S_v3334 c i tbl hT sim b10, V17_39 c i M2 hM2 M3 hM3 tbl hT sim x2 x3 b9 b10 a12 a13 a14 a15 a16 a17]
  try rfl
theorem V15_41 : kernelRunC.sl.v3565 c i M2 hM2 M3 hM3 tbl hT sim x2 x3 b9 b10 a15 = (rowsOf c tbl i sim x2 x3 (accOf c a12 a13 a14 a15 a16 a17) 41).nf := by
  unfold kernelRunC.sl.v3565 kernelRunC.sl.H15_41
  rw [View.readCov_cons_toLoadRect]
  refine Eq.trans ?_ (rowsOf_nf c tbl i sim x2 x3 (accOf c a12 a13 a14 a15 a16 a17) 40 (by decide)).symm
  unfold kernelRunC.sl.r_381 kernelRunC.sl.r_377 kernelRunC.sl.r_378 kernelRunC.sl.r_379 kernelRunC.sl.cst_15
  simp only [S_v3419 c i tbl hT sim b9, V15_40 c i M2 hM2 M3 hM3 tbl hT sim x2 x3 b9 b10 a12 a13 a14 a15 a16 a17, in_read M2 hM2 x2 40 (by decide), mk_read M3 hM3 x3 40 (by decide)]
  try rfl
theorem V16_41 : kernelRunC.sl.v3570 c i tbl hT sim b9 b10 a16 = (rowsOf c tbl i sim x2 x3 (accOf c a12 a13 a14 a15 a16 a17) 41).s := by
  unfold kernelRunC.sl.v3570 kernelRunC.sl.H16_41
  rw [View.readCov_cons_toLoadRect]
  refine Eq.trans ?_ (rowsOf_s c tbl i sim x2 x3 (accOf c a12 a13 a14 a15 a16 a17) 40 (by decide)).symm
  unfold kernelRunC.sl.r_382 kernelRunC.sl.r_379 kernelRunC.sl.cst_15
  simp only [S_v3419 c i tbl hT sim b9, V16_40 c i M2 hM2 M3 hM3 tbl hT sim x2 x3 b9 b10 a12 a13 a14 a15 a16 a17]
  try rfl
theorem V17_41 : kernelRunC.sl.v3575 c i tbl hT sim b9 b10 a17 = (rowsOf c tbl i sim x2 x3 (accOf c a12 a13 a14 a15 a16 a17) 41).q := by
  unfold kernelRunC.sl.v3575 kernelRunC.sl.H17_41
  rw [View.readCov_cons_toLoadRect]
  refine Eq.trans ?_ (rowsOf_q c tbl i sim x2 x3 (accOf c a12 a13 a14 a15 a16 a17) 40 (by decide)).symm
  unfold kernelRunC.sl.r_383 kernelRunC.sl.r_379 kernelRunC.sl.cst_15
  simp only [S_v3419 c i tbl hT sim b9, V17_40 c i M2 hM2 M3 hM3 tbl hT sim x2 x3 b9 b10 a12 a13 a14 a15 a16 a17]
  try rfl
theorem V15_42 : kernelRunC.sl.v3650 c i M2 hM2 M3 hM3 tbl hT sim x2 x3 b9 b10 a15 = (rowsOf c tbl i sim x2 x3 (accOf c a12 a13 a14 a15 a16 a17) 42).nf := by
  unfold kernelRunC.sl.v3650 kernelRunC.sl.H15_42
  rw [View.readCov_cons_toLoadRect]
  refine Eq.trans ?_ (rowsOf_nf c tbl i sim x2 x3 (accOf c a12 a13 a14 a15 a16 a17) 41 (by decide)).symm
  unfold kernelRunC.sl.r_389
  simp only [S_v3504 c i tbl hT sim b10, V15_41 c i M2 hM2 M3 hM3 tbl hT sim x2 x3 b9 b10 a12 a13 a14 a15 a16 a17, in_read M2 hM2 x2 41 (by decide), mk_read M3 hM3 x3 41 (by decide)]
  try rfl
theorem V16_42 : kernelRunC.sl.v3655 c i tbl hT sim b9 b10 a16 = (rowsOf c tbl i sim x2 x3 (accOf c a12 a13 a14 a15 a16 a17) 42).s := by
  unfold kernelRunC.sl.v3655 kernelRunC.sl.H16_42
  rw [View.readCov_cons_toLoadRect]
  refine Eq.trans ?_ (rowsOf_s c tbl i sim x2 x3 (accOf c a12 a13 a14 a15 a16 a17) 41 (by decide)).symm
  unfold kernelRunC.sl.r_391
  simp only [S_v3504 c i tbl hT sim b10, V16_41 c i M2 hM2 M3 hM3 tbl hT sim x2 x3 b9 b10 a12 a13 a14 a15 a16 a17]
  try rfl
theorem V17_42 : kernelRunC.sl.v3660 c i tbl hT sim b9 b10 a17 = (rowsOf c tbl i sim x2 x3 (accOf c a12 a13 a14 a15 a16 a17) 42).q := by
  unfold kernelRunC.sl.v3660 kernelRunC.sl.H17_42
  rw [View.readCov_cons_toLoadRect]
  refine Eq.trans ?_ (rowsOf_q c tbl i sim x2 x3 (accOf c a12 a13 a14 a15 a16 a17) 41 (by decide)).symm
  unfold kernelRunC.sl.r_393 kernelRunC.sl.r_392
  simp only [S_v3504 c i tbl hT sim b10, V17_41 c i M2 hM2 M3 hM3 tbl hT sim x2 x3 b9 b10 a12 a13 a14 a15 a16 a17]
  try rfl
theorem V15_43 : kernelRunC.sl.v3735 c i M2 hM2 M3 hM3 tbl hT sim x2 x3 b9 b10 a15 = (rowsOf c tbl i sim x2 x3 (accOf c a12 a13 a14 a15 a16 a17) 43).nf := by
  unfold kernelRunC.sl.v3735 kernelRunC.sl.H15_43
  rw [View.readCov_cons_toLoadRect]
  refine Eq.trans ?_ (rowsOf_nf c tbl i sim x2 x3 (accOf c a12 a13 a14 a15 a16 a17) 42 (by decide)).symm
  unfold kernelRunC.sl.r_403 kernelRunC.sl.r_396 kernelRunC.sl.r_399 kernelRunC.sl.cst_109
  simp only [S_v3589 c i tbl hT sim b9, V15_42 c i M2 hM2 M3 hM3 tbl hT sim x2 x3 b9 b10 a12 a13 a14 a15 a16 a17, in_read M2 hM2 x2 42 (by decide), mk_read M3 hM3 x3 42 (by decide)]
  try rfl
theorem V16_43 : kernelRunC.sl.v3740 c i tbl hT sim b9 b10 a16 = (rowsOf c tbl i sim x2 x3 (accOf c a12 a13 a14 a15 a16 a17) 43).s := by
  unfold kernelRunC.sl.v3740 kernelRunC.sl.H16_43
  rw [View.readCov_cons_toLoadRect]
  refine Eq.trans ?_ (rowsOf_s c tbl i sim x2 x3 (accOf c a12 a13 a14 a15 a16 a17) 42 (by decide)).symm
  unfold kernelRunC.sl.r_401 kernelRunC.sl.r_398
  simp only [S_v3589 c i tbl hT sim b9, V16_42 c i M2 hM2 M3 hM3 tbl hT sim x2 x3 b9 b10 a12 a13 a14 a15 a16 a17]
  try rfl
theorem V17_43 : kernelRunC.sl.v3745 c i tbl hT sim b9 b10 a17 = (rowsOf c tbl i sim x2 x3 (accOf c a12 a13 a14 a15 a16 a17) 43).q := by
  unfold kernelRunC.sl.v3745 kernelRunC.sl.H17_43
  rw [View.readCov_cons_toLoadRect]
  refine Eq.trans ?_ (rowsOf_q c tbl i sim x2 x3 (accOf c a12 a13 a14 a15 a16 a17) 42 (by decide)).symm
  unfold kernelRunC.sl.r_402 kernelRunC.sl.r_398
  simp only [S_v3589 c i tbl hT sim b9, V17_42 c i M2 hM2 M3 hM3 tbl hT sim x2 x3 b9 b10 a12 a13 a14 a15 a16 a17]
  try rfl
theorem V15_44 : kernelRunC.sl.v3820 c i M2 hM2 M3 hM3 tbl hT sim x2 x3 b9 b10 a15 = (rowsOf c tbl i sim x2 x3 (accOf c a12 a13 a14 a15 a16 a17) 44).nf := by
  unfold kernelRunC.sl.v3820 kernelRunC.sl.H15_44
  rw [View.readCov_cons_toLoadRect]
  refine Eq.trans ?_ (rowsOf_nf c tbl i sim x2 x3 (accOf c a12 a13 a14 a15 a16 a17) 43 (by decide)).symm
  unfold kernelRunC.sl.r_410 kernelRunC.sl.r_406 kernelRunC.sl.r_407 kernelRunC.sl.r_408
  simp only [S_v3674 c i tbl hT sim b10, V15_43 c i M2 hM2 M3 hM3 tbl hT sim x2 x3 b9 b10 a12 a13 a14 a15 a16 a17, in_read M2 hM2 x2 43 (by decide), mk_read M3 hM3 x3 43 (by decide)]
  try rfl
theorem V16_44 : kernelRunC.sl.v3825 c i tbl hT sim b9 b10 a16 = (rowsOf c tbl i sim x2 x3 (accOf c a12 a13 a14 a15 a16 a17) 44).s := by
  unfold kernelRunC.sl.v3825 kernelRunC.sl.H16_44
  rw [View.readCov_cons_toLoadRect]
  refine Eq.trans ?_ (rowsOf_s c tbl i sim x2 x3 (accOf c a12 a13 a14 a15 a16 a17) 43 (by decide)).symm
  unfold kernelRunC.sl.r_411 kernelRunC.sl.r_408
  simp only [S_v3674 c i tbl hT sim b10, V16_43 c i M2 hM2 M3 hM3 tbl hT sim x2 x3 b9 b10 a12 a13 a14 a15 a16 a17]
  try rfl
theorem V17_44 : kernelRunC.sl.v3830 c i tbl hT sim b9 b10 a17 = (rowsOf c tbl i sim x2 x3 (accOf c a12 a13 a14 a15 a16 a17) 44).q := by
  unfold kernelRunC.sl.v3830 kernelRunC.sl.H17_44
  rw [View.readCov_cons_toLoadRect]
  refine Eq.trans ?_ (rowsOf_q c tbl i sim x2 x3 (accOf c a12 a13 a14 a15 a16 a17) 43 (by decide)).symm
  unfold kernelRunC.sl.r_412 kernelRunC.sl.r_408
  simp only [S_v3674 c i tbl hT sim b10, V17_43 c i M2 hM2 M3 hM3 tbl hT sim x2 x3 b9 b10 a12 a13 a14 a15 a16 a17]
  try rfl
theorem V15_45 : kernelRunC.sl.v3905 c i M2 hM2 M3 hM3 tbl hT sim x2 x3 b9 b10 a15 = (rowsOf c tbl i sim x2 x3 (accOf c a12 a13 a14 a15 a16 a17) 45).nf := by
  unfold kernelRunC.sl.v3905 kernelRunC.sl.H15_45
  rw [View.readCov_cons_toLoadRect]
  refine Eq.trans ?_ (rowsOf_nf c tbl i sim x2 x3 (accOf c a12 a13 a14 a15 a16 a17) 44 (by decide)).symm
  unfold kernelRunC.sl.r_419
  simp only [S_v3759 c i tbl hT sim b9, V15_44 c i M2 hM2 M3 hM3 tbl hT sim x2 x3 b9 b10 a12 a13 a14 a15 a16 a17, in_read M2 hM2 x2 44 (by decide), mk_read M3 hM3 x3 44 (by decide)]
  try rfl
theorem V16_45 : kernelRunC.sl.v3910 c i tbl hT sim b9 b10 a16 = (rowsOf c tbl i sim x2 x3 (accOf c a12 a13 a14 a15 a16 a17) 45).s := by
  unfold kernelRunC.sl.v3910 kernelRunC.sl.H16_45
  rw [View.readCov_cons_toLoadRect]
  refine Eq.trans ?_ (rowsOf_s c tbl i sim x2 x3 (accOf c a12 a13 a14 a15 a16 a17) 44 (by decide)).symm
  unfold kernelRunC.sl.r_421
  simp only [S_v3759 c i tbl hT sim b9, V16_44 c i M2 hM2 M3 hM3 tbl hT sim x2 x3 b9 b10 a12 a13 a14 a15 a16 a17]
  try rfl
theorem V17_45 : kernelRunC.sl.v3915 c i tbl hT sim b9 b10 a17 = (rowsOf c tbl i sim x2 x3 (accOf c a12 a13 a14 a15 a16 a17) 45).q := by
  unfold kernelRunC.sl.v3915 kernelRunC.sl.H17_45
  rw [View.readCov_cons_toLoadRect]
  refine Eq.trans ?_ (rowsOf_q c tbl i sim x2 x3 (accOf c a12 a13 a14 a15 a16 a17) 44 (by decide)).symm
  unfold kernelRunC.sl.r_422 kernelRunC.sl.r_417
  simp only [S_v3759 c i tbl hT sim b9, V17_44 c i M2 hM2 M3 hM3 tbl hT sim x2 x3 b9 b10 a12 a13 a14 a15 a16 a17]
  try rfl
theorem V15_46 : kernelRunC.sl.v3990 c i M2 hM2 M3 hM3 tbl hT sim x2 x3 b9 b10 a15 = (rowsOf c tbl i sim x2 x3 (accOf c a12 a13 a14 a15 a16 a17) 46).nf := by
  unfold kernelRunC.sl.v3990 kernelRunC.sl.H15_46
  rw [View.readCov_cons_toLoadRect]
  refine Eq.trans ?_ (rowsOf_nf c tbl i sim x2 x3 (accOf c a12 a13 a14 a15 a16 a17) 45 (by decide)).symm
  unfold kernelRunC.sl.r_431 kernelRunC.sl.r_425 kernelRunC.sl.r_428
  simp only [S_v3844 c i tbl hT sim b10, V15_45 c i M2 hM2 M3 hM3 tbl hT sim x2 x3 b9 b10 a12 a13 a14 a15 a16 a17, in_read M2 hM2 x2 45 (by decide), mk_read M3 hM3 x3 45 (by decide)]
  try rfl
theorem V16_46 : kernelRunC.sl.v3995 c i tbl hT sim b9 b10 a16 = (rowsOf c tbl i sim x2 x3 (accOf c a12 a13 a14 a15 a16 a17) 46).s := by
  unfold kernelRunC.sl.v3995 kernelRunC.sl.H16_46
  rw [View.readCov_cons_toLoadRect]
  refine Eq.trans ?_ (rowsOf_s c tbl i sim x2 x3 (accOf c a12 a13 a14 a15 a16 a17) 45 (by decide)).symm
  unfold kernelRunC.sl.r_429 kernelRunC.sl.r_427
  simp only [S_v3844 c i tbl hT sim b10, V16_45 c i M2 hM2 M3 hM3 tbl hT sim x2 x3 b9 b10 a12 a13 a14 a15 a16 a17]
  try rfl
theorem V17_46 : kernelRunC.sl.v4000 c i tbl hT sim b9 b10 a17 = (rowsOf c tbl i sim x2 x3 (accOf c a12 a13 a14 a15 a16 a17) 46).q := by
  unfold kernelRunC.sl.v4000 kernelRunC.sl.H17_46
  rw [View.readCov_cons_toLoadRect]
  refine Eq.trans ?_ (rowsOf_q c tbl i sim x2 x3 (accOf c a12 a13 a14 a15 a16 a17) 45 (by decide)).symm
  unfold kernelRunC.sl.r_430 kernelRunC.sl.r_427
  simp only [S_v3844 c i tbl hT sim b10, V17_45 c i M2 hM2 M3 hM3 tbl hT sim x2 x3 b9 b10 a12 a13 a14 a15 a16 a17]
  try rfl
theorem V15_47 : kernelRunC.sl.v4075 c i M2 hM2 M3 hM3 tbl hT sim x2 x3 b9 b10 a15 = (rowsOf c tbl i sim x2 x3 (accOf c a12 a13 a14 a15 a16 a17) 47).nf := by
  unfold kernelRunC.sl.v4075 kernelRunC.sl.H15_47
  rw [View.readCov_cons_toLoadRect]
  refine Eq.trans ?_ (rowsOf_nf c tbl i sim x2 x3 (accOf c a12 a13 a14 a15 a16 a17) 46 (by decide)).symm
  unfold kernelRunC.sl.r_437 kernelRunC.sl.r_434 kernelRunC.sl.r_435 kernelRunC.sl.cst_284
  simp only [S_v3929 c i tbl hT sim b9, V15_46 c i M2 hM2 M3 hM3 tbl hT sim x2 x3 b9 b10 a12 a13 a14 a15 a16 a17, in_read M2 hM2 x2 46 (by decide), mk_read M3 hM3 x3 46 (by decide)]
  try rfl
theorem V16_47 : kernelRunC.sl.v4080 c i tbl hT sim b9 b10 a16 = (rowsOf c tbl i sim x2 x3 (accOf c a12 a13 a14 a15 a16 a17) 47).s := by
  unfold kernelRunC.sl.v4080 kernelRunC.sl.H16_47
  rw [View.readCov_cons_toLoadRect]
  refine Eq.trans ?_ (rowsOf_s c tbl i sim x2 x3 (accOf c a12 a13 a14 a15 a16 a17) 46 (by decide)).symm
  unfold kernelRunC.sl.r_438 kernelRunC.sl.cst_284
  simp only [S_v3929 c i tbl hT sim b9, V16_46 c i M2 hM2 M3 hM3 tbl hT sim x2 x3 b9 b10 a12 a13 a14 a15 a16 a17]
  try rfl
theorem V17_47 : kernelRunC.sl.v4085 c i tbl hT sim b9 b10 a17 = (rowsOf c tbl i sim x2 x3 (accOf c a12 a13 a14 a15 a16 a17) 47).q := by
  unfold kernelRunC.sl.v4085 kernelRunC.sl.H17_47
  rw [View.readCov_cons_toLoadRect]
  refine Eq.trans ?_ (rowsOf_q c tbl i sim x2 x3 (accOf c a12 a13 a14 a15 a16 a17) 46 (by decide)).symm
  unfold kernelRunC.sl.r_439 kernelRunC.sl.cst_284
  simp only [S_v3929 c i tbl hT sim b9, V17_46 c i M2 hM2 M3 hM3 tbl hT sim x2 x3 b9 b10 a12 a13 a14 a15 a16 a17]
  try rfl
theorem V15_48 : kernelRunC.sl.v4160 c i M2 hM2 M3 hM3 tbl hT sim x2 x3 b9 b10 a15 = (rowsOf c tbl i sim x2 x3 (accOf c a12 a13 a14 a15 a16 a17) 48).nf := by
  unfold kernelRunC.sl.v4160 kernelRunC.sl.H15_48
  rw [View.readCov_cons_toLoadRect]
  refine Eq.trans ?_ (rowsOf_nf c tbl i sim x2 x3 (accOf c a12 a13 a14 a15 a16 a17) 47 (by decide)).symm
  unfold kernelRunC.sl.r_446
  simp only [S_v4014 c i tbl hT sim b10, V15_47 c i M2 hM2 M3 hM3 tbl hT sim x2 x3 b9 b10 a12 a13 a14 a15 a16 a17, in_read M2 hM2 x2 47 (by decide), mk_read M3 hM3 x3 47 (by decide)]
  try rfl
theorem V16_48 : kernelRunC.sl.v4165 c i tbl hT sim b9 b10 a16 = (rowsOf c tbl i sim x2 x3 (accOf c a12 a13 a14 a15 a16 a17) 48).s := by
  unfold kernelRunC.sl.v4165 kernelRunC.sl.H16_48
  rw [View.readCov_cons_toLoadRect]
  refine Eq.trans ?_ (rowsOf_s c tbl i sim x2 x3 (accOf c a12 a13 a14 a15 a16 a17) 47 (by decide)).symm
  unfold kernelRunC.sl.r_444
  simp only [S_v4014 c i tbl hT sim b10, V16_47 c i M2 hM2 M3 hM3 tbl hT sim x2 x3 b9 b10 a12 a13 a14 a15 a16 a17]
  try rfl
theorem V17_48 : kernelRunC.sl.v4170 c i tbl hT sim b9 b10 a17 = (rowsOf c tbl i sim x2 x3 (accOf c a12 a13 a14 a15 a16 a17) 48).q := by
  unfold kernelRunC.sl.v4170 kernelRunC.sl.H17_48
  rw [View.readCov_cons_toLoadRect]
  refine Eq.trans ?_ (rowsOf_q c tbl i sim x2 x3 (accOf c a12 a13 a14 a15 a16 a17) 47 (by decide)).symm
  unfold kernelRunC.sl.r_448 kernelRunC.sl.r_444
  simp only [S_v4014 c i tbl hT sim b10, V17_47 c i M2 hM2 M3 hM3 tbl hT sim x2 x3 b9 b10 a12 a13 a14 a15 a16 a17]
  try rfl
theorem V15_49 : kernelRunC.sl.v4245 c i M2 hM2 M3 hM3 tbl hT sim x2 x3 b9 b10 a15 = (rowsOf c tbl i sim x2 x3 (accOf c a12 a13 a14 a15 a16 a17) 49).nf := by
  unfold kernelRunC.sl.v4245 kernelRunC.sl.H15_49
  rw [View.readCov_cons_toLoadRect]
  refine Eq.trans ?_ (rowsOf_nf c tbl i sim x2 x3 (accOf c a12 a13 a14 a15 a16 a17) 48 (by decide)).symm
  unfold kernelRunC.sl.r_454 kernelRunC.sl.r_451 kernelRunC.sl.r_452 kernelRunC.sl.r_453
  simp only [S_v4099 c i tbl hT sim b9, V15_48 c i M2 hM2 M3 hM3 tbl hT sim x2 x3 b9 b10 a12 a13 a14 a15 a16 a17, in_read M2 hM2 x2 48 (by decide), mk_read M3 hM3 x3 48 (by decide)]
  try rfl
theorem V16_49 : kernelRunC.sl.v4250 c i tbl hT sim b9 b10 a16 = (rowsOf c tbl i sim x2 x3 (accOf c a12 a13 a14 a15 a16 a17) 49).s := by
  unfold kernelRunC.sl.v4250 kernelRunC.sl.H16_49
  rw [View.readCov_cons_toLoadRect]
  refine Eq.trans ?_ (rowsOf_s c tbl i sim x2 x3 (accOf c a12 a13 a14 a15 a16 a17) 48 (by decide)).symm
  unfold kernelRunC.sl.r_455 kernelRunC.sl.r_453
  simp only [S_v4099 c i tbl hT sim b9, V16_48 c i M2 hM2 M3 hM3 tbl hT sim x2 x3 b9 b10 a12 a13 a14 a15 a16 a17]
  try rfl
theorem V17_49 : kernelRunC.sl.v4255 c i tbl hT sim b9 b10 a17 = (rowsOf c tbl i sim x2 x3 (accOf c a12 a13 a14 a15 a16 a17) 49).q := by
  unfold kernelRunC.sl.v4255 kernelRunC.sl.H17_49
  rw [View.readCov_cons_toLoadRect]
  refine Eq.trans ?_ (rowsOf_q c tbl i sim x2 x3 (accOf c a12 a13 a14 a15 a16 a17) 48 (by decide)).symm
  unfold kernelRunC.sl.r_456 kernelRunC.sl.r_453
  simp only [S_v4099 c i tbl hT sim b9, V17_48 c i M2 hM2 M3 hM3 tbl hT sim x2 x3 b9 b10 a12 a13 a14 a15 a16 a17]
  try rfl
theorem V15_50 : kernelRunC.sl.v4330 c i M2 hM2 M3 hM3 tbl hT sim x2 x3 b9 b10 a15 = (rowsOf c tbl i sim x2 x3 (accOf c a12 a13 a14 a15 a16 a17) 50).nf := by
  unfold kernelRunC.sl.v4330 kernelRunC.sl.H15_50
  rw [View.readCov_cons_toLoadRect]
  refine Eq.trans ?_ (rowsOf_nf c tbl i sim x2 x3 (accOf c a12 a13 a14 a15 a16 a17) 49 (by decide)).symm
  unfold kernelRunC.sl.r_462 kernelRunC.sl.r_458 kernelRunC.sl.r_459
  simp only [S_v4184 c i tbl hT sim b10, V15_49 c i M2 hM2 M3 hM3 tbl hT sim x2 x3 b9 b10 a12 a13 a14 a15 a16 a17, in_read M2 hM2 x2 49 (by decide), mk_read M3 hM3 x3 49 (by decide)]
  try rfl
theorem V16_50 : kernelRunC.sl.v4335 c i tbl hT sim b9 b10 a16 = (rowsOf c tbl i sim x2 x3 (accOf c a12 a13 a14 a15 a16 a17) 50).s := by
  unfold kernelRunC.sl.v4335 kernelRunC.sl.H16_50
  rw [View.readCov_cons_toLoadRect]
  refine Eq.trans ?_ (rowsOf_s c tbl i sim x2 x3 (accOf c a12 a13 a14 a15 a16 a17) 49 (by decide)).symm
  unfold kernelRunC.sl.r_464
  simp only [S_v4184 c i tbl hT sim b10, V16_49 c i M2 hM2 M3 hM3 tbl hT sim x2 x3 b9 b10 a12 a13 a14 a15 a16 a17]
  try rfl
theorem V17_50 : kernelRunC.sl.v4340 c i tbl hT sim b9 b10 a17 = (rowsOf c tbl i sim x2 x3 (accOf c a12 a13 a14 a15 a16 a17) 50).q := by
  unfold kernelRunC.sl.v4340 kernelRunC.sl.H17_50
  rw [View.readCov_cons_toLoadRect]
  refine Eq.trans ?_ (rowsOf_q c tbl i sim x2 x3 (accOf c a12 a13 a14 a15 a16 a17) 49 (by decide)).symm
  unfold kernelRunC.sl.r_465
  simp only [S_v4184 c i tbl hT sim b10, V17_49 c i M2 hM2 M3 hM3 tbl hT sim x2 x3 b9 b10 a12 a13 a14 a15 a16 a17]
  try rfl
theorem V15_51 : kernelRunC.sl.v4415 c i M2 hM2 M3 hM3 tbl hT sim x2 x3 b9 b10 a15 = (rowsOf c tbl i sim x2 x3 (accOf c a12 a13 a14 a15 a16 a17) 51).nf := by
  unfold kernelRunC.sl.v4415 kernelRunC.sl.H15_51
  rw [View.readCov_cons_toLoadRect]
  refine Eq.trans ?_ (rowsOf_nf c tbl i sim x2 x3 (accOf c a12 a13 a14 a15 a16 a17) 50 (by decide)).symm
  unfold kernelRunC.sl.r_471
  simp only [S_v4269 c i tbl hT sim b9, V15_50 c i M2 hM2 M3 hM3 tbl hT sim x2 x3 b9 b10 a12 a13 a14 a15 a16 a17, in_read M2 hM2 x2 50 (by decide), mk_read M3 hM3 x3 50 (by decide)]
  try rfl
theorem V16_51 : kernelRunC.sl.v4420 c i tbl hT sim b9 b10 a16 = (rowsOf c tbl i sim x2 x3 (accOf c a12 a13 a14 a15 a16 a17) 51).s := by
  unfold kernelRunC.sl.v4420 kernelRunC.sl.H16_51
  rw [View.readCov_cons_toLoadRect]
  refine Eq.trans ?_ (rowsOf_s c tbl i sim x2 x3 (accOf c a12 a13 a14 a15 a16 a17) 50 (by decide)).symm
  unfold kernelRunC.sl.r_474 kernelRunC.sl.r_469
  simp only [S_v4269 c i tbl hT sim b9, V16_50 c i M2 hM2 M3 hM3 tbl hT sim x2 x3 b9 b10 a12 a13 a14 a15 a16 a17]
  try rfl
theorem V17_51 : kernelRunC.sl.v4425 c i tbl hT sim b9 b10 a17 = (rowsOf c tbl i sim x2 x3 (accOf c a12 a13 a14 a15 a16 a17) 51).q := by
  unfold kernelRunC.sl.v4425 kernelRunC.sl.H17_51
  rw [View.readCov_cons_toLoadRect]
  refine Eq.trans ?_ (rowsOf_q c tbl i sim x2 x3 (accOf c a12 a13 a14 a15 a16 a17) 50 (by decide)).symm
  unfold kernelRunC.sl.r_473 kernelRunC.sl.r_469
  simp only [S_v4269 c i tbl hT sim b9, V17_50 c i M2 hM2 M3 hM3 tbl hT sim x2 x3 b9 b10 a12 a13 a14 a15 a16 a17]
  try rfl
theorem V15_52 : kernelRunC.sl.v4500 c i M2 hM2 M3 hM3 tbl hT sim x2 x3 b9 b10 a15 = (rowsOf c tbl i sim x2 x3 (accOf c a12 a13 a14 a15 a16 a17) 52).nf := by
  unfold kernelRunC.sl.v4500 kernelRunC.sl.H15_52
  rw [View.readCov_cons_toLoadRect]
  refine Eq.trans ?_ (rowsOf_nf c tbl i sim x2 x3 (accOf c a12 a13 a14 a15 a16 a17) 51 (by decide)).symm
  unfold kernelRunC.sl.r_481 kernelRunC.sl.r_477 kernelRunC.sl.r_478 kernelRunC.sl.r_479 kernelRunC.sl.r_480
  simp only [S_v4354 c i tbl hT sim b10, V15_51 c i M2 hM2 M3 hM3 tbl hT sim x2 x3 b9 b10 a12 a13 a14 a15 a16 a17, in_read M2 hM2 x2 51 (by decide), mk_read M3 hM3 x3 51 (by decide)]
  try rfl
theorem V16_52 : kernelRunC.sl.v4505 c i tbl hT sim b9 b10 a16 = (rowsOf c tbl i sim x2 x3 (accOf c a12 a13 a14 a15 a16 a17) 52).s := by
  unfold kernelRunC.sl.v4505 kernelRunC.sl.H16_52
  rw [View.readCov_cons_toLoadRect]
  refine Eq.trans ?_ (rowsOf_s c tbl i sim x2 x3 (accOf c a12 a13 a14 a15 a16 a17) 51 (by decide)).symm
  unfold kernelRunC.sl.r_482 kernelRunC.sl.r_479 kernelRunC.sl.r_480
  simp only [S_v4354 c i tbl hT sim b10, V16_51 c i M2 hM2 M3 hM3 tbl hT sim x2 x3 b9 b10 a12 a13 a14 a15 a16 a17]
  try rfl
theorem V17_52 : kernelRunC.sl.v4510 c i tbl hT sim b9 b10 a17 = (rowsOf c tbl i sim x2 x3 (accOf c a12 a13 a14 a15 a16 a17) 52).q := by
  unfold kernelRunC.sl.v4510 kernelRunC.sl.H17_52
  rw [View.readCov_cons_toLoadRect]
  refine Eq.trans ?_ (rowsOf_q c tbl i sim x2 x3 (accOf c a12 a13 a14 a15 a16 a17) 51 (by decide)).symm
  unfold kernelRunC.sl.r_483 kernelRunC.sl.r_479 kernelRunC.sl.r_480
  simp only [S_v4354 c i tbl hT sim b10, V17_51 c i M2 hM2 M3 hM3 tbl hT sim x2 x3 b9 b10 a12 a13 a14 a15 a16 a17]
  try rfl
theorem V15_53 : kernelRunC.sl.v4585 c i M2 hM2 M3 hM3 tbl hT sim x2 x3 b9 b10 a15 = (rowsOf c tbl i sim x2 x3 (accOf c a12 a13 a14 a15 a16 a17) 53).nf := by
  unfold kernelRunC.sl.v4585 kernelRunC.sl.H15_53
  rw [View.readCov_cons_toLoadRect]
  refine Eq.trans ?_ (rowsOf_nf c tbl i sim x2 x3 (accOf c a12 a13 a14 a15 a16 a17) 52 (by decide)).symm
  unfold kernelRunC.sl.r_491 kernelRunC.sl.r_486 kernelRunC.sl.r_487
  simp only [S_v4439 c i tbl hT sim b9, V15_52 c i M2 hM2 M3 hM3 tbl hT sim x2 x3 b9 b10 a12 a13 a14 a15 a16 a17, in_read M2 hM2 x2 52 (by decide), mk_read M3 hM3 x3 52 (by decide)]
  try rfl
theorem V16_53 : kernelRunC.sl.v4590 c i tbl hT sim b9 b10 a16 = (rowsOf c tbl i sim x2 x3 (accOf c a12 a13 a14 a15 a16 a17) 53).s := by
  unfold kernelRunC.sl.v4590 kernelRunC.sl.H16_53
  rw [View.readCov_cons_toLoadRect]
  refine Eq.trans ?_ (rowsOf_s c tbl i sim x2 x3 (accOf c a12 a13 a14 a15 a16 a17) 52 (by decide)).symm
  unfold kernelRunC.sl.r_493
  simp only [S_v4439 c i tbl hT sim b9, V16_52 c i M2 hM2 M3 hM3 tbl hT sim x2 x3 b9 b10 a12 a13 a14 a15 a16 a17]
  try rfl
theorem V17_53 : kernelRunC.sl.v4595 c i tbl hT sim b9 b10 a17 = (rowsOf c tbl i sim x2 x3 (accOf c a12 a13 a14 a15 a16 a17) 53).q := by
  unfold kernelRunC.sl.v4595 kernelRunC.sl.H17_53
  rw [View.readCov_cons_toLoadRect]
  refine Eq.trans ?_ (rowsOf_q c tbl i sim x2 x3 (accOf c a12 a13 a14 a15 a16 a17) 52 (by decide)).symm
  unfold kernelRunC.sl.r_494
  simp only [S_v4439 c i tbl hT sim b9, V17_52 c i M2 hM2 M3 hM3 tbl hT sim x2 x3 b9 b10 a12 a13 a14 a15 a16 a17]
  try rfl
theorem V15_54 : kernelRunC.sl.v4670 c i M2 hM2 M3 hM3 tbl hT sim x2 x3 b9 b10 a15 = (rowsOf c tbl i sim x2 x3 (accOf c a12 a13 a14 a15 a16 a17) 54).nf := by
  unfold kernelRunC.sl.v4670 kernelRunC.sl.H15_54
  rw [View.readCov_cons_toLoadRect]
  refine Eq.trans ?_ (rowsOf_nf c tbl i sim x2 x3 (accOf c a12 a13 a14 a15 a16 a17) 53 (by decide)).symm
  unfold kernelRunC.sl.r_502
  simp only [S_v4524 c i tbl hT sim b10, V15_53 c i M2 hM2 M3 hM3 tbl hT sim x2 x3 b9 b10 a12 a13 a14 a15 a16 a17, in_read M2 hM2 x2 53 (by decide), mk_read M3 hM3 x3 53 (by decide)]
  try rfl
theorem V16_54 : kernelRunC.sl.v4675 c i tbl hT sim b9 b10 a16 = (rowsOf c tbl i sim x2 x3 (accOf c a12 a13 a14 a15 a16 a17) 54).s := by
  unfold kernelRunC.sl.v4675 kernelRunC.sl.H16_54
  rw [View.readCov_cons_toLoadRect]
  refine Eq.trans ?_ (rowsOf_s c tbl i sim x2 x3 (accOf c a12 a13 a14 a15 a16 a17) 53 (by decide)).symm
  unfold kernelRunC.sl.r_505 kernelRunC.sl.r_500
  simp only [S_v4524 c i tbl hT sim b10, V16_53 c i M2 hM2 M3 hM3 tbl hT sim x2 x3 b9 b10 a12 a13 a14 a15 a16 a17]
  try rfl
theorem V17_54 : kernelRunC.sl.v4680 c i tbl hT sim b9 b10 a17 = (rowsOf c tbl i sim x2 x3 (accOf c a12 a13 a14 a15 a16 a17) 54).q := by
  unfold kernelRunC.sl.v4680 kernelRunC.sl.H17_54
  rw [View.readCov_cons_toLoadRect]
  refine Eq.trans ?_ (rowsOf_q c tbl i sim x2 x3 (accOf c a12 a13 a14 a15 a16 a17) 53 (by decide)).symm
  unfold kernelRunC.sl.r_504 kernelRunC.sl.r_500
  simp only [S_v4524 c i tbl hT sim b10, V17_53 c i M2 hM2 M3 hM3 tbl hT sim x2 x3 b9 b10 a12 a13 a14 a15 a16 a17]
  try rfl
theorem V15_55 : kernelRunC.sl.v4755 c i M2 hM2 M3 hM3 tbl hT sim x2 x3 b9 b10 a15 = (rowsOf c tbl i sim x2 x3 (accOf c a12 a13 a14 a15 a16 a17) 55).nf := by
  unfold kernelRunC.sl.v4755 kernelRunC.sl.H15_55
  rw [View.readCov_cons_toLoadRect]
  refine Eq.trans ?_ (rowsOf_nf c tbl i sim x2 x3 (accOf c a12 a13 a14 a15 a16 a17) 54 (by decide)).symm
  unfold kernelRunC.sl.r_512 kernelRunC.sl.r_508 kernelRunC.sl.r_509 kernelRunC.sl.r_510 kernelRunC.sl.r_511
  simp only [S_v4609 c i tbl hT sim b9, V15_54 c i M2 hM2 M3 hM3 tbl hT sim x2 x3 b9 b10 a12 a13 a14 a15 a16 a17, in_read M2 hM2 x2 54 (by decide), mk_read M3 hM3 x3 54 (by decide)]
  try rfl
theorem V16_55 : kernelRunC.sl.v4760 c i tbl hT sim b9 b10 a16 = (rowsOf c tbl i sim x2 x3 (accOf c a12 a13 a14 a15 a16 a17) 55).s := by
  unfold kernelRunC.sl.v4760 kernelRunC.sl.H16_55
  rw [View.readCov_cons_toLoadRect]
  refine Eq.trans ?_ (rowsOf_s c tbl i sim x2 x3 (accOf c a12 a13 a14 a15 a16 a17) 54 (by decide)).symm
  unfold kernelRunC.sl.r_513 kernelRunC.sl.r_510 kernelRunC.sl.r_511
  simp only [S_v4609 c i tbl hT sim b9, V16_54 c i M2 hM2 M3 hM3 tbl hT sim x2 x3 b9 b10 a12 a13 a14 a15 a16 a17]
  try rfl
theorem V17_55 : kernelRunC.sl.v4765 c i tbl hT sim b9 b10 a17 = (rowsOf c tbl i sim x2 x3 (accOf c a12 a13 a14 a15 a16 a17) 55).q := by
  unfold kernelRunC.sl.v4765 kernelRunC.sl.H17_55
  rw [View.readCov_cons_toLoadRect]
  refine Eq.trans ?_ (rowsOf_q c tbl i sim x2 x3 (accOf c a12 a13 a14 a15 a16 a17) 54 (by decide)).symm
  unfold kernelRunC.sl.r_514 kernelRunC.sl.r_510 kernelRunC.sl.r_511
  simp only [S_v4609 c i tbl hT sim b9, V17_54 c i M2 hM2 M3 hM3 tbl hT sim x2 x3 b9 b10 a12 a13 a14 a15 a16 a17]
  try rfl
theorem V15_56 : kernelRunC.sl.v4840 c i M2 hM2 M3 hM3 tbl hT sim x2 x3 b9 b10 a15 = (rowsOf c tbl i sim x2 x3 (accOf c a12 a13 a14 a15 a16 a17) 56).nf := by
  unfold kernelRunC.sl.v4840 kernelRunC.sl.H15_56
  rw [View.readCov_cons_toLoadRect]
  refine Eq.trans ?_ (rowsOf_nf c tbl i sim x2 x3 (accOf c a12 a13 a14 a15 a16 a17) 55 (by decide)).symm
  unfold kernelRunC.sl.r_521 kernelRunC.sl.r_517
  simp only [S_v4694 c i tbl hT sim b10, V15_55 c i M2 hM2 M3 hM3 tbl hT sim x2 x3 b9 b10 a12 a13 a14 a15 a16 a17, in_read M2 hM2 x2 55 (by decide), mk_read M3 hM3 x3 55 (by decide)]
  try rfl
theorem V16_56 : kernelRunC.sl.v4845 c i tbl hT sim b9 b10 a16 = (rowsOf c tbl i sim x2 x3 (accOf c a12 a13 a14 a15 a16 a17) 56).s := by
  unfold kernelRunC.sl.v4845 kernelRunC.sl.H16_56
  rw [View.readCov_cons_toLoadRect]
  refine Eq.trans ?_ (rowsOf_s c tbl i sim x2 x3 (accOf c a12 a13 a14 a15 a16 a17) 55 (by decide)).symm
  unfold kernelRunC.sl.r_523
  simp only [S_v4694 c i tbl hT sim b10, V16_55 c i M2 hM2 M3 hM3 tbl hT sim x2 x3 b9 b10 a12 a13 a14 a15 a16 a17]
  try rfl
theorem V17_56 : kernelRunC.sl.v4850 c i tbl hT sim b9 b10 a17 = (rowsOf c tbl i sim x2 x3 (accOf c a12 a13 a14 a15 a16 a17) 56).q := by
  unfold kernelRunC.sl.v4850 kernelRunC.sl.H17_56
  rw [View.readCov_cons_toLoadRect]
  refine Eq.trans ?_ (rowsOf_q c tbl i sim x2 x3 (accOf c a12 a13 a14 a15 a16 a17) 55 (by decide)).symm
  unfold kernelRunC.sl.r_524
  simp only [S_v4694 c i tbl hT sim b10, V17_55 c i M2 hM2 M3 hM3 tbl hT sim x2 x3 b9 b10 a12 a13 a14 a15 a16 a17]
  try rfl
theorem V15_57 : kernelRunC.sl.v4925 c i M2 hM2 M3 hM3 tbl hT sim x2 x3 b9 b10 a15 = (rowsOf c tbl i sim x2 x3 (accOf c a12 a13 a14 a15 a16 a17) 57).nf := by
  unfold kernelRunC.sl.v4925 kernelRunC.sl.H15_57
  rw [View.readCov_cons_toLoadRect]
  refine Eq.trans ?_ (rowsOf_nf c tbl i sim x2 x3 (accOf c a12 a13 a14 a15 a16 a17) 56 (by decide)).symm
  unfold kernelRunC.sl.r_532
  simp only [S_v4779 c i tbl hT sim b9, V15_56 c i M2 hM2 M3 hM3 tbl hT sim x2 x3 b9 b10 a12 a13 a14 a15 a16 a17, in_read M2 hM2 x2 56 (by decide), mk_read M3 hM3 x3 56 (by decide)]
  try rfl
theorem V16_57 : kernelRunC.sl.v4930 c i tbl hT sim b9 b10 a16 = (rowsOf c tbl i sim x2 x3 (accOf c a12 a13 a14 a15 a16 a17) 57).s := by
  unfold kernelRunC.sl.v4930 kernelRunC.sl.H16_57
  rw [View.readCov_cons_toLoadRect]
  refine Eq.trans ?_ (rowsOf_s c tbl i sim x2 x3 (accOf c a12 a13 a14 a15 a16 a17) 56 (by decide)).symm
  unfold kernelRunC.sl.r_533 kernelRunC.sl.r_530
  simp only [S_v4779 c i tbl hT sim b9, V16_56 c i M2 hM2 M3 hM3 tbl hT sim x2 x3 b9 b10 a12 a13 a14 a15 a16 a17]
  try rfl
theorem V17_57 : kernelRunC.sl.v4935 c i tbl hT sim b9 b10 a17 = (rowsOf c tbl i sim x2 x3 (accOf c a12 a13 a14 a15 a16 a17) 57).q := by
  unfold kernelRunC.sl.v4935 kernelRunC.sl.H17_57
  rw [View.readCov_cons_toLoadRect]
  refine Eq.trans ?_ (rowsOf_q c tbl i sim x2 x3 (accOf c a12 a13 a14 a15 a16 a17) 56 (by decide)).symm
  unfold kernelRunC.sl.r_534 kernelRunC.sl.r_530
  simp only [S_v4779 c i tbl hT sim b9, V17_56 c i M2 hM2 M3 hM3 tbl hT sim x2 x3 b9 b10 a12 a13 a14 a15 a16 a17]
  try rfl
theorem V15_58 : kernelRunC.sl.v5010 c i M2 hM2 M3 hM3 tbl hT sim x2 x3 b9 b10 a15 = (rowsOf c tbl i sim x2 x3 (accOf c a12 a13 a14 a15 a16 a17) 58).nf := by
  unfold kernelRunC.sl.v5010 kernelRunC.sl.H15_58
  rw [View.readCov_cons_toLoadRect]
  refine Eq.trans ?_ (rowsOf_nf c tbl i sim x2 x3 (accOf c a12 a13 a14 a15 a16 a17) 57 (by decide)).symm
  unfold kernelRunC.sl.r_542 kernelRunC.sl.r_537 kernelRunC.sl.r_538 kernelRunC.sl.r_539 kernelRunC.sl.r_540 kernelRunC.sl.cst_781
  simp only [S_v4864 c i tbl hT sim b10, V15_57 c i M2 hM2 M3 hM3 tbl hT sim x2 x3 b9 b10 a12 a13 a14 a15 a16 a17, in_read M2 hM2 x2 57 (by decide), mk_read M3 hM3 x3 57 (by decide)]
  try rfl
theorem V16_58 : kernelRunC.sl.v5015 c i tbl hT sim b9 b10 a16 = (rowsOf c tbl i sim x2 x3 (accOf c a12 a13 a14 a15 a16 a17) 58).s := by
  unfold kernelRunC.sl.v5015 kernelRunC.sl.H16_58
  rw [View.readCov_cons_toLoadRect]
  refine Eq.trans ?_ (rowsOf_s c tbl i sim x2 x3 (accOf c a12 a13 a14 a15 a16 a17) 57 (by decide)).symm
  unfold kernelRunC.sl.r_543 kernelRunC.sl.r_539 kernelRunC.sl.r_540 kernelRunC.sl.cst_781
  simp only [S_v4864 c i tbl hT sim b10, V16_57 c i M2 hM2 M3 hM3 tbl hT sim x2 x3 b9 b10 a12 a13 a14 a15 a16 a17]
  try rfl
theorem V17_58 : kernelRunC.sl.v5020 c i tbl hT sim b9 b10 a17 = (rowsOf c tbl i sim x2 x3 (accOf c a12 a13 a14 a15 a16 a17) 58).q := by
  unfold kernelRunC.sl.v5020 kernelRunC.sl.H17_58
  rw [View.readCov_cons_toLoadRect]
  refine Eq.trans ?_ (rowsOf_q c tbl i sim x2 x3 (accOf c a12 a13 a14 a15 a16 a17) 57 (by decide)).symm
  unfold kernelRunC.sl.r_544 kernelRunC.sl.r_539 kernelRunC.sl.r_540 kernelRunC.sl.cst_781
  simp only [S_v4864 c i tbl hT sim b10, V17_57 c i M2 hM2 M3 hM3 tbl hT sim x2 x3 b9 b10 a12 a13 a14 a15 a16 a17]
  try rfl
theorem V15_59 : kernelRunC.sl.v5095 c i M2 hM2 M3 hM3 tbl hT sim x2 x3 b9 b10 a15 = (rowsOf c tbl i sim x2 x3 (accOf c a12 a13 a14 a15 a16 a17) 59).nf := by
  unfold kernelRunC.sl.v5095 kernelRunC.sl.H15_59
  rw [View.readCov_cons_toLoadRect]
  refine Eq.trans ?_ (rowsOf_nf c tbl i sim x2 x3 (accOf c a12 a13 a14 a15 a16 a17) 58 (by decide)).symm
  unfold kernelRunC.sl.r_549
  simp only [V15_58 c i M2 hM2 M3 hM3 tbl hT sim x2 x3 b9 b10 a12 a13 a14 a15 a16 a17, S_v_2 c i tbl hT sim b9, in_read M2 hM2 x2 58 (by decide), mk_read M3 hM3 x3 58 (by decide)]
  try rfl
theorem V16_59 : kernelRunC.sl.v5100 c i tbl hT sim b9 b10 a16 = (rowsOf c tbl i sim x2 x3 (accOf c a12 a13 a14 a15 a16 a17) 59).s := by
  unfold kernelRunC.sl.v5100 kernelRunC.sl.H16_59
  rw [View.readCov_cons_toLoadRect]
  refine Eq.trans ?_ (rowsOf_s c tbl i sim x2 x3 (accOf c a12 a13 a14 a15 a16 a17) 58 (by decide)).symm
  unfold kernelRunC.sl.r_551
  simp only [V16_58 c i M2 hM2 M3 hM3 tbl hT sim x2 x3 b9 b10 a12 a13 a14 a15 a16 a17, S_v_2 c i tbl hT sim b9]
  try rfl
theorem V17_59 : kernelRunC.sl.v5105 c i tbl hT sim b9 b10 a17 = (rowsOf c tbl i sim x2 x3 (accOf c a12 a13 a14 a15 a16 a17) 59).q := by
  unfold kernelRunC.sl.v5105 kernelRunC.sl.H17_59
  rw [View.readCov_cons_toLoadRect]
  refine Eq.trans ?_ (rowsOf_q c tbl i sim x2 x3 (accOf c a12 a13 a14 a15 a16 a17) 58 (by decide)).symm
  unfold kernelRunC.sl.r_552
  simp only [V17_58 c i M2 hM2 M3 hM3 tbl hT sim x2 x3 b9 b10 a12 a13 a14 a15 a16 a17, S_v_2 c i tbl hT sim b9]
  try rfl
theorem V15_60 : kernelRunC.sl.v5180 c i M2 hM2 M3 hM3 tbl hT sim x2 x3 b9 b10 a15 = (rowsOf c tbl i sim x2 x3 (accOf c a12 a13 a14 a15 a16 a17) 60).nf := by
  unfold kernelRunC.sl.v5180 kernelRunC.sl.H15_60
  rw [View.readCov_cons_toLoadRect]
  refine Eq.trans ?_ (rowsOf_nf c tbl i sim x2 x3 (accOf c a12 a13 a14 a15 a16 a17) 59 (by decide)).symm
  unfold kernelRunC.sl.r_559
  simp only [S_v5034 c i tbl hT sim b10, V15_59 c i M2 hM2 M3 hM3 tbl hT sim x2 x3 b9 b10 a12 a13 a14 a15 a16 a17, in_read M2 hM2 x2 59 (by decide), mk_read M3 hM3 x3 59 (by decide)]
  try rfl
theorem V16_60 : kernelRunC.sl.v5185 c i tbl hT sim b9 b10 a16 = (rowsOf c tbl i sim x2 x3 (accOf c a12 a13 a14 a15 a16 a17) 60).s := by
  unfold kernelRunC.sl.v5185 kernelRunC.sl.H16_60
  rw [View.readCov_cons_toLoadRect]
  refine Eq.trans ?_ (rowsOf_s c tbl i sim x2 x3 (accOf c a12 a13 a14 a15 a16 a17) 59 (by decide)).symm
  unfold kernelRunC.sl.r_560 kernelRunC.sl.r_557
  simp only [S_v5034 c i tbl hT sim b10, V16_59 c i M2 hM2 M3 hM3 tbl hT sim x2 x3 b9 b10 a12 a13 a14 a15 a16 a17]
  try rfl
theorem V17_60 : kernelRunC.sl.v5190 c i tbl hT sim b9 b10 a17 = (rowsOf c tbl i sim x2 x3 (accOf c a12 a13 a14 a15 a16 a17) 60).q := by
  unfold kernelRunC.sl.v5190 kernelRunC.sl.H17_60
  rw [View.readCov_cons_toLoadRect]
  refine Eq.trans ?_ (rowsOf_q c tbl i sim x2 x3 (accOf c a12 a13 a14 a15 a16 a17) 59 (by decide)).symm
  unfold kernelRunC.sl.r_561 kernelRunC.sl.r_557
  simp only [S_v5034 c i tbl hT sim b10, V17_59 c i M2 hM2 M3 hM3 tbl hT sim x2 x3 b9 b10 a12 a13 a14 a15 a16 a17]
  try rfl
theorem V15_61 : kernelRunC.sl.v5265 c i M2 hM2 M3 hM3 tbl hT sim x2 x3 b9 b10 a15 = (rowsOf c tbl i sim x2 x3 (accOf c a12 a13 a14 a15 a16 a17) 61).nf := by
  unfold kernelRunC.sl.v5265 kernelRunC.sl.H15_61
  rw [View.readCov_cons_toLoadRect]
  refine Eq.trans ?_ (rowsOf_nf c tbl i sim x2 x3 (accOf c a12 a13 a14 a15 a16 a17) 60 (by decide)).symm
  unfold kernelRunC.sl.r_568 kernelRunC.sl.r_564 kernelRunC.sl.r_565 kernelRunC.sl.r_566 kernelRunC.sl.cst_15
  simp only [S_v5119 c i tbl hT sim b9, V15_60 c i M2 hM2 M3 hM3 tbl hT sim x2 x3 b9 b10 a12 a13 a14 a15 a16 a17, in_read M2 hM2 x2 60 (by decide), mk_read M3 hM3 x3 60 (by decide)]
  try rfl
theorem V16_61 : kernelRunC.sl.v5270 c i tbl hT sim b9 b10 a16 = (rowsOf c tbl i sim x2 x3 (accOf c a12 a13 a14 a15 a16 a17) 61).s := by
  unfold kernelRunC.sl.v5270 kernelRunC.sl.H16_61
  rw [View.readCov_cons_toLoadRect]
  refine Eq.trans ?_ (rowsOf_s c tbl i sim x2 x3 (accOf c a12 a13 a14 a15 a16 a17) 60 (by decide)).symm
  unfold kernelRunC.sl.r_569 kernelRunC.sl.r_566 kernelRunC.sl.cst_15
  simp only [S_v5119 c i tbl hT sim b9, V16_60 c i M2 hM2 M3 hM3 tbl hT sim x2 x3 b9 b10 a12 a13 a14 a15 a16 a17]
  try rfl
theorem V17_61 : kernelRunC.sl.v5275 c i tbl hT sim b9 b10 a17 = (rowsOf c tbl i sim x2 x3 (accOf c a12 a13 a14 a15 a16 a17) 61).q := by
  unfold kernelRunC.sl.v5275 kernelRunC.sl.H17_61
  rw [View.readCov_cons_toLoadRect]
  refine Eq.trans ?_ (rowsOf_q c tbl i sim x2 x3 (accOf c a12 a13 a14 a15 a16 a17) 60 (by decide)).symm
  unfold kernelRunC.sl.r_570 kernelRunC.sl.r_566 kernelRunC.sl.cst_15
  simp only [S_v5119 c i tbl hT sim b9, V17_60 c i M2 hM2 M3 hM3 tbl hT sim x2 x3 b9 b10 a12 a13 a14 a15 a16 a17]
  try rfl
theorem V15_62 : kernelRunC.sl.v5350 c i M2 hM2 M3 hM3 tbl hT sim x2 x3 b9 b10 a15 = (rowsOf c tbl i sim x2 x3 (accOf c a12 a13 a14 a15 a16 a17) 62).nf := by
  unfold kernelRunC.sl.v5350 kernelRunC.sl.H15_62
  rw [View.readCov_cons_toLoadRect]
  refine Eq.trans ?_ (rowsOf_nf c tbl i sim x2 x3 (accOf c a12 a13 a14 a15 a16 a17) 61 (by decide)).symm
  unfold kernelRunC.sl.r_576
  simp only [S_v5204 c i tbl hT sim b10, V15_61 c i M2 hM2 M3 hM3 tbl hT sim x2 x3 b9 b10 a12 a13 a14 a15 a16 a17, in_read M2 hM2 x2 61 (by decide), mk_read M3 hM3 x3 61 (by decide)]
  try rfl
theorem V16_62 : kernelRunC.sl.v5355 c i tbl hT sim b9 b10 a16 = (rowsOf c tbl i sim x2 x3 (accOf c a12 a13 a14 a15 a16 a17) 62).s := by
  unfold kernelRunC.sl.v5355 kernelRunC.sl.H16_62
  rw [View.readCov_cons_toLoadRect]
  refine Eq.trans ?_ (rowsOf_s c tbl i sim x2 x3 (accOf c a12 a13 a14 a15 a16 a17) 61 (by decide)).symm
  unfold kernelRunC.sl.r_578
  simp only [S_v5204 c i tbl hT sim b10, V16_61 c i M2 hM2 M3 hM3 tbl hT sim x2 x3 b9 b10 a12 a13 a14 a15 a16 a17]
  try rfl
theorem V17_62 : kernelRunC.sl.v5360 c i tbl hT sim b9 b10 a17 = (rowsOf c tbl i sim x2 x3 (accOf c a12 a13 a14 a15 a16 a17) 62).q := by
  unfold kernelRunC.sl.v5360 kernelRunC.sl.H17_62
  rw [View.readCov_cons_toLoadRect]
  refine Eq.trans ?_ (rowsOf_q c tbl i sim x2 x3 (accOf c a12 a13 a14 a15 a16 a17) 61 (by decide)).symm
  unfold kernelRunC.sl.r_580 kernelRunC.sl.r_579
  simp only [S_v5204 c i tbl hT sim b10, V17_61 c i M2 hM2 M3 hM3 tbl hT sim x2 x3 b9 b10 a12 a13 a14 a15 a16 a17]
  try rfl
theorem V15_63 : kernelRunC.sl.v5429 c i M2 hM2 M3 hM3 tbl hT sim x2 x3 b9 b10 a15 = (rowsOf c tbl i sim x2 x3 (accOf c a12 a13 a14 a15 a16 a17) 63).nf := by
  unfold kernelRunC.sl.v5429 kernelRunC.sl.H15_63
  rw [View.readCov_cons_toLoadRect]
  refine Eq.trans ?_ (rowsOf_nf c tbl i sim x2 x3 (accOf c a12 a13 a14 a15 a16 a17) 62 (by decide)).symm
  unfold kernelRunC.sl.r_590 kernelRunC.sl.r_583 kernelRunC.sl.r_586 kernelRunC.sl.cst_109
  simp only [S_v5289 c i tbl hT sim b9, V15_62 c i M2 hM2 M3 hM3 tbl hT sim x2 x3 b9 b10 a12 a13 a14 a15 a16 a17, in_read M2 hM2 x2 62 (by decide), mk_read M3 hM3 x3 62 (by decide)]
  try rfl
theorem V16_63 : kernelRunC.sl.v5434 c i tbl hT sim b9 b10 a16 = (rowsOf c tbl i sim x2 x3 (accOf c a12 a13 a14 a15 a16 a17) 63).s := by
  unfold kernelRunC.sl.v5434 kernelRunC.sl.H16_63
  rw [View.readCov_cons_toLoadRect]
  refine Eq.trans ?_ (rowsOf_s c tbl i sim x2 x3 (accOf c a12 a13 a14 a15 a16 a17) 62 (by decide)).symm
  unfold kernelRunC.sl.r_588 kernelRunC.sl.r_585
  simp only [S_v5289 c i tbl hT sim b9, V16_62 c i M2 hM2 M3 hM3 tbl hT sim x2 x3 b9 b10 a12 a13 a14 a15 a16 a17]
  try rfl
theorem V17_63 : kernelRunC.sl.v5439 c i tbl hT sim b9 b10 a17 = (rowsOf c tbl i sim x2 x3 (accOf c a12 a13 a14 a15 a16 a17) 63).q := by
  unfold kernelRunC.sl.v5439 kernelRunC.sl.H17_63
  rw [View.readCov_cons_toLoadRect]
  refine Eq.trans ?_ (rowsOf_q c tbl i sim x2 x3 (accOf c a12 a13 a14 a15 a16 a17) 62 (by decide)).symm
  unfold kernelRunC.sl.r_589 kernelRunC.sl.r_585
  simp only [S_v5289 c i tbl hT sim b9, V17_62 c i M2 hM2 M3 hM3 tbl hT sim x2 x3 b9 b10 a12 a13 a14 a15 a16 a17]
  try rfl
theorem L15_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.2.2.2.2.2.2.1 = kernelRunC.sl.H15_64 c i M2 hM2 M3 hM3 tbl hT sim x2 x3 b9 b10 a15 := rfl
theorem V15_64v : kernelRunC.sl.v5452 c i M2 hM2 M3 hM3 tbl hT sim x2 x3 b9 b10 a15 = (rowsOf c tbl i sim x2 x3 (accOf c a12 a13 a14 a15 a16 a17) 64).nf := by
  unfold kernelRunC.sl.v5452 kernelRunC.sl.H15_64
  rw [View.readCov_cons_toLoadRect]
  refine Eq.trans ?_ (rowsOf_nf c tbl i sim x2 x3 (accOf c a12 a13 a14 a15 a16 a17) 63 (by decide)).symm
  unfold kernelRunC.sl.r_596 kernelRunC.sl.r_592 kernelRunC.sl.r_593 kernelRunC.sl.r_594 kernelRunC.sl.r_595
  simp only [S_v5368 c i tbl hT sim b10, V15_63 c i M2 hM2 M3 hM3 tbl hT sim x2 x3 b9 b10 a12 a13 a14 a15 a16 a17, in_read M2 hM2 x2 63 (by decide), mk_read M3 hM3 x3 63 (by decide)]
  try rfl
theorem V15_64 : View.readAt (Elt F) (Memref.whole cc0_scratch6).view (Rect.unit ![0, 0] S1x1.size inb_S1x1_S1x1_0_0).toLoadRect ((Memref.whole cc0_scratch6).view.writes (Elt F) a15 (kernelRunC.sl.H15_64 c i M2 hM2 M3 hM3 tbl hT sim x2 x3 b9 b10 a15)) = (rowsOf c tbl i sim x2 x3 (accOf c a12 a13 a14 a15 a16 a17) 64).nf := by
  unfold kernelRunC.sl.H15_64
  rw [read_last_write]
  refine Eq.trans ?_ (rowsOf_nf c tbl i sim x2 x3 (accOf c a12 a13 a14 a15 a16 a17) 63 (by decide)).symm
  unfold kernelRunC.sl.r_596 kernelRunC.sl.r_592 kernelRunC.sl.r_593 kernelRunC.sl.r_594 kernelRunC.sl.r_595
  simp only [S_v5368 c i tbl hT sim b10, V15_63 c i M2 hM2 M3 hM3 tbl hT sim x2 x3 b9 b10 a12 a13 a14 a15 a16 a17, in_read M2 hM2 x2 63 (by decide), mk_read M3 hM3 x3 63 (by decide)]
  try rfl
theorem L16_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.2.2.2.2.2.2.2.1 = kernelRunC.sl.H16_64 c i tbl hT sim b9 b10 a16 := rfl
theorem V16_64v : kernelRunC.sl.v5460 c i tbl hT sim b9 b10 a16 = (rowsOf c tbl i sim x2 x3 (accOf c a12 a13 a14 a15 a16 a17) 64).s := by
  unfold kernelRunC.sl.v5460 kernelRunC.sl.H16_64
  rw [View.readCov_cons_toLoadRect]
  refine Eq.trans ?_ (rowsOf_s c tbl i sim x2 x3 (accOf c a12 a13 a14 a15 a16 a17) 63 (by decide)).symm
  unfold kernelRunC.sl.r_597 kernelRunC.sl.r_594 kernelRunC.sl.r_595
  simp only [S_v5368 c i tbl hT sim b10, V16_63 c i M2 hM2 M3 hM3 tbl hT sim x2 x3 b9 b10 a12 a13 a14 a15 a16 a17]
  try rfl
theorem V16_64 : View.readAt (Elt F) (Memref.whole cc0_scratch7).view (Rect.unit ![0, 0] S1x1.size inb_S1x1_S1x1_0_0).toLoadRect ((Memref.whole cc0_scratch7).view.writes (Elt F) a16 (kernelRunC.sl.H16_64 c i tbl hT sim b9 b10 a16)) = (rowsOf c tbl i sim x2 x3 (accOf c a12 a13 a14 a15 a16 a17) 64).s := by
  unfold kernelRunC.sl.H16_64
  rw [read_last_write]
  refine Eq.trans ?_ (rowsOf_s c tbl i sim x2 x3 (accOf c a12 a13 a14 a15 a16 a17) 63 (by decide)).symm
  unfold kernelRunC.sl.r_597 kernelRunC.sl.r_594 kernelRunC.sl.r_595
  simp only [S_v5368 c i tbl hT sim b10, V16_63 c i M2 hM2 M3 hM3 tbl hT sim x2 x3 b9 b10 a12 a13 a14 a15 a16 a17]
  try rfl
theorem L17_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.2.2.2.2.2.2.2.2.1 = kernelRunC.sl.H17_64 c i tbl hT sim b9 b10 a17 := rfl
theorem V17_64v : kernelRunC.sl.v5463 c i tbl hT sim b9 b10 a17 = (rowsOf c tbl i sim x2 x3 (accOf c a12 a13 a14 a15 a16 a17) 64).q := by
  unfold kernelRunC.sl.v5463 kernelRunC.sl.H17_64
  rw [View.readCov_cons_toLoadRect]
  refine Eq.trans ?_ (rowsOf_q c tbl i sim x2 x3 (accOf c a12 a13 a14 a15 a16 a17) 63 (by decide)).symm
  unfold kernelRunC.sl.r_600 kernelRunC.sl.r_598 kernelRunC.sl.r_594 kernelRunC.sl.r_595
  simp only [S_v5368 c i tbl hT sim b10, V17_63 c i M2 hM2 M3 hM3 tbl hT sim x2 x3 b9 b10 a12 a13 a14 a15 a16 a17]
  try rfl
theorem V17_64 : View.readAt (Elt F) (Memref.whole cc0_scratch8).view (Rect.unit ![0, 0] S1x1.size inb_S1x1_S1x1_0_0).toLoadRect ((Memref.whole cc0_scratch8).view.writes (Elt F) a17 (kernelRunC.sl.H17_64 c i tbl hT sim b9 b10 a17)) = (rowsOf c tbl i sim x2 x3 (accOf c a12 a13 a14 a15 a16 a17) 64).q := by
  unfold kernelRunC.sl.H17_64
  rw [read_last_write]
  refine Eq.trans ?_ (rowsOf_q c tbl i sim x2 x3 (accOf c a12 a13 a14 a15 a16 a17) 63 (by decide)).symm
  unfold kernelRunC.sl.r_600 kernelRunC.sl.r_598 kernelRunC.sl.r_594 kernelRunC.sl.r_595
  simp only [S_v5368 c i tbl hT sim b10, V17_63 c i M2 hM2 M3 hM3 tbl hT sim x2 x3 b9 b10 a12 a13 a14 a15 a16 a17]
  try rfl
end TabC

end Cert.Proof.K

end
-- ==== Proof.KStepLibOut.lean ====
/-
  A block written once through its whole rectangle reads back as the payload written, whatever it held before
  and whatever earlier writes there were: what each of the kernel's four one-by-one output blocks holds after
  the last grid point's store.
-/
import proofs.«419560_j5755256177164_3_alg».proof.Proof.KStepLib

noncomputable section

namespace Cert.Proof.K

open Cert.Kernel Cert.Kernel.Gen
open Idealize.ShloMosaic Idealize.ShloMosaic.TcCoe
open Idealize.SL Idealize.SL.Sem

variable {F : FTy → Type} [FloatOps F]

/-- The contents a list of writes left, when the last write went through the whole shape at zero offsets, read
    as that write's payload. -/
theorem read_after_whole_write {sig : RefSig} {κ : Kind} {sp : Space} {S : Shape} {e : EltTy} (v : View sig κ sp S e)
    (f : v.ty.Contents (Elt F)) {off : Fin S.rank → ℕ} (hz : off = fun _ => 0) (inb : ∀ a, off a + S.size a ≤ S.size a)
    (w : S.Idx → Elt F e) (L : List (View.Piece (Elt F) S e)) :
    v.read (Elt F) (v.writes (Elt F) f (⟨Rect.unit off S.size inb, w⟩ :: L)) = w := by
  have h := read_last_write v f (Rect.unit off S.size inb) w L
  rw [View.readAt_eq_ld, View.ld_unit_zero hz] at h
  exact h

end Cert.Proof.K

end
-- ==== Proof.KStepCTabV3.lean ====
import proofs.«419560_j5755256177164_3_alg».proof.Proof.KStepCTabV1
import proofs.«419560_j5755256177164_3_alg».proof.Proof.KStepCTabV2
import proofs.«419560_j5755256177164_3_alg».proof.Proof.KStepLibOut

/-!
  The table of case C: every value the run of one grid point named, against the clean quantity it is.
  Row r's target word (read once for the row copy, once for the one-hot row), the matrix row a row copy
  brings in, the row buffer's contents after the copy, and, for each of the six running sums and each
  k from 1 to 64, the sum's value after k rows: the k-th write's payload is the (k-1)-th value plus row
  k-1's addend.
-/
set_option maxRecDepth 65536
set_option maxHeartbeats 1000000

noncomputable section

namespace Cert.Proof.K

open Cert.Kernel Cert.Kernel.Gen
open Idealize.ShloMosaic Idealize.ShloMosaic.TcCoe
open Idealize.SL Idealize.SL.Sem

variable {F : FTy → Type} [FloatOps F]

namespace TabC

variable (c : Dev nD) (i : grid0.Coords) (M2 : Memref sig .tc .vmem S64x10000 .f32) (hM2 : M2.IsWhole) (M3 : Memref sig .tc .vmem S64x1 .f32) (hM3 : M3.IsWhole)
  (tbl : Bf (F := F) c (Memref.whole main_v2)) (hT : ∀ j, (tbl j : BitVec 32).toNat < 10000) (sim : Bf (F := F) c (Memref.whole main_arg1))
  (x2 : Vec F S64x10000 .f32) (x3 : Vec F S64x1 .f32)
  (b9 : Bf (F := F) c (Memref.whole cc0_scratch0)) (b10 : Bf (F := F) c (Memref.whole cc0_scratch1))
  (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))

include c i M2 hM2 M3 hM3 tbl hT sim x2 x3 b9 b10 a12 a13 a14 a15 a16 a17

theorem LO0_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).1 = [⟨Rect.unit ![0, 0] S1x1.size inb_S1x1_S1x1_0_0, k0_pay2 (kernelRunC.sl.v5447 c i M2 hM2 M3 hM3 tbl x2 x3 a13) (kernelRunC.sl.v5450 c M3 hM3 x3 a12)⟩] := rfl
theorem O0 (M5 : Memref sig .tc .vmem S1x1 .f32) (f : M5.view.ty.Contents (Elt F)) : M5.view.read (Elt F) (M5.view.writes (Elt F) f [⟨Rect.unit ![0, 0] S1x1.size inb_S1x1_S1x1_0_0, k0_pay2 (kernelRunC.sl.v5447 c i M2 hM2 M3 hM3 tbl x2 x3 a13) (kernelRunC.sl.v5450 c M3 hM3 x3 a12)⟩]) = (finalize (rowsOf c tbl i sim x2 x3 (accOf c a12 a13 a14 a15 a16 a17) 64)).ml := by
  refine Eq.trans (read_after_whole_write _ f (off := ![0, 0]) (by decide) _ _ _) ?_
  simp only [V13_64v c i M2 hM2 M3 hM3 tbl hT sim x2 x3 b9 b10 a12 a13 a14 a15 a16 a17, V12_64v c i M2 hM2 M3 hM3 tbl hT sim x2 x3 b9 b10 a12 a13 a14 a15 a16 a17]
  try rfl
theorem LO1_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.1 = [⟨Rect.unit ![0, 0] S1x1.size inb_S1x1_S1x1_0_0, k0_pay3 (kernelRunC.sl.v5447 c i M2 hM2 M3 hM3 tbl x2 x3 a13) (kernelRunC.sl.v5450 c M3 hM3 x3 a12) (kernelRunC.sl.v5452 c i M2 hM2 M3 hM3 tbl hT sim x2 x3 b9 b10 a15) (kernelRunC.sl.v5453 c i M3 hM3 tbl hT sim x3 b9 b10 a14)⟩] := rfl
theorem O1 (M6 : Memref sig .tc .vmem S1x1 .f32) (f : M6.view.ty.Contents (Elt F)) : M6.view.read (Elt F) (M6.view.writes (Elt F) f [⟨Rect.unit ![0, 0] S1x1.size inb_S1x1_S1x1_0_0, k0_pay3 (kernelRunC.sl.v5447 c i M2 hM2 M3 hM3 tbl x2 x3 a13) (kernelRunC.sl.v5450 c M3 hM3 x3 a12) (kernelRunC.sl.v5452 c i M2 hM2 M3 hM3 tbl hT sim x2 x3 b9 b10 a15) (kernelRunC.sl.v5453 c i M3 hM3 tbl hT sim x3 b9 b10 a14)⟩]) = (finalize (rowsOf c tbl i sim x2 x3 (accOf c a12 a13 a14 a15 a16 a17) 64)).total := by
  refine Eq.trans (read_after_whole_write _ f (off := ![0, 0]) (by decide) _ _ _) ?_
  simp only [V13_64v c i M2 hM2 M3 hM3 tbl hT sim x2 x3 b9 b10 a12 a13 a14 a15 a16 a17, V12_64v c i M2 hM2 M3 hM3 tbl hT sim x2 x3 b9 b10 a12 a13 a14 a15 a16 a17, V15_64v c i M2 hM2 M3 hM3 tbl hT sim x2 x3 b9 b10 a12 a13 a14 a15 a16 a17, V14_64v c i M2 hM2 M3 hM3 tbl hT sim x2 x3 b9 b10 a12 a13 a14 a15 a16 a17]
  try rfl
theorem LO2_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.2.1 = [⟨Rect.unit ![0, 0] S1x1.size inb_S1x1_S1x1_0_0, k0_pay4 (kernelRunC.sl.v5460 c i tbl hT sim b9 b10 a16)⟩] := rfl
theorem O2 (M7 : Memref sig .tc .vmem S1x1 .f32) (f : M7.view.ty.Contents (Elt F)) : M7.view.read (Elt F) (M7.view.writes (Elt F) f [⟨Rect.unit ![0, 0] S1x1.size inb_S1x1_S1x1_0_0, k0_pay4 (kernelRunC.sl.v5460 c i tbl hT sim b9 b10 a16)⟩]) = (finalize (rowsOf c tbl i sim x2 x3 (accOf c a12 a13 a14 a15 a16 a17) 64)).mean := by
  refine Eq.trans (read_after_whole_write _ f (off := ![0, 0]) (by decide) _ _ _) ?_
  simp only [V16_64v c i M2 hM2 M3 hM3 tbl hT sim x2 x3 b9 b10 a12 a13 a14 a15 a16 a17]
  try rfl
theorem LO3_eq (M5 : Memref sig .tc .vmem S1x1 .f32) (hM5 : M5.IsWhole) (M6 : Memref sig .tc .vmem S1x1 .f32) (hM6 : M6.IsWhole) (M7 : Memref sig .tc .vmem S1x1 .f32) (hM7 : M7.IsWhole) (M8 : Memref sig .tc .vmem S1x1 .f32) (hM8 : M8.IsWhole) (h1 : ¬ C1 i) (h2 : C2 i) : (kernelRunC c i M2 hM2 M3 hM3 M5 hM5 M6 hM6 M7 hM7 M8 hM8 tbl hT sim x2 x3 b9 b10 a12 a13 a14 a15 a16 a17 h1 h2).2.2.2.1 = [⟨Rect.unit ![0, 0] S1x1.size inb_S1x1_S1x1_0_0, k0_pay5 (kernelRunC.sl.v5460 c i tbl hT sim b9 b10 a16) (kernelRunC.sl.v5463 c i tbl hT sim b9 b10 a17)⟩] := rfl
theorem O3 (M8 : Memref sig .tc .vmem S1x1 .f32) (f : M8.view.ty.Contents (Elt F)) : M8.view.read (Elt F) (M8.view.writes (Elt F) f [⟨Rect.unit ![0, 0] S1x1.size inb_S1x1_S1x1_0_0, k0_pay5 (kernelRunC.sl.v5460 c i tbl hT sim b9 b10 a16) (kernelRunC.sl.v5463 c i tbl hT sim b9 b10 a17)⟩]) = (finalize (rowsOf c tbl i sim x2 x3 (accOf c a12 a13 a14 a15 a16 a17) 64)).std := by
  refine Eq.trans (read_after_whole_write _ f (off := ![0, 0]) (by decide) _ _ _) ?_
  simp only [V16_64v c i M2 hM2 M3 hM3 tbl hT sim x2 x3 b9 b10 a12 a13 a14 a15 a16 a17, V17_64v c i M2 hM2 M3 hM3 tbl hT sim x2 x3 b9 b10 a12 a13 a14 a15 a16 a17]
  try rfl
end TabC

end Cert.Proof.K

end
-- ==== Proof.KStepC.lean ====
/-
  Case C of the kernel body's run at one grid point: what the run found in the six accumulator buffers is the
  point's clean step. Each found list ends with a write through the whole one-by-one buffer, so the buffer reads
  back as that write's payload; the payload is the running sum after sixty-four rows (the table's last line for
  that sum); and the sixty-four rows, one at a time, are the point's step.
  At this last grid point each of the four output blocks takes one write through the whole block, of the result
  computed from the final sums: it reads back as that result of the point's step.
-/
import proofs.«419560_j5755256177164_3_alg».proof.Proof.KRunC
import proofs.«419560_j5755256177164_3_alg».proof.Proof.KStepLib
import proofs.«419560_j5755256177164_3_alg».proof.Proof.KStepCTabV1
import proofs.«419560_j5755256177164_3_alg».proof.Proof.KStepCTabV2
import proofs.«419560_j5755256177164_3_alg».proof.Proof.KStepCTabV3

set_option maxRecDepth 65536

noncomputable section

namespace Cert.Proof.K

open Cert.Kernel Cert.Kernel.Gen
open Idealize.ShloMosaic Idealize.ShloMosaic.TcCoe
open Idealize.SL Idealize.SL.Sem

variable {F : FTy → Type} [FloatOps F]

theorem stepC_eq (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))
    (h1 : ¬ C1 i) (h2 : C2 i) :
    accOf c
      ((Memref.whole cc0_scratch3).view.writes (Elt F) a12 (kernelRunC c i M2 hM2 M3 hM3 M5 hM5 M6 hM6 M7 hM7 M8 hM8 tbl hT sim x2 x3 b9 b10 a12 a13 a14 a15 a16 a17 h1 h2).2.2.2.2.1)
      ((Memref.whole cc0_scratch4).view.writes (Elt F) a13 (kernelRunC c i M2 hM2 M3 hM3 M5 hM5 M6 hM6 M7 hM7 M8 hM8 tbl hT sim x2 x3 b9 b10 a12 a13 a14 a15 a16 a17 h1 h2).2.2.2.2.2.1)
      ((Memref.whole cc0_scratch5).view.writes (Elt F) a14 (kernelRunC c i M2 hM2 M3 hM3 M5 hM5 M6 hM6 M7 hM7 M8 hM8 tbl hT sim x2 x3 b9 b10 a12 a13 a14 a15 a16 a17 h1 h2).2.2.2.2.2.2.1)
      ((Memref.whole cc0_scratch6).view.writes (Elt F) a15 (kernelRunC c i M2 hM2 M3 hM3 M5 hM5 M6 hM6 M7 hM7 M8 hM8 tbl hT sim x2 x3 b9 b10 a12 a13 a14 a15 a16 a17 h1 h2).2.2.2.2.2.2.2.1)
      ((Memref.whole cc0_scratch7).view.writes (Elt F) a16 (kernelRunC c i M2 hM2 M3 hM3 M5 hM5 M6 hM6 M7 hM7 M8 hM8 tbl hT sim x2 x3 b9 b10 a12 a13 a14 a15 a16 a17 h1 h2).2.2.2.2.2.2.2.2.1)
      ((Memref.whole cc0_scratch8).view.writes (Elt F) a17 (kernelRunC c i M2 hM2 M3 hM3 M5 hM5 M6 hM6 M7 hM7 M8 hM8 tbl hT sim x2 x3 b9 b10 a12 a13 a14 a15 a16 a17 h1 h2).2.2.2.2.2.2.2.2.2.1)
      = pointOf c tbl i sim x2 x3 (accOf c a12 a13 a14 a15 a16 a17) := by
  have e12 : View.readAt (Elt F) (Memref.whole cc0_scratch3).view (Rect.unit ![0, 0] S1x1.size inb_S1x1_S1x1_0_0).toLoadRect
      ((Memref.whole cc0_scratch3).view.writes (Elt F) a12 (kernelRunC c i M2 hM2 M3 hM3 M5 hM5 M6 hM6 M7 hM7 M8 hM8 tbl hT sim x2 x3 b9 b10 a12 a13 a14 a15 a16 a17 h1 h2).2.2.2.2.1)
      = (rowsOf c tbl i sim x2 x3 (accOf c a12 a13 a14 a15 a16 a17) 64).m :=
    (congrArg (fun L => View.readAt (Elt F) (Memref.whole cc0_scratch3).view (Rect.unit ![0, 0] S1x1.size inb_S1x1_S1x1_0_0).toLoadRect
      ((Memref.whole cc0_scratch3).view.writes (Elt F) a12 L))
      (TabC.L12_eq c i M2 hM2 M3 hM3 tbl hT sim x2 x3 b9 b10 a12 a13 a14 a15 a16 a17 M5 hM5 M6 hM6 M7 hM7 M8 hM8 h1 h2)).trans (TabC.V12_64 c i M2 hM2 M3 hM3 tbl hT sim x2 x3 b9 b10 a12 a13 a14 a15 a16 a17)
  have e13 : View.readAt (Elt F) (Memref.whole cc0_scratch4).view (Rect.unit ![0, 0] S1x1.size inb_S1x1_S1x1_0_0).toLoadRect
      ((Memref.whole cc0_scratch4).view.writes (Elt F) a13 (kernelRunC c i M2 hM2 M3 hM3 M5 hM5 M6 hM6 M7 hM7 M8 hM8 tbl hT sim x2 x3 b9 b10 a12 a13 a14 a15 a16 a17 h1 h2).2.2.2.2.2.1)
      = (rowsOf c tbl i sim x2 x3 (accOf c a12 a13 a14 a15 a16 a17) 64).logp :=
    (congrArg (fun L => View.readAt (Elt F) (Memref.whole cc0_scratch4).view (Rect.unit ![0, 0] S1x1.size inb_S1x1_S1x1_0_0).toLoadRect
      ((Memref.whole cc0_scratch4).view.writes (Elt F) a13 L))
      (TabC.L13_eq c i M2 hM2 M3 hM3 tbl hT sim x2 x3 b9 b10 a12 a13 a14 a15 a16 a17 M5 hM5 M6 hM6 M7 hM7 M8 hM8 h1 h2)).trans (TabC.V13_64 c i M2 hM2 M3 hM3 tbl hT sim x2 x3 b9 b10 a12 a13 a14 a15 a16 a17)
  have e14 : View.readAt (Elt F) (Memref.whole cc0_scratch5).view (Rect.unit ![0, 0] S1x1.size inb_S1x1_S1x1_0_0).toLoadRect
      ((Memref.whole cc0_scratch5).view.writes (Elt F) a14 (kernelRunC c i M2 hM2 M3 hM3 M5 hM5 M6 hM6 M7 hM7 M8 hM8 tbl hT sim x2 x3 b9 b10 a12 a13 a14 a15 a16 a17 h1 h2).2.2.2.2.2.2.1)
      = (rowsOf c tbl i sim x2 x3 (accOf c a12 a13 a14 a15 a16 a17) 64).w :=
    (congrArg (fun L => View.readAt (Elt F) (Memref.whole cc0_scratch5).view (Rect.unit ![0, 0] S1x1.size inb_S1x1_S1x1_0_0).toLoadRect
      ((Memref.whole cc0_scratch5).view.writes (Elt F) a14 L))
      (TabC.L14_eq c i M2 hM2 M3 hM3 tbl hT sim x2 x3 b9 b10 a12 a13 a14 a15 a16 a17 M5 hM5 M6 hM6 M7 hM7 M8 hM8 h1 h2)).trans (TabC.V14_64 c i M2 hM2 M3 hM3 tbl hT sim x2 x3 b9 b10 a12 a13 a14 a15 a16 a17)
  have e15 : View.readAt (Elt F) (Memref.whole cc0_scratch6).view (Rect.unit ![0, 0] S1x1.size inb_S1x1_S1x1_0_0).toLoadRect
      ((Memref.whole cc0_scratch6).view.writes (Elt F) a15 (kernelRunC c i M2 hM2 M3 hM3 M5 hM5 M6 hM6 M7 hM7 M8 hM8 tbl hT sim x2 x3 b9 b10 a12 a13 a14 a15 a16 a17 h1 h2).2.2.2.2.2.2.2.1)
      = (rowsOf c tbl i sim x2 x3 (accOf c a12 a13 a14 a15 a16 a17) 64).nf :=
    (congrArg (fun L => View.readAt (Elt F) (Memref.whole cc0_scratch6).view (Rect.unit ![0, 0] S1x1.size inb_S1x1_S1x1_0_0).toLoadRect
      ((Memref.whole cc0_scratch6).view.writes (Elt F) a15 L))
      (TabC.L15_eq c i M2 hM2 M3 hM3 tbl hT sim x2 x3 b9 b10 a12 a13 a14 a15 a16 a17 M5 hM5 M6 hM6 M7 hM7 M8 hM8 h1 h2)).trans (TabC.V15_64 c i M2 hM2 M3 hM3 tbl hT sim x2 x3 b9 b10 a12 a13 a14 a15 a16 a17)
  have e16 : View.readAt (Elt F) (Memref.whole cc0_scratch7).view (Rect.unit ![0, 0] S1x1.size inb_S1x1_S1x1_0_0).toLoadRect
      ((Memref.whole cc0_scratch7).view.writes (Elt F) a16 (kernelRunC c i M2 hM2 M3 hM3 M5 hM5 M6 hM6 M7 hM7 M8 hM8 tbl hT sim x2 x3 b9 b10 a12 a13 a14 a15 a16 a17 h1 h2).2.2.2.2.2.2.2.2.1)
      = (rowsOf c tbl i sim x2 x3 (accOf c a12 a13 a14 a15 a16 a17) 64).s :=
    (congrArg (fun L => View.readAt (Elt F) (Memref.whole cc0_scratch7).view (Rect.unit ![0, 0] S1x1.size inb_S1x1_S1x1_0_0).toLoadRect
      ((Memref.whole cc0_scratch7).view.writes (Elt F) a16 L))
      (TabC.L16_eq c i M2 hM2 M3 hM3 tbl hT sim x2 x3 b9 b10 a12 a13 a14 a15 a16 a17 M5 hM5 M6 hM6 M7 hM7 M8 hM8 h1 h2)).trans (TabC.V16_64 c i M2 hM2 M3 hM3 tbl hT sim x2 x3 b9 b10 a12 a13 a14 a15 a16 a17)
  have e17 : View.readAt (Elt F) (Memref.whole cc0_scratch8).view (Rect.unit ![0, 0] S1x1.size inb_S1x1_S1x1_0_0).toLoadRect
      ((Memref.whole cc0_scratch8).view.writes (Elt F) a17 (kernelRunC c i M2 hM2 M3 hM3 M5 hM5 M6 hM6 M7 hM7 M8 hM8 tbl hT sim x2 x3 b9 b10 a12 a13 a14 a15 a16 a17 h1 h2).2.2.2.2.2.2.2.2.2.1)
      = (rowsOf c tbl i sim x2 x3 (accOf c a12 a13 a14 a15 a16 a17) 64).q :=
    (congrArg (fun L => View.readAt (Elt F) (Memref.whole cc0_scratch8).view (Rect.unit ![0, 0] S1x1.size inb_S1x1_S1x1_0_0).toLoadRect
      ((Memref.whole cc0_scratch8).view.writes (Elt F) a17 L))
      (TabC.L17_eq c i M2 hM2 M3 hM3 tbl hT sim x2 x3 b9 b10 a12 a13 a14 a15 a16 a17 M5 hM5 M6 hM6 M7 hM7 M8 hM8 h1 h2)).trans (TabC.V17_64 c i M2 hM2 M3 hM3 tbl hT sim x2 x3 b9 b10 a12 a13 a14 a15 a16 a17)
  refine Eq.trans ?_ (pointOf_eq_rowsOf c tbl i sim x2 x3 (accOf c a12 a13 a14 a15 a16 a17)).symm
  exact Acc.ext6 e12 e13 e14 e15 e16 e17

theorem outC_eq (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))
    (h1 : ¬ C1 i) (h2 : C2 i)
    (f5 : M5.view.ty.Contents (Elt F)) (f6 : M6.view.ty.Contents (Elt F)) (f7 : M7.view.ty.Contents (Elt F)) (f8 : M8.view.ty.Contents (Elt F)) :
    M5.view.read (Elt F) (M5.view.writes (Elt F) f5 (kernelRunC c i M2 hM2 M3 hM3 M5 hM5 M6 hM6 M7 hM7 M8 hM8 tbl hT sim x2 x3 b9 b10 a12 a13 a14 a15 a16 a17 h1 h2).1) = (finalize (pointOf c tbl i sim x2 x3 (accOf c a12 a13 a14 a15 a16 a17))).ml
    ∧ M6.view.read (Elt F) (M6.view.writes (Elt F) f6 (kernelRunC c i M2 hM2 M3 hM3 M5 hM5 M6 hM6 M7 hM7 M8 hM8 tbl hT sim x2 x3 b9 b10 a12 a13 a14 a15 a16 a17 h1 h2).2.1) = (finalize (pointOf c tbl i sim x2 x3 (accOf c a12 a13 a14 a15 a16 a17))).total
    ∧ M7.view.read (Elt F) (M7.view.writes (Elt F) f7 (kernelRunC c i M2 hM2 M3 hM3 M5 hM5 M6 hM6 M7 hM7 M8 hM8 tbl hT sim x2 x3 b9 b10 a12 a13 a14 a15 a16 a17 h1 h2).2.2.1) = (finalize (pointOf c tbl i sim x2 x3 (accOf c a12 a13 a14 a15 a16 a17))).mean
    ∧ M8.view.read (Elt F) (M8.view.writes (Elt F) f8 (kernelRunC c i M2 hM2 M3 hM3 M5 hM5 M6 hM6 M7 hM7 M8 hM8 tbl hT sim x2 x3 b9 b10 a12 a13 a14 a15 a16 a17 h1 h2).2.2.2.1) = (finalize (pointOf c tbl i sim x2 x3 (accOf c a12 a13 a14 a15 a16 a17))).std := by
  have hp := pointOf_eq_rowsOf c tbl i sim x2 x3 (accOf c a12 a13 a14 a15 a16 a17)
  refine ⟨?_, ?_, ?_, ?_⟩
  · exact ((congrArg (fun L => M5.view.read (Elt F) (M5.view.writes (Elt F) f5 L))
      (TabC.LO0_eq c i M2 hM2 M3 hM3 tbl hT sim x2 x3 b9 b10 a12 a13 a14 a15 a16 a17 M5 hM5 M6 hM6 M7 hM7 M8 hM8 h1 h2)).trans (TabC.O0 c i M2 hM2 M3 hM3 tbl hT sim x2 x3 b9 b10 a12 a13 a14 a15 a16 a17 M5 f5)).trans
      (congrArg (fun a => (finalize a).ml) hp.symm)
  · exact ((congrArg (fun L => M6.view.read (Elt F) (M6.view.writes (Elt F) f6 L))
      (TabC.LO1_eq c i M2 hM2 M3 hM3 tbl hT sim x2 x3 b9 b10 a12 a13 a14 a15 a16 a17 M5 hM5 M6 hM6 M7 hM7 M8 hM8 h1 h2)).trans (TabC.O1 c i M2 hM2 M3 hM3 tbl hT sim x2 x3 b9 b10 a12 a13 a14 a15 a16 a17 M6 f6)).trans
      (congrArg (fun a => (finalize a).total) hp.symm)
  · exact ((congrArg (fun L => M7.view.read (Elt F) (M7.view.writes (Elt F) f7 L))
      (TabC.LO2_eq c i M2 hM2 M3 hM3 tbl hT sim x2 x3 b9 b10 a12 a13 a14 a15 a16 a17 M5 hM5 M6 hM6 M7 hM7 M8 hM8 h1 h2)).trans (TabC.O2 c i M2 hM2 M3 hM3 tbl hT sim x2 x3 b9 b10 a12 a13 a14 a15 a16 a17 M7 f7)).trans
      (congrArg (fun a => (finalize a).mean) hp.symm)
  · exact ((congrArg (fun L => M8.view.read (Elt F) (M8.view.writes (Elt F) f8 L))
      (TabC.LO3_eq c i M2 hM2 M3 hM3 tbl hT sim x2 x3 b9 b10 a12 a13 a14 a15 a16 a17 M5 hM5 M6 hM6 M7 hM7 M8 hM8 h1 h2)).trans (TabC.O3 c i M2 hM2 M3 hM3 tbl hT sim x2 x3 b9 b10 a12 a13 a14 a15 a16 a17 M8 f8)).trans
      (congrArg (fun a => (finalize a).std) hp.symm)

end Cert.Proof.K

end
-- ==== Proof.KBody.lean ====
/-
  The body obligation of the kernel region: at every one of the 48 grid points, from the invariant, what the core owes
  and the six windows' current buffers, the kernel body runs to the invariant at the next point. The grid splits in
  three: the first point (the body resets the six accumulators, then adds its 64 rows), the middle points (it adds its
  64 rows to what the point before left) and the last point (it adds its rows and then finalizes the accumulators into
  the four (1,1) results, storing them into the four output blocks). At each the body's run hands back six cells whose
  reading is the point's step of the accumulators — hence, by the recursion that defines them, the accumulators after
  that point —; the two input blocks are left as fetched; the four output blocks are idle and handed back untouched at
  every point but the last, where what is read back from each is the finalized result.
-/
import proofs.«419560_j5755256177164_3_alg».proof.Proof.KData
import proofs.«419560_j5755256177164_3_alg».proof.Proof.KRunA
import proofs.«419560_j5755256177164_3_alg».proof.Proof.KRunB
import proofs.«419560_j5755256177164_3_alg».proof.Proof.KRunC
import proofs.«419560_j5755256177164_3_alg».proof.Proof.KStepA
import proofs.«419560_j5755256177164_3_alg».proof.Proof.KStepB
import proofs.«419560_j5755256177164_3_alg».proof.Proof.KStepC

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

/-! ## The three runs with what they find named -/

/-- The body at the first point, with what it finds named: six cells that read as the point's step from zero. -/
theorem runA_pack (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8)) (h1 : C1 i) (h2 : ¬ C2 i) :
    ∃ (w12 : Bf (F := F) c (Memref.whole cc0_scratch3)) (w13 : Bf (F := F) c (Memref.whole cc0_scratch4)) (w14 : Bf (F := F) c (Memref.whole cc0_scratch5)) (w15 : Bf (F := F) c (Memref.whole cc0_scratch6)) (w16 : Bf (F := F) c (Memref.whole cc0_scratch7)) (w17 : Bf (F := F) c (Memref.whole cc0_scratch8)),
      accOf c w12 w13 w14 w15 w16 w17 = pointOf c tbl i sim x2 x3 zeroAcc ∧
      ∀ (O : sProp 𝕄) (W : Waits sig Unit) (Q : PUnit → sProp 𝕄),
        iprop(pt c (Memref.whole main_v2) tbl ∗ owns (c : Thread nD τ) M2 fullShare x2 ∗ owns (c : Thread nD τ) M3 fullShare x3
            ∗ pt c (Memref.whole main_arg1) sim ∗ O
            ∗ pt c (Memref.whole cc0_scratch0) b9 ∗ pt c (Memref.whole cc0_scratch1) b10
            ∗ pt c (Memref.whole cc0_scratch3) a12 ∗ pt c (Memref.whole cc0_scratch4) a13 ∗ pt c (Memref.whole cc0_scratch5) a14 ∗ pt c (Memref.whole cc0_scratch6) a15 ∗ pt c (Memref.whole cc0_scratch7) a16 ∗ pt c (Memref.whole cc0_scratch8) a17
            ∗ sems0 c ∗ owes (c : Thread nD τ) 0 W
            ∗ (iprop(pt c (Memref.whole main_v2) tbl ∗ owns (c : Thread nD τ) M2 fullShare x2 ∗ owns (c : Thread nD τ) M3 fullShare x3
              ∗ pt c (Memref.whole main_arg1) sim ∗ O
              ∗ (∃ f, pt c (Memref.whole cc0_scratch0) f) ∗ (∃ f, pt c (Memref.whole cc0_scratch1) f)
              ∗ pt c (Memref.whole cc0_scratch3) w12 ∗ pt c (Memref.whole cc0_scratch4) w13 ∗ pt c (Memref.whole cc0_scratch5) w14 ∗ pt c (Memref.whole cc0_scratch6) w15 ∗ pt c (Memref.whole cc0_scratch7) w16 ∗ pt c (Memref.whole cc0_scratch8) w17
              ∗ sems0 c ∗ ∃ W', owes (c : Thread nD τ) 0 W') -∗ Q ⟨⟩))
          ⊢ wp frame (wpE (defs₀ (F := F)) Variants.none c none) Set.univ (bodyAt i M2 hM2 M3 hM3 M5 hM5 M6 hM6 M7 hM7 M8 hM8) Q :=
  ⟨(Memref.whole cc0_scratch3).view.writes (Elt F) a12 (kernelRunA c i M2 hM2 M3 hM3 M5 hM5 M6 hM6 M7 hM7 M8 hM8 tbl hT sim x2 x3 b9 b10 a12 a13 a14 a15 a16 a17 h1 h2).1,
    (Memref.whole cc0_scratch4).view.writes (Elt F) a13 (kernelRunA c i M2 hM2 M3 hM3 M5 hM5 M6 hM6 M7 hM7 M8 hM8 tbl hT sim x2 x3 b9 b10 a12 a13 a14 a15 a16 a17 h1 h2).2.1,
    (Memref.whole cc0_scratch5).view.writes (Elt F) a14 (kernelRunA c i M2 hM2 M3 hM3 M5 hM5 M6 hM6 M7 hM7 M8 hM8 tbl hT sim x2 x3 b9 b10 a12 a13 a14 a15 a16 a17 h1 h2).2.2.1,
    (Memref.whole cc0_scratch6).view.writes (Elt F) a15 (kernelRunA c i M2 hM2 M3 hM3 M5 hM5 M6 hM6 M7 hM7 M8 hM8 tbl hT sim x2 x3 b9 b10 a12 a13 a14 a15 a16 a17 h1 h2).2.2.2.1,
    (Memref.whole cc0_scratch7).view.writes (Elt F) a16 (kernelRunA c i M2 hM2 M3 hM3 M5 hM5 M6 hM6 M7 hM7 M8 hM8 tbl hT sim x2 x3 b9 b10 a12 a13 a14 a15 a16 a17 h1 h2).2.2.2.2.1,
    (Memref.whole cc0_scratch8).view.writes (Elt F) a17 (kernelRunA c i M2 hM2 M3 hM3 M5 hM5 M6 hM6 M7 hM7 M8 hM8 tbl hT sim x2 x3 b9 b10 a12 a13 a14 a15 a16 a17 h1 h2).2.2.2.2.2.1,
    stepA_eq c i M2 hM2 M3 hM3 M5 hM5 M6 hM6 M7 hM7 M8 hM8 tbl hT sim x2 x3 b9 b10 a12 a13 a14 a15 a16 a17 h1 h2, (kernelRunA c i M2 hM2 M3 hM3 M5 hM5 M6 hM6 M7 hM7 M8 hM8 tbl hT sim x2 x3 b9 b10 a12 a13 a14 a15 a16 a17 h1 h2).2.2.2.2.2.2⟩

/-- The body at a middle point, with what it finds named: six cells that read as the point's step from the accumulators it was handed. -/
theorem runB_pack (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8)) (h1 : ¬ C1 i) (h2 : ¬ C2 i) :
    ∃ (w12 : Bf (F := F) c (Memref.whole cc0_scratch3)) (w13 : Bf (F := F) c (Memref.whole cc0_scratch4)) (w14 : Bf (F := F) c (Memref.whole cc0_scratch5)) (w15 : Bf (F := F) c (Memref.whole cc0_scratch6)) (w16 : Bf (F := F) c (Memref.whole cc0_scratch7)) (w17 : Bf (F := F) c (Memref.whole cc0_scratch8)),
      accOf c w12 w13 w14 w15 w16 w17 = pointOf c tbl i sim x2 x3 (accOf c a12 a13 a14 a15 a16 a17) ∧
      ∀ (O : sProp 𝕄) (W : Waits sig Unit) (Q : PUnit → sProp 𝕄),
        iprop(pt c (Memref.whole main_v2) tbl ∗ owns (c : Thread nD τ) M2 fullShare x2 ∗ owns (c : Thread nD τ) M3 fullShare x3
            ∗ pt c (Memref.whole main_arg1) sim ∗ O
            ∗ pt c (Memref.whole cc0_scratch0) b9 ∗ pt c (Memref.whole cc0_scratch1) b10
            ∗ pt c (Memref.whole cc0_scratch3) a12 ∗ pt c (Memref.whole cc0_scratch4) a13 ∗ pt c (Memref.whole cc0_scratch5) a14 ∗ pt c (Memref.whole cc0_scratch6) a15 ∗ pt c (Memref.whole cc0_scratch7) a16 ∗ pt c (Memref.whole cc0_scratch8) a17
            ∗ sems0 c ∗ owes (c : Thread nD τ) 0 W
            ∗ (iprop(pt c (Memref.whole main_v2) tbl ∗ owns (c : Thread nD τ) M2 fullShare x2 ∗ owns (c : Thread nD τ) M3 fullShare x3
              ∗ pt c (Memref.whole main_arg1) sim ∗ O
              ∗ (∃ f, pt c (Memref.whole cc0_scratch0) f) ∗ (∃ f, pt c (Memref.whole cc0_scratch1) f)
              ∗ pt c (Memref.whole cc0_scratch3) w12 ∗ pt c (Memref.whole cc0_scratch4) w13 ∗ pt c (Memref.whole cc0_scratch5) w14 ∗ pt c (Memref.whole cc0_scratch6) w15 ∗ pt c (Memref.whole cc0_scratch7) w16 ∗ pt c (Memref.whole cc0_scratch8) w17
              ∗ sems0 c ∗ ∃ W', owes (c : Thread nD τ) 0 W') -∗ Q ⟨⟩))
          ⊢ wp frame (wpE (defs₀ (F := F)) Variants.none c none) Set.univ (bodyAt i M2 hM2 M3 hM3 M5 hM5 M6 hM6 M7 hM7 M8 hM8) Q :=
  ⟨(Memref.whole cc0_scratch3).view.writes (Elt F) a12 (kernelRunB c i M2 hM2 M3 hM3 M5 hM5 M6 hM6 M7 hM7 M8 hM8 tbl hT sim x2 x3 b9 b10 a12 a13 a14 a15 a16 a17 h1 h2).1,
    (Memref.whole cc0_scratch4).view.writes (Elt F) a13 (kernelRunB c i M2 hM2 M3 hM3 M5 hM5 M6 hM6 M7 hM7 M8 hM8 tbl hT sim x2 x3 b9 b10 a12 a13 a14 a15 a16 a17 h1 h2).2.1,
    (Memref.whole cc0_scratch5).view.writes (Elt F) a14 (kernelRunB c i M2 hM2 M3 hM3 M5 hM5 M6 hM6 M7 hM7 M8 hM8 tbl hT sim x2 x3 b9 b10 a12 a13 a14 a15 a16 a17 h1 h2).2.2.1,
    (Memref.whole cc0_scratch6).view.writes (Elt F) a15 (kernelRunB c i M2 hM2 M3 hM3 M5 hM5 M6 hM6 M7 hM7 M8 hM8 tbl hT sim x2 x3 b9 b10 a12 a13 a14 a15 a16 a17 h1 h2).2.2.2.1,
    (Memref.whole cc0_scratch7).view.writes (Elt F) a16 (kernelRunB c i M2 hM2 M3 hM3 M5 hM5 M6 hM6 M7 hM7 M8 hM8 tbl hT sim x2 x3 b9 b10 a12 a13 a14 a15 a16 a17 h1 h2).2.2.2.2.1,
    (Memref.whole cc0_scratch8).view.writes (Elt F) a17 (kernelRunB c i M2 hM2 M3 hM3 M5 hM5 M6 hM6 M7 hM7 M8 hM8 tbl hT sim x2 x3 b9 b10 a12 a13 a14 a15 a16 a17 h1 h2).2.2.2.2.2.1,
    stepB_eq c i M2 hM2 M3 hM3 M5 hM5 M6 hM6 M7 hM7 M8 hM8 tbl hT sim x2 x3 b9 b10 a12 a13 a14 a15 a16 a17 h1 h2, (kernelRunB c i M2 hM2 M3 hM3 M5 hM5 M6 hM6 M7 hM7 M8 hM8 tbl hT sim x2 x3 b9 b10 a12 a13 a14 a15 a16 a17 h1 h2).2.2.2.2.2.2⟩

/-- The body at the last point, with what it finds named: six cells that read as the point's step from the accumulators it
    was handed, and four lists of pieces whose writing, read back through each output block, gives the four results. -/
theorem runC_pack (c : Dev nD) (i : grid0.Coords) (M2 : Memref sig .tc .vmem S64x10000 .f32) (hM2 : M2.IsWhole) (M3 : Memref sig .tc .vmem S64x1 .f32) (hM3 : M3.IsWhole)
    (M5 : Memref sig .tc .vmem S1x1 .f32) (hM5 : M5.IsWhole) (M6 : Memref sig .tc .vmem S1x1 .f32) (hM6 : M6.IsWhole)
    (M7 : Memref sig .tc .vmem S1x1 .f32) (hM7 : M7.IsWhole) (M8 : Memref sig .tc .vmem S1x1 .f32) (hM8 : M8.IsWhole)
    (tbl : Bf (F := F) c (Memref.whole main_v2)) (hT : ∀ j, (tbl j : BitVec 32).toNat < 10000) (sim : Bf (F := F) c (Memref.whole main_arg1))
    (x2 : Vec F S64x10000 .f32) (x3 : Vec F S64x1 .f32)
    (b9 : Bf (F := F) c (Memref.whole cc0_scratch0)) (b10 : Bf (F := F) c (Memref.whole cc0_scratch1))
    (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8)) (h1 : ¬ C1 i) (h2 : C2 i) :
    ∃ (L5 L6 L7 L8 : List (View.Piece (Elt F) S1x1 .f32)) (w12 : Bf (F := F) c (Memref.whole cc0_scratch3)) (w13 : Bf (F := F) c (Memref.whole cc0_scratch4)) (w14 : Bf (F := F) c (Memref.whole cc0_scratch5)) (w15 : Bf (F := F) c (Memref.whole cc0_scratch6)) (w16 : Bf (F := F) c (Memref.whole cc0_scratch7)) (w17 : Bf (F := F) c (Memref.whole cc0_scratch8)),
      accOf c w12 w13 w14 w15 w16 w17 = pointOf c tbl i sim x2 x3 (accOf c a12 a13 a14 a15 a16 a17) ∧
      (∀ (f5 : M5.view.ty.Contents (Elt F)) (f6 : M6.view.ty.Contents (Elt F)) (f7 : M7.view.ty.Contents (Elt F)) (f8 : M8.view.ty.Contents (Elt F)),
        M5.view.read (Elt F) (M5.view.writes (Elt F) f5 L5) = (finalize (pointOf c tbl i sim x2 x3 (accOf c a12 a13 a14 a15 a16 a17))).ml
        ∧ M6.view.read (Elt F) (M6.view.writes (Elt F) f6 L6) = (finalize (pointOf c tbl i sim x2 x3 (accOf c a12 a13 a14 a15 a16 a17))).total
        ∧ M7.view.read (Elt F) (M7.view.writes (Elt F) f7 L7) = (finalize (pointOf c tbl i sim x2 x3 (accOf c a12 a13 a14 a15 a16 a17))).mean
        ∧ M8.view.read (Elt F) (M8.view.writes (Elt F) f8 L8) = (finalize (pointOf c tbl i sim x2 x3 (accOf c a12 a13 a14 a15 a16 a17))).std) ∧
      ∀ (W : Waits sig Unit) (Q : PUnit → sProp 𝕄),
        iprop(pt c (Memref.whole main_v2) tbl ∗ owns (c : Thread nD τ) M2 fullShare x2 ∗ owns (c : Thread nD τ) M3 fullShare x3
            ∗ pt c (Memref.whole main_arg1) sim ∗ (∃ d, owns (c : Thread nD τ) M5 fullShare d) ∗ (∃ d, owns (c : Thread nD τ) M6 fullShare d) ∗ (∃ d, owns (c : Thread nD τ) M7 fullShare d) ∗ (∃ d, owns (c : Thread nD τ) M8 fullShare d)
            ∗ pt c (Memref.whole cc0_scratch0) b9 ∗ pt c (Memref.whole cc0_scratch1) b10
            ∗ pt c (Memref.whole cc0_scratch3) a12 ∗ pt c (Memref.whole cc0_scratch4) a13 ∗ pt c (Memref.whole cc0_scratch5) a14 ∗ pt c (Memref.whole cc0_scratch6) a15 ∗ pt c (Memref.whole cc0_scratch7) a16 ∗ pt c (Memref.whole cc0_scratch8) a17
            ∗ sems0 c ∗ owes (c : Thread nD τ) 0 W
            ∗ (iprop(pt c (Memref.whole main_v2) tbl ∗ owns (c : Thread nD τ) M2 fullShare x2 ∗ owns (c : Thread nD τ) M3 fullShare x3
              ∗ pt c (Memref.whole main_arg1) sim ∗ (∃ f, M5.view.loc (c : Thread nD τ) ↦[M5.view.set]{fullShare} M5.view.writes (Elt F) f L5) ∗ (∃ f, M6.view.loc (c : Thread nD τ) ↦[M6.view.set]{fullShare} M6.view.writes (Elt F) f L6) ∗ (∃ f, M7.view.loc (c : Thread nD τ) ↦[M7.view.set]{fullShare} M7.view.writes (Elt F) f L7) ∗ (∃ f, M8.view.loc (c : Thread nD τ) ↦[M8.view.set]{fullShare} M8.view.writes (Elt F) f L8)
              ∗ (∃ f, pt c (Memref.whole cc0_scratch0) f) ∗ (∃ f, pt c (Memref.whole cc0_scratch1) f)
              ∗ pt c (Memref.whole cc0_scratch3) w12 ∗ pt c (Memref.whole cc0_scratch4) w13 ∗ pt c (Memref.whole cc0_scratch5) w14 ∗ pt c (Memref.whole cc0_scratch6) w15 ∗ pt c (Memref.whole cc0_scratch7) w16 ∗ pt c (Memref.whole cc0_scratch8) w17
              ∗ sems0 c ∗ ∃ W', owes (c : Thread nD τ) 0 W') -∗ Q ⟨⟩))
          ⊢ wp frame (wpE (defs₀ (F := F)) Variants.none c none) Set.univ (bodyAt i M2 hM2 M3 hM3 M5 hM5 M6 hM6 M7 hM7 M8 hM8) Q :=
  ⟨(kernelRunC c i M2 hM2 M3 hM3 M5 hM5 M6 hM6 M7 hM7 M8 hM8 tbl hT sim x2 x3 b9 b10 a12 a13 a14 a15 a16 a17 h1 h2).1, (kernelRunC c i M2 hM2 M3 hM3 M5 hM5 M6 hM6 M7 hM7 M8 hM8 tbl hT sim x2 x3 b9 b10 a12 a13 a14 a15 a16 a17 h1 h2).2.1, (kernelRunC c i M2 hM2 M3 hM3 M5 hM5 M6 hM6 M7 hM7 M8 hM8 tbl hT sim x2 x3 b9 b10 a12 a13 a14 a15 a16 a17 h1 h2).2.2.1, (kernelRunC c i M2 hM2 M3 hM3 M5 hM5 M6 hM6 M7 hM7 M8 hM8 tbl hT sim x2 x3 b9 b10 a12 a13 a14 a15 a16 a17 h1 h2).2.2.2.1,
    (Memref.whole cc0_scratch3).view.writes (Elt F) a12 (kernelRunC c i M2 hM2 M3 hM3 M5 hM5 M6 hM6 M7 hM7 M8 hM8 tbl hT sim x2 x3 b9 b10 a12 a13 a14 a15 a16 a17 h1 h2).2.2.2.2.1,
    (Memref.whole cc0_scratch4).view.writes (Elt F) a13 (kernelRunC c i M2 hM2 M3 hM3 M5 hM5 M6 hM6 M7 hM7 M8 hM8 tbl hT sim x2 x3 b9 b10 a12 a13 a14 a15 a16 a17 h1 h2).2.2.2.2.2.1,
    (Memref.whole cc0_scratch5).view.writes (Elt F) a14 (kernelRunC c i M2 hM2 M3 hM3 M5 hM5 M6 hM6 M7 hM7 M8 hM8 tbl hT sim x2 x3 b9 b10 a12 a13 a14 a15 a16 a17 h1 h2).2.2.2.2.2.2.1,
    (Memref.whole cc0_scratch6).view.writes (Elt F) a15 (kernelRunC c i M2 hM2 M3 hM3 M5 hM5 M6 hM6 M7 hM7 M8 hM8 tbl hT sim x2 x3 b9 b10 a12 a13 a14 a15 a16 a17 h1 h2).2.2.2.2.2.2.2.1,
    (Memref.whole cc0_scratch7).view.writes (Elt F) a16 (kernelRunC c i M2 hM2 M3 hM3 M5 hM5 M6 hM6 M7 hM7 M8 hM8 tbl hT sim x2 x3 b9 b10 a12 a13 a14 a15 a16 a17 h1 h2).2.2.2.2.2.2.2.2.1,
    (Memref.whole cc0_scratch8).view.writes (Elt F) a17 (kernelRunC c i M2 hM2 M3 hM3 M5 hM5 M6 hM6 M7 hM7 M8 hM8 tbl hT sim x2 x3 b9 b10 a12 a13 a14 a15 a16 a17 h1 h2).2.2.2.2.2.2.2.2.2.1,
    stepC_eq c i M2 hM2 M3 hM3 M5 hM5 M6 hM6 M7 hM7 M8 hM8 tbl hT sim x2 x3 b9 b10 a12 a13 a14 a15 a16 a17 h1 h2, outC_eq c i M2 hM2 M3 hM3 M5 hM5 M6 hM6 M7 hM7 M8 hM8 tbl hT sim x2 x3 b9 b10 a12 a13 a14 a15 a16 a17 h1 h2, (kernelRunC c i M2 hM2 M3 hM3 M5 hM5 M6 hM6 M7 hM7 M8 hM8 tbl hT sim x2 x3 b9 b10 a12 a13 a14 a15 a16 a17 h1 h2).2.2.2.2.2.2.2.2.2.2⟩

/-! ## The accumulators read off their six cells -/

/-- The (1,1) shape has one index. -/
theorem idx_one (p q : S1x1.Idx) : p = q := funext fun k => Fin.ext (by
  have hp := (p k).isLt; have hq := (q k).isLt
  have hk : S1x1.size k = 1 := by fin_cases k <;> rfl
  omega)

theorem readCell3 (c : Dev nD) (a : Bf (F := F) c (Memref.whole cc0_scratch3)) :
    View.readAt (Elt F) (Memref.whole cc0_scratch3).view (Rect.unit ![0, 0] S1x1.size inb_S1x1_S1x1_0_0).toLoadRect a = a := by
  funext x
  rw [View.readAt_eq_ld]
  simp only [Memref.view_whole, View.read_whole, View.ld]
  exact congrArg a (idx_one _ _)

theorem readCell4 (c : Dev nD) (a : Bf (F := F) c (Memref.whole cc0_scratch4)) :
    View.readAt (Elt F) (Memref.whole cc0_scratch4).view (Rect.unit ![0, 0] S1x1.size inb_S1x1_S1x1_0_0).toLoadRect a = a := by
  funext x
  rw [View.readAt_eq_ld]
  simp only [Memref.view_whole, View.read_whole, View.ld]
  exact congrArg a (idx_one _ _)

theorem readCell5 (c : Dev nD) (a : Bf (F := F) c (Memref.whole cc0_scratch5)) :
    View.readAt (Elt F) (Memref.whole cc0_scratch5).view (Rect.unit ![0, 0] S1x1.size inb_S1x1_S1x1_0_0).toLoadRect a = a := by
  funext x
  rw [View.readAt_eq_ld]
  simp only [Memref.view_whole, View.read_whole, View.ld]
  exact congrArg a (idx_one _ _)

theorem readCell6 (c : Dev nD) (a : Bf (F := F) c (Memref.whole cc0_scratch6)) :
    View.readAt (Elt F) (Memref.whole cc0_scratch6).view (Rect.unit ![0, 0] S1x1.size inb_S1x1_S1x1_0_0).toLoadRect a = a := by
  funext x
  rw [View.readAt_eq_ld]
  simp only [Memref.view_whole, View.read_whole, View.ld]
  exact congrArg a (idx_one _ _)

theorem readCell7 (c : Dev nD) (a : Bf (F := F) c (Memref.whole cc0_scratch7)) :
    View.readAt (Elt F) (Memref.whole cc0_scratch7).view (Rect.unit ![0, 0] S1x1.size inb_S1x1_S1x1_0_0).toLoadRect a = a := by
  funext x
  rw [View.readAt_eq_ld]
  simp only [Memref.view_whole, View.read_whole, View.ld]
  exact congrArg a (idx_one _ _)

theorem readCell8 (c : Dev nD) (a : Bf (F := F) c (Memref.whole cc0_scratch8)) :
    View.readAt (Elt F) (Memref.whole cc0_scratch8).view (Rect.unit ![0, 0] S1x1.size inb_S1x1_S1x1_0_0).toLoadRect a = a := by
  funext x
  rw [View.readAt_eq_ld]
  simp only [Memref.view_whole, View.read_whole, View.ld]
  exact congrArg a (idx_one _ _)

/-- The accumulators read off six cells: each field is its cell's contents. -/
theorem accOf_m (c : Dev nD) (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8)) :
    (accOf c a12 a13 a14 a15 a16 a17).m = a12 ∧ (accOf c a12 a13 a14 a15 a16 a17).logp = a13 ∧ (accOf c a12 a13 a14 a15 a16 a17).w = a14
      ∧ (accOf c a12 a13 a14 a15 a16 a17).nf = a15 ∧ (accOf c a12 a13 a14 a15 a16 a17).s = a16 ∧ (accOf c a12 a13 a14 a15 a16 a17).q = a17 :=
  ⟨readCell3 c a12, readCell4 c a13, readCell5 c a14, readCell6 c a15, readCell7 c a16, readCell8 c a17⟩

/-- The accumulators read off six cells holding an accumulator's fields are that accumulator. -/
theorem accOf_eta (c : Dev nD) (A : Acc F) : accOf c A.m A.logp A.w A.nf A.s A.q = A := by
  obtain ⟨h1, h2, h3, h4, h5, h6⟩ := accOf_m c A.m A.logp A.w A.nf A.s A.q
  have hext : ∀ B : Acc F, B.m = A.m → B.logp = A.logp → B.w = A.w → B.nf = A.nf → B.s = A.s → B.q = A.q → B = A := by
    intro B e1 e2 e3 e4 e5 e6
    cases A; cases B
    simp only [Acc.mk.injEq]
    exact ⟨e1, e2, e3, e4, e5, e6⟩
  exact hext _ h1 h2 h3 h4 h5 h6

/-- Six cells whose reading is an accumulator hold its fields. -/
theorem cells_of_acc (c : Dev nD) (a12 : Bf (F := F) c (Memref.whole cc0_scratch3)) (a13 : Bf (F := F) c (Memref.whole cc0_scratch4)) (a14 : Bf (F := F) c (Memref.whole cc0_scratch5)) (a15 : Bf (F := F) c (Memref.whole cc0_scratch6)) (a16 : Bf (F := F) c (Memref.whole cc0_scratch7)) (a17 : Bf (F := F) c (Memref.whole cc0_scratch8))
    (A : Acc F) (h : accOf c a12 a13 a14 a15 a16 a17 = A) :
    a12 = A.m ∧ a13 = A.logp ∧ a14 = A.w ∧ a15 = A.nf ∧ a16 = A.s ∧ a17 = A.q := by
  subst h
  obtain ⟨h1, h2, h3, h4, h5, h6⟩ := accOf_m c a12 a13 a14 a15 a16 a17
  exact ⟨h1.symm, h2.symm, h3.symm, h4.symm, h5.symm, h6.symm⟩

variable (m : (ℓ : Loc nD τ sig) → Buf (Elt F) ℓ)

/-! ## The body at a point, as the pipeline calls it -/

/-- Each window's current staging memref at point `t`, and its wholeness. -/
abbrev ms0 (t : Fin (cfgOf m).N) : Memref sig .tc .vmem S64x10000 .f32 := spec0_0.stage ((cfgOf m).slots t 0)
abbrev hs0 (t : Fin (cfgOf m).N) : (ms0 m t).IsWhole := hstage0_0 (((cfgOf m).slots t 0).cast nbuf0_0)
abbrev ms1 (t : Fin (cfgOf m).N) : Memref sig .tc .vmem S64x1 .f32 := spec0_1.stage ((cfgOf m).slots t 1)
abbrev hs1 (t : Fin (cfgOf m).N) : (ms1 m t).IsWhole := hstage0_1 (((cfgOf m).slots t 1).cast nbuf0_1)
abbrev ms2 (t : Fin (cfgOf m).N) : Memref sig .tc .vmem S1x1 .f32 := spec0_2.stage ((cfgOf m).slots t 2)
abbrev hs2 (t : Fin (cfgOf m).N) : (ms2 m t).IsWhole := hstage0_2 (((cfgOf m).slots t 2).cast nbuf0_2)
abbrev ms3 (t : Fin (cfgOf m).N) : Memref sig .tc .vmem S1x1 .f32 := spec0_3.stage ((cfgOf m).slots t 3)
abbrev hs3 (t : Fin (cfgOf m).N) : (ms3 m t).IsWhole := hstage0_3 (((cfgOf m).slots t 3).cast nbuf0_3)
abbrev ms4 (t : Fin (cfgOf m).N) : Memref sig .tc .vmem S1x1 .f32 := spec0_4.stage ((cfgOf m).slots t 4)
abbrev hs4 (t : Fin (cfgOf m).N) : (ms4 m t).IsWhole := hstage0_4 (((cfgOf m).slots t 4).cast nbuf0_4)
abbrev ms5 (t : Fin (cfgOf m).N) : Memref sig .tc .vmem S1x1 .f32 := spec0_5.stage ((cfgOf m).slots t 5)
abbrev hs5 (t : Fin (cfgOf m).N) : (ms5 m t).IsWhole := hstage0_5 (((cfgOf m).slots t 5).cast nbuf0_5)

/-- The kernel body at point `t` on those memrefs. -/
abbrev progAt (t : Fin (cfgOf m).N) : Prog (TpuEff nD τ sig (Elt F) Λ₀ .tc) PUnit :=
  bodyAt (grid0.coords t) (ms0 m t) (hs0 m t) (ms1 m t) (hs1 m t) (ms2 m t) (hs2 m t) (ms3 m t) (hs3 m t) (ms4 m t) (hs4 m t) (ms5 m t) (hs5 m t)

/-- What the body is called with at point `t`, the windows one by one, -/
def bodyPre (c : Dev nD) (t : Fin (cfgOf m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d)))

/-- and what it returns. -/
def bodyPost (c : Dev nD) (t : Fin (cfgOf m).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4000000 in
/-- The body at any point. The input windows hold their blocks; the point's position on the grid decides the body's two
    conditions and where the output windows are idle. The invariant hands the body the matrix, the table, both cells at
    zero, the two row buffers and the six accumulators (at anything before the first point, else at what the point
    before left) and takes the accumulators back at this point's contents; the core owes nothing throughout. -/
theorem sound_body (hT : ∀ c j, ((tblOf m c) j : BitVec 32).toNat < 10000) (c : Dev nD) (t : Fin (cfgOf m).N) :
    bodyPre m c t ⊢ wp frame (wpE (defs₀ (F := F)) Variants.none c none) Set.univ (progAt m t) (fun _ => bodyPost m c t) := by
  unfold bodyPre bodyPost progAt
  simp only [before0, before1]
  rw [show (dats m 0 c).owesAt () t.succ = (dats m 0 c).owesAt () t.castSucc from rfl]
  rw [Φ_eq, Φ_eq]
  unfold Φ Dat.owesAt Pipeline.owesWithin
  rw [show (dats m 0 c).owed t.castSucc = 0 from rfl]
  have hN : t.val < 48 := t.isLt
  rw [show (dats m 0 c).leavesExact 0 t = owns (c : Thread nD τ) (ms0 m t) fullShare (blk0 m c t) from by
    unfold Dat.leavesExact; rw [(liveAt_in (adm m 0) t).1, after0]; rfl]
  rw [show (dats m 0 c).leavesExact 1 t = owns (c : Thread nD τ) (ms1 m t) fullShare (blk1 m c t) from by
    unfold Dat.leavesExact; rw [(liveAt_in (adm m 0) t).2, after1]; rfl]
  by_cases h47 : t.val = 47
  · have h1 : ¬ C1 (grid0.coords t) := fun h => by have := (hC1 t).mp h; omega
    have h2 : C2 (grid0.coords t) := (hC2 t).mpr h47
    have hl := liveAt_last (adm m 0) t h47
    rw [show (dats m 0 c).leavesExact 2 t = owns (c : Thread nD τ) (ms2 m t) fullShare (outs m c).ml from by
      unfold Dat.leavesExact; rw [hl.1, after2]; rfl]
    rw [show (dats m 0 c).leavesExact 3 t = owns (c : Thread nD τ) (ms3 m t) fullShare (outs m c).total from by
      unfold Dat.leavesExact; rw [hl.2.1, after3]; rfl]
    rw [show (dats m 0 c).leavesExact 4 t = owns (c : Thread nD τ) (ms4 m t) fullShare (outs m c).mean from by
      unfold Dat.leavesExact; rw [hl.2.2.1, after4]; rfl]
    rw [show (dats m 0 c).leavesExact 5 t = owns (c : Thread nD τ) (ms5 m t) fullShare (outs m c).std from by
      unfold Dat.leavesExact; rw [hl.2.2.2, after5]; rfl]
    obtain ⟨n, hn⟩ : ∃ n, t.val = n + 1 := ⟨46, h47⟩
    rw [accsHeld_later m c t.succ t.val (Fin.val_succ t), accsHeld_later m c t.castSucc n hn]
    have houts : outs m c = finalize ((pointOf c (tblOf m c) (grid0.coords t) (simOf m c) (blk0 m c t) (blk1 m c t)) (accOf c (accAfter m c n).m (accAfter m c n).logp (accAfter m c n).w (accAfter m c n).nf (accAfter m c n).s (accAfter m c n).q)) := by
      have h := accAfter_later m c t n hn
      rw [h47] at h
      unfold outs; rw [h, accOf_eta]
    iintro ⟨⟨Hsim, Htbl, Hsems, ⟨%b9, H9⟩, ⟨%b10, H10⟩, H12, H13, H14, H15, H16, H17⟩, ⟨%W, %hW, HO⟩, ⟨%d0, H0⟩, ⟨%d1, H1⟩, ⟨%d2, Ho2⟩, ⟨%d3, Ho3⟩, ⟨%d4, Ho4⟩, ⟨%d5, Ho5⟩⟩
    obtain ⟨L5, L6, L7, L8, w12, w13, w14, w15, w16, w17, hstep, hout, hrun⟩ := runC_pack c (grid0.coords t) (ms0 m t) (hs0 m t) (ms1 m t) (hs1 m t) (ms2 m t) (hs2 m t) (ms3 m t) (hs3 m t) (ms4 m t) (hs4 m t) (ms5 m t) (hs5 m t) (tblOf m c) (hT c) (simOf m c) (blk0 m c t) (blk1 m c t) b9 b10 (accAfter m c n).m (accAfter m c n).logp (accAfter m c n).w (accAfter m c n).nf (accAfter m c n).s (accAfter m c n).q h1 h2
    have hacc := (hstep.trans (congrArg (pointOf c (tblOf m c) (grid0.coords t) (simOf m c) (blk0 m c t) (blk1 m c t)) (accOf_eta c (accAfter m c n)))).trans (accAfter_later m c t n hn).symm
    obtain ⟨e12, e13, e14, e15, e16, e17⟩ := cells_of_acc c _ _ _ _ _ _ _ hacc
    subst e12 e13 e14 e15 e16 e17
    iapply (hrun W _)
    isplitl [Htbl]; · iexact Htbl
    isplitl [H0]; · iexact H0
    isplitl [H1]; · iexact H1
    isplitl [Hsim]; · iexact Hsim
    isplitl [Ho2]; · iexists _; iexact Ho2
    isplitl [Ho3]; · iexists _; iexact Ho3
    isplitl [Ho4]; · iexists _; iexact Ho4
    isplitl [Ho5]; · iexists _; iexact Ho5
    isplitl [H9]; · iexact H9
    isplitl [H10]; · iexact H10
    isplitl [H12]; · iexact H12
    isplitl [H13]; · iexact H13
    isplitl [H14]; · iexact H14
    isplitl [H15]; · iexact H15
    isplitl [H16]; · iexact H16
    isplitl [H17]; · iexact H17
    isplitl [Hsems]; · iexact Hsems
    isplitl [HO]; · iexact HO
    iintro ⟨Htbl, H0, H1, Hsim, ⟨%f5, Ho2⟩, ⟨%f6, Ho3⟩, ⟨%f7, Ho4⟩, ⟨%f8, Ho5⟩, H9, H10, H12, H13, H14, H15, H16, H17, Hsems, ⟨%W', HO⟩⟩
    have hout' := hout f5 f6 f7 f8
    isplitl [Hsim Htbl Hsems H9 H10 H12 H13 H14 H15 H16 H17]
    · isplitl [Hsim]; · iexact Hsim
      isplitl [Htbl]; · iexact Htbl
      isplitl [Hsems]; · iexact Hsems
      isplitl [H9]; · iexact H9
      isplitl [H10]; · iexact H10
      isplitl [H12]; · iexact H12
      isplitl [H13]; · iexact H13
      isplitl [H14]; · iexact H14
      isplitl [H15]; · iexact H15
      isplitl [H16]; · iexact H16
      iexact H17
    isplitl [HO]
    · iexists W'; isplitr; · ipureintro; exact fun _ _ => Or.inl trivial
      iexact HO
    isplitl [H0]; · iexact H0
    isplitl [H1]; · iexact H1
    isplitl [Ho2]
    · unfold owns; iexists _; isplitr; swap; (· iexact Ho2); ipureintro; exact hout'.1.trans (congrArg Out4.ml houts).symm
    isplitl [Ho3]
    · unfold owns; iexists _; isplitr; swap; (· iexact Ho3); ipureintro; exact hout'.2.1.trans (congrArg Out4.total houts).symm
    isplitl [Ho4]
    · unfold owns; iexists _; isplitr; swap; (· iexact Ho4); ipureintro; exact hout'.2.2.1.trans (congrArg Out4.mean houts).symm
    unfold owns; iexists _; isplitr; swap; (· iexact Ho5); ipureintro; exact hout'.2.2.2.trans (congrArg Out4.std houts).symm
  · have hi := idleAt_out (adm m 0) t h47
    have hf := noFlush_out (adm m 0) t h47
    rw [Dat.leavesExact_idle (dats m 0 c) 2 t hi.1 hf.1, Dat.leavesExact_idle (dats m 0 c) 3 t hi.2.1 hf.2.1,
      Dat.leavesExact_idle (dats m 0 c) 4 t hi.2.2.1 hf.2.2.1, Dat.leavesExact_idle (dats m 0 c) 5 t hi.2.2.2 hf.2.2.2]
    have h2 : ¬ C2 (grid0.coords t) := fun h => h47 ((hC2 t).mp h)
    rw [accsHeld_later m c t.succ t.val (Fin.val_succ t)]
    by_cases hz : t.val = 0
    · have h1 : C1 (grid0.coords t) := (hC1 t).mpr hz
      rw [accsHeld_first m c t.castSucc hz]
      iintro ⟨⟨Hsim, Htbl, Hsems, ⟨%b9, H9⟩, ⟨%b10, H10⟩, ⟨%a12, H12⟩, ⟨%a13, H13⟩, ⟨%a14, H14⟩, ⟨%a15, H15⟩, ⟨%a16, H16⟩, ⟨%a17, H17⟩⟩, ⟨%W, %hW, HO⟩, ⟨%d0, H0⟩, ⟨%d1, H1⟩, Ho2, Ho3, Ho4, Ho5⟩
      obtain ⟨w12, w13, w14, w15, w16, w17, hstep, hrun⟩ := runA_pack c (grid0.coords t) (ms0 m t) (hs0 m t) (ms1 m t) (hs1 m t) (ms2 m t) (hs2 m t) (ms3 m t) (hs3 m t) (ms4 m t) (hs4 m t) (ms5 m t) (hs5 m t) (tblOf m c) (hT c) (simOf m c) (blk0 m c t) (blk1 m c t) b9 b10 a12 a13 a14 a15 a16 a17 h1 h2
      have hacc := hstep.trans (accAfter_first m c t hz).symm
      obtain ⟨e12, e13, e14, e15, e16, e17⟩ := cells_of_acc c _ _ _ _ _ _ _ hacc
      subst e12 e13 e14 e15 e16 e17
      iapply (hrun iprop((∃ d, owns (c : Thread nD τ) (ms2 m t) fullShare ((dats m 0 c).before 2 t d)) ∗ (∃ d, owns (c : Thread nD τ) (ms3 m t) fullShare ((dats m 0 c).before 3 t d)) ∗ (∃ d, owns (c : Thread nD τ) (ms4 m t) fullShare ((dats m 0 c).before 4 t d)) ∗ (∃ d, owns (c : Thread nD τ) (ms5 m t) fullShare ((dats m 0 c).before 5 t d))) W _)
      isplitl [Htbl]; · iexact Htbl
      isplitl [H0]; · iexact H0
      isplitl [H1]; · iexact H1
      isplitl [Hsim]; · iexact Hsim
      isplitl [Ho2 Ho3 Ho4 Ho5]
      · isplitl [Ho2]; · iexact Ho2
        isplitl [Ho3]; · iexact Ho3
        isplitl [Ho4]; · iexact Ho4
        iexact Ho5
      isplitl [H9]; · iexact H9
      isplitl [H10]; · iexact H10
      isplitl [H12]; · iexact H12
      isplitl [H13]; · iexact H13
      isplitl [H14]; · iexact H14
      isplitl [H15]; · iexact H15
      isplitl [H16]; · iexact H16
      isplitl [H17]; · iexact H17
      isplitl [Hsems]; · iexact Hsems
      isplitl [HO]; · iexact HO
      iintro ⟨Htbl, H0, H1, Hsim, ⟨Ho2, Ho3, Ho4, Ho5⟩, H9, H10, H12, H13, H14, H15, H16, H17, Hsems, ⟨%W', HO⟩⟩
      isplitl [Hsim Htbl Hsems H9 H10 H12 H13 H14 H15 H16 H17]
      · isplitl [Hsim]; · iexact Hsim
        isplitl [Htbl]; · iexact Htbl
        isplitl [Hsems]; · iexact Hsems
        isplitl [H9]; · iexact H9
        isplitl [H10]; · iexact H10
        isplitl [H12]; · iexact H12
        isplitl [H13]; · iexact H13
        isplitl [H14]; · iexact H14
        isplitl [H15]; · iexact H15
        isplitl [H16]; · iexact H16
        iexact H17
      isplitl [HO]
      · iexists W'; isplitr; · ipureintro; exact fun _ _ => Or.inl trivial
        iexact HO
      isplitl [H0]; · iexact H0
      isplitl [H1]; · iexact H1
      isplitl [Ho2]; · iexact Ho2
      isplitl [Ho3]; · iexact Ho3
      isplitl [Ho4]; · iexact Ho4
      iexact Ho5
    · have h1 : ¬ C1 (grid0.coords t) := fun h => hz ((hC1 t).mp h)
      obtain ⟨n, hn⟩ := Nat.exists_eq_succ_of_ne_zero hz
      rw [accsHeld_later m c t.castSucc n hn]
      iintro ⟨⟨Hsim, Htbl, Hsems, ⟨%b9, H9⟩, ⟨%b10, H10⟩, H12, H13, H14, H15, H16, H17⟩, ⟨%W, %hW, HO⟩, ⟨%d0, H0⟩, ⟨%d1, H1⟩, Ho2, Ho3, Ho4, Ho5⟩
      obtain ⟨w12, w13, w14, w15, w16, w17, hstep, hrun⟩ := runB_pack c (grid0.coords t) (ms0 m t) (hs0 m t) (ms1 m t) (hs1 m t) (ms2 m t) (hs2 m t) (ms3 m t) (hs3 m t) (ms4 m t) (hs4 m t) (ms5 m t) (hs5 m t) (tblOf m c) (hT c) (simOf m c) (blk0 m c t) (blk1 m c t) b9 b10 (accAfter m c n).m (accAfter m c n).logp (accAfter m c n).w (accAfter m c n).nf (accAfter m c n).s (accAfter m c n).q h1 h2
      have hacc := (hstep.trans (congrArg (pointOf c (tblOf m c) (grid0.coords t) (simOf m c) (blk0 m c t) (blk1 m c t)) (accOf_eta c (accAfter m c n)))).trans (accAfter_later m c t n hn).symm
      obtain ⟨e12, e13, e14, e15, e16, e17⟩ := cells_of_acc c _ _ _ _ _ _ _ hacc
      subst e12 e13 e14 e15 e16 e17
      iapply (hrun iprop((∃ d, owns (c : Thread nD τ) (ms2 m t) fullShare ((dats m 0 c).before 2 t d)) ∗ (∃ d, owns (c : Thread nD τ) (ms3 m t) fullShare ((dats m 0 c).before 3 t d)) ∗ (∃ d, owns (c : Thread nD τ) (ms4 m t) fullShare ((dats m 0 c).before 4 t d)) ∗ (∃ d, owns (c : Thread nD τ) (ms5 m t) fullShare ((dats m 0 c).before 5 t d))) W _)
      isplitl [Htbl]; · iexact Htbl
      isplitl [H0]; · iexact H0
      isplitl [H1]; · iexact H1
      isplitl [Hsim]; · iexact Hsim
      isplitl [Ho2 Ho3 Ho4 Ho5]
      · isplitl [Ho2]; · iexact Ho2
        isplitl [Ho3]; · iexact Ho3
        isplitl [Ho4]; · iexact Ho4
        iexact Ho5
      isplitl [H9]; · iexact H9
      isplitl [H10]; · iexact H10
      isplitl [H12]; · iexact H12
      isplitl [H13]; · iexact H13
      isplitl [H14]; · iexact H14
      isplitl [H15]; · iexact H15
      isplitl [H16]; · iexact H16
      isplitl [H17]; · iexact H17
      isplitl [Hsems]; · iexact Hsems
      isplitl [HO]; · iexact HO
      iintro ⟨Htbl, H0, H1, Hsim, ⟨Ho2, Ho3, Ho4, Ho5⟩, H9, H10, H12, H13, H14, H15, H16, H17, Hsems, ⟨%W', HO⟩⟩
      isplitl [Hsim Htbl Hsems H9 H10 H12 H13 H14 H15 H16 H17]
      · isplitl [Hsim]; · iexact Hsim
        isplitl [Htbl]; · iexact Htbl
        isplitl [Hsems]; · iexact Hsems
        isplitl [H9]; · iexact H9
        isplitl [H10]; · iexact H10
        isplitl [H12]; · iexact H12
        isplitl [H13]; · iexact H13
        isplitl [H14]; · iexact H14
        isplitl [H15]; · iexact H15
        isplitl [H16]; · iexact H16
        iexact H17
      isplitl [HO]
      · iexists W'; isplitr; · ipureintro; exact fun _ _ => Or.inl trivial
        iexact HO
      isplitl [H0]; · iexact H0
      isplitl [H1]; · iexact H1
      isplitl [Ho2]; · iexact Ho2
      isplitl [Ho3]; · iexact Ho3
      isplitl [Ho4]; · iexact Ho4
      iexact Ho5

/-- The body obligation of the region, at every point. -/
theorem body_obligation (hT : ∀ c j, ((tblOf m c) j : BitVec 32).toNat < 10000) (c : Dev nD) :
    BodyObligation (dats m 0 c) (defs₀ (F := F)) Variants.none () Set.univ := fun t => by
  rw [bigSep_W0, bigSep_W0]
  exact sound_body m hT c t

end Cert.Proof.K

end
-- ==== Proof.KLaunch.lean ====
/-
  The launch of the kernel program: @main as three segments. Three reshapes (the log-probabilities to 3072 rows of
  10000, the mask to 3072 rows of one, the target words to a table of 3072 in scalar memory), then the one kernel
  region over its 48 grid points, then four reshapes of the (1,1) results to scalars.

  The first stretch runs over the core's unscoped buffers and leaves them at the contents the region finds. At the
  region's entry those buffers are sorted: the six windows' arrays go to the pipeline, the table at the admissible
  contents and the similarity matrix with the kernel's two semaphore cells go into the invariant, the other three
  arguments and the four scalar results bypass the region. The invariant at the first point is made of those, the two
  row buffers and the six accumulators at anything; at the last point it gives them back, the accumulators forgotten.
  At the exit the arrays (as the write-backs left them) and the bypassing buffers are put together again as the
  set of buffers a host operation after the region may touch, held at the valuation that has the arrays at their
  final contents and every other buffer as the region found it; the table rides beside that set. The second stretch
  runs over it. Read against a final state, that set gives the memory at each scalar result and each argument.

  In closed form: each (1,1) result array's window has the whole array as its block and is written back only after the
  last point, with that point's result, so the array ends holding it; each scalar is its reshape. No host operation
  writes an argument and no window's array is one, so each argument ends as launched. Under the precondition every
  word of the table is a word of the third argument, hence below 10000.
-/
import proofs.«419560_j5755256177164_3_alg».proof.Proof.KData
import proofs.«419560_j5755256177164_3_alg».proof.Proof.KBody
import proofs.«419560_j5755256177164_3_alg».proof.Proof.PreFacts
import proofs.«419560_j5755256177164_3_alg».proof.Proof.Gen.Kernel.Launch
import Idealize.ShloMosaic.Lib.Pipeline.Regions
import Idealize.ShloMosaic.Lib.Pipeline.Value
import Idealize.ShloMosaic.Lib.Pipeline.FrameSuffix

noncomputable section

namespace Cert.Proof.K

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

namespace Launch

variable (m : (ℓ : Loc nD τ sig) → Buf (Elt F) ℓ) (ρ : Dev nD → PrngReg)

/-- The pipeline library's algebra is the left component of the certificate's. -/
abbrev EP : Emb (UR sig nD τ) (MT nD τ sig Unit (Elt F) ℕ (UU nD τ) ℕ) := embL

/-! ## The unscoped buffers as a set; what the two host stretches write -/

/-- The three reshapes before the region write the three reshaped arrays and nothing else. -/
theorem not_written0 (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.reshape_writes, Finset.mem_singleton] <;>
    exact StableHlo.devRef_ne_of_ne ‹_›

/-- The four reshapes after the region write the four scalar results and nothing else. -/
theorem not_written1 (b : Ref sig .tc) (hb : b ≠ main_v4 ∧ b ≠ main_v5 ∧ b ≠ main_v6 ∧ b ≠ main_v7) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.reshape_writes, Finset.mem_singleton] <;>
    exact StableHlo.devRef_ne_of_ne ‹_›

/-- A buffer the first stretch does not write reaches the region as launched. -/
theorem V_of_not_written (c : Dev nD) (b : Ref sig .tc) (hb : b ≠ main_v0 ∧ b ≠ main_v1 ∧ b ≠ main_v2) :
    V m c b = m ((c : Thread nD τ).loc b) :=
  StableHlo.after_of_forall_not_mem (b := Proc.devRef .tc b) hostOps0 (fun b => m (c, b)) (not_written0 b hb)

theorem V_arg0 (c : Dev nD) : V m c main_arg0 = m ((c : Thread nD τ).loc main_arg0) := V_of_not_written m c _ (by decide)
theorem V_arg1 (c : Dev nD) : V m c main_arg1 = m ((c : Thread nD τ).loc main_arg1) := V_of_not_written m c _ (by decide)
theorem V_arg2 (c : Dev nD) : V m c main_arg2 = m ((c : Thread nD τ).loc main_arg2) := V_of_not_written m c _ (by decide)
theorem V_arg3 (c : Dev nD) : V m c main_arg3 = m ((c : Thread nD τ).loc main_arg3) := V_of_not_written m c _ (by decide)

/-- The table the region finds is the third argument's words in row-major order. -/
theorem tblOf_apply (c : Dev nD) (j : S3072.Idx) :
    (tblOf m c j : BitVec 32) = (m ((c : Thread nD τ).loc main_arg2) (Shape.reshapeEquiv shapeCasts_S128x24_S3072 j) : BitVec 32) := by
  unfold tblOf
  dsimp only [V, V0, hostOps0]
  after_results
  rfl

/-- Under the precondition every word of the table is below 10000. -/
theorem hT_of_pre
    (h : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    ∀ c j, ((tblOf m c) j : BitVec 32).toNat < 10000 := fun c j => by
  rw [tblOf_apply]
  exact Cert.PreFacts.target_lt _ _ _ _ (h c) _

/-! ## The kernel's own semaphores -/

/-- The layout the launch needs of the kernel's own semaphores: scoped, distinct, and no staging semaphore. -/
theorem ownSemFacts : Pipeline.OwnSemFacts spec0 osem := by decide

omit [FloatOps F] in
/-- The kernel's own cells at zero, listed. -/
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1] (by decide) (by decide)

/-! ## The launch, by the library: @main as segments -/

abbrev 𝒱₀ : Variants := Variants.none
/-- No core owes another anything: no level is assigned. -/
abbrev L : GSem nD τ sig → Finset Unit := fun _ => ∅
abbrev lv : GSem nD τ sig → Unit → ℕ := fun _ _ => 0

/-- The launch element: the pipeline library's at the staging cells and the pipeline's transfers; no counter yet. -/
def u₀ : UU nD τ := (initOf (Pipeline.cells (Pipeline.pin (pcfgs (F := F)) (adm m)) (cellOf_inj (adm m))) (Pipeline.launchToks (Pipeline.pin (pcfgs (F := F)) (adm m)) (cellOf_inj (adm m))), 1)

/-- What rides beside the buffers through the host stretches: the core's `owes`. -/
abbrev R (c : Dev nD) : sProp 𝕄 := iprop(∃ W, owes (c : Thread nD τ) (0 : CellTallies nD τ sig Unit) W)

/-- Core `c`'s buffers at launch, as the operations' valuation. -/
abbrev Vl (c : Dev nD) : Valuation τ sig (Elt F) := fun b => m (c, b)

/-- THE FIRST HOST STRETCH: the three reshapes over the unscoped buffers. -/
def seg0 : Pipeline.HostSeg (Name := ℕ) (U := UU nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (Vl m) R

/-! ## After the region: the buffers a host line may touch, and the second stretch -/

omit [FloatOps F] in
/-- The buffers a line after the region may touch, held at a valuation, one by one: the six windows' arrays and the
    eight buffers that bypass the region. -/
theorem held_tail (c : Dev nD) (Wv : Valuation τ sig (Elt F)) :
    (StableHlo.held (c : Thread nD τ) (Pipeline.tailRefs sig pre0 spec0) Wv : sProp 𝕄)
      = iprop(Pipeline.arrPts spec0 c (fun w => Wv (Proc.devRef .tc (Pipeline.arrRef spec0 w)))
          ∗ (((c : Thread nD τ).loc main_arg0) ↦{fullShare} Wv (Proc.devRef .tc main_arg0)) ∗ (((c : Thread nD τ).loc main_arg1) ↦{fullShare} Wv (Proc.devRef .tc main_arg1))
          ∗ (((c : Thread nD τ).loc main_arg2) ↦{fullShare} Wv (Proc.devRef .tc main_arg2)) ∗ (((c : Thread nD τ).loc main_arg3) ↦{fullShare} Wv (Proc.devRef .tc main_arg3))
          ∗ (((c : Thread nD τ).loc main_v4) ↦{fullShare} Wv (Proc.devRef .tc main_v4)) ∗ (((c : Thread nD τ).loc main_v5) ↦{fullShare} Wv (Proc.devRef .tc main_v5))
          ∗ (((c : Thread nD τ).loc main_v6) ↦{fullShare} Wv (Proc.devRef .tc main_v6)) ∗ (((c : Thread nD τ).loc main_v7) ↦{fullShare} Wv (Proc.devRef .tc main_v7))) := by
  rw [Pipeline.held_tailRefs pre0 spec0 (by decide) c Wv, unscopedRestP0_eq c (fun b => Wv (Proc.devRef .tc b))]

/-- No reshape after the region touches the table. -/
theorem tbl_not_in1 : ∀ op ∈ (hostOps1 (F := F)), ∀ k : Fin pre0.K, Proc.devRef .tc (pre0.ref k) ∉ op.bufs := by
  intro op hop k
  simp only [List.mem_cons, List.mem_nil_iff, or_false] at hop
  fin_cases k
  rcases hop with rfl | rfl | rfl | rfl <;>
    simp only [StableHlo.reshape_bufs, Finset.mem_insert, Finset.mem_singleton, not_or] <;>
    exact ⟨StableHlo.devRef_ne_of_ne (by decide), StableHlo.devRef_ne_of_ne (by decide)⟩

/-! ## The region -/

/-- The one core. -/
theorem dev_eq (c : Dev nD) : c = 0 := Subsingleton.elim _ _

/-- The proof data holds every array at the full share. -/
theorem share_full (c : Dev nD) (w : Fin (cfgOf m).W) : (dats m 0 c).share w = fullShare := (dats m 0 c).share_full (fun _ => rfl) w

/-- What the region leaves in the core's unscoped buffers: the six windows' arrays as the pipeline's write-backs leave
    them, every other buffer as the region found it. -/
abbrev Wt (c : Dev nD) : Valuation τ sig (Elt F) :=
  Pipeline.withArrays spec0 c (V0 m c) (fun w => (dats m 0 c).arrAt w (cfgOf m).N)

/-- The table, held whole at what the region found: it rides beside the buffers through the second host stretch. -/
abbrev Tb (c : Dev nD) : sProp 𝕄 := pt c (Memref.whole main_v2) (tblOf m c)

/-- What bypasses the region: the three arguments no window stages and the four scalar results, at what the region found. -/
abbrev Zc (c : Dev nD) : sProp 𝕄 :=
  iprop((((c : Thread nD τ).loc main_arg0) ↦{fullShare} V m c main_arg0) ∗ (((c : Thread nD τ).loc main_arg2) ↦{fullShare} V m c main_arg2)
    ∗ (((c : Thread nD τ).loc main_arg3) ↦{fullShare} V m c main_arg3) ∗ (((c : Thread nD τ).loc main_v4) ↦{fullShare} V m c main_v4)
    ∗ (((c : Thread nD τ).loc main_v5) ↦{fullShare} V m c main_v5) ∗ (((c : Thread nD τ).loc main_v6) ↦{fullShare} V m c main_v6)
    ∗ (((c : Thread nD τ).loc main_v7) ↦{fullShare} V m c main_v7))

set_option backward.isDefEq.respectTransparency.types false in
def reg0 (hT : ∀ c j, ((tblOf m c) j : BitVec 32).toNat < 10000) :
    Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := Fin 2
  osem := osem
  ho := ownSemFacts
  hbody c := (body_obligation m hT c).loose
  hwaits := Pipeline.hwaits_of_owed_zero _ _ _ _ L lv 0 fun _ _ => rfl
  pre c := iprop(StableHlo.held (c : Thread nD τ) (Pipeline.ucRefs τ sig) (StableHlo.after hostOps0 (Vl m c)) ∗ R c)
  post c := iprop(StableHlo.held (c : Thread nD τ) (Pipeline.tailRefs sig pre0 spec0) (Wt m c) ∗ (Tb m c ∗ R c))
  X c := iprop(pt c (Memref.whole main_arg1) (V m c main_arg1) ∗ sems0 c)
  Y c := iprop(pt c (Memref.whole main_arg1) (simOf m c) ∗ Tb m c)
  Z c := Zc m c
  hentry c := by
    rw [show StableHlo.held (c : Thread nD τ) (Pipeline.ucRefs τ sig) (StableHlo.after hostOps0 (Vl m c)) = unscopedBufs c (V m c)
      from (Pipeline.unscopedBufs_held c _).symm, ownSems0_eq]
    have hpf : (fun k => V m c (pre0.ref k) : pre0.Contents (Elt F)) = (adm m 0).1 := by
      obtain rfl := dev_eq c
      funext k; fin_cases k; rfl
    have hsplit := (Pipeline.arrays_of_unscopedBufs (pcfgs (F := F)) (adm m) (dats m) (launch0 (F := F)).win (launch0 (F := F)).arr_whole c
        (share_full m c) (V m c) fun _ => rfl).trans
      (sep_mono .rfl ((Entails.of_eq (Pipeline.unscopedRest_split (launch0 (F := F)).pre c (V m c))).trans
        (sep_mono .rfl (Entails.of_eq (unscopedRestP0_eq c (V m c))))))
    rw [hpf] at hsplit
    iintro ⟨⟨Hub, HO⟩, Hos, -⟩
    ihave H := hsplit $$ Hub
    icases H with ⟨Ha, Hpf, H0, H1, H2, H3, H4, H5, H6, H7⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [H1 Hos]
    · isplitl [H1]; · iexact H1
      iexact Hos
    isplitl [H0]; · iexact H0
    isplitl [H2]; · iexact H2
    isplitl [H3]; · iexact H3
    isplitl [H4]; · iexact H4
    isplitl [H5]; · iexact H5
    isplitl [H6]; · iexact H6
    iexact H7
  hin c := by
    rw [Φ_eq]; unfold Φ
    have h0 : accsHeld m c (0 : Fin ((cfgOf m).N + 1)) = _ := accsHeld_first m c 0 rfl
    rw [h0, scopedRest0_eq c]
    unfold Pipeline.prefHeld
    rw [show (Finset.univ : Finset (Fin (pcfgs (F := F) 0).pre.K)) = {0} from rfl, bigSep_singleton, adm_tbl m c]
    iintro ⟨⟨H1, Hos⟩, Ht, Hs0, Hs1, Hs3, Hs4, Hs5, Hs6, Hs7, Hs8⟩
    isplitl [H1]; · iexact H1
    isplitl [Ht]; · iexact Ht
    isplitl [Hos]; · iexact Hos
    isplitl [Hs0]; · iexact Hs0
    isplitl [Hs1]; · iexact Hs1
    isplitl [Hs3]; · iexact Hs3
    isplitl [Hs4]; · iexact Hs4
    isplitl [Hs5]; · iexact Hs5
    isplitl [Hs6]; · iexact Hs6
    isplitl [Hs7]; · iexact Hs7
    iexact Hs8
  hout c := by
    rw [Φ_eq, ownSems0_eq]; unfold Φ
    have hl : accsHeld m c (Fin.last (cfgOf m).N) = _ := accsHeld_later m c (Fin.last 48) 47 rfl
    rw [hl, scopedRest0_eq c]
    iintro ⟨H1, Ht, Hos, Hs0, Hs1, Hs3, Hs4, Hs5, Hs6, Hs7, Hs8⟩
    isplitl [H1 Ht]
    · isplitl [H1]; · iexact H1
      iexact Ht
    isplitl [Hos]; · iexact Hos
    isplitl [Hs0]; · iexact Hs0
    isplitl [Hs1]; · iexact Hs1
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    iexists _; iexact Hs8
  hexit c := by
    have hinj : Function.Injective (Pipeline.arrRef spec0) := (launch0 (F := F)).win.arr_inj
    have e : ∀ b : Ref sig .tc, (∀ w, Pipeline.arrRef spec0 w ≠ b) → Wt m c (Proc.devRef .tc b) = V m c b :=
      fun b hb => Pipeline.withArrays_of_ne spec0 c (V0 m c) _ b hb
    rw [held_tail, e main_arg0 (by decide), e main_arg1 (by decide), e main_arg2 (by decide), e main_arg3 (by decide),
      e main_v4 (by decide), e main_v5 (by decide), e main_v6 (by decide), e main_v7 (by decide),
      show (fun w => Wt m c (Proc.devRef .tc (Pipeline.arrRef spec0 w))) = fun w => (dats m 0 c).arrAt w (cfgOf m).N
        from funext fun w => Pipeline.withArrays_arr spec0 hinj c (V0 m c) _ w,
      Pipeline.arrays_eq (Pipeline.pin (pcfgs (F := F)) (adm m)) (dats m) 0 c (launch0 (F := F)).arr_whole (share_full m c)]
    unfold Pipeline.arrPts
    iintro ⟨Ha, HO, ⟨H1, Ht⟩, H0, H2, H3, H4, H5, H6, H7⟩
    imodintro
    isplitr [HO Ht]
    · isplitl [Ha]; · iexact Ha
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · isplitl [Ht]; · iexact Ht
      unfold Pipeline.Dat.owesAt Pipeline.owesWithin
      icases HO with ⟨%W, -, HO⟩; iexists W; iexact HO

/-- THE SECOND HOST STRETCH: the four reshapes of the (1,1) results to scalars, over the arrays and the bypassing
    buffers as the region left them; the table rides along. -/
def seg1 : Pipeline.HostSeg (Name := ℕ) (U := UU nD τ) (pcfgs (F := F)) defs₀ 𝒱₀ L lv :=
  Pipeline.HostSeg.ofOps _ _ _ _ _ (Pipeline.tailRefs sig pre0 spec0) hostOps1
    (fun op h => Pipeline.sub_tailRefs pre0 spec0 op ((List.forall_iff_forall_mem.mp hostOps1_sub) op h) (tbl_not_in1 op h))
    (by intro _ h; (repeat (cases h with | head => rfl | tail _ h => ?_)); exact nomatch h) (Wt m) (fun c => iprop(Tb m c ∗ R c))

/-- @main as the list of the three. -/
abbrev segs (hT : ∀ c j, ((tblOf m c) j : BitVec 32).toNat < 10000) :
    List (Pipeline.Seg (pcfgs (F := F)) (adm m) (dats m) () defs₀ 𝒱₀ L lv) := [.host (seg0 m), .region (reg0 m hT), .host (seg1 m)]

/-- What the core's buffers hold at the end: the second stretch run from what the region left. -/
abbrev Wn (c : Dev nD) : Valuation τ sig (Elt F) := StableHlo.after hostOps1 (Wt m c)

/-- The last thread state: the buffers a host line may touch at the final contents, and the table. -/
abbrev Tₙ (c : Dev nD) : sProp 𝕄 :=
  iprop(StableHlo.held (c : Thread nD τ) (Pipeline.tailRefs sig pre0 spec0) (Wn m c) ∗ Tb m c)

/-- The physical post, raw: every buffer a host line may touch holds the final contents. -/
def QY0 (c : Dev nD) (s : MemSt nD τ sig (Elt F)) : Prop :=
  ∀ b ∈ Pipeline.tailRefs (τ := τ) sig pre0 spec0, s.mem ((c : Thread nD τ).1, b) = Wn m c b

/-! ## The final contents, in closed form -/

/-- The last grid point. -/
def tLast : Fin (cfgOf m).N := ⟨47, Nat.lt_succ_self 47⟩

/-- A (1,1) array has one index. -/
theorem idx_S1x1_eq (a b : S1x1.Idx) : a = b := funext fun d => Fin.ext (by
  match d with
  | ⟨0, _⟩ => show (a 0).val = (b 0).val; have ha : (a 0).val < 1 := (a 0).isLt; have hb : (b 0).val < 1 := (b 0).isLt; omega
  | ⟨1, _⟩ => show (a 1).val = (b 1).val; have ha : (a 1).val < 1 := (a 1).isLt; have hb : (b 1).val < 1 := (b 1).isLt; omega)

/-! Each (1,1) result array ends holding what the last point wrote back: the window's block is the whole array, the
last point is the only one that writes it back, and what it writes back is the point's result. -/

theorem final2 (c : Dev nD) : (dats m 0 c).arrAt 2 (cfgOf m).N = (outs m c).ml :=
  (dats m 0 c).arrAt_eq_of_cover 2 (outs m c).ml
    (fun t hf => by
      show ((cfgOf m).win 2).cut (grid0.coords t) ((dats m 0 c).after 2 t) = _
      rw [after2]
      have hz : (fun a => ((cfgOf m).win 2).index t a * main_v3_0.ty.shape.size a) = fun _ => 0 := funext fun a => by fin_cases a <;> rfl
      exact (Memref.read_access_unit_zero (Elt F) main_v3_0 hz (fun a => by rw [congrFun hz a]; simp) _).symm)
    (fun i => ⟨tLast m, rfl,
      idx_S1x1_eq ((((cfgOf m).win 2).blk (tLast m)).view.emb (Shape.Idx.first (show 0 < (((cfgOf m).win 2).xblock (grid0.coords (tLast m))).numel from Nat.one_pos))) i
        ▸ (((cfgOf m).win 2).blk (tLast m)).view.emb_mem_set _⟩)

theorem final3 (c : Dev nD) : (dats m 0 c).arrAt 3 (cfgOf m).N = (outs m c).total :=
  (dats m 0 c).arrAt_eq_of_cover 3 (outs m c).total
    (fun t hf => by
      show ((cfgOf m).win 3).cut (grid0.coords t) ((dats m 0 c).after 3 t) = _
      rw [after3]
      have hz : (fun a => ((cfgOf m).win 3).index t a * main_v3_1.ty.shape.size a) = fun _ => 0 := funext fun a => by fin_cases a <;> rfl
      exact (Memref.read_access_unit_zero (Elt F) main_v3_1 hz (fun a => by rw [congrFun hz a]; simp) _).symm)
    (fun i => ⟨tLast m, rfl,
      idx_S1x1_eq ((((cfgOf m).win 3).blk (tLast m)).view.emb (Shape.Idx.first (show 0 < (((cfgOf m).win 3).xblock (grid0.coords (tLast m))).numel from Nat.one_pos))) i
        ▸ (((cfgOf m).win 3).blk (tLast m)).view.emb_mem_set _⟩)

theorem final4 (c : Dev nD) : (dats m 0 c).arrAt 4 (cfgOf m).N = (outs m c).mean :=
  (dats m 0 c).arrAt_eq_of_cover 4 (outs m c).mean
    (fun t hf => by
      show ((cfgOf m).win 4).cut (grid0.coords t) ((dats m 0 c).after 4 t) = _
      rw [after4]
      have hz : (fun a => ((cfgOf m).win 4).index t a * main_v3_2.ty.shape.size a) = fun _ => 0 := funext fun a => by fin_cases a <;> rfl
      exact (Memref.read_access_unit_zero (Elt F) main_v3_2 hz (fun a => by rw [congrFun hz a]; simp) _).symm)
    (fun i => ⟨tLast m, rfl,
      idx_S1x1_eq ((((cfgOf m).win 4).blk (tLast m)).view.emb (Shape.Idx.first (show 0 < (((cfgOf m).win 4).xblock (grid0.coords (tLast m))).numel from Nat.one_pos))) i
        ▸ (((cfgOf m).win 4).blk (tLast m)).view.emb_mem_set _⟩)

theorem final5 (c : Dev nD) : (dats m 0 c).arrAt 5 (cfgOf m).N = (outs m c).std :=
  (dats m 0 c).arrAt_eq_of_cover 5 (outs m c).std
    (fun t hf => by
      show ((cfgOf m).win 5).cut (grid0.coords t) ((dats m 0 c).after 5 t) = _
      rw [after5]
      have hz : (fun a => ((cfgOf m).win 5).index t a * main_v3_3.ty.shape.size a) = fun _ => 0 := funext fun a => by fin_cases a <;> rfl
      exact (Memref.read_access_unit_zero (Elt F) main_v3_3 hz (fun a => by rw [congrFun hz a]; simp) _).symm)
    (fun i => ⟨tLast m, rfl,
      idx_S1x1_eq ((((cfgOf m).win 5).blk (tLast m)).view.emb (Shape.Idx.first (show 0 < (((cfgOf m).win 5).xblock (grid0.coords (tLast m))).numel from Nat.one_pos))) i
        ▸ (((cfgOf m).win 5).blk (tLast m)).view.emb_mem_set _⟩)

/-- A scalar result at the end: the reshape of its (1,1) array as the region left it. -/
theorem Wn_v4 (c : Dev nD) : Wn m c (Proc.devRef .tc main_v4) = shapeCast S_ (outs m c).ml shapeCasts_S1x1_S_ := by
  dsimp only [Wn, hostOps1]
  after_results
  rw [show Wt m c (Proc.devRef .tc main_v3_0) = (dats m 0 c).arrAt 2 (cfgOf m).N
    from Pipeline.withArrays_arr spec0 (launch0 (F := F)).win.arr_inj c (V0 m c) _ 2, final2]
  rfl
theorem Wn_v5 (c : Dev nD) : Wn m c (Proc.devRef .tc main_v5) = shapeCast S_ (outs m c).total shapeCasts_S1x1_S_ := by
  dsimp only [Wn, hostOps1]
  after_results
  rw [show Wt m c (Proc.devRef .tc main_v3_1) = (dats m 0 c).arrAt 3 (cfgOf m).N
    from Pipeline.withArrays_arr spec0 (launch0 (F := F)).win.arr_inj c (V0 m c) _ 3, final3]
  rfl
theorem Wn_v6 (c : Dev nD) : Wn m c (Proc.devRef .tc main_v6) = shapeCast S_ (outs m c).mean shapeCasts_S1x1_S_ := by
  dsimp only [Wn, hostOps1]
  after_results
  rw [show Wt m c (Proc.devRef .tc main_v3_2) = (dats m 0 c).arrAt 4 (cfgOf m).N
    from Pipeline.withArrays_arr spec0 (launch0 (F := F)).win.arr_inj c (V0 m c) _ 4, final4]
  rfl
theorem Wn_v7 (c : Dev nD) : Wn m c (Proc.devRef .tc main_v7) = shapeCast S_ (outs m c).std shapeCasts_S1x1_S_ := by
  dsimp only [Wn, hostOps1]
  after_results
  rw [show Wt m c (Proc.devRef .tc main_v3_3) = (dats m 0 c).arrAt 5 (cfgOf m).N
    from Pipeline.withArrays_arr spec0 (launch0 (F := F)).win.arr_inj c (V0 m c) _ 5, final5]
  rfl

/-- An argument at the end: no host operation writes it and no window's array is it, so it is as launched. -/
theorem Wn_arg (c : Dev nD) (b : Ref sig .tc) (h1 : b ≠ main_v4 ∧ b ≠ main_v5 ∧ b ≠ main_v6 ∧ b ≠ main_v7)
    (h2 : ∀ w, Pipeline.arrRef spec0 w ≠ b) (h0 : b ≠ main_v0 ∧ b ≠ main_v1 ∧ b ≠ main_v2) :
    Wn m c (Proc.devRef .tc b) = m ((c : Thread nD τ).loc b) :=
  (StableHlo.after_of_forall_not_mem hostOps1 (Wt m c) (not_written1 b h1)).trans
    ((Pipeline.withArrays_of_ne spec0 c (V0 m c) _ b h2).trans (V_of_not_written m c b h0))

omit [FloatOps F] in
/-- A reference that is a window's array or bypasses the region is a buffer a line after the region may touch. -/
theorem mem_tail (b : Ref sig .tc) (hb : b ∈ Finset.univ.image (Pipeline.arrRef spec0) ∪ Pipeline.restRefsP sig pre0 spec0) :
    Proc.devRef (τ := τ) .tc b ∈ Pipeline.tailRefs sig pre0 spec0 := Finset.mem_map_of_mem _ hb
set_option backward.isDefEq.respectTransparency.types false in
/-- THE RUN. At the compiled mesh, for any float values, from any memory with zero counters whose table of target words
    lies below 10000: every weakly fair execution of @main on the TensorCores terminates, nothing faulting, and every
    final state has the four scalar results at the last point's accumulators finalized, and the four arguments unchanged. -/
theorem run_main (hT : ∀ c j, ((tblOf m c) j : BitVec 32).toNat < 10000) :
    θ_run defs (onTc (τ := τ) (main (F := F))) ⟨m, fun _ => 0, ρ⟩ (fun r => ∀ c : Dev nD,
      r.2.mem ((c.tc : Thread nD τ).loc main_v4) = shapeCast S_ (outs m c).ml shapeCasts_S1x1_S_
      ∧ r.2.mem ((c.tc : Thread nD τ).loc main_v5) = shapeCast S_ (outs m c).total shapeCasts_S1x1_S_
      ∧ r.2.mem ((c.tc : Thread nD τ).loc main_v6) = shapeCast S_ (outs m c).mean shapeCasts_S1x1_S_
      ∧ r.2.mem ((c.tc : Thread nD τ).loc main_v7) = shapeCast S_ (outs m c).std shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) (adm m) (dats m) () (cellOf_inj (adm m)) EP defs₀ 𝒱₀ L lv m ρ main (segs m hT)
    (fun c Q => by rw [main_segs (adm m) (dats m) () 𝒱₀ L lv (seg0 m) (seg1 m) (reg0 m hT) rfl rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c)) (Tₙ := Tₙ m)
    (hch := ⟨fun _ => .rfl, fun _ => .rfl, fun _ => .rfl, fun c => by
      show iprop(StableHlo.held (c : Thread nD τ) (Pipeline.tailRefs sig pre0 spec0) (Wn m c) ∗ (Tb m c ∗ R c))
        ⊢ iprop(Tₙ m c ∗ ∃ W, owes (c : Thread nD τ) (0 : CellTallies nD τ sig Unit) W)
      iintro ⟨Hh, Ht, HO⟩
      isplitr [HO]
      · isplitl [Hh]; · iexact Hh
        iexact Ht
      · iexact HO⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := QY0 m)
    (hfin := fun c s' => by
      unfold Tₙ StableHlo.held
      iintro ⟨⟨Hh, -⟩, HSI⟩
      ihave Hr := (pointsTo_read_all (Pipeline.tailRefs (τ := τ) sig pre0 spec0) (fun b => ((c : Thread nD τ).1, b)) (fun b => Wn m c b) s') $$ [Hh HSI]
      · isplitl [Hh] <;> iassumption
      icases Hr with ⟨%hr, HSI⟩
      imodintro
      isplitr; · ipureintro; exact hr
      iexact HSI)
    (hQ := fun s h c =>
      ⟨(h c _ (mem_tail main_v4 (by decide))).trans (Wn_v4 m c), (h c _ (mem_tail main_v5 (by decide))).trans (Wn_v5 m c),
        (h c _ (mem_tail main_v6 (by decide))).trans (Wn_v6 m c), (h c _ (mem_tail main_v7 (by decide))).trans (Wn_v7 m c),
        (h c _ (mem_tail main_arg0 (by decide))).trans (Wn_arg m c main_arg0 (by decide) (by decide) (by decide)),
        (h c _ (mem_tail main_arg1 (by decide))).trans (Wn_arg m c main_arg1 (by decide) (by decide) (by decide)),
        (h c _ (mem_tail main_arg2 (by decide))).trans (Wn_arg m c main_arg2 (by decide) (by decide) (by decide)),
        (h c _ (mem_tail main_arg3 (by decide))).trans (Wn_arg m c main_arg3 (by decide) (by decide) (by decide))⟩)

end Launch

variable (m : (ℓ : Loc nD τ sig) → Buf (Elt F) ℓ) (ρ : Dev nD → PrngReg)

/-- Under the precondition every word of the table the region finds is below 10000. -/
theorem hT_of_pre
    (h : ∀ c : Dev nD, Cert.Pre_finite_inputs.fn (F := F) (m ((c.tc : Thread nD τ).loc main_arg0)) (m ((c.tc : Thread nD τ).loc main_arg1))
      (m ((c.tc : Thread nD τ).loc main_arg2)) (m ((c.tc : Thread nD τ).loc main_arg3)) = fun _ => 1#1) :
    ∀ c j, ((tblOf m c) j : BitVec 32).toNat < 10000 := Launch.hT_of_pre m h

/-- The run of @main: it terminates, the four scalar results are the last point's accumulators finalized (each the
    reshape of its (1,1) value), and the four arguments are unchanged. -/
theorem run_main (hT : ∀ c j, ((tblOf m c) j : BitVec 32).toNat < 10000) :
    θ_run defs (onTc (τ := τ) (main (F := F))) ⟨m, fun _ => 0, ρ⟩ (fun r => ∀ c : Dev nD,
      r.2.mem ((c.tc : Thread nD τ).loc main_v4) = shapeCast S_ (outs m c).ml shapeCasts_S1x1_S_
      ∧ r.2.mem ((c.tc : Thread nD τ).loc main_v5) = shapeCast S_ (outs m c).total shapeCasts_S1x1_S_
      ∧ r.2.mem ((c.tc : Thread nD τ).loc main_v6) = shapeCast S_ (outs m c).mean shapeCasts_S1x1_S_
      ∧ r.2.mem ((c.tc : Thread nD τ).loc main_v7) = shapeCast S_ (outs m c).std shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Launch.run_main m ρ hT

end Cert.Proof.K
end
-- ==== Proof.LibSums.lean ====
import Mathlib.Data.EReal.Basic
import Mathlib.Data.EReal.Operations
import Mathlib.Data.EReal.Inv
import Mathlib.Algebra.BigOperators.Fin
import Mathlib.Algebra.BigOperators.Group.Finset.Basic
import Mathlib.Algebra.BigOperators.Ring.Finset
import Mathlib.Algebra.Order.BigOperators.Ring.Finset
import Mathlib.Order.MinMax
import Mathlib.Tactic.Ring
import Mathlib.Tactic.FieldSimp
import Mathlib.Tactic.Linarith
import Mathlib.Tactic.Positivity
import Idealize.ShloMosaic.PureOps.Ideal

/-!
# Sums, blocks of sums, and the variance identity over the extended reals

General algebra, independent of any program:

* a finite sum of coerced reals is the coercion of the real sum;
* a left fold of successive additions is the start value plus a finite sum;
* a double sum over `T` blocks of `R` consecutive indices is one sum over `T * R` indices;
* the variance identity `E[x²] - (E x)² = E[(x - E x)²] ≥ 0` on the reals, and the same
  identity read on extended reals for real-valued data, where the clamp `max · 0` is the identity;
* small facts that evaluate extended-real operations on coerced reals.
-/

open scoped BigOperators

namespace Cert.LibSums

/-! ### Coercion of finite sums -/

/-- The coercion `ℝ → EReal` commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion `ℝ → EReal` commutes with binary `max`. -/
theorem coe_max (a b : ℝ) : ((max a b : ℝ) : EReal) = max (a : EReal) (b : EReal) :=
  EReal.coe_strictMono.monotone.map_max

/-! ### A chain of successive additions is a sum -/

section Monoid
variable {M : Type*} [AddCommMonoid M]

/-- Folding `acc ↦ acc + g k` over any list is the start value plus the sum of the mapped list. -/
theorem foldl_add_eq_add_sum_map {α : Type*} (g : α → M) (l : List α) (a : M) :
    l.foldl (fun acc k => acc + g k) a = a + (l.map g).sum := by
  induction l generalizing a with
  | nil => simp
  | cons x xs ih => simp [ih, add_assoc]

/-- Folding `acc ↦ acc + f k` over `0, 1, …, n-1` is the start value plus `∑ k < n, f k`. -/
theorem foldl_add_eq_sum (a : M) (f : ℕ → M) (n : ℕ) :
    (List.range n).foldl (fun acc k => acc + f k) a = a + ∑ k ∈ Finset.range n, f k := by
  induction n with
  | zero => simp
  | succ n ih =>
    rw [List.range_succ, List.foldl_append, ih, Finset.sum_range_succ, ← add_assoc]
    rfl

/-- Folding `acc ↦ acc + g k` over all of `Fin n` in order is the start value plus `∑ k, g k`. -/
theorem foldl_finRange_add_eq_sum {n : ℕ} (a : M) (g : Fin n → M) :
    (List.finRange n).foldl (fun acc k => acc + g k) a = a + ∑ k : Fin n, g k := by
  rw [foldl_add_eq_add_sum_map, Fin.sum_univ_def]

/-- The `Fin` fold for a function of the underlying natural number. -/
theorem foldl_finRange_add_eq_sum_val (a : M) (f : ℕ → M) (n : ℕ) :
    (List.finRange n).foldl (fun acc k => acc + f k.val) a = a + ∑ k : Fin n, f k.val :=
  foldl_finRange_add_eq_sum a (fun k => f k.val)

/-! ### Blocks -/

/-- `T` blocks of `R` consecutive indices: the double sum of `f (R * t + r)` is the single sum of
    `f` over the first `T * R` naturals. -/
theorem sum_blocks (f : ℕ → M) (T R : ℕ) :
    ∑ t ∈ Finset.range T, ∑ r ∈ Finset.range R, f (R * t + r) = ∑ g ∈ Finset.range (T * R), f g := by
  induction T with
  | zero => simp
  | succ T ih =>
    rw [Finset.sum_range_succ, ih, Nat.succ_mul, Finset.sum_range_add, Nat.mul_comm R T]

/-- The block decomposition with `Fin`-indexed sums. -/
theorem sum_blocks_fin (f : ℕ → M) (T R : ℕ) :
    ∑ t : Fin T, ∑ r : Fin R, f (R * t.val + r.val) = ∑ g : Fin (T * R), f g.val := by
  rw [Fin.sum_univ_eq_sum_range (fun g => f g) (T * R), ← sum_blocks f T R,
    ← Fin.sum_univ_eq_sum_range (fun t => ∑ r ∈ Finset.range R, f (R * t + r)) T]
  refine Finset.sum_congr rfl fun t _ => ?_
  exact Fin.sum_univ_eq_sum_range (fun r => f (R * t.val + r)) R

end Monoid

/-! ### The variance identity on the reals -/

section Variance
variable {ι : Type*} [Fintype ι]

/-- `E[x²] - (E x)² = E[(x - E x)²]` for a finite nonempty family of reals. -/
theorem variance_identity (x : ι → ℝ) (hN : 0 < Fintype.card ι) :
    (∑ i, (x i) ^ 2) / (Fintype.card ι : ℝ) - ((∑ i, x i) / (Fintype.card ι : ℝ)) ^ 2
      = (∑ i, (x i - (∑ j, x j) / (Fintype.card ι : ℝ)) ^ 2) / (Fintype.card ι : ℝ) := by
  have hN' : (Fintype.card ι : ℝ) ≠ 0 := by exact_mod_cast hN.ne'
  set N : ℝ := (Fintype.card ι : ℝ) with hNdef
  set S : ℝ := ∑ i, x i with hS
  have h : ∑ i, (x i - S / N) ^ 2 = (∑ i, (x i) ^ 2) - 2 * (S / N) * S + N * (S / N) ^ 2 := by
    simp only [sub_sq, Finset.sum_add_distrib, Finset.sum_sub_distrib, Finset.sum_const,
      Finset.card_univ, nsmul_eq_mul, ← Finset.mul_sum, ← Finset.sum_mul, hS, hNdef]
    ring
  rw [h]
  field_simp
  ring

/-- The mean of squared deviations is nonnegative. -/
theorem variance_nonneg (x : ι → ℝ) :
    0 ≤ (∑ i, (x i - (∑ j, x j) / (Fintype.card ι : ℝ)) ^ 2) / (Fintype.card ι : ℝ) :=
  div_nonneg (Finset.sum_nonneg fun _ _ => sq_nonneg _) (Nat.cast_nonneg _)

/-- Clamping `E[x²] - (E x)²` at zero does nothing: it is the mean of squared deviations. -/
theorem max_variance_eq (x : ι → ℝ) (hN : 0 < Fintype.card ι) :
    max ((∑ i, (x i) ^ 2) / (Fintype.card ι : ℝ) - ((∑ i, x i) / (Fintype.card ι : ℝ)) ^ 2) 0
      = (∑ i, (x i - (∑ j, x j) / (Fintype.card ι : ℝ)) ^ 2) / (Fintype.card ι : ℝ) := by
  rw [variance_identity x hN]
  exact max_eq_left (variance_nonneg x)

end Variance

/-! ### Extended-real operations on coerced reals -/

section CoeFacts

/-- Zero (as a coerced real) minus a coerced real is the coerced negation. -/
theorem coe_zero_sub_coe (a : ℝ) : ((0 : ℝ) : EReal) - (a : EReal) = ((-a : ℝ) : EReal) := by
  rw [← EReal.coe_sub, zero_sub]

/-- Zero minus a coerced real is the coerced negation. -/
theorem zero_sub_coe (a : ℝ) : (0 : EReal) - (a : EReal) = ((-a : ℝ) : EReal) := by
  rw [← EReal.coe_zero, coe_zero_sub_coe]

/-- The product of two coerced reals is the coerced product. -/
theorem coe_mul_coe (a b : ℝ) : (a : EReal) * (b : EReal) = ((a * b : ℝ) : EReal) :=
  (EReal.coe_mul a b).symm

/-- The sum of two coerced reals is the coerced sum. -/
theorem coe_add_coe (a b : ℝ) : (a : EReal) + (b : EReal) = ((a + b : ℝ) : EReal) :=
  (EReal.coe_add a b).symm

/-- The difference of two coerced reals is the coerced difference. -/
theorem coe_sub_coe (a b : ℝ) : (a : EReal) - (b : EReal) = ((a - b : ℝ) : EReal) :=
  (EReal.coe_sub a b).symm

/-- The quotient of two coerced reals is the coerced quotient (division by zero gives zero on
    both sides). -/
theorem coe_div_coe (a b : ℝ) : (a : EReal) / (b : EReal) = ((a / b : ℝ) : EReal) :=
  (EReal.coe_div a b).symm

/-- The maximum of two coerced reals is the coerced maximum. -/
theorem max_coe_coe (a b : ℝ) : max (a : EReal) (b : EReal) = ((max a b : ℝ) : EReal) :=
  (coe_max a b).symm

/-- A finite sum of products of coerced reals is the coerced sum of products. -/
theorem sum_coe_mul_coe {ι : Type*} (s : Finset ι) (f g : ι → ℝ) :
    ∑ i ∈ s, (f i : EReal) * (g i : EReal) = ((∑ i ∈ s, f i * g i : ℝ) : EReal) := by
  rw [coe_sum]
  exact Finset.sum_congr rfl fun i _ => coe_mul_coe (f i) (g i)

/-- A coerced real times a `0/1` indicator is the coerced real or zero. -/
theorem coe_mul_ite (c : Prop) [Decidable c] (x : ℝ) :
    (x : EReal) * (if c then (1 : EReal) else 0) = ((if c then x else 0 : ℝ) : EReal) := by
  split_ifs
  · rw [mul_one]
  · rw [mul_zero, EReal.coe_zero]

/-- A `0/1` indicator times a coerced real is the coerced real or zero. -/
theorem ite_mul_coe (c : Prop) [Decidable c] (x : ℝ) :
    (if c then (1 : EReal) else 0) * (x : EReal) = ((if c then x else 0 : ℝ) : EReal) := by
  rw [mul_comm, coe_mul_ite]

/-- A coerced real times an extended real that is `0` or `1` is a coerced real. -/
theorem coe_mul_zero_or_one (x : ℝ) {b : EReal} (hb : b = 0 ∨ b = 1) :
    (x : EReal) * b = ((x * b.toReal : ℝ) : EReal) := by
  rcases hb with rfl | rfl
  · rw [mul_zero, EReal.toReal_zero, mul_zero, EReal.coe_zero]
  · rw [mul_one, EReal.toReal_one, mul_one]

/-- The certificate-level division by a nonzero coerced real is the extended reals' own division. -/
theorem ideal_div_coe_eq_div (x : EReal) {y : ℝ} (hy : y ≠ 0) :
    Idealize.ShloMosaic.Ideal.div x (y : EReal) = x / (y : EReal) := by
  rw [Idealize.ShloMosaic.Ideal.div, if_neg (EReal.coe_ne_zero.mpr hy), div_eq_mul_inv]

/-- The certificate-level division of coerced reals, off a zero divisor, is the coerced quotient. -/
theorem ideal_div_coe_coe (a : ℝ) {b : ℝ} (hb : b ≠ 0) :
    Idealize.ShloMosaic.Ideal.div (a : EReal) (b : EReal) = ((a / b : ℝ) : EReal) := by
  rw [ideal_div_coe_eq_div _ hb, coe_div_coe]

end CoeFacts

/-! ### The variance identity on extended reals, for real-valued data -/

section EVariance
variable {ι : Type*} [Fintype ι]

/-- For real-valued data read in the extended reals, `max (E[x²] - (E x)·(E x)) 0` is the mean of
    the squared deviations `(x - E x)·(x - E x)`: every sum is a finite sum of coerced reals, every
    division is by the coerced positive count. -/
theorem ereal_variance (x : ι → ℝ) (Nr : ℝ) (hNr : Nr = (Fintype.card ι : ℝ)) (hpos : 0 < Nr) :
    max ((∑ i, ((x i * x i : ℝ) : EReal)) / (Nr : EReal)
          - ((∑ i, (x i : EReal)) / (Nr : EReal)) * ((∑ i, (x i : EReal)) / (Nr : EReal))) 0
      = (∑ i, (((x i : ℝ) : EReal) - (∑ j, (x j : EReal)) / (Nr : EReal))
              * (((x i : ℝ) : EReal) - (∑ j, (x j : EReal)) / (Nr : EReal))) / (Nr : EReal) := by
  have hcard : 0 < Fintype.card ι := by rw [hNr] at hpos; exact_mod_cast hpos
  have hm : (∑ j, (x j : EReal)) / (Nr : EReal) = (((∑ j, x j) / Nr : ℝ) : EReal) := by
    rw [← coe_sum, ← EReal.coe_div]
  have key := max_variance_eq x hcard
  rw [← hNr] at key
  simp only [sq] at key
  rw [hm]
  simp only [← EReal.coe_sub, ← EReal.coe_mul, ← coe_sum, ← EReal.coe_div]
  rw [← EReal.coe_zero, ← coe_max, key]

/-- The same statement with the squares written as products of coerced reals. -/
theorem ereal_variance' (x : ι → ℝ) (Nr : ℝ) (hNr : Nr = (Fintype.card ι : ℝ)) (hpos : 0 < Nr) :
    max ((∑ i, (x i : EReal) * (x i : EReal)) / (Nr : EReal)
          - ((∑ i, (x i : EReal)) / (Nr : EReal)) * ((∑ i, (x i : EReal)) / (Nr : EReal))) 0
      = (∑ i, (((x i : ℝ) : EReal) - (∑ j, (x j : EReal)) / (Nr : EReal))
              * (((x i : ℝ) : EReal) - (∑ j, (x j : EReal)) / (Nr : EReal))) / (Nr : EReal) := by
  rw [← ereal_variance x Nr hNr hpos]
  simp only [EReal.coe_mul]

/-- The variance identity with the certificate-level division in place of the extended reals'. -/
theorem ereal_variance_idealDiv (x : ι → ℝ) (Nr : ℝ) (hNr : Nr = (Fintype.card ι : ℝ))
    (hpos : 0 < Nr) :
    max (Idealize.ShloMosaic.Ideal.div (∑ i, ((x i * x i : ℝ) : EReal)) (Nr : EReal)
          - (Idealize.ShloMosaic.Ideal.div (∑ i, (x i : EReal)) (Nr : EReal))
            * (Idealize.ShloMosaic.Ideal.div (∑ i, (x i : EReal)) (Nr : EReal))) 0
      = Idealize.ShloMosaic.Ideal.div
          (∑ i, (((x i : ℝ) : EReal) - Idealize.ShloMosaic.Ideal.div (∑ j, (x j : EReal)) (Nr : EReal))
              * (((x i : ℝ) : EReal) - Idealize.ShloMosaic.Ideal.div (∑ j, (x j : EReal)) (Nr : EReal)))
          (Nr : EReal) := by
  simp only [ideal_div_coe_eq_div _ hpos.ne']
  exact ereal_variance x Nr hNr hpos

end EVariance

end Cert.LibSums
-- ==== Proof.IdealStep.lean ====
/-
  The word-smoothing kernel's per-row, per-point and final steps read at the extended reals.

  A one-by-one vector has one index `z`. At it: a running sum's update is an addition; each
  row's addend is a finite sum over the 10000 classes of products of the row's entries with the
  smoothed weight `smoothE` of the table entry; a grid point's 64 rows add 64 addends; and the four
  results are quotients, a maximum and a square root of the six sums.
-/
import proofs.«419560_j5755256177164_3_alg».proof.Proof.KIStepSpec
import proofs.«419560_j5755256177164_3_alg».proof.Proof.LibSums
import proofs.«419560_j5755256177164_3_alg».proof.Proof.GDefs
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Proof.KIValue

open Idealize.ShloMosaic Idealize.ShloMosaic.ValueIdx
open Cert.KernelIdeal Cert.KernelIdeal.Gen Cert.Proof.KI Cert.GSpec

/-- The one index of a one-by-one vector. -/
abbrev z : S1x1.Idx := ix2 (0 : Fin 1) (0 : Fin 1)

/-- Every index of a one-by-one vector is `z`. -/
theorem idx_eq_z (j : S1x1.Idx) : j = z := by
  funext a
  match a with
  | ⟨0, _⟩ => exact Fin.ext (by have := idx2_lt0 (n0 := 1) (n1 := 1) j; show (j 0).val = 0; omega)
  | ⟨1, _⟩ => exact Fin.ext (by have := idx2_lt1 (n0 := 1) (n1 := 1) j; show (j 1).val = 0; omega)

/-! ## A running sum's update -/

/-- A reshape to the same shape is the identity and the addition is the extended reals'. -/
theorem accAdd_apply (a d : FVec Ideal S1x1 .f32) (j : S1x1.Idx) : accAdd (F := Ideal) a d j = a j + d j := by
  unfold accAdd
  rw [shapeCast_self]
  rfl

/-- The mask entry's addend is the mask entry. -/
theorem dM_apply (m : FVec Ideal S1x1 .f32) (j : S1x1.Idx) : dM (F := Ideal) m j = m j := by
  unfold dM
  rw [shapeCast_self]

/-! ## The 0/1 conversions -/

/-- A one-bit word widened to 32 bits and converted as a signed integer is the number 0 or 1. -/
theorem bit_to_float (b : BitVec 1) :
    FloatOps.sitofp (F := Ideal) .f32 (b.setWidth 32) = bitE b := by
  by_cases h : b = 1#1
  · subst h; show (((((1#1 : BitVec 1).setWidth 32).toInt : ℤ) : ℝ) : EReal) = bitE 1#1
    rw [bitE_one]; norm_num
  · rw [eq_zero_of_ne_one h]
    show (((((0#1 : BitVec 1).setWidth 32).toInt : ℤ) : ℝ) : EReal) = bitE 0#1
    rw [bitE_zero]; norm_num

/-! ## The clipped and the smoothed row, entrywise -/

theorem clipRow_apply (s : FVec Ideal S1x10000 .f32) (i : S1x10000.Idx) :
    clipRow (F := Ideal) s i = clipE (s i) := by
  show s i * FloatOps.sitofp (F := Ideal) .f32 ((Ideal.cmp .oge (s i) halfE).setWidth 32)
      = s i * bitE (Ideal.cmp .oge (s i) halfE)
  rw [bit_to_float]

theorem smoothRow_apply (s : FVec Ideal S1x10000 .f32) (i : S1x10000.Idx) :
    smoothRow (F := Ideal) s i = smoothE (s i) := by
  show Ideal.exp (Ideal.div (clipRow (F := Ideal) s i - oneE) tauE)
        * FloatOps.sitofp (F := Ideal) .f32 ((Ideal.cmp .olt (clipRow (F := Ideal) s i) oneE).setWidth 32)
      = smoothE (s i)
  rw [bit_to_float, clipRow_apply]
  rfl

/-! ## A lane sum brought to one-by-one -/

/-- The sum along the 10000 lanes of a one-row vector, reshaped to one-by-one, read at `z`. -/
theorem laneSum_apply (src : FVec Ideal S1x10000 .f32) :
    shapeCast S1x1 (multiReduction (F := Ideal) .add [1] S1 src 0x00000000#32 reduces_S1x10000_S1 (.inl rfl) rfl)
        shapeCasts_S1_S1x1 z
      = ∑ v : Fin 10000, src (ix2 (0 : Fin 1) v) := by
  refine (shapeCast_a_1a_apply _ shapeCasts_S1_S1x1 (0 : Fin 1) (0 : Fin 1)).trans ?_
  refine (Ideal.multiReduction_add_total src 0x00000000#32 reduces_S1x10000_S1 (fun b => ?_) (.inl rfl) rfl _).trans ?_
  · match b with
    | ⟨0, _⟩ => rfl
  · rw [sum_idx2 (n0 := 1) (n1 := 10000) src, Fin.sum_univ_one]

/-! ## The rows a row's addends are summed from -/

/-- The input row passes a reshape to the same shape. -/
theorem xRow_apply (x : FVec Ideal S1x10000 .f32) (i : S1x10000.Idx) : xRow (F := Ideal) x i = x i := by
  unfold xRow
  rw [shapeCast_self]

/-- The mask entry spread along the row reads the mask entry everywhere. -/
theorem maskRow_apply (m : FVec Ideal S1x1 .f32) (i : S1x10000.Idx) :
    broadcastTo S1x10000 (dM (F := Ideal) m) broadcasts_S1x1_S1x10000 i = m z := by
  refine (broadcastTo_apply _ broadcasts_S1x1_S1x10000 i z fun a => ?_).trans (dM_apply m z)
  match a with
  | ⟨0, _⟩ => rfl
  | ⟨1, _⟩ => rfl

/-- `m · smooth`, entrywise. -/
theorem wRow_apply (s : FVec Ideal S1x10000 .f32) (m : FVec Ideal S1x1 .f32) (i : S1x10000.Idx) :
    wRow (F := Ideal) s m i = m z * smoothE (s i) := by
  show broadcastTo S1x10000 (dM (F := Ideal) m) broadcasts_S1x1_S1x10000 i * smoothRow (F := Ideal) s i = _
  rw [maskRow_apply, smoothRow_apply]

/-- The one-hot row of a word: the bit of "class `v` is the word", as a number. -/
theorem bitE_cmpi_eq (v : Fin 10000) (w : BitVec 32) :
    bitE (IntOp.cmpi .eq (BitVec.ofNat 32 v.val) w) = if v.val = w.toNat then 1 else 0 := by
  have hv : v.val < 2 ^ 32 := by have := v.isLt; omega
  have hto : (BitVec.ofNat 32 v.val).toNat = v.val := by
    rw [BitVec.toNat_ofNat, Nat.mod_eq_of_lt hv]
  by_cases h : v.val = w.toNat
  · have e : BitVec.ofNat 32 v.val = w := BitVec.eq_of_toNat_eq (hto.trans h)
    rw [if_pos h, e]
    simp [IntOp.cmpi, bitE]
  · have e : BitVec.ofNat 32 v.val ≠ w := fun e => h (by rw [← e, hto])
    rw [if_neg h]
    simp [IntOp.cmpi, bitE, e]

/-! ## The six addends of a row -/

theorem dS_apply (s : FVec Ideal S1x10000 .f32) :
    dS (F := Ideal) s z = ∑ v : Fin 10000, smoothE (s (ix2 (0 : Fin 1) v)) :=
  (laneSum_apply (smoothRow (F := Ideal) s)).trans
    (Finset.sum_congr rfl fun v _ => smoothRow_apply s _)

theorem dQ_apply (s : FVec Ideal S1x10000 .f32) :
    dQ (F := Ideal) s z
      = ∑ v : Fin 10000, smoothE (s (ix2 (0 : Fin 1) v)) * smoothE (s (ix2 (0 : Fin 1) v)) :=
  (laneSum_apply (mulf (smoothRow (F := Ideal) s) (smoothRow (F := Ideal) s))).trans
    (Finset.sum_congr rfl fun v _ => by
      show smoothRow (F := Ideal) s _ * smoothRow (F := Ideal) s _ = _
      rw [smoothRow_apply])

theorem dW_apply (s : FVec Ideal S1x10000 .f32) (m : FVec Ideal S1x1 .f32) :
    dW (F := Ideal) s m z = ∑ v : Fin 10000, m z * smoothE (s (ix2 (0 : Fin 1) v)) :=
  (laneSum_apply (wRow (F := Ideal) s m)).trans
    (Finset.sum_congr rfl fun v _ => wRow_apply s m _)

theorem dNF_apply (s x : FVec Ideal S1x10000 .f32) (m : FVec Ideal S1x1 .f32) :
    dNF (F := Ideal) s x m z
      = ∑ v : Fin 10000, (0 - x (ix2 (0 : Fin 1) v)) * (m z * smoothE (s (ix2 (0 : Fin 1) v))) :=
  (laneSum_apply (mulf (subf (broadcast S1x10000 (Scalar.ofBits (F := Ideal) .f32 0x00000000#32))
      (xRow (F := Ideal) x)) (wRow (F := Ideal) s m))).trans
    (Finset.sum_congr rfl fun v _ => by
      show (Ideal.ofBits .f32 0x00000000#32 - xRow (F := Ideal) x _) * wRow (F := Ideal) s m _ = _
      rw [Ideal.ofBits_zero_f32, xRow_apply, wRow_apply])

/-- The input row against the one-hot row of the word, summed. -/
theorem oneHotSum_apply (x : FVec Ideal S1x10000 .f32) (w : BitVec 32) :
    oneHotSum (F := Ideal) x w z
      = ∑ v : Fin 10000, x (ix2 (0 : Fin 1) v) * (if v.val = w.toNat then 1 else 0) := by
  refine (laneSum_apply (mulf (xRow (F := Ideal) x)
      (sitofp .f32 (extui 32 (cmpi .eq (iota .tc S1x10000 32 [1] iota_S1x10000_d1_w32)
        (broadcast S1x10000 w)) natLt_1_32)))).trans
    (Finset.sum_congr rfl fun v _ => ?_)
  show xRow (F := Ideal) x _ * FloatOps.sitofp (F := Ideal) .f32
      ((IntOp.cmpi .eq (iota .tc S1x10000 32 [1] iota_S1x10000_d1_w32 (ix2 (0 : Fin 1) v)) w).setWidth 32) = _
  rw [xRow_apply, bit_to_float, iota_single_apply]
  exact congrArg _ (bitE_cmpi_eq v w)

theorem dLogp_apply (x : FVec Ideal S1x10000 .f32) (w : BitVec 32) (m : FVec Ideal S1x1 .f32) :
    dLogp (F := Ideal) x w m z
      = (∑ v : Fin 10000, x (ix2 (0 : Fin 1) v) * (if v.val = w.toNat then 1 else 0)) * m z := by
  show oneHotSum (F := Ideal) x w z * dM (F := Ideal) m z = _
  rw [oneHotSum_apply, dM_apply]

/-- With the word below the class count the one-hot sum picks one entry; products with zero
    vanish at the infinities too, so nothing is asked of the row. -/
theorem dLogp_apply_of_lt (x : FVec Ideal S1x10000 .f32) (w : BitVec 32) (m : FVec Ideal S1x1 .f32)
    (h : w.toNat < 10000) :
    dLogp (F := Ideal) x w m z = x (ix2 (0 : Fin 1) (⟨w.toNat, h⟩ : Fin 10000)) * m z := by
  rw [dLogp_apply]
  congr 1
  rw [Finset.sum_eq_single (⟨w.toNat, h⟩ : Fin 10000)]
  · rw [if_pos rfl, mul_one]
  · intro v _ hv
    rw [if_neg (fun e => hv (Fin.ext e)), mul_zero]
  · intro hn; exact absurd (Finset.mem_univ _) hn

/-! ## A fold of steps, one running sum at a time -/

/-- If each step adds `D t` to a quantity `p` of the running sums, a fold of steps adds the
    list's sum. -/
theorem foldl_field_apply {α : Type} (step : α → Acc Ideal → Acc Ideal) (p : Acc Ideal → EReal)
    (D : α → EReal) (h : ∀ t a, p (step t a) = p a + D t) (l : List α) (a : Acc Ideal) :
    p (l.foldl (fun a t => step t a) a) = p a + (l.map D).sum := by
  induction l generalizing a with
  | nil => simp
  | cons t l ih => rw [List.foldl_cons, ih, h, List.map_cons, List.sum_cons, add_assoc]

section Point
variable (S X : Fin 64 → FVec Ideal S1x10000 .f32) (M : Fin 64 → FVec Ideal S1x1 .f32)
  (W : Fin 64 → BitVec 32) (a : Acc Ideal)

theorem pointStep_m_apply :
    (pointStep (F := Ideal) S X M W a).m z = a.m z + ∑ r : Fin 64, M r z := by
  unfold pointStep
  rw [foldl_field_apply (fun r a => rowStep (S r) (X r) (M r) (W r) a) (fun a => a.m z)
    (fun r => M r z) (fun r a => by rw [rowStep_m, accAdd_apply, dM_apply]), ← Fin.sum_univ_def]

theorem pointStep_logp_apply :
    (pointStep (F := Ideal) S X M W a).logp z
      = a.logp z + ∑ r : Fin 64, dLogp (F := Ideal) (X r) (W r) (M r) z := by
  unfold pointStep
  rw [foldl_field_apply (fun r a => rowStep (S r) (X r) (M r) (W r) a) (fun a => a.logp z)
    (fun r => dLogp (F := Ideal) (X r) (W r) (M r) z) (fun r a => by rw [rowStep_logp, accAdd_apply]),
    ← Fin.sum_univ_def]

theorem pointStep_w_apply :
    (pointStep (F := Ideal) S X M W a).w z
      = a.w z + ∑ r : Fin 64, dW (F := Ideal) (S r) (M r) z := by
  unfold pointStep
  rw [foldl_field_apply (fun r a => rowStep (S r) (X r) (M r) (W r) a) (fun a => a.w z)
    (fun r => dW (F := Ideal) (S r) (M r) z) (fun r a => by rw [rowStep_w, accAdd_apply]),
    ← Fin.sum_univ_def]

theorem pointStep_nf_apply :
    (pointStep (F := Ideal) S X M W a).nf z
      = a.nf z + ∑ r : Fin 64, dNF (F := Ideal) (S r) (X r) (M r) z := by
  unfold pointStep
  rw [foldl_field_apply (fun r a => rowStep (S r) (X r) (M r) (W r) a) (fun a => a.nf z)
    (fun r => dNF (F := Ideal) (S r) (X r) (M r) z) (fun r a => by rw [rowStep_nf, accAdd_apply]),
    ← Fin.sum_univ_def]

theorem pointStep_s_apply :
    (pointStep (F := Ideal) S X M W a).s z = a.s z + ∑ r : Fin 64, dS (F := Ideal) (S r) z := by
  unfold pointStep
  rw [foldl_field_apply (fun r a => rowStep (S r) (X r) (M r) (W r) a) (fun a => a.s z)
    (fun r => dS (F := Ideal) (S r) z) (fun r a => by rw [rowStep_s, accAdd_apply]),
    ← Fin.sum_univ_def]

theorem pointStep_q_apply :
    (pointStep (F := Ideal) S X M W a).q z = a.q z + ∑ r : Fin 64, dQ (F := Ideal) (S r) z := by
  unfold pointStep
  rw [foldl_field_apply (fun r a => rowStep (S r) (X r) (M r) (W r) a) (fun a => a.q z)
    (fun r => dQ (F := Ideal) (S r) z) (fun r a => by rw [rowStep_q, accAdd_apply]),
    ← Fin.sum_univ_def]

end Point

/-! ## The reset value -/

/-- A running sum's reset value is zero. -/
theorem zeroCell_apply (j : S1x1.Idx) : zeroCell (F := Ideal) j = 0 := by
  unfold zeroCell
  rw [shapeCast_self]
  exact Ideal.ofBits_zero_f32

theorem zeroAcc_m : (zeroAcc (F := Ideal)).m z = 0 := zeroCell_apply z
theorem zeroAcc_logp : (zeroAcc (F := Ideal)).logp z = 0 := zeroCell_apply z
theorem zeroAcc_w : (zeroAcc (F := Ideal)).w z = 0 := zeroCell_apply z
theorem zeroAcc_nf : (zeroAcc (F := Ideal)).nf z = 0 := zeroCell_apply z
theorem zeroAcc_s : (zeroAcc (F := Ideal)).s z = 0 := zeroCell_apply z
theorem zeroAcc_q : (zeroAcc (F := Ideal)).q z = 0 := zeroCell_apply z

/-! ## The four results from the six sums -/

section Final
variable (a : Acc Ideal)

theorem finalize_ml_apply : (finalize (F := Ideal) a).ml z = Ideal.div (0 - a.logp z) (a.m z) := by
  show Ideal.div (Ideal.ofBits .f32 0x00000000#32 - a.logp z) (a.m z) = _
  rw [Ideal.ofBits_zero_f32]

theorem finalize_total_apply :
    (finalize (F := Ideal) a).total z
      = alphaE * Ideal.div (a.nf z) (a.w z) + tauE * Ideal.div (0 - a.logp z) (a.m z) := by
  show Ideal.ofBits .f32 0x3F333333#32 * Ideal.div (a.nf z) (a.w z)
      + Ideal.ofBits .f32 0x3E99999A#32 * Ideal.div (Ideal.ofBits .f32 0x00000000#32 - a.logp z) (a.m z) = _
  rw [Ideal.ofBits_zero_f32]
  rfl

theorem finalize_mean_apply : (finalize (F := Ideal) a).mean z = Ideal.div (a.s z) countE := rfl

theorem finalize_std_apply :
    (finalize (F := Ideal) a).std z
      = Ideal.sqrt (max (Ideal.div (a.q z) countE
          - Ideal.div (a.s z) countE * Ideal.div (a.s z) countE) 0) := by
  show Ideal.sqrt (max (Ideal.div (a.q z) countE
      - Ideal.div (a.s z) countE * Ideal.div (a.s z) countE) (Ideal.ofBits .f32 0x00000000#32)) = _
  rw [Ideal.ofBits_zero_f32]

end Final

end Cert.Proof.KIValue

end
-- ==== Proof.IdealValue.lean ====
/-
  The word-smoothing kernel's four results, read at the extended reals, are the closed forms.

  The 48 grid points of 64 rows walk the 3072 rows in order: row `64 t + r` at point `t`, row `r`
  of it. With each point's rows named by what they read, the six running sums after all points
  are six double sums over the 3072 rows and 10000 classes, and the last point's quotients,
  maximum and square root of them are `Gml`, `Gtotal`, `Gmean` and `Gstd`.
-/
import proofs.«419560_j5755256177164_3_alg».proof.Proof.IdealStep
import Idealize.ShloMosaic.Lib.IdealHost

noncomputable section

open scoped BigOperators

namespace Cert.Proof.KIValue

open Idealize.ShloMosaic Idealize.ShloMosaic.ValueIdx
open Cert.KernelIdeal Cert.KernelIdeal.Gen Cert.Proof.KI Cert.GSpec

/-- Row `r` of grid point `t` is row `64 t + r` of the 3072. -/
def rowOf (t : Fin 48) (r : Fin 64) : Fin 3072 :=
  ⟨64 * t.val + r.val, by have := t.isLt; have := r.isLt; omega⟩

/-- The 48 points' 64 rows are the 3072 rows, in order: a double sum over points and their rows
    is the sum over all rows. -/
theorem sum_rows {N : Type*} [AddCommMonoid N] (G : Fin 3072 → N) :
    ∑ t : Fin 48, ∑ r : Fin 64, G (rowOf t r) = ∑ g : Fin 3072, G g := by
  have key := Cert.LibSums.sum_blocks_fin (fun g => if h : g < 3072 then G ⟨g, h⟩ else 0) 48 64
  have hL : ∀ (t : Fin 48) (r : Fin 64),
      (if h : 64 * t.val + r.val < 3072 then G ⟨64 * t.val + r.val, h⟩ else 0) = G (rowOf t r) :=
    fun t r => dif_pos (rowOf t r).isLt
  have hR : ∀ g : Fin 3072, (if h : g.val < 3072 then G ⟨g.val, h⟩ else 0) = G g :=
    fun g => dif_pos g.isLt
  calc ∑ t : Fin 48, ∑ r : Fin 64, G (rowOf t r)
      = ∑ t : Fin 48, ∑ r : Fin 64,
          (if h : 64 * t.val + r.val < 3072 then G ⟨64 * t.val + r.val, h⟩ else 0) :=
        Finset.sum_congr rfl fun t _ => Finset.sum_congr rfl fun r _ => (hL t r).symm
    _ = ∑ g : Fin (48 * 64), (if h : g.val < 3072 then G ⟨g.val, h⟩ else 0) := key
    _ = ∑ g : Fin 3072, G g := Finset.sum_congr rfl fun g _ => hR g

/-! ## The constants as reals, and the smoothed weight of a real entry -/

theorem oneE_eq : oneE = ((1 : ℝ) : EReal) := by
  unfold oneE
  rw [Ideal.ofBits_one_f32]
  norm_cast

theorem tauE_eq : tauE = ((10066330 * (2 : ℝ) ^ (-25 : ℤ) : ℝ) : EReal) := by
  unfold tauE
  simp [Ideal.ofBits, Ideal.ieee, -EReal.coe_mul]

/-- The smoothed weight of a real table entry is a real. -/
theorem smoothE_real {s : EReal} (h : ∃ x : ℝ, s = (x : EReal)) : ∃ y : ℝ, smoothE s = (y : EReal) := by
  obtain ⟨x, rfl⟩ := h
  have hτ : (10066330 * (2 : ℝ) ^ (-25 : ℤ) : ℝ) ≠ 0 := by positivity
  obtain ⟨c, hc⟩ : ∃ c : ℝ, clipE (x : EReal) = (c : EReal) :=
    ⟨x * ((Ideal.cmp .oge (x : EReal) halfE).toNat : ℝ), by unfold clipE bitE; rw [EReal.coe_mul]⟩
  refine ⟨Real.exp ((c - 1) / (10066330 * (2 : ℝ) ^ (-25 : ℤ)))
      * ((Ideal.cmp .olt (c : EReal) oneE).toNat : ℝ), ?_⟩
  unfold smoothE
  rw [hc, show ((c : EReal) - oneE) = ((c - 1 : ℝ) : EReal) by rw [oneE_eq, EReal.coe_sub],
    tauE_eq, Cert.LibSums.ideal_div_coe_coe _ hτ, Ideal.exp_coe, bitE, ← EReal.coe_mul]

/-! ## The running sums after every grid point -/

section Run
variable (S X : Fin 48 → Fin 64 → FVec Ideal S1x10000 .f32) (M : Fin 48 → Fin 64 → FVec Ideal S1x1 .f32)
  (W : Fin 48 → Fin 64 → BitVec 32)

/-- The six running sums after the first `n` grid points, from the reset value. -/
def accN (n : ℕ) : Acc Ideal :=
  ((List.finRange 48).take n).foldl (fun a t => pointStep (S t) (X t) (M t) (W t) a) zeroAcc

theorem accN_zero : accN S X M W 0 = zeroAcc := rfl

theorem accN_succ (t : Fin 48) :
    accN S X M W (t.val + 1) = pointStep (S t) (X t) (M t) (W t) (accN S X M W t.val) := by
  unfold accN
  have h : (List.finRange 48).take (t.val + 1) = (List.finRange 48).take t.val ++ [t] := by
    rw [List.take_succ]
    congr 1
    simp
  rw [h, List.foldl_append]
  simp only [List.foldl_cons, List.foldl_nil]

/-- A quantity each grid point adds to, after all 48 points, is the sum of the 48 addends. -/
theorem accN_field (p : Acc Ideal → EReal) (D : Fin 48 → EReal)
    (h : ∀ t a, p (pointStep (S t) (X t) (M t) (W t) a) = p a + D t) (h0 : p zeroAcc = 0) :
    p (accN S X M W 48) = ∑ t : Fin 48, D t := by
  unfold accN
  rw [List.take_of_length_le (by simp),
    foldl_field_apply (fun t a => pointStep (S t) (X t) (M t) (W t) a) p D h, h0, zero_add,
    ← Fin.sum_univ_def]

end Run

/-! ## The six sums over the rows, and the four results -/

section Bridge
variable (S X : Fin 48 → Fin 64 → FVec Ideal S1x10000 .f32) (M : Fin 48 → Fin 64 → FVec Ideal S1x1 .f32)
  (W : Fin 48 → Fin 64 → BitVec 32)
  (a0 : FVec Ideal ⟨3, ![128, 24, 10000]⟩ .f32) (a1 : FVec Ideal ⟨2, ![10000, 10000]⟩ .f32)
  (a2 : IVec ⟨2, ![128, 24]⟩ 32) (a3 : FVec Ideal ⟨2, ![128, 24]⟩ .f32)
  (hT : ∀ j, (a2 j).toNat < 10000)
  (hS : ∀ t r v, S t r (ix2 (0 : Fin 1) v) = simAt a1 (tgtFin a2 hT (rowOf t r)) v)
  (hX : ∀ t r v, X t r (ix2 (0 : Fin 1) v) = flatAt a0 (rowOf t r) v)
  (hM : ∀ t r, M t r z = maskAt a3 (rowOf t r))
  (hW : ∀ t r, W t r = tgtAt a2 (rowOf t r))

include hS in
theorem sum_s :
    (accN S X M W 48).s z = ∑ g : Fin 3072, ∑ v : Fin 10000, smoothAt a1 a2 hT g v := by
  rw [accN_field S X M W (fun a => a.s z) (fun t => ∑ r : Fin 64, dS (F := Ideal) (S t r) z)
    (fun t a => pointStep_s_apply (S t) (X t) (M t) (W t) a) zeroAcc_s,
    ← sum_rows (fun g => ∑ v : Fin 10000, smoothAt a1 a2 hT g v)]
  refine Finset.sum_congr rfl fun t _ => Finset.sum_congr rfl fun r _ => ?_
  rw [dS_apply]
  exact Finset.sum_congr rfl fun v _ => by rw [hS]; rfl

include hS in
theorem sum_q :
    (accN S X M W 48).q z
      = ∑ g : Fin 3072, ∑ v : Fin 10000, smoothAt a1 a2 hT g v * smoothAt a1 a2 hT g v := by
  rw [accN_field S X M W (fun a => a.q z) (fun t => ∑ r : Fin 64, dQ (F := Ideal) (S t r) z)
    (fun t a => pointStep_q_apply (S t) (X t) (M t) (W t) a) zeroAcc_q,
    ← sum_rows (fun g => ∑ v : Fin 10000, smoothAt a1 a2 hT g v * smoothAt a1 a2 hT g v)]
  refine Finset.sum_congr rfl fun t _ => Finset.sum_congr rfl fun r _ => ?_
  rw [dQ_apply]
  exact Finset.sum_congr rfl fun v _ => by rw [hS]; rfl

include hS hM in
theorem sum_w :
    (accN S X M W 48).w z
      = ∑ g : Fin 3072, ∑ v : Fin 10000, maskAt a3 g * smoothAt a1 a2 hT g v := by
  rw [accN_field S X M W (fun a => a.w z) (fun t => ∑ r : Fin 64, dW (F := Ideal) (S t r) (M t r) z)
    (fun t a => pointStep_w_apply (S t) (X t) (M t) (W t) a) zeroAcc_w,
    ← sum_rows (fun g => ∑ v : Fin 10000, maskAt a3 g * smoothAt a1 a2 hT g v)]
  refine Finset.sum_congr rfl fun t _ => Finset.sum_congr rfl fun r _ => ?_
  rw [dW_apply]
  exact Finset.sum_congr rfl fun v _ => by rw [hS, hM]; rfl

include hS hX hM in
theorem sum_nf :
    (accN S X M W 48).nf z
      = ∑ g : Fin 3072, ∑ v : Fin 10000,
          -(flatAt a0 g v) * (maskAt a3 g * smoothAt a1 a2 hT g v) := by
  rw [accN_field S X M W (fun a => a.nf z)
    (fun t => ∑ r : Fin 64, dNF (F := Ideal) (S t r) (X t r) (M t r) z)
    (fun t a => pointStep_nf_apply (S t) (X t) (M t) (W t) a) zeroAcc_nf,
    ← sum_rows (fun g => ∑ v : Fin 10000, -(flatAt a0 g v) * (maskAt a3 g * smoothAt a1 a2 hT g v))]
  refine Finset.sum_congr rfl fun t _ => Finset.sum_congr rfl fun r _ => ?_
  rw [dNF_apply]
  exact Finset.sum_congr rfl fun v _ => by rw [hS, hX, hM, zero_sub]; rfl

include hM in
theorem sum_m : (accN S X M W 48).m z = ∑ g : Fin 3072, maskAt a3 g := by
  rw [accN_field S X M W (fun a => a.m z) (fun t => ∑ r : Fin 64, M t r z)
    (fun t a => pointStep_m_apply (S t) (X t) (M t) (W t) a) zeroAcc_m,
    ← sum_rows (fun g => maskAt a3 g)]
  exact Finset.sum_congr rfl fun t _ => Finset.sum_congr rfl fun r _ => hM t r

include hX hM hW in
theorem sum_logp :
    (accN S X M W 48).logp z = ∑ g : Fin 3072, flatAt a0 g (tgtFin a2 hT g) * maskAt a3 g := by
  rw [accN_field S X M W (fun a => a.logp z)
    (fun t => ∑ r : Fin 64, dLogp (F := Ideal) (X t r) (W t r) (M t r) z)
    (fun t a => pointStep_logp_apply (S t) (X t) (M t) (W t) a) zeroAcc_logp,
    ← sum_rows (fun g => flatAt a0 g (tgtFin a2 hT g) * maskAt a3 g)]
  refine Finset.sum_congr rfl fun t _ => Finset.sum_congr rfl fun r _ => ?_
  have h : (W t r).toNat < 10000 := by rw [hW]; exact hT _
  have e : (⟨(W t r).toNat, h⟩ : Fin 10000) = tgtFin a2 hT (rowOf t r) :=
    Fin.ext (by show (W t r).toNat = (tgtAt a2 (rowOf t r)).toNat; rw [hW])
  rw [dLogp_apply_of_lt _ _ _ h, hX, hM, e]

include hX hM hW in
theorem value_ml : (finalize (accN S X M W 48)).ml z = Gml a0 a1 a2 a3 hT := by
  rw [finalize_ml_apply, sum_logp S X M W a0 a2 a3 hT hX hM hW, sum_m S X M W a3 hM, zero_sub]
  rfl

include hS hX hM hW in
theorem value_total : (finalize (accN S X M W 48)).total z = Gtotal a0 a1 a2 a3 hT := by
  rw [finalize_total_apply, sum_nf S X M W a0 a1 a2 a3 hT hS hX hM, sum_w S X M W a1 a2 a3 hT hS hM,
    sum_logp S X M W a0 a2 a3 hT hX hM hW, sum_m S X M W a3 hM, zero_sub]
  rfl

include hS in
theorem value_mean : (finalize (accN S X M W 48)).mean z = Gmean a0 a1 a2 a3 hT := by
  rw [finalize_mean_apply, sum_s S X M W a1 a2 hT hS]
  rfl

include hS in
theorem value_std (h1 : ∀ i, ∃ x : ℝ, a1 i = (x : EReal)) :
    (finalize (accN S X M W 48)).std z = Gstd a0 a1 a2 a3 hT := by
  rw [finalize_std_apply, sum_q S X M W a1 a2 hT hS, sum_s S X M W a1 a2 hT hS]
  unfold Gstd Gmean
  congr 1
  have hfin : ∀ g v, ∃ y : ℝ, smoothAt a1 a2 hT g v = (y : EReal) := fun g v => smoothE_real (h1 _)
  choose y hy using hfin
  have key := Cert.LibSums.ereal_variance_idealDiv (ι := Fin 3072 × Fin 10000) (fun p => y p.1 p.2)
    30720000 (by norm_num [Fintype.card_prod, Fintype.card_fin]) (by norm_num)
  simp only [Fintype.sum_prod_type, EReal.coe_mul] at key
  simp only [hy, countE_eq]
  exact key

end Bridge

end Cert.Proof.KIValue

end
-- ==== Proof.GlueReads.lean ====
/-
  Reading the kernel's inputs back to the four arguments, index by index. The 128 × 24 positions are
  flattened to 3072 rows (row g is position (g / 24, g % 24)) by the three reshapes before the
  region; the region then walks the rows in 48 blocks of 64 (row 64 · t + r is row r of block t).
  So the entry (r, v) of the logits' block t is the argument's entry (g / 24, g % 24, v) at
  g = 64 · t + r, and likewise for the mask's block and for the target words.
-/
import proofs.«419560_j5755256177164_3_alg».proof.Proof.GDefs
import proofs.«419560_j5755256177164_3_alg».proof.Proof.Gen.KernelIdeal.Launch
import Idealize.ShloMosaic.Lib.Pipeline.Value
import Idealize.ShloMosaic.Lib.StableHlo.Run
import Idealize.ShloMosaic.Lib.ValueIdx

noncomputable section

namespace Cert.Proof.Glue

open Cert.KernelIdeal Cert.KernelIdeal.Gen
open Idealize.ShloMosaic Idealize.ShloMosaic.TcCoe Idealize.ShloMosaic.ValueIdx Idealize.SL.Sem
open Cert.GSpec (rowHi rowLo)

/-! ## Rows and blocks -/

/-- Row `r` of block `t`, as a row of the 3072. -/
def blockRow (t : Fin 48) (r : Fin 64) : Fin 3072 := ⟨64 * t.val + r.val, by have := t.isLt; have := r.isLt; omega⟩

theorem blockRow_val (t : Fin 48) (r : Fin 64) : (blockRow t r).val = 64 * t.val + r.val := rfl

/-- A row's position recombines to the row. -/
theorem rowHi_rowLo (g : Fin 3072) : (rowHi g).val * 24 + (rowLo g).val = g.val := by
  show g.val / 24 * 24 + g.val % 24 = g.val
  omega

/-! ## The three reshapes read at an index -/

section Reshapes
variable {α : Type}

/-- The logits flattened: row `g`, class `v` is position `(g / 24, g % 24)`, class `v`. -/
theorem flat_logits_apply (a0 : S128x24x10000.Idx → α) (h : S128x24x10000.ShapeCasts S3072x10000) (g : Fin 3072) (v : Fin 10000) :
    shapeCast S3072x10000 a0 h (ix2 g v) = a0 (ix3 (rowHi g) (rowLo g) v) := by
  refine shapeCast_apply a0 h (ix2 g v) (ix3 (rowHi g) (rowLo g) v) ?_
  rw [Shape.rowMajor_val_three, Shape.rowMajor_val_two]
  show ((rowHi g).val * 24 + (rowLo g).val) * 10000 + v.val = g.val * 10000 + v.val
  rw [rowHi_rowLo]

/-- The mask flattened to a column: row `g` is position `(g / 24, g % 24)`. -/
theorem flat_mask_apply (a3 : S128x24.Idx → α) (h : S128x24.ShapeCasts S3072x1) (g : Fin 3072) (z : Fin 1) :
    shapeCast S3072x1 a3 h (ix2 g z) = a3 (ix2 (rowHi g) (rowLo g)) := by
  refine shapeCast_apply a3 h (ix2 g z) (ix2 (rowHi g) (rowLo g)) ?_
  rw [Shape.rowMajor_val_two, Shape.rowMajor_val_two]
  show (rowHi g).val * 24 + (rowLo g).val = g.val * 1 + z.val
  have := z.isLt
  rw [rowHi_rowLo]; omega

/-- The target words flattened: row `g` is position `(g / 24, g % 24)`. -/
theorem flat_words_apply (a2 : S128x24.Idx → α) (h : S128x24.ShapeCasts S3072) (g : Fin 3072) :
    shapeCast S3072 a2 h (ix1 g) = a2 (ix2 (rowHi g) (rowLo g)) := by
  refine shapeCast_apply a2 h (ix1 g) (ix2 (rowHi g) (rowLo g)) ?_
  rw [Shape.rowMajor_val_two, Shape.rowMajor_val_one]
  show (rowHi g).val * 24 + (rowLo g).val = g.val
  exact rowHi_rowLo g

end Reshapes

variable {F : FTy → Type} [FloatOps F]

/-! ## The arrays as the region finds them -/

section Entry
variable (m : (ℓ : Loc nD τ sig) → Buf (Elt F) ℓ) (c : Dev nD)

/-- At the region's entry the 3072 × 10000 array is the logits flattened. -/
theorem entry_logits :
    (StableHlo.after (hostOps0 (F := F)) (fun b => m (c, b)) (Proc.devRef .tc main_v0) : Vec F S3072x10000 .f32)
      = shapeCast S3072x10000 (m ((c : Thread nD τ).loc main_arg0)) Facts₀.shapeCasts_S128x24x10000_S3072x10000 := by
  after_results
  rfl

/-- At the region's entry the 3072 × 1 array is the mask flattened. -/
theorem entry_mask :
    (StableHlo.after (hostOps0 (F := F)) (fun b => m (c, b)) (Proc.devRef .tc main_v1) : Vec F S3072x1 .f32)
      = shapeCast S3072x1 (m ((c : Thread nD τ).loc main_arg3)) Facts₀.shapeCasts_S128x24_S3072x1 := by
  after_results
  rfl

/-- At the region's entry the table of 3072 words is the targets flattened. -/
theorem entry_words :
    (StableHlo.after (hostOps0 (F := F)) (fun b => m (c, b)) (Proc.devRef .tc main_v2) : IVec S3072 32)
      = shapeCast S3072 (m ((c : Thread nD τ).loc main_arg2)) Facts₀.shapeCasts_S128x24_S3072 := by
  after_results
  rfl

/-- At the region's entry the similarity matrix is the argument. -/
theorem entry_matrix :
    StableHlo.after (hostOps0 (F := F)) (fun b => m (c, b)) (Proc.devRef .tc main_arg1) = m ((c : Thread nD τ).loc main_arg1) := by
  after_results

end Entry

/-! ## The entry contents read at an index -/

section EntryAt
variable (m : (ℓ : Loc nD τ sig) → Buf (Elt F) ℓ) (c : Dev nD)

/-- Row `g`, class `v` of the 3072 × 10000 array at entry is the logits' argument at `(g / 24, g % 24, v)`. -/
theorem entry_logits_apply (g : Fin 3072) (v : Fin 10000) :
    (StableHlo.after (hostOps0 (F := F)) (fun b => m (c, b)) (Proc.devRef .tc main_v0) : Vec F S3072x10000 .f32) (ix2 g v)
      = (m ((c : Thread nD τ).loc main_arg0) : Vec F S128x24x10000 .f32) (ix3 (rowHi g) (rowLo g) v) :=
  (congrFun (entry_logits m c) (ix2 g v)).trans (flat_logits_apply _ _ g v)

/-- Row `g` of the 3072 × 1 array at entry is the mask's argument at `(g / 24, g % 24)`. -/
theorem entry_mask_apply (g : Fin 3072) (z : Fin 1) :
    (StableHlo.after (hostOps0 (F := F)) (fun b => m (c, b)) (Proc.devRef .tc main_v1) : Vec F S3072x1 .f32) (ix2 g z)
      = (m ((c : Thread nD τ).loc main_arg3) : Vec F S128x24 .f32) (ix2 (rowHi g) (rowLo g)) :=
  (congrFun (entry_mask m c) (ix2 g z)).trans (flat_mask_apply _ _ g z)

/-- Word `g` of the table at entry is the targets' argument at `(g / 24, g % 24)`. -/
theorem entry_words_apply (g : Fin 3072) :
    (StableHlo.after (hostOps0 (F := F)) (fun b => m (c, b)) (Proc.devRef .tc main_v2) : IVec S3072 32) (ix1 g)
      = (m ((c : Thread nD τ).loc main_arg2) : IVec S128x24 32) (ix2 (rowHi g) (rowLo g)) :=
  (congrFun (entry_words m c) (ix1 g)).trans (flat_words_apply _ _ g)

end EntryAt

/-! ## The blocks of the two staged inputs -/

/-- The two staged windows' index maps over the grid: block `t` along the rows, block 0 along the other axis. -/
theorem index_facts : ∀ t : Fin grid0.N,
    cc0_transform_0 (grid0.coords t) (0 : Fin 2) = t.val ∧ cc0_transform_0 (grid0.coords t) (1 : Fin 2) = 0
    ∧ cc0_transform_1 (grid0.coords t) (0 : Fin 2) = t.val ∧ cc0_transform_1 (grid0.coords t) (1 : Fin 2) = 0 := by
  decide +kernel

/-- Entry `(r, v)` of the logits' block `t` is the array's entry `(64 · t + r, v)`. -/
theorem block_logits_apply (a : (pcfg0 (F := F)).Adm) (t : Fin (cfg0 a).N) (f : Vec F S3072x10000 .f32) (r : Fin 64) (v : Fin 10000) :
    (((cfg0 a).win 0).blk t).view.read (Elt F) f (ix2 r v) = f (ix2 (blockRow ⟨t.val, t.isLt.trans_eq N_0⟩ r) v) := by
  obtain ⟨e0, e1, -, -⟩ := index_facts t
  show f ((((cfg0 a).win 0).blk t).view.emb (ix2 r v)) = _
  refine congrArg f (funext fun b => Fin.ext ?_)
  match b with
  | ⟨0, _⟩ => show cc0_transform_0 (grid0.coords t) (0 : Fin 2) * 64 + 1 * r.val = 64 * t.val + r.val; omega
  | ⟨1, _⟩ => show cc0_transform_0 (grid0.coords t) (1 : Fin 2) * 10000 + 1 * v.val = v.val; omega

/-- Entry `(r, 0)` of the mask's block `t` is the array's entry `(64 · t + r, 0)`. -/
theorem block_mask_apply (a : (pcfg0 (F := F)).Adm) (t : Fin (cfg0 a).N) (f : Vec F S3072x1 .f32) (r : Fin 64) (z : Fin 1) :
    (((cfg0 a).win 1).blk t).view.read (Elt F) f (ix2 r z) = f (ix2 (blockRow ⟨t.val, t.isLt.trans_eq N_0⟩ r) z) := by
  obtain ⟨-, -, e0, e1⟩ := index_facts t
  show f ((((cfg0 a).win 1).blk t).view.emb (ix2 r z)) = _
  refine congrArg f (funext fun b => Fin.ext ?_)
  match b with
  | ⟨0, _⟩ => show cc0_transform_1 (grid0.coords t) (0 : Fin 2) * 64 + 1 * r.val = 64 * t.val + r.val; omega
  | ⟨1, _⟩ => show cc0_transform_1 (grid0.coords t) (1 : Fin 2) * 1 + 1 * z.val = z.val; omega

end Cert.Proof.Glue

end
-- ==== Proof.IdealGlue.lean ====
/-
  The kernel's four results are the closed forms. The accumulators after the last grid point are
  the 48-fold of the point step over rows named by what they read: row r of point t reads the
  matrix row of its target word, row r of the staged logits' block t, entry r of the staged mask's
  block t, and word 64 · t + r of the table. Read back through the blocks and the three reshapes,
  these are the table entry, the logit, the mask weight and the target word of row 64 · t + r of the
  four arguments, which is what the closed forms sum over.
-/
import proofs.«419560_j5755256177164_3_alg».proof.Proof.KIData
import proofs.«419560_j5755256177164_3_alg».proof.Proof.IdealValue
import proofs.«419560_j5755256177164_3_alg».proof.Proof.GlueReads
import proofs.«419560_j5755256177164_3_alg».proof.Proof.PreFacts

noncomputable section

namespace Cert.Proof.KIValue

open Cert.KernelIdeal Cert.KernelIdeal.Gen Cert.Proof.KI Cert.Proof.Glue Cert.GSpec
open Idealize.ShloMosaic Idealize.ShloMosaic.TcCoe Idealize.ShloMosaic.ValueIdx Idealize.SL.Sem

/-! ## A point's rows read at an index -/

section Rows
variable {F : FTy → Type} [FloatOps F]

/-- The target word of row `r` of the point with coordinates `i` is the table's word `64 · i + r`. -/
theorem wordAt_eq (c : Dev nD) (tbl : IVec S3072 32) (i : grid0.Coords) (r : Fin 64) (g : Fin 3072)
    (hg : g.val = 64 * (i 0).val + r.val) : wordAt (F := F) c tbl i r = tbl (ix1 g) := by
  unfold wordAt
  show tbl _ = tbl (ix1 g)
  refine congrArg tbl (funext fun a => Fin.ext ?_)
  match a with
  | ⟨0, _⟩ => show 64 * (i 0).val + r.val + 1 * 0 = g.val; omega

/-- The matrix row a word below 10000 addresses, at class `v`. -/
theorem simRow_apply (c : Dev nD) (sim : Vec F S10000x10000 .f32) (w : BitVec 32) (h : w.toNat < 10000) (v : Fin 10000) :
    simRow (F := F) c sim w (ix2 (0 : Fin 1) v) = sim (ix2 (⟨w.toNat, h⟩ : Fin 10000) v) := by
  unfold simRow
  rw [dif_pos h]
  show sim _ = sim _
  refine congrArg sim (funext fun a => Fin.ext ?_)
  match a with
  | ⟨0, _⟩ => show w.toNat + 1 * 0 = w.toNat; omega
  | ⟨1, _⟩ => show 0 + 1 * v.val = v.val; omega

/-- Row `r` of a staged block of logits, at class `v`. -/
theorem inRow_apply (x2 : Vec F S64x10000 .f32) (r : Fin 64) (v : Fin 10000) :
    inRow x2 r (ix2 (0 : Fin 1) v) = x2 (ix2 r v) := by
  unfold inRow
  show x2 _ = x2 _
  refine congrArg x2 (funext fun a => Fin.ext ?_)
  match a with
  | ⟨0, _⟩ => show r.val + 1 * 0 = r.val; omega
  | ⟨1, _⟩ => show 0 + 1 * v.val = v.val; omega

/-- Entry `r` of a staged block of the mask. -/
theorem mkRow_apply (x3 : Vec F S64x1 .f32) (r : Fin 64) :
    mkRow x3 r (ix2 (0 : Fin 1) (0 : Fin 1)) = x3 (ix2 r (0 : Fin 1)) := by
  unfold mkRow
  show x3 _ = x3 _
  refine congrArg x3 (funext fun a => Fin.ext ?_)
  match a with
  | ⟨0, _⟩ => show r.val + 1 * 0 = r.val; omega
  | ⟨1, _⟩ => show 0 + 1 * 0 = 0; omega

/-- A (1,1) vector reshaped to a scalar is its one entry. -/
theorem scalar_read {α : Type} (x : S1x1.Idx → α) (h : S1x1.ShapeCasts S_) (j : S_.Idx) :
    shapeCast S_ x h j = x (ix2 (0 : Fin 1) (0 : Fin 1)) := by
  refine shapeCast_apply x h j (ix2 (0 : Fin 1) (0 : Fin 1)) ?_
  rw [Shape.rowMajor_val_two]
  have hj : (S_.rowMajor j).val < 1 := (S_.rowMajor j).isLt
  show 0 * 1 + 0 = (S_.rowMajor j).val
  omega

end Rows

/-- The grid's one coordinate of point `t` is `t`. -/
theorem coords_val : ∀ t : Fin grid0.N, (grid0.coords t 0).val = t.val := by decide +kernel

variable (m : (ℓ : Loc nD τ sig) → Buf (Elt Ideal) ℓ) (c : Dev nD)

theorem lt48 (t : Fin (cfgOf m).N) : t.val < 48 := t.isLt.trans_eq N_0

theorem ptAt_val48 (t : Fin 48) : (ptAt m t.val).val = t.val := Nat.mod_eq_of_lt t.isLt

/-- The row of block `ptAt t` is row `64 · t + r`. -/
theorem blockRow_ptAt (t : Fin 48) (r : Fin 64) :
    blockRow ⟨(ptAt m t.val).val, lt48 m (ptAt m t.val)⟩ r = rowOf t r :=
  Fin.ext (by show 64 * (ptAt m t.val).val + r.val = 64 * t.val + r.val; rw [ptAt_val48])

/-! ## The region's inputs read back to the arguments -/

theorem blk0_apply (t : Fin (cfgOf m).N) (r : Fin 64) (v : Fin 10000) :
    blk0 m c t (ix2 r v) = flatAt (m ((c : Thread nD τ).loc main_arg0)) (blockRow ⟨t.val, lt48 m t⟩ r) v := by
  unfold blk0
  refine (block_logits_apply (adm m 0) t _ r v).trans ?_
  exact entry_logits_apply m c _ v

theorem blk1_apply (t : Fin (cfgOf m).N) (r : Fin 64) (z : Fin 1) :
    blk1 m c t (ix2 r z) = maskAt (m ((c : Thread nD τ).loc main_arg3)) (blockRow ⟨t.val, lt48 m t⟩ r) := by
  unfold blk1
  refine (block_mask_apply (adm m 0) t _ r z).trans ?_
  exact entry_mask_apply m c _ z

theorem tbl_apply (g : Fin 3072) :
    (tblOf m c : IVec S3072 32) (ix1 g) = tgtAt (m ((c : Thread nD τ).loc main_arg2)) g := by
  unfold tblOf
  exact entry_words_apply m c g

theorem sim_eq : (simOf m c : Vec Ideal S10000x10000 .f32) = m ((c : Thread nD τ).loc main_arg1) := by
  unfold simOf
  exact entry_matrix m c

/-! ## The rows each point works on -/

/-- Row `r` of point `t`: its target word, its matrix row, its logits, its mask entry. -/
def rowsW (t : Fin 48) (r : Fin 64) : BitVec 32 := wordAt c (tblOf m c) (grid0.coords (ptAt m t.val)) r
def rowsS (t : Fin 48) (r : Fin 64) : FVec Ideal S1x10000 .f32 := simRow c (simOf m c) (rowsW m c t r)
def rowsX (t : Fin 48) (r : Fin 64) : FVec Ideal S1x10000 .f32 := inRow (blk0 m c (ptAt m t.val)) r
def rowsM (t : Fin 48) (r : Fin 64) : FVec Ideal S1x1 .f32 := mkRow (blk1 m c (ptAt m t.val)) r

/-- The accumulators after point `n` are the fold over the first `n + 1` points' rows. -/
theorem accAfter_eq (n : ℕ) (h : n < 48) :
    accAfter m c n = accN (rowsS m c) (rowsX m c) (rowsM m c) (rowsW m c) (n + 1) := by
  induction n with
  | zero => exact (accN_succ (rowsS m c) (rowsX m c) (rowsM m c) (rowsW m c) ⟨0, h⟩).symm
  | succ n ih =>
    rw [accN_succ (rowsS m c) (rowsX m c) (rowsM m c) (rowsW m c) ⟨n + 1, h⟩, ← ih (by omega)]
    rfl

theorem outs_eq : outs m c = finalize (accN (rowsS m c) (rowsX m c) (rowsM m c) (rowsW m c) 48) := by
  unfold outs
  rw [accAfter_eq m c 47 (by decide)]

/-! ## What the rows read -/

theorem rowsW_eq (t : Fin 48) (r : Fin 64) :
    rowsW m c t r = tgtAt (m ((c : Thread nD τ).loc main_arg2)) (rowOf t r) := by
  unfold rowsW
  rw [wordAt_eq c (tblOf m c) _ r (rowOf t r)
    (by show 64 * t.val + r.val = 64 * (grid0.coords (ptAt m t.val) 0).val + r.val; rw [coords_val, ptAt_val48])]
  exact tbl_apply m c (rowOf t r)

theorem rowsS_apply (hT : ∀ j, ((m ((c : Thread nD τ).loc main_arg2) : IVec S128x24 32) j).toNat < 10000)
    (t : Fin 48) (r : Fin 64) (v : Fin 10000) :
    rowsS m c t r (ix2 (0 : Fin 1) v)
      = simAt (m ((c : Thread nD τ).loc main_arg1)) (tgtFin (m ((c : Thread nD τ).loc main_arg2)) hT (rowOf t r)) v := by
  unfold rowsS
  rw [rowsW_eq]
  refine (simRow_apply c (simOf m c) (tgtAt (m ((c : Thread nD τ).loc main_arg2)) (rowOf t r)) (hT _) v).trans ?_
  rw [sim_eq]
  rfl

theorem rowsX_apply (t : Fin 48) (r : Fin 64) (v : Fin 10000) :
    rowsX m c t r (ix2 (0 : Fin 1) v) = flatAt (m ((c : Thread nD τ).loc main_arg0)) (rowOf t r) v := by
  unfold rowsX
  rw [inRow_apply, blk0_apply, blockRow_ptAt]

theorem rowsM_apply (t : Fin 48) (r : Fin 64) :
    rowsM m c t r z = maskAt (m ((c : Thread nD τ).loc main_arg3)) (rowOf t r) := by
  unfold rowsM
  rw [show z = ix2 (0 : Fin 1) (0 : Fin 1) from rfl, mkRow_apply, blk1_apply, blockRow_ptAt]

/-! ## The four results -/

/-- Under the precondition, each result reshaped to a scalar is the closed form of the four arguments. -/
theorem kernel_outs_eq (m : (ℓ : Loc Cert.KernelIdeal.nD Cert.KernelIdeal.τ Cert.KernelIdeal.sig) → Buf (Elt Ideal) ℓ)
    (hpre : ∀ c : Dev Cert.KernelIdeal.nD, Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = fun _ => 1#1)
    (c : Dev Cert.KernelIdeal.nD) :
    shapeCast Cert.KernelIdeal.S_ (Cert.Proof.KI.outs (F := Ideal) m c).ml Cert.KernelIdeal.Facts₀.shapeCasts_S1x1_S_
        = (fun _ => Cert.GSpec.Gml (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (Cert.PreFacts.target_lt _ _ _ _ (hpre c)))
    ∧ shapeCast Cert.KernelIdeal.S_ (Cert.Proof.KI.outs (F := Ideal) m c).total Cert.KernelIdeal.Facts₀.shapeCasts_S1x1_S_
        = (fun _ => Cert.GSpec.Gtotal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (Cert.PreFacts.target_lt _ _ _ _ (hpre c)))
    ∧ shapeCast Cert.KernelIdeal.S_ (Cert.Proof.KI.outs (F := Ideal) m c).mean Cert.KernelIdeal.Facts₀.shapeCasts_S1x1_S_
        = (fun _ => Cert.GSpec.Gmean (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (Cert.PreFacts.target_lt _ _ _ _ (hpre c)))
    ∧ shapeCast Cert.KernelIdeal.S_ (Cert.Proof.KI.outs (F := Ideal) m c).std Cert.KernelIdeal.Facts₀.shapeCasts_S1x1_S_
        = (fun _ => Cert.GSpec.Gstd (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (Cert.PreFacts.target_lt _ _ _ _ (hpre c))) := by
  have hT := Cert.PreFacts.target_lt _ _ _ _ (hpre c)
  have h1 := Cert.PreFacts.finite_arg1 _ _ _ _ (hpre c)
  refine ⟨funext fun j => ?_, funext fun j => ?_, funext fun j => ?_, funext fun j => ?_⟩
  · rw [scalar_read, outs_eq]
    exact value_ml _ _ _ _ _ _ _ _ hT (rowsX_apply m c) (rowsM_apply m c) (rowsW_eq m c)
  · rw [scalar_read, outs_eq]
    exact value_total _ _ _ _ _ _ _ _ hT (rowsS_apply m c hT) (rowsX_apply m c) (rowsM_apply m c) (rowsW_eq m c)
  · rw [scalar_read, outs_eq]
    exact value_mean _ _ _ _ _ _ _ _ hT (rowsS_apply m c hT)
  · rw [scalar_read, outs_eq]
    exact value_std _ _ _ _ _ _ _ _ hT (rowsS_apply m c hT) h1

end Cert.Proof.KIValue

end
-- ==== Proof.Claims.lean ====
/-
  The certificate's five claims, assembled. The word-level program and the idealized one run from any memory whose
  target words are below the class count, which the precondition gives, and leave their arguments unchanged; the
  reference runs from any memory and leaves its arguments unchanged; the idealization rewrote no operation. Over the
  extended reals the idealized program's four results are the closed forms of `Cert.GSpec` of its arguments, and so
  are the reference's, of arguments that agree: the two programs end with equal results.
-/
import proofs.«419560_j5755256177164_3_alg».proof.Defs
import proofs.«419560_j5755256177164_3_alg».proof.Proof.Gen.Kernel
import proofs.«419560_j5755256177164_3_alg».proof.Proof.Gen.KernelIdeal
import proofs.«419560_j5755256177164_3_alg».proof.Proof.Gen.ReferenceIdeal
import proofs.«419560_j5755256177164_3_alg».proof.Proof.Gen.Pre_finite_inputs
import proofs.«419560_j5755256177164_3_alg».proof.Proof.GDefs
import proofs.«419560_j5755256177164_3_alg».proof.Proof.PreFacts
import proofs.«419560_j5755256177164_3_alg».proof.Proof.RefRun
import proofs.«419560_j5755256177164_3_alg».proof.Proof.RefValue
import proofs.«419560_j5755256177164_3_alg».proof.Proof.KILaunch
import proofs.«419560_j5755256177164_3_alg».proof.Proof.KLaunch
import proofs.«419560_j5755256177164_3_alg».proof.Proof.IdealGlue

noncomputable section

namespace Cert.Proof.Claims

open Idealize.ShloMosaic Idealize.ShloMosaic.TcCoe Idealize.SL.Sem

/-- The word-level program runs and leaves its arguments unchanged. -/
theorem frame_k : Cert.frame_Kernel := fun m g hpre =>
  (θ_run Cert.Kernel.defs _ _).mono (fun _ h c => (h c).2.2.2.2)
    (Cert.Proof.K.run_main (F := Bits) m g (Cert.Proof.K.hT_of_pre (F := Bits) m hpre))

/-- The idealized program runs and leaves its arguments unchanged. -/
theorem frame_ki : Cert.frame_KernelIdeal := fun m g hpre =>
  (θ_run Cert.KernelIdeal.defs _ _).mono (fun _ h c => (h c).2.2.2.2)
    (Cert.Proof.KI.run_main (F := Ideal) m g (Cert.Proof.KI.hT_of_pre (F := Ideal) m hpre))

/-- The reference runs and leaves its arguments unchanged. -/
theorem frame_ri : Cert.frame_ReferenceIdeal := fun m g _ =>
  (θ_run Cert.ReferenceIdeal.defs _ _).mono (fun _ h c => (h c).2.2.2.2) (Cert.RefSide.ref_run m g)

/-- The idealization rewrote no operation. -/
theorem preserves : Cert.preserves_Kernel_KernelIdeal := trivial

/-- Over the extended reals, from memories that agree on the arguments, the idealized program and the reference end
    with the same four results: both are the closed forms of `Cert.GSpec` of the arguments. -/
theorem algebraic : Cert.algebraic_KernelIdeal_ReferenceIdeal := by
  intro m g m' g' hpre hagree
  refine ⟨fun c => shapeCast Cert.KernelIdeal.S_ (Cert.Proof.KI.outs (F := Ideal) m c).ml Cert.KernelIdeal.Facts₀.shapeCasts_S1x1_S_,
    fun c => shapeCast Cert.KernelIdeal.S_ (Cert.Proof.KI.outs (F := Ideal) m c).total Cert.KernelIdeal.Facts₀.shapeCasts_S1x1_S_,
    fun c => shapeCast Cert.KernelIdeal.S_ (Cert.Proof.KI.outs (F := Ideal) m c).mean Cert.KernelIdeal.Facts₀.shapeCasts_S1x1_S_,
    fun c => shapeCast Cert.KernelIdeal.S_ (Cert.Proof.KI.outs (F := Ideal) m c).std Cert.KernelIdeal.Facts₀.shapeCasts_S1x1_S_,
    Cert.Proof.KI.run_main (F := Ideal) m g (Cert.Proof.KI.hT_of_pre (F := Ideal) m hpre), ?_⟩
  refine (θ_run Cert.ReferenceIdeal.defs _ _).mono (fun _ h c => ?_) (Cert.RefSide.ref_run m' g')
  obtain ⟨h0, h1, h2, h3, hrest⟩ := h c
  obtain ⟨k0, k1, k2, k3⟩ := Cert.Proof.KIValue.kernel_outs_eq m hpre c
  obtain ⟨e0, e1, e2, e3⟩ := hagree c
  refine ⟨?_, ?_, ?_, ?_, hrest⟩
  · rw [h0, e0, e1, e2, e3]
    exact (Cert.RefSide.refMl_eq _ _ _ _ _).trans k0.symm
  · rw [h1, e0, e1, e2, e3]
    exact (Cert.RefSide.refTotal_eq _ _ _ _ _).trans k1.symm
  · rw [h2, e0, e1, e2, e3]
    exact (Cert.RefSide.refMean_eq _ _ _ _ _).trans k2.symm
  · rw [h3, e0, e1, e2, e3]
    exact (Cert.RefSide.refStd_eq _ _ _ _ _).trans k3.symm

end Cert.Proof.Claims

end
-- ==== Proof.lean ====
/-
  The certificate of the fused word-smoothing loss kernel against its jnp reference.

  The kernel walks the 3072 = 128·24 token rows in 48 grid steps of 64 rows. For a row with target word w it copies row w
  of the 10000 × 10000 similarity matrix out of HBM into one of two VMEM row buffers (the copy for the next row is in
  flight while the current row is consumed; each of the two DMA semaphore cells carries at most one copy at a time and is
  waited for before its buffer is read), forms clip = s·[s ≥ 1/2] and smooth = exp((clip − 1)/τ)·[clip < 1], and adds six
  numbers into six (1,1) accumulators: the mask entry, the masked log-probability of the target column (picked by a
  one-hot lane sum), Σ_v mask·smooth, Σ_v (−logp)·(mask·smooth), Σ_v smooth and Σ_v smooth². The last step turns them into
  the four results: −Σ logp·mask / Σ mask; α·(Σ(−logp)·w / Σ w) + τ·(the first); the mean Σ smooth / N; and
  sqrt(max(Σ smooth² / N − mean², 0)).

  The reference gathers the matrix rows and the target columns with the same words, forms the same smooth array, and
  takes whole-array sums; its standard deviation is sqrt(Σ (smooth − mean)² / N). Over the extended reals, with finite
  similarities, Σ x²/N − (Σ x/N)² = Σ (x − Σ x/N)²/N ≥ 0, so the maximum with zero is the identity and the two standard
  deviations agree; every other result differs only in the grouping of its sums (rows in blocks of 64, lanes first).

  The precondition adds to the finiteness of the float inputs that every target word lies in [0, 10000): the word is
  both a row of the matrix and a column of the log-probabilities, and the kernel's row copy is addressed by it.

  The frames of the two kernel programs are one text read at the two float instances; the reference is a host program whose run is read off its operations.
-/
import proofs.«419560_j5755256177164_3_alg».proof.Defs
import proofs.«419560_j5755256177164_3_alg».proof.Proof.Gen.Kernel
import proofs.«419560_j5755256177164_3_alg».proof.Proof.Gen.Kernel.Skeleton
import proofs.«419560_j5755256177164_3_alg».proof.Proof.Gen.Kernel.Launch
import proofs.«419560_j5755256177164_3_alg».proof.Proof.Gen.Kernel.Flash
import proofs.«419560_j5755256177164_3_alg».proof.Proof.Gen.KernelIdeal
import proofs.«419560_j5755256177164_3_alg».proof.Proof.Gen.KernelIdeal.Skeleton
import proofs.«419560_j5755256177164_3_alg».proof.Proof.Gen.KernelIdeal.Launch
import proofs.«419560_j5755256177164_3_alg».proof.Proof.Gen.KernelIdeal.Flash
import proofs.«419560_j5755256177164_3_alg».proof.Proof.Gen.ReferenceIdeal
import proofs.«419560_j5755256177164_3_alg».proof.Proof.Gen.Pre_finite_inputs
import proofs.«419560_j5755256177164_3_alg».proof.Proof.Claims
import Idealize.ShloMosaic.Adequacy
import Idealize.ShloMosaic.Init

noncomputable section

namespace Cert.Proof

open Idealize.ShloMosaic Idealize.SL.Sem Cert.Kernel

/-- The three frames, the (empty) idealization ledger and the equality of the four results over the extended reals. -/
theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
